-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x10000x128 : Shape := ⟨3, ![2, 10000, 128]⟩
abbrev S2x10000x16x16 : Shape := ⟨4, ![2, 10000, 16, 16]⟩
abbrev S2x10000x16 : Shape := ⟨3, ![2, 10000, 16]⟩
abbrev S2x160000x2 : Shape := ⟨3, ![2, 160000, 2]⟩
abbrev S128x128 : Shape := ⟨2, ![128, 128]⟩
abbrev S16x16 : Shape := ⟨2, ![16, 16]⟩
abbrev S256x16 : Shape := ⟨2, ![256, 16]⟩
abbrev S128 : Shape := ⟨1, ![128]⟩
abbrev S16 : Shape := ⟨1, ![16]⟩
abbrev S_ : Shape := ⟨0, ![]⟩

class Facts : Prop where
  bcast_S_S2x10000x128 : S_.BroadcastsInDim S2x10000x128 (![] : Fin 0 → Fin S2x10000x128.rank)
  reducesTo_S2x10000x128_S_d0_1_2 : S2x10000x128.ReducesTo [0, 1, 2] S_
  h_S_ : 0 < S_.numel
  bcast_S_S2x10000x16x16 : S_.BroadcastsInDim S2x10000x16x16 (![] : Fin 0 → Fin S2x10000x16x16.rank)
  reducesTo_S2x10000x16x16_S_d0_1_2_3 : S2x10000x16x16.ReducesTo [0, 1, 2, 3] S_
  bcast_S_S128x128 : S_.BroadcastsInDim S128x128 (![] : Fin 0 → Fin S128x128.rank)
  reducesTo_S128x128_S_d0_1 : S128x128.ReducesTo [0, 1] S_
  bcast_S_S16x16 : S_.BroadcastsInDim S16x16 (![] : Fin 0 → Fin S16x16.rank)
  reducesTo_S16x16_S_d0_1 : S16x16.ReducesTo [0, 1] S_
  bcast_S_S256x16 : S_.BroadcastsInDim S256x16 (![] : Fin 0 → Fin S256x16.rank)
  reducesTo_S256x16_S_d0_1 : S256x16.ReducesTo [0, 1] S_
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_
  bcast_S_S2x10000x16 : S_.BroadcastsInDim S2x10000x16 (![] : Fin 0 → Fin S2x10000x16.rank)
  reducesTo_S2x10000x16_S_d0_1_2 : S2x10000x16.ReducesTo [0, 1, 2] S_
  bcast_S_S2x160000x2 : S_.BroadcastsInDim S2x160000x2 (![] : Fin 0 → Fin S2x160000x2.rank)
  reducesTo_S2x160000x2_S_d0_1_2 : S2x160000x2.ReducesTo [0, 1, 2] S_
  reducesTo_S2x10000x16x16_S2x10000x16_d3 : S2x10000x16x16.ReducesTo [3] S2x10000x16

variable [Facts]

def fn_part3 {F : FTy → Type} [FloatOps F] (main_arg1 : FVec F S2x10000x16x16 .f32) (main_v45 : IVec S_ 1) (main_v50 : IVec S2x160000x2 1) : IVec S_ 1 :=
  let main_c_19 : IVec S_ 1 := constantI S_ 1 1#1
  let main_v51 : IVec S_ 1 := (fun x v => Host.reduce IntOp.andi x v reducesTo_S2x160000x2_S_d0_1_2 h_S_) main_v50 main_c_19
  let main_v52 : IVec S_ 1 := andi main_v45 main_v51
  let main_v53 : FVec F S2x10000x16x16 .f32 := mulf main_arg1 main_arg1
  let main_cst_20 : FVec F S_ .f32 := constant S_ .f32 0x00000000#32
  let main_v54 : FVec F S2x10000x16 .f32 := (fun x v => Host.reduceAdd x v reducesTo_S2x10000x16x16_S2x10000x16_d3 h_S_) main_v53 main_cst_20
  let main_cst_21 : FVec F S_ .f32 := constant S_ .f32 0x00000000#32
  let main_v55 : FVec F S2x10000x16 .f32 := broadcastInDim S2x10000x16 ![] bcast_S_S2x10000x16 main_cst_21
  let main_v56 : IVec S2x10000x16 1 := cmpf .ogt main_v54 main_v55
  let main_c_22 : IVec S_ 1 := constantI S_ 1 1#1
  let main_v57 : IVec S_ 1 := (fun x v => Host.reduce IntOp.andi x v reducesTo_S2x10000x16_S_d0_1_2 h_S_) main_v56 main_c_22
  let main_v58 : IVec S_ 1 := andi main_v52 main_v57
  main_v58

def fn_part2 {F : FTy → Type} [FloatOps F] (main_arg1 : FVec F S2x10000x16x16 .f32) (main_arg2 : IVec S2x10000x16 32) (main_arg3 : IVec S2x160000x2 32) (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_c_14 : IVec S_ 32 := constantI S_ 32 0#32
  let main_v39 : IVec S2x10000x16 32 := broadcastInDim S2x10000x16 ![] bcast_S_S2x10000x16 main_c_14
  let main_v40 : IVec S2x10000x16 1 := cmpi .sge main_arg2 main_v39
  let main_c_15 : IVec S_ 32 := constantI S_ 32 9999#32
  let main_v41 : IVec S2x10000x16 32 := broadcastInDim S2x10000x16 ![] bcast_S_S2x10000x16 main_c_15
  let main_v42 : IVec S2x10000x16 1 := cmpi .sle main_arg2 main_v41
  let main_v43 : IVec S2x10000x16 1 := andi main_v40 main_v42
  let main_c_16 : IVec S_ 1 := constantI S_ 1 1#1
  let main_v44 : IVec S_ 1 := (fun x v => Host.reduce IntOp.andi x v reducesTo_S2x10000x16_S_d0_1_2 h_S_) main_v43 main_c_16
  let main_v45 : IVec S_ 1 := andi main_v38 main_v44
  let main_c_17 : IVec S_ 32 := constantI S_ 32 0#32
  let main_v46 : IVec S2x160000x2 32 := broadcastInDim S2x160000x2 ![] bcast_S_S2x160000x2 main_c_17
  let main_v47 : IVec S2x160000x2 1 := cmpi .sge main_arg3 main_v46
  let main_c_18 : IVec S_ 32 := constantI S_ 32 9999#32
  let main_v48 : IVec S2x160000x2 32 := broadcastInDim S2x160000x2 ![] bcast_S_S2x160000x2 main_c_18
  let main_v49 : IVec S2x160000x2 1 := cmpi .sle main_arg3 main_v48
  let main_v50 : IVec S2x160000x2 1 := andi main_v47 main_v49
  fn_part3 (F := F) main_arg1 main_v45 main_v50

def fn_part1 {F : FTy → Type} [FloatOps F] (main_arg1 : FVec F S2x10000x16x16 .f32) (main_arg2 : IVec S2x10000x16 32) (main_arg3 : IVec S2x160000x2 32) (main_arg6 : FVec F S256x16 .f32) (main_arg7 : FVec F S128 .f32) (main_arg8 : FVec F S16 .f32) (main_arg9 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S256x16 .f32 := Host.absf main_arg6
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg2 main_arg3 main_arg9 main_v33

def fn {F : FTy → Type} [FloatOps F] (main_arg0 : FVec F S2x10000x128 .f32) (main_arg1 : FVec F S2x10000x16x16 .f32) (main_arg2 : IVec S2x10000x16 32) (main_arg3 : IVec S2x160000x2 32) (main_arg4 : FVec F S128x128 .f32) (main_arg5 : FVec F S16x16 .f32) (main_arg6 : FVec F S256x16 .f32) (main_arg7 : FVec F S128 .f32) (main_arg8 : FVec F S16 .f32) (main_arg9 : FVec F S16 .f32) : IVec S_ 1 :=
  let main_v0 : FVec F S2x10000x128 .f32 := Host.absf main_arg0
  let main_cst : FVec F S_ .f32 := constant S_ .f32 0x7F800000#32
  let main_v1 : FVec F S2x10000x128 .f32 := broadcastInDim S2x10000x128 ![] bcast_S_S2x10000x128 main_cst
  let main_v2 : IVec S2x10000x128 1 := cmpf .olt main_v0 main_v1
  let main_c : IVec S_ 1 := constantI S_ 1 1#1
  let main_v3 : IVec S_ 1 := (fun x v => Host.reduce IntOp.andi x v reducesTo_S2x10000x128_S_d0_1_2 h_S_) main_v2 main_c
  let main_v4 : FVec F S2x10000x16x16 .f32 := Host.absf main_arg1
  let main_cst_0 : FVec F S_ .f32 := constant S_ .f32 0x7F800000#32
  let main_v5 : FVec F S2x10000x16x16 .f32 := broadcastInDim S2x10000x16x16 ![] bcast_S_S2x10000x16x16 main_cst_0
  let main_v6 : IVec S2x10000x16x16 1 := cmpf .olt main_v4 main_v5
  let main_c_1 : IVec S_ 1 := constantI S_ 1 1#1
  let main_v7 : IVec S_ 1 := (fun x v => Host.reduce IntOp.andi x v reducesTo_S2x10000x16x16_S_d0_1_2_3 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg1 main_arg2 main_arg3 main_arg6 main_arg7 main_arg8 main_arg9 main_v13 main_v16
-- ==== Kernel.lean ====
abbrev S2x10000x128 : Shape := ⟨3, ![2, 10000, 128]⟩
abbrev S2x10000x16x16 : Shape := ⟨4, ![2, 10000, 16, 16]⟩
abbrev S2x10000x16 : Shape := ⟨3, ![2, 10000, 16]⟩
abbrev S2x160000x2 : Shape := ⟨3, ![2, 160000, 2]⟩
abbrev S128x128 : Shape := ⟨2, ![128, 128]⟩
abbrev S16x16 : Shape := ⟨2, ![16, 16]⟩
abbrev S256x16 : Shape := ⟨2, ![256, 16]⟩
abbrev S128 : Shape := ⟨1, ![128]⟩
abbrev S16 : Shape := ⟨1, ![16]⟩
abbrev S20000x128 : Shape := ⟨2, ![20000, 128]⟩
abbrev S2000x128 : Shape := ⟨2, ![2000, 128]⟩
abbrev S2 : Shape := ⟨1, ![2]⟩
abbrev S_ : Shape := ⟨0, ![]⟩
abbrev S2x1x1 : Shape := ⟨3, ![2, 1, 1]⟩
abbrev S320000 : Shape := ⟨1, ![320000]⟩
abbrev S320000x128 : Shape := ⟨2, ![320000, 128]⟩
abbrev S6x128 : Shape := ⟨2, ![6, 128]⟩
abbrev S6x128x128 : Shape := ⟨3, ![6, 128, 128]⟩
abbrev S6 : Shape := ⟨1, ![6]⟩
abbrev S1x128 : Shape := ⟨2, ![1, 128]⟩
abbrev S1 : Shape := ⟨1, ![1]⟩
abbrev S1x128x128 : Shape := ⟨3, ![1, 128, 128]⟩
abbrev S6400x128 : Shape := ⟨2, ![6400, 128]⟩
abbrev S1x400x16x16 : Shape := ⟨4, ![1, 400, 16, 16]⟩
abbrev S400x128 : Shape := ⟨2, ![400, 128]⟩
abbrev S1x400x128 : Shape := ⟨3, ![1, 400, 128]⟩
abbrev S400x16x128 : Shape := ⟨3, ![400, 16, 128]⟩
abbrev S400x16x16 : Shape := ⟨3, ![400, 16, 16]⟩
abbrev S400x16 : Shape := ⟨2, ![400, 16]⟩
abbrev S400x16x1 : Shape := ⟨3, ![400, 16, 1]⟩
abbrev S400x1 : Shape := ⟨2, ![400, 1]⟩
abbrev S400x1x1 : Shape := ⟨3, ![400, 1, 1]⟩
abbrev S2x160000x1 : Shape := ⟨3, ![2, 160000, 1]⟩
abbrev S2x160000 : Shape := ⟨2, ![2, 160000]⟩
abbrev S2x1 : Shape := ⟨2, ![2, 1]⟩
abbrev S640000 : Shape := ⟨1, ![640000]⟩
abbrev S640000x128 : Shape := ⟨2, ![640000, 128]⟩
abbrev S128x16 : Shape := ⟨2, ![128, 16]⟩
abbrev S1x16 : Shape := ⟨2, ![1, 16]⟩
abbrev S1x125x16x16 : Shape := ⟨4, ![1, 125, 16, 16]⟩
abbrev S4x128 : Shape := ⟨2, ![4, 128]⟩
abbrev S2000x16 : Shape := ⟨2, ![2000, 16]⟩

abbrev nBuf : Table → Nat
  | .hbm => 43
  | .local .tc .vmem => 28
  | .local .scVector .vmem => 4
  | _ => 0

abbrev bufTy : (tb : Table) → Fin (nBuf tb) → BufTy
  | .hbm, ⟨0, _⟩ => ⟨S2x10000x128, .f32⟩
  | .hbm, ⟨1, _⟩ => ⟨S2x10000x16x16, .f32⟩
  | .hbm, ⟨2, _⟩ => ⟨S2x10000x16, .i32⟩
  | .hbm, ⟨3, _⟩ => ⟨S2x160000x2, .i32⟩
  | .hbm, ⟨4, _⟩ => ⟨S128x128, .f32⟩
  | .hbm, ⟨5, _⟩ => ⟨S16x16, .f32⟩
  | .hbm, ⟨6, _⟩ => ⟨S256x16, .f32⟩
  | .hbm, ⟨7, _⟩ => ⟨S128, .f32⟩
  | .hbm, ⟨8, _⟩ => ⟨S16, .f32⟩
  | .hbm, ⟨9, _⟩ => ⟨S16, .f32⟩
  | .hbm, ⟨10, _⟩ => ⟨S20000x128, .f32⟩
  | .hbm, ⟨11, _⟩ => ⟨S20000x128, .f32⟩
  | .hbm, ⟨12, _⟩ => ⟨S2, .i32⟩
  | .hbm, ⟨13, _⟩ => ⟨S_, .i32⟩
  | .hbm, ⟨14, _⟩ => ⟨S2, .i32⟩
  | .hbm, ⟨15, _⟩ => ⟨S2, .i32⟩
  | .hbm, ⟨16, _⟩ => ⟨S2x1x1, .i32⟩
  | .hbm, ⟨17, _⟩ => ⟨S2x10000x16, .i32⟩
  | .hbm, ⟨18, _⟩ => ⟨S2x10000x16, .i32⟩
  | .hbm, ⟨19, _⟩ => ⟨S320000, .i32⟩
  | .hbm, ⟨20, _⟩ => ⟨S320000x128, .f32⟩
  | .hbm, ⟨21, _⟩ => ⟨S1x128, .f32⟩
  | .hbm, ⟨22, _⟩ => ⟨S2x10000x128, .f32⟩
  | .hbm, ⟨23, _⟩ => ⟨S20000x128, .f32⟩
  | .hbm, ⟨24, _⟩ => ⟨S2x160000x1, .i32⟩
  | .hbm, ⟨25, _⟩ => ⟨S2x160000, .i32⟩
  | .hbm, ⟨26, _⟩ => ⟨S2x160000x1, .i32⟩
  | .hbm, ⟨27, _⟩ => ⟨S2x160000, .i32⟩
  | .hbm, ⟨28, _⟩ => ⟨S2x1, .i32⟩
  | .hbm, ⟨29, _⟩ => ⟨S2x160000, .i32⟩
  | .hbm, ⟨30, _⟩ => ⟨S2x160000, .i32⟩
  | .hbm, ⟨31, _⟩ => ⟨S320000, .i32⟩
  | .hbm, ⟨32, _⟩ => ⟨S2x1, .i32⟩
  | .hbm, ⟨33, _⟩ => ⟨S2x160000, .i32⟩
  | .hbm, ⟨34, _⟩ => ⟨S2x160000, .i32⟩
  | .hbm, ⟨35, _⟩ => ⟨S320000, .i32⟩
  | .hbm, ⟨36, _⟩ => ⟨S640000, .i32⟩
  | .hbm, ⟨37, _⟩ => ⟨S640000x128, .f32⟩
  | .hbm, ⟨38, _⟩ => ⟨S128x16, .f32⟩
  | .hbm, ⟨39, _⟩ => ⟨S128x16, .f32⟩
  | .hbm, ⟨40, _⟩ => ⟨S1x16, .f32⟩
  | .hbm, ⟨41, _⟩ => ⟨S1x16, .f32⟩
  | .hbm, ⟨42, _⟩ => ⟨S2x10000x16x16, .f32⟩
  | .local .tc .vmem, ⟨0, _⟩ => ⟨S2000x128, .f32⟩
  | .local .tc .vmem, ⟨1, _⟩ => ⟨S2000x128, .f32⟩
  | .local .tc .vmem, ⟨2, _⟩ => ⟨S2000x128, .f32⟩
  | .local .tc .vmem, ⟨3, _⟩ => ⟨S2000x128, .f32⟩
  | .local .tc .vmem, ⟨4, _⟩ => ⟨S6400x128, .f32⟩
  | .local .tc .vmem, ⟨5, _⟩ => ⟨S6400x128, .f32⟩
  | .local .tc .vmem, ⟨6, _⟩ => ⟨S1x400x16x16, .f32⟩
  | .local .tc .vmem, ⟨7, _⟩ => ⟨S1x400x16x16, .f32⟩
  | .local .tc .vmem, ⟨8, _⟩ => ⟨S400x128, .f32⟩
  | .local .tc .vmem, ⟨9, _⟩ => ⟨S400x128, .f32⟩
  | .local .tc .vmem, ⟨10, _⟩ => ⟨S128x128, .f32⟩
  | .local .tc .vmem, ⟨11, _⟩ => ⟨S1x128, .f32⟩
  | .local .tc .vmem, ⟨12, _⟩ => ⟨S1x400x128, .f32⟩
  | .local .tc .vmem, ⟨13, _⟩ => ⟨S1x400x128, .f32⟩
  | .local .tc .vmem, ⟨14, _⟩ => ⟨S1x125x16x16, .f32⟩
  | .local .tc .vmem, ⟨15, _⟩ => ⟨S1x125x16x16, .f32⟩
  | .local .tc .vmem, ⟨16, _⟩ => ⟨S2000x128, .f32⟩
  | .local .tc .vmem, ⟨17, _⟩ => ⟨S2000x128, .f32⟩
  | .local .tc .vmem, ⟨18, _⟩ => ⟨S2000x128, .f32⟩
  | .local .tc .vmem, ⟨19, _⟩ => ⟨S2000x128, .f32⟩
  | .local .tc .vmem, ⟨20, _⟩ => ⟨S128x16, .f32⟩
  | .local .tc .vmem, ⟨21, _⟩ => ⟨S128x16, .f32⟩
  | .local .tc .vmem, ⟨22, _⟩ => ⟨S16x16, .f32⟩
  | .local .tc .vmem, ⟨23, _⟩ => ⟨S1x16, .f32⟩
  | .local .tc .vmem, ⟨24, _⟩ => ⟨S1x16, .f32⟩
  | .local .tc .vmem, ⟨25, _⟩ => ⟨S1x125x16x16, .f32⟩
  | .local .tc .vmem, ⟨26, _⟩ => ⟨S1x125x16x16, .f32⟩
  | .local .tc .vmem, ⟨27, _⟩ => ⟨S4x128, .f32⟩
  | .local .scVector .vmem, ⟨0, _⟩ => ⟨S6x128, .i32⟩
  | .local .scVector .vmem, ⟨1, _⟩ => ⟨S6x128x128, .f32⟩
  | .local .scVector .vmem, ⟨2, _⟩ => ⟨S6x128, .i32⟩
  | .local .scVector .vmem, ⟨3, _⟩ => ⟨S6x128x128, .f32⟩
  | _, _ => ⟨S2x10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 63 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTables nBuf rfl bufTy 4 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v1_scv : Ref sig .scVector := ⟨.hbm, 11, rfl⟩
abbrev main_v8_scv : Ref sig .scVector := ⟨.hbm, 19, rfl⟩
abbrev main_v9_scv : Ref sig .scVector := ⟨.hbm, 20, rfl⟩
abbrev main_v12_scv : Ref sig .scVector := ⟨.hbm, 23, rfl⟩
abbrev main_v25_scv : Ref sig .scVector := ⟨.hbm, 36, rfl⟩
abbrev main_v26_scv : Ref sig .scVector := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg5_1 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg1_1 : Ref sig .tc := ⟨.vmem, 17, rfl⟩
abbrev cc4_stg2_0 : Ref sig .tc := ⟨.vmem, 18, rfl⟩
abbrev cc4_stg2_1 : Ref sig .tc := ⟨.vmem, 19, rfl⟩
abbrev cc4_stg3_0 : Ref sig .tc := ⟨.vmem, 20, rfl⟩
abbrev cc4_stg4_0 : Ref sig .tc := ⟨.vmem, 21, rfl⟩
abbrev cc4_stg5_0 : Ref sig .tc := ⟨.vmem, 22, rfl⟩
abbrev cc4_stg6_0 : Ref sig .tc := ⟨.vmem, 23, rfl⟩
abbrev cc4_stg7_0 : Ref sig .tc := ⟨.vmem, 24, rfl⟩
abbrev cc4_stg8_0 : Ref sig .tc := ⟨.vmem, 25, rfl⟩
abbrev cc4_stg8_1 : Ref sig .tc := ⟨.vmem, 26, rfl⟩
abbrev cc4_scratch0 : Ref sig .tc := ⟨.vmem, 27, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem8_1 : DmaSem sig := 62
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_2 : BitVec 32 := 0#32
  let v9 : BitVec 32 := Scalar.addi v4 c0_i32_2
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v10 : BitVec 1 := Scalar.cmpi .slt v9 v8
  let v11 : BitVec 32 := Scalar.extui v10
  let c0_i32_3 : BitVec 32 := 0#32
  let v12 : BitVec 1 := Scalar.cmpi .ne v11 c0_i32_3
  v12

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_2 : BitVec 32 := 0#32
  let v9 : BitVec 32 := Scalar.addi v4 c0_i32_2
  let c128_i32_68 : BitVec 32 := 128#32
  let v88 : BitVec 32 := Scalar.muli v9 c128_i32_68
  ![v88.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c1_i32_4 : BitVec 32 := 1#32
  let v13 : BitVec 32 := Scalar.addi v4 c1_i32_4
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v14 : BitVec 1 := Scalar.cmpi .slt v13 v8
  let v15 : BitVec 32 := Scalar.extui v14
  let c0_i32_5 : BitVec 32 := 0#32
  let v16 : BitVec 1 := Scalar.cmpi .ne v15 c0_i32_5
  v16

def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c1_i32_4 : BitVec 32 := 1#32
  let v13 : BitVec 32 := Scalar.addi v4 c1_i32_4
  let c128_i32_68 : BitVec 32 := 128#32
  let v88 : BitVec 32 := Scalar.muli v13 c128_i32_68
  ![v88.toNat]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c2_i32_6 : BitVec 32 := 2#32
  let v17 : BitVec 32 := Scalar.addi v4 c2_i32_6
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v18 : BitVec 1 := Scalar.cmpi .slt v17 v8
  let v19 : BitVec 32 := Scalar.extui v18
  let c0_i32_7 : BitVec 32 := 0#32
  let v20 : BitVec 1 := Scalar.cmpi .ne v19 c0_i32_7
  v20

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c2_i32_6 : BitVec 32 := 2#32
  let v17 : BitVec 32 := Scalar.addi v4 c2_i32_6
  let c128_i32_68 : BitVec 32 := 128#32
  let v88 : BitVec 32 := Scalar.muli v17 c128_i32_68
  ![v88.toNat]
def k1_cond4 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c3_i32 : BitVec 32 := 3#32
  let v21 : BitVec 32 := Scalar.addi v4 c3_i32
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v22 : BitVec 1 := Scalar.cmpi .slt v21 v8
  let v23 : BitVec 32 := Scalar.extui v22
  let c0_i32_8 : BitVec 32 := 0#32
  let v24 : BitVec 1 := Scalar.cmpi .ne v23 c0_i32_8
  v24

def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c3_i32 : BitVec 32 := 3#32
  let v21 : BitVec 32 := Scalar.addi v4 c3_i32
  let c128_i32_68 : BitVec 32 := 128#32
  let v88 : BitVec 32 := Scalar.muli v21 c128_i32_68
  ![v88.toNat]
def k1_cond5 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c4_i32_9 : BitVec 32 := 4#32
  let v25 : BitVec 32 := Scalar.addi v4 c4_i32_9
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v26 : BitVec 1 := Scalar.cmpi .slt v25 v8
  let v27 : BitVec 32 := Scalar.extui v26
  let c0_i32_10 : BitVec 32 := 0#32
  let v28 : BitVec 1 := Scalar.cmpi .ne v27 c0_i32_10
  v28

def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c4_i32_9 : BitVec 32 := 4#32
  let v25 : BitVec 32 := Scalar.addi v4 c4_i32_9
  let c128_i32_68 : BitVec 32 := 128#32
  let v88 : BitVec 32 := Scalar.muli v25 c128_i32_68
  ![v88.toNat]
def k1_cond6 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c5_i32 : BitVec 32 := 5#32
  let v29 : BitVec 32 := Scalar.addi v4 c5_i32
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v30 : BitVec 1 := Scalar.cmpi .slt v29 v8
  let v31 : BitVec 32 := Scalar.extui v30
  let c0_i32_11 : BitVec 32 := 0#32
  let v32 : BitVec 1 := Scalar.cmpi .ne v31 c0_i32_11
  v32

def k1_off6 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c5_i32 : BitVec 32 := 5#32
  let v29 : BitVec 32 := Scalar.addi v4 c5_i32
  let c128_i32_68 : BitVec 32 := 128#32
  let v88 : BitVec 32 := Scalar.muli v29 c128_i32_68
  ![v88.toNat]
@[reducible] def k1_t1_loop : Scf.Loop 32 :=
  let c0_i32_12 : BitVec 32 := 0#32
  let c14_i32 : BitVec 32 := 14#32
  let v33 : BitVec 32 := Scalar.addi c0_i32_12 c14_i32
  let c1_i32_13 : BitVec 32 := 1#32
  ⟨c0_i32_12, v33, c1_i32_13⟩
def k1_cond7 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32 : BitVec 32 := 6#32
  let v90 : BitVec 32 := Scalar.muli v89 c6_i32
  let v91 : BitVec 32 := Scalar.addi v4 v90
  let c0_i32_70 : BitVec 32 := 0#32
  let v92 : BitVec 32 := Scalar.addi v91 c0_i32_70
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v93 : BitVec 1 := Scalar.cmpi .slt v92 v8
  let v94 : BitVec 32 := Scalar.extui v93
  let c0_i32_71 : BitVec 32 := 0#32
  let v95 : BitVec 1 := Scalar.cmpi .ne v94 c0_i32_71
  v95

def k1_cond8 (k1_t1 : Fin k1_t1_loop.trips) : BitVec 1 :=
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c0_i32_105 : BitVec 32 := 0#32
  let v162 : BitVec 1 := Scalar.cmpi .sgt v89 c0_i32_105
  let v163 : BitVec 32 := Scalar.extui v162
  let c0_i32_106 : BitVec 32 := 0#32
  let v164 : BitVec 1 := Scalar.cmpi .ne v163 c0_i32_106
  v164

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32 : BitVec 32 := 6#32
  let v90 : BitVec 32 := Scalar.muli v89 c6_i32
  let v91 : BitVec 32 := Scalar.addi v4 v90
  let c0_i32_70 : BitVec 32 := 0#32
  let v92 : BitVec 32 := Scalar.addi v91 c0_i32_70
  let c128_i32_120 : BitVec 32 := 128#32
  let v181 : BitVec 32 := Scalar.muli v92 c128_i32_120
  let c0_i32_125 : BitVec 32 := 0#32
  ![v181.toNat, 0]
def k1_off8 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32 : BitVec 32 := 6#32
  let v90 : BitVec 32 := Scalar.muli v89 c6_i32
  let v91 : BitVec 32 := Scalar.addi v4 v90
  let c0_i32_70 : BitVec 32 := 0#32
  let v92 : BitVec 32 := Scalar.addi v91 c0_i32_70
  let c128_i32_107 : BitVec 32 := 128#32
  let v165 : BitVec 32 := Scalar.muli v92 c128_i32_107
  ![v165.toNat]
def k1_cond9 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_72 : BitVec 32 := 6#32
  let v96 : BitVec 32 := Scalar.muli v89 c6_i32_72
  let v97 : BitVec 32 := Scalar.addi v4 v96
  let c1_i32_73 : BitVec 32 := 1#32
  let v98 : BitVec 32 := Scalar.addi v97 c1_i32_73
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v99 : BitVec 1 := Scalar.cmpi .slt v98 v8
  let v100 : BitVec 32 := Scalar.extui v99
  let c0_i32_74 : BitVec 32 := 0#32
  let v101 : BitVec 1 := Scalar.cmpi .ne v100 c0_i32_74
  v101

def k1_cond10 (k1_t1 : Fin k1_t1_loop.trips) : BitVec 1 :=
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c0_i32_105 : BitVec 32 := 0#32
  let v162 : BitVec 1 := Scalar.cmpi .sgt v89 c0_i32_105
  let v163 : BitVec 32 := Scalar.extui v162
  let c0_i32_106 : BitVec 32 := 0#32
  let v164 : BitVec 1 := Scalar.cmpi .ne v163 c0_i32_106
  v164

def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_72 : BitVec 32 := 6#32
  let v96 : BitVec 32 := Scalar.muli v89 c6_i32_72
  let v97 : BitVec 32 := Scalar.addi v4 v96
  let c1_i32_73 : BitVec 32 := 1#32
  let v98 : BitVec 32 := Scalar.addi v97 c1_i32_73
  let c128_i32_120 : BitVec 32 := 128#32
  let v181 : BitVec 32 := Scalar.muli v98 c128_i32_120
  let c0_i32_125 : BitVec 32 := 0#32
  ![v181.toNat, 0]
def k1_off10 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_72 : BitVec 32 := 6#32
  let v96 : BitVec 32 := Scalar.muli v89 c6_i32_72
  let v97 : BitVec 32 := Scalar.addi v4 v96
  let c1_i32_73 : BitVec 32 := 1#32
  let v98 : BitVec 32 := Scalar.addi v97 c1_i32_73
  let c128_i32_107 : BitVec 32 := 128#32
  let v165 : BitVec 32 := Scalar.muli v98 c128_i32_107
  ![v165.toNat]
def k1_cond11 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_75 : BitVec 32 := 6#32
  let v102 : BitVec 32 := Scalar.muli v89 c6_i32_75
  let v103 : BitVec 32 := Scalar.addi v4 v102
  let c2_i32_76 : BitVec 32 := 2#32
  let v104 : BitVec 32 := Scalar.addi v103 c2_i32_76
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v105 : BitVec 1 := Scalar.cmpi .slt v104 v8
  let v106 : BitVec 32 := Scalar.extui v105
  let c0_i32_77 : BitVec 32 := 0#32
  let v107 : BitVec 1 := Scalar.cmpi .ne v106 c0_i32_77
  v107

def k1_cond12 (k1_t1 : Fin k1_t1_loop.trips) : BitVec 1 :=
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c0_i32_105 : BitVec 32 := 0#32
  let v162 : BitVec 1 := Scalar.cmpi .sgt v89 c0_i32_105
  let v163 : BitVec 32 := Scalar.extui v162
  let c0_i32_106 : BitVec 32 := 0#32
  let v164 : BitVec 1 := Scalar.cmpi .ne v163 c0_i32_106
  v164

def k1_off11 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_75 : BitVec 32 := 6#32
  let v102 : BitVec 32 := Scalar.muli v89 c6_i32_75
  let v103 : BitVec 32 := Scalar.addi v4 v102
  let c2_i32_76 : BitVec 32 := 2#32
  let v104 : BitVec 32 := Scalar.addi v103 c2_i32_76
  let c128_i32_120 : BitVec 32 := 128#32
  let v181 : BitVec 32 := Scalar.muli v104 c128_i32_120
  let c0_i32_125 : BitVec 32 := 0#32
  ![v181.toNat, 0]
def k1_off12 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_75 : BitVec 32 := 6#32
  let v102 : BitVec 32 := Scalar.muli v89 c6_i32_75
  let v103 : BitVec 32 := Scalar.addi v4 v102
  let c2_i32_76 : BitVec 32 := 2#32
  let v104 : BitVec 32 := Scalar.addi v103 c2_i32_76
  let c128_i32_107 : BitVec 32 := 128#32
  let v165 : BitVec 32 := Scalar.muli v104 c128_i32_107
  ![v165.toNat]
def k1_cond13 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_78 : BitVec 32 := 6#32
  let v108 : BitVec 32 := Scalar.muli v89 c6_i32_78
  let v109 : BitVec 32 := Scalar.addi v4 v108
  let c3_i32_79 : BitVec 32 := 3#32
  let v110 : BitVec 32 := Scalar.addi v109 c3_i32_79
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v111 : BitVec 1 := Scalar.cmpi .slt v110 v8
  let v112 : BitVec 32 := Scalar.extui v111
  let c0_i32_80 : BitVec 32 := 0#32
  let v113 : BitVec 1 := Scalar.cmpi .ne v112 c0_i32_80
  v113

def k1_cond14 (k1_t1 : Fin k1_t1_loop.trips) : BitVec 1 :=
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c0_i32_105 : BitVec 32 := 0#32
  let v162 : BitVec 1 := Scalar.cmpi .sgt v89 c0_i32_105
  let v163 : BitVec 32 := Scalar.extui v162
  let c0_i32_106 : BitVec 32 := 0#32
  let v164 : BitVec 1 := Scalar.cmpi .ne v163 c0_i32_106
  v164

def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_78 : BitVec 32 := 6#32
  let v108 : BitVec 32 := Scalar.muli v89 c6_i32_78
  let v109 : BitVec 32 := Scalar.addi v4 v108
  let c3_i32_79 : BitVec 32 := 3#32
  let v110 : BitVec 32 := Scalar.addi v109 c3_i32_79
  let c128_i32_120 : BitVec 32 := 128#32
  let v181 : BitVec 32 := Scalar.muli v110 c128_i32_120
  let c0_i32_125 : BitVec 32 := 0#32
  ![v181.toNat, 0]
def k1_off14 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_78 : BitVec 32 := 6#32
  let v108 : BitVec 32 := Scalar.muli v89 c6_i32_78
  let v109 : BitVec 32 := Scalar.addi v4 v108
  let c3_i32_79 : BitVec 32 := 3#32
  let v110 : BitVec 32 := Scalar.addi v109 c3_i32_79
  let c128_i32_107 : BitVec 32 := 128#32
  let v165 : BitVec 32 := Scalar.muli v110 c128_i32_107
  ![v165.toNat]
def k1_cond15 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_81 : BitVec 32 := 6#32
  let v114 : BitVec 32 := Scalar.muli v89 c6_i32_81
  let v115 : BitVec 32 := Scalar.addi v4 v114
  let c4_i32_82 : BitVec 32 := 4#32
  let v116 : BitVec 32 := Scalar.addi v115 c4_i32_82
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v117 : BitVec 1 := Scalar.cmpi .slt v116 v8
  let v118 : BitVec 32 := Scalar.extui v117
  let c0_i32_83 : BitVec 32 := 0#32
  let v119 : BitVec 1 := Scalar.cmpi .ne v118 c0_i32_83
  v119

def k1_cond16 (k1_t1 : Fin k1_t1_loop.trips) : BitVec 1 :=
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c0_i32_105 : BitVec 32 := 0#32
  let v162 : BitVec 1 := Scalar.cmpi .sgt v89 c0_i32_105
  let v163 : BitVec 32 := Scalar.extui v162
  let c0_i32_106 : BitVec 32 := 0#32
  let v164 : BitVec 1 := Scalar.cmpi .ne v163 c0_i32_106
  v164

def k1_off15 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_81 : BitVec 32 := 6#32
  let v114 : BitVec 32 := Scalar.muli v89 c6_i32_81
  let v115 : BitVec 32 := Scalar.addi v4 v114
  let c4_i32_82 : BitVec 32 := 4#32
  let v116 : BitVec 32 := Scalar.addi v115 c4_i32_82
  let c128_i32_120 : BitVec 32 := 128#32
  let v181 : BitVec 32 := Scalar.muli v116 c128_i32_120
  let c0_i32_125 : BitVec 32 := 0#32
  ![v181.toNat, 0]
def k1_off16 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_81 : BitVec 32 := 6#32
  let v114 : BitVec 32 := Scalar.muli v89 c6_i32_81
  let v115 : BitVec 32 := Scalar.addi v4 v114
  let c4_i32_82 : BitVec 32 := 4#32
  let v116 : BitVec 32 := Scalar.addi v115 c4_i32_82
  let c128_i32_107 : BitVec 32 := 128#32
  let v165 : BitVec 32 := Scalar.muli v116 c128_i32_107
  ![v165.toNat]
def k1_cond17 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_84 : BitVec 32 := 6#32
  let v120 : BitVec 32 := Scalar.muli v89 c6_i32_84
  let v121 : BitVec 32 := Scalar.addi v4 v120
  let c5_i32_85 : BitVec 32 := 5#32
  let v122 : BitVec 32 := Scalar.addi v121 c5_i32_85
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v123 : BitVec 1 := Scalar.cmpi .slt v122 v8
  let v124 : BitVec 32 := Scalar.extui v123
  let c0_i32_86 : BitVec 32 := 0#32
  let v125 : BitVec 1 := Scalar.cmpi .ne v124 c0_i32_86
  v125

def k1_cond18 (k1_t1 : Fin k1_t1_loop.trips) : BitVec 1 :=
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c0_i32_105 : BitVec 32 := 0#32
  let v162 : BitVec 1 := Scalar.cmpi .sgt v89 c0_i32_105
  let v163 : BitVec 32 := Scalar.extui v162
  let c0_i32_106 : BitVec 32 := 0#32
  let v164 : BitVec 1 := Scalar.cmpi .ne v163 c0_i32_106
  v164

def k1_off17 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_84 : BitVec 32 := 6#32
  let v120 : BitVec 32 := Scalar.muli v89 c6_i32_84
  let v121 : BitVec 32 := Scalar.addi v4 v120
  let c5_i32_85 : BitVec 32 := 5#32
  let v122 : BitVec 32 := Scalar.addi v121 c5_i32_85
  let c128_i32_120 : BitVec 32 := 128#32
  let v181 : BitVec 32 := Scalar.muli v122 c128_i32_120
  let c0_i32_125 : BitVec 32 := 0#32
  ![v181.toNat, 0]
def k1_off18 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_84 : BitVec 32 := 6#32
  let v120 : BitVec 32 := Scalar.muli v89 c6_i32_84
  let v121 : BitVec 32 := Scalar.addi v4 v120
  let c5_i32_85 : BitVec 32 := 5#32
  let v122 : BitVec 32 := Scalar.addi v121 c5_i32_85
  let c128_i32_107 : BitVec 32 := 128#32
  let v165 : BitVec 32 := Scalar.muli v122 c128_i32_107
  ![v165.toNat]
def k1_cond19 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_87 : BitVec 32 := 6#32
  let v126 : BitVec 32 := Scalar.muli v89 c6_i32_87
  let v127 : BitVec 32 := Scalar.addi v4 v126
  let c0_i32_88 : BitVec 32 := 0#32
  let v128 : BitVec 32 := Scalar.addi v127 c0_i32_88
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v129 : BitVec 1 := Scalar.cmpi .slt v128 v8
  let v130 : BitVec 32 := Scalar.extui v129
  let c0_i32_89 : BitVec 32 := 0#32
  let v131 : BitVec 1 := Scalar.cmpi .ne v130 c0_i32_89
  v131

def k1_cond20 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_87 : BitVec 32 := 6#32
  let v126 : BitVec 32 := Scalar.muli v89 c6_i32_87
  let v127 : BitVec 32 := Scalar.addi v4 v126
  let c0_i32_88 : BitVec 32 := 0#32
  let v128 : BitVec 32 := Scalar.addi v127 c0_i32_88
  let c6_i32_113 : BitVec 32 := 6#32
  let v169 : BitVec 32 := Scalar.addi v128 c6_i32_113
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_114 : BitVec 32 := 0#32
  let v172 : BitVec 1 := Scalar.cmpi .ne v171 c0_i32_114
  v172

def k1_off19 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_87 : BitVec 32 := 6#32
  let v126 : BitVec 32 := Scalar.muli v89 c6_i32_87
  let v127 : BitVec 32 := Scalar.addi v4 v126
  let c0_i32_88 : BitVec 32 := 0#32
  let v128 : BitVec 32 := Scalar.addi v127 c0_i32_88
  let c6_i32_113 : BitVec 32 := 6#32
  let v169 : BitVec 32 := Scalar.addi v128 c6_i32_113
  let c128_i32_124 : BitVec 32 := 128#32
  let v182 : BitVec 32 := Scalar.muli v169 c128_i32_124
  ![v182.toNat]
def k1_off20 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_87 : BitVec 32 := 6#32
  let v126 : BitVec 32 := Scalar.muli v89 c6_i32_87
  let v127 : BitVec 32 := Scalar.addi v4 v126
  let c0_i32_88 : BitVec 32 := 0#32
  let v128 : BitVec 32 := Scalar.addi v127 c0_i32_88
  let c128_i32_115 : BitVec 32 := 128#32
  let v173 : BitVec 32 := Scalar.muli v128 c128_i32_115
  let c0_i32_120 : BitVec 32 := 0#32
  ![v173.toNat, 0]
def k1_cond21 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_90 : BitVec 32 := 6#32
  let v132 : BitVec 32 := Scalar.muli v89 c6_i32_90
  let v133 : BitVec 32 := Scalar.addi v4 v132
  let c1_i32_91 : BitVec 32 := 1#32
  let v134 : BitVec 32 := Scalar.addi v133 c1_i32_91
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v135 : BitVec 1 := Scalar.cmpi .slt v134 v8
  let v136 : BitVec 32 := Scalar.extui v135
  let c0_i32_92 : BitVec 32 := 0#32
  let v137 : BitVec 1 := Scalar.cmpi .ne v136 c0_i32_92
  v137

def k1_cond22 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_90 : BitVec 32 := 6#32
  let v132 : BitVec 32 := Scalar.muli v89 c6_i32_90
  let v133 : BitVec 32 := Scalar.addi v4 v132
  let c1_i32_91 : BitVec 32 := 1#32
  let v134 : BitVec 32 := Scalar.addi v133 c1_i32_91
  let c6_i32_113 : BitVec 32 := 6#32
  let v169 : BitVec 32 := Scalar.addi v134 c6_i32_113
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_114 : BitVec 32 := 0#32
  let v172 : BitVec 1 := Scalar.cmpi .ne v171 c0_i32_114
  v172

def k1_off21 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_90 : BitVec 32 := 6#32
  let v132 : BitVec 32 := Scalar.muli v89 c6_i32_90
  let v133 : BitVec 32 := Scalar.addi v4 v132
  let c1_i32_91 : BitVec 32 := 1#32
  let v134 : BitVec 32 := Scalar.addi v133 c1_i32_91
  let c6_i32_113 : BitVec 32 := 6#32
  let v169 : BitVec 32 := Scalar.addi v134 c6_i32_113
  let c128_i32_124 : BitVec 32 := 128#32
  let v182 : BitVec 32 := Scalar.muli v169 c128_i32_124
  ![v182.toNat]
def k1_off22 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_90 : BitVec 32 := 6#32
  let v132 : BitVec 32 := Scalar.muli v89 c6_i32_90
  let v133 : BitVec 32 := Scalar.addi v4 v132
  let c1_i32_91 : BitVec 32 := 1#32
  let v134 : BitVec 32 := Scalar.addi v133 c1_i32_91
  let c128_i32_115 : BitVec 32 := 128#32
  let v173 : BitVec 32 := Scalar.muli v134 c128_i32_115
  let c0_i32_120 : BitVec 32 := 0#32
  ![v173.toNat, 0]
def k1_cond23 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_93 : BitVec 32 := 6#32
  let v138 : BitVec 32 := Scalar.muli v89 c6_i32_93
  let v139 : BitVec 32 := Scalar.addi v4 v138
  let c2_i32_94 : BitVec 32 := 2#32
  let v140 : BitVec 32 := Scalar.addi v139 c2_i32_94
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v141 : BitVec 1 := Scalar.cmpi .slt v140 v8
  let v142 : BitVec 32 := Scalar.extui v141
  let c0_i32_95 : BitVec 32 := 0#32
  let v143 : BitVec 1 := Scalar.cmpi .ne v142 c0_i32_95
  v143

def k1_cond24 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_93 : BitVec 32 := 6#32
  let v138 : BitVec 32 := Scalar.muli v89 c6_i32_93
  let v139 : BitVec 32 := Scalar.addi v4 v138
  let c2_i32_94 : BitVec 32 := 2#32
  let v140 : BitVec 32 := Scalar.addi v139 c2_i32_94
  let c6_i32_113 : BitVec 32 := 6#32
  let v169 : BitVec 32 := Scalar.addi v140 c6_i32_113
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_114 : BitVec 32 := 0#32
  let v172 : BitVec 1 := Scalar.cmpi .ne v171 c0_i32_114
  v172

def k1_off23 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_93 : BitVec 32 := 6#32
  let v138 : BitVec 32 := Scalar.muli v89 c6_i32_93
  let v139 : BitVec 32 := Scalar.addi v4 v138
  let c2_i32_94 : BitVec 32 := 2#32
  let v140 : BitVec 32 := Scalar.addi v139 c2_i32_94
  let c6_i32_113 : BitVec 32 := 6#32
  let v169 : BitVec 32 := Scalar.addi v140 c6_i32_113
  let c128_i32_124 : BitVec 32 := 128#32
  let v182 : BitVec 32 := Scalar.muli v169 c128_i32_124
  ![v182.toNat]
def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_93 : BitVec 32 := 6#32
  let v138 : BitVec 32 := Scalar.muli v89 c6_i32_93
  let v139 : BitVec 32 := Scalar.addi v4 v138
  let c2_i32_94 : BitVec 32 := 2#32
  let v140 : BitVec 32 := Scalar.addi v139 c2_i32_94
  let c128_i32_115 : BitVec 32 := 128#32
  let v173 : BitVec 32 := Scalar.muli v140 c128_i32_115
  let c0_i32_120 : BitVec 32 := 0#32
  ![v173.toNat, 0]
def k1_cond25 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_96 : BitVec 32 := 6#32
  let v144 : BitVec 32 := Scalar.muli v89 c6_i32_96
  let v145 : BitVec 32 := Scalar.addi v4 v144
  let c3_i32_97 : BitVec 32 := 3#32
  let v146 : BitVec 32 := Scalar.addi v145 c3_i32_97
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v147 : BitVec 1 := Scalar.cmpi .slt v146 v8
  let v148 : BitVec 32 := Scalar.extui v147
  let c0_i32_98 : BitVec 32 := 0#32
  let v149 : BitVec 1 := Scalar.cmpi .ne v148 c0_i32_98
  v149

def k1_cond26 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_96 : BitVec 32 := 6#32
  let v144 : BitVec 32 := Scalar.muli v89 c6_i32_96
  let v145 : BitVec 32 := Scalar.addi v4 v144
  let c3_i32_97 : BitVec 32 := 3#32
  let v146 : BitVec 32 := Scalar.addi v145 c3_i32_97
  let c6_i32_113 : BitVec 32 := 6#32
  let v169 : BitVec 32 := Scalar.addi v146 c6_i32_113
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_114 : BitVec 32 := 0#32
  let v172 : BitVec 1 := Scalar.cmpi .ne v171 c0_i32_114
  v172

def k1_off25 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_96 : BitVec 32 := 6#32
  let v144 : BitVec 32 := Scalar.muli v89 c6_i32_96
  let v145 : BitVec 32 := Scalar.addi v4 v144
  let c3_i32_97 : BitVec 32 := 3#32
  let v146 : BitVec 32 := Scalar.addi v145 c3_i32_97
  let c6_i32_113 : BitVec 32 := 6#32
  let v169 : BitVec 32 := Scalar.addi v146 c6_i32_113
  let c128_i32_124 : BitVec 32 := 128#32
  let v182 : BitVec 32 := Scalar.muli v169 c128_i32_124
  ![v182.toNat]
def k1_off26 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_96 : BitVec 32 := 6#32
  let v144 : BitVec 32 := Scalar.muli v89 c6_i32_96
  let v145 : BitVec 32 := Scalar.addi v4 v144
  let c3_i32_97 : BitVec 32 := 3#32
  let v146 : BitVec 32 := Scalar.addi v145 c3_i32_97
  let c128_i32_115 : BitVec 32 := 128#32
  let v173 : BitVec 32 := Scalar.muli v146 c128_i32_115
  let c0_i32_120 : BitVec 32 := 0#32
  ![v173.toNat, 0]
def k1_cond27 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_99 : BitVec 32 := 6#32
  let v150 : BitVec 32 := Scalar.muli v89 c6_i32_99
  let v151 : BitVec 32 := Scalar.addi v4 v150
  let c4_i32_100 : BitVec 32 := 4#32
  let v152 : BitVec 32 := Scalar.addi v151 c4_i32_100
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v153 : BitVec 1 := Scalar.cmpi .slt v152 v8
  let v154 : BitVec 32 := Scalar.extui v153
  let c0_i32_101 : BitVec 32 := 0#32
  let v155 : BitVec 1 := Scalar.cmpi .ne v154 c0_i32_101
  v155

def k1_cond28 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_99 : BitVec 32 := 6#32
  let v150 : BitVec 32 := Scalar.muli v89 c6_i32_99
  let v151 : BitVec 32 := Scalar.addi v4 v150
  let c4_i32_100 : BitVec 32 := 4#32
  let v152 : BitVec 32 := Scalar.addi v151 c4_i32_100
  let c6_i32_113 : BitVec 32 := 6#32
  let v169 : BitVec 32 := Scalar.addi v152 c6_i32_113
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_114 : BitVec 32 := 0#32
  let v172 : BitVec 1 := Scalar.cmpi .ne v171 c0_i32_114
  v172

def k1_off27 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_99 : BitVec 32 := 6#32
  let v150 : BitVec 32 := Scalar.muli v89 c6_i32_99
  let v151 : BitVec 32 := Scalar.addi v4 v150
  let c4_i32_100 : BitVec 32 := 4#32
  let v152 : BitVec 32 := Scalar.addi v151 c4_i32_100
  let c6_i32_113 : BitVec 32 := 6#32
  let v169 : BitVec 32 := Scalar.addi v152 c6_i32_113
  let c128_i32_124 : BitVec 32 := 128#32
  let v182 : BitVec 32 := Scalar.muli v169 c128_i32_124
  ![v182.toNat]
def k1_off28 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_99 : BitVec 32 := 6#32
  let v150 : BitVec 32 := Scalar.muli v89 c6_i32_99
  let v151 : BitVec 32 := Scalar.addi v4 v150
  let c4_i32_100 : BitVec 32 := 4#32
  let v152 : BitVec 32 := Scalar.addi v151 c4_i32_100
  let c128_i32_115 : BitVec 32 := 128#32
  let v173 : BitVec 32 := Scalar.muli v152 c128_i32_115
  let c0_i32_120 : BitVec 32 := 0#32
  ![v173.toNat, 0]
def k1_cond29 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_102 : BitVec 32 := 6#32
  let v156 : BitVec 32 := Scalar.muli v89 c6_i32_102
  let v157 : BitVec 32 := Scalar.addi v4 v156
  let c5_i32_103 : BitVec 32 := 5#32
  let v158 : BitVec 32 := Scalar.addi v157 c5_i32_103
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v159 : BitVec 1 := Scalar.cmpi .slt v158 v8
  let v160 : BitVec 32 := Scalar.extui v159
  let c0_i32_104 : BitVec 32 := 0#32
  let v161 : BitVec 1 := Scalar.cmpi .ne v160 c0_i32_104
  v161

def k1_cond30 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_102 : BitVec 32 := 6#32
  let v156 : BitVec 32 := Scalar.muli v89 c6_i32_102
  let v157 : BitVec 32 := Scalar.addi v4 v156
  let c5_i32_103 : BitVec 32 := 5#32
  let v158 : BitVec 32 := Scalar.addi v157 c5_i32_103
  let c6_i32_113 : BitVec 32 := 6#32
  let v169 : BitVec 32 := Scalar.addi v158 c6_i32_113
  let c78_i32_0 : BitVec 32 := 78#32
  let v5 : BitVec 32 := Scalar.addi v4 c78_i32_0
  let c4_i32_1 : BitVec 32 := 4#32
  let v6 : BitVec 1 := Scalar.cmpi .slt v1 c4_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_114 : BitVec 32 := 0#32
  let v172 : BitVec 1 := Scalar.cmpi .ne v171 c0_i32_114
  v172

def k1_off29 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_102 : BitVec 32 := 6#32
  let v156 : BitVec 32 := Scalar.muli v89 c6_i32_102
  let v157 : BitVec 32 := Scalar.addi v4 v156
  let c5_i32_103 : BitVec 32 := 5#32
  let v158 : BitVec 32 := Scalar.addi v157 c5_i32_103
  let c6_i32_113 : BitVec 32 := 6#32
  let v169 : BitVec 32 := Scalar.addi v158 c6_i32_113
  let c128_i32_124 : BitVec 32 := 128#32
  let v182 : BitVec 32 := Scalar.muli v169 c128_i32_124
  ![v182.toNat]
def k1_off30 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c0_i32_69 : BitVec 32 := 0#32
  let c0_i32_12 : BitVec 32 := 0#32
  let c1_i32_13 : BitVec 32 := 1#32
  let arg10 : BitVec 32 := Scf.iv c0_i32_12 c1_i32_13 k1_t1
  let c1_i32_68 : BitVec 32 := 1#32
  let v88 : BitVec 32 := Scalar.muli arg10 c1_i32_68
  let v89 : BitVec 32 := Scalar.addi c0_i32_69 v88
  let c6_i32_102 : BitVec 32 := 6#32
  let v156 : BitVec 32 := Scalar.muli v89 c6_i32_102
  let v157 : BitVec 32 := Scalar.addi v4 v156
  let c5_i32_103 : BitVec 32 := 5#32
  let v158 : BitVec 32 := Scalar.addi v157 c5_i32_103
  let c128_i32_115 : BitVec 32 := 128#32
  let v173 : BitVec 32 := Scalar.muli v158 c128_i32_115
  let c0_i32_120 : BitVec 32 := 0#32
  ![v173.toNat, 0]
def k1_off31 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v34 : BitVec 32 := Scalar.muli v4 c128_i32
  let c0_i32_19 : BitVec 32 := 0#32
  ![v34.toNat, 0]
abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x400x16x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 16], ![false, false]⟩

def k3_cond1 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_2 : BitVec 32 := 0#32
  let v9 : BitVec 32 := Scalar.addi v4 c0_i32_2
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v10 : BitVec 1 := Scalar.cmpi .slt v9 v8
  let v11 : BitVec 32 := Scalar.extui v10
  let c0_i32_3 : BitVec 32 := 0#32
  let v12 : BitVec 1 := Scalar.cmpi .ne v11 c0_i32_3
  v12

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_2 : BitVec 32 := 0#32
  let v9 : BitVec 32 := Scalar.addi v4 c0_i32_2
  let c128_i32_67 : BitVec 32 := 128#32
  let v88 : BitVec 32 := Scalar.muli v9 c128_i32_67
  ![v88.toNat]
def k3_cond2 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c1_i32_4 : BitVec 32 := 1#32
  let v13 : BitVec 32 := Scalar.addi v4 c1_i32_4
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v14 : BitVec 1 := Scalar.cmpi .slt v13 v8
  let v15 : BitVec 32 := Scalar.extui v14
  let c0_i32_5 : BitVec 32 := 0#32
  let v16 : BitVec 1 := Scalar.cmpi .ne v15 c0_i32_5
  v16

def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c1_i32_4 : BitVec 32 := 1#32
  let v13 : BitVec 32 := Scalar.addi v4 c1_i32_4
  let c128_i32_67 : BitVec 32 := 128#32
  let v88 : BitVec 32 := Scalar.muli v13 c128_i32_67
  ![v88.toNat]
def k3_cond3 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c2_i32_6 : BitVec 32 := 2#32
  let v17 : BitVec 32 := Scalar.addi v4 c2_i32_6
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v18 : BitVec 1 := Scalar.cmpi .slt v17 v8
  let v19 : BitVec 32 := Scalar.extui v18
  let c0_i32_7 : BitVec 32 := 0#32
  let v20 : BitVec 1 := Scalar.cmpi .ne v19 c0_i32_7
  v20

def k3_off3 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c2_i32_6 : BitVec 32 := 2#32
  let v17 : BitVec 32 := Scalar.addi v4 c2_i32_6
  let c128_i32_67 : BitVec 32 := 128#32
  let v88 : BitVec 32 := Scalar.muli v17 c128_i32_67
  ![v88.toNat]
def k3_cond4 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c3_i32 : BitVec 32 := 3#32
  let v21 : BitVec 32 := Scalar.addi v4 c3_i32
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v22 : BitVec 1 := Scalar.cmpi .slt v21 v8
  let v23 : BitVec 32 := Scalar.extui v22
  let c0_i32_8 : BitVec 32 := 0#32
  let v24 : BitVec 1 := Scalar.cmpi .ne v23 c0_i32_8
  v24

def k3_off4 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c3_i32 : BitVec 32 := 3#32
  let v21 : BitVec 32 := Scalar.addi v4 c3_i32
  let c128_i32_67 : BitVec 32 := 128#32
  let v88 : BitVec 32 := Scalar.muli v21 c128_i32_67
  ![v88.toNat]
def k3_cond5 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c4_i32 : BitVec 32 := 4#32
  let v25 : BitVec 32 := Scalar.addi v4 c4_i32
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v26 : BitVec 1 := Scalar.cmpi .slt v25 v8
  let v27 : BitVec 32 := Scalar.extui v26
  let c0_i32_9 : BitVec 32 := 0#32
  let v28 : BitVec 1 := Scalar.cmpi .ne v27 c0_i32_9
  v28

def k3_off5 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c4_i32 : BitVec 32 := 4#32
  let v25 : BitVec 32 := Scalar.addi v4 c4_i32
  let c128_i32_67 : BitVec 32 := 128#32
  let v88 : BitVec 32 := Scalar.muli v25 c128_i32_67
  ![v88.toNat]
def k3_cond6 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c5_i32 : BitVec 32 := 5#32
  let v29 : BitVec 32 := Scalar.addi v4 c5_i32
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v30 : BitVec 1 := Scalar.cmpi .slt v29 v8
  let v31 : BitVec 32 := Scalar.extui v30
  let c0_i32_10 : BitVec 32 := 0#32
  let v32 : BitVec 1 := Scalar.cmpi .ne v31 c0_i32_10
  v32

def k3_off6 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c5_i32 : BitVec 32 := 5#32
  let v29 : BitVec 32 := Scalar.addi v4 c5_i32
  let c128_i32_67 : BitVec 32 := 128#32
  let v88 : BitVec 32 := Scalar.muli v29 c128_i32_67
  ![v88.toNat]
@[reducible] def k3_t1_loop : Scf.Loop 32 :=
  let c0_i32_11 : BitVec 32 := 0#32
  let c27_i32 : BitVec 32 := 27#32
  let v33 : BitVec 32 := Scalar.addi c0_i32_11 c27_i32
  let c1_i32_12 : BitVec 32 := 1#32
  ⟨c0_i32_11, v33, c1_i32_12⟩
def k3_cond7 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32 : BitVec 32 := 6#32
  let v90 : BitVec 32 := Scalar.muli v89 c6_i32
  let v91 : BitVec 32 := Scalar.addi v4 v90
  let c0_i32_69 : BitVec 32 := 0#32
  let v92 : BitVec 32 := Scalar.addi v91 c0_i32_69
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v93 : BitVec 1 := Scalar.cmpi .slt v92 v8
  let v94 : BitVec 32 := Scalar.extui v93
  let c0_i32_70 : BitVec 32 := 0#32
  let v95 : BitVec 1 := Scalar.cmpi .ne v94 c0_i32_70
  v95

def k3_cond8 (k3_t1 : Fin k3_t1_loop.trips) : BitVec 1 :=
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c0_i32_104 : BitVec 32 := 0#32
  let v162 : BitVec 1 := Scalar.cmpi .sgt v89 c0_i32_104
  let v163 : BitVec 32 := Scalar.extui v162
  let c0_i32_105 : BitVec 32 := 0#32
  let v164 : BitVec 1 := Scalar.cmpi .ne v163 c0_i32_105
  v164

def k3_off7 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32 : BitVec 32 := 6#32
  let v90 : BitVec 32 := Scalar.muli v89 c6_i32
  let v91 : BitVec 32 := Scalar.addi v4 v90
  let c0_i32_69 : BitVec 32 := 0#32
  let v92 : BitVec 32 := Scalar.addi v91 c0_i32_69
  let c128_i32_119 : BitVec 32 := 128#32
  let v181 : BitVec 32 := Scalar.muli v92 c128_i32_119
  let c0_i32_124 : BitVec 32 := 0#32
  ![v181.toNat, 0]
def k3_off8 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32 : BitVec 32 := 6#32
  let v90 : BitVec 32 := Scalar.muli v89 c6_i32
  let v91 : BitVec 32 := Scalar.addi v4 v90
  let c0_i32_69 : BitVec 32 := 0#32
  let v92 : BitVec 32 := Scalar.addi v91 c0_i32_69
  let c128_i32_106 : BitVec 32 := 128#32
  let v165 : BitVec 32 := Scalar.muli v92 c128_i32_106
  ![v165.toNat]
def k3_cond9 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_71 : BitVec 32 := 6#32
  let v96 : BitVec 32 := Scalar.muli v89 c6_i32_71
  let v97 : BitVec 32 := Scalar.addi v4 v96
  let c1_i32_72 : BitVec 32 := 1#32
  let v98 : BitVec 32 := Scalar.addi v97 c1_i32_72
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v99 : BitVec 1 := Scalar.cmpi .slt v98 v8
  let v100 : BitVec 32 := Scalar.extui v99
  let c0_i32_73 : BitVec 32 := 0#32
  let v101 : BitVec 1 := Scalar.cmpi .ne v100 c0_i32_73
  v101

def k3_cond10 (k3_t1 : Fin k3_t1_loop.trips) : BitVec 1 :=
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c0_i32_104 : BitVec 32 := 0#32
  let v162 : BitVec 1 := Scalar.cmpi .sgt v89 c0_i32_104
  let v163 : BitVec 32 := Scalar.extui v162
  let c0_i32_105 : BitVec 32 := 0#32
  let v164 : BitVec 1 := Scalar.cmpi .ne v163 c0_i32_105
  v164

def k3_off9 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_71 : BitVec 32 := 6#32
  let v96 : BitVec 32 := Scalar.muli v89 c6_i32_71
  let v97 : BitVec 32 := Scalar.addi v4 v96
  let c1_i32_72 : BitVec 32 := 1#32
  let v98 : BitVec 32 := Scalar.addi v97 c1_i32_72
  let c128_i32_119 : BitVec 32 := 128#32
  let v181 : BitVec 32 := Scalar.muli v98 c128_i32_119
  let c0_i32_124 : BitVec 32 := 0#32
  ![v181.toNat, 0]
def k3_off10 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_71 : BitVec 32 := 6#32
  let v96 : BitVec 32 := Scalar.muli v89 c6_i32_71
  let v97 : BitVec 32 := Scalar.addi v4 v96
  let c1_i32_72 : BitVec 32 := 1#32
  let v98 : BitVec 32 := Scalar.addi v97 c1_i32_72
  let c128_i32_106 : BitVec 32 := 128#32
  let v165 : BitVec 32 := Scalar.muli v98 c128_i32_106
  ![v165.toNat]
def k3_cond11 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_74 : BitVec 32 := 6#32
  let v102 : BitVec 32 := Scalar.muli v89 c6_i32_74
  let v103 : BitVec 32 := Scalar.addi v4 v102
  let c2_i32_75 : BitVec 32 := 2#32
  let v104 : BitVec 32 := Scalar.addi v103 c2_i32_75
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v105 : BitVec 1 := Scalar.cmpi .slt v104 v8
  let v106 : BitVec 32 := Scalar.extui v105
  let c0_i32_76 : BitVec 32 := 0#32
  let v107 : BitVec 1 := Scalar.cmpi .ne v106 c0_i32_76
  v107

def k3_cond12 (k3_t1 : Fin k3_t1_loop.trips) : BitVec 1 :=
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c0_i32_104 : BitVec 32 := 0#32
  let v162 : BitVec 1 := Scalar.cmpi .sgt v89 c0_i32_104
  let v163 : BitVec 32 := Scalar.extui v162
  let c0_i32_105 : BitVec 32 := 0#32
  let v164 : BitVec 1 := Scalar.cmpi .ne v163 c0_i32_105
  v164

def k3_off11 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_74 : BitVec 32 := 6#32
  let v102 : BitVec 32 := Scalar.muli v89 c6_i32_74
  let v103 : BitVec 32 := Scalar.addi v4 v102
  let c2_i32_75 : BitVec 32 := 2#32
  let v104 : BitVec 32 := Scalar.addi v103 c2_i32_75
  let c128_i32_119 : BitVec 32 := 128#32
  let v181 : BitVec 32 := Scalar.muli v104 c128_i32_119
  let c0_i32_124 : BitVec 32 := 0#32
  ![v181.toNat, 0]
def k3_off12 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_74 : BitVec 32 := 6#32
  let v102 : BitVec 32 := Scalar.muli v89 c6_i32_74
  let v103 : BitVec 32 := Scalar.addi v4 v102
  let c2_i32_75 : BitVec 32 := 2#32
  let v104 : BitVec 32 := Scalar.addi v103 c2_i32_75
  let c128_i32_106 : BitVec 32 := 128#32
  let v165 : BitVec 32 := Scalar.muli v104 c128_i32_106
  ![v165.toNat]
def k3_cond13 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_77 : BitVec 32 := 6#32
  let v108 : BitVec 32 := Scalar.muli v89 c6_i32_77
  let v109 : BitVec 32 := Scalar.addi v4 v108
  let c3_i32_78 : BitVec 32 := 3#32
  let v110 : BitVec 32 := Scalar.addi v109 c3_i32_78
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v111 : BitVec 1 := Scalar.cmpi .slt v110 v8
  let v112 : BitVec 32 := Scalar.extui v111
  let c0_i32_79 : BitVec 32 := 0#32
  let v113 : BitVec 1 := Scalar.cmpi .ne v112 c0_i32_79
  v113

def k3_cond14 (k3_t1 : Fin k3_t1_loop.trips) : BitVec 1 :=
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c0_i32_104 : BitVec 32 := 0#32
  let v162 : BitVec 1 := Scalar.cmpi .sgt v89 c0_i32_104
  let v163 : BitVec 32 := Scalar.extui v162
  let c0_i32_105 : BitVec 32 := 0#32
  let v164 : BitVec 1 := Scalar.cmpi .ne v163 c0_i32_105
  v164

def k3_off13 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_77 : BitVec 32 := 6#32
  let v108 : BitVec 32 := Scalar.muli v89 c6_i32_77
  let v109 : BitVec 32 := Scalar.addi v4 v108
  let c3_i32_78 : BitVec 32 := 3#32
  let v110 : BitVec 32 := Scalar.addi v109 c3_i32_78
  let c128_i32_119 : BitVec 32 := 128#32
  let v181 : BitVec 32 := Scalar.muli v110 c128_i32_119
  let c0_i32_124 : BitVec 32 := 0#32
  ![v181.toNat, 0]
def k3_off14 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_77 : BitVec 32 := 6#32
  let v108 : BitVec 32 := Scalar.muli v89 c6_i32_77
  let v109 : BitVec 32 := Scalar.addi v4 v108
  let c3_i32_78 : BitVec 32 := 3#32
  let v110 : BitVec 32 := Scalar.addi v109 c3_i32_78
  let c128_i32_106 : BitVec 32 := 128#32
  let v165 : BitVec 32 := Scalar.muli v110 c128_i32_106
  ![v165.toNat]
def k3_cond15 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_80 : BitVec 32 := 6#32
  let v114 : BitVec 32 := Scalar.muli v89 c6_i32_80
  let v115 : BitVec 32 := Scalar.addi v4 v114
  let c4_i32_81 : BitVec 32 := 4#32
  let v116 : BitVec 32 := Scalar.addi v115 c4_i32_81
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v117 : BitVec 1 := Scalar.cmpi .slt v116 v8
  let v118 : BitVec 32 := Scalar.extui v117
  let c0_i32_82 : BitVec 32 := 0#32
  let v119 : BitVec 1 := Scalar.cmpi .ne v118 c0_i32_82
  v119

def k3_cond16 (k3_t1 : Fin k3_t1_loop.trips) : BitVec 1 :=
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c0_i32_104 : BitVec 32 := 0#32
  let v162 : BitVec 1 := Scalar.cmpi .sgt v89 c0_i32_104
  let v163 : BitVec 32 := Scalar.extui v162
  let c0_i32_105 : BitVec 32 := 0#32
  let v164 : BitVec 1 := Scalar.cmpi .ne v163 c0_i32_105
  v164

def k3_off15 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_80 : BitVec 32 := 6#32
  let v114 : BitVec 32 := Scalar.muli v89 c6_i32_80
  let v115 : BitVec 32 := Scalar.addi v4 v114
  let c4_i32_81 : BitVec 32 := 4#32
  let v116 : BitVec 32 := Scalar.addi v115 c4_i32_81
  let c128_i32_119 : BitVec 32 := 128#32
  let v181 : BitVec 32 := Scalar.muli v116 c128_i32_119
  let c0_i32_124 : BitVec 32 := 0#32
  ![v181.toNat, 0]
def k3_off16 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_80 : BitVec 32 := 6#32
  let v114 : BitVec 32 := Scalar.muli v89 c6_i32_80
  let v115 : BitVec 32 := Scalar.addi v4 v114
  let c4_i32_81 : BitVec 32 := 4#32
  let v116 : BitVec 32 := Scalar.addi v115 c4_i32_81
  let c128_i32_106 : BitVec 32 := 128#32
  let v165 : BitVec 32 := Scalar.muli v116 c128_i32_106
  ![v165.toNat]
def k3_cond17 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_83 : BitVec 32 := 6#32
  let v120 : BitVec 32 := Scalar.muli v89 c6_i32_83
  let v121 : BitVec 32 := Scalar.addi v4 v120
  let c5_i32_84 : BitVec 32 := 5#32
  let v122 : BitVec 32 := Scalar.addi v121 c5_i32_84
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v123 : BitVec 1 := Scalar.cmpi .slt v122 v8
  let v124 : BitVec 32 := Scalar.extui v123
  let c0_i32_85 : BitVec 32 := 0#32
  let v125 : BitVec 1 := Scalar.cmpi .ne v124 c0_i32_85
  v125

def k3_cond18 (k3_t1 : Fin k3_t1_loop.trips) : BitVec 1 :=
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c0_i32_104 : BitVec 32 := 0#32
  let v162 : BitVec 1 := Scalar.cmpi .sgt v89 c0_i32_104
  let v163 : BitVec 32 := Scalar.extui v162
  let c0_i32_105 : BitVec 32 := 0#32
  let v164 : BitVec 1 := Scalar.cmpi .ne v163 c0_i32_105
  v164

def k3_off17 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_83 : BitVec 32 := 6#32
  let v120 : BitVec 32 := Scalar.muli v89 c6_i32_83
  let v121 : BitVec 32 := Scalar.addi v4 v120
  let c5_i32_84 : BitVec 32 := 5#32
  let v122 : BitVec 32 := Scalar.addi v121 c5_i32_84
  let c128_i32_119 : BitVec 32 := 128#32
  let v181 : BitVec 32 := Scalar.muli v122 c128_i32_119
  let c0_i32_124 : BitVec 32 := 0#32
  ![v181.toNat, 0]
def k3_off18 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_83 : BitVec 32 := 6#32
  let v120 : BitVec 32 := Scalar.muli v89 c6_i32_83
  let v121 : BitVec 32 := Scalar.addi v4 v120
  let c5_i32_84 : BitVec 32 := 5#32
  let v122 : BitVec 32 := Scalar.addi v121 c5_i32_84
  let c128_i32_106 : BitVec 32 := 128#32
  let v165 : BitVec 32 := Scalar.muli v122 c128_i32_106
  ![v165.toNat]
def k3_cond19 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_86 : BitVec 32 := 6#32
  let v126 : BitVec 32 := Scalar.muli v89 c6_i32_86
  let v127 : BitVec 32 := Scalar.addi v4 v126
  let c0_i32_87 : BitVec 32 := 0#32
  let v128 : BitVec 32 := Scalar.addi v127 c0_i32_87
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v129 : BitVec 1 := Scalar.cmpi .slt v128 v8
  let v130 : BitVec 32 := Scalar.extui v129
  let c0_i32_88 : BitVec 32 := 0#32
  let v131 : BitVec 1 := Scalar.cmpi .ne v130 c0_i32_88
  v131

def k3_cond20 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_86 : BitVec 32 := 6#32
  let v126 : BitVec 32 := Scalar.muli v89 c6_i32_86
  let v127 : BitVec 32 := Scalar.addi v4 v126
  let c0_i32_87 : BitVec 32 := 0#32
  let v128 : BitVec 32 := Scalar.addi v127 c0_i32_87
  let c6_i32_112 : BitVec 32 := 6#32
  let v169 : BitVec 32 := Scalar.addi v128 c6_i32_112
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_113 : BitVec 32 := 0#32
  let v172 : BitVec 1 := Scalar.cmpi .ne v171 c0_i32_113
  v172

def k3_off19 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_86 : BitVec 32 := 6#32
  let v126 : BitVec 32 := Scalar.muli v89 c6_i32_86
  let v127 : BitVec 32 := Scalar.addi v4 v126
  let c0_i32_87 : BitVec 32 := 0#32
  let v128 : BitVec 32 := Scalar.addi v127 c0_i32_87
  let c6_i32_112 : BitVec 32 := 6#32
  let v169 : BitVec 32 := Scalar.addi v128 c6_i32_112
  let c128_i32_123 : BitVec 32 := 128#32
  let v182 : BitVec 32 := Scalar.muli v169 c128_i32_123
  ![v182.toNat]
def k3_off20 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_86 : BitVec 32 := 6#32
  let v126 : BitVec 32 := Scalar.muli v89 c6_i32_86
  let v127 : BitVec 32 := Scalar.addi v4 v126
  let c0_i32_87 : BitVec 32 := 0#32
  let v128 : BitVec 32 := Scalar.addi v127 c0_i32_87
  let c128_i32_114 : BitVec 32 := 128#32
  let v173 : BitVec 32 := Scalar.muli v128 c128_i32_114
  let c0_i32_119 : BitVec 32 := 0#32
  ![v173.toNat, 0]
def k3_cond21 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_89 : BitVec 32 := 6#32
  let v132 : BitVec 32 := Scalar.muli v89 c6_i32_89
  let v133 : BitVec 32 := Scalar.addi v4 v132
  let c1_i32_90 : BitVec 32 := 1#32
  let v134 : BitVec 32 := Scalar.addi v133 c1_i32_90
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v135 : BitVec 1 := Scalar.cmpi .slt v134 v8
  let v136 : BitVec 32 := Scalar.extui v135
  let c0_i32_91 : BitVec 32 := 0#32
  let v137 : BitVec 1 := Scalar.cmpi .ne v136 c0_i32_91
  v137

def k3_cond22 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_89 : BitVec 32 := 6#32
  let v132 : BitVec 32 := Scalar.muli v89 c6_i32_89
  let v133 : BitVec 32 := Scalar.addi v4 v132
  let c1_i32_90 : BitVec 32 := 1#32
  let v134 : BitVec 32 := Scalar.addi v133 c1_i32_90
  let c6_i32_112 : BitVec 32 := 6#32
  let v169 : BitVec 32 := Scalar.addi v134 c6_i32_112
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_113 : BitVec 32 := 0#32
  let v172 : BitVec 1 := Scalar.cmpi .ne v171 c0_i32_113
  v172

def k3_off21 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_89 : BitVec 32 := 6#32
  let v132 : BitVec 32 := Scalar.muli v89 c6_i32_89
  let v133 : BitVec 32 := Scalar.addi v4 v132
  let c1_i32_90 : BitVec 32 := 1#32
  let v134 : BitVec 32 := Scalar.addi v133 c1_i32_90
  let c6_i32_112 : BitVec 32 := 6#32
  let v169 : BitVec 32 := Scalar.addi v134 c6_i32_112
  let c128_i32_123 : BitVec 32 := 128#32
  let v182 : BitVec 32 := Scalar.muli v169 c128_i32_123
  ![v182.toNat]
def k3_off22 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_89 : BitVec 32 := 6#32
  let v132 : BitVec 32 := Scalar.muli v89 c6_i32_89
  let v133 : BitVec 32 := Scalar.addi v4 v132
  let c1_i32_90 : BitVec 32 := 1#32
  let v134 : BitVec 32 := Scalar.addi v133 c1_i32_90
  let c128_i32_114 : BitVec 32 := 128#32
  let v173 : BitVec 32 := Scalar.muli v134 c128_i32_114
  let c0_i32_119 : BitVec 32 := 0#32
  ![v173.toNat, 0]
def k3_cond23 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_92 : BitVec 32 := 6#32
  let v138 : BitVec 32 := Scalar.muli v89 c6_i32_92
  let v139 : BitVec 32 := Scalar.addi v4 v138
  let c2_i32_93 : BitVec 32 := 2#32
  let v140 : BitVec 32 := Scalar.addi v139 c2_i32_93
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v141 : BitVec 1 := Scalar.cmpi .slt v140 v8
  let v142 : BitVec 32 := Scalar.extui v141
  let c0_i32_94 : BitVec 32 := 0#32
  let v143 : BitVec 1 := Scalar.cmpi .ne v142 c0_i32_94
  v143

def k3_cond24 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_92 : BitVec 32 := 6#32
  let v138 : BitVec 32 := Scalar.muli v89 c6_i32_92
  let v139 : BitVec 32 := Scalar.addi v4 v138
  let c2_i32_93 : BitVec 32 := 2#32
  let v140 : BitVec 32 := Scalar.addi v139 c2_i32_93
  let c6_i32_112 : BitVec 32 := 6#32
  let v169 : BitVec 32 := Scalar.addi v140 c6_i32_112
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_113 : BitVec 32 := 0#32
  let v172 : BitVec 1 := Scalar.cmpi .ne v171 c0_i32_113
  v172

def k3_off23 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_92 : BitVec 32 := 6#32
  let v138 : BitVec 32 := Scalar.muli v89 c6_i32_92
  let v139 : BitVec 32 := Scalar.addi v4 v138
  let c2_i32_93 : BitVec 32 := 2#32
  let v140 : BitVec 32 := Scalar.addi v139 c2_i32_93
  let c6_i32_112 : BitVec 32 := 6#32
  let v169 : BitVec 32 := Scalar.addi v140 c6_i32_112
  let c128_i32_123 : BitVec 32 := 128#32
  let v182 : BitVec 32 := Scalar.muli v169 c128_i32_123
  ![v182.toNat]
def k3_off24 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_92 : BitVec 32 := 6#32
  let v138 : BitVec 32 := Scalar.muli v89 c6_i32_92
  let v139 : BitVec 32 := Scalar.addi v4 v138
  let c2_i32_93 : BitVec 32 := 2#32
  let v140 : BitVec 32 := Scalar.addi v139 c2_i32_93
  let c128_i32_114 : BitVec 32 := 128#32
  let v173 : BitVec 32 := Scalar.muli v140 c128_i32_114
  let c0_i32_119 : BitVec 32 := 0#32
  ![v173.toNat, 0]
def k3_cond25 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_95 : BitVec 32 := 6#32
  let v144 : BitVec 32 := Scalar.muli v89 c6_i32_95
  let v145 : BitVec 32 := Scalar.addi v4 v144
  let c3_i32_96 : BitVec 32 := 3#32
  let v146 : BitVec 32 := Scalar.addi v145 c3_i32_96
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v147 : BitVec 1 := Scalar.cmpi .slt v146 v8
  let v148 : BitVec 32 := Scalar.extui v147
  let c0_i32_97 : BitVec 32 := 0#32
  let v149 : BitVec 1 := Scalar.cmpi .ne v148 c0_i32_97
  v149

def k3_cond26 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_95 : BitVec 32 := 6#32
  let v144 : BitVec 32 := Scalar.muli v89 c6_i32_95
  let v145 : BitVec 32 := Scalar.addi v4 v144
  let c3_i32_96 : BitVec 32 := 3#32
  let v146 : BitVec 32 := Scalar.addi v145 c3_i32_96
  let c6_i32_112 : BitVec 32 := 6#32
  let v169 : BitVec 32 := Scalar.addi v146 c6_i32_112
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_113 : BitVec 32 := 0#32
  let v172 : BitVec 1 := Scalar.cmpi .ne v171 c0_i32_113
  v172

def k3_off25 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_95 : BitVec 32 := 6#32
  let v144 : BitVec 32 := Scalar.muli v89 c6_i32_95
  let v145 : BitVec 32 := Scalar.addi v4 v144
  let c3_i32_96 : BitVec 32 := 3#32
  let v146 : BitVec 32 := Scalar.addi v145 c3_i32_96
  let c6_i32_112 : BitVec 32 := 6#32
  let v169 : BitVec 32 := Scalar.addi v146 c6_i32_112
  let c128_i32_123 : BitVec 32 := 128#32
  let v182 : BitVec 32 := Scalar.muli v169 c128_i32_123
  ![v182.toNat]
def k3_off26 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_95 : BitVec 32 := 6#32
  let v144 : BitVec 32 := Scalar.muli v89 c6_i32_95
  let v145 : BitVec 32 := Scalar.addi v4 v144
  let c3_i32_96 : BitVec 32 := 3#32
  let v146 : BitVec 32 := Scalar.addi v145 c3_i32_96
  let c128_i32_114 : BitVec 32 := 128#32
  let v173 : BitVec 32 := Scalar.muli v146 c128_i32_114
  let c0_i32_119 : BitVec 32 := 0#32
  ![v173.toNat, 0]
def k3_cond27 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_98 : BitVec 32 := 6#32
  let v150 : BitVec 32 := Scalar.muli v89 c6_i32_98
  let v151 : BitVec 32 := Scalar.addi v4 v150
  let c4_i32_99 : BitVec 32 := 4#32
  let v152 : BitVec 32 := Scalar.addi v151 c4_i32_99
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v153 : BitVec 1 := Scalar.cmpi .slt v152 v8
  let v154 : BitVec 32 := Scalar.extui v153
  let c0_i32_100 : BitVec 32 := 0#32
  let v155 : BitVec 1 := Scalar.cmpi .ne v154 c0_i32_100
  v155

def k3_cond28 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_98 : BitVec 32 := 6#32
  let v150 : BitVec 32 := Scalar.muli v89 c6_i32_98
  let v151 : BitVec 32 := Scalar.addi v4 v150
  let c4_i32_99 : BitVec 32 := 4#32
  let v152 : BitVec 32 := Scalar.addi v151 c4_i32_99
  let c6_i32_112 : BitVec 32 := 6#32
  let v169 : BitVec 32 := Scalar.addi v152 c6_i32_112
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_113 : BitVec 32 := 0#32
  let v172 : BitVec 1 := Scalar.cmpi .ne v171 c0_i32_113
  v172

def k3_off27 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_98 : BitVec 32 := 6#32
  let v150 : BitVec 32 := Scalar.muli v89 c6_i32_98
  let v151 : BitVec 32 := Scalar.addi v4 v150
  let c4_i32_99 : BitVec 32 := 4#32
  let v152 : BitVec 32 := Scalar.addi v151 c4_i32_99
  let c6_i32_112 : BitVec 32 := 6#32
  let v169 : BitVec 32 := Scalar.addi v152 c6_i32_112
  let c128_i32_123 : BitVec 32 := 128#32
  let v182 : BitVec 32 := Scalar.muli v169 c128_i32_123
  ![v182.toNat]
def k3_off28 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_98 : BitVec 32 := 6#32
  let v150 : BitVec 32 := Scalar.muli v89 c6_i32_98
  let v151 : BitVec 32 := Scalar.addi v4 v150
  let c4_i32_99 : BitVec 32 := 4#32
  let v152 : BitVec 32 := Scalar.addi v151 c4_i32_99
  let c128_i32_114 : BitVec 32 := 128#32
  let v173 : BitVec 32 := Scalar.muli v152 c128_i32_114
  let c0_i32_119 : BitVec 32 := 0#32
  ![v173.toNat, 0]
def k3_cond29 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_101 : BitVec 32 := 6#32
  let v156 : BitVec 32 := Scalar.muli v89 c6_i32_101
  let v157 : BitVec 32 := Scalar.addi v4 v156
  let c5_i32_102 : BitVec 32 := 5#32
  let v158 : BitVec 32 := Scalar.addi v157 c5_i32_102
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v159 : BitVec 1 := Scalar.cmpi .slt v158 v8
  let v160 : BitVec 32 := Scalar.extui v159
  let c0_i32_103 : BitVec 32 := 0#32
  let v161 : BitVec 1 := Scalar.cmpi .ne v160 c0_i32_103
  v161

def k3_cond30 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_101 : BitVec 32 := 6#32
  let v156 : BitVec 32 := Scalar.muli v89 c6_i32_101
  let v157 : BitVec 32 := Scalar.addi v4 v156
  let c5_i32_102 : BitVec 32 := 5#32
  let v158 : BitVec 32 := Scalar.addi v157 c5_i32_102
  let c6_i32_112 : BitVec 32 := 6#32
  let v169 : BitVec 32 := Scalar.addi v158 c6_i32_112
  let c156_i32_0 : BitVec 32 := 156#32
  let v5 : BitVec 32 := Scalar.addi v4 c156_i32_0
  let c8_i32_1 : BitVec 32 := 8#32
  let v6 : BitVec 1 := Scalar.cmpi .slt v1 c8_i32_1
  let c1_i32 : BitVec 32 := 1#32
  let c0_i32 : BitVec 32 := 0#32
  let v7 : BitVec 32 := Scalar.select v6 c1_i32 c0_i32
  let v8 : BitVec 32 := Scalar.addi v5 v7
  let v170 : BitVec 1 := Scalar.cmpi .slt v169 v8
  let v171 : BitVec 32 := Scalar.extui v170
  let c0_i32_113 : BitVec 32 := 0#32
  let v172 : BitVec 1 := Scalar.cmpi .ne v171 c0_i32_113
  v172

def k3_off29 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_101 : BitVec 32 := 6#32
  let v156 : BitVec 32 := Scalar.muli v89 c6_i32_101
  let v157 : BitVec 32 := Scalar.addi v4 v156
  let c5_i32_102 : BitVec 32 := 5#32
  let v158 : BitVec 32 := Scalar.addi v157 c5_i32_102
  let c6_i32_112 : BitVec 32 := 6#32
  let v169 : BitVec 32 := Scalar.addi v158 c6_i32_112
  let c128_i32_123 : BitVec 32 := 128#32
  let v182 : BitVec 32 := Scalar.muli v169 c128_i32_123
  ![v182.toNat]
def k3_off30 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c0_i32_68 : BitVec 32 := 0#32
  let c0_i32_11 : BitVec 32 := 0#32
  let c1_i32_12 : BitVec 32 := 1#32
  let arg10 : BitVec 32 := Scf.iv c0_i32_11 c1_i32_12 k3_t1
  let c1_i32_67 : BitVec 32 := 1#32
  let v88 : BitVec 32 := Scalar.muli arg10 c1_i32_67
  let v89 : BitVec 32 := Scalar.addi c0_i32_68 v88
  let c6_i32_101 : BitVec 32 := 6#32
  let v156 : BitVec 32 := Scalar.muli v89 c6_i32_101
  let v157 : BitVec 32 := Scalar.addi v4 v156
  let c5_i32_102 : BitVec 32 := 5#32
  let v158 : BitVec 32 := Scalar.addi v157 c5_i32_102
  let c128_i32_114 : BitVec 32 := 128#32
  let v173 : BitVec 32 := Scalar.muli v158 c128_i32_114
  let c0_i32_119 : BitVec 32 := 0#32
  ![v173.toNat, 0]
def k3_off31 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32 : BitVec 32 := 156#32
  let v2 : BitVec 32 := Scalar.muli v1 c156_i32
  let c8_i32 : BitVec 32 := 8#32
  let v3 : BitVec 32 := Scalar.minsi v1 c8_i32
  let v4 : BitVec 32 := Scalar.addi v2 v3
  let c128_i32 : BitVec 32 := 128#32
  let v34 : BitVec 32 := Scalar.muli v4 c128_i32
  let c0_i32_18 : BitVec 32 := 0#32
  ![v34.toNat, 0]
abbrev grid4 : Pipeline.Grid := ⟨2, ![2, 160], ![false, false]⟩

def k4_cond1 (i : grid4.Coords) : BitVec 1 :=
  let arg0 : BitVec 32 := BitVec.ofNat 32 (i 0).val
  let c0_i32_4 : BitVec 32 := 0#32
  let v17 : BitVec 1 := Scalar.cmpi .eq arg0 c0_i32_4
  let v18 : BitVec 32 := Scalar.extui v17
  let c0_i32_5 : BitVec 32 := 0#32
  let v19 : BitVec 1 := Scalar.cmpi .ne v18 c0_i32_5
  v19

def k4_off1 (i : grid4.Coords) : Fin 2 → Nat :=
  let c2_i32 : BitVec 32 := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c80_i32 : BitVec 32 := 80#32
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg1 c80_i32
  let c0_i32_3 : BitVec 32 := 0#32
  let v13 : BitVec 1 := Scalar.cmpi .ne v12 c0_i32_3
  let v14 : BitVec 1 := Scalar.andi v11 v13
  let v0 : BitVec 32 := Scalar.divsi arg1 c80_i32
  let c1_i32 : BitVec 32 := 1#32
  let v15 : BitVec 32 := Scalar.subi v0 c1_i32
  let v16 : BitVec 32 := Scalar.select v14 v15 v0
  let v34 : BitVec 32 := Scalar.muli c2_i32 v16
  let v35 : Index := Scalar.indexCast v34
  let c0_14 : Index := 0#32
  ![v35.toNat, 0]
def k4_off2 (i : grid4.Coords) : Fin 2 → Nat :=
  let c2_i32_16 : BitVec 32 := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c80_i32 : BitVec 32 := 80#32
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg1 c80_i32
  let c0_i32_3 : BitVec 32 := 0#32
  let v13 : BitVec 1 := Scalar.cmpi .ne v12 c0_i32_3
  let v14 : BitVec 1 := Scalar.andi v11 v13
  let v0 : BitVec 32 := Scalar.divsi arg1 c80_i32
  let c1_i32 : BitVec 32 := 1#32
  let v15 : BitVec 32 := Scalar.subi v0 c1_i32
  let v16 : BitVec 32 := Scalar.select v14 v15 v0
  let v42 : BitVec 32 := Scalar.muli c2_i32_16 v16
  let c1_i32_17 : BitVec 32 := 1#32
  let v43 : BitVec 32 := Scalar.addi v42 c1_i32_17
  let v44 : Index := Scalar.indexCast v43
  let c0_18 : Index := 0#32
  ![v44.toNat, 0]
def k4_cond3 (i : grid4.Coords) : BitVec 1 :=
  let arg0 : BitVec 32 := BitVec.ofNat 32 (i 0).val
  let c1_i32_6 : BitVec 32 := 1#32
  let v20 : BitVec 1 := Scalar.cmpi .eq arg0 c1_i32_6
  let v21 : BitVec 32 := Scalar.extui v20
  let c0_i32_7 : BitVec 32 := 0#32
  let v22 : BitVec 1 := Scalar.cmpi .ne v21 c0_i32_7
  v22

def k4_off3 (i : grid4.Coords) : Fin 2 → Nat :=
  let c2_i32 : BitVec 32 := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c80_i32 : BitVec 32 := 80#32
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg1 c80_i32
  let c0_i32_3 : BitVec 32 := 0#32
  let v13 : BitVec 1 := Scalar.cmpi .ne v12 c0_i32_3
  let v14 : BitVec 1 := Scalar.andi v11 v13
  let v0 : BitVec 32 := Scalar.divsi arg1 c80_i32
  let c1_i32 : BitVec 32 := 1#32
  let v15 : BitVec 32 := Scalar.subi v0 c1_i32
  let v16 : BitVec 32 := Scalar.select v14 v15 v0
  let v23 : BitVec 32 := Scalar.muli c2_i32 v16
  let v24 : Index := Scalar.indexCast v23
  let c0 : Index := 0#32
  ![v24.toNat, 0]
def k4_off4 (i : grid4.Coords) : Fin 2 → Nat :=
  let c2_i32_8 : BitVec 32 := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c80_i32 : BitVec 32 := 80#32
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg1 c80_i32
  let c0_i32_3 : BitVec 32 := 0#32
  let v13 : BitVec 1 := Scalar.cmpi .ne v12 c0_i32_3
  let v14 : BitVec 1 := Scalar.andi v11 v13
  let v0 : BitVec 32 := Scalar.divsi arg1 c80_i32
  let c1_i32 : BitVec 32 := 1#32
  let v15 : BitVec 32 := Scalar.subi v0 c1_i32
  let v16 : BitVec 32 := Scalar.select v14 v15 v0
  let v26 : BitVec 32 := Scalar.muli c2_i32_8 v16
  let c1_i32_9 : BitVec 32 := 1#32
  let v27 : BitVec 32 := Scalar.addi v26 c1_i32_9
  let v28 : Index := Scalar.indexCast v27
  let c0_10 : Index := 0#32
  ![v28.toNat, 0]
def cc4_transform_0 (i : grid4.Coords) : Fin 4 → Nat :=
  let arg0 : BitVec 32 := BitVec.ofNat 32 (i 0).val
  let arg1 : BitVec 32 := BitVec.ofNat 32 (i 1).val
  let c80_i32 : BitVec 32 := 80#32
  let v0 : BitVec 32 := Scalar.divsi arg1 c80_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg1 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c80_i32_4 : BitVec 32 := 80#32
  let c0_i32_5 : BitVec 32 := 0#32
  let v17 : BitVec 1 := Scalar.cmpi .eq c80_i32_4 c0_i32_5
  let c1_i32_6 : BitVec 32 := 1#32
  let v18 : BitVec 32 := Scalar.select v17 c1_i32_6 c80_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c160_i32 : BitVec 32 := 160#32
  let v0 : BitVec 32 := Scalar.addi arg1 c160_i32
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 4 → Nat :=
  let arg0 : BitVec 32 := BitVec.ofNat 32 (i 0).val
  let arg1 : BitVec 32 := BitVec.ofNat 32 (i 1).val
  let c80_i32 : BitVec 32 := 80#32
  let v0 : BitVec 32 := Scalar.divsi arg1 c80_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg1 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c80_i32_4 : BitVec 32 := 80#32
  let c0_i32_5 : BitVec 32 := 0#32
  let v17 : BitVec 1 := Scalar.cmpi .eq c80_i32_4 c0_i32_5
  let c1_i32_6 : BitVec 32 := 1#32
  let v18 : BitVec 32 := Scalar.select v17 c1_i32_6 c80_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage4_0 : Fin 2 → Memref sig .tc .vmem S1x125x16x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S128x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S16x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S1x16 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 2 → Memref sig .tc .vmem S1x125x16x16 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![false, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S2x10000x128_S20000x128 : S2x10000x128.ShapeCasts S20000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bcast_S_S2 : S_.BroadcastsInDim S2 (![] : Fin 0 → Fin S2.rank)
  bcast_S2_S2x1x1_0 : S2.BroadcastsInDim S2x1x1 (![0] : Fin 1 → Fin S2x1x1.rank)
  bcast_S2x1x1_S2x10000x16_0_1_2 : S2x1x1.BroadcastsInDim S2x10000x16 (![0, 1, 2] : Fin 3 → Fin S2x10000x16.rank)
  shapeCasts_S2x10000x16_S320000 : S2x10000x16.ShapeCasts S320000
  inb_S6x128_S1x128_0_0 : ∀ a, (![0, 0] : Fin 2 → Nat) a + S1x128.size a ≤ S6x128.size a
  squeezes_S1x128_S128 : S1x128.Squeezes S128
  inb_S6_S1_0 : ∀ a, (![0] : Fin 1 → Nat) a + S1.size a ≤ S6.size a
  squeezes_S1_S_ : S1.Squeezes S_
  inb_S6x128_S1x128_1_0 : ∀ a, (![1, 0] : Fin 2 → Nat) a + S1x128.size a ≤ S6x128.size a
  inb_S6_S1_1 : ∀ a, (![1] : Fin 1 → Nat) a + S1.size a ≤ S6.size a
  inb_S6x128_S1x128_2_0 : ∀ a, (![2, 0] : Fin 2 → Nat) a + S1x128.size a ≤ S6x128.size a
  inb_S6_S1_2 : ∀ a, (![2] : Fin 1 → Nat) a + S1.size a ≤ S6.size a
  inb_S6x128_S1x128_3_0 : ∀ a, (![3, 0] : Fin 2 → Nat) a + S1x128.size a ≤ S6x128.size a
  inb_S6_S1_3 : ∀ a, (![3] : Fin 1 → Nat) a + S1.size a ≤ S6.size a
  inb_S6x128_S1x128_4_0 : ∀ a, (![4, 0] : Fin 2 → Nat) a + S1x128.size a ≤ S6x128.size a
  inb_S6_S1_4 : ∀ a, (![4] : Fin 1 → Nat) a + S1.size a ≤ S6.size a
  inb_S6x128_S1x128_5_0 : ∀ a, (![5, 0] : Fin 2 → Nat) a + S1x128.size a ≤ S6x128.size a
  inb_S6_S1_5 : ∀ a, (![5] : Fin 1 → Nat) a + S1.size a ≤ S6.size a
  inb_S6x128x128_S1x128x128_0_0_0 : ∀ a, (![0, 0, 0] : Fin 3 → Nat) a + S1x128x128.size a ≤ S6x128x128.size a
  squeezes_S1x128x128_S128x128 : S1x128x128.Squeezes S128x128
  inb_S20000x128_S20000x128_0_0 : ∀ a, (![0, 0] : Fin 2 → Nat) a + S20000x128.size a ≤ S20000x128.size a
  gathers_S20000x128_S128x128 : S20000x128.Gathers 0 S128x128
  inb_S6x128x128_S1x128x128_1_0_0 : ∀ a, (![1, 0, 0] : Fin 3 → Nat) a + S1x128x128.size a ≤ S6x128x128.size a
  inb_S6x128x128_S1x128x128_2_0_0 : ∀ a, (![2, 0, 0] : Fin 3 → Nat) a + S1x128x128.size a ≤ S6x128x128.size a
  inb_S6x128x128_S1x128x128_3_0_0 : ∀ a, (![3, 0, 0] : Fin 3 → Nat) a + S1x128x128.size a ≤ S6x128x128.size a
  inb_S6x128x128_S1x128x128_4_0_0 : ∀ a, (![4, 0, 0] : Fin 3 → Nat) a + S1x128x128.size a ≤ S6x128x128.size a
  inb_S6x128x128_S1x128x128_5_0_0 : ∀ a, (![5, 0, 0] : Fin 3 → Nat) a + S1x128x128.size a ≤ S6x128x128.size a
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  shapeCasts_S6400x128_S400x16x128 : S6400x128.ShapeCasts S400x16x128
  inb_S1x400x16x16_S1x400x16x16_0_0_0_0 : ∀ a, (![0, 0, 0, 0] : Fin 4 → Nat) a + S1x400x16x16.size a ≤ S1x400x16x16.size a
  h_S1x400x16x16 : 0 < S1x400x16x16.numel
  shapeCasts_S1x400x16x16_S400x16x16 : S1x400x16x16.ShapeCasts S400x16x16
  reduces_S400x16x16_S400x16 : S400x16x16.Reduces [2] S400x16
  shapeCasts_S400x16_S400x16x1 : S400x16.ShapeCasts S400x16x1
  reduces_S400x16x1_S400x1 : S400x16x1.Reduces [1] S400x1
  shapeCasts_S400x1_S400x1x1 : S400x1.ShapeCasts S400x1x1
  broadcasts_S400x1x1_S400x16x1 : S400x1x1.Broadcasts S400x16x1
  broadcasts_S400x16x1_S400x16x128 : S400x16x1.Broadcasts S400x16x128
  reduces_S400x16x128_S400x128 : S400x16x128.Reduces [1] S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S400x128_S1x400x128 : S400x128.ShapeCasts S1x400x128
  inb_S1x400x128_S1x400x128_0_0_0 : ∀ a, (![0, 0, 0] : Fin 3 → Nat) a + S1x400x128.size a ≤ S1x400x128.size a
  h_S1x400x128 : 0 < S1x400x128.numel
  slices_S2x160000x2_S2x160000x1_0_0_0 : S2x160000x2.Slices ![0, 0, 0] S2x160000x1
  shapeCasts_S2x160000x1_S2x160000 : S2x160000x1.ShapeCasts S2x160000
  slices_S2x160000x2_S2x160000x1_0_0_1 : S2x160000x2.Slices ![0, 0, 1] S2x160000x1
  bcast_S2_S2x1_0 : S2.BroadcastsInDim S2x1 (![0] : Fin 1 → Fin S2x1.rank)
  bcast_S2x1_S2x160000_0_1 : S2x1.BroadcastsInDim S2x160000 (![0, 1] : Fin 2 → Fin S2x160000.rank)
  shapeCasts_S2x160000_S320000 : S2x160000.ShapeCasts S320000
  concatenates_S320000_S320000_S640000_d0 : Shape.Concatenates [S320000, S320000] S640000 0
  slices_S256x16_S128x16_0_0 : S256x16.Slices ![0, 0] S128x16
  slices_S256x16_S128x16_128_0 : S256x16.Slices ![128, 0] S128x16
  shapeCasts_S16_S1x16 : S16.ShapeCasts S1x16
  inb_S4x128_S4x128_0_0 : ∀ a, (![0, 0] : Fin 2 → Nat) a + S4x128.size a ≤ S4x128.size a
  h_S4x128 : 0 < S4x128.numel
  shapeCasts_S4x128_S4x128 : S4x128.ShapeCasts S4x128
  reduces_S2000x128_S128 : S2000x128.Reduces [0] S128
  broadcasts_S1x128_S2000x128 : S1x128.Broadcasts S2000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S1x125x16x16_S1x125x16x16_0_0_0_0 : ∀ a, (![0, 0, 0, 0] : Fin 4 → Nat) a + S1x125x16x16.size a ≤ S1x125x16x16.size a
  h_S1x125x16x16 : 0 < S1x125x16x16.numel
  shapeCasts_S1x125x16x16_S2000x16 : S1x125x16x16.ShapeCasts S2000x16
  inb_S16x16_S16x16_0_0 : ∀ a, (![0, 0] : Fin 2 → Nat) a + S16x16.size a ≤ S16x16.size a
  h_S16x16 : 0 < S16x16.numel
  shapeCasts_S2000x16_S1x125x16x16 : S2000x16.ShapeCasts S1x125x16x16
  dot_S400x128_S128x128_S400x128_1_0_0_1_n_n_wf : DotDims.WF S400x128 S128x128 S400x128 [1] [0] [0] [1] [] []
  dot_S2000x128_S128x16_S2000x16_1_0_0_1_n_n_wf : DotDims.WF S2000x128 S128x16 S2000x16 [1] [0] [0] [1] [] []
  dot_S2000x16_S16x16_S2000x16_1_0_0_1_n_n_wf : DotDims.WF S2000x16 S16x16 S2000x16 [1] [0] [0] [1] [] []
  hcc1_scratch2 : 4 + S6.numel ≤ 63
  hcc1_scratch3 : 10 + S6.numel ≤ 63
  hcc1_scratch4 : 16 + S6.numel ≤ 63
  hcc3_scratch2 : 32 + S6.numel ≤ 63
  hcc3_scratch3 : 38 + S6.numel ≤ 63
  hcc3_scratch4 : 44 + S6.numel ≤ 63
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S128.size a ≤ S320000.size a
  k1_off2_inb : ∀ i : grid1.Coords, ∀ (k1_h2 : k1_cond2 i = 1#1), ∀ a, (k1_off2 i) a + S128.size a ≤ S320000.size a
  k1_off3_inb : ∀ i : grid1.Coords, ∀ (k1_h3 : k1_cond3 i = 1#1), ∀ a, (k1_off3 i) a + S128.size a ≤ S320000.size a
  k1_off4_inb : ∀ i : grid1.Coords, ∀ (k1_h4 : k1_cond4 i = 1#1), ∀ a, (k1_off4 i) a + S128.size a ≤ S320000.size a
  k1_off5_inb : ∀ i : grid1.Coords, ∀ (k1_h5 : k1_cond5 i = 1#1), ∀ a, (k1_off5 i) a + S128.size a ≤ S320000.size a
  k1_off6_inb : ∀ i : grid1.Coords, ∀ (k1_h6 : k1_cond6 i = 1#1), ∀ a, (k1_off6 i) a + S128.size a ≤ S320000.size a
  k1_t1_ok : k1_t1_loop.OK
  k1_off7_inb : ∀ (i : grid1.Coords) (k1_t1 : Fin k1_t1_loop.trips), ∀ (k1_h7 : k1_cond7 i k1_t1 = 1#1), ∀ (k1_h8 : k1_cond8 k1_t1 = 1#1), ∀ a, (k1_off7 i k1_t1) a + S128x128.size a ≤ S320000x128.size a
  k1_off8_inb : ∀ (i : grid1.Coords) (k1_t1 : Fin k1_t1_loop.trips), ∀ (k1_h7 : k1_cond7 i k1_t1 = 1#1), ∀ a, (k1_off8 i k1_t1) a + S128.size a ≤ S320000.size a
  k1_off9_inb : ∀ (i : grid1.Coords) (k1_t1 : Fin k1_t1_loop.trips), ∀ (k1_h9 : k1_cond9 i k1_t1 = 1#1), ∀ (k1_h10 : k1_cond10 k1_t1 = 1#1), ∀ a, (k1_off9 i k1_t1) a + S128x128.size a ≤ S320000x128.size a
  k1_off10_inb : ∀ (i : grid1.Coords) (k1_t1 : Fin k1_t1_loop.trips), ∀ (k1_h9 : k1_cond9 i k1_t1 = 1#1), ∀ a, (k1_off10 i k1_t1) a + S128.size a ≤ S320000.size a
  k1_off11_inb : ∀ (i : grid1.Coords) (k1_t1 : Fin k1_t1_loop.trips), ∀ (k1_h11 : k1_cond11 i k1_t1 = 1#1), ∀ (k1_h12 : k1_cond12 k1_t1 = 1#1), ∀ a, (k1_off11 i k1_t1) a + S128x128.size a ≤ S320000x128.size a
  k1_off12_inb : ∀ (i : grid1.Coords) (k1_t1 : Fin k1_t1_loop.trips), ∀ (k1_h11 : k1_cond11 i k1_t1 = 1#1), ∀ a, (k1_off12 i k1_t1) a + S128.size a ≤ S320000.size a
  k1_off13_inb : ∀ (i : grid1.Coords) (k1_t1 : Fin k1_t1_loop.trips), ∀ (k1_h13 : k1_cond13 i k1_t1 = 1#1), ∀ (k1_h14 : k1_cond14 k1_t1 = 1#1), ∀ a, (k1_off13 i k1_t1) a + S128x128.size a ≤ S320000x128.size a
  k1_off14_inb : ∀ (i : grid1.Coords) (k1_t1 : Fin k1_t1_loop.trips), ∀ (k1_h13 : k1_cond13 i k1_t1 = 1#1), ∀ a, (k1_off14 i k1_t1) a + S128.size a ≤ S320000.size a
  k1_off15_inb : ∀ (i : grid1.Coords) (k1_t1 : Fin k1_t1_loop.trips), ∀ (k1_h15 : k1_cond15 i k1_t1 = 1#1), ∀ (k1_h16 : k1_cond16 k1_t1 = 1#1), ∀ a, (k1_off15 i k1_t1) a + S128x128.size a ≤ S320000x128.size a
  k1_off16_inb : ∀ (i : grid1.Coords) (k1_t1 : Fin k1_t1_loop.trips), ∀ (k1_h15 : k1_cond15 i k1_t1 = 1#1), ∀ a, (k1_off16 i k1_t1) a + S128.size a ≤ S320000.size a
  k1_off17_inb : ∀ (i : grid1.Coords) (k1_t1 : Fin k1_t1_loop.trips), ∀ (k1_h17 : k1_cond17 i k1_t1 = 1#1), ∀ (k1_h18 : k1_cond18 k1_t1 = 1#1), ∀ a, (k1_off17 i k1_t1) a + S128x128.size a ≤ S320000x128.size a
  k1_off18_inb : ∀ (i : grid1.Coords) (k1_t1 : Fin k1_t1_loop.trips), ∀ (k1_h17 : k1_cond17 i k1_t1 = 1#1), ∀ a, (k1_off18 i k1_t1) a + S128.size a ≤ S320000.size a
  k1_off19_inb : ∀ (i : grid1.Coords) (k1_t1 : Fin k1_t1_loop.trips), ∀ (k1_h19 : k1_cond19 i k1_t1 = 1#1), ∀ (k1_h20 : k1_cond20 i k1_t1 = 1#1), ∀ a, (k1_off19 i k1_t1) a + S128.size a ≤ S320000.size a
  k1_off20_inb : ∀ (i : grid1.Coords) (k1_t1 : Fin k1_t1_loop.trips), ∀ (k1_h19 : k1_cond19 i k1_t1 = 1#1), ∀ a, (k1_off20 i k1_t1) a + S128x128.size a ≤ S320000x128.size a
  k1_off21_inb : ∀ (i : grid1.Coords) (k1_t1 : Fin k1_t1_loop.trips), ∀ (k1_h21 : k1_cond21 i k1_t1 = 1#1), ∀ (k1_h22 : k1_cond22 i k1_t1 = 1#1), ∀ a, (k1_off21 i k1_t1) a + S128.size a ≤ S320000.size a
  k1_off22_inb : ∀ (i : grid1.Coords) (k1_t1 : Fin k1_t1_loop.trips), ∀ (k1_h21 : k1_cond21 i k1_t1 = 1#1), ∀ a, (k1_off22 i k1_t1) a + S128x128.size a ≤ S320000x128.size a
  k1_off23_inb : ∀ (i : grid1.Coords) (k1_t1 : Fin k1_t1_loop.trips), ∀ (k1_h23 : k1_cond23 i k1_t1 = 1#1), ∀ (k1_h24 : k1_cond24 i k1_t1 = 1#1), ∀ a, (k1_off23 i k1_t1) a + S128.size a ≤ S320000.size a
  k1_off24_inb : ∀ (i : grid1.Coords) (k1_t1 : Fin k1_t1_loop.trips), ∀ (k1_h23 : k1_cond23 i k1_t1 = 1#1), ∀ a, (k1_off24 i k1_t1) a + S128x128.size a ≤ S320000x128.size a
  k1_off25_inb : ∀ (i : grid1.Coords) (k1_t1 : Fin k1_t1_loop.trips), ∀ (k1_h25 : k1_cond25 i k1_t1 = 1#1), ∀ (k1_h26 : k1_cond26 i k1_t1 = 1#1), ∀ a, (k1_off25 i k1_t1) a + S128.size a ≤ S320000.size a
  k1_off26_inb : ∀ (i : grid1.Coords) (k1_t1 : Fin k1_t1_loop.trips), ∀ (k1_h25 : k1_cond25 i k1_t1 = 1#1), ∀ a, (k1_off26 i k1_t1) a + S128x128.size a ≤ S320000x128.size a
  k1_off27_inb : ∀ (i : grid1.Coords) (k1_t1 : Fin k1_t1_loop.trips), ∀ (k1_h27 : k1_cond27 i k1_t1 = 1#1), ∀ (k1_h28 : k1_cond28 i k1_t1 = 1#1), ∀ a, (k1_off27 i k1_t1) a + S128.size a ≤ S320000.size a
  k1_off28_inb : ∀ (i : grid1.Coords) (k1_t1 : Fin k1_t1_loop.trips), ∀ (k1_h27 : k1_cond27 i k1_t1 = 1#1), ∀ a, (k1_off28 i k1_t1) a + S128x128.size a ≤ S320000x128.size a
  k1_off29_inb : ∀ (i : grid1.Coords) (k1_t1 : Fin k1_t1_loop.trips), ∀ (k1_h29 : k1_cond29 i k1_t1 = 1#1), ∀ (k1_h30 : k1_cond30 i k1_t1 = 1#1), ∀ a, (k1_off29 i k1_t1) a + S128.size a ≤ S320000.size a
  k1_off30_inb : ∀ (i : grid1.Coords) (k1_t1 : Fin k1_t1_loop.trips), ∀ (k1_h29 : k1_cond29 i k1_t1 = 1#1), ∀ a, (k1_off30 i k1_t1) a + S128x128.size a ≤ S320000x128.size a
  k1_off31_inb : ∀ i : grid1.Coords, ∀ a, (k1_off31 i) a + S128x128.size a ≤ S320000x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S320000x128.size a
  hwx2_0 : ∀ i : grid2.Coords, EltTy.bits .f32 = 32 ∨ (Rect.block (s := S320000x128) S6400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x400x16x16.size a ≤ S2x10000x16x16.size a
  hwx2_1 : ∀ i : grid2.Coords, EltTy.bits .f32 = 32 ∨ (Rect.block (s := S2x10000x16x16) S1x400x16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S20000x128.size a
  hwx2_2 : ∀ i : grid2.Coords, EltTy.bits .f32 = 32 ∨ (Rect.block (s := S20000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x400x128.size a ≤ S2x10000x128.size a
  hwx2_5 : ∀ i : grid2.Coords, EltTy.bits .f32 = 32 ∨ (Rect.block (s := S2x10000x128) S1x400x128.size (cc2_transform_5 i) (hinb2_5 i)).WholeWords (EltTy.packing .f32)
  hcore3 : grid3.bound 0 ≤ τ.nSC
  hsub3 : grid3.bound 1 ≤ τ.nSub
  k3_off1_inb : ∀ i : grid3.Coords, ∀ (k3_h1 : k3_cond1 i = 1#1), ∀ a, (k3_off1 i) a + S128.size a ≤ S640000.size a
  k3_off2_inb : ∀ i : grid3.Coords, ∀ (k3_h2 : k3_cond2 i = 1#1), ∀ a, (k3_off2 i) a + S128.size a ≤ S640000.size a
  k3_off3_inb : ∀ i : grid3.Coords, ∀ (k3_h3 : k3_cond3 i = 1#1), ∀ a, (k3_off3 i) a + S128.size a ≤ S640000.size a
  k3_off4_inb : ∀ i : grid3.Coords, ∀ (k3_h4 : k3_cond4 i = 1#1), ∀ a, (k3_off4 i) a + S128.size a ≤ S640000.size a
  k3_off5_inb : ∀ i : grid3.Coords, ∀ (k3_h5 : k3_cond5 i = 1#1), ∀ a, (k3_off5 i) a + S128.size a ≤ S640000.size a
  k3_off6_inb : ∀ i : grid3.Coords, ∀ (k3_h6 : k3_cond6 i = 1#1), ∀ a, (k3_off6 i) a + S128.size a ≤ S640000.size a
  k3_t1_ok : k3_t1_loop.OK
  k3_off7_inb : ∀ (i : grid3.Coords) (k3_t1 : Fin k3_t1_loop.trips), ∀ (k3_h7 : k3_cond7 i k3_t1 = 1#1), ∀ (k3_h8 : k3_cond8 k3_t1 = 1#1), ∀ a, (k3_off7 i k3_t1) a + S128x128.size a ≤ S640000x128.size a
  k3_off8_inb : ∀ (i : grid3.Coords) (k3_t1 : Fin k3_t1_loop.trips), ∀ (k3_h7 : k3_cond7 i k3_t1 = 1#1), ∀ a, (k3_off8 i k3_t1) a + S128.size a ≤ S640000.size a
  k3_off9_inb : ∀ (i : grid3.Coords) (k3_t1 : Fin k3_t1_loop.trips), ∀ (k3_h9 : k3_cond9 i k3_t1 = 1#1), ∀ (k3_h10 : k3_cond10 k3_t1 = 1#1), ∀ a, (k3_off9 i k3_t1) a + S128x128.size a ≤ S640000x128.size a
  k3_off10_inb : ∀ (i : grid3.Coords) (k3_t1 : Fin k3_t1_loop.trips), ∀ (k3_h9 : k3_cond9 i k3_t1 = 1#1), ∀ a, (k3_off10 i k3_t1) a + S128.size a ≤ S640000.size a
  k3_off11_inb : ∀ (i : grid3.Coords) (k3_t1 : Fin k3_t1_loop.trips), ∀ (k3_h11 : k3_cond11 i k3_t1 = 1#1), ∀ (k3_h12 : k3_cond12 k3_t1 = 1#1), ∀ a, (k3_off11 i k3_t1) a + S128x128.size a ≤ S640000x128.size a
  k3_off12_inb : ∀ (i : grid3.Coords) (k3_t1 : Fin k3_t1_loop.trips), ∀ (k3_h11 : k3_cond11 i k3_t1 = 1#1), ∀ a, (k3_off12 i k3_t1) a + S128.size a ≤ S640000.size a
  k3_off13_inb : ∀ (i : grid3.Coords) (k3_t1 : Fin k3_t1_loop.trips), ∀ (k3_h13 : k3_cond13 i k3_t1 = 1#1), ∀ (k3_h14 : k3_cond14 k3_t1 = 1#1), ∀ a, (k3_off13 i k3_t1) a + S128x128.size a ≤ S640000x128.size a
  k3_off14_inb : ∀ (i : grid3.Coords) (k3_t1 : Fin k3_t1_loop.trips), ∀ (k3_h13 : k3_cond13 i k3_t1 = 1#1), ∀ a, (k3_off14 i k3_t1) a + S128.size a ≤ S640000.size a
  k3_off15_inb : ∀ (i : grid3.Coords) (k3_t1 : Fin k3_t1_loop.trips), ∀ (k3_h15 : k3_cond15 i k3_t1 = 1#1), ∀ (k3_h16 : k3_cond16 k3_t1 = 1#1), ∀ a, (k3_off15 i k3_t1) a + S128x128.size a ≤ S640000x128.size a
  k3_off16_inb : ∀ (i : grid3.Coords) (k3_t1 : Fin k3_t1_loop.trips), ∀ (k3_h15 : k3_cond15 i k3_t1 = 1#1), ∀ a, (k3_off16 i k3_t1) a + S128.size a ≤ S640000.size a
  k3_off17_inb : ∀ (i : grid3.Coords) (k3_t1 : Fin k3_t1_loop.trips), ∀ (k3_h17 : k3_cond17 i k3_t1 = 1#1), ∀ (k3_h18 : k3_cond18 k3_t1 = 1#1), ∀ a, (k3_off17 i k3_t1) a + S128x128.size a ≤ S640000x128.size a
  k3_off18_inb : ∀ (i : grid3.Coords) (k3_t1 : Fin k3_t1_loop.trips), ∀ (k3_h17 : k3_cond17 i k3_t1 = 1#1), ∀ a, (k3_off18 i k3_t1) a + S128.size a ≤ S640000.size a
  k3_off19_inb : ∀ (i : grid3.Coords) (k3_t1 : Fin k3_t1_loop.trips), ∀ (k3_h19 : k3_cond19 i k3_t1 = 1#1), ∀ (k3_h20 : k3_cond20 i k3_t1 = 1#1), ∀ a, (k3_off19 i k3_t1) a + S128.size a ≤ S640000.size a
  k3_off20_inb : ∀ (i : grid3.Coords) (k3_t1 : Fin k3_t1_loop.trips), ∀ (k3_h19 : k3_cond19 i k3_t1 = 1#1), ∀ a, (k3_off20 i k3_t1) a + S128x128.size a ≤ S640000x128.size a
  k3_off21_inb : ∀ (i : grid3.Coords) (k3_t1 : Fin k3_t1_loop.trips), ∀ (k3_h21 : k3_cond21 i k3_t1 = 1#1), ∀ (k3_h22 : k3_cond22 i k3_t1 = 1#1), ∀ a, (k3_off21 i k3_t1) a + S128.size a ≤ S640000.size a
  k3_off22_inb : ∀ (i : grid3.Coords) (k3_t1 : Fin k3_t1_loop.trips), ∀ (k3_h21 : k3_cond21 i k3_t1 = 1#1), ∀ a, (k3_off22 i k3_t1) a + S128x128.size a ≤ S640000x128.size a
  k3_off23_inb : ∀ (i : grid3.Coords) (k3_t1 : Fin k3_t1_loop.trips), ∀ (k3_h23 : k3_cond23 i k3_t1 = 1#1), ∀ (k3_h24 : k3_cond24 i k3_t1 = 1#1), ∀ a, (k3_off23 i k3_t1) a + S128.size a ≤ S640000.size a
  k3_off24_inb : ∀ (i : grid3.Coords) (k3_t1 : Fin k3_t1_loop.trips), ∀ (k3_h23 : k3_cond23 i k3_t1 = 1#1), ∀ a, (k3_off24 i k3_t1) a + S128x128.size a ≤ S640000x128.size a
  k3_off25_inb : ∀ (i : grid3.Coords) (k3_t1 : Fin k3_t1_loop.trips), ∀ (k3_h25 : k3_cond25 i k3_t1 = 1#1), ∀ (k3_h26 : k3_cond26 i k3_t1 = 1#1), ∀ a, (k3_off25 i k3_t1) a + S128.size a ≤ S640000.size a
  k3_off26_inb : ∀ (i : grid3.Coords) (k3_t1 : Fin k3_t1_loop.trips), ∀ (k3_h25 : k3_cond25 i k3_t1 = 1#1), ∀ a, (k3_off26 i k3_t1) a + S128x128.size a ≤ S640000x128.size a
  k3_off27_inb : ∀ (i : grid3.Coords) (k3_t1 : Fin k3_t1_loop.trips), ∀ (k3_h27 : k3_cond27 i k3_t1 = 1#1), ∀ (k3_h28 : k3_cond28 i k3_t1 = 1#1), ∀ a, (k3_off27 i k3_t1) a + S128.size a ≤ S640000.size a
  k3_off28_inb : ∀ (i : grid3.Coords) (k3_t1 : Fin k3_t1_loop.trips), ∀ (k3_h27 : k3_cond27 i k3_t1 = 1#1), ∀ a, (k3_off28 i k3_t1) a + S128x128.size a ≤ S640000x128.size a
  k3_off29_inb : ∀ (i : grid3.Coords) (k3_t1 : Fin k3_t1_loop.trips), ∀ (k3_h29 : k3_cond29 i k3_t1 = 1#1), ∀ (k3_h30 : k3_cond30 i k3_t1 = 1#1), ∀ a, (k3_off29 i k3_t1) a + S128.size a ≤ S640000.size a
  k3_off30_inb : ∀ (i : grid3.Coords) (k3_t1 : Fin k3_t1_loop.trips), ∀ (k3_h29 : k3_cond29 i k3_t1 = 1#1), ∀ a, (k3_off30 i k3_t1) a + S128x128.size a ≤ S640000x128.size a
  k3_off31_inb : ∀ i : grid3.Coords, ∀ a, (k3_off31 i) a + S128x128.size a ≤ S640000x128.size a
  hrank4 : 0 < grid4.rank
  k4_off1_inb : ∀ i : grid4.Coords, ∀ (k4_h1 : k4_cond1 i = 1#1), ∀ a, (k4_off1 i) a + S1x128.size a ≤ S4x128.size a
  k4_off2_inb : ∀ i : grid4.Coords, ∀ (k4_h1 : k4_cond1 i = 1#1), ∀ a, (k4_off2 i) a + S1x128.size a ≤ S4x128.size a
  k4_off3_inb : ∀ i : grid4.Coords, ∀ (k4_h3 : k4_cond3 i = 1#1), ∀ a, (k4_off3 i) a + S1x128.size a ≤ S4x128.size a
  k4_off4_inb : ∀ i : grid4.Coords, ∀ (k4_h3 : k4_cond3 i = 1#1), ∀ a, (k4_off4 i) a + S1x128.size a ≤ S4x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x125x16x16.size a ≤ S2x10000x16x16.size a
  hwx4_0 : ∀ i : grid4.Coords, EltTy.bits .f32 = 32 ∨ (Rect.block (s := S2x10000x16x16) S1x125x16x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S640000x128.size a
  hwx4_1 : ∀ i : grid4.Coords, EltTy.bits .f32 = 32 ∨ (Rect.block (s := S640000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S640000x128.size a
  hwx4_2 : ∀ i : grid4.Coords, EltTy.bits .f32 = 32 ∨ (Rect.block (s := S640000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x16.size a ≤ S128x16.size a
  hwx4_4 : ∀ i : grid4.Coords, EltTy.bits .f32 = 32 ∨ (Rect.block (s := S128x16) S128x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x16.size a ≤ S16x16.size a
  hwx4_5 : ∀ i : grid4.Coords, EltTy.bits .f32 = 32 ∨ (Rect.block (s := S16x16) S16x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x16.size a ≤ S1x16.size a
  hwx4_7 : ∀ i : grid4.Coords, EltTy.bits .f32 = 32 ∨ (Rect.block (s := S1x16) S1x16.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x125x16x16.size a ≤ S2x10000x16x16.size a
  hwx4_8 : ∀ i : grid4.Coords, EltTy.bits .f32 = 32 ∨ (Rect.block (s := S2x10000x16x16) S1x125x16x16.size (cc4_transform_8 i) (hinb4_8 i)).WholeWords (EltTy.packing .f32)

variable [Facts₀]

abbrev cc1_scratch2 : DmaSems sig S6 := SemArray.consecutive 4 S6 hcc1_scratch2
abbrev cc1_scratch3 : DmaSems sig S6 := SemArray.consecutive 10 S6 hcc1_scratch3
abbrev cc1_scratch4 : DmaSems sig S6 := SemArray.consecutive 16 S6 hcc1_scratch4
abbrev cc3_scratch2 : DmaSems sig S6 := SemArray.consecutive 32 S6 hcc3_scratch2
abbrev cc3_scratch3 : DmaSems sig S6 := SemArray.consecutive 38 S6 hcc3_scratch3
abbrev cc3_scratch4 : DmaSems sig S6 := SemArray.consecutive 44 S6 hcc3_scratch4
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_v9) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x400x16x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win4_0 : Pipeline.Window sig grid4 :=
  Pipeline.Window.ofSpec (Memref.whole main_arg1) S1x125x16x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v27) S128x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v28) S128x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg5) S16x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v29) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v30) S1x16.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v31) S1x125x16x16.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun _ => false | 8 => fun i => !(k4_cond3 i == 1#1) | ⟨_ + 9, h⟩ => absurd h (Nat.not_lt.2 (Nat.le_add_left _ _))

class Facts : Prop extends Facts₀ where

variable [Facts]
-- ==== ReferenceIdeal.lean ====
abbrev S2x10000x128 : Shape := ⟨3, ![2, 10000, 128]⟩
abbrev S2x10000x16x16 : Shape := ⟨4, ![2, 10000, 16, 16]⟩
abbrev S2x10000x16 : Shape := ⟨3, ![2, 10000, 16]⟩
abbrev S2x160000x2 : Shape := ⟨3, ![2, 160000, 2]⟩
abbrev S128x128 : Shape := ⟨2, ![128, 128]⟩
abbrev S16x16 : Shape := ⟨2, ![16, 16]⟩
abbrev S256x16 : Shape := ⟨2, ![256, 16]⟩
abbrev S128 : Shape := ⟨1, ![128]⟩
abbrev S16 : Shape := ⟨1, ![16]⟩
abbrev S_ : Shape := ⟨0, ![]⟩
abbrev S2x10000x16x1 : Shape := ⟨4, ![2, 10000, 16, 1]⟩
abbrev S1 : Shape := ⟨1, ![1]⟩
abbrev S1x1x1x1 : Shape := ⟨4, ![1, 1, 1, 1]⟩
abbrev S2x10000x16x128 : Shape := ⟨4, ![2, 10000, 16, 128]⟩
abbrev S2x10000 : Shape := ⟨2, ![2, 10000]⟩
abbrev S2x10000x1 : Shape := ⟨3, ![2, 10000, 1]⟩
abbrev S1x1x128 : Shape := ⟨3, ![1, 1, 128]⟩
abbrev S2x320000 : Shape := ⟨2, ![2, 320000]⟩
abbrev S2x320000x1 : Shape := ⟨3, ![2, 320000, 1]⟩
abbrev S1x1x1 : Shape := ⟨3, ![1, 1, 1]⟩
abbrev S2x320000x128 : Shape := ⟨3, ![2, 320000, 128]⟩
abbrev S2x160000x256 : Shape := ⟨3, ![2, 160000, 256]⟩
abbrev S2x256 : Shape := ⟨2, ![2, 256]⟩
abbrev S2x1x256 : Shape := ⟨3, ![2, 1, 256]⟩
abbrev S2x160000x16 : Shape := ⟨3, ![2, 160000, 16]⟩
abbrev S1x1x16 : Shape := ⟨3, ![1, 1, 16]⟩
abbrev S1x1x1x16 : Shape := ⟨4, ![1, 1, 1, 16]⟩

abbrev nBuf : Space → Nat
  | .hbm => 124
  | .vmem => 0
  | .smem => 0
  | _ => 0

abbrev bufTy : (tb : Table) → Fin (tcTables nBuf tb) → BufTy
  | .hbm, ⟨0, _⟩ => ⟨S2x10000x128, .f32⟩
  | .hbm, ⟨1, _⟩ => ⟨S2x10000x16x16, .f32⟩
  | .hbm, ⟨2, _⟩ => ⟨S2x10000x16, .i32⟩
  | .hbm, ⟨3, _⟩ => ⟨S2x160000x2, .i32⟩
  | .hbm, ⟨4, _⟩ => ⟨S128x128, .f32⟩
  | .hbm, ⟨5, _⟩ => ⟨S16x16, .f32⟩
  | .hbm, ⟨6, _⟩ => ⟨S256x16, .f32⟩
  | .hbm, ⟨7, _⟩ => ⟨S128, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S2x10000x128, .f32⟩
  | .hbm, ⟨12, _⟩ => ⟨S2x10000x128, .f32⟩
  | .hbm, ⟨13, _⟩ => ⟨S_, .f32⟩
  | .hbm, ⟨14, _⟩ => ⟨S2x10000x128, .f32⟩
  | .hbm, ⟨15, _⟩ => ⟨S2x10000x128, .f32⟩
  | .hbm, ⟨16, _⟩ => ⟨S_, .i32⟩
  | .hbm, ⟨17, _⟩ => ⟨S2x10000x16, .i32⟩
  | .hbm, ⟨18, _⟩ => ⟨S2x10000x16, .i1⟩
  | .hbm, ⟨19, _⟩ => ⟨S_, .i32⟩
  | .hbm, ⟨20, _⟩ => ⟨S2x10000x16, .i32⟩
  | .hbm, ⟨21, _⟩ => ⟨S2x10000x16, .i32⟩
  | .hbm, ⟨22, _⟩ => ⟨S2x10000x16, .i32⟩
  | .hbm, ⟨23, _⟩ => ⟨S2x10000x16x1, .i32⟩
  | .hbm, ⟨24, _⟩ => ⟨S1, .i32⟩
  | .hbm, ⟨25, _⟩ => ⟨S_, .i32⟩
  | .hbm, ⟨26, _⟩ => ⟨S2x10000x16x1, .i32⟩
  | .hbm, ⟨27, _⟩ => ⟨S2x10000x16x1, .i1⟩
  | .hbm, ⟨28, _⟩ => ⟨S1x1x1x1, .i32⟩
  | .hbm, ⟨29, _⟩ => ⟨S2x10000x16x1, .i32⟩
  | .hbm, ⟨30, _⟩ => ⟨S2x10000x16x1, .i1⟩
  | .hbm, ⟨31, _⟩ => ⟨S2x10000x16x1, .i1⟩
  | .hbm, ⟨32, _⟩ => ⟨S_, .i1⟩
  | .hbm, ⟨33, _⟩ => ⟨S2x10000x16, .i1⟩
  | .hbm, ⟨34, _⟩ => ⟨S2x10000x16x128, .f32⟩
  | .hbm, ⟨35, _⟩ => ⟨S2x10000x16x128, .i1⟩
  | .hbm, ⟨36, _⟩ => ⟨S_, .f32⟩
  | .hbm, ⟨37, _⟩ => ⟨S2x10000x16x128, .f32⟩
  | .hbm, ⟨38, _⟩ => ⟨S2x10000x16x128, .f32⟩
  | .hbm, ⟨39, _⟩ => ⟨S_, .f32⟩
  | .hbm, ⟨40, _⟩ => ⟨S2x10000x16x128, .f32⟩
  | .hbm, ⟨41, _⟩ => ⟨S2x10000x16x128, .f32⟩
  | .hbm, ⟨42, _⟩ => ⟨S_, .f32⟩
  | .hbm, ⟨43, _⟩ => ⟨S2x10000x16x128, .f32⟩
  | .hbm, ⟨44, _⟩ => ⟨S2x10000x16x128, .f32⟩
  | .hbm, ⟨45, _⟩ => ⟨S_, .f32⟩
  | .hbm, ⟨46, _⟩ => ⟨S2x10000x16x16, .f32⟩
  | .hbm, ⟨47, _⟩ => ⟨S2x10000x16x16, .f32⟩
  | .hbm, ⟨48, _⟩ => ⟨S_, .f32⟩
  | .hbm, ⟨49, _⟩ => ⟨S2x10000x16, .f32⟩
  | .hbm, ⟨50, _⟩ => ⟨S_, .f32⟩
  | .hbm, ⟨51, _⟩ => ⟨S2x10000x16, .f32⟩
  | .hbm, ⟨52, _⟩ => ⟨S2x10000x16, .f32⟩
  | .hbm, ⟨53, _⟩ => ⟨S_, .f32⟩
  | .hbm, ⟨54, _⟩ => ⟨S2x10000x16, .f32⟩
  | .hbm, ⟨55, _⟩ => ⟨S2x10000x16, .f32⟩
  | .hbm, ⟨56, _⟩ => ⟨S2x10000x16, .f32⟩
  | .hbm, ⟨57, _⟩ => ⟨S_, .f32⟩
  | .hbm, ⟨58, _⟩ => ⟨S2x10000, .f32⟩
  | .hbm, ⟨59, _⟩ => ⟨S2x10000x1, .f32⟩
  | .hbm, ⟨60, _⟩ => ⟨S_, .f32⟩
  | .hbm, ⟨61, _⟩ => ⟨S2x10000x1, .f32⟩
  | .hbm, ⟨62, _⟩ => ⟨S2x10000x1, .f32⟩
  | .hbm, ⟨63, _⟩ => ⟨S2x10000x16, .f32⟩
  | .hbm, ⟨64, _⟩ => ⟨S2x10000x16, .f32⟩
  | .hbm, ⟨65, _⟩ => ⟨S2x10000x16x1, .f32⟩
  | .hbm, ⟨66, _⟩ => ⟨S2x10000x16x128, .f32⟩
  | .hbm, ⟨67, _⟩ => ⟨S2x10000x16x128, .f32⟩
  | .hbm, ⟨68, _⟩ => ⟨S_, .f32⟩
  | .hbm, ⟨69, _⟩ => ⟨S2x10000x128, .f32⟩
  | .hbm, ⟨70, _⟩ => ⟨S2x10000x128, .f32⟩
  | .hbm, ⟨71, _⟩ => ⟨S2x10000x128, .f32⟩
  | .hbm, ⟨72, _⟩ => ⟨S1x1x128, .f32⟩
  | .hbm, ⟨73, _⟩ => ⟨S2x10000x128, .f32⟩
  | .hbm, ⟨74, _⟩ => ⟨S2x10000x128, .f32⟩
  | .hbm, ⟨75, _⟩ => ⟨S_, .f32⟩
  | .hbm, ⟨76, _⟩ => ⟨S2x10000x128, .f32⟩
  | .hbm, ⟨77, _⟩ => ⟨S2x10000x128, .f32⟩
  | .hbm, ⟨78, _⟩ => ⟨S2x320000, .i32⟩
  | .hbm, ⟨79, _⟩ => ⟨S_, .i32⟩
  | .hbm, ⟨80, _⟩ => ⟨S2x320000, .i32⟩
  | .hbm, ⟨81, _⟩ => ⟨S2x320000, .i1⟩
  | .hbm, ⟨82, _⟩ => ⟨S_, .i32⟩
  | .hbm, ⟨83, _⟩ => ⟨S2x320000, .i32⟩
  | .hbm, ⟨84, _⟩ => ⟨S2x320000, .i32⟩
  | .hbm, ⟨85, _⟩ => ⟨S2x320000, .i32⟩
  | .hbm, ⟨86, _⟩ => ⟨S2x320000x1, .i32⟩
  | .hbm, ⟨87, _⟩ => ⟨S1, .i32⟩
  | .hbm, ⟨88, _⟩ => ⟨S_, .i32⟩
  | .hbm, ⟨89, _⟩ => ⟨S2x320000x1, .i32⟩
  | .hbm, ⟨90, _⟩ => ⟨S2x320000x1, .i1⟩
  | .hbm, ⟨91, _⟩ => ⟨S1x1x1, .i32⟩
  | .hbm, ⟨92, _⟩ => ⟨S2x320000x1, .i32⟩
  | .hbm, ⟨93, _⟩ => ⟨S2x320000x1, .i1⟩
  | .hbm, ⟨94, _⟩ => ⟨S2x320000x1, .i1⟩
  | .hbm, ⟨95, _⟩ => ⟨S_, .i1⟩
  | .hbm, ⟨96, _⟩ => ⟨S2x320000, .i1⟩
  | .hbm, ⟨97, _⟩ => ⟨S2x320000x128, .f32⟩
  | .hbm, ⟨98, _⟩ => ⟨S2x320000x128, .i1⟩
  | .hbm, ⟨99, _⟩ => ⟨S_, .f32⟩
  | .hbm, ⟨100, _⟩ => ⟨S2x320000x128, .f32⟩
  | .hbm, ⟨101, _⟩ => ⟨S2x320000x128, .f32⟩
  | .hbm, ⟨102, _⟩ => ⟨S2x160000x256, .f32⟩
  | .hbm, ⟨103, _⟩ => ⟨S2x160000x256, .f32⟩
  | .hbm, ⟨104, _⟩ => ⟨S_, .f32⟩
  | .hbm, ⟨105, _⟩ => ⟨S2x256, .f32⟩
  | .hbm, ⟨106, _⟩ => ⟨S2x1x256, .f32⟩
  | .hbm, ⟨107, _⟩ => ⟨S_, .f32⟩
  | .hbm, ⟨108, _⟩ => ⟨S2x1x256, .f32⟩
  | .hbm, ⟨109, _⟩ => ⟨S2x1x256, .f32⟩
  | .hbm, ⟨110, _⟩ => ⟨S2x160000x256, .f32⟩
  | .hbm, ⟨111, _⟩ => ⟨S2x160000x256, .f32⟩
  | .hbm, ⟨112, _⟩ => ⟨S2x160000x16, .f32⟩
  | .hbm, ⟨113, _⟩ => ⟨S1x1x16, .f32⟩
  | .hbm, ⟨114, _⟩ => ⟨S2x160000x16, .f32⟩
  | .hbm, ⟨115, _⟩ => ⟨S2x160000x16, .f32⟩
  | .hbm, ⟨116, _⟩ => ⟨S2x160000x16, .f32⟩
  | .hbm, ⟨117, _⟩ => ⟨S2x160000x16, .f32⟩
  | .hbm, ⟨118, _⟩ => ⟨S2x160000x16, .f32⟩
  | .hbm, ⟨119, _⟩ => ⟨S2x160000x16, .f32⟩
  | .hbm, ⟨120, _⟩ => ⟨S2x10000x16x16, .f32⟩
  | .hbm, ⟨121, _⟩ => ⟨S1x1x1x16, .f32⟩
  | .hbm, ⟨122, _⟩ => ⟨S2x10000x16x16, .f32⟩
  | .hbm, ⟨123, _⟩ => ⟨S2x10000x16x16, .f32⟩
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_cst_2 : Ref sig .tc := ⟨.hbm, 42, rfl⟩
abbrev main_v7 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_cst_4 : Ref sig .tc := ⟨.hbm, 48, rfl⟩
abbrev main_v11 : Ref sig .tc := ⟨.hbm, 49, rfl⟩
abbrev main_cst_5 : Ref sig .tc := ⟨.hbm, 50, rfl⟩
abbrev main_v12 : Ref sig .tc := ⟨.hbm, 51, rfl⟩
abbrev main_v13 : Ref sig .tc := ⟨.hbm, 52, rfl⟩
abbrev main_cst_6 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_7 : Ref sig .tc := ⟨.hbm, 57, rfl⟩
abbrev main_v17 : Ref sig .tc := ⟨.hbm, 58, rfl⟩
abbrev main_v18 : Ref sig .tc := ⟨.hbm, 59, rfl⟩
abbrev main_cst_8 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call1_cst : Ref sig .tc := ⟨.hbm, 75, rfl⟩
abbrev main_call1_v0 : Ref sig .tc := ⟨.hbm, 76, rfl⟩
abbrev main_v32 : Ref sig .tc := ⟨.hbm, 77, rfl⟩
abbrev main_v33 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_10 : Ref sig .tc := ⟨.hbm, 104, rfl⟩
abbrev main_v37 : Ref sig .tc := ⟨.hbm, 105, rfl⟩
abbrev main_v38 : Ref sig .tc := ⟨.hbm, 106, rfl⟩
abbrev main_cst_11 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩

abbrev nD : Nat := 1
abbrev τ : Topo := Topo.v7x

variable {F : FTy → Type} [FloatOps F]

class Facts₀ : Prop where
  bcast_S_S2x10000x128 : S_.BroadcastsInDim S2x10000x128 (![] : Fin 0 → Fin S2x10000x128.rank)
  bcast_S_S2x10000x16 : S_.BroadcastsInDim S2x10000x16 (![] : Fin 0 → Fin S2x10000x16.rank)
  bcast_S2x10000x16_S2x10000x16x1_0_1_2 : S2x10000x16.BroadcastsInDim S2x10000x16x1 (![0, 1, 2] : Fin 3 → Fin S2x10000x16x1.rank)
  bcast_S_S2x10000x16x1 : S_.BroadcastsInDim S2x10000x16x1 (![] : Fin 0 → Fin S2x10000x16x1.rank)
  bcast_S1_S1x1x1x1_3 : S1.BroadcastsInDim S1x1x1x1 (![3] : Fin 1 → Fin S1x1x1x1.rank)
  bcast_S1x1x1x1_S2x10000x16x1_0_1_2_3 : S1x1x1x1.BroadcastsInDim S2x10000x16x1 (![0, 1, 2, 3] : Fin 4 → Fin S2x10000x16x1.rank)
  reducesTo_S2x10000x16x1_S2x10000x16_d3 : S2x10000x16x1.ReducesTo [3] S2x10000x16
  h_S_ : 0 < S_.numel
  bcast_S2x10000x16_S2x10000x16x128_0_1_2 : S2x10000x16.BroadcastsInDim S2x10000x16x128 (![0, 1, 2] : Fin 3 → Fin S2x10000x16x128.rank)
  bcast_S_S2x10000x16x128 : S_.BroadcastsInDim S2x10000x16x128 (![] : Fin 0 → Fin S2x10000x16x128.rank)
  bcast_S_S2x10000x16x16 : S_.BroadcastsInDim S2x10000x16x16 (![] : Fin 0 → Fin S2x10000x16x16.rank)
  reducesTo_S2x10000x16x16_S2x10000x16_d3 : S2x10000x16x16.ReducesTo [3] S2x10000x16
  reducesTo_S2x10000x16_S2x10000_d2 : S2x10000x16.ReducesTo [2] S2x10000
  bcast_S2x10000_S2x10000x1_0_1 : S2x10000.BroadcastsInDim S2x10000x1 (![0, 1] : Fin 2 → Fin S2x10000x1.rank)
  bcast_S_S2x10000x1 : S_.BroadcastsInDim S2x10000x1 (![] : Fin 0 → Fin S2x10000x1.rank)
  bcast_S2x10000x1_S2x10000x16_0_1_2 : S2x10000x1.BroadcastsInDim S2x10000x16 (![0, 1, 2] : Fin 3 → Fin S2x10000x16.rank)
  bcast_S2x10000x16x1_S2x10000x16x128_0_1_2_3 : S2x10000x16x1.BroadcastsInDim S2x10000x16x128 (![0, 1, 2, 3] : Fin 4 → Fin S2x10000x16x128.rank)
  reducesTo_S2x10000x16x128_S2x10000x128_d2 : S2x10000x16x128.ReducesTo [2] S2x10000x128
  bcast_S128_S1x1x128_2 : S128.BroadcastsInDim S1x1x128 (![2] : Fin 1 → Fin S1x1x128.rank)
  bcast_S1x1x128_S2x10000x128_0_1_2 : S1x1x128.BroadcastsInDim S2x10000x128 (![0, 1, 2] : Fin 3 → Fin S2x10000x128.rank)
  shapeCasts_S2x160000x2_S2x320000 : S2x160000x2.ShapeCasts S2x320000
  bcast_S_S2x320000 : S_.BroadcastsInDim S2x320000 (![] : Fin 0 → Fin S2x320000.rank)
  bcast_S2x320000_S2x320000x1_0_1 : S2x320000.BroadcastsInDim S2x320000x1 (![0, 1] : Fin 2 → Fin S2x320000x1.rank)
  bcast_S_S2x320000x1 : S_.BroadcastsInDim S2x320000x1 (![] : Fin 0 → Fin S2x320000x1.rank)
  bcast_S1_S1x1x1_2 : S1.BroadcastsInDim S1x1x1 (![2] : Fin 1 → Fin S1x1x1.rank)
  bcast_S1x1x1_S2x320000x1_0_1_2 : S1x1x1.BroadcastsInDim S2x320000x1 (![0, 1, 2] : Fin 3 → Fin S2x320000x1.rank)
  reducesTo_S2x320000x1_S2x320000_d2 : S2x320000x1.ReducesTo [2] S2x320000
  bcast_S2x320000_S2x320000x128_0_1 : S2x320000.BroadcastsInDim S2x320000x128 (![0, 1] : Fin 2 → Fin S2x320000x128.rank)
  bcast_S_S2x320000x128 : S_.BroadcastsInDim S2x320000x128 (![] : Fin 0 → Fin S2x320000x128.rank)
  shapeCasts_S2x320000x128_S2x160000x256 : S2x320000x128.ShapeCasts S2x160000x256
  reducesTo_S2x160000x256_S2x256_d1 : S2x160000x256.ReducesTo [1] S2x256
  bcast_S2x256_S2x1x256_0_2 : S2x256.BroadcastsInDim S2x1x256 (![0, 2] : Fin 2 → Fin S2x1x256.rank)
  bcast_S_S2x1x256 : S_.BroadcastsInDim S2x1x256 (![] : Fin 0 → Fin S2x1x256.rank)
  bcast_S2x1x256_S2x160000x256_0_1_2 : S2x1x256.BroadcastsInDim S2x160000x256 (![0, 1, 2] : Fin 3 → Fin S2x160000x256.rank)
  bcast_S16_S1x1x16_2 : S16.BroadcastsInDim S1x1x16 (![2] : Fin 1 → Fin S1x1x16.rank)
  bcast_S1x1x16_S2x160000x16_0_1_2 : S1x1x16.BroadcastsInDim S2x160000x16 (![0, 1, 2] : Fin 3 → Fin S2x160000x16.rank)
  shapeCasts_S2x10000x16x16_S2x160000x16 : S2x10000x16x16.ShapeCasts S2x160000x16
  shapeCasts_S2x160000x16_S2x10000x16x16 : S2x160000x16.ShapeCasts S2x10000x16x16
  bcast_S16_S1x1x1x16_3 : S16.BroadcastsInDim S1x1x1x16 (![3] : Fin 1 → Fin S1x1x1x16.rank)
  bcast_S1x1x1x16_S2x10000x16x16_0_1_2_3 : S1x1x1x16.BroadcastsInDim S2x10000x16x16 (![0, 1, 2, 3] : Fin 4 → Fin S2x10000x16x16.rank)
  gather_S2x10000x128_S2x10000x16x1_S2x10000x16x128_3_1_0_0_1_3_11128_wf : GatherDims.WF S2x10000x128 S2x10000x16x1 S2x10000x16x128 [3] [1] [0] [1] [0] 3 ![1, 1, 128]
  dot_S2x10000x128_S128x128_S2x10000x128_2_0_01_1_n_n_wf : DotDims.WF S2x10000x128 S128x128 S2x10000x128 [2] [0] [0, 1] [1] [] []
  gather_S2x10000x128_S2x320000x1_S2x320000x128_2_1_0_0_1_2_11128_wf : GatherDims.WF S2x10000x128 S2x320000x1 S2x320000x128 [2] [1] [0] [1] [0] 2 ![1, 1, 128]
  dot_S2x160000x256_S256x16_S2x160000x16_2_0_01_1_n_n_wf : DotDims.WF S2x160000x256 S256x16 S2x160000x16 [2] [0] [0, 1] [1] [] []
  dot_S2x160000x16_S16x16_S2x160000x16_2_0_01_1_n_n_wf : DotDims.WF S2x160000x16 S16x16 S2x160000x16 [2] [0] [0, 1] [1] [] []

variable [Facts₀]

def gather_S2x10000x128_S2x10000x16x1_S2x10000x16x128_3_1_0_0_1_3_11128 : GatherDims S2x10000x128 S2x10000x16x1 S2x10000x16x128 where
  offsetDims := [3]
  collapsedSliceDims := [1]
  operandBatchingDims := [0]
  startIndicesBatchingDims := [0]
  startIndexMap := [1]
  indexVectorDim := 3
  sliceSizes := ![1, 1, 128]
  wf := gather_S2x10000x128_S2x10000x16x1_S2x10000x16x128_3_1_0_0_1_3_11128_wf
def dot_S2x10000x128_S128x128_S2x10000x128_2_0_01_1_n_n : DotDims S2x10000x128 S128x128 S2x10000x128 where
  lhsContracting := [2]
  rhsContracting := [0]
  lhsNonContracting := [0, 1]
  rhsNonContracting := [1]
  lhsBatch := []
  rhsBatch := []
  wf := dot_S2x10000x128_S128x128_S2x10000x128_2_0_01_1_n_n_wf
def gather_S2x10000x128_S2x320000x1_S2x320000x128_2_1_0_0_1_2_11128 : GatherDims S2x10000x128 S2x320000x1 S2x320000x128 where
  offsetDims := [2]
  collapsedSliceDims := [1]
  operandBatchingDims := [0]
  startIndicesBatchingDims := [0]
  startIndexMap := [1]
  indexVectorDim := 2
  sliceSizes := ![1, 1, 128]
  wf := gather_S2x10000x128_S2x320000x1_S2x320000x128_2_1_0_0_1_2_11128_wf
def dot_S2x160000x256_S256x16_S2x160000x16_2_0_01_1_n_n : DotDims S2x160000x256 S256x16 S2x160000x16 where
  lhsContracting := [2]
  rhsContracting := [0]
  lhsNonContracting := [0, 1]
  rhsNonContracting := [1]
  lhsBatch := []
  rhsBatch := []
  wf := dot_S2x160000x256_S256x16_S2x160000x16_2_0_01_1_n_n_wf
def dot_S2x160000x16_S16x16_S2x160000x16_2_0_01_1_n_n : DotDims S2x160000x16 S16x16 S2x160000x16 where
  lhsContracting := [2]
  rhsContracting := [0]
  lhsNonContracting := [0, 1]
  rhsNonContracting := [1]
  lhsBatch := []
  rhsBatch := []
  wf := dot_S2x160000x16_S16x16_S2x160000x16_2_0_01_1_n_n_wf

class Facts : Prop extends Facts₀ where

variable [Facts]
-- ==== Proof.Common.lean ====
/-
  The program as the launch theorem of a SparseCore program sees it: two vector-subcore gather calls beside three
  TensorCore pipelines in one @main. Here: the label signature, the call table, the body table, the variants, the
  call table's side conditions, and the resource algebra — the handshakes' rounds, the pipelines' staging cells'
  rounds, and the transfers' counters side by side.
-/
import proofs.«208461_g52518860095779_cont_9to1_m_1075_29_alg».proof.KernelIdeal
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«208461_g52518860095779_cont_9to1_m_1075_29_alg».proof.Proof.Gen.KernelIdeal
import proofs.«208461_g52518860095779_cont_9to1_m_1075_29_alg».proof.Proof.Gen.KernelIdeal.Skeleton
import proofs.«208461_g52518860095779_cont_9to1_m_1075_29_alg».proof.Proof.Gen.KernelIdeal.Launch
import proofs.«208461_g52518860095779_cont_9to1_m_1075_29_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, staging cells, transfers' counters. -/
abbrev UU : Type := UH × (UP × Counters)

/-- The handshakes' rounds library, the left factor. -/
abbrev EH : Emb UH (MT nD τ sig (HIx 2) (Elt F) ℕ UU ℕ) := embL
/-- The staging cells' rounds library, the left factor of the right factor. -/
def EP : Emb UP (MT nD τ sig (HIx 2) (Elt F) ℕ UU ℕ) :=
  (Emb.inl : Emb UP (UP × Counters)).trans (embR : Emb (UP × Counters) (MT nD τ sig (HIx 2) (Elt F) ℕ (UH × (UP × Counters)) ℕ))

instance EP_landsIn : (EP : Emb UP (MT nD τ sig (HIx 2) (Elt F) ℕ UU ℕ)).LandsIn (upEmb : UEmb _ (MT nD τ sig (HIx 2) (Elt F) ℕ UU ℕ)) := by
  unfold EP embR; infer_instance

example : CountersIn UU := inferInstance

/-! ## The three pipelines, pinned: none has a prefetched table -/

/-- The (empty) prefetched contents each pipeline is pinned at. -/
abbrev adm : (p : Fin 3) → (pcfgs (F := F) p).Adm := fun p => (cfgs p).toPCfg_adm
/-- The pipelines as the region rule reads them. -/
abbrev pcf : Fin 3 → Pipeline.Cfg sig Λ₀ := Pipeline.pin (pcfgs (F := F)) adm
theorem pcf_eq : pcf (F := F) = cfgs := rfl
theorem pcf_inj : Function.Injective (Pipeline.cellOf (nD := nD) (τ := τ) (pcf (F := F))) := cellOf_inj

/-! ## The two gather calls: their arrays and the gathered value -/

variable [FloatOps F]

/-- Call 0 (the neighbour gather): table, index list, result, as locations of device d's TensorCore. -/
abbrev tLoc0 (d : Dev nD) : Loc nD τ sig := (SparseCore.T d).loc main_v1
abbrev iLoc0 (d : Dev nD) : Loc nD τ sig := (SparseCore.T d).loc main_v8
abbrev oLoc0 (d : Dev nD) : Loc nD τ sig := (SparseCore.T d).loc main_v9
/-- Call 1 (the edge-endpoint gather). -/
abbrev tLoc1 (d : Dev nD) : Loc nD τ sig := (SparseCore.T d).loc main_v12
abbrev iLoc1 (d : Dev nD) : Loc nD τ sig := (SparseCore.T d).loc main_v25
abbrev oLoc1 (d : Dev nD) : Loc nD τ sig := (SparseCore.T d).loc main_v26

/-- Row r of the gathered array is row idx[r] of the table (the word read unsigned; capped at the last row so that
    the function is total: for a list in range the cap is the identity). -/
def gath0 (tb : S20000x128.Idx → Elt F .f32) (ix : S320000.Idx → Elt F .i32) : S320000x128.Idx → Elt F .f32 :=
  fun j => tb (ValueIdx.ix2 (⟨min (ix (ValueIdx.ix1 (j 0))).toNat 19999, by omega⟩ : Fin 20000) (j 1))
def gath1 (tb : S20000x128.Idx → Elt F .f32) (ix : S640000.Idx → Elt F .i32) : S640000x128.Idx → Elt F .f32 :=
  fun j => tb (ValueIdx.ix2 (⟨min (ix (ValueIdx.ix1 (j 0))).toNat 19999, by omega⟩ : Fin 20000) (j 1))

/-- The contents types, spelt once. -/
abbrev Tab : Type := S20000x128.Idx → Elt F .f32
abbrev Ix0 : Type := S320000.Idx → Elt F .i32
abbrev Ix1 : Type := S640000.Idx → Elt F .i32
abbrev Out0 : Type := S320000x128.Idx → Elt F .f32
abbrev Out1 : Type := S640000x128.Idx → Elt F .f32

example (d : Dev nD) : Buf (Elt F) (tLoc0 d) = Tab (F := F) := rfl
example (d : Dev nD) : Buf (Elt F) (iLoc0 d) = Ix0 (F := F) := rfl
example (d : Dev nD) : Buf (Elt F) (oLoc0 d) = Out0 (F := F) := rfl
example (d : Dev nD) : Buf (Elt F) (iLoc1 d) = Ix1 (F := F) := rfl
example (d : Dev nD) : Buf (Elt F) (oLoc1 d) = Out1 (F := F) := rfl

end Cert.KernelIdeal.Hand

end
-- ==== Proof.LaunchElem.lean ====
/-
  The launch element: the handshakes' rounds at their launch state, the three pipelines' staging cells' rounds at
  theirs, the transfers' counters at the unit. The launch funds from it the handshakes' part for the launch theorem
  and, per device, every pipeline's cells' ghost state and duty tokens, which @main's proof spends at each region.
-/
import proofs.«208461_g52518860095779_cont_9to1_m_1075_29_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The launch element. -/
def u₀ : UU :=
  (initOf (K (F := F)).hsCells (K (F := F)).hsToks,
    (initOf (Pipeline.cells (pcf (F := F)) pcf_inj) (Pipeline.launchToks (pcf (F := F)) pcf_inj), 1))

/-- What @main's proof on device d starts from beside the launch's deal: each pipeline's staging cells' ghost state
    and the duty tokens of the transfers its loop issues. -/
def G (d : Dev nD) : sProp 𝕄 :=
  bigSep Finset.univ fun p : Fin 3 => iprop(Pipeline.cellsGhost (pcf (F := F)) EP p d ∗ Pipeline.toksInit (pcf (F := F)) EP p d)

omit [FloatOps F] in
theorem bigSep_emp' {I : Type} (s : Finset I) : (bigSep s fun _ => iprop(emp)) = (iprop(emp) : sProp 𝕄) := bigSep_emp_const s

/-- The launch element yields the handshakes' launch state, every device's pipelines' ghost state, and nothing for
    the kernels' own protocols (they are schedule-free). -/
theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 2 => P.x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans
      (embR : Emb (UP × Counters) (MT nD τ sig (HIx 2) (Elt F) ℕ (UH × (UP × Counters)) ℕ)))
        (initOf (Pipeline.cells (pcf (F := F)) pcf_inj) (Pipeline.launchToks (pcf (F := F)) pcf_inj))) : sProp 𝕄)
      = BI.own (EP (initOf (Pipeline.cells (pcf (F := F)) pcf_inj) (Pipeline.launchToks (pcf (F := F)) pcf_inj))) from rfl)) $$ HP
  imod (Pipeline.fund_ghost (pcf (F := F)) EP pcf_inj) $$ HP' with ⟨Hg, Ht⟩
  imodintro
  isplitl [HH]; · iexact HH
  isplitl [Hg Ht]
  · unfold G
    simp only [bigSep_sep']
    isplitl [Hg] <;> iassumption
  · rw [show (bigSep Finset.univ fun thr : Thread nD τ => bigSep Finset.univ fun q : Fin 2 => P.x q thr) = (iprop(emp) : sProp 𝕄) from by
      simp only [hx]; rw [bigSep_congr fun _ _ => bigSep_emp' _, bigSep_emp']]
    iempintro

end Cert.KernelIdeal.Hand

end
-- ==== Proof.MainShape.lean ====
/-
  @main of the kernel program as five straight stretches of host operations around its five calls: the square-root
  pipeline, the neighbour gather on the SparseCores, the node-update pipeline, the endpoint gather on the SparseCores,
  the edge-update pipeline.
-/
import proofs.«208461_g52518860095779_cont_9to1_m_1075_29_alg».proof.Proof.Common

noncomputable section

namespace Cert.KernelIdeal.Hand

open Cert.KernelIdeal Cert.KernelIdeal.Gen
open Idealize.ShloMosaic Idealize.SL.Sem

variable {F : FTy → Type} [FloatOps F]

/-- The atom array flattened to rows. -/
abbrev ops0 : List (HloOp τ sig (Elt F)) :=
  [ StableHlo.reshape main_arg0 main_v0 rfl shapeCasts_S2x10000x128_S20000x128 ]

/-- The neighbour table shifted by the batch's row offset and flattened: the first gather's index list. -/
abbrev ops1 : List (HloOp τ sig (Elt F)) :=
  [ StableHlo.nullary main_v2 (iotaInDim S2 32 0),
    StableHlo.nullary main_c (constantI S_ 32 10000#32),
    StableHlo.unary main_c main_v3 (broadcastInDim S2 ![] bcast_S_S2 : (⟨S_, .i32⟩ : BufTy).Contents (Elt F) → (⟨S2, .i32⟩ : BufTy).Contents (Elt F)),
    StableHlo.binary main_v2 main_v3 main_v4 (muli : (⟨S2, .i32⟩ : BufTy).Contents (Elt F) → (⟨S2, .i32⟩ : BufTy).Contents (Elt F) → (⟨S2, .i32⟩ : BufTy).Contents (Elt F)),
    StableHlo.unary main_v4 main_v5 (broadcastInDim S2x1x1 ![0] bcast_S2_S2x1x1_0 : (⟨S2, .i32⟩ : BufTy).Contents (Elt F) → (⟨S2x1x1, .i32⟩ : BufTy).Contents (Elt F)),
    StableHlo.unary main_v5 main_v6 (broadcastInDim S2x10000x16 ![0, 1, 2] bcast_S2x1x1_S2x10000x16_0_1_2 : (⟨S2x1x1, .i32⟩ : BufTy).Contents (Elt F) → (⟨S2x10000x16, .i32⟩ : BufTy).Contents (Elt F)),
    StableHlo.binary main_arg2 main_v6 main_v7 (addi : (⟨S2x10000x16, .i32⟩ : BufTy).Contents (Elt F) → (⟨S2x10000x16, .i32⟩ : BufTy).Contents (Elt F) → (⟨S2x10000x16, .i32⟩ : BufTy).Contents (Elt F)),
    StableHlo.reshape main_v7 main_v8 rfl shapeCasts_S2x10000x16_S320000 ]

/-- The node bias as a row. -/
abbrev ops2 : List (HloOp τ sig (Elt F)) :=
  [ StableHlo.reshape main_arg7 main_v10 rfl shapeCasts_S128_S1x128 ]

/-- The updated node features flattened to rows; the two endpoint columns shifted by the batch's row offset, flattened and laid end to end: the second gather's index list. -/
abbrev ops3 : List (HloOp τ sig (Elt F)) :=
  [ StableHlo.reshape main_v11 main_v12 rfl shapeCasts_S2x10000x128_S20000x128,
    StableHlo.unary main_arg3 main_v13 ((extractStridedSlice S2x160000x1 ![0, 0, 0] · slices_S2x160000x2_S2x160000x1_0_0_0) : (⟨S2x160000x2, .i32⟩ : BufTy).Contents (Elt F) → (⟨S2x160000x1, .i32⟩ : BufTy).Contents (Elt F)),
    StableHlo.reshape main_v13 main_v14 rfl shapeCasts_S2x160000x1_S2x160000,
    StableHlo.unary main_arg3 main_v15 ((extractStridedSlice S2x160000x1 ![0, 0, 1] · slices_S2x160000x2_S2x160000x1_0_0_1) : (⟨S2x160000x2, .i32⟩ : BufTy).Contents (Elt F) → (⟨S2x160000x1, .i32⟩ : BufTy).Contents (Elt F)),
    StableHlo.reshape main_v15 main_v16 rfl shapeCasts_S2x160000x1_S2x160000,
    StableHlo.unary main_v4 main_v17 (broadcastInDim S2x1 ![0] bcast_S2_S2x1_0 : (⟨S2, .i32⟩ : BufTy).Contents (Elt F) → (⟨S2x1, .i32⟩ : BufTy).Contents (Elt F)),
    StableHlo.unary main_v17 main_v18 (broadcastInDim S2x160000 ![0, 1] bcast_S2x1_S2x160000_0_1 : (⟨S2x1, .i32⟩ : BufTy).Contents (Elt F) → (⟨S2x160000, .i32⟩ : BufTy).Contents (Elt F)),
    StableHlo.binary main_v14 main_v18 main_v19 (addi : (⟨S2x160000, .i32⟩ : BufTy).Contents (Elt F) → (⟨S2x160000, .i32⟩ : BufTy).Contents (Elt F) → (⟨S2x160000, .i32⟩ : BufTy).Contents (Elt F)),
    StableHlo.reshape main_v19 main_v20 rfl shapeCasts_S2x160000_S320000,
    StableHlo.unary main_v4 main_v21 (broadcastInDim S2x1 ![0] bcast_S2_S2x1_0 : (⟨S2, .i32⟩ : BufTy).Contents (Elt F) → (⟨S2x1, .i32⟩ : BufTy).Contents (Elt F)),
    StableHlo.unary main_v21 main_v22 (broadcastInDim S2x160000 ![0, 1] bcast_S2x1_S2x160000_0_1 : (⟨S2x1, .i32⟩ : BufTy).Contents (Elt F) → (⟨S2x160000, .i32⟩ : BufTy).Contents (Elt F)),
    StableHlo.binary main_v16 main_v22 main_v23 (addi : (⟨S2x160000, .i32⟩ : BufTy).Contents (Elt F) → (⟨S2x160000, .i32⟩ : BufTy).Contents (Elt F) → (⟨S2x160000, .i32⟩ : BufTy).Contents (Elt F)),
    StableHlo.reshape main_v23 main_v24 rfl shapeCasts_S2x160000_S320000,
    StableHlo.binary main_v20 main_v24 main_v25 ((fun a b => concatenate S640000 0 [⟨S320000, a⟩, ⟨S320000, b⟩] concatenates_S320000_S320000_S640000_d0) : (⟨S320000, .i32⟩ : BufTy).Contents (Elt F) → (⟨S320000, .i32⟩ : BufTy).Contents (Elt F) → (⟨S640000, .i32⟩ : BufTy).Contents (Elt F)) ]

/-- The node-to-edge weight's two halves; the two edge biases as rows. -/
abbrev ops4 : List (HloOp τ sig (Elt F)) :=
  [ StableHlo.unary main_arg6 main_v27 ((extractStridedSlice S128x16 ![0, 0] · slices_S256x16_S128x16_0_0) : (⟨S256x16, .f32⟩ : BufTy).Contents (Elt F) → (⟨S128x16, .f32⟩ : BufTy).Contents (Elt F)),
    StableHlo.unary main_arg6 main_v28 ((extractStridedSlice S128x16 ![128, 0] · slices_S256x16_S128x16_128_0) : (⟨S256x16, .f32⟩ : BufTy).Contents (Elt F) → (⟨S128x16, .f32⟩ : BufTy).Contents (Elt F)),
    StableHlo.reshape main_arg9 main_v29 rfl shapeCasts_S16_S1x16,
    StableHlo.reshape main_arg8 main_v30 rfl shapeCasts_S16_S1x16 ]

/-- @main is those stretches and calls in order. -/
theorem main_eq (d : Dev nD) :
    main (F := F) d
      = (StableHlo.seq ops0 >>= fun _ => Prog.lift (.customCall (SparseCore.inner (Pipeline.entry 0)) ()) >>= fun _ =>
         StableHlo.seq ops1 >>= fun _ => (sc (F := F)).run d 0 >>= fun _ =>
         StableHlo.seq ops2 >>= fun _ => Prog.lift (.customCall (SparseCore.inner (Pipeline.entry 1)) ()) >>= fun _ =>
         StableHlo.seq ops3 >>= fun _ => (sc (F := F)).run d 1 >>= fun _ =>
         StableHlo.seq ops4 >>= fun _ => Prog.lift (.customCall (SparseCore.inner (Pipeline.entry 2)) ()) >>= fun _ => pure ⟨⟩) := by
  rfl

end Cert.KernelIdeal.Hand

end
-- ==== Proof.MainStep.lean ====
/-
  @main on the TensorCore, inside the SparseCore launch: the interface a pipeline's region proof presents, and a
  region step lifted into the extended body table of the launch theorem.
-/
import proofs.«208461_g52518860095779_cont_9to1_m_1075_29_alg».proof.Proof.LaunchElem
import proofs.«208461_g52518860095779_cont_9to1_m_1075_29_alg».proof.Proof.MainShape
import Idealize.ShloMosaic.Lib.Pipeline.Frame

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 2) (Elt F) ℕ UU ℕ

/-- What the proof of pipeline p's region presents: holding the region boundary, every unscoped buffer at contents V,
    the staging cells' ghost state and duty tokens, and owing O (all of it strictly above level 0), the region runs to
    the boundary and the buffers at upd V, still owing O, having recorded only waits at index none beyond W. -/
def RegionOK (p : Fin 3) (upd : Valuation τ sig (Elt F) → Valuation τ sig (Elt F)) : Prop :=
  ∀ (d : Dev nD) (X : Valuation τ sig (Elt F)) (O : CellTallies nD τ sig (HIx 2)) (W : Waits sig (HIx 2)),
    (∀ (g : GSem nD τ sig) (i : HIx 2), 0 < O g i → i ∈ (K (F := F)).L g ∧ 0 < (K (F := F)).lev g i) →
    ∀ {α : Type} (k : PUnit → Prog (TpuEff nD τ sig (Elt F) (ΛP (F := F)) .tc) α) (Q : α → sProp 𝕄),
      iprop((iprop(boundary (T d) ∗ held (T d) (Pipeline.ucRefs τ sig) (upd X)
                ∗ ∃ W', ⌜∀ p ∈ W', p ∈ W ∨ p.2 = none⌝ ∗ owes (T d) O W')
              -∗ wp frame (wpE (D (F := F)) 𝒱 (T d) none) Set.univ (k ⟨⟩) Q)
          ∗ boundary (T d) ∗ held (T d) (Pipeline.ucRefs τ sig) X ∗ owes (T d) O W
          ∗ levAts (K (F := F)).L (K (F := F)).lev
          ∗ Pipeline.cellsGhost (pcf (F := F)) EP p d ∗ Pipeline.toksInit (pcf (F := F)) EP p d)
        ⊢ wp frame (wpE (D (F := F)) 𝒱 (T d) none) Set.univ (.op (.customCall (Pipeline.entry p) ()) k) Q

variable (P : (K (F := F)).Pay (nD := nD) (Val := Elt F) (Name := ℕ) (U := UU))

/-- The printed call of pipeline p's region is the region's own call, lifted to the extended signature. -/
theorem lift_entry (p : Fin 3) :
    (SparseCore.liftProg (Q := 2) (.op (.customCall (Pipeline.entry p) ()) fun _ => .ret ⟨⟩ :
        Prog (TpuEff nD τ sig (Elt F) (ΛP (F := F)) .tc) PUnit) :
      Prog (TpuEff nD τ sig (Elt F) (SparseCore.Sig (ΛP (F := F)) 2) .tc) PUnit)
      = Prog.lift (.customCall (SparseCore.inner (Pipeline.entry p)) ()) := rfl

/-- A region step over the program's own body table: from the TensorCore's handshake state before call n, the
    boundary, the buffers and the pipeline's ghost state, the region's call runs to the same handshake state and the
    buffers at upd X. -/
theorem wp_region₀ {p : Fin 3} {upd : Valuation τ sig (Elt F) → Valuation τ sig (Elt F)} (h : RegionOK (F := F) p upd)
    (κ : GSem nD τ sig → ℕ) (d : Dev nD) (n : ℕ) (X : Valuation τ sig (Elt F)) (Ψ : PUnit → sProp 𝕄) :
    iprop((K (F := F)).ctx EH P κ ∗ (K (F := F)).tcSt EH d n ∗ boundary (T d) ∗ held (T d) (Pipeline.ucRefs τ sig) X
        ∗ Pipeline.cellsGhost (pcf (F := F)) EP p d ∗ Pipeline.toksInit (pcf (F := F)) EP p d
        ∗ (iprop((K (F := F)).tcSt EH d n ∗ boundary (T d) ∗ held (T d) (Pipeline.ucRefs τ sig) (upd X)) -∗ Ψ ⟨⟩))
      ⊢ wp frame (wpE (D (F := F)) 𝒱 (T d) none) Set.univ
          (.op (.customCall (Pipeline.entry p) ()) fun _ => .ret ⟨⟩ : Prog (TpuEff nD τ sig (Elt F) (ΛP (F := F)) .tc) PUnit) Ψ := by
  unfold SparseCore.Cfg.tcSt
  iintro ⟨#Hctx, ⟨⟨%W, %hW, HO⟩, Hrest⟩, Hb, Hheld, Hg, Ht, Hk⟩
  ihave Hlev := ((K (F := F)).ctx_levAts (EH := EH) (P := P) κ) $$ Hctx
  iapply (h d X ((K (F := F)).Otc d n) W (fun g i hgi => ⟨Finset.mem_univ _, by
      have := (K (F := F)).lev_of_Otc_pos hgi; omega⟩) (fun _ => .ret ⟨⟩) Ψ) $$ [Hb Hheld HO Hg Ht Hrest Hk]
  isplitl [Hrest Hk]
  · iintro ⟨Hb, Hheld, %W', %hW', HO⟩
    rw [wp_ret]; imodintro
    iapply Hk
    isplitl [HO Hrest]
    · isplitl [HO]
      · iexists W'; isplitr
        · ipureintro
          intro q hq
          rcases hW' q hq with hq | hq
          · exact hW q hq
          · rw [hq]; simp
        · iexact HO
      · iexact Hrest
    isplitl [Hb] <;> iassumption
  isplitl [Hb]; · iexact Hb
  isplitl [Hheld]; · iexact Hheld
  isplitl [HO]; · iexact HO
  isplitl []; · iexact Hlev
  isplitl [Hg] <;> iassumption

/-- The same step at the printed call, under the launch theorem's extended body table. -/
theorem wp_region {p : Fin 3} {upd : Valuation τ sig (Elt F) → Valuation τ sig (Elt F)} (h : RegionOK (F := F) p upd)
    (κ : GSem nD τ sig → ℕ) (d : Dev nD) (n : ℕ) (X : Valuation τ sig (Elt F)) (Ψ : PUnit → sProp 𝕄) :
    iprop((K (F := F)).ctx EH P κ ∗ (K (F := F)).tcSt EH d n ∗ boundary (T d) ∗ held (T d) (Pipeline.ucRefs τ sig) X
        ∗ Pipeline.cellsGhost (pcf (F := F)) EP p d ∗ Pipeline.toksInit (pcf (F := F)) EP p d
        ∗ (iprop((K (F := F)).tcSt EH d n ∗ boundary (T d) ∗ held (T d) (Pipeline.ucRefs τ sig) (upd X)) -∗ Ψ ⟨⟩))
      ⊢ wp frame (wpE ((K (F := F)).defs (D (F := F))) 𝒱 (T d) none) Set.univ
          (Prog.lift (.customCall (SparseCore.inner (Pipeline.entry p)) ())) Ψ := by
  have hl := (K (F := F)).wp_liftProg (nD := nD) (Val := Elt F) (Name := ℕ) (U := UU) (D (F := F)) 𝒱 (T d) Set.univ none
    (.op (.customCall (Pipeline.entry p) ()) fun _ => .ret ⟨⟩ : Prog (TpuEff nD τ sig (Elt F) (ΛP (F := F)) .tc) PUnit) Ψ
  rw [← lift_entry p]
  exact (wp_region₀ P h κ d n X Ψ).trans hl

/-- Three distinct buffers of a held set, taken out of it and put back with the third at new contents. -/
theorem held_three {S : Finset (DevRef τ sig)} {a b c : DevRef τ sig} (hab : a ≠ b) (hac : a ≠ c) (hbc : b ≠ c)
    (hS : ({a, b, c} : Finset (DevRef τ sig)) ⊆ S) (d : Dev nD) (X : Valuation τ sig (Elt F)) (r : c.ty.Contents (Elt F)) :
    (held (T d) S X : sProp 𝕄)
        = iprop((((d, a) ↦{fullShare} X a) ∗ ((d, b) ↦{fullShare} X b) ∗ ((d, c) ↦{fullShare} X c)) ∗ held (T d) (S \ {a, b, c}) X)
      ∧ (held (T d) S (Function.update X c r) : sProp 𝕄)
        = iprop((((d, a) ↦{fullShare} X a) ∗ ((d, b) ↦{fullShare} X b) ∗ ((d, c) ↦{fullShare} r)) ∗ held (T d) (S \ {a, b, c}) X) := by
  have h3 : ∀ Y : Valuation τ sig (Elt F), (held (T d) ({a, b, c} : Finset (DevRef τ sig)) Y : sProp 𝕄)
      = iprop(((d, a) ↦{fullShare} Y a) ∗ ((d, b) ↦{fullShare} Y b) ∗ ((d, c) ↦{fullShare} Y c)) := by
    intro Y
    unfold held
    rw [SparseCore.bigSep_insert' (by simp [hab, hac]), SparseCore.bigSep_insert' (by simp [hbc]), bigSep_singleton]
  constructor
  · rw [held_sub_split (T d) hS X, h3]
  · rw [held_sub_split (T d) hS (Function.update X c r), h3,
      Function.update_of_ne hac, Function.update_of_ne hbc, Function.update_self,
      held_congr (T d) (V := Function.update X c r) (V' := X) fun e he => Function.update_of_ne (fun hce => by
        rw [hce] at he; exact (Finset.mem_sdiff.mp he).2 (by simp)) _ _]

/-- A gather call inside the launch: the table, the index list and the result array leave the held set for the
    SparseCores through the call's payloads and come back, the result at new contents. -/
theorem wp_call (q : Fin 2) {a b c : DevRef τ sig} (hab : a ≠ b) (hac : a ≠ c) (hbc : b ≠ c)
    (hS : ({a, b, c} : Finset (DevRef τ sig)) ⊆ Pipeline.ucRefs τ sig)
    (κ : GSem nD τ sig → ℕ) (d : Dev nD) (X : Valuation τ sig (Elt F)) (r : c.ty.Contents (Elt F))
    (hst : iprop(((d, a) ↦{fullShare} X a) ∗ ((d, b) ↦{fullShare} X b) ∗ ((d, c) ↦{fullShare} X c))
      ⊢ (bigSep Finset.univ fun k : Fin ((K (F := F)).nCore q) => P.st q d k : sProp 𝕄))
    (hdn : (bigSep Finset.univ fun k : Fin ((K (F := F)).nCore q) => P.dn q d k : sProp 𝕄)
      ⊢ iprop(((d, a) ↦{fullShare} X a) ∗ ((d, b) ↦{fullShare} X b) ∗ ((d, c) ↦{fullShare} r)))
    (Ψ : PUnit → sProp 𝕄) :
    iprop((K (F := F)).ctx EH P κ ∗ (K (F := F)).tcSt EH d q.val ∗ held (T d) (Pipeline.ucRefs τ sig) X
        ∗ (iprop((K (F := F)).tcSt EH d (q.val + 1) ∗ held (T d) (Pipeline.ucRefs τ sig) (Function.update X c r)) -∗ Ψ ⟨⟩))
      ⊢ wp frame (wpE ((K (F := F)).defs (D (F := F))) 𝒱 (T d) none) Set.univ ((K (F := F)).run d q) Ψ := by
  obtain ⟨e1, e2⟩ := held_three (F := F) hab hac hbc hS d X r
  rw [e1, e2]
  iintro ⟨#Hctx, Hst, ⟨H3, Hrest⟩, Hk⟩
  ihave Hs := hst $$ H3
  iapply ((K (F := F)).wp_run (D (F := F)) 𝒱 (EH := EH) (P := P) κ d q) $$ [Hst Hs Hrest Hk]
  isplitr; · iexact Hctx
  isplitl [Hst]; · iexact Hst
  isplitl [Hs]; · iexact Hs
  iintro ⟨Hst, Hdn⟩
  ihave H3 := hdn $$ Hdn
  iapply Hk
  isplitl [Hst]; · iexact Hst
  isplitl [H3] <;> iassumption

end Cert.KernelIdeal.Hand

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.IdxFacts.lean ====
/-
  The host operations between the kernel program's calls, stretch by stretch: which buffers each stretch writes and
  which it leaves alone, that every operation touches TensorCore buffers only and determines all it writes, and what
  the two gathers' index lists hold. Each list is a table of row numbers below 10000 shifted by the batch's row
  offset, 0 or 10000: so every entry is below 20000, the number of rows of the gathered table.
-/
import proofs.«208461_g52518860095779_cont_9to1_m_1075_29_alg».proof.Proof.MainShape
import proofs.«208461_g52518860095779_cont_9to1_m_1075_29_alg».proof.Proof.LibStretch
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.SL.Sem Idealize.ShloMosaic.TcCoe Idealize.ShloMosaic.StableHlo

variable {F : FTy → Type} [FloatOps F]

/-! ## What each stretch writes, touches and keeps -/

theorem writes_0 : Cert.LibStretch.WritesAre (ops0 (F := F)) [main_v0] := by
  unfold Cert.LibStretch.WritesAre
  repeat (first | exact List.Forall₂.nil | refine List.Forall₂.cons rfl ?_)

theorem writes_1 : Cert.LibStretch.WritesAre (ops1 (F := F))
    [main_v2, main_c, main_v3, main_v4, main_v5, main_v6, main_v7, main_v8] := by
  unfold Cert.LibStretch.WritesAre
  repeat (first | exact List.Forall₂.nil | refine List.Forall₂.cons rfl ?_)

theorem writes_2 : Cert.LibStretch.WritesAre (ops2 (F := F)) [main_v10] := by
  unfold Cert.LibStretch.WritesAre
  repeat (first | exact List.Forall₂.nil | refine List.Forall₂.cons rfl ?_)

theorem writes_3 : Cert.LibStretch.WritesAre (ops3 (F := F))
    [main_v12, main_v13, main_v14, main_v15, main_v16, main_v17, main_v18, main_v19, main_v20, main_v21, main_v22,
      main_v23, main_v24, main_v25] := by
  unfold Cert.LibStretch.WritesAre
  repeat (first | exact List.Forall₂.nil | refine List.Forall₂.cons rfl ?_)

theorem writes_4 : Cert.LibStretch.WritesAre (ops4 (F := F)) [main_v27, main_v28, main_v29, main_v30] := by
  unfold Cert.LibStretch.WritesAre
  repeat (first | exact List.Forall₂.nil | refine List.Forall₂.cons rfl ?_)

/-- A buffer a stretch does not write holds after it what it held before. -/
theorem kept_0 (X : Valuation τ sig (Elt F)) (r : Ref sig .tc) (hr : r ∉ [main_v0]) :
    after (ops0 (F := F)) X (r : DevRef τ sig) = X r :=
  after_of_forall_not_mem _ X (Cert.LibStretch.not_mem_writes writes_0 hr)

theorem kept_1 (X : Valuation τ sig (Elt F)) (r : Ref sig .tc)
    (hr : r ∉ [main_v2, main_c, main_v3, main_v4, main_v5, main_v6, main_v7, main_v8]) :
    after (ops1 (F := F)) X (r : DevRef τ sig) = X r :=
  after_of_forall_not_mem _ X (Cert.LibStretch.not_mem_writes writes_1 hr)

theorem kept_2 (X : Valuation τ sig (Elt F)) (r : Ref sig .tc) (hr : r ∉ [main_v10]) :
    after (ops2 (F := F)) X (r : DevRef τ sig) = X r :=
  after_of_forall_not_mem _ X (Cert.LibStretch.not_mem_writes writes_2 hr)

theorem kept_3 (X : Valuation τ sig (Elt F)) (r : Ref sig .tc)
    (hr : r ∉ [main_v12, main_v13, main_v14, main_v15, main_v16, main_v17, main_v18, main_v19, main_v20, main_v21,
      main_v22, main_v23, main_v24, main_v25]) :
    after (ops3 (F := F)) X (r : DevRef τ sig) = X r :=
  after_of_forall_not_mem _ X (Cert.LibStretch.not_mem_writes writes_3 hr)

theorem kept_4 (X : Valuation τ sig (Elt F)) (r : Ref sig .tc) (hr : r ∉ [main_v27, main_v28, main_v29, main_v30]) :
    after (ops4 (F := F)) X (r : DevRef τ sig) = X r :=
  after_of_forall_not_mem _ X (Cert.LibStretch.not_mem_writes writes_4 hr)

/-- Every operation of a stretch touches TensorCore buffers only. -/
theorem ops0_sub : ∀ op ∈ (ops0 : List (HloOp τ sig (Elt F))), op.bufs ⊆ tcRefs τ sig :=
  List.forall_iff_forall_mem.mp (show List.Forall _ (ops0 (F := F)) from reshape_bufs_sub ..)

theorem ops1_sub : ∀ op ∈ (ops1 : List (HloOp τ sig (Elt F))), op.bufs ⊆ tcRefs τ sig :=
  List.forall_iff_forall_mem.mp (show List.Forall _ (ops1 (F := F)) from
    ⟨nullary_bufs_sub .., nullary_bufs_sub .., unary_bufs_sub .., binary_bufs_sub .., unary_bufs_sub ..,
      unary_bufs_sub .., binary_bufs_sub .., reshape_bufs_sub ..⟩)

theorem ops2_sub : ∀ op ∈ (ops2 : List (HloOp τ sig (Elt F))), op.bufs ⊆ tcRefs τ sig :=
  List.forall_iff_forall_mem.mp (show List.Forall _ (ops2 (F := F)) from reshape_bufs_sub ..)

theorem ops3_sub : ∀ op ∈ (ops3 : List (HloOp τ sig (Elt F))), op.bufs ⊆ tcRefs τ sig :=
  List.forall_iff_forall_mem.mp (show List.Forall _ (ops3 (F := F)) from
    ⟨reshape_bufs_sub .., unary_bufs_sub .., reshape_bufs_sub .., unary_bufs_sub .., reshape_bufs_sub ..,
      unary_bufs_sub .., unary_bufs_sub .., binary_bufs_sub .., reshape_bufs_sub .., unary_bufs_sub ..,
      unary_bufs_sub .., binary_bufs_sub .., reshape_bufs_sub .., binary_bufs_sub ..⟩)

theorem ops4_sub : ∀ op ∈ (ops4 : List (HloOp τ sig (Elt F))), op.bufs ⊆ tcRefs τ sig :=
  List.forall_iff_forall_mem.mp (show List.Forall _ (ops4 (F := F)) from
    ⟨unary_bufs_sub .., unary_bufs_sub .., reshape_bufs_sub .., reshape_bufs_sub ..⟩)

/-- Every operation of a stretch determines all it writes. -/
theorem ops0_fresh : ∀ op ∈ (ops0 : List (HloOp τ sig (Elt F))), op.fresh = ∅ :=
  List.forall_iff_forall_mem.mp (show List.Forall _ (ops0 (F := F)) from rfl)

theorem ops1_fresh : ∀ op ∈ (ops1 : List (HloOp τ sig (Elt F))), op.fresh = ∅ :=
  List.forall_iff_forall_mem.mp (show List.Forall _ (ops1 (F := F)) from ⟨rfl, rfl, rfl, rfl, rfl, rfl, rfl, rfl⟩)

theorem ops2_fresh : ∀ op ∈ (ops2 : List (HloOp τ sig (Elt F))), op.fresh = ∅ :=
  List.forall_iff_forall_mem.mp (show List.Forall _ (ops2 (F := F)) from rfl)

theorem ops3_fresh : ∀ op ∈ (ops3 : List (HloOp τ sig (Elt F))), op.fresh = ∅ :=
  List.forall_iff_forall_mem.mp (show List.Forall _ (ops3 (F := F)) from
    ⟨rfl, rfl, rfl, rfl, rfl, rfl, rfl, rfl, rfl, rfl, rfl, rfl, rfl, rfl⟩)

theorem ops4_fresh : ∀ op ∈ (ops4 : List (HloOp τ sig (Elt F))), op.fresh = ∅ :=
  List.forall_iff_forall_mem.mp (show List.Forall _ (ops4 (F := F)) from ⟨rfl, rfl, rfl, rfl⟩)

/-! ## The row offset per batch -/

/-- The row offset of each batch in the flattened table, as the program computes it: the batch number times 10000. -/
def offs : S2.Idx → BitVec 32 :=
  muli (iotaInDim S2 32 0) (broadcastInDim S2 ![] bcast_S_S2 (constantI S_ 32 10000#32))

/-- After the second stretch the offsets' buffer holds them. -/
theorem offs_after1 (X : Valuation τ sig (Elt F)) : after (ops1 (F := F)) X (main_v4 : DevRef τ sig) = offs := by
  after_results
  rfl

/-- At batch `b` the offset is the word `b * 10000`. -/
theorem offs_apply (j : S2.Idx) : offs j = BitVec.ofNat 32 ((j 0).val * 10000) := by
  show BitVec.ofNat 32 (j 0).val * 10000#32 = _
  apply BitVec.eq_of_toNat_eq
  have hj : (j 0).val < 2 := (j 0).isLt
  simp only [BitVec.toNat_mul, BitVec.toNat_ofNat]
  omega

/-- It reads, unsigned, `b * 10000`: 0 or 10000. -/
theorem offs_toNat (j : S2.Idx) : (offs j).toNat = (j 0).val * 10000 := by
  have hj : (j 0).val < 2 := (j 0).isLt
  rw [offs_apply, BitVec.toNat_ofNat]
  omega

/-- A word at most 9999 plus a batch's offset does not wrap: it reads the sum, below 20000. -/
theorem toNat_add_offs {w : BitVec 32} (hw : w.toNat ≤ 9999) (j : S2.Idx) :
    (w + offs j).toNat = w.toNat + (j 0).val * 10000 ∧ (w + offs j).toNat < 20000 := by
  have hj : (j 0).val < 2 := (j 0).isLt
  have e : (w + offs j).toNat = w.toNat + (j 0).val * 10000 := by
    rw [BitVec.toNat_add, offs_toNat]
    omega
  exact ⟨e, by omega⟩

/-! ## The first gather's index list -/

/-- The neighbour table's buffer, at its literal type. -/
abbrev tab0 (X : Valuation τ sig (Elt F)) : S2x10000x16.Idx → BitVec 32 := X (main_arg2 : DevRef τ sig)

/-- The neighbour table with each batch's offset added, entry by entry. -/
def shifted0 (a2 : S2x10000x16.Idx → BitVec 32) : S2x10000x16.Idx → BitVec 32 :=
  addi a2 (broadcastInDim S2x10000x16 ![0, 1, 2] bcast_S2x1x1_S2x10000x16_0_1_2 (broadcastInDim S2x1x1 ![0] bcast_S2_S2x1x1_0 offs))

/-- The first gather's index list: the shifted table, flattened. -/
def idx0 (a2 : S2x10000x16.Idx → BitVec 32) : S320000.Idx → BitVec 32 :=
  shapeCast S320000 (shifted0 a2) shapeCasts_S2x10000x16_S320000

/-- After the second stretch the index list's buffer holds it. -/
theorem idx0_after1 (X : Valuation τ sig (Elt F)) :
    after (ops1 (F := F)) X (main_v8 : DevRef τ sig) = idx0 (X (main_arg2 : DevRef τ sig)) := by
  after_results
  rfl

/-- An entry of the shifted table is the table's entry plus its batch's offset. -/
theorem shifted0_apply (a2 : S2x10000x16.Idx → BitVec 32) (k : S2x10000x16.Idx) :
    shifted0 a2 k = a2 k + offs (ValueIdx.ix1 (k 0)) := by
  -- both broadcasts keep the batch coordinate and put 0 on the unit axes, which the shapes' literals decide
  show a2 k + _ = a2 k + _
  congr 1

/-- Every entry of the first index list is below 20000 when the neighbour table's entries are at most 9999. -/
theorem idx0_lt' (a2 : S2x10000x16.Idx → BitVec 32) (h2 : ∀ j, (a2 j).toNat ≤ 9999) (j : S320000.Idx) :
    (idx0 a2 j).toNat < 20000 := by
  show (shifted0 a2 (Shape.reshapeEquiv shapeCasts_S2x10000x16_S320000 j)).toNat < 20000
  rw [shifted0_apply]
  exact (toNat_add_offs (h2 _) _).2

theorem idx0_lt (X : Valuation τ sig (Elt F)) (h2 : ∀ j, (X (main_arg2 : DevRef τ sig) j).toNat ≤ 9999) :
    ∀ j, (after (ops1 (F := F)) X (main_v8 : DevRef τ sig) j).toNat < 20000 := by
  intro j
  rw [idx0_after1]
  exact idx0_lt' _ h2 j

/-- The entry at flat position `(b * 10000 + n) * 16 + m` is the table's entry at `(b, n, m)` plus `b * 10000`. -/
theorem idx0_apply' (a2 : S2x10000x16.Idx → BitVec 32) (b : Fin 2) (n : Fin 10000) (m : Fin 16)
    (hlt : (b.val * 10000 + n.val) * 16 + m.val < 320000) :
    idx0 a2 (ValueIdx.ix1 ⟨(b.val * 10000 + n.val) * 16 + m.val, hlt⟩)
      = a2 (ValueIdx.ix3 b n m) + BitVec.ofNat 32 (b.val * 10000) := by
  have e : idx0 a2 (ValueIdx.ix1 ⟨(b.val * 10000 + n.val) * 16 + m.val, hlt⟩) = shifted0 a2 (ValueIdx.ix3 b n m) :=
    shapeCast_apply _ _ _ _ (by rw [Shape.rowMajor_val_three, Shape.rowMajor_val_one]; rfl)
  rw [e, shifted0_apply, offs_apply]

theorem idx0_apply (X : Valuation τ sig (Elt F)) (b : Fin 2) (n : Fin 10000) (m : Fin 16)
    (hlt : (b.val * 10000 + n.val) * 16 + m.val < 320000) :
    after (ops1 (F := F)) X (main_v8 : DevRef τ sig) (ValueIdx.ix1 ⟨(b.val * 10000 + n.val) * 16 + m.val, hlt⟩)
      = tab0 X (ValueIdx.ix3 b n m) + BitVec.ofNat 32 (b.val * 10000) := by
  rw [idx0_after1]
  exact idx0_apply' _ b n m hlt

/-! ## The second gather's index list -/

/-- The endpoint pairs' buffer, at its literal type. -/
abbrev tab1 (X : Valuation τ sig (Elt F)) : S2x160000x2.Idx → BitVec 32 := X (main_arg3 : DevRef τ sig)

/-- The first endpoint column with each batch's offset added. -/
def shifted1a (a3 : S2x160000x2.Idx → BitVec 32) (o : S2.Idx → BitVec 32) : S2x160000.Idx → BitVec 32 :=
  addi (shapeCast S2x160000 (extractStridedSlice S2x160000x1 ![0, 0, 0] a3 slices_S2x160000x2_S2x160000x1_0_0_0) shapeCasts_S2x160000x1_S2x160000)
    (broadcastInDim S2x160000 ![0, 1] bcast_S2x1_S2x160000_0_1 (broadcastInDim S2x1 ![0] bcast_S2_S2x1_0 o))

/-- The second endpoint column with each batch's offset added. -/
def shifted1b (a3 : S2x160000x2.Idx → BitVec 32) (o : S2.Idx → BitVec 32) : S2x160000.Idx → BitVec 32 :=
  addi (shapeCast S2x160000 (extractStridedSlice S2x160000x1 ![0, 0, 1] a3 slices_S2x160000x2_S2x160000x1_0_0_1) shapeCasts_S2x160000x1_S2x160000)
    (broadcastInDim S2x160000 ![0, 1] bcast_S2x1_S2x160000_0_1 (broadcastInDim S2x1 ![0] bcast_S2_S2x1_0 o))

/-- The second gather's index list: the two shifted columns, each flattened, laid end to end. -/
def idx1 (a3 : S2x160000x2.Idx → BitVec 32) (o : S2.Idx → BitVec 32) : S640000.Idx → BitVec 32 :=
  concatenate S640000 0
    [⟨S320000, shapeCast S320000 (shifted1a a3 o) shapeCasts_S2x160000_S320000⟩,
      ⟨S320000, shapeCast S320000 (shifted1b a3 o) shapeCasts_S2x160000_S320000⟩]
    concatenates_S320000_S320000_S640000_d0

/-- After the fourth stretch the index list's buffer holds it, over the offsets' buffer as it stood. -/
theorem idx1_after3 (X : Valuation τ sig (Elt F)) :
    after (ops3 (F := F)) X (main_v25 : DevRef τ sig) = idx1 (X (main_arg3 : DevRef τ sig)) (X (main_v4 : DevRef τ sig)) := by
  after_results
  rfl

/-- A batch's offset broadcast over the batch's entries reads that offset. -/
theorem bcast_offs_apply (o : S2.Idx → BitVec 32) (k : S2x160000.Idx) :
    broadcastInDim S2x160000 ![0, 1] bcast_S2x1_S2x160000_0_1 (broadcastInDim S2x1 ![0] bcast_S2_S2x1_0 o) k
      = o (ValueIdx.ix1 (k 0)) := by
  refine (broadcastInDim_apply _ _ _ k (ValueIdx.ix2 (k 0) (0 : Fin 1)) fun a => ?_).trans
    (broadcastInDim_apply _ _ _ _ (ValueIdx.ix1 (k 0)) fun a => ?_)
  · match a with
    | ⟨0, _⟩ => rfl
    | ⟨1, _⟩ => rfl
  · match a with
    | ⟨0, _⟩ => rfl

/-- An entry of a shifted column is the pair table's entry in that column plus its batch's offset. -/
theorem shifted1a_apply (a3 : S2x160000x2.Idx → BitVec 32) (o : S2.Idx → BitVec 32) (k : S2x160000.Idx) :
    shifted1a a3 o k = a3 (ValueIdx.ix3 (k 0) (k 1) (0 : Fin 2)) + o (ValueIdx.ix1 (k 0)) := by
  have e1 : shapeCast S2x160000 (extractStridedSlice S2x160000x1 ![0, 0, 0] a3 slices_S2x160000x2_S2x160000x1_0_0_0)
      shapeCasts_S2x160000x1_S2x160000 k = a3 (ValueIdx.ix3 (k 0) (k 1) (0 : Fin 2)) := by
    refine (shapeCast_apply _ _ k (ValueIdx.ix3 (k 0) (k 1) (0 : Fin 1)) ?_).trans
      (extractStridedSlice_apply _ _ _ _ (ValueIdx.ix3 (k 0) (k 1) (0 : Fin 2)) fun a => ?_)
    · rw [Shape.rowMajor_val_three, Shape.rowMajor_val_two]
      show ((k 0).val * 160000 + (k 1).val) * 1 + 0 = (k 0).val * 160000 + (k 1).val
      omega
    · match a with
      | ⟨0, _⟩ => exact (Nat.zero_add _).symm
      | ⟨1, _⟩ => exact (Nat.zero_add _).symm
      | ⟨2, _⟩ => rfl
  exact congrArg₂ (· + ·) e1 (bcast_offs_apply o k)

theorem shifted1b_apply (a3 : S2x160000x2.Idx → BitVec 32) (o : S2.Idx → BitVec 32) (k : S2x160000.Idx) :
    shifted1b a3 o k = a3 (ValueIdx.ix3 (k 0) (k 1) (1 : Fin 2)) + o (ValueIdx.ix1 (k 0)) := by
  have e1 : shapeCast S2x160000 (extractStridedSlice S2x160000x1 ![0, 0, 1] a3 slices_S2x160000x2_S2x160000x1_0_0_1)
      shapeCasts_S2x160000x1_S2x160000 k = a3 (ValueIdx.ix3 (k 0) (k 1) (1 : Fin 2)) := by
    refine (shapeCast_apply _ _ k (ValueIdx.ix3 (k 0) (k 1) (0 : Fin 1)) ?_).trans
      (extractStridedSlice_apply _ _ _ _ (ValueIdx.ix3 (k 0) (k 1) (1 : Fin 2)) fun a => ?_)
    · rw [Shape.rowMajor_val_three, Shape.rowMajor_val_two]
      show ((k 0).val * 160000 + (k 1).val) * 1 + 0 = (k 0).val * 160000 + (k 1).val
      omega
    · match a with
      | ⟨0, _⟩ => exact (Nat.zero_add _).symm
      | ⟨1, _⟩ => exact (Nat.zero_add _).symm
      | ⟨2, _⟩ => rfl
  exact congrArg₂ (· + ·) e1 (bcast_offs_apply o k)

/-- The first half of the list is the first column's flattening, … -/
theorem idx1_left (a3 : S2x160000x2.Idx → BitVec 32) (o : S2.Idx → BitVec 32) (j : S640000.Idx) (hlt : (j 0).val < 320000) :
    idx1 a3 o j = shapeCast S320000 (shifted1a a3 o) shapeCasts_S2x160000_S320000 (ValueIdx.ix1 ⟨(j 0).val, hlt⟩) :=
  concatenate_pair_apply_left (t := S640000) (s₁ := S320000) (s₂ := S320000) (0 : Fin 1) _ _
    concatenates_S320000_S320000_S640000_d0 j (show S320000.rank = S640000.rank from rfl) (ValueIdx.ix1 ⟨(j 0).val, hlt⟩)
    fun b => match b with | ⟨0, _⟩ => rfl

/-- … the second half the second column's. -/
theorem idx1_right (a3 : S2x160000x2.Idx → BitVec 32) (o : S2.Idx → BitVec 32) (j : S640000.Idx) (hge : 320000 ≤ (j 0).val) :
    idx1 a3 o j = shapeCast S320000 (shifted1b a3 o) shapeCasts_S2x160000_S320000
      (ValueIdx.ix1 ⟨(j 0).val - 320000, by have : (j 0).val < 640000 := (j 0).isLt; omega⟩) :=
  concatenate_pair_apply_right (t := S640000) (s₁ := S320000) (s₂ := S320000) (0 : Fin 1) _ _
    concatenates_S320000_S320000_S640000_d0 j (show S320000.rank = S640000.rank from rfl)
    (show S320000.rank = S640000.rank from rfl) _
    (fun b hb => match b, hb with | ⟨0, _⟩, hb => absurd rfl hb)
    (by show (j 0).val - 320000 + 320000 = (j 0).val; omega)

/-- Every entry of the second index list is below 20000 when the pair table's entries are at most 9999 and the
    offsets are the batches'. -/
theorem idx1_lt' (a3 : S2x160000x2.Idx → BitVec 32) (h3 : ∀ j, (a3 j).toNat ≤ 9999) (j : S640000.Idx) :
    (idx1 a3 offs j).toNat < 20000 := by
  by_cases hlt : (j 0).val < 320000
  · rw [idx1_left a3 offs j hlt]
    show (shifted1a a3 offs (Shape.reshapeEquiv shapeCasts_S2x160000_S320000 _)).toNat < 20000
    rw [shifted1a_apply]
    exact (toNat_add_offs (h3 _) _).2
  · rw [idx1_right a3 offs j (by omega)]
    show (shifted1b a3 offs (Shape.reshapeEquiv shapeCasts_S2x160000_S320000 _)).toNat < 20000
    rw [shifted1b_apply]
    exact (toNat_add_offs (h3 _) _).2

theorem idx1_lt (X : Valuation τ sig (Elt F)) (h3 : ∀ j, (X (main_arg3 : DevRef τ sig) j).toNat ≤ 9999)
    (h4 : X (main_v4 : DevRef τ sig) = offs) :
    ∀ j, (after (ops3 (F := F)) X (main_v25 : DevRef τ sig) j).toNat < 20000 := by
  intro j
  rw [idx1_after3, h4]
  exact idx1_lt' _ h3 j

/-- Entry `b * 160000 + e` of the first half is the first endpoint of pair `(b, e)` plus `b * 10000`. -/
theorem idx1_apply_left' (a3 : S2x160000x2.Idx → BitVec 32) (b : Fin 2) (e : Fin 160000)
    (hlt : b.val * 160000 + e.val < 640000) :
    idx1 a3 offs (ValueIdx.ix1 ⟨b.val * 160000 + e.val, hlt⟩)
      = a3 (ValueIdx.ix3 b e (0 : Fin 2)) + BitVec.ofNat 32 (b.val * 10000) := by
  have hb : b.val < 2 := b.isLt
  have he : e.val < 160000 := e.isLt
  rw [idx1_left a3 offs _ (show b.val * 160000 + e.val < 320000 by omega)]
  have e1 : shapeCast S320000 (shifted1a a3 offs) shapeCasts_S2x160000_S320000
      (ValueIdx.ix1 ⟨b.val * 160000 + e.val, by omega⟩) = shifted1a a3 offs (ValueIdx.ix2 b e) :=
    shapeCast_apply _ _ _ _ (by rw [Shape.rowMajor_val_two, Shape.rowMajor_val_one]; rfl)
  refine e1.trans ?_
  rw [shifted1a_apply, offs_apply]

/-- Entry `320000 + b * 160000 + e` is the second endpoint of pair `(b, e)` plus `b * 10000`. -/
theorem idx1_apply_right' (a3 : S2x160000x2.Idx → BitVec 32) (b : Fin 2) (e : Fin 160000)
    (hlt : 320000 + (b.val * 160000 + e.val) < 640000) :
    idx1 a3 offs (ValueIdx.ix1 ⟨320000 + (b.val * 160000 + e.val), hlt⟩)
      = a3 (ValueIdx.ix3 b e (1 : Fin 2)) + BitVec.ofNat 32 (b.val * 10000) := by
  have hb : b.val < 2 := b.isLt
  have he : e.val < 160000 := e.isLt
  rw [idx1_right a3 offs _ (show 320000 ≤ 320000 + (b.val * 160000 + e.val) by omega)]
  have e1 : shapeCast S320000 (shifted1b a3 offs) shapeCasts_S2x160000_S320000
      (ValueIdx.ix1 ⟨320000 + (b.val * 160000 + e.val) - 320000, by omega⟩) = shifted1b a3 offs (ValueIdx.ix2 b e) :=
    shapeCast_apply _ _ _ _ (by
      rw [Shape.rowMajor_val_two, Shape.rowMajor_val_one]
      show b.val * 160000 + e.val = 320000 + (b.val * 160000 + e.val) - 320000
      omega)
  refine e1.trans ?_
  rw [shifted1b_apply, offs_apply]

theorem idx1_apply_left (X : Valuation τ sig (Elt F)) (h4 : X (main_v4 : DevRef τ sig) = offs) (b : Fin 2) (e : Fin 160000)
    (hlt : b.val * 160000 + e.val < 640000) :
    after (ops3 (F := F)) X (main_v25 : DevRef τ sig) (ValueIdx.ix1 ⟨b.val * 160000 + e.val, hlt⟩)
      = tab1 X (ValueIdx.ix3 b e (0 : Fin 2)) + BitVec.ofNat 32 (b.val * 10000) := by
  rw [idx1_after3, h4]
  exact idx1_apply_left' _ b e hlt

theorem idx1_apply_right (X : Valuation τ sig (Elt F)) (h4 : X (main_v4 : DevRef τ sig) = offs) (b : Fin 2) (e : Fin 160000)
    (hlt : 320000 + (b.val * 160000 + e.val) < 640000) :
    after (ops3 (F := F)) X (main_v25 : DevRef τ sig) (ValueIdx.ix1 ⟨320000 + (b.val * 160000 + e.val), hlt⟩)
      = tab1 X (ValueIdx.ix3 b e (1 : Fin 2)) + BitVec.ofNat 32 (b.val * 10000) := by
  rw [idx1_after3, h4]
  exact idx1_apply_right' _ b e hlt

end Cert.KernelIdeal.Hand

end
-- ==== Proof.Vals.lean ====
/-
  The contents of every unscoped TensorCore buffer along @main, as pure functions of the launch memory: after each
  stretch of host operations, each pipeline region and each gather call.
-/
import proofs.«208461_g52518860095779_cont_9to1_m_1075_29_alg».proof.Proof.MainShape

noncomputable section

namespace Cert.KernelIdeal.Hand

open Cert.KernelIdeal Cert.KernelIdeal.Gen
open Idealize.ShloMosaic Idealize.SL.Sem
open Idealize.ShloMosaic.StableHlo (after)

variable {F : FTy → Type} [FloatOps F]

/-! ## The buffers' contents along @main -/

section Vals

variable (upd0 upd1 upd2 : Valuation τ sig (Elt F) → Valuation τ sig (Elt F))
variable (m : (ℓ : Loc nD τ sig) → Buf (Elt F) ℓ)

/-- A TensorCore reference as a device buffer. -/
abbrev rf (b : Ref sig .tc) : DevRef τ sig := Proc.devRef .tc b

/-- At launch. -/
abbrev W0 (d : Dev nD) : Valuation τ sig (Elt F) := fun b => m (d, b)
/-- After the first stretch; after the square-root pipeline; after the second stretch. -/
abbrev W1 (d : Dev nD) : Valuation τ sig (Elt F) := after (ops0 (F := F)) (W0 m d)
abbrev W2 (d : Dev nD) : Valuation τ sig (Elt F) := upd0 (W1 m d)
abbrev W3 (d : Dev nD) : Valuation τ sig (Elt F) := after (ops1 (F := F)) (W2 upd0 m d)
/-- After the neighbour gather. -/
abbrev W4 (d : Dev nD) : Valuation τ sig (Elt F) :=
  Function.update (W3 upd0 m d) (rf main_v9) (gath0 (W3 upd0 m d (rf main_v1)) (W3 upd0 m d (rf main_v8)))
abbrev W5 (d : Dev nD) : Valuation τ sig (Elt F) := after (ops2 (F := F)) (W4 upd0 m d)
/-- After the node-update pipeline. -/
abbrev W6 (d : Dev nD) : Valuation τ sig (Elt F) := upd1 (W5 upd0 m d)
abbrev W7 (d : Dev nD) : Valuation τ sig (Elt F) := after (ops3 (F := F)) (W6 upd0 upd1 m d)
/-- After the endpoint gather. -/
abbrev W8 (d : Dev nD) : Valuation τ sig (Elt F) :=
  Function.update (W7 upd0 upd1 m d) (rf main_v26) (gath1 (W7 upd0 upd1 m d (rf main_v12)) (W7 upd0 upd1 m d (rf main_v25)))
abbrev W9 (d : Dev nD) : Valuation τ sig (Elt F) := after (ops4 (F := F)) (W8 upd0 upd1 m d)
/-- After the edge-update pipeline: at @main's end. -/
abbrev W10 (d : Dev nD) : Valuation τ sig (Elt F) := upd2 (W9 upd0 upd1 m d)

end Vals

end Cert.KernelIdeal.Hand

end
-- ==== Proof.Main.lean ====
/-
  @main on the TensorCore inside the SparseCore launch: five stretches of host operations, three pipeline regions and
  two gather calls, threaded through the buffers' contents as pure functions of the launch memory.
-/
import proofs.«208461_g52518860095779_cont_9to1_m_1075_29_alg».proof.Proof.MainStep
import proofs.«208461_g52518860095779_cont_9to1_m_1075_29_alg».proof.Proof.IdxFacts
import proofs.«208461_g52518860095779_cont_9to1_m_1075_29_alg».proof.Proof.Vals

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 2) (Elt F) ℕ UU ℕ

/-! ## @main -/

section Main

variable (P : (K (F := F)).Pay (nD := nD) (Val := Elt F) (Name := ℕ) (U := UU))
variable (upd0 upd1 upd2 : Valuation τ sig (Elt F) → Valuation τ sig (Elt F))
variable (m : (ℓ : Loc nD τ sig) → Buf (Elt F) ℓ) (ρ : Dev nD → PrngReg)

theorem three_0 : ({rf main_v1, rf main_v8, rf main_v9} : Finset (DevRef τ sig)) ⊆ Pipeline.ucRefs τ sig := by decide
theorem three_1 : ({rf main_v12, rf main_v25, rf main_v26} : Finset (DevRef τ sig)) ⊆ Pipeline.ucRefs τ sig := by decide

/-- The launch's unscoped buffers are the held set at the launch contents. -/
theorem unscoped_held (d : Dev nD) :
    (unscopedBufs d (fun b => m ((SparseCore.T d).loc b)) : sProp 𝕄) = held (SparseCore.T d) (Pipeline.ucRefs τ sig) (W0 m d) :=
  Pipeline.unscopedBufs_held (Ix := HIx 2) (Name := ℕ) (U := UU) (Lvl := ℕ) d (fun b => m (d, b))

set_option maxHeartbeats 1600000 in
/-- @main on device d's TensorCore: from what the launch deals it and the pipelines' ghost state to the handshake
    state after both calls and every unscoped buffer at its final contents. -/
theorem hmain (h0 : RegionOK (F := F) 0 upd0) (h1 : RegionOK (F := F) 1 upd1) (h2 : RegionOK (F := F) 2 upd2)
    (hst0 : ∀ d, iprop(((d, rf main_v1) ↦{fullShare} W3 upd0 m d (rf main_v1)) ∗ ((d, rf main_v8) ↦{fullShare} W3 upd0 m d (rf main_v8))
        ∗ ((d, rf main_v9) ↦{fullShare} W3 upd0 m d (rf main_v9)))
      ⊢ (bigSep Finset.univ fun k : Fin ((K (F := F)).nCore 0) => P.st 0 d k : sProp 𝕄))
    (hdn0 : ∀ d, (bigSep Finset.univ fun k : Fin ((K (F := F)).nCore 0) => P.dn 0 d k : sProp 𝕄)
      ⊢ iprop(((d, rf main_v1) ↦{fullShare} W3 upd0 m d (rf main_v1)) ∗ ((d, rf main_v8) ↦{fullShare} W3 upd0 m d (rf main_v8))
        ∗ ((d, rf main_v9) ↦{fullShare} gath0 (W3 upd0 m d (rf main_v1)) (W3 upd0 m d (rf main_v8)))))
    (hst1 : ∀ d, iprop(((d, rf main_v12) ↦{fullShare} W7 upd0 upd1 m d (rf main_v12)) ∗ ((d, rf main_v25) ↦{fullShare} W7 upd0 upd1 m d (rf main_v25))
        ∗ ((d, rf main_v26) ↦{fullShare} W7 upd0 upd1 m d (rf main_v26)))
      ⊢ (bigSep Finset.univ fun k : Fin ((K (F := F)).nCore 1) => P.st 1 d k : sProp 𝕄))
    (hdn1 : ∀ d, (bigSep Finset.univ fun k : Fin ((K (F := F)).nCore 1) => P.dn 1 d k : sProp 𝕄)
      ⊢ iprop(((d, rf main_v12) ↦{fullShare} W7 upd0 upd1 m d (rf main_v12)) ∗ ((d, rf main_v25) ↦{fullShare} W7 upd0 upd1 m d (rf main_v25))
        ∗ ((d, rf main_v26) ↦{fullShare} gath1 (W7 upd0 upd1 m d (rf main_v12)) (W7 upd0 upd1 m d (rf main_v25)))))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ held (SparseCore.T d) (Pipeline.ucRefs τ sig) (W10 upd0 upd1 upd2 m d)) := by
  unfold SparseCore.Cfg.tcRes G
  rw [main_eq, unscoped_held m d,
    show (Finset.univ : Finset (Fin 3)) = {0, 1, 2} by decide,
    SparseCore.bigSep_insert' (by decide), SparseCore.bigSep_insert' (by decide), bigSep_singleton]
  iintro ⟨#Hctx, Hst, ⟨Hb, Hheld, -, -⟩, ⟨Hg0, Ht0⟩, ⟨Hg1, Ht1⟩, ⟨Hg2, Ht2⟩⟩
  -- the first stretch
  iapply (wp_seq 𝒱 none Set.univ d (Pipeline.ucRefs τ sig) _ (ops0 (F := F))
    (fun op h => Pipeline.sub_ucRefs op (ops0_sub op h)) ops0_fresh (W0 m d)) $$ [Hb Hheld]
  · isplitl [Hb] <;> iassumption
  iintro ⟨Hb, Hheld⟩
  -- the square-root pipeline
  rw [wp_bind]
  iapply (wp_region P h0 κ d 0 (W1 m d) _) $$ [Hst Hb Hheld Hg0 Ht0 Hg1 Ht1 Hg2 Ht2]
  isplitr; · iexact Hctx
  isplitl [Hst]; · iexact Hst
  isplitl [Hb]; · iexact Hb
  isplitl [Hheld]; · iexact Hheld
  isplitl [Hg0]; · iexact Hg0
  isplitl [Ht0]; · iexact Ht0
  iintro ⟨Hst, Hb, Hheld⟩
  -- the second stretch
  iapply (wp_seq 𝒱 none Set.univ d (Pipeline.ucRefs τ sig) _ (ops1 (F := F))
    (fun op h => Pipeline.sub_ucRefs op (ops1_sub op h)) ops1_fresh (W2 upd0 m d)) $$ [Hb Hheld]
  · isplitl [Hb] <;> iassumption
  iintro ⟨Hb, Hheld⟩
  -- the neighbour gather
  rw [wp_bind]
  iapply (wp_call P 0 (a := rf main_v1) (b := rf main_v8) (c := rf main_v9) (by decide) (by decide) (by decide) three_0 κ d
    (W3 upd0 m d) (gath0 (W3 upd0 m d (rf main_v1)) (W3 upd0 m d (rf main_v8))) (hst0 d) (hdn0 d) _) $$ [Hst Hb Hheld Hg1 Ht1 Hg2 Ht2]
  isplitr; · iexact Hctx
  isplitl [Hst]; · iexact Hst
  isplitl [Hheld]; · iexact Hheld
  iintro ⟨Hst, Hheld⟩
  -- the third stretch
  iapply (wp_seq 𝒱 none Set.univ d (Pipeline.ucRefs τ sig) _ (ops2 (F := F))
    (fun op h => Pipeline.sub_ucRefs op (ops2_sub op h)) ops2_fresh (W4 upd0 m d)) $$ [Hb Hheld]
  · isplitl [Hb] <;> iassumption
  iintro ⟨Hb, Hheld⟩
  -- the node-update pipeline
  rw [wp_bind]
  iapply (wp_region P h1 κ d 1 (W5 upd0 m d) _) $$ [Hst Hb Hheld Hg1 Ht1 Hg2 Ht2]
  isplitr; · iexact Hctx
  isplitl [Hst]; · iexact Hst
  isplitl [Hb]; · iexact Hb
  isplitl [Hheld]; · iexact Hheld
  isplitl [Hg1]; · iexact Hg1
  isplitl [Ht1]; · iexact Ht1
  iintro ⟨Hst, Hb, Hheld⟩
  -- the fourth stretch
  iapply (wp_seq 𝒱 none Set.univ d (Pipeline.ucRefs τ sig) _ (ops3 (F := F))
    (fun op h => Pipeline.sub_ucRefs op (ops3_sub op h)) ops3_fresh (W6 upd0 upd1 m d)) $$ [Hb Hheld]
  · isplitl [Hb] <;> iassumption
  iintro ⟨Hb, Hheld⟩
  -- the endpoint gather
  rw [wp_bind]
  iapply (wp_call P 1 (a := rf main_v12) (b := rf main_v25) (c := rf main_v26) (by decide) (by decide) (by decide) three_1 κ d
    (W7 upd0 upd1 m d) (gath1 (W7 upd0 upd1 m d (rf main_v12)) (W7 upd0 upd1 m d (rf main_v25))) (hst1 d) (hdn1 d) _) $$ [Hst Hb Hheld Hg2 Ht2]
  isplitr; · iexact Hctx
  isplitl [Hst]; · iexact Hst
  isplitl [Hheld]; · iexact Hheld
  iintro ⟨Hst, Hheld⟩
  -- the fifth stretch
  iapply (wp_seq 𝒱 none Set.univ d (Pipeline.ucRefs τ sig) _ (ops4 (F := F))
    (fun op h => Pipeline.sub_ucRefs op (ops4_sub op h)) ops4_fresh (W8 upd0 upd1 m d)) $$ [Hb Hheld]
  · isplitl [Hb] <;> iassumption
  iintro ⟨Hb, Hheld⟩
  -- the edge-update pipeline
  rw [wp_bind]
  iapply (wp_region P h2 κ d 2 (W9 upd0 upd1 m d) _) $$ [Hst Hb Hheld Hg2 Ht2]
  isplitr; · iexact Hctx
  isplitl [Hst]; · iexact Hst
  isplitl [Hb]; · iexact Hb
  isplitl [Hheld]; · iexact Hheld
  isplitl [Hg2]; · iexact Hg2
  isplitl [Ht2]; · iexact Ht2
  iintro ⟨Hst, Hb, Hheld⟩
  rw [wp_pure]
  imodintro
  isplitl [Hst]; · iexact Hst
  iexact Hheld

end Main

end Cert.KernelIdeal.Hand

end
-- ==== Proof.Final.lean ====
/-
  Small facts for the end of the kernel program's run. Along @main every buffer is written at one place only: by one
  host operation, by one pipeline region (its result array), or by one gather call (its result array). So a buffer
  none of them writes, an argument above all, holds at the end what the launch memory held; the offsets' buffer,
  written in the second stretch, still holds the offsets when the fourth stretch reads it; and so both index lists
  are in range whenever they are read. Last, holding a set of whole buffers pins the physical memory at each of them.
-/
import proofs.«208461_g52518860095779_cont_9to1_m_1075_29_alg».proof.Proof.Vals
import proofs.«208461_g52518860095779_cont_9to1_m_1075_29_alg».proof.Proof.IdxFacts
import Idealize.ShloMosaic.Lib.Pipeline.Frame
import Idealize.ShloMosaic.Rules.Auth

noncomputable section

namespace Cert.KernelIdeal.Hand

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (after held held_sub_split devRef_ne_of_ne)

variable {F : FTy → Type} [FloatOps F]

/-! ## Buffers nothing writes -/

/-- Every buffer written along @main: by a host operation, a pipeline region or a gather call. -/
def wsAll : List (Ref sig .tc) :=
  [main_v0, main_v1, main_v2, main_c, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31]

theorem ws0_sub : ∀ x ∈ ([main_v0] : List (Ref sig .tc)), x ∈ wsAll := by decide
theorem ws1_sub : ∀ x ∈ ([main_v2, main_c, main_v3, main_v4, main_v5, main_v6, main_v7, main_v8] : List (Ref sig .tc)), x ∈ wsAll := by decide
theorem ws2_sub : ∀ x ∈ ([main_v10] : List (Ref sig .tc)), x ∈ wsAll := by decide
theorem ws3_sub : ∀ x ∈ ([main_v12, main_v13, main_v14, main_v15, main_v16, main_v17, main_v18, main_v19, main_v20, main_v21, main_v22, main_v23, main_v24, main_v25] : List (Ref sig .tc)), x ∈ wsAll := by decide
theorem ws4_sub : ∀ x ∈ ([main_v27, main_v28, main_v29, main_v30] : List (Ref sig .tc)), x ∈ wsAll := by decide
theorem wsU_sub : ∀ x ∈ ([main_v1, main_v9, main_v11, main_v26, main_v31] : List (Ref sig .tc)), x ∈ wsAll := by decide

/-- None of the ten arguments is written. -/
theorem arg_not_written : ∀ a ∈ ([main_arg0, main_arg1, main_arg2, main_arg3, main_arg4, main_arg5, main_arg6, main_arg7, main_arg8, main_arg9] : List (Ref sig .tc)), a ∉ wsAll := by decide

section Kept

variable (upd0 upd1 upd2 : Valuation τ sig (Elt F) → Valuation τ sig (Elt F))
variable (m : (ℓ : Loc nD τ sig) → Buf (Elt F) ℓ) (d : Dev nD)
variable (hk0 : ∀ X b, b ≠ rf main_v1 → upd0 X b = X b) (hk1 : ∀ X b, b ≠ rf main_v11 → upd1 X b = X b)
  (hk2 : ∀ X b, b ≠ rf main_v31 → upd2 X b = X b)
variable (r : Ref sig .tc) (hr : r ∉ wsAll)

private theorem ne_of (hr : r ∉ wsAll) {y : Ref sig .tc} (hy : y ∈ ([main_v1, main_v9, main_v11, main_v26, main_v31] : List (Ref sig .tc))) :
    rf r ≠ rf y :=
  devRef_ne_of_ne fun e => hr (e ▸ wsU_sub y hy)

include hr

theorem W1_kept : W1 m d (rf r) = m (d, rf r) :=
  kept_0 _ r fun h => hr (ws0_sub r h)

include hk0

theorem W2_kept : W2 upd0 m d (rf r) = m (d, rf r) :=
  (hk0 _ _ (ne_of r hr (by decide))).trans (W1_kept m d r hr)

theorem W3_kept : W3 upd0 m d (rf r) = m (d, rf r) :=
  (kept_1 _ r fun h => hr (ws1_sub r h)).trans (W2_kept upd0 m d hk0 r hr)

theorem W4_kept : W4 upd0 m d (rf r) = m (d, rf r) :=
  (Function.update_of_ne (ne_of r hr (by decide)) _ _).trans (W3_kept upd0 m d hk0 r hr)

theorem W5_kept : W5 upd0 m d (rf r) = m (d, rf r) :=
  (kept_2 _ r fun h => hr (ws2_sub r h)).trans (W4_kept upd0 m d hk0 r hr)

include hk1

theorem W6_kept : W6 upd0 upd1 m d (rf r) = m (d, rf r) :=
  (hk1 _ _ (ne_of r hr (by decide))).trans (W5_kept upd0 m d hk0 r hr)

theorem W7_kept : W7 upd0 upd1 m d (rf r) = m (d, rf r) :=
  (kept_3 _ r fun h => hr (ws3_sub r h)).trans (W6_kept upd0 upd1 m d hk0 hk1 r hr)

theorem W8_kept : W8 upd0 upd1 m d (rf r) = m (d, rf r) :=
  (Function.update_of_ne (ne_of r hr (by decide)) _ _).trans (W7_kept upd0 upd1 m d hk0 hk1 r hr)

theorem W9_kept : W9 upd0 upd1 m d (rf r) = m (d, rf r) :=
  (kept_4 _ r fun h => hr (ws4_sub r h)).trans (W8_kept upd0 upd1 m d hk0 hk1 r hr)

include hk2

theorem W10_kept : W10 upd0 upd1 upd2 m d (rf r) = m (d, rf r) :=
  (hk2 _ _ (ne_of r hr (by decide))).trans (W9_kept upd0 upd1 m d hk0 hk1 r hr)

omit hr

/-- Each argument's buffer holds at @main's end what the launch memory held. -/
theorem args_kept (a : Ref sig .tc) (ha : a ∈ ([main_arg0, main_arg1, main_arg2, main_arg3, main_arg4, main_arg5, main_arg6, main_arg7, main_arg8, main_arg9] : List (Ref sig .tc))) :
    W10 upd0 upd1 upd2 m d (rf a) = m (d, rf a) :=
  W10_kept upd0 upd1 upd2 m d hk0 hk1 hk2 a (arg_not_written a ha)

theorem W10_arg0 : W10 upd0 upd1 upd2 m d (rf main_arg0) = m (d, rf main_arg0) :=
  args_kept upd0 upd1 upd2 m d hk0 hk1 hk2 main_arg0 (by decide)
theorem W10_arg1 : W10 upd0 upd1 upd2 m d (rf main_arg1) = m (d, rf main_arg1) :=
  args_kept upd0 upd1 upd2 m d hk0 hk1 hk2 main_arg1 (by decide)
theorem W10_arg2 : W10 upd0 upd1 upd2 m d (rf main_arg2) = m (d, rf main_arg2) :=
  args_kept upd0 upd1 upd2 m d hk0 hk1 hk2 main_arg2 (by decide)
theorem W10_arg3 : W10 upd0 upd1 upd2 m d (rf main_arg3) = m (d, rf main_arg3) :=
  args_kept upd0 upd1 upd2 m d hk0 hk1 hk2 main_arg3 (by decide)
theorem W10_arg4 : W10 upd0 upd1 upd2 m d (rf main_arg4) = m (d, rf main_arg4) :=
  args_kept upd0 upd1 upd2 m d hk0 hk1 hk2 main_arg4 (by decide)
theorem W10_arg5 : W10 upd0 upd1 upd2 m d (rf main_arg5) = m (d, rf main_arg5) :=
  args_kept upd0 upd1 upd2 m d hk0 hk1 hk2 main_arg5 (by decide)
theorem W10_arg6 : W10 upd0 upd1 upd2 m d (rf main_arg6) = m (d, rf main_arg6) :=
  args_kept upd0 upd1 upd2 m d hk0 hk1 hk2 main_arg6 (by decide)
theorem W10_arg7 : W10 upd0 upd1 upd2 m d (rf main_arg7) = m (d, rf main_arg7) :=
  args_kept upd0 upd1 upd2 m d hk0 hk1 hk2 main_arg7 (by decide)
theorem W10_arg8 : W10 upd0 upd1 upd2 m d (rf main_arg8) = m (d, rf main_arg8) :=
  args_kept upd0 upd1 upd2 m d hk0 hk1 hk2 main_arg8 (by decide)
theorem W10_arg9 : W10 upd0 upd1 upd2 m d (rf main_arg9) = m (d, rf main_arg9) :=
  args_kept upd0 upd1 upd2 m d hk0 hk1 hk2 main_arg9 (by decide)

omit hk2 hk1 hk0

end Kept

/-! ## The index lists in range along @main -/

section Idx

variable (upd0 upd1 : Valuation τ sig (Elt F) → Valuation τ sig (Elt F))
variable (m : (ℓ : Loc nD τ sig) → Buf (Elt F) ℓ)
variable (hk0 : ∀ X b, b ≠ rf main_v1 → upd0 X b = X b) (hk1 : ∀ X b, b ≠ rf main_v11 → upd1 X b = X b)

include hk0

/-- The first gather's index list, where the call reads it, is in range: the neighbour table is still the launch's. -/
theorem idx0_ok (h2 : ∀ d j, (m (d, rf main_arg2) j).toNat ≤ 9999) :
    ∀ d j, (W3 upd0 m d (rf main_v8) j).toNat < 20000 := by
  intro d j
  refine idx0_lt (W2 upd0 m d) (fun i => ?_) j
  have e : W2 upd0 m d (rf main_arg2) = m (d, rf main_arg2) := W2_kept upd0 m d hk0 main_arg2 (by decide)
  rw [e]
  exact h2 d i

include hk1

/-- The offsets' buffer, written in the second stretch, still holds the offsets when the fourth stretch reads it:
    neither the gather call, nor the third stretch, nor the node-update region writes it. -/
theorem W6_offs (d : Dev nD) : W6 upd0 upd1 m d (rf main_v4) = offs :=
  (hk1 _ _ (devRef_ne_of_ne (by decide))).trans <|
    (kept_2 _ main_v4 (by decide)).trans <|
      (Function.update_of_ne (devRef_ne_of_ne (by decide)) _ _).trans (offs_after1 _)

/-- The second gather's index list, where the call reads it, is in range. -/
theorem idx1_ok (h3 : ∀ d j, (m (d, rf main_arg3) j).toNat ≤ 9999) :
    ∀ d j, (W7 upd0 upd1 m d (rf main_v25) j).toNat < 20000 := by
  intro d j
  refine idx1_lt (W6 upd0 upd1 m d) (fun i => ?_) (W6_offs upd0 upd1 m hk0 hk1 d) j
  have e : W6 upd0 upd1 m d (rf main_arg3) = m (d, rf main_arg3) := W6_kept upd0 upd1 m d hk0 hk1 main_arg3 (by decide)
  rw [e]
  exact h3 d i

omit hk1 hk0

end Idx

/-! ## Reading the final memory -/

section Agree

local notation "𝕄" => MT nD τ sig (SparseCore.Cfg.HIx 2) (Elt F) ℕ UU ℕ

/-- A set of whole buffers held beside the state interpretation pins the physical memory at each buffer of the set:
    the set splits at the one buffer, whose points-to agrees with the memory element by element. -/
theorem held_agree (d : Dev nD) (S : Finset (DevRef τ sig)) (V : Valuation τ sig (Elt F)) (s' : Phys nD τ sig (Elt F))
    (b : DevRef τ sig) (hb : b ∈ S) :
    iprop(held (SparseCore.T d) S V ∗ SI s') ⊢ (⌜s'.mem.mem (d, b) = V b⌝ : sProp 𝕄) := by
  have e : (held (SparseCore.T d) S V : sProp 𝕄)
      = iprop(((d, b) ↦{fullShare} V b) ∗ held (SparseCore.T d) (S \ {b}) V) := by
    rw [held_sub_split (SparseCore.T d) (Finset.singleton_subset_iff.mpr hb) V]
    congr 1
    exact bigSep_singleton
  rw [e]
  exact ((sep_mono_left sep_elim_left).trans sep_symm).trans
    (SI_pointsTo_agree.trans (Laws.pure_mono fun h => funext fun i => h i (Finset.mem_univ i)))

/-- … at all of them at once: an entailment into a pure fact holds resource by resource. -/
theorem held_agree_all (d : Dev nD) (S : Finset (DevRef τ sig)) (V : Valuation τ sig (Elt F)) (s' : Phys nD τ sig (Elt F)) :
    iprop(held (SparseCore.T d) S V ∗ SI s') ⊢ (⌜∀ b ∈ S, s'.mem.mem (d, b) = V b⌝ : sProp 𝕄) :=
  fun x hP b hb => held_agree d S V s' b hb x hP

end Agree

end Cert.KernelIdeal.Hand

end
-- ==== Proof.ScPay.lean ====
/-
  What the two gather calls' handshakes carry. Each call hands every vector subcore (tile) a read share of the
  table and of the index list, and the result rows of the windows that tile owns: call 0 cuts the 320000 result
  rows into 2500 windows of 128 rows, call 1 its 640000 rows into 5000; tile (c, s) is worker s * 2 + c and owns
  the windows lo ≤ w < hi of its call. The tiles bring the same back, the result windows at the gathered rows.
-/
import proofs.«208461_g52518860095779_cont_9to1_m_1075_29_alg».proof.Proof.Common
import Idealize.ShloMosaic.Lib.SparseCore.Stream
import Idealize.ShloMosaic.Lib.Ring
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Which windows a tile owns -/

/-- The worker number of tile (c, s). -/
def wid (c : Fin 2) (s : Fin 16) : ℕ := s.val * 2 + c.val

/-- Call 0: 2500 windows over 32 workers, 78 each and one more for the first four. -/
def lo0 (w : ℕ) : ℕ := w * 78 + min w 4
def hi0 (w : ℕ) : ℕ := lo0 w + 78 + (if w < 4 then 1 else 0)
/-- Call 1: 5000 windows over 32 workers, 156 each and one more for the first eight. -/
def lo1 (w : ℕ) : ℕ := w * 156 + min w 8
def hi1 (w : ℕ) : ℕ := lo1 w + 156 + (if w < 8 then 1 else 0)

theorem hdiv0 : 2500 ∣ S320000x128.size 0 := ⟨128, rfl⟩
theorem hdiv1 : 5000 ∣ S640000x128.size 0 := ⟨128, rfl⟩

/-- Window w of call 0's result: rows 128 w … 128 w + 127, every column. -/
abbrev oWin0 (w : Fin 2500) : Rect S320000x128 := Rect.part (s := S320000x128) (a₀ := 0) hdiv0 w
abbrev oWin1 (w : Fin 5000) : Rect S640000x128 := Rect.part (s := S640000x128) (a₀ := 0) hdiv1 w

abbrev oSet0 (w : Fin 2500) : Finset S320000x128.Idx :=
  ((Memref.whole main_v9_scv : Memref sig .scVector .hbm S320000x128 .f32).view.slice (oWin0 w)).set
abbrev oSet1 (w : Fin 5000) : Finset S640000x128.Idx :=
  ((Memref.whole main_v26_scv : Memref sig .scVector .hbm S640000x128 .f32).view.slice (oWin1 w)).set

/-! ## The read shares: the full share cut in two for the SparseCores, each half in sixteen for its tiles -/

def qCore (c : Fin 2) : PosShare TreeShare := pieceOf fullShare 2 (by decide) c
def qTile (c : Fin 2) (s : Fin 16) : PosShare TreeShare := pieceOf (qCore c) 16 (by decide) s

variable [FloatOps F]

/-! ## What one tile holds -/

/-- Tile (c, s) of call 0: its read shares of table and list, and its result windows at the contents g. -/
def tile0 (tb : Dev nD → Tab (F := F)) (ix : Dev nD → Ix0 (F := F)) (g : Dev nD → Out0 (F := F)) (d : Dev nD) (c : Fin 2) (s : Fin 16) : sProp 𝕄 :=
  iprop((tLoc0 d ↦{qTile c s} tb d) ∗ (iLoc0 d ↦{qTile c s} ix d)
    ∗ bigSep (Ring.rangeSet 2500 (lo0 (wid c s)) (hi0 (wid c s))) fun w => oLoc0 d ↦[oSet0 w]{fullShare} g d)

def tile1 (tb : Dev nD → Tab (F := F)) (ix : Dev nD → Ix1 (F := F)) (g : Dev nD → Out1 (F := F)) (d : Dev nD) (c : Fin 2) (s : Fin 16) : sProp 𝕄 :=
  iprop((tLoc1 d ↦{qTile c s} tb d) ∗ (iLoc1 d ↦{qTile c s} ix d)
    ∗ bigSep (Ring.rangeSet 5000 (lo1 (wid c s)) (hi1 (wid c s))) fun w => oLoc1 d ↦[oSet1 w]{fullShare} g d)

variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

/-- What a tile is handed: the result windows at what the result array held before the call. -/
def goF (q : Fin 2) (d : Dev nD) (c : Fin ((K (F := F)).nCore q)) (s : Fin ((K (F := F)).nSub q)) : sProp 𝕄 :=
  match q, c, s with
  | 0, c, s => tile0 tb0 ix0 f0 d (Fin.cast nCore_0 c) (Fin.cast nSub_0 s)
  | 1, c, s => tile1 tb1 ix1 f1 d (Fin.cast nCore_1 c) (Fin.cast nSub_1 s)

/-- What it brings back: the result windows at the gathered rows. -/
def tdF (q : Fin 2) (d : Dev nD) (c : Fin ((K (F := F)).nCore q)) (s : Fin ((K (F := F)).nSub q)) : sProp 𝕄 :=
  match q, c, s with
  | 0, c, s => tile0 tb0 ix0 (fun d => gath0 (tb0 d) (ix0 d)) d (Fin.cast nCore_0 c) (Fin.cast nSub_0 s)
  | 1, c, s => tile1 tb1 ix1 (fun d => gath1 (tb1 d) (ix1 d)) d (Fin.cast nCore_1 c) (Fin.cast nSub_1 s)

/-- The two calls' payloads: a SparseCore is handed its tiles' shares conjoined and hands them back so; nothing of
    the launch's is consumed (the transfers need no schedule). -/
def P : (K (F := F)).Pay (nD := nD) (Val := Elt F) (Name := ℕ) (U := UU) where
  st := fun q d c => bigSep Finset.univ fun s => goF tb0 ix0 f0 tb1 ix1 f1 q d c s
  dn := fun q d c => bigSep Finset.univ fun s => tdF tb0 ix0 tb1 ix1 q d c s
  go := goF tb0 ix0 f0 tb1 ix1 f1
  td := tdF tb0 ix0 tb1 ix1
  x := fun _ _ => iprop(emp)

theorem P_st (q : Fin 2) (d : Dev nD) (c : Fin ((K (F := F)).nCore q)) :
    (P tb0 ix0 f0 tb1 ix1 f1).st q d c = bigSep Finset.univ fun s => goF tb0 ix0 f0 tb1 ix1 f1 q d c s := rfl
theorem P_dn (q : Fin 2) (d : Dev nD) (c : Fin ((K (F := F)).nCore q)) :
    (P tb0 ix0 f0 tb1 ix1 f1).dn q d c = bigSep Finset.univ fun s => tdF tb0 ix0 tb1 ix1 q d c s := rfl
theorem P_go0 (d : Dev nD) (c : Fin ((K (F := F)).nCore 0)) (s : Fin ((K (F := F)).nSub 0)) :
    (P tb0 ix0 f0 tb1 ix1 f1).go 0 d c s = tile0 tb0 ix0 f0 d (Fin.cast nCore_0 c) (Fin.cast nSub_0 s) := rfl
theorem P_td0 (d : Dev nD) (c : Fin ((K (F := F)).nCore 0)) (s : Fin ((K (F := F)).nSub 0)) :
    (P tb0 ix0 f0 tb1 ix1 f1).td 0 d c s = tile0 tb0 ix0 (fun d => gath0 (tb0 d) (ix0 d)) d (Fin.cast nCore_0 c) (Fin.cast nSub_0 s) := rfl
theorem P_go1 (d : Dev nD) (c : Fin ((K (F := F)).nCore 1)) (s : Fin ((K (F := F)).nSub 1)) :
    (P tb0 ix0 f0 tb1 ix1 f1).go 1 d c s = tile1 tb1 ix1 f1 d (Fin.cast nCore_1 c) (Fin.cast nSub_1 s) := rfl
theorem P_td1 (d : Dev nD) (c : Fin ((K (F := F)).nCore 1)) (s : Fin ((K (F := F)).nSub 1)) :
    (P tb0 ix0 f0 tb1 ix1 f1).td 1 d c s = tile1 tb1 ix1 (fun d => gath1 (tb1 d) (ix1 d)) d (Fin.cast nCore_1 c) (Fin.cast nSub_1 s) := rfl
theorem P_x (q : Fin 2) (thr : Thread nD τ) : (P tb0 ix0 f0 tb1 ix1 f1).x q thr = iprop(emp) := rfl
theorem P_ox : (P tb0 ix0 f0 tb1 ix1 f1).ox = fun _ _ => 0 := rfl

instance tile0_storable (g : Dev nD → Out0 (F := F)) (d : Dev nD) (c : Fin 2) (s : Fin 16) :
    BI.Storable (upEmb : UEmb _ 𝕄) (tile0 tb0 ix0 g d c s) := by unfold tile0; infer_instance
instance tile1_storable (g : Dev nD → Out1 (F := F)) (d : Dev nD) (c : Fin 2) (s : Fin 16) :
    BI.Storable (upEmb : UEmb _ 𝕄) (tile1 tb1 ix1 g d c s) := by unfold tile1; infer_instance

instance goF_storable (q : Fin 2) (d : Dev nD) (c : Fin ((K (F := F)).nCore q)) (s : Fin ((K (F := F)).nSub q)) :
    BI.Storable (upEmb : UEmb _ 𝕄) (goF tb0 ix0 f0 tb1 ix1 f1 q d c s) := by
  match q, c, s with
  | 0, c, s => exact tile0_storable tb0 ix0 f0 d _ _
  | 1, c, s => exact tile1_storable tb1 ix1 f1 d _ _
instance tdF_storable (q : Fin 2) (d : Dev nD) (c : Fin ((K (F := F)).nCore q)) (s : Fin ((K (F := F)).nSub q)) :
    BI.Storable (upEmb : UEmb _ 𝕄) (tdF tb0 ix0 tb1 ix1 q d c s) := by
  match q, c, s with
  | 0, c, s => exact tile0_storable tb0 ix0 (fun d => gath0 (tb0 d) (ix0 d)) d (Fin.cast nCore_0 c) (Fin.cast nSub_0 s)
  | 1, c, s => exact tile1_storable tb1 ix1 (fun d => gath1 (tb1 d) (ix1 d)) d (Fin.cast nCore_1 c) (Fin.cast nSub_1 s)

instance P_storable : (P tb0 ix0 f0 tb1 ix1 f1).IsStorable where
  st q d c := by rw [P_st]; infer_instance
  dn q d c := by rw [P_dn]; infer_instance
  go q d c s := goF_storable tb0 ix0 f0 tb1 ix1 f1 q d c s
  td q d c s := tdF_storable tb0 ix0 tb1 ix1 q d c s

/-! ## A SparseCore's operands are its tiles' -/

theorem vecSplit0 : (K (F := F)).VecSplit' (P tb0 ix0 f0 tb1 ix1 f1) 0 := by
  intro d c
  rw [P_st, P_dn]
  iintro H; imodintro
  isplitl [H]; · iexact H
  iintro H; iexact H

theorem vecSplit1 : (K (F := F)).VecSplit' (P tb0 ix0 f0 tb1 ix1 f1) 1 := by
  intro d c
  rw [P_st, P_dn]
  iintro H; imodintro
  isplitl [H]; · iexact H
  iintro H; iexact H

end Cert.KernelIdeal.Hand

end
-- ==== Proof.ScPart.lean ====
/-
  The two gather calls' operands, whole and dealt out. The TensorCore holds each call's table, index list and
  result array whole; a call hands every one of its 2 × 16 tiles a read share of the table and of the list and
  the result rows of the windows that tile owns. Here: the whole arrays ARE the tiles' holdings taken together
  (an equation, for any contents of the result array), so the launch can deal them out and, after the call,
  take them back with the result at the gathered rows.

  Read shares: the full share is cut in two, each half in sixteen. Result rows: the array is its windows
  (2500 of 128 rows for call 0, 5000 for call 1), and the windows are the 32 workers' runs lo ≤ w < hi, which
  are consecutive: the first starts at 0, each ends where the next starts, the last ends at the window count.
-/
import proofs.«208461_g52518860095779_cont_9to1_m_1075_29_alg».proof.Proof.ScPay
import Idealize.ShloMosaic.Rules.PointsTo
import Idealize.ShloMosaic.Lib.SparseCore.Stream
import Idealize.ShloMosaic.Lib.SparseCore.Cells
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Call 0: the 32 workers' runs tile the 2500 windows -/

/-- The run of windows worker (c, s) owns. -/
abbrev run0 (p : Fin 2 × Fin 16) : Finset (Fin 2500) := Ring.rangeSet 2500 (lo0 (wid p.1 p.2)) (hi0 (wid p.1 p.2))

/-- Two workers' runs share no window: the worker number s * 2 + c tells the workers apart, and the lower
    numbered worker's run ends no later than the other's starts. -/
theorem run0_disjoint (p p' : Fin 2 × Fin 16) (h : p ≠ p') : Disjoint (run0 p) (run0 p') := by
  have hne : wid p.1 p.2 ≠ wid p'.1 p'.2 := fun e =>
    h (Prod.ext (Fin.ext (by unfold wid at e; omega)) (Fin.ext (by unfold wid at e; omega)))
  refine Finset.disjoint_left.mpr fun w h1 h2 => ?_
  rw [Ring.mem_rangeSet] at h1 h2
  unfold hi0 lo0 at h1 h2
  split_ifs at h1 h2 <;> omega

/-- Every window lies in some worker's run: below window 316 the runs are 79 long, from there on 78. -/
theorem run0_cover : (Finset.univ : Finset (Fin 2 × Fin 16)).biUnion run0 = Finset.univ := by
  ext w
  simp only [Finset.mem_biUnion, Finset.mem_univ, true_and, iff_true]
  have hw := w.isLt
  by_cases h : w.val < 316
  · refine ⟨(⟨w.val / 79 % 2, by omega⟩, ⟨w.val / 79 / 2, by omega⟩), ?_⟩
    rw [Ring.mem_rangeSet]; unfold hi0 lo0 wid
    simp only []
    split_ifs <;> omega
  · refine ⟨(⟨(w.val - 4) / 78 % 2, by omega⟩, ⟨(w.val - 4) / 78 / 2, by omega⟩), ?_⟩
    rw [Ring.mem_rangeSet]; unfold hi0 lo0 wid
    simp only []
    split_ifs <;> omega

/-- A family over the windows, taken worker by worker. -/
theorem wins0 (Φ : Fin 2500 → sProp 𝕄) :
    bigSep Finset.univ Φ
      = bigSep Finset.univ fun c : Fin 2 => bigSep Finset.univ fun s : Fin 16 =>
          bigSep (Ring.rangeSet 2500 (lo0 (wid c s)) (hi0 (wid c s))) Φ := by
  rw [← BI.bigSep_univ_prod (fun p : Fin 2 × Fin 16 => bigSep (run0 p) Φ),
    ← SparseCore.Cfg.bigSep_biUnion_eq Finset.univ run0 Φ (fun p _ p' _ h => run0_disjoint p p' h), run0_cover]

/-! ## Call 0: the result array is its windows -/

theorem oSet0_eq (w : Fin 2500) : oSet0 w = (oWin0 w).set := by
  show ((View.whole (main_v9_scv : Ref sig .scVector)).slice (oWin0 w)).set = _
  rw [View.set_slice]; exact Finset.map_refl

theorem oSet0_disjoint : ∀ w ∈ (Finset.univ : Finset (Fin 2500)), ∀ w' ∈ (Finset.univ : Finset (Fin 2500)), w ≠ w' →
    Disjoint (oSet0 w) (oSet0 w') :=
  fun w _ w' _ h => by rw [oSet0_eq, oSet0_eq]; exact Rect.part_disjoint hdiv0 h

theorem oSet0_cover : (Finset.univ : Finset (Fin 2500)).biUnion oSet0 = Finset.univ :=
  (Finset.biUnion_congr rfl fun w _ => oSet0_eq w).trans (Rect.biUnion_part hdiv0)

theorem oPts0_wins (d : Dev nD) (g : Out0 (F := F)) :
    (oLoc0 d ↦{fullShare} g : sProp 𝕄) = bigSep Finset.univ fun w : Fin 2500 => oLoc0 d ↦[oSet0 w]{fullShare} g := by
  rw [← pointsTo_biUnion Finset.univ (ℓ := oLoc0 d) oSet0 oSet0_disjoint, oSet0_cover]; try rfl

/-! ## Call 1: the 32 workers' runs tile the 5000 windows -/

/-- The run of windows worker (c, s) owns. -/
abbrev run1 (p : Fin 2 × Fin 16) : Finset (Fin 5000) := Ring.rangeSet 5000 (lo1 (wid p.1 p.2)) (hi1 (wid p.1 p.2))

/-- Two workers' runs share no window: the worker number s * 2 + c tells the workers apart, and the lower
    numbered worker's run ends no later than the other's starts. -/
theorem run1_disjoint (p p' : Fin 2 × Fin 16) (h : p ≠ p') : Disjoint (run1 p) (run1 p') := by
  have hne : wid p.1 p.2 ≠ wid p'.1 p'.2 := fun e =>
    h (Prod.ext (Fin.ext (by unfold wid at e; omega)) (Fin.ext (by unfold wid at e; omega)))
  refine Finset.disjoint_left.mpr fun w h1 h2 => ?_
  rw [Ring.mem_rangeSet] at h1 h2
  unfold hi1 lo1 at h1 h2
  split_ifs at h1 h2 <;> omega

/-- Every window lies in some worker's run: below window 1256 the runs are 157 long, from there on 156. -/
theorem run1_cover : (Finset.univ : Finset (Fin 2 × Fin 16)).biUnion run1 = Finset.univ := by
  ext w
  simp only [Finset.mem_biUnion, Finset.mem_univ, true_and, iff_true]
  have hw := w.isLt
  by_cases h : w.val < 1256
  · refine ⟨(⟨w.val / 157 % 2, by omega⟩, ⟨w.val / 157 / 2, by omega⟩), ?_⟩
    rw [Ring.mem_rangeSet]; unfold hi1 lo1 wid
    simp only []
    split_ifs <;> omega
  · refine ⟨(⟨(w.val - 8) / 156 % 2, by omega⟩, ⟨(w.val - 8) / 156 / 2, by omega⟩), ?_⟩
    rw [Ring.mem_rangeSet]; unfold hi1 lo1 wid
    simp only []
    split_ifs <;> omega

/-- A family over the windows, taken worker by worker. -/
theorem wins1 (Φ : Fin 5000 → sProp 𝕄) :
    bigSep Finset.univ Φ
      = bigSep Finset.univ fun c : Fin 2 => bigSep Finset.univ fun s : Fin 16 =>
          bigSep (Ring.rangeSet 5000 (lo1 (wid c s)) (hi1 (wid c s))) Φ := by
  rw [← BI.bigSep_univ_prod (fun p : Fin 2 × Fin 16 => bigSep (run1 p) Φ),
    ← SparseCore.Cfg.bigSep_biUnion_eq Finset.univ run1 Φ (fun p _ p' _ h => run1_disjoint p p' h), run1_cover]

/-! ## Call 1: the result array is its windows -/

theorem oSet1_eq (w : Fin 5000) : oSet1 w = (oWin1 w).set := by
  show ((View.whole (main_v26_scv : Ref sig .scVector)).slice (oWin1 w)).set = _
  rw [View.set_slice]; exact Finset.map_refl

theorem oSet1_disjoint : ∀ w ∈ (Finset.univ : Finset (Fin 5000)), ∀ w' ∈ (Finset.univ : Finset (Fin 5000)), w ≠ w' →
    Disjoint (oSet1 w) (oSet1 w') :=
  fun w _ w' _ h => by rw [oSet1_eq, oSet1_eq]; exact Rect.part_disjoint hdiv1 h

theorem oSet1_cover : (Finset.univ : Finset (Fin 5000)).biUnion oSet1 = Finset.univ :=
  (Finset.biUnion_congr rfl fun w _ => oSet1_eq w).trans (Rect.biUnion_part hdiv1)

theorem oPts1_wins (d : Dev nD) (g : Out1 (F := F)) :
    (oLoc1 d ↦{fullShare} g : sProp 𝕄) = bigSep Finset.univ fun w : Fin 5000 => oLoc1 d ↦[oSet1 w]{fullShare} g := by
  rw [← pointsTo_biUnion Finset.univ (ℓ := oLoc1 d) oSet1 oSet1_disjoint, oSet1_cover]; try rfl

/-! ## The read shares -/

/-- An array held whole for reading is held by every tile at its share: the full share cut in two for the
    SparseCores, each half in sixteen for the tiles. -/
theorem pts_tiles {ℓ : Loc nD τ sig} (f : Buf (Elt F) ℓ) :
    (ℓ ↦{fullShare} f : sProp 𝕄)
      = bigSep Finset.univ fun c : Fin 2 => bigSep Finset.univ fun s : Fin 16 => ℓ ↦{qTile c s} f := by
  rw [pointsTo_piecesOf Finset.univ f (by decide : 0 < 2) fullShare]
  refine bigSep_congr fun c _ => ?_
  rw [pointsTo_piecesOf Finset.univ f (by decide : 0 < 16) (pieceOf fullShare 2 (by decide) c)]
  rfl

variable [FloatOps F]

/-! ## Call 0: the whole operands are the tiles' -/

/-- The three arrays whole, the result at g, are what the 2 × 16 tiles hold between them. -/
theorem whole0_eq (tb : Dev nD → Tab (F := F)) (ix : Dev nD → Ix0 (F := F)) (g : Dev nD → Out0 (F := F)) (d : Dev nD) :
    (iprop((tLoc0 d ↦{fullShare} tb d) ∗ (iLoc0 d ↦{fullShare} ix d) ∗ (oLoc0 d ↦{fullShare} g d)) : sProp 𝕄)
      = bigSep Finset.univ fun c : Fin 2 => bigSep Finset.univ fun s : Fin 16 => tile0 tb ix g d c s := by
  rw [pts_tiles (ℓ := tLoc0 d) (tb d), pts_tiles (ℓ := iLoc0 d) (ix d), oPts0_wins d (g d), wins0 (fun w => oLoc0 d ↦[oSet0 w]{fullShare} g d)]
  unfold tile0
  simp only [BI.bigSep_sep']

/-! ## Call 1: the whole operands are the tiles' -/

/-- The three arrays whole, the result at g, are what the 2 × 16 tiles hold between them. -/
theorem whole1_eq (tb : Dev nD → Tab (F := F)) (ix : Dev nD → Ix1 (F := F)) (g : Dev nD → Out1 (F := F)) (d : Dev nD) :
    (iprop((tLoc1 d ↦{fullShare} tb d) ∗ (iLoc1 d ↦{fullShare} ix d) ∗ (oLoc1 d ↦{fullShare} g d)) : sProp 𝕄)
      = bigSep Finset.univ fun c : Fin 2 => bigSep Finset.univ fun s : Fin 16 => tile1 tb ix g d c s := by
  rw [pts_tiles (ℓ := tLoc1 d) (tb d), pts_tiles (ℓ := iLoc1 d) (ix d), oPts1_wins d (g d), wins1 (fun w => oLoc1 d ↦[oSet1 w]{fullShare} g d)]
  unfold tile1
  simp only [BI.bigSep_sep']

variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

/-! ## Call 0: dealing out and taking back -/

theorem st0_eq (d : Dev nD) :
    (bigSep Finset.univ fun c : Fin ((K (F := F)).nCore 0) => (P tb0 ix0 f0 tb1 ix1 f1).st 0 d c : sProp 𝕄)
      = iprop((tLoc0 d ↦{fullShare} tb0 d) ∗ (iLoc0 d ↦{fullShare} ix0 d) ∗ (oLoc0 d ↦{fullShare} f0 d)) := by
  rw [whole0_eq tb0 ix0 f0 d]; rfl

theorem dn0_eq (d : Dev nD) :
    (bigSep Finset.univ fun c : Fin ((K (F := F)).nCore 0) => (P tb0 ix0 f0 tb1 ix1 f1).dn 0 d c : sProp 𝕄)
      = iprop((tLoc0 d ↦{fullShare} tb0 d) ∗ (iLoc0 d ↦{fullShare} ix0 d) ∗ (oLoc0 d ↦{fullShare} gath0 (tb0 d) (ix0 d))) := by
  rw [whole0_eq tb0 ix0 (fun d => gath0 (tb0 d) (ix0 d)) d]; rfl

/-- Dealing call 0's operands out. -/
theorem st0_intro (d : Dev nD) :
    iprop((tLoc0 d ↦{fullShare} tb0 d) ∗ (iLoc0 d ↦{fullShare} ix0 d) ∗ (oLoc0 d ↦{fullShare} f0 d))
      ⊢ (bigSep Finset.univ fun c : Fin ((K (F := F)).nCore 0) => (P tb0 ix0 f0 tb1 ix1 f1).st 0 d c : sProp 𝕄) :=
  Entails.of_eq (st0_eq tb0 ix0 f0 tb1 ix1 f1 d).symm

/-- Taking them back, the result at the gathered rows. -/
theorem dn0_elim (d : Dev nD) :
    (bigSep Finset.univ fun c : Fin ((K (F := F)).nCore 0) => (P tb0 ix0 f0 tb1 ix1 f1).dn 0 d c : sProp 𝕄)
      ⊢ iprop((tLoc0 d ↦{fullShare} tb0 d) ∗ (iLoc0 d ↦{fullShare} ix0 d) ∗ (oLoc0 d ↦{fullShare} gath0 (tb0 d) (ix0 d))) :=
  Entails.of_eq (dn0_eq tb0 ix0 f0 tb1 ix1 f1 d)

/-! ## Call 1: dealing out and taking back -/

theorem st1_eq (d : Dev nD) :
    (bigSep Finset.univ fun c : Fin ((K (F := F)).nCore 1) => (P tb0 ix0 f0 tb1 ix1 f1).st 1 d c : sProp 𝕄)
      = iprop((tLoc1 d ↦{fullShare} tb1 d) ∗ (iLoc1 d ↦{fullShare} ix1 d) ∗ (oLoc1 d ↦{fullShare} f1 d)) := by
  rw [whole1_eq tb1 ix1 f1 d]; rfl

theorem dn1_eq (d : Dev nD) :
    (bigSep Finset.univ fun c : Fin ((K (F := F)).nCore 1) => (P tb0 ix0 f0 tb1 ix1 f1).dn 1 d c : sProp 𝕄)
      = iprop((tLoc1 d ↦{fullShare} tb1 d) ∗ (iLoc1 d ↦{fullShare} ix1 d) ∗ (oLoc1 d ↦{fullShare} gath1 (tb1 d) (ix1 d))) := by
  rw [whole1_eq tb1 ix1 (fun d => gath1 (tb1 d) (ix1 d)) d]; rfl

/-- Dealing call 1's operands out. -/
theorem st1_intro (d : Dev nD) :
    iprop((tLoc1 d ↦{fullShare} tb1 d) ∗ (iLoc1 d ↦{fullShare} ix1 d) ∗ (oLoc1 d ↦{fullShare} f1 d))
      ⊢ (bigSep Finset.univ fun c : Fin ((K (F := F)).nCore 1) => (P tb0 ix0 f0 tb1 ix1 f1).st 1 d c : sProp 𝕄) :=
  Entails.of_eq (st1_eq tb0 ix0 f0 tb1 ix1 f1 d).symm

/-- Taking them back, the result at the gathered rows. -/
theorem dn1_elim (d : Dev nD) :
    (bigSep Finset.univ fun c : Fin ((K (F := F)).nCore 1) => (P tb0 ix0 f0 tb1 ix1 f1).dn 1 d c : sProp 𝕄)
      ⊢ iprop((tLoc1 d ↦{fullShare} tb1 d) ∗ (iLoc1 d ↦{fullShare} ix1 d) ∗ (oLoc1 d ↦{fullShare} gath1 (tb1 d) (ix1 d))) :=
  Entails.of_eq (dn1_eq tb0 ix0 f0 tb1 ix1 f1 d)

end Cert.KernelIdeal.Hand

end
-- ==== Proof.Region0.lean ====
/-
  Region 0 of @main: the first TensorCore pipeline (ten points, one block of 2000 rows of the 20000×128 array per point).
  Its body loads the whole input block and stores, over the whole output block, the elementwise square root of the
  absolute value. Here: the whole-array function the region computes (out0), the body's triple, the pipeline's proof data
  (the input's block found at every point, the payload of that block left in the output's buffer, the scoped buffers no
  window stages as the invariant, the tallies the core owes carried unchanged), that the ten blocks tile the array and each
  written block is the block of out0 of the input array, and the region's rule: from the region boundary and the
  TensorCore's unscoped buffers at a valuation V, the call runs to the boundary and the buffers at V with the result array
  at out0 of the input array.
-/
import proofs.«208461_g52518860095779_cont_9to1_m_1075_29_alg».proof.Proof.Common
import Idealize.ShloMosaic.Lib.Pipeline.Frame
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The region's value -/

/-- The region's result array as a function of its input array: the square root of the absolute value, elementwise. -/
def out0 (x : S20000x128.Idx → Elt F .f32) : S20000x128.Idx → Elt F .f32 :=
  sqrt (absf (x : FVec F S20000x128 .f32))

/-- The valuation the region leaves: the result array at the whole-array result of the input array, every other buffer kept. -/
def upd0 (X : Valuation τ sig (Elt F)) : Valuation τ sig (Elt F) :=
  Function.update X (Proc.devRef .tc main_v1) (out0 (X (Proc.devRef .tc main_v0)))

theorem upd0_eq (X : Valuation τ sig (Elt F)) :
    upd0 X = Function.update X (Proc.devRef .tc main_v1) (out0 (X (Proc.devRef .tc main_v0))) := rfl

/-- Every buffer but the result array is kept. -/
theorem upd0_kept (X : Valuation τ sig (Elt F)) (b : DevRef τ sig) (hb : b ≠ Proc.devRef .tc main_v1) : upd0 X b = X b :=
  Function.update_of_ne hb _ _

/-- The result array holds the whole-array result of the input array. -/
theorem upd0_result (X : Valuation τ sig (Elt F)) : upd0 X (Proc.devRef .tc main_v1) = out0 (X (Proc.devRef .tc main_v0)) :=
  Function.update_self ..

namespace R0

/-! ## The body's one load and one store -/

/-- The whole 2000×128 block, as the rectangle the body loads and stores through. -/
abbrev r0_0 : Rect S2000x128 := Rect.unit (s := S2000x128) ![0, 0] S2000x128.size inb_S2000x128_S2000x128_0_0

theorem zeros2 : (![0, 0] : Fin 2 → ℕ) = fun _ => 0 := by
  funext a; fin_cases a <;> rfl

/-- The one store covers the block. -/
theorem cover0_1 [∀ e, Nonempty (Elt F e)] (p0 : Vec F S2000x128 .f32) (y : S2000x128.Idx) :
    ∃ pc ∈ ([⟨r0_0, p0⟩] : List (View.Piece (Elt F) S2000x128 .f32)), y ∈ pc.1.set :=
  ⟨_, List.mem_singleton_self _, View.mem_set_unit_zero (S := S2000x128) zeros2 inb_S2000x128_S2000x128_0_0 y⟩

/-! ## The body's triple -/

set_option maxHeartbeats 1000000 in
/-- The kernel body on whole staging memrefs, the input's at read contents x0 and the output's at anything, runs to
    the continuation holding the input's as it was and the output's at the payload of x0: the absolute value's square
    root, elementwise. -/
theorem sound_kernel [∀ e, Nonempty (Elt F e)] (c : Dev nD) (E : Set ℕ) (i : grid0.Coords)
    (arg1 : Memref sig .tc .vmem S2000x128 .f32) (harg1 : arg1.IsWhole) (arg2 : Memref sig .tc .vmem S2000x128 .f32) (harg2 : arg2.IsWhole)
    (x0 : Vec F S2000x128 .f32) (Kc : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ Kc ⟨⟩))
      ⊢ wp frame (wpE (defs₀ (F := F)) Variants.none c none) E (cc0__k1_body i arg1 harg1 arg2 harg2) Kc := by
  simp only [cc0__k1_body_eq_skeleton]; unfold cc0__k1_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (cover0_1 _), View.canon_unit_zero zeros2]
  exact congrArg k0_pay1 (View.ld_unit_zero zeros2 inb_S2000x128_S2000x128_0_0 (View.read (Elt F) arg1.view f0))

/-! ## The proof data -/

section Data

variable (V : Valuation τ sig (Elt F)) (O : CellTallies nD τ sig (HIx 2)) (W : Waits sig (HIx 2)) (d : Dev nD)

/-- The TensorCore's buffers of device d at the valuation, by reference. -/
abbrev Vr (b : Ref sig .tc) : Buf (Elt F) ((d : Thread nD τ).loc b) := V (Proc.devRef .tc b)

/-- The input array's block at point t: rows [2000 t, 2000 t + 2000). -/
def iblk0 (t : Fin cfg0.N) : ((cfg0.win 0).xblock (cfg0.grid.coords t)).Idx → Elt F (cfg0.win 0).elt :=
  ((cfg0.win 0).blk t).view.read (Elt F) (Vr V d (Pipeline.arrRef spec0 0))

/-- The proof data of pipeline 0 on device d: the two arrays as the region finds them; after the body at point t the
    input's buffer at its block and the output's at the payload of that block; the invariant the scoped buffers no
    window stages, untouched; the tallies owed and the recorded waits as the region is entered with them, throughout. -/
def dat0 : Dat τ (Elt F) (HIx 2) ℕ UU ℕ cfg0 d where
  A w := Vr V d (Pipeline.arrRef spec0 w)
  after w t := match w with
    | ⟨0, _⟩ => iblk0 V d t
    | ⟨1, _⟩ => k0_pay1 (iblk0 V d t)
  Φ _ := Pipeline.scopedRest (Ix := HIx 2) (Name := ℕ) (U := UU) (Lvl := ℕ) (Val := Elt F) spec0 d
  q _ := fullShare
  owed _ := O
  recorded _ := ↑W

theorem A_eq (w : Fin cfg0.W) : (dat0 V O W d).A w = Vr V d (Pipeline.arrRef spec0 w) := by
  dsimp only [dat0]
theorem after0_0 (t : Fin cfg0.N) : (dat0 V O W d).after 0 t = iblk0 V d t := by dsimp only [dat0]
theorem after0_1 (t : Fin cfg0.N) : (dat0 V O W d).after 1 t = k0_pay1 (iblk0 V d t) := by dsimp only [dat0]

/-- The input's current staging buffer holds its block at every point. -/
theorem before0_0 (t : Fin cfg0.N) (dd) : (dat0 V O W d).before 0 t dd = iblk0 V d t :=
  ((dat0 V O W d).before_in_eq_fetched 0 rfl (fun _ => rfl) (fun _ _ _ => rfl)
      (fun t => by rw [after0_0]; unfold Dat.blockOf iblk0; rw [A_eq]; try rfl) t dd).trans
    (by unfold Dat.fetched Dat.blockOf iblk0; rw [A_eq]; try rfl)

/-! ## The body obligation -/

/-- The body at any point: the input's memref holds its block, so the body's triple applies; the invariant and the
    core's tallies pass through unread. -/
theorem body0 [∀ e, Nonempty (Elt F e)] : BodyObligation (dat0 V O W d) (defs₀ (F := F)) Variants.none none Set.univ := fun t => by
  rw [bigSep_W0, bigSep_W0]
  simp only [before0_0]
  rw [show (dat0 V O W d).Φ t.succ = (dat0 V O W d).Φ t.castSucc from rfl,
    show (dat0 V O W d).owesAt none t.succ = (dat0 V O W d).owesAt none t.castSucc from rfl,
    after0_0, after0_1]
  iintro ⟨HΦ, Ho, ⟨%d0, H0⟩, ⟨%d1, H1⟩⟩
  iapply (sound_kernel d Set.univ (grid0.coords t) (win0_0.stage (cfg0.slots t 0)) (hstage0_0 ((cfg0.slots t 0).cast nbuf0_0))
    (win0_1.stage (cfg0.slots t 1)) (hstage0_1 ((cfg0.slots t 1).cast nbuf0_1)) (iblk0 V d t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Data

/-! ## What the region leaves in its result array -/

section Value

variable (V : Valuation τ sig (Elt F)) (O : CellTallies nD τ sig (HIx 2)) (W : Waits sig (HIx 2)) (d : Dev nD)

/-- The body's payload, elementwise. -/
theorem pay1_eq (x0 : Vec F S2000x128 .f32) : k0_pay1 x0 = sqrt (absf (x0 : FVec F S2000x128 .f32)) := by
  unfold k0_pay1; rw [shapeCast_self]

/-- The index maps, decided over the grid: at point t both windows sit at block (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the whole-array result. -/
theorem flushed1_eq (t : Fin cfg0.N) :
    (dat0 V O W d).flushed 1 t = ((cfg0.win 1).blk t).view.read (Elt F) (out0 (Vr V d main_v0)) := by
  show (cfg0.win 1).cut (grid0.coords t) ((dat0 V O W d).after 1 t) = _
  rw [after0_1, pay1_eq]
  obtain ⟨e0, e1, e2, e3⟩ := idx_facts0 t
  funext j
  show FloatOps.sqrt (FloatOps.absf (Vr V d main_v0 (((cfg0.win 0).blk t).view.emb j)))
    = FloatOps.sqrt (FloatOps.absf (Vr V d main_v0 (((cfg0.win 1).blk t).view.emb j)))
  have h0 : ((cfg0.win 0).blk t).view.emb j = ((cfg0.win 1).blk t).view.emb j := by
    funext a; apply Fin.ext
    match a with
    | ⟨0, _⟩ => show win0_0.index t (0 : Fin 2) * 2000 + 1 * (j 0).val = win0_1.index t (0 : Fin 2) * 2000 + 1 * (j 0).val; omega
    | ⟨1, _⟩ => show win0_0.index t (1 : Fin 2) * 128 + 1 * (j 1).val = win0_1.index t (1 : Fin 2) * 128 + 1 * (j 1).val; omega
  rw [h0]

/-- An index of the array is in point t's block iff each coordinate is in the block's range on its axis. -/
theorem mem_blk1 (t : Fin cfg0.N) (i : S20000x128.Idx) :
    i ∈ ((cfg0.win 1).blk t).view.set ↔ ∀ a : Fin 2, win0_1.index t a * S2000x128.size a ≤ (i a).val ∧ (i a).val < win0_1.index t a * S2000x128.size a + S2000x128.size a := by
  show i ∈ ((View.whole main_v1).slice (win0_1.rect t)).set ↔ _
  rw [View.set_slice_whole, Rect.mem_set_unit]
  exact Iff.rfl

/-- The ten blocks of 2000 rows tile the 20000 rows: row r lies in block r / 2000. -/
theorem cover1 (i : S20000x128.Idx) : ∃ t : Fin cfg0.N, (cfg0.win 1).flush t = true ∧ i ∈ ((cfg0.win 1).blk t).view.set := by
  have hi0 : (i 0).val < 20000 := (i 0).isLt
  have hi1 : (i 1).val < 128 := (i 1).isLt
  have hN : cfg0.N = 10 := N_0
  obtain ⟨t, ht⟩ : ∃ t : Fin cfg0.N, t.val = (i 0).val / 2000 := ⟨⟨(i 0).val / 2000, by omega⟩, rfl⟩
  obtain ⟨e0, e1, e2, e3⟩ := idx_facts0 t
  refine ⟨t, flush0_1 t, ?_⟩
  rw [mem_blk1]
  intro a
  match a with
  | ⟨0, _⟩ => show win0_1.index t (0 : Fin 2) * 2000 ≤ (i 0).val ∧ (i 0).val < win0_1.index t (0 : Fin 2) * 2000 + 2000; omega
  | ⟨1, _⟩ => show win0_1.index t (1 : Fin 2) * 128 ≤ (i 1).val ∧ (i 1).val < win0_1.index t (1 : Fin 2) * 128 + 128; omega

/-- The input array is never written. -/
theorem final0 : (dat0 V O W d).arrAt 0 cfg0.N = Vr V d main_v0 :=
  ((dat0 V O W d).arrAt_in 0 rfl _).trans (A_eq V O W d 0)

/-- The result array after the run: the whole-array result of the input array. -/
theorem final1 : (dat0 V O W d).arrAt 1 cfg0.N = out0 (Vr V d main_v0) :=
  (dat0 V O W d).arrAt_eq_of_cover 1 _ (fun t _ => flushed1_eq V O W d t) cover1

end Value

/-! ## The region -/

section Region

variable [∀ e, Nonempty (Elt F e)]
variable (V : Valuation τ sig (Elt F)) (O : CellTallies nD τ sig (HIx 2)) (W : Waits sig (HIx 2))

/-- Proof data of a pipeline this region does not enter: never read. -/
def junk (cfg : Pipeline.Cfg sig Λ₀) (c : Dev nD) : Dat τ (Elt F) (HIx 2) ℕ UU ℕ cfg c where
  A _ := fun _ => Classical.arbitrary _
  after _ _ := fun _ => Classical.arbitrary _
  Φ _ := iprop(emp)
  q _ := fullShare
  owed _ := 0

/-- The proof data of the three pipelines: pipeline 0's is this region's. -/
def pd : (p : Fin 3) → (c : Dev nD) → Dat τ (Elt F) (HIx 2) ℕ UU ℕ (pcf (F := F) p) c
  | 0 => fun c => dat0 V O W c
  | 1 => fun c => junk cfg2 c
  | 2 => fun c => junk cfg4 c

/-- The two arrays the region's windows stage, as device buffers. -/
def T01 : Finset (DevRef τ sig) := {Proc.devRef .tc main_v0, Proc.devRef .tc main_v1}

theorem T01_sub : T01 ⊆ Pipeline.ucRefs τ sig := by
  intro b hb
  unfold T01 at hb
  rw [Finset.mem_insert, Finset.mem_singleton] at hb
  unfold Pipeline.ucRefs
  rcases hb with rfl | rfl
  · exact Finset.mem_filter.mpr ⟨StableHlo.devRef_mem_tcRefs _, by decide⟩
  · exact Finset.mem_filter.mpr ⟨StableHlo.devRef_mem_tcRefs _, by decide⟩

theorem v0_ne_v1 : Proc.devRef (τ := τ) .tc main_v0 ≠ Proc.devRef .tc main_v1 :=
  StableHlo.devRef_ne_of_ne (by decide)

/-- The two arrays held at a valuation, one by one. -/
theorem held_T01 (c : Dev nD) (Vv : Valuation τ sig (Elt F)) : (StableHlo.held (c : Thread nD τ) T01 Vv : sProp 𝕄)
    = iprop((((c : Thread nD τ).loc main_v0) ↦{fullShare} Vv (Proc.devRef .tc main_v0))
        ∗ (((c : Thread nD τ).loc main_v1) ↦{fullShare} Vv (Proc.devRef .tc main_v1))) := by
  unfold StableHlo.held T01
  rw [BI.bigSep_insert (by rw [Finset.mem_singleton]; exact v0_ne_v1), BI.bigSep_singleton]
  rfl

/-- The windows' arrays at contents Fa, one by one. -/
theorem arrays0_eq (c : Dev nD) (Fa) : ((pd V O W 0 c).arrays Fa : sProp 𝕄)
    = iprop((((c : Thread nD τ).loc main_v0) ↦{fullShare} Fa 0) ∗ (((c : Thread nD τ).loc main_v1) ↦{fullShare} Fa 1)) := by
  rw [Pipeline.arrays_eq (pcf (F := F)) (pd V O W) 0 c arr_whole0 ((pd V O W 0 c).share_full fun _ => rfl) Fa, bigSep_W0]
  rfl

/-- The buffers that bypass the region do not see the result array's update. -/
theorem held_rest (c : Dev nD) (G) : (StableHlo.held (c : Thread nD τ) (Pipeline.ucRefs τ sig \ T01) (Function.update V (Proc.devRef .tc main_v1) G) : sProp 𝕄)
    = StableHlo.held (c : Thread nD τ) (Pipeline.ucRefs τ sig \ T01) V :=
  StableHlo.held_congr (c : Thread nD τ) fun b hb => Function.update_of_ne
    (fun e => (Finset.mem_sdiff.mp hb).2 (by rw [e]; unfold T01; exact Finset.mem_insert_of_mem (Finset.mem_singleton_self _))) _ _

/-- The windows' arrays after the last point: the input array as found, the result array at the whole-array result. -/
theorem arrays_exit (c : Dev nD) :
    ((pd V O W 0 c).arrays (fun w => (pd V O W 0 c).arrAt w (Pipeline.pin (pcfgs (F := F)) adm 0).N) : sProp 𝕄)
      = iprop((((c : Thread nD τ).loc main_v0) ↦{fullShare} V (Proc.devRef .tc main_v0))
          ∗ (((c : Thread nD τ).loc main_v1) ↦{fullShare} out0 (V (Proc.devRef .tc main_v0)))) := by
  rw [arrays0_eq]
  show iprop((_ ↦{fullShare} (dat0 V O W c).arrAt 0 cfg0.N) ∗ (_ ↦{fullShare} (dat0 V O W c).arrAt 1 cfg0.N)) = _
  rw [final0, final1]

/-- No pipeline has a prefetched table. -/
theorem bigSep_Fin0 {M : Type} [URA M] (Φ : Fin 0 → sProp M) : bigSep Finset.univ Φ = (BI.emp : sProp M) :=
  bigSep_univ_eq_bigSepL [] (by decide) (by decide) Φ
theorem prefHeld0 (c : Dev nD) (q) (pf) : (Pipeline.prefHeld (Ix := HIx 2) (Name := ℕ) (U := UU) (Lvl := ℕ) (Val := Elt F) (pcfgs (F := F) 0).pre c q pf : sProp 𝕄) = BI.emp :=
  bigSep_Fin0 _

/-- REGION 0: entered holding the TensorCore's unscoped buffers at V and the core's tallies; the two windows' arrays go to
    the pipeline, every other buffer bypasses it; it leaves the result array at the whole-array result of the input array. -/
def reg0 (hO : ∀ (g : GSem nD τ sig) (i : HIx 2), 0 < O g i → i ∈ (K (F := F)).L g ∧ 0 < (K (F := F)).lev g i) :
    Pipeline.RegionSeg (pcfgs (F := F)) adm (pd V O W) (none : HIx 2) defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body0 V O W c).loose
  hwaits c := Pipeline.cellsWaits_of_cut (cfgs := pcf (F := F)) (dats := pd V O W) (ι := (none : HIx 2)) 0 c 0 O (fun _ => rfl)
    (fun _ _ => Finset.mem_univ _) (fun _ _ => le_rfl) hO
  pre c := iprop(StableHlo.held (c : Thread nD τ) (Pipeline.ucRefs τ sig) V ∗ owes (c : Thread nD τ) O W)
  post c := iprop(StableHlo.held (c : Thread nD τ) (Pipeline.ucRefs τ sig) (Function.update V (Proc.devRef .tc main_v1) (out0 (V (Proc.devRef .tc main_v0))))
    ∗ ∃ W', ⌜∀ p ∈ W', p ∈ W ∨ p.2 = none⌝ ∗ owes (c : Thread nD τ) O W')
  X _ := iprop(emp)
  Y _ := iprop(emp)
  Z c := StableHlo.held (c : Thread nD τ) (Pipeline.ucRefs τ sig \ T01) V
  hentry c := by
    rw [Pipeline.ownSems0_none, prefHeld0, arrays0_eq, StableHlo.held_sub_split (c : Thread nD τ) T01_sub V, held_T01]
    iintro ⟨⟨⟨⟨H0, H1⟩, HZ⟩, HO⟩, -, -⟩
    imodintro
    isplitl [H0 H1]
    · isplitl [H0]; · iexact H0
      iexact H1
    isplitr; · iempintro
    isplitl [HO]
    · iexists W; isplitr
      · ipureintro; exact fun x hx => Or.inl hx
      iexact HO
    isplitr; · iempintro
    iexact HZ
  hin c := by
    show iprop(emp ∗ _ ∗ Pipeline.scopedRest (Ix := HIx 2) (Name := ℕ) (U := UU) (Lvl := ℕ) (Val := Elt F) spec0 c)
      ⊢ Pipeline.scopedRest (Ix := HIx 2) (Name := ℕ) (U := UU) (Lvl := ℕ) (Val := Elt F) spec0 c
    iintro ⟨-, -, H⟩; iexact H
  hout c := by
    rw [Pipeline.ownSems0_none]
    show Pipeline.scopedRest (Ix := HIx 2) (Name := ℕ) (U := UU) (Lvl := ℕ) (Val := Elt F) spec0 c
      ⊢ iprop(emp ∗ emp ∗ Pipeline.scopedRest (Ix := HIx 2) (Name := ℕ) (U := UU) (Lvl := ℕ) (Val := Elt F) spec0 c)
    iintro H
    isplitr; · iempintro
    isplitr; · iempintro
    iexact H
  hexit c := by
    rw [arrays_exit, StableHlo.held_sub_split (c : Thread nD τ) T01_sub (Function.update V (Proc.devRef .tc main_v1) (out0 (V (Proc.devRef .tc main_v0)))),
      held_T01, Function.update_self, Function.update_of_ne v0_ne_v1, held_rest]
    iintro ⟨⟨H0, H1⟩, ⟨%W', %hW', HO⟩, -, HZ⟩
    imodintro
    isplitl [H0 H1 HZ]
    · isplitl [H0 H1]
      · isplitl [H0]; · iexact H0
        iexact H1
      iexact HZ
    iexists W'; isplitr
    · ipureintro
      intro p hp
      rcases hW' hp with h | ⟨w, s, rfl⟩
      · exact Or.inl h
      · exact Or.inr rfl
    iexact HO

end Region

end R0

section Region0

/-- REGION 0 of @main on device d: from the region boundary, the TensorCore's unscoped buffers at V, the core's tallies, the
    level facts and pipeline 0's ghost state, the custom call runs to the boundary, the buffers at V with the result array
    main_v1 at the elementwise square root of the absolute value of main_v0, and the tallies unchanged, for the continuation. -/
theorem region0 [∀ e, Nonempty (Elt F e)] (d : Dev nD) (V : Valuation τ sig (Elt F)) (O : CellTallies nD τ sig (HIx 2)) (W : Waits sig (HIx 2))
    (hO : ∀ (g : GSem nD τ sig) (i : HIx 2), 0 < O g i → i ∈ (K (F := F)).L g ∧ 0 < (K (F := F)).lev g i)
    {α : Type} (k : PUnit → Prog (TpuEff nD τ sig (Elt F) (ΛP (F := F)) .tc) α) (Q : α → sProp 𝕄) :
    iprop((iprop(boundary (SparseCore.T d) ∗ StableHlo.held (SparseCore.T d) (Pipeline.ucRefs τ sig) (Function.update V (Proc.devRef .tc main_v1) (out0 (V (Proc.devRef .tc main_v0))))
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ StableHlo.held (SparseCore.T d) (Pipeline.ucRefs τ sig) V ∗ owes (SparseCore.T d) O W
        ∗ levAts (K (F := F)).L (K (F := F)).lev
        ∗ Pipeline.cellsGhost (pcf (F := F)) EP 0 d ∗ Pipeline.toksInit (pcf (F := F)) EP 0 d)
      ⊢ wp frame (wpE (D (F := F)) 𝒱 (SparseCore.T d) none) Set.univ (.op (.customCall (Pipeline.entry 0) ()) k) Q := by
  have h := Pipeline.RegionSeg.wp (pcfgs (F := F)) adm (R0.pd V O W) (none : HIx 2) pcf_inj EP defs₀ 𝒱₀ (K (F := F)).L (K (F := F)).lev
    (R0.reg0 V O W hO) d none (fun u hu => nomatch hu) k Q
  dsimp only [R0.reg0] at h
  iintro ⟨Hk, Hb, Hh, HO, Hl, Hg, Ht⟩
  iapply h
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region0

end Cert.KernelIdeal.Hand

end
-- ==== Proof.Region1.lean ====
/-
  Region 1 of @main: the second TensorCore pipeline (fifty points; per point one block of 400 nodes: the 6400 gathered
  neighbour rows of those nodes, their 400×16×16 bond block, their 400 root rows, and, fetched once, the 128×128 node
  weight and the 1×128 bias row). Its body loads the five input blocks whole and stores, over the whole 1×400×128 result
  block, one payload of them: per node the neighbour rows weighted by the normalised inverse squared bond lengths and
  summed, times the root row, through the weight matrix, plus the bias, clamped below at zero. Here: the result array as
  one function of the five operand arrays (res1: at each index, the payload of the blocks of the point whose block holds
  that index), the body's triple, the pipeline's proof data (every input's block found at every point, fetched there or
  not; the payload left in the result's buffer; the scoped buffers no window stages as the invariant; the tallies the core
  owes carried unchanged), that the fifty result blocks tile the result array and each written block is the block of res1,
  and the region's rule: from the region boundary and the TensorCore's unscoped buffers at a valuation V, the call runs to
  the boundary and the buffers at V with the result array at res1 V.
-/
import proofs.«208461_g52518860095779_cont_9to1_m_1075_29_alg».proof.Proof.Common
import Idealize.ShloMosaic.Lib.Pipeline.Frame
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

namespace R1

/-! ## The region's value -/

/-- Window `w`'s block of its array at point `t`, the array read off the valuation. -/
def iblk (V : Valuation τ sig (Elt F)) (w : Fin cfg2.W) (t : Fin cfg2.N) :
    ((cfg2.win w).xblock (cfg2.grid.coords t)).Idx → Elt F (cfg2.win w).elt :=
  ((cfg2.win w).blk t).view.read (Elt F) (V (Proc.devRef .tc (Pipeline.arrRef spec2 w)))

/-- What the body leaves in the result window's block, from the five input blocks: its one covering store's payload. -/
def out5 (x0 : Vec F S6400x128 .f32) (x1 : Vec F S1x400x16x16 .f32) (x2 : Vec F S400x128 .f32) (x3 : Vec F S128x128 .f32)
    (x4 : Vec F S1x128 .f32) : Vec F S1x400x128 .f32 :=
  k2_pay1 x0 x1 x2 x3 x4

/-- The result block at point `t`. -/
def oblk (V : Valuation τ sig (Elt F)) (t : Fin cfg2.N) : Vec F S1x400x128 .f32 :=
  out5 (iblk V 0 t) (iblk V 1 t) (iblk V 2 t) (iblk V 3 t) (iblk V 4 t)

/-- The grid point whose block holds row `(j 0, j 1)` of the result: 25 blocks of 400 rows per batch element. -/
def ptOf (j : S2x10000x128.Idx) : Fin cfg2.N :=
  ⟨(j 0).val * 25 + (j 1).val / 400, by
    have h0 : (j 0).val < 2 := (j 0).isLt
    have h1 : (j 1).val < 10000 := (j 1).isLt
    rw [show cfg2.N = 50 from N_2]; omega⟩

/-- The index of `j` inside that block: row `j 1 % 400`, lane `j 2`. -/
def locOf (j : S2x10000x128.Idx) : S1x400x128.Idx :=
  ValueIdx.ix3 (0 : Fin 1) (⟨(j 1).val % 400, Nat.mod_lt _ (by decide)⟩ : Fin 400) (⟨(j 2).val, (j 2).isLt⟩ : Fin 128)

end R1

/-- The region's result array: at each index, the result block of the point that covers it, read at the index inside
    the block. -/
def res1 (V : Valuation τ sig (Elt F)) : S2x10000x128.Idx → Elt F .f32 := fun j =>
  R1.oblk V (R1.ptOf j) (R1.locOf j)

/-- The valuation after the region: the result array rewritten, everything else as it was. -/
def upd1 (V : Valuation τ sig (Elt F)) : Valuation τ sig (Elt F) :=
  Function.update V (Proc.devRef .tc main_v11) (res1 V)

namespace R1

/-! ## The proof data -/

section Data

variable [∀ e, Nonempty (Elt F e)]
variable (V : Valuation τ sig (Elt F)) (O : CellTallies nD τ sig (HIx 2)) (W : Waits sig (HIx 2))

/-- The region's proof data on core `c`: the six arrays as the valuation has them; after the body at point `t` each
    input's buffer still at its block and the result's at the body's payload over the five blocks; the invariant is
    the scoped buffers no window stages, untouched; the core goes on owing what it owed, its recorded waits those it
    came with. -/
def dat1 (c : Dev nD) : Dat τ (Elt F) (HIx 2) ℕ UU ℕ cfg2 c where
  A w := V (Proc.devRef .tc (Pipeline.arrRef spec2 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => oblk V t
  Φ _ := Pipeline.scopedRest spec2 c
  q _ := fullShare
  owed _ := O
  recorded _ := ↑W

theorem A1_eq (c : Dev nD) (w : Fin cfg2.W) : (dat1 V O W c).A w = V (Proc.devRef .tc (Pipeline.arrRef spec2 w)) := by
  dsimp only [dat1]

theorem after1_0 (c : Dev nD) (t : Fin cfg2.N) : (dat1 V O W c).after 0 t = iblk V 0 t := by dsimp only [dat1]
theorem after1_1 (c : Dev nD) (t : Fin cfg2.N) : (dat1 V O W c).after 1 t = iblk V 1 t := by dsimp only [dat1]
theorem after1_2 (c : Dev nD) (t : Fin cfg2.N) : (dat1 V O W c).after 2 t = iblk V 2 t := by dsimp only [dat1]
theorem after1_3 (c : Dev nD) (t : Fin cfg2.N) : (dat1 V O W c).after 3 t = iblk V 3 t := by dsimp only [dat1]
theorem after1_4 (c : Dev nD) (t : Fin cfg2.N) : (dat1 V O W c).after 4 t = iblk V 4 t := by dsimp only [dat1]
theorem after1_5 (c : Dev nD) (t : Fin cfg2.N) : (dat1 V O W c).after 5 t = oblk V t := by dsimp only [dat1]

/-- An input's current staging buffer holds its block at every point, fetched there or not: where the pipeline does
    not fetch, the block index has not moved and the body left the block in place. -/
theorem before1_0 (c : Dev nD) (t : Fin cfg2.N) (d) : (dat1 V O W c).before 0 t d = iblk V 0 t :=
  ((dat1 V O W c).before_in_eq_fetched 0 rfl (fun _ => rfl) (fun _ _ _ => rfl)
      (fun t => by rw [after1_0]; unfold Dat.blockOf iblk; rw [A1_eq]; try rfl) t d).trans
    (by unfold Dat.fetched Dat.blockOf iblk; rw [A1_eq]; try rfl)
theorem before1_1 (c : Dev nD) (t : Fin cfg2.N) (d) : (dat1 V O W c).before 1 t d = iblk V 1 t :=
  ((dat1 V O W c).before_in_eq_fetched 1 rfl (fun _ => rfl) (fun _ _ _ => rfl)
      (fun t => by rw [after1_1]; unfold Dat.blockOf iblk; rw [A1_eq]; try rfl) t d).trans
    (by unfold Dat.fetched Dat.blockOf iblk; rw [A1_eq]; try rfl)
theorem before1_2 (c : Dev nD) (t : Fin cfg2.N) (d) : (dat1 V O W c).before 2 t d = iblk V 2 t :=
  ((dat1 V O W c).before_in_eq_fetched 2 rfl (fun _ => rfl) (fun _ _ _ => rfl)
      (fun t => by rw [after1_2]; unfold Dat.blockOf iblk; rw [A1_eq]; try rfl) t d).trans
    (by unfold Dat.fetched Dat.blockOf iblk; rw [A1_eq]; try rfl)
theorem before1_3 (c : Dev nD) (t : Fin cfg2.N) (d) : (dat1 V O W c).before 3 t d = iblk V 3 t :=
  ((dat1 V O W c).before_in_eq_fetched 3 rfl (fun _ => rfl) (fun _ _ _ => rfl)
      (fun t => by rw [after1_3]; unfold Dat.blockOf iblk; rw [A1_eq]; try rfl) t d).trans
    (by unfold Dat.fetched Dat.blockOf iblk; rw [A1_eq]; try rfl)
theorem before1_4 (c : Dev nD) (t : Fin cfg2.N) (d) : (dat1 V O W c).before 4 t d = iblk V 4 t :=
  ((dat1 V O W c).before_in_eq_fetched 4 rfl (fun _ => rfl) (fun _ _ _ => rfl)
      (fun t => by rw [after1_4]; unfold Dat.blockOf iblk; rw [A1_eq]; try rfl) t d).trans
    (by unfold Dat.fetched Dat.blockOf iblk; rw [A1_eq]; try rfl)

end Data

/-! ## The body's triple -/

section Kernel

variable [∀ e, Nonempty (Elt F e)]

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- The rectangle of the body's one store: the whole result block. -/
abbrev r1_5 : Rect S1x400x128 := Rect.unit (s := S1x400x128) ![0, 0, 0] S1x400x128.size inb_S1x400x128_S1x400x128_0_0_0

/-- It covers the block. -/
theorem cover1_5 (p0 : Vec F S1x400x128 .f32) (y : S1x400x128.Idx) :
    ∃ pc ∈ ([⟨r1_5, p0⟩] : List (View.Piece (Elt F) S1x400x128 .f32)), y ∈ pc.1.set :=
  ⟨_, List.mem_singleton_self _, View.mem_set_unit_zero hz3 inb_S1x400x128_S1x400x128_0_0_0 y⟩

set_option maxHeartbeats 1000000 in
/-- The kernel body on whole staging memrefs, the five inputs' at read contents `x0 … x4` and the result's at anything,
    runs to the continuation holding the inputs' as they were and the result's at the payload of the five: the body
    loads each input whole, and its one store covers the result block. -/
theorem sound_kernel1 (c : Dev nD) (E : Set ℕ) (i : grid2.Coords)
    (arg1 : Memref sig .tc .vmem S6400x128 .f32) (harg1 : arg1.IsWhole) (arg2 : Memref sig .tc .vmem S1x400x16x16 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x400x128 .f32) (harg6 : arg6.IsWhole)
    (x0 : Vec F S6400x128 .f32) (x1 : Vec F S1x400x16x16 .f32) (x2 : Vec F S400x128 .f32) (x3 : Vec F S128x128 .f32) (x4 : Vec F S1x128 .f32)
    (Kc : PUnit → sProp 𝕄) :
    iprop(owns (c.tc : Thread nD τ) arg1 fullShare x0 ∗ owns (c.tc : Thread nD τ) arg2 fullShare x1 ∗ owns (c.tc : Thread nD τ) arg3 fullShare x2
        ∗ owns (c.tc : Thread nD τ) arg4 fullShare x3 ∗ owns (c.tc : Thread nD τ) arg5 fullShare x4 ∗ (∃ d, owns (c.tc : Thread nD τ) arg6 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare x3 ∗ owns (c.tc : Thread nD τ) arg5 fullShare x4
            ∗ owns (c.tc : Thread nD τ) arg6 fullShare (out5 x0 x1 x2 x3 x4)) -∗ Kc ⟨⟩))
      ⊢ wp frame (wpE (defs₀ (F := F)) Variants.none (c.tc : Thread nD τ) none) E
          (cc2__k3_body i arg1 harg1 arg2 harg2 arg3 harg3 arg4 harg4 arg5 harg5 arg6 harg6) Kc := by
  simp only [cc2__k3_body_eq_skeleton]; unfold cc2__k3_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rw [View.canon_unit_zero hz3]
  have e0 : View.readAt (Elt F) arg1.view (Rect.unit ![0, 0] S6400x128.size inb_S6400x128_S6400x128_0_0).toLoadRect f0
      = View.read (Elt F) arg1.view f0 := View.ld_unit_zero hz2 _ _
  have e1 : View.readAt (Elt F) arg2.view (Rect.unit ![0, 0, 0, 0] S1x400x16x16.size inb_S1x400x16x16_S1x400x16x16_0_0_0_0).toLoadRect f1
      = View.read (Elt F) arg2.view f1 := View.ld_unit_zero hz4 _ _
  have e2 : View.readAt (Elt F) arg3.view (Rect.unit ![0, 0] S400x128.size inb_S400x128_S400x128_0_0).toLoadRect f2
      = View.read (Elt F) arg3.view f2 := View.ld_unit_zero hz2 _ _
  have e3 : View.readAt (Elt F) arg4.view (Rect.unit ![0, 0] S128x128.size inb_S128x128_S128x128_0_0).toLoadRect f3
      = View.read (Elt F) arg4.view f3 := View.ld_unit_zero hz2 _ _
  have e4 : View.readAt (Elt F) arg5.view (Rect.unit ![0, 0] S1x128.size inb_S1x128_S1x128_0_0).toLoadRect f4
      = View.read (Elt F) arg5.view f4 := View.ld_unit_zero hz2 _ _
  rw [e0, e1, e2, e3, e4]
  rfl

end Kernel

/-! ## The body obligation -/

section Obligation

variable [∀ e, Nonempty (Elt F e)]
variable (V : Valuation τ sig (Elt F)) (O : CellTallies nD τ sig (HIx 2)) (W : Waits sig (HIx 2))

/-- What the body is called with at point `t`, the windows one by one, -/
def bodyPre1 (c : Dev nD) (t : Fin cfg2.N) : sProp 𝕄 :=
  iprop((dat1 V O W c).Φ t.castSucc ∗ (dat1 V O W c).owesAt none t.castSucc
    ∗ (∃ d, owns (c.tc : Thread nD τ) (st2_0 t) fullShare ((dat1 V O W c).before 0 t d))
    ∗ (∃ d, owns (c.tc : Thread nD τ) (st2_1 t) fullShare ((dat1 V O W c).before 1 t d))
    ∗ (∃ d, owns (c.tc : Thread nD τ) (st2_2 t) fullShare ((dat1 V O W c).before 2 t d))
    ∗ (∃ d, owns (c.tc : Thread nD τ) (st2_3 t) fullShare ((dat1 V O W c).before 3 t d))
    ∗ (∃ d, owns (c.tc : Thread nD τ) (st2_4 t) fullShare ((dat1 V O W c).before 4 t d))
    ∗ (∃ d, owns (c.tc : Thread nD τ) (st2_5 t) fullShare ((dat1 V O W c).before 5 t d)))

/-- and what it returns. -/
def bodyPost1 (c : Dev nD) (t : Fin cfg2.N) : sProp 𝕄 :=
  iprop((dat1 V O W c).Φ t.succ ∗ (dat1 V O W c).owesAt none t.succ
    ∗ owns (c.tc : Thread nD τ) (st2_0 t) fullShare ((dat1 V O W c).after 0 t)
    ∗ owns (c.tc : Thread nD τ) (st2_1 t) fullShare ((dat1 V O W c).after 1 t)
    ∗ owns (c.tc : Thread nD τ) (st2_2 t) fullShare ((dat1 V O W c).after 2 t)
    ∗ owns (c.tc : Thread nD τ) (st2_3 t) fullShare ((dat1 V O W c).after 3 t)
    ∗ owns (c.tc : Thread nD τ) (st2_4 t) fullShare ((dat1 V O W c).after 4 t)
    ∗ owns (c.tc : Thread nD τ) (st2_5 t) fullShare ((dat1 V O W c).after 5 t))

/-- The body at any point: the inputs' memrefs hold their blocks, so the kernel's triple applies; the invariant and
    the core's tallies pass through unread. -/
theorem sound_body1 (c : Dev nD) (t : Fin cfg2.N) :
    bodyPre1 V O W c t ⊢ wp frame (wpE (defs₀ (F := F)) Variants.none (c.tc : Thread nD τ) none) Set.univ (bodyAt2 t) (fun _ => bodyPost1 V O W c t) := by
  unfold bodyPre1 bodyPost1 bodyAt2
  simp only [before1_0, before1_1, before1_2, before1_3, before1_4]
  rw [show (dat1 V O W c).Φ t.succ = (dat1 V O W c).Φ t.castSucc from rfl,
    show (dat1 V O W c).owesAt none t.succ = (dat1 V O W c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk V 0 t) (iblk V 1 t) (iblk V 2 t) (iblk V 3 t) (iblk V 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V O W c) (defs₀ (F := F)) Variants.none none Set.univ := fun t => by
  rw [bigSep_W2, bigSep_W2]
  exact sound_body1 V O W c t

end Obligation

/-! ## What the region leaves in its result array -/

section Value

variable [∀ e, Nonempty (Elt F e)]
variable (V : Valuation τ sig (Elt F)) (O : CellTallies nD τ sig (HIx 2)) (W : Waits sig (HIx 2))

/-- The result window's block index at point `t`: batch element `t / 25`, row block `t % 25`. -/
theorem idx5 : ∀ t : Fin grid2.N, cc2_transform_5 (grid2.coords t) = ![t.val / 25, t.val % 25, 0] := by decide +kernel

/-- Where an element of the result block at point `t` sits in the result array, on each axis: the block index times the
    block's extent plus the element's own coordinate. -/
theorem emb5_val (t : Fin cfg2.N) (y : S1x400x128.Idx) (a : Fin 3) :
    ((((cfg2.win 5).blk t).view.emb y) a : Nat) = (![t.val / 25, t.val % 25, 0] : Fin 3 → Nat) a * S1x400x128.size a + (y a : Nat) := by
  show ((((cfg2.win 5).rect t).emb y) a : Nat) = _
  rw [Window.rect_emb_val]
  show cc2_transform_5 (grid2.coords t) a * _ + _ = _
  rw [idx5 t]

theorem emb5_0 (t : Fin cfg2.N) (y : S1x400x128.Idx) : ((((cfg2.win 5).blk t).view.emb y) (0 : Fin 3) : Nat) = t.val / 25 := by
  have h : ((((cfg2.win 5).blk t).view.emb y) (0 : Fin 3) : Nat) = t.val / 25 * 1 + (y (0 : Fin 3) : Nat) := emb5_val t y 0
  have hy : (y (0 : Fin 3) : Nat) < 1 := (y (0 : Fin 3)).isLt
  omega
theorem emb5_1 (t : Fin cfg2.N) (y : S1x400x128.Idx) : ((((cfg2.win 5).blk t).view.emb y) (1 : Fin 3) : Nat) = t.val % 25 * 400 + (y (1 : Fin 3) : Nat) :=
  emb5_val t y 1
theorem emb5_2 (t : Fin cfg2.N) (y : S1x400x128.Idx) : ((((cfg2.win 5).blk t).view.emb y) (2 : Fin 3) : Nat) = (y (2 : Fin 3) : Nat) := by
  have h : ((((cfg2.win 5).blk t).view.emb y) (2 : Fin 3) : Nat) = 0 * 128 + (y (2 : Fin 3) : Nat) := emb5_val t y 2
  omega

/-- The result array read at an element of point `t`'s block is the result block of `t` at that element: the element's
    row lies in batch element `t / 25`, row block `t % 25`, so its point is `t` and its index in the block its own. -/
theorem res1_emb (t : Fin cfg2.N) (y : S1x400x128.Idx) : res1 V (((cfg2.win 5).blk t).view.emb y) = oblk V t y := by
  have hN : cfg2.N = 50 := N_2
  have ht : t.val < 50 := hN ▸ t.isLt
  have hy1 : (y (1 : Fin 3) : Nat) < 400 := (y (1 : Fin 3)).isLt
  have hp : ptOf (((cfg2.win 5).blk t).view.emb y) = t := by
    apply Fin.ext
    show ((((cfg2.win 5).blk t).view.emb y) (0 : Fin 3) : Nat) * 25 + ((((cfg2.win 5).blk t).view.emb y) (1 : Fin 3) : Nat) / 400 = t.val
    rw [emb5_0, emb5_1]; omega
  have hl : locOf (((cfg2.win 5).blk t).view.emb y) = y := by
    funext a; apply Fin.ext
    match a with
    | ⟨0, _⟩ =>
      show (0 : Nat) = (y (0 : Fin 3) : Nat)
      have : (y (0 : Fin 3) : Nat) < 1 := (y (0 : Fin 3)).isLt
      omega
    | ⟨1, _⟩ =>
      show ((((cfg2.win 5).blk t).view.emb y) (1 : Fin 3) : Nat) % 400 = (y (1 : Fin 3) : Nat)
      rw [emb5_1]; omega
    | ⟨2, _⟩ =>
      show ((((cfg2.win 5).blk t).view.emb y) (2 : Fin 3) : Nat) = (y (2 : Fin 3) : Nat)
      exact emb5_2 t y
  show oblk V (ptOf (((cfg2.win 5).blk t).view.emb y)) (locOf (((cfg2.win 5).blk t).view.emb y)) = oblk V t y
  rw [hp, hl]

/-- What point `t` writes back is block `t` of the result array. -/
theorem flushed5_eq (c : Dev nD) (t : Fin cfg2.N) :
    (dat1 V O W c).flushed 5 t = ((cfg2.win 5).blk t).view.read (Elt F) (res1 V) := by
  show (cfg2.win 5).cut (grid2.coords t) ((dat1 V O W c).after 5 t) = _
  rw [after1_5]
  funext y
  show oblk V t y = res1 V (((cfg2.win 5).blk t).view.emb y)
  exact (res1_emb V t y).symm

/-- The fifty blocks of 400 rows tile the 2 × 10000 rows: row `(b, r)` lies in the block of point `25 b + r / 400`. -/
theorem cover5 (i : S2x10000x128.Idx) : ∃ t : Fin cfg2.N, (cfg2.win 5).flush t = true ∧ i ∈ ((cfg2.win 5).blk t).view.set := by
  have hi0 : (i (0 : Fin 3) : Nat) < 2 := (i (0 : Fin 3)).isLt
  have hi1 : (i (1 : Fin 3) : Nat) < 10000 := (i (1 : Fin 3)).isLt
  refine ⟨ptOf i, flush2_5 _, ?_⟩
  have he : ((cfg2.win 5).blk (ptOf i)).view.emb (locOf i) = i := by
    funext a; apply Fin.ext
    match a with
    | ⟨0, _⟩ =>
      show ((((cfg2.win 5).blk (ptOf i)).view.emb (locOf i)) (0 : Fin 3) : Nat) = (i (0 : Fin 3) : Nat)
      rw [emb5_0]
      show ((i (0 : Fin 3) : Nat) * 25 + (i (1 : Fin 3) : Nat) / 400) / 25 = (i (0 : Fin 3) : Nat)
      omega
    | ⟨1, _⟩ =>
      show ((((cfg2.win 5).blk (ptOf i)).view.emb (locOf i)) (1 : Fin 3) : Nat) = (i (1 : Fin 3) : Nat)
      rw [emb5_1]
      show ((i (0 : Fin 3) : Nat) * 25 + (i (1 : Fin 3) : Nat) / 400) % 25 * 400 + (i (1 : Fin 3) : Nat) % 400 = (i (1 : Fin 3) : Nat)
      omega
    | ⟨2, _⟩ =>
      show ((((cfg2.win 5).blk (ptOf i)).view.emb (locOf i)) (2 : Fin 3) : Nat) = (i (2 : Fin 3) : Nat)
      rw [emb5_2]
      rfl
  have hm := ((cfg2.win 5).blk (ptOf i)).view.emb_mem_set (locOf i)
  rw [he] at hm
  exact hm

/-- An input array is never written. -/
theorem final_in (c : Dev nD) (w : Fin cfg2.W) (hw : (cfg2.win w).isOut = false) :
    (dat1 V O W c).arrAt w cfg2.N = V (Proc.devRef .tc (Pipeline.arrRef spec2 w)) :=
  ((dat1 V O W c).arrAt_in w hw _).trans (A1_eq V O W c w)

/-- The result array after the run. -/
theorem final5 (c : Dev nD) : (dat1 V O W c).arrAt 5 cfg2.N = res1 V :=
  (dat1 V O W c).arrAt_eq_of_cover 5 _ (fun t _ => flushed5_eq V O W c t) cover5

end Value

/-! ## The region -/

section Region

variable [∀ e, Nonempty (Elt F e)]
variable (V : Valuation τ sig (Elt F)) (O : CellTallies nD τ sig (HIx 2)) (W : Waits sig (HIx 2))

/-- Proof data of a pipeline this region does not enter: never read. -/
def junk (cfg : Pipeline.Cfg sig Λ₀) (c : Dev nD) : Dat τ (Elt F) (HIx 2) ℕ UU ℕ cfg c where
  A _ := fun _ => Classical.arbitrary _
  after _ _ := fun _ => Classical.arbitrary _
  Φ _ := iprop(emp)
  q _ := fullShare
  owed _ := 0

/-- The proof data of the three pipelines: pipeline 1's is this region's. -/
def pd : (p : Fin 3) → (c : Dev nD) → Dat τ (Elt F) (HIx 2) ℕ UU ℕ (pcf (F := F) p) c
  | 0 => fun c => junk cfg0 c
  | 1 => fun c => dat1 V O W c
  | 2 => fun c => junk cfg4 c

/-- The six arrays the region's windows stage, as device buffers. -/
abbrev b0 : DevRef τ sig := Proc.devRef .tc main_v9
abbrev b1 : DevRef τ sig := Proc.devRef .tc main_arg1
abbrev b2 : DevRef τ sig := Proc.devRef .tc main_v1
abbrev b3 : DevRef τ sig := Proc.devRef .tc main_arg4
abbrev b4 : DevRef τ sig := Proc.devRef .tc main_v10
abbrev b5 : DevRef τ sig := Proc.devRef .tc main_v11
def T6 : Finset (DevRef τ sig) := {b0, b1, b2, b3, b4, b5}

theorem T6_sub : T6 ⊆ Pipeline.ucRefs τ sig := by
  intro b hb
  unfold T6 at hb
  simp only [Finset.mem_insert, Finset.mem_singleton] at hb
  unfold Pipeline.ucRefs
  rcases hb with rfl | rfl | rfl | rfl | rfl | rfl <;>
    exact Finset.mem_filter.mpr ⟨StableHlo.devRef_mem_tcRefs _, by decide⟩

theorem b5_mem : b5 ∈ T6 := by
  unfold T6; simp only [Finset.mem_insert, Finset.mem_singleton, or_true, true_or]

/-- They are six distinct buffers. -/
theorem ne01 : b0 ≠ b1 := StableHlo.devRef_ne_of_ne (by decide)
theorem ne02 : b0 ≠ b2 := StableHlo.devRef_ne_of_ne (by decide)
theorem ne03 : b0 ≠ b3 := StableHlo.devRef_ne_of_ne (by decide)
theorem ne04 : b0 ≠ b4 := StableHlo.devRef_ne_of_ne (by decide)
theorem ne05 : b0 ≠ b5 := StableHlo.devRef_ne_of_ne (by decide)
theorem ne12 : b1 ≠ b2 := StableHlo.devRef_ne_of_ne (by decide)
theorem ne13 : b1 ≠ b3 := StableHlo.devRef_ne_of_ne (by decide)
theorem ne14 : b1 ≠ b4 := StableHlo.devRef_ne_of_ne (by decide)
theorem ne15 : b1 ≠ b5 := StableHlo.devRef_ne_of_ne (by decide)
theorem ne23 : b2 ≠ b3 := StableHlo.devRef_ne_of_ne (by decide)
theorem ne24 : b2 ≠ b4 := StableHlo.devRef_ne_of_ne (by decide)
theorem ne25 : b2 ≠ b5 := StableHlo.devRef_ne_of_ne (by decide)
theorem ne34 : b3 ≠ b4 := StableHlo.devRef_ne_of_ne (by decide)
theorem ne35 : b3 ≠ b5 := StableHlo.devRef_ne_of_ne (by decide)
theorem ne45 : b4 ≠ b5 := StableHlo.devRef_ne_of_ne (by decide)

/-- The six arrays held at a valuation, one by one. -/
theorem held_T6 (c : Dev nD) (Vv : Valuation τ sig (Elt F)) : (StableHlo.held (c.tc : Thread nD τ) T6 Vv : sProp 𝕄)
    = iprop((((c.tc : Thread nD τ).loc main_v9) ↦{fullShare} Vv b0) ∗ (((c.tc : Thread nD τ).loc main_arg1) ↦{fullShare} Vv b1)
        ∗ (((c.tc : Thread nD τ).loc main_v1) ↦{fullShare} Vv b2) ∗ (((c.tc : Thread nD τ).loc main_arg4) ↦{fullShare} Vv b3)
        ∗ (((c.tc : Thread nD τ).loc main_v10) ↦{fullShare} Vv b4) ∗ (((c.tc : Thread nD τ).loc main_v11) ↦{fullShare} Vv b5)) := by
  unfold StableHlo.held T6
  rw [BI.bigSep_insert (by simp only [Finset.mem_insert, Finset.mem_singleton, not_or]; exact ⟨ne01, ne02, ne03, ne04, ne05⟩),
    BI.bigSep_insert (by simp only [Finset.mem_insert, Finset.mem_singleton, not_or]; exact ⟨ne12, ne13, ne14, ne15⟩),
    BI.bigSep_insert (by simp only [Finset.mem_insert, Finset.mem_singleton, not_or]; exact ⟨ne23, ne24, ne25⟩),
    BI.bigSep_insert (by simp only [Finset.mem_insert, Finset.mem_singleton, not_or]; exact ⟨ne34, ne35⟩),
    BI.bigSep_insert (by rw [Finset.mem_singleton]; exact ne45), BI.bigSep_singleton]
  rfl

/-- The windows' arrays at contents `Fa`, one by one. -/
theorem arrays1_eq (c : Dev nD) (Fa) : ((pd V O W 1 c).arrays Fa : sProp 𝕄)
    = iprop((((c.tc : Thread nD τ).loc main_v9) ↦{fullShare} Fa 0) ∗ (((c.tc : Thread nD τ).loc main_arg1) ↦{fullShare} Fa 1)
        ∗ (((c.tc : Thread nD τ).loc main_v1) ↦{fullShare} Fa 2) ∗ (((c.tc : Thread nD τ).loc main_arg4) ↦{fullShare} Fa 3)
        ∗ (((c.tc : Thread nD τ).loc main_v10) ↦{fullShare} Fa 4) ∗ (((c.tc : Thread nD τ).loc main_v11) ↦{fullShare} Fa 5)) := by
  rw [Pipeline.arrays_eq (pcf (F := F)) (pd V O W) 1 c arr_whole2 ((pd V O W 1 c).share_full fun _ => rfl) Fa, bigSep_W2]
  rfl

/-- The buffers that bypass the region do not see the result array's update. -/
theorem held_rest (c : Dev nD) (G) : (StableHlo.held (c.tc : Thread nD τ) (Pipeline.ucRefs τ sig \ T6) (Function.update V b5 G) : sProp 𝕄)
    = StableHlo.held (c.tc : Thread nD τ) (Pipeline.ucRefs τ sig \ T6) V :=
  StableHlo.held_congr (c.tc : Thread nD τ) fun b hb => Function.update_of_ne
    (fun e => (Finset.mem_sdiff.mp hb).2 (by rw [e]; exact b5_mem)) _ _

/-- The windows' arrays after the last point: the five input arrays as found, the result array at `res1 V`. -/
theorem arrays_exit (c : Dev nD) :
    ((pd V O W 1 c).arrays (fun w => (pd V O W 1 c).arrAt w (Pipeline.pin (pcfgs (F := F)) adm 1).N) : sProp 𝕄)
      = iprop((((c.tc : Thread nD τ).loc main_v9) ↦{fullShare} V b0) ∗ (((c.tc : Thread nD τ).loc main_arg1) ↦{fullShare} V b1)
        ∗ (((c.tc : Thread nD τ).loc main_v1) ↦{fullShare} V b2) ∗ (((c.tc : Thread nD τ).loc main_arg4) ↦{fullShare} V b3)
        ∗ (((c.tc : Thread nD τ).loc main_v10) ↦{fullShare} V b4) ∗ (((c.tc : Thread nD τ).loc main_v11) ↦{fullShare} res1 V)) := by
  rw [arrays1_eq]
  show iprop((_ ↦{fullShare} (dat1 V O W c).arrAt 0 cfg2.N) ∗ (_ ↦{fullShare} (dat1 V O W c).arrAt 1 cfg2.N)
    ∗ (_ ↦{fullShare} (dat1 V O W c).arrAt 2 cfg2.N) ∗ (_ ↦{fullShare} (dat1 V O W c).arrAt 3 cfg2.N)
    ∗ (_ ↦{fullShare} (dat1 V O W c).arrAt 4 cfg2.N) ∗ (_ ↦{fullShare} (dat1 V O W c).arrAt 5 cfg2.N)) = _
  rw [final_in V O W c 0 rfl, final_in V O W c 1 rfl, final_in V O W c 2 rfl, final_in V O W c 3 rfl, final_in V O W c 4 rfl, final5]

/-- No pipeline has a prefetched table. -/
theorem bigSep_Fin0 {M : Type} [URA M] (Φ : Fin 0 → sProp M) : bigSep Finset.univ Φ = (BI.emp : sProp M) :=
  bigSep_univ_eq_bigSepL [] (by decide) (by decide) Φ
theorem prefHeld1 (c : Dev nD) (q) (pf) : (Pipeline.prefHeld (Ix := HIx 2) (Name := ℕ) (U := UU) (Lvl := ℕ) (Val := Elt F) (pcfgs (F := F) 1).pre c q pf : sProp 𝕄) = BI.emp :=
  bigSep_Fin0 _

/-- REGION 1: entered holding the TensorCore's unscoped buffers at `V` and the core's tallies; the six windows' arrays go
    to the pipeline, every other buffer bypasses it; it leaves the result array at `res1 V`. -/
def reg1 (hO : ∀ (g : GSem nD τ sig) (i : HIx 2), 0 < O g i → i ∈ (K (F := F)).L g ∧ 0 < (K (F := F)).lev g i) :
    Pipeline.RegionSeg (pcfgs (F := F)) adm (pd V O W) (none : HIx 2) defs₀ 𝒱₀ (K (F := F)).L (K (F := F)).lev 1 where
  win := winFacts2.to₀
  block_pos := block_pos2
  stage_whole := stage_whole2
  K := PEmpty
  osem k := k.elim
  ho := Pipeline.OwnSemFacts.none _
  hbody c := (body_obligation1 V O W c).loose
  hwaits c := Pipeline.cellsWaits_of_cut (cfgs := pcf (F := F)) (dats := pd V O W) (ι := (none : HIx 2)) 1 c 0 O (fun _ => rfl)
    (fun _ _ => Finset.mem_univ _) (fun _ _ => le_rfl) hO
  pre c := iprop(StableHlo.held (c.tc : Thread nD τ) (Pipeline.ucRefs τ sig) V ∗ owes (c.tc : Thread nD τ) O W)
  post c := iprop(StableHlo.held (c.tc : Thread nD τ) (Pipeline.ucRefs τ sig) (upd1 V)
    ∗ ∃ W', ⌜∀ p ∈ W', p ∈ W ∨ p.2 = none⌝ ∗ owes (c.tc : Thread nD τ) O W')
  X _ := iprop(emp)
  Y _ := iprop(emp)
  Z c := StableHlo.held (c.tc : Thread nD τ) (Pipeline.ucRefs τ sig \ T6) V
  hentry c := by
    rw [Pipeline.ownSems0_none, prefHeld1, arrays1_eq, StableHlo.held_sub_split (c.tc : Thread nD τ) T6_sub V, held_T6]
    iintro ⟨⟨⟨⟨H0, H1, H2, H3, H4, H5⟩, HZ⟩, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iexists W; isplitr
      · ipureintro; exact fun x hx => Or.inl hx
      iexact HO
    isplitr; · iempintro
    iexact HZ
  hin c := by
    show iprop(emp ∗ _ ∗ Pipeline.scopedRest (Ix := HIx 2) (Name := ℕ) (U := UU) (Lvl := ℕ) (Val := Elt F) spec2 c)
      ⊢ Pipeline.scopedRest (Ix := HIx 2) (Name := ℕ) (U := UU) (Lvl := ℕ) (Val := Elt F) spec2 c
    iintro ⟨-, -, H⟩; iexact H
  hout c := by
    rw [Pipeline.ownSems0_none]
    show Pipeline.scopedRest (Ix := HIx 2) (Name := ℕ) (U := UU) (Lvl := ℕ) (Val := Elt F) spec2 c
      ⊢ iprop(emp ∗ emp ∗ Pipeline.scopedRest (Ix := HIx 2) (Name := ℕ) (U := UU) (Lvl := ℕ) (Val := Elt F) spec2 c)
    iintro H
    isplitr; · iempintro
    isplitr; · iempintro
    iexact H
  hexit c := by
    unfold upd1
    rw [arrays_exit, StableHlo.held_sub_split (c.tc : Thread nD τ) T6_sub (Function.update V b5 (res1 V)),
      held_T6, Function.update_self, Function.update_of_ne ne05, Function.update_of_ne ne15, Function.update_of_ne ne25,
      Function.update_of_ne ne35, Function.update_of_ne ne45, held_rest]
    iintro ⟨⟨H0, H1, H2, H3, H4, H5⟩, ⟨%W', %hW', HO⟩, -, HZ⟩
    imodintro
    isplitl [H0 H1 H2 H3 H4 H5 HZ]
    · isplitl [H0 H1 H2 H3 H4 H5]
      · isplitl [H0]; · iexact H0
        isplitl [H1]; · iexact H1
        isplitl [H2]; · iexact H2
        isplitl [H3]; · iexact H3
        isplitl [H4]; · iexact H4
        iexact H5
      iexact HZ
    iexists W'; isplitr
    · ipureintro
      intro p hp
      rcases hW' hp with h | ⟨w, s, rfl⟩
      · exact Or.inl h
      · exact Or.inr rfl
    iexact HO

end Region

end R1

section Region1

/-- REGION 1 of @main on device `d`: from the region boundary, the TensorCore's unscoped buffers at `V`, the core's tallies,
    the level facts and pipeline 1's ghost state, the custom call runs to the boundary, the buffers at `V` with the result
    array main_v11 at `res1 V`, and the tallies unchanged, for the continuation. -/
theorem region1 [∀ e, Nonempty (Elt F e)] (d : Dev nD) (V : Valuation τ sig (Elt F)) (O : CellTallies nD τ sig (HIx 2)) (W : Waits sig (HIx 2))
    (hO : ∀ (g : GSem nD τ sig) (i : HIx 2), 0 < O g i → i ∈ (K (F := F)).L g ∧ 0 < (K (F := F)).lev g i)
    {α : Type} (k : PUnit → Prog (TpuEff nD τ sig (Elt F) (ΛP (F := F)) .tc) α) (Q : α → sProp 𝕄) :
    iprop((iprop(boundary (SparseCore.T d) ∗ StableHlo.held (SparseCore.T d) (Pipeline.ucRefs τ sig) (upd1 V)
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ StableHlo.held (SparseCore.T d) (Pipeline.ucRefs τ sig) V ∗ owes (SparseCore.T d) O W
        ∗ levAts (K (F := F)).L (K (F := F)).lev
        ∗ Pipeline.cellsGhost (pcf (F := F)) EP 1 d ∗ Pipeline.toksInit (pcf (F := F)) EP 1 d)
      ⊢ wp frame (wpE (D (F := F)) 𝒱 (SparseCore.T d) none) Set.univ (.op (.customCall (Pipeline.entry 1) ()) k) Q := by
  have h := Pipeline.RegionSeg.wp (pcfgs (F := F)) adm (R1.pd V O W) (none : HIx 2) pcf_inj EP defs₀ 𝒱₀ (K (F := F)).L (K (F := F)).lev
    (R1.reg1 V O W hO) d none (fun u hu => nomatch hu) k Q
  dsimp only [R1.reg1] at h
  iintro ⟨Hk, Hb, Hh, HO, Hl, Hg, Ht⟩
  iapply h
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region1

end Cert.KernelIdeal.Hand

end
-- ==== Proof.Run.lean ====
/-
  The kernel program's run: the SparseCore launch theorem applied to the two gather calls' tile obligations and
  splits, the launch element, and @main's proof on the TensorCore; every final memory has every unscoped TensorCore
  buffer at its contents along @main as a pure function of the launch memory.
-/
import proofs.«208461_g52518860095779_cont_9to1_m_1075_29_alg».proof.Proof.Main
import proofs.«208461_g52518860095779_cont_9to1_m_1075_29_alg».proof.Proof.Final
import proofs.«208461_g52518860095779_cont_9to1_m_1075_29_alg».proof.Proof.ScPart
import proofs.«208461_g52518860095779_cont_9to1_m_1075_29_alg».proof.Proof.Region0
import proofs.«208461_g52518860095779_cont_9to1_m_1075_29_alg».proof.Proof.Region1

noncomputable section

namespace Cert.KernelIdeal.Hand

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

section Run

variable (upd2 : Valuation τ sig (Elt F) → Valuation τ sig (Elt F))
variable (m : (ℓ : Loc nD τ sig) → Buf (Elt F) ℓ) (ρ : Dev nD → PrngReg)

/-- What the two gather calls find in their arrays: the first call's table, index list and result array before it,
    the second call's. -/
abbrev cTb0 (d : Dev nD) : Tab (F := F) := W3 upd0 m d (rf main_v1)
abbrev cIx0 (d : Dev nD) : Ix0 (F := F) := W3 upd0 m d (rf main_v8)
abbrev cF0 (d : Dev nD) : Out0 (F := F) := W3 upd0 m d (rf main_v9)
abbrev cTb1 (d : Dev nD) : Tab (F := F) := W7 upd0 upd1 m d (rf main_v12)
abbrev cIx1 (d : Dev nD) : Ix1 (F := F) := W7 upd0 upd1 m d (rf main_v25)
abbrev cF1 (d : Dev nD) : Out1 (F := F) := W7 upd0 upd1 m d (rf main_v26)

/-- The calls' payloads at those contents. -/
abbrev Pm : (K (F := F)).Pay (nD := nD) (Val := Elt F) (Name := ℕ) (U := UU) :=
  P (cTb0 m) (cIx0 m) (cF0 m) (cTb1 m) (cIx1 m) (cF1 m)

/-- Both SparseCore calls run on the vector subcores. -/
theorem no_scalar : ∀ q : Fin 2, scKind q ≠ Kind.scScalar := by decide

/-- Every weakly fair execution of the device's threads from the launch memory terminates, nothing faulting, with every
    unscoped TensorCore buffer at its contents along @main. -/
theorem run_main [∀ e, Nonempty (Elt F e)] (h2 : RegionOK (F := F) 2 upd2)
    (ht0 : (K (F := F)).TileObl (D (F := F)) 𝒱 (Pm (F := F) m) v₀ 0)
    (ht1 : (K (F := F)).TileObl (D (F := F)) 𝒱 (Pm (F := F) m) v₀ 1) :
    θ_run (Cert.KernelIdeal.defs (F := F)) (Cert.KernelIdeal.threads (F := F)) ⟨m, fun _ => 0, ρ⟩
      (fun r => ∀ c : Dev nD, ∀ b ∈ Pipeline.ucRefs τ sig, r.2.mem (c, b) = W10 upd0 upd1 upd2 m c b) :=
  SparseCore.Cfg.θ_run_sc (K := K (F := F)) (D := D (F := F)) (𝒱 := 𝒱) (EH := EH) (P := Pm (F := F) m) facts v₀
    (fun q hq => absurd hq (no_scalar q))
    (fun q _ => match q with | 0 => ht0 | 1 => ht1)
    (fun q _ => match q with
      | 0 => SparseCore.Cfg.VecSplit.of_plain (vecSplit0 _ _ _ _ _ _)
      | 1 => SparseCore.Cfg.VecSplit.of_plain (vecSplit1 _ _ _ _ _ _))
    m ρ main (fun d => G (F := F) d)
    (fun d => held (SparseCore.T d) (Pipeline.ucRefs τ sig) (W10 upd0 upd1 upd2 m d)) (u₀ (F := F))
    (hu₀ (Pm (F := F) m) (fun _ _ => rfl))
    (fun κ d => hmain (Pm (F := F) m) upd0 upd1 upd2 m ρ
      (fun d X O W hO _ k Q => region0 d X O W hO k Q) (fun d X O W hO _ k Q => region1 d X O W hO k Q) h2
      (fun d => st0_intro (cTb0 m) (cIx0 m) (cF0 m) (cTb1 m) (cIx1 m) (cF1 m) d)
      (fun d => dn0_elim (cTb0 m) (cIx0 m) (cF0 m) (cTb1 m) (cIx1 m) (cF1 m) d)
      (fun d => st1_intro (cTb0 m) (cIx0 m) (cF0 m) (cTb1 m) (cIx1 m) (cF1 m) d)
      (fun d => dn1_elim (cTb0 m) (cIx0 m) (cF0 m) (cTb1 m) (cIx1 m) (cF1 m) d) κ d)
    (fun d s' => ∀ b ∈ Pipeline.ucRefs τ sig, s'.mem.mem (d, b) = W10 upd0 upd1 upd2 m d b)
    (fun d s' => held_agree_all d (Pipeline.ucRefs τ sig) (W10 upd0 upd1 upd2 m d) s')
    _ (fun _ h => h)

end Run

end Cert.KernelIdeal.Hand

end
-- ==== Proof.Frames.lean ====
/-
  The kernel program's frame, for any float instance: from the run, every argument buffer ends at its launch contents
  (no stretch, region or call writes it), given that the two gathers' index lists are in range — which the
  precondition's ranges of the two integer inputs give.
-/
import proofs.«208461_g52518860095779_cont_9to1_m_1075_29_alg».proof.Proof.Run

noncomputable section

namespace Cert.KernelIdeal.Hand

open Cert.KernelIdeal Cert.KernelIdeal.Gen

open Idealize.ShloMosaic
open Idealize.ShloMosaic.SparseCore.Cfg (HIx Pay)
open Idealize.SL Idealize.SL.Sem
open Idealize.ShloMosaic.StableHlo (held after)

variable {F : FTy → Type} [FloatOps F]

/-- The node-update pipeline changes its result array only. -/
theorem upd1_kept' (X : Valuation τ sig (Elt F)) (b : DevRef τ sig) (hb : b ≠ rf main_v11) : upd1 X b = X b := by
  unfold upd1; exact Function.update_of_ne hb _ _

/-- Every weakly fair execution of the kernel program terminates, nothing faulting, its ten arguments unchanged. -/
theorem frame_gen [∀ e, Nonempty (Elt F e)] (upd2 : Valuation τ sig (Elt F) → Valuation τ sig (Elt F))
    (hk2 : ∀ X b, b ≠ rf main_v31 → upd2 X b = X b) (h2 : RegionOK (F := F) 2 upd2)
    (T0 : ∀ m : (ℓ : Loc nD τ sig) → Buf (Elt F) ℓ, (∀ d j, (cIx0 (F := F) m d j).toNat < 20000) →
      (K (F := F)).TileObl (D (F := F)) 𝒱 (Pm (F := F) m) v₀ 0)
    (T1 : ∀ m : (ℓ : Loc nD τ sig) → Buf (Elt F) ℓ, (∀ d j, (cIx1 (F := F) m d j).toNat < 20000) →
      (K (F := F)).TileObl (D (F := F)) 𝒱 (Pm (F := F) m) v₀ 1)
    (m : (ℓ : Loc nD τ sig) → Buf (Elt F) ℓ) (ρ : Dev nD → PrngReg)
    (hadj : ∀ d j, (m (d, rf main_arg2) j).toNat ≤ 9999) (htup : ∀ d j, (m (d, rf main_arg3) j).toNat ≤ 9999) :
    θ_run (Cert.KernelIdeal.defs (F := F)) (Cert.KernelIdeal.threads (F := F)) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run (Cert.KernelIdeal.defs (F := F)) _ _).mono (fun r h c =>
    ⟨(h c (rf main_arg0) (by decide)).trans (W10_arg0 upd0 upd1 upd2 m c upd0_kept upd1_kept' hk2),
      (h c (rf main_arg1) (by decide)).trans (W10_arg1 upd0 upd1 upd2 m c upd0_kept upd1_kept' hk2),
      (h c (rf main_arg2) (by decide)).trans (W10_arg2 upd0 upd1 upd2 m c upd0_kept upd1_kept' hk2),
      (h c (rf main_arg3) (by decide)).trans (W10_arg3 upd0 upd1 upd2 m c upd0_kept upd1_kept' hk2),
      (h c (rf main_arg4) (by decide)).trans (W10_arg4 upd0 upd1 upd2 m c upd0_kept upd1_kept' hk2),
      (h c (rf main_arg5) (by decide)).trans (W10_arg5 upd0 upd1 upd2 m c upd0_kept upd1_kept' hk2),
      (h c (rf main_arg6) (by decide)).trans (W10_arg6 upd0 upd1 upd2 m c upd0_kept upd1_kept' hk2),
      (h c (rf main_arg7) (by decide)).trans (W10_arg7 upd0 upd1 upd2 m c upd0_kept upd1_kept' hk2),
      (h c (rf main_arg8) (by decide)).trans (W10_arg8 upd0 upd1 upd2 m c upd0_kept upd1_kept' hk2),
      (h c (rf main_arg9) (by decide)).trans (W10_arg9 upd0 upd1 upd2 m c upd0_kept upd1_kept' hk2)⟩)
    (run_main upd2 m ρ h2 (T0 m (idx0_ok upd0 m upd0_kept hadj)) (T1 m (idx1_ok upd0 upd1 m upd0_kept upd1_kept' htup)))

end Cert.KernelIdeal.Hand

end
-- ==== Proof.RefRun.lean ====
/-
  The reference program's @main as one straight line of host operations, and its run.

  @main is printed in two windows (main_part0, main_part1) and calls three outlined functions: the row gather
  `_take` (which calls `_where`), `relu`, and the second row gather `_take_0` (which calls `_where_1`). A call means
  its callee's body run on the operands over the call's own buffers, so the whole program is one sequence of 114
  operations: each callee's operations stand at the call site, over the call's buffer record (main_call0, main_call1,
  main_call2), the nested call's single select over the nested record. Every operation writes one buffer of its own:
  the 114 result buffers are, in order, the buffers 10 … 123 of the signature, and the ten arguments (buffers 0 … 9)
  are written by none.

  From any memory with zero counters every weakly fair execution of @main terminates, and every buffer then holds the
  fold of the operations' results over the launch contents (`after ops`); at an argument that fold is the launch
  contents themselves. The list of result references (`resRefs`, `writes_are`) lets a later reading cut the fold at any
  position: a buffer not written from position k on holds what the first k operations left.
-/
import proofs.«208461_g52518860095779_cont_9to1_m_1075_29_alg».proof.Proof.Gen.ReferenceIdeal
import Idealize.ShloMosaic.Lib.StableHlo.Run
import proofs.«208461_g52518860095779_cont_9to1_m_1075_29_alg».proof.Proof.LibStretch

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 114 operations, in order: six of its own (the two powers of the first argument), the 23 of `_take` over
    main_call0 (its select `_where` the thirteenth of them), 37 of its own up to the bias add, the 3 of `relu` over
    main_call1, the reshape of the index pairs, the 23 of `_take_0` over main_call2, and the last 21 of its own. -/
abbrev ops : List (HloOp τ sig (Elt F)) :=
  [ nullary main_cst (constant S_ .f32 0x40000000#32),
    unary main_cst main_v0 (broadcastInDim S2x10000x128 ![] bcast_S_S2x10000x128 : (⟨S_, .f32⟩ : BufTy).Contents (Elt F) → (⟨S2x10000x128, .f32⟩ : BufTy).Contents (Elt F)),
    binary main_arg0 main_v0 main_v1 (Host.powf : (⟨S2x10000x128, .f32⟩ : BufTy).Contents (Elt F) → (⟨S2x10000x128, .f32⟩ : BufTy).Contents (Elt F) → (⟨S2x10000x128, .f32⟩ : BufTy).Contents (Elt F)),
    nullary main_cst_0 (constant S_ .f32 0x3E800000#32),
    unary main_cst_0 main_v2 (broadcastInDim S2x10000x128 ![] bcast_S_S2x10000x128 : (⟨S_, .f32⟩ : BufTy).Contents (Elt F) → (⟨S2x10000x128, .f32⟩ : BufTy).Contents (Elt F)),
    binary main_v1 main_v2 main_v3 (Host.powf : (⟨S2x10000x128, .f32⟩ : BufTy).Contents (Elt F) → (⟨S2x10000x128, .f32⟩ : BufTy).Contents (Elt F) → (⟨S2x10000x128, .f32⟩ : BufTy).Contents (Elt F)),
    TRef.nullary main_call0.c (constantI S_ 32 0#32),
    TRef.unary main_call0.c main_call0.v0 (broadcastInDim S2x10000x16 ![] bcast_S_S2x10000x16),
    TRef.binary (.of main_arg2) main_call0.v0 main_call0.v1 (cmpi .slt),
    TRef.nullary main_call0.c_0 (constantI S_ 32 10000#32),
    TRef.unary main_call0.c_0 main_call0.v2 (broadcastInDim S2x10000x16 ![] bcast_S_S2x10000x16),
    TRef.binary (.of main_arg2) main_call0.v2 main_call0.v3 addi,
    TRef.ternary main_call0.v1 main_call0.v3 (.of main_arg2) main_call0.call0.v0 select,
    TRef.unary main_call0.call0.v0 main_call0.v5 (broadcastInDim S2x10000x16x1 ![0, 1, 2] bcast_S2x10000x16_S2x10000x16x1_0_1_2),
    TRef.nullary main_call0.c_1 (constantI S1 32 9999#32),
    TRef.nullary main_call0.c_2 (constantI S_ 32 0#32),
    TRef.unary main_call0.c_2 main_call0.v6 (broadcastInDim S2x10000x16x1 ![] bcast_S_S2x10000x16x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S2x10000x16x1 ![0, 1, 2, 3] bcast_S1x1x1x1_S2x10000x16x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2x10000x16x1_S2x10000x16_d3 h_S_),
    TRef.binary (.of main_arg0) main_call0.v5 main_call0.v13 (fun x i => Host.gather gather_S2x10000x128_S2x10000x16x1_S2x10000x16x128_3_1_0_0_1_3_11128 x i),
    TRef.unary main_call0.v12 main_call0.v14 (broadcastInDim S2x10000x16x128 ![0, 1, 2] bcast_S2x10000x16_S2x10000x16x128_0_1_2),
    TRef.nullary main_call0.cst (constant S_ .f32 0x7FC00000#32),
    TRef.unary main_call0.cst main_call0.v15 (broadcastInDim S2x10000x16x128 ![] bcast_S_S2x10000x16x128),
    TRef.ternary main_call0.v14 main_call0.v13 main_call0.v15 main_call0.v16 select,
    nullary main_cst_1 (constant S_ .f32 0x40000000#32),
    unary main_cst_1 main_v5 (broadcastInDim S2x10000x16x128 ![] bcast_S_S2x10000x16x128 : (⟨S_, .f32⟩ : BufTy).Contents (Elt F) → (⟨S2x10000x16x128, .f32⟩ : BufTy).Contents (Elt F)),
    binary main_v4 main_v5 main_v6 (Host.powf : (⟨S2x10000x16x128, .f32⟩ : BufTy).Contents (Elt F) → (⟨S2x10000x16x128, .f32⟩ : BufTy).Contents (Elt F) → (⟨S2x10000x16x128, .f32⟩ : BufTy).Contents (Elt F)),
    nullary main_cst_2 (constant S_ .f32 0x3E800000#32),
    unary main_cst_2 main_v7 (broadcastInDim S2x10000x16x128 ![] bcast_S_S2x10000x16x128 : (⟨S_, .f32⟩ : BufTy).Contents (Elt F) → (⟨S2x10000x16x128, .f32⟩ : BufTy).Contents (Elt F)),
    binary main_v6 main_v7 main_v8 (Host.powf : (⟨S2x10000x16x128, .f32⟩ : BufTy).Contents (Elt F) → (⟨S2x10000x16x128, .f32⟩ : BufTy).Contents (Elt F) → (⟨S2x10000x16x128, .f32⟩ : BufTy).Contents (Elt F)),
    nullary main_cst_3 (constant S_ .f32 0x40000000#32),
    unary main_cst_3 main_v9 (broadcastInDim S2x10000x16x16 ![] bcast_S_S2x10000x16x16 : (⟨S_, .f32⟩ : BufTy).Contents (Elt F) → (⟨S2x10000x16x16, .f32⟩ : BufTy).Contents (Elt F)),
    binary main_arg1 main_v9 main_v10 (Host.powf : (⟨S2x10000x16x16, .f32⟩ : BufTy).Contents (Elt F) → (⟨S2x10000x16x16, .f32⟩ : BufTy).Contents (Elt F) → (⟨S2x10000x16x16, .f32⟩ : BufTy).Contents (Elt F)),
    nullary main_cst_4 (constant S_ .f32 0x00000000#32),
    binary main_v10 main_cst_4 main_v11 ((fun x v => Host.reduceAdd x v reducesTo_S2x10000x16x16_S2x10000x16_d3 h_S_) : (⟨S2x10000x16x16, .f32⟩ : BufTy).Contents (Elt F) → (⟨S_, .f32⟩ : BufTy).Contents (Elt F) → (⟨S2x10000x16, .f32⟩ : BufTy).Contents (Elt F)),
    nullary main_cst_5 (constant S_ .f32 0x3F000000#32),
    unary main_cst_5 main_v12 (broadcastInDim S2x10000x16 ![] bcast_S_S2x10000x16 : (⟨S_, .f32⟩ : BufTy).Contents (Elt F) → (⟨S2x10000x16, .f32⟩ : BufTy).Contents (Elt F)),
    binary main_v11 main_v12 main_v13 (Host.powf : (⟨S2x10000x16, .f32⟩ : BufTy).Contents (Elt F) → (⟨S2x10000x16, .f32⟩ : BufTy).Contents (Elt F) → (⟨S2x10000x16, .f32⟩ : BufTy).Contents (Elt F)),
    nullary main_cst_6 (constant S_ .f32 0xC0000000#32),
    unary main_cst_6 main_v14 (broadcastInDim S2x10000x16 ![] bcast_S_S2x10000x16 : (⟨S_, .f32⟩ : BufTy).Contents (Elt F) → (⟨S2x10000x16, .f32⟩ : BufTy).Contents (Elt F)),
    binary main_v13 main_v14 main_v15 (Host.powf : (⟨S2x10000x16, .f32⟩ : BufTy).Contents (Elt F) → (⟨S2x10000x16, .f32⟩ : BufTy).Contents (Elt F) → (⟨S2x10000x16, .f32⟩ : BufTy).Contents (Elt F)),
    unary main_v15 main_v16 (Host.absf : (⟨S2x10000x16, .f32⟩ : BufTy).Contents (Elt F) → (⟨S2x10000x16, .f32⟩ : BufTy).Contents (Elt F)),
    nullary main_cst_7 (constant S_ .f32 0x00000000#32),
    binary main_v16 main_cst_7 main_v17 ((fun x v => Host.reduceAdd x v reducesTo_S2x10000x16_S2x10000_d2 h_S_) : (⟨S2x10000x16, .f32⟩ : BufTy).Contents (Elt F) → (⟨S_, .f32⟩ : BufTy).Contents (Elt F) → (⟨S2x10000, .f32⟩ : BufTy).Contents (Elt F)),
    unary main_v17 main_v18 (broadcastInDim S2x10000x1 ![0, 1] bcast_S2x10000_S2x10000x1_0_1 : (⟨S2x10000, .f32⟩ : BufTy).Contents (Elt F) → (⟨S2x10000x1, .f32⟩ : BufTy).Contents (Elt F)),
    nullary main_cst_8 (constant S_ .f32 0x2B8CBCCC#32),
    unary main_cst_8 main_v19 (broadcastInDim S2x10000x1 ![] bcast_S_S2x10000x1 : (⟨S_, .f32⟩ : BufTy).Contents (Elt F) → (⟨S2x10000x1, .f32⟩ : BufTy).Contents (Elt F)),
    binary main_v18 main_v19 main_v20 (maximumf : (⟨S2x10000x1, .f32⟩ : BufTy).Contents (Elt F) → (⟨S2x10000x1, .f32⟩ : BufTy).Contents (Elt F) → (⟨S2x10000x1, .f32⟩ : BufTy).Contents (Elt F)),
    unary main_v20 main_v21 (broadcastInDim S2x10000x16 ![0, 1, 2] bcast_S2x10000x1_S2x10000x16_0_1_2 : (⟨S2x10000x1, .f32⟩ : BufTy).Contents (Elt F) → (⟨S2x10000x16, .f32⟩ : BufTy).Contents (Elt F)),
    binary main_v15 main_v21 main_v22 (Host.divf : (⟨S2x10000x16, .f32⟩ : BufTy).Contents (Elt F) → (⟨S2x10000x16, .f32⟩ : BufTy).Contents (Elt F) → (⟨S2x10000x16, .f32⟩ : BufTy).Contents (Elt F)),
    unary main_v22 main_v23 (broadcastInDim S2x10000x16x1 ![0, 1, 2] bcast_S2x10000x16_S2x10000x16x1_0_1_2 : (⟨S2x10000x16, .f32⟩ : BufTy).Contents (Elt F) → (⟨S2x10000x16x1, .f32⟩ : BufTy).Contents (Elt F)),
    unary main_v23 main_v24 (broadcastInDim S2x10000x16x128 ![0, 1, 2, 3] bcast_S2x10000x16x1_S2x10000x16x128_0_1_2_3 : (⟨S2x10000x16x1, .f32⟩ : BufTy).Contents (Elt F) → (⟨S2x10000x16x128, .f32⟩ : BufTy).Contents (Elt F)),
    binary main_v24 main_v8 main_v25 (mulf : (⟨S2x10000x16x128, .f32⟩ : BufTy).Contents (Elt F) → (⟨S2x10000x16x128, .f32⟩ : BufTy).Contents (Elt F) → (⟨S2x10000x16x128, .f32⟩ : BufTy).Contents (Elt F)),
    nullary main_cst_9 (constant S_ .f32 0x00000000#32),
    binary main_v25 main_cst_9 main_v26 ((fun x v => Host.reduceAdd x v reducesTo_S2x10000x16x128_S2x10000x128_d2 h_S_) : (⟨S2x10000x16x128, .f32⟩ : BufTy).Contents (Elt F) → (⟨S_, .f32⟩ : BufTy).Contents (Elt F) → (⟨S2x10000x128, .f32⟩ : BufTy).Contents (Elt F)),
    binary main_v3 main_v26 main_v27 (mulf : (⟨S2x10000x128, .f32⟩ : BufTy).Contents (Elt F) → (⟨S2x10000x128, .f32⟩ : BufTy).Contents (Elt F) → (⟨S2x10000x128, .f32⟩ : BufTy).Contents (Elt F)),
    binary main_v27 main_arg4 main_v28 ((fun l r => Host.dotGeneral dot_S2x10000x128_S128x128_S2x10000x128_2_0_01_1_n_n none l r) : (⟨S2x10000x128, .f32⟩ : BufTy).Contents (Elt F) → (⟨S128x128, .f32⟩ : BufTy).Contents (Elt F) → (⟨S2x10000x128, .f32⟩ : BufTy).Contents (Elt F)),
    unary main_arg7 main_v29 (broadcastInDim S1x1x128 ![2] bcast_S128_S1x1x128_2 : (⟨S128, .f32⟩ : BufTy).Contents (Elt F) → (⟨S1x1x128, .f32⟩ : BufTy).Contents (Elt F)),
    unary main_v29 main_v30 (broadcastInDim S2x10000x128 ![0, 1, 2] bcast_S1x1x128_S2x10000x128_0_1_2 : (⟨S1x1x128, .f32⟩ : BufTy).Contents (Elt F) → (⟨S2x10000x128, .f32⟩ : BufTy).Contents (Elt F)),
    binary main_v28 main_v30 main_v31 (addf : (⟨S2x10000x128, .f32⟩ : BufTy).Contents (Elt F) → (⟨S2x10000x128, .f32⟩ : BufTy).Contents (Elt F) → (⟨S2x10000x128, .f32⟩ : BufTy).Contents (Elt F)),
    TRef.nullary main_call1.cst (constant S_ .f32 0x00000000#32),
    TRef.unary main_call1.cst main_call1.v0 (broadcastInDim S2x10000x128 ![] bcast_S_S2x10000x128),
    TRef.binary (.of main_v31) main_call1.v0 main_call1.v1 maximumf,
    reshape main_arg3 main_v33 rfl shapeCasts_S2x160000x2_S2x320000,
    TRef.nullary main_call2.c (constantI S_ 32 0#32),
    TRef.unary main_call2.c main_call2.v0 (broadcastInDim S2x320000 ![] bcast_S_S2x320000),
    TRef.binary (.of main_v33) main_call2.v0 main_call2.v1 (cmpi .slt),
    TRef.nullary main_call2.c_0 (constantI S_ 32 10000#32),
    TRef.unary main_call2.c_0 main_call2.v2 (broadcastInDim S2x320000 ![] bcast_S_S2x320000),
    TRef.binary (.of main_v33) main_call2.v2 main_call2.v3 addi,
    TRef.ternary main_call2.v1 main_call2.v3 (.of main_v33) main_call2.call0.v0 select,
    TRef.unary main_call2.call0.v0 main_call2.v5 (broadcastInDim S2x320000x1 ![0, 1] bcast_S2x320000_S2x320000x1_0_1),
    TRef.nullary main_call2.c_1 (constantI S1 32 9999#32),
    TRef.nullary main_call2.c_2 (constantI S_ 32 0#32),
    TRef.unary main_call2.c_2 main_call2.v6 (broadcastInDim S2x320000x1 ![] bcast_S_S2x320000x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S2x320000x1 ![0, 1, 2] bcast_S1x1x1_S2x320000x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S2x320000x1_S2x320000_d2 h_S_),
    TRef.binary (.of main_v32) main_call2.v5 main_call2.v13 (fun x i => Host.gather gather_S2x10000x128_S2x320000x1_S2x320000x128_2_1_0_0_1_2_11128 x i),
    TRef.unary main_call2.v12 main_call2.v14 (broadcastInDim S2x320000x128 ![0, 1] bcast_S2x320000_S2x320000x128_0_1),
    TRef.nullary main_call2.cst (constant S_ .f32 0x7FC00000#32),
    TRef.unary main_call2.cst main_call2.v15 (broadcastInDim S2x320000x128 ![] bcast_S_S2x320000x128),
    TRef.ternary main_call2.v14 main_call2.v13 main_call2.v15 main_call2.v16 select,
    reshape main_v34 main_v35 rfl shapeCasts_S2x320000x128_S2x160000x256,
    unary main_v35 main_v36 (Host.absf : (⟨S2x160000x256, .f32⟩ : BufTy).Contents (Elt F) → (⟨S2x160000x256, .f32⟩ : BufTy).Contents (Elt F)),
    nullary main_cst_10 (constant S_ .f32 0x00000000#32),
    binary main_v36 main_cst_10 main_v37 ((fun x v => Host.reduceAdd x v reducesTo_S2x160000x256_S2x256_d1 h_S_) : (⟨S2x160000x256, .f32⟩ : BufTy).Contents (Elt F) → (⟨S_, .f32⟩ : BufTy).Contents (Elt F) → (⟨S2x256, .f32⟩ : BufTy).Contents (Elt F)),
    unary main_v37 main_v38 (broadcastInDim S2x1x256 ![0, 2] bcast_S2x256_S2x1x256_0_2 : (⟨S2x256, .f32⟩ : BufTy).Contents (Elt F) → (⟨S2x1x256, .f32⟩ : BufTy).Contents (Elt F)),
    nullary main_cst_11 (constant S_ .f32 0x2B8CBCCC#32),
    unary main_cst_11 main_v39 (broadcastInDim S2x1x256 ![] bcast_S_S2x1x256 : (⟨S_, .f32⟩ : BufTy).Contents (Elt F) → (⟨S2x1x256, .f32⟩ : BufTy).Contents (Elt F)),
    binary main_v38 main_v39 main_v40 (maximumf : (⟨S2x1x256, .f32⟩ : BufTy).Contents (Elt F) → (⟨S2x1x256, .f32⟩ : BufTy).Contents (Elt F) → (⟨S2x1x256, .f32⟩ : BufTy).Contents (Elt F)),
    unary main_v40 main_v41 (broadcastInDim S2x160000x256 ![0, 1, 2] bcast_S2x1x256_S2x160000x256_0_1_2 : (⟨S2x1x256, .f32⟩ : BufTy).Contents (Elt F) → (⟨S2x160000x256, .f32⟩ : BufTy).Contents (Elt F)),
    binary main_v35 main_v41 main_v42 (Host.divf : (⟨S2x160000x256, .f32⟩ : BufTy).Contents (Elt F) → (⟨S2x160000x256, .f32⟩ : BufTy).Contents (Elt F) → (⟨S2x160000x256, .f32⟩ : BufTy).Contents (Elt F)),
    binary main_v42 main_arg6 main_v43 ((fun l r => Host.dotGeneral dot_S2x160000x256_S256x16_S2x160000x16_2_0_01_1_n_n none l r) : (⟨S2x160000x256, .f32⟩ : BufTy).Contents (Elt F) → (⟨S256x16, .f32⟩ : BufTy).Contents (Elt F) → (⟨S2x160000x16, .f32⟩ : BufTy).Contents (Elt F)),
    unary main_arg9 main_v44 (broadcastInDim S1x1x16 ![2] bcast_S16_S1x1x16_2 : (⟨S16, .f32⟩ : BufTy).Contents (Elt F) → (⟨S1x1x16, .f32⟩ : BufTy).Contents (Elt F)),
    unary main_v44 main_v45 (broadcastInDim S2x160000x16 ![0, 1, 2] bcast_S1x1x16_S2x160000x16_0_1_2 : (⟨S1x1x16, .f32⟩ : BufTy).Contents (Elt F) → (⟨S2x160000x16, .f32⟩ : BufTy).Contents (Elt F)),
    binary main_v43 main_v45 main_v46 (addf : (⟨S2x160000x16, .f32⟩ : BufTy).Contents (Elt F) → (⟨S2x160000x16, .f32⟩ : BufTy).Contents (Elt F) → (⟨S2x160000x16, .f32⟩ : BufTy).Contents (Elt F)),
    unary main_v46 main_v47 (Host.tanh : (⟨S2x160000x16, .f32⟩ : BufTy).Contents (Elt F) → (⟨S2x160000x16, .f32⟩ : BufTy).Contents (Elt F)),
    reshape main_arg1 main_v48 rfl shapeCasts_S2x10000x16x16_S2x160000x16,
    binary main_v48 main_v47 main_v49 (addf : (⟨S2x160000x16, .f32⟩ : BufTy).Contents (Elt F) → (⟨S2x160000x16, .f32⟩ : BufTy).Contents (Elt F) → (⟨S2x160000x16, .f32⟩ : BufTy).Contents (Elt F)),
    binary main_v49 main_arg5 main_v50 ((fun l r => Host.dotGeneral dot_S2x160000x16_S16x16_S2x160000x16_2_0_01_1_n_n none l r) : (⟨S2x160000x16, .f32⟩ : BufTy).Contents (Elt F) → (⟨S16x16, .f32⟩ : BufTy).Contents (Elt F) → (⟨S2x160000x16, .f32⟩ : BufTy).Contents (Elt F)),
    reshape main_v50 main_v51 rfl shapeCasts_S2x160000x16_S2x10000x16x16,
    unary main_arg8 main_v52 (broadcastInDim S1x1x1x16 ![3] bcast_S16_S1x1x1x16_3 : (⟨S16, .f32⟩ : BufTy).Contents (Elt F) → (⟨S1x1x1x16, .f32⟩ : BufTy).Contents (Elt F)),
    unary main_v52 main_v53 (broadcastInDim S2x10000x16x16 ![0, 1, 2, 3] bcast_S1x1x1x16_S2x10000x16x16_0_1_2_3 : (⟨S1x1x1x16, .f32⟩ : BufTy).Contents (Elt F) → (⟨S2x10000x16x16, .f32⟩ : BufTy).Contents (Elt F)),
    binary main_v51 main_v53 main_v54 (addf : (⟨S2x10000x16x16, .f32⟩ : BufTy).Contents (Elt F) → (⟨S2x10000x16x16, .f32⟩ : BufTy).Contents (Elt F) → (⟨S2x10000x16x16, .f32⟩ : BufTy).Contents (Elt F)) ]

/-- The buffer each operation writes, in order. -/
abbrev resRefs : List (Ref sig .tc) :=
  [ main_cst, main_v0, main_v1, main_cst_0, main_v2, main_v3, main_call0_c, main_call0_v0,
    main_call0_v1, main_call0_c_0, main_call0_v2, main_call0_v3, main_call0_v4, main_call0_v5, main_call0_c_1, main_call0_c_2,
    main_call0_v6, main_call0_v7, main_call0_v8, main_call0_v9, main_call0_v10, main_call0_v11, main_call0_c_3, main_call0_v12,
    main_call0_v13, main_call0_v14, main_call0_cst, main_call0_v15, main_v4, main_cst_1, main_v5, main_v6,
    main_cst_2, main_v7, main_v8, main_cst_3, main_v9, main_v10, main_cst_4, main_v11,
    main_cst_5, main_v12, main_v13, main_cst_6, main_v14, main_v15, main_v16, main_cst_7,
    main_v17, main_v18, main_cst_8, main_v19, main_v20, main_v21, main_v22, main_v23,
    main_v24, main_v25, main_cst_9, main_v26, main_v27, main_v28, main_v29, main_v30,
    main_v31, main_call1_cst, main_call1_v0, main_v32, main_v33, main_call2_c, main_call2_v0, main_call2_v1,
    main_call2_c_0, main_call2_v2, main_call2_v3, main_call2_v4, main_call2_v5, main_call2_c_1, main_call2_c_2, main_call2_v6,
    main_call2_v7, main_call2_v8, main_call2_v9, main_call2_v10, main_call2_v11, main_call2_c_3, main_call2_v12, main_call2_v13,
    main_call2_v14, main_call2_cst, main_call2_v15, main_v34, main_v35, main_v36, main_cst_10, main_v37,
    main_v38, main_cst_11, main_v39, main_v40, main_v41, main_v42, main_v43, main_v44,
    main_v45, main_v46, main_v47, main_v48, main_v49, main_v50, main_v51, main_v52,
    main_v53, main_v54 ]

set_option maxRecDepth 8192 in
set_option maxHeartbeats 4000000 in
/-- @main is that straight line: its two windows and the functions' definitions unfolded at their calls, the
    records at their fields, both sides are one chain of operation steps once sequencing is reassociated
    (the left side's nested sequences flattened, the right side's recursion over the list unrolled): the two
    chains are then the same term. -/
theorem main_eq (c : Dev nD) : main (F := F) c = seq ops := by
  simp only [main, main_part0, main_part1, fn_take.body, fn_where.body, fn_relu.body, fn_take_0.body, fn_where_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., unary_bufs_sub .., binary_bufs_sub .., unary_bufs_sub .., nullary_bufs_sub ..,
    binary_bufs_sub .., unary_bufs_sub .., nullary_bufs_sub .., unary_bufs_sub .., binary_bufs_sub .., unary_bufs_sub ..,
    binary_bufs_sub .., unary_bufs_sub .., unary_bufs_sub .., binary_bufs_sub .., nullary_bufs_sub .., binary_bufs_sub ..,
    binary_bufs_sub .., binary_bufs_sub .., unary_bufs_sub .., unary_bufs_sub .., binary_bufs_sub .., nullary_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., reshape_bufs_sub .., unary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., unary_bufs_sub .., binary_bufs_sub .., unary_bufs_sub .., reshape_bufs_sub ..,
    binary_bufs_sub .., binary_bufs_sub .., reshape_bufs_sub .., unary_bufs_sub .., unary_bufs_sub .., binary_bufs_sub ..⟩

/-- From any memory with zero counters, for any float values: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Operation by operation the line writes exactly the buffers of `resRefs`: each builder writes its result buffer
    and nothing else. -/
theorem writes_are : Cert.LibStretch.WritesAre (ops (F := F)) resRefs := by
  unfold Cert.LibStretch.WritesAre
  repeat (first | exact List.Forall₂.nil | refine List.Forall₂.cons rfl ?_)

/-- None of the ten arguments is among the written buffers. -/
theorem arg_not_res : ∀ b ∈ [main_arg0, main_arg1, main_arg2, main_arg3, main_arg4, main_arg5, main_arg6, main_arg7, main_arg8, main_arg9], b ∉ resRefs := by decide

/-- An argument's buffer holds, after the line, what it held before it: no operation writes it. -/
theorem arg_kept (V : Valuation τ sig (Elt F)) (b : Ref sig .tc)
    (hb : b ∈ [main_arg0, main_arg1, main_arg2, main_arg3, main_arg4, main_arg5, main_arg6, main_arg7, main_arg8, main_arg9]) :
    after ops V (b : DevRef τ sig) = V (b : DevRef τ sig) :=
  after_of_forall_not_mem ops V (Cert.LibStretch.not_mem_writes writes_are (arg_not_res b hb))

end Cert.ReferenceIdeal.RefRun

end
-- ==== Proof.RefSpec.lean ====
/-
  The reference's two results as plain functions of the argument arrays, at the ideal values (a float an extended
  real): definitions only.

  Result 0 at (b, n, f) (`auAt`, as an array `refAU`): every feature is rooted (its square to the power one quarter);
  a node's sixteen bonds are weighted by their inverse squared lengths, normalised by the sum of the sixteen absolute
  values kept above eps; the neighbours' rooted features, read through the neighbour words, are summed under those
  weights; the node's own rooted features times that sum go through the 128 × 128 layer with its bias, and the result
  is kept above 0. Result 1 at (b, n, m, o) (`buAt`, as an array `refBU`): the two endpoint rows of result 0 of every
  bond, read through the endpoint words and laid side by side, are normalised column by column by the sum of the
  column's absolute values over all bonds kept above eps, go through the 256 × 16 layer with its bias and the
  hyperbolic tangent, are added to the bond's features, and go through the 16 × 16 layer with its bias.

  A word names the row it holds read unsigned, capped at the last row (so that the functions are total); the
  program's constants stay the extended reals their 32-bit words denote. The shapes are the program's.
-/
import proofs.«208461_g52518860095779_cont_9to1_m_1075_29_alg».proof.ReferenceIdeal
import Idealize.ShloMosaic.Lib.ValueIdx

noncomputable section

open scoped BigOperators

namespace Cert.ReferenceIdeal.RefValue

open Cert.ReferenceIdeal Idealize.ShloMosaic Idealize.ShloMosaic.ValueIdx

/-! ## The two results as functions of the arguments -/

/-- The constants of the program, as the extended reals their words denote. -/
abbrev cTwo : EReal := Ideal.ofBits .f32 0x40000000#32
abbrev cQuarter : EReal := Ideal.ofBits .f32 0x3E800000#32
abbrev cHalf : EReal := Ideal.ofBits .f32 0x3F000000#32
abbrev cNegTwo : EReal := Ideal.ofBits .f32 0xC0000000#32
abbrev cEps : EReal := Ideal.ofBits .f32 0x2B8CBCCC#32

/-- The signed fourth root the program takes of a feature: the square, then the power one quarter. -/
def root (x : EReal) : EReal := Ideal.pow (Ideal.pow x cTwo) cQuarter

/-- The row a neighbour word names: the word read unsigned, capped at the last row. -/
def nbr (adj : S2x10000x16.Idx → BitVec 32) (b : Fin 2) (n : Fin 10000) (m : Fin 16) : Fin 10000 :=
  ⟨min (adj (ix3 b n m)).toNat 9999, by omega⟩

/-- The inverse squared length of a bond's feature row: the sum of squares to the power one half, then to the power -2. -/
def bondInv (bond : S2x10000x16x16.Idx → EReal) (b : Fin 2) (n : Fin 10000) (m : Fin 16) : EReal :=
  Ideal.pow (Ideal.pow (∑ k : Fin 16, Ideal.pow (bond (ix4 b n m k)) cTwo) cHalf) cNegTwo

/-- A bond's weight: its inverse squared length over the sum of the sixteen absolute values, the sum kept above eps. -/
def bondW (bond : S2x10000x16x16.Idx → EReal) (b : Fin 2) (n : Fin 10000) (m : Fin 16) : EReal :=
  Ideal.div (bondInv bond b n m) (max (∑ m' : Fin 16, max (bondInv bond b n m') (-(bondInv bond b n m'))) cEps)

/-- The weighted sum of the neighbours' rooted features. -/
def anw (atom : S2x10000x128.Idx → EReal) (bond : S2x10000x16x16.Idx → EReal) (adj : S2x10000x16.Idx → BitVec 32)
    (b : Fin 2) (n : Fin 10000) (f : Fin 128) : EReal :=
  ∑ m : Fin 16, bondW bond b n m * root (atom (ix3 b (nbr adj b n m) f))

/-- Result 0 at (b, n, f): the rooted feature times the neighbours' weighted sum, through the 128 × 128 layer with its
    bias, kept above 0. -/
def auAt (atom : S2x10000x128.Idx → EReal) (bond : S2x10000x16x16.Idx → EReal) (adj : S2x10000x16.Idx → BitVec 32)
    (wn : S128x128.Idx → EReal) (bn : S128.Idx → EReal) (b : Fin 2) (n : Fin 10000) (f : Fin 128) : EReal :=
  max ((∑ k : Fin 128, (root (atom (ix3 b n k)) * anw atom bond adj b n k) * wn (ix2 k f)) + bn (ix1 f)) 0

/-- Result 0 as an array. -/
def refAU (atom : S2x10000x128.Idx → EReal) (bond : S2x10000x16x16.Idx → EReal) (adj : S2x10000x16.Idx → BitVec 32)
    (wn : S128x128.Idx → EReal) (bn : S128.Idx → EReal) : S2x10000x128.Idx → EReal := fun j =>
  auAt atom bond adj wn bn (j 0) (j 1) (j 2)

/-- The row an endpoint word names: bond `e`'s endpoint `p`, the word read unsigned, capped at the last row. -/
def endRow (tup : S2x160000x2.Idx → BitVec 32) (b : Fin 2) (e : Fin 160000) (p : Fin 2) : Fin 10000 :=
  ⟨min (tup (ix3 b e p)).toNat 9999, by omega⟩

/-- The two endpoints' rows of `au` side by side: column `c < 128` is endpoint 0's feature `c`, column `128 + c` endpoint 1's. -/
def endFeat (au : S2x10000x128.Idx → EReal) (tup : S2x160000x2.Idx → BitVec 32) (b : Fin 2) (e : Fin 160000) (c : Fin 256) : EReal :=
  au (ix3 b (endRow tup b e ⟨c.val / 128, by omega⟩) ⟨c.val % 128, by omega⟩)

/-- Those columns, each divided by the sum of its absolute values over all bonds, the sum kept above eps. -/
def endN (au : S2x10000x128.Idx → EReal) (tup : S2x160000x2.Idx → BitVec 32) (b : Fin 2) (e : Fin 160000) (c : Fin 256) : EReal :=
  Ideal.div (endFeat au tup b e c)
    (max (∑ e' : Fin 160000, max (endFeat au tup b e' c) (-(endFeat au tup b e' c))) cEps)

/-- The bond update: the hyperbolic tangent of the 256 × 16 layer of the normalised endpoint columns, added to the bond's features. -/
def bondNew (au : S2x10000x128.Idx → EReal) (bond : S2x10000x16x16.Idx → EReal) (tup : S2x160000x2.Idx → BitVec 32)
    (we : S256x16.Idx → EReal) (be : S16.Idx → EReal) (b : Fin 2) (e : Fin 160000) (k : Fin 16) : EReal :=
  bond (ix4 b ⟨e.val / 16, by omega⟩ ⟨e.val % 16, by omega⟩ k)
    + Ideal.tanh ((∑ c : Fin 256, endN au tup b e c * we (ix2 c k)) + be (ix1 k))

/-- Result 1 at (b, n, m, o): the updated features of bond 16 n + m through the 16 × 16 layer with its bias. -/
def buAt (au : S2x10000x128.Idx → EReal) (bond : S2x10000x16x16.Idx → EReal) (tup : S2x160000x2.Idx → BitVec 32)
    (wb : S16x16.Idx → EReal) (we : S256x16.Idx → EReal) (bb : S16.Idx → EReal) (be : S16.Idx → EReal)
    (b : Fin 2) (n : Fin 10000) (m : Fin 16) (o : Fin 16) : EReal :=
  (∑ k : Fin 16, bondNew au bond tup we be b ⟨16 * n.val + m.val, by omega⟩ k * wb (ix2 k o)) + bb (ix1 o)

/-- Result 1 as an array. -/
def refBU (atom : S2x10000x128.Idx → EReal) (bond : S2x10000x16x16.Idx → EReal) (adj : S2x10000x16.Idx → BitVec 32)
    (tup : S2x160000x2.Idx → BitVec 32) (wn : S128x128.Idx → EReal) (wb : S16x16.Idx → EReal) (we : S256x16.Idx → EReal)
    (bn : S128.Idx → EReal) (bb : S16.Idx → EReal) (be : S16.Idx → EReal) : S2x10000x16x16.Idx → EReal := fun j =>
  buAt (refAU atom bond adj wn bn) bond tup wb we bb be (j 0) (j 1) (j 2) (j 3)

end Cert.ReferenceIdeal.RefValue

end
-- ==== Proof.LibBatchGather.lean ====
/-
  A row gather along one axis under a leading batch axis, read at an index.

  What a take of rows lowers to when the table and the index array share a leading batch axis: the operand
  [B, N, F] is read at start indices [B, R, M, 1] (or [B, R, 1]), the batch axis 0 of both paired, the operand's
  row axis 1 collapsed and indexed by the one component of the start index, the feature axis 2 the result's offset
  axis. The result element (b, r, m, f) is the operand at (b, row, f), where row is the start index at (b, r, m, 0)
  read as a signed integer and clamped into [0, N - 1], as the gather clamps every start index.
-/
import Idealize.ShloMosaic.Lib.ValueIdx

noncomputable section

namespace Cert.LibBatchGather

open Idealize.ShloMosaic Idealize.ShloMosaic.ValueIdx

variable {α : Type}

/-- The dimension numbers for an operand [B, N, F], start indices [B, R, M, 1] and a result [B, R, M, F]. -/
abbrev rowsDims4 (B N F R M : Nat)
    (wf : GatherDims.WF ⟨3, ![B, N, F]⟩ ⟨4, ![B, R, M, 1]⟩ ⟨4, ![B, R, M, F]⟩ [3] [1] [0] [1] [0] 3 ![1, 1, F]) :
    GatherDims ⟨3, ![B, N, F]⟩ ⟨4, ![B, R, M, 1]⟩ ⟨4, ![B, R, M, F]⟩ where
  offsetDims := [3]
  collapsedSliceDims := [1]
  operandBatchingDims := [0]
  startIndicesBatchingDims := [0]
  startIndexMap := [1]
  indexVectorDim := 3
  sliceSizes := ![1, 1, F]
  wf := wf

/-- The gather read at (b, r, m, f): the operand at (b, row, f), the row the start index at (b, r, m, 0) read signed
    and clamped into [0, N - 1]. -/
theorem gather_rows4_apply {B N F R M w : Nat} (hN : 0 < N)
    (wf : GatherDims.WF ⟨3, ![B, N, F]⟩ ⟨4, ![B, R, M, 1]⟩ ⟨4, ![B, R, M, F]⟩ [3] [1] [0] [1] [0] 3 ![1, 1, F])
    (x : (⟨3, ![B, N, F]⟩ : Shape).Idx → α) (idx : IVec ⟨4, ![B, R, M, 1]⟩ w)
    (b : Fin B) (r : Fin R) (m : Fin M) (f : Fin F) :
    Host.gather (rowsDims4 B N F R M wf) x idx (ix4 b r m f)
      = x (ix3 b ⟨min (idx (ix4 b r m ⟨0, Nat.one_pos⟩)).toInt.toNat (N - 1), by omega⟩ f) := by
  unfold Host.gather
  congr 1
  have h0 : (rowsDims4 B N F R M wf).start (ix4 b r m f) idx (⟨0, by decide⟩ : Fin 3) + (rowsDims4 B N F R M wf).batchCoord (ix4 b r m f) (⟨0, by decide⟩ : Fin 3)
      + (rowsDims4 B N F R M wf).offCoord (ix4 b r m f) (⟨0, by decide⟩ : Fin 3) = b.val := by
    rw [GatherDims.start_batching _ _ _ _ (show (⟨0, by decide⟩ : Fin 3) ∈ (rowsDims4 B N F R M wf).operandBatchingDims from List.mem_singleton.mpr rfl),
      GatherDims.offCoord_eq_zero _ _ _ (fun h => ((GatherDims.mem_sKept _ _).mp h).2
        (show (⟨0, by decide⟩ : Fin 3) ∈ (rowsDims4 B N F R M wf).operandBatchingDims from List.mem_singleton.mpr rfl))]
    unfold GatherDims.batchCoord
    rw [dif_pos (show (⟨0, by decide⟩ : Fin 3) ∈ (rowsDims4 B N F R M wf).operandBatchingDims from List.mem_singleton.mpr rfl)]
    simp only [Nat.zero_add, Nat.add_zero]
    rfl
  have h1 : (rowsDims4 B N F R M wf).start (ix4 b r m f) idx (⟨1, by decide⟩ : Fin 3) + (rowsDims4 B N F R M wf).batchCoord (ix4 b r m f) (⟨1, by decide⟩ : Fin 3)
      + (rowsDims4 B N F R M wf).offCoord (ix4 b r m f) (⟨1, by decide⟩ : Fin 3) = min (idx (ix4 b r m ⟨0, Nat.one_pos⟩)).toInt.toNat (N - 1) := by
    rw [GatherDims.batchCoord_eq_zero _ _ _ (show (⟨1, by decide⟩ : Fin 3) ∉ (rowsDims4 B N F R M wf).operandBatchingDims from fun h => absurd (congrArg Fin.val (List.mem_singleton.mp h)) (show (1 : Nat) ≠ 0 by decide)),
      GatherDims.offCoord_eq_zero _ _ _ (fun h => ((GatherDims.mem_sKept _ _).mp h).1
        (show (⟨1, by decide⟩ : Fin 3) ∈ (rowsDims4 B N F R M wf).collapsedSliceDims from List.mem_singleton.mpr rfl))]
    unfold GatherDims.start
    rw [dif_pos (show (⟨1, by decide⟩ : Fin 3) ∈ (rowsDims4 B N F R M wf).startIndexMap from List.mem_singleton.mpr rfl)]
    have hsi : (rowsDims4 B N F R M wf).siIdx (ix4 b r m f) ⟨List.idxOf (⟨1, by decide⟩ : Fin 3) (rowsDims4 B N F R M wf).startIndexMap,
        List.idxOf_lt_length_iff.2 (show (⟨1, by decide⟩ : Fin 3) ∈ (rowsDims4 B N F R M wf).startIndexMap from List.mem_singleton.mpr rfl)⟩ = ix4 b r m ⟨0, Nat.one_pos⟩ := by
      funext c; refine Fin.ext ?_
      match c with
      | ⟨0, _⟩ => rfl
      | ⟨1, _⟩ => rfl
      | ⟨2, _⟩ => rfl
      | ⟨3, _⟩ => rfl
    rw [hsi]
    rfl
  have h2 : (rowsDims4 B N F R M wf).start (ix4 b r m f) idx (⟨2, by decide⟩ : Fin 3) + (rowsDims4 B N F R M wf).batchCoord (ix4 b r m f) (⟨2, by decide⟩ : Fin 3)
      + (rowsDims4 B N F R M wf).offCoord (ix4 b r m f) (⟨2, by decide⟩ : Fin 3) = f.val := by
    rw [GatherDims.batchCoord_eq_zero _ _ _ (show (⟨2, by decide⟩ : Fin 3) ∉ (rowsDims4 B N F R M wf).operandBatchingDims from fun h => absurd (congrArg Fin.val (List.mem_singleton.mp h)) (show (2 : Nat) ≠ 0 by decide))]
    unfold GatherDims.start
    rw [dif_neg (show (⟨2, by decide⟩ : Fin 3) ∉ (rowsDims4 B N F R M wf).startIndexMap from fun h => absurd (congrArg Fin.val (List.mem_singleton.mp h)) (show (2 : Nat) ≠ 1 by decide))]
    unfold GatherDims.offCoord
    rw [dif_pos ((GatherDims.mem_sKept _ _).mpr ⟨show (⟨2, by decide⟩ : Fin 3) ∉ (rowsDims4 B N F R M wf).collapsedSliceDims from fun h => absurd (congrArg Fin.val (List.mem_singleton.mp h)) (show (2 : Nat) ≠ 1 by decide),
      show (⟨2, by decide⟩ : Fin 3) ∉ (rowsDims4 B N F R M wf).operandBatchingDims from fun h => absurd (congrArg Fin.val (List.mem_singleton.mp h)) (show (2 : Nat) ≠ 0 by decide)⟩)]
    simp only [Nat.zero_add, Nat.add_zero]
    rfl
  funext a
  refine Fin.ext ?_
  match a with
  | ⟨0, _⟩ => exact h0
  | ⟨1, _⟩ => exact h1
  | ⟨2, _⟩ => exact h2

/-- The dimension numbers for an operand [B, N, F], start indices [B, R, 1] and a result [B, R, F]. -/
abbrev rowsDims3 (B N F R : Nat)
    (wf : GatherDims.WF ⟨3, ![B, N, F]⟩ ⟨3, ![B, R, 1]⟩ ⟨3, ![B, R, F]⟩ [2] [1] [0] [1] [0] 2 ![1, 1, F]) :
    GatherDims ⟨3, ![B, N, F]⟩ ⟨3, ![B, R, 1]⟩ ⟨3, ![B, R, F]⟩ where
  offsetDims := [2]
  collapsedSliceDims := [1]
  operandBatchingDims := [0]
  startIndicesBatchingDims := [0]
  startIndexMap := [1]
  indexVectorDim := 2
  sliceSizes := ![1, 1, F]
  wf := wf

/-- The gather read at (b, r, f): the operand at (b, row, f), the row the start index at (b, r, 0) read signed and
    clamped into [0, N - 1]. -/
theorem gather_rows3_apply {B N F R w : Nat} (hN : 0 < N)
    (wf : GatherDims.WF ⟨3, ![B, N, F]⟩ ⟨3, ![B, R, 1]⟩ ⟨3, ![B, R, F]⟩ [2] [1] [0] [1] [0] 2 ![1, 1, F])
    (x : (⟨3, ![B, N, F]⟩ : Shape).Idx → α) (idx : IVec ⟨3, ![B, R, 1]⟩ w)
    (b : Fin B) (r : Fin R) (f : Fin F) :
    Host.gather (rowsDims3 B N F R wf) x idx (ix3 b r f)
      = x (ix3 b ⟨min (idx (ix3 b r ⟨0, Nat.one_pos⟩)).toInt.toNat (N - 1), by omega⟩ f) := by
  unfold Host.gather
  congr 1
  have h0 : (rowsDims3 B N F R wf).start (ix3 b r f) idx (⟨0, by decide⟩ : Fin 3) + (rowsDims3 B N F R wf).batchCoord (ix3 b r f) (⟨0, by decide⟩ : Fin 3)
      + (rowsDims3 B N F R wf).offCoord (ix3 b r f) (⟨0, by decide⟩ : Fin 3) = b.val := by
    rw [GatherDims.start_batching _ _ _ _ (show (⟨0, by decide⟩ : Fin 3) ∈ (rowsDims3 B N F R wf).operandBatchingDims from List.mem_singleton.mpr rfl),
      GatherDims.offCoord_eq_zero _ _ _ (fun h => ((GatherDims.mem_sKept _ _).mp h).2
        (show (⟨0, by decide⟩ : Fin 3) ∈ (rowsDims3 B N F R wf).operandBatchingDims from List.mem_singleton.mpr rfl))]
    unfold GatherDims.batchCoord
    rw [dif_pos (show (⟨0, by decide⟩ : Fin 3) ∈ (rowsDims3 B N F R wf).operandBatchingDims from List.mem_singleton.mpr rfl)]
    simp only [Nat.zero_add, Nat.add_zero]
    rfl
  have h1 : (rowsDims3 B N F R wf).start (ix3 b r f) idx (⟨1, by decide⟩ : Fin 3) + (rowsDims3 B N F R wf).batchCoord (ix3 b r f) (⟨1, by decide⟩ : Fin 3)
      + (rowsDims3 B N F R wf).offCoord (ix3 b r f) (⟨1, by decide⟩ : Fin 3) = min (idx (ix3 b r ⟨0, Nat.one_pos⟩)).toInt.toNat (N - 1) := by
    rw [GatherDims.batchCoord_eq_zero _ _ _ (show (⟨1, by decide⟩ : Fin 3) ∉ (rowsDims3 B N F R wf).operandBatchingDims from fun h => absurd (congrArg Fin.val (List.mem_singleton.mp h)) (show (1 : Nat) ≠ 0 by decide)),
      GatherDims.offCoord_eq_zero _ _ _ (fun h => ((GatherDims.mem_sKept _ _).mp h).1
        (show (⟨1, by decide⟩ : Fin 3) ∈ (rowsDims3 B N F R wf).collapsedSliceDims from List.mem_singleton.mpr rfl))]
    unfold GatherDims.start
    rw [dif_pos (show (⟨1, by decide⟩ : Fin 3) ∈ (rowsDims3 B N F R wf).startIndexMap from List.mem_singleton.mpr rfl)]
    have hsi : (rowsDims3 B N F R wf).siIdx (ix3 b r f) ⟨List.idxOf (⟨1, by decide⟩ : Fin 3) (rowsDims3 B N F R wf).startIndexMap,
        List.idxOf_lt_length_iff.2 (show (⟨1, by decide⟩ : Fin 3) ∈ (rowsDims3 B N F R wf).startIndexMap from List.mem_singleton.mpr rfl)⟩ = ix3 b r ⟨0, Nat.one_pos⟩ := by
      funext c; refine Fin.ext ?_
      match c with
      | ⟨0, _⟩ => rfl
      | ⟨1, _⟩ => rfl
      | ⟨2, _⟩ => rfl
    rw [hsi]
    rfl
  have h2 : (rowsDims3 B N F R wf).start (ix3 b r f) idx (⟨2, by decide⟩ : Fin 3) + (rowsDims3 B N F R wf).batchCoord (ix3 b r f) (⟨2, by decide⟩ : Fin 3)
      + (rowsDims3 B N F R wf).offCoord (ix3 b r f) (⟨2, by decide⟩ : Fin 3) = f.val := by
    rw [GatherDims.batchCoord_eq_zero _ _ _ (show (⟨2, by decide⟩ : Fin 3) ∉ (rowsDims3 B N F R wf).operandBatchingDims from fun h => absurd (congrArg Fin.val (List.mem_singleton.mp h)) (show (2 : Nat) ≠ 0 by decide))]
    unfold GatherDims.start
    rw [dif_neg (show (⟨2, by decide⟩ : Fin 3) ∉ (rowsDims3 B N F R wf).startIndexMap from fun h => absurd (congrArg Fin.val (List.mem_singleton.mp h)) (show (2 : Nat) ≠ 1 by decide))]
    unfold GatherDims.offCoord
    rw [dif_pos ((GatherDims.mem_sKept _ _).mpr ⟨show (⟨2, by decide⟩ : Fin 3) ∉ (rowsDims3 B N F R wf).collapsedSliceDims from fun h => absurd (congrArg Fin.val (List.mem_singleton.mp h)) (show (2 : Nat) ≠ 1 by decide),
      show (⟨2, by decide⟩ : Fin 3) ∉ (rowsDims3 B N F R wf).operandBatchingDims from fun h => absurd (congrArg Fin.val (List.mem_singleton.mp h)) (show (2 : Nat) ≠ 0 by decide)⟩)]
    simp only [Nat.zero_add, Nat.add_zero]
    rfl
  funext a
  refine Fin.ext ?_
  match a with
  | ⟨0, _⟩ => exact h0
  | ⟨1, _⟩ => exact h1
  | ⟨2, _⟩ => exact h2

end Cert.LibBatchGather

end
-- ==== Proof.RefValue.lean ====
/-
  The reference's two results, each read at an index as a function of the ten argument arrays, at the ideal values
  (a float an extended real).

  Result 0 (buffer main_v32) at (b, n, f): every feature is rooted (its square to the power one quarter); a node's
  sixteen bonds are weighted by their inverse squared lengths, normalised by the sum of the sixteen absolute values
  kept above eps; the neighbours' rooted features, gathered through the neighbour words, are summed under those
  weights; the node's own rooted features times that sum go through the 128 × 128 layer with its bias, and the
  result is kept above 0 (`auAt`, `refAU`). Result 1 (buffer main_v54) at (b, n, m, o): the two endpoint rows of
  result 0 of every bond, gathered through the endpoint words and laid side by side, are normalised column by column
  by the sum of the column's absolute values over all bonds kept above eps, go through the 256 × 16 layer with its
  bias and the hyperbolic tangent, are added to the bond's features, and go through the 16 × 16 layer with its bias
  (`buAt`, `refBU`).

  Both gathers are row takes with the out-of-range fill: a word is wrapped if negative, the row is read at the word
  clamped into range, and a row whose word is out of range is replaced by a fill value. For words in [0, 9999] the
  wrap is the identity, the in-range mask is all ones and the row read is the word's: the two results are stated
  under that range of the neighbour and endpoint words.

  The line of 114 operations is read one operation at a time: each buffer is written once, so its contents after the
  line are its operation's function of the operands' contents after the line (section "The line, operation by
  operation"); then each named intermediate is read at an index (sections "Result 0" and "Result 1").
-/
import proofs.«208461_g52518860095779_cont_9to1_m_1075_29_alg».proof.Proof.RefRun
import proofs.«208461_g52518860095779_cont_9to1_m_1075_29_alg».proof.Proof.RefSpec
import proofs.«208461_g52518860095779_cont_9to1_m_1075_29_alg».proof.Proof.LibBatchGather
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-! ## One operation of a line read at its result

Every operation of the line writes one buffer of its own, once. So the contents of a result buffer after the whole
line are the operation's function of its operands' contents after the whole line: the result is not written after its
operation, and no operand is written from its position on. -/

section Read

variable {τ' : Topo} {sig' : RefSig} {Val : EltTy → Type}

open Cert.LibStretch

/-- The first k + 1 operations leave what operation k makes of what the first k left. -/
theorem after_take_succ {l : List (HloOp τ' sig' Val)} {k : Nat} {op : HloOp τ' sig' Val} (hk : l[k]? = some op)
    (W : Valuation τ' sig' Val) : after (l.take (k + 1)) W = op.result (after (l.take k) W) := by
  rw [List.take_succ, hk, after_cat, Option.toList_some, after_cons, after_nil]

theorem read_nullary {l : List (HloOp τ' sig' Val)} {ys : List (Ref sig' .tc)} (h : WritesAre l ys) (k : Nat)
    {y : Ref sig' .tc} {v : y.ty.Contents Val} {hy}
    (hk : l[k]? = some (nullary (τ := τ') y v hy)) (hy' : y ∉ ys.drop (k + 1)) (W : Valuation τ' sig' Val) :
    after l W (Proc.devRef .tc y) = v := by
  rw [after_eq_take h (k + 1) W y hy', after_take_succ hk, nullary_result]

theorem read_unary {l : List (HloOp τ' sig' Val)} {ys : List (Ref sig' .tc)} (h : WritesAre l ys) (k : Nat)
    {x y : Ref sig' .tc} {f : x.ty.Contents Val → y.ty.Contents Val} {hx hy}
    (hk : l[k]? = some (unary (τ := τ') x y f hx hy)) (hy' : y ∉ ys.drop (k + 1)) (hx' : x ∉ ys.drop k)
    (W : Valuation τ' sig' Val) :
    after l W (Proc.devRef .tc y) = f (after l W (Proc.devRef .tc x)) := by
  rw [after_eq_take h (k + 1) W y hy', after_take_succ hk, unary_result, ← after_eq_take h k W x hx']

theorem read_binary {l : List (HloOp τ' sig' Val)} {ys : List (Ref sig' .tc)} (h : WritesAre l ys) (k : Nat)
    {a b y : Ref sig' .tc} {f : a.ty.Contents Val → b.ty.Contents Val → y.ty.Contents Val} {ha hb hy}
    (hk : l[k]? = some (binary (τ := τ') a b y f ha hb hy)) (hy' : y ∉ ys.drop (k + 1)) (ha' : a ∉ ys.drop k)
    (hb' : b ∉ ys.drop k) (W : Valuation τ' sig' Val) :
    after l W (Proc.devRef .tc y) = f (after l W (Proc.devRef .tc a)) (after l W (Proc.devRef .tc b)) := by
  rw [after_eq_take h (k + 1) W y hy', after_take_succ hk, binary_result, ← after_eq_take h k W a ha',
    ← after_eq_take h k W b hb']

theorem read_ternary {l : List (HloOp τ' sig' Val)} {ys : List (Ref sig' .tc)} (h : WritesAre l ys) (k : Nat)
    {c a b y : Ref sig' .tc} {f : c.ty.Contents Val → a.ty.Contents Val → b.ty.Contents Val → y.ty.Contents Val} {hc ha hb hy}
    (hk : l[k]? = some (ternary (τ := τ') c a b y f hc ha hb hy)) (hy' : y ∉ ys.drop (k + 1)) (hc' : c ∉ ys.drop k)
    (ha' : a ∉ ys.drop k) (hb' : b ∉ ys.drop k) (W : Valuation τ' sig' Val) :
    after l W (Proc.devRef .tc y)
      = f (after l W (Proc.devRef .tc c)) (after l W (Proc.devRef .tc a)) (after l W (Proc.devRef .tc b)) := by
  rw [after_eq_take h (k + 1) W y hy', after_take_succ hk, ternary_result, ← after_eq_take h k W c hc',
    ← after_eq_take h k W a ha', ← after_eq_take h k W b hb']

theorem read_reshape {l : List (HloOp τ' sig' Val)} {ys : List (Ref sig' .tc)} (h : WritesAre l ys) (k : Nat)
    {x y : Ref sig' .tc} {he hn hx hy}
    (hk : l[k]? = some (reshape (τ := τ') (Val := Val) x y he hn hx hy)) (hy' : y ∉ ys.drop (k + 1)) (hx' : x ∉ ys.drop k)
    (W : Valuation τ' sig' Val) :
    after l W (Proc.devRef .tc y) = fun i => he ▸ shapeCast y.ty.shape (after l W (Proc.devRef .tc x)) hn i := by
  rw [after_eq_take h (k + 1) W y hy', after_take_succ hk, reshape_result, ← after_eq_take h k W x hx']

end Read

/-! ## Words in range, and a mask that is all ones -/

section Words

open Idealize.ShloMosaic.StableHlo.Predicate

/-- A word at most 9999 is not below zero as a signed integer … -/
theorem slt_zero_of_le {a : BitVec 32} (h : a.toNat ≤ 9999) : IntOp.cmpi .slt a 0#32 = 0#1 :=
  eq_zero_of_ne_one fun h1 => by
    have := (slt_iff_toNat (a := a) (b := 0#32) (by omega) (by decide)).mp h1
    simp at this
/-- … it is at least zero … -/
theorem sge_zero_of_le {a : BitVec 32} (h : a.toNat ≤ 9999) : IntOp.cmpi .sge a 0#32 = 1#1 :=
  (sge_iff_toNat (a := a) (b := 0#32) (by omega) (by decide)).mpr (by simp)
/-- … and at most 9999. -/
theorem sle_last_of_le {a : BitVec 32} (h : a.toNat ≤ 9999) : IntOp.cmpi .sle a 9999#32 = 1#1 :=
  (sle_iff_toNat (a := a) (b := 9999#32) (by omega) (by decide)).mpr (by simpa using h)
/-- Read signed, it is its unsigned value. -/
theorem toInt_toNat_of_le {a : BitVec 32} (h : a.toNat ≤ 9999) : a.toInt.toNat = a.toNat := by
  rw [toInt_eq_toNat_of_lt (by omega)]; rfl

/-- A conjunction over one axis of a mask that is one everywhere, from the initial value one, is one. -/
theorem reduce_andi_all_one {s t u : Shape} {axes : List (Fin s.rank)} (x : IVec s 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter (fun n => h.drop (s.rowMajor.symm n) = j) = l
  induction l with
  | nil => rfl
  | cons a l ih => rw [List.foldl_cons, hx]; exact ih

end Words

/-! ## A host sum and a host contraction read at an index -/

section Helpers

/-- A host sum over one axis from the initial value zero, at a reduced index: the sum over that axis's coordinates. -/
theorem reduceAdd_at {s t u : Shape} {a : Fin s.rank} (x : FVec Ideal s .f32) (init : u.Idx → EReal)
    (h' : s.ReducesTo [a] t) (hu : 0 < u.numel) (h : s.Reduces [a] t) (hi : init (Shape.Idx.first hu) = 0) (j : t.Idx) :
    Host.reduceAdd (F := Ideal) (φ := .f32) x init h' hu j = ∑ k : Fin (s.size a), x (h.lift j k) := by
  rw [Host.reduceAdd, Ideal.hostReduceAdd_def, Ideal.hostReduceAdd_single h' h, hi, zero_add]

theorem red_bond : S2x10000x16x16.Reduces [3] S2x10000x16 := by decide
theorem red_inv : S2x10000x16.Reduces [2] S2x10000 := by decide
theorem red_nb : S2x10000x16x128.Reduces [2] S2x10000x128 := by decide
theorem red_col : S2x160000x256.Reduces [1] S2x256 := by decide

theorem lift_bond (b : Fin 2) (n : Fin 10000) (m : Fin 16) (k : Fin 16) : red_bond.lift (ix3 b n m) k = ix4 b n m k := by
  funext c; refine Fin.ext ?_
  match c with
  | ⟨0, _⟩ => rfl
  | ⟨1, _⟩ => rfl
  | ⟨2, _⟩ => rfl
  | ⟨3, _⟩ => rfl
theorem lift_inv (b : Fin 2) (n : Fin 10000) (m : Fin 16) : red_inv.lift (ix2 b n) m = ix3 b n m := by
  funext c; refine Fin.ext ?_
  match c with
  | ⟨0, _⟩ => rfl
  | ⟨1, _⟩ => rfl
  | ⟨2, _⟩ => rfl
theorem lift_nb (b : Fin 2) (n : Fin 10000) (f : Fin 128) (m : Fin 16) : red_nb.lift (ix3 b n f) m = ix4 b n m f := by
  funext c; refine Fin.ext ?_
  match c with
  | ⟨0, _⟩ => rfl
  | ⟨1, _⟩ => rfl
  | ⟨2, _⟩ => rfl
  | ⟨3, _⟩ => rfl
theorem lift_col (b : Fin 2) (c : Fin 256) (e : Fin 160000) : red_col.lift (ix2 b c) e = ix3 b e c := by
  funext d; refine Fin.ext ?_
  match d with
  | ⟨0, _⟩ => rfl
  | ⟨1, _⟩ => rfl
  | ⟨2, _⟩ => rfl

/-- The dimension numbers of a layer applied to rows: [B, N, K] by [K, F], the last axis against the first. -/
abbrev rowsDot (B N K F : Nat)
    (wf : DotDims.WF ⟨3, ![B, N, K]⟩ ⟨2, ![K, F]⟩ ⟨3, ![B, N, F]⟩ [2] [0] [0, 1] [1] [] []) :
    DotDims ⟨3, ![B, N, K]⟩ ⟨2, ![K, F]⟩ ⟨3, ![B, N, F]⟩ where
  lhsContracting := [2]
  rhsContracting := [0]
  lhsNonContracting := [0, 1]
  rhsNonContracting := [1]
  lhsBatch := []
  rhsBatch := []
  wf := wf

/-- That contraction at (b, n, f): the sum over k of row (b, n)'s entry k times the layer's entry (k, f). -/
theorem rowsDot_at {B N K F : Nat}
    (wf : DotDims.WF ⟨3, ![B, N, K]⟩ ⟨2, ![K, F]⟩ ⟨3, ![B, N, F]⟩ [2] [0] [0, 1] [1] [] [])
    (prec : Option ContractPrecision) (sched : HostSchedule)
    (l : FVec Ideal ⟨3, ![B, N, K]⟩ .f32) (r : FVec Ideal ⟨2, ![K, F]⟩ .f32) (b : Fin B) (n : Fin N) (f : Fin F) :
    FloatOps.dotGeneral (rowsDot B N K F wf) prec sched l r (ix3 b n f) = ∑ k : Fin K, l (ix3 b n k) * r (ix2 k f) := by
  rw [Ideal.dotGeneral_apply, ← Equiv.sum_comp (contrEquiv1 (rowsDot B N K F wf) K rfl rfl).symm]
  refine Finset.sum_congr rfl fun k _ => ?_
  have hl : (rowsDot B N K F wf).lhsIdx (ix3 b n f) ((contrEquiv1 (rowsDot B N K F wf) K rfl rfl).symm k) = ix3 b n k := by
    funext a; refine Fin.ext ?_
    match a with
    | ⟨0, _⟩ => rfl
    | ⟨1, _⟩ => rfl
    | ⟨2, _⟩ =>
      exact ((rowsDot B N K F wf).lhsIdx_val_of_single (cl := (⟨2, by decide⟩ : Fin 3)) rfl _ _).trans
        (contrEquiv1_symm_val (rowsDot B N K F wf) K rfl rfl k)
  have hr : (rowsDot B N K F wf).rhsIdx (ix3 b n f) ((contrEquiv1 (rowsDot B N K F wf) K rfl rfl).symm k) = ix2 k f := by
    funext a; refine Fin.ext ?_
    match a with
    | ⟨0, _⟩ =>
      exact ((rowsDot B N K F wf).rhsIdx_val_of_single (cr := (⟨0, by decide⟩ : Fin 2)) rfl _ _).trans
        (contrEquiv1_symm_val (rowsDot B N K F wf) K rfl rfl k)
    | ⟨1, _⟩ => rfl
  rw [hl, hr]

end Helpers

/-! ## The elementwise host operations, a splat and a typed broadcast read at an index (all by computation) -/

section Pointwise
variable {s t : Shape} {w : Nat}
theorem powf_at (x y : FVec Ideal s .f32) (i : s.Idx) : Host.powf x y i = Ideal.pow (x i) (y i) := rfl
theorem hdivf_at (x y : FVec Ideal s .f32) (i : s.Idx) : Host.divf x y i = Ideal.div (x i) (y i) := rfl
theorem habsf_at (x : FVec Ideal s .f32) (i : s.Idx) : Host.absf x i = max (x i) (-(x i)) := rfl
theorem htanh_at (x : FVec Ideal s .f32) (i : s.Idx) : Host.tanh x i = Ideal.tanh (x i) := rfl
theorem cmpi_at (p : CmpIPredicate) (x y : IVec s w) (i : s.Idx) : cmpi p x y i = IntOp.cmpi p (x i) (y i) := rfl
theorem andi_at (x y : IVec s w) (i : s.Idx) : andi x y i = IntOp.andi (x i) (y i) := rfl
theorem splat_at (h : S_.BroadcastsInDim t ![]) (b : BitVec 32) (j : t.Idx) :
    broadcastInDim t ![] h (constant (F := Ideal) S_ .f32 b) j = Ideal.ofBits .f32 b := rfl
theorem splatI_at (h : S_.BroadcastsInDim t ![]) (b : BitVec w) (j : t.Idx) :
    broadcastInDim t ![] h (constantI S_ w b) j = b := rfl
end Pointwise

/-! ## The line, operation by operation

From here on the fold over the line is never opened, nor is a reduction, a gather or a contraction over a whole array:
every buffer's contents after the line are read through the equation of the one operation that writes it, and each
such operation through its lemma at an index. -/

attribute [local irreducible] Idealize.ShloMosaic.StableHlo.after Host.reduce Host.gather Host.reduceAdd Ideal.matmul
  Ideal.hostReduceAdd

section Line

variable (V : Valuation τ sig (Elt Ideal))

theorem e_cst : after (ops (F := Ideal)) V (main_cst : DevRef τ sig) = (constant (F := Ideal) S_ .f32 0x40000000#32) :=
  read_nullary writes_are 0 rfl (by decide) V
theorem e_v0 : after (ops (F := Ideal)) V (main_v0 : DevRef τ sig) = (broadcastInDim S2x10000x128 ![] bcast_S_S2x10000x128 : (⟨S_, .f32⟩ : BufTy).Contents (Elt Ideal) → (⟨S2x10000x128, .f32⟩ : BufTy).Contents (Elt Ideal)) (after (ops (F := Ideal)) V (main_cst : DevRef τ sig)) :=
  read_unary writes_are 1 rfl (by decide) (by decide) V
theorem e_v1 : after (ops (F := Ideal)) V (main_v1 : DevRef τ sig) = (Host.powf (F := Ideal) (φ := .f32) : (⟨S2x10000x128, .f32⟩ : BufTy).Contents (Elt Ideal) → (⟨S2x10000x128, .f32⟩ : BufTy).Contents (Elt Ideal) → (⟨S2x10000x128, .f32⟩ : BufTy).Contents (Elt Ideal)) (after (ops (F := Ideal)) V (main_arg0 : DevRef τ sig)) (after (ops (F := Ideal)) V (main_v0 : DevRef τ sig)) :=
  read_binary writes_are 2 rfl (by decide) (by decide) (by decide) V
theorem e_cst_0 : after (ops (F := Ideal)) V (main_cst_0 : DevRef τ sig) = (constant (F := Ideal) S_ .f32 0x3E800000#32) :=
  read_nullary writes_are 3 rfl (by decide) V
theorem e_v2 : after (ops (F := Ideal)) V (main_v2 : DevRef τ sig) = (broadcastInDim S2x10000x128 ![] bcast_S_S2x10000x128 : (⟨S_, .f32⟩ : BufTy).Contents (Elt Ideal) → (⟨S2x10000x128, .f32⟩ : BufTy).Contents (Elt Ideal)) (after (ops (F := Ideal)) V (main_cst_0 : DevRef τ sig)) :=
  read_unary writes_are 4 rfl (by decide) (by decide) V
theorem e_v3 : after (ops (F := Ideal)) V (main_v3 : DevRef τ sig) = (Host.powf (F := Ideal) (φ := .f32) : (⟨S2x10000x128, .f32⟩ : BufTy).Contents (Elt Ideal) → (⟨S2x10000x128, .f32⟩ : BufTy).Contents (Elt Ideal) → (⟨S2x10000x128, .f32⟩ : BufTy).Contents (Elt Ideal)) (after (ops (F := Ideal)) V (main_v1 : DevRef τ sig)) (after (ops (F := Ideal)) V (main_v2 : DevRef τ sig)) :=
  read_binary writes_are 5 rfl (by decide) (by decide) (by decide) V
theorem e_call0_c : after (ops (F := Ideal)) V (main_call0_c : DevRef τ sig) = (constantI S_ 32 0#32) :=
  read_nullary writes_are 6 rfl (by decide) V
theorem e_call0_v0 : after (ops (F := Ideal)) V (main_call0_v0 : DevRef τ sig) = (broadcastInDim S2x10000x16 ![] bcast_S_S2x10000x16) (after (ops (F := Ideal)) V (main_call0_c : DevRef τ sig)) :=
  read_unary writes_are 7 rfl (by decide) (by decide) V
theorem e_call0_v1 : after (ops (F := Ideal)) V (main_call0_v1 : DevRef τ sig) = (cmpi .slt) (after (ops (F := Ideal)) V (main_arg2 : DevRef τ sig)) (after (ops (F := Ideal)) V (main_call0_v0 : DevRef τ sig)) :=
  read_binary writes_are 8 rfl (by decide) (by decide) (by decide) V
theorem e_call0_c_0 : after (ops (F := Ideal)) V (main_call0_c_0 : DevRef τ sig) = (constantI S_ 32 10000#32) :=
  read_nullary writes_are 9 rfl (by decide) V
theorem e_call0_v2 : after (ops (F := Ideal)) V (main_call0_v2 : DevRef τ sig) = (broadcastInDim S2x10000x16 ![] bcast_S_S2x10000x16) (after (ops (F := Ideal)) V (main_call0_c_0 : DevRef τ sig)) :=
  read_unary writes_are 10 rfl (by decide) (by decide) V
theorem e_call0_v3 : after (ops (F := Ideal)) V (main_call0_v3 : DevRef τ sig) = addi (after (ops (F := Ideal)) V (main_arg2 : DevRef τ sig)) (after (ops (F := Ideal)) V (main_call0_v2 : DevRef τ sig)) :=
  read_binary writes_are 11 rfl (by decide) (by decide) (by decide) V
theorem e_call0_v4 : after (ops (F := Ideal)) V (main_call0_v4 : DevRef τ sig) = select (after (ops (F := Ideal)) V (main_call0_v1 : DevRef τ sig)) (after (ops (F := Ideal)) V (main_call0_v3 : DevRef τ sig)) (after (ops (F := Ideal)) V (main_arg2 : DevRef τ sig)) :=
  read_ternary writes_are 12 rfl (by decide) (by decide) (by decide) (by decide) V
theorem e_call0_v5 : after (ops (F := Ideal)) V (main_call0_v5 : DevRef τ sig) = (broadcastInDim S2x10000x16x1 ![0, 1, 2] bcast_S2x10000x16_S2x10000x16x1_0_1_2) (after (ops (F := Ideal)) V (main_call0_v4 : DevRef τ sig)) :=
  read_unary writes_are 13 rfl (by decide) (by decide) V
theorem e_call0_c_1 : after (ops (F := Ideal)) V (main_call0_c_1 : DevRef τ sig) = (constantI S1 32 9999#32) :=
  read_nullary writes_are 14 rfl (by decide) V
theorem e_call0_c_2 : after (ops (F := Ideal)) V (main_call0_c_2 : DevRef τ sig) = (constantI S_ 32 0#32) :=
  read_nullary writes_are 15 rfl (by decide) V
theorem e_call0_v6 : after (ops (F := Ideal)) V (main_call0_v6 : DevRef τ sig) = (broadcastInDim S2x10000x16x1 ![] bcast_S_S2x10000x16x1) (after (ops (F := Ideal)) V (main_call0_c_2 : DevRef τ sig)) :=
  read_unary writes_are 16 rfl (by decide) (by decide) V
theorem e_call0_v7 : after (ops (F := Ideal)) V (main_call0_v7 : DevRef τ sig) = (cmpi .sge) (after (ops (F := Ideal)) V (main_call0_v5 : DevRef τ sig)) (after (ops (F := Ideal)) V (main_call0_v6 : DevRef τ sig)) :=
  read_binary writes_are 17 rfl (by decide) (by decide) (by decide) V
theorem e_call0_v8 : after (ops (F := Ideal)) V (main_call0_v8 : DevRef τ sig) = (broadcastInDim S1x1x1x1 ![3] bcast_S1_S1x1x1x1_3) (after (ops (F := Ideal)) V (main_call0_c_1 : DevRef τ sig)) :=
  read_unary writes_are 18 rfl (by decide) (by decide) V
theorem e_call0_v9 : after (ops (F := Ideal)) V (main_call0_v9 : DevRef τ sig) = (broadcastInDim S2x10000x16x1 ![0, 1, 2, 3] bcast_S1x1x1x1_S2x10000x16x1_0_1_2_3) (after (ops (F := Ideal)) V (main_call0_v8 : DevRef τ sig)) :=
  read_unary writes_are 19 rfl (by decide) (by decide) V
theorem e_call0_v10 : after (ops (F := Ideal)) V (main_call0_v10 : DevRef τ sig) = (cmpi .sle) (after (ops (F := Ideal)) V (main_call0_v5 : DevRef τ sig)) (after (ops (F := Ideal)) V (main_call0_v9 : DevRef τ sig)) :=
  read_binary writes_are 20 rfl (by decide) (by decide) (by decide) V
theorem e_call0_v11 : after (ops (F := Ideal)) V (main_call0_v11 : DevRef τ sig) = andi (after (ops (F := Ideal)) V (main_call0_v7 : DevRef τ sig)) (after (ops (F := Ideal)) V (main_call0_v10 : DevRef τ sig)) :=
  read_binary writes_are 21 rfl (by decide) (by decide) (by decide) V
theorem e_call0_c_3 : after (ops (F := Ideal)) V (main_call0_c_3 : DevRef τ sig) = (constantI S_ 1 1#1) :=
  read_nullary writes_are 22 rfl (by decide) V
theorem e_call0_v12 : after (ops (F := Ideal)) V (main_call0_v12 : DevRef τ sig) = Host.reduce IntOp.andi (after (ops (F := Ideal)) V (main_call0_v11 : DevRef τ sig)) (after (ops (F := Ideal)) V (main_call0_c_3 : DevRef τ sig)) reducesTo_S2x10000x16x1_S2x10000x16_d3 h_S_ :=
  read_binary writes_are 23 rfl (by decide) (by decide) (by decide) V
theorem e_call0_v13 : after (ops (F := Ideal)) V (main_call0_v13 : DevRef τ sig) = Host.gather gather_S2x10000x128_S2x10000x16x1_S2x10000x16x128_3_1_0_0_1_3_11128 (after (ops (F := Ideal)) V (main_arg0 : DevRef τ sig)) (after (ops (F := Ideal)) V (main_call0_v5 : DevRef τ sig)) :=
  read_binary writes_are 24 rfl (by decide) (by decide) (by decide) V
theorem e_call0_v14 : after (ops (F := Ideal)) V (main_call0_v14 : DevRef τ sig) = (broadcastInDim S2x10000x16x128 ![0, 1, 2] bcast_S2x10000x16_S2x10000x16x128_0_1_2) (after (ops (F := Ideal)) V (main_call0_v12 : DevRef τ sig)) :=
  read_unary writes_are 25 rfl (by decide) (by decide) V
theorem e_call0_cst : after (ops (F := Ideal)) V (main_call0_cst : DevRef τ sig) = (constant (F := Ideal) S_ .f32 0x7FC00000#32) :=
  read_nullary writes_are 26 rfl (by decide) V
theorem e_call0_v15 : after (ops (F := Ideal)) V (main_call0_v15 : DevRef τ sig) = (broadcastInDim S2x10000x16x128 ![] bcast_S_S2x10000x16x128) (after (ops (F := Ideal)) V (main_call0_cst : DevRef τ sig)) :=
  read_unary writes_are 27 rfl (by decide) (by decide) V
theorem e_v4 : after (ops (F := Ideal)) V (main_v4 : DevRef τ sig) = select (after (ops (F := Ideal)) V (main_call0_v14 : DevRef τ sig)) (after (ops (F := Ideal)) V (main_call0_v13 : DevRef τ sig)) (after (ops (F := Ideal)) V (main_call0_v15 : DevRef τ sig)) :=
  read_ternary writes_are 28 rfl (by decide) (by decide) (by decide) (by decide) V
theorem e_cst_1 : after (ops (F := Ideal)) V (main_cst_1 : DevRef τ sig) = (constant (F := Ideal) S_ .f32 0x40000000#32) :=
  read_nullary writes_are 29 rfl (by decide) V
theorem e_v5 : after (ops (F := Ideal)) V (main_v5 : DevRef τ sig) = (broadcastInDim S2x10000x16x128 ![] bcast_S_S2x10000x16x128 : (⟨S_, .f32⟩ : BufTy).Contents (Elt Ideal) → (⟨S2x10000x16x128, .f32⟩ : BufTy).Contents (Elt Ideal)) (after (ops (F := Ideal)) V (main_cst_1 : DevRef τ sig)) :=
  read_unary writes_are 30 rfl (by decide) (by decide) V
theorem e_v6 : after (ops (F := Ideal)) V (main_v6 : DevRef τ sig) = (Host.powf (F := Ideal) (φ := .f32) : (⟨S2x10000x16x128, .f32⟩ : BufTy).Contents (Elt Ideal) → (⟨S2x10000x16x128, .f32⟩ : BufTy).Contents (Elt Ideal) → (⟨S2x10000x16x128, .f32⟩ : BufTy).Contents (Elt Ideal)) (after (ops (F := Ideal)) V (main_v4 : DevRef τ sig)) (after (ops (F := Ideal)) V (main_v5 : DevRef τ sig)) :=
  read_binary writes_are 31 rfl (by decide) (by decide) (by decide) V
theorem e_cst_2 : after (ops (F := Ideal)) V (main_cst_2 : DevRef τ sig) = (constant (F := Ideal) S_ .f32 0x3E800000#32) :=
  read_nullary writes_are 32 rfl (by decide) V
theorem e_v7 : after (ops (F := Ideal)) V (main_v7 : DevRef τ sig) = (broadcastInDim S2x10000x16x128 ![] bcast_S_S2x10000x16x128 : (⟨S_, .f32⟩ : BufTy).Contents (Elt Ideal) → (⟨S2x10000x16x128, .f32⟩ : BufTy).Contents (Elt Ideal)) (after (ops (F := Ideal)) V (main_cst_2 : DevRef τ sig)) :=
  read_unary writes_are 33 rfl (by decide) (by decide) V
theorem e_v8 : after (ops (F := Ideal)) V (main_v8 : DevRef τ sig) = (Host.powf (F := Ideal) (φ := .f32) : (⟨S2x10000x16x128, .f32⟩ : BufTy).Contents (Elt Ideal) → (⟨S2x10000x16x128, .f32⟩ : BufTy).Contents (Elt Ideal) → (⟨S2x10000x16x128, .f32⟩ : BufTy).Contents (Elt Ideal)) (after (ops (F := Ideal)) V (main_v6 : DevRef τ sig)) (after (ops (F := Ideal)) V (main_v7 : DevRef τ sig)) :=
  read_binary writes_are 34 rfl (by decide) (by decide) (by decide) V
theorem e_cst_3 : after (ops (F := Ideal)) V (main_cst_3 : DevRef τ sig) = (constant (F := Ideal) S_ .f32 0x40000000#32) :=
  read_nullary writes_are 35 rfl (by decide) V
theorem e_v9 : after (ops (F := Ideal)) V (main_v9 : DevRef τ sig) = (broadcastInDim S2x10000x16x16 ![] bcast_S_S2x10000x16x16 : (⟨S_, .f32⟩ : BufTy).Contents (Elt Ideal) → (⟨S2x10000x16x16, .f32⟩ : BufTy).Contents (Elt Ideal)) (after (ops (F := Ideal)) V (main_cst_3 : DevRef τ sig)) :=
  read_unary writes_are 36 rfl (by decide) (by decide) V
theorem e_v10 : after (ops (F := Ideal)) V (main_v10 : DevRef τ sig) = (Host.powf (F := Ideal) (φ := .f32) : (⟨S2x10000x16x16, .f32⟩ : BufTy).Contents (Elt Ideal) → (⟨S2x10000x16x16, .f32⟩ : BufTy).Contents (Elt Ideal) → (⟨S2x10000x16x16, .f32⟩ : BufTy).Contents (Elt Ideal)) (after (ops (F := Ideal)) V (main_arg1 : DevRef τ sig)) (after (ops (F := Ideal)) V (main_v9 : DevRef τ sig)) :=
  read_binary writes_are 37 rfl (by decide) (by decide) (by decide) V
theorem e_cst_4 : after (ops (F := Ideal)) V (main_cst_4 : DevRef τ sig) = (constant (F := Ideal) S_ .f32 0x00000000#32) :=
  read_nullary writes_are 38 rfl (by decide) V
theorem e_v11 : after (ops (F := Ideal)) V (main_v11 : DevRef τ sig) = Host.reduceAdd (F := Ideal) (φ := .f32) (after (ops (F := Ideal)) V (main_v10 : DevRef τ sig)) (after (ops (F := Ideal)) V (main_cst_4 : DevRef τ sig)) reducesTo_S2x10000x16x16_S2x10000x16_d3 h_S_ :=
  read_binary writes_are 39 rfl (by decide) (by decide) (by decide) V
theorem e_cst_5 : after (ops (F := Ideal)) V (main_cst_5 : DevRef τ sig) = (constant (F := Ideal) S_ .f32 0x3F000000#32) :=
  read_nullary writes_are 40 rfl (by decide) V
theorem e_v12 : after (ops (F := Ideal)) V (main_v12 : DevRef τ sig) = (broadcastInDim S2x10000x16 ![] bcast_S_S2x10000x16 : (⟨S_, .f32⟩ : BufTy).Contents (Elt Ideal) → (⟨S2x10000x16, .f32⟩ : BufTy).Contents (Elt Ideal)) (after (ops (F := Ideal)) V (main_cst_5 : DevRef τ sig)) :=
  read_unary writes_are 41 rfl (by decide) (by decide) V
theorem e_v13 : after (ops (F := Ideal)) V (main_v13 : DevRef τ sig) = (Host.powf (F := Ideal) (φ := .f32) : (⟨S2x10000x16, .f32⟩ : BufTy).Contents (Elt Ideal) → (⟨S2x10000x16, .f32⟩ : BufTy).Contents (Elt Ideal) → (⟨S2x10000x16, .f32⟩ : BufTy).Contents (Elt Ideal)) (after (ops (F := Ideal)) V (main_v11 : DevRef τ sig)) (after (ops (F := Ideal)) V (main_v12 : DevRef τ sig)) :=
  read_binary writes_are 42 rfl (by decide) (by decide) (by decide) V
theorem e_cst_6 : after (ops (F := Ideal)) V (main_cst_6 : DevRef τ sig) = (constant (F := Ideal) S_ .f32 0xC0000000#32) :=
  read_nullary writes_are 43 rfl (by decide) V
theorem e_v14 : after (ops (F := Ideal)) V (main_v14 : DevRef τ sig) = (broadcastInDim S2x10000x16 ![] bcast_S_S2x10000x16 : (⟨S_, .f32⟩ : BufTy).Contents (Elt Ideal) → (⟨S2x10000x16, .f32⟩ : BufTy).Contents (Elt Ideal)) (after (ops (F := Ideal)) V (main_cst_6 : DevRef τ sig)) :=
  read_unary writes_are 44 rfl (by decide) (by decide) V
theorem e_v15 : after (ops (F := Ideal)) V (main_v15 : DevRef τ sig) = (Host.powf (F := Ideal) (φ := .f32) : (⟨S2x10000x16, .f32⟩ : BufTy).Contents (Elt Ideal) → (⟨S2x10000x16, .f32⟩ : BufTy).Contents (Elt Ideal) → (⟨S2x10000x16, .f32⟩ : BufTy).Contents (Elt Ideal)) (after (ops (F := Ideal)) V (main_v13 : DevRef τ sig)) (after (ops (F := Ideal)) V (main_v14 : DevRef τ sig)) :=
  read_binary writes_are 45 rfl (by decide) (by decide) (by decide) V
theorem e_v16 : after (ops (F := Ideal)) V (main_v16 : DevRef τ sig) = (Host.absf (F := Ideal) (φ := .f32) : (⟨S2x10000x16, .f32⟩ : BufTy).Contents (Elt Ideal) → (⟨S2x10000x16, .f32⟩ : BufTy).Contents (Elt Ideal)) (after (ops (F := Ideal)) V (main_v15 : DevRef τ sig)) :=
  read_unary writes_are 46 rfl (by decide) (by decide) V
theorem e_cst_7 : after (ops (F := Ideal)) V (main_cst_7 : DevRef τ sig) = (constant (F := Ideal) S_ .f32 0x00000000#32) :=
  read_nullary writes_are 47 rfl (by decide) V
theorem e_v17 : after (ops (F := Ideal)) V (main_v17 : DevRef τ sig) = Host.reduceAdd (F := Ideal) (φ := .f32) (after (ops (F := Ideal)) V (main_v16 : DevRef τ sig)) (after (ops (F := Ideal)) V (main_cst_7 : DevRef τ sig)) reducesTo_S2x10000x16_S2x10000_d2 h_S_ :=
  read_binary writes_are 48 rfl (by decide) (by decide) (by decide) V
theorem e_v18 : after (ops (F := Ideal)) V (main_v18 : DevRef τ sig) = (broadcastInDim S2x10000x1 ![0, 1] bcast_S2x10000_S2x10000x1_0_1 : (⟨S2x10000, .f32⟩ : BufTy).Contents (Elt Ideal) → (⟨S2x10000x1, .f32⟩ : BufTy).Contents (Elt Ideal)) (after (ops (F := Ideal)) V (main_v17 : DevRef τ sig)) :=
  read_unary writes_are 49 rfl (by decide) (by decide) V
theorem e_cst_8 : after (ops (F := Ideal)) V (main_cst_8 : DevRef τ sig) = (constant (F := Ideal) S_ .f32 0x2B8CBCCC#32) :=
  read_nullary writes_are 50 rfl (by decide) V
theorem e_v19 : after (ops (F := Ideal)) V (main_v19 : DevRef τ sig) = (broadcastInDim S2x10000x1 ![] bcast_S_S2x10000x1 : (⟨S_, .f32⟩ : BufTy).Contents (Elt Ideal) → (⟨S2x10000x1, .f32⟩ : BufTy).Contents (Elt Ideal)) (after (ops (F := Ideal)) V (main_cst_8 : DevRef τ sig)) :=
  read_unary writes_are 51 rfl (by decide) (by decide) V
theorem e_v20 : after (ops (F := Ideal)) V (main_v20 : DevRef τ sig) = (maximumf (F := Ideal) (φ := .f32) : (⟨S2x10000x1, .f32⟩ : BufTy).Contents (Elt Ideal) → (⟨S2x10000x1, .f32⟩ : BufTy).Contents (Elt Ideal) → (⟨S2x10000x1, .f32⟩ : BufTy).Contents (Elt Ideal)) (after (ops (F := Ideal)) V (main_v18 : DevRef τ sig)) (after (ops (F := Ideal)) V (main_v19 : DevRef τ sig)) :=
  read_binary writes_are 52 rfl (by decide) (by decide) (by decide) V
theorem e_v21 : after (ops (F := Ideal)) V (main_v21 : DevRef τ sig) = (broadcastInDim S2x10000x16 ![0, 1, 2] bcast_S2x10000x1_S2x10000x16_0_1_2 : (⟨S2x10000x1, .f32⟩ : BufTy).Contents (Elt Ideal) → (⟨S2x10000x16, .f32⟩ : BufTy).Contents (Elt Ideal)) (after (ops (F := Ideal)) V (main_v20 : DevRef τ sig)) :=
  read_unary writes_are 53 rfl (by decide) (by decide) V
theorem e_v22 : after (ops (F := Ideal)) V (main_v22 : DevRef τ sig) = (Host.divf (F := Ideal) (φ := .f32) : (⟨S2x10000x16, .f32⟩ : BufTy).Contents (Elt Ideal) → (⟨S2x10000x16, .f32⟩ : BufTy).Contents (Elt Ideal) → (⟨S2x10000x16, .f32⟩ : BufTy).Contents (Elt Ideal)) (after (ops (F := Ideal)) V (main_v15 : DevRef τ sig)) (after (ops (F := Ideal)) V (main_v21 : DevRef τ sig)) :=
  read_binary writes_are 54 rfl (by decide) (by decide) (by decide) V
theorem e_v23 : after (ops (F := Ideal)) V (main_v23 : DevRef τ sig) = (broadcastInDim S2x10000x16x1 ![0, 1, 2] bcast_S2x10000x16_S2x10000x16x1_0_1_2 : (⟨S2x10000x16, .f32⟩ : BufTy).Contents (Elt Ideal) → (⟨S2x10000x16x1, .f32⟩ : BufTy).Contents (Elt Ideal)) (after (ops (F := Ideal)) V (main_v22 : DevRef τ sig)) :=
  read_unary writes_are 55 rfl (by decide) (by decide) V
theorem e_v24 : after (ops (F := Ideal)) V (main_v24 : DevRef τ sig) = (broadcastInDim S2x10000x16x128 ![0, 1, 2, 3] bcast_S2x10000x16x1_S2x10000x16x128_0_1_2_3 : (⟨S2x10000x16x1, .f32⟩ : BufTy).Contents (Elt Ideal) → (⟨S2x10000x16x128, .f32⟩ : BufTy).Contents (Elt Ideal)) (after (ops (F := Ideal)) V (main_v23 : DevRef τ sig)) :=
  read_unary writes_are 56 rfl (by decide) (by decide) V
theorem e_v25 : after (ops (F := Ideal)) V (main_v25 : DevRef τ sig) = (mulf (F := Ideal) (φ := .f32) : (⟨S2x10000x16x128, .f32⟩ : BufTy).Contents (Elt Ideal) → (⟨S2x10000x16x128, .f32⟩ : BufTy).Contents (Elt Ideal) → (⟨S2x10000x16x128, .f32⟩ : BufTy).Contents (Elt Ideal)) (after (ops (F := Ideal)) V (main_v24 : DevRef τ sig)) (after (ops (F := Ideal)) V (main_v8 : DevRef τ sig)) :=
  read_binary writes_are 57 rfl (by decide) (by decide) (by decide) V
theorem e_cst_9 : after (ops (F := Ideal)) V (main_cst_9 : DevRef τ sig) = (constant (F := Ideal) S_ .f32 0x00000000#32) :=
  read_nullary writes_are 58 rfl (by decide) V
theorem e_v26 : after (ops (F := Ideal)) V (main_v26 : DevRef τ sig) = Host.reduceAdd (F := Ideal) (φ := .f32) (after (ops (F := Ideal)) V (main_v25 : DevRef τ sig)) (after (ops (F := Ideal)) V (main_cst_9 : DevRef τ sig)) reducesTo_S2x10000x16x128_S2x10000x128_d2 h_S_ :=
  read_binary writes_are 59 rfl (by decide) (by decide) (by decide) V
theorem e_v27 : after (ops (F := Ideal)) V (main_v27 : DevRef τ sig) = (mulf (F := Ideal) (φ := .f32) : (⟨S2x10000x128, .f32⟩ : BufTy).Contents (Elt Ideal) → (⟨S2x10000x128, .f32⟩ : BufTy).Contents (Elt Ideal) → (⟨S2x10000x128, .f32⟩ : BufTy).Contents (Elt Ideal)) (after (ops (F := Ideal)) V (main_v3 : DevRef τ sig)) (after (ops (F := Ideal)) V (main_v26 : DevRef τ sig)) :=
  read_binary writes_are 60 rfl (by decide) (by decide) (by decide) V
theorem e_v28 : after (ops (F := Ideal)) V (main_v28 : DevRef τ sig) = Host.dotGeneral (F := Ideal) (φ₁ := .f32) (φ₂ := .f32) dot_S2x10000x128_S128x128_S2x10000x128_2_0_01_1_n_n none (after (ops (F := Ideal)) V (main_v27 : DevRef τ sig)) (after (ops (F := Ideal)) V (main_arg4 : DevRef τ sig)) :=
  read_binary writes_are 61 rfl (by decide) (by decide) (by decide) V
theorem e_v29 : after (ops (F := Ideal)) V (main_v29 : DevRef τ sig) = (broadcastInDim S1x1x128 ![2] bcast_S128_S1x1x128_2 : (⟨S128, .f32⟩ : BufTy).Contents (Elt Ideal) → (⟨S1x1x128, .f32⟩ : BufTy).Contents (Elt Ideal)) (after (ops (F := Ideal)) V (main_arg7 : DevRef τ sig)) :=
  read_unary writes_are 62 rfl (by decide) (by decide) V
theorem e_v30 : after (ops (F := Ideal)) V (main_v30 : DevRef τ sig) = (broadcastInDim S2x10000x128 ![0, 1, 2] bcast_S1x1x128_S2x10000x128_0_1_2 : (⟨S1x1x128, .f32⟩ : BufTy).Contents (Elt Ideal) → (⟨S2x10000x128, .f32⟩ : BufTy).Contents (Elt Ideal)) (after (ops (F := Ideal)) V (main_v29 : DevRef τ sig)) :=
  read_unary writes_are 63 rfl (by decide) (by decide) V
theorem e_v31 : after (ops (F := Ideal)) V (main_v31 : DevRef τ sig) = (addf (F := Ideal) (φ := .f32) : (⟨S2x10000x128, .f32⟩ : BufTy).Contents (Elt Ideal) → (⟨S2x10000x128, .f32⟩ : BufTy).Contents (Elt Ideal) → (⟨S2x10000x128, .f32⟩ : BufTy).Contents (Elt Ideal)) (after (ops (F := Ideal)) V (main_v28 : DevRef τ sig)) (after (ops (F := Ideal)) V (main_v30 : DevRef τ sig)) :=
  read_binary writes_are 64 rfl (by decide) (by decide) (by decide) V
theorem e_call1_cst : after (ops (F := Ideal)) V (main_call1_cst : DevRef τ sig) = (constant (F := Ideal) S_ .f32 0x00000000#32) :=
  read_nullary writes_are 65 rfl (by decide) V
theorem e_call1_v0 : after (ops (F := Ideal)) V (main_call1_v0 : DevRef τ sig) = (broadcastInDim S2x10000x128 ![] bcast_S_S2x10000x128) (after (ops (F := Ideal)) V (main_call1_cst : DevRef τ sig)) :=
  read_unary writes_are 66 rfl (by decide) (by decide) V
theorem e_v32 : after (ops (F := Ideal)) V (main_v32 : DevRef τ sig) = maximumf (F := Ideal) (φ := .f32) (after (ops (F := Ideal)) V (main_v31 : DevRef τ sig)) (after (ops (F := Ideal)) V (main_call1_v0 : DevRef τ sig)) :=
  read_binary writes_are 67 rfl (by decide) (by decide) (by decide) V
theorem e_v33 : after (ops (F := Ideal)) V (main_v33 : DevRef τ sig) = shapeCast S2x320000 (after (ops (F := Ideal)) V (main_arg3 : DevRef τ sig)) shapeCasts_S2x160000x2_S2x320000 :=
  read_reshape writes_are 68 rfl (by decide) (by decide) V
theorem e_call2_c : after (ops (F := Ideal)) V (main_call2_c : DevRef τ sig) = (constantI S_ 32 0#32) :=
  read_nullary writes_are 69 rfl (by decide) V
theorem e_call2_v0 : after (ops (F := Ideal)) V (main_call2_v0 : DevRef τ sig) = (broadcastInDim S2x320000 ![] bcast_S_S2x320000) (after (ops (F := Ideal)) V (main_call2_c : DevRef τ sig)) :=
  read_unary writes_are 70 rfl (by decide) (by decide) V
theorem e_call2_v1 : after (ops (F := Ideal)) V (main_call2_v1 : DevRef τ sig) = (cmpi .slt) (after (ops (F := Ideal)) V (main_v33 : DevRef τ sig)) (after (ops (F := Ideal)) V (main_call2_v0 : DevRef τ sig)) :=
  read_binary writes_are 71 rfl (by decide) (by decide) (by decide) V
theorem e_call2_c_0 : after (ops (F := Ideal)) V (main_call2_c_0 : DevRef τ sig) = (constantI S_ 32 10000#32) :=
  read_nullary writes_are 72 rfl (by decide) V
theorem e_call2_v2 : after (ops (F := Ideal)) V (main_call2_v2 : DevRef τ sig) = (broadcastInDim S2x320000 ![] bcast_S_S2x320000) (after (ops (F := Ideal)) V (main_call2_c_0 : DevRef τ sig)) :=
  read_unary writes_are 73 rfl (by decide) (by decide) V
theorem e_call2_v3 : after (ops (F := Ideal)) V (main_call2_v3 : DevRef τ sig) = addi (after (ops (F := Ideal)) V (main_v33 : DevRef τ sig)) (after (ops (F := Ideal)) V (main_call2_v2 : DevRef τ sig)) :=
  read_binary writes_are 74 rfl (by decide) (by decide) (by decide) V
theorem e_call2_v4 : after (ops (F := Ideal)) V (main_call2_v4 : DevRef τ sig) = select (after (ops (F := Ideal)) V (main_call2_v1 : DevRef τ sig)) (after (ops (F := Ideal)) V (main_call2_v3 : DevRef τ sig)) (after (ops (F := Ideal)) V (main_v33 : DevRef τ sig)) :=
  read_ternary writes_are 75 rfl (by decide) (by decide) (by decide) (by decide) V
theorem e_call2_v5 : after (ops (F := Ideal)) V (main_call2_v5 : DevRef τ sig) = (broadcastInDim S2x320000x1 ![0, 1] bcast_S2x320000_S2x320000x1_0_1) (after (ops (F := Ideal)) V (main_call2_v4 : DevRef τ sig)) :=
  read_unary writes_are 76 rfl (by decide) (by decide) V
theorem e_call2_c_1 : after (ops (F := Ideal)) V (main_call2_c_1 : DevRef τ sig) = (constantI S1 32 9999#32) :=
  read_nullary writes_are 77 rfl (by decide) V
theorem e_call2_c_2 : after (ops (F := Ideal)) V (main_call2_c_2 : DevRef τ sig) = (constantI S_ 32 0#32) :=
  read_nullary writes_are 78 rfl (by decide) V
theorem e_call2_v6 : after (ops (F := Ideal)) V (main_call2_v6 : DevRef τ sig) = (broadcastInDim S2x320000x1 ![] bcast_S_S2x320000x1) (after (ops (F := Ideal)) V (main_call2_c_2 : DevRef τ sig)) :=
  read_unary writes_are 79 rfl (by decide) (by decide) V
theorem e_call2_v7 : after (ops (F := Ideal)) V (main_call2_v7 : DevRef τ sig) = (cmpi .sge) (after (ops (F := Ideal)) V (main_call2_v5 : DevRef τ sig)) (after (ops (F := Ideal)) V (main_call2_v6 : DevRef τ sig)) :=
  read_binary writes_are 80 rfl (by decide) (by decide) (by decide) V
theorem e_call2_v8 : after (ops (F := Ideal)) V (main_call2_v8 : DevRef τ sig) = (broadcastInDim S1x1x1 ![2] bcast_S1_S1x1x1_2) (after (ops (F := Ideal)) V (main_call2_c_1 : DevRef τ sig)) :=
  read_unary writes_are 81 rfl (by decide) (by decide) V
theorem e_call2_v9 : after (ops (F := Ideal)) V (main_call2_v9 : DevRef τ sig) = (broadcastInDim S2x320000x1 ![0, 1, 2] bcast_S1x1x1_S2x320000x1_0_1_2) (after (ops (F := Ideal)) V (main_call2_v8 : DevRef τ sig)) :=
  read_unary writes_are 82 rfl (by decide) (by decide) V
theorem e_call2_v10 : after (ops (F := Ideal)) V (main_call2_v10 : DevRef τ sig) = (cmpi .sle) (after (ops (F := Ideal)) V (main_call2_v5 : DevRef τ sig)) (after (ops (F := Ideal)) V (main_call2_v9 : DevRef τ sig)) :=
  read_binary writes_are 83 rfl (by decide) (by decide) (by decide) V
theorem e_call2_v11 : after (ops (F := Ideal)) V (main_call2_v11 : DevRef τ sig) = andi (after (ops (F := Ideal)) V (main_call2_v7 : DevRef τ sig)) (after (ops (F := Ideal)) V (main_call2_v10 : DevRef τ sig)) :=
  read_binary writes_are 84 rfl (by decide) (by decide) (by decide) V
theorem e_call2_c_3 : after (ops (F := Ideal)) V (main_call2_c_3 : DevRef τ sig) = (constantI S_ 1 1#1) :=
  read_nullary writes_are 85 rfl (by decide) V
theorem e_call2_v12 : after (ops (F := Ideal)) V (main_call2_v12 : DevRef τ sig) = Host.reduce IntOp.andi (after (ops (F := Ideal)) V (main_call2_v11 : DevRef τ sig)) (after (ops (F := Ideal)) V (main_call2_c_3 : DevRef τ sig)) reducesTo_S2x320000x1_S2x320000_d2 h_S_ :=
  read_binary writes_are 86 rfl (by decide) (by decide) (by decide) V
theorem e_call2_v13 : after (ops (F := Ideal)) V (main_call2_v13 : DevRef τ sig) = Host.gather gather_S2x10000x128_S2x320000x1_S2x320000x128_2_1_0_0_1_2_11128 (after (ops (F := Ideal)) V (main_v32 : DevRef τ sig)) (after (ops (F := Ideal)) V (main_call2_v5 : DevRef τ sig)) :=
  read_binary writes_are 87 rfl (by decide) (by decide) (by decide) V
theorem e_call2_v14 : after (ops (F := Ideal)) V (main_call2_v14 : DevRef τ sig) = (broadcastInDim S2x320000x128 ![0, 1] bcast_S2x320000_S2x320000x128_0_1) (after (ops (F := Ideal)) V (main_call2_v12 : DevRef τ sig)) :=
  read_unary writes_are 88 rfl (by decide) (by decide) V
theorem e_call2_cst : after (ops (F := Ideal)) V (main_call2_cst : DevRef τ sig) = (constant (F := Ideal) S_ .f32 0x7FC00000#32) :=
  read_nullary writes_are 89 rfl (by decide) V
theorem e_call2_v15 : after (ops (F := Ideal)) V (main_call2_v15 : DevRef τ sig) = (broadcastInDim S2x320000x128 ![] bcast_S_S2x320000x128) (after (ops (F := Ideal)) V (main_call2_cst : DevRef τ sig)) :=
  read_unary writes_are 90 rfl (by decide) (by decide) V
theorem e_v34 : after (ops (F := Ideal)) V (main_v34 : DevRef τ sig) = select (after (ops (F := Ideal)) V (main_call2_v14 : DevRef τ sig)) (after (ops (F := Ideal)) V (main_call2_v13 : DevRef τ sig)) (after (ops (F := Ideal)) V (main_call2_v15 : DevRef τ sig)) :=
  read_ternary writes_are 91 rfl (by decide) (by decide) (by decide) (by decide) V
theorem e_v35 : after (ops (F := Ideal)) V (main_v35 : DevRef τ sig) = shapeCast S2x160000x256 (after (ops (F := Ideal)) V (main_v34 : DevRef τ sig)) shapeCasts_S2x320000x128_S2x160000x256 :=
  read_reshape writes_are 92 rfl (by decide) (by decide) V
theorem e_v36 : after (ops (F := Ideal)) V (main_v36 : DevRef τ sig) = (Host.absf (F := Ideal) (φ := .f32) : (⟨S2x160000x256, .f32⟩ : BufTy).Contents (Elt Ideal) → (⟨S2x160000x256, .f32⟩ : BufTy).Contents (Elt Ideal)) (after (ops (F := Ideal)) V (main_v35 : DevRef τ sig)) :=
  read_unary writes_are 93 rfl (by decide) (by decide) V
theorem e_cst_10 : after (ops (F := Ideal)) V (main_cst_10 : DevRef τ sig) = (constant (F := Ideal) S_ .f32 0x00000000#32) :=
  read_nullary writes_are 94 rfl (by decide) V
theorem e_v37 : after (ops (F := Ideal)) V (main_v37 : DevRef τ sig) = Host.reduceAdd (F := Ideal) (φ := .f32) (after (ops (F := Ideal)) V (main_v36 : DevRef τ sig)) (after (ops (F := Ideal)) V (main_cst_10 : DevRef τ sig)) reducesTo_S2x160000x256_S2x256_d1 h_S_ :=
  read_binary writes_are 95 rfl (by decide) (by decide) (by decide) V
theorem e_v38 : after (ops (F := Ideal)) V (main_v38 : DevRef τ sig) = (broadcastInDim S2x1x256 ![0, 2] bcast_S2x256_S2x1x256_0_2 : (⟨S2x256, .f32⟩ : BufTy).Contents (Elt Ideal) → (⟨S2x1x256, .f32⟩ : BufTy).Contents (Elt Ideal)) (after (ops (F := Ideal)) V (main_v37 : DevRef τ sig)) :=
  read_unary writes_are 96 rfl (by decide) (by decide) V
theorem e_cst_11 : after (ops (F := Ideal)) V (main_cst_11 : DevRef τ sig) = (constant (F := Ideal) S_ .f32 0x2B8CBCCC#32) :=
  read_nullary writes_are 97 rfl (by decide) V
theorem e_v39 : after (ops (F := Ideal)) V (main_v39 : DevRef τ sig) = (broadcastInDim S2x1x256 ![] bcast_S_S2x1x256 : (⟨S_, .f32⟩ : BufTy).Contents (Elt Ideal) → (⟨S2x1x256, .f32⟩ : BufTy).Contents (Elt Ideal)) (after (ops (F := Ideal)) V (main_cst_11 : DevRef τ sig)) :=
  read_unary writes_are 98 rfl (by decide) (by decide) V
theorem e_v40 : after (ops (F := Ideal)) V (main_v40 : DevRef τ sig) = (maximumf (F := Ideal) (φ := .f32) : (⟨S2x1x256, .f32⟩ : BufTy).Contents (Elt Ideal) → (⟨S2x1x256, .f32⟩ : BufTy).Contents (Elt Ideal) → (⟨S2x1x256, .f32⟩ : BufTy).Contents (Elt Ideal)) (after (ops (F := Ideal)) V (main_v38 : DevRef τ sig)) (after (ops (F := Ideal)) V (main_v39 : DevRef τ sig)) :=
  read_binary writes_are 99 rfl (by decide) (by decide) (by decide) V
theorem e_v41 : after (ops (F := Ideal)) V (main_v41 : DevRef τ sig) = (broadcastInDim S2x160000x256 ![0, 1, 2] bcast_S2x1x256_S2x160000x256_0_1_2 : (⟨S2x1x256, .f32⟩ : BufTy).Contents (Elt Ideal) → (⟨S2x160000x256, .f32⟩ : BufTy).Contents (Elt Ideal)) (after (ops (F := Ideal)) V (main_v40 : DevRef τ sig)) :=
  read_unary writes_are 100 rfl (by decide) (by decide) V
theorem e_v42 : after (ops (F := Ideal)) V (main_v42 : DevRef τ sig) = (Host.divf (F := Ideal) (φ := .f32) : (⟨S2x160000x256, .f32⟩ : BufTy).Contents (Elt Ideal) → (⟨S2x160000x256, .f32⟩ : BufTy).Contents (Elt Ideal) → (⟨S2x160000x256, .f32⟩ : BufTy).Contents (Elt Ideal)) (after (ops (F := Ideal)) V (main_v35 : DevRef τ sig)) (after (ops (F := Ideal)) V (main_v41 : DevRef τ sig)) :=
  read_binary writes_are 101 rfl (by decide) (by decide) (by decide) V
theorem e_v43 : after (ops (F := Ideal)) V (main_v43 : DevRef τ sig) = Host.dotGeneral (F := Ideal) (φ₁ := .f32) (φ₂ := .f32) dot_S2x160000x256_S256x16_S2x160000x16_2_0_01_1_n_n none (after (ops (F := Ideal)) V (main_v42 : DevRef τ sig)) (after (ops (F := Ideal)) V (main_arg6 : DevRef τ sig)) :=
  read_binary writes_are 102 rfl (by decide) (by decide) (by decide) V
theorem e_v44 : after (ops (F := Ideal)) V (main_v44 : DevRef τ sig) = (broadcastInDim S1x1x16 ![2] bcast_S16_S1x1x16_2 : (⟨S16, .f32⟩ : BufTy).Contents (Elt Ideal) → (⟨S1x1x16, .f32⟩ : BufTy).Contents (Elt Ideal)) (after (ops (F := Ideal)) V (main_arg9 : DevRef τ sig)) :=
  read_unary writes_are 103 rfl (by decide) (by decide) V
theorem e_v45 : after (ops (F := Ideal)) V (main_v45 : DevRef τ sig) = (broadcastInDim S2x160000x16 ![0, 1, 2] bcast_S1x1x16_S2x160000x16_0_1_2 : (⟨S1x1x16, .f32⟩ : BufTy).Contents (Elt Ideal) → (⟨S2x160000x16, .f32⟩ : BufTy).Contents (Elt Ideal)) (after (ops (F := Ideal)) V (main_v44 : DevRef τ sig)) :=
  read_unary writes_are 104 rfl (by decide) (by decide) V
theorem e_v46 : after (ops (F := Ideal)) V (main_v46 : DevRef τ sig) = (addf (F := Ideal) (φ := .f32) : (⟨S2x160000x16, .f32⟩ : BufTy).Contents (Elt Ideal) → (⟨S2x160000x16, .f32⟩ : BufTy).Contents (Elt Ideal) → (⟨S2x160000x16, .f32⟩ : BufTy).Contents (Elt Ideal)) (after (ops (F := Ideal)) V (main_v43 : DevRef τ sig)) (after (ops (F := Ideal)) V (main_v45 : DevRef τ sig)) :=
  read_binary writes_are 105 rfl (by decide) (by decide) (by decide) V
theorem e_v47 : after (ops (F := Ideal)) V (main_v47 : DevRef τ sig) = (Host.tanh (F := Ideal) (φ := .f32) : (⟨S2x160000x16, .f32⟩ : BufTy).Contents (Elt Ideal) → (⟨S2x160000x16, .f32⟩ : BufTy).Contents (Elt Ideal)) (after (ops (F := Ideal)) V (main_v46 : DevRef τ sig)) :=
  read_unary writes_are 106 rfl (by decide) (by decide) V
theorem e_v48 : after (ops (F := Ideal)) V (main_v48 : DevRef τ sig) = shapeCast S2x160000x16 (after (ops (F := Ideal)) V (main_arg1 : DevRef τ sig)) shapeCasts_S2x10000x16x16_S2x160000x16 :=
  read_reshape writes_are 107 rfl (by decide) (by decide) V
theorem e_v49 : after (ops (F := Ideal)) V (main_v49 : DevRef τ sig) = (addf (F := Ideal) (φ := .f32) : (⟨S2x160000x16, .f32⟩ : BufTy).Contents (Elt Ideal) → (⟨S2x160000x16, .f32⟩ : BufTy).Contents (Elt Ideal) → (⟨S2x160000x16, .f32⟩ : BufTy).Contents (Elt Ideal)) (after (ops (F := Ideal)) V (main_v48 : DevRef τ sig)) (after (ops (F := Ideal)) V (main_v47 : DevRef τ sig)) :=
  read_binary writes_are 108 rfl (by decide) (by decide) (by decide) V
theorem e_v50 : after (ops (F := Ideal)) V (main_v50 : DevRef τ sig) = Host.dotGeneral (F := Ideal) (φ₁ := .f32) (φ₂ := .f32) dot_S2x160000x16_S16x16_S2x160000x16_2_0_01_1_n_n none (after (ops (F := Ideal)) V (main_v49 : DevRef τ sig)) (after (ops (F := Ideal)) V (main_arg5 : DevRef τ sig)) :=
  read_binary writes_are 109 rfl (by decide) (by decide) (by decide) V
theorem e_v51 : after (ops (F := Ideal)) V (main_v51 : DevRef τ sig) = shapeCast S2x10000x16x16 (after (ops (F := Ideal)) V (main_v50 : DevRef τ sig)) shapeCasts_S2x160000x16_S2x10000x16x16 :=
  read_reshape writes_are 110 rfl (by decide) (by decide) V
theorem e_v52 : after (ops (F := Ideal)) V (main_v52 : DevRef τ sig) = (broadcastInDim S1x1x1x16 ![3] bcast_S16_S1x1x1x16_3 : (⟨S16, .f32⟩ : BufTy).Contents (Elt Ideal) → (⟨S1x1x1x16, .f32⟩ : BufTy).Contents (Elt Ideal)) (after (ops (F := Ideal)) V (main_arg8 : DevRef τ sig)) :=
  read_unary writes_are 111 rfl (by decide) (by decide) V
theorem e_v53 : after (ops (F := Ideal)) V (main_v53 : DevRef τ sig) = (broadcastInDim S2x10000x16x16 ![0, 1, 2, 3] bcast_S1x1x1x16_S2x10000x16x16_0_1_2_3 : (⟨S1x1x1x16, .f32⟩ : BufTy).Contents (Elt Ideal) → (⟨S2x10000x16x16, .f32⟩ : BufTy).Contents (Elt Ideal)) (after (ops (F := Ideal)) V (main_v52 : DevRef τ sig)) :=
  read_unary writes_are 112 rfl (by decide) (by decide) V
theorem e_v54 : after (ops (F := Ideal)) V (main_v54 : DevRef τ sig) = (addf (F := Ideal) (φ := .f32) : (⟨S2x10000x16x16, .f32⟩ : BufTy).Contents (Elt Ideal) → (⟨S2x10000x16x16, .f32⟩ : BufTy).Contents (Elt Ideal) → (⟨S2x10000x16x16, .f32⟩ : BufTy).Contents (Elt Ideal)) (after (ops (F := Ideal)) V (main_v51 : DevRef τ sig)) (after (ops (F := Ideal)) V (main_v53 : DevRef τ sig)) :=
  read_binary writes_are 113 rfl (by decide) (by decide) (by decide) V

end Line

/-! ## The arguments after the line -/

section Args
variable (V : Valuation τ sig (Elt Ideal))
theorem a0 : after (ops (F := Ideal)) V (main_arg0 : DevRef τ sig) = V (main_arg0 : DevRef τ sig) :=
  arg_kept V main_arg0 (by simp)
theorem a1 : after (ops (F := Ideal)) V (main_arg1 : DevRef τ sig) = V (main_arg1 : DevRef τ sig) :=
  arg_kept V main_arg1 (by simp)
theorem a2 : after (ops (F := Ideal)) V (main_arg2 : DevRef τ sig) = V (main_arg2 : DevRef τ sig) :=
  arg_kept V main_arg2 (by simp)
theorem a3 : after (ops (F := Ideal)) V (main_arg3 : DevRef τ sig) = V (main_arg3 : DevRef τ sig) :=
  arg_kept V main_arg3 (by simp)
theorem a4 : after (ops (F := Ideal)) V (main_arg4 : DevRef τ sig) = V (main_arg4 : DevRef τ sig) :=
  arg_kept V main_arg4 (by simp)
theorem a5 : after (ops (F := Ideal)) V (main_arg5 : DevRef τ sig) = V (main_arg5 : DevRef τ sig) :=
  arg_kept V main_arg5 (by simp)
theorem a6 : after (ops (F := Ideal)) V (main_arg6 : DevRef τ sig) = V (main_arg6 : DevRef τ sig) :=
  arg_kept V main_arg6 (by simp)
theorem a7 : after (ops (F := Ideal)) V (main_arg7 : DevRef τ sig) = V (main_arg7 : DevRef τ sig) :=
  arg_kept V main_arg7 (by simp)
theorem a8 : after (ops (F := Ideal)) V (main_arg8 : DevRef τ sig) = V (main_arg8 : DevRef τ sig) :=
  arg_kept V main_arg8 (by simp)
theorem a9 : after (ops (F := Ideal)) V (main_arg9 : DevRef τ sig) = V (main_arg9 : DevRef τ sig) :=
  arg_kept V main_arg9 (by simp)
end Args

/-! ## Result 0, stage by stage, each at an index -/

section Stage0

variable (V : Valuation τ sig (Elt Ideal))

local notation "A[" r "]" => after (ops (F := Ideal)) V (r : DevRef τ sig)

/-- The rooted features. -/
theorem root_at (j : S2x10000x128.Idx) : A[main_v3] j = root (V (main_arg0 : DevRef τ sig) j) := by
  rw [e_v3, e_v1, e_v2, e_v0, e_cst, e_cst_0, a0]
  rfl

variable (hadj : ∀ j, (V (main_arg2 : DevRef τ sig) j).toNat ≤ 9999)
include hadj

/-- The wrapped neighbour word is the word itself: it is not negative. -/
theorem adjw_at (b : Fin 2) (n : Fin 10000) (m : Fin 16) (z : Fin 1) :
    A[main_call0_v5] (ix4 b n m z) = V (main_arg2 : DevRef τ sig) (ix3 b n m) := by
  rw [e_call0_v5]
  refine (broadcastInDim_apply _ _ _ (ix4 b n m z) (ix3 b n m) (fun a => ?_)).trans ?_
  · match a with
    | ⟨0, _⟩ => rfl
    | ⟨1, _⟩ => rfl
    | ⟨2, _⟩ => rfl
  rw [e_call0_v4, select_apply, e_call0_v1, e_call0_v0, e_call0_c, a2]
  show Scalar.select (IntOp.cmpi .slt (V (main_arg2 : DevRef τ sig) (ix3 b n m)) 0#32) _ _ = _
  rw [slt_zero_of_le (hadj _), select_zero]

/-- The in-range mask is one everywhere. -/
theorem mask_at (j : S2x10000x16.Idx) : A[main_call0_v12] j = 1#1 := by
  rw [e_call0_v12]
  refine reduce_andi_all_one _ _ _ _ (fun i => ?_) (fun i => ?_) j
  · obtain ⟨b, n, m, z, rfl⟩ : ∃ (b : Fin 2) (n : Fin 10000) (m : Fin 16) (z : Fin 1), i = ix4 b n m z :=
      ⟨i 0, i 1, i 2, i 3, eq_ix4 i⟩
    rw [e_call0_v11]
    show IntOp.andi (A[main_call0_v7] (ix4 b n m z)) (A[main_call0_v10] (ix4 b n m z)) = 1#1
    rw [e_call0_v7, e_call0_v10]
    show IntOp.andi (IntOp.cmpi .sge (A[main_call0_v5] (ix4 b n m z)) (A[main_call0_v6] (ix4 b n m z)))
      (IntOp.cmpi .sle (A[main_call0_v5] (ix4 b n m z)) (A[main_call0_v9] (ix4 b n m z))) = 1#1
    rw [adjw_at V hadj, e_call0_v6, e_call0_c_2, e_call0_v9, e_call0_v8, e_call0_c_1]
    show IntOp.andi (IntOp.cmpi .sge (V (main_arg2 : DevRef τ sig) (ix3 b n m)) 0#32)
      (IntOp.cmpi .sle (V (main_arg2 : DevRef τ sig) (ix3 b n m)) 9999#32) = 1#1
    rw [sge_zero_of_le (hadj _), sle_last_of_le (hadj _)]
    rfl
  · rw [e_call0_c_3]
    rfl

/-- The gathered neighbour rows: the mask lets every row through, and the row read is the neighbour word's. -/
theorem take_at (b : Fin 2) (n : Fin 10000) (m : Fin 16) (f : Fin 128) :
    A[main_v4] (ix4 b n m f) = V (main_arg0 : DevRef τ sig) (ix3 b (nbr (V (main_arg2 : DevRef τ sig)) b n m) f) := by
  have hmask : A[main_call0_v14] (ix4 b n m f) = 1#1 := by
    rw [e_call0_v14]
    exact (broadcastInDim_apply _ _ _ (ix4 b n m f) (ix3 b n m) (fun a => by
      match a with
      | ⟨0, _⟩ => rfl
      | ⟨1, _⟩ => rfl
      | ⟨2, _⟩ => rfl)).trans (mask_at V hadj _)
  have hg : A[main_call0_v13] (ix4 b n m f)
      = V (main_arg0 : DevRef τ sig) (ix3 b (nbr (V (main_arg2 : DevRef τ sig)) b n m) f) := by
    rw [e_call0_v13, a0]
    have hd : gather_S2x10000x128_S2x10000x16x1_S2x10000x16x128_3_1_0_0_1_3_11128
        = Cert.LibBatchGather.rowsDims4 2 10000 128 10000 16 gather_S2x10000x128_S2x10000x16x1_S2x10000x16x128_3_1_0_0_1_3_11128_wf := rfl
    rw [hd]
    refine (Cert.LibBatchGather.gather_rows4_apply (by decide) _ _ _ b n m f).trans ?_
    congr 1
    funext a
    refine Fin.ext ?_
    match a with
    | ⟨0, _⟩ => rfl
    | ⟨1, _⟩ =>
      show min (A[main_call0_v5] (ix4 b n m ⟨0, Nat.one_pos⟩)).toInt.toNat (10000 - 1) = min (V (main_arg2 : DevRef τ sig) (ix3 b n m)).toNat 9999
      rw [adjw_at V hadj, toInt_toNat_of_le (hadj _)]
    | ⟨2, _⟩ => rfl
  rw [e_v4, select_apply, hmask, select_one, hg]

/-- The neighbours' rooted features. -/
theorem rootnb_at (b : Fin 2) (n : Fin 10000) (m : Fin 16) (f : Fin 128) :
    A[main_v8] (ix4 b n m f) = root (V (main_arg0 : DevRef τ sig) (ix3 b (nbr (V (main_arg2 : DevRef τ sig)) b n m) f)) := by
  rw [e_v8, e_v6, e_v7, e_v5, e_cst_1, e_cst_2]
  show Ideal.pow (Ideal.pow (A[main_v4] (ix4 b n m f)) cTwo) cQuarter = _
  rw [take_at V hadj]
  rfl
end Stage0

section Stage0b

variable (V : Valuation τ sig (Elt Ideal))

local notation "A[" r "]" => after (ops (F := Ideal)) V (r : DevRef τ sig)

/-- A bond's sum of squares. -/
theorem bondS_at (b : Fin 2) (n : Fin 10000) (m : Fin 16) :
    A[main_v11] (ix3 b n m) = ∑ k : Fin 16, Ideal.pow (V (main_arg1 : DevRef τ sig) (ix4 b n m k)) cTwo := by
  rw [e_v11]
  refine (reduceAdd_at _ _ _ _ red_bond (by rw [e_cst_4]; exact Ideal.ofBits_zero_f32) _).trans ?_
  refine Finset.sum_congr rfl fun (k : Fin 16) _ => ?_
  refine (congrArg (after (ops (F := Ideal)) V (main_v10 : DevRef τ sig)) (lift_bond b n m k)).trans ?_
  rw [e_v10, powf_at, e_v9, e_cst_3, splat_at, a1]

/-- A bond's inverse squared length. -/
theorem bondInv_at (b : Fin 2) (n : Fin 10000) (m : Fin 16) :
    A[main_v15] (ix3 b n m) = bondInv (V (main_arg1 : DevRef τ sig)) b n m := by
  rw [e_v15, powf_at, e_v13, powf_at, e_v14, e_cst_6, splat_at, e_v12, e_cst_5, splat_at, bondS_at]
  rfl

/-- The sum of a node's sixteen absolute inverse lengths, kept above eps. -/
theorem bondNorm_at (b : Fin 2) (n : Fin 10000) (z : Fin 1) :
    A[main_v20] (ix3 b n z) = max (∑ m : Fin 16, max (bondInv (V (main_arg1 : DevRef τ sig)) b n m)
      (-(bondInv (V (main_arg1 : DevRef τ sig)) b n m))) cEps := by
  rw [e_v20, maximumf_apply, e_v19, e_cst_8, splat_at, e_v18]
  rw [broadcastInDim_apply _ _ _ (ix3 b n z) (ix2 b n) (fun a => by
    match a with
    | ⟨0, _⟩ => rfl
    | ⟨1, _⟩ => rfl)]
  rw [e_v17]
  rw [reduceAdd_at _ _ _ _ red_inv (by rw [e_cst_7]; exact Ideal.ofBits_zero_f32)]
  refine congrArg (fun t => max t cEps) ?_
  refine Finset.sum_congr rfl fun (m : Fin 16) _ => ?_
  refine (congrArg (after (ops (F := Ideal)) V (main_v16 : DevRef τ sig)) (lift_inv b n m)).trans ?_
  rw [e_v16, habsf_at, bondInv_at]

/-- A bond's weight. -/
theorem bondW_at (b : Fin 2) (n : Fin 10000) (m : Fin 16) :
    A[main_v22] (ix3 b n m) = bondW (V (main_arg1 : DevRef τ sig)) b n m := by
  rw [e_v22, hdivf_at, e_v21]
  rw [broadcastInDim_apply _ _ _ (ix3 b n m) (ix3 b n (⟨0, Nat.one_pos⟩ : Fin 1)) (fun a => by
    match a with
    | ⟨0, _⟩ => rfl
    | ⟨1, _⟩ => rfl
    | ⟨2, _⟩ => rfl)]
  rw [bondInv_at, bondNorm_at]
  rfl

variable (hadj : ∀ j, (V (main_arg2 : DevRef τ sig) j).toNat ≤ 9999)
include hadj

/-- The weighted sum of the neighbours' rooted features. -/
theorem anw_at (b : Fin 2) (n : Fin 10000) (f : Fin 128) :
    A[main_v26] (ix3 b n f) = anw (V (main_arg0 : DevRef τ sig)) (V (main_arg1 : DevRef τ sig)) (V (main_arg2 : DevRef τ sig)) b n f := by
  rw [e_v26]
  refine (reduceAdd_at _ _ _ _ red_nb (by rw [e_cst_9]; exact Ideal.ofBits_zero_f32) _).trans ?_
  refine Finset.sum_congr rfl fun (m : Fin 16) _ => ?_
  refine (congrArg (after (ops (F := Ideal)) V (main_v25 : DevRef τ sig)) (lift_nb b n f m)).trans ?_
  rw [e_v25, mulf_apply, e_v24, e_v23]
  rw [broadcastInDim_apply _ _ _ (ix4 b n m f) (ix4 b n m (⟨0, Nat.one_pos⟩ : Fin 1)) (fun a => by
    match a with
    | ⟨0, _⟩ => rfl
    | ⟨1, _⟩ => rfl
    | ⟨2, _⟩ => rfl
    | ⟨3, _⟩ => rfl)]
  rw [broadcastInDim_apply _ _ _ (ix4 b n m (⟨0, Nat.one_pos⟩ : Fin 1)) (ix3 b n m) (fun a => by
    match a with
    | ⟨0, _⟩ => rfl
    | ⟨1, _⟩ => rfl
    | ⟨2, _⟩ => rfl)]
  rw [bondW_at, rootnb_at V hadj]

/-- Result 0 at (b, n, f). -/
theorem au_at (b : Fin 2) (n : Fin 10000) (f : Fin 128) :
    A[main_v32] (ix3 b n f) = auAt (V (main_arg0 : DevRef τ sig)) (V (main_arg1 : DevRef τ sig)) (V (main_arg2 : DevRef τ sig))
      (V (main_arg4 : DevRef τ sig)) (V (main_arg7 : DevRef τ sig)) b n f := by
  have hd : dot_S2x10000x128_S128x128_S2x10000x128_2_0_01_1_n_n
      = rowsDot 2 10000 128 128 dot_S2x10000x128_S128x128_S2x10000x128_2_0_01_1_n_n_wf := rfl
  rw [e_v32, maximumf_apply, e_call1_v0, e_call1_cst, splat_at, Ideal.ofBits_zero_f32, e_v31, addf_apply, e_v30, e_v29,
    e_v28, a4, a7, Host.dotGeneral, hd, rowsDot_at]
  rw [broadcastInDim_apply _ _ _ (ix3 b n f) (ix3 (⟨0, Nat.one_pos⟩ : Fin 1) (⟨0, Nat.one_pos⟩ : Fin 1) f) (fun a => by
    match a with
    | ⟨0, _⟩ => rfl
    | ⟨1, _⟩ => rfl
    | ⟨2, _⟩ => rfl)]
  rw [broadcastInDim_apply _ _ _ (ix3 (⟨0, Nat.one_pos⟩ : Fin 1) (⟨0, Nat.one_pos⟩ : Fin 1) f) (ix1 f) (fun a => by
    match a with
    | ⟨0, _⟩ => rfl)]
  unfold auAt
  congr 2
  refine Finset.sum_congr rfl fun (k : Fin 128) _ => ?_
  rw [e_v27, mulf_apply, root_at, anw_at V hadj]

end Stage0b

/-- Result 0 of the reference, for neighbour words in range: `refAU` of the arguments. -/
theorem res0_eq (V : Valuation τ sig (Elt Ideal)) (hadj : ∀ j, (V (main_arg2 : DevRef τ sig) j).toNat ≤ 9999) :
    after (ops (F := Ideal)) V (main_v32 : DevRef τ sig)
      = refAU (V (main_arg0 : DevRef τ sig)) (V (main_arg1 : DevRef τ sig)) (V (main_arg2 : DevRef τ sig))
          (V (main_arg4 : DevRef τ sig)) (V (main_arg7 : DevRef τ sig)) := by
  funext j
  obtain ⟨b, n, f, rfl⟩ : ∃ (b : Fin 2) (n : Fin 10000) (f : Fin 128), j = ix3 b n f := ⟨j 0, j 1, j 2, eq_ix3 j⟩
  exact au_at V hadj b n f

/-! ## Result 1, stage by stage, each at an index -/

section Stage1

variable (V : Valuation τ sig (Elt Ideal))

local notation "A[" r "]" => after (ops (F := Ideal)) V (r : DevRef τ sig)
local notation "AU" => refAU (V (main_arg0 : DevRef τ sig)) (V (main_arg1 : DevRef τ sig)) (V (main_arg2 : DevRef τ sig))
  (V (main_arg4 : DevRef τ sig)) (V (main_arg7 : DevRef τ sig))

/-- The endpoint words as one row per batch: position 2 e + p holds bond e's endpoint p. -/
theorem tupw_at (b : Fin 2) (e : Fin 160000) (p : Fin 2) :
    A[main_v33] (ix2 b (⟨2 * e.val + p.val, by omega⟩ : Fin 320000)) = V (main_arg3 : DevRef τ sig) (ix3 b e p) := by
  rw [e_v33, a3]
  refine shapeCast_apply _ _ _ (ix3 b e p) ?_
  rw [Shape.rowMajor_val_three, Shape.rowMajor_val_two]
  show (b.val * 160000 + e.val) * 2 + p.val = b.val * 320000 + (2 * e.val + p.val)
  omega

variable (htup : ∀ j, (V (main_arg3 : DevRef τ sig) j).toNat ≤ 9999)
include htup

/-- The wrapped endpoint word is the word itself: it is not negative. -/
theorem tupi_at (b : Fin 2) (e : Fin 160000) (p : Fin 2) (z : Fin 1) :
    A[main_call2_v5] (ix3 b (⟨2 * e.val + p.val, by omega⟩ : Fin 320000) z) = V (main_arg3 : DevRef τ sig) (ix3 b e p) := by
  rw [e_call2_v5]
  rw [broadcastInDim_apply _ _ _ (ix3 b (⟨2 * e.val + p.val, by omega⟩ : Fin 320000) z)
    (ix2 b (⟨2 * e.val + p.val, by omega⟩ : Fin 320000)) (fun a => by
    match a with
    | ⟨0, _⟩ => rfl
    | ⟨1, _⟩ => rfl)]
  rw [e_call2_v4, select_apply, e_call2_v1, cmpi_at, e_call2_v0, e_call2_c, splatI_at, tupw_at,
    slt_zero_of_le (htup _), select_zero]

/-- The in-range mask of the endpoint words is one everywhere. -/
theorem mask2_at (j : S2x320000.Idx) : A[main_call2_v12] j = 1#1 := by
  rw [e_call2_v12]
  refine reduce_andi_all_one _ _ _ _ (fun i => ?_) (fun i => ?_) j
  · obtain ⟨b, e', z, rfl⟩ : ∃ (b : Fin 2) (e' : Fin 320000) (z : Fin 1), i = ix3 b e' z := ⟨i 0, i 1, i 2, eq_ix3 i⟩
    obtain ⟨e, p, rfl⟩ : ∃ (e : Fin 160000) (p : Fin 2), e' = (⟨2 * e.val + p.val, by omega⟩ : Fin 320000) :=
      ⟨⟨e'.val / 2, by omega⟩, ⟨e'.val % 2, by omega⟩, Fin.ext (by simp only; omega)⟩
    rw [e_call2_v11, andi_at, e_call2_v7, cmpi_at, e_call2_v10, cmpi_at, tupi_at V htup, e_call2_v6, e_call2_c_2, splatI_at,
      e_call2_v9, e_call2_v8, e_call2_c_1, sge_zero_of_le (htup _)]
    show IntOp.andi 1#1 (IntOp.cmpi .sle (V (main_arg3 : DevRef τ sig) (ix3 b e p)) 9999#32) = 1#1
    rw [sle_last_of_le (htup _)]
    rfl
  · rw [e_call2_c_3]
    rfl

variable (hadj : ∀ j, (V (main_arg2 : DevRef τ sig) j).toNat ≤ 9999)
include hadj

/-- The gathered endpoint rows of result 0. -/
theorem take2_at (b : Fin 2) (e : Fin 160000) (p : Fin 2) (c : Fin 128) :
    A[main_v34] (ix3 b (⟨2 * e.val + p.val, by omega⟩ : Fin 320000) c)
      = AU (ix3 b (endRow (V (main_arg3 : DevRef τ sig)) b e p) c) := by
  have hmask : A[main_call2_v14] (ix3 b (⟨2 * e.val + p.val, by omega⟩ : Fin 320000) c) = 1#1 := by
    rw [e_call2_v14]
    exact (broadcastInDim_apply _ _ _ (ix3 b (⟨2 * e.val + p.val, by omega⟩ : Fin 320000) c)
      (ix2 b (⟨2 * e.val + p.val, by omega⟩ : Fin 320000)) (fun a => by
      match a with
      | ⟨0, _⟩ => rfl
      | ⟨1, _⟩ => rfl)).trans (mask2_at V htup _)
  have hg : A[main_call2_v13] (ix3 b (⟨2 * e.val + p.val, by omega⟩ : Fin 320000) c)
      = AU (ix3 b (endRow (V (main_arg3 : DevRef τ sig)) b e p) c) := by
    rw [e_call2_v13, res0_eq V hadj]
    have hd : gather_S2x10000x128_S2x320000x1_S2x320000x128_2_1_0_0_1_2_11128
        = Cert.LibBatchGather.rowsDims3 2 10000 128 320000 gather_S2x10000x128_S2x320000x1_S2x320000x128_2_1_0_0_1_2_11128_wf := rfl
    rw [hd]
    refine (Cert.LibBatchGather.gather_rows3_apply (by decide) _ _ _ b _ c).trans ?_
    congr 1
    funext a
    refine Fin.ext ?_
    match a with
    | ⟨0, _⟩ => rfl
    | ⟨1, _⟩ =>
      show min (A[main_call2_v5] (ix3 b (⟨2 * e.val + p.val, by omega⟩ : Fin 320000) ⟨0, Nat.one_pos⟩)).toInt.toNat (10000 - 1)
        = min (V (main_arg3 : DevRef τ sig) (ix3 b e p)).toNat 9999
      rw [tupi_at V htup, toInt_toNat_of_le (htup _)]
    | ⟨2, _⟩ => rfl
  rw [e_v34, select_apply, hmask, select_one, hg]

/-- The two endpoints' rows side by side. -/
theorem endFeat_at (b : Fin 2) (e : Fin 160000) (c : Fin 256) :
    A[main_v35] (ix3 b e c) = endFeat AU (V (main_arg3 : DevRef τ sig)) b e c := by
  rw [e_v35]
  rw [shapeCast_apply _ _ (ix3 b e c)
    (ix3 b (⟨2 * e.val + (⟨c.val / 128, by omega⟩ : Fin 2).val, by omega⟩ : Fin 320000) (⟨c.val % 128, by omega⟩ : Fin 128)) (by
      rw [Shape.rowMajor_val_three, Shape.rowMajor_val_three]
      show (b.val * 320000 + (2 * e.val + c.val / 128)) * 128 + c.val % 128 = (b.val * 160000 + e.val) * 256 + c.val
      omega)]
  rw [take2_at V htup hadj]
  rfl

/-- A column's sum of absolute values over all bonds, kept above eps. -/
theorem colNorm_at (b : Fin 2) (z : Fin 1) (c : Fin 256) :
    A[main_v40] (ix3 b z c) = max (∑ e : Fin 160000, max (endFeat AU (V (main_arg3 : DevRef τ sig)) b e c)
      (-(endFeat AU (V (main_arg3 : DevRef τ sig)) b e c))) cEps := by
  rw [e_v40, maximumf_apply, e_v39, e_cst_11, splat_at, e_v38]
  rw [broadcastInDim_apply _ _ _ (ix3 b z c) (ix2 b c) (fun a => by
    match a with
    | ⟨0, _⟩ => rfl
    | ⟨1, _⟩ => rfl)]
  rw [e_v37]
  rw [reduceAdd_at _ _ _ _ red_col (by rw [e_cst_10]; exact Ideal.ofBits_zero_f32)]
  refine congrArg (fun t => max t cEps) ?_
  refine Finset.sum_congr rfl fun (e : Fin 160000) _ => ?_
  refine (congrArg (after (ops (F := Ideal)) V (main_v36 : DevRef τ sig)) (lift_col b c e)).trans ?_
  rw [e_v36, habsf_at, endFeat_at V htup hadj]

/-- The normalised endpoint columns. -/
theorem endN_at (b : Fin 2) (e : Fin 160000) (c : Fin 256) :
    A[main_v42] (ix3 b e c) = endN AU (V (main_arg3 : DevRef τ sig)) b e c := by
  rw [e_v42, hdivf_at, e_v41]
  rw [broadcastInDim_apply _ _ _ (ix3 b e c) (ix3 b (⟨0, Nat.one_pos⟩ : Fin 1) c) (fun a => by
    match a with
    | ⟨0, _⟩ => rfl
    | ⟨1, _⟩ => rfl
    | ⟨2, _⟩ => rfl)]
  rw [endFeat_at V htup hadj, colNorm_at V htup hadj]
  rfl

/-- The updated bond features. -/
theorem bondNew_at (b : Fin 2) (e : Fin 160000) (k : Fin 16) :
    A[main_v49] (ix3 b e k) = bondNew AU (V (main_arg1 : DevRef τ sig)) (V (main_arg3 : DevRef τ sig))
      (V (main_arg6 : DevRef τ sig)) (V (main_arg9 : DevRef τ sig)) b e k := by
  have hd : dot_S2x160000x256_S256x16_S2x160000x16_2_0_01_1_n_n
      = rowsDot 2 160000 256 16 dot_S2x160000x256_S256x16_S2x160000x16_2_0_01_1_n_n_wf := rfl
  rw [e_v49, addf_apply, e_v48, a1, e_v47, htanh_at, e_v46, addf_apply, e_v45, e_v44, a9, e_v43, a6, Host.dotGeneral, hd,
    rowsDot_at]
  rw [shapeCast_apply _ _ (ix3 b e k) (ix4 b (⟨e.val / 16, by omega⟩ : Fin 10000) (⟨e.val % 16, by omega⟩ : Fin 16) k) (by
      rw [Shape.rowMajor_val_four, Shape.rowMajor_val_three]
      show ((b.val * 10000 + e.val / 16) * 16 + e.val % 16) * 16 + k.val = (b.val * 160000 + e.val) * 16 + k.val
      omega)]
  rw [broadcastInDim_apply _ _ _ (ix3 b e k) (ix3 (⟨0, Nat.one_pos⟩ : Fin 1) (⟨0, Nat.one_pos⟩ : Fin 1) k) (fun a => by
    match a with
    | ⟨0, _⟩ => rfl
    | ⟨1, _⟩ => rfl
    | ⟨2, _⟩ => rfl)]
  rw [broadcastInDim_apply _ _ _ (ix3 (⟨0, Nat.one_pos⟩ : Fin 1) (⟨0, Nat.one_pos⟩ : Fin 1) k) (ix1 k) (fun a => by
    match a with
    | ⟨0, _⟩ => rfl)]
  unfold bondNew
  simp only [endN_at V htup hadj]

/-- Result 1 at (b, n, m, o). -/
theorem bu_at (b : Fin 2) (n : Fin 10000) (m : Fin 16) (o : Fin 16) :
    A[main_v54] (ix4 b n m o) = buAt AU (V (main_arg1 : DevRef τ sig)) (V (main_arg3 : DevRef τ sig))
      (V (main_arg5 : DevRef τ sig)) (V (main_arg6 : DevRef τ sig)) (V (main_arg8 : DevRef τ sig)) (V (main_arg9 : DevRef τ sig))
      b n m o := by
  have hd : dot_S2x160000x16_S16x16_S2x160000x16_2_0_01_1_n_n
      = rowsDot 2 160000 16 16 dot_S2x160000x16_S16x16_S2x160000x16_2_0_01_1_n_n_wf := rfl
  rw [e_v54, addf_apply, e_v53, e_v52, a8, e_v51]
  rw [shapeCast_apply _ _ (ix4 b n m o) (ix3 b (⟨16 * n.val + m.val, by omega⟩ : Fin 160000) o) (by
      rw [Shape.rowMajor_val_three, Shape.rowMajor_val_four]
      show (b.val * 160000 + (16 * n.val + m.val)) * 16 + o.val = ((b.val * 10000 + n.val) * 16 + m.val) * 16 + o.val
      omega)]
  rw [e_v50, a5, Host.dotGeneral, hd, rowsDot_at]
  rw [broadcastInDim_apply _ _ _ (ix4 b n m o)
    (ix4 (⟨0, Nat.one_pos⟩ : Fin 1) (⟨0, Nat.one_pos⟩ : Fin 1) (⟨0, Nat.one_pos⟩ : Fin 1) o) (fun a => by
    match a with
    | ⟨0, _⟩ => rfl
    | ⟨1, _⟩ => rfl
    | ⟨2, _⟩ => rfl
    | ⟨3, _⟩ => rfl)]
  rw [broadcastInDim_apply _ _ _ (ix4 (⟨0, Nat.one_pos⟩ : Fin 1) (⟨0, Nat.one_pos⟩ : Fin 1) (⟨0, Nat.one_pos⟩ : Fin 1) o)
    (ix1 o) (fun a => by
    match a with
    | ⟨0, _⟩ => rfl)]
  unfold buAt
  simp only [bondNew_at V htup hadj]

end Stage1

/-- Result 1 of the reference, for neighbour and endpoint words in range: `refBU` of the arguments. -/
theorem res1_eq (V : Valuation τ sig (Elt Ideal)) (hadj : ∀ j, (V (main_arg2 : DevRef τ sig) j).toNat ≤ 9999)
    (htup : ∀ j, (V (main_arg3 : DevRef τ sig) j).toNat ≤ 9999) :
    after (ops (F := Ideal)) V (main_v54 : DevRef τ sig)
      = refBU (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  funext j
  obtain ⟨b, n, m, o, rfl⟩ : ∃ (b : Fin 2) (n : Fin 10000) (m : Fin 16) (o : Fin 16), j = ix4 b n m o :=
    ⟨j 0, j 1, j 2, j 3, eq_ix4 j⟩
  exact bu_at V htup hadj b n m o

end Cert.ReferenceIdeal.RefValue

end
-- ==== Proof.Laws.lean ====
/- The laws on the extended reals that join this certificate's two programs, stated with no program in
   sight. The reference takes the fourth root of a square, `(x ^ 2) ^ (1/4)`, where the kernel takes
   `√|x|`; it takes `(s ^ (1/2)) ^ (-2)` where the kernel takes `1 / s`; it divides where the kernel
   multiplies by a reciprocal; and it takes an absolute value of a number that is already a maximum with
   zero. Each literal of the programs is read here once as the real number its bit pattern denotes. -/
import Idealize.ShloMosaic.PureOps.Ideal
import Mathlib.Analysis.SpecialFunctions.Pow.Real
import Mathlib.Data.EReal.Inv
import Mathlib.Algebra.BigOperators.Group.Finset.Basic

noncomputable section

namespace Cert.Laws

open Idealize.ShloMosaic
open scoped BigOperators

/-! ### The literals -/

/-- `0.0` denotes `0`. -/
theorem ofBits_zero : Ideal.ofBits .f32 0x00000000#32 = 0 := by
  simp [Ideal.ofBits, Ideal.ieee]

/-- `1.0`: exponent field `127`, significand `2^23`, so `2^23 · 2^(127-127-23) = 1`. -/
theorem ofBits_one : Ideal.ofBits .f32 0x3F800000#32 = ((1 : ℝ) : EReal) := by
  simp [Ideal.ofBits, Ideal.ieee, -EReal.coe_mul]; norm_num

/-- `2.0`: exponent field `128`. -/
theorem ofBits_two : Ideal.ofBits .f32 0x40000000#32 = ((2 : ℝ) : EReal) := by
  simp [Ideal.ofBits, Ideal.ieee, -EReal.coe_mul]; norm_num

/-- `0.25`: exponent field `125`. -/
theorem ofBits_quarter : Ideal.ofBits .f32 0x3E800000#32 = ((1 / 4 : ℝ) : EReal) := by
  simp [Ideal.ofBits, Ideal.ieee, -EReal.coe_mul]; norm_num

/-- `0.5`: exponent field `126`. -/
theorem ofBits_half : Ideal.ofBits .f32 0x3F000000#32 = ((1 / 2 : ℝ) : EReal) := by
  simp [Ideal.ofBits, Ideal.ieee, -EReal.coe_mul]; norm_num

/-- `-2.0`: the sign bit set, exponent field `128`. -/
theorem ofBits_neg_two : Ideal.ofBits .f32 0xC0000000#32 = ((-2 : ℝ) : EReal) := by
  simp [Ideal.ofBits, Ideal.ieee, -EReal.coe_mul]; norm_num

/-- `1e-12` rounded to `f32`: exponent field `87`, significand `2^23 + 834764`; a positive real. -/
theorem eps_real : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

theorem eps_pos : (0 : EReal) < Ideal.ofBits .f32 0x2B8CBCCC#32 := by
  obtain ⟨e, he, h⟩ := eps_real
  rw [h]; exact_mod_cast he

/-! ### Real values stay real -/

/-- The absolute value as the programs spell it, `max x (-x)`, of a real is the real `|x|`. -/
theorem max_neg_coe (x : ℝ) : max (x : EReal) (-(x : EReal)) = ((|x| : ℝ) : EReal) := by
  rw [← EReal.coe_neg, ← EReal.coe_strictMono.monotone.map_max]; rfl

/-- The maximum of two reals is a real. -/
theorem max_coe (a b : ℝ) : max (a : EReal) (b : EReal) = ((max a b : ℝ) : EReal) :=
  (EReal.coe_strictMono.monotone.map_max).symm

/-- The square root of a nonnegative real is the real square root. -/
theorem sqrt_coe_of_nonneg {r : ℝ} (h : 0 ≤ r) : Ideal.sqrt (r : EReal) = ((Real.sqrt r : ℝ) : EReal) := by
  rw [Ideal.sqrt_coe, if_neg (not_lt.mpr h)]

/-- A quotient of reals by a nonzero real is the real quotient. -/
theorem div_coe_coe (x : ℝ) {m : ℝ} (hm : m ≠ 0) : Ideal.div (x : EReal) (m : EReal) = ((x / m : ℝ) : EReal) := by
  rw [Ideal.div_coe hm, ← EReal.coe_mul, mul_one_div]

/-- A finite sum of reals, summed in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same, for a summand known to be real at each index of the sum. -/
theorem sum_eq_coe {ι : Type*} (s : Finset ι) (f : ι → EReal) (g : ι → ℝ) (h : ∀ i ∈ s, f i = (g i : EReal)) :
    ∑ i ∈ s, f i = ((∑ i ∈ s, g i : ℝ) : EReal) := by
  rw [Finset.sum_congr rfl h, sum_coe]

/-- The maximum with zero of a real is a real. -/
theorem max_zero_coe (a : ℝ) : max (a : EReal) 0 = ((max a 0 : ℝ) : EReal) := by
  rw [← EReal.coe_zero, max_coe]

/-- The hyperbolic tangent of a real is the real one. -/
theorem tanh_coe (r : ℝ) : Ideal.tanh (r : EReal) = ((Real.tanh r : ℝ) : EReal) := rfl

/-- The maximum of a real with the small positive literal is a positive real. -/
theorem max_eps (s : ℝ) :
    ∃ m : ℝ, 0 < m ∧ max (s : EReal) (Ideal.ofBits .f32 0x2B8CBCCC#32) = (m : EReal) := by
  obtain ⟨e, he, h⟩ := eps_real
  exact ⟨max s e, lt_max_of_lt_right he, by rw [h, max_coe]⟩

/-- The absolute value, `max y (-y)`, of a nonnegative extended real is itself. -/
theorem max_neg_of_nonneg {y : EReal} (h : 0 ≤ y) : max y (-y) = y :=
  max_eq_left ((EReal.neg_le.mp (by rw [neg_zero]; exact h)).trans h)

/-- The root of the absolute value of a real is a real. -/
theorem sqrt_abs_coe (x : ℝ) :
    Ideal.sqrt (max (x : EReal) (-(x : EReal))) = ((Real.sqrt |x| : ℝ) : EReal) := by
  rw [max_neg_coe, sqrt_coe_of_nonneg (abs_nonneg x)]

/-- The reciprocal of a positive real is the positive real `1 / s`. -/
theorem one_div_coe {s : ℝ} (hs : 0 < s) : Ideal.div 1 (s : EReal) = ((1 / s : ℝ) : EReal) := by
  rw [Ideal.div_coe hs.ne', one_mul]

/-! ### The four laws -/

/-- A square is a product: `x ^ 2 = x · x`. -/
theorem pow_two_eq_mul (x : ℝ) : Ideal.pow (x : EReal) ((2 : ℝ) : EReal) = (x : EReal) * (x : EReal) := by
  rw [Ideal.pow_coe_coe, ← EReal.coe_mul]
  congr 1
  show x ^ (2 : ℝ) = x * x
  rw [Real.rpow_two, sq]

/-- The fourth root of a square is the root of the absolute value: `x ^ 2 = |x| ^ 2` is nonnegative, so
    `(|x| ^ 2) ^ (1/4) = |x| ^ (2 · 1/4) = |x| ^ (1/2) = √|x|`. -/
theorem pow_sq_quarter (x : ℝ) :
    Ideal.pow (Ideal.pow (x : EReal) ((2 : ℝ) : EReal)) ((1 / 4 : ℝ) : EReal)
      = Ideal.sqrt (max (x : EReal) (-(x : EReal))) := by
  rw [Ideal.pow_coe_coe, Ideal.pow_coe_coe, max_neg_coe, sqrt_coe_of_nonneg (abs_nonneg x)]
  congr 1
  show (x ^ (2 : ℝ)) ^ (1 / 4 : ℝ) = Real.sqrt |x|
  rw [Real.sqrt_eq_rpow, Real.rpow_two, ← sq_abs, ← Real.rpow_two, ← Real.rpow_mul (abs_nonneg x)]
  norm_num

/-- For a positive `s`, `(s ^ (1/2)) ^ (-2) = s ^ (-1) = 1 / s`. -/
theorem pow_half_neg_two (s : ℝ) (hs : 0 < s) :
    Ideal.pow (Ideal.pow (s : EReal) ((1 / 2 : ℝ) : EReal)) ((-2 : ℝ) : EReal) = Ideal.div 1 (s : EReal) := by
  rw [Ideal.pow_coe_coe, Ideal.pow_coe_coe, Ideal.div_coe hs.ne', one_mul]
  congr 1
  show (s ^ (1 / 2 : ℝ)) ^ (-2 : ℝ) = 1 / s
  have e : (1 / 2 : ℝ) * (-2) = -1 := by norm_num
  rw [← Real.rpow_mul hs.le, e, Real.rpow_neg_one, one_div]

/-- A product with a reciprocal is the quotient. -/
theorem mul_one_div (x m : ℝ) (hm : 0 < m) :
    (x : EReal) * Ideal.div 1 (m : EReal) = Ideal.div (x : EReal) (m : EReal) := by
  rw [Ideal.div_coe hm.ne', Ideal.div_coe hm.ne', one_mul]

/-- The absolute value of a maximum with zero is that maximum: it is nonnegative, so its negation is below it. -/
theorem abs_of_max_zero (y : EReal) : max (max y 0) (-(max y 0)) = max y 0 :=
  max_neg_of_nonneg (le_max_right _ _)

/-! ### The same laws in the programs' own spelling

The host's `power` and `divide` and the kernel's `divf`, `mulf`, `sqrt`, `absf`, `maximumf` are, at the
extended reals, the operations above by definition; the literals are the words the programs carry. -/

theorem ofBits_one' : Ideal.ofBits .f32 0x3F800000#32 = 1 := by rw [ofBits_one, EReal.coe_one]

/-- `power (power x 2.0) 0.25 = sqrt (absf x)`. -/
theorem hostPowf_sq_quarter (x : ℝ) :
    FloatOps.hostPowf (F := Ideal) (φ := .f32)
        (FloatOps.hostPowf (F := Ideal) (φ := .f32) (x : EReal) (FloatOps.ofBits (F := Ideal) .f32 0x40000000#32))
        (FloatOps.ofBits (F := Ideal) .f32 0x3E800000#32)
      = FloatOps.sqrt (F := Ideal) (φ := .f32) (FloatOps.absf (F := Ideal) (φ := .f32) (x : EReal)) := by
  show Ideal.pow (Ideal.pow (x : EReal) (Ideal.ofBits .f32 0x40000000#32)) (Ideal.ofBits .f32 0x3E800000#32)
      = Ideal.sqrt (max (x : EReal) (-(x : EReal)))
  rw [ofBits_two, ofBits_quarter, pow_sq_quarter]

/-- `power (power s 0.5) (-2.0) = divf 1.0 s` for a positive `s`. -/
theorem hostPowf_half_neg_two (s : ℝ) (hs : 0 < s) :
    FloatOps.hostPowf (F := Ideal) (φ := .f32)
        (FloatOps.hostPowf (F := Ideal) (φ := .f32) (s : EReal) (FloatOps.ofBits (F := Ideal) .f32 0x3F000000#32))
        (FloatOps.ofBits (F := Ideal) .f32 0xC0000000#32)
      = FloatOps.divf (F := Ideal) (φ := .f32) (FloatOps.ofBits (F := Ideal) .f32 0x3F800000#32) (s : EReal) := by
  show Ideal.pow (Ideal.pow (s : EReal) (Ideal.ofBits .f32 0x3F000000#32)) (Ideal.ofBits .f32 0xC0000000#32)
      = Ideal.div (Ideal.ofBits .f32 0x3F800000#32) (s : EReal)
  rw [ofBits_half, ofBits_neg_two, ofBits_one', pow_half_neg_two s hs]

/-- `power x 2.0 = mulf x x`. -/
theorem hostPowf_two_eq_mulf (x : ℝ) :
    FloatOps.hostPowf (F := Ideal) (φ := .f32) (x : EReal) (FloatOps.ofBits (F := Ideal) .f32 0x40000000#32)
      = FloatOps.mulf (F := Ideal) (φ := .f32) (x : EReal) (x : EReal) := by
  show Ideal.pow (x : EReal) (Ideal.ofBits .f32 0x40000000#32) = (x : EReal) * (x : EReal)
  rw [ofBits_two, pow_two_eq_mul]

/-- `mulf x (divf 1.0 m) = divide x m` for a positive `m`. -/
theorem mulf_one_divf (x m : ℝ) (hm : 0 < m) :
    FloatOps.mulf (F := Ideal) (φ := .f32) (x : EReal)
        (FloatOps.divf (F := Ideal) (φ := .f32) (FloatOps.ofBits (F := Ideal) .f32 0x3F800000#32) (m : EReal))
      = FloatOps.hostDivf (F := Ideal) (φ := .f32) (x : EReal) (m : EReal) := by
  show (x : EReal) * Ideal.div (Ideal.ofBits .f32 0x3F800000#32) (m : EReal) = Ideal.div (x : EReal) (m : EReal)
  rw [ofBits_one', mul_one_div x m hm]

/-- `abs (maximum y 0.0) = maximum y 0.0`. -/
theorem hostAbsf_maximumf_zero (y : EReal) :
    FloatOps.hostAbsf (F := Ideal) (φ := .f32)
        (FloatOps.maximumf (F := Ideal) (φ := .f32) y (FloatOps.ofBits (F := Ideal) .f32 0x00000000#32))
      = FloatOps.maximumf (F := Ideal) (φ := .f32) y (FloatOps.ofBits (F := Ideal) .f32 0x00000000#32) := by
  show max (max y (Ideal.ofBits .f32 0x00000000#32)) (-(max y (Ideal.ofBits .f32 0x00000000#32)))
      = max y (Ideal.ofBits .f32 0x00000000#32)
  rw [ofBits_zero, abs_of_max_zero]

end Cert.Laws

end
-- ==== Proof.PreFacts.lean ====
/- What the precondition says, read out of the printed predicate. The predicate is a conjunction of eleven
   tests, each an "all elements" of a comparison: eight float arrays are finite (`|x| < +∞`), two integer
   arrays lie in `[0, 9999]` (signed), and every row of `bond` has a positive sum of squares. The first part
   holds at every float instance and gives the integer ranges; the second part is at the extended reals and
   gives "every entry is a real" and the positive real row sums. -/
import proofs.«208461_g52518860095779_cont_9to1_m_1075_29_alg».proof.Proof.Gen.Pre_input_domain
import proofs.«208461_g52518860095779_cont_9to1_m_1075_29_alg».proof.Proof.Laws
import Idealize.ShloMosaic.Lib.ReduceAll
import Idealize.ShloMosaic.Lib.ValueIdx
import Idealize.ShloMosaic.PureOps.Ideal.Laws

noncomputable section

namespace Cert.PreFacts

open Idealize.ShloMosaic Cert.Pre_input_domain

/-- The rank-zero shape has one index. -/
local instance : Subsingleton S_.Idx := ⟨fun a b => funext fun d => d.elim0⟩

/-! ### The conjuncts, at any float instance -/

section Generic

variable {F : FTy → Type} [FloatOps F] [Facts]

/-- `|x| < +∞` as the predicate spells it at one element. -/
def FiniteAt (x : F .f32) : Prop :=
  FloatOps.cmpf .olt (FloatOps.hostAbsf x) (FloatOps.ofBits .f32 0x7F800000#32) = 1#1

/-- `0 ≤ a` and `a ≤ 9999`, both signed, as the predicate spells them at one element. -/
def InRange (a : BitVec 32) : Prop :=
  IntOp.andi (IntOp.cmpi .sge a 0#32) (IntOp.cmpi .sle a 9999#32) = 1#1

/-- The sums of squares along the last axis of `bond`, as the predicate computes them. -/
def rowSq (a1 : FVec F S2x10000x16x16 .f32) : FVec F S2x10000x16 .f32 :=
  Host.reduceAdd (mulf a1 a1) (constant S_ .f32 0x00000000#32) Facts.reducesTo_S2x10000x16x16_S2x10000x16_d3 Facts.h_S_

/-- A row's sum of squares is above zero, as the predicate spells it. -/
def RowPos (a1 : FVec F S2x10000x16x16 .f32) (j : S2x10000x16.Idx) : Prop :=
  FloatOps.cmpf .ogt (rowSq a1 j) (FloatOps.ofBits .f32 0x00000000#32) = 1#1

variable {a0 : FVec F S2x10000x128 .f32} {a1 : FVec F S2x10000x16x16 .f32} {a2 : IVec S2x10000x16 32}
  {a3 : IVec S2x160000x2 32} {a4 : FVec F S128x128 .f32} {a5 : FVec F S16x16 .f32} {a6 : FVec F S256x16 .f32}
  {a7 : FVec F S128 .f32} {a8 : FVec F S16 .f32} {a9 : FVec F S16 .f32}

/-- The predicate is all ones exactly when each of its eleven tests holds at every element: the chain of
    `and`s splits, and an "all" that is one had a one at every element. -/
theorem conjs (h : fn (F := F) a0 a1 a2 a3 a4 a5 a6 a7 a8 a9 = fun _ => 1#1) :
    (∀ i, FiniteAt (a0 i)) ∧ (∀ i, FiniteAt (a1 i)) ∧ (∀ i, FiniteAt (a4 i)) ∧ (∀ i, FiniteAt (a5 i))
      ∧ (∀ i, FiniteAt (a6 i)) ∧ (∀ i, FiniteAt (a7 i)) ∧ (∀ i, FiniteAt (a8 i)) ∧ (∀ i, FiniteAt (a9 i))
      ∧ (∀ j, InRange (a2 j)) ∧ (∀ j, InRange (a3 j)) ∧ (∀ j, RowPos a1 j) := by
  have h0 := congrFun h ValueIdx.ix0
  dsimp only [fn, fn_part1, fn_part2, fn_part3] at h0
  simp only [andi, IntOp.andi_eq_one] at h0
  obtain ⟨⟨⟨⟨⟨⟨⟨⟨⟨⟨c0, c1⟩, c4⟩, c5⟩, c6⟩, c7⟩, c8⟩, c9⟩, c2⟩, c3⟩, cp⟩ := h0
  exact ⟨fun i => Host.reduce_andi_all _ _ _ _ _ c0 i, fun i => Host.reduce_andi_all _ _ _ _ _ c1 i,
    fun i => Host.reduce_andi_all _ _ _ _ _ c4 i, fun i => Host.reduce_andi_all _ _ _ _ _ c5 i,
    fun i => Host.reduce_andi_all _ _ _ _ _ c6 i, fun i => Host.reduce_andi_all _ _ _ _ _ c7 i,
    fun i => Host.reduce_andi_all _ _ _ _ _ c8 i, fun i => Host.reduce_andi_all _ _ _ _ _ c9 i,
    fun j => Host.reduce_andi_all _ _ _ _ _ c2 j, fun j => Host.reduce_andi_all _ _ _ _ _ c3 j,
    fun j => Host.reduce_andi_all _ _ _ _ _ cp j⟩

variable (h : fn (F := F) a0 a1 a2 a3 a4 a5 a6 a7 a8 a9 = fun _ => 1#1)
include h

/-- `atom` is finite. -/
theorem conj0 : ∀ i, FiniteAt (a0 i) := (conjs h).1
/-- `bond` is finite. -/
theorem conj1 : ∀ i, FiniteAt (a1 i) := (conjs h).2.1
/-- `weight_node` is finite. -/
theorem conj2 : ∀ i, FiniteAt (a4 i) := (conjs h).2.2.1
/-- `weight_edge` is finite. -/
theorem conj3 : ∀ i, FiniteAt (a5 i) := (conjs h).2.2.2.1
/-- `weight_node_to_edge` is finite. -/
theorem conj4 : ∀ i, FiniteAt (a6 i) := (conjs h).2.2.2.2.1
/-- `bias_node` is finite. -/
theorem conj5 : ∀ i, FiniteAt (a7 i) := (conjs h).2.2.2.2.2.1
/-- `bias_edge` is finite. -/
theorem conj6 : ∀ i, FiniteAt (a8 i) := (conjs h).2.2.2.2.2.2.1
/-- `bias_node_to_edge` is finite. -/
theorem conj7 : ∀ i, FiniteAt (a9 i) := (conjs h).2.2.2.2.2.2.2.1
/-- `adj_matrix` lies in `[0, 9999]`. -/
theorem conj8 : ∀ j, InRange (a2 j) := (conjs h).2.2.2.2.2.2.2.2.1
/-- `adj_matrix_tuple` lies in `[0, 9999]`. -/
theorem conj9 : ∀ j, InRange (a3 j) := (conjs h).2.2.2.2.2.2.2.2.2.1
/-- Every row of `bond` has a positive sum of squares. -/
theorem conj10 : ∀ j, RowPos a1 j := (conjs h).2.2.2.2.2.2.2.2.2.2

omit h

/-- The two signed tests at one word: its signed value lies in `[0, 9999]`. -/
theorem InRange.toInt {a : BitVec 32} (ha : InRange a) : 0 ≤ a.toInt ∧ a.toInt ≤ 9999 := by
  obtain ⟨h1, h2⟩ := IntOp.andi_eq_one.1 ha
  have e1 := IntOp.cmpi_sge.1 h1
  have e2 := IntOp.cmpi_sle.1 h2
  rw [show (0#32 : BitVec 32).toInt = 0 from by decide] at e1
  rw [show (9999#32 : BitVec 32).toInt = 9999 from by decide] at e2
  exact ⟨e1, e2⟩

/-- A word whose signed value is nonnegative has its top bit clear, so it reads the same unsigned: at most `9999`. -/
theorem InRange.toNat {a : BitVec 32} (ha : InRange a) : a.toNat ≤ 9999 := by
  obtain ⟨h1, h2⟩ := ha.toInt
  have hlt : 2 * a.toNat < 2 ^ 32 := BitVec.toInt_pos_iff.1 h1
  rw [BitVec.toInt_eq_toNat_of_lt hlt] at h2
  omega

include h

theorem adj_range_toInt (j : S2x10000x16.Idx) : 0 ≤ (a2 j).toInt ∧ (a2 j).toInt ≤ 9999 := (conj8 h j).toInt
theorem adj_range (j : S2x10000x16.Idx) : (a2 j).toNat ≤ 9999 := (conj8 h j).toNat
theorem tup_range_toInt (j : S2x160000x2.Idx) : 0 ≤ (a3 j).toInt ∧ (a3 j).toInt ≤ 9999 := (conj9 h j).toInt
theorem tup_range (j : S2x160000x2.Idx) : (a3 j).toNat ≤ 9999 := (conj9 h j).toNat

omit h

end Generic

/-! ### At the extended reals -/

section AtIdeal

variable [Facts]

/-- The pattern of `+∞`. -/
theorem ofBits_inf : Ideal.ofBits .f32 0x7F800000#32 = ⊤ := by simp [Ideal.ofBits, Ideal.ieee]

/-- A comparison word is one exactly when the comparison holds. -/
theorem ofBool_eq_one {b : Bool} : BitVec.ofBool b = 1#1 ↔ b = true := by cases b <;> decide

/-- An extended real whose absolute value is below `+∞` is a real: `|⊥| = |⊤| = ⊤`. -/
theorem FiniteAt.real {x : EReal} (hx : FiniteAt (F := Ideal) x) : ∃ r : ℝ, x = (r : EReal) := by
  have h' : max x (-x) < ⊤ := by
    have e : BitVec.ofBool (decide (max x (-x) < Ideal.ofBits .f32 0x7F800000#32)) = 1#1 := hx
    rw [ofBits_inf, ofBool_eq_one, decide_eq_true_eq] at e
    exact e
  induction x using EReal.rec with
  | bot => simp at h'
  | top => simp at h'
  | coe r => exact ⟨r, rfl⟩

variable {a0 : FVec Ideal S2x10000x128 .f32} {a1 : FVec Ideal S2x10000x16x16 .f32} {a2 : IVec S2x10000x16 32}
  {a3 : IVec S2x160000x2 32} {a4 : FVec Ideal S128x128 .f32} {a5 : FVec Ideal S16x16 .f32}
  {a6 : FVec Ideal S256x16 .f32} {a7 : FVec Ideal S128 .f32} {a8 : FVec Ideal S16 .f32} {a9 : FVec Ideal S16 .f32}

/-- At the extended reals a row's sum of squares, as the predicate computes it, is the sum over the last
    coordinate of the squares: the initial value is zero, and the indices that reduce to `(b, n, m)` are
    `(b, n, m, k)` for `k` in the last axis. -/
theorem rowSq_apply (a1 : FVec Ideal S2x10000x16x16 .f32) (b : Fin 2) (n : Fin 10000) (m : Fin 16) :
    rowSq (F := Ideal) a1 (ValueIdx.ix3 b n m)
      = ∑ k : Fin 16, a1 (ValueIdx.ix4 b n m k) * a1 (ValueIdx.ix4 b n m k) := by
  have hR : S2x10000x16x16.Reduces [3] S2x10000x16 := by decide
  show Ideal.hostReduceAdd Facts.reducesTo_S2x10000x16x16_S2x10000x16_d3 (mulf a1 a1) (Ideal.ofBits .f32 0x00000000#32)
      (ValueIdx.ix3 b n m) = _
  rw [Ideal.hostReduceAdd_single _ hR, Ideal.ofBits_zero_f32, zero_add]
  refine Finset.sum_congr rfl fun k _ => ?_
  have hl : hR.lift (ValueIdx.ix3 b n m) k = ValueIdx.ix4 b n m k := by
    funext e
    match e with
    | ⟨0, _⟩ => rfl
    | ⟨1, _⟩ => rfl
    | ⟨2, _⟩ => rfl
    | ⟨3, _⟩ => rfl
  rw [hl]; rfl

variable (h : fn (F := Ideal) a0 a1 a2 a3 a4 a5 a6 a7 a8 a9 = fun _ => 1#1)
include h

theorem finite_atom (j : S2x10000x128.Idx) : ∃ r : ℝ, a0 j = (r : EReal) := (conj0 h j).real
theorem finite_bond (j : S2x10000x16x16.Idx) : ∃ r : ℝ, a1 j = (r : EReal) := (conj1 h j).real
theorem finite_weight_node (j : S128x128.Idx) : ∃ r : ℝ, a4 j = (r : EReal) := (conj2 h j).real
theorem finite_weight_edge (j : S16x16.Idx) : ∃ r : ℝ, a5 j = (r : EReal) := (conj3 h j).real
theorem finite_weight_node_to_edge (j : S256x16.Idx) : ∃ r : ℝ, a6 j = (r : EReal) := (conj4 h j).real
theorem finite_bias_node (j : S128.Idx) : ∃ r : ℝ, a7 j = (r : EReal) := (conj5 h j).real
theorem finite_bias_edge (j : S16.Idx) : ∃ r : ℝ, a8 j = (r : EReal) := (conj6 h j).real
theorem finite_bias_node_to_edge (j : S16.Idx) : ∃ r : ℝ, a9 j = (r : EReal) := (conj7 h j).real

/-- Every row of `bond` has a positive sum of squares. -/
theorem bond_pos (b : Fin 2) (n : Fin 10000) (m : Fin 16) :
    (0 : EReal) < ∑ k : Fin 16, a1 (ValueIdx.ix4 b n m k) * a1 (ValueIdx.ix4 b n m k) := by
  have e : BitVec.ofBool (decide (Ideal.ofBits .f32 0x00000000#32 < rowSq (F := Ideal) a1 (ValueIdx.ix3 b n m))) = 1#1 :=
    conj10 h (ValueIdx.ix3 b n m)
  rw [ofBool_eq_one, decide_eq_true_eq, Ideal.ofBits_zero_f32, rowSq_apply] at e
  exact e

/-- … and, the entries being real, that sum is a positive real. -/
theorem bond_pos_real (b : Fin 2) (n : Fin 10000) (m : Fin 16) :
    ∃ s : ℝ, 0 < s ∧ ∑ k : Fin 16, a1 (ValueIdx.ix4 b n m k) * a1 (ValueIdx.ix4 b n m k) = (s : EReal) := by
  choose r hr using fun k : Fin 16 => finite_bond h (ValueIdx.ix4 b n m k)
  have e : ∑ k : Fin 16, a1 (ValueIdx.ix4 b n m k) * a1 (ValueIdx.ix4 b n m k)
      = ((∑ k : Fin 16, r k * r k : ℝ) : EReal) :=
    Cert.Laws.sum_eq_coe _ _ _ fun k _ => by rw [hr k, ← EReal.coe_mul]
  have hp := bond_pos h b n m
  rw [e] at hp
  exact ⟨_, EReal.coe_pos.1 hp, e⟩

omit h

end AtIdeal

end Cert.PreFacts

end
-- ==== Proof.V1Defs.lean ====
/-
  The node update of the second TensorCore pipeline, entry by entry, as plain definitions over the arrays: the squared
  length of each of a node's sixteen bonds, its reciprocal, the node's normaliser (the sum of the reciprocals, kept above a
  small positive constant), each neighbour's weight (its reciprocal over the normaliser), and the rows of the flat node
  arrays a node and its neighbours sit at.
-/
import proofs.«208461_g52518860095779_cont_9to1_m_1075_29_alg».proof.KernelIdeal
import Idealize.ShloMosaic.PureOps.Ideal
import Idealize.ShloMosaic.Lib.ValueIdx

noncomputable section

namespace Cert.KernelIdeal.Hand.V1

open Cert.KernelIdeal

open Idealize.ShloMosaic Idealize.ShloMosaic.ValueIdx
open scoped BigOperators

/-! ## The node update, entry by entry -/

/-- The squared length of bond `m` of node `(b, n)`: the sum of the squares of its sixteen components. -/
def s (bond : S2x10000x16x16.Idx → EReal) (b : Fin 2) (n : Fin 10000) (m : Fin 16) : EReal :=
  ∑ k : Fin 16, bond (ix4 b n m k) * bond (ix4 b n m k)

/-- Its reciprocal. -/
def inv (bond : S2x10000x16x16.Idx → EReal) (b : Fin 2) (n : Fin 10000) (m : Fin 16) : EReal :=
  Ideal.div 1 (s bond b n m)

/-- The small positive word the normaliser is kept above. -/
def eps : EReal := Ideal.ofBits .f32 0x2B8CBCCC#32

/-- The normaliser of node `(b, n)`: the sum of its sixteen reciprocals, kept above `eps`. -/
def den (bond : S2x10000x16x16.Idx → EReal) (b : Fin 2) (n : Fin 10000) : EReal :=
  max (∑ m : Fin 16, inv bond b n m) eps

/-- The weight of neighbour `m` of node `(b, n)`. -/
def w (bond : S2x10000x16x16.Idx → EReal) (b : Fin 2) (n : Fin 10000) (m : Fin 16) : EReal :=
  Ideal.div (inv bond b n m) (den bond b n)

/-- Row `b * 10000 + n` of the flat node arrays. -/
def row (b : Fin 2) (n : Fin 10000) : Fin 20000 := ⟨b.val * 10000 + n.val, by have := b.isLt; have := n.isLt; omega⟩

/-- Row `(b * 10000 + n) * 16 + m` of the gathered neighbour rows. -/
def nrow (b : Fin 2) (n : Fin 10000) (m : Fin 16) : Fin 320000 :=
  ⟨(b.val * 10000 + n.val) * 16 + m.val, by have := b.isLt; have := n.isLt; have := m.isLt; omega⟩

end Cert.KernelIdeal.Hand.V1

end
-- ==== Proof.Value1.lean ====
/-
  The second TensorCore pipeline's result array read at one entry, at the extended reals: entry (b, n, o) of the result is
  the body's payload of the blocks of the grid point 25 b + n / 400 at node n % 400 and lane o. Here: each layout
  operation and sum of the body read at explicit coordinates (the 6400 gathered rows of a block as 400 nodes of 16
  neighbours; the bond block without its unit axis; the three sums over one axis; the unit axes added for the
  keep-dimension sums and the broadcasts back over them; the product with the node weight matrix as a sum over the 128
  lanes; the bias row repeated over the nodes), the payload of a block at a node and lane in the order the body computes it,
  each input block read where its window's index map puts it in its array, and the two put together.
-/
import proofs.«208461_g52518860095779_cont_9to1_m_1075_29_alg».proof.Proof.Region1
import proofs.«208461_g52518860095779_cont_9to1_m_1075_29_alg».proof.Proof.Laws
import proofs.«208461_g52518860095779_cont_9to1_m_1075_29_alg».proof.Proof.V1Defs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand.V1

open Cert.KernelIdeal Cert.KernelIdeal.Gen Cert.KernelIdeal.Hand

open Idealize.ShloMosaic Idealize.ShloMosaic.ValueIdx
open scoped BigOperators

/-! ## The five operand arrays, at their literal types -/

/-- The gathered neighbour rows. -/
abbrev g (V : Valuation τ sig (Elt Ideal)) : S320000x128.Idx → EReal := V (Proc.devRef .tc main_v9)
/-- The bond vectors. -/
abbrev bond (V : Valuation τ sig (Elt Ideal)) : S2x10000x16x16.Idx → EReal := V (Proc.devRef .tc main_arg1)
/-- The root rows. -/
abbrev r (V : Valuation τ sig (Elt Ideal)) : S20000x128.Idx → EReal := V (Proc.devRef .tc main_v1)
/-- The node weight matrix. -/
abbrev wn (V : Valuation τ sig (Elt Ideal)) : S128x128.Idx → EReal := V (Proc.devRef .tc main_arg4)
/-- The bias row. -/
abbrev bn (V : Valuation τ sig (Elt Ideal)) : S1x128.Idx → EReal := V (Proc.devRef .tc main_v10)

/-! ## The body's layout operations and sums, read at coordinates -/

section Stages

/-- Row `16 p + m` of a block's 6400 gathered rows. -/
def qrow (p : Fin 400) (m : Fin 16) : Fin 6400 := ⟨p.val * 16 + m.val, by have := p.isLt; have := m.isLt; omega⟩

/-- The 6400 gathered rows of a block viewed as 400 nodes of 16 neighbours: neighbour `m` of node `p` is row `16 p + m`. -/
theorem cast_rows (x : FVec Ideal S6400x128 .f32) (p : Fin 400) (m : Fin 16) (f : Fin 128) :
    shapeCast S400x16x128 x shapeCasts_S6400x128_S400x16x128 (ix3 p m f) = x (ix2 (qrow p m) f) :=
  shapeCast_apply x _ _ _ (by
    rw [Shape.rowMajor_val_two, Shape.rowMajor_val_three]
    show (p.val * 16 + m.val) * 128 + f.val = (p.val * 16 + m.val) * 128 + f.val
    rfl)

/-- The bond block without its leading unit axis. -/
theorem cast_bond (x : FVec Ideal S1x400x16x16 .f32) (p : Fin 400) (m : Fin 16) (k : Fin 16) :
    shapeCast S400x16x16 x shapeCasts_S1x400x16x16_S400x16x16 (ix3 p m k) = x (ix4 (0 : Fin 1) p m k) :=
  shapeCast_1abc_abc_apply x _ p m k

/-- The sum over a bond's sixteen components. -/
theorem sum_comp (v : FVec Ideal S400x16x16 .f32) (p : Fin 400) (m : Fin 16)
    (hφ : FTy.f32 = FTy.f32 ∨ FTy.f32 = FTy.bf16) (hacc : (0x00000000#32 : BitVec 32) = 0x00000000#32) :
    multiReduction (F := Ideal) .add [2] S400x16 v 0x00000000#32 reduces_S400x16x16_S400x16 hφ hacc (ix2 p m)
      = ∑ k : Fin 16, v (ix3 p m k) :=
  (Ideal.multiReduction_add_single v 0x00000000#32 reduces_S400x16x16_S400x16 hφ hacc (ix2 p m)).trans
    (Finset.sum_congr rfl fun k _ => congrArg v (funext fun a => Fin.ext (by
      match a with
      | ⟨0, _⟩ => rfl
      | ⟨1, _⟩ => rfl
      | ⟨2, _⟩ => rfl)))

/-- A trailing unit axis added to the 400×16 table. -/
theorem cast_col (v : FVec Ideal S400x16 .f32) (p : Fin 400) (m : Fin 16) (u : Fin 1) :
    shapeCast S400x16x1 v shapeCasts_S400x16_S400x16x1 (ix3 p m u) = v (ix2 p m) :=
  shapeCast_apply v _ _ _ (by
    have hu : u.val = 0 := by omega
    rw [Shape.rowMajor_val_two, Shape.rowMajor_val_three]
    show p.val * 16 + m.val = (p.val * 16 + m.val) * 1 + u.val
    omega)

/-- The sum over a node's sixteen neighbours of a 400×16×1 table. -/
theorem sum_nbr1 (v : FVec Ideal S400x16x1 .f32) (p : Fin 400) (u : Fin 1)
    (hφ : FTy.f32 = FTy.f32 ∨ FTy.f32 = FTy.bf16) (hacc : (0x00000000#32 : BitVec 32) = 0x00000000#32) :
    multiReduction (F := Ideal) .add [1] S400x1 v 0x00000000#32 reduces_S400x16x1_S400x1 hφ hacc (ix2 p u)
      = ∑ m : Fin 16, v (ix3 p m u) :=
  (Ideal.multiReduction_add_single v 0x00000000#32 reduces_S400x16x1_S400x1 hφ hacc (ix2 p u)).trans
    (Finset.sum_congr rfl fun k _ => congrArg v (funext fun a => Fin.ext (by
      match a with
      | ⟨0, _⟩ => rfl
      | ⟨1, _⟩ => rfl
      | ⟨2, _⟩ => rfl)))

/-- A second trailing unit axis added to the 400×1 column. -/
theorem cast_col1 (v : FVec Ideal S400x1 .f32) (p : Fin 400) (u u' : Fin 1) :
    shapeCast S400x1x1 v shapeCasts_S400x1_S400x1x1 (ix3 p u u') = v (ix2 p (0 : Fin 1)) :=
  shapeCast_apply v _ _ _ (by
    have hu : u.val = 0 := by omega
    have hu' : u'.val = 0 := by omega
    rw [Shape.rowMajor_val_two, Shape.rowMajor_val_three]
    show p.val * 1 + 0 = (p.val * 1 + u.val) * 1 + u'.val
    omega)

/-- A node's one entry repeated over its sixteen neighbours. -/
theorem bcast_nbr (v : FVec Ideal S400x1x1 .f32) (p : Fin 400) (m : Fin 16) (u : Fin 1) :
    broadcastTo S400x16x1 v broadcasts_S400x1x1_S400x16x1 (ix3 p m u) = v (ix3 p (0 : Fin 1) (0 : Fin 1)) := by
  refine broadcastTo_apply v _ (ix3 p m u) (ix3 p (0 : Fin 1) (0 : Fin 1)) fun ax => ?_
  match ax with
  | ⟨0, _⟩ => rfl
  | ⟨1, _⟩ => rfl
  | ⟨2, _⟩ => rfl

/-- A neighbour's one weight repeated over the 128 lanes. -/
theorem bcast_lane (v : FVec Ideal S400x16x1 .f32) (p : Fin 400) (m : Fin 16) (f : Fin 128) :
    broadcastTo S400x16x128 v broadcasts_S400x16x1_S400x16x128 (ix3 p m f) = v (ix3 p m (0 : Fin 1)) := by
  refine broadcastTo_apply v _ (ix3 p m f) (ix3 p m (0 : Fin 1)) fun ax => ?_
  match ax with
  | ⟨0, _⟩ => rfl
  | ⟨1, _⟩ => rfl
  | ⟨2, _⟩ => rfl

/-- The sum over a node's sixteen neighbours, lane by lane. -/
theorem sum_nbr (v : FVec Ideal S400x16x128 .f32) (p : Fin 400) (f : Fin 128)
    (hφ : FTy.f32 = FTy.f32 ∨ FTy.f32 = FTy.bf16) (hacc : (0x00000000#32 : BitVec 32) = 0x00000000#32) :
    multiReduction (F := Ideal) .add [1] S400x128 v 0x00000000#32 reduces_S400x16x128_S400x128 hφ hacc (ix2 p f)
      = ∑ m : Fin 16, v (ix3 p m f) :=
  (Ideal.multiReduction_add_single v 0x00000000#32 reduces_S400x16x128_S400x128 hφ hacc (ix2 p f)).trans
    (Finset.sum_congr rfl fun k _ => congrArg v (funext fun a => Fin.ext (by
      match a with
      | ⟨0, _⟩ => rfl
      | ⟨1, _⟩ => rfl
      | ⟨2, _⟩ => rfl)))

/-- The product with the node weight matrix: row `p` against column `o`. -/
theorem matmul_wn (A : FVec Ideal S400x128 .f32) (B : FVec Ideal S128x128 .f32) (p : Fin 400) (o : Fin 128) :
    matmul dot_S400x128_S128x128_S400x128_1_0_0_1_n_n none A B (constant (F := Ideal) S400x128 .f32 0x00000000#32) (ix2 p o)
      = ∑ f : Fin 128, A (ix2 p f) * B (ix2 f o) := by
  show FloatOps.matmul _ none A B _ (ix2 p o) = _
  rw [Ideal.matmul_constant_zero_apply,
    ← Equiv.sum_comp (contrEquiv1 dot_S400x128_S128x128_S400x128_1_0_0_1_n_n 128 rfl rfl).symm]
  refine Finset.sum_congr rfl fun c _ => ?_
  have c2 := contrEquiv1_symm_val dot_S400x128_S128x128_S400x128_1_0_0_1_n_n 128 rfl rfl c
  have l2 : dot_S400x128_S128x128_S400x128_1_0_0_1_n_n.lhsIdx (ix2 p o)
      ((contrEquiv1 dot_S400x128_S128x128_S400x128_1_0_0_1_n_n 128 rfl rfl).symm c) = ix2 p c := by
    funext ax; apply Fin.ext
    match ax with
    | ⟨0, _⟩ => simp [DotDims.lhsIdx, dot_S400x128_S128x128_S400x128_1_0_0_1_n_n]; rfl
    | ⟨1, _⟩ => simp [DotDims.lhsIdx, dot_S400x128_S128x128_S400x128_1_0_0_1_n_n]; exact c2
  have r2 : dot_S400x128_S128x128_S400x128_1_0_0_1_n_n.rhsIdx (ix2 p o)
      ((contrEquiv1 dot_S400x128_S128x128_S400x128_1_0_0_1_n_n 128 rfl rfl).symm c) = ix2 c o := by
    funext ax; apply Fin.ext
    match ax with
    | ⟨0, _⟩ => simp [DotDims.rhsIdx, dot_S400x128_S128x128_S400x128_1_0_0_1_n_n]; exact c2
    | ⟨1, _⟩ => simp [DotDims.rhsIdx, dot_S400x128_S128x128_S400x128_1_0_0_1_n_n]; rfl
  rw [l2, r2]

/-- The bias row repeated over the 400 nodes. -/
theorem bcast_bias (v : FVec Ideal S1x128 .f32) (p : Fin 400) (o : Fin 128) :
    broadcastTo S400x128 v broadcasts_S1x128_S400x128 (ix2 p o) = v (ix2 (0 : Fin 1) o) :=
  broadcastTo_1b_ab_apply v _ p o

/-- The 400×128 result as the one block `[1, 400, 128]`. -/
theorem cast_out (v : FVec Ideal S400x128 .f32) (u : Fin 1) (p : Fin 400) (o : Fin 128) :
    shapeCast S1x400x128 v shapeCasts_S400x128_S1x400x128 (ix3 u p o) = v (ix2 p o) :=
  shapeCast_ab_1ab_apply v _ u p o

end Stages

/-! ## The body's payload at an entry of the block -/

section Payload

/-- The same quantities of a block: the squared length of bond `m` of the block's node `p`, -/
def sB (x1 : FVec Ideal S1x400x16x16 .f32) (p : Fin 400) (m : Fin 16) : EReal :=
  ∑ k : Fin 16, x1 (ix4 (0 : Fin 1) p m k) * x1 (ix4 (0 : Fin 1) p m k)
/-- its reciprocal, -/
def invB (x1 : FVec Ideal S1x400x16x16 .f32) (p : Fin 400) (m : Fin 16) : EReal := Ideal.div 1 (sB x1 p m)
/-- the node's normaliser, -/
def denB (x1 : FVec Ideal S1x400x16x16 .f32) (p : Fin 400) : EReal := max (∑ m : Fin 16, invB x1 p m) eps
/-- and the neighbour's weight. -/
def wB (x1 : FVec Ideal S1x400x16x16 .f32) (p : Fin 400) (m : Fin 16) : EReal := Ideal.div (invB x1 p m) (denB x1 p)

set_option maxHeartbeats 1000000 in
/-- The body's payload at node `p`, lane `o` of the block, in the order the body computes it. -/
theorem pay_apply (x0 : FVec Ideal S6400x128 .f32) (x1 : FVec Ideal S1x400x16x16 .f32) (x2 : FVec Ideal S400x128 .f32)
    (x3 : FVec Ideal S128x128 .f32) (x4 : FVec Ideal S1x128 .f32) (p : Fin 400) (o : Fin 128) :
    k2_pay1 (F := Ideal) x0 x1 x2 x3 x4 (ix3 (0 : Fin 1) p o)
      = max (∑ f : Fin 128, (x2 (ix2 p f) * ∑ m : Fin 16, x0 (ix2 (qrow p m) f) * wB x1 p m) * x3 (ix2 f o)
          + x4 (ix2 (0 : Fin 1) o)) 0 := by
  unfold Gen.k2_pay1
  dsimp only
  simp only [cast_out, maximumf_apply, addf_apply, matmul_wn, mulf_apply, divf_apply, broadcast_apply, bcast_bias, shapeCast_self,
    sum_nbr _ _ _ (Or.inl rfl) rfl, bcast_lane, bcast_nbr, cast_col1, sum_nbr1 _ _ _ (Or.inl rfl) rfl, cast_col,
    sum_comp _ _ _ (Or.inl rfl) rfl, cast_bond, cast_rows]
  have h1 : (FloatOps.ofBits (F := Ideal) FTy.f32 0x3F800000#32) = (1 : EReal) := Cert.Laws.ofBits_one'
  have h0 : (FloatOps.ofBits (F := Ideal) FTy.f32 0x00000000#32) = (0 : EReal) := Cert.Laws.ofBits_zero
  rw [h1, h0]
  rfl

end Payload

/-! ## The blocks read where the windows' index maps put them -/

section Blocks

/-- The five input windows' block indices at point `t`: the gathered rows and the roots at row block `t`, the bond block at
    batch element `t / 25`, row block `t % 25`, the weight matrix and the bias row whole. -/
theorem idx_facts : ∀ t : Fin cfg2.N,
    win2_0.index t (0 : Fin 2) = t.val ∧ win2_0.index t (1 : Fin 2) = 0
    ∧ win2_1.index t (0 : Fin 4) = t.val / 25 ∧ win2_1.index t (1 : Fin 4) = t.val % 25
    ∧ win2_1.index t (2 : Fin 4) = 0 ∧ win2_1.index t (3 : Fin 4) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : Valuation τ sig (Elt Ideal))

/-- Row `q` of the block of gathered rows at point `t` is row `6400 t + q` of the array. -/
theorem iblk0_apply (t : Fin cfg2.N) (q : Fin 6400) (f : Fin 128) (q' : Fin 320000) (h : q'.val = t.val * 6400 + q.val) :
    (R1.iblk V 0 t : FVec Ideal S6400x128 .f32) (ix2 q f) = g V (ix2 q' f) := by
  obtain ⟨e0, e1, -⟩ := idx_facts t
  show g V (((cfg2.win 0).blk t).view.emb (ix2 q f)) = g V (ix2 q' f)
  refine congrArg (g V) (funext fun a => Fin.ext ?_)
  match a with
  | ⟨0, _⟩ => show win2_0.index t (0 : Fin 2) * 6400 + 1 * q.val = q'.val; omega
  | ⟨1, _⟩ => show win2_0.index t (1 : Fin 2) * 128 + 1 * f.val = f.val; omega

/-- Node `p` of the bond block at point `t` is node `(t / 25, 400 (t % 25) + p)` of the array. -/
theorem iblk1_apply (t : Fin cfg2.N) (p : Fin 400) (m k : Fin 16) (b : Fin 2) (n : Fin 10000)
    (hb : b.val = t.val / 25) (hn : n.val = t.val % 25 * 400 + p.val) :
    (R1.iblk V 1 t : FVec Ideal S1x400x16x16 .f32) (ix4 (0 : Fin 1) p m k) = bond V (ix4 b n m k) := by
  obtain ⟨-, -, e0, e1, e2, e3, -⟩ := idx_facts t
  show bond V (((cfg2.win 1).blk t).view.emb (ix4 (0 : Fin 1) p m k)) = bond V (ix4 b n m k)
  refine congrArg (bond V) (funext fun a => Fin.ext ?_)
  match a with
  | ⟨0, _⟩ => show win2_1.index t (0 : Fin 4) * 1 + 1 * 0 = b.val; omega
  | ⟨1, _⟩ => show win2_1.index t (1 : Fin 4) * 400 + 1 * p.val = n.val; omega
  | ⟨2, _⟩ => show win2_1.index t (2 : Fin 4) * 16 + 1 * m.val = m.val; omega
  | ⟨3, _⟩ => show win2_1.index t (3 : Fin 4) * 16 + 1 * k.val = k.val; omega

/-- Row `p` of the block of roots at point `t` is row `400 t + p` of the array. -/
theorem iblk2_apply (t : Fin cfg2.N) (p : Fin 400) (f : Fin 128) (p' : Fin 20000) (h : p'.val = t.val * 400 + p.val) :
    (R1.iblk V 2 t : FVec Ideal S400x128 .f32) (ix2 p f) = r V (ix2 p' f) := by
  obtain ⟨-, -, -, -, -, -, e0, e1, -⟩ := idx_facts t
  show r V (((cfg2.win 2).blk t).view.emb (ix2 p f)) = r V (ix2 p' f)
  refine congrArg (r V) (funext fun a => Fin.ext ?_)
  match a with
  | ⟨0, _⟩ => show win2_2.index t (0 : Fin 2) * 400 + 1 * p.val = p'.val; omega
  | ⟨1, _⟩ => show win2_2.index t (1 : Fin 2) * 128 + 1 * f.val = f.val; omega

/-- The weight matrix's one block is the matrix. -/
theorem iblk3_apply (t : Fin cfg2.N) (f o : Fin 128) :
    (R1.iblk V 3 t : FVec Ideal S128x128 .f32) (ix2 f o) = wn V (ix2 f o) := by
  obtain ⟨-, -, -, -, -, -, -, -, e0, e1, -⟩ := idx_facts t
  show wn V (((cfg2.win 3).blk t).view.emb (ix2 f o)) = wn V (ix2 f o)
  refine congrArg (wn V) (funext fun a => Fin.ext ?_)
  match a with
  | ⟨0, _⟩ => show win2_3.index t (0 : Fin 2) * 128 + 1 * f.val = f.val; omega
  | ⟨1, _⟩ => show win2_3.index t (1 : Fin 2) * 128 + 1 * o.val = o.val; omega

/-- The bias row's one block is the row. -/
theorem iblk4_apply (t : Fin cfg2.N) (o : Fin 128) :
    (R1.iblk V 4 t : FVec Ideal S1x128 .f32) (ix2 (0 : Fin 1) o) = bn V (ix2 (0 : Fin 1) o) := by
  obtain ⟨-, -, -, -, -, -, -, -, -, -, e0, e1⟩ := idx_facts t
  show bn V (((cfg2.win 4).blk t).view.emb (ix2 (0 : Fin 1) o)) = bn V (ix2 (0 : Fin 1) o)
  refine congrArg (bn V) (funext fun a => Fin.ext ?_)
  match a with
  | ⟨0, _⟩ => show win2_4.index t (0 : Fin 2) * 1 + 1 * 0 = 0; omega
  | ⟨1, _⟩ => show win2_4.index t (1 : Fin 2) * 128 + 1 * o.val = o.val; omega

end Blocks

/-! ## The result array at an entry -/

section Main

variable (V : Valuation τ sig (Elt Ideal))

/-- A block's weights are the array's: node `p` of the bond block at point `t` is node `(b, n)`. -/
theorem wB_eq (t : Fin cfg2.N) (p : Fin 400) (b : Fin 2) (n : Fin 10000)
    (hb : b.val = t.val / 25) (hn : n.val = t.val % 25 * 400 + p.val) (m : Fin 16) :
    wB (R1.iblk V 1 t) p m = w (bond V) b n m := by
  have hx : ∀ (m k : Fin 16), (R1.iblk V 1 t : FVec Ideal S1x400x16x16 .f32) (ix4 (0 : Fin 1) p m k) = bond V (ix4 b n m k) :=
    fun m k => iblk1_apply V t p m k b n hb hn
  unfold wB w denB den invB inv sB s
  simp only [hx]

/-- The region's result at entry `(b, n, o)`: the weighted sum of node `(b, n)`'s sixteen gathered neighbour rows, times
    its root row, through the node weight matrix, plus the bias, kept above zero. -/
theorem res1_apply (V : Valuation τ sig (Elt Ideal)) (b : Fin 2) (n : Fin 10000) (o : Fin 128) :
    res1 V (ix3 b n o)
      = max (∑ f : Fin 128,
              (r V (ix2 (row b n) f) * ∑ m : Fin 16, g V (ix2 (nrow b n m) f) * w (bond V) b n m) * wn V (ix2 f o)
            + bn V (ix2 (0 : Fin 1) o)) 0 := by
  have hb2 : b.val < 2 := b.isLt
  have hn2 : n.val < 10000 := n.isLt
  obtain ⟨t, ht⟩ : ∃ t : Fin cfg2.N, t.val = b.val * 25 + n.val / 400 :=
    ⟨⟨b.val * 25 + n.val / 400, by rw [show cfg2.N = 50 from N_2]; omega⟩, rfl⟩
  obtain ⟨p, hp⟩ : ∃ p : Fin 400, p.val = n.val % 400 := ⟨⟨n.val % 400, Nat.mod_lt _ (by decide)⟩, rfl⟩
  have h1 : R1.ptOf (ix3 b n o) = t := Fin.ext ht.symm
  have h2 : R1.locOf (ix3 b n o) = ix3 (0 : Fin 1) p o := by
    funext a; apply Fin.ext
    match a with
    | ⟨0, _⟩ => rfl
    | ⟨1, _⟩ => exact hp.symm
    | ⟨2, _⟩ => rfl
  show R1.oblk V (R1.ptOf (ix3 b n o)) (R1.locOf (ix3 b n o)) = _
  rw [h1, h2]
  unfold R1.oblk R1.out5
  refine (pay_apply (R1.iblk V 0 t) (R1.iblk V 1 t) (R1.iblk V 2 t) (R1.iblk V 3 t) (R1.iblk V 4 t) p o).trans ?_
  refine congrArg₂ max ?_ rfl
  refine congrArg₂ (· + ·) (Finset.sum_congr rfl fun f _ => ?_) (iblk4_apply V t o)
  refine congrArg₂ (· * ·) ?_ (iblk3_apply V t f o)
  refine congrArg₂ (· * ·) (iblk2_apply V t p f (row b n) (by show b.val * 10000 + n.val = _; omega)) ?_
  refine Finset.sum_congr rfl fun m _ => ?_
  have hm : m.val < 16 := m.isLt
  refine congrArg₂ (· * ·)
    (iblk0_apply V t (qrow p m) f (nrow b n m) (by show (b.val * 10000 + n.val) * 16 + m.val = t.val * 6400 + (p.val * 16 + m.val); omega))
    (wB_eq V t p b n (by omega) (by omega) m)

end Main

end Cert.KernelIdeal.Hand.V1

end
-- ==== Proof.InputsAt.lean ====
/-
  What each pipeline region and each gather call finds in its operand arrays along @main, read at an index, as a
  function of the launch memory's argument arrays: the data movement of the kernel program. The host operations
  between the calls are reshapes, slices and the index lists' arithmetic; a gather's result row is the table's row
  its index names; every buffer is written at one place, so an operand read later is what its one writer left.
-/
import proofs.«208461_g52518860095779_cont_9to1_m_1075_29_alg».proof.Proof.Vals
import proofs.«208461_g52518860095779_cont_9to1_m_1075_29_alg».proof.Proof.IdxFacts
import proofs.«208461_g52518860095779_cont_9to1_m_1075_29_alg».proof.Proof.Final
import proofs.«208461_g52518860095779_cont_9to1_m_1075_29_alg».proof.Proof.Region0
import proofs.«208461_g52518860095779_cont_9to1_m_1075_29_alg».proof.Proof.Region1
import proofs.«208461_g52518860095779_cont_9to1_m_1075_29_alg».proof.Proof.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.SL.Sem
open Idealize.ShloMosaic.StableHlo

/-! ## The square root of the absolute value, at an element -/

/-- At the extended reals the first region's result is, element by element, the root of the absolute value. -/
theorem out0_apply (x : S20000x128.Idx → Elt Ideal .f32) (j : S20000x128.Idx) :
    out0 (F := Ideal) x j = Ideal.sqrt (max (x j) (-(x j))) := rfl

variable {F : FTy → Type} [FloatOps F]

/-- At any float values it is the element's `sqrt (absf ·)`. -/
theorem out0_apply' (x : S20000x128.Idx → Elt F .f32) (j : S20000x128.Idx) :
    out0 x j = FloatOps.sqrt (FloatOps.absf (x j)) := rfl

/-- The node-update region changes its result array only. -/
theorem upd1_kept (X : Valuation τ sig (Elt F)) (b : DevRef τ sig) (hb : b ≠ rf main_v11) : upd1 X b = X b :=
  Function.update_of_ne hb _ _

theorem upd1_result (X : Valuation τ sig (Elt F)) : upd1 X (rf main_v11) = res1 X :=
  Function.update_self ..

/-! ## The launch memory's argument arrays, at their literal types -/

section Args

variable (m : (ℓ : Loc nD τ sig) → Buf (Elt F) ℓ) (d : Dev nD)

abbrev A0 : S2x10000x128.Idx → Elt F .f32 := m (d, rf main_arg0)
abbrev A1 : S2x10000x16x16.Idx → Elt F .f32 := m (d, rf main_arg1)
abbrev A2 : S2x10000x16.Idx → BitVec 32 := m (d, rf main_arg2)
abbrev A3 : S2x160000x2.Idx → BitVec 32 := m (d, rf main_arg3)
abbrev A4 : S128x128.Idx → Elt F .f32 := m (d, rf main_arg4)
abbrev A5 : S16x16.Idx → Elt F .f32 := m (d, rf main_arg5)
abbrev A6 : S256x16.Idx → Elt F .f32 := m (d, rf main_arg6)
abbrev A7 : S128.Idx → Elt F .f32 := m (d, rf main_arg7)
abbrev A8 : S16.Idx → Elt F .f32 := m (d, rf main_arg8)
abbrev A9 : S16.Idx → Elt F .f32 := m (d, rf main_arg9)

end Args

/-! ## The stretches' reshapes and slices, over any contents -/

section Stretches

variable (X : Valuation τ sig (Elt F))

theorem v0_after0 : after (ops0 (F := F)) X (rf main_v0)
    = shapeCast S20000x128 (X (rf main_arg0)) shapeCasts_S2x10000x128_S20000x128 := by
  after_results <;> rfl

theorem v10_after2 : after (ops2 (F := F)) X (rf main_v10)
    = shapeCast S1x128 (X (rf main_arg7)) shapeCasts_S128_S1x128 := by
  after_results <;> rfl

theorem v12_after3 : after (ops3 (F := F)) X (rf main_v12)
    = shapeCast S20000x128 (X (rf main_v11)) shapeCasts_S2x10000x128_S20000x128 := by
  after_results <;> rfl

theorem v27_after4 : after (ops4 (F := F)) X (rf main_v27)
    = extractStridedSlice S128x16 ![0, 0] (X (rf main_arg6)) slices_S256x16_S128x16_0_0 := by
  after_results <;> rfl

theorem v28_after4 : after (ops4 (F := F)) X (rf main_v28)
    = extractStridedSlice S128x16 ![128, 0] (X (rf main_arg6)) slices_S256x16_S128x16_128_0 := by
  after_results <;> rfl

theorem v29_after4 : after (ops4 (F := F)) X (rf main_v29)
    = shapeCast S1x16 (X (rf main_arg9)) shapeCasts_S16_S1x16 := by
  after_results <;> rfl

theorem v30_after4 : after (ops4 (F := F)) X (rf main_v30)
    = shapeCast S1x16 (X (rf main_arg8)) shapeCasts_S16_S1x16 := by
  after_results <;> rfl

/-- Rows of a `[2, 10000, 128]` array flattened to `[20000, 128]`: row `b * 10000 + n` is row `(b, n)`. -/
theorem flat_rows_apply (x : S2x10000x128.Idx → Elt F .f32) (b : Fin 2) (n : Fin 10000) (f : Fin 128)
    (hlt : b.val * 10000 + n.val < 20000) :
    shapeCast S20000x128 x shapeCasts_S2x10000x128_S20000x128 (ValueIdx.ix2 ⟨b.val * 10000 + n.val, hlt⟩ f)
      = x (ValueIdx.ix3 b n f) :=
  shapeCast_apply _ _ _ _ (by rw [Shape.rowMajor_val_three, Shape.rowMajor_val_two]; rfl)

/-- A vector as a one-row matrix. -/
theorem row128_apply (x : S128.Idx → Elt F .f32) (u : Fin 1) (o : Fin 128) :
    shapeCast S1x128 x shapeCasts_S128_S1x128 (ValueIdx.ix2 u o) = x (ValueIdx.ix1 o) :=
  shapeCast_apply _ _ _ _ (by
    have hu : u.val = 0 := by omega
    rw [Shape.rowMajor_val_one, Shape.rowMajor_val_two]
    show o.val = u.val * 128 + o.val
    omega)

theorem row16_apply (x : S16.Idx → Elt F .f32) (u : Fin 1) (o : Fin 16) :
    shapeCast S1x16 x shapeCasts_S16_S1x16 (ValueIdx.ix2 u o) = x (ValueIdx.ix1 o) :=
  shapeCast_apply _ _ _ _ (by
    have hu : u.val = 0 := by omega
    rw [Shape.rowMajor_val_one, Shape.rowMajor_val_two]
    show o.val = u.val * 16 + o.val
    omega)

/-- The upper and the lower half of the `[256, 16]` weight. -/
theorem top_apply (x : S256x16.Idx → Elt F .f32) (f : Fin 128) (j : Fin 16) (hlt : f.val < 256) :
    extractStridedSlice S128x16 ![0, 0] x slices_S256x16_S128x16_0_0 (ValueIdx.ix2 f j) = x (ValueIdx.ix2 ⟨f.val, hlt⟩ j) :=
  extractStridedSlice_apply _ _ _ _ _ fun a => match a with
    | ⟨0, _⟩ => (Nat.zero_add _).symm
    | ⟨1, _⟩ => (Nat.zero_add _).symm

theorem bottom_apply (x : S256x16.Idx → Elt F .f32) (f : Fin 128) (j : Fin 16) (hlt : 128 + f.val < 256) :
    extractStridedSlice S128x16 ![128, 0] x slices_S256x16_S128x16_128_0 (ValueIdx.ix2 f j) = x (ValueIdx.ix2 ⟨128 + f.val, hlt⟩ j) :=
  extractStridedSlice_apply _ _ _ _ _ fun a => match a with
    | ⟨0, _⟩ => rfl
    | ⟨1, _⟩ => (Nat.zero_add _).symm

end Stretches

/-! ## Along @main -/

section Along

variable (upd2 : Valuation τ sig (Elt F) → Valuation τ sig (Elt F))
variable (m : (ℓ : Loc nD τ sig) → Buf (Elt F) ℓ) (d : Dev nD)

/-! ### The square-root pipeline -/

/-- Its operand: the atom array, rows flattened. -/
theorem W1_v0_apply (b : Fin 2) (n : Fin 10000) (f : Fin 128) (hlt : b.val * 10000 + n.val < 20000) :
    W1 m d (rf main_v0) (ValueIdx.ix2 ⟨b.val * 10000 + n.val, hlt⟩ f) = A0 m d (ValueIdx.ix3 b n f) := by
  have e : W1 m d (rf main_v0) = shapeCast S20000x128 (A0 m d) shapeCasts_S2x10000x128_S20000x128 := v0_after0 _
  rw [e]
  exact flat_rows_apply _ b n f hlt

/-- Its result: the root of the absolute value of that entry. -/
theorem W2_v1_apply (b : Fin 2) (n : Fin 10000) (f : Fin 128) (hlt : b.val * 10000 + n.val < 20000) :
    W2 upd0 m d (rf main_v1) (ValueIdx.ix2 ⟨b.val * 10000 + n.val, hlt⟩ f)
      = FloatOps.sqrt (FloatOps.absf (A0 m d (ValueIdx.ix3 b n f))) := by
  have e : W2 upd0 m d (rf main_v1) = out0 (W1 m d (rf main_v0)) := upd0_result _
  rw [e, out0_apply', W1_v0_apply m d b n f hlt]

/-! ### The neighbour gather -/

theorem W3_v1 : W3 upd0 m d (rf main_v1) = W2 upd0 m d (rf main_v1) := kept_1 _ main_v1 (by decide)

/-- Its result: row `(b * 10000 + n) * 16 + k` is the root table's row `b * 10000 + adj[b, n, k]`. -/
theorem W4_v9_apply (h2 : ∀ j, (A2 m d j).toNat ≤ 9999) (b : Fin 2) (n : Fin 10000) (k : Fin 16) (f : Fin 128)
    (hlt : (b.val * 10000 + n.val) * 16 + k.val < 320000)
    (hlt' : b.val * 10000 + (A2 m d (ValueIdx.ix3 b n k)).toNat < 20000) :
    W4 upd0 m d (rf main_v9) (ValueIdx.ix2 ⟨(b.val * 10000 + n.val) * 16 + k.val, hlt⟩ f)
      = W2 upd0 m d (rf main_v1) (ValueIdx.ix2 ⟨b.val * 10000 + (A2 m d (ValueIdx.ix3 b n k)).toNat, hlt'⟩ f) := by
  have e : W4 upd0 m d (rf main_v9) = gath0 (W3 upd0 m d (rf main_v1)) (W3 upd0 m d (rf main_v8)) := Function.update_self ..
  have ea : tab0 (W2 upd0 m d) = A2 m d := W2_kept upd0 m d upd0_kept main_arg2 (by decide)
  have ei : W3 upd0 m d (rf main_v8) (ValueIdx.ix1 ⟨(b.val * 10000 + n.val) * 16 + k.val, hlt⟩)
      = A2 m d (ValueIdx.ix3 b n k) + offs (ValueIdx.ix1 b) := by
    have := idx0_apply (W2 upd0 m d) b n k hlt
    rw [ea, ← offs_apply (ValueIdx.ix1 b)] at this
    exact this
  have et : (W3 upd0 m d (rf main_v8) (ValueIdx.ix1 ⟨(b.val * 10000 + n.val) * 16 + k.val, hlt⟩)).toNat
      = b.val * 10000 + (A2 m d (ValueIdx.ix3 b n k)).toNat := by
    rw [ei, (toNat_add_offs (h2 _) _).1]
    exact Nat.add_comm _ _
  rw [e, W3_v1]
  show W2 upd0 m d (rf main_v1) (ValueIdx.ix2 ⟨min _ 19999, _⟩ f) = _
  congr 2
  apply Fin.ext
  show min (W3 upd0 m d (rf main_v8) (ValueIdx.ix1 ⟨(b.val * 10000 + n.val) * 16 + k.val, hlt⟩)).toNat 19999
    = b.val * 10000 + (A2 m d (ValueIdx.ix3 b n k)).toNat
  rw [et]
  exact Nat.min_eq_left (by omega)

/-! ### The node-update pipeline's operands -/

theorem W5_arg1 : W5 upd0 m d (rf main_arg1) = A1 m d := W5_kept upd0 m d upd0_kept main_arg1 (by decide)
theorem W5_arg4 : W5 upd0 m d (rf main_arg4) = A4 m d := W5_kept upd0 m d upd0_kept main_arg4 (by decide)

theorem W5_v1 : W5 upd0 m d (rf main_v1) = W2 upd0 m d (rf main_v1) :=
  (kept_2 _ main_v1 (by decide)).trans <|
    (Function.update_of_ne (devRef_ne_of_ne (by decide)) _ _).trans (W3_v1 m d)

theorem W5_v9 : W5 upd0 m d (rf main_v9) = W4 upd0 m d (rf main_v9) := kept_2 _ main_v9 (by decide)

/-- The node bias as a row. -/
theorem W5_v10_apply (u : Fin 1) (o : Fin 128) :
    W5 upd0 m d (rf main_v10) (ValueIdx.ix2 u o) = A7 m d (ValueIdx.ix1 o) := by
  have e : W5 upd0 m d (rf main_v10) = shapeCast S1x128 (W4 upd0 m d (rf main_arg7)) shapeCasts_S128_S1x128 := v10_after2 _
  have ea : W4 upd0 m d (rf main_arg7) = A7 m d := W4_kept upd0 m d upd0_kept main_arg7 (by decide)
  rw [e, ea]
  exact row128_apply _ u o

/-! ### The endpoint gather -/

/-- Its table: the node-update region's result, rows flattened. -/
theorem W7_v12_apply (b : Fin 2) (n : Fin 10000) (f : Fin 128) (hlt : b.val * 10000 + n.val < 20000) :
    W7 upd0 upd1 m d (rf main_v12) (ValueIdx.ix2 ⟨b.val * 10000 + n.val, hlt⟩ f)
      = W6 upd0 upd1 m d (rf main_v11) (ValueIdx.ix3 b n f) := by
  have e : W7 upd0 upd1 m d (rf main_v12)
      = shapeCast S20000x128 (W6 upd0 upd1 m d (rf main_v11)) shapeCasts_S2x10000x128_S20000x128 := v12_after3 _
  rw [e]
  exact flat_rows_apply _ b n f hlt

theorem W6_tab1 : tab1 (W6 upd0 upd1 m d) = A3 m d := W6_kept upd0 upd1 m d upd0_kept upd1_kept main_arg3 (by decide)

/-- A row of the gathered array is the table's row its index names, the index read as the pair table's entry plus the
    batch's offset. -/
theorem W8_v26_row (h3 : ∀ j, (A3 m d j).toNat ≤ 9999) (b : Fin 2) (e : Fin 160000) (c : Fin 2) (f : Fin 128)
    (r : Nat) (hr : r < 640000)
    (hi : W7 upd0 upd1 m d (rf main_v25) (ValueIdx.ix1 ⟨r, hr⟩) = A3 m d (ValueIdx.ix3 b e c) + offs (ValueIdx.ix1 b))
    (hn : (A3 m d (ValueIdx.ix3 b e c)).toNat < 10000) :
    W8 upd0 upd1 m d (rf main_v26) (ValueIdx.ix2 ⟨r, hr⟩ f)
      = W6 upd0 upd1 m d (rf main_v11) (ValueIdx.ix3 b ⟨(A3 m d (ValueIdx.ix3 b e c)).toNat, hn⟩ f) := by
  have hb : b.val < 2 := b.isLt
  have e8 : W8 upd0 upd1 m d (rf main_v26) = gath1 (W7 upd0 upd1 m d (rf main_v12)) (W7 upd0 upd1 m d (rf main_v25)) :=
    Function.update_self ..
  have et : (W7 upd0 upd1 m d (rf main_v25) (ValueIdx.ix1 ⟨r, hr⟩)).toNat
      = b.val * 10000 + (A3 m d (ValueIdx.ix3 b e c)).toNat := by
    rw [hi, (toNat_add_offs (h3 _) _).1]
    exact Nat.add_comm _ _
  rw [e8, ← W7_v12_apply m d b ⟨(A3 m d (ValueIdx.ix3 b e c)).toNat, hn⟩ f (by show b.val * 10000 + _ < 20000; omega)]
  show W7 upd0 upd1 m d (rf main_v12) (ValueIdx.ix2 ⟨min _ 19999, _⟩ f) = _
  congr 2
  apply Fin.ext
  show min (W7 upd0 upd1 m d (rf main_v25) (ValueIdx.ix1 ⟨r, hr⟩)).toNat 19999
    = b.val * 10000 + (A3 m d (ValueIdx.ix3 b e c)).toNat
  rw [et]
  exact Nat.min_eq_left (by omega)

/-- Row `b * 160000 + e`: the first endpoint of pair `(b, e)`. -/
theorem W8_v26_apply_left (h3 : ∀ j, (A3 m d j).toNat ≤ 9999) (b : Fin 2) (e : Fin 160000) (f : Fin 128)
    (hlt : b.val * 160000 + e.val < 640000) (hn : (A3 m d (ValueIdx.ix3 b e (0 : Fin 2))).toNat < 10000) :
    W8 upd0 upd1 m d (rf main_v26) (ValueIdx.ix2 ⟨b.val * 160000 + e.val, hlt⟩ f)
      = W6 upd0 upd1 m d (rf main_v11) (ValueIdx.ix3 b ⟨(A3 m d (ValueIdx.ix3 b e (0 : Fin 2))).toNat, hn⟩ f) := by
  refine W8_v26_row m d h3 b e 0 f _ hlt ?_ hn
  have := idx1_apply_left (W6 upd0 upd1 m d) (W6_offs upd0 upd1 m upd0_kept upd1_kept d) b e hlt
  rw [W6_tab1, ← offs_apply (ValueIdx.ix1 b)] at this
  exact this

/-- Row `320000 + (b * 160000 + e)`: the second endpoint. -/
theorem W8_v26_apply_right (h3 : ∀ j, (A3 m d j).toNat ≤ 9999) (b : Fin 2) (e : Fin 160000) (f : Fin 128)
    (hlt : 320000 + (b.val * 160000 + e.val) < 640000) (hn : (A3 m d (ValueIdx.ix3 b e (1 : Fin 2))).toNat < 10000) :
    W8 upd0 upd1 m d (rf main_v26) (ValueIdx.ix2 ⟨320000 + (b.val * 160000 + e.val), hlt⟩ f)
      = W6 upd0 upd1 m d (rf main_v11) (ValueIdx.ix3 b ⟨(A3 m d (ValueIdx.ix3 b e (1 : Fin 2))).toNat, hn⟩ f) := by
  refine W8_v26_row m d h3 b e 1 f _ hlt ?_ hn
  have := idx1_apply_right (W6 upd0 upd1 m d) (W6_offs upd0 upd1 m upd0_kept upd1_kept d) b e hlt
  rw [W6_tab1, ← offs_apply (ValueIdx.ix1 b)] at this
  exact this

/-! ### The edge-update pipeline's operands -/

theorem W9_arg1 : W9 upd0 upd1 m d (rf main_arg1) = A1 m d := W9_kept upd0 upd1 m d upd0_kept upd1_kept main_arg1 (by decide)
theorem W9_arg5 : W9 upd0 upd1 m d (rf main_arg5) = A5 m d := W9_kept upd0 upd1 m d upd0_kept upd1_kept main_arg5 (by decide)
theorem W9_v26 : W9 upd0 upd1 m d (rf main_v26) = W8 upd0 upd1 m d (rf main_v26) := kept_4 _ main_v26 (by decide)

theorem W8_arg6 : W8 upd0 upd1 m d (rf main_arg6) = A6 m d := W8_kept upd0 upd1 m d upd0_kept upd1_kept main_arg6 (by decide)
theorem W8_arg8 : W8 upd0 upd1 m d (rf main_arg8) = A8 m d := W8_kept upd0 upd1 m d upd0_kept upd1_kept main_arg8 (by decide)
theorem W8_arg9 : W8 upd0 upd1 m d (rf main_arg9) = A9 m d := W8_kept upd0 upd1 m d upd0_kept upd1_kept main_arg9 (by decide)

/-- The node-to-edge weight's upper half, … -/
theorem W9_v27_apply (f : Fin 128) (j : Fin 16) (hlt : f.val < 256) :
    W9 upd0 upd1 m d (rf main_v27) (ValueIdx.ix2 f j) = A6 m d (ValueIdx.ix2 ⟨f.val, hlt⟩ j) := by
  have e : W9 upd0 upd1 m d (rf main_v27)
      = extractStridedSlice S128x16 ![0, 0] (W8 upd0 upd1 m d (rf main_arg6)) slices_S256x16_S128x16_0_0 := v27_after4 _
  rw [e, W8_arg6]
  exact top_apply _ f j hlt

/-- … and its lower half. -/
theorem W9_v28_apply (f : Fin 128) (j : Fin 16) (hlt : 128 + f.val < 256) :
    W9 upd0 upd1 m d (rf main_v28) (ValueIdx.ix2 f j) = A6 m d (ValueIdx.ix2 ⟨128 + f.val, hlt⟩ j) := by
  have e : W9 upd0 upd1 m d (rf main_v28)
      = extractStridedSlice S128x16 ![128, 0] (W8 upd0 upd1 m d (rf main_arg6)) slices_S256x16_S128x16_128_0 := v28_after4 _
  rw [e, W8_arg6]
  exact bottom_apply _ f j hlt

/-- The two edge biases as rows. -/
theorem W9_v29_apply (u : Fin 1) (j : Fin 16) :
    W9 upd0 upd1 m d (rf main_v29) (ValueIdx.ix2 u j) = A9 m d (ValueIdx.ix1 j) := by
  have e : W9 upd0 upd1 m d (rf main_v29) = shapeCast S1x16 (W8 upd0 upd1 m d (rf main_arg9)) shapeCasts_S16_S1x16 := v29_after4 _
  rw [e, W8_arg9]
  exact row16_apply _ u j

theorem W9_v30_apply (u : Fin 1) (j : Fin 16) :
    W9 upd0 upd1 m d (rf main_v30) (ValueIdx.ix2 u j) = A8 m d (ValueIdx.ix1 j) := by
  have e : W9 upd0 upd1 m d (rf main_v30) = shapeCast S1x16 (W8 upd0 upd1 m d (rf main_arg8)) shapeCasts_S16_S1x16 := v30_after4 _
  rw [e, W8_arg8]
  exact row16_apply _ u j

end Along

end Cert.KernelIdeal.Hand

end
-- ==== Proof.KernelAU.lean ====
/-
  The node-update region's result along @main, entry by entry, as a formula of the launch memory's argument arrays: the
  region is entered with the root table (the root of the absolute value of each atom entry), the gathered neighbour rows
  (row (b 10000 + n) 16 + k of them is the root table's row of node (b, adj[b, n, k])), the bond array, the node weight
  and the bias as a row; its result at (b, n, o) is the payload formula over those, and no later stretch, gather call or
  region writes the result array again.
-/
import proofs.«208461_g52518860095779_cont_9to1_m_1075_29_alg».proof.Proof.Value1
import proofs.«208461_g52518860095779_cont_9to1_m_1075_29_alg».proof.Proof.InputsAt

noncomputable section

namespace Cert.KernelIdeal.Hand

open Cert.KernelIdeal Cert.KernelIdeal.Gen
open Idealize.ShloMosaic Idealize.ShloMosaic.ValueIdx Idealize.SL.Sem
open Idealize.ShloMosaic.StableHlo (after devRef_ne_of_ne)
open scoped BigOperators

/-! ## The result array is written once -/

section Kept

variable {F : FTy → Type} [FloatOps F]
variable (upd2 : Valuation τ sig (Elt F) → Valuation τ sig (Elt F))
variable (m : (ℓ : Loc nD τ sig) → Buf (Elt F) ℓ) (d : Dev nD)

/-- After the node-update region nothing writes its result array: not the third stretch, not the endpoint gather, not
    the fourth stretch, not the edge-update region. -/
theorem W10_v11 (hk2 : ∀ X b, b ≠ rf main_v31 → upd2 X b = X b) :
    W10 upd0 upd1 upd2 m d (rf main_v11) = W6 upd0 upd1 m d (rf main_v11) :=
  (hk2 _ _ (devRef_ne_of_ne (by decide))).trans <|
    (kept_4 _ main_v11 (by decide)).trans <|
      (Function.update_of_ne (devRef_ne_of_ne (by decide)) _ _).trans (kept_3 _ main_v11 (by decide))

end Kept

/-! ## The result at an entry -/

section Apply

variable (m : (ℓ : Loc nD τ sig) → Buf (Elt Ideal) ℓ) (d : Dev nD)

/-- Neighbour `k` of node `(b, n)`, as a node of the same batch element. -/
def nbr (h2 : ∀ j, (A2 m d j).toNat ≤ 9999) (b : Fin 2) (n : Fin 10000) (k : Fin 16) : Fin 10000 :=
  ⟨(A2 m d (ix3 b n k)).toNat, Nat.lt_succ_of_le (h2 _)⟩

/-- The node-update region's result at `(b, n, o)`, over the launch arrays: the sum over the 128 lanes of the root of
    node `(b, n)`'s atom entry times the weighted sum of its sixteen neighbours' roots, through the node weight, plus the
    bias, kept above zero. -/
theorem kAU_apply' (h2 : ∀ j, (A2 m d j).toNat ≤ 9999) (b : Fin 2) (n : Fin 10000) (o : Fin 128) :
    @Eq EReal (W6 upd0 upd1 m d (rf main_v11) (ix3 b n o))
      (max (∑ f : Fin 128,
              (FloatOps.sqrt (FloatOps.absf (A0 m d (ix3 b n f)))
                * ∑ k : Fin 16, FloatOps.sqrt (FloatOps.absf (A0 m d (ix3 b (nbr m d h2 b n k) f))) * V1.w (A1 m d) b n k)
              * A4 m d (ix2 f o)
            + A7 m d (ix1 o)) 0) := by
  have hb : b.val < 2 := b.isLt
  have e6 : W6 upd0 upd1 m d (rf main_v11) = res1 (W5 upd0 m d) := upd1_result _
  rw [e6, V1.res1_apply]
  refine congrArg₂ max ?_ rfl
  refine congrArg₂ (· + ·) (Finset.sum_congr rfl fun f _ => ?_) (W5_v10_apply m d 0 o)
  refine congrArg₂ (· * ·) ?_ (congrFun (W5_arg4 m d) (ix2 f o))
  refine congrArg₂ (· * ·) ?_ (Finset.sum_congr rfl fun k _ => ?_)
  · show W5 upd0 m d (rf main_v1) (ix2 (V1.row b n) f) = _
    rw [W5_v1]
    exact W2_v1_apply m d b n f (V1.row b n).isLt
  · have hk := h2 (ix3 b n k)
    have hlt' : b.val * 10000 + (A2 m d (ix3 b n k)).toNat < 20000 := by omega
    refine congrArg₂ (· * ·) ?_ (by rw [show V1.bond (W5 upd0 m d) = A1 m d from W5_arg1 m d])
    show W5 upd0 m d (rf main_v9) (ix2 (V1.nrow b n k) f) = _
    rw [W5_v9]
    exact (W4_v9_apply m d h2 b n k f (V1.nrow b n k).isLt hlt').trans (W2_v1_apply m d b (nbr m d h2 b n k) f hlt')

/-- The same with the root of the absolute value spelt over the extended reals. -/
theorem kAU_apply (h2 : ∀ j, (A2 m d j).toNat ≤ 9999) (b : Fin 2) (n : Fin 10000) (o : Fin 128) :
    @Eq EReal (W6 upd0 upd1 m d (rf main_v11) (ix3 b n o))
      (max (∑ f : Fin 128,
              (Ideal.sqrt (max (A0 m d (ix3 b n f)) (-(A0 m d (ix3 b n f))))
                * ∑ k : Fin 16, Ideal.sqrt (max (A0 m d (ix3 b (nbr m d h2 b n k) f)) (-(A0 m d (ix3 b (nbr m d h2 b n k) f))))
                    * V1.w (A1 m d) b n k)
              * A4 m d (ix2 f o)
            + A7 m d (ix1 o)) 0) :=
  kAU_apply' m d h2 b n o

end Apply

end Cert.KernelIdeal.Hand

end
-- ==== Proof.BridgeAU.lean ====
/-
  The node update, index by index: what the kernel side computes at the extended reals is the reference's result 0.
  The reference roots a feature as the square to the power one quarter, which is the square root of the absolute
  value; it weights a bond by its squared length to the power one half and then minus two, which for a positive
  squared length is the reciprocal; the absolute value of a positive reciprocal is itself; and it multiplies weight
  by neighbour where the kernel multiplies neighbour by weight. The sums run over the same index sets.
-/
import proofs.«208461_g52518860095779_cont_9to1_m_1075_29_alg».proof.Proof.RefSpec
import proofs.«208461_g52518860095779_cont_9to1_m_1075_29_alg».proof.Proof.V1Defs
import proofs.«208461_g52518860095779_cont_9to1_m_1075_29_alg».proof.Proof.Laws

noncomputable section

open scoped BigOperators

namespace Cert.Bridge

open Idealize.ShloMosaic Idealize.ShloMosaic.ValueIdx
open Cert.ReferenceIdeal Cert.ReferenceIdeal.RefValue
open Cert.KernelIdeal.Hand

/-- The reference's root of a real feature is the square root of its absolute value. -/
theorem root_coe (x : ℝ) : root (x : EReal) = Ideal.sqrt (max (x : EReal) (-(x : EReal))) := by
  show Ideal.pow (Ideal.pow (x : EReal) (Ideal.ofBits .f32 0x40000000#32)) (Ideal.ofBits .f32 0x3E800000#32) = _
  rw [Cert.Laws.ofBits_two, Cert.Laws.ofBits_quarter, Cert.Laws.pow_sq_quarter]

section Bond

variable (bond : S2x10000x16x16.Idx → EReal) (hfb : ∀ j, ∃ x : ℝ, bond j = (x : EReal))
  (hpos : ∀ (b : Fin 2) (n : Fin 10000) (m : Fin 16), ∃ s : ℝ, 0 < s ∧ V1.s bond b n m = (s : EReal))

include hfb in
/-- The sum of the squares as the reference spells them, each a power two, is the sum of the products. -/
theorem sumSq_eq (b : Fin 2) (n : Fin 10000) (m : Fin 16) :
    ∑ k : Fin 16, Ideal.pow (bond (ix4 b n m k)) cTwo = V1.s bond b n m := by
  unfold V1.s
  refine Finset.sum_congr rfl fun k _ => ?_
  obtain ⟨x, hx⟩ := hfb (ix4 b n m k)
  rw [hx]
  show Ideal.pow (x : EReal) (Ideal.ofBits .f32 0x40000000#32) = _
  rw [Cert.Laws.ofBits_two, Cert.Laws.pow_two_eq_mul]

include hfb hpos in
/-- A positive squared length to the power one half and then minus two is its reciprocal. -/
theorem bondInv_eq (b : Fin 2) (n : Fin 10000) (m : Fin 16) : bondInv bond b n m = V1.inv bond b n m := by
  obtain ⟨s, hs, es⟩ := hpos b n m
  unfold bondInv V1.inv
  rw [sumSq_eq bond hfb b n m, es]
  show Ideal.pow (Ideal.pow (s : EReal) (Ideal.ofBits .f32 0x3F000000#32)) (Ideal.ofBits .f32 0xC0000000#32) = _
  rw [Cert.Laws.ofBits_half, Cert.Laws.ofBits_neg_two, Cert.Laws.pow_half_neg_two s hs]

include hpos in
/-- The reciprocal of a positive squared length is its own absolute value. -/
theorem inv_abs (b : Fin 2) (n : Fin 10000) (m : Fin 16) :
    max (V1.inv bond b n m) (-(V1.inv bond b n m)) = V1.inv bond b n m := by
  obtain ⟨s, hs, es⟩ := hpos b n m
  apply Cert.Laws.max_neg_of_nonneg
  unfold V1.inv
  rw [es, Cert.Laws.one_div_coe hs]
  have h0 : (0 : ℝ) ≤ 1 / s := by positivity
  exact_mod_cast h0

include hfb hpos in
/-- So the two sides weight a bond alike. -/
theorem bondW_eq (b : Fin 2) (n : Fin 10000) (m : Fin 16) : bondW bond b n m = V1.w bond b n m := by
  have e : ∑ m' : Fin 16, max (bondInv bond b n m') (-(bondInv bond b n m')) = ∑ m' : Fin 16, V1.inv bond b n m' :=
    Finset.sum_congr rfl fun m' _ => by rw [bondInv_eq bond hfb hpos b n m', inv_abs bond hpos b n m']
  unfold bondW V1.w V1.den
  rw [bondInv_eq bond hfb hpos b n m, e]
  rfl

end Bond

/-- The kernel side's node update at `(b, n, o)` is the reference's result 0 there. -/
theorem au_bridge (atom : S2x10000x128.Idx → EReal) (bond : S2x10000x16x16.Idx → EReal) (adj : S2x10000x16.Idx → BitVec 32)
    (wn : S128x128.Idx → EReal) (bn : S128.Idx → EReal)
    (r : Cert.KernelIdeal.S20000x128.Idx → EReal) (g : Cert.KernelIdeal.S320000x128.Idx → EReal)
    (bnr : Cert.KernelIdeal.S1x128.Idx → EReal)
    (hr : ∀ (b : Fin 2) (n : Fin 10000) (f : Fin 128),
      r (ix2 (V1.row b n) f) = Ideal.sqrt (max (atom (ix3 b n f)) (-(atom (ix3 b n f)))))
    (hg : ∀ (b : Fin 2) (n : Fin 10000) (m : Fin 16) (f : Fin 128) (h : b.val * 10000 + (adj (ix3 b n m)).toNat < 20000),
      g (ix2 (V1.nrow b n m) f) = r (ix2 ⟨b.val * 10000 + (adj (ix3 b n m)).toNat, h⟩ f))
    (hb : ∀ o : Fin 128, bnr (ix2 (0 : Fin 1) o) = bn (ix1 o))
    (hadj : ∀ j, (adj j).toNat ≤ 9999) (hfa : ∀ j, ∃ x : ℝ, atom j = (x : EReal)) (hfb : ∀ j, ∃ x : ℝ, bond j = (x : EReal))
    (hpos : ∀ (b : Fin 2) (n : Fin 10000) (m : Fin 16), ∃ s : ℝ, 0 < s ∧ V1.s bond b n m = (s : EReal))
    (b : Fin 2) (n : Fin 10000) (o : Fin 128) :
    max ((∑ f : Fin 128, (r (ix2 (V1.row b n) f) * ∑ m : Fin 16, g (ix2 (V1.nrow b n m) f) * V1.w bond b n m) * wn (ix2 f o))
        + bnr (ix2 (0 : Fin 1) o)) 0
      = refAU atom bond adj wn bn (ix3 b n o) := by
  have hbl : b.val < 2 := b.isLt
  -- the node's own rooted feature
  have own : ∀ f : Fin 128, r (ix2 (V1.row b n) f) = root (atom (ix3 b n f)) := fun f => by
    obtain ⟨x, hx⟩ := hfa (ix3 b n f)
    rw [hr, hx, root_coe]
  -- a gathered row is the rooted feature row of the neighbour the word names
  have nb : ∀ (m : Fin 16) (f : Fin 128), g (ix2 (V1.nrow b n m) f) = root (atom (ix3 b (nbr adj b n m) f)) := fun m f => by
    have ha := hadj (ix3 b n m)
    have hlt : b.val * 10000 + (adj (ix3 b n m)).toNat < 20000 := by omega
    have erow : (⟨b.val * 10000 + (adj (ix3 b n m)).toNat, hlt⟩ : Fin 20000) = V1.row b (nbr adj b n m) :=
      Fin.ext (by
        show b.val * 10000 + (adj (ix3 b n m)).toNat = b.val * 10000 + min (adj (ix3 b n m)).toNat 9999
        rw [Nat.min_eq_left ha])
    obtain ⟨x, hx⟩ := hfa (ix3 b (nbr adj b n m) f)
    rw [hg b n m f hlt, erow, hr, hx, root_coe]
  -- the neighbours' weighted sum, the factors in the other order
  have hanw : ∀ f : Fin 128, ∑ m : Fin 16, g (ix2 (V1.nrow b n m) f) * V1.w bond b n m = anw atom bond adj b n f := fun f => by
    unfold anw
    refine Finset.sum_congr rfl fun m _ => ?_
    rw [nb m f, bondW_eq bond hfb hpos b n m, mul_comm]
  show _ = auAt atom bond adj wn bn b n o
  unfold auAt
  rw [hb o]
  congr 2
  refine Finset.sum_congr rfl fun f _ => ?_
  rw [own f, hanw f]

end Cert.Bridge

end
-- ==== Proof.AUWhole.lean ====
/-
  The node result of the kernel program, as a whole array, is the reference's result 0 over the launch memory's
  argument arrays: under the precondition the neighbour words are in range, the atom and bond entries are reals, and
  every bond row has a positive real squared length, which is all the entry-by-entry comparison needs.
-/
import proofs.«208461_g52518860095779_cont_9to1_m_1075_29_alg».proof.Proof.KernelAU
import proofs.«208461_g52518860095779_cont_9to1_m_1075_29_alg».proof.Proof.BridgeAU
import proofs.«208461_g52518860095779_cont_9to1_m_1075_29_alg».proof.Proof.PreFacts

noncomputable section

open scoped BigOperators

namespace Cert.Bridge

open Idealize.ShloMosaic Idealize.ShloMosaic.ValueIdx Idealize.SL.Sem
open Cert.KernelIdeal Cert.KernelIdeal.Hand
open Cert.ReferenceIdeal.RefValue (refAU auAt anw root bondW)

/-- The entry-by-entry comparison with the kernel side's operands already read back to the argument arrays: the
    node's own root, and the sixteen neighbours' roots through any reading `nb` of the neighbour words as nodes. -/
theorem au_inline (atom : S2x10000x128.Idx → EReal) (bond : S2x10000x16x16.Idx → EReal) (adj : S2x10000x16.Idx → BitVec 32)
    (wn : S128x128.Idx → EReal) (bn : S128.Idx → EReal)
    (hadj : ∀ j, (adj j).toNat ≤ 9999) (hfa : ∀ j, ∃ x : ℝ, atom j = (x : EReal)) (hfb : ∀ j, ∃ x : ℝ, bond j = (x : EReal))
    (hpos : ∀ (b : Fin 2) (n : Fin 10000) (m : Fin 16), ∃ s : ℝ, 0 < s ∧ V1.s bond b n m = (s : EReal))
    (nb : Fin 2 → Fin 10000 → Fin 16 → Fin 10000) (hnb : ∀ b n m, (nb b n m).val = (adj (ix3 b n m)).toNat)
    (b : Fin 2) (n : Fin 10000) (o : Fin 128) :
    max ((∑ f : Fin 128,
            (Ideal.sqrt (max (atom (ix3 b n f)) (-(atom (ix3 b n f))))
              * ∑ k : Fin 16, Ideal.sqrt (max (atom (ix3 b (nb b n k) f)) (-(atom (ix3 b (nb b n k) f)))) * V1.w bond b n k)
            * wn (ix2 f o))
        + bn (ix1 o)) 0
      = refAU atom bond adj wn bn (ix3 b n o) := by
  have rt : ∀ j, Ideal.sqrt (max (atom j) (-(atom j))) = root (atom j) := fun j => by
    obtain ⟨x, hx⟩ := hfa j
    rw [hx, root_coe]
  have enb : ∀ k, nb b n k = Cert.ReferenceIdeal.RefValue.nbr adj b n k := fun k =>
    Fin.ext (by
      show (nb b n k).val = min (adj (ix3 b n k)).toNat 9999
      rw [hnb, Nat.min_eq_left (hadj _)])
  show _ = auAt atom bond adj wn bn b n o
  unfold auAt anw
  refine congrArg₂ max (congrArg₂ (· + ·) (Finset.sum_congr rfl fun f _ => ?_) rfl) rfl
  refine congrArg₂ (· * ·) (congrArg₂ (· * ·) (rt _) (Finset.sum_congr rfl fun k _ => ?_)) rfl
  rw [rt, enb, bondW_eq bond hfb hpos b n k, mul_comm]

/-- The node result along @main, whole, is the reference's result 0. -/
theorem au_whole (upd2 : Valuation τ sig (Elt Ideal) → Valuation τ sig (Elt Ideal))
    (hk2 : ∀ X b, b ≠ rf main_v31 → upd2 X b = X b)
    (m : (ℓ : Loc nD τ sig) → Buf (Elt Ideal) ℓ) (d : Dev nD)
    (h : Cert.Pre_input_domain.fn (F := Ideal) (A0 m d) (A1 m d) (A2 m d) (A3 m d) (A4 m d) (A5 m d) (A6 m d) (A7 m d)
      (A8 m d) (A9 m d) = fun _ => 1#1) :
    W10 upd0 upd1 upd2 m d (rf main_v11) = refAU (A0 m d) (A1 m d) (A2 m d) (A4 m d) (A7 m d) := by
  have h2 : ∀ j, (A2 m d j).toNat ≤ 9999 := Cert.PreFacts.adj_range h
  have hpos : ∀ (b : Fin 2) (n : Fin 10000) (k : Fin 16), ∃ s : ℝ, 0 < s ∧ V1.s (A1 m d) b n k = (s : EReal) := fun b n k => by
    obtain ⟨s, hs, e⟩ := Cert.PreFacts.bond_pos_real h b n k
    exact ⟨s, hs, e⟩
  rw [W10_v11 upd2 m d hk2]
  refine funext fun (j : S2x10000x128.Idx) => ?_
  have ej : j = ix3 (j 0) (j 1) (j 2) := eq_ix3 j
  have key := (kAU_apply m d h2 (j 0) (j 1) (j 2)).trans
    (au_inline (A0 m d) (A1 m d) (A2 m d) (A4 m d) (A7 m d) h2 (Cert.PreFacts.finite_atom h) (Cert.PreFacts.finite_bond h) hpos
      (Cert.KernelIdeal.Hand.nbr m d h2) (fun _ _ _ => rfl) (j 0) (j 1) (j 2))
  exact (congrArg (fun i : S2x10000x128.Idx => W6 upd0 upd1 m d (rf main_v11) i) ej).trans
    (key.trans (congrArg (refAU (A0 m d) (A1 m d) (A2 m d) (A4 m d) (A7 m d)) ej.symm))

end Cert.Bridge

end
-- ==== Proof.BULaws.lean ====
/-
  Laws for the edge update, at the extended reals. The node result is a nonnegative real at every index: each stage of
  its formula — a rooted feature, a bond's weight (a positive real over a positive real), finite sums and products of
  reals, a maximum with zero — stays real. For a nonnegative real column the normaliser is a positive real, so a
  product with its reciprocal is the quotient, and a nonnegative real is its own absolute value. A contraction over
  256 columns splits into its two halves; a sum over a batch's 160000 edges regroups into 80 blocks of 2000, and a
  running total over the blocks is that sum; a finite sum of nonnegative reals is a nonnegative real.
-/
import proofs.«208461_g52518860095779_cont_9to1_m_1075_29_alg».proof.Proof.RefSpec
import proofs.«208461_g52518860095779_cont_9to1_m_1075_29_alg».proof.Proof.V1Defs
import proofs.«208461_g52518860095779_cont_9to1_m_1075_29_alg».proof.Proof.Laws
import proofs.«208461_g52518860095779_cont_9to1_m_1075_29_alg».proof.Proof.BridgeAU
import Mathlib.Algebra.BigOperators.Fin
import Mathlib.Data.Fintype.BigOperators
import Mathlib.Logic.Equiv.Fin.Basic
import Mathlib.Algebra.Order.BigOperators.Group.Finset

noncomputable section

open scoped BigOperators

namespace Cert.Bridge

open Idealize.ShloMosaic Idealize.ShloMosaic.ValueIdx
open Cert.ReferenceIdeal Cert.ReferenceIdeal.RefValue
open Cert.KernelIdeal.Hand

/-! ## The node result is a nonnegative real -/

/-- A real feature's root is a real. -/
theorem root_real {x : EReal} (hx : ∃ r : ℝ, x = (r : EReal)) : ∃ y : ℝ, root x = (y : EReal) := by
  obtain ⟨r, rfl⟩ := hx
  exact ⟨Real.sqrt |r|, by rw [root_coe, Cert.Laws.sqrt_abs_coe]⟩

section Node

variable (atom : S2x10000x128.Idx → EReal) (bond : S2x10000x16x16.Idx → EReal) (adj : S2x10000x16.Idx → BitVec 32)
  (wn : S128x128.Idx → EReal) (bn : S128.Idx → EReal)
variable (hfa : ∀ j, ∃ x : ℝ, atom j = (x : EReal)) (hfb : ∀ j, ∃ x : ℝ, bond j = (x : EReal))
  (hfwn : ∀ j, ∃ x : ℝ, wn j = (x : EReal)) (hfbn : ∀ j, ∃ x : ℝ, bn j = (x : EReal))
  (hpos : ∀ (b : Fin 2) (n : Fin 10000) (m : Fin 16), ∃ s : ℝ, 0 < s ∧ V1.s bond b n m = (s : EReal))

include hpos in
/-- A bond's reciprocal squared length is a positive real. -/
theorem inv_real (b : Fin 2) (n : Fin 10000) (m : Fin 16) : ∃ y : ℝ, 0 < y ∧ V1.inv bond b n m = (y : EReal) := by
  obtain ⟨s, hs, es⟩ := hpos b n m
  exact ⟨1 / s, by positivity, by unfold V1.inv; rw [es, Cert.Laws.one_div_coe hs]⟩

include hfb hpos in
/-- A bond's weight is a real: a real over a positive real. -/
theorem bondW_real (b : Fin 2) (n : Fin 10000) (m : Fin 16) : ∃ y : ℝ, bondW bond b n m = (y : EReal) := by
  choose iv _ hiv using fun m' => inv_real bond hpos b n m'
  obtain ⟨dn, hdn, edn⟩ := Cert.Laws.max_eps (∑ m', iv m')
  refine ⟨iv m / dn, ?_⟩
  rw [bondW_eq bond hfb hpos]
  show Ideal.div (V1.inv bond b n m) (max (∑ m' : Fin 16, V1.inv bond b n m') (Ideal.ofBits .f32 0x2B8CBCCC#32)) = _
  rw [Cert.Laws.sum_eq_coe _ _ iv (fun m' _ => hiv m'), edn, hiv m, Cert.Laws.div_coe_coe _ hdn.ne']

include hfa hfb hpos in
/-- The neighbours' weighted sum is a real. -/
theorem anw_real (b : Fin 2) (n : Fin 10000) (f : Fin 128) : ∃ y : ℝ, anw atom bond adj b n f = (y : EReal) := by
  choose wv hwv using fun m => bondW_real bond hfb hpos b n m
  choose rv hrv using fun m => root_real (hfa (ix3 b (nbr adj b n m) f))
  exact ⟨∑ m, wv m * rv m, Cert.Laws.sum_eq_coe _ _ _ fun m _ => by rw [hwv m, hrv m, ← EReal.coe_mul]⟩

include hfa hfb hfwn hfbn hpos in
/-- The node result is a nonnegative real at every index. -/
theorem refAU_real (j : S2x10000x128.Idx) : ∃ y : ℝ, 0 ≤ y ∧ refAU atom bond adj wn bn j = (y : EReal) := by
  choose rv hrv using fun k => root_real (hfa (ix3 (j 0) (j 1) k))
  choose av hav using fun k => anw_real atom bond adj hfa hfb hpos (j 0) (j 1) k
  choose wv hwv using fun k => hfwn (ix2 k (j 2))
  obtain ⟨bv, hbv⟩ := hfbn (ix1 (j 2))
  refine ⟨max ((∑ k, rv k * av k * wv k) + bv) 0, le_max_right _ _, ?_⟩
  show max ((∑ k : Fin 128, (root (atom (ix3 (j 0) (j 1) k)) * anw atom bond adj (j 0) (j 1) k) * wn (ix2 k (j 2)))
      + bn (ix1 (j 2))) 0 = _
  rw [Cert.Laws.sum_eq_coe _ _ (fun k => rv k * av k * wv k)
      (fun k _ => by rw [hrv k, hav k, hwv k, ← EReal.coe_mul, ← EReal.coe_mul]),
    hbv, ← EReal.coe_add, Cert.Laws.max_zero_coe]

end Node

/-! ## A nonnegative real column and its normaliser -/

/-- A product with the reciprocal of the normaliser, a sum kept above the small positive constant, is the quotient. -/
theorem recip_mul (x s : ℝ) (_hs : 0 ≤ s) :
    (x : EReal) * Ideal.div 1 (max (s : EReal) V1.eps) = Ideal.div (x : EReal) (max (s : EReal) V1.eps) := by
  obtain ⟨m, hm, em⟩ := Cert.Laws.max_eps s
  show (x : EReal) * Ideal.div 1 (max (s : EReal) (Ideal.ofBits .f32 0x2B8CBCCC#32)) = Ideal.div (x : EReal) (max (s : EReal) (Ideal.ofBits .f32 0x2B8CBCCC#32))
  rw [em, Cert.Laws.mul_one_div x m hm]

/-- The kernel's small constant is the reference's. -/
theorem eps_eq : V1.eps = cEps := rfl

/-- A nonnegative real is its own absolute value. -/
theorem abs_nonneg_real (y : ℝ) (hy : 0 ≤ y) : max (y : EReal) (-(y : EReal)) = (y : EReal) :=
  Cert.Laws.max_neg_of_nonneg (by exact_mod_cast hy)

/-! ## Regrouping sums -/

/-- A sum over 256 columns is the sum over the first 128 plus the sum over the last 128. -/
theorem sum_split_256 (G : Fin 256 → EReal) :
    ∑ k : Fin 256, G k
      = (∑ f : Fin 128, G ⟨f.val, by have := f.isLt; omega⟩) + ∑ f : Fin 128, G ⟨128 + f.val, by have := f.isLt; omega⟩ :=
  Fin.sum_univ_add (a := 128) (b := 128) G

/-- A sum over 160000 edges is the sum over 80 blocks of the sums over each block's 2000 rows. -/
theorem sum_blocks (G : Fin 160000 → EReal) :
    ∑ e : Fin 160000, G e
      = ∑ i : Fin 80, ∑ p : Fin 2000, G ⟨2000 * i.val + p.val, by have := i.isLt; have := p.isLt; omega⟩ := by
  rw [← Fintype.sum_prod_type' (f := fun (i : Fin 80) (p : Fin 2000) => G ⟨2000 * i.val + p.val, by have := i.isLt; have := p.isLt; omega⟩)]
  refine (Fintype.sum_equiv (finProdFinEquiv (m := 80) (n := 2000)) _ G fun x => ?_).symm
  exact congrArg G (Fin.ext (Nat.add_comm _ _))

/-- A running total that starts at zero and adds one term per step is the sum of the terms so far. -/
theorem run_eq_sum (a run : ℕ → EReal) (h0 : run 0 = 0) (hs : ∀ k, run (k + 1) = run k + a k) (n : ℕ) :
    run n = ∑ i ∈ Finset.range n, a i := by
  induction n with
  | zero => rw [h0, Finset.sum_range_zero]
  | succ k ih => rw [hs k, ih, Finset.sum_range_succ]

/-- … and over all of `n` steps it is the sum over `Fin n`. -/
theorem run_eq_sum_fin (a run : ℕ → EReal) (h0 : run 0 = 0) (hs : ∀ k, run (k + 1) = run k + a k) (n : ℕ) :
    run n = ∑ i : Fin n, a i.val := by
  rw [run_eq_sum a run h0 hs n, Fin.sum_univ_eq_sum_range]

/-! ## A finite sum of nonnegative reals -/

/-- A finite sum of nonnegative reals, summed in the extended reals, is a nonnegative real. -/
theorem sum_nonneg_real {n : ℕ} (G : Fin n → EReal) (h : ∀ e, ∃ y : ℝ, 0 ≤ y ∧ G e = (y : EReal)) :
    ∃ s : ℝ, 0 ≤ s ∧ ∑ e : Fin n, G e = (s : EReal) := by
  choose y hy0 hy using h
  exact ⟨∑ e, y e, Finset.sum_nonneg fun e _ => hy0 e, Cert.Laws.sum_eq_coe _ _ _ fun e _ => hy e⟩

end Cert.Bridge

end
-- ==== Proof.V2Defs.lean ====
/-
  The edge update of the third TensorCore pipeline, entry by entry, as plain definitions over the arrays: the rows of the
  flat array of gathered endpoint rows a bond's two endpoints sit at, a batch's column sums of its first and of its second
  endpoints' rows, and the result at one entry in the order the body computes it: each endpoint row scaled column by
  column by the reciprocal of its column sum kept above a small positive constant, through the two 128 × 16 layers, the
  two products added, the bias added, the hyperbolic tangent, added to the bond's features, through the 16 × 16 layer with
  its bias.
-/
import proofs.«208461_g52518860095779_cont_9to1_m_1075_29_alg».proof.Proof.V1Defs

noncomputable section

namespace Cert.KernelIdeal.Hand.V2

open Cert.KernelIdeal
open Cert.KernelIdeal.Hand.V1 (eps)

open Idealize.ShloMosaic Idealize.ShloMosaic.ValueIdx
open scoped BigOperators

/-- Bond `16 n + mm` of a batch. -/
def bidx (n : Fin 10000) (mm : Fin 16) : Fin 160000 := ⟨n.val * 16 + mm.val, by have := n.isLt; have := mm.isLt; omega⟩

/-- The row of the gathered endpoint rows that holds the first endpoint of bond `e` of batch `bt`. -/
def erow0 (bt : Fin 2) (e : Fin 160000) : Fin 640000 := ⟨bt.val * 160000 + e.val, by have := bt.isLt; have := e.isLt; omega⟩

/-- The row that holds its second endpoint: the second endpoints' rows follow all the first endpoints'. -/
def erow1 (bt : Fin 2) (e : Fin 160000) : Fin 640000 :=
  ⟨320000 + (bt.val * 160000 + e.val), by have := bt.isLt; have := e.isLt; omega⟩

/-- Batch `bt`'s column sum of the first endpoints' rows. -/
def colSum0 (dd : S640000x128.Idx → EReal) (bt : Fin 2) (f : Fin 128) : EReal := ∑ e : Fin 160000, dd (ix2 (erow0 bt e) f)

/-- Batch `bt`'s column sum of the second endpoints' rows. -/
def colSum1 (dd : S640000x128.Idx → EReal) (bt : Fin 2) (f : Fin 128) : EReal := ∑ e : Fin 160000, dd (ix2 (erow1 bt e) f)

/-- The node-to-edge term of bond `e` of batch `bt`, lane `j`: the two scaled endpoint rows through their layers, added,
    plus the bias, under the hyperbolic tangent. -/
def gate (dd : S640000x128.Idx → EReal) (wt wb : S128x16.Idx → EReal) (bnte : S1x16.Idx → EReal)
    (bt : Fin 2) (e : Fin 160000) (j : Fin 16) : EReal :=
  Ideal.tanh (((∑ f : Fin 128, (dd (ix2 (erow0 bt e) f) * Ideal.div 1 (max (colSum0 dd bt f) eps)) * wt (ix2 f j))
      + ∑ f : Fin 128, (dd (ix2 (erow1 bt e) f) * Ideal.div 1 (max (colSum1 dd bt f) eps)) * wb (ix2 f j))
    + bnte (ix2 (0 : Fin 1) j))

/-- The result at entry (bt, n, mm, o). -/
def res2At (bond : S2x10000x16x16.Idx → EReal) (dd : S640000x128.Idx → EReal) (wt wb : S128x16.Idx → EReal)
    (we : S16x16.Idx → EReal) (bnte bedge : S1x16.Idx → EReal) (bt : Fin 2) (n : Fin 10000) (mm : Fin 16) (o : Fin 16) : EReal :=
  (∑ j : Fin 16, (bond (ix4 bt n mm j) + gate dd wt wb bnte bt (bidx n mm) j) * we (ix2 j o)) + bedge (ix2 (0 : Fin 1) o)

end Cert.KernelIdeal.Hand.V2

end
-- ==== Proof.BridgeBU.lean ====
/-
  The edge update, index by index: what the kernel side computes at the extended reals is the reference's result 1 over
  the same node result. A bond's two endpoint rows, read through the endpoint words, are the two halves of the reference's
  256 columns; the node result is a nonnegative real, so a column's sum of absolute values is the column's sum, a
  nonnegative real, and multiplying by the reciprocal of the normaliser is dividing by it; the contraction over the 256
  columns is the sum of the two contractions over 128 columns against the two halves of the 256 × 16 layer; the bias,
  the hyperbolic tangent, the bond's own features and the 16 × 16 layer with its bias are the same on both sides.
-/
import proofs.«208461_g52518860095779_cont_9to1_m_1075_29_alg».proof.Proof.RefSpec
import proofs.«208461_g52518860095779_cont_9to1_m_1075_29_alg».proof.Proof.V2Defs
import proofs.«208461_g52518860095779_cont_9to1_m_1075_29_alg».proof.Proof.Laws
import proofs.«208461_g52518860095779_cont_9to1_m_1075_29_alg».proof.Proof.BULaws

noncomputable section

open scoped BigOperators

namespace Cert.Bridge

open Idealize.ShloMosaic Idealize.ShloMosaic.ValueIdx
open Cert.ReferenceIdeal Cert.ReferenceIdeal.RefValue
open Cert.KernelIdeal.Hand

/-- A column of the two endpoints' rows laid side by side is a feature of the endpoint the column's half names, read
    through that endpoint's word (in range, so the cap on the row is idle). -/
theorem endFeat_eq (au : S2x10000x128.Idx → EReal) (tup : S2x160000x2.Idx → BitVec 32) (b : Fin 2) (e : Fin 160000)
    (c : Fin 256) (p : Fin 2) (f : Fin 128) (hp : c.val / 128 = p.val) (hf : c.val % 128 = f.val)
    (h : (tup (ix3 b e p)).toNat < 10000) :
    endFeat au tup b e c = au (ix3 b ⟨(tup (ix3 b e p)).toNat, h⟩ f) := by
  have e1 : (⟨c.val / 128, by omega⟩ : Fin 2) = p := Fin.ext hp
  unfold endFeat endRow
  refine congrArg au (funext fun a => Fin.ext ?_)
  match a with
  | ⟨0, _⟩ => rfl
  | ⟨1, _⟩ =>
    show min (tup (ix3 b e ⟨c.val / 128, _⟩)).toNat 9999 = (tup (ix3 b e p)).toNat
    rw [e1]
    exact Nat.min_eq_left (by omega)
  | ⟨2, _⟩ => exact hf

/-- The kernel side's edge update at `(bt, n, mm, o)` is the reference's result 1 there, over the same node result. -/
theorem bu_bridge (au : S2x10000x128.Idx → EReal) (bond : S2x10000x16x16.Idx → EReal) (tup : S2x160000x2.Idx → BitVec 32)
    (w6 : S256x16.Idx → EReal) (we : S16x16.Idx → EReal) (b8 b9 : S16.Idx → EReal)
    (dd : Cert.KernelIdeal.S640000x128.Idx → EReal) (wt wb : Cert.KernelIdeal.S128x16.Idx → EReal)
    (bnte bedge : Cert.KernelIdeal.S1x16.Idx → EReal)
    (hdd0 : ∀ (bt : Fin 2) (e : Fin 160000) (f : Fin 128) (h : (tup (ix3 bt e (0 : Fin 2))).toNat < 10000),
      dd (ix2 (V2.erow0 bt e) f) = au (ix3 bt ⟨(tup (ix3 bt e (0 : Fin 2))).toNat, h⟩ f))
    (hdd1 : ∀ (bt : Fin 2) (e : Fin 160000) (f : Fin 128) (h : (tup (ix3 bt e (1 : Fin 2))).toNat < 10000),
      dd (ix2 (V2.erow1 bt e) f) = au (ix3 bt ⟨(tup (ix3 bt e (1 : Fin 2))).toNat, h⟩ f))
    (hwt : ∀ (f : Fin 128) (j : Fin 16) (h : f.val < 256), wt (ix2 f j) = w6 (ix2 ⟨f.val, h⟩ j))
    (hwb : ∀ (f : Fin 128) (j : Fin 16) (h : 128 + f.val < 256), wb (ix2 f j) = w6 (ix2 ⟨128 + f.val, h⟩ j))
    (hb9 : ∀ j : Fin 16, bnte (ix2 (0 : Fin 1) j) = b9 (ix1 j)) (hb8 : ∀ o : Fin 16, bedge (ix2 (0 : Fin 1) o) = b8 (ix1 o))
    (htup : ∀ j, (tup j).toNat ≤ 9999) (hau : ∀ j, ∃ y : ℝ, 0 ≤ y ∧ au j = (y : EReal))
    (bt : Fin 2) (n : Fin 10000) (mm : Fin 16) (o : Fin 16) :
    V2.res2At bond dd wt wb we bnte bedge bt n mm o = buAt au bond tup we w6 b8 b9 bt n mm o := by
  have hn : n.val < 10000 := n.isLt
  have hmm : mm.val < 16 := mm.isLt
  -- the two halves of the reference's columns are the gathered endpoint rows
  have feat0 : ∀ (e : Fin 160000) (f : Fin 128),
      endFeat au tup bt e ⟨f.val, by have := f.isLt; omega⟩ = dd (ix2 (V2.erow0 bt e) f) := fun e f => by
    have ht := htup (ix3 bt e (0 : Fin 2))
    have hf : f.val < 128 := f.isLt
    rw [hdd0 bt e f (by omega)]
    exact endFeat_eq au tup bt e _ 0 f (by show f.val / 128 = 0; omega) (by show f.val % 128 = f.val; omega) _
  have feat1 : ∀ (e : Fin 160000) (f : Fin 128),
      endFeat au tup bt e ⟨128 + f.val, by have := f.isLt; omega⟩ = dd (ix2 (V2.erow1 bt e) f) := fun e f => by
    have ht := htup (ix3 bt e (1 : Fin 2))
    have hf : f.val < 128 := f.isLt
    rw [hdd1 bt e f (by omega)]
    exact endFeat_eq au tup bt e _ 1 f (by show (128 + f.val) / 128 = 1; omega) (by show (128 + f.val) % 128 = f.val; omega) _
  -- every gathered entry is a nonnegative real
  have real0 : ∀ (e : Fin 160000) (f : Fin 128), ∃ y : ℝ, 0 ≤ y ∧ dd (ix2 (V2.erow0 bt e) f) = (y : EReal) := fun e f => by
    have ht := htup (ix3 bt e (0 : Fin 2))
    rw [hdd0 bt e f (by omega)]
    exact hau _
  have real1 : ∀ (e : Fin 160000) (f : Fin 128), ∃ y : ℝ, 0 ≤ y ∧ dd (ix2 (V2.erow1 bt e) f) = (y : EReal) := fun e f => by
    have ht := htup (ix3 bt e (1 : Fin 2))
    rw [hdd1 bt e f (by omega)]
    exact hau _
  -- a column's sum of absolute values is the column's sum
  have cs0 : ∀ f : Fin 128, ∑ e' : Fin 160000, max (endFeat au tup bt e' ⟨f.val, by have := f.isLt; omega⟩)
        (-(endFeat au tup bt e' ⟨f.val, by have := f.isLt; omega⟩)) = V2.colSum0 dd bt f := fun f => by
    unfold V2.colSum0
    refine Finset.sum_congr rfl fun e' _ => ?_
    obtain ⟨y, hy, ey⟩ := real0 e' f
    rw [feat0 e' f, ey]
    exact abs_nonneg_real y hy
  have cs1 : ∀ f : Fin 128, ∑ e' : Fin 160000, max (endFeat au tup bt e' ⟨128 + f.val, by have := f.isLt; omega⟩)
        (-(endFeat au tup bt e' ⟨128 + f.val, by have := f.isLt; omega⟩)) = V2.colSum1 dd bt f := fun f => by
    unfold V2.colSum1
    refine Finset.sum_congr rfl fun e' _ => ?_
    obtain ⟨y, hy, ey⟩ := real1 e' f
    rw [feat1 e' f, ey]
    exact abs_nonneg_real y hy
  -- a normalised column: the quotient is the product with the reciprocal
  have n0 : ∀ (e : Fin 160000) (f : Fin 128), endN au tup bt e ⟨f.val, by have := f.isLt; omega⟩
      = dd (ix2 (V2.erow0 bt e) f) * Ideal.div 1 (max (V2.colSum0 dd bt f) V1.eps) := fun e f => by
    obtain ⟨y, hy, ey⟩ := real0 e f
    obtain ⟨S, hS, eS⟩ := sum_nonneg_real (fun e' : Fin 160000 => dd (ix2 (V2.erow0 bt e') f)) (fun e' => real0 e' f)
    have eS' : V2.colSum0 dd bt f = (S : EReal) := eS
    unfold endN
    rw [cs0 f, feat0 e f, ey, eS']
    exact (recip_mul y S hS).symm
  have n1 : ∀ (e : Fin 160000) (f : Fin 128), endN au tup bt e ⟨128 + f.val, by have := f.isLt; omega⟩
      = dd (ix2 (V2.erow1 bt e) f) * Ideal.div 1 (max (V2.colSum1 dd bt f) V1.eps) := fun e f => by
    obtain ⟨y, hy, ey⟩ := real1 e f
    obtain ⟨S, hS, eS⟩ := sum_nonneg_real (fun e' : Fin 160000 => dd (ix2 (V2.erow1 bt e') f)) (fun e' => real1 e' f)
    have eS' : V2.colSum1 dd bt f = (S : EReal) := eS
    unfold endN
    rw [cs1 f, feat1 e f, ey, eS']
    exact (recip_mul y S hS).symm
  -- the bond the entry belongs to
  have he : (⟨16 * n.val + mm.val, by omega⟩ : Fin 160000) = V2.bidx n mm :=
    Fin.ext (by show 16 * n.val + mm.val = n.val * 16 + mm.val; omega)
  unfold V2.res2At buAt
  rw [he]
  refine congrArg₂ (· + ·) (Finset.sum_congr rfl fun j _ => ?_) (hb8 o)
  refine congrArg (· * we (ix2 j o)) ?_
  unfold bondNew V2.gate
  refine congrArg₂ (· + ·) (congrArg bond (funext fun a => Fin.ext ?_)) (congrArg Ideal.tanh ?_)
  · match a with
    | ⟨0, _⟩ => rfl
    | ⟨1, _⟩ => show n.val = (n.val * 16 + mm.val) / 16; omega
    | ⟨2, _⟩ => show mm.val = (n.val * 16 + mm.val) % 16; omega
    | ⟨3, _⟩ => rfl
  · refine congrArg₂ (· + ·) ?_ (hb9 j)
    rw [sum_split_256]
    refine congrArg₂ (· + ·) (Finset.sum_congr rfl fun f _ => ?_) (Finset.sum_congr rfl fun f _ => ?_)
    · have hf : f.val < 128 := f.isLt
      rw [n0 (V2.bidx n mm) f, hwt f j (by omega)]
    · have hf : f.val < 128 := f.isLt
      rw [n1 (V2.bidx n mm) f, hwb f j (by omega)]

end Cert.Bridge

end
-- ==== Proof.Region2Ends.lean ====
/-
  The two ends of region 2 of @main (the third TensorCore pipeline: a grid of 2 × 160 points, nine windows over eight arrays —
  windows 1 and 2 read blocks i and i + 160 of ONE array; window 8 is the result, written back at every point though the
  body stores into it only in the second pass), for any relational proof data of that pipeline.
  ENTRY: the TensorCore's unscoped buffers at a valuation are the nine windows' arrays — the shared array in halves — and the rest.
  EXIT: the arrays after the last point, the inputs as found and the result at the one contents it may hold, with the rest,
  are the buffers at the valuation updated at the result array. Both also as the region rule states them, with the core's tallies.
  THE RESULT: whatever the result array may hold after the run is G, when every second-pass point leaves block t of G: the
  second pass's blocks tile the array, and they are written after every first-pass write-back. Such a G is the array glued from
  the blocks the second-pass points leave.
-/
import proofs.«208461_g52518860095779_cont_9to1_m_1075_29_alg».proof.Proof.Common
import Idealize.ShloMosaic.Lib.Pipeline.Frame
import Idealize.ShloMosaic.Lib.Pipeline.Value

set_option maxRecDepth 16384

noncomputable section

namespace Cert.KernelIdeal.Hand.R2E

open Cert.KernelIdeal Cert.KernelIdeal.Gen Cert.KernelIdeal.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 2) (Elt F) ℕ UU ℕ

/-! ## The region's arrays at its two ends -/

section Ends

variable {c : Dev nD} (V : Valuation τ sig (Elt F)) (rd : RDat τ (Elt F) (HIx 2) ℕ UU ℕ cfg4 c)

/-- The shares the windows hold their arrays at: windows 1 and 2 read one array, a half each; every other the whole. -/
def q2 : Fin cfg4.W → PosShare TreeShare :=
  fun w => if w = 1 then fullShare.left else if w = 2 then fullShare.right else fullShare

/-- The eight distinct arrays behind the nine windows. -/
def T2 : Finset (DevRef τ sig) :=
  {Proc.devRef .tc main_arg1, Proc.devRef .tc main_v26, Proc.devRef .tc main_v27, Proc.devRef .tc main_v28,
    Proc.devRef .tc main_arg5, Proc.devRef .tc main_v29, Proc.devRef .tc main_v30, Proc.devRef .tc main_v31}

theorem T2_sub : T2 ⊆ Pipeline.ucRefs τ sig := by
  intro b hb
  simp only [T2, Finset.mem_insert, Finset.mem_singleton] at hb
  unfold Pipeline.ucRefs
  rcases hb with rfl | rfl | rfl | rfl | rfl | rfl | rfl | rfl <;>
    exact Finset.mem_filter.mpr ⟨StableHlo.devRef_mem_tcRefs _, by decide⟩

/-- A buffer of device c whole at share q. -/
abbrev pt (b : Ref sig .tc) (q : PosShare TreeShare) (f : Buf (Elt F) ((c : Thread nD τ).loc b)) : sProp 𝕄 :=
  ((c : Thread nD τ).loc b) ↦{q} f

/-- The eight arrays held at a valuation, one by one. -/
theorem held_T2 (Vv : Valuation τ sig (Elt F)) : (StableHlo.held (c : Thread nD τ) T2 Vv : sProp 𝕄)
    = iprop(pt (c := c) main_arg1 fullShare (Vv (Proc.devRef .tc main_arg1)) ∗ pt (c := c) main_v26 fullShare (Vv (Proc.devRef .tc main_v26))
        ∗ pt (c := c) main_v27 fullShare (Vv (Proc.devRef .tc main_v27)) ∗ pt (c := c) main_v28 fullShare (Vv (Proc.devRef .tc main_v28))
        ∗ pt (c := c) main_arg5 fullShare (Vv (Proc.devRef .tc main_arg5)) ∗ pt (c := c) main_v29 fullShare (Vv (Proc.devRef .tc main_v29))
        ∗ pt (c := c) main_v30 fullShare (Vv (Proc.devRef .tc main_v30)) ∗ pt (c := c) main_v31 fullShare (Vv (Proc.devRef .tc main_v31))) := by
  unfold StableHlo.held T2
  rw [bigSep_eq_bigSepL_of_eq [Proc.devRef .tc main_arg1, Proc.devRef .tc main_v26, Proc.devRef .tc main_v27, Proc.devRef .tc main_v28,
    Proc.devRef .tc main_arg5, Proc.devRef .tc main_v29, Proc.devRef .tc main_v30, Proc.devRef .tc main_v31] (by decide) (by decide)]
  rfl

/-- Each window's array is held at the share q2 gives it (the result's, whole). -/
theorem share_eq (hq : rd.q = q2) (w : Fin cfg4.W) : rd.share w = q2 w := by
  unfold RDat.share; rw [hq]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The windows' arrays at contents Fa, one by one. -/
theorem arrays_eq (hq : rd.q = q2) (Fa) : (rd.arrays Fa : sProp 𝕄)
    = iprop(pt (c := c) main_arg1 fullShare (Fa 0) ∗ pt (c := c) main_v26 fullShare.left (Fa 1) ∗ pt (c := c) main_v26 fullShare.right (Fa 2)
        ∗ pt (c := c) main_v27 fullShare (Fa 3) ∗ pt (c := c) main_v28 fullShare (Fa 4) ∗ pt (c := c) main_arg5 fullShare (Fa 5)
        ∗ pt (c := c) main_v29 fullShare (Fa 6) ∗ pt (c := c) main_v30 fullShare (Fa 7) ∗ pt (c := c) main_v31 fullShare (Fa 8)) := by
  have h : (rd.arrays Fa : sProp 𝕄) = bigSep Finset.univ fun w : Fin cfg4.W =>
      (((c : Thread nD τ).loc (Pipeline.arrRef spec4 w)) ↦{q2 w} Fa w : sProp 𝕄) := by
    unfold RDat.arrays
    exact bigSep_congr fun w _ => by rw [(arr_whole4 w).set_eq_univ, share_eq rd hq]
  rw [h, bigSep_W4]
  rfl

/-- The windows' arrays after the write-backs below n, one by one. -/
theorem arraysAt_eq (hq : rd.q = q2) (n : Nat) : (rd.arraysAt n : sProp 𝕄)
    = iprop((∃ Fw, ⌜rd.ArrAt 0 n Fw⌝ ∗ pt (c := c) main_arg1 fullShare Fw) ∗ (∃ Fw, ⌜rd.ArrAt 1 n Fw⌝ ∗ pt (c := c) main_v26 fullShare.left Fw)
        ∗ (∃ Fw, ⌜rd.ArrAt 2 n Fw⌝ ∗ pt (c := c) main_v26 fullShare.right Fw) ∗ (∃ Fw, ⌜rd.ArrAt 3 n Fw⌝ ∗ pt (c := c) main_v27 fullShare Fw)
        ∗ (∃ Fw, ⌜rd.ArrAt 4 n Fw⌝ ∗ pt (c := c) main_v28 fullShare Fw) ∗ (∃ Fw, ⌜rd.ArrAt 5 n Fw⌝ ∗ pt (c := c) main_arg5 fullShare Fw)
        ∗ (∃ Fw, ⌜rd.ArrAt 6 n Fw⌝ ∗ pt (c := c) main_v29 fullShare Fw) ∗ (∃ Fw, ⌜rd.ArrAt 7 n Fw⌝ ∗ pt (c := c) main_v30 fullShare Fw)
        ∗ (∃ Fw, ⌜rd.ArrAt 8 n Fw⌝ ∗ pt (c := c) main_v31 fullShare Fw)) := by
  have h : (rd.arraysAt n : sProp 𝕄) = bigSep Finset.univ fun w : Fin cfg4.W =>
      iprop(∃ Fw, ⌜rd.ArrAt w n Fw⌝ ∗ (((c : Thread nD τ).loc (Pipeline.arrRef spec4 w)) ↦{q2 w} Fw : sProp 𝕄)) := by
    unfold RDat.arraysAt
    exact bigSep_congr fun w _ => by rw [(arr_whole4 w).set_eq_univ, share_eq rd hq]
  rw [h, bigSep_W4]
  rfl

/-- The buffers that bypass the region do not see the result array's update. -/
theorem held_rest (G) : (StableHlo.held (c : Thread nD τ) (Pipeline.ucRefs τ sig \ T2) (Function.update V (Proc.devRef .tc main_v31) G) : sProp 𝕄)
    = StableHlo.held (c : Thread nD τ) (Pipeline.ucRefs τ sig \ T2) V :=
  StableHlo.held_congr (c : Thread nD τ) fun b hb => Function.update_of_ne
    (fun e => (Finset.mem_sdiff.mp hb).2 (by rw [e]; simp [T2])) _ _

/-- ENTRY: the TensorCore's unscoped buffers at V are the windows' arrays at the proof data's entry contents — the array two
    windows read split in halves — and the buffers that bypass the region. -/
theorem entry_arrays (hq : rd.q = q2) (hA : ∀ w, rd.A w = V (Proc.devRef .tc (Pipeline.arrRef spec4 w))) :
    (StableHlo.held (c : Thread nD τ) (Pipeline.ucRefs τ sig) V : sProp 𝕄)
      ⊢ iprop(rd.arrays rd.A ∗ StableHlo.held (c : Thread nD τ) (Pipeline.ucRefs τ sig \ T2) V) := by
  rw [StableHlo.held_sub_split (c : Thread nD τ) T2_sub V, held_T2, arrays_eq rd hq]
  simp only [hA]
  iintro ⟨⟨H0, H26, H27, H28, H5, H29, H30, H31⟩, HZ⟩
  icases (pointsTo_share (PosShare.mem_left_op_right fullShare)).1 $$ H26 with ⟨Hl, Hr⟩
  isplitr [HZ]
  · isplitl [H0]; · iexact H0
    isplitl [Hl]; · iexact Hl
    isplitl [Hr]; · iexact Hr
    isplitl [H27]; · iexact H27
    isplitl [H28]; · iexact H28
    isplitl [H5]; · iexact H5
    isplitl [H29]; · iexact H29
    isplitl [H30]; · iexact H30
    iexact H31
  iexact HZ

set_option maxHeartbeats 1000000 in
/-- EXIT: the windows' arrays after the last point — every input array as found, the result array at G, which is all it may
    hold — and the buffers that bypassed the region are the TensorCore's unscoped buffers at V with the result array at G. -/
theorem exit_arrays (hq : rd.q = q2) (hA : ∀ w, rd.A w = V (Proc.devRef .tc (Pipeline.arrRef spec4 w)))
    (G : S2x10000x16x16.Idx → Elt F .f32) (hfin : ∀ Fa, rd.ArrAt 8 cfg4.N Fa → Fa = G) :
    iprop(rd.arraysAt cfg4.N ∗ StableHlo.held (c : Thread nD τ) (Pipeline.ucRefs τ sig \ T2) V)
      ⊢ (StableHlo.held (c : Thread nD τ) (Pipeline.ucRefs τ sig) (Function.update V (Proc.devRef .tc main_v31) G) : sProp 𝕄) := by
  rw [StableHlo.held_sub_split (c : Thread nD τ) T2_sub (Function.update V (Proc.devRef .tc main_v31) G), held_T2, held_rest,
    arraysAt_eq rd hq,
    Function.update_of_ne (StableHlo.devRef_ne_of_ne (by decide) : Proc.devRef (τ := τ) .tc main_arg1 ≠ Proc.devRef .tc main_v31),
    Function.update_of_ne (StableHlo.devRef_ne_of_ne (by decide) : Proc.devRef (τ := τ) .tc main_v26 ≠ Proc.devRef .tc main_v31),
    Function.update_of_ne (StableHlo.devRef_ne_of_ne (by decide) : Proc.devRef (τ := τ) .tc main_v27 ≠ Proc.devRef .tc main_v31),
    Function.update_of_ne (StableHlo.devRef_ne_of_ne (by decide) : Proc.devRef (τ := τ) .tc main_v28 ≠ Proc.devRef .tc main_v31),
    Function.update_of_ne (StableHlo.devRef_ne_of_ne (by decide) : Proc.devRef (τ := τ) .tc main_arg5 ≠ Proc.devRef .tc main_v31),
    Function.update_of_ne (StableHlo.devRef_ne_of_ne (by decide) : Proc.devRef (τ := τ) .tc main_v29 ≠ Proc.devRef .tc main_v31),
    Function.update_of_ne (StableHlo.devRef_ne_of_ne (by decide) : Proc.devRef (τ := τ) .tc main_v30 ≠ Proc.devRef .tc main_v31),
    Function.update_self (Proc.devRef (τ := τ) .tc main_v31) G V]
  iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩, ⟨%F7, %h7, H7⟩, ⟨%F8, %h8, H8⟩⟩, HZ⟩
  rw [rd.ArrAt_in 0 rfl] at h0; rw [rd.ArrAt_in 1 rfl] at h1; rw [rd.ArrAt_in 2 rfl] at h2; rw [rd.ArrAt_in 3 rfl] at h3
  rw [rd.ArrAt_in 4 rfl] at h4; rw [rd.ArrAt_in 5 rfl] at h5; rw [rd.ArrAt_in 6 rfl] at h6; rw [rd.ArrAt_in 7 rfl] at h7
  have h8' := hfin F8 h8
  rw [hA] at h0 h1 h2 h3 h4 h5 h6 h7
  subst h0 h1 h2 h3 h4 h5 h6 h7 h8'
  isplitr [HZ]
  · isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    isplitl [H6]; · iexact H6
    isplitl [H7]; · iexact H7
    iexact H8
  iexact HZ

end Ends

/-! ## The result array after the run: the second pass's blocks cover it -/

section Final

variable {c : Dev nD} (rd : RDat τ (Elt F) (HIx 2) ℕ UU ℕ cfg4 c)

/-- The grid has 320 points: 160 of the first pass, then 160 of the second. -/
theorem N4 : cfg4.N = 320 := N_4

/-- The result window's index map, decided over the grid: point 160 + i of the second pass sits at block (i / 80, i % 80, 0, 0). -/
theorem idx_facts8 : ∀ t : Fin cfg4.N, 160 ≤ t.val → win4_8.index t (0 : Fin 4) = (t.val - 160) / 80 ∧ win4_8.index t (1 : Fin 4) = (t.val - 160) % 80
    ∧ win4_8.index t (2 : Fin 4) = 0 ∧ win4_8.index t (3 : Fin 4) = 0 :=
  (by decide +kernel : ∀ t : Fin grid4.N, 160 ≤ t.val → _)

/-- An index of the result array is in point t's block iff each coordinate is in the block's range on its axis. -/
theorem mem_blk8 (t : Fin cfg4.N) (i : S2x10000x16x16.Idx) :
    i ∈ ((cfg4.win 8).blk t).view.set ↔ ∀ a : Fin 4, win4_8.index t a * S1x125x16x16.size a ≤ (i a).val ∧ (i a).val < win4_8.index t a * S1x125x16x16.size a + S1x125x16x16.size a := by
  show i ∈ ((View.whole main_v31).slice (win4_8.rect t)).set ↔ _
  rw [View.set_slice_whole, Rect.mem_set_unit]
  exact Iff.rfl

/-- The second pass's 160 blocks of 125 rows tile the 2 × 10000 rows: row (a, b) lies in the block of point 160 + 80 a + b / 125. -/
theorem cover8 (i : S2x10000x16x16.Idx) : ∃ t : Fin cfg4.N, 160 ≤ t.val ∧ t.val < cfg4.N ∧ i ∈ ((cfg4.win 8).blk t).view.set := by
  have hi0 : (i 0).val < 2 := (i 0).isLt
  have hi1 : (i 1).val < 10000 := (i 1).isLt
  have hi2 : (i 2).val < 16 := (i 2).isLt
  have hi3 : (i 3).val < 16 := (i 3).isLt
  have hN : cfg4.N = 320 := N4
  obtain ⟨t, ht⟩ : ∃ t : Fin cfg4.N, t.val = 160 + 80 * (i 0).val + (i 1).val / 125 := ⟨⟨160 + 80 * (i 0).val + (i 1).val / 125, by omega⟩, rfl⟩
  obtain ⟨e0, e1, e2, e3⟩ := idx_facts8 t (by omega)
  refine ⟨t, by omega, t.isLt, ?_⟩
  rw [mem_blk8]
  intro a
  match a with
  | ⟨0, _⟩ => show win4_8.index t (0 : Fin 4) * 1 ≤ (i 0).val ∧ (i 0).val < win4_8.index t (0 : Fin 4) * 1 + 1; omega
  | ⟨1, _⟩ => show win4_8.index t (1 : Fin 4) * 125 ≤ (i 1).val ∧ (i 1).val < win4_8.index t (1 : Fin 4) * 125 + 125; omega
  | ⟨2, _⟩ => show win4_8.index t (2 : Fin 4) * 16 ≤ (i 2).val ∧ (i 2).val < win4_8.index t (2 : Fin 4) * 16 + 16; omega
  | ⟨3, _⟩ => show win4_8.index t (3 : Fin 4) * 16 ≤ (i 3).val ∧ (i 3).val < win4_8.index t (3 : Fin 4) * 16 + 16; omega

/-- After the write-backs below n, every index in the block of a second-pass point below n reads G: a first-pass point's
    write-back (of contents nothing constrains) is overwritten by the second pass's, and a second-pass block written again
    is written with the same values. -/
theorem arrAt_apply_of_late (G : S2x10000x16x16.Idx → Elt F .f32)
    (hG : ∀ t : Fin cfg4.N, 160 ≤ t.val → ∀ Y X, rd.after 8 t Y X →
      (cfg4.win 8).cut (cfg4.grid.coords t) X = ((cfg4.win 8).blk t).view.read (Elt F) G) (n : Nat) :
    n ≤ cfg4.N → ∀ (Fa : S2x10000x16x16.Idx → Elt F .f32), rd.ArrAt 8 n Fa →
      ∀ (i : S2x10000x16x16.Idx) (t : Fin cfg4.N), 160 ≤ t.val → t.val < n → i ∈ ((cfg4.win 8).blk t).view.set → Fa i = G i := by
  induction n with
  | zero => intro _ _ _ _ _ _ ht _; exact absurd ht (Nat.not_lt_zero _)
  | succ n ih =>
    intro hnN Fa hFa i t h160 ht hi
    have hn : n < cfg4.N := hnN
    have hs := rd.ArrAt_succ 8 ⟨n, hn⟩
    rw [show (cfg4.win 8).flush ⟨n, hn⟩ = true from flush4_8 ⟨n, hn⟩, if_pos rfl] at hs
    have hFa' : rd.ArrStep 8 ⟨n, hn⟩ (rd.ArrAt 8 n) Fa := by rw [← hs]; exact hFa
    obtain ⟨G₀, X, hG₀, ⟨Y, -, hYX⟩, rfl⟩ := hFa'
    by_cases hin : i ∈ ((cfg4.win 8).blk ⟨n, hn⟩).view.setOn Finset.univ
    · have hn160 : 160 ≤ n := by omega
      rw [hG ⟨n, hn⟩ hn160 Y X hYX, View.write_read_eq_piecewise, Finset.piecewise_eq_of_mem _ _ _ hin]
    · rw [View.write_of_not_mem _ _ _ hin]
      have htn : t.val ≠ n := fun e => hin (by rw [View.setOn_univ]; have : t = ⟨n, hn⟩ := Fin.ext e; exact this ▸ hi)
      exact ih (Nat.le_of_lt hn) G₀ hG₀ i t h160 (by omega) hi

/-- THE RESULT ARRAY after the run: whatever it may hold is G, when every second-pass point leaves block t of G. -/
theorem arrAt_final (G : S2x10000x16x16.Idx → Elt F .f32)
    (hG : ∀ t : Fin cfg4.N, 160 ≤ t.val → ∀ Y X, rd.after 8 t Y X →
      (cfg4.win 8).cut (cfg4.grid.coords t) X = ((cfg4.win 8).blk t).view.read (Elt F) G) :
    ∀ Fa, rd.ArrAt 8 cfg4.N Fa → Fa = G := fun Fa hFa =>
  funext fun i => by
    obtain ⟨t, h160, htN, hi⟩ := cover8 i
    exact arrAt_apply_of_late rd G hG cfg4.N le_rfl Fa hFa i t h160 htN hi

end Final

/-! ## The result array glued from the second pass's blocks -/

section Glue

/-- The whole result array from a family of blocks, one per point: index (a, b, x, y) reads the block of the second-pass point
    160 + 80 a + b / 125 — the one whose block holds it — at its place (0, b % 125, x, y) in that block. -/
def glue (R : Fin cfg4.N → Vec F S1x125x16x16 .f32) : S2x10000x16x16.Idx → Elt F .f32 :=
  fun i => R ⟨160 + 80 * (i 0).val + (i 1).val / 125, by
      have hN : cfg4.N = 320 := N4
      have h0 : (i 0).val < 2 := (i 0).isLt
      have h1 : (i 1).val < 10000 := (i 1).isLt
      omega⟩
    (ValueIdx.ix4 (0 : Fin 1) (⟨(i 1).val % 125, Nat.mod_lt _ (by decide)⟩ : Fin 125) (i 2) (i 3))

/-- The glued array at an index, from the point and the place computed back. -/
theorem glue_apply (R : Fin cfg4.N → Vec F S1x125x16x16 .f32) (i : S2x10000x16x16.Idx) (t : Fin cfg4.N) (y : S1x125x16x16.Idx)
    (h : t.val = 160 + 80 * (i 0).val + (i 1).val / 125) (h0 : (y 0).val = 0) (h1 : (y 1).val = (i 1).val % 125)
    (h2 : (y 2).val = (i 2).val) (h3 : (y 3).val = (i 3).val) : glue R i = R t y := by
  unfold glue
  have e1 : (⟨160 + 80 * (i 0).val + (i 1).val / 125, by
      have hN : cfg4.N = 320 := N4
      have h0 : (i 0).val < 2 := (i 0).isLt
      have h1 : (i 1).val < 10000 := (i 1).isLt
      omega⟩ : Fin cfg4.N) = t := Fin.ext h.symm
  have e2 : ValueIdx.ix4 (0 : Fin 1) (⟨(i 1).val % 125, Nat.mod_lt _ (by decide)⟩ : Fin 125) (i 2) (i 3) = y :=
    funext fun a => Fin.ext <| match a with
      | ⟨0, _⟩ => h0.symm
      | ⟨1, _⟩ => h1.symm
      | ⟨2, _⟩ => h2.symm
      | ⟨3, _⟩ => h3.symm
  rw [e1]
  exact congrArg (R t) e2

/-- What a second-pass point leaves is its block of the glued array. -/
theorem glue_blk (R : Fin cfg4.N → Vec F S1x125x16x16 .f32) (t : Fin cfg4.N) (ht : 160 ≤ t.val) :
    (cfg4.win 8).cut (cfg4.grid.coords t) (R t) = ((cfg4.win 8).blk t).view.read (Elt F) (glue R) := by
  obtain ⟨e0, e1, e2, e3⟩ := idx_facts8 t ht
  have hN : cfg4.N = 320 := N4
  have htN := t.isLt
  funext y
  show R t y = glue R (((cfg4.win 8).blk t).view.emb y)
  have hy0 : (y 0).val < 1 := (y 0).isLt
  have hy1 : (y 1).val < 125 := (y 1).isLt
  have c0 : ((((cfg4.win 8).blk t).view.emb y) 0).val = win4_8.index t (0 : Fin 4) * 1 + 1 * (y 0).val := rfl
  have c1 : ((((cfg4.win 8).blk t).view.emb y) 1).val = win4_8.index t (1 : Fin 4) * 125 + 1 * (y 1).val := rfl
  have c2 : ((((cfg4.win 8).blk t).view.emb y) 2).val = win4_8.index t (2 : Fin 4) * 16 + 1 * (y 2).val := rfl
  have c3 : ((((cfg4.win 8).blk t).view.emb y) 3).val = win4_8.index t (3 : Fin 4) * 16 + 1 * (y 3).val := rfl
  exact (glue_apply R _ t y (by omega) (by omega) (by omega) (by omega) (by omega)).symm

end Glue

/-! ## The region's entry and exit, as the region rule asks them -/

section Fields

variable {c : Dev nD} (V : Valuation τ sig (Elt F)) (rd : RDat τ (Elt F) (HIx 2) ℕ UU ℕ cfg4 c)
  (O : CellTallies nD τ sig (HIx 2)) (W : Waits sig (HIx 2))

theorem bigSep_Fin0 {M : Type} [URA M] (Φ : Fin 0 → sProp M) : bigSep Finset.univ Φ = (BI.emp : sProp M) :=
  bigSep_univ_eq_bigSepL [] (by decide) (by decide) Φ

/-- The pipeline has no prefetched table. -/
theorem prefHeld2 (q) (pf) : (Pipeline.prefHeld (Ix := HIx 2) (Name := ℕ) (U := UU) (Lvl := ℕ) (Val := Elt F) (pcfgs (F := F) 2).pre c q pf : sProp 𝕄) = BI.emp :=
  bigSep_Fin0 _

/-- The core's tallies at a point where the proof data owes O and bounds the recorded waits by W: some recorded set within
    W and the pipeline's own waits. -/
theorem owesAt_eq (t : Fin (cfg4.N + 1)) (hO : rd.owed t = O) (hR : rd.recorded t = ↑W) :
    (rd.owesAt none t : sProp 𝕄)
      = iprop(∃ W' : Waits sig (HIx 2), ⌜(↑W' : Set (SemLoc sig × HIx 2)) ⊆ ↑W ∪ Pipeline.Cfg.waitPairs cfg4 (none : HIx 2)⌝ ∗ owes (c : Thread nD τ) O W') := by
  unfold RDat.owesAt Pipeline.owesWithin RDat.bound; rw [hO, hR]

/-- ENTRY, as the region rule's field: from the buffers at V and the core's tallies. -/
theorem hentry_of (hq : rd.q = q2) (hA : ∀ w, rd.A w = V (Proc.devRef .tc (Pipeline.arrRef spec4 w)))
    (hO0 : rd.owed 0 = O) (hR0 : rd.recorded 0 = ↑W) :
    iprop((StableHlo.held (c : Thread nD τ) (Pipeline.ucRefs τ sig) V ∗ owes (c : Thread nD τ) O W)
        ∗ Pipeline.ownSems0 (fun k : PEmpty => k.elim) c ∗ levAts (K (F := F)).L (K (F := F)).lev)
      ⊢ |={Set.univ}=> iprop(rd.arrays rd.A ∗ Pipeline.prefHeld (pcfgs (F := F) 2).pre c (fun _ => fullShare) (adm 2).1
          ∗ rd.owesAt none 0 ∗ emp ∗ StableHlo.held (c : Thread nD τ) (Pipeline.ucRefs τ sig \ T2) V) := by
  rw [prefHeld2, owesAt_eq rd O W 0 hO0 hR0]
  iintro ⟨⟨Hh, HO⟩, -, -⟩
  icases (entry_arrays V rd hq hA) $$ Hh with ⟨Ha, HZ⟩
  imodintro
  isplitl [Ha]; · iexact Ha
  isplitr; · iempintro
  isplitl [HO]
  · iexists W; isplitr
    · ipureintro; exact fun x hx => Or.inl hx
    iexact HO
  isplitr; · iempintro
  iexact HZ

/-- EXIT, as the region rule's field: to the buffers at V with the result array at G, and the core's tallies. -/
theorem hexit_of (hq : rd.q = q2) (hA : ∀ w, rd.A w = V (Proc.devRef .tc (Pipeline.arrRef spec4 w)))
    (hON : rd.owed (Fin.last cfg4.N) = O) (hRN : rd.recorded (Fin.last cfg4.N) = ↑W)
    (G : S2x10000x16x16.Idx → Elt F .f32) (hfin : ∀ Fa, rd.ArrAt 8 cfg4.N Fa → Fa = G) :
    iprop(rd.arraysAt cfg4.N ∗ rd.owesAt none (Fin.last cfg4.N) ∗ emp ∗ StableHlo.held (c : Thread nD τ) (Pipeline.ucRefs τ sig \ T2) V)
      ⊢ |={Set.univ}=> iprop(StableHlo.held (c : Thread nD τ) (Pipeline.ucRefs τ sig) (Function.update V (Proc.devRef .tc main_v31) G)
          ∗ ∃ W', ⌜∀ p ∈ W', p ∈ W ∨ p.2 = none⌝ ∗ owes (c : Thread nD τ) O W') := by
  rw [owesAt_eq rd O W (Fin.last cfg4.N) hON hRN]
  iintro ⟨Ha, ⟨%W', %hW', HO⟩, -, HZ⟩
  imodintro
  isplitl [Ha HZ]
  · iapply (exit_arrays V rd hq hA G hfin)
    isplitl [Ha]; · iexact Ha
    iexact HZ
  iexists W'; isplitr
  · ipureintro
    intro p hp
    rcases hW' hp with h | ⟨w, s, rfl⟩
    · exact Or.inl h
    · exact Or.inr rfl
  iexact HO

end Fields

end Cert.KernelIdeal.Hand.R2E

end
-- ==== Proof.R2Defs.lean ====
/-
  Region 2 of @main, the definitions its result is made of: the body's three control cases run on whole staging memrefs
  (phase 0 at the first block, phase 0 past it, with the pieces their stores leave in the scratch), the control cases
  decided over the grid, the input blocks, the scratch's contents as the fold over the points done, what a phase-1 point
  stores over the result block, and the whole result array glued from the phase-1 blocks.
-/
import proofs.«208461_g52518860095779_cont_9to1_m_1075_29_alg».proof.Proof.Common
import proofs.«208461_g52518860095779_cont_9to1_m_1075_29_alg».proof.Proof.Region2Ends
import Idealize.ShloMosaic.Lib.Pipeline.Frame
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 2) (Elt F) ℕ UU ℕ

namespace R2

theorem zeros2 : (![0, 0] : Fin 2 → ℕ) = fun _ => 0 := by
  funext a; fin_cases a <;> rfl
theorem zeros4 : (![0, 0, 0, 0] : Fin 4 → ℕ) = fun _ => 0 := by
  funext a; fin_cases a <;> rfl

/-- A load of a whole buffer reads its contents. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

/-- The scratch rows the body addresses, in closed form over the block coordinate. -/
theorem k4_off1_eq : ∀ i : grid4.Coords, k4_off1 i = ![2 * ((i 1).val / 80), 0] := by decide +kernel
theorem k4_off2_eq : ∀ i : grid4.Coords, k4_off2 i = ![2 * ((i 1).val / 80) + 1, 0] := by decide +kernel
theorem k4_off3_eq : ∀ i : grid4.Coords, k4_off3 i = ![2 * ((i 1).val / 80), 0] := by decide +kernel
theorem k4_off4_eq : ∀ i : grid4.Coords, k4_off4 i = ![2 * ((i 1).val / 80) + 1, 0] := by decide +kernel
instance closedOff_k4_off1 (i : grid4.Coords) : ClosedOff (k4_off1 i) := ⟨![2 * ((i 1).val / 80), 0], k4_off1_eq i⟩
instance closedOff_k4_off2 (i : grid4.Coords) : ClosedOff (k4_off2 i) := ⟨![2 * ((i 1).val / 80) + 1, 0], k4_off2_eq i⟩
instance closedOff_k4_off3 (i : grid4.Coords) : ClosedOff (k4_off3 i) := ⟨![2 * ((i 1).val / 80), 0], k4_off3_eq i⟩
instance closedOff_k4_off4 (i : grid4.Coords) : ClosedOff (k4_off4 i) := ⟨![2 * ((i 1).val / 80) + 1, 0], k4_off4_eq i⟩

/-- The condition of the reset inside phase 0: the block coordinate is zero. -/
abbrev condZ (i : grid4.Coords) : Prop := (Scalar.cmpi .ne (Scalar.extui (Scalar.cmpi .eq (BitVec.ofNat 32 (i 1).val) 0#32)) 0#32) = 1#1

theorem k4_off1_Z : ∀ i : grid4.Coords, condZ i → k4_off1 i = ![0, 0] := by decide +kernel
theorem k4_off2_Z : ∀ i : grid4.Coords, condZ i → k4_off2 i = ![1, 0] := by decide +kernel

/-! ## The three control cases of the body -/

set_option maxHeartbeats 2000000 in
/-- Phase 0 past the first block: the column sums of the two endpoint blocks are added into the scratch rows of the
    block's half; what the stores leave in the scratch is the witness. -/
noncomputable def runA (c : Dev nD) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : k4_cond1 i = 1#1) (hz : ¬ condZ i) (h3 : ¬ k4_cond3 i = 1#1)
    (x1 x2 : Vec F S2000x128 .f32) (xs : Vec F S4x128 .f32) :
    { Ls : List (View.Piece (Elt F) S4x128 .f32) //
      ∀ (E : Set ℕ) (K : PUnit → sProp 𝕄),
        iprop(owns (c : Thread nD τ) arg3 fullShare x1 ∗ owns (c : Thread nD τ) arg4 fullShare x2 ∗ owns (c : Thread nD τ) arg11 fullShare xs
            ∗ (iprop(owns (c : Thread nD τ) arg3 fullShare x1 ∗ owns (c : Thread nD τ) arg4 fullShare x2
                ∗ (arg11.view.loc (c : Thread nD τ) ↦[arg11.view.set]{fullShare} arg11.view.writes (Elt F) (harg11.unread xs) Ls)) -∗ K ⟨⟩))
          ⊢ wp frame (wpE (defs₀ (F := F)) Variants.none c none) E (cc4__k46_body i arg2 harg2 arg3 harg3 arg4 harg4 arg5 harg5 arg6 harg6 arg7 harg7 arg8 harg8 arg9 harg9 arg10 harg10 arg11 harg11) K } := by
  refine ⟨?_, fun E K => ?run⟩
  case run =>
    simp only [cc4__k46_body_eq_skeleton]; unfold cc4__k46_body_skel
    unfold owns
    iintro ⟨⟨%f1, %hf1, H1⟩, ⟨%f2, %hf2, H2⟩, ⟨%fs, %hfs, Hs⟩, Hk⟩
    obtain rfl := harg3.eq_unread hf1; obtain rfl := harg4.eq_unread hf2; obtain rfl := harg11.eq_unread hfs
    sl_exec (disch := first | exact h1 | exact hz | exact h3)
    sl_step
    iapply Hk
    isplitl [H1]
    · iexists _; isplitr; · ipureintro; exact harg3.read_unread _
      iexact H1
    isplitl [H2]
    · iexists _; isplitr; · ipureintro; exact harg4.read_unread _
      iexact H2
    iexact Hs

set_option maxHeartbeats 2000000 in
/-- Phase 0 at the first block: the scratch is zeroed whole first, then as past the first block. -/
noncomputable def runZ (c : Dev nD) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : k4_cond1 i = 1#1) (hz : condZ i) (h3 : ¬ k4_cond3 i = 1#1)
    (x1 x2 : Vec F S2000x128 .f32) :
    { Ls : List (View.Piece (Elt F) S4x128 .f32) //
      ∀ (E : Set ℕ) (K : PUnit → sProp 𝕄),
        iprop(owns (c : Thread nD τ) arg3 fullShare x1 ∗ owns (c : Thread nD τ) arg4 fullShare x2
            ∗ (∃ f, arg11.view.loc (c : Thread nD τ) ↦[arg11.view.set]{fullShare} f)
            ∗ (iprop(owns (c : Thread nD τ) arg3 fullShare x1 ∗ owns (c : Thread nD τ) arg4 fullShare x2
                ∗ (∃ f, arg11.view.loc (c : Thread nD τ) ↦[arg11.view.set]{fullShare} arg11.view.writes (Elt F) f Ls)) -∗ K ⟨⟩))
          ⊢ wp frame (wpE (defs₀ (F := F)) Variants.none c none) E (cc4__k46_body i arg2 harg2 arg3 harg3 arg4 harg4 arg5 harg5 arg6 harg6 arg7 harg7 arg8 harg8 arg9 harg9 arg10 harg10 arg11 harg11) K } := by
  refine ⟨?_, fun E K => ?run⟩
  case run =>
    simp only [cc4__k46_body_eq_skeleton]; unfold cc4__k46_body_skel
    unfold owns
    iintro ⟨⟨%f1, %hf1, H1⟩, ⟨%f2, %hf2, H2⟩, ⟨%fs, Hs⟩, Hk⟩
    obtain rfl := harg3.eq_unread hf1; obtain rfl := harg4.eq_unread hf2
    letI : ClosedOff (k4_off1 i) := ⟨![0, 0], k4_off1_Z i hz⟩
    letI : ClosedOff (k4_off2 i) := ⟨![1, 0], k4_off2_Z i hz⟩
    sl_exec (disch := first | exact h1 | exact hz | exact h3)
    sl_step
    iapply Hk
    isplitl [H1]
    · iexists _; isplitr; · ipureintro; exact harg3.read_unread _
      iexact H1
    isplitl [H2]
    · iexists _; isplitr; · ipureintro; exact harg4.read_unread _
      iexact H2
    iexists _; iexact Hs

/-- The pieces of the first block's run cover the scratch: the zeroing store is among them. -/
theorem coverZ (c : Dev nD) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : k4_cond1 i = 1#1) (hz : condZ i) (h3 : ¬ k4_cond3 i = 1#1) (x1 x2 : Vec F S2000x128 .f32) (y : S4x128.Idx) :
    ∃ pc ∈ (runZ c i arg2 harg2 arg3 harg3 arg4 harg4 arg5 harg5 arg6 harg6 arg7 harg7 arg8 harg8 arg9 harg9 arg10 harg10 arg11 harg11 h1 hz h3 x1 x2).1, y ∈ pc.1.set := by
  unfold runZ
  dsimp only
  unfold runZ.sl.Hs_2 runZ.sl.Hs_1
  exact ⟨_, List.mem_cons_of_mem _ (List.mem_cons_of_mem _ (List.mem_singleton_self _)),
    View.mem_set_unit_zero (S := S4x128) zeros2 inb_S4x128_S4x128_0_0 y⟩

/-- A row of the scratch. -/
abbrev rowOf (xs : Vec F S4x128 .f32) (off : Fin 2 → ℕ) (inb : ∀ a, off a + S1x128.size a ≤ S4x128.size a) : Vec F S1x128 .f32 :=
  View.ld xs (Rect.unit (s := S4x128) off S1x128.size inb)

/-- What phase 1 stores over the whole result block. -/
def resOf (i : grid4.Coords) (h3 : k4_cond3 i = 1#1) (x0 : Vec F S1x125x16x16 .f32) (x1 x2 : Vec F S2000x128 .f32) (x3 x4 : Vec F S128x16 .f32)
    (x5 : Vec F S16x16 .f32) (x6 x7 : Vec F S1x16 .f32) (xs : Vec F S4x128 .f32) : Vec F S1x125x16x16 .f32 :=
  k4_pay4 (k4_pay5 (rowOf xs (k4_off3 i) (k4_off3_inb i h3)) (rowOf xs (k4_off4 i) (k4_off4_inb i h3)) x1 x3 x2 x4 x6) x0 x5 x7

/-! ## The control cases over the grid -/

theorem cond1_iff : ∀ t : Fin cfg4.N, k4_cond1 (grid4.coords t) = 1#1 ↔ t.val < 160 :=
  (by decide +kernel : ∀ t : Fin grid4.N, k4_cond1 (grid4.coords t) = 1#1 ↔ t.val < 160)
theorem cond3_iff : ∀ t : Fin cfg4.N, k4_cond3 (grid4.coords t) = 1#1 ↔ 160 ≤ t.val :=
  (by decide +kernel : ∀ t : Fin grid4.N, k4_cond3 (grid4.coords t) = 1#1 ↔ 160 ≤ t.val)
theorem condZ_iff : ∀ t : Fin cfg4.N, condZ (grid4.coords t) ↔ t.val % 160 = 0 :=
  (by decide +kernel : ∀ t : Fin grid4.N, condZ (grid4.coords t) ↔ t.val % 160 = 0)

/-! ## The staging memrefs at a point -/

abbrev m0 (t : Fin cfg4.N) : Memref sig .tc .vmem S1x125x16x16 .f32 := win4_0.stage (cfg4.slots t 0)
abbrev hm0 (t : Fin cfg4.N) : (m0 t).IsWhole := hstage4_0 ((cfg4.slots t 0).cast nbuf4_0)
abbrev m1 (t : Fin cfg4.N) : Memref sig .tc .vmem S2000x128 .f32 := win4_1.stage (cfg4.slots t 1)
abbrev hm1 (t : Fin cfg4.N) : (m1 t).IsWhole := hstage4_1 ((cfg4.slots t 1).cast nbuf4_1)
abbrev m2 (t : Fin cfg4.N) : Memref sig .tc .vmem S2000x128 .f32 := win4_2.stage (cfg4.slots t 2)
abbrev hm2 (t : Fin cfg4.N) : (m2 t).IsWhole := hstage4_2 ((cfg4.slots t 2).cast nbuf4_2)
abbrev m3 (t : Fin cfg4.N) : Memref sig .tc .vmem S128x16 .f32 := win4_3.stage (cfg4.slots t 3)
abbrev hm3 (t : Fin cfg4.N) : (m3 t).IsWhole := hstage4_3 ((cfg4.slots t 3).cast nbuf4_3)
abbrev m4 (t : Fin cfg4.N) : Memref sig .tc .vmem S128x16 .f32 := win4_4.stage (cfg4.slots t 4)
abbrev hm4 (t : Fin cfg4.N) : (m4 t).IsWhole := hstage4_4 ((cfg4.slots t 4).cast nbuf4_4)
abbrev m5 (t : Fin cfg4.N) : Memref sig .tc .vmem S16x16 .f32 := win4_5.stage (cfg4.slots t 5)
abbrev hm5 (t : Fin cfg4.N) : (m5 t).IsWhole := hstage4_5 ((cfg4.slots t 5).cast nbuf4_5)
abbrev m6 (t : Fin cfg4.N) : Memref sig .tc .vmem S1x16 .f32 := win4_6.stage (cfg4.slots t 6)
abbrev hm6 (t : Fin cfg4.N) : (m6 t).IsWhole := hstage4_6 ((cfg4.slots t 6).cast nbuf4_6)
abbrev m7 (t : Fin cfg4.N) : Memref sig .tc .vmem S1x16 .f32 := win4_7.stage (cfg4.slots t 7)
abbrev hm7 (t : Fin cfg4.N) : (m7 t).IsWhole := hstage4_7 ((cfg4.slots t 7).cast nbuf4_7)
abbrev m8 (t : Fin cfg4.N) : Memref sig .tc .vmem S1x125x16x16 .f32 := win4_8.stage (cfg4.slots t 8)
abbrev hm8 (t : Fin cfg4.N) : (m8 t).IsWhole := hstage4_8 ((cfg4.slots t 8).cast nbuf4_8)
abbrev msc : Memref sig .tc .vmem S4x128 .f32 := Memref.whole cc4_scratch0
abbrev hsc : (msc).IsWhole := Memref.isWhole_whole _

/-! ## The proof data -/

section Data

variable (V : Valuation τ sig (Elt F)) (O : CellTallies nD τ sig (HIx 2)) (W : Waits sig (HIx 2)) (d : Dev nD)

/-- The TensorCore's buffers of device d at the valuation, by reference. -/
abbrev Vr (b : Ref sig .tc) : Buf (Elt F) ((d : Thread nD τ).loc b) := V (Proc.devRef .tc b)

/-- Window w's block at point t, read off its array as the region finds it. -/
def iblk (w : Fin cfg4.W) (t : Fin cfg4.N) : ((cfg4.win w).xblock (cfg4.grid.coords t)).Idx → Elt F (cfg4.win w).elt :=
  ((cfg4.win w).blk t).view.read (Elt F) (Vr V d (Pipeline.arrRef spec4 w))

abbrev b0 (t : Fin cfg4.N) : Vec F S1x125x16x16 .f32 := iblk V d 0 t
abbrev b1 (t : Fin cfg4.N) : Vec F S2000x128 .f32 := iblk V d 1 t
abbrev b2 (t : Fin cfg4.N) : Vec F S2000x128 .f32 := iblk V d 2 t
abbrev b3 (t : Fin cfg4.N) : Vec F S128x16 .f32 := iblk V d 3 t
abbrev b4 (t : Fin cfg4.N) : Vec F S128x16 .f32 := iblk V d 4 t
abbrev b5 (t : Fin cfg4.N) : Vec F S16x16 .f32 := iblk V d 5 t
abbrev b6 (t : Fin cfg4.N) : Vec F S1x16 .f32 := iblk V d 6 t
abbrev b7 (t : Fin cfg4.N) : Vec F S1x16 .f32 := iblk V d 7 t

theorem not3_of_1 (t : Fin cfg4.N) (h1 : k4_cond1 (grid4.coords t) = 1#1) : ¬ k4_cond3 (grid4.coords t) = 1#1 := fun h => by
  have := (cond1_iff t).mp h1; have := (cond3_iff t).mp h; omega

/-- The scratch after a phase-0 point past the first, from the scratch before it. -/
def stepA (t : Fin cfg4.N) (h1 : k4_cond1 (grid4.coords t) = 1#1) (hz : ¬ condZ (grid4.coords t)) (xs : Vec F S4x128 .f32) : Vec F S4x128 .f32 :=
  msc.view.read (Elt F) (msc.view.writes (Elt F) (hsc.unread xs)
    (runA d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t) xs).1)

/-- The scratch after the first point. -/
def stepZ (t : Fin cfg4.N) (h1 : k4_cond1 (grid4.coords t) = 1#1) (hz : condZ (grid4.coords t)) : Vec F S4x128 .f32 :=
  msc.view.read (Elt F) (msc.view.writes (Elt F) (hsc.unread (k4_pay1 (F := F)))
    (runZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t)).1)

/-- The scratch before point n (after the n points below it): the fold of the phase-0 points' steps; phase 1 leaves it. -/
def scrAt : ℕ → Vec F S4x128 .f32
  | 0 => k4_pay1 (F := F)
  | n + 1 =>
    if h : n < cfg4.N then
      if h1 : k4_cond1 (grid4.coords ⟨n, h⟩) = 1#1 then
        if hz : condZ (grid4.coords ⟨n, h⟩) then stepZ V d ⟨n, h⟩ h1 hz else stepA V d ⟨n, h⟩ h1 hz (scrAt n)
      else scrAt n
    else scrAt n

theorem scrAt_succ_Z (t : Fin cfg4.N) (h1 : k4_cond1 (grid4.coords t) = 1#1) (hz : condZ (grid4.coords t)) :
    scrAt V d (t.val + 1) = stepZ V d t h1 hz := by
  show (if h : t.val < cfg4.N then _ else _) = _
  rw [dif_pos t.isLt, dif_pos h1, dif_pos hz]
theorem scrAt_succ_A (t : Fin cfg4.N) (h1 : k4_cond1 (grid4.coords t) = 1#1) (hz : ¬ condZ (grid4.coords t)) :
    scrAt V d (t.val + 1) = stepA V d t h1 hz (scrAt V d t.val) := by
  show (if h : t.val < cfg4.N then _ else _) = _
  rw [dif_pos t.isLt, dif_pos h1, dif_neg hz]
theorem scrAt_succ_B (t : Fin cfg4.N) (h1 : ¬ k4_cond1 (grid4.coords t) = 1#1) :
    scrAt V d (t.val + 1) = scrAt V d t.val := by
  show (if h : t.val < cfg4.N then _ else _) = _
  rw [dif_pos t.isLt, dif_neg h1]

/-- What phase 1's point t stores over the result block (at a phase-0 point, where nothing is stored: a block not read). -/
def resAt (t : Fin cfg4.N) : Vec F S1x125x16x16 .f32 :=
  if h3 : k4_cond3 (grid4.coords t) = 1#1 then
    resOf (grid4.coords t) h3 (b0 V d t) (b1 V d t) (b2 V d t) (b3 V d t) (b4 V d t) (b5 V d t) (b6 V d t) (b7 V d t) (scrAt V d t.val)
  else b0 V d t

end Data

end R2

/-! ## The region's value -/

/-- The region's result array: index (a, b, x, y) holds what the phase-1 point of block (a, b / 125) stored at
    (0, b % 125, x, y). -/
def res2 (V : Valuation τ sig (Elt F)) : S2x10000x16x16.Idx → Elt F .f32 := R2E.glue (R2.resAt V (0 : Dev nD))

/-- The valuation the region leaves: V with the result array main_v31 at the region's result. -/
def upd2 (V : Valuation τ sig (Elt F)) : Valuation τ sig (Elt F) := Function.update V (Proc.devRef .tc main_v31) (res2 V)

end Cert.KernelIdeal.Hand

end
-- ==== Proof.BUWhole.lean ====
/-
  The edge result of the kernel program, as a whole array, is the reference's result 1 over the launch memory's
  argument arrays: the third region's result entry by entry is the edge formula over its operand arrays, those
  operands read back along @main are the argument arrays and the node result, the node result is the reference's, a
  nonnegative real at every index, and the edge formula over them is the reference's.
-/
import proofs.«208461_g52518860095779_cont_9to1_m_1075_29_alg».proof.Proof.KernelAU
import proofs.«208461_g52518860095779_cont_9to1_m_1075_29_alg».proof.Proof.AUWhole
import proofs.«208461_g52518860095779_cont_9to1_m_1075_29_alg».proof.Proof.BULaws
import proofs.«208461_g52518860095779_cont_9to1_m_1075_29_alg».proof.Proof.BridgeBU
import proofs.«208461_g52518860095779_cont_9to1_m_1075_29_alg».proof.Proof.R2Defs
import proofs.«208461_g52518860095779_cont_9to1_m_1075_29_alg».proof.Proof.V2Defs
import proofs.«208461_g52518860095779_cont_9to1_m_1075_29_alg».proof.Proof.PreFacts

noncomputable section

open scoped BigOperators

namespace Cert.Bridge

open Idealize.ShloMosaic Idealize.ShloMosaic.ValueIdx Idealize.SL.Sem
open Cert.KernelIdeal Cert.KernelIdeal.Hand
open Cert.ReferenceIdeal.RefValue (refAU refBU buAt)

/-- The node result where the edge update reads it, whole, is the reference's result 0. -/
theorem au_whole6 (m : (ℓ : Loc nD τ sig) → Buf (Elt Ideal) ℓ) (d : Dev nD)
    (h : Cert.Pre_input_domain.fn (F := Ideal) (A0 m d) (A1 m d) (A2 m d) (A3 m d) (A4 m d) (A5 m d) (A6 m d) (A7 m d)
      (A8 m d) (A9 m d) = fun _ => 1#1) :
    W6 upd0 upd1 m d (rf main_v11) = refAU (A0 m d) (A1 m d) (A2 m d) (A4 m d) (A7 m d) :=
  (W10_v11 (fun X => X) m d (fun _ _ _ => rfl)).symm.trans (au_whole (fun X => X) (fun _ _ _ => rfl) m d h)

/-- The edge result of the kernel program, as a whole array, is the reference's result 1 over the launch memory's
    argument arrays. -/
theorem bu_whole (m : (ℓ : Loc nD τ sig) → Buf (Elt Ideal) ℓ) (d : Dev nD)
    (h : Cert.Pre_input_domain.fn (F := Ideal) (A0 m d) (A1 m d) (A2 m d) (A3 m d) (A4 m d) (A5 m d) (A6 m d) (A7 m d)
      (A8 m d) (A9 m d) = fun _ => 1#1)
    (hres2 : ∀ (V : Valuation τ sig (Elt Ideal)) (bt : Fin 2) (n : Fin 10000) (mm : Fin 16) (o : Fin 16),
      res2 V (ix4 bt n mm o) = V2.res2At (V (rf main_arg1)) (V (rf main_v26)) (V (rf main_v27)) (V (rf main_v28))
        (V (rf main_arg5)) (V (rf main_v29)) (V (rf main_v30)) bt n mm o) :
    W10 upd0 upd1 upd2 m d (rf main_v31)
      = refBU (A0 m d) (A1 m d) (A2 m d) (A3 m d) (A4 m d) (A5 m d) (A6 m d) (A7 m d) (A8 m d) (A9 m d) := by
  have h3 : ∀ j, (A3 m d j).toNat ≤ 9999 := Cert.PreFacts.tup_range h
  have hpos : ∀ (b : Fin 2) (n : Fin 10000) (k : Fin 16), ∃ s : ℝ, 0 < s ∧ V1.s (A1 m d) b n k = (s : EReal) := fun b n k => by
    obtain ⟨s, hs, e⟩ := Cert.PreFacts.bond_pos_real h b n k
    exact ⟨s, hs, e⟩
  have hau : ∀ j, ∃ y : ℝ, 0 ≤ y ∧ refAU (A0 m d) (A1 m d) (A2 m d) (A4 m d) (A7 m d) j = (y : EReal) :=
    refAU_real (A0 m d) (A1 m d) (A2 m d) (A4 m d) (A7 m d) (Cert.PreFacts.finite_atom h) (Cert.PreFacts.finite_bond h)
      (Cert.PreFacts.finite_weight_node h) (Cert.PreFacts.finite_bias_node h) hpos
  have e6 := au_whole6 m d h
  have e10 : W10 upd0 upd1 upd2 m d (rf main_v31) = res2 (W9 upd0 upd1 m d) := Function.update_self ..
  rw [e10]
  refine funext fun (j : S2x10000x16x16.Idx) => ?_
  have ej : j = ix4 (j 0) (j 1) (j 2) (j 3) := eq_ix4 j
  have key : res2 (W9 upd0 upd1 m d) (ix4 (j 0) (j 1) (j 2) (j 3))
      = buAt (refAU (A0 m d) (A1 m d) (A2 m d) (A4 m d) (A7 m d)) (A1 m d) (A3 m d) (A5 m d) (A6 m d) (A8 m d) (A9 m d)
          (j 0) (j 1) (j 2) (j 3) := by
    refine (hres2 _ (j 0) (j 1) (j 2) (j 3)).trans ?_
    rw [W9_arg1, W9_arg5]
    refine bu_bridge (refAU (A0 m d) (A1 m d) (A2 m d) (A4 m d) (A7 m d)) (A1 m d) (A3 m d) (A6 m d) (A5 m d) (A8 m d) (A9 m d)
      (W9 upd0 upd1 m d (rf main_v26)) (W9 upd0 upd1 m d (rf main_v27)) (W9 upd0 upd1 m d (rf main_v28))
      (W9 upd0 upd1 m d (rf main_v29)) (W9 upd0 upd1 m d (rf main_v30)) ?_ ?_ ?_ ?_ ?_ ?_ h3 hau (j 0) (j 1) (j 2) (j 3)
    · intro bt e f hn
      rw [W9_v26, ← e6]
      exact W8_v26_apply_left m d h3 bt e f (V2.erow0 bt e).isLt hn
    · intro bt e f hn
      rw [W9_v26, ← e6]
      exact W8_v26_apply_right m d h3 bt e f (V2.erow1 bt e).isLt hn
    · exact fun f j' hlt => W9_v27_apply m d f j' hlt
    · exact fun f j' hlt => W9_v28_apply m d f j' hlt
    · exact fun j' => W9_v29_apply m d 0 j'
    · exact fun o => W9_v30_apply m d 0 o
  -- the reference's result 1 at `j` is, by definition, its entry formula at `j`'s coordinates
  show res2 (W9 upd0 upd1 m d) j
    = buAt (refAU (A0 m d) (A1 m d) (A2 m d) (A4 m d) (A7 m d)) (A1 m d) (A3 m d) (A5 m d) (A6 m d) (A8 m d) (A9 m d)
        (j 0) (j 1) (j 2) (j 3)
  exact (congrArg (fun i : S2x10000x16x16.Idx => res2 (W9 upd0 upd1 m d) i) ej).trans key

end Cert.Bridge

end
-- ==== Proof.R2Scr.lean ====
/-
  Region 2 of @main, the scratch read row by row: a row of the scratch at an entry; what one phase-0 point does to the
  scratch (the row of the block's half for the first endpoints takes the first accumulation's payload of that row, the row
  for the second endpoints the second's, every other row is kept; the first point does so over the zeroed scratch); that
  phase 1 leaves the scratch, so that every phase-1 point reads the scratch as phase 0 left it; and, at the extended reals,
  the scratch after phase 0 as sums: row 2h holds, column by column, the sum over the 80 blocks of half h of the column sums
  of the first endpoints' 2000 rows, row 2h + 1 the same for the second endpoints' rows.
-/
import proofs.«208461_g52518860095779_cont_9to1_m_1075_29_alg».proof.Proof.R2Defs
import Mathlib.Algebra.BigOperators.Fin

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 2) (Elt F) ℕ UU ℕ

namespace R2

open Idealize.ShloMosaic.ValueIdx
open scoped BigOperators

/-! ## Rows and entries -/

/-- A row of the scratch at an entry. -/
theorem rowOf_apply (xs : Vec F S4x128 .f32) (off : Fin 2 → ℕ) (inb : ∀ a, off a + S1x128.size a ≤ S4x128.size a)
    (o : ℕ) (ho : o < 4) (hoff : off = ![o, 0]) (u : Fin 1) (f : Fin 128) :
    rowOf xs off inb (ix2 u f) = xs (ix2 (⟨o, ho⟩ : Fin 4) f) := by
  subst hoff
  show xs ((Rect.unit (s := S4x128) ![o, 0] S1x128.size inb).idx (ix2 u f)) = _
  congr 1
  funext a; apply Fin.ext
  have hu : u.val = 0 := by omega
  match a with
  | ⟨0, _⟩ => show o + 1 * u.val = o; omega
  | ⟨1, _⟩ => show 0 + 1 * f.val = f.val; omega

/-- The block coordinate of a point. -/
theorem coord1 : ∀ t : Fin cfg4.N, ((grid4.coords t) 1).val = t.val % 160 :=
  (by decide +kernel : ∀ t : Fin grid4.N, ((grid4.coords t) 1).val = t.val % 160)

/-- The half a point's block lies in. -/
abbrev halfAt (t : Fin cfg4.N) : ℕ := t.val % 160 / 80

theorem halfAt_lt (t : Fin cfg4.N) : halfAt t < 2 := by unfold halfAt; omega

theorem off1_at (t : Fin cfg4.N) : k4_off1 (grid4.coords t) = ![2 * halfAt t, 0] := by rw [k4_off1_eq, coord1]
theorem off2_at (t : Fin cfg4.N) : k4_off2 (grid4.coords t) = ![2 * halfAt t + 1, 0] := by rw [k4_off2_eq, coord1]
theorem off3_at (t : Fin cfg4.N) : k4_off3 (grid4.coords t) = ![2 * halfAt t, 0] := by rw [k4_off3_eq, coord1]
theorem off4_at (t : Fin cfg4.N) : k4_off4 (grid4.coords t) = ![2 * halfAt t + 1, 0] := by rw [k4_off4_eq, coord1]

/-- An entry of a row, as the row's rectangle places it. -/
theorem emb_row (off : Fin 2 → ℕ) (inb : ∀ a, off a + S1x128.size a ≤ S4x128.size a) (o : ℕ) (ho : o < 4) (hoff : off = ![o, 0]) (f : Fin 128) :
    (Rect.unit (s := S4x128) off S1x128.size inb).emb (ix2 (0 : Fin 1) f) = ix2 (⟨o, ho⟩ : Fin 4) f := by
  subst hoff
  funext a; apply Fin.ext
  match a with
  | ⟨0, _⟩ => show o + 1 * 0 = o; omega
  | ⟨1, _⟩ => show 0 + 1 * f.val = f.val; omega

/-- An entry is in a row's rectangle iff it is in that row. -/
theorem mem_row (off : Fin 2 → ℕ) (inb : ∀ a, off a + S1x128.size a ≤ S4x128.size a) (o : ℕ) (hoff : off = ![o, 0]) (j : S4x128.Idx) :
    j ∈ (Rect.unit (s := S4x128) off S1x128.size inb).set ↔ (j 0).val = o := by
  subst hoff
  rw [Rect.mem_set_unit]
  constructor
  · intro h
    have h0 := h 0
    have e0 : (![o, 0] : Fin 2 → ℕ) 0 = o := rfl
    have s0 : S1x128.size (0 : Fin 2) = 1 := rfl
    rw [e0, s0] at h0
    omega
  · intro h a
    have hj1 : (j 1).val < 128 := (j 1).isLt
    match a with
    | ⟨0, _⟩ => show o ≤ (j 0).val ∧ (j 0).val < o + 1; omega
    | ⟨1, _⟩ => show 0 ≤ (j 1).val ∧ (j 1).val < 0 + 128; omega

/-! ## Reading two stores -/

section Reads

variable {κ : Kind} {sp : Space} (v : View sig κ sp S4x128 .f32) (f : v.ty.Contents (Elt F))
  (rB rA : Rect S4x128) (wB : rB.shape.Idx → Elt F .f32) (wA : rA.shape.Idx → Elt F .f32)

theorem read_w2_top (L : List (View.Piece (Elt F) S4x128 .f32)) (x : rB.shape.Idx) :
    v.read (Elt F) (v.writes (Elt F) f (⟨rB, wB⟩ :: L)) (rB.emb x) = wB x :=
  View.read_writes_cons_emb v f rB wB L x

theorem read_w2_snd (L : List (View.Piece (Elt F) S4x128 .f32)) (x : rA.shape.Idx) (h : rA.emb x ∉ rB.set) :
    v.read (Elt F) (v.writes (Elt F) f (⟨rB, wB⟩ :: ⟨rA, wA⟩ :: L)) (rA.emb x) = wA x := by
  rw [View.writes_cons, View.read_slice_write_of_not_mem rB _ _ _ (by rw [Rect.map_emb_univ]; exact h)]
  exact View.read_writes_cons_emb v f rA wA L x

theorem read_w2_off (j : S4x128.Idx) (hB : j ∉ rB.set) (hA : j ∉ rA.set) :
    v.read (Elt F) (v.writes (Elt F) f [⟨rB, wB⟩, ⟨rA, wA⟩]) j = v.read (Elt F) f j :=
  View.read_writes_apply_of_forall_not_mem v f j _ fun p hp => by
    rcases List.mem_cons.mp hp with rfl | hp
    · exact hB
    · rcases List.mem_cons.mp hp with rfl | hp
      · exact hA
      · exact absurd hp List.not_mem_nil

end Reads

/-! ## One phase-0 point -/

section Steps

variable [∀ e, Nonempty (Elt F e)] (V : Valuation τ sig (Elt F)) (d : Dev nD)

/-- A load through a rectangle of a whole buffer at read contents xs reads xs there. -/
theorem readAt_unread {S : Shape} (m : Memref sig .tc .vmem S .f32) (hm : m.IsWhole) (xs : Vec F S .f32) (r : Rect S) :
    m.view.readAt (Elt F) r.toLoadRect (hm.unread xs) = View.ld xs r := by
  rw [View.readAt_eq_ld, hm.read_unread]

/-- An entry of the second endpoints' row is not in the first endpoints' row. -/
theorem idx2_not_row1 (t : Fin cfg4.N) (h1 : k4_cond1 (grid4.coords t) = 1#1)
    (j : (Rect.unit (s := S4x128) (k4_off2 (grid4.coords t)) S1x128.size (k4_off2_inb _ h1)).shape.Idx) :
    (Rect.unit (s := S4x128) (k4_off2 (grid4.coords t)) S1x128.size (k4_off2_inb _ h1)).idx j
      ∉ (Rect.unit (s := S4x128) (k4_off1 (grid4.coords t)) S1x128.size (k4_off1_inb _ h1)).set := by
  rw [mem_row _ _ (2 * halfAt t) (off1_at t)]
  have e : (((Rect.unit (s := S4x128) (k4_off2 (grid4.coords t)) S1x128.size (k4_off2_inb _ h1)).idx j) 0).val
      = (k4_off2 (grid4.coords t)) 0 + 1 * (j 0).val := rfl
  have e2 : (k4_off2 (grid4.coords t)) 0 = 2 * halfAt t + 1 := by rw [off2_at]; rfl
  rw [e]; omega

/-- Past the first block, the first endpoints' row of the block's half takes the first accumulation's payload of that row. -/
theorem stepA_even (t : Fin cfg4.N) (h1 : k4_cond1 (grid4.coords t) = 1#1) (hz : ¬ condZ (grid4.coords t)) (xs : Vec F S4x128 .f32) (f : Fin 128) :
    stepA V d t h1 hz xs (ix2 (⟨2 * halfAt t, (by have := halfAt_lt t; omega)⟩ : Fin 4) f)
      = k4_pay2 (b1 V d t) (rowOf xs (k4_off1 (grid4.coords t)) (k4_off1_inb _ h1)) (ix2 (0 : Fin 1) f) := by
  rw [← emb_row (k4_off1 (grid4.coords t)) (k4_off1_inb _ h1) (2 * halfAt t) (by have := halfAt_lt t; omega) (off1_at t) f]
  unfold stepA runA
  dsimp only
  refine (read_w2_snd _ _ _ _ _ _ _ _ ?_).trans ?_
  · rw [mem_row _ _ (2 * halfAt t + 1) (off2_at t), emb_row _ _ (2 * halfAt t) (by have := halfAt_lt t; omega) (off1_at t) f]
    show ¬ (2 * halfAt t = 2 * halfAt t + 1); omega
  · rw [readAt_whole _ _ zeros2, (hm1 t).read_unread]
    exact congrArg (fun w => k4_pay2 (b1 V d t) w (ix2 (0 : Fin 1) f))
      (readAt_unread msc hsc xs (Rect.unit (s := S4x128) (k4_off1 (grid4.coords t)) S1x128.size (k4_off1_inb _ h1)))

/-- … the second endpoints' row the second accumulation's payload of that row, -/
theorem stepA_odd (t : Fin cfg4.N) (h1 : k4_cond1 (grid4.coords t) = 1#1) (hz : ¬ condZ (grid4.coords t)) (xs : Vec F S4x128 .f32) (f : Fin 128) :
    stepA V d t h1 hz xs (ix2 (⟨2 * halfAt t + 1, (by have := halfAt_lt t; omega)⟩ : Fin 4) f)
      = k4_pay3 (b2 V d t) (rowOf xs (k4_off2 (grid4.coords t)) (k4_off2_inb _ h1)) (ix2 (0 : Fin 1) f) := by
  rw [← emb_row (k4_off2 (grid4.coords t)) (k4_off2_inb _ h1) (2 * halfAt t + 1) (by have := halfAt_lt t; omega) (off2_at t) f]
  unfold stepA runA
  dsimp only
  refine (read_w2_top _ _ _ _ _ _).trans ?_
  unfold runA.sl.v45
  rw [readAt_whole _ _ zeros2, (hm2 t).read_unread]
  exact congrArg (fun w => k4_pay3 (b2 V d t) w (ix2 (0 : Fin 1) f))
    (readAt_unread msc hsc xs (Rect.unit (s := S4x128) (k4_off2 (grid4.coords t)) S1x128.size (k4_off2_inb _ h1)))

/-- … and every other row is kept. -/
theorem stepA_other (t : Fin cfg4.N) (h1 : k4_cond1 (grid4.coords t) = 1#1) (hz : ¬ condZ (grid4.coords t)) (xs : Vec F S4x128 .f32)
    (r : Fin 4) (hr0 : r.val ≠ 2 * halfAt t) (hr1 : r.val ≠ 2 * halfAt t + 1) (f : Fin 128) :
    stepA V d t h1 hz xs (ix2 r f) = xs (ix2 r f) := by
  unfold stepA runA
  dsimp only
  refine (read_w2_off _ _ _ _ _ _ _ ?_ ?_).trans (congrFun (hsc.read_unread xs) _)
  · rw [mem_row _ _ _ (off2_at t)]; exact hr1
  · rw [mem_row _ _ _ (off1_at t)]; exact hr0

/-- At the first block the stores leave, whatever the scratch held, what they leave over the zeroed scratch. -/
theorem stepZ_canon (t : Fin cfg4.N) (h1 : k4_cond1 (grid4.coords t) = 1#1) (hz : condZ (grid4.coords t)) :
    stepZ V d t h1 hz = View.canon (runZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t)).1 :=
  View.read_writes_eq_canon _ _ _ (coverZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t))

theorem stepZ_even (t : Fin cfg4.N) (h1 : k4_cond1 (grid4.coords t) = 1#1) (hz : condZ (grid4.coords t)) (f : Fin 128) :
    stepZ V d t h1 hz (ix2 (⟨2 * halfAt t, (by have := halfAt_lt t; omega)⟩ : Fin 4) f)
      = k4_pay2 (b1 V d t) (rowOf (k4_pay1 (F := F)) (k4_off1 (grid4.coords t)) (k4_off1_inb _ h1)) (ix2 (0 : Fin 1) f) := by
  rw [stepZ_canon, ← emb_row (k4_off1 (grid4.coords t)) (k4_off1_inb _ h1) (2 * halfAt t) (by have := halfAt_lt t; omega) (off1_at t) f]
  unfold runZ
  dsimp only
  unfold runZ.sl.Hs_2
  rw [View.canon_cons_of_not_mem _ _ (by
    rw [mem_row _ _ (2 * halfAt t + 1) (off2_at t), emb_row _ _ (2 * halfAt t) (by have := halfAt_lt t; omega) (off1_at t) f]
    show ¬ (2 * halfAt t = 2 * halfAt t + 1); omega)]
  refine (View.canon_cons_emb _ _ _ _).trans ?_
  unfold runZ.sl.v36 runZ.sl.Hs_1
  rw [readAt_whole _ _ zeros2, (hm1 t).read_unread, View.readCov_eq_canon', View.canon_unit_zero zeros2]
  rfl

set_option maxHeartbeats 2000000 in
theorem stepZ_odd (t : Fin cfg4.N) (h1 : k4_cond1 (grid4.coords t) = 1#1) (hz : condZ (grid4.coords t)) (f : Fin 128) :
    stepZ V d t h1 hz (ix2 (⟨2 * halfAt t + 1, (by have := halfAt_lt t; omega)⟩ : Fin 4) f)
      = k4_pay3 (b2 V d t) (rowOf (k4_pay1 (F := F)) (k4_off2 (grid4.coords t)) (k4_off2_inb _ h1)) (ix2 (0 : Fin 1) f) := by
  rw [stepZ_canon, ← emb_row (k4_off2 (grid4.coords t)) (k4_off2_inb _ h1) (2 * halfAt t + 1) (by have := halfAt_lt t; omega) (off2_at t) f]
  unfold runZ
  dsimp only
  refine (View.canon_cons_emb _ _ _ _).trans ?_
  unfold runZ.sl.v45 runZ.sl.Hs_2 runZ.sl.Hs_1
  rw [readAt_whole _ _ zeros2, (hm2 t).read_unread, View.readCov_eq_canon']
  congr 2
  funext j
  rw [View.canon_cons_of_not_mem _ _ (idx2_not_row1 t h1 j), View.canon_unit_zero zeros2]

theorem stepZ_other (t : Fin cfg4.N) (h1 : k4_cond1 (grid4.coords t) = 1#1) (hz : condZ (grid4.coords t))
    (r : Fin 4) (hr0 : r.val ≠ 2 * halfAt t) (hr1 : r.val ≠ 2 * halfAt t + 1) (f : Fin 128) :
    stepZ V d t h1 hz (ix2 r f) = k4_pay1 (F := F) (ix2 r f) := by
  rw [stepZ_canon]
  unfold runZ
  dsimp only
  unfold runZ.sl.Hs_2 runZ.sl.Hs_1
  rw [View.canon_cons_of_not_mem _ _ (by rw [mem_row _ _ _ (off2_at t)]; exact hr1),
    View.canon_cons_of_not_mem _ _ (by rw [mem_row _ _ _ (off1_at t)]; exact hr0), View.canon_unit_zero zeros2]

end Steps

/-! ## The fold, point by point -/

section Fold

variable [∀ e, Nonempty (Elt F e)] (V : Valuation τ sig (Elt F)) (d : Dev nD)

/-- A phase-0 point: the first endpoints' row of its half takes the first accumulation's payload of that row, -/
theorem scr_even (t : Fin cfg4.N) (ht : t.val < 160) (f : Fin 128) :
    scrAt V d (t.val + 1) (ix2 (⟨2 * halfAt t, (by have := halfAt_lt t; omega)⟩ : Fin 4) f)
      = k4_pay2 (b1 V d t) (rowOf (scrAt V d t.val) (k4_off1 (grid4.coords t)) (k4_off1_inb _ ((cond1_iff t).mpr ht))) (ix2 (0 : Fin 1) f) := by
  have h1 := (cond1_iff t).mpr ht
  by_cases hz : condZ (grid4.coords t)
  · have e0 : scrAt V d t.val = k4_pay1 (F := F) := by
      have h0 : t.val = 0 := by have := (condZ_iff t).mp hz; omega
      rw [h0]; rfl
    rw [scrAt_succ_Z V d t h1 hz, stepZ_even V d t h1 hz f, e0]
  · rw [scrAt_succ_A V d t h1 hz, stepA_even V d t h1 hz _ f]

/-- the second endpoints' row the second accumulation's payload of that row, -/
theorem scr_odd (t : Fin cfg4.N) (ht : t.val < 160) (f : Fin 128) :
    scrAt V d (t.val + 1) (ix2 (⟨2 * halfAt t + 1, (by have := halfAt_lt t; omega)⟩ : Fin 4) f)
      = k4_pay3 (b2 V d t) (rowOf (scrAt V d t.val) (k4_off2 (grid4.coords t)) (k4_off2_inb _ ((cond1_iff t).mpr ht))) (ix2 (0 : Fin 1) f) := by
  have h1 := (cond1_iff t).mpr ht
  by_cases hz : condZ (grid4.coords t)
  · have e0 : scrAt V d t.val = k4_pay1 (F := F) := by
      have h0 : t.val = 0 := by have := (condZ_iff t).mp hz; omega
      rw [h0]; rfl
    rw [scrAt_succ_Z V d t h1 hz, stepZ_odd V d t h1 hz f, e0]
  · rw [scrAt_succ_A V d t h1 hz, stepA_odd V d t h1 hz _ f]

/-- and every other row is kept. -/
theorem scr_other (t : Fin cfg4.N) (ht : t.val < 160) (r : Fin 4) (hr0 : r.val ≠ 2 * halfAt t) (hr1 : r.val ≠ 2 * halfAt t + 1) (f : Fin 128) :
    scrAt V d (t.val + 1) (ix2 r f) = scrAt V d t.val (ix2 r f) := by
  have h1 := (cond1_iff t).mpr ht
  by_cases hz : condZ (grid4.coords t)
  · have e0 : scrAt V d t.val = k4_pay1 (F := F) := by
      have h0 : t.val = 0 := by have := (condZ_iff t).mp hz; omega
      rw [h0]; rfl
    rw [scrAt_succ_Z V d t h1 hz, stepZ_other V d t h1 hz r hr0 hr1 f, e0]
  · rw [scrAt_succ_A V d t h1 hz, stepA_other V d t h1 hz _ r hr0 hr1 f]

/-- Phase 1 leaves the scratch: from point 160 on it is what phase 0 left. -/
theorem scrAt_late : ∀ n, 160 ≤ n → scrAt V d n = scrAt V d 160 := by
  intro n hn
  induction n, hn using Nat.le_induction with
  | base => rfl
  | succ n hn ih =>
    rw [← ih]
    by_cases h : n < cfg4.N
    · exact scrAt_succ_B V d ⟨n, h⟩ (fun h1 => by have := (cond1_iff ⟨n, h⟩).mp h1; dsimp only at this; omega)
    · show (if h : n < cfg4.N then _ else _) = _
      rw [dif_neg h]

/-- What a phase-1 point stores: the payloads applied to its blocks and the scratch as phase 0 left it. -/
theorem resAt_late (t : Fin cfg4.N) (ht : 160 ≤ t.val) :
    resAt V d t = resOf (grid4.coords t) ((cond3_iff t).mpr ht) (b0 V d t) (b1 V d t) (b2 V d t) (b3 V d t) (b4 V d t) (b5 V d t) (b6 V d t) (b7 V d t)
      (scrAt V d 160) := by
  unfold resAt
  rw [dif_pos ((cond3_iff t).mpr ht), scrAt_late V d t.val ht]

/-- Rows kept over a stretch of phase-0 points none of which addresses them. -/
theorem scr_keep (r : Fin 4) (f : Fin 128) (a : ℕ) : ∀ b, a ≤ b → b ≤ 160 →
    (∀ n, a ≤ n → n < b → r.val ≠ 2 * (n / 80) ∧ r.val ≠ 2 * (n / 80) + 1) →
    scrAt V d b (ix2 r f) = scrAt V d a (ix2 r f) := by
  intro b hab
  induction b, hab using Nat.le_induction with
  | base => intro _ _; rfl
  | succ n hn ih =>
    intro hb hne
    have hN : cfg4.N = 320 := N_4
    have hlt : n < cfg4.N := by omega
    have hh : halfAt ⟨n, hlt⟩ = n / 80 := by show n % 160 / 80 = n / 80; rw [Nat.mod_eq_of_lt (by omega)]
    have := hne n hn (Nat.lt_succ_self n)
    rw [← ih (by omega) fun m hm hm' => hne m hm (by omega)]
    exact scr_other V d ⟨n, hlt⟩ (by show n < 160; omega) r (by rw [hh]; exact this.1) (by rw [hh]; exact this.2) f

end Fold

end R2

end Cert.KernelIdeal.Hand

end
-- ==== Proof.V2Pay.lean ====
/-
  The payloads of the third TensorCore pipeline's body read at one entry, at the extended reals: the layout operations,
  the column sums of a block of 2000 rows, the products with the 128 × 16 and 16 × 16 layers as sums over the contracted
  lanes, the one-row tables repeated over the rows; then each of the body's five payloads in the order the body computes it:
  the reset (zero), the two accumulations (the row read plus the block's column sums), the node-to-edge term of a row, and
  the result block.
-/
import proofs.«208461_g52518860095779_cont_9to1_m_1075_29_alg».proof.Proof.Gen.KernelIdeal.Skeleton
import proofs.«208461_g52518860095779_cont_9to1_m_1075_29_alg».proof.Proof.Laws
import proofs.«208461_g52518860095779_cont_9to1_m_1075_29_alg».proof.Proof.V2Defs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand.V2

open Cert.KernelIdeal Cert.KernelIdeal.Gen
open Cert.KernelIdeal.Hand.V1 (eps)

open Idealize.ShloMosaic Idealize.ShloMosaic.ValueIdx
open scoped BigOperators

/-! ## The body's layout operations, sums and products, read at coordinates -/

section Stages

/-- Row `16 p + mm` of a block's 2000 rows. -/
def qrow (p : Fin 125) (mm : Fin 16) : Fin 2000 := ⟨p.val * 16 + mm.val, by have := p.isLt; have := mm.isLt; omega⟩

/-- The bond block as 2000 rows: bond `mm` of the block's node `p` is row `16 p + mm`. -/
theorem cast_bond (x : FVec Ideal S1x125x16x16 .f32) (p : Fin 125) (mm : Fin 16) (j : Fin 16) :
    shapeCast S2000x16 x shapeCasts_S1x125x16x16_S2000x16 (ix2 (qrow p mm) j) = x (ix4 (0 : Fin 1) p mm j) :=
  shapeCast_apply x _ _ _ (by
    rw [Shape.rowMajor_val_four, Shape.rowMajor_val_two]
    show ((0 * 125 + p.val) * 16 + mm.val) * 16 + j.val = (p.val * 16 + mm.val) * 16 + j.val
    omega)

/-- The 2000 result rows as the block. -/
theorem cast_out (v : FVec Ideal S2000x16 .f32) (u : Fin 1) (p : Fin 125) (mm : Fin 16) (o : Fin 16) :
    shapeCast S1x125x16x16 v shapeCasts_S2000x16_S1x125x16x16 (ix4 u p mm o) = v (ix2 (qrow p mm) o) :=
  shapeCast_apply v _ _ _ (by
    have hu : u.val = 0 := by omega
    rw [Shape.rowMajor_val_two, Shape.rowMajor_val_four]
    show (p.val * 16 + mm.val) * 16 + o.val = ((u.val * 125 + p.val) * 16 + mm.val) * 16 + o.val
    rw [hu]; omega)

/-- A one-row table repeated over the 2000 rows (16 lanes). -/
theorem bcast_row16 (v : FVec Ideal S1x16 .f32) (q : Fin 2000) (o : Fin 16) :
    broadcastTo S2000x16 v broadcasts_S1x16_S2000x16 (ix2 q o) = v (ix2 (0 : Fin 1) o) :=
  broadcastTo_1b_ab_apply v _ q o

/-- A one-row table repeated over the 2000 rows (128 lanes). -/
theorem bcast_row128 (v : FVec Ideal S1x128 .f32) (q : Fin 2000) (f : Fin 128) :
    broadcastTo S2000x128 v broadcasts_S1x128_S2000x128 (ix2 q f) = v (ix2 (0 : Fin 1) f) :=
  broadcastTo_1b_ab_apply v _ q f

/-- The column sums of a block of 2000 rows. -/
theorem sum_rows (v : FVec Ideal S2000x128 .f32) (f : Fin 128)
    (hφ : FTy.f32 = FTy.f32 ∨ FTy.f32 = FTy.bf16) (hacc : (0x00000000#32 : BitVec 32) = 0x00000000#32) :
    multiReduction (F := Ideal) .add [0] S128 v 0x00000000#32 reduces_S2000x128_S128 hφ hacc (ix1 f)
      = ∑ p : Fin 2000, v (ix2 p f) :=
  (Ideal.multiReduction_add_single v 0x00000000#32 reduces_S2000x128_S128 hφ hacc (ix1 f)).trans
    (Finset.sum_congr rfl fun k _ => congrArg v (funext fun a => Fin.ext (by
      match a with
      | ⟨0, _⟩ => rfl
      | ⟨1, _⟩ => rfl)))

/-- The 128 column sums as one row. -/
theorem cast_row (v : FVec Ideal S128 .f32) (u : Fin 1) (f : Fin 128) :
    shapeCast S1x128 v shapeCasts_S128_S1x128 (ix2 u f) = v (ix1 f) :=
  shapeCast_apply v _ _ _ (by
    have hu : u.val = 0 := by omega
    rw [Shape.rowMajor_val_one, Shape.rowMajor_val_two]
    show f.val = u.val * 128 + f.val
    omega)

/-- The hyperbolic tangent at an entry. -/
theorem tanh_at {s : Shape} (x : FVec Ideal s .f32) (i : s.Idx) : tanh x i = Ideal.tanh (x i) := rfl

/-- The product with a 128 × 16 layer: row `q` against column `j`. -/
theorem matmul_128 (A : FVec Ideal S2000x128 .f32) (B : FVec Ideal S128x16 .f32) (q : Fin 2000) (j : Fin 16) :
    matmul dot_S2000x128_S128x16_S2000x16_1_0_0_1_n_n none A B (constant (F := Ideal) S2000x16 .f32 0x00000000#32) (ix2 q j)
      = ∑ f : Fin 128, A (ix2 q f) * B (ix2 f j) := by
  show FloatOps.matmul _ none A B _ (ix2 q j) = _
  rw [Ideal.matmul_constant_zero_apply,
    ← Equiv.sum_comp (contrEquiv1 dot_S2000x128_S128x16_S2000x16_1_0_0_1_n_n 128 rfl rfl).symm]
  refine Finset.sum_congr rfl fun c _ => ?_
  have c2 := contrEquiv1_symm_val dot_S2000x128_S128x16_S2000x16_1_0_0_1_n_n 128 rfl rfl c
  have l2 : dot_S2000x128_S128x16_S2000x16_1_0_0_1_n_n.lhsIdx (ix2 q j)
      ((contrEquiv1 dot_S2000x128_S128x16_S2000x16_1_0_0_1_n_n 128 rfl rfl).symm c) = ix2 q c := by
    funext ax; apply Fin.ext
    match ax with
    | ⟨0, _⟩ => simp [DotDims.lhsIdx, dot_S2000x128_S128x16_S2000x16_1_0_0_1_n_n]; rfl
    | ⟨1, _⟩ => simp [DotDims.lhsIdx, dot_S2000x128_S128x16_S2000x16_1_0_0_1_n_n]; exact c2
  have r2 : dot_S2000x128_S128x16_S2000x16_1_0_0_1_n_n.rhsIdx (ix2 q j)
      ((contrEquiv1 dot_S2000x128_S128x16_S2000x16_1_0_0_1_n_n 128 rfl rfl).symm c) = ix2 c j := by
    funext ax; apply Fin.ext
    match ax with
    | ⟨0, _⟩ => simp [DotDims.rhsIdx, dot_S2000x128_S128x16_S2000x16_1_0_0_1_n_n]; exact c2
    | ⟨1, _⟩ => simp [DotDims.rhsIdx, dot_S2000x128_S128x16_S2000x16_1_0_0_1_n_n]; rfl
  rw [l2, r2]

/-- The product with the 16 × 16 layer: row `q` against column `o`. -/
theorem matmul_16 (A : FVec Ideal S2000x16 .f32) (B : FVec Ideal S16x16 .f32) (q : Fin 2000) (o : Fin 16) :
    matmul dot_S2000x16_S16x16_S2000x16_1_0_0_1_n_n none A B (constant (F := Ideal) S2000x16 .f32 0x00000000#32) (ix2 q o)
      = ∑ j : Fin 16, A (ix2 q j) * B (ix2 j o) := by
  show FloatOps.matmul _ none A B _ (ix2 q o) = _
  rw [Ideal.matmul_constant_zero_apply,
    ← Equiv.sum_comp (contrEquiv1 dot_S2000x16_S16x16_S2000x16_1_0_0_1_n_n 16 rfl rfl).symm]
  refine Finset.sum_congr rfl fun c _ => ?_
  have c2 := contrEquiv1_symm_val dot_S2000x16_S16x16_S2000x16_1_0_0_1_n_n 16 rfl rfl c
  have l2 : dot_S2000x16_S16x16_S2000x16_1_0_0_1_n_n.lhsIdx (ix2 q o)
      ((contrEquiv1 dot_S2000x16_S16x16_S2000x16_1_0_0_1_n_n 16 rfl rfl).symm c) = ix2 q c := by
    funext ax; apply Fin.ext
    match ax with
    | ⟨0, _⟩ => simp [DotDims.lhsIdx, dot_S2000x16_S16x16_S2000x16_1_0_0_1_n_n]; rfl
    | ⟨1, _⟩ => simp [DotDims.lhsIdx, dot_S2000x16_S16x16_S2000x16_1_0_0_1_n_n]; exact c2
  have r2 : dot_S2000x16_S16x16_S2000x16_1_0_0_1_n_n.rhsIdx (ix2 q o)
      ((contrEquiv1 dot_S2000x16_S16x16_S2000x16_1_0_0_1_n_n 16 rfl rfl).symm c) = ix2 c o := by
    funext ax; apply Fin.ext
    match ax with
    | ⟨0, _⟩ => simp [DotDims.rhsIdx, dot_S2000x16_S16x16_S2000x16_1_0_0_1_n_n]; exact c2
    | ⟨1, _⟩ => simp [DotDims.rhsIdx, dot_S2000x16_S16x16_S2000x16_1_0_0_1_n_n]; rfl
  rw [l2, r2]

end Stages

/-! ## The body's payloads at an entry -/

section Payloads

/-- The reset's payload is zero everywhere. -/
theorem pay1_apply (y : S4x128.Idx) : k4_pay1 (F := Ideal) y = 0 := by
  unfold Gen.k4_pay1
  simp only [shapeCast_self, broadcast_apply]
  exact Cert.Laws.ofBits_zero

/-- The first accumulation's payload: the row read plus the block's column sums. -/
theorem pay2_apply (v26 : FVec Ideal S2000x128 .f32) (v36 : FVec Ideal S1x128 .f32) (u : Fin 1) (f : Fin 128) :
    k4_pay2 (F := Ideal) v26 v36 (ix2 u f) = v36 (ix2 u f) + ∑ p : Fin 2000, v26 (ix2 p f) := by
  unfold Gen.k4_pay2
  simp only [shapeCast_self, addf_apply, cast_row, sum_rows _ _ (Or.inl rfl) rfl]

/-- The second accumulation's payload, likewise. -/
theorem pay3_apply (v30 : FVec Ideal S2000x128 .f32) (v45 : FVec Ideal S1x128 .f32) (u : Fin 1) (f : Fin 128) :
    k4_pay3 (F := Ideal) v30 v45 (ix2 u f) = v45 (ix2 u f) + ∑ p : Fin 2000, v30 (ix2 p f) := by
  unfold Gen.k4_pay3
  simp only [shapeCast_self, addf_apply, cast_row, sum_rows _ _ (Or.inl rfl) rfl]

/-- The node-to-edge term of row `q` of a block, lane `j`, in the order the body computes it. -/
theorem pay5_apply (v25 v29 : FVec Ideal S1x128 .f32) (v38 : FVec Ideal S2000x128 .f32) (v42 : FVec Ideal S128x16 .f32)
    (v45 : FVec Ideal S2000x128 .f32) (v49 : FVec Ideal S128x16 .f32) (v53 : FVec Ideal S1x16 .f32) (q : Fin 2000) (j : Fin 16) :
    k4_pay5 (F := Ideal) v25 v29 v38 v42 v45 v49 v53 (ix2 q j)
      = Ideal.tanh (((∑ f : Fin 128, (v38 (ix2 q f) * Ideal.div 1 (max (v25 (ix2 (0 : Fin 1) f)) eps)) * v42 (ix2 f j))
          + ∑ f : Fin 128, (v45 (ix2 q f) * Ideal.div 1 (max (v29 (ix2 (0 : Fin 1) f)) eps)) * v49 (ix2 f j))
        + v53 (ix2 (0 : Fin 1) j)) := by
  unfold Gen.k4_pay5
  simp only [tanh_at, shapeCast_self, addf_apply, matmul_128, mulf_apply, divf_apply, maximumf_apply, broadcast_apply, bcast_row16, bcast_row128]
  have h1 : (FloatOps.ofBits (F := Ideal) FTy.f32 0x3F800000#32) = (1 : EReal) := Cert.Laws.ofBits_one'
  rw [h1]
  rfl

/-- The result block at (0, p, mm, o): the bond's features plus the node-to-edge term, through the 16 × 16 layer, plus the bias. -/
theorem pay4_apply (v57 : FVec Ideal S2000x16 .f32) (v58 : FVec Ideal S1x125x16x16 .f32) (v61 : FVec Ideal S16x16 .f32)
    (v63 : FVec Ideal S1x16 .f32) (p : Fin 125) (mm : Fin 16) (o : Fin 16) :
    k4_pay4 (F := Ideal) v57 v58 v61 v63 (ix4 (0 : Fin 1) p mm o)
      = (∑ j : Fin 16, (v58 (ix4 (0 : Fin 1) p mm j) + v57 (ix2 (qrow p mm) j)) * v61 (ix2 j o)) + v63 (ix2 (0 : Fin 1) o) := by
  unfold Gen.k4_pay4
  simp only [shapeCast_self, cast_out, addf_apply, matmul_16, bcast_row16, cast_bond]

end Payloads

end Cert.KernelIdeal.Hand.V2

end
-- ==== Proof.Value2.lean ====
/-
  The third TensorCore pipeline's result array read at one entry, at the extended reals: entry (bt, n, mm, o) is the
  second pass's payload of the blocks of the grid point 160 + 80 bt + n / 125 at node n % 125, bond mm and lane o, over the
  scratch the first pass left. Here: each input block read where its window's index map puts it in its array; the scratch
  after the first pass, row by row, as a running total over the 160 first-pass points — a point adds its two blocks' column
  sums to the two rows of its batch and leaves the other rows —, so that a batch's two rows hold the column sums of its
  first and of its second endpoints' rows (the 80 blocks of 2000 rows regrouped into one sum over the batch's 160000 bonds);
  and the two put together with the payloads read at an entry.
-/
import proofs.«208461_g52518860095779_cont_9to1_m_1075_29_alg».proof.Proof.R2Scr
import proofs.«208461_g52518860095779_cont_9to1_m_1075_29_alg».proof.Proof.Laws
import proofs.«208461_g52518860095779_cont_9to1_m_1075_29_alg».proof.Proof.V2Defs
import proofs.«208461_g52518860095779_cont_9to1_m_1075_29_alg».proof.Proof.V2Pay
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand.V2

open Cert.KernelIdeal Cert.KernelIdeal.Gen Cert.KernelIdeal.Hand
open Cert.KernelIdeal.Hand.V1 (eps)

open Idealize.ShloMosaic Idealize.ShloMosaic.ValueIdx
open scoped BigOperators

/-! ## The operand arrays, at their literal types -/

/-- The bond vectors. -/
abbrev bond (V : Valuation τ sig (Elt Ideal)) : S2x10000x16x16.Idx → EReal := V (Proc.devRef .tc main_arg1)
/-- The gathered endpoint rows: all first endpoints' rows, then all second endpoints'. -/
abbrev dd (V : Valuation τ sig (Elt Ideal)) : S640000x128.Idx → EReal := V (Proc.devRef .tc main_v26)
/-- The node-to-edge layer's two halves. -/
abbrev wt (V : Valuation τ sig (Elt Ideal)) : S128x16.Idx → EReal := V (Proc.devRef .tc main_v27)
abbrev wb (V : Valuation τ sig (Elt Ideal)) : S128x16.Idx → EReal := V (Proc.devRef .tc main_v28)
/-- The edge layer. -/
abbrev we (V : Valuation τ sig (Elt Ideal)) : S16x16.Idx → EReal := V (Proc.devRef .tc main_arg5)
/-- The two bias rows. -/
abbrev bnte (V : Valuation τ sig (Elt Ideal)) : S1x16.Idx → EReal := V (Proc.devRef .tc main_v29)
abbrev bedge (V : Valuation τ sig (Elt Ideal)) : S1x16.Idx → EReal := V (Proc.devRef .tc main_v30)

/-! ## The blocks read where the windows' index maps put them -/

section Blocks

/-- The eight input windows' block indices at point `t`, with `i = t % 160` the block coordinate: the bond block at batch
    element `i / 80`, row block `i % 80`; the first endpoints' rows at row block `i`, the second endpoints' at `i + 160`;
    the three layers and the two bias rows whole. -/
theorem idx_facts : ∀ t : Fin cfg4.N,
    win4_0.index t (0 : Fin 4) = t.val % 160 / 80 ∧ win4_0.index t (1 : Fin 4) = t.val % 160 % 80
    ∧ win4_0.index t (2 : Fin 4) = 0 ∧ win4_0.index t (3 : Fin 4) = 0
    ∧ win4_1.index t (0 : Fin 2) = t.val % 160 ∧ win4_1.index t (1 : Fin 2) = 0
    ∧ win4_2.index t (0 : Fin 2) = t.val % 160 + 160 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

variable (V : Valuation τ sig (Elt Ideal))

/-- Node `p` of the bond block at point `t` is node `(i / 80, 125 (i % 80) + p)` of the array. -/
theorem iblk0_apply (t : Fin cfg4.N) (p : Fin 125) (mm j : Fin 16) (bt : Fin 2) (n : Fin 10000)
    (hb : bt.val = t.val % 160 / 80) (hn : n.val = t.val % 160 % 80 * 125 + p.val) :
    (R2.iblk V (0 : Dev nD) 0 t : FVec Ideal S1x125x16x16 .f32) (ix4 (0 : Fin 1) p mm j) = bond V (ix4 bt n mm j) := by
  obtain ⟨e0, e1, e2, e3, -⟩ := idx_facts t
  show bond V (((cfg4.win 0).blk t).view.emb (ix4 (0 : Fin 1) p mm j)) = bond V (ix4 bt n mm j)
  refine congrArg (bond V) (funext fun a => Fin.ext ?_)
  match a with
  | ⟨0, _⟩ => show win4_0.index t (0 : Fin 4) * 1 + 1 * 0 = bt.val; omega
  | ⟨1, _⟩ => show win4_0.index t (1 : Fin 4) * 125 + 1 * p.val = n.val; omega
  | ⟨2, _⟩ => show win4_0.index t (2 : Fin 4) * 16 + 1 * mm.val = mm.val; omega
  | ⟨3, _⟩ => show win4_0.index t (3 : Fin 4) * 16 + 1 * j.val = j.val; omega

/-- Row `q` of the first endpoints' block at point `t` is row `2000 i + q` of the array. -/
theorem iblk1_apply (t : Fin cfg4.N) (q : Fin 2000) (f : Fin 128) (q' : Fin 640000) (h : q'.val = t.val % 160 * 2000 + q.val) :
    (R2.iblk V (0 : Dev nD) 1 t : FVec Ideal S2000x128 .f32) (ix2 q f) = dd V (ix2 q' f) := by
  obtain ⟨-, -, -, -, e0, e1, -⟩ := idx_facts t
  show dd V (((cfg4.win 1).blk t).view.emb (ix2 q f)) = dd V (ix2 q' f)
  refine congrArg (dd V) (funext fun a => Fin.ext ?_)
  match a with
  | ⟨0, _⟩ => show win4_1.index t (0 : Fin 2) * 2000 + 1 * q.val = q'.val; omega
  | ⟨1, _⟩ => show win4_1.index t (1 : Fin 2) * 128 + 1 * f.val = f.val; omega

/-- Row `q` of the second endpoints' block at point `t` is row `2000 (i + 160) + q` of the array. -/
theorem iblk2_apply (t : Fin cfg4.N) (q : Fin 2000) (f : Fin 128) (q' : Fin 640000)
    (h : q'.val = (t.val % 160 + 160) * 2000 + q.val) :
    (R2.iblk V (0 : Dev nD) 2 t : FVec Ideal S2000x128 .f32) (ix2 q f) = dd V (ix2 q' f) := by
  obtain ⟨-, -, -, -, -, -, e0, e1, -⟩ := idx_facts t
  show dd V (((cfg4.win 2).blk t).view.emb (ix2 q f)) = dd V (ix2 q' f)
  refine congrArg (dd V) (funext fun a => Fin.ext ?_)
  match a with
  | ⟨0, _⟩ => show win4_2.index t (0 : Fin 2) * 2000 + 1 * q.val = q'.val; omega
  | ⟨1, _⟩ => show win4_2.index t (1 : Fin 2) * 128 + 1 * f.val = f.val; omega

/-- The first node-to-edge layer's one block is the layer. -/
theorem iblk3_apply (t : Fin cfg4.N) (f : Fin 128) (j : Fin 16) :
    (R2.iblk V (0 : Dev nD) 3 t : FVec Ideal S128x16 .f32) (ix2 f j) = wt V (ix2 f j) := by
  obtain ⟨-, -, -, -, -, -, -, -, e0, e1, -⟩ := idx_facts t
  show wt V (((cfg4.win 3).blk t).view.emb (ix2 f j)) = wt V (ix2 f j)
  refine congrArg (wt V) (funext fun a => Fin.ext ?_)
  match a with
  | ⟨0, _⟩ => show win4_3.index t (0 : Fin 2) * 128 + 1 * f.val = f.val; omega
  | ⟨1, _⟩ => show win4_3.index t (1 : Fin 2) * 16 + 1 * j.val = j.val; omega

/-- The second node-to-edge layer's one block is the layer. -/
theorem iblk4_apply (t : Fin cfg4.N) (f : Fin 128) (j : Fin 16) :
    (R2.iblk V (0 : Dev nD) 4 t : FVec Ideal S128x16 .f32) (ix2 f j) = wb V (ix2 f j) := by
  obtain ⟨-, -, -, -, -, -, -, -, -, -, e0, e1, -⟩ := idx_facts t
  show wb V (((cfg4.win 4).blk t).view.emb (ix2 f j)) = wb V (ix2 f j)
  refine congrArg (wb V) (funext fun a => Fin.ext ?_)
  match a with
  | ⟨0, _⟩ => show win4_4.index t (0 : Fin 2) * 128 + 1 * f.val = f.val; omega
  | ⟨1, _⟩ => show win4_4.index t (1 : Fin 2) * 16 + 1 * j.val = j.val; omega

/-- The edge layer's one block is the layer. -/
theorem iblk5_apply (t : Fin cfg4.N) (j o : Fin 16) :
    (R2.iblk V (0 : Dev nD) 5 t : FVec Ideal S16x16 .f32) (ix2 j o) = we V (ix2 j o) := by
  obtain ⟨-, -, -, -, -, -, -, -, -, -, -, -, e0, e1, -⟩ := idx_facts t
  show we V (((cfg4.win 5).blk t).view.emb (ix2 j o)) = we V (ix2 j o)
  refine congrArg (we V) (funext fun a => Fin.ext ?_)
  match a with
  | ⟨0, _⟩ => show win4_5.index t (0 : Fin 2) * 16 + 1 * j.val = j.val; omega
  | ⟨1, _⟩ => show win4_5.index t (1 : Fin 2) * 16 + 1 * o.val = o.val; omega

/-- The node-to-edge bias row's one block is the row. -/
theorem iblk6_apply (t : Fin cfg4.N) (j : Fin 16) :
    (R2.iblk V (0 : Dev nD) 6 t : FVec Ideal S1x16 .f32) (ix2 (0 : Fin 1) j) = bnte V (ix2 (0 : Fin 1) j) := by
  obtain ⟨-, -, -, -, -, -, -, -, -, -, -, -, -, -, e0, e1, -⟩ := idx_facts t
  show bnte V (((cfg4.win 6).blk t).view.emb (ix2 (0 : Fin 1) j)) = bnte V (ix2 (0 : Fin 1) j)
  refine congrArg (bnte V) (funext fun a => Fin.ext ?_)
  match a with
  | ⟨0, _⟩ => show win4_6.index t (0 : Fin 2) * 1 + 1 * 0 = 0; omega
  | ⟨1, _⟩ => show win4_6.index t (1 : Fin 2) * 16 + 1 * j.val = j.val; omega

/-- The edge bias row's one block is the row. -/
theorem iblk7_apply (t : Fin cfg4.N) (o : Fin 16) :
    (R2.iblk V (0 : Dev nD) 7 t : FVec Ideal S1x16 .f32) (ix2 (0 : Fin 1) o) = bedge V (ix2 (0 : Fin 1) o) := by
  obtain ⟨-, -, -, -, -, -, -, -, -, -, -, -, -, -, -, -, e0, e1⟩ := idx_facts t
  show bedge V (((cfg4.win 7).blk t).view.emb (ix2 (0 : Fin 1) o)) = bedge V (ix2 (0 : Fin 1) o)
  refine congrArg (bedge V) (funext fun a => Fin.ext ?_)
  match a with
  | ⟨0, _⟩ => show win4_7.index t (0 : Fin 2) * 1 + 1 * 0 = 0; omega
  | ⟨1, _⟩ => show win4_7.index t (1 : Fin 2) * 16 + 1 * o.val = o.val; omega

end Blocks

/-! ## The scratch rows as a batch's column sums -/

section Sums

/-- A sum over 160000 bonds is the sum over 80 blocks of the sums over each block's 2000 rows. -/
theorem sum_blocks (G : Fin 160000 → EReal) :
    ∑ e : Fin 160000, G e
      = ∑ i : Fin 80, ∑ p : Fin 2000, G ⟨2000 * i.val + p.val, by have := i.isLt; have := p.isLt; omega⟩ := by
  rw [← Fintype.sum_prod_type' (f := fun (i : Fin 80) (p : Fin 2000) => G ⟨2000 * i.val + p.val, by have := i.isLt; have := p.isLt; omega⟩)]
  refine (Fintype.sum_equiv (finProdFinEquiv (m := 80) (n := 2000)) _ G fun x => ?_).symm
  exact congrArg G (Fin.ext (Nat.add_comm _ _))

variable (V : Valuation τ sig (Elt Ideal))

/-- The 80 blocks of a batch's first endpoints' rows, summed block by block, are the batch's column sum. -/
theorem colSum0_blocks (bt : Fin 2) (f : Fin 128) :
    (∑ i : Fin 80, ∑ p : Fin 2000, dd V (ix2 (⟨2000 * (80 * bt.val + i.val) + p.val, by omega⟩ : Fin 640000) f))
      = colSum0 (dd V) bt f := by
  unfold colSum0
  rw [sum_blocks (fun e => dd V (ix2 (erow0 bt e) f))]
  refine Finset.sum_congr rfl fun i _ => Finset.sum_congr rfl fun p _ => ?_
  refine congrArg (fun r => dd V (ix2 r f)) (Fin.ext ?_)
  show 2000 * (80 * bt.val + i.val) + p.val = bt.val * 160000 + (2000 * i.val + p.val)
  omega

/-- The same for the second endpoints' rows. -/
theorem colSum1_blocks (bt : Fin 2) (f : Fin 128) :
    (∑ i : Fin 80, ∑ p : Fin 2000, dd V (ix2 (⟨320000 + (2000 * (80 * bt.val + i.val) + p.val), by omega⟩ : Fin 640000) f))
      = colSum1 (dd V) bt f := by
  unfold colSum1
  rw [sum_blocks (fun e => dd V (ix2 (erow1 bt e) f))]
  refine Finset.sum_congr rfl fun i _ => Finset.sum_congr rfl fun p _ => ?_
  refine congrArg (fun r => dd V (ix2 r f)) (Fin.ext ?_)
  show 320000 + (2000 * (80 * bt.val + i.val) + p.val) = 320000 + (bt.val * 160000 + (2000 * i.val + p.val))
  omega

end Sums

/-! ## The scratch after the first pass: a batch's rows hold its two column sums, block by block -/

section Fold

/-- A running total that starts at zero and adds one term per step is the sum of the terms so far. -/
theorem run_eq_sum (a run : ℕ → EReal) (h0 : run 0 = 0) (hs : ∀ k, run (k + 1) = run k + a k) (n : ℕ) :
    run n = ∑ i ∈ Finset.range n, a i := by
  induction n with
  | zero => rw [h0, Finset.sum_range_zero]
  | succ k ih => rw [hs k, ih, Finset.sum_range_succ]

variable (V : Valuation τ sig (Elt Ideal))

/-- Row `m` of the gathered rows (any `m` below their number). -/
def rowAt (m : ℕ) : Fin 640000 := ⟨m % 640000, Nat.mod_lt _ (by decide)⟩

/-- The column sums of block `k` of 2000 gathered rows. -/
def blockSum (f : Fin 128) (k : ℕ) : EReal := ∑ p : Fin 2000, dd V (ix2 (rowAt (2000 * k + p.val)) f)

/-- What point `k` of the first pass adds to row `r` of the scratch: the column sums of its first endpoints' block
    into the even row of its batch, of its second endpoints' block into the odd row, nothing elsewhere; nothing
    after the first pass. -/
def addend (r : Fin 4) (f : Fin 128) (k : ℕ) : EReal :=
  if k < 160 then (if r.val = 2 * (k / 80) then blockSum V f k else if r.val = 2 * (k / 80) + 1 then blockSum V f (k + 160) else 0)
  else 0

/-- The first endpoints' block at a first-pass point sums, column by column, to `blockSum`. -/
theorem b1_sum (t : Fin cfg4.N) (ht : t.val < 160) (f : Fin 128) :
    (∑ p : Fin 2000, R2.b1 V (0 : Dev nD) t (ix2 p f)) = blockSum V f t.val := by
  unfold blockSum
  refine Finset.sum_congr rfl fun p _ => ?_
  have hp := p.isLt
  exact iblk1_apply V t p f (rowAt (2000 * t.val + p.val)) (by
    show (2000 * t.val + p.val) % 640000 = t.val % 160 * 2000 + p.val
    omega)

/-- The second endpoints' block likewise, 160 blocks further. -/
theorem b2_sum (t : Fin cfg4.N) (ht : t.val < 160) (f : Fin 128) :
    (∑ p : Fin 2000, R2.b2 V (0 : Dev nD) t (ix2 p f)) = blockSum V f (t.val + 160) := by
  unfold blockSum
  refine Finset.sum_congr rfl fun p _ => ?_
  have hp := p.isLt
  exact iblk2_apply V t p f (rowAt (2000 * (t.val + 160) + p.val)) (by
    show (2000 * (t.val + 160) + p.val) % 640000 = (t.val % 160 + 160) * 2000 + p.val
    omega)

/-- One step of the scratch at a row: the contents before plus the point's addend. -/
theorem scr_step (r : Fin 4) (f : Fin 128) (k : ℕ) :
    R2.scrAt V (0 : Dev nD) (k + 1) (ix2 r f) = R2.scrAt V (0 : Dev nD) k (ix2 r f) + addend V r f k := by
  unfold addend
  by_cases hk : k < 160
  · rw [if_pos hk]
    have hkN : k < cfg4.N := by rw [show cfg4.N = 320 from R2E.N4]; omega
    have hh : R2.halfAt (⟨k, hkN⟩ : Fin cfg4.N) = k / 80 := by show k % 160 / 80 = k / 80; rw [Nat.mod_eq_of_lt hk]
    have hr := r.isLt
    by_cases h0 : r.val = 2 * (k / 80)
    · rw [if_pos h0]
      have er : r = (⟨2 * R2.halfAt (⟨k, hkN⟩ : Fin cfg4.N), by have := R2.halfAt_lt (⟨k, hkN⟩ : Fin cfg4.N); omega⟩ : Fin 4) :=
        Fin.ext (by show r.val = 2 * R2.halfAt (⟨k, hkN⟩ : Fin cfg4.N); rw [hh]; exact h0)
      rw [er]
      refine (R2.scr_even V 0 ⟨k, hkN⟩ hk f).trans ?_
      rw [pay2_apply, R2.rowOf_apply _ _ _ (2 * R2.halfAt (⟨k, hkN⟩ : Fin cfg4.N)) (by have := R2.halfAt_lt (⟨k, hkN⟩ : Fin cfg4.N); omega) (R2.off1_at _),
        b1_sum V ⟨k, hkN⟩ hk f]
    · rw [if_neg h0]
      by_cases h1 : r.val = 2 * (k / 80) + 1
      · rw [if_pos h1]
        have er : r = (⟨2 * R2.halfAt (⟨k, hkN⟩ : Fin cfg4.N) + 1, by have := R2.halfAt_lt (⟨k, hkN⟩ : Fin cfg4.N); omega⟩ : Fin 4) :=
          Fin.ext (by show r.val = 2 * R2.halfAt (⟨k, hkN⟩ : Fin cfg4.N) + 1; rw [hh]; exact h1)
        rw [er]
        refine (R2.scr_odd V 0 ⟨k, hkN⟩ hk f).trans ?_
        rw [pay3_apply, R2.rowOf_apply _ _ _ (2 * R2.halfAt (⟨k, hkN⟩ : Fin cfg4.N) + 1) (by have := R2.halfAt_lt (⟨k, hkN⟩ : Fin cfg4.N); omega) (R2.off2_at _),
          b2_sum V ⟨k, hkN⟩ hk f]
      · rw [if_neg h1, add_zero]
        exact R2.scr_other V 0 ⟨k, hkN⟩ hk r (by rw [hh]; exact h0) (by rw [hh]; exact h1) f
  · rw [if_neg hk, add_zero, R2.scrAt_late V 0 (k + 1) (by omega), R2.scrAt_late V 0 k (by omega)]

/-- After the first pass a row holds the sum of its addends. -/
theorem scr160_eq (r : Fin 4) (f : Fin 128) :
    R2.scrAt V (0 : Dev nD) 160 (ix2 r f) = ∑ k ∈ Finset.range 160, addend V r f k :=
  run_eq_sum (addend V r f) (fun k => R2.scrAt V (0 : Dev nD) k (ix2 r f)) (pay1_apply _) (scr_step V r f) 160

/-- A sum over the 160 first-pass points of terms that vanish off one batch's 80 points is the sum over those 80. -/
theorem sum_half (g : ℕ → EReal) (bt : Fin 2) (hg : ∀ k, k < 160 → k / 80 ≠ bt.val → g k = 0) :
    ∑ k ∈ Finset.range 160, g k = ∑ x ∈ Finset.range 80, g (80 * bt.val + x) := by
  rw [show (160 : ℕ) = 80 + 80 from rfl, Finset.sum_range_add]
  match bt, hg with
  | ⟨0, _⟩, hg =>
    have hz : ∑ x ∈ Finset.range 80, g (80 + x) = 0 := Finset.sum_eq_zero fun x hx => by
      have := Finset.mem_range.mp hx
      exact hg _ (by omega) (by show (80 + x) / 80 ≠ 0; omega)
    rw [hz, add_zero]
    exact Finset.sum_congr rfl fun x _ => by rw [show 80 * (0 : ℕ) + x = x by omega]
  | ⟨1, _⟩, hg =>
    have hz : ∑ x ∈ Finset.range 80, g x = 0 := Finset.sum_eq_zero fun x hx => by
      have := Finset.mem_range.mp hx
      exact hg _ (by omega) (by show x / 80 ≠ 1; omega)
    rw [hz, zero_add]
    exact Finset.sum_congr rfl fun x _ => by rw [show 80 * (1 : ℕ) + x = 80 + x by omega]

/-- A batch's even row after the first pass: its first endpoints' column sum. -/
theorem scr160_even (bt : Fin 2) (f : Fin 128) :
    R2.scrAt V (0 : Dev nD) 160 (ix2 (⟨2 * bt.val, by omega⟩ : Fin 4) f) = colSum0 (dd V) bt f := by
  have hb := bt.isLt
  rw [scr160_eq, sum_half _ bt (fun k hk hne => by
    unfold addend
    rw [if_pos hk, if_neg (by show 2 * bt.val ≠ 2 * (k / 80); omega), if_neg (by show 2 * bt.val ≠ 2 * (k / 80) + 1; omega)]),
    Finset.sum_range, ← colSum0_blocks V bt f]
  refine Finset.sum_congr rfl fun i _ => ?_
  have hi := i.isLt
  unfold addend
  rw [if_pos (by omega), if_pos (by show 2 * bt.val = 2 * ((80 * bt.val + i.val) / 80); omega)]
  unfold blockSum
  refine Finset.sum_congr rfl fun p _ => ?_
  have hp := p.isLt
  exact congrArg (fun q => dd V (ix2 q f)) (Fin.ext (by
    show (2000 * (80 * bt.val + i.val) + p.val) % 640000 = 2000 * (80 * bt.val + i.val) + p.val
    omega))

/-- A batch's odd row after the first pass: its second endpoints' column sum. -/
theorem scr160_odd (bt : Fin 2) (f : Fin 128) :
    R2.scrAt V (0 : Dev nD) 160 (ix2 (⟨2 * bt.val + 1, by omega⟩ : Fin 4) f) = colSum1 (dd V) bt f := by
  have hb := bt.isLt
  rw [scr160_eq, sum_half _ bt (fun k hk hne => by
    unfold addend
    rw [if_pos hk, if_neg (by show 2 * bt.val + 1 ≠ 2 * (k / 80); omega), if_neg (by show 2 * bt.val + 1 ≠ 2 * (k / 80) + 1; omega)]),
    Finset.sum_range, ← colSum1_blocks V bt f]
  refine Finset.sum_congr rfl fun i _ => ?_
  have hi := i.isLt
  unfold addend
  rw [if_pos (by omega), if_neg (by show 2 * bt.val + 1 ≠ 2 * ((80 * bt.val + i.val) / 80); omega),
    if_pos (by show 2 * bt.val + 1 = 2 * ((80 * bt.val + i.val) / 80) + 1; omega)]
  unfold blockSum
  refine Finset.sum_congr rfl fun p _ => ?_
  have hp := p.isLt
  exact congrArg (fun q => dd V (ix2 q f)) (Fin.ext (by
    show (2000 * (80 * bt.val + i.val + 160) + p.val) % 640000 = 320000 + (2000 * (80 * bt.val + i.val) + p.val)
    omega))

end Fold
/-! ## The result array at an entry -/

section Main

/-- The block coordinate of point `t`. -/
theorem coord1 : ∀ t : Fin cfg4.N, ((grid4.coords t) 1).val = t.val % 160 :=
  (by decide +kernel : ∀ t : Fin grid4.N, _)

/-- The region's result at entry (bt, n, mm, o): `res2At` of the operand arrays. -/
theorem res2_apply (V : Valuation τ sig (Elt Ideal)) (bt : Fin 2) (n : Fin 10000) (mm : Fin 16) (o : Fin 16) :
    res2 V (ix4 bt n mm o) = res2At (bond V) (dd V) (wt V) (wb V) (we V) (bnte V) (bedge V) bt n mm o := by
  have hb2 : bt.val < 2 := bt.isLt
  have hn2 : n.val < 10000 := n.isLt
  have hm2 : mm.val < 16 := mm.isLt
  obtain ⟨t, ht⟩ : ∃ t : Fin cfg4.N, t.val = 160 + 80 * bt.val + n.val / 125 :=
    ⟨⟨160 + 80 * bt.val + n.val / 125, by rw [show cfg4.N = 320 from R2E.N4]; omega⟩, rfl⟩
  obtain ⟨p, hp⟩ : ∃ p : Fin 125, p.val = n.val % 125 := ⟨⟨n.val % 125, Nat.mod_lt _ (by decide)⟩, rfl⟩
  have h160 : 160 ≤ t.val := by omega
  have hc := coord1 t
  have hrow : 2 * (((grid4.coords t) 1).val / 80) = 2 * bt.val := by rw [hc]; omega
  have hrow' : 2 * (((grid4.coords t) 1).val / 80) + 1 = 2 * bt.val + 1 := by rw [hrow]
  unfold res2
  rw [R2E.glue_apply (R2.resAt V (0 : Dev nD)) (ix4 bt n mm o) t (ix4 (0 : Fin 1) p mm o) ht rfl hp rfl rfl]
  rw [R2.resAt_late V 0 t h160]
  unfold R2.resOf
  rw [pay4_apply]
  unfold res2At
  refine congrArg₂ (· + ·) (Finset.sum_congr rfl fun j _ => ?_) (iblk7_apply V t o)
  refine congrArg₂ (· * ·) (congrArg₂ (· + ·) (iblk0_apply V t p mm j bt n (by omega) (by omega)) ?_) (iblk5_apply V t j o)
  rw [pay5_apply]
  unfold gate
  refine congrArg Ideal.tanh (congrArg₂ (· + ·) (congrArg₂ (· + ·) (Finset.sum_congr rfl fun f _ => ?_)
    (Finset.sum_congr rfl fun f _ => ?_)) (iblk6_apply V t j))
  · refine congrArg₂ (· * ·) (congrArg₂ (· * ·) (iblk1_apply V t (qrow p mm) f (erow0 bt (bidx n mm)) (by
      show bt.val * 160000 + (n.val * 16 + mm.val) = t.val % 160 * 2000 + (p.val * 16 + mm.val)
      omega)) ?_) (iblk3_apply V t f j)
    rw [R2.rowOf_apply _ _ _ (2 * bt.val) (by omega) ((R2.k4_off3_eq _).trans (by rw [hrow])), scr160_even V bt f]
  · refine congrArg₂ (· * ·) (congrArg₂ (· * ·) (iblk2_apply V t (qrow p mm) f (erow1 bt (bidx n mm)) (by
      show 320000 + (bt.val * 160000 + (n.val * 16 + mm.val)) = (t.val % 160 + 160) * 2000 + (p.val * 16 + mm.val)
      omega)) ?_) (iblk4_apply V t f j)
    rw [R2.rowOf_apply _ _ _ (2 * bt.val + 1) (by omega) ((R2.k4_off4_eq _).trans (by rw [hrow'])), scr160_odd V bt f]

end Main

end Cert.KernelIdeal.Hand.V2

end
-- ==== Proof.Region2.lean ====
/-
  Region 2 of @main: the third TensorCore pipeline (two phases of 160 blocks; nine windows, two of them on the gathered
  endpoint rows; a 4×128 scratch carried across all points). Phase 0 adds each block's column sums of the two endpoint
  blocks into the scratch rows of the block's half and stores nothing into the result block, which the pipeline still
  writes back; phase 1 stores the whole result block from the scratch rows, the endpoint blocks, the bond block and the
  weights, over the same block index. Here: phase 1's body run, the relational proof data (inputs left as found, the
  result's buffer constrained at phase-1 points only, the scratch at the fold in the invariant), the body obligation by
  the three control cases, that the result array ends at the glued phase-1 blocks, and the region's rule.
-/
import proofs.«208461_g52518860095779_cont_9to1_m_1075_29_alg».proof.Proof.R2Defs

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 2) (Elt F) ℕ UU ℕ

namespace R2

set_option maxHeartbeats 2000000 in
theorem runB [∀ e, Nonempty (Elt F e)] (c : Dev nD) (E : Set ℕ) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : ¬ k4_cond1 i = 1#1) (h3 : k4_cond3 i = 1#1)
    (x0 : Vec F S1x125x16x16 .f32) (x1 x2 : Vec F S2000x128 .f32) (x3 x4 : Vec F S128x16 .f32)
    (x5 : Vec F S16x16 .f32) (x6 x7 : Vec F S1x16 .f32) (xs : Vec F S4x128 .f32) (Kc : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ dd, owns (c : Thread nD τ) arg10 fullShare dd)
        ∗ owns (c : Thread nD τ) arg11 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (resOf i h3 x0 x1 x2 x3 x4 x5 x6 x7 xs)
            ∗ owns (c : Thread nD τ) arg11 fullShare xs) -∗ Kc ⟨⟩))
      ⊢ wp frame (wpE (defs₀ (F := F)) Variants.none c none) E (cc4__k46_body i arg2 harg2 arg3 harg3 arg4 harg4 arg5 harg5 arg6 harg6 arg7 harg7 arg8 harg8 arg9 harg9 arg10 harg10 arg11 harg11) Kc := by
  simp only [cc4__k46_body_eq_skeleton]; unfold cc4__k46_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dd, %f8, -, H8⟩, ⟨%fs, %hfs, Hs⟩, Hk⟩
  subst hf0; subst hf1; subst hf2; subst hf3; subst hf4; subst hf5; subst hf6; subst hf7; subst hfs
  sl_exec (disch := first | exact h1 | exact h3)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero (S := S1x125x16x16) zeros4 inb_S1x125x16x16_S1x125x16x16_0_0_0_0 y⟩),
      View.canon_unit_zero zeros4]
    unfold resOf rowOf runB.sl.v58
    rw [readAt_whole arg3.view f1 zeros2, readAt_whole arg5.view f3 zeros2, readAt_whole arg4.view f2 zeros2, readAt_whole arg6.view f4 zeros2,
      readAt_whole arg8.view f6 zeros2, readAt_whole arg7.view f5 zeros2, readAt_whole arg9.view f7 zeros2,
      readAt_whole arg2.view f0 zeros4]
    rfl
  iexists fs; isplitr; · ipureintro; rfl
  iexact Hs

/-! ## The scoped buffers no window of this pipeline stages -/

/-- The fourteen staging buffers of the other two pipelines, each whole at some contents, beside R. -/
def chain14 (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ R)

/-- The scratch, whole at some contents. -/
def scrAny (c : Dev nD) : sProp 𝕄 :=
  iprop(∃ f : Buf (Elt F) ((c : Thread nD τ).loc cc4_scratch0), ((c : Thread nD τ).loc cc4_scratch0) ↦{fullShare} f)

theorem scopedRest_chain (c : Dev nD) :
    (Pipeline.scopedRest (Ix := HIx 2) (Name := ℕ) (U := UU) (Lvl := ℕ) (Val := Elt F) spec4 c : sProp 𝕄) = chain14 c (scrAny c) := by
  rw [scopedRest4_eq]; rfl

theorem chain14_split (c : Dev nD) (R : sProp 𝕄) : chain14 c R ⊢ iprop(chain14 c iprop(emp) ∗ R) := by
  unfold chain14
  iintro ⟨H1, H2, H3, H4, H5, H6, H7, H8, H9, H10, H11, H12, H13, H14, HR⟩
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iempintro
  iexact HR

theorem chain14_join (c : Dev nD) (R : sProp 𝕄) : iprop(chain14 c iprop(emp) ∗ R) ⊢ chain14 c R := by
  unfold chain14
  iintro ⟨⟨H1, H2, H3, H4, H5, H6, H7, H8, H9, H10, H11, H12, H13, H14, -⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HR

section Data2

variable (V : Valuation τ sig (Elt F)) (O : CellTallies nD τ sig (HIx 2)) (W : Waits sig (HIx 2)) (d : Dev nD)

/-- The scratch's part of the invariant before point n: at the fold, except before the first point, where it holds anything. -/
def Sn (n : ℕ) : sProp 𝕄 :=
  iprop(∃ xs : Vec F S4x128 .f32, ⌜n ≠ 0 → xs = scrAt V d n⌝ ∗ owns (d : Thread nD τ) msc fullShare xs)

/-- The relational proof data of pipeline 2 on device d: the arrays as the region finds them; every input's buffer left
    as found; the result's buffer, at a phase-1 point, left at what that point stores, at a phase-0 point at anything;
    the invariant the other pipelines' staging buffers and the scratch at the fold; the tallies and recorded waits
    as the region is entered with them, throughout. -/
def rd2 : RDat τ (Elt F) (HIx 2) ℕ UU ℕ cfg4 d where
  A w := Vr V d (Pipeline.arrRef spec4 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => k4_cond3 (grid4.coords t) = 1#1 → X = resAt V d t
  Φ n := iprop(chain14 d iprop(emp) ∗ Sn V d n.val)
  q := R2E.q2
  owed _ := O
  recorded _ := ↑W

theorem A_eq (w : Fin cfg4.W) : (rd2 V O W d).A w = Vr V d (Pipeline.arrRef spec4 w) := by
  dsimp only [rd2]
theorem after_0 (t : Fin cfg4.N) (Y X) : (rd2 V O W d).after 0 t Y X = (X = Y) := by dsimp only [rd2]
theorem after_1 (t : Fin cfg4.N) (Y X) : (rd2 V O W d).after 1 t Y X = (X = Y) := by dsimp only [rd2]
theorem after_2 (t : Fin cfg4.N) (Y X) : (rd2 V O W d).after 2 t Y X = (X = Y) := by dsimp only [rd2]
theorem after_3 (t : Fin cfg4.N) (Y X) : (rd2 V O W d).after 3 t Y X = (X = Y) := by dsimp only [rd2]
theorem after_4 (t : Fin cfg4.N) (Y X) : (rd2 V O W d).after 4 t Y X = (X = Y) := by dsimp only [rd2]
theorem after_5 (t : Fin cfg4.N) (Y X) : (rd2 V O W d).after 5 t Y X = (X = Y) := by dsimp only [rd2]
theorem after_6 (t : Fin cfg4.N) (Y X) : (rd2 V O W d).after 6 t Y X = (X = Y) := by dsimp only [rd2]
theorem after_7 (t : Fin cfg4.N) (Y X) : (rd2 V O W d).after 7 t Y X = (X = Y) := by dsimp only [rd2]
theorem after_8 (t : Fin cfg4.N) (Y X) : (rd2 V O W d).after 8 t Y X = (k4_cond3 (grid4.coords t) = 1#1 → X = resAt V d t) := by dsimp only [rd2]

/-- Input window 0's current staging buffer holds its block wherever the body is handed it. -/
theorem finds_0 [∀ e, Nonempty (Elt F e)] (t : Fin cfg4.N) (Y) (hY : (rd2 V O W d).Finds 0 t Y) : Y = iblk V d 0 t := by
  obtain ⟨dd, rfl⟩ := RDat.finds_in_eq_fetched (rd2 V O W d) 0 rfl (fun _ _ _ => rfl) (fun t Y X h => by rw [after_0] at h; exact h) t Y hY
  unfold RDat.fetched RDat.blockOf iblk; rw [A_eq]; try rfl
/-- Input window 1's current staging buffer holds its block wherever the body is handed it. -/
theorem finds_1 [∀ e, Nonempty (Elt F e)] (t : Fin cfg4.N) (Y) (hY : (rd2 V O W d).Finds 1 t Y) : Y = iblk V d 1 t := by
  obtain ⟨dd, rfl⟩ := RDat.finds_in_eq_fetched (rd2 V O W d) 1 rfl (fun _ _ _ => rfl) (fun t Y X h => by rw [after_1] at h; exact h) t Y hY
  unfold RDat.fetched RDat.blockOf iblk; rw [A_eq]; try rfl
/-- Input window 2's current staging buffer holds its block wherever the body is handed it. -/
theorem finds_2 [∀ e, Nonempty (Elt F e)] (t : Fin cfg4.N) (Y) (hY : (rd2 V O W d).Finds 2 t Y) : Y = iblk V d 2 t := by
  obtain ⟨dd, rfl⟩ := RDat.finds_in_eq_fetched (rd2 V O W d) 2 rfl (fun _ _ _ => rfl) (fun t Y X h => by rw [after_2] at h; exact h) t Y hY
  unfold RDat.fetched RDat.blockOf iblk; rw [A_eq]; try rfl
/-- Input window 3's current staging buffer holds its block wherever the body is handed it. -/
theorem finds_3 [∀ e, Nonempty (Elt F e)] (t : Fin cfg4.N) (Y) (hY : (rd2 V O W d).Finds 3 t Y) : Y = iblk V d 3 t := by
  obtain ⟨dd, rfl⟩ := RDat.finds_in_eq_fetched (rd2 V O W d) 3 rfl (fun _ _ _ => rfl) (fun t Y X h => by rw [after_3] at h; exact h) t Y hY
  unfold RDat.fetched RDat.blockOf iblk; rw [A_eq]; try rfl
/-- Input window 4's current staging buffer holds its block wherever the body is handed it. -/
theorem finds_4 [∀ e, Nonempty (Elt F e)] (t : Fin cfg4.N) (Y) (hY : (rd2 V O W d).Finds 4 t Y) : Y = iblk V d 4 t := by
  obtain ⟨dd, rfl⟩ := RDat.finds_in_eq_fetched (rd2 V O W d) 4 rfl (fun _ _ _ => rfl) (fun t Y X h => by rw [after_4] at h; exact h) t Y hY
  unfold RDat.fetched RDat.blockOf iblk; rw [A_eq]; try rfl
/-- Input window 5's current staging buffer holds its block wherever the body is handed it. -/
theorem finds_5 [∀ e, Nonempty (Elt F e)] (t : Fin cfg4.N) (Y) (hY : (rd2 V O W d).Finds 5 t Y) : Y = iblk V d 5 t := by
  obtain ⟨dd, rfl⟩ := RDat.finds_in_eq_fetched (rd2 V O W d) 5 rfl (fun _ _ _ => rfl) (fun t Y X h => by rw [after_5] at h; exact h) t Y hY
  unfold RDat.fetched RDat.blockOf iblk; rw [A_eq]; try rfl
/-- Input window 6's current staging buffer holds its block wherever the body is handed it. -/
theorem finds_6 [∀ e, Nonempty (Elt F e)] (t : Fin cfg4.N) (Y) (hY : (rd2 V O W d).Finds 6 t Y) : Y = iblk V d 6 t := by
  obtain ⟨dd, rfl⟩ := RDat.finds_in_eq_fetched (rd2 V O W d) 6 rfl (fun _ _ _ => rfl) (fun t Y X h => by rw [after_6] at h; exact h) t Y hY
  unfold RDat.fetched RDat.blockOf iblk; rw [A_eq]; try rfl
/-- Input window 7's current staging buffer holds its block wherever the body is handed it. -/
theorem finds_7 [∀ e, Nonempty (Elt F e)] (t : Fin cfg4.N) (Y) (hY : (rd2 V O W d).Finds 7 t Y) : Y = iblk V d 7 t := by
  obtain ⟨dd, rfl⟩ := RDat.finds_in_eq_fetched (rd2 V O W d) 7 rfl (fun _ _ _ => rfl) (fun t Y X h => by rw [after_7] at h; exact h) t Y hY
  unfold RDat.fetched RDat.blockOf iblk; rw [A_eq]; try rfl

end Data2

/-! ## The body obligation -/

section Body

variable (V : Valuation τ sig (Elt F)) (O : CellTallies nD τ sig (HIx 2)) (W : Waits sig (HIx 2)) (d : Dev nD)

theorem owns_any {S : Shape} (c : Dev nD) (m : Memref sig .tc .vmem S .f32) (x : Vec F S .f32) :
    (owns (c : Thread nD τ) m fullShare x : sProp 𝕄) ⊢ iprop(∃ f, m.view.loc (c : Thread nD τ) ↦[m.view.set]{fullShare} f) := by
  unfold owns; iintro ⟨%f, -, H⟩; iexists f; iexact H

theorem owns_of {S : Shape} (c : Dev nD) (m : Memref sig .tc .vmem S .f32) (f : m.view.ty.Contents (Elt F)) :
    (m.view.loc (c : Thread nD τ) ↦[m.view.set]{fullShare} f : sProp 𝕄) ⊢ owns (c : Thread nD τ) m fullShare (m.view.read (Elt F) f) := by
  unfold owns; iintro H; iexists f; isplitr; · ipureintro; rfl
  iexact H

set_option maxHeartbeats 2000000 in
/-- The body at any point. Every input's memref holds its block. In phase 0 the scratch goes from the fold before the
    point to the fold after it (at the first block from anything), and the result's buffer is left as handed; in phase 1
    the scratch is left and the result's buffer takes the point's block. The other pipelines' buffers and the core's
    tallies pass through unread. -/
theorem body2 [∀ e, Nonempty (Elt F e)] : (rd2 V O W d).BodyObligation (defs₀ (F := F)) Variants.none (none : HIx 2) Set.univ := fun t Y hY => by
  rw [bigSep_W4, bigSep_W4]
  have e0 := finds_0 V O W d t (Y 0) (hY 0)
  have e1 := finds_1 V O W d t (Y 1) (hY 1)
  have e2 := finds_2 V O W d t (Y 2) (hY 2)
  have e3 := finds_3 V O W d t (Y 3) (hY 3)
  have e4 := finds_4 V O W d t (Y 4) (hY 4)
  have e5 := finds_5 V O W d t (Y 5) (hY 5)
  have e6 := finds_6 V O W d t (Y 6) (hY 6)
  have e7 := finds_7 V O W d t (Y 7) (hY 7)
  rw [e0, e1, e2, e3, e4, e5, e6, e7]
  rw [show (rd2 V O W d).Φ t.castSucc = iprop(chain14 d iprop(emp) ∗ Sn V d t.val) from rfl,
    show (rd2 V O W d).Φ t.succ = iprop(chain14 d iprop(emp) ∗ Sn V d (t.val + 1)) from rfl,
    show (rd2 V O W d).owesAt none t.succ = (rd2 V O W d).owesAt none t.castSucc from rfl]
  simp only [after_0, after_1, after_2, after_3, after_4, after_5, after_6, after_7, after_8]
  unfold Sn
  by_cases hp : t.val < 160
  · have h1 : k4_cond1 (grid4.coords t) = 1#1 := (cond1_iff t).mpr hp
    by_cases hz : condZ (grid4.coords t)
    · -- the first block: the scratch is zeroed, then takes the two column sums
      iintro ⟨⟨Hoth, ⟨%xs, -, Hs⟩⟩, Ho, H0, H1, H2, H3, H4, H5, H6, H7, H8⟩
      iapply ((runZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t)).2 Set.univ _)
      isplitl [H1]; · iexact H1
      isplitl [H2]; · iexact H2
      isplitl [Hs]; · iapply (owns_any d msc xs); iexact Hs
      iintro ⟨H1, H2, ⟨%f, Hs⟩⟩
      isplitl [Hoth Hs]
      · isplitl [Hoth]; · iexact Hoth
        iexists (scrAt V d (t.val + 1)); isplitr; · ipureintro; exact fun _ => rfl
        rw [scrAt_succ_Z V d t h1 hz]
        unfold stepZ
        rw [← View.read_writes_of_cover (v := msc.view) (f := f) msc.view (hsc.unread (k4_pay1 (F := F))) _
          (coverZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t))]
        iapply (owns_of d msc _); iexact Hs
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      isplitl [H4]; · iexists _; isplitr; · ipureintro; rfl
                      iexact H4
      isplitl [H5]; · iexists _; isplitr; · ipureintro; rfl
                      iexact H5
      isplitl [H6]; · iexists _; isplitr; · ipureintro; rfl
                      iexact H6
      isplitl [H7]; · iexists _; isplitr; · ipureintro; rfl
                      iexact H7
      iexists (Y 8); isplitr; · ipureintro; exact fun h => absurd h (not3_of_1 t h1)
      iexact H8
    · -- a later block of phase 0: the two column sums are added into the half's rows
      have hne : t.val ≠ 0 := fun e => hz ((condZ_iff t).mpr (by rw [e]))
      iintro ⟨⟨Hoth, ⟨%xs, %hxs, Hs⟩⟩, Ho, H0, H1, H2, H3, H4, H5, H6, H7, H8⟩
      obtain rfl := hxs hne
      iapply ((runA d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t) (scrAt V d t.val)).2 Set.univ _)
      isplitl [H1]; · iexact H1
      isplitl [H2]; · iexact H2
      isplitl [Hs]; · iexact Hs
      iintro ⟨H1, H2, Hs⟩
      isplitl [Hoth Hs]
      · isplitl [Hoth]; · iexact Hoth
        iexists (scrAt V d (t.val + 1)); isplitr; · ipureintro; exact fun _ => rfl
        rw [scrAt_succ_A V d t h1 hz]
        unfold stepA
        iapply (owns_of d msc _); iexact Hs
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      isplitl [H4]; · iexists _; isplitr; · ipureintro; rfl
                      iexact H4
      isplitl [H5]; · iexists _; isplitr; · ipureintro; rfl
                      iexact H5
      isplitl [H6]; · iexists _; isplitr; · ipureintro; rfl
                      iexact H6
      isplitl [H7]; · iexists _; isplitr; · ipureintro; rfl
                      iexact H7
      iexists (Y 8); isplitr; · ipureintro; exact fun h => absurd h (not3_of_1 t h1)
      iexact H8
  · -- phase 1: the result block is stored whole; the scratch is read only
    have h1 : ¬ k4_cond1 (grid4.coords t) = 1#1 := fun h => hp ((cond1_iff t).mp h)
    have h3 : k4_cond3 (grid4.coords t) = 1#1 := (cond3_iff t).mpr (by omega)
    have hne : t.val ≠ 0 := by omega
    have hres : resAt V d t = resOf (grid4.coords t) h3 (b0 V d t) (b1 V d t) (b2 V d t) (b3 V d t) (b4 V d t) (b5 V d t) (b6 V d t) (b7 V d t) (scrAt V d t.val) := by
      unfold resAt; rw [dif_pos h3]
    iintro ⟨⟨Hoth, ⟨%xs, %hxs, Hs⟩⟩, Ho, H0, H1, H2, H3, H4, H5, H6, H7, H8⟩
    obtain rfl := hxs hne
    iapply (runB d Set.univ (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 h3 (b0 V d t) (b1 V d t) (b2 V d t) (b3 V d t) (b4 V d t) (b5 V d t) (b6 V d t) (b7 V d t) (scrAt V d t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [Hs]; · iexact Hs
    iintro ⟨H0, H1, H2, H3, H4, H5, H6, H7, H8, Hs⟩
    isplitl [Hoth Hs]
    · isplitl [Hoth]; · iexact Hoth
      iexists (scrAt V d t.val); isplitr; · ipureintro; exact fun _ => (scrAt_succ_B V d t h1).symm
      iexact Hs
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; isplitr; · ipureintro; rfl
                    iexact H7
    iexists (resAt V d t); isplitr; · ipureintro; exact fun _ => rfl
    rw [hres]; iexact H8

end Body

/-! ## The region -/

section Region

variable [∀ e, Nonempty (Elt F e)]
variable (V : Valuation τ sig (Elt F)) (O : CellTallies nD τ sig (HIx 2)) (W : Waits sig (HIx 2))

/-- Proof data of a pipeline this region does not enter: never read. -/
def junk (cfg : Pipeline.Cfg sig Λ₀) (c : Dev nD) : RDat τ (Elt F) (HIx 2) ℕ UU ℕ cfg c where
  A _ := fun _ => Classical.arbitrary _
  after _ _ _ _ := True
  Φ _ := iprop(emp)
  q _ := fullShare
  owed _ := 0

/-- The proof data of the three pipelines: pipeline 2's is this region's. -/
def pd : (p : Fin 3) → (c : Dev nD) → RDat τ (Elt F) (HIx 2) ℕ UU ℕ (pcf (F := F) p) c
  | 0 => fun c => junk cfg0 c
  | 1 => fun c => junk cfg2 c
  | 2 => fun c => rd2 V O W c

/-- The result array after the run is the glued array: every block a phase-0 point wrote is written again by phase 1. -/
theorem final8 (c : Dev nD) : ∀ Fa, (rd2 V O W c).ArrAt 8 cfg4.N Fa → Fa = res2 V := by
  obtain rfl : c = 0 := Subsingleton.elim _ _
  exact R2E.arrAt_final (rd2 V O W 0) (res2 V) fun t ht Y X h => by
    rw [after_8] at h
    rw [h ((cond3_iff t).mpr ht)]
    exact R2E.glue_blk (resAt V 0) t ht

/-- The scratch held whole at some contents is owned through its whole memref, and back. -/
theorem scr_in (c : Dev nD) : (scrAny (F := F) c : sProp 𝕄) ⊢ Sn V c 0 := by
  unfold scrAny Sn owns
  rw [hsc.set_eq_univ]
  iintro ⟨%f, H⟩
  iexists (msc.view.read (Elt F) f); isplitr; · ipureintro; exact fun h => absurd rfl h
  iexists f; isplitr; · ipureintro; rfl
  iexact H
theorem scr_out (c : Dev nD) (n : ℕ) : (Sn V c n : sProp 𝕄) ⊢ scrAny (F := F) c := by
  unfold scrAny Sn owns
  rw [hsc.set_eq_univ]
  iintro ⟨%xs, -, ⟨%f, -, H⟩⟩
  iexists f; iexact H

/-- REGION 2: entered holding the TensorCore's unscoped buffers at V and the core's tallies; the eight arrays behind the
    nine windows go to the pipeline (the gathered rows at two half shares), every other buffer bypasses it; the scratch
    rides in the invariant; it leaves the result array at the glued phase-1 blocks. -/
def reg2 (hO : ∀ (g : GSem nD τ sig) (i : HIx 2), 0 < O g i → i ∈ (K (F := F)).L g ∧ 0 < (K (F := F)).lev g i) :
    Pipeline.RDat.RegionSeg (pcfgs (F := F)) adm (pd V O W) (none : HIx 2) defs₀ 𝒱₀ (K (F := F)).L (K (F := F)).lev 2 where
  win := winFacts₀4
  block_pos := block_pos4
  stage_whole := stage_whole4
  K := PEmpty
  osem k := k.elim
  ho := Pipeline.OwnSemFacts.none _
  hbody c := body2 V O W c
  hwaits c := Pipeline.RDat.cellsWaits_of_cut (cfgs := pcf (F := F)) (rdats := pd V O W) (ι := (none : HIx 2)) 2 c 0 O (fun _ => rfl)
    (fun _ _ => Finset.mem_univ _) (fun _ _ => le_rfl) hO
  pre c := iprop(StableHlo.held (c : Thread nD τ) (Pipeline.ucRefs τ sig) V ∗ owes (c : Thread nD τ) O W)
  post c := iprop(StableHlo.held (c : Thread nD τ) (Pipeline.ucRefs τ sig) (upd2 V)
    ∗ ∃ W', ⌜∀ p ∈ W', p ∈ W ∨ p.2 = none⌝ ∗ owes (c : Thread nD τ) O W')
  X _ := iprop(emp)
  Y _ := iprop(emp)
  Z c := StableHlo.held (c : Thread nD τ) (Pipeline.ucRefs τ sig \ R2E.T2) V
  hentry c := R2E.hentry_of V (rd2 V O W c) O W rfl (A_eq V O W c) rfl rfl
  hin c := by
    show iprop(emp ∗ _ ∗ Pipeline.scopedRest (Ix := HIx 2) (Name := ℕ) (U := UU) (Lvl := ℕ) (Val := Elt F) spec4 c)
      ⊢ iprop(chain14 c iprop(emp) ∗ Sn V c 0)
    rw [scopedRest_chain]
    iintro ⟨-, -, H⟩
    icases (chain14_split c (scrAny c)) $$ H with ⟨Hoth, Hs⟩
    isplitl [Hoth]; · iexact Hoth
    iapply (scr_in V c); iexact Hs
  hout c := by
    rw [Pipeline.ownSems0_none]
    show iprop(chain14 c iprop(emp) ∗ Sn V c (Fin.last cfg4.N).val)
      ⊢ iprop(emp ∗ emp ∗ Pipeline.scopedRest (Ix := HIx 2) (Name := ℕ) (U := UU) (Lvl := ℕ) (Val := Elt F) spec4 c)
    rw [scopedRest_chain]
    iintro ⟨Hoth, Hs⟩
    isplitr; · iempintro
    isplitr; · iempintro
    iapply (chain14_join c (scrAny c))
    isplitl [Hoth]; · iexact Hoth
    iapply (scr_out V c _); iexact Hs
  hexit c := R2E.hexit_of V (rd2 V O W c) O W rfl (A_eq V O W c) rfl rfl (res2 V) (final8 V O W c)

end Region

end R2

section Region2

/-- REGION 2 of @main on device d: from the region boundary, the TensorCore's unscoped buffers at V, the core's tallies, the
    level facts and pipeline 2's ghost state, the custom call runs to the boundary, the buffers at V with the result array
    main_v31 at the glued phase-1 blocks, and the tallies unchanged, for the continuation. -/
theorem region2 [∀ e, Nonempty (Elt F e)] (d : Dev nD) (V : Valuation τ sig (Elt F)) (O : CellTallies nD τ sig (HIx 2)) (W : Waits sig (HIx 2))
    (hO : ∀ (g : GSem nD τ sig) (i : HIx 2), 0 < O g i → i ∈ (K (F := F)).L g ∧ 0 < (K (F := F)).lev g i)
    {α : Type} (k : PUnit → Prog (TpuEff nD τ sig (Elt F) (ΛP (F := F)) .tc) α) (Q : α → sProp 𝕄) :
    iprop((iprop(boundary (SparseCore.T d) ∗ StableHlo.held (SparseCore.T d) (Pipeline.ucRefs τ sig) (upd2 V)
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ StableHlo.held (SparseCore.T d) (Pipeline.ucRefs τ sig) V ∗ owes (SparseCore.T d) O W
        ∗ levAts (K (F := F)).L (K (F := F)).lev
        ∗ Pipeline.cellsGhost (pcf (F := F)) EP 2 d ∗ Pipeline.toksInit (pcf (F := F)) EP 2 d)
      ⊢ wp frame (wpE (D (F := F)) 𝒱 (SparseCore.T d) none) Set.univ (.op (.customCall (Pipeline.entry 2) ()) k) Q := by
  have h := Pipeline.RDat.RegionSeg.wp (pcfgs (F := F)) adm (R2.pd V O W) (none : HIx 2) pcf_inj EP defs₀ 𝒱₀ (K (F := F)).L (K (F := F)).lev
    (R2.reg2 V O W hO) d none (fun u hu => nomatch hu) k Q
  dsimp only [R2.reg2] at h
  iintro ⟨Hk, Hb, Hh, HO, Hl, Hg, Ht⟩
  iapply h
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region2

end Cert.KernelIdeal.Hand

end
-- ==== Proof.ScTile0Inv.lean ====
/-
  One tile of gather call 0: which windows it owns and which branches of the kernel's body it takes (in closed
  form), the result's windows as the parts of a cut of its rows, runs of windows taken six at a time, and the
  invariant of the kernel's loop: per slot of the six-slot ring, the index copy and the write-out outstanding at
  the head of a trip, with what they will deliver; the windows still to write and those written.
-/
import proofs.«208461_g52518860095779_cont_9to1_m_1075_29_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- A window number as an index of the 2500 windows (capped: every window met is below 2500). -/
def fw (w : ℕ) : Fin 2500 := ⟨min w 2499, by omega⟩
theorem fw_val {w : ℕ} (h : w < 2500) : (fw w).val = w := by show min w 2499 = w; omega

abbrev cV (L : grid1.Coords) : Fin τ.nSC := (L 0).castLE hcore1
abbrev jV (L : grid1.Coords) : Fin τ.nSub := (L 1).castLE hsub1

abbrev tW : Memref sig .scVector .hbm S20000x128 .f32 := Memref.whole main_v1_scv
abbrev iW : Memref sig .scVector .hbm S320000 .i32 := Memref.whole main_v8_scv
abbrev oW : Memref sig .scVector .hbm S320000x128 .f32 := Memref.whole main_v9_scv
abbrev sI : Memref sig .scVector .vmem S6x128 .i32 := Memref.whole cc1_scratch0
abbrev sR : Memref sig .scVector .vmem S6x128x128 .f32 := Memref.whole cc1_scratch1

/-- Word r of the index list (capped: every word met is below 320000). -/
def ixAt (ix : Ix0 (F := F)) (r : ℕ) : Elt F .i32 := ix (ValueIdx.ix1 (⟨min r 319999, by omega⟩ : Fin 320000))

/-! ## The tile's windows and the branch conditions -/

/-- How many windows tile L owns, -/
def nW (L : grid1.Coords) : ℕ := 78 + (if 2 * (L 1).val + (L 0).val < 4 then 1 else 0)
/-- and the first of them. -/
def loL (L : grid1.Coords) : ℕ := lo0 (2 * (L 1).val + (L 0).val)

theorem nW_ge (L : grid1.Coords) : 78 ≤ nW L := by unfold nW; omega
theorem nW_le (L : grid1.Coords) : nW L ≤ 79 := by unfold nW; split <;> omega
theorem loL_hi (L : grid1.Coords) : loL L + nW L ≤ 2500 := by
  have h0 : (L 0).val < 2 := (L 0).isLt
  have h1 : (L 1).val < 16 := (L 1).isLt
  unfold loL nW lo0; split <;> omega

theorem cond1_true : ∀ L : grid1.Coords, k1_cond1 L = 1#1 := by decide +kernel
theorem cond2_true : ∀ L : grid1.Coords, k1_cond2 L = 1#1 := by decide +kernel
theorem cond3_true : ∀ L : grid1.Coords, k1_cond3 L = 1#1 := by decide +kernel
theorem cond4_true : ∀ L : grid1.Coords, k1_cond4 L = 1#1 := by decide +kernel
theorem cond5_true : ∀ L : grid1.Coords, k1_cond5 L = 1#1 := by decide +kernel
theorem cond6_true : ∀ L : grid1.Coords, k1_cond6 L = 1#1 := by decide +kernel
theorem cond7_iff : ∀ (L : grid1.Coords) (t : Fin k1_t1_loop.trips), k1_cond7 L t = 1#1 ↔ 6 * t.val + 0 < nW L := by decide +kernel
theorem cond9_iff : ∀ (L : grid1.Coords) (t : Fin k1_t1_loop.trips), k1_cond9 L t = 1#1 ↔ 6 * t.val + 1 < nW L := by decide +kernel
theorem cond11_iff : ∀ (L : grid1.Coords) (t : Fin k1_t1_loop.trips), k1_cond11 L t = 1#1 ↔ 6 * t.val + 2 < nW L := by decide +kernel
theorem cond13_iff : ∀ (L : grid1.Coords) (t : Fin k1_t1_loop.trips), k1_cond13 L t = 1#1 ↔ 6 * t.val + 3 < nW L := by decide +kernel
theorem cond15_iff : ∀ (L : grid1.Coords) (t : Fin k1_t1_loop.trips), k1_cond15 L t = 1#1 ↔ 6 * t.val + 4 < nW L := by decide +kernel
theorem cond17_iff : ∀ (L : grid1.Coords) (t : Fin k1_t1_loop.trips), k1_cond17 L t = 1#1 ↔ 6 * t.val + 5 < nW L := by decide +kernel
theorem cond8_iff : ∀ (t : Fin k1_t1_loop.trips), k1_cond8 t = 1#1 ↔ 0 < t.val := by decide +kernel
theorem cond10_iff : ∀ (t : Fin k1_t1_loop.trips), k1_cond10 t = 1#1 ↔ 0 < t.val := by decide +kernel
theorem cond12_iff : ∀ (t : Fin k1_t1_loop.trips), k1_cond12 t = 1#1 ↔ 0 < t.val := by decide +kernel
theorem cond14_iff : ∀ (t : Fin k1_t1_loop.trips), k1_cond14 t = 1#1 ↔ 0 < t.val := by decide +kernel
theorem cond16_iff : ∀ (t : Fin k1_t1_loop.trips), k1_cond16 t = 1#1 ↔ 0 < t.val := by decide +kernel
theorem cond18_iff : ∀ (t : Fin k1_t1_loop.trips), k1_cond18 t = 1#1 ↔ 0 < t.val := by decide +kernel
theorem cond19_iff : ∀ (L : grid1.Coords) (t : Fin k1_t1_loop.trips), k1_cond19 L t = 1#1 ↔ 6 * t.val + 0 < nW L := by decide +kernel
theorem cond21_iff : ∀ (L : grid1.Coords) (t : Fin k1_t1_loop.trips), k1_cond21 L t = 1#1 ↔ 6 * t.val + 1 < nW L := by decide +kernel
theorem cond23_iff : ∀ (L : grid1.Coords) (t : Fin k1_t1_loop.trips), k1_cond23 L t = 1#1 ↔ 6 * t.val + 2 < nW L := by decide +kernel
theorem cond25_iff : ∀ (L : grid1.Coords) (t : Fin k1_t1_loop.trips), k1_cond25 L t = 1#1 ↔ 6 * t.val + 3 < nW L := by decide +kernel
theorem cond27_iff : ∀ (L : grid1.Coords) (t : Fin k1_t1_loop.trips), k1_cond27 L t = 1#1 ↔ 6 * t.val + 4 < nW L := by decide +kernel
theorem cond29_iff : ∀ (L : grid1.Coords) (t : Fin k1_t1_loop.trips), k1_cond29 L t = 1#1 ↔ 6 * t.val + 5 < nW L := by decide +kernel
theorem cond20_iff : ∀ (L : grid1.Coords) (t : Fin k1_t1_loop.trips), k1_cond20 L t = 1#1 ↔ 6 * t.val + 6 < nW L := by decide +kernel
theorem cond22_iff : ∀ (L : grid1.Coords) (t : Fin k1_t1_loop.trips), k1_cond22 L t = 1#1 ↔ 6 * t.val + 7 < nW L := by decide +kernel
theorem cond24_iff : ∀ (L : grid1.Coords) (t : Fin k1_t1_loop.trips), k1_cond24 L t = 1#1 ↔ 6 * t.val + 8 < nW L := by decide +kernel
theorem cond26_iff : ∀ (L : grid1.Coords) (t : Fin k1_t1_loop.trips), k1_cond26 L t = 1#1 ↔ 6 * t.val + 9 < nW L := by decide +kernel
theorem cond28_iff : ∀ (L : grid1.Coords) (t : Fin k1_t1_loop.trips), k1_cond28 L t = 1#1 ↔ 6 * t.val + 10 < nW L := by decide +kernel
theorem cond30_iff : ∀ (L : grid1.Coords) (t : Fin k1_t1_loop.trips), k1_cond30 L t = 1#1 ↔ 6 * t.val + 11 < nW L := by decide +kernel
theorem trips_eq : k1_t1_loop.trips = 14 := by decide

/-- The printed slice of the result at row offset 128 w is window w. -/
theorem oRect_eq (w : Fin 2500) (off : Fin 2 → ℕ) (h : ∀ a, off a + S128x128.size a ≤ S320000x128.size a) (e : off = ![128 * w.val, 0]) :
    Rect.unit (s := S320000x128) off S128x128.size h = oWin0 w := by
  subst e
  unfold oWin0 Rect.part Rect.block
  congr 1 <;> funext a
  · match a with
    | 0 => simp [Shape.partIx, Shape.partSize, S320000x128, Nat.mul_comm]
    | 1 => simp [Shape.partIx, Shape.partSize, S320000x128]
  · match a with
    | 0 => simp [Shape.partSize, S320000x128, S128x128]
    | 1 => simp [Shape.partSize, S320000x128, S128x128]

/-! ## Runs of windows: the first six set apart, one more joined at the end -/

section Pools
omit [FloatOps F] in
theorem head_fw (Φ : Fin 2500 → sProp 𝕄) (a h : ℕ) (h1 : a < h) (h2 : a < 2500) :
    bigSep (Ring.rangeSet 2500 a h) Φ = iprop(Φ (fw a) ∗ bigSep (Ring.rangeSet 2500 (a + 1) h) Φ) := by
  rw [Ring.bigSep_rangeSet_head h1 h2, show (⟨a, h2⟩ : Fin 2500) = fw a from Fin.ext (fw_val h2).symm]
omit [FloatOps F] in
theorem last_fw (Φ : Fin 2500 → sProp 𝕄) (a h : ℕ) (h1 : a ≤ h) (h2 : h < 2500) :
    bigSep (Ring.rangeSet 2500 a (h + 1)) Φ = iprop(Φ (fw h) ∗ bigSep (Ring.rangeSet 2500 a h) Φ) := by
  rw [Ring.bigSep_rangeSet_last (by omega : a < h + 1) (by omega : h + 1 ≤ 2500)]
  simp only [Nat.add_sub_cancel]
  rw [show (⟨h, by omega⟩ : Fin 2500) = fw h from Fin.ext (fw_val h2).symm]
omit [FloatOps F] in
theorem take6 (Φ : Fin 2500 → sProp 𝕄) (a h : ℕ) (h1 : a + 6 ≤ h) (h2 : h ≤ 2500) :
    bigSep (Ring.rangeSet 2500 a h) Φ = iprop(Φ (fw a) ∗ Φ (fw (a + 1)) ∗ Φ (fw (a + 2)) ∗ Φ (fw (a + 3)) ∗ Φ (fw (a + 4)) ∗ Φ (fw (a + 5))
      ∗ bigSep (Ring.rangeSet 2500 (a + 6) h) Φ) := by
  rw [head_fw Φ a h (by omega) (by omega), head_fw Φ (a + 1) h (by omega) (by omega), head_fw Φ (a + 2) h (by omega) (by omega),
    head_fw Φ (a + 3) h (by omega) (by omega), head_fw Φ (a + 4) h (by omega) (by omega), head_fw Φ (a + 5) h (by omega) (by omega)]
omit [FloatOps F] in
theorem put6 (Φ : Fin 2500 → sProp 𝕄) (a h : ℕ) (h1 : a ≤ h) (h2 : h + 6 ≤ 2500) :
    bigSep (Ring.rangeSet 2500 a (h + 6)) Φ = iprop(Φ (fw (h + 5)) ∗ Φ (fw (h + 4)) ∗ Φ (fw (h + 3)) ∗ Φ (fw (h + 2)) ∗ Φ (fw (h + 1)) ∗ Φ (fw h)
      ∗ bigSep (Ring.rangeSet 2500 a h) Φ) := by
  rw [last_fw Φ a (h + 5) (by omega) (by omega), last_fw Φ a (h + 4) (by omega) (by omega), last_fw Φ a (h + 3) (by omega) (by omega),
    last_fw Φ a (h + 2) (by omega) (by omega), last_fw Φ a (h + 1) (by omega) (by omega), last_fw Φ a h (by omega) (by omega)]
end Pools

/-! ## One tile: the loop's invariant -/

section Tile
variable (d : Dev nD) (L : grid1.Coords)
/-- The window whose write-out is outstanding on slot b at the head of trip t > 0, counted from the tile's first. -/
def wOut (n b t : ℕ) : ℕ := if 6 * (t - 1) + b < n then 6 * (t - 1) + b else 6 * (t - 2) + b
/-- How many of the tile's windows are written and waited for at the head of trip t. -/
def dn (n t : ℕ) : ℕ := if t = 14 then (if n = 79 then 73 else 72) else 6 * t - 6

/-- Slot 0, index side, a copy outstanding: the slot will hold window w of the list; the list's read token lent. -/
def idxFly0 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![0] S1.size inb_S6_S1_0)).squeeze S_ squeezes_S1_S_).sem) (default : HIx 2) 4096
        iprop(((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} ci) ∗ ((iW).view.loc (V d (cV L) (jV L)) ↦[I]{Transfers.shareTokN qi 4} ix))
    ∗ ((iW).view.loc (V d (cV L) (jV L)) ↦[Finset.univ \ I]{Transfers.shareTokN qi 4} ix))
/-- Slot 0, index side, nothing outstanding. -/
def idxIdle0 (qi : PosShare TreeShare) (ix : Ix0 (F := F)) : sProp 𝕄 :=
  iprop(semVal ((V d (cV L) (jV L)), SemLoc.dma ((cc1_scratch2.slice (Rect.unit (s := S6) ![0] S1.size inb_S6_S1_0)).squeeze S_ squeezes_S1_S_).sem) 0 ∗ (∃ ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} ci)
    ∗ ((iW).view.loc (V d (cV L) (jV L)) ↦{Transfers.shareTokN qi 4} ix))
def idxSide0 (qi : PosShare TreeShare) (ix : Ix0 (F := F)) (t : ℕ) : sProp 𝕄 :=
  if 6 * t + 0 < nW L then idxFly0 d L qi ix (loL L + 6 * t + 0) else idxIdle0 d L qi ix
theorem idxSide0_pos (qi : PosShare TreeShare) (ix : Ix0 (F := F)) (t : ℕ) (h : 6 * t + 0 < nW L) :
    idxSide0 d L qi ix t = idxFly0 d L qi ix (loL L + 6 * t + 0) := if_pos h
theorem idxSide0_neg (qi : PosShare TreeShare) (ix : Ix0 (F := F)) (t : ℕ) (h : ¬ 6 * t + 0 < nW L) :
    idxSide0 d L qi ix t = idxIdle0 d L qi ix := if_neg h
/-- Slot 0, rows side, a write-out outstanding: result window w at the gathered rows, and the slot's rows back. -/
def rowFly0 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![0] S1.size inb_S6_S1_0)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)))
def rowIdle0 : sProp 𝕄 :=
  iprop(semVal ((V d (cV L) (jV L)), SemLoc.dma ((cc1_scratch4.slice (Rect.unit (s := S6) ![0] S1.size inb_S6_S1_0)).squeeze S_ squeezes_S1_S_).sem) 0 ∗ ∃ gr : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)
def rowSide0 (tb : Tab (F := F)) (ix : Ix0 (F := F)) (t : ℕ) : sProp 𝕄 :=
  if t = 0 then rowIdle0 d L else rowFly0 d L tb ix (loL L + wOut (nW L) 0 t)
theorem rowSide0_zero (tb : Tab (F := F)) (ix : Ix0 (F := F)) (t : ℕ) (h : t = 0) : rowSide0 d L tb ix t = rowIdle0 d L := if_pos h
theorem rowSide0_pos (tb : Tab (F := F)) (ix : Ix0 (F := F)) (t : ℕ) (h : t ≠ 0) :
    rowSide0 d L tb ix t = rowFly0 d L tb ix (loL L + wOut (nW L) 0 t) := if_neg h

/-- Slot 1, index side, a copy outstanding: the slot will hold window w of the list; the list's read token lent. -/
def idxFly1 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![1] S1.size inb_S6_S1_1)).squeeze S_ squeezes_S1_S_).sem) (default : HIx 2) 4096
        iprop(((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} ci) ∗ ((iW).view.loc (V d (cV L) (jV L)) ↦[I]{Transfers.shareTokN qi 5} ix))
    ∗ ((iW).view.loc (V d (cV L) (jV L)) ↦[Finset.univ \ I]{Transfers.shareTokN qi 5} ix))
/-- Slot 1, index side, nothing outstanding. -/
def idxIdle1 (qi : PosShare TreeShare) (ix : Ix0 (F := F)) : sProp 𝕄 :=
  iprop(semVal ((V d (cV L) (jV L)), SemLoc.dma ((cc1_scratch2.slice (Rect.unit (s := S6) ![1] S1.size inb_S6_S1_1)).squeeze S_ squeezes_S1_S_).sem) 0 ∗ (∃ ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} ci)
    ∗ ((iW).view.loc (V d (cV L) (jV L)) ↦{Transfers.shareTokN qi 5} ix))
def idxSide1 (qi : PosShare TreeShare) (ix : Ix0 (F := F)) (t : ℕ) : sProp 𝕄 :=
  if 6 * t + 1 < nW L then idxFly1 d L qi ix (loL L + 6 * t + 1) else idxIdle1 d L qi ix
theorem idxSide1_pos (qi : PosShare TreeShare) (ix : Ix0 (F := F)) (t : ℕ) (h : 6 * t + 1 < nW L) :
    idxSide1 d L qi ix t = idxFly1 d L qi ix (loL L + 6 * t + 1) := if_pos h
theorem idxSide1_neg (qi : PosShare TreeShare) (ix : Ix0 (F := F)) (t : ℕ) (h : ¬ 6 * t + 1 < nW L) :
    idxSide1 d L qi ix t = idxIdle1 d L qi ix := if_neg h
/-- Slot 1, rows side, a write-out outstanding: result window w at the gathered rows, and the slot's rows back. -/
def rowFly1 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![1] S1.size inb_S6_S1_1)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)))
def rowIdle1 : sProp 𝕄 :=
  iprop(semVal ((V d (cV L) (jV L)), SemLoc.dma ((cc1_scratch4.slice (Rect.unit (s := S6) ![1] S1.size inb_S6_S1_1)).squeeze S_ squeezes_S1_S_).sem) 0 ∗ ∃ gr : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)
def rowSide1 (tb : Tab (F := F)) (ix : Ix0 (F := F)) (t : ℕ) : sProp 𝕄 :=
  if t = 0 then rowIdle1 d L else rowFly1 d L tb ix (loL L + wOut (nW L) 1 t)
theorem rowSide1_zero (tb : Tab (F := F)) (ix : Ix0 (F := F)) (t : ℕ) (h : t = 0) : rowSide1 d L tb ix t = rowIdle1 d L := if_pos h
theorem rowSide1_pos (tb : Tab (F := F)) (ix : Ix0 (F := F)) (t : ℕ) (h : t ≠ 0) :
    rowSide1 d L tb ix t = rowFly1 d L tb ix (loL L + wOut (nW L) 1 t) := if_neg h

/-- Slot 2, index side, a copy outstanding: the slot will hold window w of the list; the list's read token lent. -/
def idxFly2 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![2] S1.size inb_S6_S1_2)).squeeze S_ squeezes_S1_S_).sem) (default : HIx 2) 4096
        iprop(((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} ci) ∗ ((iW).view.loc (V d (cV L) (jV L)) ↦[I]{Transfers.shareTokN qi 6} ix))
    ∗ ((iW).view.loc (V d (cV L) (jV L)) ↦[Finset.univ \ I]{Transfers.shareTokN qi 6} ix))
/-- Slot 2, index side, nothing outstanding. -/
def idxIdle2 (qi : PosShare TreeShare) (ix : Ix0 (F := F)) : sProp 𝕄 :=
  iprop(semVal ((V d (cV L) (jV L)), SemLoc.dma ((cc1_scratch2.slice (Rect.unit (s := S6) ![2] S1.size inb_S6_S1_2)).squeeze S_ squeezes_S1_S_).sem) 0 ∗ (∃ ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} ci)
    ∗ ((iW).view.loc (V d (cV L) (jV L)) ↦{Transfers.shareTokN qi 6} ix))
def idxSide2 (qi : PosShare TreeShare) (ix : Ix0 (F := F)) (t : ℕ) : sProp 𝕄 :=
  if 6 * t + 2 < nW L then idxFly2 d L qi ix (loL L + 6 * t + 2) else idxIdle2 d L qi ix
theorem idxSide2_pos (qi : PosShare TreeShare) (ix : Ix0 (F := F)) (t : ℕ) (h : 6 * t + 2 < nW L) :
    idxSide2 d L qi ix t = idxFly2 d L qi ix (loL L + 6 * t + 2) := if_pos h
theorem idxSide2_neg (qi : PosShare TreeShare) (ix : Ix0 (F := F)) (t : ℕ) (h : ¬ 6 * t + 2 < nW L) :
    idxSide2 d L qi ix t = idxIdle2 d L qi ix := if_neg h
/-- Slot 2, rows side, a write-out outstanding: result window w at the gathered rows, and the slot's rows back. -/
def rowFly2 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![2] S1.size inb_S6_S1_2)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)))
def rowIdle2 : sProp 𝕄 :=
  iprop(semVal ((V d (cV L) (jV L)), SemLoc.dma ((cc1_scratch4.slice (Rect.unit (s := S6) ![2] S1.size inb_S6_S1_2)).squeeze S_ squeezes_S1_S_).sem) 0 ∗ ∃ gr : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)
def rowSide2 (tb : Tab (F := F)) (ix : Ix0 (F := F)) (t : ℕ) : sProp 𝕄 :=
  if t = 0 then rowIdle2 d L else rowFly2 d L tb ix (loL L + wOut (nW L) 2 t)
theorem rowSide2_zero (tb : Tab (F := F)) (ix : Ix0 (F := F)) (t : ℕ) (h : t = 0) : rowSide2 d L tb ix t = rowIdle2 d L := if_pos h
theorem rowSide2_pos (tb : Tab (F := F)) (ix : Ix0 (F := F)) (t : ℕ) (h : t ≠ 0) :
    rowSide2 d L tb ix t = rowFly2 d L tb ix (loL L + wOut (nW L) 2 t) := if_neg h

/-- Slot 3, index side, a copy outstanding: the slot will hold window w of the list; the list's read token lent. -/
def idxFly3 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![3] S1.size inb_S6_S1_3)).squeeze S_ squeezes_S1_S_).sem) (default : HIx 2) 4096
        iprop(((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} ci) ∗ ((iW).view.loc (V d (cV L) (jV L)) ↦[I]{Transfers.shareTokN qi 7} ix))
    ∗ ((iW).view.loc (V d (cV L) (jV L)) ↦[Finset.univ \ I]{Transfers.shareTokN qi 7} ix))
/-- Slot 3, index side, nothing outstanding. -/
def idxIdle3 (qi : PosShare TreeShare) (ix : Ix0 (F := F)) : sProp 𝕄 :=
  iprop(semVal ((V d (cV L) (jV L)), SemLoc.dma ((cc1_scratch2.slice (Rect.unit (s := S6) ![3] S1.size inb_S6_S1_3)).squeeze S_ squeezes_S1_S_).sem) 0 ∗ (∃ ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} ci)
    ∗ ((iW).view.loc (V d (cV L) (jV L)) ↦{Transfers.shareTokN qi 7} ix))
def idxSide3 (qi : PosShare TreeShare) (ix : Ix0 (F := F)) (t : ℕ) : sProp 𝕄 :=
  if 6 * t + 3 < nW L then idxFly3 d L qi ix (loL L + 6 * t + 3) else idxIdle3 d L qi ix
theorem idxSide3_pos (qi : PosShare TreeShare) (ix : Ix0 (F := F)) (t : ℕ) (h : 6 * t + 3 < nW L) :
    idxSide3 d L qi ix t = idxFly3 d L qi ix (loL L + 6 * t + 3) := if_pos h
theorem idxSide3_neg (qi : PosShare TreeShare) (ix : Ix0 (F := F)) (t : ℕ) (h : ¬ 6 * t + 3 < nW L) :
    idxSide3 d L qi ix t = idxIdle3 d L qi ix := if_neg h
/-- Slot 3, rows side, a write-out outstanding: result window w at the gathered rows, and the slot's rows back. -/
def rowFly3 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![3] S1.size inb_S6_S1_3)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)))
def rowIdle3 : sProp 𝕄 :=
  iprop(semVal ((V d (cV L) (jV L)), SemLoc.dma ((cc1_scratch4.slice (Rect.unit (s := S6) ![3] S1.size inb_S6_S1_3)).squeeze S_ squeezes_S1_S_).sem) 0 ∗ ∃ gr : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)
def rowSide3 (tb : Tab (F := F)) (ix : Ix0 (F := F)) (t : ℕ) : sProp 𝕄 :=
  if t = 0 then rowIdle3 d L else rowFly3 d L tb ix (loL L + wOut (nW L) 3 t)
theorem rowSide3_zero (tb : Tab (F := F)) (ix : Ix0 (F := F)) (t : ℕ) (h : t = 0) : rowSide3 d L tb ix t = rowIdle3 d L := if_pos h
theorem rowSide3_pos (tb : Tab (F := F)) (ix : Ix0 (F := F)) (t : ℕ) (h : t ≠ 0) :
    rowSide3 d L tb ix t = rowFly3 d L tb ix (loL L + wOut (nW L) 3 t) := if_neg h

/-- Slot 4, index side, a copy outstanding: the slot will hold window w of the list; the list's read token lent. -/
def idxFly4 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![4] S1.size inb_S6_S1_4)).squeeze S_ squeezes_S1_S_).sem) (default : HIx 2) 4096
        iprop(((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} ci) ∗ ((iW).view.loc (V d (cV L) (jV L)) ↦[I]{Transfers.shareTokN qi 8} ix))
    ∗ ((iW).view.loc (V d (cV L) (jV L)) ↦[Finset.univ \ I]{Transfers.shareTokN qi 8} ix))
/-- Slot 4, index side, nothing outstanding. -/
def idxIdle4 (qi : PosShare TreeShare) (ix : Ix0 (F := F)) : sProp 𝕄 :=
  iprop(semVal ((V d (cV L) (jV L)), SemLoc.dma ((cc1_scratch2.slice (Rect.unit (s := S6) ![4] S1.size inb_S6_S1_4)).squeeze S_ squeezes_S1_S_).sem) 0 ∗ (∃ ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} ci)
    ∗ ((iW).view.loc (V d (cV L) (jV L)) ↦{Transfers.shareTokN qi 8} ix))
def idxSide4 (qi : PosShare TreeShare) (ix : Ix0 (F := F)) (t : ℕ) : sProp 𝕄 :=
  if 6 * t + 4 < nW L then idxFly4 d L qi ix (loL L + 6 * t + 4) else idxIdle4 d L qi ix
theorem idxSide4_pos (qi : PosShare TreeShare) (ix : Ix0 (F := F)) (t : ℕ) (h : 6 * t + 4 < nW L) :
    idxSide4 d L qi ix t = idxFly4 d L qi ix (loL L + 6 * t + 4) := if_pos h
theorem idxSide4_neg (qi : PosShare TreeShare) (ix : Ix0 (F := F)) (t : ℕ) (h : ¬ 6 * t + 4 < nW L) :
    idxSide4 d L qi ix t = idxIdle4 d L qi ix := if_neg h
/-- Slot 4, rows side, a write-out outstanding: result window w at the gathered rows, and the slot's rows back. -/
def rowFly4 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![4] S1.size inb_S6_S1_4)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)))
def rowIdle4 : sProp 𝕄 :=
  iprop(semVal ((V d (cV L) (jV L)), SemLoc.dma ((cc1_scratch4.slice (Rect.unit (s := S6) ![4] S1.size inb_S6_S1_4)).squeeze S_ squeezes_S1_S_).sem) 0 ∗ ∃ gr : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)
def rowSide4 (tb : Tab (F := F)) (ix : Ix0 (F := F)) (t : ℕ) : sProp 𝕄 :=
  if t = 0 then rowIdle4 d L else rowFly4 d L tb ix (loL L + wOut (nW L) 4 t)
theorem rowSide4_zero (tb : Tab (F := F)) (ix : Ix0 (F := F)) (t : ℕ) (h : t = 0) : rowSide4 d L tb ix t = rowIdle4 d L := if_pos h
theorem rowSide4_pos (tb : Tab (F := F)) (ix : Ix0 (F := F)) (t : ℕ) (h : t ≠ 0) :
    rowSide4 d L tb ix t = rowFly4 d L tb ix (loL L + wOut (nW L) 4 t) := if_neg h

/-- Slot 5, index side, a copy outstanding: the slot will hold window w of the list; the list's read token lent. -/
def idxFly5 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![5] S1.size inb_S6_S1_5)).squeeze S_ squeezes_S1_S_).sem) (default : HIx 2) 4096
        iprop(((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} ci) ∗ ((iW).view.loc (V d (cV L) (jV L)) ↦[I]{Transfers.shareTokN qi 9} ix))
    ∗ ((iW).view.loc (V d (cV L) (jV L)) ↦[Finset.univ \ I]{Transfers.shareTokN qi 9} ix))
/-- Slot 5, index side, nothing outstanding. -/
def idxIdle5 (qi : PosShare TreeShare) (ix : Ix0 (F := F)) : sProp 𝕄 :=
  iprop(semVal ((V d (cV L) (jV L)), SemLoc.dma ((cc1_scratch2.slice (Rect.unit (s := S6) ![5] S1.size inb_S6_S1_5)).squeeze S_ squeezes_S1_S_).sem) 0 ∗ (∃ ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} ci)
    ∗ ((iW).view.loc (V d (cV L) (jV L)) ↦{Transfers.shareTokN qi 9} ix))
def idxSide5 (qi : PosShare TreeShare) (ix : Ix0 (F := F)) (t : ℕ) : sProp 𝕄 :=
  if 6 * t + 5 < nW L then idxFly5 d L qi ix (loL L + 6 * t + 5) else idxIdle5 d L qi ix
theorem idxSide5_pos (qi : PosShare TreeShare) (ix : Ix0 (F := F)) (t : ℕ) (h : 6 * t + 5 < nW L) :
    idxSide5 d L qi ix t = idxFly5 d L qi ix (loL L + 6 * t + 5) := if_pos h
theorem idxSide5_neg (qi : PosShare TreeShare) (ix : Ix0 (F := F)) (t : ℕ) (h : ¬ 6 * t + 5 < nW L) :
    idxSide5 d L qi ix t = idxIdle5 d L qi ix := if_neg h
/-- Slot 5, rows side, a write-out outstanding: result window w at the gathered rows, and the slot's rows back. -/
def rowFly5 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![5] S1.size inb_S6_S1_5)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)))
def rowIdle5 : sProp 𝕄 :=
  iprop(semVal ((V d (cV L) (jV L)), SemLoc.dma ((cc1_scratch4.slice (Rect.unit (s := S6) ![5] S1.size inb_S6_S1_5)).squeeze S_ squeezes_S1_S_).sem) 0 ∗ ∃ gr : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)
def rowSide5 (tb : Tab (F := F)) (ix : Ix0 (F := F)) (t : ℕ) : sProp 𝕄 :=
  if t = 0 then rowIdle5 d L else rowFly5 d L tb ix (loL L + wOut (nW L) 5 t)
theorem rowSide5_zero (tb : Tab (F := F)) (ix : Ix0 (F := F)) (t : ℕ) (h : t = 0) : rowSide5 d L tb ix t = rowIdle5 d L := if_pos h
theorem rowSide5_pos (tb : Tab (F := F)) (ix : Ix0 (F := F)) (t : ℕ) (h : t ≠ 0) :
    rowSide5 d L tb ix t = rowFly5 d L tb ix (loL L + wOut (nW L) 5 t) := if_neg h

/-- The tile's result windows not yet written out, at what the array held before, -/
def todoP (f0 : Out0 (F := F)) (t : ℕ) : sProp 𝕄 :=
  bigSep (Ring.rangeSet 2500 (loL L + 6 * t) (loL L + nW L)) fun w => oLoc0 d ↦[oSet0 w]{fullShare} f0
/-- and those written and waited for, at the gathered rows. -/
def doneP (tb : Tab (F := F)) (ix : Ix0 (F := F)) (t : ℕ) : sProp 𝕄 :=
  bigSep (Ring.rangeSet 2500 (loL L) (loL L + dn (nW L) t)) fun w => oLoc0 d ↦[oSet0 w]{fullShare} gath0 tb ix

/-- The loop's invariant at the head of trip t. -/
def inv (qi qt : PosShare TreeShare) (tb : Tab (F := F)) (ix : Ix0 (F := F)) (f0 : Out0 (F := F))
    (O : CellTallies nD τ sig (HIx 2)) (W : Waits sig (HIx 2)) (t : ℕ) (_ : Unit) : sProp 𝕄 :=
  iprop((Transfers.MayWaits (V d (cV L) (jV L)) (none : HIx 2) O : sProp 𝕄)
    ∗ ((tW).view.loc (V d (cV L) (jV L)) ↦{Transfers.shareTokN qt 10} tb)
    ∗ ((tW).view.loc (V d (cV L) (jV L)) ↦{Transfers.shareTokN qt 11} tb)
    ∗ ((tW).view.loc (V d (cV L) (jV L)) ↦{Transfers.shareTokN qt 12} tb)
    ∗ ((tW).view.loc (V d (cV L) (jV L)) ↦{Transfers.shareTokN qt 13} tb)
    ∗ ((tW).view.loc (V d (cV L) (jV L)) ↦{Transfers.shareTokN qt 14} tb)
    ∗ ((tW).view.loc (V d (cV L) (jV L)) ↦{Transfers.shareTokN qt 15} tb)
    ∗ semVal ((V d (cV L) (jV L)), SemLoc.dma ((cc1_scratch3.slice (Rect.unit (s := S6) ![0] S1.size inb_S6_S1_0)).squeeze S_ squeezes_S1_S_).sem) 0
    ∗ semVal ((V d (cV L) (jV L)), SemLoc.dma ((cc1_scratch3.slice (Rect.unit (s := S6) ![1] S1.size inb_S6_S1_1)).squeeze S_ squeezes_S1_S_).sem) 0
    ∗ semVal ((V d (cV L) (jV L)), SemLoc.dma ((cc1_scratch3.slice (Rect.unit (s := S6) ![2] S1.size inb_S6_S1_2)).squeeze S_ squeezes_S1_S_).sem) 0
    ∗ semVal ((V d (cV L) (jV L)), SemLoc.dma ((cc1_scratch3.slice (Rect.unit (s := S6) ![3] S1.size inb_S6_S1_3)).squeeze S_ squeezes_S1_S_).sem) 0
    ∗ semVal ((V d (cV L) (jV L)), SemLoc.dma ((cc1_scratch3.slice (Rect.unit (s := S6) ![4] S1.size inb_S6_S1_4)).squeeze S_ squeezes_S1_S_).sem) 0
    ∗ semVal ((V d (cV L) (jV L)), SemLoc.dma ((cc1_scratch3.slice (Rect.unit (s := S6) ![5] S1.size inb_S6_S1_5)).squeeze S_ squeezes_S1_S_).sem) 0
    ∗ idxSide0 d L qi ix t ∗ idxSide1 d L qi ix t ∗ idxSide2 d L qi ix t ∗ idxSide3 d L qi ix t ∗ idxSide4 d L qi ix t ∗ idxSide5 d L qi ix t
    ∗ rowSide0 d L tb ix t ∗ rowSide1 d L tb ix t ∗ rowSide2 d L tb ix t ∗ rowSide3 d L tb ix t ∗ rowSide4 d L tb ix t ∗ rowSide5 d L tb ix t
    ∗ todoP d L f0 t ∗ doneP d L tb ix t
    ∗ ∃ W', ⌜∀ p ∈ W', p ∈ W ∨ p.2 = none⌝ ∗ owes (V d (cV L) (jV L)) O W')

/-! ## The printed slices of the result are the tile's windows -/

theorem offWO0_eq (t : Fin k1_t1_loop.trips) : k1_off20 L t = ![128 * (loL L + 6 * t.val), 0] := by
  rw [k1_off20_eq]; unfold loL lo0; congr 1; omega
theorem opiece0_eq (t : Fin k1_t1_loop.trips) (hB0 : k1_cond19 L t = 1#1) (f : Out0 (F := F)) :
    ((oW.slice (Rect.unit (s := S320000x128) (k1_off20 L t) S128x128.size (k1_off20_inb L t hB0)) (fun _ => rfl)).view.loc (V d (cV L) (jV L)) ↦[(oW.slice (Rect.unit (s := S320000x128) (k1_off20 L t) S128x128.size (k1_off20_inb L t hB0)) (fun _ => rfl)).view.set]{fullShare} f : sProp 𝕄)
      = (oLoc0 d ↦[oSet0 (fw (loL L + 6 * t.val))]{fullShare} f) := by
  have hb := (cond19_iff L t).mp hB0
  have hh := loL_hi L
  have e : Rect.unit (s := S320000x128) (k1_off20 L t) S128x128.size (k1_off20_inb L t hB0) = oWin0 (fw (loL L + 6 * t.val)) :=
    oRect_eq _ _ _ (by rw [offWO0_eq, fw_val (by omega)])
  show (oLoc0 d ↦[((oW).view.slice (Rect.unit (s := S320000x128) (k1_off20 L t) S128x128.size (k1_off20_inb L t hB0))).set]{fullShare} f : sProp 𝕄) = _
  rw [e]

theorem offWO1_eq (t : Fin k1_t1_loop.trips) : k1_off22 L t = ![128 * (loL L + 6 * t.val + 1), 0] := by
  rw [k1_off22_eq]; unfold loL lo0; congr 1; omega
theorem opiece1_eq (t : Fin k1_t1_loop.trips) (hB1 : k1_cond21 L t = 1#1) (f : Out0 (F := F)) :
    ((oW.slice (Rect.unit (s := S320000x128) (k1_off22 L t) S128x128.size (k1_off22_inb L t hB1)) (fun _ => rfl)).view.loc (V d (cV L) (jV L)) ↦[(oW.slice (Rect.unit (s := S320000x128) (k1_off22 L t) S128x128.size (k1_off22_inb L t hB1)) (fun _ => rfl)).view.set]{fullShare} f : sProp 𝕄)
      = (oLoc0 d ↦[oSet0 (fw (loL L + 6 * t.val + 1))]{fullShare} f) := by
  have hb := (cond21_iff L t).mp hB1
  have hh := loL_hi L
  have e : Rect.unit (s := S320000x128) (k1_off22 L t) S128x128.size (k1_off22_inb L t hB1) = oWin0 (fw (loL L + 6 * t.val + 1)) :=
    oRect_eq _ _ _ (by rw [offWO1_eq, fw_val (by omega)])
  show (oLoc0 d ↦[((oW).view.slice (Rect.unit (s := S320000x128) (k1_off22 L t) S128x128.size (k1_off22_inb L t hB1))).set]{fullShare} f : sProp 𝕄) = _
  rw [e]

theorem offWO2_eq (t : Fin k1_t1_loop.trips) : k1_off24 L t = ![128 * (loL L + 6 * t.val + 2), 0] := by
  rw [k1_off24_eq]; unfold loL lo0; congr 1; omega
theorem opiece2_eq (t : Fin k1_t1_loop.trips) (hB2 : k1_cond23 L t = 1#1) (f : Out0 (F := F)) :
    ((oW.slice (Rect.unit (s := S320000x128) (k1_off24 L t) S128x128.size (k1_off24_inb L t hB2)) (fun _ => rfl)).view.loc (V d (cV L) (jV L)) ↦[(oW.slice (Rect.unit (s := S320000x128) (k1_off24 L t) S128x128.size (k1_off24_inb L t hB2)) (fun _ => rfl)).view.set]{fullShare} f : sProp 𝕄)
      = (oLoc0 d ↦[oSet0 (fw (loL L + 6 * t.val + 2))]{fullShare} f) := by
  have hb := (cond23_iff L t).mp hB2
  have hh := loL_hi L
  have e : Rect.unit (s := S320000x128) (k1_off24 L t) S128x128.size (k1_off24_inb L t hB2) = oWin0 (fw (loL L + 6 * t.val + 2)) :=
    oRect_eq _ _ _ (by rw [offWO2_eq, fw_val (by omega)])
  show (oLoc0 d ↦[((oW).view.slice (Rect.unit (s := S320000x128) (k1_off24 L t) S128x128.size (k1_off24_inb L t hB2))).set]{fullShare} f : sProp 𝕄) = _
  rw [e]

theorem offWO3_eq (t : Fin k1_t1_loop.trips) : k1_off26 L t = ![128 * (loL L + 6 * t.val + 3), 0] := by
  rw [k1_off26_eq]; unfold loL lo0; congr 1; omega
theorem opiece3_eq (t : Fin k1_t1_loop.trips) (hB3 : k1_cond25 L t = 1#1) (f : Out0 (F := F)) :
    ((oW.slice (Rect.unit (s := S320000x128) (k1_off26 L t) S128x128.size (k1_off26_inb L t hB3)) (fun _ => rfl)).view.loc (V d (cV L) (jV L)) ↦[(oW.slice (Rect.unit (s := S320000x128) (k1_off26 L t) S128x128.size (k1_off26_inb L t hB3)) (fun _ => rfl)).view.set]{fullShare} f : sProp 𝕄)
      = (oLoc0 d ↦[oSet0 (fw (loL L + 6 * t.val + 3))]{fullShare} f) := by
  have hb := (cond25_iff L t).mp hB3
  have hh := loL_hi L
  have e : Rect.unit (s := S320000x128) (k1_off26 L t) S128x128.size (k1_off26_inb L t hB3) = oWin0 (fw (loL L + 6 * t.val + 3)) :=
    oRect_eq _ _ _ (by rw [offWO3_eq, fw_val (by omega)])
  show (oLoc0 d ↦[((oW).view.slice (Rect.unit (s := S320000x128) (k1_off26 L t) S128x128.size (k1_off26_inb L t hB3))).set]{fullShare} f : sProp 𝕄) = _
  rw [e]

theorem offWO4_eq (t : Fin k1_t1_loop.trips) : k1_off28 L t = ![128 * (loL L + 6 * t.val + 4), 0] := by
  rw [k1_off28_eq]; unfold loL lo0; congr 1; omega
theorem opiece4_eq (t : Fin k1_t1_loop.trips) (hB4 : k1_cond27 L t = 1#1) (f : Out0 (F := F)) :
    ((oW.slice (Rect.unit (s := S320000x128) (k1_off28 L t) S128x128.size (k1_off28_inb L t hB4)) (fun _ => rfl)).view.loc (V d (cV L) (jV L)) ↦[(oW.slice (Rect.unit (s := S320000x128) (k1_off28 L t) S128x128.size (k1_off28_inb L t hB4)) (fun _ => rfl)).view.set]{fullShare} f : sProp 𝕄)
      = (oLoc0 d ↦[oSet0 (fw (loL L + 6 * t.val + 4))]{fullShare} f) := by
  have hb := (cond27_iff L t).mp hB4
  have hh := loL_hi L
  have e : Rect.unit (s := S320000x128) (k1_off28 L t) S128x128.size (k1_off28_inb L t hB4) = oWin0 (fw (loL L + 6 * t.val + 4)) :=
    oRect_eq _ _ _ (by rw [offWO4_eq, fw_val (by omega)])
  show (oLoc0 d ↦[((oW).view.slice (Rect.unit (s := S320000x128) (k1_off28 L t) S128x128.size (k1_off28_inb L t hB4))).set]{fullShare} f : sProp 𝕄) = _
  rw [e]

theorem offWO5_eq (t : Fin k1_t1_loop.trips) : k1_off30 L t = ![128 * (loL L + 6 * t.val + 5), 0] := by
  rw [k1_off30_eq]; unfold loL lo0; congr 1; omega
theorem opiece5_eq (t : Fin k1_t1_loop.trips) (hB5 : k1_cond29 L t = 1#1) (f : Out0 (F := F)) :
    ((oW.slice (Rect.unit (s := S320000x128) (k1_off30 L t) S128x128.size (k1_off30_inb L t hB5)) (fun _ => rfl)).view.loc (V d (cV L) (jV L)) ↦[(oW.slice (Rect.unit (s := S320000x128) (k1_off30 L t) S128x128.size (k1_off30_inb L t hB5)) (fun _ => rfl)).view.set]{fullShare} f : sProp 𝕄)
      = (oLoc0 d ↦[oSet0 (fw (loL L + 6 * t.val + 5))]{fullShare} f) := by
  have hb := (cond29_iff L t).mp hB5
  have hh := loL_hi L
  have e : Rect.unit (s := S320000x128) (k1_off30 L t) S128x128.size (k1_off30_inb L t hB5) = oWin0 (fw (loL L + 6 * t.val + 5)) :=
    oRect_eq _ _ _ (by rw [offWO5_eq, fw_val (by omega)])
  show (oLoc0 d ↦[((oW).view.slice (Rect.unit (s := S320000x128) (k1_off30 L t) S128x128.size (k1_off30_inb L t hB5))).set]{fullShare} f : sProp 𝕄) = _
  rw [e]

/-- The windows of one trip set apart from those still to write, in the program's spelling. -/
theorem todo_take (f0 : Out0 (F := F)) (t : Fin k1_t1_loop.trips) (hB0 : k1_cond19 L t = 1#1) (hB1 : k1_cond21 L t = 1#1) (hB2 : k1_cond23 L t = 1#1) (hB3 : k1_cond25 L t = 1#1) (hB4 : k1_cond27 L t = 1#1) (hB5 : k1_cond29 L t = 1#1) :
    todoP d L f0 t.val = iprop(((oW.slice (Rect.unit (s := S320000x128) (k1_off20 L t) S128x128.size (k1_off20_inb L t hB0)) (fun _ => rfl)).view.loc (V d (cV L) (jV L)) ↦[(oW.slice (Rect.unit (s := S320000x128) (k1_off20 L t) S128x128.size (k1_off20_inb L t hB0)) (fun _ => rfl)).view.set]{fullShare} f0)
      ∗ ((oW.slice (Rect.unit (s := S320000x128) (k1_off22 L t) S128x128.size (k1_off22_inb L t hB1)) (fun _ => rfl)).view.loc (V d (cV L) (jV L)) ↦[(oW.slice (Rect.unit (s := S320000x128) (k1_off22 L t) S128x128.size (k1_off22_inb L t hB1)) (fun _ => rfl)).view.set]{fullShare} f0)
      ∗ ((oW.slice (Rect.unit (s := S320000x128) (k1_off24 L t) S128x128.size (k1_off24_inb L t hB2)) (fun _ => rfl)).view.loc (V d (cV L) (jV L)) ↦[(oW.slice (Rect.unit (s := S320000x128) (k1_off24 L t) S128x128.size (k1_off24_inb L t hB2)) (fun _ => rfl)).view.set]{fullShare} f0)
      ∗ ((oW.slice (Rect.unit (s := S320000x128) (k1_off26 L t) S128x128.size (k1_off26_inb L t hB3)) (fun _ => rfl)).view.loc (V d (cV L) (jV L)) ↦[(oW.slice (Rect.unit (s := S320000x128) (k1_off26 L t) S128x128.size (k1_off26_inb L t hB3)) (fun _ => rfl)).view.set]{fullShare} f0)
      ∗ ((oW.slice (Rect.unit (s := S320000x128) (k1_off28 L t) S128x128.size (k1_off28_inb L t hB4)) (fun _ => rfl)).view.loc (V d (cV L) (jV L)) ↦[(oW.slice (Rect.unit (s := S320000x128) (k1_off28 L t) S128x128.size (k1_off28_inb L t hB4)) (fun _ => rfl)).view.set]{fullShare} f0)
      ∗ ((oW.slice (Rect.unit (s := S320000x128) (k1_off30 L t) S128x128.size (k1_off30_inb L t hB5)) (fun _ => rfl)).view.loc (V d (cV L) (jV L)) ↦[(oW.slice (Rect.unit (s := S320000x128) (k1_off30 L t) S128x128.size (k1_off30_inb L t hB5)) (fun _ => rfl)).view.set]{fullShare} f0)
      ∗ todoP d L f0 (t.val + 1)) := by
  have hb := (cond29_iff L t).mp hB5
  delta todoP
  rw [take6 _ (loL L + 6 * t.val) (loL L + nW L) (by omega) (loL_hi L), show loL L + 6 * (t.val + 1) = loL L + 6 * t.val + 6 by omega,
    opiece0_eq d L t hB0 f0, opiece1_eq d L t hB1 f0, opiece2_eq d L t hB2 f0, opiece3_eq d L t hB3 f0, opiece4_eq d L t hB4 f0, opiece5_eq d L t hB5 f0]

theorem wpos_mid (b t : ℕ) (h : 6 * (t - 1) + b < nW L) : loL L + wOut (nW L) b t = loL L + 6 * (t - 1) + b := by
  unfold wOut; rw [if_pos h]; omega
theorem wpos_succ (b t : ℕ) (h : 6 * t + b < nW L) : loL L + wOut (nW L) b (t + 1) = loL L + 6 * t + b := by
  unfold wOut; rw [if_pos (by simpa using h)]; simp only [Nat.add_sub_cancel]; omega
theorem dn_mid (n t : ℕ) (h : t ≠ 14) : dn n t = 6 * t - 6 := if_neg h

/-- The six windows waited for in trip t join those done. -/
theorem done_step (tb : Tab (F := F)) (ix : Ix0 (F := F)) (t : ℕ) (h1 : 1 ≤ t) (h2 : t ≤ 12) :
    doneP d L tb ix (t + 1) = iprop((oLoc0 d ↦[oSet0 (fw (loL L + 6 * (t - 1) + 5))]{fullShare} gath0 tb ix)
      ∗ (oLoc0 d ↦[oSet0 (fw (loL L + 6 * (t - 1) + 4))]{fullShare} gath0 tb ix)
      ∗ (oLoc0 d ↦[oSet0 (fw (loL L + 6 * (t - 1) + 3))]{fullShare} gath0 tb ix)
      ∗ (oLoc0 d ↦[oSet0 (fw (loL L + 6 * (t - 1) + 2))]{fullShare} gath0 tb ix)
      ∗ (oLoc0 d ↦[oSet0 (fw (loL L + 6 * (t - 1) + 1))]{fullShare} gath0 tb ix)
      ∗ (oLoc0 d ↦[oSet0 (fw (loL L + 6 * (t - 1)))]{fullShare} gath0 tb ix)
      ∗ doneP d L tb ix t) := by
  have hh := loL_hi L
  have hn := nW_ge L
  delta doneP
  rw [dn_mid _ _ (by omega), dn_mid _ _ (by omega), show loL L + (6 * (t + 1) - 6) = (loL L + (6 * t - 6)) + 6 by omega,
    put6 _ (loL L) (loL L + (6 * t - 6)) (by omega) (by omega)]
  have e : 6 * t - 6 = 6 * (t - 1) := by omega
  simp only [e]

/-! ## What an index copy delivers -/
theorem offNI0_eq (t : Fin k1_t1_loop.trips) : k1_off19 L t = ![128 * (loL L + 6 * (t.val + 1))] := by
  rw [k1_off19_eq]; unfold loL lo0; congr 1; omega
theorem offNI1_eq (t : Fin k1_t1_loop.trips) : k1_off21 L t = ![128 * (loL L + 6 * (t.val + 1) + 1)] := by
  rw [k1_off21_eq]; unfold loL lo0; congr 1; omega
theorem offNI2_eq (t : Fin k1_t1_loop.trips) : k1_off23 L t = ![128 * (loL L + 6 * (t.val + 1) + 2)] := by
  rw [k1_off23_eq]; unfold loL lo0; congr 1; omega
theorem offNI3_eq (t : Fin k1_t1_loop.trips) : k1_off25 L t = ![128 * (loL L + 6 * (t.val + 1) + 3)] := by
  rw [k1_off25_eq]; unfold loL lo0; congr 1; omega
theorem offNI4_eq (t : Fin k1_t1_loop.trips) : k1_off27 L t = ![128 * (loL L + 6 * (t.val + 1) + 4)] := by
  rw [k1_off27_eq]; unfold loL lo0; congr 1; omega
theorem offNI5_eq (t : Fin k1_t1_loop.trips) : k1_off29 L t = ![128 * (loL L + 6 * (t.val + 1) + 5)] := by
  rw [k1_off29_eq]; unfold loL lo0; congr 1; omega

/-- Slot 0 after the index copy of window w landed reads window w of the list. -/
theorem idxval0 (ix : Ix0 (F := F)) (ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![0, 0] S1x128.size inb_S6x128_S1x128_0_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 1 after the index copy of window w landed reads window w of the list. -/
theorem idxval1 (ix : Ix0 (F := F)) (ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![1, 0] S1x128.size inb_S6x128_S1x128_1_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 2 after the index copy of window w landed reads window w of the list. -/
theorem idxval2 (ix : Ix0 (F := F)) (ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![2, 0] S1x128.size inb_S6x128_S1x128_2_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 3 after the index copy of window w landed reads window w of the list. -/
theorem idxval3 (ix : Ix0 (F := F)) (ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![3, 0] S1x128.size inb_S6x128_S1x128_3_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 4 after the index copy of window w landed reads window w of the list. -/
theorem idxval4 (ix : Ix0 (F := F)) (ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![4, 0] S1x128.size inb_S6x128_S1x128_4_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 5 after the index copy of window w landed reads window w of the list. -/
theorem idxval5 (ix : Ix0 (F := F)) (ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![5, 0] S1x128.size inb_S6x128_S1x128_5_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

end Tile

end Cert.KernelIdeal.Hand

end
-- ==== Proof.ScTile0Vals.lean ====
/-
  What each of the six ring slots' write-out lands in the result of gather call 0: with the slot's index list holding window w
  of the list (every word a row of the table), and its rows the gather of those rows, the 128 × 128 block written at row
  offset 128 w is, at every index of window w, the gathered array: row r of the result is row idx[r] of the table.
-/
import proofs.«208461_g52518860095779_cont_9to1_m_1075_29_alg».proof.Proof.ScTile0Inv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Gen
variable (d : Dev nD) (L : grid1.Coords)

/-- Entry k of a 128-word list, as the row it names: the word at the index whose one coordinate is k. -/
theorem outval_rows (idx : S128.Idx → Elt F .i32) (hn : S128.numel = 128) (hh : ∀ x, (idx x).toNat < 20000) (k : Fin 128) :
    ∃ x : S128.Idx, (x 0).val = k.val ∧ (SparseCore.rows idx hn hh k).val = (idx x).toNat := by
  refine ⟨S128.rowMajor.symm (k.cast hn.symm), ?_, rfl⟩
  have := Shape.rowMajor_val_one (S128.rowMajor.symm (k.cast hn.symm))
  rw [Equiv.apply_symm_apply] at this
  exact this.symm

/-- What a slot's write-out of window w lands in the result is the gathered rows of window w, for any slot: its rows hold,
    at (r, c), row idx[128 w + r] of the table at column c, its index list holding window w of the list. -/
theorem outval_gen (mI : Memref sig .scVector .vmem S128 .i32) (mR : Memref sig .scVector .vmem S128x128 .f32)
    (tb : Tab (F := F)) (ix : Ix0 (F := F)) (f0 : Out0 (F := F))
    (ci : Buf (Elt F) (mI.view.loc (V d (cV L) (jV L)))) (gr : Buf (Elt F) (mR.view.loc (V d (cV L) (jV L)))) (w : ℕ) (hw : w < 2500)
    (hci : ∀ x : S128.Idx, mI.view.read (Elt F) ci x = ixAt ix (128 * w + (x 0).val))
    (hin : ∀ x, (mI.view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) mR.view (mR.view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) mI.view ci) rfl hin)⟩]))⟩] j
        = gath0 tb ix j := by
  intro j hj
  have hR : Rect.unit (s := S320000x128) off S128x128.size h = oWin0 (fw w) := oRect_eq (fw w) off h (by rw [fw_val hw]; exact e)
  subst e
  have h0 : 128 * w + 128 ≤ 320000 := h 0
  change j ∈ (oW.view.slice (oWin0 (fw w))).set at hj
  rw [← hR] at hj
  obtain ⟨y, -, rfl⟩ := Finset.mem_map.mp hj
  have key : ∀ P : (Rect.whole (Rect.unit (s := S320000x128) ![128 * w, 0] S128x128.size h).shape).shape.Idx → Elt F .f32,
      (oW.slice (Rect.unit (s := S320000x128) ![128 * w, 0] S128x128.size h) (fun _ => rfl)).view.writes (Elt F) f0
        [⟨Rect.whole (Rect.unit (s := S320000x128) ![128 * w, 0] S128x128.size h).shape, P⟩]
        ((oW.view.slice (Rect.unit (s := S320000x128) ![128 * w, 0] S128x128.size h)).emb y) = P y := fun P => by
    have h1 := View.read_writes_cons_emb (oW.slice (Rect.unit (s := S320000x128) ![128 * w, 0] S128x128.size h) (fun _ => rfl)).view f0
      (Rect.whole (Rect.unit (s := S320000x128) ![128 * w, 0] S128x128.size h).shape) P [] y
    rw [Rect.emb_whole_apply] at h1
    exact h1
  rw [key, ReadAs.apply_same]
  have key2 : ∀ GP : S128x128.Idx → Elt F .f32,
      View.read (Elt F) mR.view (mR.view.writes (Elt F) gr [⟨Rect.whole S128x128, GP⟩]) y = GP y := fun GP => by
    have h2 := View.read_writes_cons_emb mR.view gr (Rect.whole S128x128) GP [] y
    rw [Rect.emb_whole_apply] at h2
    exact h2
  rw [key2]
  unfold SparseCore.gatherPayload gath0
  show tb ((Rect.unit (s := S20000x128) ![0, 0] S20000x128.size inb_S20000x128_S20000x128_0_0).emb _) = tb _
  congr 1
  funext a
  apply Fin.ext
  have hy0 : (y 0).val < 128 := (y 0).isLt
  match a with
  | ⟨0, _⟩ =>
    rw [Rect.emb_apply]
    obtain ⟨x, hx0, hxv⟩ := outval_rows (View.read (Elt F) mI.view ci) rfl hin (y 0)
    have e0 := Shape.Gathers.idx_axis gathers_S20000x128_S128x128 (SparseCore.rows (View.read (Elt F) mI.view ci) rfl hin) y
    have hj0 : (((oW.view.slice (Rect.unit (s := S320000x128) ![128 * w, 0] S128x128.size h)).emb y) 0).val = 128 * w + 1 * (y 0).val := rfl
    have hix : ixAt ix (128 * w + (x 0).val)
        = ix (ValueIdx.ix1 (((oW.view.slice (Rect.unit (s := S320000x128) ![128 * w, 0] S128x128.size h)).emb y) 0)) := by
      unfold ixAt
      congr 2
      apply Fin.ext
      show min (128 * w + (x 0).val) 319999 = _
      rw [hj0, hx0]; omega
    have hlt := hin x
    rw [hci x, hix] at hlt hxv
    refine (congrArg (fun z : Fin (S20000x128.size gathers_S20000x128_S128x128.axis) => 0 + 1 * z.val) e0).trans ?_
    show 0 + 1 * (SparseCore.rows (View.read (Elt F) mI.view ci) rfl hin (y 0)).val
      = min (ix (ValueIdx.ix1 (((oW.view.slice (Rect.unit (s := S320000x128) ![128 * w, 0] S128x128.size h)).emb y) 0))).toNat 19999
    exact (congrArg (fun n => 0 + 1 * n) hxv).trans (by omega)
  | ⟨1, _⟩ =>
    rw [Rect.emb_apply]
    have e1 := Shape.Gathers.idx_of_ne gathers_S20000x128_S128x128 (SparseCore.rows (View.read (Elt F) mI.view ci) rfl hin) y ⟨1, by decide⟩ (by decide)
    exact congrArg (fun n => 0 + 1 * n) e1

/-- What slot 0's write-out of window w lands in the result is the gathered rows of window w: the slot's rows hold,
    at (r, c), row idx[128 w + r] of the table at column c, the slot's index list holding window w of the list. -/
theorem outval0 (tb : Tab (F := F)) (ix : Ix0 (F := F)) (f0 : Out0 (F := F)) (ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![0, 0] S1x128.size inb_S6x128_S1x128_0_0) (fun _ => rfl)).squeeze S128 squeezes_S1x128_S128).view ci) rfl hin)⟩]))⟩] j
        = gath0 tb ix j := by
  exact outval_gen d L _ _ tb ix f0 ci gr w hw hci hin off h e

/-- What slot 1's write-out of window w lands in the result is the gathered rows of window w: the slot's rows hold,
    at (r, c), row idx[128 w + r] of the table at column c, the slot's index list holding window w of the list. -/
theorem outval1 (tb : Tab (F := F)) (ix : Ix0 (F := F)) (f0 : Out0 (F := F)) (ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![1, 0] S1x128.size inb_S6x128_S1x128_1_0) (fun _ => rfl)).squeeze S128 squeezes_S1x128_S128).view ci) rfl hin)⟩]))⟩] j
        = gath0 tb ix j := by
  exact outval_gen d L _ _ tb ix f0 ci gr w hw hci hin off h e

/-- What slot 2's write-out of window w lands in the result is the gathered rows of window w: the slot's rows hold,
    at (r, c), row idx[128 w + r] of the table at column c, the slot's index list holding window w of the list. -/
theorem outval2 (tb : Tab (F := F)) (ix : Ix0 (F := F)) (f0 : Out0 (F := F)) (ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![2, 0] S1x128.size inb_S6x128_S1x128_2_0) (fun _ => rfl)).squeeze S128 squeezes_S1x128_S128).view ci) rfl hin)⟩]))⟩] j
        = gath0 tb ix j := by
  exact outval_gen d L _ _ tb ix f0 ci gr w hw hci hin off h e

/-- What slot 3's write-out of window w lands in the result is the gathered rows of window w: the slot's rows hold,
    at (r, c), row idx[128 w + r] of the table at column c, the slot's index list holding window w of the list. -/
theorem outval3 (tb : Tab (F := F)) (ix : Ix0 (F := F)) (f0 : Out0 (F := F)) (ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![3, 0] S1x128.size inb_S6x128_S1x128_3_0) (fun _ => rfl)).squeeze S128 squeezes_S1x128_S128).view ci) rfl hin)⟩]))⟩] j
        = gath0 tb ix j := by
  exact outval_gen d L _ _ tb ix f0 ci gr w hw hci hin off h e

/-- What slot 4's write-out of window w lands in the result is the gathered rows of window w: the slot's rows hold,
    at (r, c), row idx[128 w + r] of the table at column c, the slot's index list holding window w of the list. -/
theorem outval4 (tb : Tab (F := F)) (ix : Ix0 (F := F)) (f0 : Out0 (F := F)) (ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![4, 0] S1x128.size inb_S6x128_S1x128_4_0) (fun _ => rfl)).squeeze S128 squeezes_S1x128_S128).view ci) rfl hin)⟩]))⟩] j
        = gath0 tb ix j := by
  exact outval_gen d L _ _ tb ix f0 ci gr w hw hci hin off h e

/-- What slot 5's write-out of window w lands in the result is the gathered rows of window w: the slot's rows hold,
    at (r, c), row idx[128 w + r] of the table at column c, the slot's index list holding window w of the list. -/
theorem outval5 (tb : Tab (F := F)) (ix : Ix0 (F := F)) (f0 : Out0 (F := F)) (ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![5, 0] S1x128.size inb_S6x128_S1x128_5_0) (fun _ => rfl)).squeeze S128 squeezes_S1x128_S128).view ci) rfl hin)⟩]))⟩] j
        = gath0 tb ix j := by
  exact outval_gen d L _ _ tb ix f0 ci gr w hw hci hin off h e

end Gen

end Cert.KernelIdeal.Hand
end
-- ==== Proof.ScTile0RunDefs.lean ====
/-
  What one tile's run of gather call 0 starts from and ends in, stated once for the run's proof and for the
  obligation that wraps it: the evidence for the tile's waits, its read shares of table and index list, its result
  windows, its two scratch buffers slot by slot, its eighteen semaphores.
-/
import proofs.«208461_g52518860095779_cont_9to1_m_1075_29_alg».proof.Proof.ScTile0Inv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid1.Coords)

/-- What the run starts from: the evidence for its waits, its read shares of table and list, its windows at what
    the result held, the two scratch buffers slot by slot at whatever they hold, the eighteen semaphores at zero. -/
def preRun (q : PosShare TreeShare) (tb : Tab (F := F)) (ix : Ix0 (F := F)) (f0 : Out0 (F := F))
    (O : CellTallies nD τ sig (HIx 2)) (W : Waits sig (HIx 2)) : sProp 𝕄 :=
  iprop((Transfers.MayWaits (V d (cV L) (jV L)) (none : HIx 2) O : sProp 𝕄)
    ∗ ((tW).view.loc (V d (cV L) (jV L)) ↦{q} tb) ∗ ((iW).view.loc (V d (cV L) (jV L)) ↦{q} ix)
    ∗ todoP d L f0 0
    ∗ (∃ g : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc1_scratch2.slice (Rect.unit (s := S6) ![0] S1.size inb_S6_S1_0)).squeeze S_ squeezes_S1_S_).sem) 0 ∗ semVal ((V d (cV L) (jV L)), SemLoc.dma ((cc1_scratch2.slice (Rect.unit (s := S6) ![1] S1.size inb_S6_S1_1)).squeeze S_ squeezes_S1_S_).sem) 0 ∗ semVal ((V d (cV L) (jV L)), SemLoc.dma ((cc1_scratch2.slice (Rect.unit (s := S6) ![2] S1.size inb_S6_S1_2)).squeeze S_ squeezes_S1_S_).sem) 0 ∗ semVal ((V d (cV L) (jV L)), SemLoc.dma ((cc1_scratch2.slice (Rect.unit (s := S6) ![3] S1.size inb_S6_S1_3)).squeeze S_ squeezes_S1_S_).sem) 0 ∗ semVal ((V d (cV L) (jV L)), SemLoc.dma ((cc1_scratch2.slice (Rect.unit (s := S6) ![4] S1.size inb_S6_S1_4)).squeeze S_ squeezes_S1_S_).sem) 0 ∗ semVal ((V d (cV L) (jV L)), SemLoc.dma ((cc1_scratch2.slice (Rect.unit (s := S6) ![5] S1.size inb_S6_S1_5)).squeeze S_ squeezes_S1_S_).sem) 0
    ∗ semVal ((V d (cV L) (jV L)), SemLoc.dma ((cc1_scratch3.slice (Rect.unit (s := S6) ![0] S1.size inb_S6_S1_0)).squeeze S_ squeezes_S1_S_).sem) 0 ∗ semVal ((V d (cV L) (jV L)), SemLoc.dma ((cc1_scratch3.slice (Rect.unit (s := S6) ![1] S1.size inb_S6_S1_1)).squeeze S_ squeezes_S1_S_).sem) 0 ∗ semVal ((V d (cV L) (jV L)), SemLoc.dma ((cc1_scratch3.slice (Rect.unit (s := S6) ![2] S1.size inb_S6_S1_2)).squeeze S_ squeezes_S1_S_).sem) 0 ∗ semVal ((V d (cV L) (jV L)), SemLoc.dma ((cc1_scratch3.slice (Rect.unit (s := S6) ![3] S1.size inb_S6_S1_3)).squeeze S_ squeezes_S1_S_).sem) 0 ∗ semVal ((V d (cV L) (jV L)), SemLoc.dma ((cc1_scratch3.slice (Rect.unit (s := S6) ![4] S1.size inb_S6_S1_4)).squeeze S_ squeezes_S1_S_).sem) 0 ∗ semVal ((V d (cV L) (jV L)), SemLoc.dma ((cc1_scratch3.slice (Rect.unit (s := S6) ![5] S1.size inb_S6_S1_5)).squeeze S_ squeezes_S1_S_).sem) 0
    ∗ semVal ((V d (cV L) (jV L)), SemLoc.dma ((cc1_scratch4.slice (Rect.unit (s := S6) ![0] S1.size inb_S6_S1_0)).squeeze S_ squeezes_S1_S_).sem) 0 ∗ semVal ((V d (cV L) (jV L)), SemLoc.dma ((cc1_scratch4.slice (Rect.unit (s := S6) ![1] S1.size inb_S6_S1_1)).squeeze S_ squeezes_S1_S_).sem) 0 ∗ semVal ((V d (cV L) (jV L)), SemLoc.dma ((cc1_scratch4.slice (Rect.unit (s := S6) ![2] S1.size inb_S6_S1_2)).squeeze S_ squeezes_S1_S_).sem) 0 ∗ semVal ((V d (cV L) (jV L)), SemLoc.dma ((cc1_scratch4.slice (Rect.unit (s := S6) ![3] S1.size inb_S6_S1_3)).squeeze S_ squeezes_S1_S_).sem) 0 ∗ semVal ((V d (cV L) (jV L)), SemLoc.dma ((cc1_scratch4.slice (Rect.unit (s := S6) ![4] S1.size inb_S6_S1_4)).squeeze S_ squeezes_S1_S_).sem) 0 ∗ semVal ((V d (cV L) (jV L)), SemLoc.dma ((cc1_scratch4.slice (Rect.unit (s := S6) ![5] S1.size inb_S6_S1_5)).squeeze S_ squeezes_S1_S_).sem) 0
    ∗ owes (V d (cV L) (jV L)) O W)
/-- What it ends in: the same, the windows at the gathered rows. -/
def postRun (q : PosShare TreeShare) (tb : Tab (F := F)) (ix : Ix0 (F := F))
    (O : CellTallies nD τ sig (HIx 2)) (W : Waits sig (HIx 2)) : sProp 𝕄 :=
  iprop(((tW).view.loc (V d (cV L) (jV L)) ↦{q} tb) ∗ ((iW).view.loc (V d (cV L) (jV L)) ↦{q} ix)
    ∗ (bigSep (Ring.rangeSet 2500 (loL L) (loL L + nW L)) fun w => oLoc0 d ↦[oSet0 w]{fullShare} gath0 tb ix)
    ∗ (∃ g : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc1_scratch2.slice (Rect.unit (s := S6) ![0] S1.size inb_S6_S1_0)).squeeze S_ squeezes_S1_S_).sem) 0 ∗ semVal ((V d (cV L) (jV L)), SemLoc.dma ((cc1_scratch2.slice (Rect.unit (s := S6) ![1] S1.size inb_S6_S1_1)).squeeze S_ squeezes_S1_S_).sem) 0 ∗ semVal ((V d (cV L) (jV L)), SemLoc.dma ((cc1_scratch2.slice (Rect.unit (s := S6) ![2] S1.size inb_S6_S1_2)).squeeze S_ squeezes_S1_S_).sem) 0 ∗ semVal ((V d (cV L) (jV L)), SemLoc.dma ((cc1_scratch2.slice (Rect.unit (s := S6) ![3] S1.size inb_S6_S1_3)).squeeze S_ squeezes_S1_S_).sem) 0 ∗ semVal ((V d (cV L) (jV L)), SemLoc.dma ((cc1_scratch2.slice (Rect.unit (s := S6) ![4] S1.size inb_S6_S1_4)).squeeze S_ squeezes_S1_S_).sem) 0 ∗ semVal ((V d (cV L) (jV L)), SemLoc.dma ((cc1_scratch2.slice (Rect.unit (s := S6) ![5] S1.size inb_S6_S1_5)).squeeze S_ squeezes_S1_S_).sem) 0
    ∗ semVal ((V d (cV L) (jV L)), SemLoc.dma ((cc1_scratch3.slice (Rect.unit (s := S6) ![0] S1.size inb_S6_S1_0)).squeeze S_ squeezes_S1_S_).sem) 0 ∗ semVal ((V d (cV L) (jV L)), SemLoc.dma ((cc1_scratch3.slice (Rect.unit (s := S6) ![1] S1.size inb_S6_S1_1)).squeeze S_ squeezes_S1_S_).sem) 0 ∗ semVal ((V d (cV L) (jV L)), SemLoc.dma ((cc1_scratch3.slice (Rect.unit (s := S6) ![2] S1.size inb_S6_S1_2)).squeeze S_ squeezes_S1_S_).sem) 0 ∗ semVal ((V d (cV L) (jV L)), SemLoc.dma ((cc1_scratch3.slice (Rect.unit (s := S6) ![3] S1.size inb_S6_S1_3)).squeeze S_ squeezes_S1_S_).sem) 0 ∗ semVal ((V d (cV L) (jV L)), SemLoc.dma ((cc1_scratch3.slice (Rect.unit (s := S6) ![4] S1.size inb_S6_S1_4)).squeeze S_ squeezes_S1_S_).sem) 0 ∗ semVal ((V d (cV L) (jV L)), SemLoc.dma ((cc1_scratch3.slice (Rect.unit (s := S6) ![5] S1.size inb_S6_S1_5)).squeeze S_ squeezes_S1_S_).sem) 0
    ∗ semVal ((V d (cV L) (jV L)), SemLoc.dma ((cc1_scratch4.slice (Rect.unit (s := S6) ![0] S1.size inb_S6_S1_0)).squeeze S_ squeezes_S1_S_).sem) 0 ∗ semVal ((V d (cV L) (jV L)), SemLoc.dma ((cc1_scratch4.slice (Rect.unit (s := S6) ![1] S1.size inb_S6_S1_1)).squeeze S_ squeezes_S1_S_).sem) 0 ∗ semVal ((V d (cV L) (jV L)), SemLoc.dma ((cc1_scratch4.slice (Rect.unit (s := S6) ![2] S1.size inb_S6_S1_2)).squeeze S_ squeezes_S1_S_).sem) 0 ∗ semVal ((V d (cV L) (jV L)), SemLoc.dma ((cc1_scratch4.slice (Rect.unit (s := S6) ![3] S1.size inb_S6_S1_3)).squeeze S_ squeezes_S1_S_).sem) 0 ∗ semVal ((V d (cV L) (jV L)), SemLoc.dma ((cc1_scratch4.slice (Rect.unit (s := S6) ![4] S1.size inb_S6_S1_4)).squeeze S_ squeezes_S1_S_).sem) 0 ∗ semVal ((V d (cV L) (jV L)), SemLoc.dma ((cc1_scratch4.slice (Rect.unit (s := S6) ![5] S1.size inb_S6_S1_5)).squeeze S_ squeezes_S1_S_).sem) 0
    ∗ ∃ W', ⌜∀ p ∈ W', p ∈ W ∨ p.2 = none⌝ ∗ owes (V d (cV L) (jV L)) O W')

end Tile

end Cert.KernelIdeal.Hand

end
-- ==== Proof.ScTile0TripMid.lean ====
/-
  One tile of gather call 0, the loop's generic trip (trips 1 to 11): every slot waits for its write-out of the round
  before, takes its index window, gathers, writes its window out and starts the copy of its next index window; the six
  windows waited for join those done.
-/
import proofs.«208461_g52518860095779_cont_9to1_m_1075_29_alg».proof.Proof.ScTile0Inv
import proofs.«208461_g52518860095779_cont_9to1_m_1075_29_alg».proof.Proof.ScTile0Vals

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid1.Coords)

set_option maxHeartbeats 8000000 in
theorem trip_mid (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : 1 ≤ k.val) (h2 : k.val ≤ 11) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : k1_cond20 L k = 1#1 := (cond20_iff L k).mpr (by omega)
  have hA1 : k1_cond9 L k = 1#1 := (cond9_iff L k).mpr (by omega)
  have hT1 : k1_cond10 k = 1#1 := (cond10_iff k).mpr (by omega)
  have hB1 : k1_cond21 L k = 1#1 := (cond21_iff L k).mpr (by omega)
  have hN1 : k1_cond22 L k = 1#1 := (cond22_iff L k).mpr (by omega)
  have hA2 : k1_cond11 L k = 1#1 := (cond11_iff L k).mpr (by omega)
  have hT2 : k1_cond12 k = 1#1 := (cond12_iff k).mpr (by omega)
  have hB2 : k1_cond23 L k = 1#1 := (cond23_iff L k).mpr (by omega)
  have hN2 : k1_cond24 L k = 1#1 := (cond24_iff L k).mpr (by omega)
  have hA3 : k1_cond13 L k = 1#1 := (cond13_iff L k).mpr (by omega)
  have hT3 : k1_cond14 k = 1#1 := (cond14_iff k).mpr (by omega)
  have hB3 : k1_cond25 L k = 1#1 := (cond25_iff L k).mpr (by omega)
  have hN3 : k1_cond26 L k = 1#1 := (cond26_iff L k).mpr (by omega)
  have hA4 : k1_cond15 L k = 1#1 := (cond15_iff L k).mpr (by omega)
  have hT4 : k1_cond16 k = 1#1 := (cond16_iff k).mpr (by omega)
  have hB4 : k1_cond27 L k = 1#1 := (cond27_iff L k).mpr (by omega)
  have hN4 : k1_cond28 L k = 1#1 := (cond28_iff L k).mpr (by omega)
  have hA5 : k1_cond17 L k = 1#1 := (cond17_iff L k).mpr (by omega)
  have hT5 : k1_cond18 k = 1#1 := (cond18_iff k).mpr (by omega)
  have hB5 : k1_cond29 L k = 1#1 := (cond29_iff L k).mpr (by omega)
  have hN5 : k1_cond30 L k = 1#1 := (cond30_iff L k).mpr (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val h1 (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.KernelIdeal.Hand
end
-- ==== Proof.ScTile0TripsA.lean ====
/-
  One tile of gather call 0, the loop's trips at three of its edge regimes. The first trip: no write-out is outstanding
  yet, so no slot waits for one; every slot takes its index window, gathers, writes its window out and starts the copy
  of its next index window; nothing joins the windows done. Trip 12, the last full round of six windows: every slot waits
  for its write-out of the round before, takes its index window, gathers and writes its window out; of the next index
  copies none starts when the tile owns 78 windows, and only slot 0's (window 78) when it owns 79; the six windows waited
  for join those done, and a slot that starts no copy ends with its index side idle.
-/
import proofs.«208461_g52518860095779_cont_9to1_m_1075_29_alg».proof.Proof.ScTile0Inv
import proofs.«208461_g52518860095779_cont_9to1_m_1075_29_alg».proof.Proof.ScTile0Vals

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid1.Coords)

set_option maxHeartbeats 8000000 in
theorem trip_first (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h0 : k.val = 0) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : ¬ k1_cond8 k = 1#1 := fun h => absurd ((cond8_iff k).mp h) (by omega)
  have hB0 : k1_cond19 L k = 1#1 := (cond19_iff L k).mpr (by omega)
  have hN0 : k1_cond20 L k = 1#1 := (cond20_iff L k).mpr (by omega)
  have hA1 : k1_cond9 L k = 1#1 := (cond9_iff L k).mpr (by omega)
  have hT1 : ¬ k1_cond10 k = 1#1 := fun h => absurd ((cond10_iff k).mp h) (by omega)
  have hB1 : k1_cond21 L k = 1#1 := (cond21_iff L k).mpr (by omega)
  have hN1 : k1_cond22 L k = 1#1 := (cond22_iff L k).mpr (by omega)
  have hA2 : k1_cond11 L k = 1#1 := (cond11_iff L k).mpr (by omega)
  have hT2 : ¬ k1_cond12 k = 1#1 := fun h => absurd ((cond12_iff k).mp h) (by omega)
  have hB2 : k1_cond23 L k = 1#1 := (cond23_iff L k).mpr (by omega)
  have hN2 : k1_cond24 L k = 1#1 := (cond24_iff L k).mpr (by omega)
  have hA3 : k1_cond13 L k = 1#1 := (cond13_iff L k).mpr (by omega)
  have hT3 : ¬ k1_cond14 k = 1#1 := fun h => absurd ((cond14_iff k).mp h) (by omega)
  have hB3 : k1_cond25 L k = 1#1 := (cond25_iff L k).mpr (by omega)
  have hN3 : k1_cond26 L k = 1#1 := (cond26_iff L k).mpr (by omega)
  have hA4 : k1_cond15 L k = 1#1 := (cond15_iff L k).mpr (by omega)
  have hT4 : ¬ k1_cond16 k = 1#1 := fun h => absurd ((cond16_iff k).mp h) (by omega)
  have hB4 : k1_cond27 L k = 1#1 := (cond27_iff L k).mpr (by omega)
  have hN4 : k1_cond28 L k = 1#1 := (cond28_iff L k).mpr (by omega)
  have hA5 : k1_cond17 L k = 1#1 := (cond17_iff L k).mpr (by omega)
  have hT5 : ¬ k1_cond18 k = 1#1 := fun h => absurd ((cond18_iff k).mp h) (by omega)
  have hB5 : k1_cond29 L k = 1#1 := (cond29_iff L k).mpr (by omega)
  have hN5 : k1_cond30 L k = 1#1 := (cond30_iff L k).mpr (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_zero d L tb ix k.val h0, rowSide1_zero d L tb ix k.val h0, rowSide2_zero d L tb ix k.val h0, rowSide3_zero d L tb ix k.val h0, rowSide4_zero d L tb ix k.val h0, rowSide5_zero d L tb ix k.val h0,
    todo_take d L f0 k hB0 hB1 hB2 hB3 hB4 hB5]
  delta idxFly0 idxFly1 idxFly2 idxFly3 idxFly4 idxFly5 rowIdle0 rowIdle1 rowIdle2 rowIdle3 rowIdle4 rowIdle5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨Hfw0, %gr0, Hsr0⟩, ⟨Hfw1, %gr1, Hsr1⟩, ⟨Hfw2, %gr2, Hsr2⟩, ⟨Hfw3, %gr3, Hsr3⟩, ⟨Hfw4, %gr4, Hsr4⟩, ⟨Hfw5, %gr5, Hsr5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone]
  · have e : doneP d L tb ix (k.val + 1) = doneP d L tb ix k.val := by
      delta doneP
      rw [dn_mid _ _ (by omega), dn_mid _ _ (by omega)]
      have e6 : 6 * (k.val + 1) - 6 = 6 * k.val - 6 := by omega
      rw [e6]
    rw [e]; iexact Hdone
  iexists _; isplitr; rotate_left
  · iexact HO
  · ipureintro; intro p hp
    simp only [Finset.mem_insert] at hp
    rcases hp with h | h | h | h | h | h | h | h | h | h | h | h | h
    all_goals first | exact .inr (h ▸ rfl) | exact hW' p h

set_option maxHeartbeats 8000000 in
theorem trip_12a (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 12) (h78 : nW L = 78) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : ¬ k1_cond20 L k = 1#1 := fun h => absurd ((cond20_iff L k).mp h) (by omega)
  have hA1 : k1_cond9 L k = 1#1 := (cond9_iff L k).mpr (by omega)
  have hT1 : k1_cond10 k = 1#1 := (cond10_iff k).mpr (by omega)
  have hB1 : k1_cond21 L k = 1#1 := (cond21_iff L k).mpr (by omega)
  have hN1 : ¬ k1_cond22 L k = 1#1 := fun h => absurd ((cond22_iff L k).mp h) (by omega)
  have hA2 : k1_cond11 L k = 1#1 := (cond11_iff L k).mpr (by omega)
  have hT2 : k1_cond12 k = 1#1 := (cond12_iff k).mpr (by omega)
  have hB2 : k1_cond23 L k = 1#1 := (cond23_iff L k).mpr (by omega)
  have hN2 : ¬ k1_cond24 L k = 1#1 := fun h => absurd ((cond24_iff L k).mp h) (by omega)
  have hA3 : k1_cond13 L k = 1#1 := (cond13_iff L k).mpr (by omega)
  have hT3 : k1_cond14 k = 1#1 := (cond14_iff k).mpr (by omega)
  have hB3 : k1_cond25 L k = 1#1 := (cond25_iff L k).mpr (by omega)
  have hN3 : ¬ k1_cond26 L k = 1#1 := fun h => absurd ((cond26_iff L k).mp h) (by omega)
  have hA4 : k1_cond15 L k = 1#1 := (cond15_iff L k).mpr (by omega)
  have hT4 : k1_cond16 k = 1#1 := (cond16_iff k).mpr (by omega)
  have hB4 : k1_cond27 L k = 1#1 := (cond27_iff L k).mpr (by omega)
  have hN4 : ¬ k1_cond28 L k = 1#1 := fun h => absurd ((cond28_iff L k).mp h) (by omega)
  have hA5 : k1_cond17 L k = 1#1 := (cond17_iff L k).mpr (by omega)
  have hT5 : k1_cond18 k = 1#1 := (cond18_iff k).mpr (by omega)
  have hB5 : k1_cond29 L k = 1#1 := (cond29_iff L k).mpr (by omega)
  have hN5 : ¬ k1_cond30 L k = 1#1 := fun h => absurd ((cond30_iff L k).mp h) (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

set_option maxHeartbeats 8000000 in
theorem trip_12b (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 12) (h79 : nW L = 79) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : k1_cond20 L k = 1#1 := (cond20_iff L k).mpr (by omega)
  have hA1 : k1_cond9 L k = 1#1 := (cond9_iff L k).mpr (by omega)
  have hT1 : k1_cond10 k = 1#1 := (cond10_iff k).mpr (by omega)
  have hB1 : k1_cond21 L k = 1#1 := (cond21_iff L k).mpr (by omega)
  have hN1 : ¬ k1_cond22 L k = 1#1 := fun h => absurd ((cond22_iff L k).mp h) (by omega)
  have hA2 : k1_cond11 L k = 1#1 := (cond11_iff L k).mpr (by omega)
  have hT2 : k1_cond12 k = 1#1 := (cond12_iff k).mpr (by omega)
  have hB2 : k1_cond23 L k = 1#1 := (cond23_iff L k).mpr (by omega)
  have hN2 : ¬ k1_cond24 L k = 1#1 := fun h => absurd ((cond24_iff L k).mp h) (by omega)
  have hA3 : k1_cond13 L k = 1#1 := (cond13_iff L k).mpr (by omega)
  have hT3 : k1_cond14 k = 1#1 := (cond14_iff k).mpr (by omega)
  have hB3 : k1_cond25 L k = 1#1 := (cond25_iff L k).mpr (by omega)
  have hN3 : ¬ k1_cond26 L k = 1#1 := fun h => absurd ((cond26_iff L k).mp h) (by omega)
  have hA4 : k1_cond15 L k = 1#1 := (cond15_iff L k).mpr (by omega)
  have hT4 : k1_cond16 k = 1#1 := (cond16_iff k).mpr (by omega)
  have hB4 : k1_cond27 L k = 1#1 := (cond27_iff L k).mpr (by omega)
  have hN4 : ¬ k1_cond28 L k = 1#1 := fun h => absurd ((cond28_iff L k).mp h) (by omega)
  have hA5 : k1_cond17 L k = 1#1 := (cond17_iff L k).mpr (by omega)
  have hT5 : k1_cond18 k = 1#1 := (cond18_iff k).mpr (by omega)
  have hB5 : k1_cond29 L k = 1#1 := (cond29_iff L k).mpr (by omega)
  have hN5 : ¬ k1_cond30 L k = 1#1 := fun h => absurd ((cond30_iff L k).mp h) (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.KernelIdeal.Hand
end
-- ==== Proof.ScTile0TripsB.lean ====
/-
  The last trip of the first gather call's loop on a tile. A tile owns 78 or 79 windows and the loop makes 14 trips of
  six slots: in trip 13 a tile of 78 windows has none left and the body runs nothing, a tile of 79 has one, on slot 0.
  Then every trip, by cases on the trip number and on the tile's number of windows.
-/
import proofs.«208461_g52518860095779_cont_9to1_m_1075_29_alg».proof.Proof.ScTile0Inv
import proofs.«208461_g52518860095779_cont_9to1_m_1075_29_alg».proof.Proof.ScTile0Vals
import proofs.«208461_g52518860095779_cont_9to1_m_1075_29_alg».proof.Proof.ScTile0TripMid
import proofs.«208461_g52518860095779_cont_9to1_m_1075_29_alg».proof.Proof.ScTile0TripsA

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid1.Coords)

/-! ## Trip 13 of a tile of 78 windows: nothing runs -/

theorem idxSide0_13a (qi : PosShare TreeShare) (ix : Ix0 (F := F)) (t : ℕ) (h1 : t = 13) (h78 : nW L = 78) :
    idxSide0 d L qi ix (t + 1) = idxSide0 d L qi ix t :=
  (idxSide0_neg d L qi ix (t + 1) (by omega)).trans (idxSide0_neg d L qi ix t (by omega)).symm

theorem rowSide0_13a (tb : Tab (F := F)) (ix : Ix0 (F := F)) (t : ℕ) (h1 : t = 13) (h78 : nW L = 78) :
    rowSide0 d L tb ix (t + 1) = rowSide0 d L tb ix t := by
  have w : wOut (nW L) 0 (t + 1) = wOut (nW L) 0 t := by subst h1; rw [h78]; decide
  rw [rowSide0_pos d L tb ix (t + 1) (by omega), rowSide0_pos d L tb ix t (by omega), w]

theorem idxSide1_13a (qi : PosShare TreeShare) (ix : Ix0 (F := F)) (t : ℕ) (h1 : t = 13) (h78 : nW L = 78) :
    idxSide1 d L qi ix (t + 1) = idxSide1 d L qi ix t :=
  (idxSide1_neg d L qi ix (t + 1) (by omega)).trans (idxSide1_neg d L qi ix t (by omega)).symm

theorem rowSide1_13a (tb : Tab (F := F)) (ix : Ix0 (F := F)) (t : ℕ) (h1 : t = 13) (h78 : nW L = 78) :
    rowSide1 d L tb ix (t + 1) = rowSide1 d L tb ix t := by
  have w : wOut (nW L) 1 (t + 1) = wOut (nW L) 1 t := by subst h1; rw [h78]; decide
  rw [rowSide1_pos d L tb ix (t + 1) (by omega), rowSide1_pos d L tb ix t (by omega), w]

theorem idxSide2_13a (qi : PosShare TreeShare) (ix : Ix0 (F := F)) (t : ℕ) (h1 : t = 13) (h78 : nW L = 78) :
    idxSide2 d L qi ix (t + 1) = idxSide2 d L qi ix t :=
  (idxSide2_neg d L qi ix (t + 1) (by omega)).trans (idxSide2_neg d L qi ix t (by omega)).symm

theorem rowSide2_13a (tb : Tab (F := F)) (ix : Ix0 (F := F)) (t : ℕ) (h1 : t = 13) (h78 : nW L = 78) :
    rowSide2 d L tb ix (t + 1) = rowSide2 d L tb ix t := by
  have w : wOut (nW L) 2 (t + 1) = wOut (nW L) 2 t := by subst h1; rw [h78]; decide
  rw [rowSide2_pos d L tb ix (t + 1) (by omega), rowSide2_pos d L tb ix t (by omega), w]

theorem idxSide3_13a (qi : PosShare TreeShare) (ix : Ix0 (F := F)) (t : ℕ) (h1 : t = 13) (h78 : nW L = 78) :
    idxSide3 d L qi ix (t + 1) = idxSide3 d L qi ix t :=
  (idxSide3_neg d L qi ix (t + 1) (by omega)).trans (idxSide3_neg d L qi ix t (by omega)).symm

theorem rowSide3_13a (tb : Tab (F := F)) (ix : Ix0 (F := F)) (t : ℕ) (h1 : t = 13) (h78 : nW L = 78) :
    rowSide3 d L tb ix (t + 1) = rowSide3 d L tb ix t := by
  have w : wOut (nW L) 3 (t + 1) = wOut (nW L) 3 t := by subst h1; rw [h78]; decide
  rw [rowSide3_pos d L tb ix (t + 1) (by omega), rowSide3_pos d L tb ix t (by omega), w]

theorem idxSide4_13a (qi : PosShare TreeShare) (ix : Ix0 (F := F)) (t : ℕ) (h1 : t = 13) (h78 : nW L = 78) :
    idxSide4 d L qi ix (t + 1) = idxSide4 d L qi ix t :=
  (idxSide4_neg d L qi ix (t + 1) (by omega)).trans (idxSide4_neg d L qi ix t (by omega)).symm

theorem rowSide4_13a (tb : Tab (F := F)) (ix : Ix0 (F := F)) (t : ℕ) (h1 : t = 13) (h78 : nW L = 78) :
    rowSide4 d L tb ix (t + 1) = rowSide4 d L tb ix t := by
  have w : wOut (nW L) 4 (t + 1) = wOut (nW L) 4 t := by subst h1; rw [h78]; decide
  rw [rowSide4_pos d L tb ix (t + 1) (by omega), rowSide4_pos d L tb ix t (by omega), w]

theorem idxSide5_13a (qi : PosShare TreeShare) (ix : Ix0 (F := F)) (t : ℕ) (h1 : t = 13) (h78 : nW L = 78) :
    idxSide5 d L qi ix (t + 1) = idxSide5 d L qi ix t :=
  (idxSide5_neg d L qi ix (t + 1) (by omega)).trans (idxSide5_neg d L qi ix t (by omega)).symm

theorem rowSide5_13a (tb : Tab (F := F)) (ix : Ix0 (F := F)) (t : ℕ) (h1 : t = 13) (h78 : nW L = 78) :
    rowSide5 d L tb ix (t + 1) = rowSide5 d L tb ix t := by
  have w : wOut (nW L) 5 (t + 1) = wOut (nW L) 5 t := by subst h1; rw [h78]; decide
  rw [rowSide5_pos d L tb ix (t + 1) (by omega), rowSide5_pos d L tb ix t (by omega), w]

omit [FloatOps F] in
theorem todoP_13a (f0 : Out0 (F := F)) (t : ℕ) (h1 : t = 13) (h78 : nW L = 78) : todoP d L f0 (t + 1) = todoP d L f0 t := by
  delta todoP
  rw [Ring.bigSep_rangeSet_empty (show loL L + nW L ≤ loL L + 6 * (t + 1) by omega),
    Ring.bigSep_rangeSet_empty (show loL L + nW L ≤ loL L + 6 * t by omega)]

theorem doneP_13a (tb : Tab (F := F)) (ix : Ix0 (F := F)) (t : ℕ) (h1 : t = 13) (h78 : nW L = 78) :
    doneP d L tb ix (t + 1) = doneP d L tb ix t := by
  have hd : dn (nW L) (t + 1) = dn (nW L) t := by subst h1; rw [h78]; decide
  delta doneP
  rw [hd]

set_option maxHeartbeats 4000000 in
/-- No slot has a window left, so the invariant at 14 is the invariant at 13. -/
theorem inv_14_eq_13 (qi qt : PosShare TreeShare) (tb : Tab (F := F)) (ix : Ix0 (F := F)) (f0 : Out0 (F := F))
    (O : CellTallies nD τ sig (HIx 2)) (W : Waits sig (HIx 2)) (t : ℕ) (h1 : t = 13) (h78 : nW L = 78) :
    inv d L qi qt tb ix f0 O W (t + 1) = inv d L qi qt tb ix f0 O W t := by
  funext u
  delta inv
  rw [idxSide0_13a d L qi ix t h1 h78, idxSide1_13a d L qi ix t h1 h78, idxSide2_13a d L qi ix t h1 h78,
    idxSide3_13a d L qi ix t h1 h78, idxSide4_13a d L qi ix t h1 h78, idxSide5_13a d L qi ix t h1 h78,
    rowSide0_13a d L tb ix t h1 h78, rowSide1_13a d L tb ix t h1 h78, rowSide2_13a d L tb ix t h1 h78,
    rowSide3_13a d L tb ix t h1 h78, rowSide4_13a d L tb ix t h1 h78, rowSide5_13a d L tb ix t h1 h78,
    todoP_13a d L f0 t h1 h78, doneP_13a d L tb ix t h1 h78]

set_option maxHeartbeats 8000000 in
theorem trip_13a (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 13) (h78 : nW L = 78) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hA0 : ¬ k1_cond7 L k = 1#1 := fun h => absurd ((cond7_iff L k).mp h) (by omega)
  have hA1 : ¬ k1_cond9 L k = 1#1 := fun h => absurd ((cond9_iff L k).mp h) (by omega)
  have hA2 : ¬ k1_cond11 L k = 1#1 := fun h => absurd ((cond11_iff L k).mp h) (by omega)
  have hA3 : ¬ k1_cond13 L k = 1#1 := fun h => absurd ((cond13_iff L k).mp h) (by omega)
  have hA4 : ¬ k1_cond15 L k = 1#1 := fun h => absurd ((cond15_iff L k).mp h) (by omega)
  have hA5 : ¬ k1_cond17 L k = 1#1 := fun h => absurd ((cond17_iff L k).mp h) (by omega)
  have hB0 : ¬ k1_cond19 L k = 1#1 := fun h => absurd ((cond19_iff L k).mp h) (by omega)
  have hB1 : ¬ k1_cond21 L k = 1#1 := fun h => absurd ((cond21_iff L k).mp h) (by omega)
  have hB2 : ¬ k1_cond23 L k = 1#1 := fun h => absurd ((cond23_iff L k).mp h) (by omega)
  have hB3 : ¬ k1_cond25 L k = 1#1 := fun h => absurd ((cond25_iff L k).mp h) (by omega)
  have hB4 : ¬ k1_cond27 L k = 1#1 := fun h => absurd ((cond27_iff L k).mp h) (by omega)
  have hB5 : ¬ k1_cond29 L k = 1#1 := fun h => absurd ((cond29_iff L k).mp h) (by omega)
  unfold k1_t1_body
  rw [k1_part1_eq_skeleton, k1_part2_eq_skeleton]; unfold k1_part1_skel k1_part2_skel
  rw [inv_14_eq_13 d L qi qt tb ix f0 O W k.val h1 h78]
  iintro H
  sl_exec
  sl_step
  iexact H

/-! ## Trip 13 of a tile of 79 windows: slot 0 alone runs -/

theorem idxSide1_13b (qi : PosShare TreeShare) (ix : Ix0 (F := F)) (t : ℕ) (h1 : t = 13) (h79 : nW L = 79) :
    idxSide1 d L qi ix (t + 1) = idxSide1 d L qi ix t :=
  (idxSide1_neg d L qi ix (t + 1) (by omega)).trans (idxSide1_neg d L qi ix t (by omega)).symm

theorem rowSide1_13b (tb : Tab (F := F)) (ix : Ix0 (F := F)) (t : ℕ) (h1 : t = 13) (h79 : nW L = 79) :
    rowSide1 d L tb ix (t + 1) = rowSide1 d L tb ix t := by
  have w : wOut (nW L) 1 (t + 1) = wOut (nW L) 1 t := by subst h1; rw [h79]; decide
  rw [rowSide1_pos d L tb ix (t + 1) (by omega), rowSide1_pos d L tb ix t (by omega), w]

theorem idxSide2_13b (qi : PosShare TreeShare) (ix : Ix0 (F := F)) (t : ℕ) (h1 : t = 13) (h79 : nW L = 79) :
    idxSide2 d L qi ix (t + 1) = idxSide2 d L qi ix t :=
  (idxSide2_neg d L qi ix (t + 1) (by omega)).trans (idxSide2_neg d L qi ix t (by omega)).symm

theorem rowSide2_13b (tb : Tab (F := F)) (ix : Ix0 (F := F)) (t : ℕ) (h1 : t = 13) (h79 : nW L = 79) :
    rowSide2 d L tb ix (t + 1) = rowSide2 d L tb ix t := by
  have w : wOut (nW L) 2 (t + 1) = wOut (nW L) 2 t := by subst h1; rw [h79]; decide
  rw [rowSide2_pos d L tb ix (t + 1) (by omega), rowSide2_pos d L tb ix t (by omega), w]

theorem idxSide3_13b (qi : PosShare TreeShare) (ix : Ix0 (F := F)) (t : ℕ) (h1 : t = 13) (h79 : nW L = 79) :
    idxSide3 d L qi ix (t + 1) = idxSide3 d L qi ix t :=
  (idxSide3_neg d L qi ix (t + 1) (by omega)).trans (idxSide3_neg d L qi ix t (by omega)).symm

theorem rowSide3_13b (tb : Tab (F := F)) (ix : Ix0 (F := F)) (t : ℕ) (h1 : t = 13) (h79 : nW L = 79) :
    rowSide3 d L tb ix (t + 1) = rowSide3 d L tb ix t := by
  have w : wOut (nW L) 3 (t + 1) = wOut (nW L) 3 t := by subst h1; rw [h79]; decide
  rw [rowSide3_pos d L tb ix (t + 1) (by omega), rowSide3_pos d L tb ix t (by omega), w]

theorem idxSide4_13b (qi : PosShare TreeShare) (ix : Ix0 (F := F)) (t : ℕ) (h1 : t = 13) (h79 : nW L = 79) :
    idxSide4 d L qi ix (t + 1) = idxSide4 d L qi ix t :=
  (idxSide4_neg d L qi ix (t + 1) (by omega)).trans (idxSide4_neg d L qi ix t (by omega)).symm

theorem rowSide4_13b (tb : Tab (F := F)) (ix : Ix0 (F := F)) (t : ℕ) (h1 : t = 13) (h79 : nW L = 79) :
    rowSide4 d L tb ix (t + 1) = rowSide4 d L tb ix t := by
  have w : wOut (nW L) 4 (t + 1) = wOut (nW L) 4 t := by subst h1; rw [h79]; decide
  rw [rowSide4_pos d L tb ix (t + 1) (by omega), rowSide4_pos d L tb ix t (by omega), w]

theorem idxSide5_13b (qi : PosShare TreeShare) (ix : Ix0 (F := F)) (t : ℕ) (h1 : t = 13) (h79 : nW L = 79) :
    idxSide5 d L qi ix (t + 1) = idxSide5 d L qi ix t :=
  (idxSide5_neg d L qi ix (t + 1) (by omega)).trans (idxSide5_neg d L qi ix t (by omega)).symm

theorem rowSide5_13b (tb : Tab (F := F)) (ix : Ix0 (F := F)) (t : ℕ) (h1 : t = 13) (h79 : nW L = 79) :
    rowSide5 d L tb ix (t + 1) = rowSide5 d L tb ix t := by
  have w : wOut (nW L) 5 (t + 1) = wOut (nW L) 5 t := by subst h1; rw [h79]; decide
  rw [rowSide5_pos d L tb ix (t + 1) (by omega), rowSide5_pos d L tb ix t (by omega), w]

/-- The one window left is set apart from those still to write, in the program's spelling; none is left after it. -/
theorem todo_take1 (f0 : Out0 (F := F)) (t : Fin k1_t1_loop.trips) (h1 : t.val = 13) (h79 : nW L = 79) (hB0 : k1_cond19 L t = 1#1) :
    todoP d L f0 t.val = iprop(((oW.slice (Rect.unit (s := S320000x128) (k1_off20 L t) S128x128.size (k1_off20_inb L t hB0)) (fun _ => rfl)).view.loc (V d (cV L) (jV L)) ↦[(oW.slice (Rect.unit (s := S320000x128) (k1_off20 L t) S128x128.size (k1_off20_inb L t hB0)) (fun _ => rfl)).view.set]{fullShare} f0)
      ∗ todoP d L f0 (t.val + 1)) := by
  have hh := loL_hi L
  delta todoP
  rw [head_fw _ (loL L + 6 * t.val) (loL L + nW L) (by omega) (by omega), opiece0_eq d L t hB0 f0,
    Ring.bigSep_rangeSet_empty (show loL L + nW L ≤ loL L + 6 * t.val + 1 by omega),
    Ring.bigSep_rangeSet_empty (show loL L + nW L ≤ loL L + 6 * (t.val + 1) by omega)]

/-- The window waited for in the last trip joins those done. -/
theorem done_step1 (tb : Tab (F := F)) (ix : Ix0 (F := F)) (t : ℕ) (h1 : t = 13) (h79 : nW L = 79) :
    doneP d L tb ix (t + 1) = iprop((oLoc0 d ↦[oSet0 (fw (loL L + 6 * (t - 1)))]{fullShare} gath0 tb ix) ∗ doneP d L tb ix t) := by
  have hh := loL_hi L
  have hd14 : dn (nW L) (t + 1) = 72 + 1 := by subst h1; rw [h79]; decide
  have hd13 : dn (nW L) t = 72 := by subst h1; rw [h79]; decide
  have e : 6 * (t - 1) = 72 := by omega
  delta doneP
  rw [hd14, hd13, e, show loL L + (72 + 1) = (loL L + 72) + 1 by omega, last_fw _ (loL L) (loL L + 72) (by omega) (by omega)]

set_option maxHeartbeats 8000000 in
theorem trip_13b (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 13) (h79 : nW L = 79) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : ¬ k1_cond20 L k = 1#1 := fun h => absurd ((cond20_iff L k).mp h) (by omega)
  have hA1 : ¬ k1_cond9 L k = 1#1 := fun h => absurd ((cond9_iff L k).mp h) (by omega)
  have hA2 : ¬ k1_cond11 L k = 1#1 := fun h => absurd ((cond11_iff L k).mp h) (by omega)
  have hA3 : ¬ k1_cond13 L k = 1#1 := fun h => absurd ((cond13_iff L k).mp h) (by omega)
  have hA4 : ¬ k1_cond15 L k = 1#1 := fun h => absurd ((cond15_iff L k).mp h) (by omega)
  have hA5 : ¬ k1_cond17 L k = 1#1 := fun h => absurd ((cond17_iff L k).mp h) (by omega)
  have hB1 : ¬ k1_cond21 L k = 1#1 := fun h => absurd ((cond21_iff L k).mp h) (by omega)
  have hB2 : ¬ k1_cond23 L k = 1#1 := fun h => absurd ((cond23_iff L k).mp h) (by omega)
  have hB3 : ¬ k1_cond25 L k = 1#1 := fun h => absurd ((cond25_iff L k).mp h) (by omega)
  have hB4 : ¬ k1_cond27 L k = 1#1 := fun h => absurd ((cond27_iff L k).mp h) (by omega)
  have hB5 : ¬ k1_cond29 L k = 1#1 := fun h => absurd ((cond29_iff L k).mp h) (by omega)
  unfold k1_t1_body
  rw [k1_part1_eq_skeleton, k1_part2_eq_skeleton]; unfold k1_part1_skel k1_part2_skel
  delta inv
  rw [idxSide0_pos d L qi ix k.val (by omega), rowSide0_pos d L tb ix k.val (by omega), wpos_mid L 0 k.val (by omega),
    todo_take1 d L f0 k h1 h79 hB0]
  delta idxFly0 rowFly0
  iintro ⟨#Hmw, Ht0, Ht1, Ht2, Ht3, Ht4, Ht5, Hg0, Hg1, Hg2, Hg3, Hg4, Hg5, ⟨%ci0, %I0, %hci0, Hfi0, Hri0⟩, Hi1, Hi2, Hi3, Hi4, Hi5, ⟨%gr0, %fo0, %hfo0, Hfw0⟩, Hr1, Hr2, Hr3, Hr4, Hr5, ⟨Ho0, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hi1]; · rw [idxSide1_13b d L qi ix k.val h1 h79]; iexact Hi1
  isplitl [Hi2]; · rw [idxSide2_13b d L qi ix k.val h1 h79]; iexact Hi2
  isplitl [Hi3]; · rw [idxSide3_13b d L qi ix k.val h1 h79]; iexact Hi3
  isplitl [Hi4]; · rw [idxSide4_13b d L qi ix k.val h1 h79]; iexact Hi4
  isplitl [Hi5]; · rw [idxSide5_13b d L qi ix k.val h1 h79]; iexact Hi5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hr1]; · rw [rowSide1_13b d L tb ix k.val h1 h79]; iexact Hr1
  isplitl [Hr2]; · rw [rowSide2_13b d L tb ix k.val h1 h79]; iexact Hr2
  isplitl [Hr3]; · rw [rowSide3_13b d L tb ix k.val h1 h79]; iexact Hr3
  isplitl [Hr4]; · rw [rowSide4_13b d L tb ix k.val h1 h79]; iexact Hr4
  isplitl [Hr5]; · rw [rowSide5_13b d L tb ix k.val h1 h79]; iexact Hr5
  isplitl [Htodo]; · iexact Htodo
  isplitl [Hdone Hfw0_dst]
  · rw [done_step1 d L tb ix k.val h1 h79]
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h
    all_goals first | exact .inr (h ▸ rfl) | exact hW' p h

/-! ## Every trip -/

attribute [local irreducible] inv k1_t1_body in
/-- Every trip of the loop keeps the invariant: the first trip, the trips 1 to 11, and the trips 12 and 13 by the
    tile's number of windows, 78 or 79. -/
theorem region (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hk : k.val < 14 := lt_of_lt_of_eq k.isLt trips_eq
  have hn : nW L = 78 ∨ nW L = 79 := by have := nW_ge L; have := nW_le L; omega
  by_cases h0 : k.val = 0
  · exact trip_first d L v4 v8 qi qt tb ix f0 O W hin k h0
  by_cases hm : k.val ≤ 11
  · exact trip_mid d L v4 v8 qi qt tb ix f0 O W hin k (by omega) hm
  by_cases h12 : k.val = 12
  · rcases hn with h | h
    · exact trip_12a d L v4 v8 qi qt tb ix f0 O W hin k h12 h
    · exact trip_12b d L v4 v8 qi qt tb ix f0 O W hin k h12 h
  have h13 : k.val = 13 := by omega
  rcases hn with h | h
  · exact trip_13a d L v4 v8 qi qt tb ix f0 O W hin k h13 h
  · exact trip_13b d L v4 v8 qi qt tb ix f0 O W hin k h13 h

end Tile
end Cert.KernelIdeal.Hand
end
-- ==== Proof.ScTile0Run.lean ====
/-
  One tile's run of gather call 0. The tile's read share of the table and of the index list is cut into read
  tokens, one per semaphore a transfer reading the array completes on. The kernel starts the first six index
  copies, which makes the loop's invariant at trip 0; every trip keeps it (the region's obligation); at the loop's
  exit the six slots' last write-outs are outstanding, the six closing waits deliver their windows, and the
  windows done with those six are all the tile's windows, at the gathered rows. The tokens join back to the shares.
-/
import proofs.«208461_g52518860095779_cont_9to1_m_1075_29_alg».proof.Proof.ScTile0Inv
import proofs.«208461_g52518860095779_cont_9to1_m_1075_29_alg».proof.Proof.ScTile0Vals
import proofs.«208461_g52518860095779_cont_9to1_m_1075_29_alg».proof.Proof.ScTile0RunDefs
import proofs.«208461_g52518860095779_cont_9to1_m_1075_29_alg».proof.Proof.ScTile0TripsB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid1.Coords)

/-! ## The twelve read tokens in use (numbers 15 … 4) of sixteen cut off a share, the low four kept together -/

omit [FloatOps F] in
theorem toks16 (ℓ : Loc nD τ sig) (q : PosShare TreeShare) (f : Buf (Elt F) ℓ) :
    (ℓ ↦{q} f : sProp 𝕄) ⊣⊢ iprop((ℓ ↦{Transfers.shareDrop q 16} f)
      ∗ (ℓ ↦{Transfers.shareTokN q 15} f) ∗ (ℓ ↦{Transfers.shareTokN q 14} f) ∗ (ℓ ↦{Transfers.shareTokN q 13} f) ∗ (ℓ ↦{Transfers.shareTokN q 12} f) ∗ (ℓ ↦{Transfers.shareTokN q 11} f) ∗ (ℓ ↦{Transfers.shareTokN q 10} f) ∗ (ℓ ↦{Transfers.shareTokN q 9} f) ∗ (ℓ ↦{Transfers.shareTokN q 8} f) ∗ (ℓ ↦{Transfers.shareTokN q 7} f) ∗ (ℓ ↦{Transfers.shareTokN q 6} f) ∗ (ℓ ↦{Transfers.shareTokN q 5} f) ∗ (ℓ ↦{Transfers.shareTokN q 4} f)
      ∗ bigSep (Finset.range 4) fun i => ℓ ↦{Transfers.shareTokN q i} f) := by
  have h := Transfers.pointsTo_toks_range (Ix := HIx 2) (Name := ℕ) (U := UU) (Lvl := ℕ) (ℓ := ℓ) (S := Finset.univ) (f := f) q 16
  rw [show (16 : ℕ) = 15 + 1 from rfl, Ring.bigSep_range_succ,
    show (15 : ℕ) = 14 + 1 from rfl, Ring.bigSep_range_succ,
    show (14 : ℕ) = 13 + 1 from rfl, Ring.bigSep_range_succ,
    show (13 : ℕ) = 12 + 1 from rfl, Ring.bigSep_range_succ,
    show (12 : ℕ) = 11 + 1 from rfl, Ring.bigSep_range_succ,
    show (11 : ℕ) = 10 + 1 from rfl, Ring.bigSep_range_succ,
    show (10 : ℕ) = 9 + 1 from rfl, Ring.bigSep_range_succ,
    show (9 : ℕ) = 8 + 1 from rfl, Ring.bigSep_range_succ,
    show (8 : ℕ) = 7 + 1 from rfl, Ring.bigSep_range_succ,
    show (7 : ℕ) = 6 + 1 from rfl, Ring.bigSep_range_succ,
    show (6 : ℕ) = 5 + 1 from rfl, Ring.bigSep_range_succ,
    show (5 : ℕ) = 4 + 1 from rfl, Ring.bigSep_range_succ] at h
  exact h

/-! ## The prologue's six index copies -/
theorem offP0_eq : k1_off1 L = ![128 * (loL L + 6 * 0 + 0)] := by
  rw [k1_off1_eq]; unfold loL lo0; congr 1; omega
theorem offP1_eq : k1_off2 L = ![128 * (loL L + 6 * 0 + 1)] := by
  rw [k1_off2_eq]; unfold loL lo0; congr 1; omega
theorem offP2_eq : k1_off3 L = ![128 * (loL L + 6 * 0 + 2)] := by
  rw [k1_off3_eq]; unfold loL lo0; congr 1; omega
theorem offP3_eq : k1_off4 L = ![128 * (loL L + 6 * 0 + 3)] := by
  rw [k1_off4_eq]; unfold loL lo0; congr 1; omega
theorem offP4_eq : k1_off5 L = ![128 * (loL L + 6 * 0 + 4)] := by
  rw [k1_off5_eq]; unfold loL lo0; congr 1; omega
theorem offP5_eq : k1_off6 L = ![128 * (loL L + 6 * 0 + 5)] := by
  rw [k1_off6_eq]; unfold loL lo0; congr 1; omega

/-! ## The pools at the two ends of the loop -/

theorem done0 (tb : Tab (F := F)) (ix : Ix0 (F := F)) : doneP d L tb ix 0 = (iprop(emp) : sProp 𝕄) := by
  delta doneP; rw [dn_mid _ _ (by omega)]; exact Ring.bigSep_rangeSet_empty (by omega)
theorem todo14 (f0 : Out0 (F := F)) : todoP d L f0 14 = (iprop(emp) : sProp 𝕄) := by
  have := nW_le L
  delta todoP; exact Ring.bigSep_rangeSet_empty (by omega)
theorem wpos14_hi (b : ℕ) (h : ¬ 78 + b < nW L) : loL L + wOut (nW L) b 14 = loL L + 72 + b := by
  unfold wOut; rw [if_neg (by omega)]; omega
theorem wpos14_last (h : nW L = 79) : loL L + wOut (nW L) 0 14 = loL L + 78 := by
  unfold wOut; rw [if_pos (by omega)]

/-- All the tile's windows at the gathered rows: those done and the six the closing waits deliver (78 windows). -/
theorem fin78 (tb : Tab (F := F)) (ix : Ix0 (F := F)) (h : nW L = 78) :
    (bigSep (Ring.rangeSet 2500 (loL L) (loL L + nW L)) fun w => oLoc0 d ↦[oSet0 w]{fullShare} gath0 tb ix : sProp 𝕄)
      = iprop((oLoc0 d ↦[oSet0 (fw (loL L + 72 + 5))]{fullShare} gath0 tb ix) ∗ (oLoc0 d ↦[oSet0 (fw (loL L + 72 + 4))]{fullShare} gath0 tb ix) ∗ (oLoc0 d ↦[oSet0 (fw (loL L + 72 + 3))]{fullShare} gath0 tb ix) ∗ (oLoc0 d ↦[oSet0 (fw (loL L + 72 + 2))]{fullShare} gath0 tb ix) ∗ (oLoc0 d ↦[oSet0 (fw (loL L + 72 + 1))]{fullShare} gath0 tb ix) ∗ (oLoc0 d ↦[oSet0 (fw (loL L + 72 + 0))]{fullShare} gath0 tb ix) ∗ doneP d L tb ix 14) := by
  have hh := loL_hi L
  delta doneP
  rw [h, show dn 78 14 = 72 from rfl, show loL L + 78 = (loL L + 72) + 6 from rfl, put6 _ (loL L) (loL L + 72) (by omega) (by omega)]
/-- The same for a tile of 79 windows: slot 0's last window is the 79th. -/
theorem fin79 (tb : Tab (F := F)) (ix : Ix0 (F := F)) (h : nW L = 79) :
    (bigSep (Ring.rangeSet 2500 (loL L) (loL L + nW L)) fun w => oLoc0 d ↦[oSet0 w]{fullShare} gath0 tb ix : sProp 𝕄)
      = iprop((oLoc0 d ↦[oSet0 (fw (loL L + 78))]{fullShare} gath0 tb ix) ∗ (oLoc0 d ↦[oSet0 (fw (loL L + 72 + 5))]{fullShare} gath0 tb ix) ∗ (oLoc0 d ↦[oSet0 (fw (loL L + 72 + 4))]{fullShare} gath0 tb ix) ∗ (oLoc0 d ↦[oSet0 (fw (loL L + 72 + 3))]{fullShare} gath0 tb ix) ∗ (oLoc0 d ↦[oSet0 (fw (loL L + 72 + 2))]{fullShare} gath0 tb ix) ∗ (oLoc0 d ↦[oSet0 (fw (loL L + 72 + 1))]{fullShare} gath0 tb ix) ∗ doneP d L tb ix 14) := by
  have hh := loL_hi L
  delta doneP
  rw [h, show dn 79 14 = 73 from rfl, show loL L + 79 = (loL L + 78) + 1 from rfl, last_fw _ (loL L) (loL L + 78) (by omega) (by omega),
    show loL L + 78 = (loL L + 77) + 1 from rfl, last_fw _ (loL L) (loL L + 77) (by omega) (by omega),
    show loL L + 77 = (loL L + 76) + 1 from rfl, last_fw _ (loL L) (loL L + 76) (by omega) (by omega),
    show loL L + 76 = (loL L + 75) + 1 from rfl, last_fw _ (loL L) (loL L + 75) (by omega) (by omega),
    show loL L + 75 = (loL L + 74) + 1 from rfl, last_fw _ (loL L) (loL L + 74) (by omega) (by omega),
    show loL L + 74 = (loL L + 73) + 1 from rfl, last_fw _ (loL L) (loL L + 73) (by omega) (by omega)]

/-! ## The run -/

set_option maxHeartbeats 8000000 in
theorem tile_run (q : PosShare TreeShare) (tb : Tab (F := F)) (ix : Ix0 (F := F)) (f0 : Out0 (F := F))
    (O : CellTallies nD τ sig (HIx 2)) (W : Waits sig (HIx 2)) (hin : ∀ j, (ix j).toNat < 20000) :
    preRun d L q tb ix f0 O W
      ⊢ wp frame (wpE (defs₀ (F := F)) 𝒱₀ (V d (cV L) (jV L)) none) Set.univ (cc1_k L tW (Memref.isWhole_whole _) iW (Memref.isWhole_whole _) oW (Memref.isWhole_whole _) sI (Memref.isWhole_whole _) sR (Memref.isWhole_whole _) cc1_scratch2 cc1_scratch3 cc1_scratch4)
          fun _ => postRun d L q tb ix O W := by
  have hn := nW_ge L
  have hn' := nW_le L
  have k1_h1 := cond1_true L
  have k1_h2 := cond2_true L
  have k1_h3 := cond3_true L
  have k1_h4 := cond4_true L
  have k1_h5 := cond5_true L
  have k1_h6 := cond6_true L
  rw [cc1_k_eq_skeleton]; unfold cc1_k_skel
  rw [k1_part3_eq_skeleton, k1_part4_eq_skeleton, k1_part5_eq_skeleton]; unfold k1_part3_skel k1_part4_skel k1_part5_skel
  delta preRun
  iintro ⟨Hmw, Ht, Hi, Htodo, ⟨%ci0, Hsi0⟩, ⟨%ci1, Hsi1⟩, ⟨%ci2, Hsi2⟩, ⟨%ci3, Hsi3⟩, ⟨%ci4, Hsi4⟩, ⟨%ci5, Hsi5⟩, ⟨%gr0, Hsr0⟩, ⟨%gr1, Hsr1⟩, ⟨%gr2, Hsr2⟩, ⟨%gr3, Hsr3⟩, ⟨%gr4, Hsr4⟩, ⟨%gr5, Hsr5⟩, Hfi0, Hfi1, Hfi2, Hfi3, Hfi4, Hfi5, Hg0, Hg1, Hg2, Hg3, Hg4, Hg5, Hfw0, Hfw1, Hfw2, Hfw3, Hfw4, Hfw5, HO⟩
  ihave Ht' := (toks16 _ q tb).1 $$ Ht
  icases Ht' with ⟨HtD, Ht5, Ht4, Ht3, Ht2, Ht1, Ht0, HtX9, HtX8, HtX7, HtX6, HtX5, HtX4, HtLow⟩
  ihave Hi' := (toks16 _ q ix).1 $$ Hi
  icases Hi' with ⟨HiD, HiX15, HiX14, HiX13, HiX12, HiX11, HiX10, Hri5, Hri4, Hri3, Hri2, Hri1, Hri0, HiLow⟩
  sl_exec
  rw [Prog.bind_assoc]
  sl_for (inv d L q q tb ix f0 O W) $$ [Hmw Ht0 Ht1 Ht2 Ht3 Ht4 Ht5 Hg0 Hg1 Hg2 Hg3 Hg4 Hg5 Hfi0 Hri0 Hfi1 Hri1 Hfi2 Hri2 Hfi3 Hri3 Hfi4 Hri4 Hfi5 Hri5 Hfw0 Hsr0 Hfw1 Hsr1 Hfw2 Hsr2 Hfw3 Hsr3 Hfw4 Hsr4 Hfw5 Hsr5 Htodo HO]
  case region =>
    intro k acc
    first
      | exact region d L _ _ q q tb ix f0 O W hin k acc
      | (cases acc; exact region d L _ _ q q tb ix f0 O W hin k)
  · delta inv
    rw [idxSide0_pos d L q ix 0 (by omega), idxSide1_pos d L q ix 0 (by omega), idxSide2_pos d L q ix 0 (by omega), idxSide3_pos d L q ix 0 (by omega), idxSide4_pos d L q ix 0 (by omega), idxSide5_pos d L q ix 0 (by omega),
      rowSide0_zero d L tb ix 0 rfl, rowSide1_zero d L tb ix 0 rfl, rowSide2_zero d L tb ix 0 rfl, rowSide3_zero d L tb ix 0 rfl, rowSide4_zero d L tb ix 0 rfl, rowSide5_zero d L tb ix 0 rfl, done0]
    delta idxFly0 idxFly1 idxFly2 idxFly3 idxFly4 idxFly5 rowIdle0 rowIdle1 rowIdle2 rowIdle3 rowIdle4 rowIdle5
    isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hfi0 Hri0]
    · iexists _, _; isplitr; rotate_left
      · isplitl [Hfi0]; · iexact Hfi0
        iexact Hri0
      · ipureintro; exact idxval0 d L ix ci0 _ _ (loL L + 6 * 0 + 0) (offP0_eq L)
    isplitl [Hfi1 Hri1]
    · iexists _, _; isplitr; rotate_left
      · isplitl [Hfi1]; · iexact Hfi1
        iexact Hri1
      · ipureintro; exact idxval1 d L ix ci1 _ _ (loL L + 6 * 0 + 1) (offP1_eq L)
    isplitl [Hfi2 Hri2]
    · iexists _, _; isplitr; rotate_left
      · isplitl [Hfi2]; · iexact Hfi2
        iexact Hri2
      · ipureintro; exact idxval2 d L ix ci2 _ _ (loL L + 6 * 0 + 2) (offP2_eq L)
    isplitl [Hfi3 Hri3]
    · iexists _, _; isplitr; rotate_left
      · isplitl [Hfi3]; · iexact Hfi3
        iexact Hri3
      · ipureintro; exact idxval3 d L ix ci3 _ _ (loL L + 6 * 0 + 3) (offP3_eq L)
    isplitl [Hfi4 Hri4]
    · iexists _, _; isplitr; rotate_left
      · isplitl [Hfi4]; · iexact Hfi4
        iexact Hri4
      · ipureintro; exact idxval4 d L ix ci4 _ _ (loL L + 6 * 0 + 4) (offP4_eq L)
    isplitl [Hfi5 Hri5]
    · iexists _, _; isplitr; rotate_left
      · isplitl [Hfi5]; · iexact Hfi5
        iexact Hri5
      · ipureintro; exact idxval5 d L ix ci5 _ _ (loL L + 6 * 0 + 5) (offP5_eq L)
    isplitl [Hfw0 Hsr0]
    · isplitl [Hfw0]; · iexact Hfw0
      iexists _; iexact Hsr0
    isplitl [Hfw1 Hsr1]
    · isplitl [Hfw1]; · iexact Hfw1
      iexists _; iexact Hsr1
    isplitl [Hfw2 Hsr2]
    · isplitl [Hfw2]; · iexact Hfw2
      iexists _; iexact Hsr2
    isplitl [Hfw3 Hsr3]
    · isplitl [Hfw3]; · iexact Hfw3
      iexists _; iexact Hsr3
    isplitl [Hfw4 Hsr4]
    · isplitl [Hfw4]; · iexact Hfw4
      iexists _; iexact Hsr4
    isplitl [Hfw5 Hsr5]
    · isplitl [Hfw5]; · iexact Hfw5
      iexists _; iexact Hsr5
    isplitl [Htodo]; · iexact Htodo
    isplitr; · iempintro
    iexists W; isplitr
    · ipureintro; exact fun p hp => .inl hp
    · iexact HO
  iintro %_ HI
  have ht : Scf.trips k1_t1_loop.lb k1_t1_loop.ub k1_t1_loop.st = 14 := trips_eq
  rw [ht]
  delta inv
  rw [idxSide0_neg d L q ix 14 (by omega), idxSide1_neg d L q ix 14 (by omega), idxSide2_neg d L q ix 14 (by omega), idxSide3_neg d L q ix 14 (by omega), idxSide4_neg d L q ix 14 (by omega), idxSide5_neg d L q ix 14 (by omega),
    rowSide0_pos d L tb ix 14 (by omega), rowSide1_pos d L tb ix 14 (by omega), rowSide2_pos d L tb ix 14 (by omega), rowSide3_pos d L tb ix 14 (by omega), rowSide4_pos d L tb ix 14 (by omega), rowSide5_pos d L tb ix 14 (by omega), todo14]
  delta idxIdle0 idxIdle1 idxIdle2 idxIdle3 idxIdle4 idxIdle5 rowFly0 rowFly1 rowFly2 rowFly3 rowFly4 rowFly5
  icases HI with ⟨Hmw, Ht0, Ht1, Ht2, Ht3, Ht4, Ht5, Hg0, Hg1, Hg2, Hg3, Hg4, Hg5, ⟨Hfi0, ⟨%cj0, Hsi0⟩, Hri0⟩, ⟨Hfi1, ⟨%cj1, Hsi1⟩, Hri1⟩, ⟨Hfi2, ⟨%cj2, Hsi2⟩, Hri2⟩, ⟨Hfi3, ⟨%cj3, Hsi3⟩, Hri3⟩, ⟨Hfi4, ⟨%cj4, Hsi4⟩, Hri4⟩, ⟨Hfi5, ⟨%cj5, Hsi5⟩, Hri5⟩, ⟨%gs0, %fo0, %hfo0, Hfw0⟩, ⟨%gs1, %fo1, %hfo1, Hfw1⟩, ⟨%gs2, %fo2, %hfo2, Hfw2⟩, ⟨%gs3, %fo3, %hfo3, Hfw3⟩, ⟨%gs4, %fo4, %hfo4, Hfw4⟩, ⟨%gs5, %fo5, %hfo5, Hfw5⟩, -, Hdone, %W', %hW', HO⟩
  sl_exec
  sl_step
  delta postRun
  isplitl [HtD Ht5 Ht4 Ht3 Ht2 Ht1 Ht0 HtX9 HtX8 HtX7 HtX6 HtX5 HtX4 HtLow]
  · iapply (toks16 _ q tb).2
    isplitl [HtD]; · iexact HtD
    isplitl [Ht5]; · iexact Ht5
    isplitl [Ht4]; · iexact Ht4
    isplitl [Ht3]; · iexact Ht3
    isplitl [Ht2]; · iexact Ht2
    isplitl [Ht1]; · iexact Ht1
    isplitl [Ht0]; · iexact Ht0
    isplitl [HtX9]; · iexact HtX9
    isplitl [HtX8]; · iexact HtX8
    isplitl [HtX7]; · iexact HtX7
    isplitl [HtX6]; · iexact HtX6
    isplitl [HtX5]; · iexact HtX5
    isplitl [HtX4]; · iexact HtX4
    iexact HtLow
  isplitl [HiD HiX15 HiX14 HiX13 HiX12 HiX11 HiX10 Hri5 Hri4 Hri3 Hri2 Hri1 Hri0 HiLow]
  · iapply (toks16 _ q ix).2
    isplitl [HiD]; · iexact HiD
    isplitl [HiX15]; · iexact HiX15
    isplitl [HiX14]; · iexact HiX14
    isplitl [HiX13]; · iexact HiX13
    isplitl [HiX12]; · iexact HiX12
    isplitl [HiX11]; · iexact HiX11
    isplitl [HiX10]; · iexact HiX10
    isplitl [Hri5]; · iexact Hri5
    isplitl [Hri4]; · iexact Hri4
    isplitl [Hri3]; · iexact Hri3
    isplitl [Hri2]; · iexact Hri2
    isplitl [Hri1]; · iexact Hri1
    isplitl [Hri0]; · iexact Hri0
    iexact HiLow
  isplitl [Hdone Hfw0_dst Hfw1_dst Hfw2_dst Hfw3_dst Hfw4_dst Hfw5_dst]
  · rcases (show nW L = 78 ∨ nW L = 79 by omega) with h78 | h79
    · rw [fin78 d L tb ix h78]
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      isplitl [Hfw0_dst]
      · rw [← wpos14_hi L 0 (by omega)]; iapply (Entails.of_eq (pointsTo_congr hfo0)); iexact Hfw0_dst
      iexact Hdone
    · rw [fin79 d L tb ix h79]
      isplitl [Hfw0_dst]
      · rw [← wpos14_last L h79]; iapply (Entails.of_eq (pointsTo_congr hfo0)); iexact Hfw0_dst
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      iexact Hdone
  isplitl [Hsi0]; · iexists _; iexact Hsi0
  isplitl [Hsi1]; · iexists _; iexact Hsi1
  isplitl [Hsi2]; · iexists _; iexact Hsi2
  isplitl [Hsi3]; · iexists _; iexact Hsi3
  isplitl [Hsi4]; · iexists _; iexact Hsi4
  isplitl [Hsi5]; · iexists _; iexact Hsi5
  isplitl [Hfw0_src]; · iexists _; iexact Hfw0_src
  isplitl [Hfw1_src]; · iexists _; iexact Hfw1_src
  isplitl [Hfw2_src]; · iexists _; iexact Hfw2_src
  isplitl [Hfw3_src]; · iexists _; iexact Hfw3_src
  isplitl [Hfw4_src]; · iexists _; iexact Hfw4_src
  isplitl [Hfw5_src]; · iexists _; iexact Hfw5_src
  isplitl [Hfi0]; · iexact Hfi0
  isplitl [Hfi1]; · iexact Hfi1
  isplitl [Hfi2]; · iexact Hfi2
  isplitl [Hfi3]; · iexact Hfi3
  isplitl [Hfi4]; · iexact Hfi4
  isplitl [Hfi5]; · iexact Hfi5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfw0]; · iexact Hfw0
  isplitl [Hfw1]; · iexact Hfw1
  isplitl [Hfw2]; · iexact Hfw2
  isplitl [Hfw3]; · iexact Hfw3
  isplitl [Hfw4]; · iexact Hfw4
  isplitl [Hfw5]; · iexact Hfw5
  iexists _; isplitr; rotate_left
  · iexact HO
  · ipureintro; intro p hp
    simp only [Finset.mem_insert] at hp
    rcases hp with h | h | h | h | h | h | h
    all_goals first | exact .inr (h ▸ rfl) | exact hW' p h

end Tile

end Cert.KernelIdeal.Hand

end
-- ==== Proof.ScTile0Setup.lean ====
/-
  One tile of gather call 0, before its body runs: what the launch deals it, opened up. Its own semaphore cells
  are the eighteen copy semaphores of the six-slot ring (three per slot: index copy, gather, write-out) and the
  rest; its own buffers are the two scratch buffers (six index slots of 128 words, six row slots of 128 rows of 128
  words) and the rest; and each scratch buffer held whole is its six slots held, each slot spelt as the kernel's
  body slices it out, in both directions (back: six slots at whatever contents are the buffer at some contents).
-/
import proofs.«208461_g52518860095779_cont_9to1_m_1075_29_alg».proof.Proof.ScTile0Inv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Taking listed members out of a family -/

/-- A family over a finite set with some members listed (without repetition) is those members one by one, in the
    list's order, and the family over the rest. -/
theorem bigSep_take_list {I : Type} [DecidableEq I] (Φ : I → sProp 𝕄) :
    ∀ (l : List I) (s : Finset I), l.Nodup → (∀ i ∈ l, i ∈ s) →
      bigSep s Φ = l.foldr (fun i R => iprop(Φ i ∗ R)) (bigSep (s \ l.toFinset) Φ)
  | [], s, _, _ => by rw [List.toFinset_nil, Finset.sdiff_empty]; rfl
  | a :: l, s, hnd, hmem => by
    obtain ⟨ha, hl⟩ := List.nodup_cons.mp hnd
    have hrest : ∀ i ∈ l, i ∈ s.erase a := fun i hi =>
      Finset.mem_erase.mpr ⟨fun e => ha (e ▸ hi), hmem i (List.mem_cons_of_mem a hi)⟩
    have hset : s.erase a \ l.toFinset = s \ (a :: l).toFinset := by
      ext x
      simp only [Finset.mem_sdiff, Finset.mem_erase, List.toFinset_cons, Finset.mem_insert, List.mem_toFinset, not_or]
      tauto
    rw [SparseCore.bigSep_erase' (hmem a (List.mem_cons_self ..)), bigSep_take_list Φ l (s.erase a) hl hrest, hset]
    rfl

/-! ## The tile's own semaphore cells: the three copy semaphores of each of the six slots, and the rest -/

/-- The eighteen cells of the three six-slot DMA semaphore arrays, array by array, slot by slot. -/
def slotSems : List (SemLoc sig) :=
  [SemLoc.dma ((cc1_scratch2.slice (Rect.unit (s := S6) ![0] S1.size inb_S6_S1_0)).squeeze S_ squeezes_S1_S_).sem,
   SemLoc.dma ((cc1_scratch2.slice (Rect.unit (s := S6) ![1] S1.size inb_S6_S1_1)).squeeze S_ squeezes_S1_S_).sem,
   SemLoc.dma ((cc1_scratch2.slice (Rect.unit (s := S6) ![2] S1.size inb_S6_S1_2)).squeeze S_ squeezes_S1_S_).sem,
   SemLoc.dma ((cc1_scratch2.slice (Rect.unit (s := S6) ![3] S1.size inb_S6_S1_3)).squeeze S_ squeezes_S1_S_).sem,
   SemLoc.dma ((cc1_scratch2.slice (Rect.unit (s := S6) ![4] S1.size inb_S6_S1_4)).squeeze S_ squeezes_S1_S_).sem,
   SemLoc.dma ((cc1_scratch2.slice (Rect.unit (s := S6) ![5] S1.size inb_S6_S1_5)).squeeze S_ squeezes_S1_S_).sem,
   SemLoc.dma ((cc1_scratch3.slice (Rect.unit (s := S6) ![0] S1.size inb_S6_S1_0)).squeeze S_ squeezes_S1_S_).sem,
   SemLoc.dma ((cc1_scratch3.slice (Rect.unit (s := S6) ![1] S1.size inb_S6_S1_1)).squeeze S_ squeezes_S1_S_).sem,
   SemLoc.dma ((cc1_scratch3.slice (Rect.unit (s := S6) ![2] S1.size inb_S6_S1_2)).squeeze S_ squeezes_S1_S_).sem,
   SemLoc.dma ((cc1_scratch3.slice (Rect.unit (s := S6) ![3] S1.size inb_S6_S1_3)).squeeze S_ squeezes_S1_S_).sem,
   SemLoc.dma ((cc1_scratch3.slice (Rect.unit (s := S6) ![4] S1.size inb_S6_S1_4)).squeeze S_ squeezes_S1_S_).sem,
   SemLoc.dma ((cc1_scratch3.slice (Rect.unit (s := S6) ![5] S1.size inb_S6_S1_5)).squeeze S_ squeezes_S1_S_).sem,
   SemLoc.dma ((cc1_scratch4.slice (Rect.unit (s := S6) ![0] S1.size inb_S6_S1_0)).squeeze S_ squeezes_S1_S_).sem,
   SemLoc.dma ((cc1_scratch4.slice (Rect.unit (s := S6) ![1] S1.size inb_S6_S1_1)).squeeze S_ squeezes_S1_S_).sem,
   SemLoc.dma ((cc1_scratch4.slice (Rect.unit (s := S6) ![2] S1.size inb_S6_S1_2)).squeeze S_ squeezes_S1_S_).sem,
   SemLoc.dma ((cc1_scratch4.slice (Rect.unit (s := S6) ![3] S1.size inb_S6_S1_3)).squeeze S_ squeezes_S1_S_).sem,
   SemLoc.dma ((cc1_scratch4.slice (Rect.unit (s := S6) ![4] S1.size inb_S6_S1_4)).squeeze S_ squeezes_S1_S_).sem,
   SemLoc.dma ((cc1_scratch4.slice (Rect.unit (s := S6) ![5] S1.size inb_S6_S1_5)).squeeze S_ squeezes_S1_S_).sem]

theorem slotSems_nodup : (slotSems).Nodup := by decide
theorem slotSems_scoped : ∀ a ∈ slotSems, SemLoc.isScoped .scVector a = true := by decide

/-- The tile's other own cells, at zero. -/
def semRest (d : Dev nD) (L : grid1.Coords) : sProp 𝕄 :=
  bigSep (ownCells (V d (cV L) (jV L)) \ (slotSems.map fun a => (((V d (cV L) (jV L)), a) : GSem nD τ sig)).toFinset) fun g => semVal g 0

/-- The tile's own cells at zero are the eighteen slot semaphores at zero and the rest. -/
theorem ownSems0_V (d : Dev nD) (L : grid1.Coords) :
    (ownSems0 (V d (cV L) (jV L)) : sProp 𝕄)
      = iprop(semVal ((V d (cV L) (jV L)), SemLoc.dma ((cc1_scratch2.slice (Rect.unit (s := S6) ![0] S1.size inb_S6_S1_0)).squeeze S_ squeezes_S1_S_).sem) 0
          ∗ semVal ((V d (cV L) (jV L)), SemLoc.dma ((cc1_scratch2.slice (Rect.unit (s := S6) ![1] S1.size inb_S6_S1_1)).squeeze S_ squeezes_S1_S_).sem) 0
          ∗ semVal ((V d (cV L) (jV L)), SemLoc.dma ((cc1_scratch2.slice (Rect.unit (s := S6) ![2] S1.size inb_S6_S1_2)).squeeze S_ squeezes_S1_S_).sem) 0
          ∗ semVal ((V d (cV L) (jV L)), SemLoc.dma ((cc1_scratch2.slice (Rect.unit (s := S6) ![3] S1.size inb_S6_S1_3)).squeeze S_ squeezes_S1_S_).sem) 0
          ∗ semVal ((V d (cV L) (jV L)), SemLoc.dma ((cc1_scratch2.slice (Rect.unit (s := S6) ![4] S1.size inb_S6_S1_4)).squeeze S_ squeezes_S1_S_).sem) 0
          ∗ semVal ((V d (cV L) (jV L)), SemLoc.dma ((cc1_scratch2.slice (Rect.unit (s := S6) ![5] S1.size inb_S6_S1_5)).squeeze S_ squeezes_S1_S_).sem) 0
          ∗ semVal ((V d (cV L) (jV L)), SemLoc.dma ((cc1_scratch3.slice (Rect.unit (s := S6) ![0] S1.size inb_S6_S1_0)).squeeze S_ squeezes_S1_S_).sem) 0
          ∗ semVal ((V d (cV L) (jV L)), SemLoc.dma ((cc1_scratch3.slice (Rect.unit (s := S6) ![1] S1.size inb_S6_S1_1)).squeeze S_ squeezes_S1_S_).sem) 0
          ∗ semVal ((V d (cV L) (jV L)), SemLoc.dma ((cc1_scratch3.slice (Rect.unit (s := S6) ![2] S1.size inb_S6_S1_2)).squeeze S_ squeezes_S1_S_).sem) 0
          ∗ semVal ((V d (cV L) (jV L)), SemLoc.dma ((cc1_scratch3.slice (Rect.unit (s := S6) ![3] S1.size inb_S6_S1_3)).squeeze S_ squeezes_S1_S_).sem) 0
          ∗ semVal ((V d (cV L) (jV L)), SemLoc.dma ((cc1_scratch3.slice (Rect.unit (s := S6) ![4] S1.size inb_S6_S1_4)).squeeze S_ squeezes_S1_S_).sem) 0
          ∗ semVal ((V d (cV L) (jV L)), SemLoc.dma ((cc1_scratch3.slice (Rect.unit (s := S6) ![5] S1.size inb_S6_S1_5)).squeeze S_ squeezes_S1_S_).sem) 0
          ∗ semVal ((V d (cV L) (jV L)), SemLoc.dma ((cc1_scratch4.slice (Rect.unit (s := S6) ![0] S1.size inb_S6_S1_0)).squeeze S_ squeezes_S1_S_).sem) 0
          ∗ semVal ((V d (cV L) (jV L)), SemLoc.dma ((cc1_scratch4.slice (Rect.unit (s := S6) ![1] S1.size inb_S6_S1_1)).squeeze S_ squeezes_S1_S_).sem) 0
          ∗ semVal ((V d (cV L) (jV L)), SemLoc.dma ((cc1_scratch4.slice (Rect.unit (s := S6) ![2] S1.size inb_S6_S1_2)).squeeze S_ squeezes_S1_S_).sem) 0
          ∗ semVal ((V d (cV L) (jV L)), SemLoc.dma ((cc1_scratch4.slice (Rect.unit (s := S6) ![3] S1.size inb_S6_S1_3)).squeeze S_ squeezes_S1_S_).sem) 0
          ∗ semVal ((V d (cV L) (jV L)), SemLoc.dma ((cc1_scratch4.slice (Rect.unit (s := S6) ![4] S1.size inb_S6_S1_4)).squeeze S_ squeezes_S1_S_).sem) 0
          ∗ semVal ((V d (cV L) (jV L)), SemLoc.dma ((cc1_scratch4.slice (Rect.unit (s := S6) ![5] S1.size inb_S6_S1_5)).squeeze S_ squeezes_S1_S_).sem) 0
          ∗ semRest d L) := by
  unfold SparseCore.Cfg.ownSems0
  have hmem : ∀ g ∈ slotSems.map (fun a => (((V d (cV L) (jV L)), a) : GSem nD τ sig)), g ∈ ownCells (V d (cV L) (jV L)) := by
    intro g hg
    obtain ⟨a, ha, rfl⟩ := List.mem_map.mp hg
    exact mem_ownCells.mpr ⟨rfl, slotSems_scoped a ha⟩
  rw [bigSep_take_list (fun g => semVal g 0) (slotSems.map fun a => (((V d (cV L) (jV L)), a) : GSem nD τ sig)) _
    (slotSems_nodup.map fun x y h => (Prod.mk.inj h).2) hmem]
  unfold semRest
  simp only [slotSems, List.map_cons, List.map_nil, List.foldr_cons, List.foldr_nil]

/-! ## The tile's own buffers: the two scratch buffers and the rest -/

/-- The tile's other own buffers, each whole at some contents. -/
def bufRest (d : Dev nD) (L : grid1.Coords) : sProp 𝕄 :=
  bigSep (ownRefs (τ := τ) (.scVector (cV L) (jV L))
      \ [(Proc.scVector (cV L) (jV L)).devRef cc1_scratch0, (Proc.scVector (cV L) (jV L)).devRef cc1_scratch1].toFinset)
    fun b => iprop(∃ f, ((d, b) : Loc nD τ sig) ↦{fullShare} f)

/-- The tile's own buffers are its two scratch buffers, each whole at some contents, and the rest. -/
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ bufRest d L) := by
  unfold SparseCore.Cfg.ownBufs
  refine (bigSep_take_list (fun b => iprop(∃ f, ((d, b) : Loc nD τ sig) ↦{fullShare} f))
    [(Proc.scVector (cV L) (jV L)).devRef cc1_scratch0, (Proc.scVector (cV L) (jV L)).devRef cc1_scratch1] _ ?_ ?_).trans rfl
  · refine List.nodup_cons.mpr ⟨?_, List.nodup_singleton _⟩
    rw [List.mem_singleton]
    exact fun e => absurd (Proc.devRef_injective _ e) (show (cc1_scratch0 : Ref sig .scVector) ≠ cc1_scratch1 by decide)
  · intro b hb
    rcases List.mem_cons.mp hb with rfl | hb
    · exact SparseCore.Cfg.mem_ownRefs_of_owner (p := Proc.scVector (cV L) (jV L)) rfl
    · rw [List.mem_singleton] at hb; subst hb
      exact SparseCore.Cfg.mem_ownRefs_of_owner (p := Proc.scVector (cV L) (jV L)) rfl

/-! ## A family over six slots, slot by slot -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A buffer held at contents of which something is known is held at some contents. -/
theorem ex_forget {ℓ : Loc nD τ sig} (φ : Buf (Elt F) ℓ → Prop) :
    (iprop(∃ g, ⌜φ g⌝ ∗ ℓ ↦{fullShare} g) : sProp 𝕄) ⊢ iprop(∃ f, ℓ ↦{fullShare} f) := by
  iintro ⟨%g, -, Hg⟩
  iexists g; iexact Hg

/-! ## The index scratch is its six slots -/

/-- Slot b of the index scratch: row b of its six rows of 128 words. -/
abbrev iSlot (b : Fin 6) : Rect S6x128 :=
  Rect.unit (s := S6x128) ![b.val, 0] S1x128.size (fun a => match a with
    | ⟨0, _⟩ => (by show b.val + 1 ≤ 6; omega)
    | ⟨1, _⟩ => (by show 0 + 128 ≤ 128; omega))

/-- Its elements, as the slot's memref (sliced out, then squeezed to 128 words) has them. -/
abbrev iSet (b : Fin 6) : Finset S6x128.Idx := ((sI.slice (iSlot b) (fun _ => rfl)).squeeze S128 squeezes_S1x128_S128).view.set

theorem iSet_eq (b : Fin 6) : iSet b = (iSlot b).set := by
  show (((View.whole (cc1_scratch0 : Ref sig .scVector)).slice (iSlot b)).reshape S128 _).set = _
  rw [View.set_reshape, View.set_slice]; exact Finset.map_refl

/-- Two slots share no word: they lie in different rows. -/
theorem iSet_disjoint : ∀ b ∈ (Finset.univ : Finset (Fin 6)), ∀ b' ∈ (Finset.univ : Finset (Fin 6)), b ≠ b' → Disjoint (iSet b) (iSet b') :=
  fun b _ b' _ h => by
    rw [iSet_eq, iSet_eq]
    refine Rect.unit_disjoint (0 : Fin 2) ?_
    have hv : b.val ≠ b'.val := fun e => h (Fin.ext e)
    show b.val + 1 ≤ b'.val ∨ b'.val + 1 ≤ b.val
    omega

/-- Every word lies in the slot its row names. -/
theorem iSet_cover : (Finset.univ : Finset (Fin 6)).biUnion iSet = Finset.univ := by
  ext i
  simp only [Finset.mem_biUnion, Finset.mem_univ, true_and, iff_true]
  refine ⟨⟨(i 0).val, (i 0).isLt⟩, ?_⟩
  rw [iSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩

theorem sI_pts_slots (d : Dev nD) (L : grid1.Coords) (f : Buf (Elt F) ((V d (cV L) (jV L)).loc cc1_scratch0)) :
    ((V d (cV L) (jV L)).loc cc1_scratch0 ↦{fullShare} f : sProp 𝕄)
      = bigSep Finset.univ fun b : Fin 6 => (V d (cV L) (jV L)).loc cc1_scratch0 ↦[iSet b]{fullShare} f := by
  rw [← pointsTo_biUnion Finset.univ (ℓ := (V d (cV L) (jV L)).loc cc1_scratch0) iSet iSet_disjoint, iSet_cover]; try rfl

/-- The index scratch held whole is its six slots held, each as the program spells the slot. -/
theorem sI_slots (d : Dev nD) (L : grid1.Coords) (f : Buf (Elt F) (sI.view.loc (V d (cV L) (jV L)))) :
    (sI.view.loc (V d (cV L) (jV L)) ↦{fullShare} f : sProp 𝕄)
      ⊢ iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} f)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} f)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} f)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} f)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} f)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} f)) :=
  Entails.of_eq ((sI_pts_slots d L f).trans (bigSep_fin6 _))

/-- Six slots held, at whatever contents each, are the index scratch held whole at some contents. -/
theorem sI_join (d : Dev nD) (L : grid1.Coords) (g0 g1 g2 g3 g4 g5 : Buf (Elt F) (sI.view.loc (V d (cV L) (jV L)))) :
    (iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} g0)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} g1)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} g2)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} g3)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} g4)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} g5)) : sProp 𝕄)
      ⊢ iprop(∃ f, sI.view.loc (V d (cV L) (jV L)) ↦{fullShare} f) := by
  have h := pointsTo_biUnion_join (Ix := HIx 2) (Val := Elt F) (Name := ℕ) (U := UU) (Lvl := ℕ) (ℓ := (V d (cV L) (jV L)).loc cc1_scratch0) (q := fullShare)
    (Finset.univ : Finset (Fin 6)) iSet ![g0, g1, g2, g3, g4, g5] g0 iSet_disjoint
  rw [bigSep_fin6, iSet_cover] at h
  exact BI.Entails.trans h (ex_forget _)

/-! ## The row scratch is its six slots -/

/-- Slot b of the row scratch: block b of its six blocks of 128 rows of 128 words. -/
abbrev rSlot (b : Fin 6) : Rect S6x128x128 :=
  Rect.unit (s := S6x128x128) ![b.val, 0, 0] S1x128x128.size (fun a => match a with
    | ⟨0, _⟩ => (by show b.val + 1 ≤ 6; omega)
    | ⟨1, _⟩ => (by show 0 + 128 ≤ 128; omega)
    | ⟨2, _⟩ => (by show 0 + 128 ≤ 128; omega))

/-- Its elements, as the slot's memref (sliced out, then squeezed to 128 rows of 128 words) has them. -/
abbrev rSet (b : Fin 6) : Finset S6x128x128.Idx :=
  ((sR.slice (rSlot b) (fun _ => rfl)).squeeze S128x128 squeezes_S1x128x128_S128x128).view.set

theorem rSet_eq (b : Fin 6) : rSet b = (rSlot b).set := by
  show (((View.whole (cc1_scratch1 : Ref sig .scVector)).slice (rSlot b)).reshape S128x128 _).set = _
  rw [View.set_reshape, View.set_slice]; exact Finset.map_refl

/-- Two slots share no word: they lie in different blocks. -/
theorem rSet_disjoint : ∀ b ∈ (Finset.univ : Finset (Fin 6)), ∀ b' ∈ (Finset.univ : Finset (Fin 6)), b ≠ b' → Disjoint (rSet b) (rSet b') :=
  fun b _ b' _ h => by
    rw [rSet_eq, rSet_eq]
    refine Rect.unit_disjoint (0 : Fin 3) ?_
    have hv : b.val ≠ b'.val := fun e => h (Fin.ext e)
    show b.val + 1 ≤ b'.val ∨ b'.val + 1 ≤ b.val
    omega

/-- Every word lies in the slot its block names. -/
theorem rSet_cover : (Finset.univ : Finset (Fin 6)).biUnion rSet = Finset.univ := by
  ext i
  simp only [Finset.mem_biUnion, Finset.mem_univ, true_and, iff_true]
  refine ⟨⟨(i 0).val, (i 0).isLt⟩, ?_⟩
  rw [rSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩

theorem sR_pts_slots (d : Dev nD) (L : grid1.Coords) (f : Buf (Elt F) ((V d (cV L) (jV L)).loc cc1_scratch1)) :
    ((V d (cV L) (jV L)).loc cc1_scratch1 ↦{fullShare} f : sProp 𝕄)
      = bigSep Finset.univ fun b : Fin 6 => (V d (cV L) (jV L)).loc cc1_scratch1 ↦[rSet b]{fullShare} f := by
  rw [← pointsTo_biUnion Finset.univ (ℓ := (V d (cV L) (jV L)).loc cc1_scratch1) rSet rSet_disjoint, rSet_cover]; try rfl

/-- The row scratch held whole is its six slots held, each as the program spells the slot. -/
theorem sR_slots (d : Dev nD) (L : grid1.Coords) (f : Buf (Elt F) (sR.view.loc (V d (cV L) (jV L)))) :
    (sR.view.loc (V d (cV L) (jV L)) ↦{fullShare} f : sProp 𝕄)
      ⊢ iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} f)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} f)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} f)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} f)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} f)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} f)) :=
  Entails.of_eq ((sR_pts_slots d L f).trans (bigSep_fin6 _))

/-- Six slots held, at whatever contents each, are the row scratch held whole at some contents. -/
theorem sR_join (d : Dev nD) (L : grid1.Coords) (g0 g1 g2 g3 g4 g5 : Buf (Elt F) (sR.view.loc (V d (cV L) (jV L)))) :
    (iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} g0)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} g1)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} g2)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} g3)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} g4)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} g5)) : sProp 𝕄)
      ⊢ iprop(∃ f, sR.view.loc (V d (cV L) (jV L)) ↦{fullShare} f) := by
  have h := pointsTo_biUnion_join (Ix := HIx 2) (Val := Elt F) (Name := ℕ) (U := UU) (Lvl := ℕ) (ℓ := (V d (cV L) (jV L)).loc cc1_scratch1) (q := fullShare)
    (Finset.univ : Finset (Fin 6)) rSet ![g0, g1, g2, g3, g4, g5] g0 rSet_disjoint
  rw [bigSep_fin6, rSet_cover] at h
  exact BI.Entails.trans h (ex_forget _)

end Cert.KernelIdeal.Hand
end
-- ==== Proof.ScTile0.lean ====
/-
  The obligation of one vector subcore's task of gather call 0, as the SparseCore launch asks it: from the level facts, the
  task's operands (its read shares of table and index list, its result windows at what the result held), the subcore's scoped
  buffers and semaphores and what it owes, the kernel's body runs to the result windows at the gathered rows, the scoped
  storage back, and what it owes unchanged. The subcore's own semaphores are the ring's eighteen and the rest, its own
  buffers the two scratch buffers — each its six slots — and the rest; the rest rides along the run.
-/
import proofs.«208461_g52518860095779_cont_9to1_m_1075_29_alg».proof.Proof.ScTile0Run
import proofs.«208461_g52518860095779_cont_9to1_m_1075_29_alg».proof.Proof.ScTile0Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The tile's coordinates and its windows -/

/-- The grid coordinates of tile (c, s). -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tW (Memref.isWhole_whole _) iW (Memref.isWhole_whole _) oW (Memref.isWhole_whole _)
          sI (Memref.isWhole_whole _) sR (Memref.isWhole_whole _) cc1_scratch2 cc1_scratch3 cc1_scratch4) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Wrap
variable (d : Dev nD) (L : grid1.Coords)

/-- The tile's SparseCore and subcore, as the call's payload counts them. -/
abbrev cL : Fin 2 := Fin.cast (by rfl) (L 0)
abbrev sL : Fin 16 := Fin.cast (by rfl) (L 1)

theorem wid_L : wid (cL L) (sL L) = 2 * (L 1).val + (L 0).val := by
  show (L 1).val * 2 + (L 0).val = _; omega
/-- The tile's first window, -/
theorem lo_L : lo0 (wid (cL L) (sL L)) = loL L := by rw [wid_L]; rfl
/-- and the end of its windows. -/
theorem hi_L : hi0 (wid (cL L) (sL L)) = loL L + nW L := by
  rw [wid_L]; unfold hi0 nW loL
  by_cases h : 2 * (L 1).val + (L 0).val < 4 <;> simp only [h, if_true, if_false] <;> omega

/-- What the call hands the tile, in the spelling of the tile's run. -/
theorem tile0_eq (tb : Dev nD → Tab (F := F)) (ix : Dev nD → Ix0 (F := F)) (g : Dev nD → Out0 (F := F)) :
    (tile0 tb ix g d (cL L) (sL L) : sProp 𝕄)
      = iprop(((tW).view.loc (V d (cV L) (jV L)) ↦{qTile (cL L) (sL L)} tb d) ∗ ((iW).view.loc (V d (cV L) (jV L)) ↦{qTile (cL L) (sL L)} ix d)
          ∗ bigSep (Ring.rangeSet 2500 (loL L) (loL L + nW L)) fun w => oLoc0 d ↦[oSet0 w]{fullShare} g d) := by
  unfold tile0; rw [lo_L, hi_L]

theorem todoP_zero (g : Out0 (F := F)) :
    (todoP d L g 0 : sProp 𝕄) = bigSep (Ring.rangeSet 2500 (loL L) (loL L + nW L)) fun w => oLoc0 d ↦[oSet0 w]{fullShare} g := by
  unfold todoP; rw [Nat.mul_zero, Nat.add_zero]

set_option maxHeartbeats 4000000 in
/-- The task of tile L of device d: its own cells and buffers opened, the run, and everything handed back. -/
theorem tile_wrap (tb : Dev nD → Tab (F := F)) (ix : Dev nD → Ix0 (F := F)) (f0 : Dev nD → Out0 (F := F))
    (hin : ∀ j, (ix d j).toNat < 20000) (O : CellTallies nD τ sig (HIx 2)) (W : Waits sig (HIx 2)) (hO : ∀ g, O g none = 0) :
    iprop(levAts (K (F := F)).L (K (F := F)).lev ∗ emp ∗ tile0 tb ix f0 d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tW (Memref.isWhole_whole _) iW (Memref.isWhole_whole _) oW (Memref.isWhole_whole _)
            sI (Memref.isWhole_whole _) sR (Memref.isWhole_whole _) cc1_scratch2 cc1_scratch3 cc1_scratch4)
          fun _ => iprop(tile0 tb ix (fun d => gath0 (tb d) (ix d)) d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V,
    tile0_eq, tile0_eq]
  iintro ⟨#Hlv, -, ⟨Ht, Hi, Hw⟩, ⟨⟨%fi, HsI⟩, ⟨%fr, HsR⟩, Hbr⟩, ⟨S20, S21, S22, S23, S24, S25, S30, S31, S32, S33, S34, S35, S40, S41, S42, S43, S44, S45, Hsr⟩, HO⟩
  ihave HMW := ((K (F := F)).mayWaits_none (thr := (V d (cV L) (jV L))) hO) $$ Hlv
  icases (sI_slots d L fi) $$ HsI with ⟨I0, I1, I2, I3, I4, I5⟩
  icases (sR_slots d L fr) $$ HsR with ⟨R0, R1, R2, R3, R4, R5⟩
  iapply (wp_wand_r frame _ Set.univ)
  isplitl [HMW Ht Hi Hw I0 I1 I2 I3 I4 I5 R0 R1 R2 R3 R4 R5 S20 S21 S22 S23 S24 S25 S30 S31 S32 S33 S34 S35 S40 S41 S42 S43 S44 S45 HO]
  · iapply (tile_run d L (qTile (cL L) (sL L)) (tb d) (ix d) (f0 d) O W hin)
    unfold preRun
    rw [todoP_zero]
    isplitl [HMW]; · iexact HMW
    isplitl [Ht]; · iexact Ht
    isplitl [Hi]; · iexact Hi
    isplitl [Hw]; · iexact Hw
    isplitl [I0]; · iexists fi; iexact I0
    isplitl [I1]; · iexists fi; iexact I1
    isplitl [I2]; · iexists fi; iexact I2
    isplitl [I3]; · iexists fi; iexact I3
    isplitl [I4]; · iexists fi; iexact I4
    isplitl [I5]; · iexists fi; iexact I5
    isplitl [R0]; · iexists fr; iexact R0
    isplitl [R1]; · iexists fr; iexact R1
    isplitl [R2]; · iexists fr; iexact R2
    isplitl [R3]; · iexists fr; iexact R3
    isplitl [R4]; · iexists fr; iexact R4
    isplitl [R5]; · iexists fr; iexact R5
    isplitl [S20]; · iexact S20
    isplitl [S21]; · iexact S21
    isplitl [S22]; · iexact S22
    isplitl [S23]; · iexact S23
    isplitl [S24]; · iexact S24
    isplitl [S25]; · iexact S25
    isplitl [S30]; · iexact S30
    isplitl [S31]; · iexact S31
    isplitl [S32]; · iexact S32
    isplitl [S33]; · iexact S33
    isplitl [S34]; · iexact S34
    isplitl [S35]; · iexact S35
    isplitl [S40]; · iexact S40
    isplitl [S41]; · iexact S41
    isplitl [S42]; · iexact S42
    isplitl [S43]; · iexact S43
    isplitl [S44]; · iexact S44
    isplitl [S45]; · iexact S45
    iexact HO
  · iintro %_ Hpost
    unfold postRun
    icases Hpost with ⟨Ht, Hi, Hw, ⟨%gi0, I0⟩, ⟨%gi1, I1⟩, ⟨%gi2, I2⟩, ⟨%gi3, I3⟩, ⟨%gi4, I4⟩, ⟨%gi5, I5⟩, ⟨%gr0, R0⟩, ⟨%gr1, R1⟩, ⟨%gr2, R2⟩, ⟨%gr3, R3⟩, ⟨%gr4, R4⟩, ⟨%gr5, R5⟩, S20, S21, S22, S23, S24, S25, S30, S31, S32, S33, S34, S35, S40, S41, S42, S43, S44, S45, HO⟩
    isplitl [Ht Hi Hw]
    · isplitl [Ht]; · iexact Ht
      isplitl [Hi]; · iexact Hi
      iexact Hw
    isplitl [I0 I1 I2 I3 I4 I5 R0 R1 R2 R3 R4 R5 Hbr]
    · isplitl [I0 I1 I2 I3 I4 I5]
      · iapply (sI_join d L gi0 gi1 gi2 gi3 gi4 gi5)
        isplitl [I0]; · iexact I0
        isplitl [I1]; · iexact I1
        isplitl [I2]; · iexact I2
        isplitl [I3]; · iexact I3
        isplitl [I4]; · iexact I4
        iexact I5
      isplitl [R0 R1 R2 R3 R4 R5]
      · iapply (sR_join d L gr0 gr1 gr2 gr3 gr4 gr5)
        isplitl [R0]; · iexact R0
        isplitl [R1]; · iexact R1
        isplitl [R2]; · iexact R2
        isplitl [R3]; · iexact R3
        isplitl [R4]; · iexact R4
        iexact R5
      iexact Hbr
    isplitl [S20 S21 S22 S23 S24 S25 S30 S31 S32 S33 S34 S35 S40 S41 S42 S43 S44 S45 Hsr]
    ·
      isplitl [S20]; · iexact S20
      isplitl [S21]; · iexact S21
      isplitl [S22]; · iexact S22
      isplitl [S23]; · iexact S23
      isplitl [S24]; · iexact S24
      isplitl [S25]; · iexact S25
      isplitl [S30]; · iexact S30
      isplitl [S31]; · iexact S31
      isplitl [S32]; · iexact S32
      isplitl [S33]; · iexact S33
      isplitl [S34]; · iexact S34
      isplitl [S35]; · iexact S35
      isplitl [S40]; · iexact S40
      isplitl [S41]; · iexact S41
      isplitl [S42]; · iexact S42
      isplitl [S43]; · iexact S43
      isplitl [S44]; · iexact S44
      isplitl [S45]; · iexact S45
      iexact Hsr
    iexact HO

end Wrap

/-! ## The launch theorem's obligation -/

section Obl
variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

set_option maxHeartbeats 4000000 in
/-- Gather call 0, as one vector subcore's task: the launch theorem's obligation for it. -/
theorem tileObl0 (hin0 : ∀ d j, (ix0 d j).toNat < 20000) :
    (K (F := F)).TileObl (D (F := F)) 𝒱 (P tb0 ix0 f0 tb1 ix1 f1) v₀ 0 := by
  intro d c i O W hO _ _
  simp only [P_ox, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_wrap d (coordsV ⟨_, hc.1⟩ ⟨_, hc.2⟩) tb0 ix0 f0 (hin0 d) O W hO).trans (wp_mono frame _ _ fun _ => obl_post)

end Obl

end Cert.KernelIdeal.Hand

end
-- ==== Proof.ScTile1Inv.lean ====
/-
  One tile of gather call 1: which windows it owns and which branches of the kernel's body it takes (in closed
  form), the result's windows as the parts of a cut of its rows, runs of windows taken six at a time, and the
  invariant of the kernel's loop: per slot of the six-slot ring, the index copy and the write-out outstanding at
  the head of a trip, with what they will deliver; the windows still to write and those written.
-/
import proofs.«208461_g52518860095779_cont_9to1_m_1075_29_alg».proof.Proof.ScPay

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- A window number as an index of the 5000 windows (capped: every window met is below 5000). -/
def fw (w : ℕ) : Fin 5000 := ⟨min w 4999, by omega⟩
theorem fw_val {w : ℕ} (h : w < 5000) : (fw w).val = w := by show min w 4999 = w; omega

abbrev cV (L : grid3.Coords) : Fin τ.nSC := (L 0).castLE hcore3
abbrev jV (L : grid3.Coords) : Fin τ.nSub := (L 1).castLE hsub3

abbrev tW : Memref sig .scVector .hbm S20000x128 .f32 := Memref.whole main_v12_scv
abbrev iW : Memref sig .scVector .hbm S640000 .i32 := Memref.whole main_v25_scv
abbrev oW : Memref sig .scVector .hbm S640000x128 .f32 := Memref.whole main_v26_scv
abbrev sI : Memref sig .scVector .vmem S6x128 .i32 := Memref.whole cc3_scratch0
abbrev sR : Memref sig .scVector .vmem S6x128x128 .f32 := Memref.whole cc3_scratch1

/-- Word r of the index list (capped: every word met is below 640000). -/
def ixAt (ix : Ix1 (F := F)) (r : ℕ) : Elt F .i32 := ix (ValueIdx.ix1 (⟨min r 639999, by omega⟩ : Fin 640000))

/-! ## The tile's windows and the branch conditions -/

/-- How many windows tile L owns, -/
def nW (L : grid3.Coords) : ℕ := 156 + (if 2 * (L 1).val + (L 0).val < 8 then 1 else 0)
/-- and the first of them. -/
def loL (L : grid3.Coords) : ℕ := lo1 (2 * (L 1).val + (L 0).val)

theorem nW_ge (L : grid3.Coords) : 156 ≤ nW L := by unfold nW; omega
theorem nW_le (L : grid3.Coords) : nW L ≤ 157 := by unfold nW; split <;> omega
theorem loL_hi (L : grid3.Coords) : loL L + nW L ≤ 5000 := by
  have h0 : (L 0).val < 2 := (L 0).isLt
  have h1 : (L 1).val < 16 := (L 1).isLt
  unfold loL nW lo1; split <;> omega

theorem cond1_true : ∀ L : grid3.Coords, k3_cond1 L = 1#1 := by decide +kernel
theorem cond2_true : ∀ L : grid3.Coords, k3_cond2 L = 1#1 := by decide +kernel
theorem cond3_true : ∀ L : grid3.Coords, k3_cond3 L = 1#1 := by decide +kernel
theorem cond4_true : ∀ L : grid3.Coords, k3_cond4 L = 1#1 := by decide +kernel
theorem cond5_true : ∀ L : grid3.Coords, k3_cond5 L = 1#1 := by decide +kernel
theorem cond6_true : ∀ L : grid3.Coords, k3_cond6 L = 1#1 := by decide +kernel
theorem cond7_iff : ∀ (L : grid3.Coords) (t : Fin k3_t1_loop.trips), k3_cond7 L t = 1#1 ↔ 6 * t.val + 0 < nW L := by decide +kernel
theorem cond9_iff : ∀ (L : grid3.Coords) (t : Fin k3_t1_loop.trips), k3_cond9 L t = 1#1 ↔ 6 * t.val + 1 < nW L := by decide +kernel
theorem cond11_iff : ∀ (L : grid3.Coords) (t : Fin k3_t1_loop.trips), k3_cond11 L t = 1#1 ↔ 6 * t.val + 2 < nW L := by decide +kernel
theorem cond13_iff : ∀ (L : grid3.Coords) (t : Fin k3_t1_loop.trips), k3_cond13 L t = 1#1 ↔ 6 * t.val + 3 < nW L := by decide +kernel
theorem cond15_iff : ∀ (L : grid3.Coords) (t : Fin k3_t1_loop.trips), k3_cond15 L t = 1#1 ↔ 6 * t.val + 4 < nW L := by decide +kernel
theorem cond17_iff : ∀ (L : grid3.Coords) (t : Fin k3_t1_loop.trips), k3_cond17 L t = 1#1 ↔ 6 * t.val + 5 < nW L := by decide +kernel
theorem cond8_iff : ∀ (t : Fin k3_t1_loop.trips), k3_cond8 t = 1#1 ↔ 0 < t.val := by decide +kernel
theorem cond10_iff : ∀ (t : Fin k3_t1_loop.trips), k3_cond10 t = 1#1 ↔ 0 < t.val := by decide +kernel
theorem cond12_iff : ∀ (t : Fin k3_t1_loop.trips), k3_cond12 t = 1#1 ↔ 0 < t.val := by decide +kernel
theorem cond14_iff : ∀ (t : Fin k3_t1_loop.trips), k3_cond14 t = 1#1 ↔ 0 < t.val := by decide +kernel
theorem cond16_iff : ∀ (t : Fin k3_t1_loop.trips), k3_cond16 t = 1#1 ↔ 0 < t.val := by decide +kernel
theorem cond18_iff : ∀ (t : Fin k3_t1_loop.trips), k3_cond18 t = 1#1 ↔ 0 < t.val := by decide +kernel
theorem cond19_iff : ∀ (L : grid3.Coords) (t : Fin k3_t1_loop.trips), k3_cond19 L t = 1#1 ↔ 6 * t.val + 0 < nW L := by decide +kernel
theorem cond21_iff : ∀ (L : grid3.Coords) (t : Fin k3_t1_loop.trips), k3_cond21 L t = 1#1 ↔ 6 * t.val + 1 < nW L := by decide +kernel
theorem cond23_iff : ∀ (L : grid3.Coords) (t : Fin k3_t1_loop.trips), k3_cond23 L t = 1#1 ↔ 6 * t.val + 2 < nW L := by decide +kernel
theorem cond25_iff : ∀ (L : grid3.Coords) (t : Fin k3_t1_loop.trips), k3_cond25 L t = 1#1 ↔ 6 * t.val + 3 < nW L := by decide +kernel
theorem cond27_iff : ∀ (L : grid3.Coords) (t : Fin k3_t1_loop.trips), k3_cond27 L t = 1#1 ↔ 6 * t.val + 4 < nW L := by decide +kernel
theorem cond29_iff : ∀ (L : grid3.Coords) (t : Fin k3_t1_loop.trips), k3_cond29 L t = 1#1 ↔ 6 * t.val + 5 < nW L := by decide +kernel
theorem cond20_iff : ∀ (L : grid3.Coords) (t : Fin k3_t1_loop.trips), k3_cond20 L t = 1#1 ↔ 6 * t.val + 6 < nW L := by decide +kernel
theorem cond22_iff : ∀ (L : grid3.Coords) (t : Fin k3_t1_loop.trips), k3_cond22 L t = 1#1 ↔ 6 * t.val + 7 < nW L := by decide +kernel
theorem cond24_iff : ∀ (L : grid3.Coords) (t : Fin k3_t1_loop.trips), k3_cond24 L t = 1#1 ↔ 6 * t.val + 8 < nW L := by decide +kernel
theorem cond26_iff : ∀ (L : grid3.Coords) (t : Fin k3_t1_loop.trips), k3_cond26 L t = 1#1 ↔ 6 * t.val + 9 < nW L := by decide +kernel
theorem cond28_iff : ∀ (L : grid3.Coords) (t : Fin k3_t1_loop.trips), k3_cond28 L t = 1#1 ↔ 6 * t.val + 10 < nW L := by decide +kernel
theorem cond30_iff : ∀ (L : grid3.Coords) (t : Fin k3_t1_loop.trips), k3_cond30 L t = 1#1 ↔ 6 * t.val + 11 < nW L := by decide +kernel
theorem trips_eq : k3_t1_loop.trips = 27 := by decide

/-- The printed slice of the result at row offset 128 w is window w. -/
theorem oRect_eq (w : Fin 5000) (off : Fin 2 → ℕ) (h : ∀ a, off a + S128x128.size a ≤ S640000x128.size a) (e : off = ![128 * w.val, 0]) :
    Rect.unit (s := S640000x128) off S128x128.size h = oWin1 w := by
  subst e
  unfold oWin1 Rect.part Rect.block
  congr 1 <;> funext a
  · match a with
    | 0 => simp [Shape.partIx, Shape.partSize, S640000x128, Nat.mul_comm]
    | 1 => simp [Shape.partIx, Shape.partSize, S640000x128]
  · match a with
    | 0 => simp [Shape.partSize, S640000x128, S128x128]
    | 1 => simp [Shape.partSize, S640000x128, S128x128]

/-! ## Runs of windows: the first six set apart, one more joined at the end -/

section Pools
omit [FloatOps F] in
theorem head_fw (Φ : Fin 5000 → sProp 𝕄) (a h : ℕ) (h1 : a < h) (h2 : a < 5000) :
    bigSep (Ring.rangeSet 5000 a h) Φ = iprop(Φ (fw a) ∗ bigSep (Ring.rangeSet 5000 (a + 1) h) Φ) := by
  rw [Ring.bigSep_rangeSet_head h1 h2, show (⟨a, h2⟩ : Fin 5000) = fw a from Fin.ext (fw_val h2).symm]
omit [FloatOps F] in
theorem last_fw (Φ : Fin 5000 → sProp 𝕄) (a h : ℕ) (h1 : a ≤ h) (h2 : h < 5000) :
    bigSep (Ring.rangeSet 5000 a (h + 1)) Φ = iprop(Φ (fw h) ∗ bigSep (Ring.rangeSet 5000 a h) Φ) := by
  rw [Ring.bigSep_rangeSet_last (by omega : a < h + 1) (by omega : h + 1 ≤ 5000)]
  simp only [Nat.add_sub_cancel]
  rw [show (⟨h, by omega⟩ : Fin 5000) = fw h from Fin.ext (fw_val h2).symm]
omit [FloatOps F] in
theorem take6 (Φ : Fin 5000 → sProp 𝕄) (a h : ℕ) (h1 : a + 6 ≤ h) (h2 : h ≤ 5000) :
    bigSep (Ring.rangeSet 5000 a h) Φ = iprop(Φ (fw a) ∗ Φ (fw (a + 1)) ∗ Φ (fw (a + 2)) ∗ Φ (fw (a + 3)) ∗ Φ (fw (a + 4)) ∗ Φ (fw (a + 5))
      ∗ bigSep (Ring.rangeSet 5000 (a + 6) h) Φ) := by
  rw [head_fw Φ a h (by omega) (by omega), head_fw Φ (a + 1) h (by omega) (by omega), head_fw Φ (a + 2) h (by omega) (by omega),
    head_fw Φ (a + 3) h (by omega) (by omega), head_fw Φ (a + 4) h (by omega) (by omega), head_fw Φ (a + 5) h (by omega) (by omega)]
omit [FloatOps F] in
theorem put6 (Φ : Fin 5000 → sProp 𝕄) (a h : ℕ) (h1 : a ≤ h) (h2 : h + 6 ≤ 5000) :
    bigSep (Ring.rangeSet 5000 a (h + 6)) Φ = iprop(Φ (fw (h + 5)) ∗ Φ (fw (h + 4)) ∗ Φ (fw (h + 3)) ∗ Φ (fw (h + 2)) ∗ Φ (fw (h + 1)) ∗ Φ (fw h)
      ∗ bigSep (Ring.rangeSet 5000 a h) Φ) := by
  rw [last_fw Φ a (h + 5) (by omega) (by omega), last_fw Φ a (h + 4) (by omega) (by omega), last_fw Φ a (h + 3) (by omega) (by omega),
    last_fw Φ a (h + 2) (by omega) (by omega), last_fw Φ a (h + 1) (by omega) (by omega), last_fw Φ a h (by omega) (by omega)]
end Pools

/-! ## One tile: the loop's invariant -/

section Tile
variable (d : Dev nD) (L : grid3.Coords)
/-- The window whose write-out is outstanding on slot b at the head of trip t > 0, counted from the tile's first. -/
def wOut (n b t : ℕ) : ℕ := if 6 * (t - 1) + b < n then 6 * (t - 1) + b else 6 * (t - 2) + b
/-- How many of the tile's windows are written and waited for at the head of trip t. -/
def dn (n t : ℕ) : ℕ := if t = 27 then (if n = 157 then 151 else 150) else 6 * t - 6

/-- Slot 0, index side, a copy outstanding: the slot will hold window w of the list; the list's read token lent. -/
def idxFly0 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![0] S1.size inb_S6_S1_0)).squeeze S_ squeezes_S1_S_).sem) (default : HIx 2) 4096
        iprop(((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} ci) ∗ ((iW).view.loc (V d (cV L) (jV L)) ↦[I]{Transfers.shareTokN qi 32} ix))
    ∗ ((iW).view.loc (V d (cV L) (jV L)) ↦[Finset.univ \ I]{Transfers.shareTokN qi 32} ix))
/-- Slot 0, index side, nothing outstanding. -/
def idxIdle0 (qi : PosShare TreeShare) (ix : Ix1 (F := F)) : sProp 𝕄 :=
  iprop(semVal ((V d (cV L) (jV L)), SemLoc.dma ((cc3_scratch2.slice (Rect.unit (s := S6) ![0] S1.size inb_S6_S1_0)).squeeze S_ squeezes_S1_S_).sem) 0 ∗ (∃ ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} ci)
    ∗ ((iW).view.loc (V d (cV L) (jV L)) ↦{Transfers.shareTokN qi 32} ix))
def idxSide0 (qi : PosShare TreeShare) (ix : Ix1 (F := F)) (t : ℕ) : sProp 𝕄 :=
  if 6 * t + 0 < nW L then idxFly0 d L qi ix (loL L + 6 * t + 0) else idxIdle0 d L qi ix
theorem idxSide0_pos (qi : PosShare TreeShare) (ix : Ix1 (F := F)) (t : ℕ) (h : 6 * t + 0 < nW L) :
    idxSide0 d L qi ix t = idxFly0 d L qi ix (loL L + 6 * t + 0) := if_pos h
theorem idxSide0_neg (qi : PosShare TreeShare) (ix : Ix1 (F := F)) (t : ℕ) (h : ¬ 6 * t + 0 < nW L) :
    idxSide0 d L qi ix t = idxIdle0 d L qi ix := if_neg h
/-- Slot 0, rows side, a write-out outstanding: result window w at the gathered rows, and the slot's rows back. -/
def rowFly0 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![0] S1.size inb_S6_S1_0)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)))
def rowIdle0 : sProp 𝕄 :=
  iprop(semVal ((V d (cV L) (jV L)), SemLoc.dma ((cc3_scratch4.slice (Rect.unit (s := S6) ![0] S1.size inb_S6_S1_0)).squeeze S_ squeezes_S1_S_).sem) 0 ∗ ∃ gr : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)
def rowSide0 (tb : Tab (F := F)) (ix : Ix1 (F := F)) (t : ℕ) : sProp 𝕄 :=
  if t = 0 then rowIdle0 d L else rowFly0 d L tb ix (loL L + wOut (nW L) 0 t)
theorem rowSide0_zero (tb : Tab (F := F)) (ix : Ix1 (F := F)) (t : ℕ) (h : t = 0) : rowSide0 d L tb ix t = rowIdle0 d L := if_pos h
theorem rowSide0_pos (tb : Tab (F := F)) (ix : Ix1 (F := F)) (t : ℕ) (h : t ≠ 0) :
    rowSide0 d L tb ix t = rowFly0 d L tb ix (loL L + wOut (nW L) 0 t) := if_neg h

/-- Slot 1, index side, a copy outstanding: the slot will hold window w of the list; the list's read token lent. -/
def idxFly1 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![1] S1.size inb_S6_S1_1)).squeeze S_ squeezes_S1_S_).sem) (default : HIx 2) 4096
        iprop(((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} ci) ∗ ((iW).view.loc (V d (cV L) (jV L)) ↦[I]{Transfers.shareTokN qi 33} ix))
    ∗ ((iW).view.loc (V d (cV L) (jV L)) ↦[Finset.univ \ I]{Transfers.shareTokN qi 33} ix))
/-- Slot 1, index side, nothing outstanding. -/
def idxIdle1 (qi : PosShare TreeShare) (ix : Ix1 (F := F)) : sProp 𝕄 :=
  iprop(semVal ((V d (cV L) (jV L)), SemLoc.dma ((cc3_scratch2.slice (Rect.unit (s := S6) ![1] S1.size inb_S6_S1_1)).squeeze S_ squeezes_S1_S_).sem) 0 ∗ (∃ ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} ci)
    ∗ ((iW).view.loc (V d (cV L) (jV L)) ↦{Transfers.shareTokN qi 33} ix))
def idxSide1 (qi : PosShare TreeShare) (ix : Ix1 (F := F)) (t : ℕ) : sProp 𝕄 :=
  if 6 * t + 1 < nW L then idxFly1 d L qi ix (loL L + 6 * t + 1) else idxIdle1 d L qi ix
theorem idxSide1_pos (qi : PosShare TreeShare) (ix : Ix1 (F := F)) (t : ℕ) (h : 6 * t + 1 < nW L) :
    idxSide1 d L qi ix t = idxFly1 d L qi ix (loL L + 6 * t + 1) := if_pos h
theorem idxSide1_neg (qi : PosShare TreeShare) (ix : Ix1 (F := F)) (t : ℕ) (h : ¬ 6 * t + 1 < nW L) :
    idxSide1 d L qi ix t = idxIdle1 d L qi ix := if_neg h
/-- Slot 1, rows side, a write-out outstanding: result window w at the gathered rows, and the slot's rows back. -/
def rowFly1 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![1] S1.size inb_S6_S1_1)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)))
def rowIdle1 : sProp 𝕄 :=
  iprop(semVal ((V d (cV L) (jV L)), SemLoc.dma ((cc3_scratch4.slice (Rect.unit (s := S6) ![1] S1.size inb_S6_S1_1)).squeeze S_ squeezes_S1_S_).sem) 0 ∗ ∃ gr : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)
def rowSide1 (tb : Tab (F := F)) (ix : Ix1 (F := F)) (t : ℕ) : sProp 𝕄 :=
  if t = 0 then rowIdle1 d L else rowFly1 d L tb ix (loL L + wOut (nW L) 1 t)
theorem rowSide1_zero (tb : Tab (F := F)) (ix : Ix1 (F := F)) (t : ℕ) (h : t = 0) : rowSide1 d L tb ix t = rowIdle1 d L := if_pos h
theorem rowSide1_pos (tb : Tab (F := F)) (ix : Ix1 (F := F)) (t : ℕ) (h : t ≠ 0) :
    rowSide1 d L tb ix t = rowFly1 d L tb ix (loL L + wOut (nW L) 1 t) := if_neg h

/-- Slot 2, index side, a copy outstanding: the slot will hold window w of the list; the list's read token lent. -/
def idxFly2 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![2] S1.size inb_S6_S1_2)).squeeze S_ squeezes_S1_S_).sem) (default : HIx 2) 4096
        iprop(((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} ci) ∗ ((iW).view.loc (V d (cV L) (jV L)) ↦[I]{Transfers.shareTokN qi 34} ix))
    ∗ ((iW).view.loc (V d (cV L) (jV L)) ↦[Finset.univ \ I]{Transfers.shareTokN qi 34} ix))
/-- Slot 2, index side, nothing outstanding. -/
def idxIdle2 (qi : PosShare TreeShare) (ix : Ix1 (F := F)) : sProp 𝕄 :=
  iprop(semVal ((V d (cV L) (jV L)), SemLoc.dma ((cc3_scratch2.slice (Rect.unit (s := S6) ![2] S1.size inb_S6_S1_2)).squeeze S_ squeezes_S1_S_).sem) 0 ∗ (∃ ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} ci)
    ∗ ((iW).view.loc (V d (cV L) (jV L)) ↦{Transfers.shareTokN qi 34} ix))
def idxSide2 (qi : PosShare TreeShare) (ix : Ix1 (F := F)) (t : ℕ) : sProp 𝕄 :=
  if 6 * t + 2 < nW L then idxFly2 d L qi ix (loL L + 6 * t + 2) else idxIdle2 d L qi ix
theorem idxSide2_pos (qi : PosShare TreeShare) (ix : Ix1 (F := F)) (t : ℕ) (h : 6 * t + 2 < nW L) :
    idxSide2 d L qi ix t = idxFly2 d L qi ix (loL L + 6 * t + 2) := if_pos h
theorem idxSide2_neg (qi : PosShare TreeShare) (ix : Ix1 (F := F)) (t : ℕ) (h : ¬ 6 * t + 2 < nW L) :
    idxSide2 d L qi ix t = idxIdle2 d L qi ix := if_neg h
/-- Slot 2, rows side, a write-out outstanding: result window w at the gathered rows, and the slot's rows back. -/
def rowFly2 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![2] S1.size inb_S6_S1_2)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)))
def rowIdle2 : sProp 𝕄 :=
  iprop(semVal ((V d (cV L) (jV L)), SemLoc.dma ((cc3_scratch4.slice (Rect.unit (s := S6) ![2] S1.size inb_S6_S1_2)).squeeze S_ squeezes_S1_S_).sem) 0 ∗ ∃ gr : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)
def rowSide2 (tb : Tab (F := F)) (ix : Ix1 (F := F)) (t : ℕ) : sProp 𝕄 :=
  if t = 0 then rowIdle2 d L else rowFly2 d L tb ix (loL L + wOut (nW L) 2 t)
theorem rowSide2_zero (tb : Tab (F := F)) (ix : Ix1 (F := F)) (t : ℕ) (h : t = 0) : rowSide2 d L tb ix t = rowIdle2 d L := if_pos h
theorem rowSide2_pos (tb : Tab (F := F)) (ix : Ix1 (F := F)) (t : ℕ) (h : t ≠ 0) :
    rowSide2 d L tb ix t = rowFly2 d L tb ix (loL L + wOut (nW L) 2 t) := if_neg h

/-- Slot 3, index side, a copy outstanding: the slot will hold window w of the list; the list's read token lent. -/
def idxFly3 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![3] S1.size inb_S6_S1_3)).squeeze S_ squeezes_S1_S_).sem) (default : HIx 2) 4096
        iprop(((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} ci) ∗ ((iW).view.loc (V d (cV L) (jV L)) ↦[I]{Transfers.shareTokN qi 35} ix))
    ∗ ((iW).view.loc (V d (cV L) (jV L)) ↦[Finset.univ \ I]{Transfers.shareTokN qi 35} ix))
/-- Slot 3, index side, nothing outstanding. -/
def idxIdle3 (qi : PosShare TreeShare) (ix : Ix1 (F := F)) : sProp 𝕄 :=
  iprop(semVal ((V d (cV L) (jV L)), SemLoc.dma ((cc3_scratch2.slice (Rect.unit (s := S6) ![3] S1.size inb_S6_S1_3)).squeeze S_ squeezes_S1_S_).sem) 0 ∗ (∃ ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} ci)
    ∗ ((iW).view.loc (V d (cV L) (jV L)) ↦{Transfers.shareTokN qi 35} ix))
def idxSide3 (qi : PosShare TreeShare) (ix : Ix1 (F := F)) (t : ℕ) : sProp 𝕄 :=
  if 6 * t + 3 < nW L then idxFly3 d L qi ix (loL L + 6 * t + 3) else idxIdle3 d L qi ix
theorem idxSide3_pos (qi : PosShare TreeShare) (ix : Ix1 (F := F)) (t : ℕ) (h : 6 * t + 3 < nW L) :
    idxSide3 d L qi ix t = idxFly3 d L qi ix (loL L + 6 * t + 3) := if_pos h
theorem idxSide3_neg (qi : PosShare TreeShare) (ix : Ix1 (F := F)) (t : ℕ) (h : ¬ 6 * t + 3 < nW L) :
    idxSide3 d L qi ix t = idxIdle3 d L qi ix := if_neg h
/-- Slot 3, rows side, a write-out outstanding: result window w at the gathered rows, and the slot's rows back. -/
def rowFly3 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![3] S1.size inb_S6_S1_3)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)))
def rowIdle3 : sProp 𝕄 :=
  iprop(semVal ((V d (cV L) (jV L)), SemLoc.dma ((cc3_scratch4.slice (Rect.unit (s := S6) ![3] S1.size inb_S6_S1_3)).squeeze S_ squeezes_S1_S_).sem) 0 ∗ ∃ gr : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)
def rowSide3 (tb : Tab (F := F)) (ix : Ix1 (F := F)) (t : ℕ) : sProp 𝕄 :=
  if t = 0 then rowIdle3 d L else rowFly3 d L tb ix (loL L + wOut (nW L) 3 t)
theorem rowSide3_zero (tb : Tab (F := F)) (ix : Ix1 (F := F)) (t : ℕ) (h : t = 0) : rowSide3 d L tb ix t = rowIdle3 d L := if_pos h
theorem rowSide3_pos (tb : Tab (F := F)) (ix : Ix1 (F := F)) (t : ℕ) (h : t ≠ 0) :
    rowSide3 d L tb ix t = rowFly3 d L tb ix (loL L + wOut (nW L) 3 t) := if_neg h

/-- Slot 4, index side, a copy outstanding: the slot will hold window w of the list; the list's read token lent. -/
def idxFly4 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![4] S1.size inb_S6_S1_4)).squeeze S_ squeezes_S1_S_).sem) (default : HIx 2) 4096
        iprop(((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} ci) ∗ ((iW).view.loc (V d (cV L) (jV L)) ↦[I]{Transfers.shareTokN qi 36} ix))
    ∗ ((iW).view.loc (V d (cV L) (jV L)) ↦[Finset.univ \ I]{Transfers.shareTokN qi 36} ix))
/-- Slot 4, index side, nothing outstanding. -/
def idxIdle4 (qi : PosShare TreeShare) (ix : Ix1 (F := F)) : sProp 𝕄 :=
  iprop(semVal ((V d (cV L) (jV L)), SemLoc.dma ((cc3_scratch2.slice (Rect.unit (s := S6) ![4] S1.size inb_S6_S1_4)).squeeze S_ squeezes_S1_S_).sem) 0 ∗ (∃ ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} ci)
    ∗ ((iW).view.loc (V d (cV L) (jV L)) ↦{Transfers.shareTokN qi 36} ix))
def idxSide4 (qi : PosShare TreeShare) (ix : Ix1 (F := F)) (t : ℕ) : sProp 𝕄 :=
  if 6 * t + 4 < nW L then idxFly4 d L qi ix (loL L + 6 * t + 4) else idxIdle4 d L qi ix
theorem idxSide4_pos (qi : PosShare TreeShare) (ix : Ix1 (F := F)) (t : ℕ) (h : 6 * t + 4 < nW L) :
    idxSide4 d L qi ix t = idxFly4 d L qi ix (loL L + 6 * t + 4) := if_pos h
theorem idxSide4_neg (qi : PosShare TreeShare) (ix : Ix1 (F := F)) (t : ℕ) (h : ¬ 6 * t + 4 < nW L) :
    idxSide4 d L qi ix t = idxIdle4 d L qi ix := if_neg h
/-- Slot 4, rows side, a write-out outstanding: result window w at the gathered rows, and the slot's rows back. -/
def rowFly4 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![4] S1.size inb_S6_S1_4)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)))
def rowIdle4 : sProp 𝕄 :=
  iprop(semVal ((V d (cV L) (jV L)), SemLoc.dma ((cc3_scratch4.slice (Rect.unit (s := S6) ![4] S1.size inb_S6_S1_4)).squeeze S_ squeezes_S1_S_).sem) 0 ∗ ∃ gr : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)
def rowSide4 (tb : Tab (F := F)) (ix : Ix1 (F := F)) (t : ℕ) : sProp 𝕄 :=
  if t = 0 then rowIdle4 d L else rowFly4 d L tb ix (loL L + wOut (nW L) 4 t)
theorem rowSide4_zero (tb : Tab (F := F)) (ix : Ix1 (F := F)) (t : ℕ) (h : t = 0) : rowSide4 d L tb ix t = rowIdle4 d L := if_pos h
theorem rowSide4_pos (tb : Tab (F := F)) (ix : Ix1 (F := F)) (t : ℕ) (h : t ≠ 0) :
    rowSide4 d L tb ix t = rowFly4 d L tb ix (loL L + wOut (nW L) 4 t) := if_neg h

/-- Slot 5, index side, a copy outstanding: the slot will hold window w of the list; the list's read token lent. -/
def idxFly5 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![5] S1.size inb_S6_S1_5)).squeeze S_ squeezes_S1_S_).sem) (default : HIx 2) 4096
        iprop(((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} ci) ∗ ((iW).view.loc (V d (cV L) (jV L)) ↦[I]{Transfers.shareTokN qi 37} ix))
    ∗ ((iW).view.loc (V d (cV L) (jV L)) ↦[Finset.univ \ I]{Transfers.shareTokN qi 37} ix))
/-- Slot 5, index side, nothing outstanding. -/
def idxIdle5 (qi : PosShare TreeShare) (ix : Ix1 (F := F)) : sProp 𝕄 :=
  iprop(semVal ((V d (cV L) (jV L)), SemLoc.dma ((cc3_scratch2.slice (Rect.unit (s := S6) ![5] S1.size inb_S6_S1_5)).squeeze S_ squeezes_S1_S_).sem) 0 ∗ (∃ ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} ci)
    ∗ ((iW).view.loc (V d (cV L) (jV L)) ↦{Transfers.shareTokN qi 37} ix))
def idxSide5 (qi : PosShare TreeShare) (ix : Ix1 (F := F)) (t : ℕ) : sProp 𝕄 :=
  if 6 * t + 5 < nW L then idxFly5 d L qi ix (loL L + 6 * t + 5) else idxIdle5 d L qi ix
theorem idxSide5_pos (qi : PosShare TreeShare) (ix : Ix1 (F := F)) (t : ℕ) (h : 6 * t + 5 < nW L) :
    idxSide5 d L qi ix t = idxFly5 d L qi ix (loL L + 6 * t + 5) := if_pos h
theorem idxSide5_neg (qi : PosShare TreeShare) (ix : Ix1 (F := F)) (t : ℕ) (h : ¬ 6 * t + 5 < nW L) :
    idxSide5 d L qi ix t = idxIdle5 d L qi ix := if_neg h
/-- Slot 5, rows side, a write-out outstanding: result window w at the gathered rows, and the slot's rows back. -/
def rowFly5 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![5] S1.size inb_S6_S1_5)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)))
def rowIdle5 : sProp 𝕄 :=
  iprop(semVal ((V d (cV L) (jV L)), SemLoc.dma ((cc3_scratch4.slice (Rect.unit (s := S6) ![5] S1.size inb_S6_S1_5)).squeeze S_ squeezes_S1_S_).sem) 0 ∗ ∃ gr : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)
def rowSide5 (tb : Tab (F := F)) (ix : Ix1 (F := F)) (t : ℕ) : sProp 𝕄 :=
  if t = 0 then rowIdle5 d L else rowFly5 d L tb ix (loL L + wOut (nW L) 5 t)
theorem rowSide5_zero (tb : Tab (F := F)) (ix : Ix1 (F := F)) (t : ℕ) (h : t = 0) : rowSide5 d L tb ix t = rowIdle5 d L := if_pos h
theorem rowSide5_pos (tb : Tab (F := F)) (ix : Ix1 (F := F)) (t : ℕ) (h : t ≠ 0) :
    rowSide5 d L tb ix t = rowFly5 d L tb ix (loL L + wOut (nW L) 5 t) := if_neg h

/-- The tile's result windows not yet written out, at what the array held before, -/
def todoP (f0 : Out1 (F := F)) (t : ℕ) : sProp 𝕄 :=
  bigSep (Ring.rangeSet 5000 (loL L + 6 * t) (loL L + nW L)) fun w => oLoc1 d ↦[oSet1 w]{fullShare} f0
/-- and those written and waited for, at the gathered rows. -/
def doneP (tb : Tab (F := F)) (ix : Ix1 (F := F)) (t : ℕ) : sProp 𝕄 :=
  bigSep (Ring.rangeSet 5000 (loL L) (loL L + dn (nW L) t)) fun w => oLoc1 d ↦[oSet1 w]{fullShare} gath1 tb ix

/-- The loop's invariant at the head of trip t. -/
def inv (qi qt : PosShare TreeShare) (tb : Tab (F := F)) (ix : Ix1 (F := F)) (f0 : Out1 (F := F))
    (O : CellTallies nD τ sig (HIx 2)) (W : Waits sig (HIx 2)) (t : ℕ) (_ : Unit) : sProp 𝕄 :=
  iprop((Transfers.MayWaits (V d (cV L) (jV L)) (none : HIx 2) O : sProp 𝕄)
    ∗ ((tW).view.loc (V d (cV L) (jV L)) ↦{Transfers.shareTokN qt 38} tb)
    ∗ ((tW).view.loc (V d (cV L) (jV L)) ↦{Transfers.shareTokN qt 39} tb)
    ∗ ((tW).view.loc (V d (cV L) (jV L)) ↦{Transfers.shareTokN qt 40} tb)
    ∗ ((tW).view.loc (V d (cV L) (jV L)) ↦{Transfers.shareTokN qt 41} tb)
    ∗ ((tW).view.loc (V d (cV L) (jV L)) ↦{Transfers.shareTokN qt 42} tb)
    ∗ ((tW).view.loc (V d (cV L) (jV L)) ↦{Transfers.shareTokN qt 43} tb)
    ∗ semVal ((V d (cV L) (jV L)), SemLoc.dma ((cc3_scratch3.slice (Rect.unit (s := S6) ![0] S1.size inb_S6_S1_0)).squeeze S_ squeezes_S1_S_).sem) 0
    ∗ semVal ((V d (cV L) (jV L)), SemLoc.dma ((cc3_scratch3.slice (Rect.unit (s := S6) ![1] S1.size inb_S6_S1_1)).squeeze S_ squeezes_S1_S_).sem) 0
    ∗ semVal ((V d (cV L) (jV L)), SemLoc.dma ((cc3_scratch3.slice (Rect.unit (s := S6) ![2] S1.size inb_S6_S1_2)).squeeze S_ squeezes_S1_S_).sem) 0
    ∗ semVal ((V d (cV L) (jV L)), SemLoc.dma ((cc3_scratch3.slice (Rect.unit (s := S6) ![3] S1.size inb_S6_S1_3)).squeeze S_ squeezes_S1_S_).sem) 0
    ∗ semVal ((V d (cV L) (jV L)), SemLoc.dma ((cc3_scratch3.slice (Rect.unit (s := S6) ![4] S1.size inb_S6_S1_4)).squeeze S_ squeezes_S1_S_).sem) 0
    ∗ semVal ((V d (cV L) (jV L)), SemLoc.dma ((cc3_scratch3.slice (Rect.unit (s := S6) ![5] S1.size inb_S6_S1_5)).squeeze S_ squeezes_S1_S_).sem) 0
    ∗ idxSide0 d L qi ix t ∗ idxSide1 d L qi ix t ∗ idxSide2 d L qi ix t ∗ idxSide3 d L qi ix t ∗ idxSide4 d L qi ix t ∗ idxSide5 d L qi ix t
    ∗ rowSide0 d L tb ix t ∗ rowSide1 d L tb ix t ∗ rowSide2 d L tb ix t ∗ rowSide3 d L tb ix t ∗ rowSide4 d L tb ix t ∗ rowSide5 d L tb ix t
    ∗ todoP d L f0 t ∗ doneP d L tb ix t
    ∗ ∃ W', ⌜∀ p ∈ W', p ∈ W ∨ p.2 = none⌝ ∗ owes (V d (cV L) (jV L)) O W')

/-! ## The printed slices of the result are the tile's windows -/

theorem offWO0_eq (t : Fin k3_t1_loop.trips) : k3_off20 L t = ![128 * (loL L + 6 * t.val), 0] := by
  rw [k3_off20_eq]; unfold loL lo1; congr 1; omega
theorem opiece0_eq (t : Fin k3_t1_loop.trips) (hB0 : k3_cond19 L t = 1#1) (f : Out1 (F := F)) :
    ((oW.slice (Rect.unit (s := S640000x128) (k3_off20 L t) S128x128.size (k3_off20_inb L t hB0)) (fun _ => rfl)).view.loc (V d (cV L) (jV L)) ↦[(oW.slice (Rect.unit (s := S640000x128) (k3_off20 L t) S128x128.size (k3_off20_inb L t hB0)) (fun _ => rfl)).view.set]{fullShare} f : sProp 𝕄)
      = (oLoc1 d ↦[oSet1 (fw (loL L + 6 * t.val))]{fullShare} f) := by
  have hb := (cond19_iff L t).mp hB0
  have hh := loL_hi L
  have e : Rect.unit (s := S640000x128) (k3_off20 L t) S128x128.size (k3_off20_inb L t hB0) = oWin1 (fw (loL L + 6 * t.val)) :=
    oRect_eq _ _ _ (by rw [offWO0_eq, fw_val (by omega)])
  show (oLoc1 d ↦[((oW).view.slice (Rect.unit (s := S640000x128) (k3_off20 L t) S128x128.size (k3_off20_inb L t hB0))).set]{fullShare} f : sProp 𝕄) = _
  rw [e]

theorem offWO1_eq (t : Fin k3_t1_loop.trips) : k3_off22 L t = ![128 * (loL L + 6 * t.val + 1), 0] := by
  rw [k3_off22_eq]; unfold loL lo1; congr 1; omega
theorem opiece1_eq (t : Fin k3_t1_loop.trips) (hB1 : k3_cond21 L t = 1#1) (f : Out1 (F := F)) :
    ((oW.slice (Rect.unit (s := S640000x128) (k3_off22 L t) S128x128.size (k3_off22_inb L t hB1)) (fun _ => rfl)).view.loc (V d (cV L) (jV L)) ↦[(oW.slice (Rect.unit (s := S640000x128) (k3_off22 L t) S128x128.size (k3_off22_inb L t hB1)) (fun _ => rfl)).view.set]{fullShare} f : sProp 𝕄)
      = (oLoc1 d ↦[oSet1 (fw (loL L + 6 * t.val + 1))]{fullShare} f) := by
  have hb := (cond21_iff L t).mp hB1
  have hh := loL_hi L
  have e : Rect.unit (s := S640000x128) (k3_off22 L t) S128x128.size (k3_off22_inb L t hB1) = oWin1 (fw (loL L + 6 * t.val + 1)) :=
    oRect_eq _ _ _ (by rw [offWO1_eq, fw_val (by omega)])
  show (oLoc1 d ↦[((oW).view.slice (Rect.unit (s := S640000x128) (k3_off22 L t) S128x128.size (k3_off22_inb L t hB1))).set]{fullShare} f : sProp 𝕄) = _
  rw [e]

theorem offWO2_eq (t : Fin k3_t1_loop.trips) : k3_off24 L t = ![128 * (loL L + 6 * t.val + 2), 0] := by
  rw [k3_off24_eq]; unfold loL lo1; congr 1; omega
theorem opiece2_eq (t : Fin k3_t1_loop.trips) (hB2 : k3_cond23 L t = 1#1) (f : Out1 (F := F)) :
    ((oW.slice (Rect.unit (s := S640000x128) (k3_off24 L t) S128x128.size (k3_off24_inb L t hB2)) (fun _ => rfl)).view.loc (V d (cV L) (jV L)) ↦[(oW.slice (Rect.unit (s := S640000x128) (k3_off24 L t) S128x128.size (k3_off24_inb L t hB2)) (fun _ => rfl)).view.set]{fullShare} f : sProp 𝕄)
      = (oLoc1 d ↦[oSet1 (fw (loL L + 6 * t.val + 2))]{fullShare} f) := by
  have hb := (cond23_iff L t).mp hB2
  have hh := loL_hi L
  have e : Rect.unit (s := S640000x128) (k3_off24 L t) S128x128.size (k3_off24_inb L t hB2) = oWin1 (fw (loL L + 6 * t.val + 2)) :=
    oRect_eq _ _ _ (by rw [offWO2_eq, fw_val (by omega)])
  show (oLoc1 d ↦[((oW).view.slice (Rect.unit (s := S640000x128) (k3_off24 L t) S128x128.size (k3_off24_inb L t hB2))).set]{fullShare} f : sProp 𝕄) = _
  rw [e]

theorem offWO3_eq (t : Fin k3_t1_loop.trips) : k3_off26 L t = ![128 * (loL L + 6 * t.val + 3), 0] := by
  rw [k3_off26_eq]; unfold loL lo1; congr 1; omega
theorem opiece3_eq (t : Fin k3_t1_loop.trips) (hB3 : k3_cond25 L t = 1#1) (f : Out1 (F := F)) :
    ((oW.slice (Rect.unit (s := S640000x128) (k3_off26 L t) S128x128.size (k3_off26_inb L t hB3)) (fun _ => rfl)).view.loc (V d (cV L) (jV L)) ↦[(oW.slice (Rect.unit (s := S640000x128) (k3_off26 L t) S128x128.size (k3_off26_inb L t hB3)) (fun _ => rfl)).view.set]{fullShare} f : sProp 𝕄)
      = (oLoc1 d ↦[oSet1 (fw (loL L + 6 * t.val + 3))]{fullShare} f) := by
  have hb := (cond25_iff L t).mp hB3
  have hh := loL_hi L
  have e : Rect.unit (s := S640000x128) (k3_off26 L t) S128x128.size (k3_off26_inb L t hB3) = oWin1 (fw (loL L + 6 * t.val + 3)) :=
    oRect_eq _ _ _ (by rw [offWO3_eq, fw_val (by omega)])
  show (oLoc1 d ↦[((oW).view.slice (Rect.unit (s := S640000x128) (k3_off26 L t) S128x128.size (k3_off26_inb L t hB3))).set]{fullShare} f : sProp 𝕄) = _
  rw [e]

theorem offWO4_eq (t : Fin k3_t1_loop.trips) : k3_off28 L t = ![128 * (loL L + 6 * t.val + 4), 0] := by
  rw [k3_off28_eq]; unfold loL lo1; congr 1; omega
theorem opiece4_eq (t : Fin k3_t1_loop.trips) (hB4 : k3_cond27 L t = 1#1) (f : Out1 (F := F)) :
    ((oW.slice (Rect.unit (s := S640000x128) (k3_off28 L t) S128x128.size (k3_off28_inb L t hB4)) (fun _ => rfl)).view.loc (V d (cV L) (jV L)) ↦[(oW.slice (Rect.unit (s := S640000x128) (k3_off28 L t) S128x128.size (k3_off28_inb L t hB4)) (fun _ => rfl)).view.set]{fullShare} f : sProp 𝕄)
      = (oLoc1 d ↦[oSet1 (fw (loL L + 6 * t.val + 4))]{fullShare} f) := by
  have hb := (cond27_iff L t).mp hB4
  have hh := loL_hi L
  have e : Rect.unit (s := S640000x128) (k3_off28 L t) S128x128.size (k3_off28_inb L t hB4) = oWin1 (fw (loL L + 6 * t.val + 4)) :=
    oRect_eq _ _ _ (by rw [offWO4_eq, fw_val (by omega)])
  show (oLoc1 d ↦[((oW).view.slice (Rect.unit (s := S640000x128) (k3_off28 L t) S128x128.size (k3_off28_inb L t hB4))).set]{fullShare} f : sProp 𝕄) = _
  rw [e]

theorem offWO5_eq (t : Fin k3_t1_loop.trips) : k3_off30 L t = ![128 * (loL L + 6 * t.val + 5), 0] := by
  rw [k3_off30_eq]; unfold loL lo1; congr 1; omega
theorem opiece5_eq (t : Fin k3_t1_loop.trips) (hB5 : k3_cond29 L t = 1#1) (f : Out1 (F := F)) :
    ((oW.slice (Rect.unit (s := S640000x128) (k3_off30 L t) S128x128.size (k3_off30_inb L t hB5)) (fun _ => rfl)).view.loc (V d (cV L) (jV L)) ↦[(oW.slice (Rect.unit (s := S640000x128) (k3_off30 L t) S128x128.size (k3_off30_inb L t hB5)) (fun _ => rfl)).view.set]{fullShare} f : sProp 𝕄)
      = (oLoc1 d ↦[oSet1 (fw (loL L + 6 * t.val + 5))]{fullShare} f) := by
  have hb := (cond29_iff L t).mp hB5
  have hh := loL_hi L
  have e : Rect.unit (s := S640000x128) (k3_off30 L t) S128x128.size (k3_off30_inb L t hB5) = oWin1 (fw (loL L + 6 * t.val + 5)) :=
    oRect_eq _ _ _ (by rw [offWO5_eq, fw_val (by omega)])
  show (oLoc1 d ↦[((oW).view.slice (Rect.unit (s := S640000x128) (k3_off30 L t) S128x128.size (k3_off30_inb L t hB5))).set]{fullShare} f : sProp 𝕄) = _
  rw [e]

/-- The windows of one trip set apart from those still to write, in the program's spelling. -/
theorem todo_take (f0 : Out1 (F := F)) (t : Fin k3_t1_loop.trips) (hB0 : k3_cond19 L t = 1#1) (hB1 : k3_cond21 L t = 1#1) (hB2 : k3_cond23 L t = 1#1) (hB3 : k3_cond25 L t = 1#1) (hB4 : k3_cond27 L t = 1#1) (hB5 : k3_cond29 L t = 1#1) :
    todoP d L f0 t.val = iprop(((oW.slice (Rect.unit (s := S640000x128) (k3_off20 L t) S128x128.size (k3_off20_inb L t hB0)) (fun _ => rfl)).view.loc (V d (cV L) (jV L)) ↦[(oW.slice (Rect.unit (s := S640000x128) (k3_off20 L t) S128x128.size (k3_off20_inb L t hB0)) (fun _ => rfl)).view.set]{fullShare} f0)
      ∗ ((oW.slice (Rect.unit (s := S640000x128) (k3_off22 L t) S128x128.size (k3_off22_inb L t hB1)) (fun _ => rfl)).view.loc (V d (cV L) (jV L)) ↦[(oW.slice (Rect.unit (s := S640000x128) (k3_off22 L t) S128x128.size (k3_off22_inb L t hB1)) (fun _ => rfl)).view.set]{fullShare} f0)
      ∗ ((oW.slice (Rect.unit (s := S640000x128) (k3_off24 L t) S128x128.size (k3_off24_inb L t hB2)) (fun _ => rfl)).view.loc (V d (cV L) (jV L)) ↦[(oW.slice (Rect.unit (s := S640000x128) (k3_off24 L t) S128x128.size (k3_off24_inb L t hB2)) (fun _ => rfl)).view.set]{fullShare} f0)
      ∗ ((oW.slice (Rect.unit (s := S640000x128) (k3_off26 L t) S128x128.size (k3_off26_inb L t hB3)) (fun _ => rfl)).view.loc (V d (cV L) (jV L)) ↦[(oW.slice (Rect.unit (s := S640000x128) (k3_off26 L t) S128x128.size (k3_off26_inb L t hB3)) (fun _ => rfl)).view.set]{fullShare} f0)
      ∗ ((oW.slice (Rect.unit (s := S640000x128) (k3_off28 L t) S128x128.size (k3_off28_inb L t hB4)) (fun _ => rfl)).view.loc (V d (cV L) (jV L)) ↦[(oW.slice (Rect.unit (s := S640000x128) (k3_off28 L t) S128x128.size (k3_off28_inb L t hB4)) (fun _ => rfl)).view.set]{fullShare} f0)
      ∗ ((oW.slice (Rect.unit (s := S640000x128) (k3_off30 L t) S128x128.size (k3_off30_inb L t hB5)) (fun _ => rfl)).view.loc (V d (cV L) (jV L)) ↦[(oW.slice (Rect.unit (s := S640000x128) (k3_off30 L t) S128x128.size (k3_off30_inb L t hB5)) (fun _ => rfl)).view.set]{fullShare} f0)
      ∗ todoP d L f0 (t.val + 1)) := by
  have hb := (cond29_iff L t).mp hB5
  delta todoP
  rw [take6 _ (loL L + 6 * t.val) (loL L + nW L) (by omega) (loL_hi L), show loL L + 6 * (t.val + 1) = loL L + 6 * t.val + 6 by omega,
    opiece0_eq d L t hB0 f0, opiece1_eq d L t hB1 f0, opiece2_eq d L t hB2 f0, opiece3_eq d L t hB3 f0, opiece4_eq d L t hB4 f0, opiece5_eq d L t hB5 f0]

theorem wpos_mid (b t : ℕ) (h : 6 * (t - 1) + b < nW L) : loL L + wOut (nW L) b t = loL L + 6 * (t - 1) + b := by
  unfold wOut; rw [if_pos h]; omega
theorem wpos_succ (b t : ℕ) (h : 6 * t + b < nW L) : loL L + wOut (nW L) b (t + 1) = loL L + 6 * t + b := by
  unfold wOut; rw [if_pos (by simpa using h)]; simp only [Nat.add_sub_cancel]; omega
theorem dn_mid (n t : ℕ) (h : t ≠ 27) : dn n t = 6 * t - 6 := if_neg h

/-- The six windows waited for in trip t join those done. -/
theorem done_step (tb : Tab (F := F)) (ix : Ix1 (F := F)) (t : ℕ) (h1 : 1 ≤ t) (h2 : t ≤ 25) :
    doneP d L tb ix (t + 1) = iprop((oLoc1 d ↦[oSet1 (fw (loL L + 6 * (t - 1) + 5))]{fullShare} gath1 tb ix)
      ∗ (oLoc1 d ↦[oSet1 (fw (loL L + 6 * (t - 1) + 4))]{fullShare} gath1 tb ix)
      ∗ (oLoc1 d ↦[oSet1 (fw (loL L + 6 * (t - 1) + 3))]{fullShare} gath1 tb ix)
      ∗ (oLoc1 d ↦[oSet1 (fw (loL L + 6 * (t - 1) + 2))]{fullShare} gath1 tb ix)
      ∗ (oLoc1 d ↦[oSet1 (fw (loL L + 6 * (t - 1) + 1))]{fullShare} gath1 tb ix)
      ∗ (oLoc1 d ↦[oSet1 (fw (loL L + 6 * (t - 1)))]{fullShare} gath1 tb ix)
      ∗ doneP d L tb ix t) := by
  have hh := loL_hi L
  have hn := nW_ge L
  delta doneP
  rw [dn_mid _ _ (by omega), dn_mid _ _ (by omega), show loL L + (6 * (t + 1) - 6) = (loL L + (6 * t - 6)) + 6 by omega,
    put6 _ (loL L) (loL L + (6 * t - 6)) (by omega) (by omega)]
  have e : 6 * t - 6 = 6 * (t - 1) := by omega
  simp only [e]

/-! ## What an index copy delivers -/
theorem offNI0_eq (t : Fin k3_t1_loop.trips) : k3_off19 L t = ![128 * (loL L + 6 * (t.val + 1))] := by
  rw [k3_off19_eq]; unfold loL lo1; congr 1; omega
theorem offNI1_eq (t : Fin k3_t1_loop.trips) : k3_off21 L t = ![128 * (loL L + 6 * (t.val + 1) + 1)] := by
  rw [k3_off21_eq]; unfold loL lo1; congr 1; omega
theorem offNI2_eq (t : Fin k3_t1_loop.trips) : k3_off23 L t = ![128 * (loL L + 6 * (t.val + 1) + 2)] := by
  rw [k3_off23_eq]; unfold loL lo1; congr 1; omega
theorem offNI3_eq (t : Fin k3_t1_loop.trips) : k3_off25 L t = ![128 * (loL L + 6 * (t.val + 1) + 3)] := by
  rw [k3_off25_eq]; unfold loL lo1; congr 1; omega
theorem offNI4_eq (t : Fin k3_t1_loop.trips) : k3_off27 L t = ![128 * (loL L + 6 * (t.val + 1) + 4)] := by
  rw [k3_off27_eq]; unfold loL lo1; congr 1; omega
theorem offNI5_eq (t : Fin k3_t1_loop.trips) : k3_off29 L t = ![128 * (loL L + 6 * (t.val + 1) + 5)] := by
  rw [k3_off29_eq]; unfold loL lo1; congr 1; omega

/-- Slot 0 after the index copy of window w landed reads window w of the list. -/
theorem idxval0 (ix : Ix1 (F := F)) (ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![0, 0] S1x128.size inb_S6x128_S1x128_0_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 1 after the index copy of window w landed reads window w of the list. -/
theorem idxval1 (ix : Ix1 (F := F)) (ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![1, 0] S1x128.size inb_S6x128_S1x128_1_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 2 after the index copy of window w landed reads window w of the list. -/
theorem idxval2 (ix : Ix1 (F := F)) (ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![2, 0] S1x128.size inb_S6x128_S1x128_2_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 3 after the index copy of window w landed reads window w of the list. -/
theorem idxval3 (ix : Ix1 (F := F)) (ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![3, 0] S1x128.size inb_S6x128_S1x128_3_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 4 after the index copy of window w landed reads window w of the list. -/
theorem idxval4 (ix : Ix1 (F := F)) (ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![4, 0] S1x128.size inb_S6x128_S1x128_4_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 5 after the index copy of window w landed reads window w of the list. -/
theorem idxval5 (ix : Ix1 (F := F)) (ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![5, 0] S1x128.size inb_S6x128_S1x128_5_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

end Tile

end Cert.KernelIdeal.Hand.C1

end
-- ==== Proof.ScTile1Vals.lean ====
/-
  What each of the six ring slots' write-out lands in the result of gather call 1: with the slot's index list holding window w
  of the list (every word a row of the table), and its rows the gather of those rows, the 128 × 128 block written at row
  offset 128 w is, at every index of window w, the gathered array: row r of the result is row idx[r] of the table.
-/
import proofs.«208461_g52518860095779_cont_9to1_m_1075_29_alg».proof.Proof.ScTile1Inv

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Gen
variable (d : Dev nD) (L : grid3.Coords)

/-- Entry k of a 128-word list, as the row it names: the word at the index whose one coordinate is k. -/
theorem outval_rows (idx : S128.Idx → Elt F .i32) (hn : S128.numel = 128) (hh : ∀ x, (idx x).toNat < 20000) (k : Fin 128) :
    ∃ x : S128.Idx, (x 0).val = k.val ∧ (SparseCore.rows idx hn hh k).val = (idx x).toNat := by
  refine ⟨S128.rowMajor.symm (k.cast hn.symm), ?_, rfl⟩
  have := Shape.rowMajor_val_one (S128.rowMajor.symm (k.cast hn.symm))
  rw [Equiv.apply_symm_apply] at this
  exact this.symm

/-- What a slot's write-out of window w lands in the result is the gathered rows of window w, for any slot: its rows hold,
    at (r, c), row idx[128 w + r] of the table at column c, its index list holding window w of the list. -/
theorem outval_gen (mI : Memref sig .scVector .vmem S128 .i32) (mR : Memref sig .scVector .vmem S128x128 .f32)
    (tb : Tab (F := F)) (ix : Ix1 (F := F)) (f0 : Out1 (F := F))
    (ci : Buf (Elt F) (mI.view.loc (V d (cV L) (jV L)))) (gr : Buf (Elt F) (mR.view.loc (V d (cV L) (jV L)))) (w : ℕ) (hw : w < 5000)
    (hci : ∀ x : S128.Idx, mI.view.read (Elt F) ci x = ixAt ix (128 * w + (x 0).val))
    (hin : ∀ x, (mI.view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) mR.view (mR.view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) mI.view ci) rfl hin)⟩]))⟩] j
        = gath1 tb ix j := by
  intro j hj
  have hR : Rect.unit (s := S640000x128) off S128x128.size h = oWin1 (fw w) := oRect_eq (fw w) off h (by rw [fw_val hw]; exact e)
  subst e
  have h0 : 128 * w + 128 ≤ 640000 := h 0
  change j ∈ (oW.view.slice (oWin1 (fw w))).set at hj
  rw [← hR] at hj
  obtain ⟨y, -, rfl⟩ := Finset.mem_map.mp hj
  have key : ∀ P : (Rect.whole (Rect.unit (s := S640000x128) ![128 * w, 0] S128x128.size h).shape).shape.Idx → Elt F .f32,
      (oW.slice (Rect.unit (s := S640000x128) ![128 * w, 0] S128x128.size h) (fun _ => rfl)).view.writes (Elt F) f0
        [⟨Rect.whole (Rect.unit (s := S640000x128) ![128 * w, 0] S128x128.size h).shape, P⟩]
        ((oW.view.slice (Rect.unit (s := S640000x128) ![128 * w, 0] S128x128.size h)).emb y) = P y := fun P => by
    have h1 := View.read_writes_cons_emb (oW.slice (Rect.unit (s := S640000x128) ![128 * w, 0] S128x128.size h) (fun _ => rfl)).view f0
      (Rect.whole (Rect.unit (s := S640000x128) ![128 * w, 0] S128x128.size h).shape) P [] y
    rw [Rect.emb_whole_apply] at h1
    exact h1
  rw [key, ReadAs.apply_same]
  have key2 : ∀ GP : S128x128.Idx → Elt F .f32,
      View.read (Elt F) mR.view (mR.view.writes (Elt F) gr [⟨Rect.whole S128x128, GP⟩]) y = GP y := fun GP => by
    have h2 := View.read_writes_cons_emb mR.view gr (Rect.whole S128x128) GP [] y
    rw [Rect.emb_whole_apply] at h2
    exact h2
  rw [key2]
  unfold SparseCore.gatherPayload gath1
  show tb ((Rect.unit (s := S20000x128) ![0, 0] S20000x128.size inb_S20000x128_S20000x128_0_0).emb _) = tb _
  congr 1
  funext a
  apply Fin.ext
  have hy0 : (y 0).val < 128 := (y 0).isLt
  match a with
  | ⟨0, _⟩ =>
    rw [Rect.emb_apply]
    obtain ⟨x, hx0, hxv⟩ := outval_rows (View.read (Elt F) mI.view ci) rfl hin (y 0)
    have e0 := Shape.Gathers.idx_axis gathers_S20000x128_S128x128 (SparseCore.rows (View.read (Elt F) mI.view ci) rfl hin) y
    have hj0 : (((oW.view.slice (Rect.unit (s := S640000x128) ![128 * w, 0] S128x128.size h)).emb y) 0).val = 128 * w + 1 * (y 0).val := rfl
    have hix : ixAt ix (128 * w + (x 0).val)
        = ix (ValueIdx.ix1 (((oW.view.slice (Rect.unit (s := S640000x128) ![128 * w, 0] S128x128.size h)).emb y) 0)) := by
      unfold ixAt
      congr 2
      apply Fin.ext
      show min (128 * w + (x 0).val) 639999 = _
      rw [hj0, hx0]; omega
    have hlt := hin x
    rw [hci x, hix] at hlt hxv
    refine (congrArg (fun z : Fin (S20000x128.size gathers_S20000x128_S128x128.axis) => 0 + 1 * z.val) e0).trans ?_
    show 0 + 1 * (SparseCore.rows (View.read (Elt F) mI.view ci) rfl hin (y 0)).val
      = min (ix (ValueIdx.ix1 (((oW.view.slice (Rect.unit (s := S640000x128) ![128 * w, 0] S128x128.size h)).emb y) 0))).toNat 19999
    exact (congrArg (fun n => 0 + 1 * n) hxv).trans (by omega)
  | ⟨1, _⟩ =>
    rw [Rect.emb_apply]
    have e1 := Shape.Gathers.idx_of_ne gathers_S20000x128_S128x128 (SparseCore.rows (View.read (Elt F) mI.view ci) rfl hin) y ⟨1, by decide⟩ (by decide)
    exact congrArg (fun n => 0 + 1 * n) e1

/-- What slot 0's write-out of window w lands in the result is the gathered rows of window w: the slot's rows hold,
    at (r, c), row idx[128 w + r] of the table at column c, the slot's index list holding window w of the list. -/
theorem outval0 (tb : Tab (F := F)) (ix : Ix1 (F := F)) (f0 : Out1 (F := F)) (ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![0, 0] S1x128.size inb_S6x128_S1x128_0_0) (fun _ => rfl)).squeeze S128 squeezes_S1x128_S128).view ci) rfl hin)⟩]))⟩] j
        = gath1 tb ix j := by
  exact outval_gen d L _ _ tb ix f0 ci gr w hw hci hin off h e

/-- What slot 1's write-out of window w lands in the result is the gathered rows of window w: the slot's rows hold,
    at (r, c), row idx[128 w + r] of the table at column c, the slot's index list holding window w of the list. -/
theorem outval1 (tb : Tab (F := F)) (ix : Ix1 (F := F)) (f0 : Out1 (F := F)) (ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![1, 0] S1x128.size inb_S6x128_S1x128_1_0) (fun _ => rfl)).squeeze S128 squeezes_S1x128_S128).view ci) rfl hin)⟩]))⟩] j
        = gath1 tb ix j := by
  exact outval_gen d L _ _ tb ix f0 ci gr w hw hci hin off h e

/-- What slot 2's write-out of window w lands in the result is the gathered rows of window w: the slot's rows hold,
    at (r, c), row idx[128 w + r] of the table at column c, the slot's index list holding window w of the list. -/
theorem outval2 (tb : Tab (F := F)) (ix : Ix1 (F := F)) (f0 : Out1 (F := F)) (ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![2, 0] S1x128.size inb_S6x128_S1x128_2_0) (fun _ => rfl)).squeeze S128 squeezes_S1x128_S128).view ci) rfl hin)⟩]))⟩] j
        = gath1 tb ix j := by
  exact outval_gen d L _ _ tb ix f0 ci gr w hw hci hin off h e

/-- What slot 3's write-out of window w lands in the result is the gathered rows of window w: the slot's rows hold,
    at (r, c), row idx[128 w + r] of the table at column c, the slot's index list holding window w of the list. -/
theorem outval3 (tb : Tab (F := F)) (ix : Ix1 (F := F)) (f0 : Out1 (F := F)) (ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![3, 0] S1x128.size inb_S6x128_S1x128_3_0) (fun _ => rfl)).squeeze S128 squeezes_S1x128_S128).view ci) rfl hin)⟩]))⟩] j
        = gath1 tb ix j := by
  exact outval_gen d L _ _ tb ix f0 ci gr w hw hci hin off h e

/-- What slot 4's write-out of window w lands in the result is the gathered rows of window w: the slot's rows hold,
    at (r, c), row idx[128 w + r] of the table at column c, the slot's index list holding window w of the list. -/
theorem outval4 (tb : Tab (F := F)) (ix : Ix1 (F := F)) (f0 : Out1 (F := F)) (ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![4, 0] S1x128.size inb_S6x128_S1x128_4_0) (fun _ => rfl)).squeeze S128 squeezes_S1x128_S128).view ci) rfl hin)⟩]))⟩] j
        = gath1 tb ix j := by
  exact outval_gen d L _ _ tb ix f0 ci gr w hw hci hin off h e

/-- What slot 5's write-out of window w lands in the result is the gathered rows of window w: the slot's rows hold,
    at (r, c), row idx[128 w + r] of the table at column c, the slot's index list holding window w of the list. -/
theorem outval5 (tb : Tab (F := F)) (ix : Ix1 (F := F)) (f0 : Out1 (F := F)) (ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![5, 0] S1x128.size inb_S6x128_S1x128_5_0) (fun _ => rfl)).squeeze S128 squeezes_S1x128_S128).view ci) rfl hin)⟩]))⟩] j
        = gath1 tb ix j := by
  exact outval_gen d L _ _ tb ix f0 ci gr w hw hci hin off h e

end Gen

end Cert.KernelIdeal.Hand.C1
end
-- ==== Proof.ScTile1RunDefs.lean ====
/-
  What one tile's run of gather call 1 starts from and ends in, stated once for the run's proof and for the
  obligation that wraps it: the evidence for the tile's waits, its read shares of table and index list, its result
  windows, its two scratch buffers slot by slot, its eighteen semaphores.
-/
import proofs.«208461_g52518860095779_cont_9to1_m_1075_29_alg».proof.Proof.ScTile1Inv

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid3.Coords)

/-- What the run starts from: the evidence for its waits, its read shares of table and list, its windows at what
    the result held, the two scratch buffers slot by slot at whatever they hold, the eighteen semaphores at zero. -/
def preRun (q : PosShare TreeShare) (tb : Tab (F := F)) (ix : Ix1 (F := F)) (f0 : Out1 (F := F))
    (O : CellTallies nD τ sig (HIx 2)) (W : Waits sig (HIx 2)) : sProp 𝕄 :=
  iprop((Transfers.MayWaits (V d (cV L) (jV L)) (none : HIx 2) O : sProp 𝕄)
    ∗ ((tW).view.loc (V d (cV L) (jV L)) ↦{q} tb) ∗ ((iW).view.loc (V d (cV L) (jV L)) ↦{q} ix)
    ∗ todoP d L f0 0
    ∗ (∃ g : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc3_scratch2.slice (Rect.unit (s := S6) ![0] S1.size inb_S6_S1_0)).squeeze S_ squeezes_S1_S_).sem) 0 ∗ semVal ((V d (cV L) (jV L)), SemLoc.dma ((cc3_scratch2.slice (Rect.unit (s := S6) ![1] S1.size inb_S6_S1_1)).squeeze S_ squeezes_S1_S_).sem) 0 ∗ semVal ((V d (cV L) (jV L)), SemLoc.dma ((cc3_scratch2.slice (Rect.unit (s := S6) ![2] S1.size inb_S6_S1_2)).squeeze S_ squeezes_S1_S_).sem) 0 ∗ semVal ((V d (cV L) (jV L)), SemLoc.dma ((cc3_scratch2.slice (Rect.unit (s := S6) ![3] S1.size inb_S6_S1_3)).squeeze S_ squeezes_S1_S_).sem) 0 ∗ semVal ((V d (cV L) (jV L)), SemLoc.dma ((cc3_scratch2.slice (Rect.unit (s := S6) ![4] S1.size inb_S6_S1_4)).squeeze S_ squeezes_S1_S_).sem) 0 ∗ semVal ((V d (cV L) (jV L)), SemLoc.dma ((cc3_scratch2.slice (Rect.unit (s := S6) ![5] S1.size inb_S6_S1_5)).squeeze S_ squeezes_S1_S_).sem) 0
    ∗ semVal ((V d (cV L) (jV L)), SemLoc.dma ((cc3_scratch3.slice (Rect.unit (s := S6) ![0] S1.size inb_S6_S1_0)).squeeze S_ squeezes_S1_S_).sem) 0 ∗ semVal ((V d (cV L) (jV L)), SemLoc.dma ((cc3_scratch3.slice (Rect.unit (s := S6) ![1] S1.size inb_S6_S1_1)).squeeze S_ squeezes_S1_S_).sem) 0 ∗ semVal ((V d (cV L) (jV L)), SemLoc.dma ((cc3_scratch3.slice (Rect.unit (s := S6) ![2] S1.size inb_S6_S1_2)).squeeze S_ squeezes_S1_S_).sem) 0 ∗ semVal ((V d (cV L) (jV L)), SemLoc.dma ((cc3_scratch3.slice (Rect.unit (s := S6) ![3] S1.size inb_S6_S1_3)).squeeze S_ squeezes_S1_S_).sem) 0 ∗ semVal ((V d (cV L) (jV L)), SemLoc.dma ((cc3_scratch3.slice (Rect.unit (s := S6) ![4] S1.size inb_S6_S1_4)).squeeze S_ squeezes_S1_S_).sem) 0 ∗ semVal ((V d (cV L) (jV L)), SemLoc.dma ((cc3_scratch3.slice (Rect.unit (s := S6) ![5] S1.size inb_S6_S1_5)).squeeze S_ squeezes_S1_S_).sem) 0
    ∗ semVal ((V d (cV L) (jV L)), SemLoc.dma ((cc3_scratch4.slice (Rect.unit (s := S6) ![0] S1.size inb_S6_S1_0)).squeeze S_ squeezes_S1_S_).sem) 0 ∗ semVal ((V d (cV L) (jV L)), SemLoc.dma ((cc3_scratch4.slice (Rect.unit (s := S6) ![1] S1.size inb_S6_S1_1)).squeeze S_ squeezes_S1_S_).sem) 0 ∗ semVal ((V d (cV L) (jV L)), SemLoc.dma ((cc3_scratch4.slice (Rect.unit (s := S6) ![2] S1.size inb_S6_S1_2)).squeeze S_ squeezes_S1_S_).sem) 0 ∗ semVal ((V d (cV L) (jV L)), SemLoc.dma ((cc3_scratch4.slice (Rect.unit (s := S6) ![3] S1.size inb_S6_S1_3)).squeeze S_ squeezes_S1_S_).sem) 0 ∗ semVal ((V d (cV L) (jV L)), SemLoc.dma ((cc3_scratch4.slice (Rect.unit (s := S6) ![4] S1.size inb_S6_S1_4)).squeeze S_ squeezes_S1_S_).sem) 0 ∗ semVal ((V d (cV L) (jV L)), SemLoc.dma ((cc3_scratch4.slice (Rect.unit (s := S6) ![5] S1.size inb_S6_S1_5)).squeeze S_ squeezes_S1_S_).sem) 0
    ∗ owes (V d (cV L) (jV L)) O W)
/-- What it ends in: the same, the windows at the gathered rows. -/
def postRun (q : PosShare TreeShare) (tb : Tab (F := F)) (ix : Ix1 (F := F))
    (O : CellTallies nD τ sig (HIx 2)) (W : Waits sig (HIx 2)) : sProp 𝕄 :=
  iprop(((tW).view.loc (V d (cV L) (jV L)) ↦{q} tb) ∗ ((iW).view.loc (V d (cV L) (jV L)) ↦{q} ix)
    ∗ (bigSep (Ring.rangeSet 5000 (loL L) (loL L + nW L)) fun w => oLoc1 d ↦[oSet1 w]{fullShare} gath1 tb ix)
    ∗ (∃ g : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc3_scratch2.slice (Rect.unit (s := S6) ![0] S1.size inb_S6_S1_0)).squeeze S_ squeezes_S1_S_).sem) 0 ∗ semVal ((V d (cV L) (jV L)), SemLoc.dma ((cc3_scratch2.slice (Rect.unit (s := S6) ![1] S1.size inb_S6_S1_1)).squeeze S_ squeezes_S1_S_).sem) 0 ∗ semVal ((V d (cV L) (jV L)), SemLoc.dma ((cc3_scratch2.slice (Rect.unit (s := S6) ![2] S1.size inb_S6_S1_2)).squeeze S_ squeezes_S1_S_).sem) 0 ∗ semVal ((V d (cV L) (jV L)), SemLoc.dma ((cc3_scratch2.slice (Rect.unit (s := S6) ![3] S1.size inb_S6_S1_3)).squeeze S_ squeezes_S1_S_).sem) 0 ∗ semVal ((V d (cV L) (jV L)), SemLoc.dma ((cc3_scratch2.slice (Rect.unit (s := S6) ![4] S1.size inb_S6_S1_4)).squeeze S_ squeezes_S1_S_).sem) 0 ∗ semVal ((V d (cV L) (jV L)), SemLoc.dma ((cc3_scratch2.slice (Rect.unit (s := S6) ![5] S1.size inb_S6_S1_5)).squeeze S_ squeezes_S1_S_).sem) 0
    ∗ semVal ((V d (cV L) (jV L)), SemLoc.dma ((cc3_scratch3.slice (Rect.unit (s := S6) ![0] S1.size inb_S6_S1_0)).squeeze S_ squeezes_S1_S_).sem) 0 ∗ semVal ((V d (cV L) (jV L)), SemLoc.dma ((cc3_scratch3.slice (Rect.unit (s := S6) ![1] S1.size inb_S6_S1_1)).squeeze S_ squeezes_S1_S_).sem) 0 ∗ semVal ((V d (cV L) (jV L)), SemLoc.dma ((cc3_scratch3.slice (Rect.unit (s := S6) ![2] S1.size inb_S6_S1_2)).squeeze S_ squeezes_S1_S_).sem) 0 ∗ semVal ((V d (cV L) (jV L)), SemLoc.dma ((cc3_scratch3.slice (Rect.unit (s := S6) ![3] S1.size inb_S6_S1_3)).squeeze S_ squeezes_S1_S_).sem) 0 ∗ semVal ((V d (cV L) (jV L)), SemLoc.dma ((cc3_scratch3.slice (Rect.unit (s := S6) ![4] S1.size inb_S6_S1_4)).squeeze S_ squeezes_S1_S_).sem) 0 ∗ semVal ((V d (cV L) (jV L)), SemLoc.dma ((cc3_scratch3.slice (Rect.unit (s := S6) ![5] S1.size inb_S6_S1_5)).squeeze S_ squeezes_S1_S_).sem) 0
    ∗ semVal ((V d (cV L) (jV L)), SemLoc.dma ((cc3_scratch4.slice (Rect.unit (s := S6) ![0] S1.size inb_S6_S1_0)).squeeze S_ squeezes_S1_S_).sem) 0 ∗ semVal ((V d (cV L) (jV L)), SemLoc.dma ((cc3_scratch4.slice (Rect.unit (s := S6) ![1] S1.size inb_S6_S1_1)).squeeze S_ squeezes_S1_S_).sem) 0 ∗ semVal ((V d (cV L) (jV L)), SemLoc.dma ((cc3_scratch4.slice (Rect.unit (s := S6) ![2] S1.size inb_S6_S1_2)).squeeze S_ squeezes_S1_S_).sem) 0 ∗ semVal ((V d (cV L) (jV L)), SemLoc.dma ((cc3_scratch4.slice (Rect.unit (s := S6) ![3] S1.size inb_S6_S1_3)).squeeze S_ squeezes_S1_S_).sem) 0 ∗ semVal ((V d (cV L) (jV L)), SemLoc.dma ((cc3_scratch4.slice (Rect.unit (s := S6) ![4] S1.size inb_S6_S1_4)).squeeze S_ squeezes_S1_S_).sem) 0 ∗ semVal ((V d (cV L) (jV L)), SemLoc.dma ((cc3_scratch4.slice (Rect.unit (s := S6) ![5] S1.size inb_S6_S1_5)).squeeze S_ squeezes_S1_S_).sem) 0
    ∗ ∃ W', ⌜∀ p ∈ W', p ∈ W ∨ p.2 = none⌝ ∗ owes (V d (cV L) (jV L)) O W')

end Tile

end Cert.KernelIdeal.Hand.C1

end
-- ==== Proof.ScTile1TripMid.lean ====
/-
  One tile of gather call 1, the loop's generic trip (trips 1 to 24): every slot waits for its write-out of the round
  before, takes its index window, gathers, writes its window out and starts the copy of its next index window; the six
  windows waited for join those done.
-/
import proofs.«208461_g52518860095779_cont_9to1_m_1075_29_alg».proof.Proof.ScTile1Inv
import proofs.«208461_g52518860095779_cont_9to1_m_1075_29_alg».proof.Proof.ScTile1Vals

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid3.Coords)

set_option maxHeartbeats 8000000 in
theorem trip_mid (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : 1 ≤ k.val) (h2 : k.val ≤ 24) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : k3_cond20 L k = 1#1 := (cond20_iff L k).mpr (by omega)
  have hA1 : k3_cond9 L k = 1#1 := (cond9_iff L k).mpr (by omega)
  have hT1 : k3_cond10 k = 1#1 := (cond10_iff k).mpr (by omega)
  have hB1 : k3_cond21 L k = 1#1 := (cond21_iff L k).mpr (by omega)
  have hN1 : k3_cond22 L k = 1#1 := (cond22_iff L k).mpr (by omega)
  have hA2 : k3_cond11 L k = 1#1 := (cond11_iff L k).mpr (by omega)
  have hT2 : k3_cond12 k = 1#1 := (cond12_iff k).mpr (by omega)
  have hB2 : k3_cond23 L k = 1#1 := (cond23_iff L k).mpr (by omega)
  have hN2 : k3_cond24 L k = 1#1 := (cond24_iff L k).mpr (by omega)
  have hA3 : k3_cond13 L k = 1#1 := (cond13_iff L k).mpr (by omega)
  have hT3 : k3_cond14 k = 1#1 := (cond14_iff k).mpr (by omega)
  have hB3 : k3_cond25 L k = 1#1 := (cond25_iff L k).mpr (by omega)
  have hN3 : k3_cond26 L k = 1#1 := (cond26_iff L k).mpr (by omega)
  have hA4 : k3_cond15 L k = 1#1 := (cond15_iff L k).mpr (by omega)
  have hT4 : k3_cond16 k = 1#1 := (cond16_iff k).mpr (by omega)
  have hB4 : k3_cond27 L k = 1#1 := (cond27_iff L k).mpr (by omega)
  have hN4 : k3_cond28 L k = 1#1 := (cond28_iff L k).mpr (by omega)
  have hA5 : k3_cond17 L k = 1#1 := (cond17_iff L k).mpr (by omega)
  have hT5 : k3_cond18 k = 1#1 := (cond18_iff k).mpr (by omega)
  have hB5 : k3_cond29 L k = 1#1 := (cond29_iff L k).mpr (by omega)
  have hN5 : k3_cond30 L k = 1#1 := (cond30_iff L k).mpr (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val h1 (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.KernelIdeal.Hand.C1
end
-- ==== Proof.ScTile1TripsA.lean ====
/-
  One tile of gather call 1, the loop's trips at three of its edge regimes. The first trip: no write-out is outstanding
  yet, so no slot waits for one; every slot takes its index window, gathers, writes its window out and starts the copy
  of its next index window; nothing joins the windows done. Trip 25, the last full round of six windows: every slot waits
  for its write-out of the round before, takes its index window, gathers and writes its window out; of the next index
  copies none starts when the tile owns 156 windows, and only slot 0's (window 156) when it owns 157; the six windows waited
  for join those done, and a slot that starts no copy ends with its index side idle.
-/
import proofs.«208461_g52518860095779_cont_9to1_m_1075_29_alg».proof.Proof.ScTile1Inv
import proofs.«208461_g52518860095779_cont_9to1_m_1075_29_alg».proof.Proof.ScTile1Vals

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid3.Coords)

set_option maxHeartbeats 8000000 in
theorem trip_first (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h0 : k.val = 0) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : ¬ k3_cond8 k = 1#1 := fun h => absurd ((cond8_iff k).mp h) (by omega)
  have hB0 : k3_cond19 L k = 1#1 := (cond19_iff L k).mpr (by omega)
  have hN0 : k3_cond20 L k = 1#1 := (cond20_iff L k).mpr (by omega)
  have hA1 : k3_cond9 L k = 1#1 := (cond9_iff L k).mpr (by omega)
  have hT1 : ¬ k3_cond10 k = 1#1 := fun h => absurd ((cond10_iff k).mp h) (by omega)
  have hB1 : k3_cond21 L k = 1#1 := (cond21_iff L k).mpr (by omega)
  have hN1 : k3_cond22 L k = 1#1 := (cond22_iff L k).mpr (by omega)
  have hA2 : k3_cond11 L k = 1#1 := (cond11_iff L k).mpr (by omega)
  have hT2 : ¬ k3_cond12 k = 1#1 := fun h => absurd ((cond12_iff k).mp h) (by omega)
  have hB2 : k3_cond23 L k = 1#1 := (cond23_iff L k).mpr (by omega)
  have hN2 : k3_cond24 L k = 1#1 := (cond24_iff L k).mpr (by omega)
  have hA3 : k3_cond13 L k = 1#1 := (cond13_iff L k).mpr (by omega)
  have hT3 : ¬ k3_cond14 k = 1#1 := fun h => absurd ((cond14_iff k).mp h) (by omega)
  have hB3 : k3_cond25 L k = 1#1 := (cond25_iff L k).mpr (by omega)
  have hN3 : k3_cond26 L k = 1#1 := (cond26_iff L k).mpr (by omega)
  have hA4 : k3_cond15 L k = 1#1 := (cond15_iff L k).mpr (by omega)
  have hT4 : ¬ k3_cond16 k = 1#1 := fun h => absurd ((cond16_iff k).mp h) (by omega)
  have hB4 : k3_cond27 L k = 1#1 := (cond27_iff L k).mpr (by omega)
  have hN4 : k3_cond28 L k = 1#1 := (cond28_iff L k).mpr (by omega)
  have hA5 : k3_cond17 L k = 1#1 := (cond17_iff L k).mpr (by omega)
  have hT5 : ¬ k3_cond18 k = 1#1 := fun h => absurd ((cond18_iff k).mp h) (by omega)
  have hB5 : k3_cond29 L k = 1#1 := (cond29_iff L k).mpr (by omega)
  have hN5 : k3_cond30 L k = 1#1 := (cond30_iff L k).mpr (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_zero d L tb ix k.val h0, rowSide1_zero d L tb ix k.val h0, rowSide2_zero d L tb ix k.val h0, rowSide3_zero d L tb ix k.val h0, rowSide4_zero d L tb ix k.val h0, rowSide5_zero d L tb ix k.val h0,
    todo_take d L f0 k hB0 hB1 hB2 hB3 hB4 hB5]
  delta idxFly0 idxFly1 idxFly2 idxFly3 idxFly4 idxFly5 rowIdle0 rowIdle1 rowIdle2 rowIdle3 rowIdle4 rowIdle5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨Hfw0, %gr0, Hsr0⟩, ⟨Hfw1, %gr1, Hsr1⟩, ⟨Hfw2, %gr2, Hsr2⟩, ⟨Hfw3, %gr3, Hsr3⟩, ⟨Hfw4, %gr4, Hsr4⟩, ⟨Hfw5, %gr5, Hsr5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone]
  · have e : doneP d L tb ix (k.val + 1) = doneP d L tb ix k.val := by
      delta doneP
      rw [dn_mid _ _ (by omega), dn_mid _ _ (by omega)]
      have e6 : 6 * (k.val + 1) - 6 = 6 * k.val - 6 := by omega
      rw [e6]
    rw [e]; iexact Hdone
  iexists _; isplitr; rotate_left
  · iexact HO
  · ipureintro; intro p hp
    simp only [Finset.mem_insert] at hp
    rcases hp with h | h | h | h | h | h | h | h | h | h | h | h | h
    all_goals first | exact .inr (h ▸ rfl) | exact hW' p h

set_option maxHeartbeats 8000000 in
theorem trip_12a (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 25) (h78 : nW L = 156) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : ¬ k3_cond20 L k = 1#1 := fun h => absurd ((cond20_iff L k).mp h) (by omega)
  have hA1 : k3_cond9 L k = 1#1 := (cond9_iff L k).mpr (by omega)
  have hT1 : k3_cond10 k = 1#1 := (cond10_iff k).mpr (by omega)
  have hB1 : k3_cond21 L k = 1#1 := (cond21_iff L k).mpr (by omega)
  have hN1 : ¬ k3_cond22 L k = 1#1 := fun h => absurd ((cond22_iff L k).mp h) (by omega)
  have hA2 : k3_cond11 L k = 1#1 := (cond11_iff L k).mpr (by omega)
  have hT2 : k3_cond12 k = 1#1 := (cond12_iff k).mpr (by omega)
  have hB2 : k3_cond23 L k = 1#1 := (cond23_iff L k).mpr (by omega)
  have hN2 : ¬ k3_cond24 L k = 1#1 := fun h => absurd ((cond24_iff L k).mp h) (by omega)
  have hA3 : k3_cond13 L k = 1#1 := (cond13_iff L k).mpr (by omega)
  have hT3 : k3_cond14 k = 1#1 := (cond14_iff k).mpr (by omega)
  have hB3 : k3_cond25 L k = 1#1 := (cond25_iff L k).mpr (by omega)
  have hN3 : ¬ k3_cond26 L k = 1#1 := fun h => absurd ((cond26_iff L k).mp h) (by omega)
  have hA4 : k3_cond15 L k = 1#1 := (cond15_iff L k).mpr (by omega)
  have hT4 : k3_cond16 k = 1#1 := (cond16_iff k).mpr (by omega)
  have hB4 : k3_cond27 L k = 1#1 := (cond27_iff L k).mpr (by omega)
  have hN4 : ¬ k3_cond28 L k = 1#1 := fun h => absurd ((cond28_iff L k).mp h) (by omega)
  have hA5 : k3_cond17 L k = 1#1 := (cond17_iff L k).mpr (by omega)
  have hT5 : k3_cond18 k = 1#1 := (cond18_iff k).mpr (by omega)
  have hB5 : k3_cond29 L k = 1#1 := (cond29_iff L k).mpr (by omega)
  have hN5 : ¬ k3_cond30 L k = 1#1 := fun h => absurd ((cond30_iff L k).mp h) (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

set_option maxHeartbeats 8000000 in
theorem trip_12b (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 25) (h79 : nW L = 157) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : k3_cond20 L k = 1#1 := (cond20_iff L k).mpr (by omega)
  have hA1 : k3_cond9 L k = 1#1 := (cond9_iff L k).mpr (by omega)
  have hT1 : k3_cond10 k = 1#1 := (cond10_iff k).mpr (by omega)
  have hB1 : k3_cond21 L k = 1#1 := (cond21_iff L k).mpr (by omega)
  have hN1 : ¬ k3_cond22 L k = 1#1 := fun h => absurd ((cond22_iff L k).mp h) (by omega)
  have hA2 : k3_cond11 L k = 1#1 := (cond11_iff L k).mpr (by omega)
  have hT2 : k3_cond12 k = 1#1 := (cond12_iff k).mpr (by omega)
  have hB2 : k3_cond23 L k = 1#1 := (cond23_iff L k).mpr (by omega)
  have hN2 : ¬ k3_cond24 L k = 1#1 := fun h => absurd ((cond24_iff L k).mp h) (by omega)
  have hA3 : k3_cond13 L k = 1#1 := (cond13_iff L k).mpr (by omega)
  have hT3 : k3_cond14 k = 1#1 := (cond14_iff k).mpr (by omega)
  have hB3 : k3_cond25 L k = 1#1 := (cond25_iff L k).mpr (by omega)
  have hN3 : ¬ k3_cond26 L k = 1#1 := fun h => absurd ((cond26_iff L k).mp h) (by omega)
  have hA4 : k3_cond15 L k = 1#1 := (cond15_iff L k).mpr (by omega)
  have hT4 : k3_cond16 k = 1#1 := (cond16_iff k).mpr (by omega)
  have hB4 : k3_cond27 L k = 1#1 := (cond27_iff L k).mpr (by omega)
  have hN4 : ¬ k3_cond28 L k = 1#1 := fun h => absurd ((cond28_iff L k).mp h) (by omega)
  have hA5 : k3_cond17 L k = 1#1 := (cond17_iff L k).mpr (by omega)
  have hT5 : k3_cond18 k = 1#1 := (cond18_iff k).mpr (by omega)
  have hB5 : k3_cond29 L k = 1#1 := (cond29_iff L k).mpr (by omega)
  have hN5 : ¬ k3_cond30 L k = 1#1 := fun h => absurd ((cond30_iff L k).mp h) (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.KernelIdeal.Hand.C1
end
-- ==== Proof.ScTile1TripsB.lean ====
/-
  The last trip of the second gather call's loop on a tile. A tile owns 156 or 157 windows and the loop makes 27 trips of
  six slots: in trip 26 a tile of 156 windows has none left and the body runs nothing, a tile of 157 has one, on slot 0.
  Then every trip, by cases on the trip number and on the tile's number of windows.
-/
import proofs.«208461_g52518860095779_cont_9to1_m_1075_29_alg».proof.Proof.ScTile1Inv
import proofs.«208461_g52518860095779_cont_9to1_m_1075_29_alg».proof.Proof.ScTile1Vals
import proofs.«208461_g52518860095779_cont_9to1_m_1075_29_alg».proof.Proof.ScTile1TripMid
import proofs.«208461_g52518860095779_cont_9to1_m_1075_29_alg».proof.Proof.ScTile1TripsA

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid3.Coords)

/-! ## Trip 26 of a tile of 156 windows: nothing runs -/

theorem idxSide0_13a (qi : PosShare TreeShare) (ix : Ix1 (F := F)) (t : ℕ) (h1 : t = 26) (h78 : nW L = 156) :
    idxSide0 d L qi ix (t + 1) = idxSide0 d L qi ix t :=
  (idxSide0_neg d L qi ix (t + 1) (by omega)).trans (idxSide0_neg d L qi ix t (by omega)).symm

theorem rowSide0_13a (tb : Tab (F := F)) (ix : Ix1 (F := F)) (t : ℕ) (h1 : t = 26) (h78 : nW L = 156) :
    rowSide0 d L tb ix (t + 1) = rowSide0 d L tb ix t := by
  have w : wOut (nW L) 0 (t + 1) = wOut (nW L) 0 t := by subst h1; rw [h78]; decide
  rw [rowSide0_pos d L tb ix (t + 1) (by omega), rowSide0_pos d L tb ix t (by omega), w]

theorem idxSide1_13a (qi : PosShare TreeShare) (ix : Ix1 (F := F)) (t : ℕ) (h1 : t = 26) (h78 : nW L = 156) :
    idxSide1 d L qi ix (t + 1) = idxSide1 d L qi ix t :=
  (idxSide1_neg d L qi ix (t + 1) (by omega)).trans (idxSide1_neg d L qi ix t (by omega)).symm

theorem rowSide1_13a (tb : Tab (F := F)) (ix : Ix1 (F := F)) (t : ℕ) (h1 : t = 26) (h78 : nW L = 156) :
    rowSide1 d L tb ix (t + 1) = rowSide1 d L tb ix t := by
  have w : wOut (nW L) 1 (t + 1) = wOut (nW L) 1 t := by subst h1; rw [h78]; decide
  rw [rowSide1_pos d L tb ix (t + 1) (by omega), rowSide1_pos d L tb ix t (by omega), w]

theorem idxSide2_13a (qi : PosShare TreeShare) (ix : Ix1 (F := F)) (t : ℕ) (h1 : t = 26) (h78 : nW L = 156) :
    idxSide2 d L qi ix (t + 1) = idxSide2 d L qi ix t :=
  (idxSide2_neg d L qi ix (t + 1) (by omega)).trans (idxSide2_neg d L qi ix t (by omega)).symm

theorem rowSide2_13a (tb : Tab (F := F)) (ix : Ix1 (F := F)) (t : ℕ) (h1 : t = 26) (h78 : nW L = 156) :
    rowSide2 d L tb ix (t + 1) = rowSide2 d L tb ix t := by
  have w : wOut (nW L) 2 (t + 1) = wOut (nW L) 2 t := by subst h1; rw [h78]; decide
  rw [rowSide2_pos d L tb ix (t + 1) (by omega), rowSide2_pos d L tb ix t (by omega), w]

theorem idxSide3_13a (qi : PosShare TreeShare) (ix : Ix1 (F := F)) (t : ℕ) (h1 : t = 26) (h78 : nW L = 156) :
    idxSide3 d L qi ix (t + 1) = idxSide3 d L qi ix t :=
  (idxSide3_neg d L qi ix (t + 1) (by omega)).trans (idxSide3_neg d L qi ix t (by omega)).symm

theorem rowSide3_13a (tb : Tab (F := F)) (ix : Ix1 (F := F)) (t : ℕ) (h1 : t = 26) (h78 : nW L = 156) :
    rowSide3 d L tb ix (t + 1) = rowSide3 d L tb ix t := by
  have w : wOut (nW L) 3 (t + 1) = wOut (nW L) 3 t := by subst h1; rw [h78]; decide
  rw [rowSide3_pos d L tb ix (t + 1) (by omega), rowSide3_pos d L tb ix t (by omega), w]

theorem idxSide4_13a (qi : PosShare TreeShare) (ix : Ix1 (F := F)) (t : ℕ) (h1 : t = 26) (h78 : nW L = 156) :
    idxSide4 d L qi ix (t + 1) = idxSide4 d L qi ix t :=
  (idxSide4_neg d L qi ix (t + 1) (by omega)).trans (idxSide4_neg d L qi ix t (by omega)).symm

theorem rowSide4_13a (tb : Tab (F := F)) (ix : Ix1 (F := F)) (t : ℕ) (h1 : t = 26) (h78 : nW L = 156) :
    rowSide4 d L tb ix (t + 1) = rowSide4 d L tb ix t := by
  have w : wOut (nW L) 4 (t + 1) = wOut (nW L) 4 t := by subst h1; rw [h78]; decide
  rw [rowSide4_pos d L tb ix (t + 1) (by omega), rowSide4_pos d L tb ix t (by omega), w]

theorem idxSide5_13a (qi : PosShare TreeShare) (ix : Ix1 (F := F)) (t : ℕ) (h1 : t = 26) (h78 : nW L = 156) :
    idxSide5 d L qi ix (t + 1) = idxSide5 d L qi ix t :=
  (idxSide5_neg d L qi ix (t + 1) (by omega)).trans (idxSide5_neg d L qi ix t (by omega)).symm

theorem rowSide5_13a (tb : Tab (F := F)) (ix : Ix1 (F := F)) (t : ℕ) (h1 : t = 26) (h78 : nW L = 156) :
    rowSide5 d L tb ix (t + 1) = rowSide5 d L tb ix t := by
  have w : wOut (nW L) 5 (t + 1) = wOut (nW L) 5 t := by subst h1; rw [h78]; decide
  rw [rowSide5_pos d L tb ix (t + 1) (by omega), rowSide5_pos d L tb ix t (by omega), w]

omit [FloatOps F] in
theorem todoP_13a (f0 : Out1 (F := F)) (t : ℕ) (h1 : t = 26) (h78 : nW L = 156) : todoP d L f0 (t + 1) = todoP d L f0 t := by
  delta todoP
  rw [Ring.bigSep_rangeSet_empty (show loL L + nW L ≤ loL L + 6 * (t + 1) by omega),
    Ring.bigSep_rangeSet_empty (show loL L + nW L ≤ loL L + 6 * t by omega)]

theorem doneP_13a (tb : Tab (F := F)) (ix : Ix1 (F := F)) (t : ℕ) (h1 : t = 26) (h78 : nW L = 156) :
    doneP d L tb ix (t + 1) = doneP d L tb ix t := by
  have hd : dn (nW L) (t + 1) = dn (nW L) t := by subst h1; rw [h78]; decide
  delta doneP
  rw [hd]

set_option maxHeartbeats 4000000 in
/-- No slot has a window left, so the invariant at 27 is the invariant at 26. -/
theorem inv_14_eq_13 (qi qt : PosShare TreeShare) (tb : Tab (F := F)) (ix : Ix1 (F := F)) (f0 : Out1 (F := F))
    (O : CellTallies nD τ sig (HIx 2)) (W : Waits sig (HIx 2)) (t : ℕ) (h1 : t = 26) (h78 : nW L = 156) :
    inv d L qi qt tb ix f0 O W (t + 1) = inv d L qi qt tb ix f0 O W t := by
  funext u
  delta inv
  rw [idxSide0_13a d L qi ix t h1 h78, idxSide1_13a d L qi ix t h1 h78, idxSide2_13a d L qi ix t h1 h78,
    idxSide3_13a d L qi ix t h1 h78, idxSide4_13a d L qi ix t h1 h78, idxSide5_13a d L qi ix t h1 h78,
    rowSide0_13a d L tb ix t h1 h78, rowSide1_13a d L tb ix t h1 h78, rowSide2_13a d L tb ix t h1 h78,
    rowSide3_13a d L tb ix t h1 h78, rowSide4_13a d L tb ix t h1 h78, rowSide5_13a d L tb ix t h1 h78,
    todoP_13a d L f0 t h1 h78, doneP_13a d L tb ix t h1 h78]

set_option maxHeartbeats 8000000 in
theorem trip_13a (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 26) (h78 : nW L = 156) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hA0 : ¬ k3_cond7 L k = 1#1 := fun h => absurd ((cond7_iff L k).mp h) (by omega)
  have hA1 : ¬ k3_cond9 L k = 1#1 := fun h => absurd ((cond9_iff L k).mp h) (by omega)
  have hA2 : ¬ k3_cond11 L k = 1#1 := fun h => absurd ((cond11_iff L k).mp h) (by omega)
  have hA3 : ¬ k3_cond13 L k = 1#1 := fun h => absurd ((cond13_iff L k).mp h) (by omega)
  have hA4 : ¬ k3_cond15 L k = 1#1 := fun h => absurd ((cond15_iff L k).mp h) (by omega)
  have hA5 : ¬ k3_cond17 L k = 1#1 := fun h => absurd ((cond17_iff L k).mp h) (by omega)
  have hB0 : ¬ k3_cond19 L k = 1#1 := fun h => absurd ((cond19_iff L k).mp h) (by omega)
  have hB1 : ¬ k3_cond21 L k = 1#1 := fun h => absurd ((cond21_iff L k).mp h) (by omega)
  have hB2 : ¬ k3_cond23 L k = 1#1 := fun h => absurd ((cond23_iff L k).mp h) (by omega)
  have hB3 : ¬ k3_cond25 L k = 1#1 := fun h => absurd ((cond25_iff L k).mp h) (by omega)
  have hB4 : ¬ k3_cond27 L k = 1#1 := fun h => absurd ((cond27_iff L k).mp h) (by omega)
  have hB5 : ¬ k3_cond29 L k = 1#1 := fun h => absurd ((cond29_iff L k).mp h) (by omega)
  unfold k3_t1_body
  rw [k3_part1_eq_skeleton, k3_part2_eq_skeleton]; unfold k3_part1_skel k3_part2_skel
  rw [inv_14_eq_13 d L qi qt tb ix f0 O W k.val h1 h78]
  iintro H
  sl_exec
  sl_step
  iexact H

/-! ## Trip 26 of a tile of 157 windows: slot 0 alone runs -/

theorem idxSide1_13b (qi : PosShare TreeShare) (ix : Ix1 (F := F)) (t : ℕ) (h1 : t = 26) (h79 : nW L = 157) :
    idxSide1 d L qi ix (t + 1) = idxSide1 d L qi ix t :=
  (idxSide1_neg d L qi ix (t + 1) (by omega)).trans (idxSide1_neg d L qi ix t (by omega)).symm

theorem rowSide1_13b (tb : Tab (F := F)) (ix : Ix1 (F := F)) (t : ℕ) (h1 : t = 26) (h79 : nW L = 157) :
    rowSide1 d L tb ix (t + 1) = rowSide1 d L tb ix t := by
  have w : wOut (nW L) 1 (t + 1) = wOut (nW L) 1 t := by subst h1; rw [h79]; decide
  rw [rowSide1_pos d L tb ix (t + 1) (by omega), rowSide1_pos d L tb ix t (by omega), w]

theorem idxSide2_13b (qi : PosShare TreeShare) (ix : Ix1 (F := F)) (t : ℕ) (h1 : t = 26) (h79 : nW L = 157) :
    idxSide2 d L qi ix (t + 1) = idxSide2 d L qi ix t :=
  (idxSide2_neg d L qi ix (t + 1) (by omega)).trans (idxSide2_neg d L qi ix t (by omega)).symm

theorem rowSide2_13b (tb : Tab (F := F)) (ix : Ix1 (F := F)) (t : ℕ) (h1 : t = 26) (h79 : nW L = 157) :
    rowSide2 d L tb ix (t + 1) = rowSide2 d L tb ix t := by
  have w : wOut (nW L) 2 (t + 1) = wOut (nW L) 2 t := by subst h1; rw [h79]; decide
  rw [rowSide2_pos d L tb ix (t + 1) (by omega), rowSide2_pos d L tb ix t (by omega), w]

theorem idxSide3_13b (qi : PosShare TreeShare) (ix : Ix1 (F := F)) (t : ℕ) (h1 : t = 26) (h79 : nW L = 157) :
    idxSide3 d L qi ix (t + 1) = idxSide3 d L qi ix t :=
  (idxSide3_neg d L qi ix (t + 1) (by omega)).trans (idxSide3_neg d L qi ix t (by omega)).symm

theorem rowSide3_13b (tb : Tab (F := F)) (ix : Ix1 (F := F)) (t : ℕ) (h1 : t = 26) (h79 : nW L = 157) :
    rowSide3 d L tb ix (t + 1) = rowSide3 d L tb ix t := by
  have w : wOut (nW L) 3 (t + 1) = wOut (nW L) 3 t := by subst h1; rw [h79]; decide
  rw [rowSide3_pos d L tb ix (t + 1) (by omega), rowSide3_pos d L tb ix t (by omega), w]

theorem idxSide4_13b (qi : PosShare TreeShare) (ix : Ix1 (F := F)) (t : ℕ) (h1 : t = 26) (h79 : nW L = 157) :
    idxSide4 d L qi ix (t + 1) = idxSide4 d L qi ix t :=
  (idxSide4_neg d L qi ix (t + 1) (by omega)).trans (idxSide4_neg d L qi ix t (by omega)).symm

theorem rowSide4_13b (tb : Tab (F := F)) (ix : Ix1 (F := F)) (t : ℕ) (h1 : t = 26) (h79 : nW L = 157) :
    rowSide4 d L tb ix (t + 1) = rowSide4 d L tb ix t := by
  have w : wOut (nW L) 4 (t + 1) = wOut (nW L) 4 t := by subst h1; rw [h79]; decide
  rw [rowSide4_pos d L tb ix (t + 1) (by omega), rowSide4_pos d L tb ix t (by omega), w]

theorem idxSide5_13b (qi : PosShare TreeShare) (ix : Ix1 (F := F)) (t : ℕ) (h1 : t = 26) (h79 : nW L = 157) :
    idxSide5 d L qi ix (t + 1) = idxSide5 d L qi ix t :=
  (idxSide5_neg d L qi ix (t + 1) (by omega)).trans (idxSide5_neg d L qi ix t (by omega)).symm

theorem rowSide5_13b (tb : Tab (F := F)) (ix : Ix1 (F := F)) (t : ℕ) (h1 : t = 26) (h79 : nW L = 157) :
    rowSide5 d L tb ix (t + 1) = rowSide5 d L tb ix t := by
  have w : wOut (nW L) 5 (t + 1) = wOut (nW L) 5 t := by subst h1; rw [h79]; decide
  rw [rowSide5_pos d L tb ix (t + 1) (by omega), rowSide5_pos d L tb ix t (by omega), w]

/-- The one window left is set apart from those still to write, in the program's spelling; none is left after it. -/
theorem todo_take1 (f0 : Out1 (F := F)) (t : Fin k3_t1_loop.trips) (h1 : t.val = 26) (h79 : nW L = 157) (hB0 : k3_cond19 L t = 1#1) :
    todoP d L f0 t.val = iprop(((oW.slice (Rect.unit (s := S640000x128) (k3_off20 L t) S128x128.size (k3_off20_inb L t hB0)) (fun _ => rfl)).view.loc (V d (cV L) (jV L)) ↦[(oW.slice (Rect.unit (s := S640000x128) (k3_off20 L t) S128x128.size (k3_off20_inb L t hB0)) (fun _ => rfl)).view.set]{fullShare} f0)
      ∗ todoP d L f0 (t.val + 1)) := by
  have hh := loL_hi L
  delta todoP
  rw [head_fw _ (loL L + 6 * t.val) (loL L + nW L) (by omega) (by omega), opiece0_eq d L t hB0 f0,
    Ring.bigSep_rangeSet_empty (show loL L + nW L ≤ loL L + 6 * t.val + 1 by omega),
    Ring.bigSep_rangeSet_empty (show loL L + nW L ≤ loL L + 6 * (t.val + 1) by omega)]

/-- The window waited for in the last trip joins those done. -/
theorem done_step1 (tb : Tab (F := F)) (ix : Ix1 (F := F)) (t : ℕ) (h1 : t = 26) (h79 : nW L = 157) :
    doneP d L tb ix (t + 1) = iprop((oLoc1 d ↦[oSet1 (fw (loL L + 6 * (t - 1)))]{fullShare} gath1 tb ix) ∗ doneP d L tb ix t) := by
  have hh := loL_hi L
  have hd14 : dn (nW L) (t + 1) = 150 + 1 := by subst h1; rw [h79]; decide
  have hd13 : dn (nW L) t = 150 := by subst h1; rw [h79]; decide
  have e : 6 * (t - 1) = 150 := by omega
  delta doneP
  rw [hd14, hd13, e, show loL L + (150 + 1) = (loL L + 150) + 1 by omega, last_fw _ (loL L) (loL L + 150) (by omega) (by omega)]

set_option maxHeartbeats 8000000 in
theorem trip_13b (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 26) (h79 : nW L = 157) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : ¬ k3_cond20 L k = 1#1 := fun h => absurd ((cond20_iff L k).mp h) (by omega)
  have hA1 : ¬ k3_cond9 L k = 1#1 := fun h => absurd ((cond9_iff L k).mp h) (by omega)
  have hA2 : ¬ k3_cond11 L k = 1#1 := fun h => absurd ((cond11_iff L k).mp h) (by omega)
  have hA3 : ¬ k3_cond13 L k = 1#1 := fun h => absurd ((cond13_iff L k).mp h) (by omega)
  have hA4 : ¬ k3_cond15 L k = 1#1 := fun h => absurd ((cond15_iff L k).mp h) (by omega)
  have hA5 : ¬ k3_cond17 L k = 1#1 := fun h => absurd ((cond17_iff L k).mp h) (by omega)
  have hB1 : ¬ k3_cond21 L k = 1#1 := fun h => absurd ((cond21_iff L k).mp h) (by omega)
  have hB2 : ¬ k3_cond23 L k = 1#1 := fun h => absurd ((cond23_iff L k).mp h) (by omega)
  have hB3 : ¬ k3_cond25 L k = 1#1 := fun h => absurd ((cond25_iff L k).mp h) (by omega)
  have hB4 : ¬ k3_cond27 L k = 1#1 := fun h => absurd ((cond27_iff L k).mp h) (by omega)
  have hB5 : ¬ k3_cond29 L k = 1#1 := fun h => absurd ((cond29_iff L k).mp h) (by omega)
  unfold k3_t1_body
  rw [k3_part1_eq_skeleton, k3_part2_eq_skeleton]; unfold k3_part1_skel k3_part2_skel
  delta inv
  rw [idxSide0_pos d L qi ix k.val (by omega), rowSide0_pos d L tb ix k.val (by omega), wpos_mid L 0 k.val (by omega),
    todo_take1 d L f0 k h1 h79 hB0]
  delta idxFly0 rowFly0
  iintro ⟨#Hmw, Ht0, Ht1, Ht2, Ht3, Ht4, Ht5, Hg0, Hg1, Hg2, Hg3, Hg4, Hg5, ⟨%ci0, %I0, %hci0, Hfi0, Hri0⟩, Hi1, Hi2, Hi3, Hi4, Hi5, ⟨%gr0, %fo0, %hfo0, Hfw0⟩, Hr1, Hr2, Hr3, Hr4, Hr5, ⟨Ho0, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hi1]; · rw [idxSide1_13b d L qi ix k.val h1 h79]; iexact Hi1
  isplitl [Hi2]; · rw [idxSide2_13b d L qi ix k.val h1 h79]; iexact Hi2
  isplitl [Hi3]; · rw [idxSide3_13b d L qi ix k.val h1 h79]; iexact Hi3
  isplitl [Hi4]; · rw [idxSide4_13b d L qi ix k.val h1 h79]; iexact Hi4
  isplitl [Hi5]; · rw [idxSide5_13b d L qi ix k.val h1 h79]; iexact Hi5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hr1]; · rw [rowSide1_13b d L tb ix k.val h1 h79]; iexact Hr1
  isplitl [Hr2]; · rw [rowSide2_13b d L tb ix k.val h1 h79]; iexact Hr2
  isplitl [Hr3]; · rw [rowSide3_13b d L tb ix k.val h1 h79]; iexact Hr3
  isplitl [Hr4]; · rw [rowSide4_13b d L tb ix k.val h1 h79]; iexact Hr4
  isplitl [Hr5]; · rw [rowSide5_13b d L tb ix k.val h1 h79]; iexact Hr5
  isplitl [Htodo]; · iexact Htodo
  isplitl [Hdone Hfw0_dst]
  · rw [done_step1 d L tb ix k.val h1 h79]
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h
    all_goals first | exact .inr (h ▸ rfl) | exact hW' p h

/-! ## Every trip -/

attribute [local irreducible] inv k3_t1_body in
/-- Every trip of the loop keeps the invariant: the first trip, the trips 1 to 24, and the trips 25 and 26 by the
    tile's number of windows, 156 or 157. -/
theorem region (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hk : k.val < 27 := lt_of_lt_of_eq k.isLt trips_eq
  have hn : nW L = 156 ∨ nW L = 157 := by have := nW_ge L; have := nW_le L; omega
  by_cases h0 : k.val = 0
  · exact trip_first d L v4 v8 qi qt tb ix f0 O W hin k h0
  by_cases hm : k.val ≤ 24
  · exact trip_mid d L v4 v8 qi qt tb ix f0 O W hin k (by omega) hm
  by_cases h12 : k.val = 25
  · rcases hn with h | h
    · exact trip_12a d L v4 v8 qi qt tb ix f0 O W hin k h12 h
    · exact trip_12b d L v4 v8 qi qt tb ix f0 O W hin k h12 h
  have h13 : k.val = 26 := by omega
  rcases hn with h | h
  · exact trip_13a d L v4 v8 qi qt tb ix f0 O W hin k h13 h
  · exact trip_13b d L v4 v8 qi qt tb ix f0 O W hin k h13 h

end Tile
end Cert.KernelIdeal.Hand.C1
end
-- ==== Proof.ScTile1Run.lean ====
/-
  One tile's run of gather call 1. The tile's read share of the table and of the index list is cut into read
  tokens, one per semaphore a transfer reading the array completes on. The kernel starts the first six index
  copies, which makes the loop's invariant at trip 0; every trip keeps it (the region's obligation); at the loop's
  exit the six slots' last write-outs are outstanding, the six closing waits deliver their windows, and the
  windows done with those six are all the tile's windows, at the gathered rows. The tokens join back to the shares.
-/
import proofs.«208461_g52518860095779_cont_9to1_m_1075_29_alg».proof.Proof.ScTile1Inv
import proofs.«208461_g52518860095779_cont_9to1_m_1075_29_alg».proof.Proof.ScTile1Vals
import proofs.«208461_g52518860095779_cont_9to1_m_1075_29_alg».proof.Proof.ScTile1RunDefs
import proofs.«208461_g52518860095779_cont_9to1_m_1075_29_alg».proof.Proof.ScTile1TripsB

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid3.Coords)

/-! ## The twelve read tokens in use (numbers 15 … 4) of sixteen cut off a share, the low four kept together -/

omit [FloatOps F] in
theorem toks16 (ℓ : Loc nD τ sig) (q : PosShare TreeShare) (f : Buf (Elt F) ℓ) :
    (ℓ ↦{q} f : sProp 𝕄) ⊣⊢ iprop((ℓ ↦{Transfers.shareDrop q 44} f)
      ∗ (ℓ ↦{Transfers.shareTokN q 43} f) ∗ (ℓ ↦{Transfers.shareTokN q 42} f) ∗ (ℓ ↦{Transfers.shareTokN q 41} f) ∗ (ℓ ↦{Transfers.shareTokN q 40} f) ∗ (ℓ ↦{Transfers.shareTokN q 39} f) ∗ (ℓ ↦{Transfers.shareTokN q 38} f) ∗ (ℓ ↦{Transfers.shareTokN q 37} f) ∗ (ℓ ↦{Transfers.shareTokN q 36} f) ∗ (ℓ ↦{Transfers.shareTokN q 35} f) ∗ (ℓ ↦{Transfers.shareTokN q 34} f) ∗ (ℓ ↦{Transfers.shareTokN q 33} f) ∗ (ℓ ↦{Transfers.shareTokN q 32} f)
      ∗ bigSep (Finset.range 32) fun i => ℓ ↦{Transfers.shareTokN q i} f) := by
  have h := Transfers.pointsTo_toks_range (Ix := HIx 2) (Name := ℕ) (U := UU) (Lvl := ℕ) (ℓ := ℓ) (S := Finset.univ) (f := f) q 44
  rw [show (44 : ℕ) = 43 + 1 from rfl, Ring.bigSep_range_succ,
    show (43 : ℕ) = 42 + 1 from rfl, Ring.bigSep_range_succ,
    show (42 : ℕ) = 41 + 1 from rfl, Ring.bigSep_range_succ,
    show (41 : ℕ) = 40 + 1 from rfl, Ring.bigSep_range_succ,
    show (40 : ℕ) = 39 + 1 from rfl, Ring.bigSep_range_succ,
    show (39 : ℕ) = 38 + 1 from rfl, Ring.bigSep_range_succ,
    show (38 : ℕ) = 37 + 1 from rfl, Ring.bigSep_range_succ,
    show (37 : ℕ) = 36 + 1 from rfl, Ring.bigSep_range_succ,
    show (36 : ℕ) = 35 + 1 from rfl, Ring.bigSep_range_succ,
    show (35 : ℕ) = 34 + 1 from rfl, Ring.bigSep_range_succ,
    show (34 : ℕ) = 33 + 1 from rfl, Ring.bigSep_range_succ,
    show (33 : ℕ) = 32 + 1 from rfl, Ring.bigSep_range_succ] at h
  exact h

/-! ## The prologue's six index copies -/
theorem offP0_eq : k3_off1 L = ![128 * (loL L + 6 * 0 + 0)] := by
  rw [k3_off1_eq]; unfold loL lo1; congr 1; omega
theorem offP1_eq : k3_off2 L = ![128 * (loL L + 6 * 0 + 1)] := by
  rw [k3_off2_eq]; unfold loL lo1; congr 1; omega
theorem offP2_eq : k3_off3 L = ![128 * (loL L + 6 * 0 + 2)] := by
  rw [k3_off3_eq]; unfold loL lo1; congr 1; omega
theorem offP3_eq : k3_off4 L = ![128 * (loL L + 6 * 0 + 3)] := by
  rw [k3_off4_eq]; unfold loL lo1; congr 1; omega
theorem offP4_eq : k3_off5 L = ![128 * (loL L + 6 * 0 + 4)] := by
  rw [k3_off5_eq]; unfold loL lo1; congr 1; omega
theorem offP5_eq : k3_off6 L = ![128 * (loL L + 6 * 0 + 5)] := by
  rw [k3_off6_eq]; unfold loL lo1; congr 1; omega

/-! ## The pools at the two ends of the loop -/

theorem done0 (tb : Tab (F := F)) (ix : Ix1 (F := F)) : doneP d L tb ix 0 = (iprop(emp) : sProp 𝕄) := by
  delta doneP; rw [dn_mid _ _ (by omega)]; exact Ring.bigSep_rangeSet_empty (by omega)
theorem todo14 (f0 : Out1 (F := F)) : todoP d L f0 27 = (iprop(emp) : sProp 𝕄) := by
  have := nW_le L
  delta todoP; exact Ring.bigSep_rangeSet_empty (by omega)
theorem wpos14_hi (b : ℕ) (h : ¬ 156 + b < nW L) : loL L + wOut (nW L) b 27 = loL L + 150 + b := by
  unfold wOut; rw [if_neg (by omega)]; omega
theorem wpos14_last (h : nW L = 157) : loL L + wOut (nW L) 0 27 = loL L + 156 := by
  unfold wOut; rw [if_pos (by omega)]

/-- All the tile's windows at the gathered rows: those done and the six the closing waits deliver (156 windows). -/
theorem fin78 (tb : Tab (F := F)) (ix : Ix1 (F := F)) (h : nW L = 156) :
    (bigSep (Ring.rangeSet 5000 (loL L) (loL L + nW L)) fun w => oLoc1 d ↦[oSet1 w]{fullShare} gath1 tb ix : sProp 𝕄)
      = iprop((oLoc1 d ↦[oSet1 (fw (loL L + 150 + 5))]{fullShare} gath1 tb ix) ∗ (oLoc1 d ↦[oSet1 (fw (loL L + 150 + 4))]{fullShare} gath1 tb ix) ∗ (oLoc1 d ↦[oSet1 (fw (loL L + 150 + 3))]{fullShare} gath1 tb ix) ∗ (oLoc1 d ↦[oSet1 (fw (loL L + 150 + 2))]{fullShare} gath1 tb ix) ∗ (oLoc1 d ↦[oSet1 (fw (loL L + 150 + 1))]{fullShare} gath1 tb ix) ∗ (oLoc1 d ↦[oSet1 (fw (loL L + 150 + 0))]{fullShare} gath1 tb ix) ∗ doneP d L tb ix 27) := by
  have hh := loL_hi L
  delta doneP
  rw [h, show dn 156 27 = 150 from rfl, show loL L + 156 = (loL L + 150) + 6 from rfl, put6 _ (loL L) (loL L + 150) (by omega) (by omega)]
/-- The same for a tile of 157 windows: slot 0's last window is the 79th. -/
theorem fin79 (tb : Tab (F := F)) (ix : Ix1 (F := F)) (h : nW L = 157) :
    (bigSep (Ring.rangeSet 5000 (loL L) (loL L + nW L)) fun w => oLoc1 d ↦[oSet1 w]{fullShare} gath1 tb ix : sProp 𝕄)
      = iprop((oLoc1 d ↦[oSet1 (fw (loL L + 156))]{fullShare} gath1 tb ix) ∗ (oLoc1 d ↦[oSet1 (fw (loL L + 150 + 5))]{fullShare} gath1 tb ix) ∗ (oLoc1 d ↦[oSet1 (fw (loL L + 150 + 4))]{fullShare} gath1 tb ix) ∗ (oLoc1 d ↦[oSet1 (fw (loL L + 150 + 3))]{fullShare} gath1 tb ix) ∗ (oLoc1 d ↦[oSet1 (fw (loL L + 150 + 2))]{fullShare} gath1 tb ix) ∗ (oLoc1 d ↦[oSet1 (fw (loL L + 150 + 1))]{fullShare} gath1 tb ix) ∗ doneP d L tb ix 27) := by
  have hh := loL_hi L
  delta doneP
  rw [h, show dn 157 27 = 151 from rfl, show loL L + 157 = (loL L + 156) + 1 from rfl, last_fw _ (loL L) (loL L + 156) (by omega) (by omega),
    show loL L + 156 = (loL L + 155) + 1 from rfl, last_fw _ (loL L) (loL L + 155) (by omega) (by omega),
    show loL L + 155 = (loL L + 154) + 1 from rfl, last_fw _ (loL L) (loL L + 154) (by omega) (by omega),
    show loL L + 154 = (loL L + 153) + 1 from rfl, last_fw _ (loL L) (loL L + 153) (by omega) (by omega),
    show loL L + 153 = (loL L + 152) + 1 from rfl, last_fw _ (loL L) (loL L + 152) (by omega) (by omega),
    show loL L + 152 = (loL L + 151) + 1 from rfl, last_fw _ (loL L) (loL L + 151) (by omega) (by omega)]

/-! ## The run -/

set_option maxHeartbeats 8000000 in
theorem tile_run (q : PosShare TreeShare) (tb : Tab (F := F)) (ix : Ix1 (F := F)) (f0 : Out1 (F := F))
    (O : CellTallies nD τ sig (HIx 2)) (W : Waits sig (HIx 2)) (hin : ∀ j, (ix j).toNat < 20000) :
    preRun d L q tb ix f0 O W
      ⊢ wp frame (wpE (defs₀ (F := F)) 𝒱₀ (V d (cV L) (jV L)) none) Set.univ (cc3_k L tW (Memref.isWhole_whole _) iW (Memref.isWhole_whole _) oW (Memref.isWhole_whole _) sI (Memref.isWhole_whole _) sR (Memref.isWhole_whole _) cc3_scratch2 cc3_scratch3 cc3_scratch4)
          fun _ => postRun d L q tb ix O W := by
  have hn := nW_ge L
  have hn' := nW_le L
  have k3_h1 := cond1_true L
  have k3_h2 := cond2_true L
  have k3_h3 := cond3_true L
  have k3_h4 := cond4_true L
  have k3_h5 := cond5_true L
  have k3_h6 := cond6_true L
  rw [cc3_k_eq_skeleton]; unfold cc3_k_skel
  rw [k3_part3_eq_skeleton, k3_part4_eq_skeleton, k3_part5_eq_skeleton]; unfold k3_part3_skel k3_part4_skel k3_part5_skel
  delta preRun
  iintro ⟨Hmw, Ht, Hi, Htodo, ⟨%ci0, Hsi0⟩, ⟨%ci1, Hsi1⟩, ⟨%ci2, Hsi2⟩, ⟨%ci3, Hsi3⟩, ⟨%ci4, Hsi4⟩, ⟨%ci5, Hsi5⟩, ⟨%gr0, Hsr0⟩, ⟨%gr1, Hsr1⟩, ⟨%gr2, Hsr2⟩, ⟨%gr3, Hsr3⟩, ⟨%gr4, Hsr4⟩, ⟨%gr5, Hsr5⟩, Hfi0, Hfi1, Hfi2, Hfi3, Hfi4, Hfi5, Hg0, Hg1, Hg2, Hg3, Hg4, Hg5, Hfw0, Hfw1, Hfw2, Hfw3, Hfw4, Hfw5, HO⟩
  ihave Ht' := (toks16 _ q tb).1 $$ Ht
  icases Ht' with ⟨HtD, Ht5, Ht4, Ht3, Ht2, Ht1, Ht0, HtX9, HtX8, HtX7, HtX6, HtX5, HtX4, HtLow⟩
  ihave Hi' := (toks16 _ q ix).1 $$ Hi
  icases Hi' with ⟨HiD, HiX15, HiX14, HiX13, HiX12, HiX11, HiX10, Hri5, Hri4, Hri3, Hri2, Hri1, Hri0, HiLow⟩
  sl_exec
  rw [Prog.bind_assoc]
  sl_for (inv d L q q tb ix f0 O W) $$ [Hmw Ht0 Ht1 Ht2 Ht3 Ht4 Ht5 Hg0 Hg1 Hg2 Hg3 Hg4 Hg5 Hfi0 Hri0 Hfi1 Hri1 Hfi2 Hri2 Hfi3 Hri3 Hfi4 Hri4 Hfi5 Hri5 Hfw0 Hsr0 Hfw1 Hsr1 Hfw2 Hsr2 Hfw3 Hsr3 Hfw4 Hsr4 Hfw5 Hsr5 Htodo HO]
  case region =>
    intro k acc
    first
      | exact region d L _ _ q q tb ix f0 O W hin k acc
      | (cases acc; exact region d L _ _ q q tb ix f0 O W hin k)
  · delta inv
    rw [idxSide0_pos d L q ix 0 (by omega), idxSide1_pos d L q ix 0 (by omega), idxSide2_pos d L q ix 0 (by omega), idxSide3_pos d L q ix 0 (by omega), idxSide4_pos d L q ix 0 (by omega), idxSide5_pos d L q ix 0 (by omega),
      rowSide0_zero d L tb ix 0 rfl, rowSide1_zero d L tb ix 0 rfl, rowSide2_zero d L tb ix 0 rfl, rowSide3_zero d L tb ix 0 rfl, rowSide4_zero d L tb ix 0 rfl, rowSide5_zero d L tb ix 0 rfl, done0]
    delta idxFly0 idxFly1 idxFly2 idxFly3 idxFly4 idxFly5 rowIdle0 rowIdle1 rowIdle2 rowIdle3 rowIdle4 rowIdle5
    isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hfi0 Hri0]
    · iexists _, _; isplitr; rotate_left
      · isplitl [Hfi0]; · iexact Hfi0
        iexact Hri0
      · ipureintro; exact idxval0 d L ix ci0 _ _ (loL L + 6 * 0 + 0) (offP0_eq L)
    isplitl [Hfi1 Hri1]
    · iexists _, _; isplitr; rotate_left
      · isplitl [Hfi1]; · iexact Hfi1
        iexact Hri1
      · ipureintro; exact idxval1 d L ix ci1 _ _ (loL L + 6 * 0 + 1) (offP1_eq L)
    isplitl [Hfi2 Hri2]
    · iexists _, _; isplitr; rotate_left
      · isplitl [Hfi2]; · iexact Hfi2
        iexact Hri2
      · ipureintro; exact idxval2 d L ix ci2 _ _ (loL L + 6 * 0 + 2) (offP2_eq L)
    isplitl [Hfi3 Hri3]
    · iexists _, _; isplitr; rotate_left
      · isplitl [Hfi3]; · iexact Hfi3
        iexact Hri3
      · ipureintro; exact idxval3 d L ix ci3 _ _ (loL L + 6 * 0 + 3) (offP3_eq L)
    isplitl [Hfi4 Hri4]
    · iexists _, _; isplitr; rotate_left
      · isplitl [Hfi4]; · iexact Hfi4
        iexact Hri4
      · ipureintro; exact idxval4 d L ix ci4 _ _ (loL L + 6 * 0 + 4) (offP4_eq L)
    isplitl [Hfi5 Hri5]
    · iexists _, _; isplitr; rotate_left
      · isplitl [Hfi5]; · iexact Hfi5
        iexact Hri5
      · ipureintro; exact idxval5 d L ix ci5 _ _ (loL L + 6 * 0 + 5) (offP5_eq L)
    isplitl [Hfw0 Hsr0]
    · isplitl [Hfw0]; · iexact Hfw0
      iexists _; iexact Hsr0
    isplitl [Hfw1 Hsr1]
    · isplitl [Hfw1]; · iexact Hfw1
      iexists _; iexact Hsr1
    isplitl [Hfw2 Hsr2]
    · isplitl [Hfw2]; · iexact Hfw2
      iexists _; iexact Hsr2
    isplitl [Hfw3 Hsr3]
    · isplitl [Hfw3]; · iexact Hfw3
      iexists _; iexact Hsr3
    isplitl [Hfw4 Hsr4]
    · isplitl [Hfw4]; · iexact Hfw4
      iexists _; iexact Hsr4
    isplitl [Hfw5 Hsr5]
    · isplitl [Hfw5]; · iexact Hfw5
      iexists _; iexact Hsr5
    isplitl [Htodo]; · iexact Htodo
    isplitr; · iempintro
    iexists W; isplitr
    · ipureintro; exact fun p hp => .inl hp
    · iexact HO
  iintro %_ HI
  have ht : Scf.trips k3_t1_loop.lb k3_t1_loop.ub k3_t1_loop.st = 27 := trips_eq
  rw [ht]
  delta inv
  rw [idxSide0_neg d L q ix 27 (by omega), idxSide1_neg d L q ix 27 (by omega), idxSide2_neg d L q ix 27 (by omega), idxSide3_neg d L q ix 27 (by omega), idxSide4_neg d L q ix 27 (by omega), idxSide5_neg d L q ix 27 (by omega),
    rowSide0_pos d L tb ix 27 (by omega), rowSide1_pos d L tb ix 27 (by omega), rowSide2_pos d L tb ix 27 (by omega), rowSide3_pos d L tb ix 27 (by omega), rowSide4_pos d L tb ix 27 (by omega), rowSide5_pos d L tb ix 27 (by omega), todo14]
  delta idxIdle0 idxIdle1 idxIdle2 idxIdle3 idxIdle4 idxIdle5 rowFly0 rowFly1 rowFly2 rowFly3 rowFly4 rowFly5
  icases HI with ⟨Hmw, Ht0, Ht1, Ht2, Ht3, Ht4, Ht5, Hg0, Hg1, Hg2, Hg3, Hg4, Hg5, ⟨Hfi0, ⟨%cj0, Hsi0⟩, Hri0⟩, ⟨Hfi1, ⟨%cj1, Hsi1⟩, Hri1⟩, ⟨Hfi2, ⟨%cj2, Hsi2⟩, Hri2⟩, ⟨Hfi3, ⟨%cj3, Hsi3⟩, Hri3⟩, ⟨Hfi4, ⟨%cj4, Hsi4⟩, Hri4⟩, ⟨Hfi5, ⟨%cj5, Hsi5⟩, Hri5⟩, ⟨%gs0, %fo0, %hfo0, Hfw0⟩, ⟨%gs1, %fo1, %hfo1, Hfw1⟩, ⟨%gs2, %fo2, %hfo2, Hfw2⟩, ⟨%gs3, %fo3, %hfo3, Hfw3⟩, ⟨%gs4, %fo4, %hfo4, Hfw4⟩, ⟨%gs5, %fo5, %hfo5, Hfw5⟩, -, Hdone, %W', %hW', HO⟩
  sl_exec
  sl_step
  delta postRun
  isplitl [HtD Ht5 Ht4 Ht3 Ht2 Ht1 Ht0 HtX9 HtX8 HtX7 HtX6 HtX5 HtX4 HtLow]
  · iapply (toks16 _ q tb).2
    isplitl [HtD]; · iexact HtD
    isplitl [Ht5]; · iexact Ht5
    isplitl [Ht4]; · iexact Ht4
    isplitl [Ht3]; · iexact Ht3
    isplitl [Ht2]; · iexact Ht2
    isplitl [Ht1]; · iexact Ht1
    isplitl [Ht0]; · iexact Ht0
    isplitl [HtX9]; · iexact HtX9
    isplitl [HtX8]; · iexact HtX8
    isplitl [HtX7]; · iexact HtX7
    isplitl [HtX6]; · iexact HtX6
    isplitl [HtX5]; · iexact HtX5
    isplitl [HtX4]; · iexact HtX4
    iexact HtLow
  isplitl [HiD HiX15 HiX14 HiX13 HiX12 HiX11 HiX10 Hri5 Hri4 Hri3 Hri2 Hri1 Hri0 HiLow]
  · iapply (toks16 _ q ix).2
    isplitl [HiD]; · iexact HiD
    isplitl [HiX15]; · iexact HiX15
    isplitl [HiX14]; · iexact HiX14
    isplitl [HiX13]; · iexact HiX13
    isplitl [HiX12]; · iexact HiX12
    isplitl [HiX11]; · iexact HiX11
    isplitl [HiX10]; · iexact HiX10
    isplitl [Hri5]; · iexact Hri5
    isplitl [Hri4]; · iexact Hri4
    isplitl [Hri3]; · iexact Hri3
    isplitl [Hri2]; · iexact Hri2
    isplitl [Hri1]; · iexact Hri1
    isplitl [Hri0]; · iexact Hri0
    iexact HiLow
  isplitl [Hdone Hfw0_dst Hfw1_dst Hfw2_dst Hfw3_dst Hfw4_dst Hfw5_dst]
  · rcases (show nW L = 156 ∨ nW L = 157 by omega) with h78 | h79
    · rw [fin78 d L tb ix h78]
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      isplitl [Hfw0_dst]
      · rw [← wpos14_hi L 0 (by omega)]; iapply (Entails.of_eq (pointsTo_congr hfo0)); iexact Hfw0_dst
      iexact Hdone
    · rw [fin79 d L tb ix h79]
      isplitl [Hfw0_dst]
      · rw [← wpos14_last L h79]; iapply (Entails.of_eq (pointsTo_congr hfo0)); iexact Hfw0_dst
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      iexact Hdone
  isplitl [Hsi0]; · iexists _; iexact Hsi0
  isplitl [Hsi1]; · iexists _; iexact Hsi1
  isplitl [Hsi2]; · iexists _; iexact Hsi2
  isplitl [Hsi3]; · iexists _; iexact Hsi3
  isplitl [Hsi4]; · iexists _; iexact Hsi4
  isplitl [Hsi5]; · iexists _; iexact Hsi5
  isplitl [Hfw0_src]; · iexists _; iexact Hfw0_src
  isplitl [Hfw1_src]; · iexists _; iexact Hfw1_src
  isplitl [Hfw2_src]; · iexists _; iexact Hfw2_src
  isplitl [Hfw3_src]; · iexists _; iexact Hfw3_src
  isplitl [Hfw4_src]; · iexists _; iexact Hfw4_src
  isplitl [Hfw5_src]; · iexists _; iexact Hfw5_src
  isplitl [Hfi0]; · iexact Hfi0
  isplitl [Hfi1]; · iexact Hfi1
  isplitl [Hfi2]; · iexact Hfi2
  isplitl [Hfi3]; · iexact Hfi3
  isplitl [Hfi4]; · iexact Hfi4
  isplitl [Hfi5]; · iexact Hfi5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfw0]; · iexact Hfw0
  isplitl [Hfw1]; · iexact Hfw1
  isplitl [Hfw2]; · iexact Hfw2
  isplitl [Hfw3]; · iexact Hfw3
  isplitl [Hfw4]; · iexact Hfw4
  isplitl [Hfw5]; · iexact Hfw5
  iexists _; isplitr; rotate_left
  · iexact HO
  · ipureintro; intro p hp
    simp only [Finset.mem_insert] at hp
    rcases hp with h | h | h | h | h | h | h
    all_goals first | exact .inr (h ▸ rfl) | exact hW' p h

end Tile

end Cert.KernelIdeal.Hand.C1

end
-- ==== Proof.ScTile1Setup.lean ====
/-
  One tile of gather call 1, before its body runs: what the launch deals it, opened up. Its own semaphore cells
  are the eighteen copy semaphores of the six-slot ring (three per slot: index copy, gather, write-out) and the
  rest; its own buffers are the two scratch buffers (six index slots of 128 words, six row slots of 128 rows of 128
  words) and the rest; and each scratch buffer held whole is its six slots held, each slot spelt as the kernel's
  body slices it out, in both directions (back: six slots at whatever contents are the buffer at some contents).
-/
import proofs.«208461_g52518860095779_cont_9to1_m_1075_29_alg».proof.Proof.ScTile1Inv

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Taking listed members out of a family -/

/-- A family over a finite set with some members listed (without repetition) is those members one by one, in the
    list's order, and the family over the rest. -/
theorem bigSep_take_list {I : Type} [DecidableEq I] (Φ : I → sProp 𝕄) :
    ∀ (l : List I) (s : Finset I), l.Nodup → (∀ i ∈ l, i ∈ s) →
      bigSep s Φ = l.foldr (fun i R => iprop(Φ i ∗ R)) (bigSep (s \ l.toFinset) Φ)
  | [], s, _, _ => by rw [List.toFinset_nil, Finset.sdiff_empty]; rfl
  | a :: l, s, hnd, hmem => by
    obtain ⟨ha, hl⟩ := List.nodup_cons.mp hnd
    have hrest : ∀ i ∈ l, i ∈ s.erase a := fun i hi =>
      Finset.mem_erase.mpr ⟨fun e => ha (e ▸ hi), hmem i (List.mem_cons_of_mem a hi)⟩
    have hset : s.erase a \ l.toFinset = s \ (a :: l).toFinset := by
      ext x
      simp only [Finset.mem_sdiff, Finset.mem_erase, List.toFinset_cons, Finset.mem_insert, List.mem_toFinset, not_or]
      tauto
    rw [SparseCore.bigSep_erase' (hmem a (List.mem_cons_self ..)), bigSep_take_list Φ l (s.erase a) hl hrest, hset]
    rfl

/-! ## The tile's own semaphore cells: the three copy semaphores of each of the six slots, and the rest -/

/-- The eighteen cells of the three six-slot DMA semaphore arrays, array by array, slot by slot. -/
def slotSems : List (SemLoc sig) :=
  [SemLoc.dma ((cc3_scratch2.slice (Rect.unit (s := S6) ![0] S1.size inb_S6_S1_0)).squeeze S_ squeezes_S1_S_).sem,
   SemLoc.dma ((cc3_scratch2.slice (Rect.unit (s := S6) ![1] S1.size inb_S6_S1_1)).squeeze S_ squeezes_S1_S_).sem,
   SemLoc.dma ((cc3_scratch2.slice (Rect.unit (s := S6) ![2] S1.size inb_S6_S1_2)).squeeze S_ squeezes_S1_S_).sem,
   SemLoc.dma ((cc3_scratch2.slice (Rect.unit (s := S6) ![3] S1.size inb_S6_S1_3)).squeeze S_ squeezes_S1_S_).sem,
   SemLoc.dma ((cc3_scratch2.slice (Rect.unit (s := S6) ![4] S1.size inb_S6_S1_4)).squeeze S_ squeezes_S1_S_).sem,
   SemLoc.dma ((cc3_scratch2.slice (Rect.unit (s := S6) ![5] S1.size inb_S6_S1_5)).squeeze S_ squeezes_S1_S_).sem,
   SemLoc.dma ((cc3_scratch3.slice (Rect.unit (s := S6) ![0] S1.size inb_S6_S1_0)).squeeze S_ squeezes_S1_S_).sem,
   SemLoc.dma ((cc3_scratch3.slice (Rect.unit (s := S6) ![1] S1.size inb_S6_S1_1)).squeeze S_ squeezes_S1_S_).sem,
   SemLoc.dma ((cc3_scratch3.slice (Rect.unit (s := S6) ![2] S1.size inb_S6_S1_2)).squeeze S_ squeezes_S1_S_).sem,
   SemLoc.dma ((cc3_scratch3.slice (Rect.unit (s := S6) ![3] S1.size inb_S6_S1_3)).squeeze S_ squeezes_S1_S_).sem,
   SemLoc.dma ((cc3_scratch3.slice (Rect.unit (s := S6) ![4] S1.size inb_S6_S1_4)).squeeze S_ squeezes_S1_S_).sem,
   SemLoc.dma ((cc3_scratch3.slice (Rect.unit (s := S6) ![5] S1.size inb_S6_S1_5)).squeeze S_ squeezes_S1_S_).sem,
   SemLoc.dma ((cc3_scratch4.slice (Rect.unit (s := S6) ![0] S1.size inb_S6_S1_0)).squeeze S_ squeezes_S1_S_).sem,
   SemLoc.dma ((cc3_scratch4.slice (Rect.unit (s := S6) ![1] S1.size inb_S6_S1_1)).squeeze S_ squeezes_S1_S_).sem,
   SemLoc.dma ((cc3_scratch4.slice (Rect.unit (s := S6) ![2] S1.size inb_S6_S1_2)).squeeze S_ squeezes_S1_S_).sem,
   SemLoc.dma ((cc3_scratch4.slice (Rect.unit (s := S6) ![3] S1.size inb_S6_S1_3)).squeeze S_ squeezes_S1_S_).sem,
   SemLoc.dma ((cc3_scratch4.slice (Rect.unit (s := S6) ![4] S1.size inb_S6_S1_4)).squeeze S_ squeezes_S1_S_).sem,
   SemLoc.dma ((cc3_scratch4.slice (Rect.unit (s := S6) ![5] S1.size inb_S6_S1_5)).squeeze S_ squeezes_S1_S_).sem]

theorem slotSems_nodup : (slotSems).Nodup := by decide
theorem slotSems_scoped : ∀ a ∈ slotSems, SemLoc.isScoped .scVector a = true := by decide

/-- The tile's other own cells, at zero. -/
def semRest (d : Dev nD) (L : grid3.Coords) : sProp 𝕄 :=
  bigSep (ownCells (V d (cV L) (jV L)) \ (slotSems.map fun a => (((V d (cV L) (jV L)), a) : GSem nD τ sig)).toFinset) fun g => semVal g 0

/-- The tile's own cells at zero are the eighteen slot semaphores at zero and the rest. -/
theorem ownSems0_V (d : Dev nD) (L : grid3.Coords) :
    (ownSems0 (V d (cV L) (jV L)) : sProp 𝕄)
      = iprop(semVal ((V d (cV L) (jV L)), SemLoc.dma ((cc3_scratch2.slice (Rect.unit (s := S6) ![0] S1.size inb_S6_S1_0)).squeeze S_ squeezes_S1_S_).sem) 0
          ∗ semVal ((V d (cV L) (jV L)), SemLoc.dma ((cc3_scratch2.slice (Rect.unit (s := S6) ![1] S1.size inb_S6_S1_1)).squeeze S_ squeezes_S1_S_).sem) 0
          ∗ semVal ((V d (cV L) (jV L)), SemLoc.dma ((cc3_scratch2.slice (Rect.unit (s := S6) ![2] S1.size inb_S6_S1_2)).squeeze S_ squeezes_S1_S_).sem) 0
          ∗ semVal ((V d (cV L) (jV L)), SemLoc.dma ((cc3_scratch2.slice (Rect.unit (s := S6) ![3] S1.size inb_S6_S1_3)).squeeze S_ squeezes_S1_S_).sem) 0
          ∗ semVal ((V d (cV L) (jV L)), SemLoc.dma ((cc3_scratch2.slice (Rect.unit (s := S6) ![4] S1.size inb_S6_S1_4)).squeeze S_ squeezes_S1_S_).sem) 0
          ∗ semVal ((V d (cV L) (jV L)), SemLoc.dma ((cc3_scratch2.slice (Rect.unit (s := S6) ![5] S1.size inb_S6_S1_5)).squeeze S_ squeezes_S1_S_).sem) 0
          ∗ semVal ((V d (cV L) (jV L)), SemLoc.dma ((cc3_scratch3.slice (Rect.unit (s := S6) ![0] S1.size inb_S6_S1_0)).squeeze S_ squeezes_S1_S_).sem) 0
          ∗ semVal ((V d (cV L) (jV L)), SemLoc.dma ((cc3_scratch3.slice (Rect.unit (s := S6) ![1] S1.size inb_S6_S1_1)).squeeze S_ squeezes_S1_S_).sem) 0
          ∗ semVal ((V d (cV L) (jV L)), SemLoc.dma ((cc3_scratch3.slice (Rect.unit (s := S6) ![2] S1.size inb_S6_S1_2)).squeeze S_ squeezes_S1_S_).sem) 0
          ∗ semVal ((V d (cV L) (jV L)), SemLoc.dma ((cc3_scratch3.slice (Rect.unit (s := S6) ![3] S1.size inb_S6_S1_3)).squeeze S_ squeezes_S1_S_).sem) 0
          ∗ semVal ((V d (cV L) (jV L)), SemLoc.dma ((cc3_scratch3.slice (Rect.unit (s := S6) ![4] S1.size inb_S6_S1_4)).squeeze S_ squeezes_S1_S_).sem) 0
          ∗ semVal ((V d (cV L) (jV L)), SemLoc.dma ((cc3_scratch3.slice (Rect.unit (s := S6) ![5] S1.size inb_S6_S1_5)).squeeze S_ squeezes_S1_S_).sem) 0
          ∗ semVal ((V d (cV L) (jV L)), SemLoc.dma ((cc3_scratch4.slice (Rect.unit (s := S6) ![0] S1.size inb_S6_S1_0)).squeeze S_ squeezes_S1_S_).sem) 0
          ∗ semVal ((V d (cV L) (jV L)), SemLoc.dma ((cc3_scratch4.slice (Rect.unit (s := S6) ![1] S1.size inb_S6_S1_1)).squeeze S_ squeezes_S1_S_).sem) 0
          ∗ semVal ((V d (cV L) (jV L)), SemLoc.dma ((cc3_scratch4.slice (Rect.unit (s := S6) ![2] S1.size inb_S6_S1_2)).squeeze S_ squeezes_S1_S_).sem) 0
          ∗ semVal ((V d (cV L) (jV L)), SemLoc.dma ((cc3_scratch4.slice (Rect.unit (s := S6) ![3] S1.size inb_S6_S1_3)).squeeze S_ squeezes_S1_S_).sem) 0
          ∗ semVal ((V d (cV L) (jV L)), SemLoc.dma ((cc3_scratch4.slice (Rect.unit (s := S6) ![4] S1.size inb_S6_S1_4)).squeeze S_ squeezes_S1_S_).sem) 0
          ∗ semVal ((V d (cV L) (jV L)), SemLoc.dma ((cc3_scratch4.slice (Rect.unit (s := S6) ![5] S1.size inb_S6_S1_5)).squeeze S_ squeezes_S1_S_).sem) 0
          ∗ semRest d L) := by
  unfold SparseCore.Cfg.ownSems0
  have hmem : ∀ g ∈ slotSems.map (fun a => (((V d (cV L) (jV L)), a) : GSem nD τ sig)), g ∈ ownCells (V d (cV L) (jV L)) := by
    intro g hg
    obtain ⟨a, ha, rfl⟩ := List.mem_map.mp hg
    exact mem_ownCells.mpr ⟨rfl, slotSems_scoped a ha⟩
  rw [bigSep_take_list (fun g => semVal g 0) (slotSems.map fun a => (((V d (cV L) (jV L)), a) : GSem nD τ sig)) _
    (slotSems_nodup.map fun x y h => (Prod.mk.inj h).2) hmem]
  unfold semRest
  simp only [slotSems, List.map_cons, List.map_nil, List.foldr_cons, List.foldr_nil]

/-! ## The tile's own buffers: the two scratch buffers and the rest -/

/-- The tile's other own buffers, each whole at some contents. -/
def bufRest (d : Dev nD) (L : grid3.Coords) : sProp 𝕄 :=
  bigSep (ownRefs (τ := τ) (.scVector (cV L) (jV L))
      \ [(Proc.scVector (cV L) (jV L)).devRef cc3_scratch0, (Proc.scVector (cV L) (jV L)).devRef cc3_scratch1].toFinset)
    fun b => iprop(∃ f, ((d, b) : Loc nD τ sig) ↦{fullShare} f)

/-- The tile's own buffers are its two scratch buffers, each whole at some contents, and the rest. -/
theorem ownBufs_V (d : Dev nD) (L : grid3.Coords) :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ bufRest d L) := by
  unfold SparseCore.Cfg.ownBufs
  refine (bigSep_take_list (fun b => iprop(∃ f, ((d, b) : Loc nD τ sig) ↦{fullShare} f))
    [(Proc.scVector (cV L) (jV L)).devRef cc3_scratch0, (Proc.scVector (cV L) (jV L)).devRef cc3_scratch1] _ ?_ ?_).trans rfl
  · refine List.nodup_cons.mpr ⟨?_, List.nodup_singleton _⟩
    rw [List.mem_singleton]
    exact fun e => absurd (Proc.devRef_injective _ e) (show (cc3_scratch0 : Ref sig .scVector) ≠ cc3_scratch1 by decide)
  · intro b hb
    rcases List.mem_cons.mp hb with rfl | hb
    · exact SparseCore.Cfg.mem_ownRefs_of_owner (p := Proc.scVector (cV L) (jV L)) rfl
    · rw [List.mem_singleton] at hb; subst hb
      exact SparseCore.Cfg.mem_ownRefs_of_owner (p := Proc.scVector (cV L) (jV L)) rfl

/-! ## A family over six slots, slot by slot -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A buffer held at contents of which something is known is held at some contents. -/
theorem ex_forget {ℓ : Loc nD τ sig} (φ : Buf (Elt F) ℓ → Prop) :
    (iprop(∃ g, ⌜φ g⌝ ∗ ℓ ↦{fullShare} g) : sProp 𝕄) ⊢ iprop(∃ f, ℓ ↦{fullShare} f) := by
  iintro ⟨%g, -, Hg⟩
  iexists g; iexact Hg

/-! ## The index scratch is its six slots -/

/-- Slot b of the index scratch: row b of its six rows of 128 words. -/
abbrev iSlot (b : Fin 6) : Rect S6x128 :=
  Rect.unit (s := S6x128) ![b.val, 0] S1x128.size (fun a => match a with
    | ⟨0, _⟩ => (by show b.val + 1 ≤ 6; omega)
    | ⟨1, _⟩ => (by show 0 + 128 ≤ 128; omega))

/-- Its elements, as the slot's memref (sliced out, then squeezed to 128 words) has them. -/
abbrev iSet (b : Fin 6) : Finset S6x128.Idx := ((sI.slice (iSlot b) (fun _ => rfl)).squeeze S128 squeezes_S1x128_S128).view.set

theorem iSet_eq (b : Fin 6) : iSet b = (iSlot b).set := by
  show (((View.whole (cc3_scratch0 : Ref sig .scVector)).slice (iSlot b)).reshape S128 _).set = _
  rw [View.set_reshape, View.set_slice]; exact Finset.map_refl

/-- Two slots share no word: they lie in different rows. -/
theorem iSet_disjoint : ∀ b ∈ (Finset.univ : Finset (Fin 6)), ∀ b' ∈ (Finset.univ : Finset (Fin 6)), b ≠ b' → Disjoint (iSet b) (iSet b') :=
  fun b _ b' _ h => by
    rw [iSet_eq, iSet_eq]
    refine Rect.unit_disjoint (0 : Fin 2) ?_
    have hv : b.val ≠ b'.val := fun e => h (Fin.ext e)
    show b.val + 1 ≤ b'.val ∨ b'.val + 1 ≤ b.val
    omega

/-- Every word lies in the slot its row names. -/
theorem iSet_cover : (Finset.univ : Finset (Fin 6)).biUnion iSet = Finset.univ := by
  ext i
  simp only [Finset.mem_biUnion, Finset.mem_univ, true_and, iff_true]
  refine ⟨⟨(i 0).val, (i 0).isLt⟩, ?_⟩
  rw [iSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩

theorem sI_pts_slots (d : Dev nD) (L : grid3.Coords) (f : Buf (Elt F) ((V d (cV L) (jV L)).loc cc3_scratch0)) :
    ((V d (cV L) (jV L)).loc cc3_scratch0 ↦{fullShare} f : sProp 𝕄)
      = bigSep Finset.univ fun b : Fin 6 => (V d (cV L) (jV L)).loc cc3_scratch0 ↦[iSet b]{fullShare} f := by
  rw [← pointsTo_biUnion Finset.univ (ℓ := (V d (cV L) (jV L)).loc cc3_scratch0) iSet iSet_disjoint, iSet_cover]; try rfl

/-- The index scratch held whole is its six slots held, each as the program spells the slot. -/
theorem sI_slots (d : Dev nD) (L : grid3.Coords) (f : Buf (Elt F) (sI.view.loc (V d (cV L) (jV L)))) :
    (sI.view.loc (V d (cV L) (jV L)) ↦{fullShare} f : sProp 𝕄)
      ⊢ iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} f)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} f)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} f)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} f)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} f)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} f)) :=
  Entails.of_eq ((sI_pts_slots d L f).trans (bigSep_fin6 _))

/-- Six slots held, at whatever contents each, are the index scratch held whole at some contents. -/
theorem sI_join (d : Dev nD) (L : grid3.Coords) (g0 g1 g2 g3 g4 g5 : Buf (Elt F) (sI.view.loc (V d (cV L) (jV L)))) :
    (iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} g0)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} g1)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} g2)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} g3)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} g4)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} g5)) : sProp 𝕄)
      ⊢ iprop(∃ f, sI.view.loc (V d (cV L) (jV L)) ↦{fullShare} f) := by
  have h := pointsTo_biUnion_join (Ix := HIx 2) (Val := Elt F) (Name := ℕ) (U := UU) (Lvl := ℕ) (ℓ := (V d (cV L) (jV L)).loc cc3_scratch0) (q := fullShare)
    (Finset.univ : Finset (Fin 6)) iSet ![g0, g1, g2, g3, g4, g5] g0 iSet_disjoint
  rw [bigSep_fin6, iSet_cover] at h
  exact BI.Entails.trans h (ex_forget _)

/-! ## The row scratch is its six slots -/

/-- Slot b of the row scratch: block b of its six blocks of 128 rows of 128 words. -/
abbrev rSlot (b : Fin 6) : Rect S6x128x128 :=
  Rect.unit (s := S6x128x128) ![b.val, 0, 0] S1x128x128.size (fun a => match a with
    | ⟨0, _⟩ => (by show b.val + 1 ≤ 6; omega)
    | ⟨1, _⟩ => (by show 0 + 128 ≤ 128; omega)
    | ⟨2, _⟩ => (by show 0 + 128 ≤ 128; omega))

/-- Its elements, as the slot's memref (sliced out, then squeezed to 128 rows of 128 words) has them. -/
abbrev rSet (b : Fin 6) : Finset S6x128x128.Idx :=
  ((sR.slice (rSlot b) (fun _ => rfl)).squeeze S128x128 squeezes_S1x128x128_S128x128).view.set

theorem rSet_eq (b : Fin 6) : rSet b = (rSlot b).set := by
  show (((View.whole (cc3_scratch1 : Ref sig .scVector)).slice (rSlot b)).reshape S128x128 _).set = _
  rw [View.set_reshape, View.set_slice]; exact Finset.map_refl

/-- Two slots share no word: they lie in different blocks. -/
theorem rSet_disjoint : ∀ b ∈ (Finset.univ : Finset (Fin 6)), ∀ b' ∈ (Finset.univ : Finset (Fin 6)), b ≠ b' → Disjoint (rSet b) (rSet b') :=
  fun b _ b' _ h => by
    rw [rSet_eq, rSet_eq]
    refine Rect.unit_disjoint (0 : Fin 3) ?_
    have hv : b.val ≠ b'.val := fun e => h (Fin.ext e)
    show b.val + 1 ≤ b'.val ∨ b'.val + 1 ≤ b.val
    omega

/-- Every word lies in the slot its block names. -/
theorem rSet_cover : (Finset.univ : Finset (Fin 6)).biUnion rSet = Finset.univ := by
  ext i
  simp only [Finset.mem_biUnion, Finset.mem_univ, true_and, iff_true]
  refine ⟨⟨(i 0).val, (i 0).isLt⟩, ?_⟩
  rw [rSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩

theorem sR_pts_slots (d : Dev nD) (L : grid3.Coords) (f : Buf (Elt F) ((V d (cV L) (jV L)).loc cc3_scratch1)) :
    ((V d (cV L) (jV L)).loc cc3_scratch1 ↦{fullShare} f : sProp 𝕄)
      = bigSep Finset.univ fun b : Fin 6 => (V d (cV L) (jV L)).loc cc3_scratch1 ↦[rSet b]{fullShare} f := by
  rw [← pointsTo_biUnion Finset.univ (ℓ := (V d (cV L) (jV L)).loc cc3_scratch1) rSet rSet_disjoint, rSet_cover]; try rfl

/-- The row scratch held whole is its six slots held, each as the program spells the slot. -/
theorem sR_slots (d : Dev nD) (L : grid3.Coords) (f : Buf (Elt F) (sR.view.loc (V d (cV L) (jV L)))) :
    (sR.view.loc (V d (cV L) (jV L)) ↦{fullShare} f : sProp 𝕄)
      ⊢ iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} f)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} f)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} f)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} f)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} f)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} f)) :=
  Entails.of_eq ((sR_pts_slots d L f).trans (bigSep_fin6 _))

/-- Six slots held, at whatever contents each, are the row scratch held whole at some contents. -/
theorem sR_join (d : Dev nD) (L : grid3.Coords) (g0 g1 g2 g3 g4 g5 : Buf (Elt F) (sR.view.loc (V d (cV L) (jV L)))) :
    (iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} g0)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} g1)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} g2)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} g3)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} g4)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} g5)) : sProp 𝕄)
      ⊢ iprop(∃ f, sR.view.loc (V d (cV L) (jV L)) ↦{fullShare} f) := by
  have h := pointsTo_biUnion_join (Ix := HIx 2) (Val := Elt F) (Name := ℕ) (U := UU) (Lvl := ℕ) (ℓ := (V d (cV L) (jV L)).loc cc3_scratch1) (q := fullShare)
    (Finset.univ : Finset (Fin 6)) rSet ![g0, g1, g2, g3, g4, g5] g0 rSet_disjoint
  rw [bigSep_fin6, rSet_cover] at h
  exact BI.Entails.trans h (ex_forget _)

end Cert.KernelIdeal.Hand.C1
end
-- ==== Proof.ScTile1.lean ====
/-
  The obligation of one vector subcore's task of gather call 1, as the SparseCore launch asks it: from the level facts, the
  task's operands (its read shares of table and index list, its result windows at what the result held), the subcore's scoped
  buffers and semaphores and what it owes, the kernel's body runs to the result windows at the gathered rows, the scoped
  storage back, and what it owes unchanged. The subcore's own semaphores are the ring's eighteen and the rest, its own
  buffers the two scratch buffers — each its six slots — and the rest; the rest rides along the run.
-/
import proofs.«208461_g52518860095779_cont_9to1_m_1075_29_alg».proof.Proof.ScTile1Run
import proofs.«208461_g52518860095779_cont_9to1_m_1075_29_alg».proof.Proof.ScTile1Setup

noncomputable section

namespace Cert.KernelIdeal.Hand.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The tile's coordinates and its windows -/

/-- The grid coordinates of tile (c, s). -/
def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_k (coordsV c s)
          tW (Memref.isWhole_whole _) iW (Memref.isWhole_whole _) oW (Memref.isWhole_whole _)
          sI (Memref.isWhole_whole _) sR (Memref.isWhole_whole _) cc3_scratch2 cc3_scratch3 cc3_scratch4) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Wrap
variable (d : Dev nD) (L : grid3.Coords)

/-- The tile's SparseCore and subcore, as the call's payload counts them. -/
abbrev cL : Fin 2 := Fin.cast (by rfl) (L 0)
abbrev sL : Fin 16 := Fin.cast (by rfl) (L 1)

theorem wid_L : wid (cL L) (sL L) = 2 * (L 1).val + (L 0).val := by
  show (L 1).val * 2 + (L 0).val = _; omega
/-- The tile's first window, -/
theorem lo_L : lo1 (wid (cL L) (sL L)) = loL L := by rw [wid_L]; rfl
/-- and the end of its windows. -/
theorem hi_L : hi1 (wid (cL L) (sL L)) = loL L + nW L := by
  rw [wid_L]; unfold hi1 nW loL
  by_cases h : 2 * (L 1).val + (L 0).val < 8 <;> simp only [h, if_true, if_false] <;> omega

/-- What the call hands the tile, in the spelling of the tile's run. -/
theorem tile0_eq (tb : Dev nD → Tab (F := F)) (ix : Dev nD → Ix1 (F := F)) (g : Dev nD → Out1 (F := F)) :
    (tile1 tb ix g d (cL L) (sL L) : sProp 𝕄)
      = iprop(((tW).view.loc (V d (cV L) (jV L)) ↦{qTile (cL L) (sL L)} tb d) ∗ ((iW).view.loc (V d (cV L) (jV L)) ↦{qTile (cL L) (sL L)} ix d)
          ∗ bigSep (Ring.rangeSet 5000 (loL L) (loL L + nW L)) fun w => oLoc1 d ↦[oSet1 w]{fullShare} g d) := by
  unfold tile1; rw [lo_L, hi_L]

theorem todoP_zero (g : Out1 (F := F)) :
    (todoP d L g 0 : sProp 𝕄) = bigSep (Ring.rangeSet 5000 (loL L) (loL L + nW L)) fun w => oLoc1 d ↦[oSet1 w]{fullShare} g := by
  unfold todoP; rw [Nat.mul_zero, Nat.add_zero]

set_option maxHeartbeats 4000000 in
/-- The task of tile L of device d: its own cells and buffers opened, the run, and everything handed back. -/
theorem tile_wrap (tb : Dev nD → Tab (F := F)) (ix : Dev nD → Ix1 (F := F)) (f1 : Dev nD → Out1 (F := F))
    (hin : ∀ j, (ix d j).toNat < 20000) (O : CellTallies nD τ sig (HIx 2)) (W : Waits sig (HIx 2)) (hO : ∀ g, O g none = 0) :
    iprop(levAts (K (F := F)).L (K (F := F)).lev ∗ emp ∗ tile1 tb ix f1 d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L tW (Memref.isWhole_whole _) iW (Memref.isWhole_whole _) oW (Memref.isWhole_whole _)
            sI (Memref.isWhole_whole _) sR (Memref.isWhole_whole _) cc3_scratch2 cc3_scratch3 cc3_scratch4)
          fun _ => iprop(tile1 tb ix (fun d => gath1 (tb d) (ix d)) d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V,
    tile0_eq, tile0_eq]
  iintro ⟨#Hlv, -, ⟨Ht, Hi, Hw⟩, ⟨⟨%fi, HsI⟩, ⟨%fr, HsR⟩, Hbr⟩, ⟨S20, S21, S22, S23, S24, S25, S30, S31, S32, S33, S34, S35, S40, S41, S42, S43, S44, S45, Hsr⟩, HO⟩
  ihave HMW := ((K (F := F)).mayWaits_none (thr := (V d (cV L) (jV L))) hO) $$ Hlv
  icases (sI_slots d L fi) $$ HsI with ⟨I0, I1, I2, I3, I4, I5⟩
  icases (sR_slots d L fr) $$ HsR with ⟨R0, R1, R2, R3, R4, R5⟩
  iapply (wp_wand_r frame _ Set.univ)
  isplitl [HMW Ht Hi Hw I0 I1 I2 I3 I4 I5 R0 R1 R2 R3 R4 R5 S20 S21 S22 S23 S24 S25 S30 S31 S32 S33 S34 S35 S40 S41 S42 S43 S44 S45 HO]
  · iapply (tile_run d L (qTile (cL L) (sL L)) (tb d) (ix d) (f1 d) O W hin)
    unfold preRun
    rw [todoP_zero]
    isplitl [HMW]; · iexact HMW
    isplitl [Ht]; · iexact Ht
    isplitl [Hi]; · iexact Hi
    isplitl [Hw]; · iexact Hw
    isplitl [I0]; · iexists fi; iexact I0
    isplitl [I1]; · iexists fi; iexact I1
    isplitl [I2]; · iexists fi; iexact I2
    isplitl [I3]; · iexists fi; iexact I3
    isplitl [I4]; · iexists fi; iexact I4
    isplitl [I5]; · iexists fi; iexact I5
    isplitl [R0]; · iexists fr; iexact R0
    isplitl [R1]; · iexists fr; iexact R1
    isplitl [R2]; · iexists fr; iexact R2
    isplitl [R3]; · iexists fr; iexact R3
    isplitl [R4]; · iexists fr; iexact R4
    isplitl [R5]; · iexists fr; iexact R5
    isplitl [S20]; · iexact S20
    isplitl [S21]; · iexact S21
    isplitl [S22]; · iexact S22
    isplitl [S23]; · iexact S23
    isplitl [S24]; · iexact S24
    isplitl [S25]; · iexact S25
    isplitl [S30]; · iexact S30
    isplitl [S31]; · iexact S31
    isplitl [S32]; · iexact S32
    isplitl [S33]; · iexact S33
    isplitl [S34]; · iexact S34
    isplitl [S35]; · iexact S35
    isplitl [S40]; · iexact S40
    isplitl [S41]; · iexact S41
    isplitl [S42]; · iexact S42
    isplitl [S43]; · iexact S43
    isplitl [S44]; · iexact S44
    isplitl [S45]; · iexact S45
    iexact HO
  · iintro %_ Hpost
    unfold postRun
    icases Hpost with ⟨Ht, Hi, Hw, ⟨%gi0, I0⟩, ⟨%gi1, I1⟩, ⟨%gi2, I2⟩, ⟨%gi3, I3⟩, ⟨%gi4, I4⟩, ⟨%gi5, I5⟩, ⟨%gr0, R0⟩, ⟨%gr1, R1⟩, ⟨%gr2, R2⟩, ⟨%gr3, R3⟩, ⟨%gr4, R4⟩, ⟨%gr5, R5⟩, S20, S21, S22, S23, S24, S25, S30, S31, S32, S33, S34, S35, S40, S41, S42, S43, S44, S45, HO⟩
    isplitl [Ht Hi Hw]
    · isplitl [Ht]; · iexact Ht
      isplitl [Hi]; · iexact Hi
      iexact Hw
    isplitl [I0 I1 I2 I3 I4 I5 R0 R1 R2 R3 R4 R5 Hbr]
    · isplitl [I0 I1 I2 I3 I4 I5]
      · iapply (sI_join d L gi0 gi1 gi2 gi3 gi4 gi5)
        isplitl [I0]; · iexact I0
        isplitl [I1]; · iexact I1
        isplitl [I2]; · iexact I2
        isplitl [I3]; · iexact I3
        isplitl [I4]; · iexact I4
        iexact I5
      isplitl [R0 R1 R2 R3 R4 R5]
      · iapply (sR_join d L gr0 gr1 gr2 gr3 gr4 gr5)
        isplitl [R0]; · iexact R0
        isplitl [R1]; · iexact R1
        isplitl [R2]; · iexact R2
        isplitl [R3]; · iexact R3
        isplitl [R4]; · iexact R4
        iexact R5
      iexact Hbr
    isplitl [S20 S21 S22 S23 S24 S25 S30 S31 S32 S33 S34 S35 S40 S41 S42 S43 S44 S45 Hsr]
    ·
      isplitl [S20]; · iexact S20
      isplitl [S21]; · iexact S21
      isplitl [S22]; · iexact S22
      isplitl [S23]; · iexact S23
      isplitl [S24]; · iexact S24
      isplitl [S25]; · iexact S25
      isplitl [S30]; · iexact S30
      isplitl [S31]; · iexact S31
      isplitl [S32]; · iexact S32
      isplitl [S33]; · iexact S33
      isplitl [S34]; · iexact S34
      isplitl [S35]; · iexact S35
      isplitl [S40]; · iexact S40
      isplitl [S41]; · iexact S41
      isplitl [S42]; · iexact S42
      isplitl [S43]; · iexact S43
      isplitl [S44]; · iexact S44
      isplitl [S45]; · iexact S45
      iexact Hsr
    iexact HO

end Wrap

/-! ## The launch theorem's obligation -/

section Obl
variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

set_option maxHeartbeats 4000000 in
/-- Gather call 1, as one vector subcore's task: the launch theorem's obligation for it. -/
theorem tileObl1 (hin1 : ∀ d j, (ix1 d j).toNat < 20000) :
    (K (F := F)).TileObl (D (F := F)) 𝒱 (P tb0 ix0 f0 tb1 ix1 f1) v₀ 1 := by
  intro d c i O W hO _ _
  simp only [P_ox, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector]; simp only [SparseCore.onTile, hc, and_self, ↓reduceDIte]
  exact (tile_wrap d (coordsV ⟨_, hc.1⟩ ⟨_, hc.2⟩) tb1 ix1 f1 (hin1 d) O W hO).trans (wp_mono frame _ _ fun _ => obl_post)

end Obl

end Cert.KernelIdeal.Hand.C1

end
-- ==== Proof.Algebraic.lean ====
/-
  The value claim: from memories agreeing on the ten arguments, the kernel program's run ends with its two results at
  their contents along @main, and the reference's run ends with its two results at the same arrays: the node update
  by the node bridge, the edge update by the edge bridge, each through the reference's results read as plain
  functions of the arguments.
-/
import proofs.«208461_g52518860095779_cont_9to1_m_1075_29_alg».proof.Defs
import proofs.«208461_g52518860095779_cont_9to1_m_1075_29_alg».proof.Proof.Frames
import proofs.«208461_g52518860095779_cont_9to1_m_1075_29_alg».proof.Proof.RefValue
import proofs.«208461_g52518860095779_cont_9to1_m_1075_29_alg».proof.Proof.PreFacts
import proofs.«208461_g52518860095779_cont_9to1_m_1075_29_alg».proof.Proof.AUWhole
import proofs.«208461_g52518860095779_cont_9to1_m_1075_29_alg».proof.Proof.BUWhole
import proofs.«208461_g52518860095779_cont_9to1_m_1075_29_alg».proof.Proof.Value2
import proofs.«208461_g52518860095779_cont_9to1_m_1075_29_alg».proof.Proof.Region2
import proofs.«208461_g52518860095779_cont_9to1_m_1075_29_alg».proof.Proof.ScTile0
import proofs.«208461_g52518860095779_cont_9to1_m_1075_29_alg».proof.Proof.ScTile1

noncomputable section

namespace Cert.Proof

open Idealize.ShloMosaic Idealize.SL.Sem
open Cert.KernelIdeal Cert.KernelIdeal.Hand

/-- The edge-update pipeline changes its result array only. -/
theorem upd2_kept' {F : FTy → Type} [FloatOps F] (X : Valuation τ sig (Elt F)) (b : DevRef τ sig) (hb : b ≠ rf main_v31) :
    upd2 X b = X b := by
  unfold upd2; exact Function.update_of_ne hb _ _

/-- The kernel program's frame at the ideal instance. -/
theorem frame_KernelIdeal : Cert.frame_KernelIdeal := fun m ρ hpre =>
  frame_gen (F := Ideal) upd2 upd2_kept' (fun d X O W hO _ k Q => region2 d X O W hO k Q)
    (fun m hin => tileObl0 _ _ _ _ _ _ hin) (fun m hin => C1.tileObl1 _ _ _ _ _ _ hin) m ρ
    (fun d j => Cert.PreFacts.adj_range (hpre d) j) (fun d j => Cert.PreFacts.tup_range (hpre d) j)

set_option maxHeartbeats 1600000 in
/-- The two idealized programs, run from memories agreeing on the arguments, end with equal results. -/
theorem algebraic : Cert.algebraic_KernelIdeal_ReferenceIdeal := by
  intro m ρ m' ρ' hpre hagree
  have hadj : ∀ d j, (m (d, rf main_arg2) j).toNat ≤ 9999 := fun d j => Cert.PreFacts.adj_range (hpre d) j
  have htup : ∀ d j, (m (d, rf main_arg3) j).toNat ≤ 9999 := fun d j => Cert.PreFacts.tup_range (hpre d) j
  refine ⟨fun c => W10 upd0 upd1 upd2 m c (rf main_v11), fun c => W10 upd0 upd1 upd2 m c (rf main_v31), ?_, ?_⟩
  · exact (θ_run (Cert.KernelIdeal.defs (F := Ideal)) _ _).mono (fun r h c =>
      ⟨h c (rf main_v11) (by decide), h c (rf main_v31) (by decide),
      (h c (rf main_arg0) (by decide)).trans (W10_arg0 upd0 upd1 upd2 m c upd0_kept upd1_kept' upd2_kept'),
      (h c (rf main_arg1) (by decide)).trans (W10_arg1 upd0 upd1 upd2 m c upd0_kept upd1_kept' upd2_kept'),
      (h c (rf main_arg2) (by decide)).trans (W10_arg2 upd0 upd1 upd2 m c upd0_kept upd1_kept' upd2_kept'),
      (h c (rf main_arg3) (by decide)).trans (W10_arg3 upd0 upd1 upd2 m c upd0_kept upd1_kept' upd2_kept'),
      (h c (rf main_arg4) (by decide)).trans (W10_arg4 upd0 upd1 upd2 m c upd0_kept upd1_kept' upd2_kept'),
      (h c (rf main_arg5) (by decide)).trans (W10_arg5 upd0 upd1 upd2 m c upd0_kept upd1_kept' upd2_kept'),
      (h c (rf main_arg6) (by decide)).trans (W10_arg6 upd0 upd1 upd2 m c upd0_kept upd1_kept' upd2_kept'),
      (h c (rf main_arg7) (by decide)).trans (W10_arg7 upd0 upd1 upd2 m c upd0_kept upd1_kept' upd2_kept'),
      (h c (rf main_arg8) (by decide)).trans (W10_arg8 upd0 upd1 upd2 m c upd0_kept upd1_kept' upd2_kept'),
      (h c (rf main_arg9) (by decide)).trans (W10_arg9 upd0 upd1 upd2 m c upd0_kept upd1_kept' upd2_kept')⟩)
      (run_main (F := Ideal) upd2 m ρ (fun d X O W hO _ k Q => region2 d X O W hO k Q)
        (tileObl0 _ _ _ _ _ _ (idx0_ok upd0 m upd0_kept hadj)) (C1.tileObl1 _ _ _ _ _ _ (idx1_ok upd0 upd1 m upd0_kept upd1_kept' htup)))
  · refine (θ_run (Cert.ReferenceIdeal.defs (F := Ideal)) _ _).mono (fun r h c => ?_)
      (Cert.ReferenceIdeal.RefRun.run_main (F := Ideal) m' ρ')
    have e0 : StableHlo.launchContents m' c (Proc.devRef .tc Cert.ReferenceIdeal.main_arg0) = A0 m c := (hagree c).1
    have e1 : StableHlo.launchContents m' c (Proc.devRef .tc Cert.ReferenceIdeal.main_arg1) = A1 m c := (hagree c).2.1
    have e2 : StableHlo.launchContents m' c (Proc.devRef .tc Cert.ReferenceIdeal.main_arg2) = A2 m c := (hagree c).2.2.1
    have e3 : StableHlo.launchContents m' c (Proc.devRef .tc Cert.ReferenceIdeal.main_arg3) = A3 m c := (hagree c).2.2.2.1
    have e4 : StableHlo.launchContents m' c (Proc.devRef .tc Cert.ReferenceIdeal.main_arg4) = A4 m c := (hagree c).2.2.2.2.1
    have e5 : StableHlo.launchContents m' c (Proc.devRef .tc Cert.ReferenceIdeal.main_arg5) = A5 m c := (hagree c).2.2.2.2.2.1
    have e6 : StableHlo.launchContents m' c (Proc.devRef .tc Cert.ReferenceIdeal.main_arg6) = A6 m c := (hagree c).2.2.2.2.2.2.1
    have e7 : StableHlo.launchContents m' c (Proc.devRef .tc Cert.ReferenceIdeal.main_arg7) = A7 m c := (hagree c).2.2.2.2.2.2.2.1
    have e8 : StableHlo.launchContents m' c (Proc.devRef .tc Cert.ReferenceIdeal.main_arg8) = A8 m c := (hagree c).2.2.2.2.2.2.2.2.1
    have e9 : StableHlo.launchContents m' c (Proc.devRef .tc Cert.ReferenceIdeal.main_arg9) = A9 m c := (hagree c).2.2.2.2.2.2.2.2.2
    refine ⟨(h c Cert.ReferenceIdeal.main_v32).trans ?_, (h c Cert.ReferenceIdeal.main_v54).trans ?_,
      (h c Cert.ReferenceIdeal.main_arg0).trans (Cert.ReferenceIdeal.RefRun.arg_kept _ Cert.ReferenceIdeal.main_arg0 (by simp)),
      (h c Cert.ReferenceIdeal.main_arg1).trans (Cert.ReferenceIdeal.RefRun.arg_kept _ Cert.ReferenceIdeal.main_arg1 (by simp)),
      (h c Cert.ReferenceIdeal.main_arg2).trans (Cert.ReferenceIdeal.RefRun.arg_kept _ Cert.ReferenceIdeal.main_arg2 (by simp)),
      (h c Cert.ReferenceIdeal.main_arg3).trans (Cert.ReferenceIdeal.RefRun.arg_kept _ Cert.ReferenceIdeal.main_arg3 (by simp)),
      (h c Cert.ReferenceIdeal.main_arg4).trans (Cert.ReferenceIdeal.RefRun.arg_kept _ Cert.ReferenceIdeal.main_arg4 (by simp)),
      (h c Cert.ReferenceIdeal.main_arg5).trans (Cert.ReferenceIdeal.RefRun.arg_kept _ Cert.ReferenceIdeal.main_arg5 (by simp)),
      (h c Cert.ReferenceIdeal.main_arg6).trans (Cert.ReferenceIdeal.RefRun.arg_kept _ Cert.ReferenceIdeal.main_arg6 (by simp)),
      (h c Cert.ReferenceIdeal.main_arg7).trans (Cert.ReferenceIdeal.RefRun.arg_kept _ Cert.ReferenceIdeal.main_arg7 (by simp)),
      (h c Cert.ReferenceIdeal.main_arg8).trans (Cert.ReferenceIdeal.RefRun.arg_kept _ Cert.ReferenceIdeal.main_arg8 (by simp)),
      (h c Cert.ReferenceIdeal.main_arg9).trans (Cert.ReferenceIdeal.RefRun.arg_kept _ Cert.ReferenceIdeal.main_arg9 (by simp))⟩
    · refine (Cert.ReferenceIdeal.RefValue.res0_eq _ (fun j => ?_)).trans ?_
      · rw [e2]; exact hadj c j
      · rw [e0, e1, e2, e4, e7]
        exact (Cert.Bridge.au_whole upd2 upd2_kept' m c (hpre c)).symm
    · refine (Cert.ReferenceIdeal.RefValue.res1_eq _ (fun j => ?_) (fun j => ?_)).trans ?_
      · rw [e2]; exact hadj c j
      · rw [e3]; exact htup c j
      · rw [e0, e1, e2, e3, e4, e5, e6, e7, e8, e9]
        exact (Cert.Bridge.bu_whole m c (hpre c) (fun V bt n mm o => V2.res2_apply V bt n mm o)).symm

end Cert.Proof

end
-- ==== Proof.RefFrame.lean ====
/-
  The reference program's frame: its run, read at the ten argument buffers, none of which any operation writes.
-/
import proofs.«208461_g52518860095779_cont_9to1_m_1075_29_alg».proof.Defs
import proofs.«208461_g52518860095779_cont_9to1_m_1075_29_alg».proof.Proof.RefRun
import proofs.«208461_g52518860095779_cont_9to1_m_1075_29_alg».proof.Proof.Gen.Pre_input_domain

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Every weakly fair execution of the reference terminates, nothing faulting, its arguments unchanged. -/
theorem frame : Cert.frame_ReferenceIdeal := fun m ρ _ =>
  (θ_run Cert.ReferenceIdeal.defs _ _).mono (fun _ h c =>
    ⟨(h c main_arg0).trans (arg_kept _ main_arg0 (by simp)),
      (h c main_arg1).trans (arg_kept _ main_arg1 (by simp)),
      (h c main_arg2).trans (arg_kept _ main_arg2 (by simp)),
      (h c main_arg3).trans (arg_kept _ main_arg3 (by simp)),
      (h c main_arg4).trans (arg_kept _ main_arg4 (by simp)),
      (h c main_arg5).trans (arg_kept _ main_arg5 (by simp)),
      (h c main_arg6).trans (arg_kept _ main_arg6 (by simp)),
      (h c main_arg7).trans (arg_kept _ main_arg7 (by simp)),
      (h c main_arg8).trans (arg_kept _ main_arg8 (by simp)),
      (h c main_arg9).trans (arg_kept _ main_arg9 (by simp))⟩)
    (run_main (F := Ideal) m ρ)

end Cert.ReferenceIdeal.RefRun

end
-- ==== Proof.Bits.Common.lean ====
/-
  The program as the launch theorem of a SparseCore program sees it: two vector-subcore gather calls beside three
  TensorCore pipelines in one @main. Here: the label signature, the call table, the body table, the variants, the
  call table's side conditions, and the resource algebra — the handshakes' rounds, the pipelines' staging cells'
  rounds, and the transfers' counters side by side.
-/
import proofs.«208461_g52518860095779_cont_9to1_m_1075_29_alg».proof.Kernel
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«208461_g52518860095779_cont_9to1_m_1075_29_alg».proof.Proof.Gen.Kernel
import proofs.«208461_g52518860095779_cont_9to1_m_1075_29_alg».proof.Proof.Gen.Kernel.Skeleton
import proofs.«208461_g52518860095779_cont_9to1_m_1075_29_alg».proof.Proof.Gen.Kernel.Launch
import proofs.«208461_g52518860095779_cont_9to1_m_1075_29_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, staging cells, transfers' counters. -/
abbrev UU : Type := UH × (UP × Counters)

/-- The handshakes' rounds library, the left factor. -/
abbrev EH : Emb UH (MT nD τ sig (HIx 2) (Elt F) ℕ UU ℕ) := embL
/-- The staging cells' rounds library, the left factor of the right factor. -/
def EP : Emb UP (MT nD τ sig (HIx 2) (Elt F) ℕ UU ℕ) :=
  (Emb.inl : Emb UP (UP × Counters)).trans (embR : Emb (UP × Counters) (MT nD τ sig (HIx 2) (Elt F) ℕ (UH × (UP × Counters)) ℕ))

instance EP_landsIn : (EP : Emb UP (MT nD τ sig (HIx 2) (Elt F) ℕ UU ℕ)).LandsIn (upEmb : UEmb _ (MT nD τ sig (HIx 2) (Elt F) ℕ UU ℕ)) := by
  unfold EP embR; infer_instance

example : CountersIn UU := inferInstance

/-! ## The three pipelines, pinned: none has a prefetched table -/

/-- The (empty) prefetched contents each pipeline is pinned at. -/
abbrev adm : (p : Fin 3) → (pcfgs (F := F) p).Adm := fun p => (cfgs p).toPCfg_adm
/-- The pipelines as the region rule reads them. -/
abbrev pcf : Fin 3 → Pipeline.Cfg sig Λ₀ := Pipeline.pin (pcfgs (F := F)) adm
theorem pcf_eq : pcf (F := F) = cfgs := rfl
theorem pcf_inj : Function.Injective (Pipeline.cellOf (nD := nD) (τ := τ) (pcf (F := F))) := cellOf_inj

/-! ## The two gather calls: their arrays and the gathered value -/

variable [FloatOps F]

/-- Call 0 (the neighbour gather): table, index list, result, as locations of device d's TensorCore. -/
abbrev tLoc0 (d : Dev nD) : Loc nD τ sig := (SparseCore.T d).loc main_v1
abbrev iLoc0 (d : Dev nD) : Loc nD τ sig := (SparseCore.T d).loc main_v8
abbrev oLoc0 (d : Dev nD) : Loc nD τ sig := (SparseCore.T d).loc main_v9
/-- Call 1 (the edge-endpoint gather). -/
abbrev tLoc1 (d : Dev nD) : Loc nD τ sig := (SparseCore.T d).loc main_v12
abbrev iLoc1 (d : Dev nD) : Loc nD τ sig := (SparseCore.T d).loc main_v25
abbrev oLoc1 (d : Dev nD) : Loc nD τ sig := (SparseCore.T d).loc main_v26

/-- Row r of the gathered array is row idx[r] of the table (the word read unsigned; capped at the last row so that
    the function is total: for a list in range the cap is the identity). -/
def gath0 (tb : S20000x128.Idx → Elt F .f32) (ix : S320000.Idx → Elt F .i32) : S320000x128.Idx → Elt F .f32 :=
  fun j => tb (ValueIdx.ix2 (⟨min (ix (ValueIdx.ix1 (j 0))).toNat 19999, by omega⟩ : Fin 20000) (j 1))
def gath1 (tb : S20000x128.Idx → Elt F .f32) (ix : S640000.Idx → Elt F .i32) : S640000x128.Idx → Elt F .f32 :=
  fun j => tb (ValueIdx.ix2 (⟨min (ix (ValueIdx.ix1 (j 0))).toNat 19999, by omega⟩ : Fin 20000) (j 1))

/-- The contents types, spelt once. -/
abbrev Tab : Type := S20000x128.Idx → Elt F .f32
abbrev Ix0 : Type := S320000.Idx → Elt F .i32
abbrev Ix1 : Type := S640000.Idx → Elt F .i32
abbrev Out0 : Type := S320000x128.Idx → Elt F .f32
abbrev Out1 : Type := S640000x128.Idx → Elt F .f32

example (d : Dev nD) : Buf (Elt F) (tLoc0 d) = Tab (F := F) := rfl
example (d : Dev nD) : Buf (Elt F) (iLoc0 d) = Ix0 (F := F) := rfl
example (d : Dev nD) : Buf (Elt F) (oLoc0 d) = Out0 (F := F) := rfl
example (d : Dev nD) : Buf (Elt F) (iLoc1 d) = Ix1 (F := F) := rfl
example (d : Dev nD) : Buf (Elt F) (oLoc1 d) = Out1 (F := F) := rfl

end Cert.Kernel.Hand

end
-- ==== Proof.Bits.LaunchElem.lean ====
/-
  The launch element: the handshakes' rounds at their launch state, the three pipelines' staging cells' rounds at
  theirs, the transfers' counters at the unit. The launch funds from it the handshakes' part for the launch theorem
  and, per device, every pipeline's cells' ghost state and duty tokens, which @main's proof spends at each region.
-/
import proofs.«208461_g52518860095779_cont_9to1_m_1075_29_alg».proof.Proof.Bits.Common

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The launch element. -/
def u₀ : UU :=
  (initOf (K (F := F)).hsCells (K (F := F)).hsToks,
    (initOf (Pipeline.cells (pcf (F := F)) pcf_inj) (Pipeline.launchToks (pcf (F := F)) pcf_inj), 1))

/-- What @main's proof on device d starts from beside the launch's deal: each pipeline's staging cells' ghost state
    and the duty tokens of the transfers its loop issues. -/
def G (d : Dev nD) : sProp 𝕄 :=
  bigSep Finset.univ fun p : Fin 3 => iprop(Pipeline.cellsGhost (pcf (F := F)) EP p d ∗ Pipeline.toksInit (pcf (F := F)) EP p d)

omit [FloatOps F] in
theorem bigSep_emp' {I : Type} (s : Finset I) : (bigSep s fun _ => iprop(emp)) = (iprop(emp) : sProp 𝕄) := bigSep_emp_const s

/-- The launch element yields the handshakes' launch state, every device's pipelines' ghost state, and nothing for
    the kernels' own protocols (they are schedule-free). -/
theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 2 => P.x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans
      (embR : Emb (UP × Counters) (MT nD τ sig (HIx 2) (Elt F) ℕ (UH × (UP × Counters)) ℕ)))
        (initOf (Pipeline.cells (pcf (F := F)) pcf_inj) (Pipeline.launchToks (pcf (F := F)) pcf_inj))) : sProp 𝕄)
      = BI.own (EP (initOf (Pipeline.cells (pcf (F := F)) pcf_inj) (Pipeline.launchToks (pcf (F := F)) pcf_inj))) from rfl)) $$ HP
  imod (Pipeline.fund_ghost (pcf (F := F)) EP pcf_inj) $$ HP' with ⟨Hg, Ht⟩
  imodintro
  isplitl [HH]; · iexact HH
  isplitl [Hg Ht]
  · unfold G
    simp only [bigSep_sep']
    isplitl [Hg] <;> iassumption
  · rw [show (bigSep Finset.univ fun thr : Thread nD τ => bigSep Finset.univ fun q : Fin 2 => P.x q thr) = (iprop(emp) : sProp 𝕄) from by
      simp only [hx]; rw [bigSep_congr fun _ _ => bigSep_emp' _, bigSep_emp']]
    iempintro

end Cert.Kernel.Hand

end
-- ==== Proof.Bits.MainShape.lean ====
/-
  @main of the kernel program as five straight stretches of host operations around its five calls: the square-root
  pipeline, the neighbour gather on the SparseCores, the node-update pipeline, the endpoint gather on the SparseCores,
  the edge-update pipeline.
-/
import proofs.«208461_g52518860095779_cont_9to1_m_1075_29_alg».proof.Proof.Bits.Common

noncomputable section

namespace Cert.Kernel.Hand

open Cert.Kernel Cert.Kernel.Gen
open Idealize.ShloMosaic Idealize.SL.Sem

variable {F : FTy → Type} [FloatOps F]

/-- The atom array flattened to rows. -/
abbrev ops0 : List (HloOp τ sig (Elt F)) :=
  [ StableHlo.reshape main_arg0 main_v0 rfl shapeCasts_S2x10000x128_S20000x128 ]

/-- The neighbour table shifted by the batch's row offset and flattened: the first gather's index list. -/
abbrev ops1 : List (HloOp τ sig (Elt F)) :=
  [ StableHlo.nullary main_v2 (iotaInDim S2 32 0),
    StableHlo.nullary main_c (constantI S_ 32 10000#32),
    StableHlo.unary main_c main_v3 (broadcastInDim S2 ![] bcast_S_S2 : (⟨S_, .i32⟩ : BufTy).Contents (Elt F) → (⟨S2, .i32⟩ : BufTy).Contents (Elt F)),
    StableHlo.binary main_v2 main_v3 main_v4 (muli : (⟨S2, .i32⟩ : BufTy).Contents (Elt F) → (⟨S2, .i32⟩ : BufTy).Contents (Elt F) → (⟨S2, .i32⟩ : BufTy).Contents (Elt F)),
    StableHlo.unary main_v4 main_v5 (broadcastInDim S2x1x1 ![0] bcast_S2_S2x1x1_0 : (⟨S2, .i32⟩ : BufTy).Contents (Elt F) → (⟨S2x1x1, .i32⟩ : BufTy).Contents (Elt F)),
    StableHlo.unary main_v5 main_v6 (broadcastInDim S2x10000x16 ![0, 1, 2] bcast_S2x1x1_S2x10000x16_0_1_2 : (⟨S2x1x1, .i32⟩ : BufTy).Contents (Elt F) → (⟨S2x10000x16, .i32⟩ : BufTy).Contents (Elt F)),
    StableHlo.binary main_arg2 main_v6 main_v7 (addi : (⟨S2x10000x16, .i32⟩ : BufTy).Contents (Elt F) → (⟨S2x10000x16, .i32⟩ : BufTy).Contents (Elt F) → (⟨S2x10000x16, .i32⟩ : BufTy).Contents (Elt F)),
    StableHlo.reshape main_v7 main_v8 rfl shapeCasts_S2x10000x16_S320000 ]

/-- The node bias as a row. -/
abbrev ops2 : List (HloOp τ sig (Elt F)) :=
  [ StableHlo.reshape main_arg7 main_v10 rfl shapeCasts_S128_S1x128 ]

/-- The updated node features flattened to rows; the two endpoint columns shifted by the batch's row offset, flattened and laid end to end: the second gather's index list. -/
abbrev ops3 : List (HloOp τ sig (Elt F)) :=
  [ StableHlo.reshape main_v11 main_v12 rfl shapeCasts_S2x10000x128_S20000x128,
    StableHlo.unary main_arg3 main_v13 ((extractStridedSlice S2x160000x1 ![0, 0, 0] · slices_S2x160000x2_S2x160000x1_0_0_0) : (⟨S2x160000x2, .i32⟩ : BufTy).Contents (Elt F) → (⟨S2x160000x1, .i32⟩ : BufTy).Contents (Elt F)),
    StableHlo.reshape main_v13 main_v14 rfl shapeCasts_S2x160000x1_S2x160000,
    StableHlo.unary main_arg3 main_v15 ((extractStridedSlice S2x160000x1 ![0, 0, 1] · slices_S2x160000x2_S2x160000x1_0_0_1) : (⟨S2x160000x2, .i32⟩ : BufTy).Contents (Elt F) → (⟨S2x160000x1, .i32⟩ : BufTy).Contents (Elt F)),
    StableHlo.reshape main_v15 main_v16 rfl shapeCasts_S2x160000x1_S2x160000,
    StableHlo.unary main_v4 main_v17 (broadcastInDim S2x1 ![0] bcast_S2_S2x1_0 : (⟨S2, .i32⟩ : BufTy).Contents (Elt F) → (⟨S2x1, .i32⟩ : BufTy).Contents (Elt F)),
    StableHlo.unary main_v17 main_v18 (broadcastInDim S2x160000 ![0, 1] bcast_S2x1_S2x160000_0_1 : (⟨S2x1, .i32⟩ : BufTy).Contents (Elt F) → (⟨S2x160000, .i32⟩ : BufTy).Contents (Elt F)),
    StableHlo.binary main_v14 main_v18 main_v19 (addi : (⟨S2x160000, .i32⟩ : BufTy).Contents (Elt F) → (⟨S2x160000, .i32⟩ : BufTy).Contents (Elt F) → (⟨S2x160000, .i32⟩ : BufTy).Contents (Elt F)),
    StableHlo.reshape main_v19 main_v20 rfl shapeCasts_S2x160000_S320000,
    StableHlo.unary main_v4 main_v21 (broadcastInDim S2x1 ![0] bcast_S2_S2x1_0 : (⟨S2, .i32⟩ : BufTy).Contents (Elt F) → (⟨S2x1, .i32⟩ : BufTy).Contents (Elt F)),
    StableHlo.unary main_v21 main_v22 (broadcastInDim S2x160000 ![0, 1] bcast_S2x1_S2x160000_0_1 : (⟨S2x1, .i32⟩ : BufTy).Contents (Elt F) → (⟨S2x160000, .i32⟩ : BufTy).Contents (Elt F)),
    StableHlo.binary main_v16 main_v22 main_v23 (addi : (⟨S2x160000, .i32⟩ : BufTy).Contents (Elt F) → (⟨S2x160000, .i32⟩ : BufTy).Contents (Elt F) → (⟨S2x160000, .i32⟩ : BufTy).Contents (Elt F)),
    StableHlo.reshape main_v23 main_v24 rfl shapeCasts_S2x160000_S320000,
    StableHlo.binary main_v20 main_v24 main_v25 ((fun a b => concatenate S640000 0 [⟨S320000, a⟩, ⟨S320000, b⟩] concatenates_S320000_S320000_S640000_d0) : (⟨S320000, .i32⟩ : BufTy).Contents (Elt F) → (⟨S320000, .i32⟩ : BufTy).Contents (Elt F) → (⟨S640000, .i32⟩ : BufTy).Contents (Elt F)) ]

/-- The node-to-edge weight's two halves; the two edge biases as rows. -/
abbrev ops4 : List (HloOp τ sig (Elt F)) :=
  [ StableHlo.unary main_arg6 main_v27 ((extractStridedSlice S128x16 ![0, 0] · slices_S256x16_S128x16_0_0) : (⟨S256x16, .f32⟩ : BufTy).Contents (Elt F) → (⟨S128x16, .f32⟩ : BufTy).Contents (Elt F)),
    StableHlo.unary main_arg6 main_v28 ((extractStridedSlice S128x16 ![128, 0] · slices_S256x16_S128x16_128_0) : (⟨S256x16, .f32⟩ : BufTy).Contents (Elt F) → (⟨S128x16, .f32⟩ : BufTy).Contents (Elt F)),
    StableHlo.reshape main_arg9 main_v29 rfl shapeCasts_S16_S1x16,
    StableHlo.reshape main_arg8 main_v30 rfl shapeCasts_S16_S1x16 ]

/-- @main is those stretches and calls in order. -/
theorem main_eq (d : Dev nD) :
    main (F := F) d
      = (StableHlo.seq ops0 >>= fun _ => Prog.lift (.customCall (SparseCore.inner (Pipeline.entry 0)) ()) >>= fun _ =>
         StableHlo.seq ops1 >>= fun _ => (sc (F := F)).run d 0 >>= fun _ =>
         StableHlo.seq ops2 >>= fun _ => Prog.lift (.customCall (SparseCore.inner (Pipeline.entry 1)) ()) >>= fun _ =>
         StableHlo.seq ops3 >>= fun _ => (sc (F := F)).run d 1 >>= fun _ =>
         StableHlo.seq ops4 >>= fun _ => Prog.lift (.customCall (SparseCore.inner (Pipeline.entry 2)) ()) >>= fun _ => pure ⟨⟩) := by
  rfl

end Cert.Kernel.Hand

end
-- ==== Proof.Bits.MainStep.lean ====
/-
  @main on the TensorCore, inside the SparseCore launch: the interface a pipeline's region proof presents, and a
  region step lifted into the extended body table of the launch theorem.
-/
import proofs.«208461_g52518860095779_cont_9to1_m_1075_29_alg».proof.Proof.Bits.LaunchElem
import proofs.«208461_g52518860095779_cont_9to1_m_1075_29_alg».proof.Proof.Bits.MainShape
import Idealize.ShloMosaic.Lib.Pipeline.Frame

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 2) (Elt F) ℕ UU ℕ

/-- What the proof of pipeline p's region presents: holding the region boundary, every unscoped buffer at contents V,
    the staging cells' ghost state and duty tokens, and owing O (all of it strictly above level 0), the region runs to
    the boundary and the buffers at upd V, still owing O, having recorded only waits at index none beyond W. -/
def RegionOK (p : Fin 3) (upd : Valuation τ sig (Elt F) → Valuation τ sig (Elt F)) : Prop :=
  ∀ (d : Dev nD) (X : Valuation τ sig (Elt F)) (O : CellTallies nD τ sig (HIx 2)) (W : Waits sig (HIx 2)),
    (∀ (g : GSem nD τ sig) (i : HIx 2), 0 < O g i → i ∈ (K (F := F)).L g ∧ 0 < (K (F := F)).lev g i) →
    ∀ {α : Type} (k : PUnit → Prog (TpuEff nD τ sig (Elt F) (ΛP (F := F)) .tc) α) (Q : α → sProp 𝕄),
      iprop((iprop(boundary (T d) ∗ held (T d) (Pipeline.ucRefs τ sig) (upd X)
                ∗ ∃ W', ⌜∀ p ∈ W', p ∈ W ∨ p.2 = none⌝ ∗ owes (T d) O W')
              -∗ wp frame (wpE (D (F := F)) 𝒱 (T d) none) Set.univ (k ⟨⟩) Q)
          ∗ boundary (T d) ∗ held (T d) (Pipeline.ucRefs τ sig) X ∗ owes (T d) O W
          ∗ levAts (K (F := F)).L (K (F := F)).lev
          ∗ Pipeline.cellsGhost (pcf (F := F)) EP p d ∗ Pipeline.toksInit (pcf (F := F)) EP p d)
        ⊢ wp frame (wpE (D (F := F)) 𝒱 (T d) none) Set.univ (.op (.customCall (Pipeline.entry p) ()) k) Q

variable (P : (K (F := F)).Pay (nD := nD) (Val := Elt F) (Name := ℕ) (U := UU))

/-- The printed call of pipeline p's region is the region's own call, lifted to the extended signature. -/
theorem lift_entry (p : Fin 3) :
    (SparseCore.liftProg (Q := 2) (.op (.customCall (Pipeline.entry p) ()) fun _ => .ret ⟨⟩ :
        Prog (TpuEff nD τ sig (Elt F) (ΛP (F := F)) .tc) PUnit) :
      Prog (TpuEff nD τ sig (Elt F) (SparseCore.Sig (ΛP (F := F)) 2) .tc) PUnit)
      = Prog.lift (.customCall (SparseCore.inner (Pipeline.entry p)) ()) := rfl

/-- A region step over the program's own body table: from the TensorCore's handshake state before call n, the
    boundary, the buffers and the pipeline's ghost state, the region's call runs to the same handshake state and the
    buffers at upd X. -/
theorem wp_region₀ {p : Fin 3} {upd : Valuation τ sig (Elt F) → Valuation τ sig (Elt F)} (h : RegionOK (F := F) p upd)
    (κ : GSem nD τ sig → ℕ) (d : Dev nD) (n : ℕ) (X : Valuation τ sig (Elt F)) (Ψ : PUnit → sProp 𝕄) :
    iprop((K (F := F)).ctx EH P κ ∗ (K (F := F)).tcSt EH d n ∗ boundary (T d) ∗ held (T d) (Pipeline.ucRefs τ sig) X
        ∗ Pipeline.cellsGhost (pcf (F := F)) EP p d ∗ Pipeline.toksInit (pcf (F := F)) EP p d
        ∗ (iprop((K (F := F)).tcSt EH d n ∗ boundary (T d) ∗ held (T d) (Pipeline.ucRefs τ sig) (upd X)) -∗ Ψ ⟨⟩))
      ⊢ wp frame (wpE (D (F := F)) 𝒱 (T d) none) Set.univ
          (.op (.customCall (Pipeline.entry p) ()) fun _ => .ret ⟨⟩ : Prog (TpuEff nD τ sig (Elt F) (ΛP (F := F)) .tc) PUnit) Ψ := by
  unfold SparseCore.Cfg.tcSt
  iintro ⟨#Hctx, ⟨⟨%W, %hW, HO⟩, Hrest⟩, Hb, Hheld, Hg, Ht, Hk⟩
  ihave Hlev := ((K (F := F)).ctx_levAts (EH := EH) (P := P) κ) $$ Hctx
  iapply (h d X ((K (F := F)).Otc d n) W (fun g i hgi => ⟨Finset.mem_univ _, by
      have := (K (F := F)).lev_of_Otc_pos hgi; omega⟩) (fun _ => .ret ⟨⟩) Ψ) $$ [Hb Hheld HO Hg Ht Hrest Hk]
  isplitl [Hrest Hk]
  · iintro ⟨Hb, Hheld, %W', %hW', HO⟩
    rw [wp_ret]; imodintro
    iapply Hk
    isplitl [HO Hrest]
    · isplitl [HO]
      · iexists W'; isplitr
        · ipureintro
          intro q hq
          rcases hW' q hq with hq | hq
          · exact hW q hq
          · rw [hq]; simp
        · iexact HO
      · iexact Hrest
    isplitl [Hb] <;> iassumption
  isplitl [Hb]; · iexact Hb
  isplitl [Hheld]; · iexact Hheld
  isplitl [HO]; · iexact HO
  isplitl []; · iexact Hlev
  isplitl [Hg] <;> iassumption

/-- The same step at the printed call, under the launch theorem's extended body table. -/
theorem wp_region {p : Fin 3} {upd : Valuation τ sig (Elt F) → Valuation τ sig (Elt F)} (h : RegionOK (F := F) p upd)
    (κ : GSem nD τ sig → ℕ) (d : Dev nD) (n : ℕ) (X : Valuation τ sig (Elt F)) (Ψ : PUnit → sProp 𝕄) :
    iprop((K (F := F)).ctx EH P κ ∗ (K (F := F)).tcSt EH d n ∗ boundary (T d) ∗ held (T d) (Pipeline.ucRefs τ sig) X
        ∗ Pipeline.cellsGhost (pcf (F := F)) EP p d ∗ Pipeline.toksInit (pcf (F := F)) EP p d
        ∗ (iprop((K (F := F)).tcSt EH d n ∗ boundary (T d) ∗ held (T d) (Pipeline.ucRefs τ sig) (upd X)) -∗ Ψ ⟨⟩))
      ⊢ wp frame (wpE ((K (F := F)).defs (D (F := F))) 𝒱 (T d) none) Set.univ
          (Prog.lift (.customCall (SparseCore.inner (Pipeline.entry p)) ())) Ψ := by
  have hl := (K (F := F)).wp_liftProg (nD := nD) (Val := Elt F) (Name := ℕ) (U := UU) (D (F := F)) 𝒱 (T d) Set.univ none
    (.op (.customCall (Pipeline.entry p) ()) fun _ => .ret ⟨⟩ : Prog (TpuEff nD τ sig (Elt F) (ΛP (F := F)) .tc) PUnit) Ψ
  rw [← lift_entry p]
  exact (wp_region₀ P h κ d n X Ψ).trans hl

/-- Three distinct buffers of a held set, taken out of it and put back with the third at new contents. -/
theorem held_three {S : Finset (DevRef τ sig)} {a b c : DevRef τ sig} (hab : a ≠ b) (hac : a ≠ c) (hbc : b ≠ c)
    (hS : ({a, b, c} : Finset (DevRef τ sig)) ⊆ S) (d : Dev nD) (X : Valuation τ sig (Elt F)) (r : c.ty.Contents (Elt F)) :
    (held (T d) S X : sProp 𝕄)
        = iprop((((d, a) ↦{fullShare} X a) ∗ ((d, b) ↦{fullShare} X b) ∗ ((d, c) ↦{fullShare} X c)) ∗ held (T d) (S \ {a, b, c}) X)
      ∧ (held (T d) S (Function.update X c r) : sProp 𝕄)
        = iprop((((d, a) ↦{fullShare} X a) ∗ ((d, b) ↦{fullShare} X b) ∗ ((d, c) ↦{fullShare} r)) ∗ held (T d) (S \ {a, b, c}) X) := by
  have h3 : ∀ Y : Valuation τ sig (Elt F), (held (T d) ({a, b, c} : Finset (DevRef τ sig)) Y : sProp 𝕄)
      = iprop(((d, a) ↦{fullShare} Y a) ∗ ((d, b) ↦{fullShare} Y b) ∗ ((d, c) ↦{fullShare} Y c)) := by
    intro Y
    unfold held
    rw [SparseCore.bigSep_insert' (by simp [hab, hac]), SparseCore.bigSep_insert' (by simp [hbc]), bigSep_singleton]
  constructor
  · rw [held_sub_split (T d) hS X, h3]
  · rw [held_sub_split (T d) hS (Function.update X c r), h3,
      Function.update_of_ne hac, Function.update_of_ne hbc, Function.update_self,
      held_congr (T d) (V := Function.update X c r) (V' := X) fun e he => Function.update_of_ne (fun hce => by
        rw [hce] at he; exact (Finset.mem_sdiff.mp he).2 (by simp)) _ _]

/-- A gather call inside the launch: the table, the index list and the result array leave the held set for the
    SparseCores through the call's payloads and come back, the result at new contents. -/
theorem wp_call (q : Fin 2) {a b c : DevRef τ sig} (hab : a ≠ b) (hac : a ≠ c) (hbc : b ≠ c)
    (hS : ({a, b, c} : Finset (DevRef τ sig)) ⊆ Pipeline.ucRefs τ sig)
    (κ : GSem nD τ sig → ℕ) (d : Dev nD) (X : Valuation τ sig (Elt F)) (r : c.ty.Contents (Elt F))
    (hst : iprop(((d, a) ↦{fullShare} X a) ∗ ((d, b) ↦{fullShare} X b) ∗ ((d, c) ↦{fullShare} X c))
      ⊢ (bigSep Finset.univ fun k : Fin ((K (F := F)).nCore q) => P.st q d k : sProp 𝕄))
    (hdn : (bigSep Finset.univ fun k : Fin ((K (F := F)).nCore q) => P.dn q d k : sProp 𝕄)
      ⊢ iprop(((d, a) ↦{fullShare} X a) ∗ ((d, b) ↦{fullShare} X b) ∗ ((d, c) ↦{fullShare} r)))
    (Ψ : PUnit → sProp 𝕄) :
    iprop((K (F := F)).ctx EH P κ ∗ (K (F := F)).tcSt EH d q.val ∗ held (T d) (Pipeline.ucRefs τ sig) X
        ∗ (iprop((K (F := F)).tcSt EH d (q.val + 1) ∗ held (T d) (Pipeline.ucRefs τ sig) (Function.update X c r)) -∗ Ψ ⟨⟩))
      ⊢ wp frame (wpE ((K (F := F)).defs (D (F := F))) 𝒱 (T d) none) Set.univ ((K (F := F)).run d q) Ψ := by
  obtain ⟨e1, e2⟩ := held_three (F := F) hab hac hbc hS d X r
  rw [e1, e2]
  iintro ⟨#Hctx, Hst, ⟨H3, Hrest⟩, Hk⟩
  ihave Hs := hst $$ H3
  iapply ((K (F := F)).wp_run (D (F := F)) 𝒱 (EH := EH) (P := P) κ d q) $$ [Hst Hs Hrest Hk]
  isplitr; · iexact Hctx
  isplitl [Hst]; · iexact Hst
  isplitl [Hs]; · iexact Hs
  iintro ⟨Hst, Hdn⟩
  ihave H3 := hdn $$ Hdn
  iapply Hk
  isplitl [Hst]; · iexact Hst
  isplitl [H3] <;> iassumption

end Cert.Kernel.Hand

end
-- ==== Proof.Bits.IdxFacts.lean ====
/-
  The host operations between the kernel program's calls, stretch by stretch: which buffers each stretch writes and
  which it leaves alone, that every operation touches TensorCore buffers only and determines all it writes, and what
  the two gathers' index lists hold. Each list is a table of row numbers below 10000 shifted by the batch's row
  offset, 0 or 10000: so every entry is below 20000, the number of rows of the gathered table.
-/
import proofs.«208461_g52518860095779_cont_9to1_m_1075_29_alg».proof.Proof.Bits.MainShape
import proofs.«208461_g52518860095779_cont_9to1_m_1075_29_alg».proof.Proof.LibStretch
import Idealize.ShloMosaic.Lib.Pipeline.Value
import Idealize.ShloMosaic.Lib.ValueIdx

noncomputable section

namespace Cert.Kernel.Hand

open Cert.Kernel Cert.Kernel.Gen
open Idealize.ShloMosaic Idealize.SL.Sem Idealize.ShloMosaic.TcCoe Idealize.ShloMosaic.StableHlo

variable {F : FTy → Type} [FloatOps F]

/-! ## What each stretch writes, touches and keeps -/

theorem writes_0 : Cert.LibStretch.WritesAre (ops0 (F := F)) [main_v0] := by
  unfold Cert.LibStretch.WritesAre
  repeat (first | exact List.Forall₂.nil | refine List.Forall₂.cons rfl ?_)

theorem writes_1 : Cert.LibStretch.WritesAre (ops1 (F := F))
    [main_v2, main_c, main_v3, main_v4, main_v5, main_v6, main_v7, main_v8] := by
  unfold Cert.LibStretch.WritesAre
  repeat (first | exact List.Forall₂.nil | refine List.Forall₂.cons rfl ?_)

theorem writes_2 : Cert.LibStretch.WritesAre (ops2 (F := F)) [main_v10] := by
  unfold Cert.LibStretch.WritesAre
  repeat (first | exact List.Forall₂.nil | refine List.Forall₂.cons rfl ?_)

theorem writes_3 : Cert.LibStretch.WritesAre (ops3 (F := F))
    [main_v12, main_v13, main_v14, main_v15, main_v16, main_v17, main_v18, main_v19, main_v20, main_v21, main_v22,
      main_v23, main_v24, main_v25] := by
  unfold Cert.LibStretch.WritesAre
  repeat (first | exact List.Forall₂.nil | refine List.Forall₂.cons rfl ?_)

theorem writes_4 : Cert.LibStretch.WritesAre (ops4 (F := F)) [main_v27, main_v28, main_v29, main_v30] := by
  unfold Cert.LibStretch.WritesAre
  repeat (first | exact List.Forall₂.nil | refine List.Forall₂.cons rfl ?_)

/-- A buffer a stretch does not write holds after it what it held before. -/
theorem kept_0 (X : Valuation τ sig (Elt F)) (r : Ref sig .tc) (hr : r ∉ [main_v0]) :
    after (ops0 (F := F)) X (r : DevRef τ sig) = X r :=
  after_of_forall_not_mem _ X (Cert.LibStretch.not_mem_writes writes_0 hr)

theorem kept_1 (X : Valuation τ sig (Elt F)) (r : Ref sig .tc)
    (hr : r ∉ [main_v2, main_c, main_v3, main_v4, main_v5, main_v6, main_v7, main_v8]) :
    after (ops1 (F := F)) X (r : DevRef τ sig) = X r :=
  after_of_forall_not_mem _ X (Cert.LibStretch.not_mem_writes writes_1 hr)

theorem kept_2 (X : Valuation τ sig (Elt F)) (r : Ref sig .tc) (hr : r ∉ [main_v10]) :
    after (ops2 (F := F)) X (r : DevRef τ sig) = X r :=
  after_of_forall_not_mem _ X (Cert.LibStretch.not_mem_writes writes_2 hr)

theorem kept_3 (X : Valuation τ sig (Elt F)) (r : Ref sig .tc)
    (hr : r ∉ [main_v12, main_v13, main_v14, main_v15, main_v16, main_v17, main_v18, main_v19, main_v20, main_v21,
      main_v22, main_v23, main_v24, main_v25]) :
    after (ops3 (F := F)) X (r : DevRef τ sig) = X r :=
  after_of_forall_not_mem _ X (Cert.LibStretch.not_mem_writes writes_3 hr)

theorem kept_4 (X : Valuation τ sig (Elt F)) (r : Ref sig .tc) (hr : r ∉ [main_v27, main_v28, main_v29, main_v30]) :
    after (ops4 (F := F)) X (r : DevRef τ sig) = X r :=
  after_of_forall_not_mem _ X (Cert.LibStretch.not_mem_writes writes_4 hr)

/-- Every operation of a stretch touches TensorCore buffers only. -/
theorem ops0_sub : ∀ op ∈ (ops0 : List (HloOp τ sig (Elt F))), op.bufs ⊆ tcRefs τ sig :=
  List.forall_iff_forall_mem.mp (show List.Forall _ (ops0 (F := F)) from reshape_bufs_sub ..)

theorem ops1_sub : ∀ op ∈ (ops1 : List (HloOp τ sig (Elt F))), op.bufs ⊆ tcRefs τ sig :=
  List.forall_iff_forall_mem.mp (show List.Forall _ (ops1 (F := F)) from
    ⟨nullary_bufs_sub .., nullary_bufs_sub .., unary_bufs_sub .., binary_bufs_sub .., unary_bufs_sub ..,
      unary_bufs_sub .., binary_bufs_sub .., reshape_bufs_sub ..⟩)

theorem ops2_sub : ∀ op ∈ (ops2 : List (HloOp τ sig (Elt F))), op.bufs ⊆ tcRefs τ sig :=
  List.forall_iff_forall_mem.mp (show List.Forall _ (ops2 (F := F)) from reshape_bufs_sub ..)

theorem ops3_sub : ∀ op ∈ (ops3 : List (HloOp τ sig (Elt F))), op.bufs ⊆ tcRefs τ sig :=
  List.forall_iff_forall_mem.mp (show List.Forall _ (ops3 (F := F)) from
    ⟨reshape_bufs_sub .., unary_bufs_sub .., reshape_bufs_sub .., unary_bufs_sub .., reshape_bufs_sub ..,
      unary_bufs_sub .., unary_bufs_sub .., binary_bufs_sub .., reshape_bufs_sub .., unary_bufs_sub ..,
      unary_bufs_sub .., binary_bufs_sub .., reshape_bufs_sub .., binary_bufs_sub ..⟩)

theorem ops4_sub : ∀ op ∈ (ops4 : List (HloOp τ sig (Elt F))), op.bufs ⊆ tcRefs τ sig :=
  List.forall_iff_forall_mem.mp (show List.Forall _ (ops4 (F := F)) from
    ⟨unary_bufs_sub .., unary_bufs_sub .., reshape_bufs_sub .., reshape_bufs_sub ..⟩)

/-- Every operation of a stretch determines all it writes. -/
theorem ops0_fresh : ∀ op ∈ (ops0 : List (HloOp τ sig (Elt F))), op.fresh = ∅ :=
  List.forall_iff_forall_mem.mp (show List.Forall _ (ops0 (F := F)) from rfl)

theorem ops1_fresh : ∀ op ∈ (ops1 : List (HloOp τ sig (Elt F))), op.fresh = ∅ :=
  List.forall_iff_forall_mem.mp (show List.Forall _ (ops1 (F := F)) from ⟨rfl, rfl, rfl, rfl, rfl, rfl, rfl, rfl⟩)

theorem ops2_fresh : ∀ op ∈ (ops2 : List (HloOp τ sig (Elt F))), op.fresh = ∅ :=
  List.forall_iff_forall_mem.mp (show List.Forall _ (ops2 (F := F)) from rfl)

theorem ops3_fresh : ∀ op ∈ (ops3 : List (HloOp τ sig (Elt F))), op.fresh = ∅ :=
  List.forall_iff_forall_mem.mp (show List.Forall _ (ops3 (F := F)) from
    ⟨rfl, rfl, rfl, rfl, rfl, rfl, rfl, rfl, rfl, rfl, rfl, rfl, rfl, rfl⟩)

theorem ops4_fresh : ∀ op ∈ (ops4 : List (HloOp τ sig (Elt F))), op.fresh = ∅ :=
  List.forall_iff_forall_mem.mp (show List.Forall _ (ops4 (F := F)) from ⟨rfl, rfl, rfl, rfl⟩)

/-! ## The row offset per batch -/

/-- The row offset of each batch in the flattened table, as the program computes it: the batch number times 10000. -/
def offs : S2.Idx → BitVec 32 :=
  muli (iotaInDim S2 32 0) (broadcastInDim S2 ![] bcast_S_S2 (constantI S_ 32 10000#32))

/-- After the second stretch the offsets' buffer holds them. -/
theorem offs_after1 (X : Valuation τ sig (Elt F)) : after (ops1 (F := F)) X (main_v4 : DevRef τ sig) = offs := by
  after_results
  rfl

/-- At batch `b` the offset is the word `b * 10000`. -/
theorem offs_apply (j : S2.Idx) : offs j = BitVec.ofNat 32 ((j 0).val * 10000) := by
  show BitVec.ofNat 32 (j 0).val * 10000#32 = _
  apply BitVec.eq_of_toNat_eq
  have hj : (j 0).val < 2 := (j 0).isLt
  simp only [BitVec.toNat_mul, BitVec.toNat_ofNat]
  omega

/-- It reads, unsigned, `b * 10000`: 0 or 10000. -/
theorem offs_toNat (j : S2.Idx) : (offs j).toNat = (j 0).val * 10000 := by
  have hj : (j 0).val < 2 := (j 0).isLt
  rw [offs_apply, BitVec.toNat_ofNat]
  omega

/-- A word at most 9999 plus a batch's offset does not wrap: it reads the sum, below 20000. -/
theorem toNat_add_offs {w : BitVec 32} (hw : w.toNat ≤ 9999) (j : S2.Idx) :
    (w + offs j).toNat = w.toNat + (j 0).val * 10000 ∧ (w + offs j).toNat < 20000 := by
  have hj : (j 0).val < 2 := (j 0).isLt
  have e : (w + offs j).toNat = w.toNat + (j 0).val * 10000 := by
    rw [BitVec.toNat_add, offs_toNat]
    omega
  exact ⟨e, by omega⟩

/-! ## The first gather's index list -/

/-- The neighbour table's buffer, at its literal type. -/
abbrev tab0 (X : Valuation τ sig (Elt F)) : S2x10000x16.Idx → BitVec 32 := X (main_arg2 : DevRef τ sig)

/-- The neighbour table with each batch's offset added, entry by entry. -/
def shifted0 (a2 : S2x10000x16.Idx → BitVec 32) : S2x10000x16.Idx → BitVec 32 :=
  addi a2 (broadcastInDim S2x10000x16 ![0, 1, 2] bcast_S2x1x1_S2x10000x16_0_1_2 (broadcastInDim S2x1x1 ![0] bcast_S2_S2x1x1_0 offs))

/-- The first gather's index list: the shifted table, flattened. -/
def idx0 (a2 : S2x10000x16.Idx → BitVec 32) : S320000.Idx → BitVec 32 :=
  shapeCast S320000 (shifted0 a2) shapeCasts_S2x10000x16_S320000

/-- After the second stretch the index list's buffer holds it. -/
theorem idx0_after1 (X : Valuation τ sig (Elt F)) :
    after (ops1 (F := F)) X (main_v8 : DevRef τ sig) = idx0 (X (main_arg2 : DevRef τ sig)) := by
  after_results
  rfl

/-- An entry of the shifted table is the table's entry plus its batch's offset. -/
theorem shifted0_apply (a2 : S2x10000x16.Idx → BitVec 32) (k : S2x10000x16.Idx) :
    shifted0 a2 k = a2 k + offs (ValueIdx.ix1 (k 0)) := by
  -- both broadcasts keep the batch coordinate and put 0 on the unit axes, which the shapes' literals decide
  show a2 k + _ = a2 k + _
  congr 1

/-- Every entry of the first index list is below 20000 when the neighbour table's entries are at most 9999. -/
theorem idx0_lt' (a2 : S2x10000x16.Idx → BitVec 32) (h2 : ∀ j, (a2 j).toNat ≤ 9999) (j : S320000.Idx) :
    (idx0 a2 j).toNat < 20000 := by
  show (shifted0 a2 (Shape.reshapeEquiv shapeCasts_S2x10000x16_S320000 j)).toNat < 20000
  rw [shifted0_apply]
  exact (toNat_add_offs (h2 _) _).2

theorem idx0_lt (X : Valuation τ sig (Elt F)) (h2 : ∀ j, (X (main_arg2 : DevRef τ sig) j).toNat ≤ 9999) :
    ∀ j, (after (ops1 (F := F)) X (main_v8 : DevRef τ sig) j).toNat < 20000 := by
  intro j
  rw [idx0_after1]
  exact idx0_lt' _ h2 j

/-- The entry at flat position `(b * 10000 + n) * 16 + m` is the table's entry at `(b, n, m)` plus `b * 10000`. -/
theorem idx0_apply' (a2 : S2x10000x16.Idx → BitVec 32) (b : Fin 2) (n : Fin 10000) (m : Fin 16)
    (hlt : (b.val * 10000 + n.val) * 16 + m.val < 320000) :
    idx0 a2 (ValueIdx.ix1 ⟨(b.val * 10000 + n.val) * 16 + m.val, hlt⟩)
      = a2 (ValueIdx.ix3 b n m) + BitVec.ofNat 32 (b.val * 10000) := by
  have e : idx0 a2 (ValueIdx.ix1 ⟨(b.val * 10000 + n.val) * 16 + m.val, hlt⟩) = shifted0 a2 (ValueIdx.ix3 b n m) :=
    shapeCast_apply _ _ _ _ (by rw [Shape.rowMajor_val_three, Shape.rowMajor_val_one]; rfl)
  rw [e, shifted0_apply, offs_apply]

theorem idx0_apply (X : Valuation τ sig (Elt F)) (b : Fin 2) (n : Fin 10000) (m : Fin 16)
    (hlt : (b.val * 10000 + n.val) * 16 + m.val < 320000) :
    after (ops1 (F := F)) X (main_v8 : DevRef τ sig) (ValueIdx.ix1 ⟨(b.val * 10000 + n.val) * 16 + m.val, hlt⟩)
      = tab0 X (ValueIdx.ix3 b n m) + BitVec.ofNat 32 (b.val * 10000) := by
  rw [idx0_after1]
  exact idx0_apply' _ b n m hlt

/-! ## The second gather's index list -/

/-- The endpoint pairs' buffer, at its literal type. -/
abbrev tab1 (X : Valuation τ sig (Elt F)) : S2x160000x2.Idx → BitVec 32 := X (main_arg3 : DevRef τ sig)

/-- The first endpoint column with each batch's offset added. -/
def shifted1a (a3 : S2x160000x2.Idx → BitVec 32) (o : S2.Idx → BitVec 32) : S2x160000.Idx → BitVec 32 :=
  addi (shapeCast S2x160000 (extractStridedSlice S2x160000x1 ![0, 0, 0] a3 slices_S2x160000x2_S2x160000x1_0_0_0) shapeCasts_S2x160000x1_S2x160000)
    (broadcastInDim S2x160000 ![0, 1] bcast_S2x1_S2x160000_0_1 (broadcastInDim S2x1 ![0] bcast_S2_S2x1_0 o))

/-- The second endpoint column with each batch's offset added. -/
def shifted1b (a3 : S2x160000x2.Idx → BitVec 32) (o : S2.Idx → BitVec 32) : S2x160000.Idx → BitVec 32 :=
  addi (shapeCast S2x160000 (extractStridedSlice S2x160000x1 ![0, 0, 1] a3 slices_S2x160000x2_S2x160000x1_0_0_1) shapeCasts_S2x160000x1_S2x160000)
    (broadcastInDim S2x160000 ![0, 1] bcast_S2x1_S2x160000_0_1 (broadcastInDim S2x1 ![0] bcast_S2_S2x1_0 o))

/-- The second gather's index list: the two shifted columns, each flattened, laid end to end. -/
def idx1 (a3 : S2x160000x2.Idx → BitVec 32) (o : S2.Idx → BitVec 32) : S640000.Idx → BitVec 32 :=
  concatenate S640000 0
    [⟨S320000, shapeCast S320000 (shifted1a a3 o) shapeCasts_S2x160000_S320000⟩,
      ⟨S320000, shapeCast S320000 (shifted1b a3 o) shapeCasts_S2x160000_S320000⟩]
    concatenates_S320000_S320000_S640000_d0

/-- After the fourth stretch the index list's buffer holds it, over the offsets' buffer as it stood. -/
theorem idx1_after3 (X : Valuation τ sig (Elt F)) :
    after (ops3 (F := F)) X (main_v25 : DevRef τ sig) = idx1 (X (main_arg3 : DevRef τ sig)) (X (main_v4 : DevRef τ sig)) := by
  after_results
  rfl

/-- A batch's offset broadcast over the batch's entries reads that offset. -/
theorem bcast_offs_apply (o : S2.Idx → BitVec 32) (k : S2x160000.Idx) :
    broadcastInDim S2x160000 ![0, 1] bcast_S2x1_S2x160000_0_1 (broadcastInDim S2x1 ![0] bcast_S2_S2x1_0 o) k
      = o (ValueIdx.ix1 (k 0)) := by
  refine (broadcastInDim_apply _ _ _ k (ValueIdx.ix2 (k 0) (0 : Fin 1)) fun a => ?_).trans
    (broadcastInDim_apply _ _ _ _ (ValueIdx.ix1 (k 0)) fun a => ?_)
  · match a with
    | ⟨0, _⟩ => rfl
    | ⟨1, _⟩ => rfl
  · match a with
    | ⟨0, _⟩ => rfl

/-- An entry of a shifted column is the pair table's entry in that column plus its batch's offset. -/
theorem shifted1a_apply (a3 : S2x160000x2.Idx → BitVec 32) (o : S2.Idx → BitVec 32) (k : S2x160000.Idx) :
    shifted1a a3 o k = a3 (ValueIdx.ix3 (k 0) (k 1) (0 : Fin 2)) + o (ValueIdx.ix1 (k 0)) := by
  have e1 : shapeCast S2x160000 (extractStridedSlice S2x160000x1 ![0, 0, 0] a3 slices_S2x160000x2_S2x160000x1_0_0_0)
      shapeCasts_S2x160000x1_S2x160000 k = a3 (ValueIdx.ix3 (k 0) (k 1) (0 : Fin 2)) := by
    refine (shapeCast_apply _ _ k (ValueIdx.ix3 (k 0) (k 1) (0 : Fin 1)) ?_).trans
      (extractStridedSlice_apply _ _ _ _ (ValueIdx.ix3 (k 0) (k 1) (0 : Fin 2)) fun a => ?_)
    · rw [Shape.rowMajor_val_three, Shape.rowMajor_val_two]
      show ((k 0).val * 160000 + (k 1).val) * 1 + 0 = (k 0).val * 160000 + (k 1).val
      omega
    · match a with
      | ⟨0, _⟩ => exact (Nat.zero_add _).symm
      | ⟨1, _⟩ => exact (Nat.zero_add _).symm
      | ⟨2, _⟩ => rfl
  exact congrArg₂ (· + ·) e1 (bcast_offs_apply o k)

theorem shifted1b_apply (a3 : S2x160000x2.Idx → BitVec 32) (o : S2.Idx → BitVec 32) (k : S2x160000.Idx) :
    shifted1b a3 o k = a3 (ValueIdx.ix3 (k 0) (k 1) (1 : Fin 2)) + o (ValueIdx.ix1 (k 0)) := by
  have e1 : shapeCast S2x160000 (extractStridedSlice S2x160000x1 ![0, 0, 1] a3 slices_S2x160000x2_S2x160000x1_0_0_1)
      shapeCasts_S2x160000x1_S2x160000 k = a3 (ValueIdx.ix3 (k 0) (k 1) (1 : Fin 2)) := by
    refine (shapeCast_apply _ _ k (ValueIdx.ix3 (k 0) (k 1) (0 : Fin 1)) ?_).trans
      (extractStridedSlice_apply _ _ _ _ (ValueIdx.ix3 (k 0) (k 1) (1 : Fin 2)) fun a => ?_)
    · rw [Shape.rowMajor_val_three, Shape.rowMajor_val_two]
      show ((k 0).val * 160000 + (k 1).val) * 1 + 0 = (k 0).val * 160000 + (k 1).val
      omega
    · match a with
      | ⟨0, _⟩ => exact (Nat.zero_add _).symm
      | ⟨1, _⟩ => exact (Nat.zero_add _).symm
      | ⟨2, _⟩ => rfl
  exact congrArg₂ (· + ·) e1 (bcast_offs_apply o k)

/-- The first half of the list is the first column's flattening, … -/
theorem idx1_left (a3 : S2x160000x2.Idx → BitVec 32) (o : S2.Idx → BitVec 32) (j : S640000.Idx) (hlt : (j 0).val < 320000) :
    idx1 a3 o j = shapeCast S320000 (shifted1a a3 o) shapeCasts_S2x160000_S320000 (ValueIdx.ix1 ⟨(j 0).val, hlt⟩) :=
  concatenate_pair_apply_left (t := S640000) (s₁ := S320000) (s₂ := S320000) (0 : Fin 1) _ _
    concatenates_S320000_S320000_S640000_d0 j (show S320000.rank = S640000.rank from rfl) (ValueIdx.ix1 ⟨(j 0).val, hlt⟩)
    fun b => match b with | ⟨0, _⟩ => rfl

/-- … the second half the second column's. -/
theorem idx1_right (a3 : S2x160000x2.Idx → BitVec 32) (o : S2.Idx → BitVec 32) (j : S640000.Idx) (hge : 320000 ≤ (j 0).val) :
    idx1 a3 o j = shapeCast S320000 (shifted1b a3 o) shapeCasts_S2x160000_S320000
      (ValueIdx.ix1 ⟨(j 0).val - 320000, by have : (j 0).val < 640000 := (j 0).isLt; omega⟩) :=
  concatenate_pair_apply_right (t := S640000) (s₁ := S320000) (s₂ := S320000) (0 : Fin 1) _ _
    concatenates_S320000_S320000_S640000_d0 j (show S320000.rank = S640000.rank from rfl)
    (show S320000.rank = S640000.rank from rfl) _
    (fun b hb => match b, hb with | ⟨0, _⟩, hb => absurd rfl hb)
    (by show (j 0).val - 320000 + 320000 = (j 0).val; omega)

/-- Every entry of the second index list is below 20000 when the pair table's entries are at most 9999 and the
    offsets are the batches'. -/
theorem idx1_lt' (a3 : S2x160000x2.Idx → BitVec 32) (h3 : ∀ j, (a3 j).toNat ≤ 9999) (j : S640000.Idx) :
    (idx1 a3 offs j).toNat < 20000 := by
  by_cases hlt : (j 0).val < 320000
  · rw [idx1_left a3 offs j hlt]
    show (shifted1a a3 offs (Shape.reshapeEquiv shapeCasts_S2x160000_S320000 _)).toNat < 20000
    rw [shifted1a_apply]
    exact (toNat_add_offs (h3 _) _).2
  · rw [idx1_right a3 offs j (by omega)]
    show (shifted1b a3 offs (Shape.reshapeEquiv shapeCasts_S2x160000_S320000 _)).toNat < 20000
    rw [shifted1b_apply]
    exact (toNat_add_offs (h3 _) _).2

theorem idx1_lt (X : Valuation τ sig (Elt F)) (h3 : ∀ j, (X (main_arg3 : DevRef τ sig) j).toNat ≤ 9999)
    (h4 : X (main_v4 : DevRef τ sig) = offs) :
    ∀ j, (after (ops3 (F := F)) X (main_v25 : DevRef τ sig) j).toNat < 20000 := by
  intro j
  rw [idx1_after3, h4]
  exact idx1_lt' _ h3 j

/-- Entry `b * 160000 + e` of the first half is the first endpoint of pair `(b, e)` plus `b * 10000`. -/
theorem idx1_apply_left' (a3 : S2x160000x2.Idx → BitVec 32) (b : Fin 2) (e : Fin 160000)
    (hlt : b.val * 160000 + e.val < 640000) :
    idx1 a3 offs (ValueIdx.ix1 ⟨b.val * 160000 + e.val, hlt⟩)
      = a3 (ValueIdx.ix3 b e (0 : Fin 2)) + BitVec.ofNat 32 (b.val * 10000) := by
  have hb : b.val < 2 := b.isLt
  have he : e.val < 160000 := e.isLt
  rw [idx1_left a3 offs _ (show b.val * 160000 + e.val < 320000 by omega)]
  have e1 : shapeCast S320000 (shifted1a a3 offs) shapeCasts_S2x160000_S320000
      (ValueIdx.ix1 ⟨b.val * 160000 + e.val, by omega⟩) = shifted1a a3 offs (ValueIdx.ix2 b e) :=
    shapeCast_apply _ _ _ _ (by rw [Shape.rowMajor_val_two, Shape.rowMajor_val_one]; rfl)
  refine e1.trans ?_
  rw [shifted1a_apply, offs_apply]

/-- Entry `320000 + b * 160000 + e` is the second endpoint of pair `(b, e)` plus `b * 10000`. -/
theorem idx1_apply_right' (a3 : S2x160000x2.Idx → BitVec 32) (b : Fin 2) (e : Fin 160000)
    (hlt : 320000 + (b.val * 160000 + e.val) < 640000) :
    idx1 a3 offs (ValueIdx.ix1 ⟨320000 + (b.val * 160000 + e.val), hlt⟩)
      = a3 (ValueIdx.ix3 b e (1 : Fin 2)) + BitVec.ofNat 32 (b.val * 10000) := by
  have hb : b.val < 2 := b.isLt
  have he : e.val < 160000 := e.isLt
  rw [idx1_right a3 offs _ (show 320000 ≤ 320000 + (b.val * 160000 + e.val) by omega)]
  have e1 : shapeCast S320000 (shifted1b a3 offs) shapeCasts_S2x160000_S320000
      (ValueIdx.ix1 ⟨320000 + (b.val * 160000 + e.val) - 320000, by omega⟩) = shifted1b a3 offs (ValueIdx.ix2 b e) :=
    shapeCast_apply _ _ _ _ (by
      rw [Shape.rowMajor_val_two, Shape.rowMajor_val_one]
      show b.val * 160000 + e.val = 320000 + (b.val * 160000 + e.val) - 320000
      omega)
  refine e1.trans ?_
  rw [shifted1b_apply, offs_apply]

theorem idx1_apply_left (X : Valuation τ sig (Elt F)) (h4 : X (main_v4 : DevRef τ sig) = offs) (b : Fin 2) (e : Fin 160000)
    (hlt : b.val * 160000 + e.val < 640000) :
    after (ops3 (F := F)) X (main_v25 : DevRef τ sig) (ValueIdx.ix1 ⟨b.val * 160000 + e.val, hlt⟩)
      = tab1 X (ValueIdx.ix3 b e (0 : Fin 2)) + BitVec.ofNat 32 (b.val * 10000) := by
  rw [idx1_after3, h4]
  exact idx1_apply_left' _ b e hlt

theorem idx1_apply_right (X : Valuation τ sig (Elt F)) (h4 : X (main_v4 : DevRef τ sig) = offs) (b : Fin 2) (e : Fin 160000)
    (hlt : 320000 + (b.val * 160000 + e.val) < 640000) :
    after (ops3 (F := F)) X (main_v25 : DevRef τ sig) (ValueIdx.ix1 ⟨320000 + (b.val * 160000 + e.val), hlt⟩)
      = tab1 X (ValueIdx.ix3 b e (1 : Fin 2)) + BitVec.ofNat 32 (b.val * 10000) := by
  rw [idx1_after3, h4]
  exact idx1_apply_right' _ b e hlt

end Cert.Kernel.Hand

end
-- ==== Proof.Bits.Vals.lean ====
/-
  The contents of every unscoped TensorCore buffer along @main, as pure functions of the launch memory: after each
  stretch of host operations, each pipeline region and each gather call.
-/
import proofs.«208461_g52518860095779_cont_9to1_m_1075_29_alg».proof.Proof.Bits.MainShape

noncomputable section

namespace Cert.Kernel.Hand

open Cert.Kernel Cert.Kernel.Gen
open Idealize.ShloMosaic Idealize.SL.Sem
open Idealize.ShloMosaic.StableHlo (after)

variable {F : FTy → Type} [FloatOps F]

/-! ## The buffers' contents along @main -/

section Vals

variable (upd0 upd1 upd2 : Valuation τ sig (Elt F) → Valuation τ sig (Elt F))
variable (m : (ℓ : Loc nD τ sig) → Buf (Elt F) ℓ)

/-- A TensorCore reference as a device buffer. -/
abbrev rf (b : Ref sig .tc) : DevRef τ sig := Proc.devRef .tc b

/-- At launch. -/
abbrev W0 (d : Dev nD) : Valuation τ sig (Elt F) := fun b => m (d, b)
/-- After the first stretch; after the square-root pipeline; after the second stretch. -/
abbrev W1 (d : Dev nD) : Valuation τ sig (Elt F) := after (ops0 (F := F)) (W0 m d)
abbrev W2 (d : Dev nD) : Valuation τ sig (Elt F) := upd0 (W1 m d)
abbrev W3 (d : Dev nD) : Valuation τ sig (Elt F) := after (ops1 (F := F)) (W2 upd0 m d)
/-- After the neighbour gather. -/
abbrev W4 (d : Dev nD) : Valuation τ sig (Elt F) :=
  Function.update (W3 upd0 m d) (rf main_v9) (gath0 (W3 upd0 m d (rf main_v1)) (W3 upd0 m d (rf main_v8)))
abbrev W5 (d : Dev nD) : Valuation τ sig (Elt F) := after (ops2 (F := F)) (W4 upd0 m d)
/-- After the node-update pipeline. -/
abbrev W6 (d : Dev nD) : Valuation τ sig (Elt F) := upd1 (W5 upd0 m d)
abbrev W7 (d : Dev nD) : Valuation τ sig (Elt F) := after (ops3 (F := F)) (W6 upd0 upd1 m d)
/-- After the endpoint gather. -/
abbrev W8 (d : Dev nD) : Valuation τ sig (Elt F) :=
  Function.update (W7 upd0 upd1 m d) (rf main_v26) (gath1 (W7 upd0 upd1 m d (rf main_v12)) (W7 upd0 upd1 m d (rf main_v25)))
abbrev W9 (d : Dev nD) : Valuation τ sig (Elt F) := after (ops4 (F := F)) (W8 upd0 upd1 m d)
/-- After the edge-update pipeline: at @main's end. -/
abbrev W10 (d : Dev nD) : Valuation τ sig (Elt F) := upd2 (W9 upd0 upd1 m d)

end Vals

end Cert.Kernel.Hand

end
-- ==== Proof.Bits.Main.lean ====
/-
  @main on the TensorCore inside the SparseCore launch: five stretches of host operations, three pipeline regions and
  two gather calls, threaded through the buffers' contents as pure functions of the launch memory.
-/
import proofs.«208461_g52518860095779_cont_9to1_m_1075_29_alg».proof.Proof.Bits.MainStep
import proofs.«208461_g52518860095779_cont_9to1_m_1075_29_alg».proof.Proof.Bits.IdxFacts
import proofs.«208461_g52518860095779_cont_9to1_m_1075_29_alg».proof.Proof.Bits.Vals

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 2) (Elt F) ℕ UU ℕ

/-! ## @main -/

section Main

variable (P : (K (F := F)).Pay (nD := nD) (Val := Elt F) (Name := ℕ) (U := UU))
variable (upd0 upd1 upd2 : Valuation τ sig (Elt F) → Valuation τ sig (Elt F))
variable (m : (ℓ : Loc nD τ sig) → Buf (Elt F) ℓ) (ρ : Dev nD → PrngReg)

theorem three_0 : ({rf main_v1, rf main_v8, rf main_v9} : Finset (DevRef τ sig)) ⊆ Pipeline.ucRefs τ sig := by decide
theorem three_1 : ({rf main_v12, rf main_v25, rf main_v26} : Finset (DevRef τ sig)) ⊆ Pipeline.ucRefs τ sig := by decide

/-- The launch's unscoped buffers are the held set at the launch contents. -/
theorem unscoped_held (d : Dev nD) :
    (unscopedBufs d (fun b => m ((SparseCore.T d).loc b)) : sProp 𝕄) = held (SparseCore.T d) (Pipeline.ucRefs τ sig) (W0 m d) :=
  Pipeline.unscopedBufs_held (Ix := HIx 2) (Name := ℕ) (U := UU) (Lvl := ℕ) d (fun b => m (d, b))

set_option maxHeartbeats 1600000 in
/-- @main on device d's TensorCore: from what the launch deals it and the pipelines' ghost state to the handshake
    state after both calls and every unscoped buffer at its final contents. -/
theorem hmain (h0 : RegionOK (F := F) 0 upd0) (h1 : RegionOK (F := F) 1 upd1) (h2 : RegionOK (F := F) 2 upd2)
    (hst0 : ∀ d, iprop(((d, rf main_v1) ↦{fullShare} W3 upd0 m d (rf main_v1)) ∗ ((d, rf main_v8) ↦{fullShare} W3 upd0 m d (rf main_v8))
        ∗ ((d, rf main_v9) ↦{fullShare} W3 upd0 m d (rf main_v9)))
      ⊢ (bigSep Finset.univ fun k : Fin ((K (F := F)).nCore 0) => P.st 0 d k : sProp 𝕄))
    (hdn0 : ∀ d, (bigSep Finset.univ fun k : Fin ((K (F := F)).nCore 0) => P.dn 0 d k : sProp 𝕄)
      ⊢ iprop(((d, rf main_v1) ↦{fullShare} W3 upd0 m d (rf main_v1)) ∗ ((d, rf main_v8) ↦{fullShare} W3 upd0 m d (rf main_v8))
        ∗ ((d, rf main_v9) ↦{fullShare} gath0 (W3 upd0 m d (rf main_v1)) (W3 upd0 m d (rf main_v8)))))
    (hst1 : ∀ d, iprop(((d, rf main_v12) ↦{fullShare} W7 upd0 upd1 m d (rf main_v12)) ∗ ((d, rf main_v25) ↦{fullShare} W7 upd0 upd1 m d (rf main_v25))
        ∗ ((d, rf main_v26) ↦{fullShare} W7 upd0 upd1 m d (rf main_v26)))
      ⊢ (bigSep Finset.univ fun k : Fin ((K (F := F)).nCore 1) => P.st 1 d k : sProp 𝕄))
    (hdn1 : ∀ d, (bigSep Finset.univ fun k : Fin ((K (F := F)).nCore 1) => P.dn 1 d k : sProp 𝕄)
      ⊢ iprop(((d, rf main_v12) ↦{fullShare} W7 upd0 upd1 m d (rf main_v12)) ∗ ((d, rf main_v25) ↦{fullShare} W7 upd0 upd1 m d (rf main_v25))
        ∗ ((d, rf main_v26) ↦{fullShare} gath1 (W7 upd0 upd1 m d (rf main_v12)) (W7 upd0 upd1 m d (rf main_v25)))))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ held (SparseCore.T d) (Pipeline.ucRefs τ sig) (W10 upd0 upd1 upd2 m d)) := by
  unfold SparseCore.Cfg.tcRes G
  rw [main_eq, unscoped_held m d,
    show (Finset.univ : Finset (Fin 3)) = {0, 1, 2} by decide,
    SparseCore.bigSep_insert' (by decide), SparseCore.bigSep_insert' (by decide), bigSep_singleton]
  iintro ⟨#Hctx, Hst, ⟨Hb, Hheld, -, -⟩, ⟨Hg0, Ht0⟩, ⟨Hg1, Ht1⟩, ⟨Hg2, Ht2⟩⟩
  -- the first stretch
  iapply (wp_seq 𝒱 none Set.univ d (Pipeline.ucRefs τ sig) _ (ops0 (F := F))
    (fun op h => Pipeline.sub_ucRefs op (ops0_sub op h)) ops0_fresh (W0 m d)) $$ [Hb Hheld]
  · isplitl [Hb] <;> iassumption
  iintro ⟨Hb, Hheld⟩
  -- the square-root pipeline
  rw [wp_bind]
  iapply (wp_region P h0 κ d 0 (W1 m d) _) $$ [Hst Hb Hheld Hg0 Ht0 Hg1 Ht1 Hg2 Ht2]
  isplitr; · iexact Hctx
  isplitl [Hst]; · iexact Hst
  isplitl [Hb]; · iexact Hb
  isplitl [Hheld]; · iexact Hheld
  isplitl [Hg0]; · iexact Hg0
  isplitl [Ht0]; · iexact Ht0
  iintro ⟨Hst, Hb, Hheld⟩
  -- the second stretch
  iapply (wp_seq 𝒱 none Set.univ d (Pipeline.ucRefs τ sig) _ (ops1 (F := F))
    (fun op h => Pipeline.sub_ucRefs op (ops1_sub op h)) ops1_fresh (W2 upd0 m d)) $$ [Hb Hheld]
  · isplitl [Hb] <;> iassumption
  iintro ⟨Hb, Hheld⟩
  -- the neighbour gather
  rw [wp_bind]
  iapply (wp_call P 0 (a := rf main_v1) (b := rf main_v8) (c := rf main_v9) (by decide) (by decide) (by decide) three_0 κ d
    (W3 upd0 m d) (gath0 (W3 upd0 m d (rf main_v1)) (W3 upd0 m d (rf main_v8))) (hst0 d) (hdn0 d) _) $$ [Hst Hb Hheld Hg1 Ht1 Hg2 Ht2]
  isplitr; · iexact Hctx
  isplitl [Hst]; · iexact Hst
  isplitl [Hheld]; · iexact Hheld
  iintro ⟨Hst, Hheld⟩
  -- the third stretch
  iapply (wp_seq 𝒱 none Set.univ d (Pipeline.ucRefs τ sig) _ (ops2 (F := F))
    (fun op h => Pipeline.sub_ucRefs op (ops2_sub op h)) ops2_fresh (W4 upd0 m d)) $$ [Hb Hheld]
  · isplitl [Hb] <;> iassumption
  iintro ⟨Hb, Hheld⟩
  -- the node-update pipeline
  rw [wp_bind]
  iapply (wp_region P h1 κ d 1 (W5 upd0 m d) _) $$ [Hst Hb Hheld Hg1 Ht1 Hg2 Ht2]
  isplitr; · iexact Hctx
  isplitl [Hst]; · iexact Hst
  isplitl [Hb]; · iexact Hb
  isplitl [Hheld]; · iexact Hheld
  isplitl [Hg1]; · iexact Hg1
  isplitl [Ht1]; · iexact Ht1
  iintro ⟨Hst, Hb, Hheld⟩
  -- the fourth stretch
  iapply (wp_seq 𝒱 none Set.univ d (Pipeline.ucRefs τ sig) _ (ops3 (F := F))
    (fun op h => Pipeline.sub_ucRefs op (ops3_sub op h)) ops3_fresh (W6 upd0 upd1 m d)) $$ [Hb Hheld]
  · isplitl [Hb] <;> iassumption
  iintro ⟨Hb, Hheld⟩
  -- the endpoint gather
  rw [wp_bind]
  iapply (wp_call P 1 (a := rf main_v12) (b := rf main_v25) (c := rf main_v26) (by decide) (by decide) (by decide) three_1 κ d
    (W7 upd0 upd1 m d) (gath1 (W7 upd0 upd1 m d (rf main_v12)) (W7 upd0 upd1 m d (rf main_v25))) (hst1 d) (hdn1 d) _) $$ [Hst Hb Hheld Hg2 Ht2]
  isplitr; · iexact Hctx
  isplitl [Hst]; · iexact Hst
  isplitl [Hheld]; · iexact Hheld
  iintro ⟨Hst, Hheld⟩
  -- the fifth stretch
  iapply (wp_seq 𝒱 none Set.univ d (Pipeline.ucRefs τ sig) _ (ops4 (F := F))
    (fun op h => Pipeline.sub_ucRefs op (ops4_sub op h)) ops4_fresh (W8 upd0 upd1 m d)) $$ [Hb Hheld]
  · isplitl [Hb] <;> iassumption
  iintro ⟨Hb, Hheld⟩
  -- the edge-update pipeline
  rw [wp_bind]
  iapply (wp_region P h2 κ d 2 (W9 upd0 upd1 m d) _) $$ [Hst Hb Hheld Hg2 Ht2]
  isplitr; · iexact Hctx
  isplitl [Hst]; · iexact Hst
  isplitl [Hb]; · iexact Hb
  isplitl [Hheld]; · iexact Hheld
  isplitl [Hg2]; · iexact Hg2
  isplitl [Ht2]; · iexact Ht2
  iintro ⟨Hst, Hb, Hheld⟩
  rw [wp_pure]
  imodintro
  isplitl [Hst]; · iexact Hst
  iexact Hheld

end Main

end Cert.Kernel.Hand

end
-- ==== Proof.Bits.Final.lean ====
/-
  Small facts for the end of the kernel program's run. Along @main every buffer is written at one place only: by one
  host operation, by one pipeline region (its result array), or by one gather call (its result array). So a buffer
  none of them writes, an argument above all, holds at the end what the launch memory held; the offsets' buffer,
  written in the second stretch, still holds the offsets when the fourth stretch reads it; and so both index lists
  are in range whenever they are read. Last, holding a set of whole buffers pins the physical memory at each of them.
-/
import proofs.«208461_g52518860095779_cont_9to1_m_1075_29_alg».proof.Proof.Bits.Vals
import proofs.«208461_g52518860095779_cont_9to1_m_1075_29_alg».proof.Proof.Bits.IdxFacts
import Idealize.ShloMosaic.Lib.Pipeline.Frame
import Idealize.ShloMosaic.Rules.Auth

noncomputable section

namespace Cert.Kernel.Hand

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (after held held_sub_split devRef_ne_of_ne)

variable {F : FTy → Type} [FloatOps F]

/-! ## Buffers nothing writes -/

/-- Every buffer written along @main: by a host operation, a pipeline region or a gather call. -/
def wsAll : List (Ref sig .tc) :=
  [main_v0, main_v1, main_v2, main_c, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31]

theorem ws0_sub : ∀ x ∈ ([main_v0] : List (Ref sig .tc)), x ∈ wsAll := by decide
theorem ws1_sub : ∀ x ∈ ([main_v2, main_c, main_v3, main_v4, main_v5, main_v6, main_v7, main_v8] : List (Ref sig .tc)), x ∈ wsAll := by decide
theorem ws2_sub : ∀ x ∈ ([main_v10] : List (Ref sig .tc)), x ∈ wsAll := by decide
theorem ws3_sub : ∀ x ∈ ([main_v12, main_v13, main_v14, main_v15, main_v16, main_v17, main_v18, main_v19, main_v20, main_v21, main_v22, main_v23, main_v24, main_v25] : List (Ref sig .tc)), x ∈ wsAll := by decide
theorem ws4_sub : ∀ x ∈ ([main_v27, main_v28, main_v29, main_v30] : List (Ref sig .tc)), x ∈ wsAll := by decide
theorem wsU_sub : ∀ x ∈ ([main_v1, main_v9, main_v11, main_v26, main_v31] : List (Ref sig .tc)), x ∈ wsAll := by decide

/-- None of the ten arguments is written. -/
theorem arg_not_written : ∀ a ∈ ([main_arg0, main_arg1, main_arg2, main_arg3, main_arg4, main_arg5, main_arg6, main_arg7, main_arg8, main_arg9] : List (Ref sig .tc)), a ∉ wsAll := by decide

section Kept

variable (upd0 upd1 upd2 : Valuation τ sig (Elt F) → Valuation τ sig (Elt F))
variable (m : (ℓ : Loc nD τ sig) → Buf (Elt F) ℓ) (d : Dev nD)
variable (hk0 : ∀ X b, b ≠ rf main_v1 → upd0 X b = X b) (hk1 : ∀ X b, b ≠ rf main_v11 → upd1 X b = X b)
  (hk2 : ∀ X b, b ≠ rf main_v31 → upd2 X b = X b)
variable (r : Ref sig .tc) (hr : r ∉ wsAll)

private theorem ne_of (hr : r ∉ wsAll) {y : Ref sig .tc} (hy : y ∈ ([main_v1, main_v9, main_v11, main_v26, main_v31] : List (Ref sig .tc))) :
    rf r ≠ rf y :=
  devRef_ne_of_ne fun e => hr (e ▸ wsU_sub y hy)

include hr

theorem W1_kept : W1 m d (rf r) = m (d, rf r) :=
  kept_0 _ r fun h => hr (ws0_sub r h)

include hk0

theorem W2_kept : W2 upd0 m d (rf r) = m (d, rf r) :=
  (hk0 _ _ (ne_of r hr (by decide))).trans (W1_kept m d r hr)

theorem W3_kept : W3 upd0 m d (rf r) = m (d, rf r) :=
  (kept_1 _ r fun h => hr (ws1_sub r h)).trans (W2_kept upd0 m d hk0 r hr)

theorem W4_kept : W4 upd0 m d (rf r) = m (d, rf r) :=
  (Function.update_of_ne (ne_of r hr (by decide)) _ _).trans (W3_kept upd0 m d hk0 r hr)

theorem W5_kept : W5 upd0 m d (rf r) = m (d, rf r) :=
  (kept_2 _ r fun h => hr (ws2_sub r h)).trans (W4_kept upd0 m d hk0 r hr)

include hk1

theorem W6_kept : W6 upd0 upd1 m d (rf r) = m (d, rf r) :=
  (hk1 _ _ (ne_of r hr (by decide))).trans (W5_kept upd0 m d hk0 r hr)

theorem W7_kept : W7 upd0 upd1 m d (rf r) = m (d, rf r) :=
  (kept_3 _ r fun h => hr (ws3_sub r h)).trans (W6_kept upd0 upd1 m d hk0 hk1 r hr)

theorem W8_kept : W8 upd0 upd1 m d (rf r) = m (d, rf r) :=
  (Function.update_of_ne (ne_of r hr (by decide)) _ _).trans (W7_kept upd0 upd1 m d hk0 hk1 r hr)

theorem W9_kept : W9 upd0 upd1 m d (rf r) = m (d, rf r) :=
  (kept_4 _ r fun h => hr (ws4_sub r h)).trans (W8_kept upd0 upd1 m d hk0 hk1 r hr)

include hk2

theorem W10_kept : W10 upd0 upd1 upd2 m d (rf r) = m (d, rf r) :=
  (hk2 _ _ (ne_of r hr (by decide))).trans (W9_kept upd0 upd1 m d hk0 hk1 r hr)

omit hr

/-- Each argument's buffer holds at @main's end what the launch memory held. -/
theorem args_kept (a : Ref sig .tc) (ha : a ∈ ([main_arg0, main_arg1, main_arg2, main_arg3, main_arg4, main_arg5, main_arg6, main_arg7, main_arg8, main_arg9] : List (Ref sig .tc))) :
    W10 upd0 upd1 upd2 m d (rf a) = m (d, rf a) :=
  W10_kept upd0 upd1 upd2 m d hk0 hk1 hk2 a (arg_not_written a ha)

theorem W10_arg0 : W10 upd0 upd1 upd2 m d (rf main_arg0) = m (d, rf main_arg0) :=
  args_kept upd0 upd1 upd2 m d hk0 hk1 hk2 main_arg0 (by decide)
theorem W10_arg1 : W10 upd0 upd1 upd2 m d (rf main_arg1) = m (d, rf main_arg1) :=
  args_kept upd0 upd1 upd2 m d hk0 hk1 hk2 main_arg1 (by decide)
theorem W10_arg2 : W10 upd0 upd1 upd2 m d (rf main_arg2) = m (d, rf main_arg2) :=
  args_kept upd0 upd1 upd2 m d hk0 hk1 hk2 main_arg2 (by decide)
theorem W10_arg3 : W10 upd0 upd1 upd2 m d (rf main_arg3) = m (d, rf main_arg3) :=
  args_kept upd0 upd1 upd2 m d hk0 hk1 hk2 main_arg3 (by decide)
theorem W10_arg4 : W10 upd0 upd1 upd2 m d (rf main_arg4) = m (d, rf main_arg4) :=
  args_kept upd0 upd1 upd2 m d hk0 hk1 hk2 main_arg4 (by decide)
theorem W10_arg5 : W10 upd0 upd1 upd2 m d (rf main_arg5) = m (d, rf main_arg5) :=
  args_kept upd0 upd1 upd2 m d hk0 hk1 hk2 main_arg5 (by decide)
theorem W10_arg6 : W10 upd0 upd1 upd2 m d (rf main_arg6) = m (d, rf main_arg6) :=
  args_kept upd0 upd1 upd2 m d hk0 hk1 hk2 main_arg6 (by decide)
theorem W10_arg7 : W10 upd0 upd1 upd2 m d (rf main_arg7) = m (d, rf main_arg7) :=
  args_kept upd0 upd1 upd2 m d hk0 hk1 hk2 main_arg7 (by decide)
theorem W10_arg8 : W10 upd0 upd1 upd2 m d (rf main_arg8) = m (d, rf main_arg8) :=
  args_kept upd0 upd1 upd2 m d hk0 hk1 hk2 main_arg8 (by decide)
theorem W10_arg9 : W10 upd0 upd1 upd2 m d (rf main_arg9) = m (d, rf main_arg9) :=
  args_kept upd0 upd1 upd2 m d hk0 hk1 hk2 main_arg9 (by decide)

omit hk2 hk1 hk0

end Kept

/-! ## The index lists in range along @main -/

section Idx

variable (upd0 upd1 : Valuation τ sig (Elt F) → Valuation τ sig (Elt F))
variable (m : (ℓ : Loc nD τ sig) → Buf (Elt F) ℓ)
variable (hk0 : ∀ X b, b ≠ rf main_v1 → upd0 X b = X b) (hk1 : ∀ X b, b ≠ rf main_v11 → upd1 X b = X b)

include hk0

/-- The first gather's index list, where the call reads it, is in range: the neighbour table is still the launch's. -/
theorem idx0_ok (h2 : ∀ d j, (m (d, rf main_arg2) j).toNat ≤ 9999) :
    ∀ d j, (W3 upd0 m d (rf main_v8) j).toNat < 20000 := by
  intro d j
  refine idx0_lt (W2 upd0 m d) (fun i => ?_) j
  have e : W2 upd0 m d (rf main_arg2) = m (d, rf main_arg2) := W2_kept upd0 m d hk0 main_arg2 (by decide)
  rw [e]
  exact h2 d i

include hk1

/-- The offsets' buffer, written in the second stretch, still holds the offsets when the fourth stretch reads it:
    neither the gather call, nor the third stretch, nor the node-update region writes it. -/
theorem W6_offs (d : Dev nD) : W6 upd0 upd1 m d (rf main_v4) = offs :=
  (hk1 _ _ (devRef_ne_of_ne (by decide))).trans <|
    (kept_2 _ main_v4 (by decide)).trans <|
      (Function.update_of_ne (devRef_ne_of_ne (by decide)) _ _).trans (offs_after1 _)

/-- The second gather's index list, where the call reads it, is in range. -/
theorem idx1_ok (h3 : ∀ d j, (m (d, rf main_arg3) j).toNat ≤ 9999) :
    ∀ d j, (W7 upd0 upd1 m d (rf main_v25) j).toNat < 20000 := by
  intro d j
  refine idx1_lt (W6 upd0 upd1 m d) (fun i => ?_) (W6_offs upd0 upd1 m hk0 hk1 d) j
  have e : W6 upd0 upd1 m d (rf main_arg3) = m (d, rf main_arg3) := W6_kept upd0 upd1 m d hk0 hk1 main_arg3 (by decide)
  rw [e]
  exact h3 d i

omit hk1 hk0

end Idx

/-! ## Reading the final memory -/

section Agree

local notation "𝕄" => MT nD τ sig (SparseCore.Cfg.HIx 2) (Elt F) ℕ UU ℕ

/-- A set of whole buffers held beside the state interpretation pins the physical memory at each buffer of the set:
    the set splits at the one buffer, whose points-to agrees with the memory element by element. -/
theorem held_agree (d : Dev nD) (S : Finset (DevRef τ sig)) (V : Valuation τ sig (Elt F)) (s' : Phys nD τ sig (Elt F))
    (b : DevRef τ sig) (hb : b ∈ S) :
    iprop(held (SparseCore.T d) S V ∗ SI s') ⊢ (⌜s'.mem.mem (d, b) = V b⌝ : sProp 𝕄) := by
  have e : (held (SparseCore.T d) S V : sProp 𝕄)
      = iprop(((d, b) ↦{fullShare} V b) ∗ held (SparseCore.T d) (S \ {b}) V) := by
    rw [held_sub_split (SparseCore.T d) (Finset.singleton_subset_iff.mpr hb) V]
    congr 1
    exact bigSep_singleton
  rw [e]
  exact ((sep_mono_left sep_elim_left).trans sep_symm).trans
    (SI_pointsTo_agree.trans (Laws.pure_mono fun h => funext fun i => h i (Finset.mem_univ i)))

/-- … at all of them at once: an entailment into a pure fact holds resource by resource. -/
theorem held_agree_all (d : Dev nD) (S : Finset (DevRef τ sig)) (V : Valuation τ sig (Elt F)) (s' : Phys nD τ sig (Elt F)) :
    iprop(held (SparseCore.T d) S V ∗ SI s') ⊢ (⌜∀ b ∈ S, s'.mem.mem (d, b) = V b⌝ : sProp 𝕄) :=
  fun x hP b hb => held_agree d S V s' b hb x hP

end Agree

end Cert.Kernel.Hand

end
-- ==== Proof.Bits.ScPay.lean ====
/-
  What the two gather calls' handshakes carry. Each call hands every vector subcore (tile) a read share of the
  table and of the index list, and the result rows of the windows that tile owns: call 0 cuts the 320000 result
  rows into 2500 windows of 128 rows, call 1 its 640000 rows into 5000; tile (c, s) is worker s * 2 + c and owns
  the windows lo ≤ w < hi of its call. The tiles bring the same back, the result windows at the gathered rows.
-/
import proofs.«208461_g52518860095779_cont_9to1_m_1075_29_alg».proof.Proof.Bits.Common
import Idealize.ShloMosaic.Lib.SparseCore.Stream
import Idealize.ShloMosaic.Lib.Ring
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Which windows a tile owns -/

/-- The worker number of tile (c, s). -/
def wid (c : Fin 2) (s : Fin 16) : ℕ := s.val * 2 + c.val

/-- Call 0: 2500 windows over 32 workers, 78 each and one more for the first four. -/
def lo0 (w : ℕ) : ℕ := w * 78 + min w 4
def hi0 (w : ℕ) : ℕ := lo0 w + 78 + (if w < 4 then 1 else 0)
/-- Call 1: 5000 windows over 32 workers, 156 each and one more for the first eight. -/
def lo1 (w : ℕ) : ℕ := w * 156 + min w 8
def hi1 (w : ℕ) : ℕ := lo1 w + 156 + (if w < 8 then 1 else 0)

theorem hdiv0 : 2500 ∣ S320000x128.size 0 := ⟨128, rfl⟩
theorem hdiv1 : 5000 ∣ S640000x128.size 0 := ⟨128, rfl⟩

/-- Window w of call 0's result: rows 128 w … 128 w + 127, every column. -/
abbrev oWin0 (w : Fin 2500) : Rect S320000x128 := Rect.part (s := S320000x128) (a₀ := 0) hdiv0 w
abbrev oWin1 (w : Fin 5000) : Rect S640000x128 := Rect.part (s := S640000x128) (a₀ := 0) hdiv1 w

abbrev oSet0 (w : Fin 2500) : Finset S320000x128.Idx :=
  ((Memref.whole main_v9_scv : Memref sig .scVector .hbm S320000x128 .f32).view.slice (oWin0 w)).set
abbrev oSet1 (w : Fin 5000) : Finset S640000x128.Idx :=
  ((Memref.whole main_v26_scv : Memref sig .scVector .hbm S640000x128 .f32).view.slice (oWin1 w)).set

/-! ## The read shares: the full share cut in two for the SparseCores, each half in sixteen for its tiles -/

def qCore (c : Fin 2) : PosShare TreeShare := pieceOf fullShare 2 (by decide) c
def qTile (c : Fin 2) (s : Fin 16) : PosShare TreeShare := pieceOf (qCore c) 16 (by decide) s

variable [FloatOps F]

/-! ## What one tile holds -/

/-- Tile (c, s) of call 0: its read shares of table and list, and its result windows at the contents g. -/
def tile0 (tb : Dev nD → Tab (F := F)) (ix : Dev nD → Ix0 (F := F)) (g : Dev nD → Out0 (F := F)) (d : Dev nD) (c : Fin 2) (s : Fin 16) : sProp 𝕄 :=
  iprop((tLoc0 d ↦{qTile c s} tb d) ∗ (iLoc0 d ↦{qTile c s} ix d)
    ∗ bigSep (Ring.rangeSet 2500 (lo0 (wid c s)) (hi0 (wid c s))) fun w => oLoc0 d ↦[oSet0 w]{fullShare} g d)

def tile1 (tb : Dev nD → Tab (F := F)) (ix : Dev nD → Ix1 (F := F)) (g : Dev nD → Out1 (F := F)) (d : Dev nD) (c : Fin 2) (s : Fin 16) : sProp 𝕄 :=
  iprop((tLoc1 d ↦{qTile c s} tb d) ∗ (iLoc1 d ↦{qTile c s} ix d)
    ∗ bigSep (Ring.rangeSet 5000 (lo1 (wid c s)) (hi1 (wid c s))) fun w => oLoc1 d ↦[oSet1 w]{fullShare} g d)

variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

/-- What a tile is handed: the result windows at what the result array held before the call. -/
def goF (q : Fin 2) (d : Dev nD) (c : Fin ((K (F := F)).nCore q)) (s : Fin ((K (F := F)).nSub q)) : sProp 𝕄 :=
  match q, c, s with
  | 0, c, s => tile0 tb0 ix0 f0 d (Fin.cast nCore_0 c) (Fin.cast nSub_0 s)
  | 1, c, s => tile1 tb1 ix1 f1 d (Fin.cast nCore_1 c) (Fin.cast nSub_1 s)

/-- What it brings back: the result windows at the gathered rows. -/
def tdF (q : Fin 2) (d : Dev nD) (c : Fin ((K (F := F)).nCore q)) (s : Fin ((K (F := F)).nSub q)) : sProp 𝕄 :=
  match q, c, s with
  | 0, c, s => tile0 tb0 ix0 (fun d => gath0 (tb0 d) (ix0 d)) d (Fin.cast nCore_0 c) (Fin.cast nSub_0 s)
  | 1, c, s => tile1 tb1 ix1 (fun d => gath1 (tb1 d) (ix1 d)) d (Fin.cast nCore_1 c) (Fin.cast nSub_1 s)

/-- The two calls' payloads: a SparseCore is handed its tiles' shares conjoined and hands them back so; nothing of
    the launch's is consumed (the transfers need no schedule). -/
def P : (K (F := F)).Pay (nD := nD) (Val := Elt F) (Name := ℕ) (U := UU) where
  st := fun q d c => bigSep Finset.univ fun s => goF tb0 ix0 f0 tb1 ix1 f1 q d c s
  dn := fun q d c => bigSep Finset.univ fun s => tdF tb0 ix0 tb1 ix1 q d c s
  go := goF tb0 ix0 f0 tb1 ix1 f1
  td := tdF tb0 ix0 tb1 ix1
  x := fun _ _ => iprop(emp)

theorem P_st (q : Fin 2) (d : Dev nD) (c : Fin ((K (F := F)).nCore q)) :
    (P tb0 ix0 f0 tb1 ix1 f1).st q d c = bigSep Finset.univ fun s => goF tb0 ix0 f0 tb1 ix1 f1 q d c s := rfl
theorem P_dn (q : Fin 2) (d : Dev nD) (c : Fin ((K (F := F)).nCore q)) :
    (P tb0 ix0 f0 tb1 ix1 f1).dn q d c = bigSep Finset.univ fun s => tdF tb0 ix0 tb1 ix1 q d c s := rfl
theorem P_go0 (d : Dev nD) (c : Fin ((K (F := F)).nCore 0)) (s : Fin ((K (F := F)).nSub 0)) :
    (P tb0 ix0 f0 tb1 ix1 f1).go 0 d c s = tile0 tb0 ix0 f0 d (Fin.cast nCore_0 c) (Fin.cast nSub_0 s) := rfl
theorem P_td0 (d : Dev nD) (c : Fin ((K (F := F)).nCore 0)) (s : Fin ((K (F := F)).nSub 0)) :
    (P tb0 ix0 f0 tb1 ix1 f1).td 0 d c s = tile0 tb0 ix0 (fun d => gath0 (tb0 d) (ix0 d)) d (Fin.cast nCore_0 c) (Fin.cast nSub_0 s) := rfl
theorem P_go1 (d : Dev nD) (c : Fin ((K (F := F)).nCore 1)) (s : Fin ((K (F := F)).nSub 1)) :
    (P tb0 ix0 f0 tb1 ix1 f1).go 1 d c s = tile1 tb1 ix1 f1 d (Fin.cast nCore_1 c) (Fin.cast nSub_1 s) := rfl
theorem P_td1 (d : Dev nD) (c : Fin ((K (F := F)).nCore 1)) (s : Fin ((K (F := F)).nSub 1)) :
    (P tb0 ix0 f0 tb1 ix1 f1).td 1 d c s = tile1 tb1 ix1 (fun d => gath1 (tb1 d) (ix1 d)) d (Fin.cast nCore_1 c) (Fin.cast nSub_1 s) := rfl
theorem P_x (q : Fin 2) (thr : Thread nD τ) : (P tb0 ix0 f0 tb1 ix1 f1).x q thr = iprop(emp) := rfl
theorem P_ox : (P tb0 ix0 f0 tb1 ix1 f1).ox = fun _ _ => 0 := rfl

instance tile0_storable (g : Dev nD → Out0 (F := F)) (d : Dev nD) (c : Fin 2) (s : Fin 16) :
    BI.Storable (upEmb : UEmb _ 𝕄) (tile0 tb0 ix0 g d c s) := by unfold tile0; infer_instance
instance tile1_storable (g : Dev nD → Out1 (F := F)) (d : Dev nD) (c : Fin 2) (s : Fin 16) :
    BI.Storable (upEmb : UEmb _ 𝕄) (tile1 tb1 ix1 g d c s) := by unfold tile1; infer_instance

instance goF_storable (q : Fin 2) (d : Dev nD) (c : Fin ((K (F := F)).nCore q)) (s : Fin ((K (F := F)).nSub q)) :
    BI.Storable (upEmb : UEmb _ 𝕄) (goF tb0 ix0 f0 tb1 ix1 f1 q d c s) := by
  match q, c, s with
  | 0, c, s => exact tile0_storable tb0 ix0 f0 d _ _
  | 1, c, s => exact tile1_storable tb1 ix1 f1 d _ _
instance tdF_storable (q : Fin 2) (d : Dev nD) (c : Fin ((K (F := F)).nCore q)) (s : Fin ((K (F := F)).nSub q)) :
    BI.Storable (upEmb : UEmb _ 𝕄) (tdF tb0 ix0 tb1 ix1 q d c s) := by
  match q, c, s with
  | 0, c, s => exact tile0_storable tb0 ix0 (fun d => gath0 (tb0 d) (ix0 d)) d (Fin.cast nCore_0 c) (Fin.cast nSub_0 s)
  | 1, c, s => exact tile1_storable tb1 ix1 (fun d => gath1 (tb1 d) (ix1 d)) d (Fin.cast nCore_1 c) (Fin.cast nSub_1 s)

instance P_storable : (P tb0 ix0 f0 tb1 ix1 f1).IsStorable where
  st q d c := by rw [P_st]; infer_instance
  dn q d c := by rw [P_dn]; infer_instance
  go q d c s := goF_storable tb0 ix0 f0 tb1 ix1 f1 q d c s
  td q d c s := tdF_storable tb0 ix0 tb1 ix1 q d c s

/-! ## A SparseCore's operands are its tiles' -/

theorem vecSplit0 : (K (F := F)).VecSplit' (P tb0 ix0 f0 tb1 ix1 f1) 0 := by
  intro d c
  rw [P_st, P_dn]
  iintro H; imodintro
  isplitl [H]; · iexact H
  iintro H; iexact H

theorem vecSplit1 : (K (F := F)).VecSplit' (P tb0 ix0 f0 tb1 ix1 f1) 1 := by
  intro d c
  rw [P_st, P_dn]
  iintro H; imodintro
  isplitl [H]; · iexact H
  iintro H; iexact H

end Cert.Kernel.Hand

end
-- ==== Proof.Bits.ScPart.lean ====
/-
  The two gather calls' operands, whole and dealt out. The TensorCore holds each call's table, index list and
  result array whole; a call hands every one of its 2 × 16 tiles a read share of the table and of the list and
  the result rows of the windows that tile owns. Here: the whole arrays ARE the tiles' holdings taken together
  (an equation, for any contents of the result array), so the launch can deal them out and, after the call,
  take them back with the result at the gathered rows.

  Read shares: the full share is cut in two, each half in sixteen. Result rows: the array is its windows
  (2500 of 128 rows for call 0, 5000 for call 1), and the windows are the 32 workers' runs lo ≤ w < hi, which
  are consecutive: the first starts at 0, each ends where the next starts, the last ends at the window count.
-/
import proofs.«208461_g52518860095779_cont_9to1_m_1075_29_alg».proof.Proof.Bits.ScPay
import Idealize.ShloMosaic.Rules.PointsTo
import Idealize.ShloMosaic.Lib.SparseCore.Stream
import Idealize.ShloMosaic.Lib.SparseCore.Cells
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Call 0: the 32 workers' runs tile the 2500 windows -/

/-- The run of windows worker (c, s) owns. -/
abbrev run0 (p : Fin 2 × Fin 16) : Finset (Fin 2500) := Ring.rangeSet 2500 (lo0 (wid p.1 p.2)) (hi0 (wid p.1 p.2))

/-- Two workers' runs share no window: the worker number s * 2 + c tells the workers apart, and the lower
    numbered worker's run ends no later than the other's starts. -/
theorem run0_disjoint (p p' : Fin 2 × Fin 16) (h : p ≠ p') : Disjoint (run0 p) (run0 p') := by
  have hne : wid p.1 p.2 ≠ wid p'.1 p'.2 := fun e =>
    h (Prod.ext (Fin.ext (by unfold wid at e; omega)) (Fin.ext (by unfold wid at e; omega)))
  refine Finset.disjoint_left.mpr fun w h1 h2 => ?_
  rw [Ring.mem_rangeSet] at h1 h2
  unfold hi0 lo0 at h1 h2
  split_ifs at h1 h2 <;> omega

/-- Every window lies in some worker's run: below window 316 the runs are 79 long, from there on 78. -/
theorem run0_cover : (Finset.univ : Finset (Fin 2 × Fin 16)).biUnion run0 = Finset.univ := by
  ext w
  simp only [Finset.mem_biUnion, Finset.mem_univ, true_and, iff_true]
  have hw := w.isLt
  by_cases h : w.val < 316
  · refine ⟨(⟨w.val / 79 % 2, by omega⟩, ⟨w.val / 79 / 2, by omega⟩), ?_⟩
    rw [Ring.mem_rangeSet]; unfold hi0 lo0 wid
    simp only []
    split_ifs <;> omega
  · refine ⟨(⟨(w.val - 4) / 78 % 2, by omega⟩, ⟨(w.val - 4) / 78 / 2, by omega⟩), ?_⟩
    rw [Ring.mem_rangeSet]; unfold hi0 lo0 wid
    simp only []
    split_ifs <;> omega

/-- A family over the windows, taken worker by worker. -/
theorem wins0 (Φ : Fin 2500 → sProp 𝕄) :
    bigSep Finset.univ Φ
      = bigSep Finset.univ fun c : Fin 2 => bigSep Finset.univ fun s : Fin 16 =>
          bigSep (Ring.rangeSet 2500 (lo0 (wid c s)) (hi0 (wid c s))) Φ := by
  rw [← BI.bigSep_univ_prod (fun p : Fin 2 × Fin 16 => bigSep (run0 p) Φ),
    ← SparseCore.Cfg.bigSep_biUnion_eq Finset.univ run0 Φ (fun p _ p' _ h => run0_disjoint p p' h), run0_cover]

/-! ## Call 0: the result array is its windows -/

theorem oSet0_eq (w : Fin 2500) : oSet0 w = (oWin0 w).set := by
  show ((View.whole (main_v9_scv : Ref sig .scVector)).slice (oWin0 w)).set = _
  rw [View.set_slice]; exact Finset.map_refl

theorem oSet0_disjoint : ∀ w ∈ (Finset.univ : Finset (Fin 2500)), ∀ w' ∈ (Finset.univ : Finset (Fin 2500)), w ≠ w' →
    Disjoint (oSet0 w) (oSet0 w') :=
  fun w _ w' _ h => by rw [oSet0_eq, oSet0_eq]; exact Rect.part_disjoint hdiv0 h

theorem oSet0_cover : (Finset.univ : Finset (Fin 2500)).biUnion oSet0 = Finset.univ :=
  (Finset.biUnion_congr rfl fun w _ => oSet0_eq w).trans (Rect.biUnion_part hdiv0)

theorem oPts0_wins (d : Dev nD) (g : Out0 (F := F)) :
    (oLoc0 d ↦{fullShare} g : sProp 𝕄) = bigSep Finset.univ fun w : Fin 2500 => oLoc0 d ↦[oSet0 w]{fullShare} g := by
  rw [← pointsTo_biUnion Finset.univ (ℓ := oLoc0 d) oSet0 oSet0_disjoint, oSet0_cover]; try rfl

/-! ## Call 1: the 32 workers' runs tile the 5000 windows -/

/-- The run of windows worker (c, s) owns. -/
abbrev run1 (p : Fin 2 × Fin 16) : Finset (Fin 5000) := Ring.rangeSet 5000 (lo1 (wid p.1 p.2)) (hi1 (wid p.1 p.2))

/-- Two workers' runs share no window: the worker number s * 2 + c tells the workers apart, and the lower
    numbered worker's run ends no later than the other's starts. -/
theorem run1_disjoint (p p' : Fin 2 × Fin 16) (h : p ≠ p') : Disjoint (run1 p) (run1 p') := by
  have hne : wid p.1 p.2 ≠ wid p'.1 p'.2 := fun e =>
    h (Prod.ext (Fin.ext (by unfold wid at e; omega)) (Fin.ext (by unfold wid at e; omega)))
  refine Finset.disjoint_left.mpr fun w h1 h2 => ?_
  rw [Ring.mem_rangeSet] at h1 h2
  unfold hi1 lo1 at h1 h2
  split_ifs at h1 h2 <;> omega

/-- Every window lies in some worker's run: below window 1256 the runs are 157 long, from there on 156. -/
theorem run1_cover : (Finset.univ : Finset (Fin 2 × Fin 16)).biUnion run1 = Finset.univ := by
  ext w
  simp only [Finset.mem_biUnion, Finset.mem_univ, true_and, iff_true]
  have hw := w.isLt
  by_cases h : w.val < 1256
  · refine ⟨(⟨w.val / 157 % 2, by omega⟩, ⟨w.val / 157 / 2, by omega⟩), ?_⟩
    rw [Ring.mem_rangeSet]; unfold hi1 lo1 wid
    simp only []
    split_ifs <;> omega
  · refine ⟨(⟨(w.val - 8) / 156 % 2, by omega⟩, ⟨(w.val - 8) / 156 / 2, by omega⟩), ?_⟩
    rw [Ring.mem_rangeSet]; unfold hi1 lo1 wid
    simp only []
    split_ifs <;> omega

/-- A family over the windows, taken worker by worker. -/
theorem wins1 (Φ : Fin 5000 → sProp 𝕄) :
    bigSep Finset.univ Φ
      = bigSep Finset.univ fun c : Fin 2 => bigSep Finset.univ fun s : Fin 16 =>
          bigSep (Ring.rangeSet 5000 (lo1 (wid c s)) (hi1 (wid c s))) Φ := by
  rw [← BI.bigSep_univ_prod (fun p : Fin 2 × Fin 16 => bigSep (run1 p) Φ),
    ← SparseCore.Cfg.bigSep_biUnion_eq Finset.univ run1 Φ (fun p _ p' _ h => run1_disjoint p p' h), run1_cover]

/-! ## Call 1: the result array is its windows -/

theorem oSet1_eq (w : Fin 5000) : oSet1 w = (oWin1 w).set := by
  show ((View.whole (main_v26_scv : Ref sig .scVector)).slice (oWin1 w)).set = _
  rw [View.set_slice]; exact Finset.map_refl

theorem oSet1_disjoint : ∀ w ∈ (Finset.univ : Finset (Fin 5000)), ∀ w' ∈ (Finset.univ : Finset (Fin 5000)), w ≠ w' →
    Disjoint (oSet1 w) (oSet1 w') :=
  fun w _ w' _ h => by rw [oSet1_eq, oSet1_eq]; exact Rect.part_disjoint hdiv1 h

theorem oSet1_cover : (Finset.univ : Finset (Fin 5000)).biUnion oSet1 = Finset.univ :=
  (Finset.biUnion_congr rfl fun w _ => oSet1_eq w).trans (Rect.biUnion_part hdiv1)

theorem oPts1_wins (d : Dev nD) (g : Out1 (F := F)) :
    (oLoc1 d ↦{fullShare} g : sProp 𝕄) = bigSep Finset.univ fun w : Fin 5000 => oLoc1 d ↦[oSet1 w]{fullShare} g := by
  rw [← pointsTo_biUnion Finset.univ (ℓ := oLoc1 d) oSet1 oSet1_disjoint, oSet1_cover]; try rfl

/-! ## The read shares -/

/-- An array held whole for reading is held by every tile at its share: the full share cut in two for the
    SparseCores, each half in sixteen for the tiles. -/
theorem pts_tiles {ℓ : Loc nD τ sig} (f : Buf (Elt F) ℓ) :
    (ℓ ↦{fullShare} f : sProp 𝕄)
      = bigSep Finset.univ fun c : Fin 2 => bigSep Finset.univ fun s : Fin 16 => ℓ ↦{qTile c s} f := by
  rw [pointsTo_piecesOf Finset.univ f (by decide : 0 < 2) fullShare]
  refine bigSep_congr fun c _ => ?_
  rw [pointsTo_piecesOf Finset.univ f (by decide : 0 < 16) (pieceOf fullShare 2 (by decide) c)]
  rfl

variable [FloatOps F]

/-! ## Call 0: the whole operands are the tiles' -/

/-- The three arrays whole, the result at g, are what the 2 × 16 tiles hold between them. -/
theorem whole0_eq (tb : Dev nD → Tab (F := F)) (ix : Dev nD → Ix0 (F := F)) (g : Dev nD → Out0 (F := F)) (d : Dev nD) :
    (iprop((tLoc0 d ↦{fullShare} tb d) ∗ (iLoc0 d ↦{fullShare} ix d) ∗ (oLoc0 d ↦{fullShare} g d)) : sProp 𝕄)
      = bigSep Finset.univ fun c : Fin 2 => bigSep Finset.univ fun s : Fin 16 => tile0 tb ix g d c s := by
  rw [pts_tiles (ℓ := tLoc0 d) (tb d), pts_tiles (ℓ := iLoc0 d) (ix d), oPts0_wins d (g d), wins0 (fun w => oLoc0 d ↦[oSet0 w]{fullShare} g d)]
  unfold tile0
  simp only [BI.bigSep_sep']

/-! ## Call 1: the whole operands are the tiles' -/

/-- The three arrays whole, the result at g, are what the 2 × 16 tiles hold between them. -/
theorem whole1_eq (tb : Dev nD → Tab (F := F)) (ix : Dev nD → Ix1 (F := F)) (g : Dev nD → Out1 (F := F)) (d : Dev nD) :
    (iprop((tLoc1 d ↦{fullShare} tb d) ∗ (iLoc1 d ↦{fullShare} ix d) ∗ (oLoc1 d ↦{fullShare} g d)) : sProp 𝕄)
      = bigSep Finset.univ fun c : Fin 2 => bigSep Finset.univ fun s : Fin 16 => tile1 tb ix g d c s := by
  rw [pts_tiles (ℓ := tLoc1 d) (tb d), pts_tiles (ℓ := iLoc1 d) (ix d), oPts1_wins d (g d), wins1 (fun w => oLoc1 d ↦[oSet1 w]{fullShare} g d)]
  unfold tile1
  simp only [BI.bigSep_sep']

variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

/-! ## Call 0: dealing out and taking back -/

theorem st0_eq (d : Dev nD) :
    (bigSep Finset.univ fun c : Fin ((K (F := F)).nCore 0) => (P tb0 ix0 f0 tb1 ix1 f1).st 0 d c : sProp 𝕄)
      = iprop((tLoc0 d ↦{fullShare} tb0 d) ∗ (iLoc0 d ↦{fullShare} ix0 d) ∗ (oLoc0 d ↦{fullShare} f0 d)) := by
  rw [whole0_eq tb0 ix0 f0 d]; rfl

theorem dn0_eq (d : Dev nD) :
    (bigSep Finset.univ fun c : Fin ((K (F := F)).nCore 0) => (P tb0 ix0 f0 tb1 ix1 f1).dn 0 d c : sProp 𝕄)
      = iprop((tLoc0 d ↦{fullShare} tb0 d) ∗ (iLoc0 d ↦{fullShare} ix0 d) ∗ (oLoc0 d ↦{fullShare} gath0 (tb0 d) (ix0 d))) := by
  rw [whole0_eq tb0 ix0 (fun d => gath0 (tb0 d) (ix0 d)) d]; rfl

/-- Dealing call 0's operands out. -/
theorem st0_intro (d : Dev nD) :
    iprop((tLoc0 d ↦{fullShare} tb0 d) ∗ (iLoc0 d ↦{fullShare} ix0 d) ∗ (oLoc0 d ↦{fullShare} f0 d))
      ⊢ (bigSep Finset.univ fun c : Fin ((K (F := F)).nCore 0) => (P tb0 ix0 f0 tb1 ix1 f1).st 0 d c : sProp 𝕄) :=
  Entails.of_eq (st0_eq tb0 ix0 f0 tb1 ix1 f1 d).symm

/-- Taking them back, the result at the gathered rows. -/
theorem dn0_elim (d : Dev nD) :
    (bigSep Finset.univ fun c : Fin ((K (F := F)).nCore 0) => (P tb0 ix0 f0 tb1 ix1 f1).dn 0 d c : sProp 𝕄)
      ⊢ iprop((tLoc0 d ↦{fullShare} tb0 d) ∗ (iLoc0 d ↦{fullShare} ix0 d) ∗ (oLoc0 d ↦{fullShare} gath0 (tb0 d) (ix0 d))) :=
  Entails.of_eq (dn0_eq tb0 ix0 f0 tb1 ix1 f1 d)

/-! ## Call 1: dealing out and taking back -/

theorem st1_eq (d : Dev nD) :
    (bigSep Finset.univ fun c : Fin ((K (F := F)).nCore 1) => (P tb0 ix0 f0 tb1 ix1 f1).st 1 d c : sProp 𝕄)
      = iprop((tLoc1 d ↦{fullShare} tb1 d) ∗ (iLoc1 d ↦{fullShare} ix1 d) ∗ (oLoc1 d ↦{fullShare} f1 d)) := by
  rw [whole1_eq tb1 ix1 f1 d]; rfl

theorem dn1_eq (d : Dev nD) :
    (bigSep Finset.univ fun c : Fin ((K (F := F)).nCore 1) => (P tb0 ix0 f0 tb1 ix1 f1).dn 1 d c : sProp 𝕄)
      = iprop((tLoc1 d ↦{fullShare} tb1 d) ∗ (iLoc1 d ↦{fullShare} ix1 d) ∗ (oLoc1 d ↦{fullShare} gath1 (tb1 d) (ix1 d))) := by
  rw [whole1_eq tb1 ix1 (fun d => gath1 (tb1 d) (ix1 d)) d]; rfl

/-- Dealing call 1's operands out. -/
theorem st1_intro (d : Dev nD) :
    iprop((tLoc1 d ↦{fullShare} tb1 d) ∗ (iLoc1 d ↦{fullShare} ix1 d) ∗ (oLoc1 d ↦{fullShare} f1 d))
      ⊢ (bigSep Finset.univ fun c : Fin ((K (F := F)).nCore 1) => (P tb0 ix0 f0 tb1 ix1 f1).st 1 d c : sProp 𝕄) :=
  Entails.of_eq (st1_eq tb0 ix0 f0 tb1 ix1 f1 d).symm

/-- Taking them back, the result at the gathered rows. -/
theorem dn1_elim (d : Dev nD) :
    (bigSep Finset.univ fun c : Fin ((K (F := F)).nCore 1) => (P tb0 ix0 f0 tb1 ix1 f1).dn 1 d c : sProp 𝕄)
      ⊢ iprop((tLoc1 d ↦{fullShare} tb1 d) ∗ (iLoc1 d ↦{fullShare} ix1 d) ∗ (oLoc1 d ↦{fullShare} gath1 (tb1 d) (ix1 d))) :=
  Entails.of_eq (dn1_eq tb0 ix0 f0 tb1 ix1 f1 d)

end Cert.Kernel.Hand

end
-- ==== Proof.Bits.Region0.lean ====
/-
  Region 0 of @main: the first TensorCore pipeline (ten points, one block of 2000 rows of the 20000×128 array per point).
  Its body loads the whole input block and stores, over the whole output block, the elementwise square root of the
  absolute value. Here: the whole-array function the region computes (out0), the body's triple, the pipeline's proof data
  (the input's block found at every point, the payload of that block left in the output's buffer, the scoped buffers no
  window stages as the invariant, the tallies the core owes carried unchanged), that the ten blocks tile the array and each
  written block is the block of out0 of the input array, and the region's rule: from the region boundary and the
  TensorCore's unscoped buffers at a valuation V, the call runs to the boundary and the buffers at V with the result array
  at out0 of the input array.
-/
import proofs.«208461_g52518860095779_cont_9to1_m_1075_29_alg».proof.Proof.Bits.Common
import Idealize.ShloMosaic.Lib.Pipeline.Frame
import Idealize.ShloMosaic.Lib.Pipeline.FrameBody
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The region's value -/

/-- The region's result array as a function of its input array: the square root of the absolute value, elementwise. -/
def out0 (x : S20000x128.Idx → Elt F .f32) : S20000x128.Idx → Elt F .f32 :=
  sqrt (absf (x : FVec F S20000x128 .f32))

/-- The valuation the region leaves: the result array at the whole-array result of the input array, every other buffer kept. -/
def upd0 (X : Valuation τ sig (Elt F)) : Valuation τ sig (Elt F) :=
  Function.update X (Proc.devRef .tc main_v1) (out0 (X (Proc.devRef .tc main_v0)))

theorem upd0_eq (X : Valuation τ sig (Elt F)) :
    upd0 X = Function.update X (Proc.devRef .tc main_v1) (out0 (X (Proc.devRef .tc main_v0))) := rfl

/-- Every buffer but the result array is kept. -/
theorem upd0_kept (X : Valuation τ sig (Elt F)) (b : DevRef τ sig) (hb : b ≠ Proc.devRef .tc main_v1) : upd0 X b = X b :=
  Function.update_of_ne hb _ _

/-- The result array holds the whole-array result of the input array. -/
theorem upd0_result (X : Valuation τ sig (Elt F)) : upd0 X (Proc.devRef .tc main_v1) = out0 (X (Proc.devRef .tc main_v0)) :=
  Function.update_self ..

namespace R0

/-! ## The body's one load and one store -/

/-- The whole 2000×128 block, as the rectangle the body loads and stores through. -/
abbrev r0_0 : Rect S2000x128 := Rect.unit (s := S2000x128) ![0, 0] S2000x128.size inb_S2000x128_S2000x128_0_0

theorem zeros2 : (![0, 0] : Fin 2 → ℕ) = fun _ => 0 := by
  funext a; fin_cases a <;> rfl

/-- The one store covers the block. -/
theorem cover0_1 [∀ e, Nonempty (Elt F e)] (p0 : Vec F S2000x128 .f32) (y : S2000x128.Idx) :
    ∃ pc ∈ ([⟨r0_0, p0⟩] : List (View.Piece (Elt F) S2000x128 .f32)), y ∈ pc.1.set :=
  ⟨_, List.mem_singleton_self _, View.mem_set_unit_zero (S := S2000x128) zeros2 inb_S2000x128_S2000x128_0_0 y⟩

/-! ## The body's triple -/

set_option maxHeartbeats 1000000 in
/-- The kernel body on whole staging memrefs, the input's at read contents x0 and the output's at anything, runs to
    the continuation holding the input's as it was and the output's at the payload of x0: the absolute value's square
    root, elementwise. -/
theorem sound_kernel [∀ e, Nonempty (Elt F e)] (c : Dev nD) (E : Set ℕ) (i : grid0.Coords)
    (arg1 : Memref sig .tc .vmem S2000x128 .f32) (harg1 : arg1.IsWhole) (arg2 : Memref sig .tc .vmem S2000x128 .f32) (harg2 : arg2.IsWhole)
    (x0 : Vec F S2000x128 .f32) (Kc : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ Kc ⟨⟩))
      ⊢ wp frame (wpE (defs₀ (F := F)) Variants.none c none) E (cc0__k1_body i arg1 harg1 arg2 harg2) Kc := by
  simp only [cc0__k1_body_eq_skeleton]; unfold cc0__k1_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (cover0_1 _), View.canon_unit_zero zeros2]
  exact congrArg k0_pay1 (View.ld_unit_zero zeros2 inb_S2000x128_S2000x128_0_0 (View.read (Elt F) arg1.view f0))

/-! ## The proof data -/

section Data

variable (V : Valuation τ sig (Elt F)) (O : CellTallies nD τ sig (HIx 2)) (W : Waits sig (HIx 2)) (d : Dev nD)

/-- The TensorCore's buffers of device d at the valuation, by reference. -/
abbrev Vr (b : Ref sig .tc) : Buf (Elt F) ((d : Thread nD τ).loc b) := V (Proc.devRef .tc b)

/-- The input array's block at point t: rows [2000 t, 2000 t + 2000). -/
def iblk0 (t : Fin cfg0.N) : ((cfg0.win 0).xblock (cfg0.grid.coords t)).Idx → Elt F (cfg0.win 0).elt :=
  ((cfg0.win 0).blk t).view.read (Elt F) (Vr V d (Pipeline.arrRef spec0 0))

/-- The proof data of pipeline 0 on device d: the two arrays as the region finds them; after the body at point t the
    input's buffer at its block and the output's at the payload of that block; the invariant the scoped buffers no
    window stages, untouched; the tallies owed and the recorded waits as the region is entered with them, throughout. -/
def dat0 : Dat τ (Elt F) (HIx 2) ℕ UU ℕ cfg0 d where
  A w := Vr V d (Pipeline.arrRef spec0 w)
  after w t := match w with
    | ⟨0, _⟩ => iblk0 V d t
    | ⟨1, _⟩ => k0_pay1 (iblk0 V d t)
  Φ _ := Pipeline.scopedRest (Ix := HIx 2) (Name := ℕ) (U := UU) (Lvl := ℕ) (Val := Elt F) spec0 d
  q _ := fullShare
  owed _ := O
  recorded _ := ↑W

theorem A_eq (w : Fin cfg0.W) : (dat0 V O W d).A w = Vr V d (Pipeline.arrRef spec0 w) := by
  dsimp only [dat0]
theorem after0_0 (t : Fin cfg0.N) : (dat0 V O W d).after 0 t = iblk0 V d t := by dsimp only [dat0]
theorem after0_1 (t : Fin cfg0.N) : (dat0 V O W d).after 1 t = k0_pay1 (iblk0 V d t) := by dsimp only [dat0]

/-- The input's current staging buffer holds its block at every point. -/
theorem before0_0 (t : Fin cfg0.N) (dd) : (dat0 V O W d).before 0 t dd = iblk0 V d t :=
  ((dat0 V O W d).before_in_eq_fetched 0 rfl (fun _ => rfl) (fun _ _ _ => rfl)
      (fun t => by rw [after0_0]; unfold Dat.blockOf iblk0; rw [A_eq]; try rfl) t dd).trans
    (by unfold Dat.fetched Dat.blockOf iblk0; rw [A_eq]; try rfl)

/-! ## The body obligation -/

/-- The body at any point: the input's memref holds its block, so the body's triple applies; the invariant and the
    core's tallies pass through unread. -/
theorem body0 [∀ e, Nonempty (Elt F e)] : BodyObligation (dat0 V O W d) (defs₀ (F := F)) Variants.none none Set.univ := fun t => by
  rw [bigSep_W0, bigSep_W0]
  simp only [before0_0]
  rw [show (dat0 V O W d).Φ t.succ = (dat0 V O W d).Φ t.castSucc from rfl,
    show (dat0 V O W d).owesAt none t.succ = (dat0 V O W d).owesAt none t.castSucc from rfl,
    after0_0, after0_1]
  iintro ⟨HΦ, Ho, ⟨%d0, H0⟩, ⟨%d1, H1⟩⟩
  iapply (sound_kernel d Set.univ (grid0.coords t) (win0_0.stage (cfg0.slots t 0)) (hstage0_0 ((cfg0.slots t 0).cast nbuf0_0))
    (win0_1.stage (cfg0.slots t 1)) (hstage0_1 ((cfg0.slots t 1).cast nbuf0_1)) (iblk0 V d t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Data

/-! ## What the region leaves in its result array -/

section Value

variable (V : Valuation τ sig (Elt F)) (O : CellTallies nD τ sig (HIx 2)) (W : Waits sig (HIx 2)) (d : Dev nD)

/-- The body's payload, elementwise. -/
theorem pay1_eq (x0 : Vec F S2000x128 .f32) : k0_pay1 x0 = sqrt (absf (x0 : FVec F S2000x128 .f32)) := by
  unfold k0_pay1; rw [shapeCast_self]

/-- The index maps, decided over the grid: at point t both windows sit at block (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the whole-array result. -/
theorem flushed1_eq (t : Fin cfg0.N) :
    (dat0 V O W d).flushed 1 t = ((cfg0.win 1).blk t).view.read (Elt F) (out0 (Vr V d main_v0)) := by
  show (cfg0.win 1).cut (grid0.coords t) ((dat0 V O W d).after 1 t) = _
  rw [after0_1, pay1_eq]
  obtain ⟨e0, e1, e2, e3⟩ := idx_facts0 t
  funext j
  show FloatOps.sqrt (FloatOps.absf (Vr V d main_v0 (((cfg0.win 0).blk t).view.emb j)))
    = FloatOps.sqrt (FloatOps.absf (Vr V d main_v0 (((cfg0.win 1).blk t).view.emb j)))
  have h0 : ((cfg0.win 0).blk t).view.emb j = ((cfg0.win 1).blk t).view.emb j := by
    funext a; apply Fin.ext
    match a with
    | ⟨0, _⟩ => show win0_0.index t (0 : Fin 2) * 2000 + 1 * (j 0).val = win0_1.index t (0 : Fin 2) * 2000 + 1 * (j 0).val; omega
    | ⟨1, _⟩ => show win0_0.index t (1 : Fin 2) * 128 + 1 * (j 1).val = win0_1.index t (1 : Fin 2) * 128 + 1 * (j 1).val; omega
  rw [h0]

/-- An index of the array is in point t's block iff each coordinate is in the block's range on its axis. -/
theorem mem_blk1 (t : Fin cfg0.N) (i : S20000x128.Idx) :
    i ∈ ((cfg0.win 1).blk t).view.set ↔ ∀ a : Fin 2, win0_1.index t a * S2000x128.size a ≤ (i a).val ∧ (i a).val < win0_1.index t a * S2000x128.size a + S2000x128.size a := by
  show i ∈ ((View.whole main_v1).slice (win0_1.rect t)).set ↔ _
  rw [View.set_slice_whole, Rect.mem_set_unit]
  exact Iff.rfl

/-- The ten blocks of 2000 rows tile the 20000 rows: row r lies in block r / 2000. -/
theorem cover1 (i : S20000x128.Idx) : ∃ t : Fin cfg0.N, (cfg0.win 1).flush t = true ∧ i ∈ ((cfg0.win 1).blk t).view.set := by
  have hi0 : (i 0).val < 20000 := (i 0).isLt
  have hi1 : (i 1).val < 128 := (i 1).isLt
  have hN : cfg0.N = 10 := N_0
  obtain ⟨t, ht⟩ : ∃ t : Fin cfg0.N, t.val = (i 0).val / 2000 := ⟨⟨(i 0).val / 2000, by omega⟩, rfl⟩
  obtain ⟨e0, e1, e2, e3⟩ := idx_facts0 t
  refine ⟨t, flush0_1 t, ?_⟩
  rw [mem_blk1]
  intro a
  match a with
  | ⟨0, _⟩ => show win0_1.index t (0 : Fin 2) * 2000 ≤ (i 0).val ∧ (i 0).val < win0_1.index t (0 : Fin 2) * 2000 + 2000; omega
  | ⟨1, _⟩ => show win0_1.index t (1 : Fin 2) * 128 ≤ (i 1).val ∧ (i 1).val < win0_1.index t (1 : Fin 2) * 128 + 128; omega

/-- The input array is never written. -/
theorem final0 : (dat0 V O W d).arrAt 0 cfg0.N = Vr V d main_v0 :=
  ((dat0 V O W d).arrAt_in 0 rfl _).trans (A_eq V O W d 0)

/-- The result array after the run: the whole-array result of the input array. -/
theorem final1 : (dat0 V O W d).arrAt 1 cfg0.N = out0 (Vr V d main_v0) :=
  (dat0 V O W d).arrAt_eq_of_cover 1 _ (fun t _ => flushed1_eq V O W d t) cover1

end Value

/-! ## The region -/

section Region

variable [∀ e, Nonempty (Elt F e)]
variable (V : Valuation τ sig (Elt F)) (O : CellTallies nD τ sig (HIx 2)) (W : Waits sig (HIx 2))

/-- Proof data of a pipeline this region does not enter: never read. -/
def junk (cfg : Pipeline.Cfg sig Λ₀) (c : Dev nD) : Dat τ (Elt F) (HIx 2) ℕ UU ℕ cfg c where
  A _ := fun _ => Classical.arbitrary _
  after _ _ := fun _ => Classical.arbitrary _
  Φ _ := iprop(emp)
  q _ := fullShare
  owed _ := 0

/-- The proof data of the three pipelines: pipeline 0's is this region's. -/
def pd : (p : Fin 3) → (c : Dev nD) → Dat τ (Elt F) (HIx 2) ℕ UU ℕ (pcf (F := F) p) c
  | 0 => fun c => dat0 V O W c
  | 1 => fun c => junk cfg2 c
  | 2 => fun c => junk cfg4 c

/-- The two arrays the region's windows stage, as device buffers. -/
def T01 : Finset (DevRef τ sig) := {Proc.devRef .tc main_v0, Proc.devRef .tc main_v1}

theorem T01_sub : T01 ⊆ Pipeline.ucRefs τ sig := by
  intro b hb
  unfold T01 at hb
  rw [Finset.mem_insert, Finset.mem_singleton] at hb
  unfold Pipeline.ucRefs
  rcases hb with rfl | rfl
  · exact Finset.mem_filter.mpr ⟨StableHlo.devRef_mem_tcRefs _, by decide⟩
  · exact Finset.mem_filter.mpr ⟨StableHlo.devRef_mem_tcRefs _, by decide⟩

theorem v0_ne_v1 : Proc.devRef (τ := τ) .tc main_v0 ≠ Proc.devRef .tc main_v1 :=
  StableHlo.devRef_ne_of_ne (by decide)

/-- The two arrays held at a valuation, one by one. -/
theorem held_T01 (c : Dev nD) (Vv : Valuation τ sig (Elt F)) : (StableHlo.held (c : Thread nD τ) T01 Vv : sProp 𝕄)
    = iprop((((c : Thread nD τ).loc main_v0) ↦{fullShare} Vv (Proc.devRef .tc main_v0))
        ∗ (((c : Thread nD τ).loc main_v1) ↦{fullShare} Vv (Proc.devRef .tc main_v1))) := by
  unfold StableHlo.held T01
  rw [BI.bigSep_insert (by rw [Finset.mem_singleton]; exact v0_ne_v1), BI.bigSep_singleton]
  rfl

/-- The windows' arrays at contents Fa, one by one. -/
theorem arrays0_eq (c : Dev nD) (Fa) : ((pd V O W 0 c).arrays Fa : sProp 𝕄)
    = iprop((((c : Thread nD τ).loc main_v0) ↦{fullShare} Fa 0) ∗ (((c : Thread nD τ).loc main_v1) ↦{fullShare} Fa 1)) := by
  rw [Pipeline.arrays_eq (pcf (F := F)) (pd V O W) 0 c arr_whole0 ((pd V O W 0 c).share_full fun _ => rfl) Fa, bigSep_W0]
  rfl

/-- The buffers that bypass the region do not see the result array's update. -/
theorem held_rest (c : Dev nD) (G) : (StableHlo.held (c : Thread nD τ) (Pipeline.ucRefs τ sig \ T01) (Function.update V (Proc.devRef .tc main_v1) G) : sProp 𝕄)
    = StableHlo.held (c : Thread nD τ) (Pipeline.ucRefs τ sig \ T01) V :=
  StableHlo.held_congr (c : Thread nD τ) fun b hb => Function.update_of_ne
    (fun e => (Finset.mem_sdiff.mp hb).2 (by rw [e]; unfold T01; exact Finset.mem_insert_of_mem (Finset.mem_singleton_self _))) _ _

/-- The windows' arrays after the last point: the input array as found, the result array at the whole-array result. -/
theorem arrays_exit (c : Dev nD) :
    ((pd V O W 0 c).arrays (fun w => (pd V O W 0 c).arrAt w (Pipeline.pin (pcfgs (F := F)) adm 0).N) : sProp 𝕄)
      = iprop((((c : Thread nD τ).loc main_v0) ↦{fullShare} V (Proc.devRef .tc main_v0))
          ∗ (((c : Thread nD τ).loc main_v1) ↦{fullShare} out0 (V (Proc.devRef .tc main_v0)))) := by
  rw [arrays0_eq]
  show iprop((_ ↦{fullShare} (dat0 V O W c).arrAt 0 cfg0.N) ∗ (_ ↦{fullShare} (dat0 V O W c).arrAt 1 cfg0.N)) = _
  rw [final0, final1]

/-- No pipeline has a prefetched table. -/
theorem bigSep_Fin0 {M : Type} [URA M] (Φ : Fin 0 → sProp M) : bigSep Finset.univ Φ = (BI.emp : sProp M) :=
  bigSep_univ_eq_bigSepL [] (by decide) (by decide) Φ
theorem prefHeld0 (c : Dev nD) (q) (pf) : (Pipeline.prefHeld (Ix := HIx 2) (Name := ℕ) (U := UU) (Lvl := ℕ) (Val := Elt F) (pcfgs (F := F) 0).pre c q pf : sProp 𝕄) = BI.emp :=
  bigSep_Fin0 _

/-- REGION 0: entered holding the TensorCore's unscoped buffers at V and the core's tallies; the two windows' arrays go to
    the pipeline, every other buffer bypasses it; it leaves the result array at the whole-array result of the input array. -/
def reg0 (hO : ∀ (g : GSem nD τ sig) (i : HIx 2), 0 < O g i → i ∈ (K (F := F)).L g ∧ 0 < (K (F := F)).lev g i) :
    Pipeline.RegionSeg (pcfgs (F := F)) adm (pd V O W) (none : HIx 2) defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body0 V O W c).loose
  hwaits c := Pipeline.cellsWaits_of_cut (cfgs := pcf (F := F)) (dats := pd V O W) (ι := (none : HIx 2)) 0 c 0 O (fun _ => rfl)
    (fun _ _ => Finset.mem_univ _) (fun _ _ => le_rfl) hO
  pre c := iprop(StableHlo.held (c : Thread nD τ) (Pipeline.ucRefs τ sig) V ∗ owes (c : Thread nD τ) O W)
  post c := iprop(StableHlo.held (c : Thread nD τ) (Pipeline.ucRefs τ sig) (Function.update V (Proc.devRef .tc main_v1) (out0 (V (Proc.devRef .tc main_v0))))
    ∗ ∃ W', ⌜∀ p ∈ W', p ∈ W ∨ p.2 = none⌝ ∗ owes (c : Thread nD τ) O W')
  X _ := iprop(emp)
  Y _ := iprop(emp)
  Z c := StableHlo.held (c : Thread nD τ) (Pipeline.ucRefs τ sig \ T01) V
  hentry c := by
    rw [Pipeline.ownSems0_none, prefHeld0, arrays0_eq, StableHlo.held_sub_split (c : Thread nD τ) T01_sub V, held_T01]
    iintro ⟨⟨⟨⟨H0, H1⟩, HZ⟩, HO⟩, -, -⟩
    imodintro
    isplitl [H0 H1]
    · isplitl [H0]; · iexact H0
      iexact H1
    isplitr; · iempintro
    isplitl [HO]
    · iexists W; isplitr
      · ipureintro; exact fun x hx => Or.inl hx
      iexact HO
    isplitr; · iempintro
    iexact HZ
  hin c := by
    show iprop(emp ∗ _ ∗ Pipeline.scopedRest (Ix := HIx 2) (Name := ℕ) (U := UU) (Lvl := ℕ) (Val := Elt F) spec0 c)
      ⊢ Pipeline.scopedRest (Ix := HIx 2) (Name := ℕ) (U := UU) (Lvl := ℕ) (Val := Elt F) spec0 c
    iintro ⟨-, -, H⟩; iexact H
  hout c := by
    rw [Pipeline.ownSems0_none]
    show Pipeline.scopedRest (Ix := HIx 2) (Name := ℕ) (U := UU) (Lvl := ℕ) (Val := Elt F) spec0 c
      ⊢ iprop(emp ∗ emp ∗ Pipeline.scopedRest (Ix := HIx 2) (Name := ℕ) (U := UU) (Lvl := ℕ) (Val := Elt F) spec0 c)
    iintro H
    isplitr; · iempintro
    isplitr; · iempintro
    iexact H
  hexit c := by
    rw [arrays_exit, StableHlo.held_sub_split (c : Thread nD τ) T01_sub (Function.update V (Proc.devRef .tc main_v1) (out0 (V (Proc.devRef .tc main_v0)))),
      held_T01, Function.update_self, Function.update_of_ne v0_ne_v1, held_rest]
    iintro ⟨⟨H0, H1⟩, ⟨%W', %hW', HO⟩, -, HZ⟩
    imodintro
    isplitl [H0 H1 HZ]
    · isplitl [H0 H1]
      · isplitl [H0]; · iexact H0
        iexact H1
      iexact HZ
    iexists W'; isplitr
    · ipureintro
      intro p hp
      rcases hW' hp with h | ⟨w, s, rfl⟩
      · exact Or.inl h
      · exact Or.inr rfl
    iexact HO

end Region

end R0

section Region0

/-- REGION 0 of @main on device d: from the region boundary, the TensorCore's unscoped buffers at V, the core's tallies, the
    level facts and pipeline 0's ghost state, the custom call runs to the boundary, the buffers at V with the result array
    main_v1 at the elementwise square root of the absolute value of main_v0, and the tallies unchanged, for the continuation. -/
theorem region0 [∀ e, Nonempty (Elt F e)] (d : Dev nD) (V : Valuation τ sig (Elt F)) (O : CellTallies nD τ sig (HIx 2)) (W : Waits sig (HIx 2))
    (hO : ∀ (g : GSem nD τ sig) (i : HIx 2), 0 < O g i → i ∈ (K (F := F)).L g ∧ 0 < (K (F := F)).lev g i)
    {α : Type} (k : PUnit → Prog (TpuEff nD τ sig (Elt F) (ΛP (F := F)) .tc) α) (Q : α → sProp 𝕄) :
    iprop((iprop(boundary (SparseCore.T d) ∗ StableHlo.held (SparseCore.T d) (Pipeline.ucRefs τ sig) (Function.update V (Proc.devRef .tc main_v1) (out0 (V (Proc.devRef .tc main_v0))))
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ StableHlo.held (SparseCore.T d) (Pipeline.ucRefs τ sig) V ∗ owes (SparseCore.T d) O W
        ∗ levAts (K (F := F)).L (K (F := F)).lev
        ∗ Pipeline.cellsGhost (pcf (F := F)) EP 0 d ∗ Pipeline.toksInit (pcf (F := F)) EP 0 d)
      ⊢ wp frame (wpE (D (F := F)) 𝒱 (SparseCore.T d) none) Set.univ (.op (.customCall (Pipeline.entry 0) ()) k) Q := by
  have h := Pipeline.RegionSeg.wp (pcfgs (F := F)) adm (R0.pd V O W) (none : HIx 2) pcf_inj EP defs₀ 𝒱₀ (K (F := F)).L (K (F := F)).lev
    (R0.reg0 V O W hO) d none (fun u hu => nomatch hu) k Q
  dsimp only [R0.reg0] at h
  iintro ⟨Hk, Hb, Hh, HO, Hl, Hg, Ht⟩
  iapply h
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region0

end Cert.Kernel.Hand

end
-- ==== Proof.Bits.Region1.lean ====
/-
  Region 1 of @main: the second TensorCore pipeline (fifty points; per point one block of 400 nodes: the 6400 gathered
  neighbour rows of those nodes, their 400×16×16 bond block, their 400 root rows, and, fetched once, the 128×128 node
  weight and the 1×128 bias row). Its body loads the five input blocks whole and stores, over the whole 1×400×128 result
  block, one payload of them: per node the neighbour rows weighted by the normalised inverse squared bond lengths and
  summed, times the root row, through the weight matrix, plus the bias, clamped below at zero. Here: the result array as
  one function of the five operand arrays (res1: at each index, the payload of the blocks of the point whose block holds
  that index), the body's triple, the pipeline's proof data (every input's block found at every point, fetched there or
  not; the payload left in the result's buffer; the scoped buffers no window stages as the invariant; the tallies the core
  owes carried unchanged), that the fifty result blocks tile the result array and each written block is the block of res1,
  and the region's rule: from the region boundary and the TensorCore's unscoped buffers at a valuation V, the call runs to
  the boundary and the buffers at V with the result array at res1 V.
-/
import proofs.«208461_g52518860095779_cont_9to1_m_1075_29_alg».proof.Proof.Bits.Common
import Idealize.ShloMosaic.Lib.Pipeline.Frame
import Idealize.ShloMosaic.Lib.Pipeline.FrameBody
import Idealize.ShloMosaic.Lib.Pipeline.Value

set_option maxRecDepth 16384

noncomputable section

namespace Cert.Kernel.Hand

open Cert.Kernel Cert.Kernel.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

namespace R1

/-! ## The region's value -/

/-- Window `w`'s block of its array at point `t`, the array read off the valuation. -/
def iblk (V : Valuation τ sig (Elt F)) (w : Fin cfg2.W) (t : Fin cfg2.N) :
    ((cfg2.win w).xblock (cfg2.grid.coords t)).Idx → Elt F (cfg2.win w).elt :=
  ((cfg2.win w).blk t).view.read (Elt F) (V (Proc.devRef .tc (Pipeline.arrRef spec2 w)))

/-- What the body leaves in the result window's block, from the five input blocks: its one covering store's payload. -/
def out5 (x0 : Vec F S6400x128 .f32) (x1 : Vec F S1x400x16x16 .f32) (x2 : Vec F S400x128 .f32) (x3 : Vec F S128x128 .f32)
    (x4 : Vec F S1x128 .f32) : Vec F S1x400x128 .f32 :=
  k2_pay1 x0 x1 x2 x3 x4

/-- The result block at point `t`. -/
def oblk (V : Valuation τ sig (Elt F)) (t : Fin cfg2.N) : Vec F S1x400x128 .f32 :=
  out5 (iblk V 0 t) (iblk V 1 t) (iblk V 2 t) (iblk V 3 t) (iblk V 4 t)

/-- The grid point whose block holds row `(j 0, j 1)` of the result: 25 blocks of 400 rows per batch element. -/
def ptOf (j : S2x10000x128.Idx) : Fin cfg2.N :=
  ⟨(j 0).val * 25 + (j 1).val / 400, by
    have h0 : (j 0).val < 2 := (j 0).isLt
    have h1 : (j 1).val < 10000 := (j 1).isLt
    rw [show cfg2.N = 50 from N_2]; omega⟩

/-- The index of `j` inside that block: row `j 1 % 400`, lane `j 2`. -/
def locOf (j : S2x10000x128.Idx) : S1x400x128.Idx :=
  ValueIdx.ix3 (0 : Fin 1) (⟨(j 1).val % 400, Nat.mod_lt _ (by decide)⟩ : Fin 400) (⟨(j 2).val, (j 2).isLt⟩ : Fin 128)

end R1

/-- The region's result array: at each index, the result block of the point that covers it, read at the index inside
    the block. -/
def res1 (V : Valuation τ sig (Elt F)) : S2x10000x128.Idx → Elt F .f32 := fun j =>
  R1.oblk V (R1.ptOf j) (R1.locOf j)

/-- The valuation after the region: the result array rewritten, everything else as it was. -/
def upd1 (V : Valuation τ sig (Elt F)) : Valuation τ sig (Elt F) :=
  Function.update V (Proc.devRef .tc main_v11) (res1 V)

namespace R1

/-! ## The proof data -/

section Data

variable [∀ e, Nonempty (Elt F e)]
variable (V : Valuation τ sig (Elt F)) (O : CellTallies nD τ sig (HIx 2)) (W : Waits sig (HIx 2))

/-- The region's proof data on core `c`: the six arrays as the valuation has them; after the body at point `t` each
    input's buffer still at its block and the result's at the body's payload over the five blocks; the invariant is
    the scoped buffers no window stages, untouched; the core goes on owing what it owed, its recorded waits those it
    came with. -/
def dat1 (c : Dev nD) : Dat τ (Elt F) (HIx 2) ℕ UU ℕ cfg2 c where
  A w := V (Proc.devRef .tc (Pipeline.arrRef spec2 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => oblk V t
  Φ _ := Pipeline.scopedRest spec2 c
  q _ := fullShare
  owed _ := O
  recorded _ := ↑W

theorem A1_eq (c : Dev nD) (w : Fin cfg2.W) : (dat1 V O W c).A w = V (Proc.devRef .tc (Pipeline.arrRef spec2 w)) := by
  dsimp only [dat1]

theorem after1_0 (c : Dev nD) (t : Fin cfg2.N) : (dat1 V O W c).after 0 t = iblk V 0 t := by dsimp only [dat1]
theorem after1_1 (c : Dev nD) (t : Fin cfg2.N) : (dat1 V O W c).after 1 t = iblk V 1 t := by dsimp only [dat1]
theorem after1_2 (c : Dev nD) (t : Fin cfg2.N) : (dat1 V O W c).after 2 t = iblk V 2 t := by dsimp only [dat1]
theorem after1_3 (c : Dev nD) (t : Fin cfg2.N) : (dat1 V O W c).after 3 t = iblk V 3 t := by dsimp only [dat1]
theorem after1_4 (c : Dev nD) (t : Fin cfg2.N) : (dat1 V O W c).after 4 t = iblk V 4 t := by dsimp only [dat1]
theorem after1_5 (c : Dev nD) (t : Fin cfg2.N) : (dat1 V O W c).after 5 t = oblk V t := by dsimp only [dat1]

/-- An input's current staging buffer holds its block at every point, fetched there or not: where the pipeline does
    not fetch, the block index has not moved and the body left the block in place. -/
theorem before1_0 (c : Dev nD) (t : Fin cfg2.N) (d) : (dat1 V O W c).before 0 t d = iblk V 0 t :=
  ((dat1 V O W c).before_in_eq_fetched 0 rfl (fun _ => rfl) (fun _ _ _ => rfl)
      (fun t => by rw [after1_0]; unfold Dat.blockOf iblk; rw [A1_eq]; try rfl) t d).trans
    (by unfold Dat.fetched Dat.blockOf iblk; rw [A1_eq]; try rfl)
theorem before1_1 (c : Dev nD) (t : Fin cfg2.N) (d) : (dat1 V O W c).before 1 t d = iblk V 1 t :=
  ((dat1 V O W c).before_in_eq_fetched 1 rfl (fun _ => rfl) (fun _ _ _ => rfl)
      (fun t => by rw [after1_1]; unfold Dat.blockOf iblk; rw [A1_eq]; try rfl) t d).trans
    (by unfold Dat.fetched Dat.blockOf iblk; rw [A1_eq]; try rfl)
theorem before1_2 (c : Dev nD) (t : Fin cfg2.N) (d) : (dat1 V O W c).before 2 t d = iblk V 2 t :=
  ((dat1 V O W c).before_in_eq_fetched 2 rfl (fun _ => rfl) (fun _ _ _ => rfl)
      (fun t => by rw [after1_2]; unfold Dat.blockOf iblk; rw [A1_eq]; try rfl) t d).trans
    (by unfold Dat.fetched Dat.blockOf iblk; rw [A1_eq]; try rfl)
theorem before1_3 (c : Dev nD) (t : Fin cfg2.N) (d) : (dat1 V O W c).before 3 t d = iblk V 3 t :=
  ((dat1 V O W c).before_in_eq_fetched 3 rfl (fun _ => rfl) (fun _ _ _ => rfl)
      (fun t => by rw [after1_3]; unfold Dat.blockOf iblk; rw [A1_eq]; try rfl) t d).trans
    (by unfold Dat.fetched Dat.blockOf iblk; rw [A1_eq]; try rfl)
theorem before1_4 (c : Dev nD) (t : Fin cfg2.N) (d) : (dat1 V O W c).before 4 t d = iblk V 4 t :=
  ((dat1 V O W c).before_in_eq_fetched 4 rfl (fun _ => rfl) (fun _ _ _ => rfl)
      (fun t => by rw [after1_4]; unfold Dat.blockOf iblk; rw [A1_eq]; try rfl) t d).trans
    (by unfold Dat.fetched Dat.blockOf iblk; rw [A1_eq]; try rfl)

end Data

/-! ## The body's triple -/

section Kernel

variable [∀ e, Nonempty (Elt F e)]

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- The rectangle of the body's one store: the whole result block. -/
abbrev r1_5 : Rect S1x400x128 := Rect.unit (s := S1x400x128) ![0, 0, 0] S1x400x128.size inb_S1x400x128_S1x400x128_0_0_0

/-- It covers the block. -/
theorem cover1_5 (p0 : Vec F S1x400x128 .f32) (y : S1x400x128.Idx) :
    ∃ pc ∈ ([⟨r1_5, p0⟩] : List (View.Piece (Elt F) S1x400x128 .f32)), y ∈ pc.1.set :=
  ⟨_, List.mem_singleton_self _, View.mem_set_unit_zero hz3 inb_S1x400x128_S1x400x128_0_0_0 y⟩

set_option maxHeartbeats 1000000 in
/-- The kernel body on whole staging memrefs, the five inputs' at read contents `x0 … x4` and the result's at anything,
    runs to the continuation holding the inputs' as they were and the result's at the payload of the five: the body
    loads each input whole, and its one store covers the result block. -/
theorem sound_kernel1 (c : Dev nD) (E : Set ℕ) (i : grid2.Coords)
    (arg1 : Memref sig .tc .vmem S6400x128 .f32) (harg1 : arg1.IsWhole) (arg2 : Memref sig .tc .vmem S1x400x16x16 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x400x128 .f32) (harg6 : arg6.IsWhole)
    (x0 : Vec F S6400x128 .f32) (x1 : Vec F S1x400x16x16 .f32) (x2 : Vec F S400x128 .f32) (x3 : Vec F S128x128 .f32) (x4 : Vec F S1x128 .f32)
    (Kc : PUnit → sProp 𝕄) :
    iprop(owns (c.tc : Thread nD τ) arg1 fullShare x0 ∗ owns (c.tc : Thread nD τ) arg2 fullShare x1 ∗ owns (c.tc : Thread nD τ) arg3 fullShare x2
        ∗ owns (c.tc : Thread nD τ) arg4 fullShare x3 ∗ owns (c.tc : Thread nD τ) arg5 fullShare x4 ∗ (∃ d, owns (c.tc : Thread nD τ) arg6 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare x3 ∗ owns (c.tc : Thread nD τ) arg5 fullShare x4
            ∗ owns (c.tc : Thread nD τ) arg6 fullShare (out5 x0 x1 x2 x3 x4)) -∗ Kc ⟨⟩))
      ⊢ wp frame (wpE (defs₀ (F := F)) Variants.none (c.tc : Thread nD τ) none) E
          (cc2__k3_body i arg1 harg1 arg2 harg2 arg3 harg3 arg4 harg4 arg5 harg5 arg6 harg6) Kc := by
  simp only [cc2__k3_body_eq_skeleton]; unfold cc2__k3_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rw [View.canon_unit_zero hz3]
  have e0 : View.readAt (Elt F) arg1.view (Rect.unit ![0, 0] S6400x128.size inb_S6400x128_S6400x128_0_0).toLoadRect f0
      = View.read (Elt F) arg1.view f0 := View.ld_unit_zero hz2 _ _
  have e1 : View.readAt (Elt F) arg2.view (Rect.unit ![0, 0, 0, 0] S1x400x16x16.size inb_S1x400x16x16_S1x400x16x16_0_0_0_0).toLoadRect f1
      = View.read (Elt F) arg2.view f1 := View.ld_unit_zero hz4 _ _
  have e2 : View.readAt (Elt F) arg3.view (Rect.unit ![0, 0] S400x128.size inb_S400x128_S400x128_0_0).toLoadRect f2
      = View.read (Elt F) arg3.view f2 := View.ld_unit_zero hz2 _ _
  have e3 : View.readAt (Elt F) arg4.view (Rect.unit ![0, 0] S128x128.size inb_S128x128_S128x128_0_0).toLoadRect f3
      = View.read (Elt F) arg4.view f3 := View.ld_unit_zero hz2 _ _
  have e4 : View.readAt (Elt F) arg5.view (Rect.unit ![0, 0] S1x128.size inb_S1x128_S1x128_0_0).toLoadRect f4
      = View.read (Elt F) arg5.view f4 := View.ld_unit_zero hz2 _ _
  rw [e0, e1, e2, e3, e4]
  rfl

end Kernel

/-! ## The body obligation -/

section Obligation

variable [∀ e, Nonempty (Elt F e)]
variable (V : Valuation τ sig (Elt F)) (O : CellTallies nD τ sig (HIx 2)) (W : Waits sig (HIx 2))

/-- What the body is called with at point `t`, the windows one by one, -/
def bodyPre1 (c : Dev nD) (t : Fin cfg2.N) : sProp 𝕄 :=
  iprop((dat1 V O W c).Φ t.castSucc ∗ (dat1 V O W c).owesAt none t.castSucc
    ∗ (∃ d, owns (c.tc : Thread nD τ) (st2_0 t) fullShare ((dat1 V O W c).before 0 t d))
    ∗ (∃ d, owns (c.tc : Thread nD τ) (st2_1 t) fullShare ((dat1 V O W c).before 1 t d))
    ∗ (∃ d, owns (c.tc : Thread nD τ) (st2_2 t) fullShare ((dat1 V O W c).before 2 t d))
    ∗ (∃ d, owns (c.tc : Thread nD τ) (st2_3 t) fullShare ((dat1 V O W c).before 3 t d))
    ∗ (∃ d, owns (c.tc : Thread nD τ) (st2_4 t) fullShare ((dat1 V O W c).before 4 t d))
    ∗ (∃ d, owns (c.tc : Thread nD τ) (st2_5 t) fullShare ((dat1 V O W c).before 5 t d)))

/-- and what it returns. -/
def bodyPost1 (c : Dev nD) (t : Fin cfg2.N) : sProp 𝕄 :=
  iprop((dat1 V O W c).Φ t.succ ∗ (dat1 V O W c).owesAt none t.succ
    ∗ owns (c.tc : Thread nD τ) (st2_0 t) fullShare ((dat1 V O W c).after 0 t)
    ∗ owns (c.tc : Thread nD τ) (st2_1 t) fullShare ((dat1 V O W c).after 1 t)
    ∗ owns (c.tc : Thread nD τ) (st2_2 t) fullShare ((dat1 V O W c).after 2 t)
    ∗ owns (c.tc : Thread nD τ) (st2_3 t) fullShare ((dat1 V O W c).after 3 t)
    ∗ owns (c.tc : Thread nD τ) (st2_4 t) fullShare ((dat1 V O W c).after 4 t)
    ∗ owns (c.tc : Thread nD τ) (st2_5 t) fullShare ((dat1 V O W c).after 5 t))

/-- The body at any point: the inputs' memrefs hold their blocks, so the kernel's triple applies; the invariant and
    the core's tallies pass through unread. -/
theorem sound_body1 (c : Dev nD) (t : Fin cfg2.N) :
    bodyPre1 V O W c t ⊢ wp frame (wpE (defs₀ (F := F)) Variants.none (c.tc : Thread nD τ) none) Set.univ (bodyAt2 t) (fun _ => bodyPost1 V O W c t) := by
  unfold bodyPre1 bodyPost1 bodyAt2
  simp only [before1_0, before1_1, before1_2, before1_3, before1_4]
  rw [show (dat1 V O W c).Φ t.succ = (dat1 V O W c).Φ t.castSucc from rfl,
    show (dat1 V O W c).owesAt none t.succ = (dat1 V O W c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk V 0 t) (iblk V 1 t) (iblk V 2 t) (iblk V 3 t) (iblk V 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V O W c) (defs₀ (F := F)) Variants.none none Set.univ := fun t => by
  rw [bigSep_W2, bigSep_W2]
  exact sound_body1 V O W c t

end Obligation

/-! ## What the region leaves in its result array -/

section Value

variable [∀ e, Nonempty (Elt F e)]
variable (V : Valuation τ sig (Elt F)) (O : CellTallies nD τ sig (HIx 2)) (W : Waits sig (HIx 2))

/-- The result window's block index at point `t`: batch element `t / 25`, row block `t % 25`. -/
theorem idx5 : ∀ t : Fin grid2.N, cc2_transform_5 (grid2.coords t) = ![t.val / 25, t.val % 25, 0] := by decide +kernel

/-- Where an element of the result block at point `t` sits in the result array, on each axis: the block index times the
    block's extent plus the element's own coordinate. -/
theorem emb5_val (t : Fin cfg2.N) (y : S1x400x128.Idx) (a : Fin 3) :
    ((((cfg2.win 5).blk t).view.emb y) a : Nat) = (![t.val / 25, t.val % 25, 0] : Fin 3 → Nat) a * S1x400x128.size a + (y a : Nat) := by
  show ((((cfg2.win 5).rect t).emb y) a : Nat) = _
  rw [Window.rect_emb_val]
  show cc2_transform_5 (grid2.coords t) a * _ + _ = _
  rw [idx5 t]

theorem emb5_0 (t : Fin cfg2.N) (y : S1x400x128.Idx) : ((((cfg2.win 5).blk t).view.emb y) (0 : Fin 3) : Nat) = t.val / 25 := by
  have h : ((((cfg2.win 5).blk t).view.emb y) (0 : Fin 3) : Nat) = t.val / 25 * 1 + (y (0 : Fin 3) : Nat) := emb5_val t y 0
  have hy : (y (0 : Fin 3) : Nat) < 1 := (y (0 : Fin 3)).isLt
  omega
theorem emb5_1 (t : Fin cfg2.N) (y : S1x400x128.Idx) : ((((cfg2.win 5).blk t).view.emb y) (1 : Fin 3) : Nat) = t.val % 25 * 400 + (y (1 : Fin 3) : Nat) :=
  emb5_val t y 1
theorem emb5_2 (t : Fin cfg2.N) (y : S1x400x128.Idx) : ((((cfg2.win 5).blk t).view.emb y) (2 : Fin 3) : Nat) = (y (2 : Fin 3) : Nat) := by
  have h : ((((cfg2.win 5).blk t).view.emb y) (2 : Fin 3) : Nat) = 0 * 128 + (y (2 : Fin 3) : Nat) := emb5_val t y 2
  omega

/-- The result array read at an element of point `t`'s block is the result block of `t` at that element: the element's
    row lies in batch element `t / 25`, row block `t % 25`, so its point is `t` and its index in the block its own. -/
theorem res1_emb (t : Fin cfg2.N) (y : S1x400x128.Idx) : res1 V (((cfg2.win 5).blk t).view.emb y) = oblk V t y := by
  have hN : cfg2.N = 50 := N_2
  have ht : t.val < 50 := hN ▸ t.isLt
  have hy1 : (y (1 : Fin 3) : Nat) < 400 := (y (1 : Fin 3)).isLt
  have hp : ptOf (((cfg2.win 5).blk t).view.emb y) = t := by
    apply Fin.ext
    show ((((cfg2.win 5).blk t).view.emb y) (0 : Fin 3) : Nat) * 25 + ((((cfg2.win 5).blk t).view.emb y) (1 : Fin 3) : Nat) / 400 = t.val
    rw [emb5_0, emb5_1]; omega
  have hl : locOf (((cfg2.win 5).blk t).view.emb y) = y := by
    funext a; apply Fin.ext
    match a with
    | ⟨0, _⟩ =>
      show (0 : Nat) = (y (0 : Fin 3) : Nat)
      have : (y (0 : Fin 3) : Nat) < 1 := (y (0 : Fin 3)).isLt
      omega
    | ⟨1, _⟩ =>
      show ((((cfg2.win 5).blk t).view.emb y) (1 : Fin 3) : Nat) % 400 = (y (1 : Fin 3) : Nat)
      rw [emb5_1]; omega
    | ⟨2, _⟩ =>
      show ((((cfg2.win 5).blk t).view.emb y) (2 : Fin 3) : Nat) = (y (2 : Fin 3) : Nat)
      exact emb5_2 t y
  show oblk V (ptOf (((cfg2.win 5).blk t).view.emb y)) (locOf (((cfg2.win 5).blk t).view.emb y)) = oblk V t y
  rw [hp, hl]

/-- What point `t` writes back is block `t` of the result array. -/
theorem flushed5_eq (c : Dev nD) (t : Fin cfg2.N) :
    (dat1 V O W c).flushed 5 t = ((cfg2.win 5).blk t).view.read (Elt F) (res1 V) := by
  show (cfg2.win 5).cut (grid2.coords t) ((dat1 V O W c).after 5 t) = _
  rw [after1_5]
  funext y
  show oblk V t y = res1 V (((cfg2.win 5).blk t).view.emb y)
  exact (res1_emb V t y).symm

/-- The fifty blocks of 400 rows tile the 2 × 10000 rows: row `(b, r)` lies in the block of point `25 b + r / 400`. -/
theorem cover5 (i : S2x10000x128.Idx) : ∃ t : Fin cfg2.N, (cfg2.win 5).flush t = true ∧ i ∈ ((cfg2.win 5).blk t).view.set := by
  have hi0 : (i (0 : Fin 3) : Nat) < 2 := (i (0 : Fin 3)).isLt
  have hi1 : (i (1 : Fin 3) : Nat) < 10000 := (i (1 : Fin 3)).isLt
  refine ⟨ptOf i, flush2_5 _, ?_⟩
  have he : ((cfg2.win 5).blk (ptOf i)).view.emb (locOf i) = i := by
    funext a; apply Fin.ext
    match a with
    | ⟨0, _⟩ =>
      show ((((cfg2.win 5).blk (ptOf i)).view.emb (locOf i)) (0 : Fin 3) : Nat) = (i (0 : Fin 3) : Nat)
      rw [emb5_0]
      show ((i (0 : Fin 3) : Nat) * 25 + (i (1 : Fin 3) : Nat) / 400) / 25 = (i (0 : Fin 3) : Nat)
      omega
    | ⟨1, _⟩ =>
      show ((((cfg2.win 5).blk (ptOf i)).view.emb (locOf i)) (1 : Fin 3) : Nat) = (i (1 : Fin 3) : Nat)
      rw [emb5_1]
      show ((i (0 : Fin 3) : Nat) * 25 + (i (1 : Fin 3) : Nat) / 400) % 25 * 400 + (i (1 : Fin 3) : Nat) % 400 = (i (1 : Fin 3) : Nat)
      omega
    | ⟨2, _⟩ =>
      show ((((cfg2.win 5).blk (ptOf i)).view.emb (locOf i)) (2 : Fin 3) : Nat) = (i (2 : Fin 3) : Nat)
      rw [emb5_2]
      rfl
  have hm := ((cfg2.win 5).blk (ptOf i)).view.emb_mem_set (locOf i)
  rw [he] at hm
  exact hm

/-- An input array is never written. -/
theorem final_in (c : Dev nD) (w : Fin cfg2.W) (hw : (cfg2.win w).isOut = false) :
    (dat1 V O W c).arrAt w cfg2.N = V (Proc.devRef .tc (Pipeline.arrRef spec2 w)) :=
  ((dat1 V O W c).arrAt_in w hw _).trans (A1_eq V O W c w)

/-- The result array after the run. -/
theorem final5 (c : Dev nD) : (dat1 V O W c).arrAt 5 cfg2.N = res1 V :=
  (dat1 V O W c).arrAt_eq_of_cover 5 _ (fun t _ => flushed5_eq V O W c t) cover5

end Value

/-! ## The region -/

section Region

variable [∀ e, Nonempty (Elt F e)]
variable (V : Valuation τ sig (Elt F)) (O : CellTallies nD τ sig (HIx 2)) (W : Waits sig (HIx 2))

/-- Proof data of a pipeline this region does not enter: never read. -/
def junk (cfg : Pipeline.Cfg sig Λ₀) (c : Dev nD) : Dat τ (Elt F) (HIx 2) ℕ UU ℕ cfg c where
  A _ := fun _ => Classical.arbitrary _
  after _ _ := fun _ => Classical.arbitrary _
  Φ _ := iprop(emp)
  q _ := fullShare
  owed _ := 0

/-- The proof data of the three pipelines: pipeline 1's is this region's. -/
def pd : (p : Fin 3) → (c : Dev nD) → Dat τ (Elt F) (HIx 2) ℕ UU ℕ (pcf (F := F) p) c
  | 0 => fun c => junk cfg0 c
  | 1 => fun c => dat1 V O W c
  | 2 => fun c => junk cfg4 c

/-- The six arrays the region's windows stage, as device buffers. -/
abbrev b0 : DevRef τ sig := Proc.devRef .tc main_v9
abbrev b1 : DevRef τ sig := Proc.devRef .tc main_arg1
abbrev b2 : DevRef τ sig := Proc.devRef .tc main_v1
abbrev b3 : DevRef τ sig := Proc.devRef .tc main_arg4
abbrev b4 : DevRef τ sig := Proc.devRef .tc main_v10
abbrev b5 : DevRef τ sig := Proc.devRef .tc main_v11
def T6 : Finset (DevRef τ sig) := {b0, b1, b2, b3, b4, b5}

theorem T6_sub : T6 ⊆ Pipeline.ucRefs τ sig := by
  intro b hb
  unfold T6 at hb
  simp only [Finset.mem_insert, Finset.mem_singleton] at hb
  unfold Pipeline.ucRefs
  rcases hb with rfl | rfl | rfl | rfl | rfl | rfl <;>
    exact Finset.mem_filter.mpr ⟨StableHlo.devRef_mem_tcRefs _, by decide⟩

theorem b5_mem : b5 ∈ T6 := by
  unfold T6; simp only [Finset.mem_insert, Finset.mem_singleton, or_true, true_or]

/-- They are six distinct buffers. -/
theorem ne01 : b0 ≠ b1 := StableHlo.devRef_ne_of_ne (by decide)
theorem ne02 : b0 ≠ b2 := StableHlo.devRef_ne_of_ne (by decide)
theorem ne03 : b0 ≠ b3 := StableHlo.devRef_ne_of_ne (by decide)
theorem ne04 : b0 ≠ b4 := StableHlo.devRef_ne_of_ne (by decide)
theorem ne05 : b0 ≠ b5 := StableHlo.devRef_ne_of_ne (by decide)
theorem ne12 : b1 ≠ b2 := StableHlo.devRef_ne_of_ne (by decide)
theorem ne13 : b1 ≠ b3 := StableHlo.devRef_ne_of_ne (by decide)
theorem ne14 : b1 ≠ b4 := StableHlo.devRef_ne_of_ne (by decide)
theorem ne15 : b1 ≠ b5 := StableHlo.devRef_ne_of_ne (by decide)
theorem ne23 : b2 ≠ b3 := StableHlo.devRef_ne_of_ne (by decide)
theorem ne24 : b2 ≠ b4 := StableHlo.devRef_ne_of_ne (by decide)
theorem ne25 : b2 ≠ b5 := StableHlo.devRef_ne_of_ne (by decide)
theorem ne34 : b3 ≠ b4 := StableHlo.devRef_ne_of_ne (by decide)
theorem ne35 : b3 ≠ b5 := StableHlo.devRef_ne_of_ne (by decide)
theorem ne45 : b4 ≠ b5 := StableHlo.devRef_ne_of_ne (by decide)

/-- The six arrays held at a valuation, one by one. -/
theorem held_T6 (c : Dev nD) (Vv : Valuation τ sig (Elt F)) : (StableHlo.held (c.tc : Thread nD τ) T6 Vv : sProp 𝕄)
    = iprop((((c.tc : Thread nD τ).loc main_v9) ↦{fullShare} Vv b0) ∗ (((c.tc : Thread nD τ).loc main_arg1) ↦{fullShare} Vv b1)
        ∗ (((c.tc : Thread nD τ).loc main_v1) ↦{fullShare} Vv b2) ∗ (((c.tc : Thread nD τ).loc main_arg4) ↦{fullShare} Vv b3)
        ∗ (((c.tc : Thread nD τ).loc main_v10) ↦{fullShare} Vv b4) ∗ (((c.tc : Thread nD τ).loc main_v11) ↦{fullShare} Vv b5)) := by
  unfold StableHlo.held T6
  rw [BI.bigSep_insert (by simp only [Finset.mem_insert, Finset.mem_singleton, not_or]; exact ⟨ne01, ne02, ne03, ne04, ne05⟩),
    BI.bigSep_insert (by simp only [Finset.mem_insert, Finset.mem_singleton, not_or]; exact ⟨ne12, ne13, ne14, ne15⟩),
    BI.bigSep_insert (by simp only [Finset.mem_insert, Finset.mem_singleton, not_or]; exact ⟨ne23, ne24, ne25⟩),
    BI.bigSep_insert (by simp only [Finset.mem_insert, Finset.mem_singleton, not_or]; exact ⟨ne34, ne35⟩),
    BI.bigSep_insert (by rw [Finset.mem_singleton]; exact ne45), BI.bigSep_singleton]
  rfl

/-- The windows' arrays at contents `Fa`, one by one. -/
theorem arrays1_eq (c : Dev nD) (Fa) : ((pd V O W 1 c).arrays Fa : sProp 𝕄)
    = iprop((((c.tc : Thread nD τ).loc main_v9) ↦{fullShare} Fa 0) ∗ (((c.tc : Thread nD τ).loc main_arg1) ↦{fullShare} Fa 1)
        ∗ (((c.tc : Thread nD τ).loc main_v1) ↦{fullShare} Fa 2) ∗ (((c.tc : Thread nD τ).loc main_arg4) ↦{fullShare} Fa 3)
        ∗ (((c.tc : Thread nD τ).loc main_v10) ↦{fullShare} Fa 4) ∗ (((c.tc : Thread nD τ).loc main_v11) ↦{fullShare} Fa 5)) := by
  rw [Pipeline.arrays_eq (pcf (F := F)) (pd V O W) 1 c arr_whole2 ((pd V O W 1 c).share_full fun _ => rfl) Fa, bigSep_W2]
  rfl

/-- The buffers that bypass the region do not see the result array's update. -/
theorem held_rest (c : Dev nD) (G) : (StableHlo.held (c.tc : Thread nD τ) (Pipeline.ucRefs τ sig \ T6) (Function.update V b5 G) : sProp 𝕄)
    = StableHlo.held (c.tc : Thread nD τ) (Pipeline.ucRefs τ sig \ T6) V :=
  StableHlo.held_congr (c.tc : Thread nD τ) fun b hb => Function.update_of_ne
    (fun e => (Finset.mem_sdiff.mp hb).2 (by rw [e]; exact b5_mem)) _ _

/-- The windows' arrays after the last point: the five input arrays as found, the result array at `res1 V`. -/
theorem arrays_exit (c : Dev nD) :
    ((pd V O W 1 c).arrays (fun w => (pd V O W 1 c).arrAt w (Pipeline.pin (pcfgs (F := F)) adm 1).N) : sProp 𝕄)
      = iprop((((c.tc : Thread nD τ).loc main_v9) ↦{fullShare} V b0) ∗ (((c.tc : Thread nD τ).loc main_arg1) ↦{fullShare} V b1)
        ∗ (((c.tc : Thread nD τ).loc main_v1) ↦{fullShare} V b2) ∗ (((c.tc : Thread nD τ).loc main_arg4) ↦{fullShare} V b3)
        ∗ (((c.tc : Thread nD τ).loc main_v10) ↦{fullShare} V b4) ∗ (((c.tc : Thread nD τ).loc main_v11) ↦{fullShare} res1 V)) := by
  rw [arrays1_eq]
  show iprop((_ ↦{fullShare} (dat1 V O W c).arrAt 0 cfg2.N) ∗ (_ ↦{fullShare} (dat1 V O W c).arrAt 1 cfg2.N)
    ∗ (_ ↦{fullShare} (dat1 V O W c).arrAt 2 cfg2.N) ∗ (_ ↦{fullShare} (dat1 V O W c).arrAt 3 cfg2.N)
    ∗ (_ ↦{fullShare} (dat1 V O W c).arrAt 4 cfg2.N) ∗ (_ ↦{fullShare} (dat1 V O W c).arrAt 5 cfg2.N)) = _
  rw [final_in V O W c 0 rfl, final_in V O W c 1 rfl, final_in V O W c 2 rfl, final_in V O W c 3 rfl, final_in V O W c 4 rfl, final5]

/-- No pipeline has a prefetched table. -/
theorem bigSep_Fin0 {M : Type} [URA M] (Φ : Fin 0 → sProp M) : bigSep Finset.univ Φ = (BI.emp : sProp M) :=
  bigSep_univ_eq_bigSepL [] (by decide) (by decide) Φ
theorem prefHeld1 (c : Dev nD) (q) (pf) : (Pipeline.prefHeld (Ix := HIx 2) (Name := ℕ) (U := UU) (Lvl := ℕ) (Val := Elt F) (pcfgs (F := F) 1).pre c q pf : sProp 𝕄) = BI.emp :=
  bigSep_Fin0 _

/-- REGION 1: entered holding the TensorCore's unscoped buffers at `V` and the core's tallies; the six windows' arrays go
    to the pipeline, every other buffer bypasses it; it leaves the result array at `res1 V`. -/
def reg1 (hO : ∀ (g : GSem nD τ sig) (i : HIx 2), 0 < O g i → i ∈ (K (F := F)).L g ∧ 0 < (K (F := F)).lev g i) :
    Pipeline.RegionSeg (pcfgs (F := F)) adm (pd V O W) (none : HIx 2) defs₀ 𝒱₀ (K (F := F)).L (K (F := F)).lev 1 where
  win := winFacts2.to₀
  block_pos := block_pos2
  stage_whole := stage_whole2
  K := PEmpty
  osem k := k.elim
  ho := Pipeline.OwnSemFacts.none _
  hbody c := (body_obligation1 V O W c).loose
  hwaits c := Pipeline.cellsWaits_of_cut (cfgs := pcf (F := F)) (dats := pd V O W) (ι := (none : HIx 2)) 1 c 0 O (fun _ => rfl)
    (fun _ _ => Finset.mem_univ _) (fun _ _ => le_rfl) hO
  pre c := iprop(StableHlo.held (c.tc : Thread nD τ) (Pipeline.ucRefs τ sig) V ∗ owes (c.tc : Thread nD τ) O W)
  post c := iprop(StableHlo.held (c.tc : Thread nD τ) (Pipeline.ucRefs τ sig) (upd1 V)
    ∗ ∃ W', ⌜∀ p ∈ W', p ∈ W ∨ p.2 = none⌝ ∗ owes (c.tc : Thread nD τ) O W')
  X _ := iprop(emp)
  Y _ := iprop(emp)
  Z c := StableHlo.held (c.tc : Thread nD τ) (Pipeline.ucRefs τ sig \ T6) V
  hentry c := by
    rw [Pipeline.ownSems0_none, prefHeld1, arrays1_eq, StableHlo.held_sub_split (c.tc : Thread nD τ) T6_sub V, held_T6]
    iintro ⟨⟨⟨⟨H0, H1, H2, H3, H4, H5⟩, HZ⟩, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iexists W; isplitr
      · ipureintro; exact fun x hx => Or.inl hx
      iexact HO
    isplitr; · iempintro
    iexact HZ
  hin c := by
    show iprop(emp ∗ _ ∗ Pipeline.scopedRest (Ix := HIx 2) (Name := ℕ) (U := UU) (Lvl := ℕ) (Val := Elt F) spec2 c)
      ⊢ Pipeline.scopedRest (Ix := HIx 2) (Name := ℕ) (U := UU) (Lvl := ℕ) (Val := Elt F) spec2 c
    iintro ⟨-, -, H⟩; iexact H
  hout c := by
    rw [Pipeline.ownSems0_none]
    show Pipeline.scopedRest (Ix := HIx 2) (Name := ℕ) (U := UU) (Lvl := ℕ) (Val := Elt F) spec2 c
      ⊢ iprop(emp ∗ emp ∗ Pipeline.scopedRest (Ix := HIx 2) (Name := ℕ) (U := UU) (Lvl := ℕ) (Val := Elt F) spec2 c)
    iintro H
    isplitr; · iempintro
    isplitr; · iempintro
    iexact H
  hexit c := by
    unfold upd1
    rw [arrays_exit, StableHlo.held_sub_split (c.tc : Thread nD τ) T6_sub (Function.update V b5 (res1 V)),
      held_T6, Function.update_self, Function.update_of_ne ne05, Function.update_of_ne ne15, Function.update_of_ne ne25,
      Function.update_of_ne ne35, Function.update_of_ne ne45, held_rest]
    iintro ⟨⟨H0, H1, H2, H3, H4, H5⟩, ⟨%W', %hW', HO⟩, -, HZ⟩
    imodintro
    isplitl [H0 H1 H2 H3 H4 H5 HZ]
    · isplitl [H0 H1 H2 H3 H4 H5]
      · isplitl [H0]; · iexact H0
        isplitl [H1]; · iexact H1
        isplitl [H2]; · iexact H2
        isplitl [H3]; · iexact H3
        isplitl [H4]; · iexact H4
        iexact H5
      iexact HZ
    iexists W'; isplitr
    · ipureintro
      intro p hp
      rcases hW' hp with h | ⟨w, s, rfl⟩
      · exact Or.inl h
      · exact Or.inr rfl
    iexact HO

end Region

end R1

section Region1

/-- REGION 1 of @main on device `d`: from the region boundary, the TensorCore's unscoped buffers at `V`, the core's tallies,
    the level facts and pipeline 1's ghost state, the custom call runs to the boundary, the buffers at `V` with the result
    array main_v11 at `res1 V`, and the tallies unchanged, for the continuation. -/
theorem region1 [∀ e, Nonempty (Elt F e)] (d : Dev nD) (V : Valuation τ sig (Elt F)) (O : CellTallies nD τ sig (HIx 2)) (W : Waits sig (HIx 2))
    (hO : ∀ (g : GSem nD τ sig) (i : HIx 2), 0 < O g i → i ∈ (K (F := F)).L g ∧ 0 < (K (F := F)).lev g i)
    {α : Type} (k : PUnit → Prog (TpuEff nD τ sig (Elt F) (ΛP (F := F)) .tc) α) (Q : α → sProp 𝕄) :
    iprop((iprop(boundary (SparseCore.T d) ∗ StableHlo.held (SparseCore.T d) (Pipeline.ucRefs τ sig) (upd1 V)
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ StableHlo.held (SparseCore.T d) (Pipeline.ucRefs τ sig) V ∗ owes (SparseCore.T d) O W
        ∗ levAts (K (F := F)).L (K (F := F)).lev
        ∗ Pipeline.cellsGhost (pcf (F := F)) EP 1 d ∗ Pipeline.toksInit (pcf (F := F)) EP 1 d)
      ⊢ wp frame (wpE (D (F := F)) 𝒱 (SparseCore.T d) none) Set.univ (.op (.customCall (Pipeline.entry 1) ()) k) Q := by
  have h := Pipeline.RegionSeg.wp (pcfgs (F := F)) adm (R1.pd V O W) (none : HIx 2) pcf_inj EP defs₀ 𝒱₀ (K (F := F)).L (K (F := F)).lev
    (R1.reg1 V O W hO) d none (fun u hu => nomatch hu) k Q
  dsimp only [R1.reg1] at h
  iintro ⟨Hk, Hb, Hh, HO, Hl, Hg, Ht⟩
  iapply h
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region1

end Cert.Kernel.Hand

end
-- ==== Proof.Bits.Run.lean ====
/-
  The kernel program's run: the SparseCore launch theorem applied to the two gather calls' tile obligations and
  splits, the launch element, and @main's proof on the TensorCore; every final memory has every unscoped TensorCore
  buffer at its contents along @main as a pure function of the launch memory.
-/
import proofs.«208461_g52518860095779_cont_9to1_m_1075_29_alg».proof.Proof.Bits.Main
import proofs.«208461_g52518860095779_cont_9to1_m_1075_29_alg».proof.Proof.Bits.Final
import proofs.«208461_g52518860095779_cont_9to1_m_1075_29_alg».proof.Proof.Bits.ScPart
import proofs.«208461_g52518860095779_cont_9to1_m_1075_29_alg».proof.Proof.Bits.Region0
import proofs.«208461_g52518860095779_cont_9to1_m_1075_29_alg».proof.Proof.Bits.Region1

noncomputable section

namespace Cert.Kernel.Hand

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

section Run

variable (upd2 : Valuation τ sig (Elt F) → Valuation τ sig (Elt F))
variable (m : (ℓ : Loc nD τ sig) → Buf (Elt F) ℓ) (ρ : Dev nD → PrngReg)

/-- What the two gather calls find in their arrays: the first call's table, index list and result array before it,
    the second call's. -/
abbrev cTb0 (d : Dev nD) : Tab (F := F) := W3 upd0 m d (rf main_v1)
abbrev cIx0 (d : Dev nD) : Ix0 (F := F) := W3 upd0 m d (rf main_v8)
abbrev cF0 (d : Dev nD) : Out0 (F := F) := W3 upd0 m d (rf main_v9)
abbrev cTb1 (d : Dev nD) : Tab (F := F) := W7 upd0 upd1 m d (rf main_v12)
abbrev cIx1 (d : Dev nD) : Ix1 (F := F) := W7 upd0 upd1 m d (rf main_v25)
abbrev cF1 (d : Dev nD) : Out1 (F := F) := W7 upd0 upd1 m d (rf main_v26)

/-- The calls' payloads at those contents. -/
abbrev Pm : (K (F := F)).Pay (nD := nD) (Val := Elt F) (Name := ℕ) (U := UU) :=
  P (cTb0 m) (cIx0 m) (cF0 m) (cTb1 m) (cIx1 m) (cF1 m)

/-- Both SparseCore calls run on the vector subcores. -/
theorem no_scalar : ∀ q : Fin 2, scKind q ≠ Kind.scScalar := by decide

/-- Every weakly fair execution of the device's threads from the launch memory terminates, nothing faulting, with every
    unscoped TensorCore buffer at its contents along @main. -/
theorem run_main [∀ e, Nonempty (Elt F e)] (h2 : RegionOK (F := F) 2 upd2)
    (ht0 : (K (F := F)).TileObl (D (F := F)) 𝒱 (Pm (F := F) m) v₀ 0)
    (ht1 : (K (F := F)).TileObl (D (F := F)) 𝒱 (Pm (F := F) m) v₀ 1) :
    θ_run (Cert.Kernel.defs (F := F)) (Cert.Kernel.threads (F := F)) ⟨m, fun _ => 0, ρ⟩
      (fun r => ∀ c : Dev nD, ∀ b ∈ Pipeline.ucRefs τ sig, r.2.mem (c, b) = W10 upd0 upd1 upd2 m c b) :=
  SparseCore.Cfg.θ_run_sc (K := K (F := F)) (D := D (F := F)) (𝒱 := 𝒱) (EH := EH) (P := Pm (F := F) m) facts v₀
    (fun q hq => absurd hq (no_scalar q))
    (fun q _ => match q with | 0 => ht0 | 1 => ht1)
    (fun q _ => match q with
      | 0 => SparseCore.Cfg.VecSplit.of_plain (vecSplit0 _ _ _ _ _ _)
      | 1 => SparseCore.Cfg.VecSplit.of_plain (vecSplit1 _ _ _ _ _ _))
    m ρ main (fun d => G (F := F) d)
    (fun d => held (SparseCore.T d) (Pipeline.ucRefs τ sig) (W10 upd0 upd1 upd2 m d)) (u₀ (F := F))
    (hu₀ (Pm (F := F) m) (fun _ _ => rfl))
    (fun κ d => hmain (Pm (F := F) m) upd0 upd1 upd2 m ρ
      (fun d X O W hO _ k Q => region0 d X O W hO k Q) (fun d X O W hO _ k Q => region1 d X O W hO k Q) h2
      (fun d => st0_intro (cTb0 m) (cIx0 m) (cF0 m) (cTb1 m) (cIx1 m) (cF1 m) d)
      (fun d => dn0_elim (cTb0 m) (cIx0 m) (cF0 m) (cTb1 m) (cIx1 m) (cF1 m) d)
      (fun d => st1_intro (cTb0 m) (cIx0 m) (cF0 m) (cTb1 m) (cIx1 m) (cF1 m) d)
      (fun d => dn1_elim (cTb0 m) (cIx0 m) (cF0 m) (cTb1 m) (cIx1 m) (cF1 m) d) κ d)
    (fun d s' => ∀ b ∈ Pipeline.ucRefs τ sig, s'.mem.mem (d, b) = W10 upd0 upd1 upd2 m d b)
    (fun d s' => held_agree_all d (Pipeline.ucRefs τ sig) (W10 upd0 upd1 upd2 m d) s')
    _ (fun _ h => h)

end Run

end Cert.Kernel.Hand

end
-- ==== Proof.Bits.Frames.lean ====
/-
  The kernel program's frame, for any float instance: from the run, every argument buffer ends at its launch contents
  (no stretch, region or call writes it), given that the two gathers' index lists are in range — which the
  precondition's ranges of the two integer inputs give.
-/
import proofs.«208461_g52518860095779_cont_9to1_m_1075_29_alg».proof.Proof.Bits.Run

noncomputable section

namespace Cert.Kernel.Hand

open Cert.Kernel Cert.Kernel.Gen

open Idealize.ShloMosaic
open Idealize.ShloMosaic.SparseCore.Cfg (HIx Pay)
open Idealize.SL Idealize.SL.Sem
open Idealize.ShloMosaic.StableHlo (held after)

variable {F : FTy → Type} [FloatOps F]

/-- The node-update pipeline changes its result array only. -/
theorem upd1_kept' (X : Valuation τ sig (Elt F)) (b : DevRef τ sig) (hb : b ≠ rf main_v11) : upd1 X b = X b := by
  unfold upd1; exact Function.update_of_ne hb _ _

/-- Every weakly fair execution of the kernel program terminates, nothing faulting, its ten arguments unchanged. -/
theorem frame_gen [∀ e, Nonempty (Elt F e)] (upd2 : Valuation τ sig (Elt F) → Valuation τ sig (Elt F))
    (hk2 : ∀ X b, b ≠ rf main_v31 → upd2 X b = X b) (h2 : RegionOK (F := F) 2 upd2)
    (T0 : ∀ m : (ℓ : Loc nD τ sig) → Buf (Elt F) ℓ, (∀ d j, (cIx0 (F := F) m d j).toNat < 20000) →
      (K (F := F)).TileObl (D (F := F)) 𝒱 (Pm (F := F) m) v₀ 0)
    (T1 : ∀ m : (ℓ : Loc nD τ sig) → Buf (Elt F) ℓ, (∀ d j, (cIx1 (F := F) m d j).toNat < 20000) →
      (K (F := F)).TileObl (D (F := F)) 𝒱 (Pm (F := F) m) v₀ 1)
    (m : (ℓ : Loc nD τ sig) → Buf (Elt F) ℓ) (ρ : Dev nD → PrngReg)
    (hadj : ∀ d j, (m (d, rf main_arg2) j).toNat ≤ 9999) (htup : ∀ d j, (m (d, rf main_arg3) j).toNat ≤ 9999) :
    θ_run (Cert.Kernel.defs (F := F)) (Cert.Kernel.threads (F := F)) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run (Cert.Kernel.defs (F := F)) _ _).mono (fun r h c =>
    ⟨(h c (rf main_arg0) (by decide)).trans (W10_arg0 upd0 upd1 upd2 m c upd0_kept upd1_kept' hk2),
      (h c (rf main_arg1) (by decide)).trans (W10_arg1 upd0 upd1 upd2 m c upd0_kept upd1_kept' hk2),
      (h c (rf main_arg2) (by decide)).trans (W10_arg2 upd0 upd1 upd2 m c upd0_kept upd1_kept' hk2),
      (h c (rf main_arg3) (by decide)).trans (W10_arg3 upd0 upd1 upd2 m c upd0_kept upd1_kept' hk2),
      (h c (rf main_arg4) (by decide)).trans (W10_arg4 upd0 upd1 upd2 m c upd0_kept upd1_kept' hk2),
      (h c (rf main_arg5) (by decide)).trans (W10_arg5 upd0 upd1 upd2 m c upd0_kept upd1_kept' hk2),
      (h c (rf main_arg6) (by decide)).trans (W10_arg6 upd0 upd1 upd2 m c upd0_kept upd1_kept' hk2),
      (h c (rf main_arg7) (by decide)).trans (W10_arg7 upd0 upd1 upd2 m c upd0_kept upd1_kept' hk2),
      (h c (rf main_arg8) (by decide)).trans (W10_arg8 upd0 upd1 upd2 m c upd0_kept upd1_kept' hk2),
      (h c (rf main_arg9) (by decide)).trans (W10_arg9 upd0 upd1 upd2 m c upd0_kept upd1_kept' hk2)⟩)
    (run_main upd2 m ρ h2 (T0 m (idx0_ok upd0 m upd0_kept hadj)) (T1 m (idx1_ok upd0 upd1 m upd0_kept upd1_kept' htup)))

end Cert.Kernel.Hand

end
-- ==== Proof.Bits.Region2Ends.lean ====
/-
  The two ends of region 2 of @main (the third TensorCore pipeline: a grid of 2 × 160 points, nine windows over eight arrays —
  windows 1 and 2 read blocks i and i + 160 of ONE array; window 8 is the result, written back at every point though the
  body stores into it only in the second pass), for any relational proof data of that pipeline.
  ENTRY: the TensorCore's unscoped buffers at a valuation are the nine windows' arrays — the shared array in halves — and the rest.
  EXIT: the arrays after the last point, the inputs as found and the result at the one contents it may hold, with the rest,
  are the buffers at the valuation updated at the result array. Both also as the region rule states them, with the core's tallies.
  THE RESULT: whatever the result array may hold after the run is G, when every second-pass point leaves block t of G: the
  second pass's blocks tile the array, and they are written after every first-pass write-back. Such a G is the array glued from
  the blocks the second-pass points leave.
-/
import proofs.«208461_g52518860095779_cont_9to1_m_1075_29_alg».proof.Proof.Bits.Common
import Idealize.ShloMosaic.Lib.Pipeline.Frame
import Idealize.ShloMosaic.Lib.Pipeline.Value

set_option maxRecDepth 16384

noncomputable section

namespace Cert.Kernel.Hand.R2E

open Cert.Kernel Cert.Kernel.Gen Cert.Kernel.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 2) (Elt F) ℕ UU ℕ

/-! ## The region's arrays at its two ends -/

section Ends

variable {c : Dev nD} (V : Valuation τ sig (Elt F)) (rd : RDat τ (Elt F) (HIx 2) ℕ UU ℕ cfg4 c)

/-- The shares the windows hold their arrays at: windows 1 and 2 read one array, a half each; every other the whole. -/
def q2 : Fin cfg4.W → PosShare TreeShare :=
  fun w => if w = 1 then fullShare.left else if w = 2 then fullShare.right else fullShare

/-- The eight distinct arrays behind the nine windows. -/
def T2 : Finset (DevRef τ sig) :=
  {Proc.devRef .tc main_arg1, Proc.devRef .tc main_v26, Proc.devRef .tc main_v27, Proc.devRef .tc main_v28,
    Proc.devRef .tc main_arg5, Proc.devRef .tc main_v29, Proc.devRef .tc main_v30, Proc.devRef .tc main_v31}

theorem T2_sub : T2 ⊆ Pipeline.ucRefs τ sig := by
  intro b hb
  simp only [T2, Finset.mem_insert, Finset.mem_singleton] at hb
  unfold Pipeline.ucRefs
  rcases hb with rfl | rfl | rfl | rfl | rfl | rfl | rfl | rfl <;>
    exact Finset.mem_filter.mpr ⟨StableHlo.devRef_mem_tcRefs _, by decide⟩

/-- A buffer of device c whole at share q. -/
abbrev pt (b : Ref sig .tc) (q : PosShare TreeShare) (f : Buf (Elt F) ((c : Thread nD τ).loc b)) : sProp 𝕄 :=
  ((c : Thread nD τ).loc b) ↦{q} f

/-- The eight arrays held at a valuation, one by one. -/
theorem held_T2 (Vv : Valuation τ sig (Elt F)) : (StableHlo.held (c : Thread nD τ) T2 Vv : sProp 𝕄)
    = iprop(pt (c := c) main_arg1 fullShare (Vv (Proc.devRef .tc main_arg1)) ∗ pt (c := c) main_v26 fullShare (Vv (Proc.devRef .tc main_v26))
        ∗ pt (c := c) main_v27 fullShare (Vv (Proc.devRef .tc main_v27)) ∗ pt (c := c) main_v28 fullShare (Vv (Proc.devRef .tc main_v28))
        ∗ pt (c := c) main_arg5 fullShare (Vv (Proc.devRef .tc main_arg5)) ∗ pt (c := c) main_v29 fullShare (Vv (Proc.devRef .tc main_v29))
        ∗ pt (c := c) main_v30 fullShare (Vv (Proc.devRef .tc main_v30)) ∗ pt (c := c) main_v31 fullShare (Vv (Proc.devRef .tc main_v31))) := by
  unfold StableHlo.held T2
  rw [bigSep_eq_bigSepL_of_eq [Proc.devRef .tc main_arg1, Proc.devRef .tc main_v26, Proc.devRef .tc main_v27, Proc.devRef .tc main_v28,
    Proc.devRef .tc main_arg5, Proc.devRef .tc main_v29, Proc.devRef .tc main_v30, Proc.devRef .tc main_v31] (by decide) (by decide)]
  rfl

/-- Each window's array is held at the share q2 gives it (the result's, whole). -/
theorem share_eq (hq : rd.q = q2) (w : Fin cfg4.W) : rd.share w = q2 w := by
  unfold RDat.share; rw [hq]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The windows' arrays at contents Fa, one by one. -/
theorem arrays_eq (hq : rd.q = q2) (Fa) : (rd.arrays Fa : sProp 𝕄)
    = iprop(pt (c := c) main_arg1 fullShare (Fa 0) ∗ pt (c := c) main_v26 fullShare.left (Fa 1) ∗ pt (c := c) main_v26 fullShare.right (Fa 2)
        ∗ pt (c := c) main_v27 fullShare (Fa 3) ∗ pt (c := c) main_v28 fullShare (Fa 4) ∗ pt (c := c) main_arg5 fullShare (Fa 5)
        ∗ pt (c := c) main_v29 fullShare (Fa 6) ∗ pt (c := c) main_v30 fullShare (Fa 7) ∗ pt (c := c) main_v31 fullShare (Fa 8)) := by
  have h : (rd.arrays Fa : sProp 𝕄) = bigSep Finset.univ fun w : Fin cfg4.W =>
      (((c : Thread nD τ).loc (Pipeline.arrRef spec4 w)) ↦{q2 w} Fa w : sProp 𝕄) := by
    unfold RDat.arrays
    exact bigSep_congr fun w _ => by rw [(arr_whole4 w).set_eq_univ, share_eq rd hq]
  rw [h, bigSep_W4]
  rfl

/-- The windows' arrays after the write-backs below n, one by one. -/
theorem arraysAt_eq (hq : rd.q = q2) (n : Nat) : (rd.arraysAt n : sProp 𝕄)
    = iprop((∃ Fw, ⌜rd.ArrAt 0 n Fw⌝ ∗ pt (c := c) main_arg1 fullShare Fw) ∗ (∃ Fw, ⌜rd.ArrAt 1 n Fw⌝ ∗ pt (c := c) main_v26 fullShare.left Fw)
        ∗ (∃ Fw, ⌜rd.ArrAt 2 n Fw⌝ ∗ pt (c := c) main_v26 fullShare.right Fw) ∗ (∃ Fw, ⌜rd.ArrAt 3 n Fw⌝ ∗ pt (c := c) main_v27 fullShare Fw)
        ∗ (∃ Fw, ⌜rd.ArrAt 4 n Fw⌝ ∗ pt (c := c) main_v28 fullShare Fw) ∗ (∃ Fw, ⌜rd.ArrAt 5 n Fw⌝ ∗ pt (c := c) main_arg5 fullShare Fw)
        ∗ (∃ Fw, ⌜rd.ArrAt 6 n Fw⌝ ∗ pt (c := c) main_v29 fullShare Fw) ∗ (∃ Fw, ⌜rd.ArrAt 7 n Fw⌝ ∗ pt (c := c) main_v30 fullShare Fw)
        ∗ (∃ Fw, ⌜rd.ArrAt 8 n Fw⌝ ∗ pt (c := c) main_v31 fullShare Fw)) := by
  have h : (rd.arraysAt n : sProp 𝕄) = bigSep Finset.univ fun w : Fin cfg4.W =>
      iprop(∃ Fw, ⌜rd.ArrAt w n Fw⌝ ∗ (((c : Thread nD τ).loc (Pipeline.arrRef spec4 w)) ↦{q2 w} Fw : sProp 𝕄)) := by
    unfold RDat.arraysAt
    exact bigSep_congr fun w _ => by rw [(arr_whole4 w).set_eq_univ, share_eq rd hq]
  rw [h, bigSep_W4]
  rfl

/-- The buffers that bypass the region do not see the result array's update. -/
theorem held_rest (G) : (StableHlo.held (c : Thread nD τ) (Pipeline.ucRefs τ sig \ T2) (Function.update V (Proc.devRef .tc main_v31) G) : sProp 𝕄)
    = StableHlo.held (c : Thread nD τ) (Pipeline.ucRefs τ sig \ T2) V :=
  StableHlo.held_congr (c : Thread nD τ) fun b hb => Function.update_of_ne
    (fun e => (Finset.mem_sdiff.mp hb).2 (by rw [e]; simp [T2])) _ _

/-- ENTRY: the TensorCore's unscoped buffers at V are the windows' arrays at the proof data's entry contents — the array two
    windows read split in halves — and the buffers that bypass the region. -/
theorem entry_arrays (hq : rd.q = q2) (hA : ∀ w, rd.A w = V (Proc.devRef .tc (Pipeline.arrRef spec4 w))) :
    (StableHlo.held (c : Thread nD τ) (Pipeline.ucRefs τ sig) V : sProp 𝕄)
      ⊢ iprop(rd.arrays rd.A ∗ StableHlo.held (c : Thread nD τ) (Pipeline.ucRefs τ sig \ T2) V) := by
  rw [StableHlo.held_sub_split (c : Thread nD τ) T2_sub V, held_T2, arrays_eq rd hq]
  simp only [hA]
  iintro ⟨⟨H0, H26, H27, H28, H5, H29, H30, H31⟩, HZ⟩
  icases (pointsTo_share (PosShare.mem_left_op_right fullShare)).1 $$ H26 with ⟨Hl, Hr⟩
  isplitr [HZ]
  · isplitl [H0]; · iexact H0
    isplitl [Hl]; · iexact Hl
    isplitl [Hr]; · iexact Hr
    isplitl [H27]; · iexact H27
    isplitl [H28]; · iexact H28
    isplitl [H5]; · iexact H5
    isplitl [H29]; · iexact H29
    isplitl [H30]; · iexact H30
    iexact H31
  iexact HZ

set_option maxHeartbeats 1000000 in
/-- EXIT: the windows' arrays after the last point — every input array as found, the result array at G, which is all it may
    hold — and the buffers that bypassed the region are the TensorCore's unscoped buffers at V with the result array at G. -/
theorem exit_arrays (hq : rd.q = q2) (hA : ∀ w, rd.A w = V (Proc.devRef .tc (Pipeline.arrRef spec4 w)))
    (G : S2x10000x16x16.Idx → Elt F .f32) (hfin : ∀ Fa, rd.ArrAt 8 cfg4.N Fa → Fa = G) :
    iprop(rd.arraysAt cfg4.N ∗ StableHlo.held (c : Thread nD τ) (Pipeline.ucRefs τ sig \ T2) V)
      ⊢ (StableHlo.held (c : Thread nD τ) (Pipeline.ucRefs τ sig) (Function.update V (Proc.devRef .tc main_v31) G) : sProp 𝕄) := by
  rw [StableHlo.held_sub_split (c : Thread nD τ) T2_sub (Function.update V (Proc.devRef .tc main_v31) G), held_T2, held_rest,
    arraysAt_eq rd hq,
    Function.update_of_ne (StableHlo.devRef_ne_of_ne (by decide) : Proc.devRef (τ := τ) .tc main_arg1 ≠ Proc.devRef .tc main_v31),
    Function.update_of_ne (StableHlo.devRef_ne_of_ne (by decide) : Proc.devRef (τ := τ) .tc main_v26 ≠ Proc.devRef .tc main_v31),
    Function.update_of_ne (StableHlo.devRef_ne_of_ne (by decide) : Proc.devRef (τ := τ) .tc main_v27 ≠ Proc.devRef .tc main_v31),
    Function.update_of_ne (StableHlo.devRef_ne_of_ne (by decide) : Proc.devRef (τ := τ) .tc main_v28 ≠ Proc.devRef .tc main_v31),
    Function.update_of_ne (StableHlo.devRef_ne_of_ne (by decide) : Proc.devRef (τ := τ) .tc main_arg5 ≠ Proc.devRef .tc main_v31),
    Function.update_of_ne (StableHlo.devRef_ne_of_ne (by decide) : Proc.devRef (τ := τ) .tc main_v29 ≠ Proc.devRef .tc main_v31),
    Function.update_of_ne (StableHlo.devRef_ne_of_ne (by decide) : Proc.devRef (τ := τ) .tc main_v30 ≠ Proc.devRef .tc main_v31),
    Function.update_self (Proc.devRef (τ := τ) .tc main_v31) G V]
  iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩, ⟨%F7, %h7, H7⟩, ⟨%F8, %h8, H8⟩⟩, HZ⟩
  rw [rd.ArrAt_in 0 rfl] at h0; rw [rd.ArrAt_in 1 rfl] at h1; rw [rd.ArrAt_in 2 rfl] at h2; rw [rd.ArrAt_in 3 rfl] at h3
  rw [rd.ArrAt_in 4 rfl] at h4; rw [rd.ArrAt_in 5 rfl] at h5; rw [rd.ArrAt_in 6 rfl] at h6; rw [rd.ArrAt_in 7 rfl] at h7
  have h8' := hfin F8 h8
  rw [hA] at h0 h1 h2 h3 h4 h5 h6 h7
  subst h0 h1 h2 h3 h4 h5 h6 h7 h8'
  isplitr [HZ]
  · isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    isplitl [H6]; · iexact H6
    isplitl [H7]; · iexact H7
    iexact H8
  iexact HZ

end Ends

/-! ## The result array after the run: the second pass's blocks cover it -/

section Final

variable {c : Dev nD} (rd : RDat τ (Elt F) (HIx 2) ℕ UU ℕ cfg4 c)

/-- The grid has 320 points: 160 of the first pass, then 160 of the second. -/
theorem N4 : cfg4.N = 320 := N_4

/-- The result window's index map, decided over the grid: point 160 + i of the second pass sits at block (i / 80, i % 80, 0, 0). -/
theorem idx_facts8 : ∀ t : Fin cfg4.N, 160 ≤ t.val → win4_8.index t (0 : Fin 4) = (t.val - 160) / 80 ∧ win4_8.index t (1 : Fin 4) = (t.val - 160) % 80
    ∧ win4_8.index t (2 : Fin 4) = 0 ∧ win4_8.index t (3 : Fin 4) = 0 :=
  (by decide +kernel : ∀ t : Fin grid4.N, 160 ≤ t.val → _)

/-- An index of the result array is in point t's block iff each coordinate is in the block's range on its axis. -/
theorem mem_blk8 (t : Fin cfg4.N) (i : S2x10000x16x16.Idx) :
    i ∈ ((cfg4.win 8).blk t).view.set ↔ ∀ a : Fin 4, win4_8.index t a * S1x125x16x16.size a ≤ (i a).val ∧ (i a).val < win4_8.index t a * S1x125x16x16.size a + S1x125x16x16.size a := by
  show i ∈ ((View.whole main_v31).slice (win4_8.rect t)).set ↔ _
  rw [View.set_slice_whole, Rect.mem_set_unit]
  exact Iff.rfl

/-- The second pass's 160 blocks of 125 rows tile the 2 × 10000 rows: row (a, b) lies in the block of point 160 + 80 a + b / 125. -/
theorem cover8 (i : S2x10000x16x16.Idx) : ∃ t : Fin cfg4.N, 160 ≤ t.val ∧ t.val < cfg4.N ∧ i ∈ ((cfg4.win 8).blk t).view.set := by
  have hi0 : (i 0).val < 2 := (i 0).isLt
  have hi1 : (i 1).val < 10000 := (i 1).isLt
  have hi2 : (i 2).val < 16 := (i 2).isLt
  have hi3 : (i 3).val < 16 := (i 3).isLt
  have hN : cfg4.N = 320 := N4
  obtain ⟨t, ht⟩ : ∃ t : Fin cfg4.N, t.val = 160 + 80 * (i 0).val + (i 1).val / 125 := ⟨⟨160 + 80 * (i 0).val + (i 1).val / 125, by omega⟩, rfl⟩
  obtain ⟨e0, e1, e2, e3⟩ := idx_facts8 t (by omega)
  refine ⟨t, by omega, t.isLt, ?_⟩
  rw [mem_blk8]
  intro a
  match a with
  | ⟨0, _⟩ => show win4_8.index t (0 : Fin 4) * 1 ≤ (i 0).val ∧ (i 0).val < win4_8.index t (0 : Fin 4) * 1 + 1; omega
  | ⟨1, _⟩ => show win4_8.index t (1 : Fin 4) * 125 ≤ (i 1).val ∧ (i 1).val < win4_8.index t (1 : Fin 4) * 125 + 125; omega
  | ⟨2, _⟩ => show win4_8.index t (2 : Fin 4) * 16 ≤ (i 2).val ∧ (i 2).val < win4_8.index t (2 : Fin 4) * 16 + 16; omega
  | ⟨3, _⟩ => show win4_8.index t (3 : Fin 4) * 16 ≤ (i 3).val ∧ (i 3).val < win4_8.index t (3 : Fin 4) * 16 + 16; omega

/-- After the write-backs below n, every index in the block of a second-pass point below n reads G: a first-pass point's
    write-back (of contents nothing constrains) is overwritten by the second pass's, and a second-pass block written again
    is written with the same values. -/
theorem arrAt_apply_of_late (G : S2x10000x16x16.Idx → Elt F .f32)
    (hG : ∀ t : Fin cfg4.N, 160 ≤ t.val → ∀ Y X, rd.after 8 t Y X →
      (cfg4.win 8).cut (cfg4.grid.coords t) X = ((cfg4.win 8).blk t).view.read (Elt F) G) (n : Nat) :
    n ≤ cfg4.N → ∀ (Fa : S2x10000x16x16.Idx → Elt F .f32), rd.ArrAt 8 n Fa →
      ∀ (i : S2x10000x16x16.Idx) (t : Fin cfg4.N), 160 ≤ t.val → t.val < n → i ∈ ((cfg4.win 8).blk t).view.set → Fa i = G i := by
  induction n with
  | zero => intro _ _ _ _ _ _ ht _; exact absurd ht (Nat.not_lt_zero _)
  | succ n ih =>
    intro hnN Fa hFa i t h160 ht hi
    have hn : n < cfg4.N := hnN
    have hs := rd.ArrAt_succ 8 ⟨n, hn⟩
    rw [show (cfg4.win 8).flush ⟨n, hn⟩ = true from flush4_8 ⟨n, hn⟩, if_pos rfl] at hs
    have hFa' : rd.ArrStep 8 ⟨n, hn⟩ (rd.ArrAt 8 n) Fa := by rw [← hs]; exact hFa
    obtain ⟨G₀, X, hG₀, ⟨Y, -, hYX⟩, rfl⟩ := hFa'
    by_cases hin : i ∈ ((cfg4.win 8).blk ⟨n, hn⟩).view.setOn Finset.univ
    · have hn160 : 160 ≤ n := by omega
      rw [hG ⟨n, hn⟩ hn160 Y X hYX, View.write_read_eq_piecewise, Finset.piecewise_eq_of_mem _ _ _ hin]
    · rw [View.write_of_not_mem _ _ _ hin]
      have htn : t.val ≠ n := fun e => hin (by rw [View.setOn_univ]; have : t = ⟨n, hn⟩ := Fin.ext e; exact this ▸ hi)
      exact ih (Nat.le_of_lt hn) G₀ hG₀ i t h160 (by omega) hi

/-- THE RESULT ARRAY after the run: whatever it may hold is G, when every second-pass point leaves block t of G. -/
theorem arrAt_final (G : S2x10000x16x16.Idx → Elt F .f32)
    (hG : ∀ t : Fin cfg4.N, 160 ≤ t.val → ∀ Y X, rd.after 8 t Y X →
      (cfg4.win 8).cut (cfg4.grid.coords t) X = ((cfg4.win 8).blk t).view.read (Elt F) G) :
    ∀ Fa, rd.ArrAt 8 cfg4.N Fa → Fa = G := fun Fa hFa =>
  funext fun i => by
    obtain ⟨t, h160, htN, hi⟩ := cover8 i
    exact arrAt_apply_of_late rd G hG cfg4.N le_rfl Fa hFa i t h160 htN hi

end Final

/-! ## The result array glued from the second pass's blocks -/

section Glue

/-- The whole result array from a family of blocks, one per point: index (a, b, x, y) reads the block of the second-pass point
    160 + 80 a + b / 125 — the one whose block holds it — at its place (0, b % 125, x, y) in that block. -/
def glue (R : Fin cfg4.N → Vec F S1x125x16x16 .f32) : S2x10000x16x16.Idx → Elt F .f32 :=
  fun i => R ⟨160 + 80 * (i 0).val + (i 1).val / 125, by
      have hN : cfg4.N = 320 := N4
      have h0 : (i 0).val < 2 := (i 0).isLt
      have h1 : (i 1).val < 10000 := (i 1).isLt
      omega⟩
    (ValueIdx.ix4 (0 : Fin 1) (⟨(i 1).val % 125, Nat.mod_lt _ (by decide)⟩ : Fin 125) (i 2) (i 3))

/-- The glued array at an index, from the point and the place computed back. -/
theorem glue_apply (R : Fin cfg4.N → Vec F S1x125x16x16 .f32) (i : S2x10000x16x16.Idx) (t : Fin cfg4.N) (y : S1x125x16x16.Idx)
    (h : t.val = 160 + 80 * (i 0).val + (i 1).val / 125) (h0 : (y 0).val = 0) (h1 : (y 1).val = (i 1).val % 125)
    (h2 : (y 2).val = (i 2).val) (h3 : (y 3).val = (i 3).val) : glue R i = R t y := by
  unfold glue
  have e1 : (⟨160 + 80 * (i 0).val + (i 1).val / 125, by
      have hN : cfg4.N = 320 := N4
      have h0 : (i 0).val < 2 := (i 0).isLt
      have h1 : (i 1).val < 10000 := (i 1).isLt
      omega⟩ : Fin cfg4.N) = t := Fin.ext h.symm
  have e2 : ValueIdx.ix4 (0 : Fin 1) (⟨(i 1).val % 125, Nat.mod_lt _ (by decide)⟩ : Fin 125) (i 2) (i 3) = y :=
    funext fun a => Fin.ext <| match a with
      | ⟨0, _⟩ => h0.symm
      | ⟨1, _⟩ => h1.symm
      | ⟨2, _⟩ => h2.symm
      | ⟨3, _⟩ => h3.symm
  rw [e1]
  exact congrArg (R t) e2

/-- What a second-pass point leaves is its block of the glued array. -/
theorem glue_blk (R : Fin cfg4.N → Vec F S1x125x16x16 .f32) (t : Fin cfg4.N) (ht : 160 ≤ t.val) :
    (cfg4.win 8).cut (cfg4.grid.coords t) (R t) = ((cfg4.win 8).blk t).view.read (Elt F) (glue R) := by
  obtain ⟨e0, e1, e2, e3⟩ := idx_facts8 t ht
  have hN : cfg4.N = 320 := N4
  have htN := t.isLt
  funext y
  show R t y = glue R (((cfg4.win 8).blk t).view.emb y)
  have hy0 : (y 0).val < 1 := (y 0).isLt
  have hy1 : (y 1).val < 125 := (y 1).isLt
  have c0 : ((((cfg4.win 8).blk t).view.emb y) 0).val = win4_8.index t (0 : Fin 4) * 1 + 1 * (y 0).val := rfl
  have c1 : ((((cfg4.win 8).blk t).view.emb y) 1).val = win4_8.index t (1 : Fin 4) * 125 + 1 * (y 1).val := rfl
  have c2 : ((((cfg4.win 8).blk t).view.emb y) 2).val = win4_8.index t (2 : Fin 4) * 16 + 1 * (y 2).val := rfl
  have c3 : ((((cfg4.win 8).blk t).view.emb y) 3).val = win4_8.index t (3 : Fin 4) * 16 + 1 * (y 3).val := rfl
  exact (glue_apply R _ t y (by omega) (by omega) (by omega) (by omega) (by omega)).symm

end Glue

/-! ## The region's entry and exit, as the region rule asks them -/

section Fields

variable {c : Dev nD} (V : Valuation τ sig (Elt F)) (rd : RDat τ (Elt F) (HIx 2) ℕ UU ℕ cfg4 c)
  (O : CellTallies nD τ sig (HIx 2)) (W : Waits sig (HIx 2))

theorem bigSep_Fin0 {M : Type} [URA M] (Φ : Fin 0 → sProp M) : bigSep Finset.univ Φ = (BI.emp : sProp M) :=
  bigSep_univ_eq_bigSepL [] (by decide) (by decide) Φ

/-- The pipeline has no prefetched table. -/
theorem prefHeld2 (q) (pf) : (Pipeline.prefHeld (Ix := HIx 2) (Name := ℕ) (U := UU) (Lvl := ℕ) (Val := Elt F) (pcfgs (F := F) 2).pre c q pf : sProp 𝕄) = BI.emp :=
  bigSep_Fin0 _

/-- The core's tallies at a point where the proof data owes O and bounds the recorded waits by W: some recorded set within
    W and the pipeline's own waits. -/
theorem owesAt_eq (t : Fin (cfg4.N + 1)) (hO : rd.owed t = O) (hR : rd.recorded t = ↑W) :
    (rd.owesAt none t : sProp 𝕄)
      = iprop(∃ W' : Waits sig (HIx 2), ⌜(↑W' : Set (SemLoc sig × HIx 2)) ⊆ ↑W ∪ Pipeline.Cfg.waitPairs cfg4 (none : HIx 2)⌝ ∗ owes (c : Thread nD τ) O W') := by
  unfold RDat.owesAt Pipeline.owesWithin RDat.bound; rw [hO, hR]

/-- ENTRY, as the region rule's field: from the buffers at V and the core's tallies. -/
theorem hentry_of (hq : rd.q = q2) (hA : ∀ w, rd.A w = V (Proc.devRef .tc (Pipeline.arrRef spec4 w)))
    (hO0 : rd.owed 0 = O) (hR0 : rd.recorded 0 = ↑W) :
    iprop((StableHlo.held (c : Thread nD τ) (Pipeline.ucRefs τ sig) V ∗ owes (c : Thread nD τ) O W)
        ∗ Pipeline.ownSems0 (fun k : PEmpty => k.elim) c ∗ levAts (K (F := F)).L (K (F := F)).lev)
      ⊢ |={Set.univ}=> iprop(rd.arrays rd.A ∗ Pipeline.prefHeld (pcfgs (F := F) 2).pre c (fun _ => fullShare) (adm 2).1
          ∗ rd.owesAt none 0 ∗ emp ∗ StableHlo.held (c : Thread nD τ) (Pipeline.ucRefs τ sig \ T2) V) := by
  rw [prefHeld2, owesAt_eq rd O W 0 hO0 hR0]
  iintro ⟨⟨Hh, HO⟩, -, -⟩
  icases (entry_arrays V rd hq hA) $$ Hh with ⟨Ha, HZ⟩
  imodintro
  isplitl [Ha]; · iexact Ha
  isplitr; · iempintro
  isplitl [HO]
  · iexists W; isplitr
    · ipureintro; exact fun x hx => Or.inl hx
    iexact HO
  isplitr; · iempintro
  iexact HZ

/-- EXIT, as the region rule's field: to the buffers at V with the result array at G, and the core's tallies. -/
theorem hexit_of (hq : rd.q = q2) (hA : ∀ w, rd.A w = V (Proc.devRef .tc (Pipeline.arrRef spec4 w)))
    (hON : rd.owed (Fin.last cfg4.N) = O) (hRN : rd.recorded (Fin.last cfg4.N) = ↑W)
    (G : S2x10000x16x16.Idx → Elt F .f32) (hfin : ∀ Fa, rd.ArrAt 8 cfg4.N Fa → Fa = G) :
    iprop(rd.arraysAt cfg4.N ∗ rd.owesAt none (Fin.last cfg4.N) ∗ emp ∗ StableHlo.held (c : Thread nD τ) (Pipeline.ucRefs τ sig \ T2) V)
      ⊢ |={Set.univ}=> iprop(StableHlo.held (c : Thread nD τ) (Pipeline.ucRefs τ sig) (Function.update V (Proc.devRef .tc main_v31) G)
          ∗ ∃ W', ⌜∀ p ∈ W', p ∈ W ∨ p.2 = none⌝ ∗ owes (c : Thread nD τ) O W') := by
  rw [owesAt_eq rd O W (Fin.last cfg4.N) hON hRN]
  iintro ⟨Ha, ⟨%W', %hW', HO⟩, -, HZ⟩
  imodintro
  isplitl [Ha HZ]
  · iapply (exit_arrays V rd hq hA G hfin)
    isplitl [Ha]; · iexact Ha
    iexact HZ
  iexists W'; isplitr
  · ipureintro
    intro p hp
    rcases hW' hp with h | ⟨w, s, rfl⟩
    · exact Or.inl h
    · exact Or.inr rfl
  iexact HO

end Fields

end Cert.Kernel.Hand.R2E

end
-- ==== Proof.Bits.R2Defs.lean ====
/-
  Region 2 of @main, the definitions its result is made of: the body's three control cases run on whole staging memrefs
  (phase 0 at the first block, phase 0 past it, with the pieces their stores leave in the scratch), the control cases
  decided over the grid, the input blocks, the scratch's contents as the fold over the points done, what a phase-1 point
  stores over the result block, and the whole result array glued from the phase-1 blocks.
-/
import proofs.«208461_g52518860095779_cont_9to1_m_1075_29_alg».proof.Proof.Bits.Common
import proofs.«208461_g52518860095779_cont_9to1_m_1075_29_alg».proof.Proof.Bits.Region2Ends
import Idealize.ShloMosaic.Lib.Pipeline.Frame
import Idealize.ShloMosaic.Lib.Pipeline.FrameBody
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 2) (Elt F) ℕ UU ℕ

namespace R2

theorem zeros2 : (![0, 0] : Fin 2 → ℕ) = fun _ => 0 := by
  funext a; fin_cases a <;> rfl
theorem zeros4 : (![0, 0, 0, 0] : Fin 4 → ℕ) = fun _ => 0 := by
  funext a; fin_cases a <;> rfl

/-- A load of a whole buffer reads its contents. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

/-- The scratch rows the body addresses, in closed form over the block coordinate. -/
theorem k4_off1_eq : ∀ i : grid4.Coords, k4_off1 i = ![2 * ((i 1).val / 80), 0] := by decide +kernel
theorem k4_off2_eq : ∀ i : grid4.Coords, k4_off2 i = ![2 * ((i 1).val / 80) + 1, 0] := by decide +kernel
theorem k4_off3_eq : ∀ i : grid4.Coords, k4_off3 i = ![2 * ((i 1).val / 80), 0] := by decide +kernel
theorem k4_off4_eq : ∀ i : grid4.Coords, k4_off4 i = ![2 * ((i 1).val / 80) + 1, 0] := by decide +kernel
instance closedOff_k4_off1 (i : grid4.Coords) : ClosedOff (k4_off1 i) := ⟨![2 * ((i 1).val / 80), 0], k4_off1_eq i⟩
instance closedOff_k4_off2 (i : grid4.Coords) : ClosedOff (k4_off2 i) := ⟨![2 * ((i 1).val / 80) + 1, 0], k4_off2_eq i⟩
instance closedOff_k4_off3 (i : grid4.Coords) : ClosedOff (k4_off3 i) := ⟨![2 * ((i 1).val / 80), 0], k4_off3_eq i⟩
instance closedOff_k4_off4 (i : grid4.Coords) : ClosedOff (k4_off4 i) := ⟨![2 * ((i 1).val / 80) + 1, 0], k4_off4_eq i⟩

/-- The condition of the reset inside phase 0: the block coordinate is zero. -/
abbrev condZ (i : grid4.Coords) : Prop := (Scalar.cmpi .ne (Scalar.extui (Scalar.cmpi .eq (BitVec.ofNat 32 (i 1).val) 0#32)) 0#32) = 1#1

theorem k4_off1_Z : ∀ i : grid4.Coords, condZ i → k4_off1 i = ![0, 0] := by decide +kernel
theorem k4_off2_Z : ∀ i : grid4.Coords, condZ i → k4_off2 i = ![1, 0] := by decide +kernel

/-! ## The three control cases of the body -/

set_option maxHeartbeats 2000000 in
/-- Phase 0 past the first block: the column sums of the two endpoint blocks are added into the scratch rows of the
    block's half; what the stores leave in the scratch is the witness. -/
noncomputable def runA (c : Dev nD) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : k4_cond1 i = 1#1) (hz : ¬ condZ i) (h3 : ¬ k4_cond3 i = 1#1)
    (x1 x2 : Vec F S2000x128 .f32) (xs : Vec F S4x128 .f32) :
    { Ls : List (View.Piece (Elt F) S4x128 .f32) //
      ∀ (E : Set ℕ) (K : PUnit → sProp 𝕄),
        iprop(owns (c : Thread nD τ) arg3 fullShare x1 ∗ owns (c : Thread nD τ) arg4 fullShare x2 ∗ owns (c : Thread nD τ) arg11 fullShare xs
            ∗ (iprop(owns (c : Thread nD τ) arg3 fullShare x1 ∗ owns (c : Thread nD τ) arg4 fullShare x2
                ∗ (arg11.view.loc (c : Thread nD τ) ↦[arg11.view.set]{fullShare} arg11.view.writes (Elt F) (harg11.unread xs) Ls)) -∗ K ⟨⟩))
          ⊢ wp frame (wpE (defs₀ (F := F)) Variants.none c none) E (cc4__k46_body i arg2 harg2 arg3 harg3 arg4 harg4 arg5 harg5 arg6 harg6 arg7 harg7 arg8 harg8 arg9 harg9 arg10 harg10 arg11 harg11) K } := by
  refine ⟨?_, fun E K => ?run⟩
  case run =>
    simp only [cc4__k46_body_eq_skeleton]; unfold cc4__k46_body_skel
    unfold owns
    iintro ⟨⟨%f1, %hf1, H1⟩, ⟨%f2, %hf2, H2⟩, ⟨%fs, %hfs, Hs⟩, Hk⟩
    obtain rfl := harg3.eq_unread hf1; obtain rfl := harg4.eq_unread hf2; obtain rfl := harg11.eq_unread hfs
    sl_exec (disch := first | exact h1 | exact hz | exact h3)
    sl_step
    iapply Hk
    isplitl [H1]
    · iexists _; isplitr; · ipureintro; exact harg3.read_unread _
      iexact H1
    isplitl [H2]
    · iexists _; isplitr; · ipureintro; exact harg4.read_unread _
      iexact H2
    iexact Hs

set_option maxHeartbeats 2000000 in
/-- Phase 0 at the first block: the scratch is zeroed whole first, then as past the first block. -/
noncomputable def runZ (c : Dev nD) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : k4_cond1 i = 1#1) (hz : condZ i) (h3 : ¬ k4_cond3 i = 1#1)
    (x1 x2 : Vec F S2000x128 .f32) :
    { Ls : List (View.Piece (Elt F) S4x128 .f32) //
      ∀ (E : Set ℕ) (K : PUnit → sProp 𝕄),
        iprop(owns (c : Thread nD τ) arg3 fullShare x1 ∗ owns (c : Thread nD τ) arg4 fullShare x2
            ∗ (∃ f, arg11.view.loc (c : Thread nD τ) ↦[arg11.view.set]{fullShare} f)
            ∗ (iprop(owns (c : Thread nD τ) arg3 fullShare x1 ∗ owns (c : Thread nD τ) arg4 fullShare x2
                ∗ (∃ f, arg11.view.loc (c : Thread nD τ) ↦[arg11.view.set]{fullShare} arg11.view.writes (Elt F) f Ls)) -∗ K ⟨⟩))
          ⊢ wp frame (wpE (defs₀ (F := F)) Variants.none c none) E (cc4__k46_body i arg2 harg2 arg3 harg3 arg4 harg4 arg5 harg5 arg6 harg6 arg7 harg7 arg8 harg8 arg9 harg9 arg10 harg10 arg11 harg11) K } := by
  refine ⟨?_, fun E K => ?run⟩
  case run =>
    simp only [cc4__k46_body_eq_skeleton]; unfold cc4__k46_body_skel
    unfold owns
    iintro ⟨⟨%f1, %hf1, H1⟩, ⟨%f2, %hf2, H2⟩, ⟨%fs, Hs⟩, Hk⟩
    obtain rfl := harg3.eq_unread hf1; obtain rfl := harg4.eq_unread hf2
    letI : ClosedOff (k4_off1 i) := ⟨![0, 0], k4_off1_Z i hz⟩
    letI : ClosedOff (k4_off2 i) := ⟨![1, 0], k4_off2_Z i hz⟩
    sl_exec (disch := first | exact h1 | exact hz | exact h3)
    sl_step
    iapply Hk
    isplitl [H1]
    · iexists _; isplitr; · ipureintro; exact harg3.read_unread _
      iexact H1
    isplitl [H2]
    · iexists _; isplitr; · ipureintro; exact harg4.read_unread _
      iexact H2
    iexists _; iexact Hs

/-- The pieces of the first block's run cover the scratch: the zeroing store is among them. -/
theorem coverZ (c : Dev nD) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : k4_cond1 i = 1#1) (hz : condZ i) (h3 : ¬ k4_cond3 i = 1#1) (x1 x2 : Vec F S2000x128 .f32) (y : S4x128.Idx) :
    ∃ pc ∈ (runZ c i arg2 harg2 arg3 harg3 arg4 harg4 arg5 harg5 arg6 harg6 arg7 harg7 arg8 harg8 arg9 harg9 arg10 harg10 arg11 harg11 h1 hz h3 x1 x2).1, y ∈ pc.1.set := by
  unfold runZ
  dsimp only
  unfold runZ.sl.Hs_2 runZ.sl.Hs_1
  exact ⟨_, List.mem_cons_of_mem _ (List.mem_cons_of_mem _ (List.mem_singleton_self _)),
    View.mem_set_unit_zero (S := S4x128) zeros2 inb_S4x128_S4x128_0_0 y⟩

/-- A row of the scratch. -/
abbrev rowOf (xs : Vec F S4x128 .f32) (off : Fin 2 → ℕ) (inb : ∀ a, off a + S1x128.size a ≤ S4x128.size a) : Vec F S1x128 .f32 :=
  View.ld xs (Rect.unit (s := S4x128) off S1x128.size inb)

/-- What phase 1 stores over the whole result block. -/
def resOf (i : grid4.Coords) (h3 : k4_cond3 i = 1#1) (x0 : Vec F S1x125x16x16 .f32) (x1 x2 : Vec F S2000x128 .f32) (x3 x4 : Vec F S128x16 .f32)
    (x5 : Vec F S16x16 .f32) (x6 x7 : Vec F S1x16 .f32) (xs : Vec F S4x128 .f32) : Vec F S1x125x16x16 .f32 :=
  k4_pay4 (k4_pay5 (rowOf xs (k4_off3 i) (k4_off3_inb i h3)) (rowOf xs (k4_off4 i) (k4_off4_inb i h3)) x1 x3 x2 x4 x6) x0 x5 x7

/-! ## The control cases over the grid -/

theorem cond1_iff : ∀ t : Fin cfg4.N, k4_cond1 (grid4.coords t) = 1#1 ↔ t.val < 160 :=
  (by decide +kernel : ∀ t : Fin grid4.N, k4_cond1 (grid4.coords t) = 1#1 ↔ t.val < 160)
theorem cond3_iff : ∀ t : Fin cfg4.N, k4_cond3 (grid4.coords t) = 1#1 ↔ 160 ≤ t.val :=
  (by decide +kernel : ∀ t : Fin grid4.N, k4_cond3 (grid4.coords t) = 1#1 ↔ 160 ≤ t.val)
theorem condZ_iff : ∀ t : Fin cfg4.N, condZ (grid4.coords t) ↔ t.val % 160 = 0 :=
  (by decide +kernel : ∀ t : Fin grid4.N, condZ (grid4.coords t) ↔ t.val % 160 = 0)

/-! ## The staging memrefs at a point -/

abbrev m0 (t : Fin cfg4.N) : Memref sig .tc .vmem S1x125x16x16 .f32 := win4_0.stage (cfg4.slots t 0)
abbrev hm0 (t : Fin cfg4.N) : (m0 t).IsWhole := hstage4_0 ((cfg4.slots t 0).cast nbuf4_0)
abbrev m1 (t : Fin cfg4.N) : Memref sig .tc .vmem S2000x128 .f32 := win4_1.stage (cfg4.slots t 1)
abbrev hm1 (t : Fin cfg4.N) : (m1 t).IsWhole := hstage4_1 ((cfg4.slots t 1).cast nbuf4_1)
abbrev m2 (t : Fin cfg4.N) : Memref sig .tc .vmem S2000x128 .f32 := win4_2.stage (cfg4.slots t 2)
abbrev hm2 (t : Fin cfg4.N) : (m2 t).IsWhole := hstage4_2 ((cfg4.slots t 2).cast nbuf4_2)
abbrev m3 (t : Fin cfg4.N) : Memref sig .tc .vmem S128x16 .f32 := win4_3.stage (cfg4.slots t 3)
abbrev hm3 (t : Fin cfg4.N) : (m3 t).IsWhole := hstage4_3 ((cfg4.slots t 3).cast nbuf4_3)
abbrev m4 (t : Fin cfg4.N) : Memref sig .tc .vmem S128x16 .f32 := win4_4.stage (cfg4.slots t 4)
abbrev hm4 (t : Fin cfg4.N) : (m4 t).IsWhole := hstage4_4 ((cfg4.slots t 4).cast nbuf4_4)
abbrev m5 (t : Fin cfg4.N) : Memref sig .tc .vmem S16x16 .f32 := win4_5.stage (cfg4.slots t 5)
abbrev hm5 (t : Fin cfg4.N) : (m5 t).IsWhole := hstage4_5 ((cfg4.slots t 5).cast nbuf4_5)
abbrev m6 (t : Fin cfg4.N) : Memref sig .tc .vmem S1x16 .f32 := win4_6.stage (cfg4.slots t 6)
abbrev hm6 (t : Fin cfg4.N) : (m6 t).IsWhole := hstage4_6 ((cfg4.slots t 6).cast nbuf4_6)
abbrev m7 (t : Fin cfg4.N) : Memref sig .tc .vmem S1x16 .f32 := win4_7.stage (cfg4.slots t 7)
abbrev hm7 (t : Fin cfg4.N) : (m7 t).IsWhole := hstage4_7 ((cfg4.slots t 7).cast nbuf4_7)
abbrev m8 (t : Fin cfg4.N) : Memref sig .tc .vmem S1x125x16x16 .f32 := win4_8.stage (cfg4.slots t 8)
abbrev hm8 (t : Fin cfg4.N) : (m8 t).IsWhole := hstage4_8 ((cfg4.slots t 8).cast nbuf4_8)
abbrev msc : Memref sig .tc .vmem S4x128 .f32 := Memref.whole cc4_scratch0
abbrev hsc : (msc).IsWhole := Memref.isWhole_whole _

/-! ## The proof data -/

section Data

variable (V : Valuation τ sig (Elt F)) (O : CellTallies nD τ sig (HIx 2)) (W : Waits sig (HIx 2)) (d : Dev nD)

/-- The TensorCore's buffers of device d at the valuation, by reference. -/
abbrev Vr (b : Ref sig .tc) : Buf (Elt F) ((d : Thread nD τ).loc b) := V (Proc.devRef .tc b)

/-- Window w's block at point t, read off its array as the region finds it. -/
def iblk (w : Fin cfg4.W) (t : Fin cfg4.N) : ((cfg4.win w).xblock (cfg4.grid.coords t)).Idx → Elt F (cfg4.win w).elt :=
  ((cfg4.win w).blk t).view.read (Elt F) (Vr V d (Pipeline.arrRef spec4 w))

abbrev b0 (t : Fin cfg4.N) : Vec F S1x125x16x16 .f32 := iblk V d 0 t
abbrev b1 (t : Fin cfg4.N) : Vec F S2000x128 .f32 := iblk V d 1 t
abbrev b2 (t : Fin cfg4.N) : Vec F S2000x128 .f32 := iblk V d 2 t
abbrev b3 (t : Fin cfg4.N) : Vec F S128x16 .f32 := iblk V d 3 t
abbrev b4 (t : Fin cfg4.N) : Vec F S128x16 .f32 := iblk V d 4 t
abbrev b5 (t : Fin cfg4.N) : Vec F S16x16 .f32 := iblk V d 5 t
abbrev b6 (t : Fin cfg4.N) : Vec F S1x16 .f32 := iblk V d 6 t
abbrev b7 (t : Fin cfg4.N) : Vec F S1x16 .f32 := iblk V d 7 t

theorem not3_of_1 (t : Fin cfg4.N) (h1 : k4_cond1 (grid4.coords t) = 1#1) : ¬ k4_cond3 (grid4.coords t) = 1#1 := fun h => by
  have := (cond1_iff t).mp h1; have := (cond3_iff t).mp h; omega

/-- The scratch after a phase-0 point past the first, from the scratch before it. -/
def stepA (t : Fin cfg4.N) (h1 : k4_cond1 (grid4.coords t) = 1#1) (hz : ¬ condZ (grid4.coords t)) (xs : Vec F S4x128 .f32) : Vec F S4x128 .f32 :=
  msc.view.read (Elt F) (msc.view.writes (Elt F) (hsc.unread xs)
    (runA d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t) xs).1)

/-- The scratch after the first point. -/
def stepZ (t : Fin cfg4.N) (h1 : k4_cond1 (grid4.coords t) = 1#1) (hz : condZ (grid4.coords t)) : Vec F S4x128 .f32 :=
  msc.view.read (Elt F) (msc.view.writes (Elt F) (hsc.unread (k4_pay1 (F := F)))
    (runZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t)).1)

/-- The scratch before point n (after the n points below it): the fold of the phase-0 points' steps; phase 1 leaves it. -/
def scrAt : ℕ → Vec F S4x128 .f32
  | 0 => k4_pay1 (F := F)
  | n + 1 =>
    if h : n < cfg4.N then
      if h1 : k4_cond1 (grid4.coords ⟨n, h⟩) = 1#1 then
        if hz : condZ (grid4.coords ⟨n, h⟩) then stepZ V d ⟨n, h⟩ h1 hz else stepA V d ⟨n, h⟩ h1 hz (scrAt n)
      else scrAt n
    else scrAt n

theorem scrAt_succ_Z (t : Fin cfg4.N) (h1 : k4_cond1 (grid4.coords t) = 1#1) (hz : condZ (grid4.coords t)) :
    scrAt V d (t.val + 1) = stepZ V d t h1 hz := by
  show (if h : t.val < cfg4.N then _ else _) = _
  rw [dif_pos t.isLt, dif_pos h1, dif_pos hz]
theorem scrAt_succ_A (t : Fin cfg4.N) (h1 : k4_cond1 (grid4.coords t) = 1#1) (hz : ¬ condZ (grid4.coords t)) :
    scrAt V d (t.val + 1) = stepA V d t h1 hz (scrAt V d t.val) := by
  show (if h : t.val < cfg4.N then _ else _) = _
  rw [dif_pos t.isLt, dif_pos h1, dif_neg hz]
theorem scrAt_succ_B (t : Fin cfg4.N) (h1 : ¬ k4_cond1 (grid4.coords t) = 1#1) :
    scrAt V d (t.val + 1) = scrAt V d t.val := by
  show (if h : t.val < cfg4.N then _ else _) = _
  rw [dif_pos t.isLt, dif_neg h1]

/-- What phase 1's point t stores over the result block (at a phase-0 point, where nothing is stored: a block not read). -/
def resAt (t : Fin cfg4.N) : Vec F S1x125x16x16 .f32 :=
  if h3 : k4_cond3 (grid4.coords t) = 1#1 then
    resOf (grid4.coords t) h3 (b0 V d t) (b1 V d t) (b2 V d t) (b3 V d t) (b4 V d t) (b5 V d t) (b6 V d t) (b7 V d t) (scrAt V d t.val)
  else b0 V d t

end Data

end R2

/-! ## The region's value -/

/-- The region's result array: index (a, b, x, y) holds what the phase-1 point of block (a, b / 125) stored at
    (0, b % 125, x, y). -/
def res2 (V : Valuation τ sig (Elt F)) : S2x10000x16x16.Idx → Elt F .f32 := R2E.glue (R2.resAt V (0 : Dev nD))

/-- The valuation the region leaves: V with the result array main_v31 at the region's result. -/
def upd2 (V : Valuation τ sig (Elt F)) : Valuation τ sig (Elt F) := Function.update V (Proc.devRef .tc main_v31) (res2 V)

end Cert.Kernel.Hand

end
-- ==== Proof.Bits.Region2.lean ====
/-
  Region 2 of @main: the third TensorCore pipeline (two phases of 160 blocks; nine windows, two of them on the gathered
  endpoint rows; a 4×128 scratch carried across all points). Phase 0 adds each block's column sums of the two endpoint
  blocks into the scratch rows of the block's half and stores nothing into the result block, which the pipeline still
  writes back; phase 1 stores the whole result block from the scratch rows, the endpoint blocks, the bond block and the
  weights, over the same block index. Here: phase 1's body run, the relational proof data (inputs left as found, the
  result's buffer constrained at phase-1 points only, the scratch at the fold in the invariant), the body obligation by
  the three control cases, that the result array ends at the glued phase-1 blocks, and the region's rule.
-/
import proofs.«208461_g52518860095779_cont_9to1_m_1075_29_alg».proof.Proof.Bits.R2Defs

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 2) (Elt F) ℕ UU ℕ

namespace R2

set_option maxHeartbeats 2000000 in
theorem runB [∀ e, Nonempty (Elt F e)] (c : Dev nD) (E : Set ℕ) (i : grid4.Coords) (arg2 : Memref sig .tc .vmem S1x125x16x16 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x16 .f32) (harg5 : arg5.IsWhole) (arg6 : Memref sig .tc .vmem S128x16 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x125x16x16 .f32) (harg10 : arg10.IsWhole) (arg11 : Memref sig .tc .vmem S4x128 .f32) (harg11 : arg11.IsWhole)
    (h1 : ¬ k4_cond1 i = 1#1) (h3 : k4_cond3 i = 1#1)
    (x0 : Vec F S1x125x16x16 .f32) (x1 x2 : Vec F S2000x128 .f32) (x3 x4 : Vec F S128x16 .f32)
    (x5 : Vec F S16x16 .f32) (x6 x7 : Vec F S1x16 .f32) (xs : Vec F S4x128 .f32) (Kc : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ dd, owns (c : Thread nD τ) arg10 fullShare dd)
        ∗ owns (c : Thread nD τ) arg11 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (resOf i h3 x0 x1 x2 x3 x4 x5 x6 x7 xs)
            ∗ owns (c : Thread nD τ) arg11 fullShare xs) -∗ Kc ⟨⟩))
      ⊢ wp frame (wpE (defs₀ (F := F)) Variants.none c none) E (cc4__k46_body i arg2 harg2 arg3 harg3 arg4 harg4 arg5 harg5 arg6 harg6 arg7 harg7 arg8 harg8 arg9 harg9 arg10 harg10 arg11 harg11) Kc := by
  simp only [cc4__k46_body_eq_skeleton]; unfold cc4__k46_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dd, %f8, -, H8⟩, ⟨%fs, %hfs, Hs⟩, Hk⟩
  subst hf0; subst hf1; subst hf2; subst hf3; subst hf4; subst hf5; subst hf6; subst hf7; subst hfs
  sl_exec (disch := first | exact h1 | exact h3)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero (S := S1x125x16x16) zeros4 inb_S1x125x16x16_S1x125x16x16_0_0_0_0 y⟩),
      View.canon_unit_zero zeros4]
    unfold resOf rowOf runB.sl.v58
    rw [readAt_whole arg3.view f1 zeros2, readAt_whole arg5.view f3 zeros2, readAt_whole arg4.view f2 zeros2, readAt_whole arg6.view f4 zeros2,
      readAt_whole arg8.view f6 zeros2, readAt_whole arg7.view f5 zeros2, readAt_whole arg9.view f7 zeros2,
      readAt_whole arg2.view f0 zeros4]
    rfl
  iexists fs; isplitr; · ipureintro; rfl
  iexact Hs

/-! ## The scoped buffers no window of this pipeline stages -/

/-- The fourteen staging buffers of the other two pipelines, each whole at some contents, beside R. -/
def chain14 (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ R)

/-- The scratch, whole at some contents. -/
def scrAny (c : Dev nD) : sProp 𝕄 :=
  iprop(∃ f : Buf (Elt F) ((c : Thread nD τ).loc cc4_scratch0), ((c : Thread nD τ).loc cc4_scratch0) ↦{fullShare} f)

theorem scopedRest_chain (c : Dev nD) :
    (Pipeline.scopedRest (Ix := HIx 2) (Name := ℕ) (U := UU) (Lvl := ℕ) (Val := Elt F) spec4 c : sProp 𝕄) = chain14 c (scrAny c) := by
  rw [scopedRest4_eq]; rfl

theorem chain14_split (c : Dev nD) (R : sProp 𝕄) : chain14 c R ⊢ iprop(chain14 c iprop(emp) ∗ R) := by
  unfold chain14
  iintro ⟨H1, H2, H3, H4, H5, H6, H7, H8, H9, H10, H11, H12, H13, H14, HR⟩
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iempintro
  iexact HR

theorem chain14_join (c : Dev nD) (R : sProp 𝕄) : iprop(chain14 c iprop(emp) ∗ R) ⊢ chain14 c R := by
  unfold chain14
  iintro ⟨⟨H1, H2, H3, H4, H5, H6, H7, H8, H9, H10, H11, H12, H13, H14, -⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HR

section Data2

variable (V : Valuation τ sig (Elt F)) (O : CellTallies nD τ sig (HIx 2)) (W : Waits sig (HIx 2)) (d : Dev nD)

/-- The scratch's part of the invariant before point n: at the fold, except before the first point, where it holds anything. -/
def Sn (n : ℕ) : sProp 𝕄 :=
  iprop(∃ xs : Vec F S4x128 .f32, ⌜n ≠ 0 → xs = scrAt V d n⌝ ∗ owns (d : Thread nD τ) msc fullShare xs)

/-- The relational proof data of pipeline 2 on device d: the arrays as the region finds them; every input's buffer left
    as found; the result's buffer, at a phase-1 point, left at what that point stores, at a phase-0 point at anything;
    the invariant the other pipelines' staging buffers and the scratch at the fold; the tallies and recorded waits
    as the region is entered with them, throughout. -/
def rd2 : RDat τ (Elt F) (HIx 2) ℕ UU ℕ cfg4 d where
  A w := Vr V d (Pipeline.arrRef spec4 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => k4_cond3 (grid4.coords t) = 1#1 → X = resAt V d t
  Φ n := iprop(chain14 d iprop(emp) ∗ Sn V d n.val)
  q := R2E.q2
  owed _ := O
  recorded _ := ↑W

theorem A_eq (w : Fin cfg4.W) : (rd2 V O W d).A w = Vr V d (Pipeline.arrRef spec4 w) := by
  dsimp only [rd2]
theorem after_0 (t : Fin cfg4.N) (Y X) : (rd2 V O W d).after 0 t Y X = (X = Y) := by dsimp only [rd2]
theorem after_1 (t : Fin cfg4.N) (Y X) : (rd2 V O W d).after 1 t Y X = (X = Y) := by dsimp only [rd2]
theorem after_2 (t : Fin cfg4.N) (Y X) : (rd2 V O W d).after 2 t Y X = (X = Y) := by dsimp only [rd2]
theorem after_3 (t : Fin cfg4.N) (Y X) : (rd2 V O W d).after 3 t Y X = (X = Y) := by dsimp only [rd2]
theorem after_4 (t : Fin cfg4.N) (Y X) : (rd2 V O W d).after 4 t Y X = (X = Y) := by dsimp only [rd2]
theorem after_5 (t : Fin cfg4.N) (Y X) : (rd2 V O W d).after 5 t Y X = (X = Y) := by dsimp only [rd2]
theorem after_6 (t : Fin cfg4.N) (Y X) : (rd2 V O W d).after 6 t Y X = (X = Y) := by dsimp only [rd2]
theorem after_7 (t : Fin cfg4.N) (Y X) : (rd2 V O W d).after 7 t Y X = (X = Y) := by dsimp only [rd2]
theorem after_8 (t : Fin cfg4.N) (Y X) : (rd2 V O W d).after 8 t Y X = (k4_cond3 (grid4.coords t) = 1#1 → X = resAt V d t) := by dsimp only [rd2]

/-- Input window 0's current staging buffer holds its block wherever the body is handed it. -/
theorem finds_0 [∀ e, Nonempty (Elt F e)] (t : Fin cfg4.N) (Y) (hY : (rd2 V O W d).Finds 0 t Y) : Y = iblk V d 0 t := by
  obtain ⟨dd, rfl⟩ := RDat.finds_in_eq_fetched (rd2 V O W d) 0 rfl (fun _ _ _ => rfl) (fun t Y X h => by rw [after_0] at h; exact h) t Y hY
  unfold RDat.fetched RDat.blockOf iblk; rw [A_eq]; try rfl
/-- Input window 1's current staging buffer holds its block wherever the body is handed it. -/
theorem finds_1 [∀ e, Nonempty (Elt F e)] (t : Fin cfg4.N) (Y) (hY : (rd2 V O W d).Finds 1 t Y) : Y = iblk V d 1 t := by
  obtain ⟨dd, rfl⟩ := RDat.finds_in_eq_fetched (rd2 V O W d) 1 rfl (fun _ _ _ => rfl) (fun t Y X h => by rw [after_1] at h; exact h) t Y hY
  unfold RDat.fetched RDat.blockOf iblk; rw [A_eq]; try rfl
/-- Input window 2's current staging buffer holds its block wherever the body is handed it. -/
theorem finds_2 [∀ e, Nonempty (Elt F e)] (t : Fin cfg4.N) (Y) (hY : (rd2 V O W d).Finds 2 t Y) : Y = iblk V d 2 t := by
  obtain ⟨dd, rfl⟩ := RDat.finds_in_eq_fetched (rd2 V O W d) 2 rfl (fun _ _ _ => rfl) (fun t Y X h => by rw [after_2] at h; exact h) t Y hY
  unfold RDat.fetched RDat.blockOf iblk; rw [A_eq]; try rfl
/-- Input window 3's current staging buffer holds its block wherever the body is handed it. -/
theorem finds_3 [∀ e, Nonempty (Elt F e)] (t : Fin cfg4.N) (Y) (hY : (rd2 V O W d).Finds 3 t Y) : Y = iblk V d 3 t := by
  obtain ⟨dd, rfl⟩ := RDat.finds_in_eq_fetched (rd2 V O W d) 3 rfl (fun _ _ _ => rfl) (fun t Y X h => by rw [after_3] at h; exact h) t Y hY
  unfold RDat.fetched RDat.blockOf iblk; rw [A_eq]; try rfl
/-- Input window 4's current staging buffer holds its block wherever the body is handed it. -/
theorem finds_4 [∀ e, Nonempty (Elt F e)] (t : Fin cfg4.N) (Y) (hY : (rd2 V O W d).Finds 4 t Y) : Y = iblk V d 4 t := by
  obtain ⟨dd, rfl⟩ := RDat.finds_in_eq_fetched (rd2 V O W d) 4 rfl (fun _ _ _ => rfl) (fun t Y X h => by rw [after_4] at h; exact h) t Y hY
  unfold RDat.fetched RDat.blockOf iblk; rw [A_eq]; try rfl
/-- Input window 5's current staging buffer holds its block wherever the body is handed it. -/
theorem finds_5 [∀ e, Nonempty (Elt F e)] (t : Fin cfg4.N) (Y) (hY : (rd2 V O W d).Finds 5 t Y) : Y = iblk V d 5 t := by
  obtain ⟨dd, rfl⟩ := RDat.finds_in_eq_fetched (rd2 V O W d) 5 rfl (fun _ _ _ => rfl) (fun t Y X h => by rw [after_5] at h; exact h) t Y hY
  unfold RDat.fetched RDat.blockOf iblk; rw [A_eq]; try rfl
/-- Input window 6's current staging buffer holds its block wherever the body is handed it. -/
theorem finds_6 [∀ e, Nonempty (Elt F e)] (t : Fin cfg4.N) (Y) (hY : (rd2 V O W d).Finds 6 t Y) : Y = iblk V d 6 t := by
  obtain ⟨dd, rfl⟩ := RDat.finds_in_eq_fetched (rd2 V O W d) 6 rfl (fun _ _ _ => rfl) (fun t Y X h => by rw [after_6] at h; exact h) t Y hY
  unfold RDat.fetched RDat.blockOf iblk; rw [A_eq]; try rfl
/-- Input window 7's current staging buffer holds its block wherever the body is handed it. -/
theorem finds_7 [∀ e, Nonempty (Elt F e)] (t : Fin cfg4.N) (Y) (hY : (rd2 V O W d).Finds 7 t Y) : Y = iblk V d 7 t := by
  obtain ⟨dd, rfl⟩ := RDat.finds_in_eq_fetched (rd2 V O W d) 7 rfl (fun _ _ _ => rfl) (fun t Y X h => by rw [after_7] at h; exact h) t Y hY
  unfold RDat.fetched RDat.blockOf iblk; rw [A_eq]; try rfl

end Data2

/-! ## The body obligation -/

section Body

variable (V : Valuation τ sig (Elt F)) (O : CellTallies nD τ sig (HIx 2)) (W : Waits sig (HIx 2)) (d : Dev nD)

theorem owns_any {S : Shape} (c : Dev nD) (m : Memref sig .tc .vmem S .f32) (x : Vec F S .f32) :
    (owns (c : Thread nD τ) m fullShare x : sProp 𝕄) ⊢ iprop(∃ f, m.view.loc (c : Thread nD τ) ↦[m.view.set]{fullShare} f) := by
  unfold owns; iintro ⟨%f, -, H⟩; iexists f; iexact H

theorem owns_of {S : Shape} (c : Dev nD) (m : Memref sig .tc .vmem S .f32) (f : m.view.ty.Contents (Elt F)) :
    (m.view.loc (c : Thread nD τ) ↦[m.view.set]{fullShare} f : sProp 𝕄) ⊢ owns (c : Thread nD τ) m fullShare (m.view.read (Elt F) f) := by
  unfold owns; iintro H; iexists f; isplitr; · ipureintro; rfl
  iexact H

set_option maxHeartbeats 2000000 in
/-- The body at any point. Every input's memref holds its block. In phase 0 the scratch goes from the fold before the
    point to the fold after it (at the first block from anything), and the result's buffer is left as handed; in phase 1
    the scratch is left and the result's buffer takes the point's block. The other pipelines' buffers and the core's
    tallies pass through unread. -/
theorem body2 [∀ e, Nonempty (Elt F e)] : (rd2 V O W d).BodyObligation (defs₀ (F := F)) Variants.none (none : HIx 2) Set.univ := fun t Y hY => by
  rw [bigSep_W4, bigSep_W4]
  have e0 := finds_0 V O W d t (Y 0) (hY 0)
  have e1 := finds_1 V O W d t (Y 1) (hY 1)
  have e2 := finds_2 V O W d t (Y 2) (hY 2)
  have e3 := finds_3 V O W d t (Y 3) (hY 3)
  have e4 := finds_4 V O W d t (Y 4) (hY 4)
  have e5 := finds_5 V O W d t (Y 5) (hY 5)
  have e6 := finds_6 V O W d t (Y 6) (hY 6)
  have e7 := finds_7 V O W d t (Y 7) (hY 7)
  rw [e0, e1, e2, e3, e4, e5, e6, e7]
  rw [show (rd2 V O W d).Φ t.castSucc = iprop(chain14 d iprop(emp) ∗ Sn V d t.val) from rfl,
    show (rd2 V O W d).Φ t.succ = iprop(chain14 d iprop(emp) ∗ Sn V d (t.val + 1)) from rfl,
    show (rd2 V O W d).owesAt none t.succ = (rd2 V O W d).owesAt none t.castSucc from rfl]
  simp only [after_0, after_1, after_2, after_3, after_4, after_5, after_6, after_7, after_8]
  unfold Sn
  by_cases hp : t.val < 160
  · have h1 : k4_cond1 (grid4.coords t) = 1#1 := (cond1_iff t).mpr hp
    by_cases hz : condZ (grid4.coords t)
    · -- the first block: the scratch is zeroed, then takes the two column sums
      iintro ⟨⟨Hoth, ⟨%xs, -, Hs⟩⟩, Ho, H0, H1, H2, H3, H4, H5, H6, H7, H8⟩
      iapply ((runZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t)).2 Set.univ _)
      isplitl [H1]; · iexact H1
      isplitl [H2]; · iexact H2
      isplitl [Hs]; · iapply (owns_any d msc xs); iexact Hs
      iintro ⟨H1, H2, ⟨%f, Hs⟩⟩
      isplitl [Hoth Hs]
      · isplitl [Hoth]; · iexact Hoth
        iexists (scrAt V d (t.val + 1)); isplitr; · ipureintro; exact fun _ => rfl
        rw [scrAt_succ_Z V d t h1 hz]
        unfold stepZ
        rw [← View.read_writes_of_cover (v := msc.view) (f := f) msc.view (hsc.unread (k4_pay1 (F := F))) _
          (coverZ d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t))]
        iapply (owns_of d msc _); iexact Hs
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      isplitl [H4]; · iexists _; isplitr; · ipureintro; rfl
                      iexact H4
      isplitl [H5]; · iexists _; isplitr; · ipureintro; rfl
                      iexact H5
      isplitl [H6]; · iexists _; isplitr; · ipureintro; rfl
                      iexact H6
      isplitl [H7]; · iexists _; isplitr; · ipureintro; rfl
                      iexact H7
      iexists (Y 8); isplitr; · ipureintro; exact fun h => absurd h (not3_of_1 t h1)
      iexact H8
    · -- a later block of phase 0: the two column sums are added into the half's rows
      have hne : t.val ≠ 0 := fun e => hz ((condZ_iff t).mpr (by rw [e]))
      iintro ⟨⟨Hoth, ⟨%xs, %hxs, Hs⟩⟩, Ho, H0, H1, H2, H3, H4, H5, H6, H7, H8⟩
      obtain rfl := hxs hne
      iapply ((runA d (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 hz (not3_of_1 t h1) (b1 V d t) (b2 V d t) (scrAt V d t.val)).2 Set.univ _)
      isplitl [H1]; · iexact H1
      isplitl [H2]; · iexact H2
      isplitl [Hs]; · iexact Hs
      iintro ⟨H1, H2, Hs⟩
      isplitl [Hoth Hs]
      · isplitl [Hoth]; · iexact Hoth
        iexists (scrAt V d (t.val + 1)); isplitr; · ipureintro; exact fun _ => rfl
        rw [scrAt_succ_A V d t h1 hz]
        unfold stepA
        iapply (owns_of d msc _); iexact Hs
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      isplitl [H4]; · iexists _; isplitr; · ipureintro; rfl
                      iexact H4
      isplitl [H5]; · iexists _; isplitr; · ipureintro; rfl
                      iexact H5
      isplitl [H6]; · iexists _; isplitr; · ipureintro; rfl
                      iexact H6
      isplitl [H7]; · iexists _; isplitr; · ipureintro; rfl
                      iexact H7
      iexists (Y 8); isplitr; · ipureintro; exact fun h => absurd h (not3_of_1 t h1)
      iexact H8
  · -- phase 1: the result block is stored whole; the scratch is read only
    have h1 : ¬ k4_cond1 (grid4.coords t) = 1#1 := fun h => hp ((cond1_iff t).mp h)
    have h3 : k4_cond3 (grid4.coords t) = 1#1 := (cond3_iff t).mpr (by omega)
    have hne : t.val ≠ 0 := by omega
    have hres : resAt V d t = resOf (grid4.coords t) h3 (b0 V d t) (b1 V d t) (b2 V d t) (b3 V d t) (b4 V d t) (b5 V d t) (b6 V d t) (b7 V d t) (scrAt V d t.val) := by
      unfold resAt; rw [dif_pos h3]
    iintro ⟨⟨Hoth, ⟨%xs, %hxs, Hs⟩⟩, Ho, H0, H1, H2, H3, H4, H5, H6, H7, H8⟩
    obtain rfl := hxs hne
    iapply (runB d Set.univ (grid4.coords t) (m0 t) (hm0 t) (m1 t) (hm1 t) (m2 t) (hm2 t) (m3 t) (hm3 t) (m4 t) (hm4 t) (m5 t) (hm5 t) (m6 t) (hm6 t) (m7 t) (hm7 t) (m8 t) (hm8 t) msc hsc h1 h3 (b0 V d t) (b1 V d t) (b2 V d t) (b3 V d t) (b4 V d t) (b5 V d t) (b6 V d t) (b7 V d t) (scrAt V d t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [Hs]; · iexact Hs
    iintro ⟨H0, H1, H2, H3, H4, H5, H6, H7, H8, Hs⟩
    isplitl [Hoth Hs]
    · isplitl [Hoth]; · iexact Hoth
      iexists (scrAt V d t.val); isplitr; · ipureintro; exact fun _ => (scrAt_succ_B V d t h1).symm
      iexact Hs
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; isplitr; · ipureintro; rfl
                    iexact H7
    iexists (resAt V d t); isplitr; · ipureintro; exact fun _ => rfl
    rw [hres]; iexact H8

end Body

/-! ## The region -/

section Region

variable [∀ e, Nonempty (Elt F e)]
variable (V : Valuation τ sig (Elt F)) (O : CellTallies nD τ sig (HIx 2)) (W : Waits sig (HIx 2))

/-- Proof data of a pipeline this region does not enter: never read. -/
def junk (cfg : Pipeline.Cfg sig Λ₀) (c : Dev nD) : RDat τ (Elt F) (HIx 2) ℕ UU ℕ cfg c where
  A _ := fun _ => Classical.arbitrary _
  after _ _ _ _ := True
  Φ _ := iprop(emp)
  q _ := fullShare
  owed _ := 0

/-- The proof data of the three pipelines: pipeline 2's is this region's. -/
def pd : (p : Fin 3) → (c : Dev nD) → RDat τ (Elt F) (HIx 2) ℕ UU ℕ (pcf (F := F) p) c
  | 0 => fun c => junk cfg0 c
  | 1 => fun c => junk cfg2 c
  | 2 => fun c => rd2 V O W c

/-- The result array after the run is the glued array: every block a phase-0 point wrote is written again by phase 1. -/
theorem final8 (c : Dev nD) : ∀ Fa, (rd2 V O W c).ArrAt 8 cfg4.N Fa → Fa = res2 V := by
  obtain rfl : c = 0 := Subsingleton.elim _ _
  exact R2E.arrAt_final (rd2 V O W 0) (res2 V) fun t ht Y X h => by
    rw [after_8] at h
    rw [h ((cond3_iff t).mpr ht)]
    exact R2E.glue_blk (resAt V 0) t ht

/-- The scratch held whole at some contents is owned through its whole memref, and back. -/
theorem scr_in (c : Dev nD) : (scrAny (F := F) c : sProp 𝕄) ⊢ Sn V c 0 := by
  unfold scrAny Sn owns
  rw [hsc.set_eq_univ]
  iintro ⟨%f, H⟩
  iexists (msc.view.read (Elt F) f); isplitr; · ipureintro; exact fun h => absurd rfl h
  iexists f; isplitr; · ipureintro; rfl
  iexact H
theorem scr_out (c : Dev nD) (n : ℕ) : (Sn V c n : sProp 𝕄) ⊢ scrAny (F := F) c := by
  unfold scrAny Sn owns
  rw [hsc.set_eq_univ]
  iintro ⟨%xs, -, ⟨%f, -, H⟩⟩
  iexists f; iexact H

/-- REGION 2: entered holding the TensorCore's unscoped buffers at V and the core's tallies; the eight arrays behind the
    nine windows go to the pipeline (the gathered rows at two half shares), every other buffer bypasses it; the scratch
    rides in the invariant; it leaves the result array at the glued phase-1 blocks. -/
def reg2 (hO : ∀ (g : GSem nD τ sig) (i : HIx 2), 0 < O g i → i ∈ (K (F := F)).L g ∧ 0 < (K (F := F)).lev g i) :
    Pipeline.RDat.RegionSeg (pcfgs (F := F)) adm (pd V O W) (none : HIx 2) defs₀ 𝒱₀ (K (F := F)).L (K (F := F)).lev 2 where
  win := winFacts₀4
  block_pos := block_pos4
  stage_whole := stage_whole4
  K := PEmpty
  osem k := k.elim
  ho := Pipeline.OwnSemFacts.none _
  hbody c := body2 V O W c
  hwaits c := Pipeline.RDat.cellsWaits_of_cut (cfgs := pcf (F := F)) (rdats := pd V O W) (ι := (none : HIx 2)) 2 c 0 O (fun _ => rfl)
    (fun _ _ => Finset.mem_univ _) (fun _ _ => le_rfl) hO
  pre c := iprop(StableHlo.held (c : Thread nD τ) (Pipeline.ucRefs τ sig) V ∗ owes (c : Thread nD τ) O W)
  post c := iprop(StableHlo.held (c : Thread nD τ) (Pipeline.ucRefs τ sig) (upd2 V)
    ∗ ∃ W', ⌜∀ p ∈ W', p ∈ W ∨ p.2 = none⌝ ∗ owes (c : Thread nD τ) O W')
  X _ := iprop(emp)
  Y _ := iprop(emp)
  Z c := StableHlo.held (c : Thread nD τ) (Pipeline.ucRefs τ sig \ R2E.T2) V
  hentry c := R2E.hentry_of V (rd2 V O W c) O W rfl (A_eq V O W c) rfl rfl
  hin c := by
    show iprop(emp ∗ _ ∗ Pipeline.scopedRest (Ix := HIx 2) (Name := ℕ) (U := UU) (Lvl := ℕ) (Val := Elt F) spec4 c)
      ⊢ iprop(chain14 c iprop(emp) ∗ Sn V c 0)
    rw [scopedRest_chain]
    iintro ⟨-, -, H⟩
    icases (chain14_split c (scrAny c)) $$ H with ⟨Hoth, Hs⟩
    isplitl [Hoth]; · iexact Hoth
    iapply (scr_in V c); iexact Hs
  hout c := by
    rw [Pipeline.ownSems0_none]
    show iprop(chain14 c iprop(emp) ∗ Sn V c (Fin.last cfg4.N).val)
      ⊢ iprop(emp ∗ emp ∗ Pipeline.scopedRest (Ix := HIx 2) (Name := ℕ) (U := UU) (Lvl := ℕ) (Val := Elt F) spec4 c)
    rw [scopedRest_chain]
    iintro ⟨Hoth, Hs⟩
    isplitr; · iempintro
    isplitr; · iempintro
    iapply (chain14_join c (scrAny c))
    isplitl [Hoth]; · iexact Hoth
    iapply (scr_out V c _); iexact Hs
  hexit c := R2E.hexit_of V (rd2 V O W c) O W rfl (A_eq V O W c) rfl rfl (res2 V) (final8 V O W c)

end Region

end R2

section Region2

/-- REGION 2 of @main on device d: from the region boundary, the TensorCore's unscoped buffers at V, the core's tallies, the
    level facts and pipeline 2's ghost state, the custom call runs to the boundary, the buffers at V with the result array
    main_v31 at the glued phase-1 blocks, and the tallies unchanged, for the continuation. -/
theorem region2 [∀ e, Nonempty (Elt F e)] (d : Dev nD) (V : Valuation τ sig (Elt F)) (O : CellTallies nD τ sig (HIx 2)) (W : Waits sig (HIx 2))
    (hO : ∀ (g : GSem nD τ sig) (i : HIx 2), 0 < O g i → i ∈ (K (F := F)).L g ∧ 0 < (K (F := F)).lev g i)
    {α : Type} (k : PUnit → Prog (TpuEff nD τ sig (Elt F) (ΛP (F := F)) .tc) α) (Q : α → sProp 𝕄) :
    iprop((iprop(boundary (SparseCore.T d) ∗ StableHlo.held (SparseCore.T d) (Pipeline.ucRefs τ sig) (upd2 V)
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ StableHlo.held (SparseCore.T d) (Pipeline.ucRefs τ sig) V ∗ owes (SparseCore.T d) O W
        ∗ levAts (K (F := F)).L (K (F := F)).lev
        ∗ Pipeline.cellsGhost (pcf (F := F)) EP 2 d ∗ Pipeline.toksInit (pcf (F := F)) EP 2 d)
      ⊢ wp frame (wpE (D (F := F)) 𝒱 (SparseCore.T d) none) Set.univ (.op (.customCall (Pipeline.entry 2) ()) k) Q := by
  have h := Pipeline.RDat.RegionSeg.wp (pcfgs (F := F)) adm (R2.pd V O W) (none : HIx 2) pcf_inj EP defs₀ 𝒱₀ (K (F := F)).L (K (F := F)).lev
    (R2.reg2 V O W hO) d none (fun u hu => nomatch hu) k Q
  dsimp only [R2.reg2] at h
  iintro ⟨Hk, Hb, Hh, HO, Hl, Hg, Ht⟩
  iapply h
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region2

end Cert.Kernel.Hand

end
-- ==== Proof.Bits.ScTile0Inv.lean ====
/-
  One tile of gather call 0: which windows it owns and which branches of the kernel's body it takes (in closed
  form), the result's windows as the parts of a cut of its rows, runs of windows taken six at a time, and the
  invariant of the kernel's loop: per slot of the six-slot ring, the index copy and the write-out outstanding at
  the head of a trip, with what they will deliver; the windows still to write and those written.
-/
import proofs.«208461_g52518860095779_cont_9to1_m_1075_29_alg».proof.Proof.Bits.ScPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- A window number as an index of the 2500 windows (capped: every window met is below 2500). -/
def fw (w : ℕ) : Fin 2500 := ⟨min w 2499, by omega⟩
theorem fw_val {w : ℕ} (h : w < 2500) : (fw w).val = w := by show min w 2499 = w; omega

abbrev cV (L : grid1.Coords) : Fin τ.nSC := (L 0).castLE hcore1
abbrev jV (L : grid1.Coords) : Fin τ.nSub := (L 1).castLE hsub1

abbrev tW : Memref sig .scVector .hbm S20000x128 .f32 := Memref.whole main_v1_scv
abbrev iW : Memref sig .scVector .hbm S320000 .i32 := Memref.whole main_v8_scv
abbrev oW : Memref sig .scVector .hbm S320000x128 .f32 := Memref.whole main_v9_scv
abbrev sI : Memref sig .scVector .vmem S6x128 .i32 := Memref.whole cc1_scratch0
abbrev sR : Memref sig .scVector .vmem S6x128x128 .f32 := Memref.whole cc1_scratch1

/-- Word r of the index list (capped: every word met is below 320000). -/
def ixAt (ix : Ix0 (F := F)) (r : ℕ) : Elt F .i32 := ix (ValueIdx.ix1 (⟨min r 319999, by omega⟩ : Fin 320000))

/-! ## The tile's windows and the branch conditions -/

/-- How many windows tile L owns, -/
def nW (L : grid1.Coords) : ℕ := 78 + (if 2 * (L 1).val + (L 0).val < 4 then 1 else 0)
/-- and the first of them. -/
def loL (L : grid1.Coords) : ℕ := lo0 (2 * (L 1).val + (L 0).val)

theorem nW_ge (L : grid1.Coords) : 78 ≤ nW L := by unfold nW; omega
theorem nW_le (L : grid1.Coords) : nW L ≤ 79 := by unfold nW; split <;> omega
theorem loL_hi (L : grid1.Coords) : loL L + nW L ≤ 2500 := by
  have h0 : (L 0).val < 2 := (L 0).isLt
  have h1 : (L 1).val < 16 := (L 1).isLt
  unfold loL nW lo0; split <;> omega

theorem cond1_true : ∀ L : grid1.Coords, k1_cond1 L = 1#1 := by decide +kernel
theorem cond2_true : ∀ L : grid1.Coords, k1_cond2 L = 1#1 := by decide +kernel
theorem cond3_true : ∀ L : grid1.Coords, k1_cond3 L = 1#1 := by decide +kernel
theorem cond4_true : ∀ L : grid1.Coords, k1_cond4 L = 1#1 := by decide +kernel
theorem cond5_true : ∀ L : grid1.Coords, k1_cond5 L = 1#1 := by decide +kernel
theorem cond6_true : ∀ L : grid1.Coords, k1_cond6 L = 1#1 := by decide +kernel
theorem cond7_iff : ∀ (L : grid1.Coords) (t : Fin k1_t1_loop.trips), k1_cond7 L t = 1#1 ↔ 6 * t.val + 0 < nW L := by decide +kernel
theorem cond9_iff : ∀ (L : grid1.Coords) (t : Fin k1_t1_loop.trips), k1_cond9 L t = 1#1 ↔ 6 * t.val + 1 < nW L := by decide +kernel
theorem cond11_iff : ∀ (L : grid1.Coords) (t : Fin k1_t1_loop.trips), k1_cond11 L t = 1#1 ↔ 6 * t.val + 2 < nW L := by decide +kernel
theorem cond13_iff : ∀ (L : grid1.Coords) (t : Fin k1_t1_loop.trips), k1_cond13 L t = 1#1 ↔ 6 * t.val + 3 < nW L := by decide +kernel
theorem cond15_iff : ∀ (L : grid1.Coords) (t : Fin k1_t1_loop.trips), k1_cond15 L t = 1#1 ↔ 6 * t.val + 4 < nW L := by decide +kernel
theorem cond17_iff : ∀ (L : grid1.Coords) (t : Fin k1_t1_loop.trips), k1_cond17 L t = 1#1 ↔ 6 * t.val + 5 < nW L := by decide +kernel
theorem cond8_iff : ∀ (t : Fin k1_t1_loop.trips), k1_cond8 t = 1#1 ↔ 0 < t.val := by decide +kernel
theorem cond10_iff : ∀ (t : Fin k1_t1_loop.trips), k1_cond10 t = 1#1 ↔ 0 < t.val := by decide +kernel
theorem cond12_iff : ∀ (t : Fin k1_t1_loop.trips), k1_cond12 t = 1#1 ↔ 0 < t.val := by decide +kernel
theorem cond14_iff : ∀ (t : Fin k1_t1_loop.trips), k1_cond14 t = 1#1 ↔ 0 < t.val := by decide +kernel
theorem cond16_iff : ∀ (t : Fin k1_t1_loop.trips), k1_cond16 t = 1#1 ↔ 0 < t.val := by decide +kernel
theorem cond18_iff : ∀ (t : Fin k1_t1_loop.trips), k1_cond18 t = 1#1 ↔ 0 < t.val := by decide +kernel
theorem cond19_iff : ∀ (L : grid1.Coords) (t : Fin k1_t1_loop.trips), k1_cond19 L t = 1#1 ↔ 6 * t.val + 0 < nW L := by decide +kernel
theorem cond21_iff : ∀ (L : grid1.Coords) (t : Fin k1_t1_loop.trips), k1_cond21 L t = 1#1 ↔ 6 * t.val + 1 < nW L := by decide +kernel
theorem cond23_iff : ∀ (L : grid1.Coords) (t : Fin k1_t1_loop.trips), k1_cond23 L t = 1#1 ↔ 6 * t.val + 2 < nW L := by decide +kernel
theorem cond25_iff : ∀ (L : grid1.Coords) (t : Fin k1_t1_loop.trips), k1_cond25 L t = 1#1 ↔ 6 * t.val + 3 < nW L := by decide +kernel
theorem cond27_iff : ∀ (L : grid1.Coords) (t : Fin k1_t1_loop.trips), k1_cond27 L t = 1#1 ↔ 6 * t.val + 4 < nW L := by decide +kernel
theorem cond29_iff : ∀ (L : grid1.Coords) (t : Fin k1_t1_loop.trips), k1_cond29 L t = 1#1 ↔ 6 * t.val + 5 < nW L := by decide +kernel
theorem cond20_iff : ∀ (L : grid1.Coords) (t : Fin k1_t1_loop.trips), k1_cond20 L t = 1#1 ↔ 6 * t.val + 6 < nW L := by decide +kernel
theorem cond22_iff : ∀ (L : grid1.Coords) (t : Fin k1_t1_loop.trips), k1_cond22 L t = 1#1 ↔ 6 * t.val + 7 < nW L := by decide +kernel
theorem cond24_iff : ∀ (L : grid1.Coords) (t : Fin k1_t1_loop.trips), k1_cond24 L t = 1#1 ↔ 6 * t.val + 8 < nW L := by decide +kernel
theorem cond26_iff : ∀ (L : grid1.Coords) (t : Fin k1_t1_loop.trips), k1_cond26 L t = 1#1 ↔ 6 * t.val + 9 < nW L := by decide +kernel
theorem cond28_iff : ∀ (L : grid1.Coords) (t : Fin k1_t1_loop.trips), k1_cond28 L t = 1#1 ↔ 6 * t.val + 10 < nW L := by decide +kernel
theorem cond30_iff : ∀ (L : grid1.Coords) (t : Fin k1_t1_loop.trips), k1_cond30 L t = 1#1 ↔ 6 * t.val + 11 < nW L := by decide +kernel
theorem trips_eq : k1_t1_loop.trips = 14 := by decide

/-- The printed slice of the result at row offset 128 w is window w. -/
theorem oRect_eq (w : Fin 2500) (off : Fin 2 → ℕ) (h : ∀ a, off a + S128x128.size a ≤ S320000x128.size a) (e : off = ![128 * w.val, 0]) :
    Rect.unit (s := S320000x128) off S128x128.size h = oWin0 w := by
  subst e
  unfold oWin0 Rect.part Rect.block
  congr 1 <;> funext a
  · match a with
    | 0 => simp [Shape.partIx, Shape.partSize, S320000x128, Nat.mul_comm]
    | 1 => simp [Shape.partIx, Shape.partSize, S320000x128]
  · match a with
    | 0 => simp [Shape.partSize, S320000x128, S128x128]
    | 1 => simp [Shape.partSize, S320000x128, S128x128]

/-! ## Runs of windows: the first six set apart, one more joined at the end -/

section Pools
omit [FloatOps F] in
theorem head_fw (Φ : Fin 2500 → sProp 𝕄) (a h : ℕ) (h1 : a < h) (h2 : a < 2500) :
    bigSep (Ring.rangeSet 2500 a h) Φ = iprop(Φ (fw a) ∗ bigSep (Ring.rangeSet 2500 (a + 1) h) Φ) := by
  rw [Ring.bigSep_rangeSet_head h1 h2, show (⟨a, h2⟩ : Fin 2500) = fw a from Fin.ext (fw_val h2).symm]
omit [FloatOps F] in
theorem last_fw (Φ : Fin 2500 → sProp 𝕄) (a h : ℕ) (h1 : a ≤ h) (h2 : h < 2500) :
    bigSep (Ring.rangeSet 2500 a (h + 1)) Φ = iprop(Φ (fw h) ∗ bigSep (Ring.rangeSet 2500 a h) Φ) := by
  rw [Ring.bigSep_rangeSet_last (by omega : a < h + 1) (by omega : h + 1 ≤ 2500)]
  simp only [Nat.add_sub_cancel]
  rw [show (⟨h, by omega⟩ : Fin 2500) = fw h from Fin.ext (fw_val h2).symm]
omit [FloatOps F] in
theorem take6 (Φ : Fin 2500 → sProp 𝕄) (a h : ℕ) (h1 : a + 6 ≤ h) (h2 : h ≤ 2500) :
    bigSep (Ring.rangeSet 2500 a h) Φ = iprop(Φ (fw a) ∗ Φ (fw (a + 1)) ∗ Φ (fw (a + 2)) ∗ Φ (fw (a + 3)) ∗ Φ (fw (a + 4)) ∗ Φ (fw (a + 5))
      ∗ bigSep (Ring.rangeSet 2500 (a + 6) h) Φ) := by
  rw [head_fw Φ a h (by omega) (by omega), head_fw Φ (a + 1) h (by omega) (by omega), head_fw Φ (a + 2) h (by omega) (by omega),
    head_fw Φ (a + 3) h (by omega) (by omega), head_fw Φ (a + 4) h (by omega) (by omega), head_fw Φ (a + 5) h (by omega) (by omega)]
omit [FloatOps F] in
theorem put6 (Φ : Fin 2500 → sProp 𝕄) (a h : ℕ) (h1 : a ≤ h) (h2 : h + 6 ≤ 2500) :
    bigSep (Ring.rangeSet 2500 a (h + 6)) Φ = iprop(Φ (fw (h + 5)) ∗ Φ (fw (h + 4)) ∗ Φ (fw (h + 3)) ∗ Φ (fw (h + 2)) ∗ Φ (fw (h + 1)) ∗ Φ (fw h)
      ∗ bigSep (Ring.rangeSet 2500 a h) Φ) := by
  rw [last_fw Φ a (h + 5) (by omega) (by omega), last_fw Φ a (h + 4) (by omega) (by omega), last_fw Φ a (h + 3) (by omega) (by omega),
    last_fw Φ a (h + 2) (by omega) (by omega), last_fw Φ a (h + 1) (by omega) (by omega), last_fw Φ a h (by omega) (by omega)]
end Pools

/-! ## One tile: the loop's invariant -/

section Tile
variable (d : Dev nD) (L : grid1.Coords)
/-- The window whose write-out is outstanding on slot b at the head of trip t > 0, counted from the tile's first. -/
def wOut (n b t : ℕ) : ℕ := if 6 * (t - 1) + b < n then 6 * (t - 1) + b else 6 * (t - 2) + b
/-- How many of the tile's windows are written and waited for at the head of trip t. -/
def dn (n t : ℕ) : ℕ := if t = 14 then (if n = 79 then 73 else 72) else 6 * t - 6

/-- Slot 0, index side, a copy outstanding: the slot will hold window w of the list; the list's read token lent. -/
def idxFly0 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![0] S1.size inb_S6_S1_0)).squeeze S_ squeezes_S1_S_).sem) (default : HIx 2) 4096
        iprop(((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} ci) ∗ ((iW).view.loc (V d (cV L) (jV L)) ↦[I]{Transfers.shareTokN qi 4} ix))
    ∗ ((iW).view.loc (V d (cV L) (jV L)) ↦[Finset.univ \ I]{Transfers.shareTokN qi 4} ix))
/-- Slot 0, index side, nothing outstanding. -/
def idxIdle0 (qi : PosShare TreeShare) (ix : Ix0 (F := F)) : sProp 𝕄 :=
  iprop(semVal ((V d (cV L) (jV L)), SemLoc.dma ((cc1_scratch2.slice (Rect.unit (s := S6) ![0] S1.size inb_S6_S1_0)).squeeze S_ squeezes_S1_S_).sem) 0 ∗ (∃ ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} ci)
    ∗ ((iW).view.loc (V d (cV L) (jV L)) ↦{Transfers.shareTokN qi 4} ix))
def idxSide0 (qi : PosShare TreeShare) (ix : Ix0 (F := F)) (t : ℕ) : sProp 𝕄 :=
  if 6 * t + 0 < nW L then idxFly0 d L qi ix (loL L + 6 * t + 0) else idxIdle0 d L qi ix
theorem idxSide0_pos (qi : PosShare TreeShare) (ix : Ix0 (F := F)) (t : ℕ) (h : 6 * t + 0 < nW L) :
    idxSide0 d L qi ix t = idxFly0 d L qi ix (loL L + 6 * t + 0) := if_pos h
theorem idxSide0_neg (qi : PosShare TreeShare) (ix : Ix0 (F := F)) (t : ℕ) (h : ¬ 6 * t + 0 < nW L) :
    idxSide0 d L qi ix t = idxIdle0 d L qi ix := if_neg h
/-- Slot 0, rows side, a write-out outstanding: result window w at the gathered rows, and the slot's rows back. -/
def rowFly0 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![0] S1.size inb_S6_S1_0)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)))
def rowIdle0 : sProp 𝕄 :=
  iprop(semVal ((V d (cV L) (jV L)), SemLoc.dma ((cc1_scratch4.slice (Rect.unit (s := S6) ![0] S1.size inb_S6_S1_0)).squeeze S_ squeezes_S1_S_).sem) 0 ∗ ∃ gr : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)
def rowSide0 (tb : Tab (F := F)) (ix : Ix0 (F := F)) (t : ℕ) : sProp 𝕄 :=
  if t = 0 then rowIdle0 d L else rowFly0 d L tb ix (loL L + wOut (nW L) 0 t)
theorem rowSide0_zero (tb : Tab (F := F)) (ix : Ix0 (F := F)) (t : ℕ) (h : t = 0) : rowSide0 d L tb ix t = rowIdle0 d L := if_pos h
theorem rowSide0_pos (tb : Tab (F := F)) (ix : Ix0 (F := F)) (t : ℕ) (h : t ≠ 0) :
    rowSide0 d L tb ix t = rowFly0 d L tb ix (loL L + wOut (nW L) 0 t) := if_neg h

/-- Slot 1, index side, a copy outstanding: the slot will hold window w of the list; the list's read token lent. -/
def idxFly1 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![1] S1.size inb_S6_S1_1)).squeeze S_ squeezes_S1_S_).sem) (default : HIx 2) 4096
        iprop(((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} ci) ∗ ((iW).view.loc (V d (cV L) (jV L)) ↦[I]{Transfers.shareTokN qi 5} ix))
    ∗ ((iW).view.loc (V d (cV L) (jV L)) ↦[Finset.univ \ I]{Transfers.shareTokN qi 5} ix))
/-- Slot 1, index side, nothing outstanding. -/
def idxIdle1 (qi : PosShare TreeShare) (ix : Ix0 (F := F)) : sProp 𝕄 :=
  iprop(semVal ((V d (cV L) (jV L)), SemLoc.dma ((cc1_scratch2.slice (Rect.unit (s := S6) ![1] S1.size inb_S6_S1_1)).squeeze S_ squeezes_S1_S_).sem) 0 ∗ (∃ ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} ci)
    ∗ ((iW).view.loc (V d (cV L) (jV L)) ↦{Transfers.shareTokN qi 5} ix))
def idxSide1 (qi : PosShare TreeShare) (ix : Ix0 (F := F)) (t : ℕ) : sProp 𝕄 :=
  if 6 * t + 1 < nW L then idxFly1 d L qi ix (loL L + 6 * t + 1) else idxIdle1 d L qi ix
theorem idxSide1_pos (qi : PosShare TreeShare) (ix : Ix0 (F := F)) (t : ℕ) (h : 6 * t + 1 < nW L) :
    idxSide1 d L qi ix t = idxFly1 d L qi ix (loL L + 6 * t + 1) := if_pos h
theorem idxSide1_neg (qi : PosShare TreeShare) (ix : Ix0 (F := F)) (t : ℕ) (h : ¬ 6 * t + 1 < nW L) :
    idxSide1 d L qi ix t = idxIdle1 d L qi ix := if_neg h
/-- Slot 1, rows side, a write-out outstanding: result window w at the gathered rows, and the slot's rows back. -/
def rowFly1 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![1] S1.size inb_S6_S1_1)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)))
def rowIdle1 : sProp 𝕄 :=
  iprop(semVal ((V d (cV L) (jV L)), SemLoc.dma ((cc1_scratch4.slice (Rect.unit (s := S6) ![1] S1.size inb_S6_S1_1)).squeeze S_ squeezes_S1_S_).sem) 0 ∗ ∃ gr : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)
def rowSide1 (tb : Tab (F := F)) (ix : Ix0 (F := F)) (t : ℕ) : sProp 𝕄 :=
  if t = 0 then rowIdle1 d L else rowFly1 d L tb ix (loL L + wOut (nW L) 1 t)
theorem rowSide1_zero (tb : Tab (F := F)) (ix : Ix0 (F := F)) (t : ℕ) (h : t = 0) : rowSide1 d L tb ix t = rowIdle1 d L := if_pos h
theorem rowSide1_pos (tb : Tab (F := F)) (ix : Ix0 (F := F)) (t : ℕ) (h : t ≠ 0) :
    rowSide1 d L tb ix t = rowFly1 d L tb ix (loL L + wOut (nW L) 1 t) := if_neg h

/-- Slot 2, index side, a copy outstanding: the slot will hold window w of the list; the list's read token lent. -/
def idxFly2 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![2] S1.size inb_S6_S1_2)).squeeze S_ squeezes_S1_S_).sem) (default : HIx 2) 4096
        iprop(((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} ci) ∗ ((iW).view.loc (V d (cV L) (jV L)) ↦[I]{Transfers.shareTokN qi 6} ix))
    ∗ ((iW).view.loc (V d (cV L) (jV L)) ↦[Finset.univ \ I]{Transfers.shareTokN qi 6} ix))
/-- Slot 2, index side, nothing outstanding. -/
def idxIdle2 (qi : PosShare TreeShare) (ix : Ix0 (F := F)) : sProp 𝕄 :=
  iprop(semVal ((V d (cV L) (jV L)), SemLoc.dma ((cc1_scratch2.slice (Rect.unit (s := S6) ![2] S1.size inb_S6_S1_2)).squeeze S_ squeezes_S1_S_).sem) 0 ∗ (∃ ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} ci)
    ∗ ((iW).view.loc (V d (cV L) (jV L)) ↦{Transfers.shareTokN qi 6} ix))
def idxSide2 (qi : PosShare TreeShare) (ix : Ix0 (F := F)) (t : ℕ) : sProp 𝕄 :=
  if 6 * t + 2 < nW L then idxFly2 d L qi ix (loL L + 6 * t + 2) else idxIdle2 d L qi ix
theorem idxSide2_pos (qi : PosShare TreeShare) (ix : Ix0 (F := F)) (t : ℕ) (h : 6 * t + 2 < nW L) :
    idxSide2 d L qi ix t = idxFly2 d L qi ix (loL L + 6 * t + 2) := if_pos h
theorem idxSide2_neg (qi : PosShare TreeShare) (ix : Ix0 (F := F)) (t : ℕ) (h : ¬ 6 * t + 2 < nW L) :
    idxSide2 d L qi ix t = idxIdle2 d L qi ix := if_neg h
/-- Slot 2, rows side, a write-out outstanding: result window w at the gathered rows, and the slot's rows back. -/
def rowFly2 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![2] S1.size inb_S6_S1_2)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)))
def rowIdle2 : sProp 𝕄 :=
  iprop(semVal ((V d (cV L) (jV L)), SemLoc.dma ((cc1_scratch4.slice (Rect.unit (s := S6) ![2] S1.size inb_S6_S1_2)).squeeze S_ squeezes_S1_S_).sem) 0 ∗ ∃ gr : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)
def rowSide2 (tb : Tab (F := F)) (ix : Ix0 (F := F)) (t : ℕ) : sProp 𝕄 :=
  if t = 0 then rowIdle2 d L else rowFly2 d L tb ix (loL L + wOut (nW L) 2 t)
theorem rowSide2_zero (tb : Tab (F := F)) (ix : Ix0 (F := F)) (t : ℕ) (h : t = 0) : rowSide2 d L tb ix t = rowIdle2 d L := if_pos h
theorem rowSide2_pos (tb : Tab (F := F)) (ix : Ix0 (F := F)) (t : ℕ) (h : t ≠ 0) :
    rowSide2 d L tb ix t = rowFly2 d L tb ix (loL L + wOut (nW L) 2 t) := if_neg h

/-- Slot 3, index side, a copy outstanding: the slot will hold window w of the list; the list's read token lent. -/
def idxFly3 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![3] S1.size inb_S6_S1_3)).squeeze S_ squeezes_S1_S_).sem) (default : HIx 2) 4096
        iprop(((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} ci) ∗ ((iW).view.loc (V d (cV L) (jV L)) ↦[I]{Transfers.shareTokN qi 7} ix))
    ∗ ((iW).view.loc (V d (cV L) (jV L)) ↦[Finset.univ \ I]{Transfers.shareTokN qi 7} ix))
/-- Slot 3, index side, nothing outstanding. -/
def idxIdle3 (qi : PosShare TreeShare) (ix : Ix0 (F := F)) : sProp 𝕄 :=
  iprop(semVal ((V d (cV L) (jV L)), SemLoc.dma ((cc1_scratch2.slice (Rect.unit (s := S6) ![3] S1.size inb_S6_S1_3)).squeeze S_ squeezes_S1_S_).sem) 0 ∗ (∃ ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} ci)
    ∗ ((iW).view.loc (V d (cV L) (jV L)) ↦{Transfers.shareTokN qi 7} ix))
def idxSide3 (qi : PosShare TreeShare) (ix : Ix0 (F := F)) (t : ℕ) : sProp 𝕄 :=
  if 6 * t + 3 < nW L then idxFly3 d L qi ix (loL L + 6 * t + 3) else idxIdle3 d L qi ix
theorem idxSide3_pos (qi : PosShare TreeShare) (ix : Ix0 (F := F)) (t : ℕ) (h : 6 * t + 3 < nW L) :
    idxSide3 d L qi ix t = idxFly3 d L qi ix (loL L + 6 * t + 3) := if_pos h
theorem idxSide3_neg (qi : PosShare TreeShare) (ix : Ix0 (F := F)) (t : ℕ) (h : ¬ 6 * t + 3 < nW L) :
    idxSide3 d L qi ix t = idxIdle3 d L qi ix := if_neg h
/-- Slot 3, rows side, a write-out outstanding: result window w at the gathered rows, and the slot's rows back. -/
def rowFly3 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![3] S1.size inb_S6_S1_3)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)))
def rowIdle3 : sProp 𝕄 :=
  iprop(semVal ((V d (cV L) (jV L)), SemLoc.dma ((cc1_scratch4.slice (Rect.unit (s := S6) ![3] S1.size inb_S6_S1_3)).squeeze S_ squeezes_S1_S_).sem) 0 ∗ ∃ gr : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)
def rowSide3 (tb : Tab (F := F)) (ix : Ix0 (F := F)) (t : ℕ) : sProp 𝕄 :=
  if t = 0 then rowIdle3 d L else rowFly3 d L tb ix (loL L + wOut (nW L) 3 t)
theorem rowSide3_zero (tb : Tab (F := F)) (ix : Ix0 (F := F)) (t : ℕ) (h : t = 0) : rowSide3 d L tb ix t = rowIdle3 d L := if_pos h
theorem rowSide3_pos (tb : Tab (F := F)) (ix : Ix0 (F := F)) (t : ℕ) (h : t ≠ 0) :
    rowSide3 d L tb ix t = rowFly3 d L tb ix (loL L + wOut (nW L) 3 t) := if_neg h

/-- Slot 4, index side, a copy outstanding: the slot will hold window w of the list; the list's read token lent. -/
def idxFly4 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![4] S1.size inb_S6_S1_4)).squeeze S_ squeezes_S1_S_).sem) (default : HIx 2) 4096
        iprop(((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} ci) ∗ ((iW).view.loc (V d (cV L) (jV L)) ↦[I]{Transfers.shareTokN qi 8} ix))
    ∗ ((iW).view.loc (V d (cV L) (jV L)) ↦[Finset.univ \ I]{Transfers.shareTokN qi 8} ix))
/-- Slot 4, index side, nothing outstanding. -/
def idxIdle4 (qi : PosShare TreeShare) (ix : Ix0 (F := F)) : sProp 𝕄 :=
  iprop(semVal ((V d (cV L) (jV L)), SemLoc.dma ((cc1_scratch2.slice (Rect.unit (s := S6) ![4] S1.size inb_S6_S1_4)).squeeze S_ squeezes_S1_S_).sem) 0 ∗ (∃ ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} ci)
    ∗ ((iW).view.loc (V d (cV L) (jV L)) ↦{Transfers.shareTokN qi 8} ix))
def idxSide4 (qi : PosShare TreeShare) (ix : Ix0 (F := F)) (t : ℕ) : sProp 𝕄 :=
  if 6 * t + 4 < nW L then idxFly4 d L qi ix (loL L + 6 * t + 4) else idxIdle4 d L qi ix
theorem idxSide4_pos (qi : PosShare TreeShare) (ix : Ix0 (F := F)) (t : ℕ) (h : 6 * t + 4 < nW L) :
    idxSide4 d L qi ix t = idxFly4 d L qi ix (loL L + 6 * t + 4) := if_pos h
theorem idxSide4_neg (qi : PosShare TreeShare) (ix : Ix0 (F := F)) (t : ℕ) (h : ¬ 6 * t + 4 < nW L) :
    idxSide4 d L qi ix t = idxIdle4 d L qi ix := if_neg h
/-- Slot 4, rows side, a write-out outstanding: result window w at the gathered rows, and the slot's rows back. -/
def rowFly4 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![4] S1.size inb_S6_S1_4)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)))
def rowIdle4 : sProp 𝕄 :=
  iprop(semVal ((V d (cV L) (jV L)), SemLoc.dma ((cc1_scratch4.slice (Rect.unit (s := S6) ![4] S1.size inb_S6_S1_4)).squeeze S_ squeezes_S1_S_).sem) 0 ∗ ∃ gr : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)
def rowSide4 (tb : Tab (F := F)) (ix : Ix0 (F := F)) (t : ℕ) : sProp 𝕄 :=
  if t = 0 then rowIdle4 d L else rowFly4 d L tb ix (loL L + wOut (nW L) 4 t)
theorem rowSide4_zero (tb : Tab (F := F)) (ix : Ix0 (F := F)) (t : ℕ) (h : t = 0) : rowSide4 d L tb ix t = rowIdle4 d L := if_pos h
theorem rowSide4_pos (tb : Tab (F := F)) (ix : Ix0 (F := F)) (t : ℕ) (h : t ≠ 0) :
    rowSide4 d L tb ix t = rowFly4 d L tb ix (loL L + wOut (nW L) 4 t) := if_neg h

/-- Slot 5, index side, a copy outstanding: the slot will hold window w of the list; the list's read token lent. -/
def idxFly5 (qi : PosShare TreeShare) (ix : Ix0 (F := F)) (w : ℕ) : sProp 𝕄 :=
  iprop(∃ (ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (I : Finset S320000.Idx),
    ⌜∀ x : S128.Idx, (((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val)⌝
    ∗ Transfers.Flight countersEmb (V d (cV L) (jV L)) (SemLoc.dma ((cc1_scratch2.slice (Rect.unit (s := S6) ![5] S1.size inb_S6_S1_5)).squeeze S_ squeezes_S1_S_).sem) (default : HIx 2) 4096
        iprop(((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} ci) ∗ ((iW).view.loc (V d (cV L) (jV L)) ↦[I]{Transfers.shareTokN qi 9} ix))
    ∗ ((iW).view.loc (V d (cV L) (jV L)) ↦[Finset.univ \ I]{Transfers.shareTokN qi 9} ix))
/-- Slot 5, index side, nothing outstanding. -/
def idxIdle5 (qi : PosShare TreeShare) (ix : Ix0 (F := F)) : sProp 𝕄 :=
  iprop(semVal ((V d (cV L) (jV L)), SemLoc.dma ((cc1_scratch2.slice (Rect.unit (s := S6) ![5] S1.size inb_S6_S1_5)).squeeze S_ squeezes_S1_S_).sem) 0 ∗ (∃ ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} ci)
    ∗ ((iW).view.loc (V d (cV L) (jV L)) ↦{Transfers.shareTokN qi 9} ix))
def idxSide5 (qi : PosShare TreeShare) (ix : Ix0 (F := F)) (t : ℕ) : sProp 𝕄 :=
  if 6 * t + 5 < nW L then idxFly5 d L qi ix (loL L + 6 * t + 5) else idxIdle5 d L qi ix
theorem idxSide5_pos (qi : PosShare TreeShare) (ix : Ix0 (F := F)) (t : ℕ) (h : 6 * t + 5 < nW L) :
    idxSide5 d L qi ix t = idxFly5 d L qi ix (loL L + 6 * t + 5) := if_pos h
theorem idxSide5_neg (qi : PosShare TreeShare) (ix : Ix0 (F := F)) (t : ℕ) (h : ¬ 6 * t + 5 < nW L) :
    idxSide5 d L qi ix t = idxIdle5 d L qi ix := if_neg h
/-- Slot 5, rows side, a write-out outstanding: result window w at the gathered rows, and the slot's rows back. -/
def rowFly5 (tb : Tab (F := F)) (ix : Ix0 (F := F)) (w : ℕ) : sProp 𝕄 :=
  iprop(∃ (gr : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (fo : Out0 (F := F)), ⌜∀ j ∈ oSet0 (fw w), fo j = gath0 tb ix j⌝
    ∗ Transfers.Flight countersEmb (V d (cV L) (jV L)) (SemLoc.dma ((cc1_scratch4.slice (Rect.unit (s := S6) ![5] S1.size inb_S6_S1_5)).squeeze S_ squeezes_S1_S_).sem) (default : HIx 2) 524288
        iprop((oLoc0 d ↦[oSet0 (fw w)]{fullShare} fo) ∗ ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)))
def rowIdle5 : sProp 𝕄 :=
  iprop(semVal ((V d (cV L) (jV L)), SemLoc.dma ((cc1_scratch4.slice (Rect.unit (s := S6) ![5] S1.size inb_S6_S1_5)).squeeze S_ squeezes_S1_S_).sem) 0 ∗ ∃ gr : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)
def rowSide5 (tb : Tab (F := F)) (ix : Ix0 (F := F)) (t : ℕ) : sProp 𝕄 :=
  if t = 0 then rowIdle5 d L else rowFly5 d L tb ix (loL L + wOut (nW L) 5 t)
theorem rowSide5_zero (tb : Tab (F := F)) (ix : Ix0 (F := F)) (t : ℕ) (h : t = 0) : rowSide5 d L tb ix t = rowIdle5 d L := if_pos h
theorem rowSide5_pos (tb : Tab (F := F)) (ix : Ix0 (F := F)) (t : ℕ) (h : t ≠ 0) :
    rowSide5 d L tb ix t = rowFly5 d L tb ix (loL L + wOut (nW L) 5 t) := if_neg h

/-- The tile's result windows not yet written out, at what the array held before, -/
def todoP (f0 : Out0 (F := F)) (t : ℕ) : sProp 𝕄 :=
  bigSep (Ring.rangeSet 2500 (loL L + 6 * t) (loL L + nW L)) fun w => oLoc0 d ↦[oSet0 w]{fullShare} f0
/-- and those written and waited for, at the gathered rows. -/
def doneP (tb : Tab (F := F)) (ix : Ix0 (F := F)) (t : ℕ) : sProp 𝕄 :=
  bigSep (Ring.rangeSet 2500 (loL L) (loL L + dn (nW L) t)) fun w => oLoc0 d ↦[oSet0 w]{fullShare} gath0 tb ix

/-- The loop's invariant at the head of trip t. -/
def inv (qi qt : PosShare TreeShare) (tb : Tab (F := F)) (ix : Ix0 (F := F)) (f0 : Out0 (F := F))
    (O : CellTallies nD τ sig (HIx 2)) (W : Waits sig (HIx 2)) (t : ℕ) (_ : Unit) : sProp 𝕄 :=
  iprop((Transfers.MayWaits (V d (cV L) (jV L)) (none : HIx 2) O : sProp 𝕄)
    ∗ ((tW).view.loc (V d (cV L) (jV L)) ↦{Transfers.shareTokN qt 10} tb)
    ∗ ((tW).view.loc (V d (cV L) (jV L)) ↦{Transfers.shareTokN qt 11} tb)
    ∗ ((tW).view.loc (V d (cV L) (jV L)) ↦{Transfers.shareTokN qt 12} tb)
    ∗ ((tW).view.loc (V d (cV L) (jV L)) ↦{Transfers.shareTokN qt 13} tb)
    ∗ ((tW).view.loc (V d (cV L) (jV L)) ↦{Transfers.shareTokN qt 14} tb)
    ∗ ((tW).view.loc (V d (cV L) (jV L)) ↦{Transfers.shareTokN qt 15} tb)
    ∗ semVal ((V d (cV L) (jV L)), SemLoc.dma ((cc1_scratch3.slice (Rect.unit (s := S6) ![0] S1.size inb_S6_S1_0)).squeeze S_ squeezes_S1_S_).sem) 0
    ∗ semVal ((V d (cV L) (jV L)), SemLoc.dma ((cc1_scratch3.slice (Rect.unit (s := S6) ![1] S1.size inb_S6_S1_1)).squeeze S_ squeezes_S1_S_).sem) 0
    ∗ semVal ((V d (cV L) (jV L)), SemLoc.dma ((cc1_scratch3.slice (Rect.unit (s := S6) ![2] S1.size inb_S6_S1_2)).squeeze S_ squeezes_S1_S_).sem) 0
    ∗ semVal ((V d (cV L) (jV L)), SemLoc.dma ((cc1_scratch3.slice (Rect.unit (s := S6) ![3] S1.size inb_S6_S1_3)).squeeze S_ squeezes_S1_S_).sem) 0
    ∗ semVal ((V d (cV L) (jV L)), SemLoc.dma ((cc1_scratch3.slice (Rect.unit (s := S6) ![4] S1.size inb_S6_S1_4)).squeeze S_ squeezes_S1_S_).sem) 0
    ∗ semVal ((V d (cV L) (jV L)), SemLoc.dma ((cc1_scratch3.slice (Rect.unit (s := S6) ![5] S1.size inb_S6_S1_5)).squeeze S_ squeezes_S1_S_).sem) 0
    ∗ idxSide0 d L qi ix t ∗ idxSide1 d L qi ix t ∗ idxSide2 d L qi ix t ∗ idxSide3 d L qi ix t ∗ idxSide4 d L qi ix t ∗ idxSide5 d L qi ix t
    ∗ rowSide0 d L tb ix t ∗ rowSide1 d L tb ix t ∗ rowSide2 d L tb ix t ∗ rowSide3 d L tb ix t ∗ rowSide4 d L tb ix t ∗ rowSide5 d L tb ix t
    ∗ todoP d L f0 t ∗ doneP d L tb ix t
    ∗ ∃ W', ⌜∀ p ∈ W', p ∈ W ∨ p.2 = none⌝ ∗ owes (V d (cV L) (jV L)) O W')

/-! ## The printed slices of the result are the tile's windows -/

theorem offWO0_eq (t : Fin k1_t1_loop.trips) : k1_off20 L t = ![128 * (loL L + 6 * t.val), 0] := by
  rw [k1_off20_eq]; unfold loL lo0; congr 1; omega
theorem opiece0_eq (t : Fin k1_t1_loop.trips) (hB0 : k1_cond19 L t = 1#1) (f : Out0 (F := F)) :
    ((oW.slice (Rect.unit (s := S320000x128) (k1_off20 L t) S128x128.size (k1_off20_inb L t hB0)) (fun _ => rfl)).view.loc (V d (cV L) (jV L)) ↦[(oW.slice (Rect.unit (s := S320000x128) (k1_off20 L t) S128x128.size (k1_off20_inb L t hB0)) (fun _ => rfl)).view.set]{fullShare} f : sProp 𝕄)
      = (oLoc0 d ↦[oSet0 (fw (loL L + 6 * t.val))]{fullShare} f) := by
  have hb := (cond19_iff L t).mp hB0
  have hh := loL_hi L
  have e : Rect.unit (s := S320000x128) (k1_off20 L t) S128x128.size (k1_off20_inb L t hB0) = oWin0 (fw (loL L + 6 * t.val)) :=
    oRect_eq _ _ _ (by rw [offWO0_eq, fw_val (by omega)])
  show (oLoc0 d ↦[((oW).view.slice (Rect.unit (s := S320000x128) (k1_off20 L t) S128x128.size (k1_off20_inb L t hB0))).set]{fullShare} f : sProp 𝕄) = _
  rw [e]

theorem offWO1_eq (t : Fin k1_t1_loop.trips) : k1_off22 L t = ![128 * (loL L + 6 * t.val + 1), 0] := by
  rw [k1_off22_eq]; unfold loL lo0; congr 1; omega
theorem opiece1_eq (t : Fin k1_t1_loop.trips) (hB1 : k1_cond21 L t = 1#1) (f : Out0 (F := F)) :
    ((oW.slice (Rect.unit (s := S320000x128) (k1_off22 L t) S128x128.size (k1_off22_inb L t hB1)) (fun _ => rfl)).view.loc (V d (cV L) (jV L)) ↦[(oW.slice (Rect.unit (s := S320000x128) (k1_off22 L t) S128x128.size (k1_off22_inb L t hB1)) (fun _ => rfl)).view.set]{fullShare} f : sProp 𝕄)
      = (oLoc0 d ↦[oSet0 (fw (loL L + 6 * t.val + 1))]{fullShare} f) := by
  have hb := (cond21_iff L t).mp hB1
  have hh := loL_hi L
  have e : Rect.unit (s := S320000x128) (k1_off22 L t) S128x128.size (k1_off22_inb L t hB1) = oWin0 (fw (loL L + 6 * t.val + 1)) :=
    oRect_eq _ _ _ (by rw [offWO1_eq, fw_val (by omega)])
  show (oLoc0 d ↦[((oW).view.slice (Rect.unit (s := S320000x128) (k1_off22 L t) S128x128.size (k1_off22_inb L t hB1))).set]{fullShare} f : sProp 𝕄) = _
  rw [e]

theorem offWO2_eq (t : Fin k1_t1_loop.trips) : k1_off24 L t = ![128 * (loL L + 6 * t.val + 2), 0] := by
  rw [k1_off24_eq]; unfold loL lo0; congr 1; omega
theorem opiece2_eq (t : Fin k1_t1_loop.trips) (hB2 : k1_cond23 L t = 1#1) (f : Out0 (F := F)) :
    ((oW.slice (Rect.unit (s := S320000x128) (k1_off24 L t) S128x128.size (k1_off24_inb L t hB2)) (fun _ => rfl)).view.loc (V d (cV L) (jV L)) ↦[(oW.slice (Rect.unit (s := S320000x128) (k1_off24 L t) S128x128.size (k1_off24_inb L t hB2)) (fun _ => rfl)).view.set]{fullShare} f : sProp 𝕄)
      = (oLoc0 d ↦[oSet0 (fw (loL L + 6 * t.val + 2))]{fullShare} f) := by
  have hb := (cond23_iff L t).mp hB2
  have hh := loL_hi L
  have e : Rect.unit (s := S320000x128) (k1_off24 L t) S128x128.size (k1_off24_inb L t hB2) = oWin0 (fw (loL L + 6 * t.val + 2)) :=
    oRect_eq _ _ _ (by rw [offWO2_eq, fw_val (by omega)])
  show (oLoc0 d ↦[((oW).view.slice (Rect.unit (s := S320000x128) (k1_off24 L t) S128x128.size (k1_off24_inb L t hB2))).set]{fullShare} f : sProp 𝕄) = _
  rw [e]

theorem offWO3_eq (t : Fin k1_t1_loop.trips) : k1_off26 L t = ![128 * (loL L + 6 * t.val + 3), 0] := by
  rw [k1_off26_eq]; unfold loL lo0; congr 1; omega
theorem opiece3_eq (t : Fin k1_t1_loop.trips) (hB3 : k1_cond25 L t = 1#1) (f : Out0 (F := F)) :
    ((oW.slice (Rect.unit (s := S320000x128) (k1_off26 L t) S128x128.size (k1_off26_inb L t hB3)) (fun _ => rfl)).view.loc (V d (cV L) (jV L)) ↦[(oW.slice (Rect.unit (s := S320000x128) (k1_off26 L t) S128x128.size (k1_off26_inb L t hB3)) (fun _ => rfl)).view.set]{fullShare} f : sProp 𝕄)
      = (oLoc0 d ↦[oSet0 (fw (loL L + 6 * t.val + 3))]{fullShare} f) := by
  have hb := (cond25_iff L t).mp hB3
  have hh := loL_hi L
  have e : Rect.unit (s := S320000x128) (k1_off26 L t) S128x128.size (k1_off26_inb L t hB3) = oWin0 (fw (loL L + 6 * t.val + 3)) :=
    oRect_eq _ _ _ (by rw [offWO3_eq, fw_val (by omega)])
  show (oLoc0 d ↦[((oW).view.slice (Rect.unit (s := S320000x128) (k1_off26 L t) S128x128.size (k1_off26_inb L t hB3))).set]{fullShare} f : sProp 𝕄) = _
  rw [e]

theorem offWO4_eq (t : Fin k1_t1_loop.trips) : k1_off28 L t = ![128 * (loL L + 6 * t.val + 4), 0] := by
  rw [k1_off28_eq]; unfold loL lo0; congr 1; omega
theorem opiece4_eq (t : Fin k1_t1_loop.trips) (hB4 : k1_cond27 L t = 1#1) (f : Out0 (F := F)) :
    ((oW.slice (Rect.unit (s := S320000x128) (k1_off28 L t) S128x128.size (k1_off28_inb L t hB4)) (fun _ => rfl)).view.loc (V d (cV L) (jV L)) ↦[(oW.slice (Rect.unit (s := S320000x128) (k1_off28 L t) S128x128.size (k1_off28_inb L t hB4)) (fun _ => rfl)).view.set]{fullShare} f : sProp 𝕄)
      = (oLoc0 d ↦[oSet0 (fw (loL L + 6 * t.val + 4))]{fullShare} f) := by
  have hb := (cond27_iff L t).mp hB4
  have hh := loL_hi L
  have e : Rect.unit (s := S320000x128) (k1_off28 L t) S128x128.size (k1_off28_inb L t hB4) = oWin0 (fw (loL L + 6 * t.val + 4)) :=
    oRect_eq _ _ _ (by rw [offWO4_eq, fw_val (by omega)])
  show (oLoc0 d ↦[((oW).view.slice (Rect.unit (s := S320000x128) (k1_off28 L t) S128x128.size (k1_off28_inb L t hB4))).set]{fullShare} f : sProp 𝕄) = _
  rw [e]

theorem offWO5_eq (t : Fin k1_t1_loop.trips) : k1_off30 L t = ![128 * (loL L + 6 * t.val + 5), 0] := by
  rw [k1_off30_eq]; unfold loL lo0; congr 1; omega
theorem opiece5_eq (t : Fin k1_t1_loop.trips) (hB5 : k1_cond29 L t = 1#1) (f : Out0 (F := F)) :
    ((oW.slice (Rect.unit (s := S320000x128) (k1_off30 L t) S128x128.size (k1_off30_inb L t hB5)) (fun _ => rfl)).view.loc (V d (cV L) (jV L)) ↦[(oW.slice (Rect.unit (s := S320000x128) (k1_off30 L t) S128x128.size (k1_off30_inb L t hB5)) (fun _ => rfl)).view.set]{fullShare} f : sProp 𝕄)
      = (oLoc0 d ↦[oSet0 (fw (loL L + 6 * t.val + 5))]{fullShare} f) := by
  have hb := (cond29_iff L t).mp hB5
  have hh := loL_hi L
  have e : Rect.unit (s := S320000x128) (k1_off30 L t) S128x128.size (k1_off30_inb L t hB5) = oWin0 (fw (loL L + 6 * t.val + 5)) :=
    oRect_eq _ _ _ (by rw [offWO5_eq, fw_val (by omega)])
  show (oLoc0 d ↦[((oW).view.slice (Rect.unit (s := S320000x128) (k1_off30 L t) S128x128.size (k1_off30_inb L t hB5))).set]{fullShare} f : sProp 𝕄) = _
  rw [e]

/-- The windows of one trip set apart from those still to write, in the program's spelling. -/
theorem todo_take (f0 : Out0 (F := F)) (t : Fin k1_t1_loop.trips) (hB0 : k1_cond19 L t = 1#1) (hB1 : k1_cond21 L t = 1#1) (hB2 : k1_cond23 L t = 1#1) (hB3 : k1_cond25 L t = 1#1) (hB4 : k1_cond27 L t = 1#1) (hB5 : k1_cond29 L t = 1#1) :
    todoP d L f0 t.val = iprop(((oW.slice (Rect.unit (s := S320000x128) (k1_off20 L t) S128x128.size (k1_off20_inb L t hB0)) (fun _ => rfl)).view.loc (V d (cV L) (jV L)) ↦[(oW.slice (Rect.unit (s := S320000x128) (k1_off20 L t) S128x128.size (k1_off20_inb L t hB0)) (fun _ => rfl)).view.set]{fullShare} f0)
      ∗ ((oW.slice (Rect.unit (s := S320000x128) (k1_off22 L t) S128x128.size (k1_off22_inb L t hB1)) (fun _ => rfl)).view.loc (V d (cV L) (jV L)) ↦[(oW.slice (Rect.unit (s := S320000x128) (k1_off22 L t) S128x128.size (k1_off22_inb L t hB1)) (fun _ => rfl)).view.set]{fullShare} f0)
      ∗ ((oW.slice (Rect.unit (s := S320000x128) (k1_off24 L t) S128x128.size (k1_off24_inb L t hB2)) (fun _ => rfl)).view.loc (V d (cV L) (jV L)) ↦[(oW.slice (Rect.unit (s := S320000x128) (k1_off24 L t) S128x128.size (k1_off24_inb L t hB2)) (fun _ => rfl)).view.set]{fullShare} f0)
      ∗ ((oW.slice (Rect.unit (s := S320000x128) (k1_off26 L t) S128x128.size (k1_off26_inb L t hB3)) (fun _ => rfl)).view.loc (V d (cV L) (jV L)) ↦[(oW.slice (Rect.unit (s := S320000x128) (k1_off26 L t) S128x128.size (k1_off26_inb L t hB3)) (fun _ => rfl)).view.set]{fullShare} f0)
      ∗ ((oW.slice (Rect.unit (s := S320000x128) (k1_off28 L t) S128x128.size (k1_off28_inb L t hB4)) (fun _ => rfl)).view.loc (V d (cV L) (jV L)) ↦[(oW.slice (Rect.unit (s := S320000x128) (k1_off28 L t) S128x128.size (k1_off28_inb L t hB4)) (fun _ => rfl)).view.set]{fullShare} f0)
      ∗ ((oW.slice (Rect.unit (s := S320000x128) (k1_off30 L t) S128x128.size (k1_off30_inb L t hB5)) (fun _ => rfl)).view.loc (V d (cV L) (jV L)) ↦[(oW.slice (Rect.unit (s := S320000x128) (k1_off30 L t) S128x128.size (k1_off30_inb L t hB5)) (fun _ => rfl)).view.set]{fullShare} f0)
      ∗ todoP d L f0 (t.val + 1)) := by
  have hb := (cond29_iff L t).mp hB5
  delta todoP
  rw [take6 _ (loL L + 6 * t.val) (loL L + nW L) (by omega) (loL_hi L), show loL L + 6 * (t.val + 1) = loL L + 6 * t.val + 6 by omega,
    opiece0_eq d L t hB0 f0, opiece1_eq d L t hB1 f0, opiece2_eq d L t hB2 f0, opiece3_eq d L t hB3 f0, opiece4_eq d L t hB4 f0, opiece5_eq d L t hB5 f0]

theorem wpos_mid (b t : ℕ) (h : 6 * (t - 1) + b < nW L) : loL L + wOut (nW L) b t = loL L + 6 * (t - 1) + b := by
  unfold wOut; rw [if_pos h]; omega
theorem wpos_succ (b t : ℕ) (h : 6 * t + b < nW L) : loL L + wOut (nW L) b (t + 1) = loL L + 6 * t + b := by
  unfold wOut; rw [if_pos (by simpa using h)]; simp only [Nat.add_sub_cancel]; omega
theorem dn_mid (n t : ℕ) (h : t ≠ 14) : dn n t = 6 * t - 6 := if_neg h

/-- The six windows waited for in trip t join those done. -/
theorem done_step (tb : Tab (F := F)) (ix : Ix0 (F := F)) (t : ℕ) (h1 : 1 ≤ t) (h2 : t ≤ 12) :
    doneP d L tb ix (t + 1) = iprop((oLoc0 d ↦[oSet0 (fw (loL L + 6 * (t - 1) + 5))]{fullShare} gath0 tb ix)
      ∗ (oLoc0 d ↦[oSet0 (fw (loL L + 6 * (t - 1) + 4))]{fullShare} gath0 tb ix)
      ∗ (oLoc0 d ↦[oSet0 (fw (loL L + 6 * (t - 1) + 3))]{fullShare} gath0 tb ix)
      ∗ (oLoc0 d ↦[oSet0 (fw (loL L + 6 * (t - 1) + 2))]{fullShare} gath0 tb ix)
      ∗ (oLoc0 d ↦[oSet0 (fw (loL L + 6 * (t - 1) + 1))]{fullShare} gath0 tb ix)
      ∗ (oLoc0 d ↦[oSet0 (fw (loL L + 6 * (t - 1)))]{fullShare} gath0 tb ix)
      ∗ doneP d L tb ix t) := by
  have hh := loL_hi L
  have hn := nW_ge L
  delta doneP
  rw [dn_mid _ _ (by omega), dn_mid _ _ (by omega), show loL L + (6 * (t + 1) - 6) = (loL L + (6 * t - 6)) + 6 by omega,
    put6 _ (loL L) (loL L + (6 * t - 6)) (by omega) (by omega)]
  have e : 6 * t - 6 = 6 * (t - 1) := by omega
  simp only [e]

/-! ## What an index copy delivers -/
theorem offNI0_eq (t : Fin k1_t1_loop.trips) : k1_off19 L t = ![128 * (loL L + 6 * (t.val + 1))] := by
  rw [k1_off19_eq]; unfold loL lo0; congr 1; omega
theorem offNI1_eq (t : Fin k1_t1_loop.trips) : k1_off21 L t = ![128 * (loL L + 6 * (t.val + 1) + 1)] := by
  rw [k1_off21_eq]; unfold loL lo0; congr 1; omega
theorem offNI2_eq (t : Fin k1_t1_loop.trips) : k1_off23 L t = ![128 * (loL L + 6 * (t.val + 1) + 2)] := by
  rw [k1_off23_eq]; unfold loL lo0; congr 1; omega
theorem offNI3_eq (t : Fin k1_t1_loop.trips) : k1_off25 L t = ![128 * (loL L + 6 * (t.val + 1) + 3)] := by
  rw [k1_off25_eq]; unfold loL lo0; congr 1; omega
theorem offNI4_eq (t : Fin k1_t1_loop.trips) : k1_off27 L t = ![128 * (loL L + 6 * (t.val + 1) + 4)] := by
  rw [k1_off27_eq]; unfold loL lo0; congr 1; omega
theorem offNI5_eq (t : Fin k1_t1_loop.trips) : k1_off29 L t = ![128 * (loL L + 6 * (t.val + 1) + 5)] := by
  rw [k1_off29_eq]; unfold loL lo0; congr 1; omega

/-- Slot 0 after the index copy of window w landed reads window w of the list. -/
theorem idxval0 (ix : Ix0 (F := F)) (ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![0, 0] S1x128.size inb_S6x128_S1x128_0_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 1 after the index copy of window w landed reads window w of the list. -/
theorem idxval1 (ix : Ix0 (F := F)) (ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![1, 0] S1x128.size inb_S6x128_S1x128_1_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 2 after the index copy of window w landed reads window w of the list. -/
theorem idxval2 (ix : Ix0 (F := F)) (ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![2, 0] S1x128.size inb_S6x128_S1x128_2_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 3 after the index copy of window w landed reads window w of the list. -/
theorem idxval3 (ix : Ix0 (F := F)) (ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![3, 0] S1x128.size inb_S6x128_S1x128_3_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 4 after the index copy of window w landed reads window w of the list. -/
theorem idxval4 (ix : Ix0 (F := F)) (ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![4, 0] S1x128.size inb_S6x128_S1x128_4_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

/-- Slot 5 after the index copy of window w landed reads window w of the list. -/
theorem idxval5 (ix : Ix0 (F := F)) (ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (off : Fin 1 → ℕ) (h : ∀ a, off a + S128.size a ≤ S320000.size a) (w : ℕ) (e : off = ![128 * w]) :
    ∀ x : S128.Idx, (((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.writes (Elt F) ci
      [⟨Rect.whole S128, ReadAs.same.apply (View.read (Elt F) (iW.slice (Rect.unit (s := S320000) off S128.size h) (fun _ => rfl)).view ix)⟩]) x
        = ixAt ix (128 * w + (x 0).val) := by
  subst e
  intro x
  have h0 : 128 * w + 128 ≤ 320000 := h 0
  have hx : (x 0).val < 128 := (x 0).isLt
  have h1 := View.read_writes_cons_emb (((Memref.whole cc1_scratch0 : Memref sig .scVector .vmem S6x128 .i32).slice (Rect.unit (s := S6x128) ![5, 0] S1x128.size inb_S6x128_S1x128_5_0) (fun _ => rfl)).squeeze S128 squeezes_S1x128_S128).view ci (Rect.whole S128)
    (ReadAs.same.apply (View.read (Elt F) (iW.slice (Rect.unit (s := S320000) ![128 * w] S128.size h) (fun _ => rfl)).view ix)) [] x
  rw [Rect.emb_whole_apply] at h1
  rw [h1]
  show ix ((Rect.unit (s := S320000) ![128 * w] S128.size h).emb x) = ixAt ix (128 * w + (x 0).val)
  unfold ixAt
  congr 1
  funext a
  match a with
  | ⟨0, _⟩ => apply Fin.ext; show 128 * w + 1 * (x 0).val = min (128 * w + (x 0).val) 319999; omega

end Tile

end Cert.Kernel.Hand

end
-- ==== Proof.Bits.ScTile0Vals.lean ====
/-
  What each of the six ring slots' write-out lands in the result of gather call 0: with the slot's index list holding window w
  of the list (every word a row of the table), and its rows the gather of those rows, the 128 × 128 block written at row
  offset 128 w is, at every index of window w, the gathered array: row r of the result is row idx[r] of the table.
-/
import proofs.«208461_g52518860095779_cont_9to1_m_1075_29_alg».proof.Proof.Bits.ScTile0Inv

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Gen
variable (d : Dev nD) (L : grid1.Coords)

/-- Entry k of a 128-word list, as the row it names: the word at the index whose one coordinate is k. -/
theorem outval_rows (idx : S128.Idx → Elt F .i32) (hn : S128.numel = 128) (hh : ∀ x, (idx x).toNat < 20000) (k : Fin 128) :
    ∃ x : S128.Idx, (x 0).val = k.val ∧ (SparseCore.rows idx hn hh k).val = (idx x).toNat := by
  refine ⟨S128.rowMajor.symm (k.cast hn.symm), ?_, rfl⟩
  have := Shape.rowMajor_val_one (S128.rowMajor.symm (k.cast hn.symm))
  rw [Equiv.apply_symm_apply] at this
  exact this.symm

/-- What a slot's write-out of window w lands in the result is the gathered rows of window w, for any slot: its rows hold,
    at (r, c), row idx[128 w + r] of the table at column c, its index list holding window w of the list. -/
theorem outval_gen (mI : Memref sig .scVector .vmem S128 .i32) (mR : Memref sig .scVector .vmem S128x128 .f32)
    (tb : Tab (F := F)) (ix : Ix0 (F := F)) (f0 : Out0 (F := F))
    (ci : Buf (Elt F) (mI.view.loc (V d (cV L) (jV L)))) (gr : Buf (Elt F) (mR.view.loc (V d (cV L) (jV L)))) (w : ℕ) (hw : w < 2500)
    (hci : ∀ x : S128.Idx, mI.view.read (Elt F) ci x = ixAt ix (128 * w + (x 0).val))
    (hin : ∀ x, (mI.view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) mR.view (mR.view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) mI.view ci) rfl hin)⟩]))⟩] j
        = gath0 tb ix j := by
  intro j hj
  have hR : Rect.unit (s := S320000x128) off S128x128.size h = oWin0 (fw w) := oRect_eq (fw w) off h (by rw [fw_val hw]; exact e)
  subst e
  have h0 : 128 * w + 128 ≤ 320000 := h 0
  change j ∈ (oW.view.slice (oWin0 (fw w))).set at hj
  rw [← hR] at hj
  obtain ⟨y, -, rfl⟩ := Finset.mem_map.mp hj
  have key : ∀ P : (Rect.whole (Rect.unit (s := S320000x128) ![128 * w, 0] S128x128.size h).shape).shape.Idx → Elt F .f32,
      (oW.slice (Rect.unit (s := S320000x128) ![128 * w, 0] S128x128.size h) (fun _ => rfl)).view.writes (Elt F) f0
        [⟨Rect.whole (Rect.unit (s := S320000x128) ![128 * w, 0] S128x128.size h).shape, P⟩]
        ((oW.view.slice (Rect.unit (s := S320000x128) ![128 * w, 0] S128x128.size h)).emb y) = P y := fun P => by
    have h1 := View.read_writes_cons_emb (oW.slice (Rect.unit (s := S320000x128) ![128 * w, 0] S128x128.size h) (fun _ => rfl)).view f0
      (Rect.whole (Rect.unit (s := S320000x128) ![128 * w, 0] S128x128.size h).shape) P [] y
    rw [Rect.emb_whole_apply] at h1
    exact h1
  rw [key, ReadAs.apply_same]
  have key2 : ∀ GP : S128x128.Idx → Elt F .f32,
      View.read (Elt F) mR.view (mR.view.writes (Elt F) gr [⟨Rect.whole S128x128, GP⟩]) y = GP y := fun GP => by
    have h2 := View.read_writes_cons_emb mR.view gr (Rect.whole S128x128) GP [] y
    rw [Rect.emb_whole_apply] at h2
    exact h2
  rw [key2]
  unfold SparseCore.gatherPayload gath0
  show tb ((Rect.unit (s := S20000x128) ![0, 0] S20000x128.size inb_S20000x128_S20000x128_0_0).emb _) = tb _
  congr 1
  funext a
  apply Fin.ext
  have hy0 : (y 0).val < 128 := (y 0).isLt
  match a with
  | ⟨0, _⟩ =>
    rw [Rect.emb_apply]
    obtain ⟨x, hx0, hxv⟩ := outval_rows (View.read (Elt F) mI.view ci) rfl hin (y 0)
    have e0 := Shape.Gathers.idx_axis gathers_S20000x128_S128x128 (SparseCore.rows (View.read (Elt F) mI.view ci) rfl hin) y
    have hj0 : (((oW.view.slice (Rect.unit (s := S320000x128) ![128 * w, 0] S128x128.size h)).emb y) 0).val = 128 * w + 1 * (y 0).val := rfl
    have hix : ixAt ix (128 * w + (x 0).val)
        = ix (ValueIdx.ix1 (((oW.view.slice (Rect.unit (s := S320000x128) ![128 * w, 0] S128x128.size h)).emb y) 0)) := by
      unfold ixAt
      congr 2
      apply Fin.ext
      show min (128 * w + (x 0).val) 319999 = _
      rw [hj0, hx0]; omega
    have hlt := hin x
    rw [hci x, hix] at hlt hxv
    refine (congrArg (fun z : Fin (S20000x128.size gathers_S20000x128_S128x128.axis) => 0 + 1 * z.val) e0).trans ?_
    show 0 + 1 * (SparseCore.rows (View.read (Elt F) mI.view ci) rfl hin (y 0)).val
      = min (ix (ValueIdx.ix1 (((oW.view.slice (Rect.unit (s := S320000x128) ![128 * w, 0] S128x128.size h)).emb y) 0))).toNat 19999
    exact (congrArg (fun n => 0 + 1 * n) hxv).trans (by omega)
  | ⟨1, _⟩ =>
    rw [Rect.emb_apply]
    have e1 := Shape.Gathers.idx_of_ne gathers_S20000x128_S128x128 (SparseCore.rows (View.read (Elt F) mI.view ci) rfl hin) y ⟨1, by decide⟩ (by decide)
    exact congrArg (fun n => 0 + 1 * n) e1

/-- What slot 0's write-out of window w lands in the result is the gathered rows of window w: the slot's rows hold,
    at (r, c), row idx[128 w + r] of the table at column c, the slot's index list holding window w of the list. -/
theorem outval0 (tb : Tab (F := F)) (ix : Ix0 (F := F)) (f0 : Out0 (F := F)) (ci : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![0, 0] S1x128.size inb_S6x128_S1x128_0_0) (fun _ => rfl)).squeeze S128 squeezes_S1x128_S128).view ci) rfl hin)⟩]))⟩] j
        = gath0 tb ix j := by
  exact outval_gen d L _ _ tb ix f0 ci gr w hw hci hin off h e

/-- What slot 1's write-out of window w lands in the result is the gathered rows of window w: the slot's rows hold,
    at (r, c), row idx[128 w + r] of the table at column c, the slot's index list holding window w of the list. -/
theorem outval1 (tb : Tab (F := F)) (ix : Ix0 (F := F)) (f0 : Out0 (F := F)) (ci : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![1, 0] S1x128.size inb_S6x128_S1x128_1_0) (fun _ => rfl)).squeeze S128 squeezes_S1x128_S128).view ci) rfl hin)⟩]))⟩] j
        = gath0 tb ix j := by
  exact outval_gen d L _ _ tb ix f0 ci gr w hw hci hin off h e

/-- What slot 2's write-out of window w lands in the result is the gathered rows of window w: the slot's rows hold,
    at (r, c), row idx[128 w + r] of the table at column c, the slot's index list holding window w of the list. -/
theorem outval2 (tb : Tab (F := F)) (ix : Ix0 (F := F)) (f0 : Out0 (F := F)) (ci : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![2, 0] S1x128.size inb_S6x128_S1x128_2_0) (fun _ => rfl)).squeeze S128 squeezes_S1x128_S128).view ci) rfl hin)⟩]))⟩] j
        = gath0 tb ix j := by
  exact outval_gen d L _ _ tb ix f0 ci gr w hw hci hin off h e

/-- What slot 3's write-out of window w lands in the result is the gathered rows of window w: the slot's rows hold,
    at (r, c), row idx[128 w + r] of the table at column c, the slot's index list holding window w of the list. -/
theorem outval3 (tb : Tab (F := F)) (ix : Ix0 (F := F)) (f0 : Out0 (F := F)) (ci : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![3, 0] S1x128.size inb_S6x128_S1x128_3_0) (fun _ => rfl)).squeeze S128 squeezes_S1x128_S128).view ci) rfl hin)⟩]))⟩] j
        = gath0 tb ix j := by
  exact outval_gen d L _ _ tb ix f0 ci gr w hw hci hin off h e

/-- What slot 4's write-out of window w lands in the result is the gathered rows of window w: the slot's rows hold,
    at (r, c), row idx[128 w + r] of the table at column c, the slot's index list holding window w of the list. -/
theorem outval4 (tb : Tab (F := F)) (ix : Ix0 (F := F)) (f0 : Out0 (F := F)) (ci : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![4, 0] S1x128.size inb_S6x128_S1x128_4_0) (fun _ => rfl)).squeeze S128 squeezes_S1x128_S128).view ci) rfl hin)⟩]))⟩] j
        = gath0 tb ix j := by
  exact outval_gen d L _ _ tb ix f0 ci gr w hw hci hin off h e

/-- What slot 5's write-out of window w lands in the result is the gathered rows of window w: the slot's rows hold,
    at (r, c), row idx[128 w + r] of the table at column c, the slot's index list holding window w of the list. -/
theorem outval5 (tb : Tab (F := F)) (ix : Ix0 (F := F)) (f0 : Out0 (F := F)) (ci : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (gr : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (w : ℕ) (hw : w < 2500)
    (hci : ∀ x : S128.Idx, (((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val))
    (hin : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci x).toNat < 20000)
    (off : Fin 2 → ℕ) (h : ∀ a, off a + S128x128.size a ≤ S320000x128.size a) (e : off = ![128 * w, 0]) :
    ∀ j ∈ oSet0 (fw w),
      (oW.slice (Rect.unit (s := S320000x128) off S128x128.size h) (fun _ => rfl)).view.writes (Elt F) f0
        [⟨Rect.whole (Rect.unit (s := S320000x128) off S128x128.size h).shape,
          ReadAs.same.apply (View.read (Elt F) (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc1_scratch0 : Memref sig .scVector .vmem S6x128 .i32).slice (Rect.unit (s := S6x128) ![5, 0] S1x128.size inb_S6x128_S1x128_5_0) (fun _ => rfl)).squeeze S128 squeezes_S1x128_S128).view ci) rfl hin)⟩]))⟩] j
        = gath0 tb ix j := by
  exact outval_gen d L _ _ tb ix f0 ci gr w hw hci hin off h e

end Gen

end Cert.Kernel.Hand
end
-- ==== Proof.Bits.ScTile0RunDefs.lean ====
/-
  What one tile's run of gather call 0 starts from and ends in, stated once for the run's proof and for the
  obligation that wraps it: the evidence for the tile's waits, its read shares of table and index list, its result
  windows, its two scratch buffers slot by slot, its eighteen semaphores.
-/
import proofs.«208461_g52518860095779_cont_9to1_m_1075_29_alg».proof.Proof.Bits.ScTile0Inv

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid1.Coords)

/-- What the run starts from: the evidence for its waits, its read shares of table and list, its windows at what
    the result held, the two scratch buffers slot by slot at whatever they hold, the eighteen semaphores at zero. -/
def preRun (q : PosShare TreeShare) (tb : Tab (F := F)) (ix : Ix0 (F := F)) (f0 : Out0 (F := F))
    (O : CellTallies nD τ sig (HIx 2)) (W : Waits sig (HIx 2)) : sProp 𝕄 :=
  iprop((Transfers.MayWaits (V d (cV L) (jV L)) (none : HIx 2) O : sProp 𝕄)
    ∗ ((tW).view.loc (V d (cV L) (jV L)) ↦{q} tb) ∗ ((iW).view.loc (V d (cV L) (jV L)) ↦{q} ix)
    ∗ todoP d L f0 0
    ∗ (∃ g : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc1_scratch2.slice (Rect.unit (s := S6) ![0] S1.size inb_S6_S1_0)).squeeze S_ squeezes_S1_S_).sem) 0 ∗ semVal ((V d (cV L) (jV L)), SemLoc.dma ((cc1_scratch2.slice (Rect.unit (s := S6) ![1] S1.size inb_S6_S1_1)).squeeze S_ squeezes_S1_S_).sem) 0 ∗ semVal ((V d (cV L) (jV L)), SemLoc.dma ((cc1_scratch2.slice (Rect.unit (s := S6) ![2] S1.size inb_S6_S1_2)).squeeze S_ squeezes_S1_S_).sem) 0 ∗ semVal ((V d (cV L) (jV L)), SemLoc.dma ((cc1_scratch2.slice (Rect.unit (s := S6) ![3] S1.size inb_S6_S1_3)).squeeze S_ squeezes_S1_S_).sem) 0 ∗ semVal ((V d (cV L) (jV L)), SemLoc.dma ((cc1_scratch2.slice (Rect.unit (s := S6) ![4] S1.size inb_S6_S1_4)).squeeze S_ squeezes_S1_S_).sem) 0 ∗ semVal ((V d (cV L) (jV L)), SemLoc.dma ((cc1_scratch2.slice (Rect.unit (s := S6) ![5] S1.size inb_S6_S1_5)).squeeze S_ squeezes_S1_S_).sem) 0
    ∗ semVal ((V d (cV L) (jV L)), SemLoc.dma ((cc1_scratch3.slice (Rect.unit (s := S6) ![0] S1.size inb_S6_S1_0)).squeeze S_ squeezes_S1_S_).sem) 0 ∗ semVal ((V d (cV L) (jV L)), SemLoc.dma ((cc1_scratch3.slice (Rect.unit (s := S6) ![1] S1.size inb_S6_S1_1)).squeeze S_ squeezes_S1_S_).sem) 0 ∗ semVal ((V d (cV L) (jV L)), SemLoc.dma ((cc1_scratch3.slice (Rect.unit (s := S6) ![2] S1.size inb_S6_S1_2)).squeeze S_ squeezes_S1_S_).sem) 0 ∗ semVal ((V d (cV L) (jV L)), SemLoc.dma ((cc1_scratch3.slice (Rect.unit (s := S6) ![3] S1.size inb_S6_S1_3)).squeeze S_ squeezes_S1_S_).sem) 0 ∗ semVal ((V d (cV L) (jV L)), SemLoc.dma ((cc1_scratch3.slice (Rect.unit (s := S6) ![4] S1.size inb_S6_S1_4)).squeeze S_ squeezes_S1_S_).sem) 0 ∗ semVal ((V d (cV L) (jV L)), SemLoc.dma ((cc1_scratch3.slice (Rect.unit (s := S6) ![5] S1.size inb_S6_S1_5)).squeeze S_ squeezes_S1_S_).sem) 0
    ∗ semVal ((V d (cV L) (jV L)), SemLoc.dma ((cc1_scratch4.slice (Rect.unit (s := S6) ![0] S1.size inb_S6_S1_0)).squeeze S_ squeezes_S1_S_).sem) 0 ∗ semVal ((V d (cV L) (jV L)), SemLoc.dma ((cc1_scratch4.slice (Rect.unit (s := S6) ![1] S1.size inb_S6_S1_1)).squeeze S_ squeezes_S1_S_).sem) 0 ∗ semVal ((V d (cV L) (jV L)), SemLoc.dma ((cc1_scratch4.slice (Rect.unit (s := S6) ![2] S1.size inb_S6_S1_2)).squeeze S_ squeezes_S1_S_).sem) 0 ∗ semVal ((V d (cV L) (jV L)), SemLoc.dma ((cc1_scratch4.slice (Rect.unit (s := S6) ![3] S1.size inb_S6_S1_3)).squeeze S_ squeezes_S1_S_).sem) 0 ∗ semVal ((V d (cV L) (jV L)), SemLoc.dma ((cc1_scratch4.slice (Rect.unit (s := S6) ![4] S1.size inb_S6_S1_4)).squeeze S_ squeezes_S1_S_).sem) 0 ∗ semVal ((V d (cV L) (jV L)), SemLoc.dma ((cc1_scratch4.slice (Rect.unit (s := S6) ![5] S1.size inb_S6_S1_5)).squeeze S_ squeezes_S1_S_).sem) 0
    ∗ owes (V d (cV L) (jV L)) O W)
/-- What it ends in: the same, the windows at the gathered rows. -/
def postRun (q : PosShare TreeShare) (tb : Tab (F := F)) (ix : Ix0 (F := F))
    (O : CellTallies nD τ sig (HIx 2)) (W : Waits sig (HIx 2)) : sProp 𝕄 :=
  iprop(((tW).view.loc (V d (cV L) (jV L)) ↦{q} tb) ∗ ((iW).view.loc (V d (cV L) (jV L)) ↦{q} ix)
    ∗ (bigSep (Ring.rangeSet 2500 (loL L) (loL L + nW L)) fun w => oLoc0 d ↦[oSet0 w]{fullShare} gath0 tb ix)
    ∗ (∃ g : Buf (Elt F) ((((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc1_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc1_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc1_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc1_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc1_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc1_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc1_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc1_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc1_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc1_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc1_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc1_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc1_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc1_scratch2.slice (Rect.unit (s := S6) ![0] S1.size inb_S6_S1_0)).squeeze S_ squeezes_S1_S_).sem) 0 ∗ semVal ((V d (cV L) (jV L)), SemLoc.dma ((cc1_scratch2.slice (Rect.unit (s := S6) ![1] S1.size inb_S6_S1_1)).squeeze S_ squeezes_S1_S_).sem) 0 ∗ semVal ((V d (cV L) (jV L)), SemLoc.dma ((cc1_scratch2.slice (Rect.unit (s := S6) ![2] S1.size inb_S6_S1_2)).squeeze S_ squeezes_S1_S_).sem) 0 ∗ semVal ((V d (cV L) (jV L)), SemLoc.dma ((cc1_scratch2.slice (Rect.unit (s := S6) ![3] S1.size inb_S6_S1_3)).squeeze S_ squeezes_S1_S_).sem) 0 ∗ semVal ((V d (cV L) (jV L)), SemLoc.dma ((cc1_scratch2.slice (Rect.unit (s := S6) ![4] S1.size inb_S6_S1_4)).squeeze S_ squeezes_S1_S_).sem) 0 ∗ semVal ((V d (cV L) (jV L)), SemLoc.dma ((cc1_scratch2.slice (Rect.unit (s := S6) ![5] S1.size inb_S6_S1_5)).squeeze S_ squeezes_S1_S_).sem) 0
    ∗ semVal ((V d (cV L) (jV L)), SemLoc.dma ((cc1_scratch3.slice (Rect.unit (s := S6) ![0] S1.size inb_S6_S1_0)).squeeze S_ squeezes_S1_S_).sem) 0 ∗ semVal ((V d (cV L) (jV L)), SemLoc.dma ((cc1_scratch3.slice (Rect.unit (s := S6) ![1] S1.size inb_S6_S1_1)).squeeze S_ squeezes_S1_S_).sem) 0 ∗ semVal ((V d (cV L) (jV L)), SemLoc.dma ((cc1_scratch3.slice (Rect.unit (s := S6) ![2] S1.size inb_S6_S1_2)).squeeze S_ squeezes_S1_S_).sem) 0 ∗ semVal ((V d (cV L) (jV L)), SemLoc.dma ((cc1_scratch3.slice (Rect.unit (s := S6) ![3] S1.size inb_S6_S1_3)).squeeze S_ squeezes_S1_S_).sem) 0 ∗ semVal ((V d (cV L) (jV L)), SemLoc.dma ((cc1_scratch3.slice (Rect.unit (s := S6) ![4] S1.size inb_S6_S1_4)).squeeze S_ squeezes_S1_S_).sem) 0 ∗ semVal ((V d (cV L) (jV L)), SemLoc.dma ((cc1_scratch3.slice (Rect.unit (s := S6) ![5] S1.size inb_S6_S1_5)).squeeze S_ squeezes_S1_S_).sem) 0
    ∗ semVal ((V d (cV L) (jV L)), SemLoc.dma ((cc1_scratch4.slice (Rect.unit (s := S6) ![0] S1.size inb_S6_S1_0)).squeeze S_ squeezes_S1_S_).sem) 0 ∗ semVal ((V d (cV L) (jV L)), SemLoc.dma ((cc1_scratch4.slice (Rect.unit (s := S6) ![1] S1.size inb_S6_S1_1)).squeeze S_ squeezes_S1_S_).sem) 0 ∗ semVal ((V d (cV L) (jV L)), SemLoc.dma ((cc1_scratch4.slice (Rect.unit (s := S6) ![2] S1.size inb_S6_S1_2)).squeeze S_ squeezes_S1_S_).sem) 0 ∗ semVal ((V d (cV L) (jV L)), SemLoc.dma ((cc1_scratch4.slice (Rect.unit (s := S6) ![3] S1.size inb_S6_S1_3)).squeeze S_ squeezes_S1_S_).sem) 0 ∗ semVal ((V d (cV L) (jV L)), SemLoc.dma ((cc1_scratch4.slice (Rect.unit (s := S6) ![4] S1.size inb_S6_S1_4)).squeeze S_ squeezes_S1_S_).sem) 0 ∗ semVal ((V d (cV L) (jV L)), SemLoc.dma ((cc1_scratch4.slice (Rect.unit (s := S6) ![5] S1.size inb_S6_S1_5)).squeeze S_ squeezes_S1_S_).sem) 0
    ∗ ∃ W', ⌜∀ p ∈ W', p ∈ W ∨ p.2 = none⌝ ∗ owes (V d (cV L) (jV L)) O W')

end Tile

end Cert.Kernel.Hand

end
-- ==== Proof.Bits.ScTile0TripMid.lean ====
/-
  One tile of gather call 0, the loop's generic trip (trips 1 to 11): every slot waits for its write-out of the round
  before, takes its index window, gathers, writes its window out and starts the copy of its next index window; the six
  windows waited for join those done.
-/
import proofs.«208461_g52518860095779_cont_9to1_m_1075_29_alg».proof.Proof.Bits.ScTile0Inv
import proofs.«208461_g52518860095779_cont_9to1_m_1075_29_alg».proof.Proof.Bits.ScTile0Vals

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid1.Coords)

set_option maxHeartbeats 8000000 in
theorem trip_mid (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : 1 ≤ k.val) (h2 : k.val ≤ 11) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : k1_cond20 L k = 1#1 := (cond20_iff L k).mpr (by omega)
  have hA1 : k1_cond9 L k = 1#1 := (cond9_iff L k).mpr (by omega)
  have hT1 : k1_cond10 k = 1#1 := (cond10_iff k).mpr (by omega)
  have hB1 : k1_cond21 L k = 1#1 := (cond21_iff L k).mpr (by omega)
  have hN1 : k1_cond22 L k = 1#1 := (cond22_iff L k).mpr (by omega)
  have hA2 : k1_cond11 L k = 1#1 := (cond11_iff L k).mpr (by omega)
  have hT2 : k1_cond12 k = 1#1 := (cond12_iff k).mpr (by omega)
  have hB2 : k1_cond23 L k = 1#1 := (cond23_iff L k).mpr (by omega)
  have hN2 : k1_cond24 L k = 1#1 := (cond24_iff L k).mpr (by omega)
  have hA3 : k1_cond13 L k = 1#1 := (cond13_iff L k).mpr (by omega)
  have hT3 : k1_cond14 k = 1#1 := (cond14_iff k).mpr (by omega)
  have hB3 : k1_cond25 L k = 1#1 := (cond25_iff L k).mpr (by omega)
  have hN3 : k1_cond26 L k = 1#1 := (cond26_iff L k).mpr (by omega)
  have hA4 : k1_cond15 L k = 1#1 := (cond15_iff L k).mpr (by omega)
  have hT4 : k1_cond16 k = 1#1 := (cond16_iff k).mpr (by omega)
  have hB4 : k1_cond27 L k = 1#1 := (cond27_iff L k).mpr (by omega)
  have hN4 : k1_cond28 L k = 1#1 := (cond28_iff L k).mpr (by omega)
  have hA5 : k1_cond17 L k = 1#1 := (cond17_iff L k).mpr (by omega)
  have hT5 : k1_cond18 k = 1#1 := (cond18_iff k).mpr (by omega)
  have hB5 : k1_cond29 L k = 1#1 := (cond29_iff L k).mpr (by omega)
  have hN5 : k1_cond30 L k = 1#1 := (cond30_iff L k).mpr (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val h1 (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.Kernel.Hand
end
-- ==== Proof.Bits.ScTile0TripsA.lean ====
/-
  One tile of gather call 0, the loop's trips at three of its edge regimes. The first trip: no write-out is outstanding
  yet, so no slot waits for one; every slot takes its index window, gathers, writes its window out and starts the copy
  of its next index window; nothing joins the windows done. Trip 12, the last full round of six windows: every slot waits
  for its write-out of the round before, takes its index window, gathers and writes its window out; of the next index
  copies none starts when the tile owns 78 windows, and only slot 0's (window 78) when it owns 79; the six windows waited
  for join those done, and a slot that starts no copy ends with its index side idle.
-/
import proofs.«208461_g52518860095779_cont_9to1_m_1075_29_alg».proof.Proof.Bits.ScTile0Inv
import proofs.«208461_g52518860095779_cont_9to1_m_1075_29_alg».proof.Proof.Bits.ScTile0Vals

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid1.Coords)

set_option maxHeartbeats 8000000 in
theorem trip_first (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h0 : k.val = 0) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : ¬ k1_cond8 k = 1#1 := fun h => absurd ((cond8_iff k).mp h) (by omega)
  have hB0 : k1_cond19 L k = 1#1 := (cond19_iff L k).mpr (by omega)
  have hN0 : k1_cond20 L k = 1#1 := (cond20_iff L k).mpr (by omega)
  have hA1 : k1_cond9 L k = 1#1 := (cond9_iff L k).mpr (by omega)
  have hT1 : ¬ k1_cond10 k = 1#1 := fun h => absurd ((cond10_iff k).mp h) (by omega)
  have hB1 : k1_cond21 L k = 1#1 := (cond21_iff L k).mpr (by omega)
  have hN1 : k1_cond22 L k = 1#1 := (cond22_iff L k).mpr (by omega)
  have hA2 : k1_cond11 L k = 1#1 := (cond11_iff L k).mpr (by omega)
  have hT2 : ¬ k1_cond12 k = 1#1 := fun h => absurd ((cond12_iff k).mp h) (by omega)
  have hB2 : k1_cond23 L k = 1#1 := (cond23_iff L k).mpr (by omega)
  have hN2 : k1_cond24 L k = 1#1 := (cond24_iff L k).mpr (by omega)
  have hA3 : k1_cond13 L k = 1#1 := (cond13_iff L k).mpr (by omega)
  have hT3 : ¬ k1_cond14 k = 1#1 := fun h => absurd ((cond14_iff k).mp h) (by omega)
  have hB3 : k1_cond25 L k = 1#1 := (cond25_iff L k).mpr (by omega)
  have hN3 : k1_cond26 L k = 1#1 := (cond26_iff L k).mpr (by omega)
  have hA4 : k1_cond15 L k = 1#1 := (cond15_iff L k).mpr (by omega)
  have hT4 : ¬ k1_cond16 k = 1#1 := fun h => absurd ((cond16_iff k).mp h) (by omega)
  have hB4 : k1_cond27 L k = 1#1 := (cond27_iff L k).mpr (by omega)
  have hN4 : k1_cond28 L k = 1#1 := (cond28_iff L k).mpr (by omega)
  have hA5 : k1_cond17 L k = 1#1 := (cond17_iff L k).mpr (by omega)
  have hT5 : ¬ k1_cond18 k = 1#1 := fun h => absurd ((cond18_iff k).mp h) (by omega)
  have hB5 : k1_cond29 L k = 1#1 := (cond29_iff L k).mpr (by omega)
  have hN5 : k1_cond30 L k = 1#1 := (cond30_iff L k).mpr (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_zero d L tb ix k.val h0, rowSide1_zero d L tb ix k.val h0, rowSide2_zero d L tb ix k.val h0, rowSide3_zero d L tb ix k.val h0, rowSide4_zero d L tb ix k.val h0, rowSide5_zero d L tb ix k.val h0,
    todo_take d L f0 k hB0 hB1 hB2 hB3 hB4 hB5]
  delta idxFly0 idxFly1 idxFly2 idxFly3 idxFly4 idxFly5 rowIdle0 rowIdle1 rowIdle2 rowIdle3 rowIdle4 rowIdle5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨Hfw0, %gr0, Hsr0⟩, ⟨Hfw1, %gr1, Hsr1⟩, ⟨Hfw2, %gr2, Hsr2⟩, ⟨Hfw3, %gr3, Hsr3⟩, ⟨Hfw4, %gr4, Hsr4⟩, ⟨Hfw5, %gr5, Hsr5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone]
  · have e : doneP d L tb ix (k.val + 1) = doneP d L tb ix k.val := by
      delta doneP
      rw [dn_mid _ _ (by omega), dn_mid _ _ (by omega)]
      have e6 : 6 * (k.val + 1) - 6 = 6 * k.val - 6 := by omega
      rw [e6]
    rw [e]; iexact Hdone
  iexists _; isplitr; rotate_left
  · iexact HO
  · ipureintro; intro p hp
    simp only [Finset.mem_insert] at hp
    rcases hp with h | h | h | h | h | h | h | h | h | h | h | h | h
    all_goals first | exact .inr (h ▸ rfl) | exact hW' p h

set_option maxHeartbeats 8000000 in
theorem trip_12a (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 12) (h78 : nW L = 78) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : ¬ k1_cond20 L k = 1#1 := fun h => absurd ((cond20_iff L k).mp h) (by omega)
  have hA1 : k1_cond9 L k = 1#1 := (cond9_iff L k).mpr (by omega)
  have hT1 : k1_cond10 k = 1#1 := (cond10_iff k).mpr (by omega)
  have hB1 : k1_cond21 L k = 1#1 := (cond21_iff L k).mpr (by omega)
  have hN1 : ¬ k1_cond22 L k = 1#1 := fun h => absurd ((cond22_iff L k).mp h) (by omega)
  have hA2 : k1_cond11 L k = 1#1 := (cond11_iff L k).mpr (by omega)
  have hT2 : k1_cond12 k = 1#1 := (cond12_iff k).mpr (by omega)
  have hB2 : k1_cond23 L k = 1#1 := (cond23_iff L k).mpr (by omega)
  have hN2 : ¬ k1_cond24 L k = 1#1 := fun h => absurd ((cond24_iff L k).mp h) (by omega)
  have hA3 : k1_cond13 L k = 1#1 := (cond13_iff L k).mpr (by omega)
  have hT3 : k1_cond14 k = 1#1 := (cond14_iff k).mpr (by omega)
  have hB3 : k1_cond25 L k = 1#1 := (cond25_iff L k).mpr (by omega)
  have hN3 : ¬ k1_cond26 L k = 1#1 := fun h => absurd ((cond26_iff L k).mp h) (by omega)
  have hA4 : k1_cond15 L k = 1#1 := (cond15_iff L k).mpr (by omega)
  have hT4 : k1_cond16 k = 1#1 := (cond16_iff k).mpr (by omega)
  have hB4 : k1_cond27 L k = 1#1 := (cond27_iff L k).mpr (by omega)
  have hN4 : ¬ k1_cond28 L k = 1#1 := fun h => absurd ((cond28_iff L k).mp h) (by omega)
  have hA5 : k1_cond17 L k = 1#1 := (cond17_iff L k).mpr (by omega)
  have hT5 : k1_cond18 k = 1#1 := (cond18_iff k).mpr (by omega)
  have hB5 : k1_cond29 L k = 1#1 := (cond29_iff L k).mpr (by omega)
  have hN5 : ¬ k1_cond30 L k = 1#1 := fun h => absurd ((cond30_iff L k).mp h) (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

set_option maxHeartbeats 8000000 in
theorem trip_12b (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 12) (h79 : nW L = 79) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hn := nW_ge L
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : k1_cond20 L k = 1#1 := (cond20_iff L k).mpr (by omega)
  have hA1 : k1_cond9 L k = 1#1 := (cond9_iff L k).mpr (by omega)
  have hT1 : k1_cond10 k = 1#1 := (cond10_iff k).mpr (by omega)
  have hB1 : k1_cond21 L k = 1#1 := (cond21_iff L k).mpr (by omega)
  have hN1 : ¬ k1_cond22 L k = 1#1 := fun h => absurd ((cond22_iff L k).mp h) (by omega)
  have hA2 : k1_cond11 L k = 1#1 := (cond11_iff L k).mpr (by omega)
  have hT2 : k1_cond12 k = 1#1 := (cond12_iff k).mpr (by omega)
  have hB2 : k1_cond23 L k = 1#1 := (cond23_iff L k).mpr (by omega)
  have hN2 : ¬ k1_cond24 L k = 1#1 := fun h => absurd ((cond24_iff L k).mp h) (by omega)
  have hA3 : k1_cond13 L k = 1#1 := (cond13_iff L k).mpr (by omega)
  have hT3 : k1_cond14 k = 1#1 := (cond14_iff k).mpr (by omega)
  have hB3 : k1_cond25 L k = 1#1 := (cond25_iff L k).mpr (by omega)
  have hN3 : ¬ k1_cond26 L k = 1#1 := fun h => absurd ((cond26_iff L k).mp h) (by omega)
  have hA4 : k1_cond15 L k = 1#1 := (cond15_iff L k).mpr (by omega)
  have hT4 : k1_cond16 k = 1#1 := (cond16_iff k).mpr (by omega)
  have hB4 : k1_cond27 L k = 1#1 := (cond27_iff L k).mpr (by omega)
  have hN4 : ¬ k1_cond28 L k = 1#1 := fun h => absurd ((cond28_iff L k).mp h) (by omega)
  have hA5 : k1_cond17 L k = 1#1 := (cond17_iff L k).mpr (by omega)
  have hT5 : k1_cond18 k = 1#1 := (cond18_iff k).mpr (by omega)
  have hB5 : k1_cond29 L k = 1#1 := (cond29_iff L k).mpr (by omega)
  have hN5 : ¬ k1_cond30 L k = 1#1 := fun h => absurd ((cond30_iff L k).mp h) (by omega)
  unfold k1_t1_body
  rw [k1_part1_eq_skeleton, k1_part2_eq_skeleton]; unfold k1_part1_skel k1_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc1_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc1_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc1_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc1_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc1_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.Kernel.Hand
end
-- ==== Proof.Bits.ScTile0TripsB.lean ====
/-
  The last trip of the first gather call's loop on a tile. A tile owns 78 or 79 windows and the loop makes 14 trips of
  six slots: in trip 13 a tile of 78 windows has none left and the body runs nothing, a tile of 79 has one, on slot 0.
  Then every trip, by cases on the trip number and on the tile's number of windows.
-/
import proofs.«208461_g52518860095779_cont_9to1_m_1075_29_alg».proof.Proof.Bits.ScTile0Inv
import proofs.«208461_g52518860095779_cont_9to1_m_1075_29_alg».proof.Proof.Bits.ScTile0Vals
import proofs.«208461_g52518860095779_cont_9to1_m_1075_29_alg».proof.Proof.Bits.ScTile0TripMid
import proofs.«208461_g52518860095779_cont_9to1_m_1075_29_alg».proof.Proof.Bits.ScTile0TripsA

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid1.Coords)

/-! ## Trip 13 of a tile of 78 windows: nothing runs -/

theorem idxSide0_13a (qi : PosShare TreeShare) (ix : Ix0 (F := F)) (t : ℕ) (h1 : t = 13) (h78 : nW L = 78) :
    idxSide0 d L qi ix (t + 1) = idxSide0 d L qi ix t :=
  (idxSide0_neg d L qi ix (t + 1) (by omega)).trans (idxSide0_neg d L qi ix t (by omega)).symm

theorem rowSide0_13a (tb : Tab (F := F)) (ix : Ix0 (F := F)) (t : ℕ) (h1 : t = 13) (h78 : nW L = 78) :
    rowSide0 d L tb ix (t + 1) = rowSide0 d L tb ix t := by
  have w : wOut (nW L) 0 (t + 1) = wOut (nW L) 0 t := by subst h1; rw [h78]; decide
  rw [rowSide0_pos d L tb ix (t + 1) (by omega), rowSide0_pos d L tb ix t (by omega), w]

theorem idxSide1_13a (qi : PosShare TreeShare) (ix : Ix0 (F := F)) (t : ℕ) (h1 : t = 13) (h78 : nW L = 78) :
    idxSide1 d L qi ix (t + 1) = idxSide1 d L qi ix t :=
  (idxSide1_neg d L qi ix (t + 1) (by omega)).trans (idxSide1_neg d L qi ix t (by omega)).symm

theorem rowSide1_13a (tb : Tab (F := F)) (ix : Ix0 (F := F)) (t : ℕ) (h1 : t = 13) (h78 : nW L = 78) :
    rowSide1 d L tb ix (t + 1) = rowSide1 d L tb ix t := by
  have w : wOut (nW L) 1 (t + 1) = wOut (nW L) 1 t := by subst h1; rw [h78]; decide
  rw [rowSide1_pos d L tb ix (t + 1) (by omega), rowSide1_pos d L tb ix t (by omega), w]

theorem idxSide2_13a (qi : PosShare TreeShare) (ix : Ix0 (F := F)) (t : ℕ) (h1 : t = 13) (h78 : nW L = 78) :
    idxSide2 d L qi ix (t + 1) = idxSide2 d L qi ix t :=
  (idxSide2_neg d L qi ix (t + 1) (by omega)).trans (idxSide2_neg d L qi ix t (by omega)).symm

theorem rowSide2_13a (tb : Tab (F := F)) (ix : Ix0 (F := F)) (t : ℕ) (h1 : t = 13) (h78 : nW L = 78) :
    rowSide2 d L tb ix (t + 1) = rowSide2 d L tb ix t := by
  have w : wOut (nW L) 2 (t + 1) = wOut (nW L) 2 t := by subst h1; rw [h78]; decide
  rw [rowSide2_pos d L tb ix (t + 1) (by omega), rowSide2_pos d L tb ix t (by omega), w]

theorem idxSide3_13a (qi : PosShare TreeShare) (ix : Ix0 (F := F)) (t : ℕ) (h1 : t = 13) (h78 : nW L = 78) :
    idxSide3 d L qi ix (t + 1) = idxSide3 d L qi ix t :=
  (idxSide3_neg d L qi ix (t + 1) (by omega)).trans (idxSide3_neg d L qi ix t (by omega)).symm

theorem rowSide3_13a (tb : Tab (F := F)) (ix : Ix0 (F := F)) (t : ℕ) (h1 : t = 13) (h78 : nW L = 78) :
    rowSide3 d L tb ix (t + 1) = rowSide3 d L tb ix t := by
  have w : wOut (nW L) 3 (t + 1) = wOut (nW L) 3 t := by subst h1; rw [h78]; decide
  rw [rowSide3_pos d L tb ix (t + 1) (by omega), rowSide3_pos d L tb ix t (by omega), w]

theorem idxSide4_13a (qi : PosShare TreeShare) (ix : Ix0 (F := F)) (t : ℕ) (h1 : t = 13) (h78 : nW L = 78) :
    idxSide4 d L qi ix (t + 1) = idxSide4 d L qi ix t :=
  (idxSide4_neg d L qi ix (t + 1) (by omega)).trans (idxSide4_neg d L qi ix t (by omega)).symm

theorem rowSide4_13a (tb : Tab (F := F)) (ix : Ix0 (F := F)) (t : ℕ) (h1 : t = 13) (h78 : nW L = 78) :
    rowSide4 d L tb ix (t + 1) = rowSide4 d L tb ix t := by
  have w : wOut (nW L) 4 (t + 1) = wOut (nW L) 4 t := by subst h1; rw [h78]; decide
  rw [rowSide4_pos d L tb ix (t + 1) (by omega), rowSide4_pos d L tb ix t (by omega), w]

theorem idxSide5_13a (qi : PosShare TreeShare) (ix : Ix0 (F := F)) (t : ℕ) (h1 : t = 13) (h78 : nW L = 78) :
    idxSide5 d L qi ix (t + 1) = idxSide5 d L qi ix t :=
  (idxSide5_neg d L qi ix (t + 1) (by omega)).trans (idxSide5_neg d L qi ix t (by omega)).symm

theorem rowSide5_13a (tb : Tab (F := F)) (ix : Ix0 (F := F)) (t : ℕ) (h1 : t = 13) (h78 : nW L = 78) :
    rowSide5 d L tb ix (t + 1) = rowSide5 d L tb ix t := by
  have w : wOut (nW L) 5 (t + 1) = wOut (nW L) 5 t := by subst h1; rw [h78]; decide
  rw [rowSide5_pos d L tb ix (t + 1) (by omega), rowSide5_pos d L tb ix t (by omega), w]

omit [FloatOps F] in
theorem todoP_13a (f0 : Out0 (F := F)) (t : ℕ) (h1 : t = 13) (h78 : nW L = 78) : todoP d L f0 (t + 1) = todoP d L f0 t := by
  delta todoP
  rw [Ring.bigSep_rangeSet_empty (show loL L + nW L ≤ loL L + 6 * (t + 1) by omega),
    Ring.bigSep_rangeSet_empty (show loL L + nW L ≤ loL L + 6 * t by omega)]

theorem doneP_13a (tb : Tab (F := F)) (ix : Ix0 (F := F)) (t : ℕ) (h1 : t = 13) (h78 : nW L = 78) :
    doneP d L tb ix (t + 1) = doneP d L tb ix t := by
  have hd : dn (nW L) (t + 1) = dn (nW L) t := by subst h1; rw [h78]; decide
  delta doneP
  rw [hd]

set_option maxHeartbeats 4000000 in
/-- No slot has a window left, so the invariant at 14 is the invariant at 13. -/
theorem inv_14_eq_13 (qi qt : PosShare TreeShare) (tb : Tab (F := F)) (ix : Ix0 (F := F)) (f0 : Out0 (F := F))
    (O : CellTallies nD τ sig (HIx 2)) (W : Waits sig (HIx 2)) (t : ℕ) (h1 : t = 13) (h78 : nW L = 78) :
    inv d L qi qt tb ix f0 O W (t + 1) = inv d L qi qt tb ix f0 O W t := by
  funext u
  delta inv
  rw [idxSide0_13a d L qi ix t h1 h78, idxSide1_13a d L qi ix t h1 h78, idxSide2_13a d L qi ix t h1 h78,
    idxSide3_13a d L qi ix t h1 h78, idxSide4_13a d L qi ix t h1 h78, idxSide5_13a d L qi ix t h1 h78,
    rowSide0_13a d L tb ix t h1 h78, rowSide1_13a d L tb ix t h1 h78, rowSide2_13a d L tb ix t h1 h78,
    rowSide3_13a d L tb ix t h1 h78, rowSide4_13a d L tb ix t h1 h78, rowSide5_13a d L tb ix t h1 h78,
    todoP_13a d L f0 t h1 h78, doneP_13a d L tb ix t h1 h78]

set_option maxHeartbeats 8000000 in
theorem trip_13a (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 13) (h78 : nW L = 78) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hA0 : ¬ k1_cond7 L k = 1#1 := fun h => absurd ((cond7_iff L k).mp h) (by omega)
  have hA1 : ¬ k1_cond9 L k = 1#1 := fun h => absurd ((cond9_iff L k).mp h) (by omega)
  have hA2 : ¬ k1_cond11 L k = 1#1 := fun h => absurd ((cond11_iff L k).mp h) (by omega)
  have hA3 : ¬ k1_cond13 L k = 1#1 := fun h => absurd ((cond13_iff L k).mp h) (by omega)
  have hA4 : ¬ k1_cond15 L k = 1#1 := fun h => absurd ((cond15_iff L k).mp h) (by omega)
  have hA5 : ¬ k1_cond17 L k = 1#1 := fun h => absurd ((cond17_iff L k).mp h) (by omega)
  have hB0 : ¬ k1_cond19 L k = 1#1 := fun h => absurd ((cond19_iff L k).mp h) (by omega)
  have hB1 : ¬ k1_cond21 L k = 1#1 := fun h => absurd ((cond21_iff L k).mp h) (by omega)
  have hB2 : ¬ k1_cond23 L k = 1#1 := fun h => absurd ((cond23_iff L k).mp h) (by omega)
  have hB3 : ¬ k1_cond25 L k = 1#1 := fun h => absurd ((cond25_iff L k).mp h) (by omega)
  have hB4 : ¬ k1_cond27 L k = 1#1 := fun h => absurd ((cond27_iff L k).mp h) (by omega)
  have hB5 : ¬ k1_cond29 L k = 1#1 := fun h => absurd ((cond29_iff L k).mp h) (by omega)
  unfold k1_t1_body
  rw [k1_part1_eq_skeleton, k1_part2_eq_skeleton]; unfold k1_part1_skel k1_part2_skel
  rw [inv_14_eq_13 d L qi qt tb ix f0 O W k.val h1 h78]
  iintro H
  sl_exec
  sl_step
  iexact H

/-! ## Trip 13 of a tile of 79 windows: slot 0 alone runs -/

theorem idxSide1_13b (qi : PosShare TreeShare) (ix : Ix0 (F := F)) (t : ℕ) (h1 : t = 13) (h79 : nW L = 79) :
    idxSide1 d L qi ix (t + 1) = idxSide1 d L qi ix t :=
  (idxSide1_neg d L qi ix (t + 1) (by omega)).trans (idxSide1_neg d L qi ix t (by omega)).symm

theorem rowSide1_13b (tb : Tab (F := F)) (ix : Ix0 (F := F)) (t : ℕ) (h1 : t = 13) (h79 : nW L = 79) :
    rowSide1 d L tb ix (t + 1) = rowSide1 d L tb ix t := by
  have w : wOut (nW L) 1 (t + 1) = wOut (nW L) 1 t := by subst h1; rw [h79]; decide
  rw [rowSide1_pos d L tb ix (t + 1) (by omega), rowSide1_pos d L tb ix t (by omega), w]

theorem idxSide2_13b (qi : PosShare TreeShare) (ix : Ix0 (F := F)) (t : ℕ) (h1 : t = 13) (h79 : nW L = 79) :
    idxSide2 d L qi ix (t + 1) = idxSide2 d L qi ix t :=
  (idxSide2_neg d L qi ix (t + 1) (by omega)).trans (idxSide2_neg d L qi ix t (by omega)).symm

theorem rowSide2_13b (tb : Tab (F := F)) (ix : Ix0 (F := F)) (t : ℕ) (h1 : t = 13) (h79 : nW L = 79) :
    rowSide2 d L tb ix (t + 1) = rowSide2 d L tb ix t := by
  have w : wOut (nW L) 2 (t + 1) = wOut (nW L) 2 t := by subst h1; rw [h79]; decide
  rw [rowSide2_pos d L tb ix (t + 1) (by omega), rowSide2_pos d L tb ix t (by omega), w]

theorem idxSide3_13b (qi : PosShare TreeShare) (ix : Ix0 (F := F)) (t : ℕ) (h1 : t = 13) (h79 : nW L = 79) :
    idxSide3 d L qi ix (t + 1) = idxSide3 d L qi ix t :=
  (idxSide3_neg d L qi ix (t + 1) (by omega)).trans (idxSide3_neg d L qi ix t (by omega)).symm

theorem rowSide3_13b (tb : Tab (F := F)) (ix : Ix0 (F := F)) (t : ℕ) (h1 : t = 13) (h79 : nW L = 79) :
    rowSide3 d L tb ix (t + 1) = rowSide3 d L tb ix t := by
  have w : wOut (nW L) 3 (t + 1) = wOut (nW L) 3 t := by subst h1; rw [h79]; decide
  rw [rowSide3_pos d L tb ix (t + 1) (by omega), rowSide3_pos d L tb ix t (by omega), w]

theorem idxSide4_13b (qi : PosShare TreeShare) (ix : Ix0 (F := F)) (t : ℕ) (h1 : t = 13) (h79 : nW L = 79) :
    idxSide4 d L qi ix (t + 1) = idxSide4 d L qi ix t :=
  (idxSide4_neg d L qi ix (t + 1) (by omega)).trans (idxSide4_neg d L qi ix t (by omega)).symm

theorem rowSide4_13b (tb : Tab (F := F)) (ix : Ix0 (F := F)) (t : ℕ) (h1 : t = 13) (h79 : nW L = 79) :
    rowSide4 d L tb ix (t + 1) = rowSide4 d L tb ix t := by
  have w : wOut (nW L) 4 (t + 1) = wOut (nW L) 4 t := by subst h1; rw [h79]; decide
  rw [rowSide4_pos d L tb ix (t + 1) (by omega), rowSide4_pos d L tb ix t (by omega), w]

theorem idxSide5_13b (qi : PosShare TreeShare) (ix : Ix0 (F := F)) (t : ℕ) (h1 : t = 13) (h79 : nW L = 79) :
    idxSide5 d L qi ix (t + 1) = idxSide5 d L qi ix t :=
  (idxSide5_neg d L qi ix (t + 1) (by omega)).trans (idxSide5_neg d L qi ix t (by omega)).symm

theorem rowSide5_13b (tb : Tab (F := F)) (ix : Ix0 (F := F)) (t : ℕ) (h1 : t = 13) (h79 : nW L = 79) :
    rowSide5 d L tb ix (t + 1) = rowSide5 d L tb ix t := by
  have w : wOut (nW L) 5 (t + 1) = wOut (nW L) 5 t := by subst h1; rw [h79]; decide
  rw [rowSide5_pos d L tb ix (t + 1) (by omega), rowSide5_pos d L tb ix t (by omega), w]

/-- The one window left is set apart from those still to write, in the program's spelling; none is left after it. -/
theorem todo_take1 (f0 : Out0 (F := F)) (t : Fin k1_t1_loop.trips) (h1 : t.val = 13) (h79 : nW L = 79) (hB0 : k1_cond19 L t = 1#1) :
    todoP d L f0 t.val = iprop(((oW.slice (Rect.unit (s := S320000x128) (k1_off20 L t) S128x128.size (k1_off20_inb L t hB0)) (fun _ => rfl)).view.loc (V d (cV L) (jV L)) ↦[(oW.slice (Rect.unit (s := S320000x128) (k1_off20 L t) S128x128.size (k1_off20_inb L t hB0)) (fun _ => rfl)).view.set]{fullShare} f0)
      ∗ todoP d L f0 (t.val + 1)) := by
  have hh := loL_hi L
  delta todoP
  rw [head_fw _ (loL L + 6 * t.val) (loL L + nW L) (by omega) (by omega), opiece0_eq d L t hB0 f0,
    Ring.bigSep_rangeSet_empty (show loL L + nW L ≤ loL L + 6 * t.val + 1 by omega),
    Ring.bigSep_rangeSet_empty (show loL L + nW L ≤ loL L + 6 * (t.val + 1) by omega)]

/-- The window waited for in the last trip joins those done. -/
theorem done_step1 (tb : Tab (F := F)) (ix : Ix0 (F := F)) (t : ℕ) (h1 : t = 13) (h79 : nW L = 79) :
    doneP d L tb ix (t + 1) = iprop((oLoc0 d ↦[oSet0 (fw (loL L + 6 * (t - 1)))]{fullShare} gath0 tb ix) ∗ doneP d L tb ix t) := by
  have hh := loL_hi L
  have hd14 : dn (nW L) (t + 1) = 72 + 1 := by subst h1; rw [h79]; decide
  have hd13 : dn (nW L) t = 72 := by subst h1; rw [h79]; decide
  have e : 6 * (t - 1) = 72 := by omega
  delta doneP
  rw [hd14, hd13, e, show loL L + (72 + 1) = (loL L + 72) + 1 by omega, last_fw _ (loL L) (loL L + 72) (by omega) (by omega)]

set_option maxHeartbeats 8000000 in
theorem trip_13b (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) (h1 : k.val = 13) (h79 : nW L = 79) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hA0 : k1_cond7 L k = 1#1 := (cond7_iff L k).mpr (by omega)
  have hT0 : k1_cond8 k = 1#1 := (cond8_iff k).mpr (by omega)
  have hB0 : k1_cond19 L k = 1#1 := (cond19_iff L k).mpr (by omega)
  have hN0 : ¬ k1_cond20 L k = 1#1 := fun h => absurd ((cond20_iff L k).mp h) (by omega)
  have hA1 : ¬ k1_cond9 L k = 1#1 := fun h => absurd ((cond9_iff L k).mp h) (by omega)
  have hA2 : ¬ k1_cond11 L k = 1#1 := fun h => absurd ((cond11_iff L k).mp h) (by omega)
  have hA3 : ¬ k1_cond13 L k = 1#1 := fun h => absurd ((cond13_iff L k).mp h) (by omega)
  have hA4 : ¬ k1_cond15 L k = 1#1 := fun h => absurd ((cond15_iff L k).mp h) (by omega)
  have hA5 : ¬ k1_cond17 L k = 1#1 := fun h => absurd ((cond17_iff L k).mp h) (by omega)
  have hB1 : ¬ k1_cond21 L k = 1#1 := fun h => absurd ((cond21_iff L k).mp h) (by omega)
  have hB2 : ¬ k1_cond23 L k = 1#1 := fun h => absurd ((cond23_iff L k).mp h) (by omega)
  have hB3 : ¬ k1_cond25 L k = 1#1 := fun h => absurd ((cond25_iff L k).mp h) (by omega)
  have hB4 : ¬ k1_cond27 L k = 1#1 := fun h => absurd ((cond27_iff L k).mp h) (by omega)
  have hB5 : ¬ k1_cond29 L k = 1#1 := fun h => absurd ((cond29_iff L k).mp h) (by omega)
  unfold k1_t1_body
  rw [k1_part1_eq_skeleton, k1_part2_eq_skeleton]; unfold k1_part1_skel k1_part2_skel
  delta inv
  rw [idxSide0_pos d L qi ix k.val (by omega), rowSide0_pos d L tb ix k.val (by omega), wpos_mid L 0 k.val (by omega),
    todo_take1 d L f0 k h1 h79 hB0]
  delta idxFly0 rowFly0
  iintro ⟨#Hmw, Ht0, Ht1, Ht2, Ht3, Ht4, Ht5, Hg0, Hg1, Hg2, Hg3, Hg4, Hg5, ⟨%ci0, %I0, %hci0, Hfi0, Hri0⟩, Hi1, Hi2, Hi3, Hi4, Hi5, ⟨%gr0, %fo0, %hfo0, Hfw0⟩, Hr1, Hr2, Hr3, Hr4, Hr5, ⟨Ho0, Htodo⟩, Hdone, %W', %hW', HO⟩
  have hin0 : ∀ x, ((((Memref.whole cc1_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hi1]; · rw [idxSide1_13b d L qi ix k.val h1 h79]; iexact Hi1
  isplitl [Hi2]; · rw [idxSide2_13b d L qi ix k.val h1 h79]; iexact Hi2
  isplitl [Hi3]; · rw [idxSide3_13b d L qi ix k.val h1 h79]; iexact Hi3
  isplitl [Hi4]; · rw [idxSide4_13b d L qi ix k.val h1 h79]; iexact Hi4
  isplitl [Hi5]; · rw [idxSide5_13b d L qi ix k.val h1 h79]; iexact Hi5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hr1]; · rw [rowSide1_13b d L tb ix k.val h1 h79]; iexact Hr1
  isplitl [Hr2]; · rw [rowSide2_13b d L tb ix k.val h1 h79]; iexact Hr2
  isplitl [Hr3]; · rw [rowSide3_13b d L tb ix k.val h1 h79]; iexact Hr3
  isplitl [Hr4]; · rw [rowSide4_13b d L tb ix k.val h1 h79]; iexact Hr4
  isplitl [Hr5]; · rw [rowSide5_13b d L tb ix k.val h1 h79]; iexact Hr5
  isplitl [Htodo]; · iexact Htodo
  isplitl [Hdone Hfw0_dst]
  · rw [done_step1 d L tb ix k.val h1 h79]
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h
    all_goals first | exact .inr (h ▸ rfl) | exact hW' p h

/-! ## Every trip -/

attribute [local irreducible] inv k1_t1_body in
/-- Every trip of the loop keeps the invariant: the first trip, the trips 1 to 11, and the trips 12 and 13 by the
    tile's number of windows, 78 or 79. -/
theorem region (v4 v8 : BitVec 32) (qi qt : PosShare TreeShare) (tb : Tab (F := F)) (ix : Ix0 (F := F)) (f0 : Out0 (F := F))
    (O : CellTallies nD τ sig (HIx 2)) (W : Waits sig (HIx 2)) (hin : ∀ j, (ix j).toNat < 20000)
    (k : Fin k1_t1_loop.trips) :
    inv d L qi qt tb ix f0 O W k.val ()
      ⊢ wp frame (wpE (defs₀ (F := F)) 𝒱₀ (V d (cV L) (jV L)) none) Set.univ (k1_t1_body L tW (Memref.isWhole_whole _) iW (Memref.isWhole_whole _) oW (Memref.isWhole_whole _) sI (Memref.isWhole_whole _) sR (Memref.isWhole_whole _) cc1_scratch2 cc1_scratch3 cc1_scratch4 v4 v8 k ())
          (inv d L qi qt tb ix f0 O W (k.val + 1)) := by
  have hk : k.val < 14 := lt_of_lt_of_eq k.isLt trips_eq
  have hn : nW L = 78 ∨ nW L = 79 := by have := nW_ge L; have := nW_le L; omega
  by_cases h0 : k.val = 0
  · exact trip_first d L v4 v8 qi qt tb ix f0 O W hin k h0
  by_cases hm : k.val ≤ 11
  · exact trip_mid d L v4 v8 qi qt tb ix f0 O W hin k (by omega) hm
  by_cases h12 : k.val = 12
  · rcases hn with h | h
    · exact trip_12a d L v4 v8 qi qt tb ix f0 O W hin k h12 h
    · exact trip_12b d L v4 v8 qi qt tb ix f0 O W hin k h12 h
  have h13 : k.val = 13 := by omega
  rcases hn with h | h
  · exact trip_13a d L v4 v8 qi qt tb ix f0 O W hin k h13 h
  · exact trip_13b d L v4 v8 qi qt tb ix f0 O W hin k h13 h

end Tile
end Cert.Kernel.Hand
end
-- ==== Proof.Bits.ScTile0Run.lean ====
/-
  One tile's run of gather call 0. The tile's read share of the table and of the index list is cut into read
  tokens, one per semaphore a transfer reading the array completes on. The kernel starts the first six index
  copies, which makes the loop's invariant at trip 0; every trip keeps it (the region's obligation); at the loop's
  exit the six slots' last write-outs are outstanding, the six closing waits deliver their windows, and the
  windows done with those six are all the tile's windows, at the gathered rows. The tokens join back to the shares.
-/
import proofs.«208461_g52518860095779_cont_9to1_m_1075_29_alg».proof.Proof.Bits.ScTile0Inv
import proofs.«208461_g52518860095779_cont_9to1_m_1075_29_alg».proof.Proof.Bits.ScTile0Vals
import proofs.«208461_g52518860095779_cont_9to1_m_1075_29_alg».proof.Proof.Bits.ScTile0RunDefs
import proofs.«208461_g52518860095779_cont_9to1_m_1075_29_alg».proof.Proof.Bits.ScTile0TripsB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid1.Coords)

/-! ## The twelve read tokens in use (numbers 15 … 4) of sixteen cut off a share, the low four kept together -/

omit [FloatOps F] in
theorem toks16 (ℓ : Loc nD τ sig) (q : PosShare TreeShare) (f : Buf (Elt F) ℓ) :
    (ℓ ↦{q} f : sProp 𝕄) ⊣⊢ iprop((ℓ ↦{Transfers.shareDrop q 16} f)
      ∗ (ℓ ↦{Transfers.shareTokN q 15} f) ∗ (ℓ ↦{Transfers.shareTokN q 14} f) ∗ (ℓ ↦{Transfers.shareTokN q 13} f) ∗ (ℓ ↦{Transfers.shareTokN q 12} f) ∗ (ℓ ↦{Transfers.shareTokN q 11} f) ∗ (ℓ ↦{Transfers.shareTokN q 10} f) ∗ (ℓ ↦{Transfers.shareTokN q 9} f) ∗ (ℓ ↦{Transfers.shareTokN q 8} f) ∗ (ℓ ↦{Transfers.shareTokN q 7} f) ∗ (ℓ ↦{Transfers.shareTokN q 6} f) ∗ (ℓ ↦{Transfers.shareTokN q 5} f) ∗ (ℓ ↦{Transfers.shareTokN q 4} f)
      ∗ bigSep (Finset.range 4) fun i => ℓ ↦{Transfers.shareTokN q i} f) := by
  have h := Transfers.pointsTo_toks_range (Ix := HIx 2) (Name := ℕ) (U := UU) (Lvl := ℕ) (ℓ := ℓ) (S := Finset.univ) (f := f) q 16
  rw [show (16 : ℕ) = 15 + 1 from rfl, Ring.bigSep_range_succ,
    show (15 : ℕ) = 14 + 1 from rfl, Ring.bigSep_range_succ,
    show (14 : ℕ) = 13 + 1 from rfl, Ring.bigSep_range_succ,
    show (13 : ℕ) = 12 + 1 from rfl, Ring.bigSep_range_succ,
    show (12 : ℕ) = 11 + 1 from rfl, Ring.bigSep_range_succ,
    show (11 : ℕ) = 10 + 1 from rfl, Ring.bigSep_range_succ,
    show (10 : ℕ) = 9 + 1 from rfl, Ring.bigSep_range_succ,
    show (9 : ℕ) = 8 + 1 from rfl, Ring.bigSep_range_succ,
    show (8 : ℕ) = 7 + 1 from rfl, Ring.bigSep_range_succ,
    show (7 : ℕ) = 6 + 1 from rfl, Ring.bigSep_range_succ,
    show (6 : ℕ) = 5 + 1 from rfl, Ring.bigSep_range_succ,
    show (5 : ℕ) = 4 + 1 from rfl, Ring.bigSep_range_succ] at h
  exact h

/-! ## The prologue's six index copies -/
theorem offP0_eq : k1_off1 L = ![128 * (loL L + 6 * 0 + 0)] := by
  rw [k1_off1_eq]; unfold loL lo0; congr 1; omega
theorem offP1_eq : k1_off2 L = ![128 * (loL L + 6 * 0 + 1)] := by
  rw [k1_off2_eq]; unfold loL lo0; congr 1; omega
theorem offP2_eq : k1_off3 L = ![128 * (loL L + 6 * 0 + 2)] := by
  rw [k1_off3_eq]; unfold loL lo0; congr 1; omega
theorem offP3_eq : k1_off4 L = ![128 * (loL L + 6 * 0 + 3)] := by
  rw [k1_off4_eq]; unfold loL lo0; congr 1; omega
theorem offP4_eq : k1_off5 L = ![128 * (loL L + 6 * 0 + 4)] := by
  rw [k1_off5_eq]; unfold loL lo0; congr 1; omega
theorem offP5_eq : k1_off6 L = ![128 * (loL L + 6 * 0 + 5)] := by
  rw [k1_off6_eq]; unfold loL lo0; congr 1; omega

/-! ## The pools at the two ends of the loop -/

theorem done0 (tb : Tab (F := F)) (ix : Ix0 (F := F)) : doneP d L tb ix 0 = (iprop(emp) : sProp 𝕄) := by
  delta doneP; rw [dn_mid _ _ (by omega)]; exact Ring.bigSep_rangeSet_empty (by omega)
theorem todo14 (f0 : Out0 (F := F)) : todoP d L f0 14 = (iprop(emp) : sProp 𝕄) := by
  have := nW_le L
  delta todoP; exact Ring.bigSep_rangeSet_empty (by omega)
theorem wpos14_hi (b : ℕ) (h : ¬ 78 + b < nW L) : loL L + wOut (nW L) b 14 = loL L + 72 + b := by
  unfold wOut; rw [if_neg (by omega)]; omega
theorem wpos14_last (h : nW L = 79) : loL L + wOut (nW L) 0 14 = loL L + 78 := by
  unfold wOut; rw [if_pos (by omega)]

/-- All the tile's windows at the gathered rows: those done and the six the closing waits deliver (78 windows). -/
theorem fin78 (tb : Tab (F := F)) (ix : Ix0 (F := F)) (h : nW L = 78) :
    (bigSep (Ring.rangeSet 2500 (loL L) (loL L + nW L)) fun w => oLoc0 d ↦[oSet0 w]{fullShare} gath0 tb ix : sProp 𝕄)
      = iprop((oLoc0 d ↦[oSet0 (fw (loL L + 72 + 5))]{fullShare} gath0 tb ix) ∗ (oLoc0 d ↦[oSet0 (fw (loL L + 72 + 4))]{fullShare} gath0 tb ix) ∗ (oLoc0 d ↦[oSet0 (fw (loL L + 72 + 3))]{fullShare} gath0 tb ix) ∗ (oLoc0 d ↦[oSet0 (fw (loL L + 72 + 2))]{fullShare} gath0 tb ix) ∗ (oLoc0 d ↦[oSet0 (fw (loL L + 72 + 1))]{fullShare} gath0 tb ix) ∗ (oLoc0 d ↦[oSet0 (fw (loL L + 72 + 0))]{fullShare} gath0 tb ix) ∗ doneP d L tb ix 14) := by
  have hh := loL_hi L
  delta doneP
  rw [h, show dn 78 14 = 72 from rfl, show loL L + 78 = (loL L + 72) + 6 from rfl, put6 _ (loL L) (loL L + 72) (by omega) (by omega)]
/-- The same for a tile of 79 windows: slot 0's last window is the 79th. -/
theorem fin79 (tb : Tab (F := F)) (ix : Ix0 (F := F)) (h : nW L = 79) :
    (bigSep (Ring.rangeSet 2500 (loL L) (loL L + nW L)) fun w => oLoc0 d ↦[oSet0 w]{fullShare} gath0 tb ix : sProp 𝕄)
      = iprop((oLoc0 d ↦[oSet0 (fw (loL L + 78))]{fullShare} gath0 tb ix) ∗ (oLoc0 d ↦[oSet0 (fw (loL L + 72 + 5))]{fullShare} gath0 tb ix) ∗ (oLoc0 d ↦[oSet0 (fw (loL L + 72 + 4))]{fullShare} gath0 tb ix) ∗ (oLoc0 d ↦[oSet0 (fw (loL L + 72 + 3))]{fullShare} gath0 tb ix) ∗ (oLoc0 d ↦[oSet0 (fw (loL L + 72 + 2))]{fullShare} gath0 tb ix) ∗ (oLoc0 d ↦[oSet0 (fw (loL L + 72 + 1))]{fullShare} gath0 tb ix) ∗ doneP d L tb ix 14) := by
  have hh := loL_hi L
  delta doneP
  rw [h, show dn 79 14 = 73 from rfl, show loL L + 79 = (loL L + 78) + 1 from rfl, last_fw _ (loL L) (loL L + 78) (by omega) (by omega),
    show loL L + 78 = (loL L + 77) + 1 from rfl, last_fw _ (loL L) (loL L + 77) (by omega) (by omega),
    show loL L + 77 = (loL L + 76) + 1 from rfl, last_fw _ (loL L) (loL L + 76) (by omega) (by omega),
    show loL L + 76 = (loL L + 75) + 1 from rfl, last_fw _ (loL L) (loL L + 75) (by omega) (by omega),
    show loL L + 75 = (loL L + 74) + 1 from rfl, last_fw _ (loL L) (loL L + 74) (by omega) (by omega),
    show loL L + 74 = (loL L + 73) + 1 from rfl, last_fw _ (loL L) (loL L + 73) (by omega) (by omega)]

/-! ## The run -/

set_option maxHeartbeats 8000000 in
theorem tile_run (q : PosShare TreeShare) (tb : Tab (F := F)) (ix : Ix0 (F := F)) (f0 : Out0 (F := F))
    (O : CellTallies nD τ sig (HIx 2)) (W : Waits sig (HIx 2)) (hin : ∀ j, (ix j).toNat < 20000) :
    preRun d L q tb ix f0 O W
      ⊢ wp frame (wpE (defs₀ (F := F)) 𝒱₀ (V d (cV L) (jV L)) none) Set.univ (cc1_k L tW (Memref.isWhole_whole _) iW (Memref.isWhole_whole _) oW (Memref.isWhole_whole _) sI (Memref.isWhole_whole _) sR (Memref.isWhole_whole _) cc1_scratch2 cc1_scratch3 cc1_scratch4)
          fun _ => postRun d L q tb ix O W := by
  have hn := nW_ge L
  have hn' := nW_le L
  have k1_h1 := cond1_true L
  have k1_h2 := cond2_true L
  have k1_h3 := cond3_true L
  have k1_h4 := cond4_true L
  have k1_h5 := cond5_true L
  have k1_h6 := cond6_true L
  rw [cc1_k_eq_skeleton]; unfold cc1_k_skel
  rw [k1_part3_eq_skeleton, k1_part4_eq_skeleton, k1_part5_eq_skeleton]; unfold k1_part3_skel k1_part4_skel k1_part5_skel
  delta preRun
  iintro ⟨Hmw, Ht, Hi, Htodo, ⟨%ci0, Hsi0⟩, ⟨%ci1, Hsi1⟩, ⟨%ci2, Hsi2⟩, ⟨%ci3, Hsi3⟩, ⟨%ci4, Hsi4⟩, ⟨%ci5, Hsi5⟩, ⟨%gr0, Hsr0⟩, ⟨%gr1, Hsr1⟩, ⟨%gr2, Hsr2⟩, ⟨%gr3, Hsr3⟩, ⟨%gr4, Hsr4⟩, ⟨%gr5, Hsr5⟩, Hfi0, Hfi1, Hfi2, Hfi3, Hfi4, Hfi5, Hg0, Hg1, Hg2, Hg3, Hg4, Hg5, Hfw0, Hfw1, Hfw2, Hfw3, Hfw4, Hfw5, HO⟩
  ihave Ht' := (toks16 _ q tb).1 $$ Ht
  icases Ht' with ⟨HtD, Ht5, Ht4, Ht3, Ht2, Ht1, Ht0, HtX9, HtX8, HtX7, HtX6, HtX5, HtX4, HtLow⟩
  ihave Hi' := (toks16 _ q ix).1 $$ Hi
  icases Hi' with ⟨HiD, HiX15, HiX14, HiX13, HiX12, HiX11, HiX10, Hri5, Hri4, Hri3, Hri2, Hri1, Hri0, HiLow⟩
  sl_exec
  rw [Prog.bind_assoc]
  sl_for (inv d L q q tb ix f0 O W) $$ [Hmw Ht0 Ht1 Ht2 Ht3 Ht4 Ht5 Hg0 Hg1 Hg2 Hg3 Hg4 Hg5 Hfi0 Hri0 Hfi1 Hri1 Hfi2 Hri2 Hfi3 Hri3 Hfi4 Hri4 Hfi5 Hri5 Hfw0 Hsr0 Hfw1 Hsr1 Hfw2 Hsr2 Hfw3 Hsr3 Hfw4 Hsr4 Hfw5 Hsr5 Htodo HO]
  case region =>
    intro k acc
    first
      | exact region d L _ _ q q tb ix f0 O W hin k acc
      | (cases acc; exact region d L _ _ q q tb ix f0 O W hin k)
  · delta inv
    rw [idxSide0_pos d L q ix 0 (by omega), idxSide1_pos d L q ix 0 (by omega), idxSide2_pos d L q ix 0 (by omega), idxSide3_pos d L q ix 0 (by omega), idxSide4_pos d L q ix 0 (by omega), idxSide5_pos d L q ix 0 (by omega),
      rowSide0_zero d L tb ix 0 rfl, rowSide1_zero d L tb ix 0 rfl, rowSide2_zero d L tb ix 0 rfl, rowSide3_zero d L tb ix 0 rfl, rowSide4_zero d L tb ix 0 rfl, rowSide5_zero d L tb ix 0 rfl, done0]
    delta idxFly0 idxFly1 idxFly2 idxFly3 idxFly4 idxFly5 rowIdle0 rowIdle1 rowIdle2 rowIdle3 rowIdle4 rowIdle5
    isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hfi0 Hri0]
    · iexists _, _; isplitr; rotate_left
      · isplitl [Hfi0]; · iexact Hfi0
        iexact Hri0
      · ipureintro; exact idxval0 d L ix ci0 _ _ (loL L + 6 * 0 + 0) (offP0_eq L)
    isplitl [Hfi1 Hri1]
    · iexists _, _; isplitr; rotate_left
      · isplitl [Hfi1]; · iexact Hfi1
        iexact Hri1
      · ipureintro; exact idxval1 d L ix ci1 _ _ (loL L + 6 * 0 + 1) (offP1_eq L)
    isplitl [Hfi2 Hri2]
    · iexists _, _; isplitr; rotate_left
      · isplitl [Hfi2]; · iexact Hfi2
        iexact Hri2
      · ipureintro; exact idxval2 d L ix ci2 _ _ (loL L + 6 * 0 + 2) (offP2_eq L)
    isplitl [Hfi3 Hri3]
    · iexists _, _; isplitr; rotate_left
      · isplitl [Hfi3]; · iexact Hfi3
        iexact Hri3
      · ipureintro; exact idxval3 d L ix ci3 _ _ (loL L + 6 * 0 + 3) (offP3_eq L)
    isplitl [Hfi4 Hri4]
    · iexists _, _; isplitr; rotate_left
      · isplitl [Hfi4]; · iexact Hfi4
        iexact Hri4
      · ipureintro; exact idxval4 d L ix ci4 _ _ (loL L + 6 * 0 + 4) (offP4_eq L)
    isplitl [Hfi5 Hri5]
    · iexists _, _; isplitr; rotate_left
      · isplitl [Hfi5]; · iexact Hfi5
        iexact Hri5
      · ipureintro; exact idxval5 d L ix ci5 _ _ (loL L + 6 * 0 + 5) (offP5_eq L)
    isplitl [Hfw0 Hsr0]
    · isplitl [Hfw0]; · iexact Hfw0
      iexists _; iexact Hsr0
    isplitl [Hfw1 Hsr1]
    · isplitl [Hfw1]; · iexact Hfw1
      iexists _; iexact Hsr1
    isplitl [Hfw2 Hsr2]
    · isplitl [Hfw2]; · iexact Hfw2
      iexists _; iexact Hsr2
    isplitl [Hfw3 Hsr3]
    · isplitl [Hfw3]; · iexact Hfw3
      iexists _; iexact Hsr3
    isplitl [Hfw4 Hsr4]
    · isplitl [Hfw4]; · iexact Hfw4
      iexists _; iexact Hsr4
    isplitl [Hfw5 Hsr5]
    · isplitl [Hfw5]; · iexact Hfw5
      iexists _; iexact Hsr5
    isplitl [Htodo]; · iexact Htodo
    isplitr; · iempintro
    iexists W; isplitr
    · ipureintro; exact fun p hp => .inl hp
    · iexact HO
  iintro %_ HI
  have ht : Scf.trips k1_t1_loop.lb k1_t1_loop.ub k1_t1_loop.st = 14 := trips_eq
  rw [ht]
  delta inv
  rw [idxSide0_neg d L q ix 14 (by omega), idxSide1_neg d L q ix 14 (by omega), idxSide2_neg d L q ix 14 (by omega), idxSide3_neg d L q ix 14 (by omega), idxSide4_neg d L q ix 14 (by omega), idxSide5_neg d L q ix 14 (by omega),
    rowSide0_pos d L tb ix 14 (by omega), rowSide1_pos d L tb ix 14 (by omega), rowSide2_pos d L tb ix 14 (by omega), rowSide3_pos d L tb ix 14 (by omega), rowSide4_pos d L tb ix 14 (by omega), rowSide5_pos d L tb ix 14 (by omega), todo14]
  delta idxIdle0 idxIdle1 idxIdle2 idxIdle3 idxIdle4 idxIdle5 rowFly0 rowFly1 rowFly2 rowFly3 rowFly4 rowFly5
  icases HI with ⟨Hmw, Ht0, Ht1, Ht2, Ht3, Ht4, Ht5, Hg0, Hg1, Hg2, Hg3, Hg4, Hg5, ⟨Hfi0, ⟨%cj0, Hsi0⟩, Hri0⟩, ⟨Hfi1, ⟨%cj1, Hsi1⟩, Hri1⟩, ⟨Hfi2, ⟨%cj2, Hsi2⟩, Hri2⟩, ⟨Hfi3, ⟨%cj3, Hsi3⟩, Hri3⟩, ⟨Hfi4, ⟨%cj4, Hsi4⟩, Hri4⟩, ⟨Hfi5, ⟨%cj5, Hsi5⟩, Hri5⟩, ⟨%gs0, %fo0, %hfo0, Hfw0⟩, ⟨%gs1, %fo1, %hfo1, Hfw1⟩, ⟨%gs2, %fo2, %hfo2, Hfw2⟩, ⟨%gs3, %fo3, %hfo3, Hfw3⟩, ⟨%gs4, %fo4, %hfo4, Hfw4⟩, ⟨%gs5, %fo5, %hfo5, Hfw5⟩, -, Hdone, %W', %hW', HO⟩
  sl_exec
  sl_step
  delta postRun
  isplitl [HtD Ht5 Ht4 Ht3 Ht2 Ht1 Ht0 HtX9 HtX8 HtX7 HtX6 HtX5 HtX4 HtLow]
  · iapply (toks16 _ q tb).2
    isplitl [HtD]; · iexact HtD
    isplitl [Ht5]; · iexact Ht5
    isplitl [Ht4]; · iexact Ht4
    isplitl [Ht3]; · iexact Ht3
    isplitl [Ht2]; · iexact Ht2
    isplitl [Ht1]; · iexact Ht1
    isplitl [Ht0]; · iexact Ht0
    isplitl [HtX9]; · iexact HtX9
    isplitl [HtX8]; · iexact HtX8
    isplitl [HtX7]; · iexact HtX7
    isplitl [HtX6]; · iexact HtX6
    isplitl [HtX5]; · iexact HtX5
    isplitl [HtX4]; · iexact HtX4
    iexact HtLow
  isplitl [HiD HiX15 HiX14 HiX13 HiX12 HiX11 HiX10 Hri5 Hri4 Hri3 Hri2 Hri1 Hri0 HiLow]
  · iapply (toks16 _ q ix).2
    isplitl [HiD]; · iexact HiD
    isplitl [HiX15]; · iexact HiX15
    isplitl [HiX14]; · iexact HiX14
    isplitl [HiX13]; · iexact HiX13
    isplitl [HiX12]; · iexact HiX12
    isplitl [HiX11]; · iexact HiX11
    isplitl [HiX10]; · iexact HiX10
    isplitl [Hri5]; · iexact Hri5
    isplitl [Hri4]; · iexact Hri4
    isplitl [Hri3]; · iexact Hri3
    isplitl [Hri2]; · iexact Hri2
    isplitl [Hri1]; · iexact Hri1
    isplitl [Hri0]; · iexact Hri0
    iexact HiLow
  isplitl [Hdone Hfw0_dst Hfw1_dst Hfw2_dst Hfw3_dst Hfw4_dst Hfw5_dst]
  · rcases (show nW L = 78 ∨ nW L = 79 by omega) with h78 | h79
    · rw [fin78 d L tb ix h78]
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      isplitl [Hfw0_dst]
      · rw [← wpos14_hi L 0 (by omega)]; iapply (Entails.of_eq (pointsTo_congr hfo0)); iexact Hfw0_dst
      iexact Hdone
    · rw [fin79 d L tb ix h79]
      isplitl [Hfw0_dst]
      · rw [← wpos14_last L h79]; iapply (Entails.of_eq (pointsTo_congr hfo0)); iexact Hfw0_dst
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      iexact Hdone
  isplitl [Hsi0]; · iexists _; iexact Hsi0
  isplitl [Hsi1]; · iexists _; iexact Hsi1
  isplitl [Hsi2]; · iexists _; iexact Hsi2
  isplitl [Hsi3]; · iexists _; iexact Hsi3
  isplitl [Hsi4]; · iexists _; iexact Hsi4
  isplitl [Hsi5]; · iexists _; iexact Hsi5
  isplitl [Hfw0_src]; · iexists _; iexact Hfw0_src
  isplitl [Hfw1_src]; · iexists _; iexact Hfw1_src
  isplitl [Hfw2_src]; · iexists _; iexact Hfw2_src
  isplitl [Hfw3_src]; · iexists _; iexact Hfw3_src
  isplitl [Hfw4_src]; · iexists _; iexact Hfw4_src
  isplitl [Hfw5_src]; · iexists _; iexact Hfw5_src
  isplitl [Hfi0]; · iexact Hfi0
  isplitl [Hfi1]; · iexact Hfi1
  isplitl [Hfi2]; · iexact Hfi2
  isplitl [Hfi3]; · iexact Hfi3
  isplitl [Hfi4]; · iexact Hfi4
  isplitl [Hfi5]; · iexact Hfi5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfw0]; · iexact Hfw0
  isplitl [Hfw1]; · iexact Hfw1
  isplitl [Hfw2]; · iexact Hfw2
  isplitl [Hfw3]; · iexact Hfw3
  isplitl [Hfw4]; · iexact Hfw4
  isplitl [Hfw5]; · iexact Hfw5
  iexists _; isplitr; rotate_left
  · iexact HO
  · ipureintro; intro p hp
    simp only [Finset.mem_insert] at hp
    rcases hp with h | h | h | h | h | h | h
    all_goals first | exact .inr (h ▸ rfl) | exact hW' p h

end Tile

end Cert.Kernel.Hand

end
-- ==== Proof.Bits.ScTile0Setup.lean ====
/-
  One tile of gather call 0, before its body runs: what the launch deals it, opened up. Its own semaphore cells
  are the eighteen copy semaphores of the six-slot ring (three per slot: index copy, gather, write-out) and the
  rest; its own buffers are the two scratch buffers (six index slots of 128 words, six row slots of 128 rows of 128
  words) and the rest; and each scratch buffer held whole is its six slots held, each slot spelt as the kernel's
  body slices it out, in both directions (back: six slots at whatever contents are the buffer at some contents).
-/
import proofs.«208461_g52518860095779_cont_9to1_m_1075_29_alg».proof.Proof.Bits.ScTile0Inv

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Taking listed members out of a family -/

/-- A family over a finite set with some members listed (without repetition) is those members one by one, in the
    list's order, and the family over the rest. -/
theorem bigSep_take_list {I : Type} [DecidableEq I] (Φ : I → sProp 𝕄) :
    ∀ (l : List I) (s : Finset I), l.Nodup → (∀ i ∈ l, i ∈ s) →
      bigSep s Φ = l.foldr (fun i R => iprop(Φ i ∗ R)) (bigSep (s \ l.toFinset) Φ)
  | [], s, _, _ => by rw [List.toFinset_nil, Finset.sdiff_empty]; rfl
  | a :: l, s, hnd, hmem => by
    obtain ⟨ha, hl⟩ := List.nodup_cons.mp hnd
    have hrest : ∀ i ∈ l, i ∈ s.erase a := fun i hi =>
      Finset.mem_erase.mpr ⟨fun e => ha (e ▸ hi), hmem i (List.mem_cons_of_mem a hi)⟩
    have hset : s.erase a \ l.toFinset = s \ (a :: l).toFinset := by
      ext x
      simp only [Finset.mem_sdiff, Finset.mem_erase, List.toFinset_cons, Finset.mem_insert, List.mem_toFinset, not_or]
      tauto
    rw [SparseCore.bigSep_erase' (hmem a (List.mem_cons_self ..)), bigSep_take_list Φ l (s.erase a) hl hrest, hset]
    rfl

/-! ## The tile's own semaphore cells: the three copy semaphores of each of the six slots, and the rest -/

/-- The eighteen cells of the three six-slot DMA semaphore arrays, array by array, slot by slot. -/
def slotSems : List (SemLoc sig) :=
  [SemLoc.dma ((cc1_scratch2.slice (Rect.unit (s := S6) ![0] S1.size inb_S6_S1_0)).squeeze S_ squeezes_S1_S_).sem,
   SemLoc.dma ((cc1_scratch2.slice (Rect.unit (s := S6) ![1] S1.size inb_S6_S1_1)).squeeze S_ squeezes_S1_S_).sem,
   SemLoc.dma ((cc1_scratch2.slice (Rect.unit (s := S6) ![2] S1.size inb_S6_S1_2)).squeeze S_ squeezes_S1_S_).sem,
   SemLoc.dma ((cc1_scratch2.slice (Rect.unit (s := S6) ![3] S1.size inb_S6_S1_3)).squeeze S_ squeezes_S1_S_).sem,
   SemLoc.dma ((cc1_scratch2.slice (Rect.unit (s := S6) ![4] S1.size inb_S6_S1_4)).squeeze S_ squeezes_S1_S_).sem,
   SemLoc.dma ((cc1_scratch2.slice (Rect.unit (s := S6) ![5] S1.size inb_S6_S1_5)).squeeze S_ squeezes_S1_S_).sem,
   SemLoc.dma ((cc1_scratch3.slice (Rect.unit (s := S6) ![0] S1.size inb_S6_S1_0)).squeeze S_ squeezes_S1_S_).sem,
   SemLoc.dma ((cc1_scratch3.slice (Rect.unit (s := S6) ![1] S1.size inb_S6_S1_1)).squeeze S_ squeezes_S1_S_).sem,
   SemLoc.dma ((cc1_scratch3.slice (Rect.unit (s := S6) ![2] S1.size inb_S6_S1_2)).squeeze S_ squeezes_S1_S_).sem,
   SemLoc.dma ((cc1_scratch3.slice (Rect.unit (s := S6) ![3] S1.size inb_S6_S1_3)).squeeze S_ squeezes_S1_S_).sem,
   SemLoc.dma ((cc1_scratch3.slice (Rect.unit (s := S6) ![4] S1.size inb_S6_S1_4)).squeeze S_ squeezes_S1_S_).sem,
   SemLoc.dma ((cc1_scratch3.slice (Rect.unit (s := S6) ![5] S1.size inb_S6_S1_5)).squeeze S_ squeezes_S1_S_).sem,
   SemLoc.dma ((cc1_scratch4.slice (Rect.unit (s := S6) ![0] S1.size inb_S6_S1_0)).squeeze S_ squeezes_S1_S_).sem,
   SemLoc.dma ((cc1_scratch4.slice (Rect.unit (s := S6) ![1] S1.size inb_S6_S1_1)).squeeze S_ squeezes_S1_S_).sem,
   SemLoc.dma ((cc1_scratch4.slice (Rect.unit (s := S6) ![2] S1.size inb_S6_S1_2)).squeeze S_ squeezes_S1_S_).sem,
   SemLoc.dma ((cc1_scratch4.slice (Rect.unit (s := S6) ![3] S1.size inb_S6_S1_3)).squeeze S_ squeezes_S1_S_).sem,
   SemLoc.dma ((cc1_scratch4.slice (Rect.unit (s := S6) ![4] S1.size inb_S6_S1_4)).squeeze S_ squeezes_S1_S_).sem,
   SemLoc.dma ((cc1_scratch4.slice (Rect.unit (s := S6) ![5] S1.size inb_S6_S1_5)).squeeze S_ squeezes_S1_S_).sem]

theorem slotSems_nodup : (slotSems).Nodup := by decide
theorem slotSems_scoped : ∀ a ∈ slotSems, SemLoc.isScoped .scVector a = true := by decide

/-- The tile's other own cells, at zero. -/
def semRest (d : Dev nD) (L : grid1.Coords) : sProp 𝕄 :=
  bigSep (ownCells (V d (cV L) (jV L)) \ (slotSems.map fun a => (((V d (cV L) (jV L)), a) : GSem nD τ sig)).toFinset) fun g => semVal g 0

/-- The tile's own cells at zero are the eighteen slot semaphores at zero and the rest. -/
theorem ownSems0_V (d : Dev nD) (L : grid1.Coords) :
    (ownSems0 (V d (cV L) (jV L)) : sProp 𝕄)
      = iprop(semVal ((V d (cV L) (jV L)), SemLoc.dma ((cc1_scratch2.slice (Rect.unit (s := S6) ![0] S1.size inb_S6_S1_0)).squeeze S_ squeezes_S1_S_).sem) 0
          ∗ semVal ((V d (cV L) (jV L)), SemLoc.dma ((cc1_scratch2.slice (Rect.unit (s := S6) ![1] S1.size inb_S6_S1_1)).squeeze S_ squeezes_S1_S_).sem) 0
          ∗ semVal ((V d (cV L) (jV L)), SemLoc.dma ((cc1_scratch2.slice (Rect.unit (s := S6) ![2] S1.size inb_S6_S1_2)).squeeze S_ squeezes_S1_S_).sem) 0
          ∗ semVal ((V d (cV L) (jV L)), SemLoc.dma ((cc1_scratch2.slice (Rect.unit (s := S6) ![3] S1.size inb_S6_S1_3)).squeeze S_ squeezes_S1_S_).sem) 0
          ∗ semVal ((V d (cV L) (jV L)), SemLoc.dma ((cc1_scratch2.slice (Rect.unit (s := S6) ![4] S1.size inb_S6_S1_4)).squeeze S_ squeezes_S1_S_).sem) 0
          ∗ semVal ((V d (cV L) (jV L)), SemLoc.dma ((cc1_scratch2.slice (Rect.unit (s := S6) ![5] S1.size inb_S6_S1_5)).squeeze S_ squeezes_S1_S_).sem) 0
          ∗ semVal ((V d (cV L) (jV L)), SemLoc.dma ((cc1_scratch3.slice (Rect.unit (s := S6) ![0] S1.size inb_S6_S1_0)).squeeze S_ squeezes_S1_S_).sem) 0
          ∗ semVal ((V d (cV L) (jV L)), SemLoc.dma ((cc1_scratch3.slice (Rect.unit (s := S6) ![1] S1.size inb_S6_S1_1)).squeeze S_ squeezes_S1_S_).sem) 0
          ∗ semVal ((V d (cV L) (jV L)), SemLoc.dma ((cc1_scratch3.slice (Rect.unit (s := S6) ![2] S1.size inb_S6_S1_2)).squeeze S_ squeezes_S1_S_).sem) 0
          ∗ semVal ((V d (cV L) (jV L)), SemLoc.dma ((cc1_scratch3.slice (Rect.unit (s := S6) ![3] S1.size inb_S6_S1_3)).squeeze S_ squeezes_S1_S_).sem) 0
          ∗ semVal ((V d (cV L) (jV L)), SemLoc.dma ((cc1_scratch3.slice (Rect.unit (s := S6) ![4] S1.size inb_S6_S1_4)).squeeze S_ squeezes_S1_S_).sem) 0
          ∗ semVal ((V d (cV L) (jV L)), SemLoc.dma ((cc1_scratch3.slice (Rect.unit (s := S6) ![5] S1.size inb_S6_S1_5)).squeeze S_ squeezes_S1_S_).sem) 0
          ∗ semVal ((V d (cV L) (jV L)), SemLoc.dma ((cc1_scratch4.slice (Rect.unit (s := S6) ![0] S1.size inb_S6_S1_0)).squeeze S_ squeezes_S1_S_).sem) 0
          ∗ semVal ((V d (cV L) (jV L)), SemLoc.dma ((cc1_scratch4.slice (Rect.unit (s := S6) ![1] S1.size inb_S6_S1_1)).squeeze S_ squeezes_S1_S_).sem) 0
          ∗ semVal ((V d (cV L) (jV L)), SemLoc.dma ((cc1_scratch4.slice (Rect.unit (s := S6) ![2] S1.size inb_S6_S1_2)).squeeze S_ squeezes_S1_S_).sem) 0
          ∗ semVal ((V d (cV L) (jV L)), SemLoc.dma ((cc1_scratch4.slice (Rect.unit (s := S6) ![3] S1.size inb_S6_S1_3)).squeeze S_ squeezes_S1_S_).sem) 0
          ∗ semVal ((V d (cV L) (jV L)), SemLoc.dma ((cc1_scratch4.slice (Rect.unit (s := S6) ![4] S1.size inb_S6_S1_4)).squeeze S_ squeezes_S1_S_).sem) 0
          ∗ semVal ((V d (cV L) (jV L)), SemLoc.dma ((cc1_scratch4.slice (Rect.unit (s := S6) ![5] S1.size inb_S6_S1_5)).squeeze S_ squeezes_S1_S_).sem) 0
          ∗ semRest d L) := by
  unfold SparseCore.Cfg.ownSems0
  have hmem : ∀ g ∈ slotSems.map (fun a => (((V d (cV L) (jV L)), a) : GSem nD τ sig)), g ∈ ownCells (V d (cV L) (jV L)) := by
    intro g hg
    obtain ⟨a, ha, rfl⟩ := List.mem_map.mp hg
    exact mem_ownCells.mpr ⟨rfl, slotSems_scoped a ha⟩
  rw [bigSep_take_list (fun g => semVal g 0) (slotSems.map fun a => (((V d (cV L) (jV L)), a) : GSem nD τ sig)) _
    (slotSems_nodup.map fun x y h => (Prod.mk.inj h).2) hmem]
  unfold semRest
  simp only [slotSems, List.map_cons, List.map_nil, List.foldr_cons, List.foldr_nil]

/-! ## The tile's own buffers: the two scratch buffers and the rest -/

/-- The tile's other own buffers, each whole at some contents. -/
def bufRest (d : Dev nD) (L : grid1.Coords) : sProp 𝕄 :=
  bigSep (ownRefs (τ := τ) (.scVector (cV L) (jV L))
      \ [(Proc.scVector (cV L) (jV L)).devRef cc1_scratch0, (Proc.scVector (cV L) (jV L)).devRef cc1_scratch1].toFinset)
    fun b => iprop(∃ f, ((d, b) : Loc nD τ sig) ↦{fullShare} f)

/-- The tile's own buffers are its two scratch buffers, each whole at some contents, and the rest. -/
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ bufRest d L) := by
  unfold SparseCore.Cfg.ownBufs
  refine (bigSep_take_list (fun b => iprop(∃ f, ((d, b) : Loc nD τ sig) ↦{fullShare} f))
    [(Proc.scVector (cV L) (jV L)).devRef cc1_scratch0, (Proc.scVector (cV L) (jV L)).devRef cc1_scratch1] _ ?_ ?_).trans rfl
  · refine List.nodup_cons.mpr ⟨?_, List.nodup_singleton _⟩
    rw [List.mem_singleton]
    exact fun e => absurd (Proc.devRef_injective _ e) (show (cc1_scratch0 : Ref sig .scVector) ≠ cc1_scratch1 by decide)
  · intro b hb
    rcases List.mem_cons.mp hb with rfl | hb
    · exact SparseCore.Cfg.mem_ownRefs_of_owner (p := Proc.scVector (cV L) (jV L)) rfl
    · rw [List.mem_singleton] at hb; subst hb
      exact SparseCore.Cfg.mem_ownRefs_of_owner (p := Proc.scVector (cV L) (jV L)) rfl

/-! ## A family over six slots, slot by slot -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A buffer held at contents of which something is known is held at some contents. -/
theorem ex_forget {ℓ : Loc nD τ sig} (φ : Buf (Elt F) ℓ → Prop) :
    (iprop(∃ g, ⌜φ g⌝ ∗ ℓ ↦{fullShare} g) : sProp 𝕄) ⊢ iprop(∃ f, ℓ ↦{fullShare} f) := by
  iintro ⟨%g, -, Hg⟩
  iexists g; iexact Hg

/-! ## The index scratch is its six slots -/

/-- Slot b of the index scratch: row b of its six rows of 128 words. -/
abbrev iSlot (b : Fin 6) : Rect S6x128 :=
  Rect.unit (s := S6x128) ![b.val, 0] S1x128.size (fun a => match a with
    | ⟨0, _⟩ => (by show b.val + 1 ≤ 6; omega)
    | ⟨1, _⟩ => (by show 0 + 128 ≤ 128; omega))

/-- Its elements, as the slot's memref (sliced out, then squeezed to 128 words) has them. -/
abbrev iSet (b : Fin 6) : Finset S6x128.Idx := ((sI.slice (iSlot b) (fun _ => rfl)).squeeze S128 squeezes_S1x128_S128).view.set

theorem iSet_eq (b : Fin 6) : iSet b = (iSlot b).set := by
  show (((View.whole (cc1_scratch0 : Ref sig .scVector)).slice (iSlot b)).reshape S128 _).set = _
  rw [View.set_reshape, View.set_slice]; exact Finset.map_refl

/-- Two slots share no word: they lie in different rows. -/
theorem iSet_disjoint : ∀ b ∈ (Finset.univ : Finset (Fin 6)), ∀ b' ∈ (Finset.univ : Finset (Fin 6)), b ≠ b' → Disjoint (iSet b) (iSet b') :=
  fun b _ b' _ h => by
    rw [iSet_eq, iSet_eq]
    refine Rect.unit_disjoint (0 : Fin 2) ?_
    have hv : b.val ≠ b'.val := fun e => h (Fin.ext e)
    show b.val + 1 ≤ b'.val ∨ b'.val + 1 ≤ b.val
    omega

/-- Every word lies in the slot its row names. -/
theorem iSet_cover : (Finset.univ : Finset (Fin 6)).biUnion iSet = Finset.univ := by
  ext i
  simp only [Finset.mem_biUnion, Finset.mem_univ, true_and, iff_true]
  refine ⟨⟨(i 0).val, (i 0).isLt⟩, ?_⟩
  rw [iSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩

theorem sI_pts_slots (d : Dev nD) (L : grid1.Coords) (f : Buf (Elt F) ((V d (cV L) (jV L)).loc cc1_scratch0)) :
    ((V d (cV L) (jV L)).loc cc1_scratch0 ↦{fullShare} f : sProp 𝕄)
      = bigSep Finset.univ fun b : Fin 6 => (V d (cV L) (jV L)).loc cc1_scratch0 ↦[iSet b]{fullShare} f := by
  rw [← pointsTo_biUnion Finset.univ (ℓ := (V d (cV L) (jV L)).loc cc1_scratch0) iSet iSet_disjoint, iSet_cover]; try rfl

/-- The index scratch held whole is its six slots held, each as the program spells the slot. -/
theorem sI_slots (d : Dev nD) (L : grid1.Coords) (f : Buf (Elt F) (sI.view.loc (V d (cV L) (jV L)))) :
    (sI.view.loc (V d (cV L) (jV L)) ↦{fullShare} f : sProp 𝕄)
      ⊢ iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} f)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} f)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} f)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} f)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} f)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} f)) :=
  Entails.of_eq ((sI_pts_slots d L f).trans (bigSep_fin6 _))

/-- Six slots held, at whatever contents each, are the index scratch held whole at some contents. -/
theorem sI_join (d : Dev nD) (L : grid1.Coords) (g0 g1 g2 g3 g4 g5 : Buf (Elt F) (sI.view.loc (V d (cV L) (jV L)))) :
    (iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} g0)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} g1)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} g2)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} g3)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} g4)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} g5)) : sProp 𝕄)
      ⊢ iprop(∃ f, sI.view.loc (V d (cV L) (jV L)) ↦{fullShare} f) := by
  have h := pointsTo_biUnion_join (Ix := HIx 2) (Val := Elt F) (Name := ℕ) (U := UU) (Lvl := ℕ) (ℓ := (V d (cV L) (jV L)).loc cc1_scratch0) (q := fullShare)
    (Finset.univ : Finset (Fin 6)) iSet ![g0, g1, g2, g3, g4, g5] g0 iSet_disjoint
  rw [bigSep_fin6, iSet_cover] at h
  exact BI.Entails.trans h (ex_forget _)

/-! ## The row scratch is its six slots -/

/-- Slot b of the row scratch: block b of its six blocks of 128 rows of 128 words. -/
abbrev rSlot (b : Fin 6) : Rect S6x128x128 :=
  Rect.unit (s := S6x128x128) ![b.val, 0, 0] S1x128x128.size (fun a => match a with
    | ⟨0, _⟩ => (by show b.val + 1 ≤ 6; omega)
    | ⟨1, _⟩ => (by show 0 + 128 ≤ 128; omega)
    | ⟨2, _⟩ => (by show 0 + 128 ≤ 128; omega))

/-- Its elements, as the slot's memref (sliced out, then squeezed to 128 rows of 128 words) has them. -/
abbrev rSet (b : Fin 6) : Finset S6x128x128.Idx :=
  ((sR.slice (rSlot b) (fun _ => rfl)).squeeze S128x128 squeezes_S1x128x128_S128x128).view.set

theorem rSet_eq (b : Fin 6) : rSet b = (rSlot b).set := by
  show (((View.whole (cc1_scratch1 : Ref sig .scVector)).slice (rSlot b)).reshape S128x128 _).set = _
  rw [View.set_reshape, View.set_slice]; exact Finset.map_refl

/-- Two slots share no word: they lie in different blocks. -/
theorem rSet_disjoint : ∀ b ∈ (Finset.univ : Finset (Fin 6)), ∀ b' ∈ (Finset.univ : Finset (Fin 6)), b ≠ b' → Disjoint (rSet b) (rSet b') :=
  fun b _ b' _ h => by
    rw [rSet_eq, rSet_eq]
    refine Rect.unit_disjoint (0 : Fin 3) ?_
    have hv : b.val ≠ b'.val := fun e => h (Fin.ext e)
    show b.val + 1 ≤ b'.val ∨ b'.val + 1 ≤ b.val
    omega

/-- Every word lies in the slot its block names. -/
theorem rSet_cover : (Finset.univ : Finset (Fin 6)).biUnion rSet = Finset.univ := by
  ext i
  simp only [Finset.mem_biUnion, Finset.mem_univ, true_and, iff_true]
  refine ⟨⟨(i 0).val, (i 0).isLt⟩, ?_⟩
  rw [rSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩

theorem sR_pts_slots (d : Dev nD) (L : grid1.Coords) (f : Buf (Elt F) ((V d (cV L) (jV L)).loc cc1_scratch1)) :
    ((V d (cV L) (jV L)).loc cc1_scratch1 ↦{fullShare} f : sProp 𝕄)
      = bigSep Finset.univ fun b : Fin 6 => (V d (cV L) (jV L)).loc cc1_scratch1 ↦[rSet b]{fullShare} f := by
  rw [← pointsTo_biUnion Finset.univ (ℓ := (V d (cV L) (jV L)).loc cc1_scratch1) rSet rSet_disjoint, rSet_cover]; try rfl

/-- The row scratch held whole is its six slots held, each as the program spells the slot. -/
theorem sR_slots (d : Dev nD) (L : grid1.Coords) (f : Buf (Elt F) (sR.view.loc (V d (cV L) (jV L)))) :
    (sR.view.loc (V d (cV L) (jV L)) ↦{fullShare} f : sProp 𝕄)
      ⊢ iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} f)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} f)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} f)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} f)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} f)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} f)) :=
  Entails.of_eq ((sR_pts_slots d L f).trans (bigSep_fin6 _))

/-- Six slots held, at whatever contents each, are the row scratch held whole at some contents. -/
theorem sR_join (d : Dev nD) (L : grid1.Coords) (g0 g1 g2 g3 g4 g5 : Buf (Elt F) (sR.view.loc (V d (cV L) (jV L)))) :
    (iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} g0)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} g1)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} g2)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} g3)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} g4)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} g5)) : sProp 𝕄)
      ⊢ iprop(∃ f, sR.view.loc (V d (cV L) (jV L)) ↦{fullShare} f) := by
  have h := pointsTo_biUnion_join (Ix := HIx 2) (Val := Elt F) (Name := ℕ) (U := UU) (Lvl := ℕ) (ℓ := (V d (cV L) (jV L)).loc cc1_scratch1) (q := fullShare)
    (Finset.univ : Finset (Fin 6)) rSet ![g0, g1, g2, g3, g4, g5] g0 rSet_disjoint
  rw [bigSep_fin6, rSet_cover] at h
  exact BI.Entails.trans h (ex_forget _)

end Cert.Kernel.Hand
end
-- ==== Proof.Bits.ScTile0.lean ====
/-
  The obligation of one vector subcore's task of gather call 0, as the SparseCore launch asks it: from the level facts, the
  task's operands (its read shares of table and index list, its result windows at what the result held), the subcore's scoped
  buffers and semaphores and what it owes, the kernel's body runs to the result windows at the gathered rows, the scoped
  storage back, and what it owes unchanged. The subcore's own semaphores are the ring's eighteen and the rest, its own
  buffers the two scratch buffers — each its six slots — and the rest; the rest rides along the run.
-/
import proofs.«208461_g52518860095779_cont_9to1_m_1075_29_alg».proof.Proof.Bits.ScTile0Run
import proofs.«208461_g52518860095779_cont_9to1_m_1075_29_alg».proof.Proof.Bits.ScTile0Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The tile's coordinates and its windows -/

/-- The grid coordinates of tile (c, s). -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tW (Memref.isWhole_whole _) iW (Memref.isWhole_whole _) oW (Memref.isWhole_whole _)
          sI (Memref.isWhole_whole _) sR (Memref.isWhole_whole _) cc1_scratch2 cc1_scratch3 cc1_scratch4) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Wrap
variable (d : Dev nD) (L : grid1.Coords)

/-- The tile's SparseCore and subcore, as the call's payload counts them. -/
abbrev cL : Fin 2 := Fin.cast (by rfl) (L 0)
abbrev sL : Fin 16 := Fin.cast (by rfl) (L 1)

theorem wid_L : wid (cL L) (sL L) = 2 * (L 1).val + (L 0).val := by
  show (L 1).val * 2 + (L 0).val = _; omega
/-- The tile's first window, -/
theorem lo_L : lo0 (wid (cL L) (sL L)) = loL L := by rw [wid_L]; rfl
/-- and the end of its windows. -/
theorem hi_L : hi0 (wid (cL L) (sL L)) = loL L + nW L := by
  rw [wid_L]; unfold hi0 nW loL
  by_cases h : 2 * (L 1).val + (L 0).val < 4 <;> simp only [h, if_true, if_false] <;> omega

/-- What the call hands the tile, in the spelling of the tile's run. -/
theorem tile0_eq (tb : Dev nD → Tab (F := F)) (ix : Dev nD → Ix0 (F := F)) (g : Dev nD → Out0 (F := F)) :
    (tile0 tb ix g d (cL L) (sL L) : sProp 𝕄)
      = iprop(((tW).view.loc (V d (cV L) (jV L)) ↦{qTile (cL L) (sL L)} tb d) ∗ ((iW).view.loc (V d (cV L) (jV L)) ↦{qTile (cL L) (sL L)} ix d)
          ∗ bigSep (Ring.rangeSet 2500 (loL L) (loL L + nW L)) fun w => oLoc0 d ↦[oSet0 w]{fullShare} g d) := by
  unfold tile0; rw [lo_L, hi_L]

theorem todoP_zero (g : Out0 (F := F)) :
    (todoP d L g 0 : sProp 𝕄) = bigSep (Ring.rangeSet 2500 (loL L) (loL L + nW L)) fun w => oLoc0 d ↦[oSet0 w]{fullShare} g := by
  unfold todoP; rw [Nat.mul_zero, Nat.add_zero]

set_option maxHeartbeats 4000000 in
/-- The task of tile L of device d: its own cells and buffers opened, the run, and everything handed back. -/
theorem tile_wrap (tb : Dev nD → Tab (F := F)) (ix : Dev nD → Ix0 (F := F)) (f0 : Dev nD → Out0 (F := F))
    (hin : ∀ j, (ix d j).toNat < 20000) (O : CellTallies nD τ sig (HIx 2)) (W : Waits sig (HIx 2)) (hO : ∀ g, O g none = 0) :
    iprop(levAts (K (F := F)).L (K (F := F)).lev ∗ emp ∗ tile0 tb ix f0 d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tW (Memref.isWhole_whole _) iW (Memref.isWhole_whole _) oW (Memref.isWhole_whole _)
            sI (Memref.isWhole_whole _) sR (Memref.isWhole_whole _) cc1_scratch2 cc1_scratch3 cc1_scratch4)
          fun _ => iprop(tile0 tb ix (fun d => gath0 (tb d) (ix d)) d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V,
    tile0_eq, tile0_eq]
  iintro ⟨#Hlv, -, ⟨Ht, Hi, Hw⟩, ⟨⟨%fi, HsI⟩, ⟨%fr, HsR⟩, Hbr⟩, ⟨S20, S21, S22, S23, S24, S25, S30, S31, S32, S33, S34, S35, S40, S41, S42, S43, S44, S45, Hsr⟩, HO⟩
  ihave HMW := ((K (F := F)).mayWaits_none (thr := (V d (cV L) (jV L))) hO) $$ Hlv
  icases (sI_slots d L fi) $$ HsI with ⟨I0, I1, I2, I3, I4, I5⟩
  icases (sR_slots d L fr) $$ HsR with ⟨R0, R1, R2, R3, R4, R5⟩
  iapply (wp_wand_r frame _ Set.univ)
  isplitl [HMW Ht Hi Hw I0 I1 I2 I3 I4 I5 R0 R1 R2 R3 R4 R5 S20 S21 S22 S23 S24 S25 S30 S31 S32 S33 S34 S35 S40 S41 S42 S43 S44 S45 HO]
  · iapply (tile_run d L (qTile (cL L) (sL L)) (tb d) (ix d) (f0 d) O W hin)
    unfold preRun
    rw [todoP_zero]
    isplitl [HMW]; · iexact HMW
    isplitl [Ht]; · iexact Ht
    isplitl [Hi]; · iexact Hi
    isplitl [Hw]; · iexact Hw
    isplitl [I0]; · iexists fi; iexact I0
    isplitl [I1]; · iexists fi; iexact I1
    isplitl [I2]; · iexists fi; iexact I2
    isplitl [I3]; · iexists fi; iexact I3
    isplitl [I4]; · iexists fi; iexact I4
    isplitl [I5]; · iexists fi; iexact I5
    isplitl [R0]; · iexists fr; iexact R0
    isplitl [R1]; · iexists fr; iexact R1
    isplitl [R2]; · iexists fr; iexact R2
    isplitl [R3]; · iexists fr; iexact R3
    isplitl [R4]; · iexists fr; iexact R4
    isplitl [R5]; · iexists fr; iexact R5
    isplitl [S20]; · iexact S20
    isplitl [S21]; · iexact S21
    isplitl [S22]; · iexact S22
    isplitl [S23]; · iexact S23
    isplitl [S24]; · iexact S24
    isplitl [S25]; · iexact S25
    isplitl [S30]; · iexact S30
    isplitl [S31]; · iexact S31
    isplitl [S32]; · iexact S32
    isplitl [S33]; · iexact S33
    isplitl [S34]; · iexact S34
    isplitl [S35]; · iexact S35
    isplitl [S40]; · iexact S40
    isplitl [S41]; · iexact S41
    isplitl [S42]; · iexact S42
    isplitl [S43]; · iexact S43
    isplitl [S44]; · iexact S44
    isplitl [S45]; · iexact S45
    iexact HO
  · iintro %_ Hpost
    unfold postRun
    icases Hpost with ⟨Ht, Hi, Hw, ⟨%gi0, I0⟩, ⟨%gi1, I1⟩, ⟨%gi2, I2⟩, ⟨%gi3, I3⟩, ⟨%gi4, I4⟩, ⟨%gi5, I5⟩, ⟨%gr0, R0⟩, ⟨%gr1, R1⟩, ⟨%gr2, R2⟩, ⟨%gr3, R3⟩, ⟨%gr4, R4⟩, ⟨%gr5, R5⟩, S20, S21, S22, S23, S24, S25, S30, S31, S32, S33, S34, S35, S40, S41, S42, S43, S44, S45, HO⟩
    isplitl [Ht Hi Hw]
    · isplitl [Ht]; · iexact Ht
      isplitl [Hi]; · iexact Hi
      iexact Hw
    isplitl [I0 I1 I2 I3 I4 I5 R0 R1 R2 R3 R4 R5 Hbr]
    · isplitl [I0 I1 I2 I3 I4 I5]
      · iapply (sI_join d L gi0 gi1 gi2 gi3 gi4 gi5)
        isplitl [I0]; · iexact I0
        isplitl [I1]; · iexact I1
        isplitl [I2]; · iexact I2
        isplitl [I3]; · iexact I3
        isplitl [I4]; · iexact I4
        iexact I5
      isplitl [R0 R1 R2 R3 R4 R5]
      · iapply (sR_join d L gr0 gr1 gr2 gr3 gr4 gr5)
        isplitl [R0]; · iexact R0
        isplitl [R1]; · iexact R1
        isplitl [R2]; · iexact R2
        isplitl [R3]; · iexact R3
        isplitl [R4]; · iexact R4
        iexact R5
      iexact Hbr
    isplitl [S20 S21 S22 S23 S24 S25 S30 S31 S32 S33 S34 S35 S40 S41 S42 S43 S44 S45 Hsr]
    ·
      isplitl [S20]; · iexact S20
      isplitl [S21]; · iexact S21
      isplitl [S22]; · iexact S22
      isplitl [S23]; · iexact S23
      isplitl [S24]; · iexact S24
      isplitl [S25]; · iexact S25
      isplitl [S30]; · iexact S30
      isplitl [S31]; · iexact S31
      isplitl [S32]; · iexact S32
      isplitl [S33]; · iexact S33
      isplitl [S34]; · iexact S34
      isplitl [S35]; · iexact S35
      isplitl [S40]; · iexact S40
      isplitl [S41]; · iexact S41
      isplitl [S42]; · iexact S42
      isplitl [S43]; · iexact S43
      isplitl [S44]; · iexact S44
      isplitl [S45]; · iexact S45
      iexact Hsr
    iexact HO

end Wrap

/-! ## The launch theorem's obligation -/

section Obl
variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

set_option maxHeartbeats 4000000 in
/-- Gather call 0, as one vector subcore's task: the launch theorem's obligation for it. -/
theorem tileObl0 (hin0 : ∀ d j, (ix0 d j).toNat < 20000) :
    (K (F := F)).TileObl (D (F := F)) 𝒱 (P tb0 ix0 f0 tb1 ix1 f1) v₀ 0 := by
  intro d c i O W hO _ _
  simp only [P_ox, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_wrap d (coordsV ⟨_, hc.1⟩ ⟨_, hc.2⟩) tb0 ix0 f0 (hin0 d) O W hO).trans (wp_mono frame _ _ fun _ => obl_post)

end Obl

end Cert.Kernel.Hand

end
-- ==== Proof.Bits.ScTile1Inv.lean ====
/-
  One tile of gather call 1: which windows it owns and which branches of the kernel's body it takes (in closed
  form), the result's windows as the parts of a cut of its rows, runs of windows taken six at a time, and the
  invariant of the kernel's loop: per slot of the six-slot ring, the index copy and the write-out outstanding at
  the head of a trip, with what they will deliver; the windows still to write and those written.
-/
import proofs.«208461_g52518860095779_cont_9to1_m_1075_29_alg».proof.Proof.Bits.ScPay

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- A window number as an index of the 5000 windows (capped: every window met is below 5000). -/
def fw (w : ℕ) : Fin 5000 := ⟨min w 4999, by omega⟩
theorem fw_val {w : ℕ} (h : w < 5000) : (fw w).val = w := by show min w 4999 = w; omega

abbrev cV (L : grid3.Coords) : Fin τ.nSC := (L 0).castLE hcore3
abbrev jV (L : grid3.Coords) : Fin τ.nSub := (L 1).castLE hsub3

abbrev tW : Memref sig .scVector .hbm S20000x128 .f32 := Memref.whole main_v12_scv
abbrev iW : Memref sig .scVector .hbm S640000 .i32 := Memref.whole main_v25_scv
abbrev oW : Memref sig .scVector .hbm S640000x128 .f32 := Memref.whole main_v26_scv
abbrev sI : Memref sig .scVector .vmem S6x128 .i32 := Memref.whole cc3_scratch0
abbrev sR : Memref sig .scVector .vmem S6x128x128 .f32 := Memref.whole cc3_scratch1

/-- Word r of the index list (capped: every word met is below 640000). -/
def ixAt (ix : Ix1 (F := F)) (r : ℕ) : Elt F .i32 := ix (ValueIdx.ix1 (⟨min r 639999, by omega⟩ : Fin 640000))

/-! ## The tile's windows and the branch conditions -/

/-- How many windows tile L owns, -/
def nW (L : grid3.Coords) : ℕ := 156 + (if 2 * (L 1).val + (L 0).val < 8 then 1 else 0)
/-- and the first of them. -/
def loL (L : grid3.Coords) : ℕ := lo1 (2 * (L 1).val + (L 0).val)

theorem nW_ge (L : grid3.Coords) : 156 ≤ nW L := by unfold nW; omega
theorem nW_le (L : grid3.Coords) : nW L ≤ 157 := by unfold nW; split <;> omega
theorem loL_hi (L : grid3.Coords) : loL L + nW L ≤ 5000 := by
  have h0 : (L 0).val < 2 := (L 0).isLt
  have h1 : (L 1).val < 16 := (L 1).isLt
  unfold loL nW lo1; split <;> omega

theorem cond1_true : ∀ L : grid3.Coords, k3_cond1 L = 1#1 := by decide +kernel
theorem cond2_true : ∀ L : grid3.Coords, k3_cond2 L = 1#1 := by decide +kernel
theorem cond3_true : ∀ L : grid3.Coords, k3_cond3 L = 1#1 := by decide +kernel
theorem cond4_true : ∀ L : grid3.Coords, k3_cond4 L = 1#1 := by decide +kernel
theorem cond5_true : ∀ L : grid3.Coords, k3_cond5 L = 1#1 := by decide +kernel
theorem cond6_true : ∀ L : grid3.Coords, k3_cond6 L = 1#1 := by decide +kernel
theorem cond7_iff : ∀ (L : grid3.Coords) (t : Fin k3_t1_loop.trips), k3_cond7 L t = 1#1 ↔ 6 * t.val + 0 < nW L := by decide +kernel
theorem cond9_iff : ∀ (L : grid3.Coords) (t : Fin k3_t1_loop.trips), k3_cond9 L t = 1#1 ↔ 6 * t.val + 1 < nW L := by decide +kernel
theorem cond11_iff : ∀ (L : grid3.Coords) (t : Fin k3_t1_loop.trips), k3_cond11 L t = 1#1 ↔ 6 * t.val + 2 < nW L := by decide +kernel
theorem cond13_iff : ∀ (L : grid3.Coords) (t : Fin k3_t1_loop.trips), k3_cond13 L t = 1#1 ↔ 6 * t.val + 3 < nW L := by decide +kernel
theorem cond15_iff : ∀ (L : grid3.Coords) (t : Fin k3_t1_loop.trips), k3_cond15 L t = 1#1 ↔ 6 * t.val + 4 < nW L := by decide +kernel
theorem cond17_iff : ∀ (L : grid3.Coords) (t : Fin k3_t1_loop.trips), k3_cond17 L t = 1#1 ↔ 6 * t.val + 5 < nW L := by decide +kernel
theorem cond8_iff : ∀ (t : Fin k3_t1_loop.trips), k3_cond8 t = 1#1 ↔ 0 < t.val := by decide +kernel
theorem cond10_iff : ∀ (t : Fin k3_t1_loop.trips), k3_cond10 t = 1#1 ↔ 0 < t.val := by decide +kernel
theorem cond12_iff : ∀ (t : Fin k3_t1_loop.trips), k3_cond12 t = 1#1 ↔ 0 < t.val := by decide +kernel
theorem cond14_iff : ∀ (t : Fin k3_t1_loop.trips), k3_cond14 t = 1#1 ↔ 0 < t.val := by decide +kernel
theorem cond16_iff : ∀ (t : Fin k3_t1_loop.trips), k3_cond16 t = 1#1 ↔ 0 < t.val := by decide +kernel
theorem cond18_iff : ∀ (t : Fin k3_t1_loop.trips), k3_cond18 t = 1#1 ↔ 0 < t.val := by decide +kernel
theorem cond19_iff : ∀ (L : grid3.Coords) (t : Fin k3_t1_loop.trips), k3_cond19 L t = 1#1 ↔ 6 * t.val + 0 < nW L := by decide +kernel
theorem cond21_iff : ∀ (L : grid3.Coords) (t : Fin k3_t1_loop.trips), k3_cond21 L t = 1#1 ↔ 6 * t.val + 1 < nW L := by decide +kernel
theorem cond23_iff : ∀ (L : grid3.Coords) (t : Fin k3_t1_loop.trips), k3_cond23 L t = 1#1 ↔ 6 * t.val + 2 < nW L := by decide +kernel
theorem cond25_iff : ∀ (L : grid3.Coords) (t : Fin k3_t1_loop.trips), k3_cond25 L t = 1#1 ↔ 6 * t.val + 3 < nW L := by decide +kernel
theorem cond27_iff : ∀ (L : grid3.Coords) (t : Fin k3_t1_loop.trips), k3_cond27 L t = 1#1 ↔ 6 * t.val + 4 < nW L := by decide +kernel
theorem cond29_iff : ∀ (L : grid3.Coords) (t : Fin k3_t1_loop.trips), k3_cond29 L t = 1#1 ↔ 6 * t.val + 5 < nW L := by decide +kernel
theorem cond20_iff : ∀ (L : grid3.Coords) (t : Fin k3_t1_loop.trips), k3_cond20 L t = 1#1 ↔ 6 * t.val + 6 < nW L := by decide +kernel
theorem cond22_iff : ∀ (L : grid3.Coords) (t : Fin k3_t1_loop.trips), k3_cond22 L t = 1#1 ↔ 6 * t.val + 7 < nW L := by decide +kernel
theorem cond24_iff : ∀ (L : grid3.Coords) (t : Fin k3_t1_loop.trips), k3_cond24 L t = 1#1 ↔ 6 * t.val + 8 < nW L := by decide +kernel
theorem cond26_iff : ∀ (L : grid3.Coords) (t : Fin k3_t1_loop.trips), k3_cond26 L t = 1#1 ↔ 6 * t.val + 9 < nW L := by decide +kernel
theorem cond28_iff : ∀ (L : grid3.Coords) (t : Fin k3_t1_loop.trips), k3_cond28 L t = 1#1 ↔ 6 * t.val + 10 < nW L := by decide +kernel
theorem cond30_iff : ∀ (L : grid3.Coords) (t : Fin k3_t1_loop.trips), k3_cond30 L t = 1#1 ↔ 6 * t.val + 11 < nW L := by decide +kernel
theorem trips_eq : k3_t1_loop.trips = 27 := by decide

/-- The printed slice of the result at row offset 128 w is window w. -/
theorem oRect_eq (w : Fin 5000) (off : Fin 2 → ℕ) (h : ∀ a, off a + S128x128.size a ≤ S640000x128.size a) (e : off = ![128 * w.val, 0]) :
    Rect.unit (s := S640000x128) off S128x128.size h = oWin1 w := by
  subst e
  unfold oWin1 Rect.part Rect.block
  congr 1 <;> funext a
  · match a with
    | 0 => simp [Shape.partIx, Shape.partSize, S640000x128, Nat.mul_comm]
    | 1 => simp [Shape.partIx, Shape.partSize, S640000x128]
  · match a with
    | 0 => simp [Shape.partSize, S640000x128, S128x128]
    | 1 => simp [Shape.partSize, S640000x128, S128x128]

/-! ## Runs of windows: the first six set apart, one more joined at the end -/

section Pools
omit [FloatOps F] in
theorem head_fw (Φ : Fin 5000 → sProp 𝕄) (a h : ℕ) (h1 : a < h) (h2 : a < 5000) :
    bigSep (Ring.rangeSet 5000 a h) Φ = iprop(Φ (fw a) ∗ bigSep (Ring.rangeSet 5000 (a + 1) h) Φ) := by
  rw [Ring.bigSep_rangeSet_head h1 h2, show (⟨a, h2⟩ : Fin 5000) = fw a from Fin.ext (fw_val h2).symm]
omit [FloatOps F] in
theorem last_fw (Φ : Fin 5000 → sProp 𝕄) (a h : ℕ) (h1 : a ≤ h) (h2 : h < 5000) :
    bigSep (Ring.rangeSet 5000 a (h + 1)) Φ = iprop(Φ (fw h) ∗ bigSep (Ring.rangeSet 5000 a h) Φ) := by
  rw [Ring.bigSep_rangeSet_last (by omega : a < h + 1) (by omega : h + 1 ≤ 5000)]
  simp only [Nat.add_sub_cancel]
  rw [show (⟨h, by omega⟩ : Fin 5000) = fw h from Fin.ext (fw_val h2).symm]
omit [FloatOps F] in
theorem take6 (Φ : Fin 5000 → sProp 𝕄) (a h : ℕ) (h1 : a + 6 ≤ h) (h2 : h ≤ 5000) :
    bigSep (Ring.rangeSet 5000 a h) Φ = iprop(Φ (fw a) ∗ Φ (fw (a + 1)) ∗ Φ (fw (a + 2)) ∗ Φ (fw (a + 3)) ∗ Φ (fw (a + 4)) ∗ Φ (fw (a + 5))
      ∗ bigSep (Ring.rangeSet 5000 (a + 6) h) Φ) := by
  rw [head_fw Φ a h (by omega) (by omega), head_fw Φ (a + 1) h (by omega) (by omega), head_fw Φ (a + 2) h (by omega) (by omega),
    head_fw Φ (a + 3) h (by omega) (by omega), head_fw Φ (a + 4) h (by omega) (by omega), head_fw Φ (a + 5) h (by omega) (by omega)]
omit [FloatOps F] in
theorem put6 (Φ : Fin 5000 → sProp 𝕄) (a h : ℕ) (h1 : a ≤ h) (h2 : h + 6 ≤ 5000) :
    bigSep (Ring.rangeSet 5000 a (h + 6)) Φ = iprop(Φ (fw (h + 5)) ∗ Φ (fw (h + 4)) ∗ Φ (fw (h + 3)) ∗ Φ (fw (h + 2)) ∗ Φ (fw (h + 1)) ∗ Φ (fw h)
      ∗ bigSep (Ring.rangeSet 5000 a h) Φ) := by
  rw [last_fw Φ a (h + 5) (by omega) (by omega), last_fw Φ a (h + 4) (by omega) (by omega), last_fw Φ a (h + 3) (by omega) (by omega),
    last_fw Φ a (h + 2) (by omega) (by omega), last_fw Φ a (h + 1) (by omega) (by omega), last_fw Φ a h (by omega) (by omega)]
end Pools

/-! ## One tile: the loop's invariant -/

section Tile
variable (d : Dev nD) (L : grid3.Coords)
/-- The window whose write-out is outstanding on slot b at the head of trip t > 0, counted from the tile's first. -/
def wOut (n b t : ℕ) : ℕ := if 6 * (t - 1) + b < n then 6 * (t - 1) + b else 6 * (t - 2) + b
/-- How many of the tile's windows are written and waited for at the head of trip t. -/
def dn (n t : ℕ) : ℕ := if t = 27 then (if n = 157 then 151 else 150) else 6 * t - 6

/-- Slot 0, index side, a copy outstanding: the slot will hold window w of the list; the list's read token lent. -/
def idxFly0 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![0] S1.size inb_S6_S1_0)).squeeze S_ squeezes_S1_S_).sem) (default : HIx 2) 4096
        iprop(((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} ci) ∗ ((iW).view.loc (V d (cV L) (jV L)) ↦[I]{Transfers.shareTokN qi 32} ix))
    ∗ ((iW).view.loc (V d (cV L) (jV L)) ↦[Finset.univ \ I]{Transfers.shareTokN qi 32} ix))
/-- Slot 0, index side, nothing outstanding. -/
def idxIdle0 (qi : PosShare TreeShare) (ix : Ix1 (F := F)) : sProp 𝕄 :=
  iprop(semVal ((V d (cV L) (jV L)), SemLoc.dma ((cc3_scratch2.slice (Rect.unit (s := S6) ![0] S1.size inb_S6_S1_0)).squeeze S_ squeezes_S1_S_).sem) 0 ∗ (∃ ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} ci)
    ∗ ((iW).view.loc (V d (cV L) (jV L)) ↦{Transfers.shareTokN qi 32} ix))
def idxSide0 (qi : PosShare TreeShare) (ix : Ix1 (F := F)) (t : ℕ) : sProp 𝕄 :=
  if 6 * t + 0 < nW L then idxFly0 d L qi ix (loL L + 6 * t + 0) else idxIdle0 d L qi ix
theorem idxSide0_pos (qi : PosShare TreeShare) (ix : Ix1 (F := F)) (t : ℕ) (h : 6 * t + 0 < nW L) :
    idxSide0 d L qi ix t = idxFly0 d L qi ix (loL L + 6 * t + 0) := if_pos h
theorem idxSide0_neg (qi : PosShare TreeShare) (ix : Ix1 (F := F)) (t : ℕ) (h : ¬ 6 * t + 0 < nW L) :
    idxSide0 d L qi ix t = idxIdle0 d L qi ix := if_neg h
/-- Slot 0, rows side, a write-out outstanding: result window w at the gathered rows, and the slot's rows back. -/
def rowFly0 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![0] S1.size inb_S6_S1_0)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)))
def rowIdle0 : sProp 𝕄 :=
  iprop(semVal ((V d (cV L) (jV L)), SemLoc.dma ((cc3_scratch4.slice (Rect.unit (s := S6) ![0] S1.size inb_S6_S1_0)).squeeze S_ squeezes_S1_S_).sem) 0 ∗ ∃ gr : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} gr)
def rowSide0 (tb : Tab (F := F)) (ix : Ix1 (F := F)) (t : ℕ) : sProp 𝕄 :=
  if t = 0 then rowIdle0 d L else rowFly0 d L tb ix (loL L + wOut (nW L) 0 t)
theorem rowSide0_zero (tb : Tab (F := F)) (ix : Ix1 (F := F)) (t : ℕ) (h : t = 0) : rowSide0 d L tb ix t = rowIdle0 d L := if_pos h
theorem rowSide0_pos (tb : Tab (F := F)) (ix : Ix1 (F := F)) (t : ℕ) (h : t ≠ 0) :
    rowSide0 d L tb ix t = rowFly0 d L tb ix (loL L + wOut (nW L) 0 t) := if_neg h

/-- Slot 1, index side, a copy outstanding: the slot will hold window w of the list; the list's read token lent. -/
def idxFly1 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![1] S1.size inb_S6_S1_1)).squeeze S_ squeezes_S1_S_).sem) (default : HIx 2) 4096
        iprop(((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} ci) ∗ ((iW).view.loc (V d (cV L) (jV L)) ↦[I]{Transfers.shareTokN qi 33} ix))
    ∗ ((iW).view.loc (V d (cV L) (jV L)) ↦[Finset.univ \ I]{Transfers.shareTokN qi 33} ix))
/-- Slot 1, index side, nothing outstanding. -/
def idxIdle1 (qi : PosShare TreeShare) (ix : Ix1 (F := F)) : sProp 𝕄 :=
  iprop(semVal ((V d (cV L) (jV L)), SemLoc.dma ((cc3_scratch2.slice (Rect.unit (s := S6) ![1] S1.size inb_S6_S1_1)).squeeze S_ squeezes_S1_S_).sem) 0 ∗ (∃ ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} ci)
    ∗ ((iW).view.loc (V d (cV L) (jV L)) ↦{Transfers.shareTokN qi 33} ix))
def idxSide1 (qi : PosShare TreeShare) (ix : Ix1 (F := F)) (t : ℕ) : sProp 𝕄 :=
  if 6 * t + 1 < nW L then idxFly1 d L qi ix (loL L + 6 * t + 1) else idxIdle1 d L qi ix
theorem idxSide1_pos (qi : PosShare TreeShare) (ix : Ix1 (F := F)) (t : ℕ) (h : 6 * t + 1 < nW L) :
    idxSide1 d L qi ix t = idxFly1 d L qi ix (loL L + 6 * t + 1) := if_pos h
theorem idxSide1_neg (qi : PosShare TreeShare) (ix : Ix1 (F := F)) (t : ℕ) (h : ¬ 6 * t + 1 < nW L) :
    idxSide1 d L qi ix t = idxIdle1 d L qi ix := if_neg h
/-- Slot 1, rows side, a write-out outstanding: result window w at the gathered rows, and the slot's rows back. -/
def rowFly1 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![1] S1.size inb_S6_S1_1)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)))
def rowIdle1 : sProp 𝕄 :=
  iprop(semVal ((V d (cV L) (jV L)), SemLoc.dma ((cc3_scratch4.slice (Rect.unit (s := S6) ![1] S1.size inb_S6_S1_1)).squeeze S_ squeezes_S1_S_).sem) 0 ∗ ∃ gr : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} gr)
def rowSide1 (tb : Tab (F := F)) (ix : Ix1 (F := F)) (t : ℕ) : sProp 𝕄 :=
  if t = 0 then rowIdle1 d L else rowFly1 d L tb ix (loL L + wOut (nW L) 1 t)
theorem rowSide1_zero (tb : Tab (F := F)) (ix : Ix1 (F := F)) (t : ℕ) (h : t = 0) : rowSide1 d L tb ix t = rowIdle1 d L := if_pos h
theorem rowSide1_pos (tb : Tab (F := F)) (ix : Ix1 (F := F)) (t : ℕ) (h : t ≠ 0) :
    rowSide1 d L tb ix t = rowFly1 d L tb ix (loL L + wOut (nW L) 1 t) := if_neg h

/-- Slot 2, index side, a copy outstanding: the slot will hold window w of the list; the list's read token lent. -/
def idxFly2 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![2] S1.size inb_S6_S1_2)).squeeze S_ squeezes_S1_S_).sem) (default : HIx 2) 4096
        iprop(((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} ci) ∗ ((iW).view.loc (V d (cV L) (jV L)) ↦[I]{Transfers.shareTokN qi 34} ix))
    ∗ ((iW).view.loc (V d (cV L) (jV L)) ↦[Finset.univ \ I]{Transfers.shareTokN qi 34} ix))
/-- Slot 2, index side, nothing outstanding. -/
def idxIdle2 (qi : PosShare TreeShare) (ix : Ix1 (F := F)) : sProp 𝕄 :=
  iprop(semVal ((V d (cV L) (jV L)), SemLoc.dma ((cc3_scratch2.slice (Rect.unit (s := S6) ![2] S1.size inb_S6_S1_2)).squeeze S_ squeezes_S1_S_).sem) 0 ∗ (∃ ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} ci)
    ∗ ((iW).view.loc (V d (cV L) (jV L)) ↦{Transfers.shareTokN qi 34} ix))
def idxSide2 (qi : PosShare TreeShare) (ix : Ix1 (F := F)) (t : ℕ) : sProp 𝕄 :=
  if 6 * t + 2 < nW L then idxFly2 d L qi ix (loL L + 6 * t + 2) else idxIdle2 d L qi ix
theorem idxSide2_pos (qi : PosShare TreeShare) (ix : Ix1 (F := F)) (t : ℕ) (h : 6 * t + 2 < nW L) :
    idxSide2 d L qi ix t = idxFly2 d L qi ix (loL L + 6 * t + 2) := if_pos h
theorem idxSide2_neg (qi : PosShare TreeShare) (ix : Ix1 (F := F)) (t : ℕ) (h : ¬ 6 * t + 2 < nW L) :
    idxSide2 d L qi ix t = idxIdle2 d L qi ix := if_neg h
/-- Slot 2, rows side, a write-out outstanding: result window w at the gathered rows, and the slot's rows back. -/
def rowFly2 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![2] S1.size inb_S6_S1_2)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)))
def rowIdle2 : sProp 𝕄 :=
  iprop(semVal ((V d (cV L) (jV L)), SemLoc.dma ((cc3_scratch4.slice (Rect.unit (s := S6) ![2] S1.size inb_S6_S1_2)).squeeze S_ squeezes_S1_S_).sem) 0 ∗ ∃ gr : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} gr)
def rowSide2 (tb : Tab (F := F)) (ix : Ix1 (F := F)) (t : ℕ) : sProp 𝕄 :=
  if t = 0 then rowIdle2 d L else rowFly2 d L tb ix (loL L + wOut (nW L) 2 t)
theorem rowSide2_zero (tb : Tab (F := F)) (ix : Ix1 (F := F)) (t : ℕ) (h : t = 0) : rowSide2 d L tb ix t = rowIdle2 d L := if_pos h
theorem rowSide2_pos (tb : Tab (F := F)) (ix : Ix1 (F := F)) (t : ℕ) (h : t ≠ 0) :
    rowSide2 d L tb ix t = rowFly2 d L tb ix (loL L + wOut (nW L) 2 t) := if_neg h

/-- Slot 3, index side, a copy outstanding: the slot will hold window w of the list; the list's read token lent. -/
def idxFly3 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![3] S1.size inb_S6_S1_3)).squeeze S_ squeezes_S1_S_).sem) (default : HIx 2) 4096
        iprop(((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} ci) ∗ ((iW).view.loc (V d (cV L) (jV L)) ↦[I]{Transfers.shareTokN qi 35} ix))
    ∗ ((iW).view.loc (V d (cV L) (jV L)) ↦[Finset.univ \ I]{Transfers.shareTokN qi 35} ix))
/-- Slot 3, index side, nothing outstanding. -/
def idxIdle3 (qi : PosShare TreeShare) (ix : Ix1 (F := F)) : sProp 𝕄 :=
  iprop(semVal ((V d (cV L) (jV L)), SemLoc.dma ((cc3_scratch2.slice (Rect.unit (s := S6) ![3] S1.size inb_S6_S1_3)).squeeze S_ squeezes_S1_S_).sem) 0 ∗ (∃ ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} ci)
    ∗ ((iW).view.loc (V d (cV L) (jV L)) ↦{Transfers.shareTokN qi 35} ix))
def idxSide3 (qi : PosShare TreeShare) (ix : Ix1 (F := F)) (t : ℕ) : sProp 𝕄 :=
  if 6 * t + 3 < nW L then idxFly3 d L qi ix (loL L + 6 * t + 3) else idxIdle3 d L qi ix
theorem idxSide3_pos (qi : PosShare TreeShare) (ix : Ix1 (F := F)) (t : ℕ) (h : 6 * t + 3 < nW L) :
    idxSide3 d L qi ix t = idxFly3 d L qi ix (loL L + 6 * t + 3) := if_pos h
theorem idxSide3_neg (qi : PosShare TreeShare) (ix : Ix1 (F := F)) (t : ℕ) (h : ¬ 6 * t + 3 < nW L) :
    idxSide3 d L qi ix t = idxIdle3 d L qi ix := if_neg h
/-- Slot 3, rows side, a write-out outstanding: result window w at the gathered rows, and the slot's rows back. -/
def rowFly3 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![3] S1.size inb_S6_S1_3)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)))
def rowIdle3 : sProp 𝕄 :=
  iprop(semVal ((V d (cV L) (jV L)), SemLoc.dma ((cc3_scratch4.slice (Rect.unit (s := S6) ![3] S1.size inb_S6_S1_3)).squeeze S_ squeezes_S1_S_).sem) 0 ∗ ∃ gr : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} gr)
def rowSide3 (tb : Tab (F := F)) (ix : Ix1 (F := F)) (t : ℕ) : sProp 𝕄 :=
  if t = 0 then rowIdle3 d L else rowFly3 d L tb ix (loL L + wOut (nW L) 3 t)
theorem rowSide3_zero (tb : Tab (F := F)) (ix : Ix1 (F := F)) (t : ℕ) (h : t = 0) : rowSide3 d L tb ix t = rowIdle3 d L := if_pos h
theorem rowSide3_pos (tb : Tab (F := F)) (ix : Ix1 (F := F)) (t : ℕ) (h : t ≠ 0) :
    rowSide3 d L tb ix t = rowFly3 d L tb ix (loL L + wOut (nW L) 3 t) := if_neg h

/-- Slot 4, index side, a copy outstanding: the slot will hold window w of the list; the list's read token lent. -/
def idxFly4 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![4] S1.size inb_S6_S1_4)).squeeze S_ squeezes_S1_S_).sem) (default : HIx 2) 4096
        iprop(((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} ci) ∗ ((iW).view.loc (V d (cV L) (jV L)) ↦[I]{Transfers.shareTokN qi 36} ix))
    ∗ ((iW).view.loc (V d (cV L) (jV L)) ↦[Finset.univ \ I]{Transfers.shareTokN qi 36} ix))
/-- Slot 4, index side, nothing outstanding. -/
def idxIdle4 (qi : PosShare TreeShare) (ix : Ix1 (F := F)) : sProp 𝕄 :=
  iprop(semVal ((V d (cV L) (jV L)), SemLoc.dma ((cc3_scratch2.slice (Rect.unit (s := S6) ![4] S1.size inb_S6_S1_4)).squeeze S_ squeezes_S1_S_).sem) 0 ∗ (∃ ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} ci)
    ∗ ((iW).view.loc (V d (cV L) (jV L)) ↦{Transfers.shareTokN qi 36} ix))
def idxSide4 (qi : PosShare TreeShare) (ix : Ix1 (F := F)) (t : ℕ) : sProp 𝕄 :=
  if 6 * t + 4 < nW L then idxFly4 d L qi ix (loL L + 6 * t + 4) else idxIdle4 d L qi ix
theorem idxSide4_pos (qi : PosShare TreeShare) (ix : Ix1 (F := F)) (t : ℕ) (h : 6 * t + 4 < nW L) :
    idxSide4 d L qi ix t = idxFly4 d L qi ix (loL L + 6 * t + 4) := if_pos h
theorem idxSide4_neg (qi : PosShare TreeShare) (ix : Ix1 (F := F)) (t : ℕ) (h : ¬ 6 * t + 4 < nW L) :
    idxSide4 d L qi ix t = idxIdle4 d L qi ix := if_neg h
/-- Slot 4, rows side, a write-out outstanding: result window w at the gathered rows, and the slot's rows back. -/
def rowFly4 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![4] S1.size inb_S6_S1_4)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)))
def rowIdle4 : sProp 𝕄 :=
  iprop(semVal ((V d (cV L) (jV L)), SemLoc.dma ((cc3_scratch4.slice (Rect.unit (s := S6) ![4] S1.size inb_S6_S1_4)).squeeze S_ squeezes_S1_S_).sem) 0 ∗ ∃ gr : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} gr)
def rowSide4 (tb : Tab (F := F)) (ix : Ix1 (F := F)) (t : ℕ) : sProp 𝕄 :=
  if t = 0 then rowIdle4 d L else rowFly4 d L tb ix (loL L + wOut (nW L) 4 t)
theorem rowSide4_zero (tb : Tab (F := F)) (ix : Ix1 (F := F)) (t : ℕ) (h : t = 0) : rowSide4 d L tb ix t = rowIdle4 d L := if_pos h
theorem rowSide4_pos (tb : Tab (F := F)) (ix : Ix1 (F := F)) (t : ℕ) (h : t ≠ 0) :
    rowSide4 d L tb ix t = rowFly4 d L tb ix (loL L + wOut (nW L) 4 t) := if_neg h

/-- Slot 5, index side, a copy outstanding: the slot will hold window w of the list; the list's read token lent. -/
def idxFly5 (qi : PosShare TreeShare) (ix : Ix1 (F := F)) (w : ℕ) : sProp 𝕄 :=
  iprop(∃ (ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (I : Finset S640000.Idx),
    ⌜∀ x : S128.Idx, (((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val)⌝
    ∗ Transfers.Flight countersEmb (V d (cV L) (jV L)) (SemLoc.dma ((cc3_scratch2.slice (Rect.unit (s := S6) ![5] S1.size inb_S6_S1_5)).squeeze S_ squeezes_S1_S_).sem) (default : HIx 2) 4096
        iprop(((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} ci) ∗ ((iW).view.loc (V d (cV L) (jV L)) ↦[I]{Transfers.shareTokN qi 37} ix))
    ∗ ((iW).view.loc (V d (cV L) (jV L)) ↦[Finset.univ \ I]{Transfers.shareTokN qi 37} ix))
/-- Slot 5, index side, nothing outstanding. -/
def idxIdle5 (qi : PosShare TreeShare) (ix : Ix1 (F := F)) : sProp 𝕄 :=
  iprop(semVal ((V d (cV L) (jV L)), SemLoc.dma ((cc3_scratch2.slice (Rect.unit (s := S6) ![5] S1.size inb_S6_S1_5)).squeeze S_ squeezes_S1_S_).sem) 0 ∗ (∃ ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} ci)
    ∗ ((iW).view.loc (V d (cV L) (jV L)) ↦{Transfers.shareTokN qi 37} ix))
def idxSide5 (qi : PosShare TreeShare) (ix : Ix1 (F := F)) (t : ℕ) : sProp 𝕄 :=
  if 6 * t + 5 < nW L then idxFly5 d L qi ix (loL L + 6 * t + 5) else idxIdle5 d L qi ix
theorem idxSide5_pos (qi : PosShare TreeShare) (ix : Ix1 (F := F)) (t : ℕ) (h : 6 * t + 5 < nW L) :
    idxSide5 d L qi ix t = idxFly5 d L qi ix (loL L + 6 * t + 5) := if_pos h
theorem idxSide5_neg (qi : PosShare TreeShare) (ix : Ix1 (F := F)) (t : ℕ) (h : ¬ 6 * t + 5 < nW L) :
    idxSide5 d L qi ix t = idxIdle5 d L qi ix := if_neg h
/-- Slot 5, rows side, a write-out outstanding: result window w at the gathered rows, and the slot's rows back. -/
def rowFly5 (tb : Tab (F := F)) (ix : Ix1 (F := F)) (w : ℕ) : sProp 𝕄 :=
  iprop(∃ (gr : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (fo : Out1 (F := F)), ⌜∀ j ∈ oSet1 (fw w), fo j = gath1 tb ix j⌝
    ∗ Transfers.Flight countersEmb (V d (cV L) (jV L)) (SemLoc.dma ((cc3_scratch4.slice (Rect.unit (s := S6) ![5] S1.size inb_S6_S1_5)).squeeze S_ squeezes_S1_S_).sem) (default : HIx 2) 524288
        iprop((oLoc1 d ↦[oSet1 (fw w)]{fullShare} fo) ∗ ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)))
def rowIdle5 : sProp 𝕄 :=
  iprop(semVal ((V d (cV L) (jV L)), SemLoc.dma ((cc3_scratch4.slice (Rect.unit (s := S6) ![5] S1.size inb_S6_S1_5)).squeeze S_ squeezes_S1_S_).sem) 0 ∗ ∃ gr : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} gr)
def rowSide5 (tb : Tab (F := F)) (ix : Ix1 (F := F)) (t : ℕ) : sProp 𝕄 :=
  if t = 0 then rowIdle5 d L else rowFly5 d L tb ix (loL L + wOut (nW L) 5 t)
theorem rowSide5_zero (tb : Tab (F := F)) (ix : Ix1 (F := F)) (t : ℕ) (h : t = 0) : rowSide5 d L tb ix t = rowIdle5 d L := if_pos h
theorem rowSide5_pos (tb : Tab (F := F)) (ix : Ix1 (F := F)) (t : ℕ) (h : t ≠ 0) :
    rowSide5 d L tb ix t = rowFly5 d L tb ix (loL L + wOut (nW L) 5 t) := if_neg h

/-- The tile's result windows not yet written out, at what the array held before, -/
def todoP (f0 : Out1 (F := F)) (t : ℕ) : sProp 𝕄 :=
  bigSep (Ring.rangeSet 5000 (loL L + 6 * t) (loL L + nW L)) fun w => oLoc1 d ↦[oSet1 w]{fullShare} f0
/-- and those written and waited for, at the gathered rows. -/
def doneP (tb : Tab (F := F)) (ix : Ix1 (F := F)) (t : ℕ) : sProp 𝕄 :=
  bigSep (Ring.rangeSet 5000 (loL L) (loL L + dn (nW L) t)) fun w => oLoc1 d ↦[oSet1 w]{fullShare} gath1 tb ix

/-- The loop's invariant at the head of trip t. -/
def inv (qi qt : PosShare TreeShare) (tb : Tab (F := F)) (ix : Ix1 (F := F)) (f0 : Out1 (F := F))
    (O : CellTallies nD τ sig (HIx 2)) (W : Waits sig (HIx 2)) (t : ℕ) (_ : Unit) : sProp 𝕄 :=
  iprop((Transfers.MayWaits (V d (cV L) (jV L)) (none : HIx 2) O : sProp 𝕄)
    ∗ ((tW).view.loc (V d (cV L) (jV L)) ↦{Transfers.shareTokN qt 38} tb)
    ∗ ((tW).view.loc (V d (cV L) (jV L)) ↦{Transfers.shareTokN qt 39} tb)
    ∗ ((tW).view.loc (V d (cV L) (jV L)) ↦{Transfers.shareTokN qt 40} tb)
    ∗ ((tW).view.loc (V d (cV L) (jV L)) ↦{Transfers.shareTokN qt 41} tb)
    ∗ ((tW).view.loc (V d (cV L) (jV L)) ↦{Transfers.shareTokN qt 42} tb)
    ∗ ((tW).view.loc (V d (cV L) (jV L)) ↦{Transfers.shareTokN qt 43} tb)
    ∗ semVal ((V d (cV L) (jV L)), SemLoc.dma ((cc3_scratch3.slice (Rect.unit (s := S6) ![0] S1.size inb_S6_S1_0)).squeeze S_ squeezes_S1_S_).sem) 0
    ∗ semVal ((V d (cV L) (jV L)), SemLoc.dma ((cc3_scratch3.slice (Rect.unit (s := S6) ![1] S1.size inb_S6_S1_1)).squeeze S_ squeezes_S1_S_).sem) 0
    ∗ semVal ((V d (cV L) (jV L)), SemLoc.dma ((cc3_scratch3.slice (Rect.unit (s := S6) ![2] S1.size inb_S6_S1_2)).squeeze S_ squeezes_S1_S_).sem) 0
    ∗ semVal ((V d (cV L) (jV L)), SemLoc.dma ((cc3_scratch3.slice (Rect.unit (s := S6) ![3] S1.size inb_S6_S1_3)).squeeze S_ squeezes_S1_S_).sem) 0
    ∗ semVal ((V d (cV L) (jV L)), SemLoc.dma ((cc3_scratch3.slice (Rect.unit (s := S6) ![4] S1.size inb_S6_S1_4)).squeeze S_ squeezes_S1_S_).sem) 0
    ∗ semVal ((V d (cV L) (jV L)), SemLoc.dma ((cc3_scratch3.slice (Rect.unit (s := S6) ![5] S1.size inb_S6_S1_5)).squeeze S_ squeezes_S1_S_).sem) 0
    ∗ idxSide0 d L qi ix t ∗ idxSide1 d L qi ix t ∗ idxSide2 d L qi ix t ∗ idxSide3 d L qi ix t ∗ idxSide4 d L qi ix t ∗ idxSide5 d L qi ix t
    ∗ rowSide0 d L tb ix t ∗ rowSide1 d L tb ix t ∗ rowSide2 d L tb ix t ∗ rowSide3 d L tb ix t ∗ rowSide4 d L tb ix t ∗ rowSide5 d L tb ix t
    ∗ todoP d L f0 t ∗ doneP d L tb ix t
    ∗ ∃ W', ⌜∀ p ∈ W', p ∈ W ∨ p.2 = none⌝ ∗ owes (V d (cV L) (jV L)) O W')

/-! ## The printed slices of the result are the tile's windows -/

theorem offWO0_eq (t : Fin k3_t1_loop.trips) : k3_off20 L t = ![128 * (loL L + 6 * t.val), 0] := by
  rw [k3_off20_eq]; unfold loL lo1; congr 1; omega
theorem opiece0_eq (t : Fin k3_t1_loop.trips) (hB0 : k3_cond19 L t = 1#1) (f : Out1 (F := F)) :
    ((oW.slice (Rect.unit (s := S640000x128) (k3_off20 L t) S128x128.size (k3_off20_inb L t hB0)) (fun _ => rfl)).view.loc (V d (cV L) (jV L)) ↦[(oW.slice (Rect.unit (s := S640000x128) (k3_off20 L t) S128x128.size (k3_off20_inb L t hB0)) (fun _ => rfl)).view.set]{fullShare} f : sProp 𝕄)
      = (oLoc1 d ↦[oSet1 (fw (loL L + 6 * t.val))]{fullShare} f) := by
  have hb := (cond19_iff L t).mp hB0
  have hh := loL_hi L
  have e : Rect.unit (s := S640000x128) (k3_off20 L t) S128x128.size (k3_off20_inb L t hB0) = oWin1 (fw (loL L + 6 * t.val)) :=
    oRect_eq _ _ _ (by rw [offWO0_eq, fw_val (by omega)])
  show (oLoc1 d ↦[((oW).view.slice (Rect.unit (s := S640000x128) (k3_off20 L t) S128x128.size (k3_off20_inb L t hB0))).set]{fullShare} f : sProp 𝕄) = _
  rw [e]

theorem offWO1_eq (t : Fin k3_t1_loop.trips) : k3_off22 L t = ![128 * (loL L + 6 * t.val + 1), 0] := by
  rw [k3_off22_eq]; unfold loL lo1; congr 1; omega
theorem opiece1_eq (t : Fin k3_t1_loop.trips) (hB1 : k3_cond21 L t = 1#1) (f : Out1 (F := F)) :
    ((oW.slice (Rect.unit (s := S640000x128) (k3_off22 L t) S128x128.size (k3_off22_inb L t hB1)) (fun _ => rfl)).view.loc (V d (cV L) (jV L)) ↦[(oW.slice (Rect.unit (s := S640000x128) (k3_off22 L t) S128x128.size (k3_off22_inb L t hB1)) (fun _ => rfl)).view.set]{fullShare} f : sProp 𝕄)
      = (oLoc1 d ↦[oSet1 (fw (loL L + 6 * t.val + 1))]{fullShare} f) := by
  have hb := (cond21_iff L t).mp hB1
  have hh := loL_hi L
  have e : Rect.unit (s := S640000x128) (k3_off22 L t) S128x128.size (k3_off22_inb L t hB1) = oWin1 (fw (loL L + 6 * t.val + 1)) :=
    oRect_eq _ _ _ (by rw [offWO1_eq, fw_val (by omega)])
  show (oLoc1 d ↦[((oW).view.slice (Rect.unit (s := S640000x128) (k3_off22 L t) S128x128.size (k3_off22_inb L t hB1))).set]{fullShare} f : sProp 𝕄) = _
  rw [e]

theorem offWO2_eq (t : Fin k3_t1_loop.trips) : k3_off24 L t = ![128 * (loL L + 6 * t.val + 2), 0] := by
  rw [k3_off24_eq]; unfold loL lo1; congr 1; omega
theorem opiece2_eq (t : Fin k3_t1_loop.trips) (hB2 : k3_cond23 L t = 1#1) (f : Out1 (F := F)) :
    ((oW.slice (Rect.unit (s := S640000x128) (k3_off24 L t) S128x128.size (k3_off24_inb L t hB2)) (fun _ => rfl)).view.loc (V d (cV L) (jV L)) ↦[(oW.slice (Rect.unit (s := S640000x128) (k3_off24 L t) S128x128.size (k3_off24_inb L t hB2)) (fun _ => rfl)).view.set]{fullShare} f : sProp 𝕄)
      = (oLoc1 d ↦[oSet1 (fw (loL L + 6 * t.val + 2))]{fullShare} f) := by
  have hb := (cond23_iff L t).mp hB2
  have hh := loL_hi L
  have e : Rect.unit (s := S640000x128) (k3_off24 L t) S128x128.size (k3_off24_inb L t hB2) = oWin1 (fw (loL L + 6 * t.val + 2)) :=
    oRect_eq _ _ _ (by rw [offWO2_eq, fw_val (by omega)])
  show (oLoc1 d ↦[((oW).view.slice (Rect.unit (s := S640000x128) (k3_off24 L t) S128x128.size (k3_off24_inb L t hB2))).set]{fullShare} f : sProp 𝕄) = _
  rw [e]

theorem offWO3_eq (t : Fin k3_t1_loop.trips) : k3_off26 L t = ![128 * (loL L + 6 * t.val + 3), 0] := by
  rw [k3_off26_eq]; unfold loL lo1; congr 1; omega
theorem opiece3_eq (t : Fin k3_t1_loop.trips) (hB3 : k3_cond25 L t = 1#1) (f : Out1 (F := F)) :
    ((oW.slice (Rect.unit (s := S640000x128) (k3_off26 L t) S128x128.size (k3_off26_inb L t hB3)) (fun _ => rfl)).view.loc (V d (cV L) (jV L)) ↦[(oW.slice (Rect.unit (s := S640000x128) (k3_off26 L t) S128x128.size (k3_off26_inb L t hB3)) (fun _ => rfl)).view.set]{fullShare} f : sProp 𝕄)
      = (oLoc1 d ↦[oSet1 (fw (loL L + 6 * t.val + 3))]{fullShare} f) := by
  have hb := (cond25_iff L t).mp hB3
  have hh := loL_hi L
  have e : Rect.unit (s := S640000x128) (k3_off26 L t) S128x128.size (k3_off26_inb L t hB3) = oWin1 (fw (loL L + 6 * t.val + 3)) :=
    oRect_eq _ _ _ (by rw [offWO3_eq, fw_val (by omega)])
  show (oLoc1 d ↦[((oW).view.slice (Rect.unit (s := S640000x128) (k3_off26 L t) S128x128.size (k3_off26_inb L t hB3))).set]{fullShare} f : sProp 𝕄) = _
  rw [e]

theorem offWO4_eq (t : Fin k3_t1_loop.trips) : k3_off28 L t = ![128 * (loL L + 6 * t.val + 4), 0] := by
  rw [k3_off28_eq]; unfold loL lo1; congr 1; omega
theorem opiece4_eq (t : Fin k3_t1_loop.trips) (hB4 : k3_cond27 L t = 1#1) (f : Out1 (F := F)) :
    ((oW.slice (Rect.unit (s := S640000x128) (k3_off28 L t) S128x128.size (k3_off28_inb L t hB4)) (fun _ => rfl)).view.loc (V d (cV L) (jV L)) ↦[(oW.slice (Rect.unit (s := S640000x128) (k3_off28 L t) S128x128.size (k3_off28_inb L t hB4)) (fun _ => rfl)).view.set]{fullShare} f : sProp 𝕄)
      = (oLoc1 d ↦[oSet1 (fw (loL L + 6 * t.val + 4))]{fullShare} f) := by
  have hb := (cond27_iff L t).mp hB4
  have hh := loL_hi L
  have e : Rect.unit (s := S640000x128) (k3_off28 L t) S128x128.size (k3_off28_inb L t hB4) = oWin1 (fw (loL L + 6 * t.val + 4)) :=
    oRect_eq _ _ _ (by rw [offWO4_eq, fw_val (by omega)])
  show (oLoc1 d ↦[((oW).view.slice (Rect.unit (s := S640000x128) (k3_off28 L t) S128x128.size (k3_off28_inb L t hB4))).set]{fullShare} f : sProp 𝕄) = _
  rw [e]

theorem offWO5_eq (t : Fin k3_t1_loop.trips) : k3_off30 L t = ![128 * (loL L + 6 * t.val + 5), 0] := by
  rw [k3_off30_eq]; unfold loL lo1; congr 1; omega
theorem opiece5_eq (t : Fin k3_t1_loop.trips) (hB5 : k3_cond29 L t = 1#1) (f : Out1 (F := F)) :
    ((oW.slice (Rect.unit (s := S640000x128) (k3_off30 L t) S128x128.size (k3_off30_inb L t hB5)) (fun _ => rfl)).view.loc (V d (cV L) (jV L)) ↦[(oW.slice (Rect.unit (s := S640000x128) (k3_off30 L t) S128x128.size (k3_off30_inb L t hB5)) (fun _ => rfl)).view.set]{fullShare} f : sProp 𝕄)
      = (oLoc1 d ↦[oSet1 (fw (loL L + 6 * t.val + 5))]{fullShare} f) := by
  have hb := (cond29_iff L t).mp hB5
  have hh := loL_hi L
  have e : Rect.unit (s := S640000x128) (k3_off30 L t) S128x128.size (k3_off30_inb L t hB5) = oWin1 (fw (loL L + 6 * t.val + 5)) :=
    oRect_eq _ _ _ (by rw [offWO5_eq, fw_val (by omega)])
  show (oLoc1 d ↦[((oW).view.slice (Rect.unit (s := S640000x128) (k3_off30 L t) S128x128.size (k3_off30_inb L t hB5))).set]{fullShare} f : sProp 𝕄) = _
  rw [e]

/-- The windows of one trip set apart from those still to write, in the program's spelling. -/
theorem todo_take (f0 : Out1 (F := F)) (t : Fin k3_t1_loop.trips) (hB0 : k3_cond19 L t = 1#1) (hB1 : k3_cond21 L t = 1#1) (hB2 : k3_cond23 L t = 1#1) (hB3 : k3_cond25 L t = 1#1) (hB4 : k3_cond27 L t = 1#1) (hB5 : k3_cond29 L t = 1#1) :
    todoP d L f0 t.val = iprop(((oW.slice (Rect.unit (s := S640000x128) (k3_off20 L t) S128x128.size (k3_off20_inb L t hB0)) (fun _ => rfl)).view.loc (V d (cV L) (jV L)) ↦[(oW.slice (Rect.unit (s := S640000x128) (k3_off20 L t) S128x128.size (k3_off20_inb L t hB0)) (fun _ => rfl)).view.set]{fullShare} f0)
      ∗ ((oW.slice (Rect.unit (s := S640000x128) (k3_off22 L t) S128x128.size (k3_off22_inb L t hB1)) (fun _ => rfl)).view.loc (V d (cV L) (jV L)) ↦[(oW.slice (Rect.unit (s := S640000x128) (k3_off22 L t) S128x128.size (k3_off22_inb L t hB1)) (fun _ => rfl)).view.set]{fullShare} f0)
      ∗ ((oW.slice (Rect.unit (s := S640000x128) (k3_off24 L t) S128x128.size (k3_off24_inb L t hB2)) (fun _ => rfl)).view.loc (V d (cV L) (jV L)) ↦[(oW.slice (Rect.unit (s := S640000x128) (k3_off24 L t) S128x128.size (k3_off24_inb L t hB2)) (fun _ => rfl)).view.set]{fullShare} f0)
      ∗ ((oW.slice (Rect.unit (s := S640000x128) (k3_off26 L t) S128x128.size (k3_off26_inb L t hB3)) (fun _ => rfl)).view.loc (V d (cV L) (jV L)) ↦[(oW.slice (Rect.unit (s := S640000x128) (k3_off26 L t) S128x128.size (k3_off26_inb L t hB3)) (fun _ => rfl)).view.set]{fullShare} f0)
      ∗ ((oW.slice (Rect.unit (s := S640000x128) (k3_off28 L t) S128x128.size (k3_off28_inb L t hB4)) (fun _ => rfl)).view.loc (V d (cV L) (jV L)) ↦[(oW.slice (Rect.unit (s := S640000x128) (k3_off28 L t) S128x128.size (k3_off28_inb L t hB4)) (fun _ => rfl)).view.set]{fullShare} f0)
      ∗ ((oW.slice (Rect.unit (s := S640000x128) (k3_off30 L t) S128x128.size (k3_off30_inb L t hB5)) (fun _ => rfl)).view.loc (V d (cV L) (jV L)) ↦[(oW.slice (Rect.unit (s := S640000x128) (k3_off30 L t) S128x128.size (k3_off30_inb L t hB5)) (fun _ => rfl)).view.set]{fullShare} f0)
      ∗ todoP d L f0 (t.val + 1)) := by
  have hb := (cond29_iff L t).mp hB5
  delta todoP
  rw [take6 _ (loL L + 6 * t.val) (loL L + nW L) (by omega) (loL_hi L), show loL L + 6 * (t.val + 1) = loL L + 6 * t.val + 6 by omega,
    opiece0_eq d L t hB0 f0, opiece1_eq d L t hB1 f0, opiece2_eq d L t hB2 f0, opiece3_eq d L t hB3 f0, opiece4_eq d L t hB4 f0, opiece5_eq d L t hB5 f0]

theorem wpos_mid (b t : ℕ) (h : 6 * (t - 1) + b < nW L) : loL L + wOut (nW L) b t = loL L + 6 * (t - 1) + b := by
  unfold wOut; rw [if_pos h]; omega
theorem wpos_succ (b t : ℕ) (h : 6 * t + b < nW L) : loL L + wOut (nW L) b (t + 1) = loL L + 6 * t + b := by
  unfold wOut; rw [if_pos (by simpa using h)]; simp only [Nat.add_sub_cancel]; omega
theorem dn_mid (n t : ℕ) (h : t ≠ 27) : dn n t = 6 * t - 6 := if_neg h

/-- The six windows waited for in trip t join those done. -/
theorem done_step (tb : Tab (F := F)) (ix : Ix1 (F := F)) (t : ℕ) (h1 : 1 ≤ t) (h2 : t ≤ 25) :
    doneP d L tb ix (t + 1) = iprop((oLoc1 d ↦[oSet1 (fw (loL L + 6 * (t - 1) + 5))]{fullShare} gath1 tb ix)
      ∗ (oLoc1 d ↦[oSet1 (fw (loL L + 6 * (t - 1) + 4))]{fullShare} gath1 tb ix)
      ∗ (oLoc1 d ↦[oSet1 (fw (loL L + 6 * (t - 1) + 3))]{fullShare} gath1 tb ix)
      ∗ (oLoc1 d ↦[oSet1 (fw (loL L + 6 * (t - 1) + 2))]{fullShare} gath1 tb ix)
      ∗ (oLoc1 d ↦[oSet1 (fw (loL L + 6 * (t - 1) + 1))]{fullShare} gath1 tb ix)
      ∗ (oLoc1 d ↦[oSet1 (fw (loL L + 6 * (t - 1)))]{fullShare} gath1 tb ix)
      ∗ doneP d L tb ix t) := by
  have hh := loL_hi L
  have hn := nW_ge L
  delta doneP
  rw [dn_mid _ _ (by omega), dn_mid _ _ (by omega), show loL L + (6 * (t + 1) - 6) = (loL L + (6 * t - 6)) + 6 by omega,
    put6 _ (loL L) (loL L + (6 * t - 6)) (by omega) (by omega)]
  have e : 6 * t - 6 = 6 * (t - 1) := by omega
  simp only [e]

/-! ## What an index copy delivers -/
theorem offNI0_eq (t : Fin k3_t1_loop.trips) : k3_off19 L t = ![128 * (loL L + 6 * (t.val + 1))] := by
  rw [k3_off19_eq]; unfold loL lo1; congr 1; omega
theorem offNI1_eq (t : Fin k3_t1_loop.trips) : k3_off21 L t = ![128 * (loL L + 6 * (t.val + 1) + 1)] := by
  rw [k3_off21_eq]; unfold loL lo1; congr 1; omega
theorem offNI2_eq (t : Fin k3_t1_loop.trips) : k3_off23 L t = ![128 * (loL L + 6 * (t.val + 1) + 2)] := by
  rw [k3_off23_eq]; unfold loL lo1; congr 1; omega
theorem offNI3_eq (t : Fin k3_t1_loop.trips) : k3_off25 L t = ![128 * (loL L + 6 * (t.val + 1) + 3)] := by
  rw [k3_off25_eq]; unfold loL lo1; congr 1; omega
theorem offNI4_eq (t : Fin k3_t1_loop.trips) : k3_off27 L t = ![128 * (loL L + 6 * (t.val + 1) + 4)] := by
  rw [k3_off27_eq]; unfold loL lo1; congr 1; omega
theorem offNI5_eq (t : Fin k3_t1_loop.trips) : k3_off29 L t = ![128 * (loL L + 6 * (t.val + 1) + 5)] := by
  rw [k3_off29_eq]; unfold loL lo1; congr 1; omega

/-- Slot 0 after the index copy of window w landed reads window w of the list. -/
theorem idxval0 (ix : Ix1 (F := F)) (ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![0, 0] S1x128.size inb_S6x128_S1x128_0_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 1 after the index copy of window w landed reads window w of the list. -/
theorem idxval1 (ix : Ix1 (F := F)) (ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![1, 0] S1x128.size inb_S6x128_S1x128_1_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 2 after the index copy of window w landed reads window w of the list. -/
theorem idxval2 (ix : Ix1 (F := F)) (ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![2, 0] S1x128.size inb_S6x128_S1x128_2_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 3 after the index copy of window w landed reads window w of the list. -/
theorem idxval3 (ix : Ix1 (F := F)) (ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![3, 0] S1x128.size inb_S6x128_S1x128_3_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 4 after the index copy of window w landed reads window w of the list. -/
theorem idxval4 (ix : Ix1 (F := F)) (ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![4, 0] S1x128.size inb_S6x128_S1x128_4_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

/-- Slot 5 after the index copy of window w landed reads window w of the list. -/
theorem idxval5 (ix : Ix1 (F := F)) (ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (off : Fin 1 → ℕ) (h : ∀ a, off a + S128.size a ≤ S640000.size a) (w : ℕ) (e : off = ![128 * w]) :
    ∀ x : S128.Idx, (((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.writes (Elt F) ci
      [⟨Rect.whole S128, ReadAs.same.apply (View.read (Elt F) (iW.slice (Rect.unit (s := S640000) off S128.size h) (fun _ => rfl)).view ix)⟩]) x
        = ixAt ix (128 * w + (x 0).val) := by
  subst e
  intro x
  have h0 : 128 * w + 128 ≤ 640000 := h 0
  have hx : (x 0).val < 128 := (x 0).isLt
  have h1 := View.read_writes_cons_emb (((Memref.whole cc3_scratch0 : Memref sig .scVector .vmem S6x128 .i32).slice (Rect.unit (s := S6x128) ![5, 0] S1x128.size inb_S6x128_S1x128_5_0) (fun _ => rfl)).squeeze S128 squeezes_S1x128_S128).view ci (Rect.whole S128)
    (ReadAs.same.apply (View.read (Elt F) (iW.slice (Rect.unit (s := S640000) ![128 * w] S128.size h) (fun _ => rfl)).view ix)) [] x
  rw [Rect.emb_whole_apply] at h1
  rw [h1]
  show ix ((Rect.unit (s := S640000) ![128 * w] S128.size h).emb x) = ixAt ix (128 * w + (x 0).val)
  unfold ixAt
  congr 1
  funext a
  match a with
  | ⟨0, _⟩ => apply Fin.ext; show 128 * w + 1 * (x 0).val = min (128 * w + (x 0).val) 639999; omega

end Tile

end Cert.Kernel.Hand.C1

end
-- ==== Proof.Bits.ScTile1Vals.lean ====
/-
  What each of the six ring slots' write-out lands in the result of gather call 1: with the slot's index list holding window w
  of the list (every word a row of the table), and its rows the gather of those rows, the 128 × 128 block written at row
  offset 128 w is, at every index of window w, the gathered array: row r of the result is row idx[r] of the table.
-/
import proofs.«208461_g52518860095779_cont_9to1_m_1075_29_alg».proof.Proof.Bits.ScTile1Inv

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Gen
variable (d : Dev nD) (L : grid3.Coords)

/-- Entry k of a 128-word list, as the row it names: the word at the index whose one coordinate is k. -/
theorem outval_rows (idx : S128.Idx → Elt F .i32) (hn : S128.numel = 128) (hh : ∀ x, (idx x).toNat < 20000) (k : Fin 128) :
    ∃ x : S128.Idx, (x 0).val = k.val ∧ (SparseCore.rows idx hn hh k).val = (idx x).toNat := by
  refine ⟨S128.rowMajor.symm (k.cast hn.symm), ?_, rfl⟩
  have := Shape.rowMajor_val_one (S128.rowMajor.symm (k.cast hn.symm))
  rw [Equiv.apply_symm_apply] at this
  exact this.symm

/-- What a slot's write-out of window w lands in the result is the gathered rows of window w, for any slot: its rows hold,
    at (r, c), row idx[128 w + r] of the table at column c, its index list holding window w of the list. -/
theorem outval_gen (mI : Memref sig .scVector .vmem S128 .i32) (mR : Memref sig .scVector .vmem S128x128 .f32)
    (tb : Tab (F := F)) (ix : Ix1 (F := F)) (f0 : Out1 (F := F))
    (ci : Buf (Elt F) (mI.view.loc (V d (cV L) (jV L)))) (gr : Buf (Elt F) (mR.view.loc (V d (cV L) (jV L)))) (w : ℕ) (hw : w < 5000)
    (hci : ∀ x : S128.Idx, mI.view.read (Elt F) ci x = ixAt ix (128 * w + (x 0).val))
    (hin : ∀ x, (mI.view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) mR.view (mR.view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) mI.view ci) rfl hin)⟩]))⟩] j
        = gath1 tb ix j := by
  intro j hj
  have hR : Rect.unit (s := S640000x128) off S128x128.size h = oWin1 (fw w) := oRect_eq (fw w) off h (by rw [fw_val hw]; exact e)
  subst e
  have h0 : 128 * w + 128 ≤ 640000 := h 0
  change j ∈ (oW.view.slice (oWin1 (fw w))).set at hj
  rw [← hR] at hj
  obtain ⟨y, -, rfl⟩ := Finset.mem_map.mp hj
  have key : ∀ P : (Rect.whole (Rect.unit (s := S640000x128) ![128 * w, 0] S128x128.size h).shape).shape.Idx → Elt F .f32,
      (oW.slice (Rect.unit (s := S640000x128) ![128 * w, 0] S128x128.size h) (fun _ => rfl)).view.writes (Elt F) f0
        [⟨Rect.whole (Rect.unit (s := S640000x128) ![128 * w, 0] S128x128.size h).shape, P⟩]
        ((oW.view.slice (Rect.unit (s := S640000x128) ![128 * w, 0] S128x128.size h)).emb y) = P y := fun P => by
    have h1 := View.read_writes_cons_emb (oW.slice (Rect.unit (s := S640000x128) ![128 * w, 0] S128x128.size h) (fun _ => rfl)).view f0
      (Rect.whole (Rect.unit (s := S640000x128) ![128 * w, 0] S128x128.size h).shape) P [] y
    rw [Rect.emb_whole_apply] at h1
    exact h1
  rw [key, ReadAs.apply_same]
  have key2 : ∀ GP : S128x128.Idx → Elt F .f32,
      View.read (Elt F) mR.view (mR.view.writes (Elt F) gr [⟨Rect.whole S128x128, GP⟩]) y = GP y := fun GP => by
    have h2 := View.read_writes_cons_emb mR.view gr (Rect.whole S128x128) GP [] y
    rw [Rect.emb_whole_apply] at h2
    exact h2
  rw [key2]
  unfold SparseCore.gatherPayload gath1
  show tb ((Rect.unit (s := S20000x128) ![0, 0] S20000x128.size inb_S20000x128_S20000x128_0_0).emb _) = tb _
  congr 1
  funext a
  apply Fin.ext
  have hy0 : (y 0).val < 128 := (y 0).isLt
  match a with
  | ⟨0, _⟩ =>
    rw [Rect.emb_apply]
    obtain ⟨x, hx0, hxv⟩ := outval_rows (View.read (Elt F) mI.view ci) rfl hin (y 0)
    have e0 := Shape.Gathers.idx_axis gathers_S20000x128_S128x128 (SparseCore.rows (View.read (Elt F) mI.view ci) rfl hin) y
    have hj0 : (((oW.view.slice (Rect.unit (s := S640000x128) ![128 * w, 0] S128x128.size h)).emb y) 0).val = 128 * w + 1 * (y 0).val := rfl
    have hix : ixAt ix (128 * w + (x 0).val)
        = ix (ValueIdx.ix1 (((oW.view.slice (Rect.unit (s := S640000x128) ![128 * w, 0] S128x128.size h)).emb y) 0)) := by
      unfold ixAt
      congr 2
      apply Fin.ext
      show min (128 * w + (x 0).val) 639999 = _
      rw [hj0, hx0]; omega
    have hlt := hin x
    rw [hci x, hix] at hlt hxv
    refine (congrArg (fun z : Fin (S20000x128.size gathers_S20000x128_S128x128.axis) => 0 + 1 * z.val) e0).trans ?_
    show 0 + 1 * (SparseCore.rows (View.read (Elt F) mI.view ci) rfl hin (y 0)).val
      = min (ix (ValueIdx.ix1 (((oW.view.slice (Rect.unit (s := S640000x128) ![128 * w, 0] S128x128.size h)).emb y) 0))).toNat 19999
    exact (congrArg (fun n => 0 + 1 * n) hxv).trans (by omega)
  | ⟨1, _⟩ =>
    rw [Rect.emb_apply]
    have e1 := Shape.Gathers.idx_of_ne gathers_S20000x128_S128x128 (SparseCore.rows (View.read (Elt F) mI.view ci) rfl hin) y ⟨1, by decide⟩ (by decide)
    exact congrArg (fun n => 0 + 1 * n) e1

/-- What slot 0's write-out of window w lands in the result is the gathered rows of window w: the slot's rows hold,
    at (r, c), row idx[128 w + r] of the table at column c, the slot's index list holding window w of the list. -/
theorem outval0 (tb : Tab (F := F)) (ix : Ix1 (F := F)) (f0 : Out1 (F := F)) (ci : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![0, 0] S1x128.size inb_S6x128_S1x128_0_0) (fun _ => rfl)).squeeze S128 squeezes_S1x128_S128).view ci) rfl hin)⟩]))⟩] j
        = gath1 tb ix j := by
  exact outval_gen d L _ _ tb ix f0 ci gr w hw hci hin off h e

/-- What slot 1's write-out of window w lands in the result is the gathered rows of window w: the slot's rows hold,
    at (r, c), row idx[128 w + r] of the table at column c, the slot's index list holding window w of the list. -/
theorem outval1 (tb : Tab (F := F)) (ix : Ix1 (F := F)) (f0 : Out1 (F := F)) (ci : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![1, 0] S1x128.size inb_S6x128_S1x128_1_0) (fun _ => rfl)).squeeze S128 squeezes_S1x128_S128).view ci) rfl hin)⟩]))⟩] j
        = gath1 tb ix j := by
  exact outval_gen d L _ _ tb ix f0 ci gr w hw hci hin off h e

/-- What slot 2's write-out of window w lands in the result is the gathered rows of window w: the slot's rows hold,
    at (r, c), row idx[128 w + r] of the table at column c, the slot's index list holding window w of the list. -/
theorem outval2 (tb : Tab (F := F)) (ix : Ix1 (F := F)) (f0 : Out1 (F := F)) (ci : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![2, 0] S1x128.size inb_S6x128_S1x128_2_0) (fun _ => rfl)).squeeze S128 squeezes_S1x128_S128).view ci) rfl hin)⟩]))⟩] j
        = gath1 tb ix j := by
  exact outval_gen d L _ _ tb ix f0 ci gr w hw hci hin off h e

/-- What slot 3's write-out of window w lands in the result is the gathered rows of window w: the slot's rows hold,
    at (r, c), row idx[128 w + r] of the table at column c, the slot's index list holding window w of the list. -/
theorem outval3 (tb : Tab (F := F)) (ix : Ix1 (F := F)) (f0 : Out1 (F := F)) (ci : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![3, 0] S1x128.size inb_S6x128_S1x128_3_0) (fun _ => rfl)).squeeze S128 squeezes_S1x128_S128).view ci) rfl hin)⟩]))⟩] j
        = gath1 tb ix j := by
  exact outval_gen d L _ _ tb ix f0 ci gr w hw hci hin off h e

/-- What slot 4's write-out of window w lands in the result is the gathered rows of window w: the slot's rows hold,
    at (r, c), row idx[128 w + r] of the table at column c, the slot's index list holding window w of the list. -/
theorem outval4 (tb : Tab (F := F)) (ix : Ix1 (F := F)) (f0 : Out1 (F := F)) (ci : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![4, 0] S1x128.size inb_S6x128_S1x128_4_0) (fun _ => rfl)).squeeze S128 squeezes_S1x128_S128).view ci) rfl hin)⟩]))⟩] j
        = gath1 tb ix j := by
  exact outval_gen d L _ _ tb ix f0 ci gr w hw hci hin off h e

/-- What slot 5's write-out of window w lands in the result is the gathered rows of window w: the slot's rows hold,
    at (r, c), row idx[128 w + r] of the table at column c, the slot's index list holding window w of the list. -/
theorem outval5 (tb : Tab (F := F)) (ix : Ix1 (F := F)) (f0 : Out1 (F := F)) (ci : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)))) (gr : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)))) (w : ℕ) (hw : w < 5000)
    (hci : ∀ x : S128.Idx, (((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci x = ixAt ix (128 * w + (x 0).val))
    (hin : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci x).toNat < 20000)
    (off : Fin 2 → ℕ) (h : ∀ a, off a + S128x128.size a ≤ S640000x128.size a) (e : off = ![128 * w, 0]) :
    ∀ j ∈ oSet1 (fw w),
      (oW.slice (Rect.unit (s := S640000x128) off S128x128.size h) (fun _ => rfl)).view.writes (Elt F) f0
        [⟨Rect.whole (Rect.unit (s := S640000x128) off S128x128.size h).shape,
          ReadAs.same.apply (View.read (Elt F) (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.writes (Elt F) gr
            [⟨Rect.whole S128x128, SparseCore.gatherPayload gathers_S20000x128_S128x128
                (View.read (Elt F) (tW.slice (Rect.unit (s := S20000x128) ![0, 0] S20000x128.size inb_S20000x128_S20000x128_0_0) (fun _ => rfl)).view tb)
                (SparseCore.rows (View.read (Elt F) (((Memref.whole cc3_scratch0 : Memref sig .scVector .vmem S6x128 .i32).slice (Rect.unit (s := S6x128) ![5, 0] S1x128.size inb_S6x128_S1x128_5_0) (fun _ => rfl)).squeeze S128 squeezes_S1x128_S128).view ci) rfl hin)⟩]))⟩] j
        = gath1 tb ix j := by
  exact outval_gen d L _ _ tb ix f0 ci gr w hw hci hin off h e

end Gen

end Cert.Kernel.Hand.C1
end
-- ==== Proof.Bits.ScTile1RunDefs.lean ====
/-
  What one tile's run of gather call 1 starts from and ends in, stated once for the run's proof and for the
  obligation that wraps it: the evidence for the tile's waits, its read shares of table and index list, its result
  windows, its two scratch buffers slot by slot, its eighteen semaphores.
-/
import proofs.«208461_g52518860095779_cont_9to1_m_1075_29_alg».proof.Proof.Bits.ScTile1Inv

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid3.Coords)

/-- What the run starts from: the evidence for its waits, its read shares of table and list, its windows at what
    the result held, the two scratch buffers slot by slot at whatever they hold, the eighteen semaphores at zero. -/
def preRun (q : PosShare TreeShare) (tb : Tab (F := F)) (ix : Ix1 (F := F)) (f0 : Out1 (F := F))
    (O : CellTallies nD τ sig (HIx 2)) (W : Waits sig (HIx 2)) : sProp 𝕄 :=
  iprop((Transfers.MayWaits (V d (cV L) (jV L)) (none : HIx 2) O : sProp 𝕄)
    ∗ ((tW).view.loc (V d (cV L) (jV L)) ↦{q} tb) ∗ ((iW).view.loc (V d (cV L) (jV L)) ↦{q} ix)
    ∗ todoP d L f0 0
    ∗ (∃ g : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc3_scratch2.slice (Rect.unit (s := S6) ![0] S1.size inb_S6_S1_0)).squeeze S_ squeezes_S1_S_).sem) 0 ∗ semVal ((V d (cV L) (jV L)), SemLoc.dma ((cc3_scratch2.slice (Rect.unit (s := S6) ![1] S1.size inb_S6_S1_1)).squeeze S_ squeezes_S1_S_).sem) 0 ∗ semVal ((V d (cV L) (jV L)), SemLoc.dma ((cc3_scratch2.slice (Rect.unit (s := S6) ![2] S1.size inb_S6_S1_2)).squeeze S_ squeezes_S1_S_).sem) 0 ∗ semVal ((V d (cV L) (jV L)), SemLoc.dma ((cc3_scratch2.slice (Rect.unit (s := S6) ![3] S1.size inb_S6_S1_3)).squeeze S_ squeezes_S1_S_).sem) 0 ∗ semVal ((V d (cV L) (jV L)), SemLoc.dma ((cc3_scratch2.slice (Rect.unit (s := S6) ![4] S1.size inb_S6_S1_4)).squeeze S_ squeezes_S1_S_).sem) 0 ∗ semVal ((V d (cV L) (jV L)), SemLoc.dma ((cc3_scratch2.slice (Rect.unit (s := S6) ![5] S1.size inb_S6_S1_5)).squeeze S_ squeezes_S1_S_).sem) 0
    ∗ semVal ((V d (cV L) (jV L)), SemLoc.dma ((cc3_scratch3.slice (Rect.unit (s := S6) ![0] S1.size inb_S6_S1_0)).squeeze S_ squeezes_S1_S_).sem) 0 ∗ semVal ((V d (cV L) (jV L)), SemLoc.dma ((cc3_scratch3.slice (Rect.unit (s := S6) ![1] S1.size inb_S6_S1_1)).squeeze S_ squeezes_S1_S_).sem) 0 ∗ semVal ((V d (cV L) (jV L)), SemLoc.dma ((cc3_scratch3.slice (Rect.unit (s := S6) ![2] S1.size inb_S6_S1_2)).squeeze S_ squeezes_S1_S_).sem) 0 ∗ semVal ((V d (cV L) (jV L)), SemLoc.dma ((cc3_scratch3.slice (Rect.unit (s := S6) ![3] S1.size inb_S6_S1_3)).squeeze S_ squeezes_S1_S_).sem) 0 ∗ semVal ((V d (cV L) (jV L)), SemLoc.dma ((cc3_scratch3.slice (Rect.unit (s := S6) ![4] S1.size inb_S6_S1_4)).squeeze S_ squeezes_S1_S_).sem) 0 ∗ semVal ((V d (cV L) (jV L)), SemLoc.dma ((cc3_scratch3.slice (Rect.unit (s := S6) ![5] S1.size inb_S6_S1_5)).squeeze S_ squeezes_S1_S_).sem) 0
    ∗ semVal ((V d (cV L) (jV L)), SemLoc.dma ((cc3_scratch4.slice (Rect.unit (s := S6) ![0] S1.size inb_S6_S1_0)).squeeze S_ squeezes_S1_S_).sem) 0 ∗ semVal ((V d (cV L) (jV L)), SemLoc.dma ((cc3_scratch4.slice (Rect.unit (s := S6) ![1] S1.size inb_S6_S1_1)).squeeze S_ squeezes_S1_S_).sem) 0 ∗ semVal ((V d (cV L) (jV L)), SemLoc.dma ((cc3_scratch4.slice (Rect.unit (s := S6) ![2] S1.size inb_S6_S1_2)).squeeze S_ squeezes_S1_S_).sem) 0 ∗ semVal ((V d (cV L) (jV L)), SemLoc.dma ((cc3_scratch4.slice (Rect.unit (s := S6) ![3] S1.size inb_S6_S1_3)).squeeze S_ squeezes_S1_S_).sem) 0 ∗ semVal ((V d (cV L) (jV L)), SemLoc.dma ((cc3_scratch4.slice (Rect.unit (s := S6) ![4] S1.size inb_S6_S1_4)).squeeze S_ squeezes_S1_S_).sem) 0 ∗ semVal ((V d (cV L) (jV L)), SemLoc.dma ((cc3_scratch4.slice (Rect.unit (s := S6) ![5] S1.size inb_S6_S1_5)).squeeze S_ squeezes_S1_S_).sem) 0
    ∗ owes (V d (cV L) (jV L)) O W)
/-- What it ends in: the same, the windows at the gathered rows. -/
def postRun (q : PosShare TreeShare) (tb : Tab (F := F)) (ix : Ix1 (F := F))
    (O : CellTallies nD τ sig (HIx 2)) (W : Waits sig (HIx 2)) : sProp 𝕄 :=
  iprop(((tW).view.loc (V d (cV L) (jV L)) ↦{q} tb) ∗ ((iW).view.loc (V d (cV L) (jV L)) ↦{q} ix)
    ∗ (bigSep (Ring.rangeSet 5000 (loL L) (loL L + nW L)) fun w => oLoc1 d ↦[oSet1 w]{fullShare} gath1 tb ix)
    ∗ (∃ g : Buf (Elt F) ((((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L))), (((Memref.whole cc3_scratch0 : Memref sig .scVector .vmem S6x128 .i32).slice (Rect.unit (s := S6x128) ![0, 0] S1x128.size inb_S6x128_S1x128_0_0) (fun _ => rfl)).squeeze S128 squeezes_S1x128_S128).view.loc (V d (cV L) (jV L)) ↦[(((Memref.whole cc3_scratch0 : Memref sig .scVector .vmem S6x128 .i32).slice (Rect.unit (s := S6x128) ![0, 0] S1x128.size inb_S6x128_S1x128_0_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L))), (((Memref.whole cc3_scratch0 : Memref sig .scVector .vmem S6x128 .i32).slice (Rect.unit (s := S6x128) ![1, 0] S1x128.size inb_S6x128_S1x128_1_0) (fun _ => rfl)).squeeze S128 squeezes_S1x128_S128).view.loc (V d (cV L) (jV L)) ↦[(((Memref.whole cc3_scratch0 : Memref sig .scVector .vmem S6x128 .i32).slice (Rect.unit (s := S6x128) ![1, 0] S1x128.size inb_S6x128_S1x128_1_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L))), (((Memref.whole cc3_scratch0 : Memref sig .scVector .vmem S6x128 .i32).slice (Rect.unit (s := S6x128) ![2, 0] S1x128.size inb_S6x128_S1x128_2_0) (fun _ => rfl)).squeeze S128 squeezes_S1x128_S128).view.loc (V d (cV L) (jV L)) ↦[(((Memref.whole cc3_scratch0 : Memref sig .scVector .vmem S6x128 .i32).slice (Rect.unit (s := S6x128) ![2, 0] S1x128.size inb_S6x128_S1x128_2_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L))), (((Memref.whole cc3_scratch0 : Memref sig .scVector .vmem S6x128 .i32).slice (Rect.unit (s := S6x128) ![3, 0] S1x128.size inb_S6x128_S1x128_3_0) (fun _ => rfl)).squeeze S128 squeezes_S1x128_S128).view.loc (V d (cV L) (jV L)) ↦[(((Memref.whole cc3_scratch0 : Memref sig .scVector .vmem S6x128 .i32).slice (Rect.unit (s := S6x128) ![3, 0] S1x128.size inb_S6x128_S1x128_3_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L))), (((Memref.whole cc3_scratch0 : Memref sig .scVector .vmem S6x128 .i32).slice (Rect.unit (s := S6x128) ![4, 0] S1x128.size inb_S6x128_S1x128_4_0) (fun _ => rfl)).squeeze S128 squeezes_S1x128_S128).view.loc (V d (cV L) (jV L)) ↦[(((Memref.whole cc3_scratch0 : Memref sig .scVector .vmem S6x128 .i32).slice (Rect.unit (s := S6x128) ![4, 0] S1x128.size inb_S6x128_S1x128_4_0) (fun _ => rfl)).squeeze S128 squeezes_S1x128_S128).view.set]{fullShare} g)
    ∗ (∃ g : Buf (Elt F) ((((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L))), (((Memref.whole cc3_scratch0 : Memref sig .scVector .vmem S6x128 .i32).slice (Rect.unit (s := S6x128) ![5, 0] S1x128.size inb_S6x128_S1x128_5_0) (fun _ => rfl)).squeeze S128 squeezes_S1x128_S128).view.loc (V d (cV L) (jV L)) ↦[(((Memref.whole cc3_scratch0 : Memref sig .scVector .vmem S6x128 .i32).slice (Rect.unit (s := S6x128) ![5, 0] S1x128.size inb_S6x128_S1x128_5_0) (fun _ => rfl)).squeeze S128 squeezes_S1x128_S128).view.set]{fullShare} g)
    ∗ (∃ g : Buf (Elt F) ((((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L))), (((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![0, 0, 0] S1x128x128.size inb_S6x128x128_S1x128x128_0_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L))), (((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![1, 0, 0] S1x128x128.size inb_S6x128x128_S1x128x128_1_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L))), (((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![2, 0, 0] S1x128x128.size inb_S6x128x128_S1x128x128_2_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L))), (((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![3, 0, 0] S1x128x128.size inb_S6x128x128_S1x128x128_3_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L))), (((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![4, 0, 0] S1x128x128.size inb_S6x128x128_S1x128x128_4_0_0) (fun _ => rfl)).squeeze S128x128 squeezes_S1x128x128_S128x128).view.set]{fullShare} g)
    ∗ (∃ g : Buf (Elt F) ((((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L))), (((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.loc (V d (cV L) (jV L)) ↦[(((Memref.whole cc3_scratch1 : Memref sig .scVector .vmem S6x128x128 .f32).slice (Rect.unit (s := S6x128x128) ![5, 0, 0] S1x128x128.size inb_S6x128x128_S1x128x128_5_0_0) (fun _ => rfl)).squeeze S128x128 squeezes_S1x128x128_S128x128).view.set]{fullShare} g)
    ∗ semVal ((V d (cV L) (jV L)), SemLoc.dma ((cc3_scratch2.slice (Rect.unit (s := S6) ![0] S1.size inb_S6_S1_0)).squeeze S_ squeezes_S1_S_).sem) 0 ∗ semVal ((V d (cV L) (jV L)), SemLoc.dma ((cc3_scratch2.slice (Rect.unit (s := S6) ![1] S1.size inb_S6_S1_1)).squeeze S_ squeezes_S1_S_).sem) 0 ∗ semVal ((V d (cV L) (jV L)), SemLoc.dma ((cc3_scratch2.slice (Rect.unit (s := S6) ![2] S1.size inb_S6_S1_2)).squeeze S_ squeezes_S1_S_).sem) 0 ∗ semVal ((V d (cV L) (jV L)), SemLoc.dma ((cc3_scratch2.slice (Rect.unit (s := S6) ![3] S1.size inb_S6_S1_3)).squeeze S_ squeezes_S1_S_).sem) 0 ∗ semVal ((V d (cV L) (jV L)), SemLoc.dma ((cc3_scratch2.slice (Rect.unit (s := S6) ![4] S1.size inb_S6_S1_4)).squeeze S_ squeezes_S1_S_).sem) 0 ∗ semVal ((V d (cV L) (jV L)), SemLoc.dma ((cc3_scratch2.slice (Rect.unit (s := S6) ![5] S1.size inb_S6_S1_5)).squeeze S_ squeezes_S1_S_).sem) 0
    ∗ semVal ((V d (cV L) (jV L)), SemLoc.dma ((cc3_scratch3.slice (Rect.unit (s := S6) ![0] S1.size inb_S6_S1_0)).squeeze S_ squeezes_S1_S_).sem) 0 ∗ semVal ((V d (cV L) (jV L)), SemLoc.dma ((cc3_scratch3.slice (Rect.unit (s := S6) ![1] S1.size inb_S6_S1_1)).squeeze S_ squeezes_S1_S_).sem) 0 ∗ semVal ((V d (cV L) (jV L)), SemLoc.dma ((cc3_scratch3.slice (Rect.unit (s := S6) ![2] S1.size inb_S6_S1_2)).squeeze S_ squeezes_S1_S_).sem) 0 ∗ semVal ((V d (cV L) (jV L)), SemLoc.dma ((cc3_scratch3.slice (Rect.unit (s := S6) ![3] S1.size inb_S6_S1_3)).squeeze S_ squeezes_S1_S_).sem) 0 ∗ semVal ((V d (cV L) (jV L)), SemLoc.dma ((cc3_scratch3.slice (Rect.unit (s := S6) ![4] S1.size inb_S6_S1_4)).squeeze S_ squeezes_S1_S_).sem) 0 ∗ semVal ((V d (cV L) (jV L)), SemLoc.dma ((cc3_scratch3.slice (Rect.unit (s := S6) ![5] S1.size inb_S6_S1_5)).squeeze S_ squeezes_S1_S_).sem) 0
    ∗ semVal ((V d (cV L) (jV L)), SemLoc.dma ((cc3_scratch4.slice (Rect.unit (s := S6) ![0] S1.size inb_S6_S1_0)).squeeze S_ squeezes_S1_S_).sem) 0 ∗ semVal ((V d (cV L) (jV L)), SemLoc.dma ((cc3_scratch4.slice (Rect.unit (s := S6) ![1] S1.size inb_S6_S1_1)).squeeze S_ squeezes_S1_S_).sem) 0 ∗ semVal ((V d (cV L) (jV L)), SemLoc.dma ((cc3_scratch4.slice (Rect.unit (s := S6) ![2] S1.size inb_S6_S1_2)).squeeze S_ squeezes_S1_S_).sem) 0 ∗ semVal ((V d (cV L) (jV L)), SemLoc.dma ((cc3_scratch4.slice (Rect.unit (s := S6) ![3] S1.size inb_S6_S1_3)).squeeze S_ squeezes_S1_S_).sem) 0 ∗ semVal ((V d (cV L) (jV L)), SemLoc.dma ((cc3_scratch4.slice (Rect.unit (s := S6) ![4] S1.size inb_S6_S1_4)).squeeze S_ squeezes_S1_S_).sem) 0 ∗ semVal ((V d (cV L) (jV L)), SemLoc.dma ((cc3_scratch4.slice (Rect.unit (s := S6) ![5] S1.size inb_S6_S1_5)).squeeze S_ squeezes_S1_S_).sem) 0
    ∗ ∃ W', ⌜∀ p ∈ W', p ∈ W ∨ p.2 = none⌝ ∗ owes (V d (cV L) (jV L)) O W')

end Tile

end Cert.Kernel.Hand.C1

end
-- ==== Proof.Bits.ScTile1TripMid.lean ====
/-
  One tile of gather call 1, the loop's generic trip (trips 1 to 24): every slot waits for its write-out of the round
  before, takes its index window, gathers, writes its window out and starts the copy of its next index window; the six
  windows waited for join those done.
-/
import proofs.«208461_g52518860095779_cont_9to1_m_1075_29_alg».proof.Proof.Bits.ScTile1Inv
import proofs.«208461_g52518860095779_cont_9to1_m_1075_29_alg».proof.Proof.Bits.ScTile1Vals

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid3.Coords)

set_option maxHeartbeats 8000000 in
theorem trip_mid (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : 1 ≤ k.val) (h2 : k.val ≤ 24) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : k3_cond20 L k = 1#1 := (cond20_iff L k).mpr (by omega)
  have hA1 : k3_cond9 L k = 1#1 := (cond9_iff L k).mpr (by omega)
  have hT1 : k3_cond10 k = 1#1 := (cond10_iff k).mpr (by omega)
  have hB1 : k3_cond21 L k = 1#1 := (cond21_iff L k).mpr (by omega)
  have hN1 : k3_cond22 L k = 1#1 := (cond22_iff L k).mpr (by omega)
  have hA2 : k3_cond11 L k = 1#1 := (cond11_iff L k).mpr (by omega)
  have hT2 : k3_cond12 k = 1#1 := (cond12_iff k).mpr (by omega)
  have hB2 : k3_cond23 L k = 1#1 := (cond23_iff L k).mpr (by omega)
  have hN2 : k3_cond24 L k = 1#1 := (cond24_iff L k).mpr (by omega)
  have hA3 : k3_cond13 L k = 1#1 := (cond13_iff L k).mpr (by omega)
  have hT3 : k3_cond14 k = 1#1 := (cond14_iff k).mpr (by omega)
  have hB3 : k3_cond25 L k = 1#1 := (cond25_iff L k).mpr (by omega)
  have hN3 : k3_cond26 L k = 1#1 := (cond26_iff L k).mpr (by omega)
  have hA4 : k3_cond15 L k = 1#1 := (cond15_iff L k).mpr (by omega)
  have hT4 : k3_cond16 k = 1#1 := (cond16_iff k).mpr (by omega)
  have hB4 : k3_cond27 L k = 1#1 := (cond27_iff L k).mpr (by omega)
  have hN4 : k3_cond28 L k = 1#1 := (cond28_iff L k).mpr (by omega)
  have hA5 : k3_cond17 L k = 1#1 := (cond17_iff L k).mpr (by omega)
  have hT5 : k3_cond18 k = 1#1 := (cond18_iff k).mpr (by omega)
  have hB5 : k3_cond29 L k = 1#1 := (cond29_iff L k).mpr (by omega)
  have hN5 : k3_cond30 L k = 1#1 := (cond30_iff L k).mpr (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val h1 (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.Kernel.Hand.C1
end
-- ==== Proof.Bits.ScTile1TripsA.lean ====
/-
  One tile of gather call 1, the loop's trips at three of its edge regimes. The first trip: no write-out is outstanding
  yet, so no slot waits for one; every slot takes its index window, gathers, writes its window out and starts the copy
  of its next index window; nothing joins the windows done. Trip 25, the last full round of six windows: every slot waits
  for its write-out of the round before, takes its index window, gathers and writes its window out; of the next index
  copies none starts when the tile owns 156 windows, and only slot 0's (window 156) when it owns 157; the six windows waited
  for join those done, and a slot that starts no copy ends with its index side idle.
-/
import proofs.«208461_g52518860095779_cont_9to1_m_1075_29_alg».proof.Proof.Bits.ScTile1Inv
import proofs.«208461_g52518860095779_cont_9to1_m_1075_29_alg».proof.Proof.Bits.ScTile1Vals

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid3.Coords)

set_option maxHeartbeats 8000000 in
theorem trip_first (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h0 : k.val = 0) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : ¬ k3_cond8 k = 1#1 := fun h => absurd ((cond8_iff k).mp h) (by omega)
  have hB0 : k3_cond19 L k = 1#1 := (cond19_iff L k).mpr (by omega)
  have hN0 : k3_cond20 L k = 1#1 := (cond20_iff L k).mpr (by omega)
  have hA1 : k3_cond9 L k = 1#1 := (cond9_iff L k).mpr (by omega)
  have hT1 : ¬ k3_cond10 k = 1#1 := fun h => absurd ((cond10_iff k).mp h) (by omega)
  have hB1 : k3_cond21 L k = 1#1 := (cond21_iff L k).mpr (by omega)
  have hN1 : k3_cond22 L k = 1#1 := (cond22_iff L k).mpr (by omega)
  have hA2 : k3_cond11 L k = 1#1 := (cond11_iff L k).mpr (by omega)
  have hT2 : ¬ k3_cond12 k = 1#1 := fun h => absurd ((cond12_iff k).mp h) (by omega)
  have hB2 : k3_cond23 L k = 1#1 := (cond23_iff L k).mpr (by omega)
  have hN2 : k3_cond24 L k = 1#1 := (cond24_iff L k).mpr (by omega)
  have hA3 : k3_cond13 L k = 1#1 := (cond13_iff L k).mpr (by omega)
  have hT3 : ¬ k3_cond14 k = 1#1 := fun h => absurd ((cond14_iff k).mp h) (by omega)
  have hB3 : k3_cond25 L k = 1#1 := (cond25_iff L k).mpr (by omega)
  have hN3 : k3_cond26 L k = 1#1 := (cond26_iff L k).mpr (by omega)
  have hA4 : k3_cond15 L k = 1#1 := (cond15_iff L k).mpr (by omega)
  have hT4 : ¬ k3_cond16 k = 1#1 := fun h => absurd ((cond16_iff k).mp h) (by omega)
  have hB4 : k3_cond27 L k = 1#1 := (cond27_iff L k).mpr (by omega)
  have hN4 : k3_cond28 L k = 1#1 := (cond28_iff L k).mpr (by omega)
  have hA5 : k3_cond17 L k = 1#1 := (cond17_iff L k).mpr (by omega)
  have hT5 : ¬ k3_cond18 k = 1#1 := fun h => absurd ((cond18_iff k).mp h) (by omega)
  have hB5 : k3_cond29 L k = 1#1 := (cond29_iff L k).mpr (by omega)
  have hN5 : k3_cond30 L k = 1#1 := (cond30_iff L k).mpr (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_zero d L tb ix k.val h0, rowSide1_zero d L tb ix k.val h0, rowSide2_zero d L tb ix k.val h0, rowSide3_zero d L tb ix k.val h0, rowSide4_zero d L tb ix k.val h0, rowSide5_zero d L tb ix k.val h0,
    todo_take d L f0 k hB0 hB1 hB2 hB3 hB4 hB5]
  delta idxFly0 idxFly1 idxFly2 idxFly3 idxFly4 idxFly5 rowIdle0 rowIdle1 rowIdle2 rowIdle3 rowIdle4 rowIdle5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨Hfw0, %gr0, Hsr0⟩, ⟨Hfw1, %gr1, Hsr1⟩, ⟨Hfw2, %gr2, Hsr2⟩, ⟨Hfw3, %gr3, Hsr3⟩, ⟨Hfw4, %gr4, Hsr4⟩, ⟨Hfw5, %gr5, Hsr5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hri1]
  · rw [idxSide1_pos d L qi ix (k.val + 1) (by omega)]; delta idxFly1
    iexists _, _; isplitr; rotate_left
    · isplitl [Hfi1]; · iexact Hfi1
      iexact Hri1
    · ipureintro; exact idxval1 d L ix ci1 _ _ (loL L + 6 * (k.val + 1) + 1) (offNI1_eq L k)
  isplitl [Hfi2 Hri2]
  · rw [idxSide2_pos d L qi ix (k.val + 1) (by omega)]; delta idxFly2
    iexists _, _; isplitr; rotate_left
    · isplitl [Hfi2]; · iexact Hfi2
      iexact Hri2
    · ipureintro; exact idxval2 d L ix ci2 _ _ (loL L + 6 * (k.val + 1) + 2) (offNI2_eq L k)
  isplitl [Hfi3 Hri3]
  · rw [idxSide3_pos d L qi ix (k.val + 1) (by omega)]; delta idxFly3
    iexists _, _; isplitr; rotate_left
    · isplitl [Hfi3]; · iexact Hfi3
      iexact Hri3
    · ipureintro; exact idxval3 d L ix ci3 _ _ (loL L + 6 * (k.val + 1) + 3) (offNI3_eq L k)
  isplitl [Hfi4 Hri4]
  · rw [idxSide4_pos d L qi ix (k.val + 1) (by omega)]; delta idxFly4
    iexists _, _; isplitr; rotate_left
    · isplitl [Hfi4]; · iexact Hfi4
      iexact Hri4
    · ipureintro; exact idxval4 d L ix ci4 _ _ (loL L + 6 * (k.val + 1) + 4) (offNI4_eq L k)
  isplitl [Hfi5 Hri5]
  · rw [idxSide5_pos d L qi ix (k.val + 1) (by omega)]; delta idxFly5
    iexists _, _; isplitr; rotate_left
    · isplitl [Hfi5]; · iexact Hfi5
      iexact Hri5
    · ipureintro; exact idxval5 d L ix ci5 _ _ (loL L + 6 * (k.val + 1) + 5) (offNI5_eq L k)
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone]
  · have e : doneP d L tb ix (k.val + 1) = doneP d L tb ix k.val := by
      delta doneP
      rw [dn_mid _ _ (by omega), dn_mid _ _ (by omega)]
      have e6 : 6 * (k.val + 1) - 6 = 6 * k.val - 6 := by omega
      rw [e6]
    rw [e]; iexact Hdone
  iexists _; isplitr; rotate_left
  · iexact HO
  · ipureintro; intro p hp
    simp only [Finset.mem_insert] at hp
    rcases hp with h | h | h | h | h | h | h | h | h | h | h | h | h
    all_goals first | exact .inr (h ▸ rfl) | exact hW' p h

set_option maxHeartbeats 8000000 in
theorem trip_12a (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 25) (h78 : nW L = 156) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : ¬ k3_cond20 L k = 1#1 := fun h => absurd ((cond20_iff L k).mp h) (by omega)
  have hA1 : k3_cond9 L k = 1#1 := (cond9_iff L k).mpr (by omega)
  have hT1 : k3_cond10 k = 1#1 := (cond10_iff k).mpr (by omega)
  have hB1 : k3_cond21 L k = 1#1 := (cond21_iff L k).mpr (by omega)
  have hN1 : ¬ k3_cond22 L k = 1#1 := fun h => absurd ((cond22_iff L k).mp h) (by omega)
  have hA2 : k3_cond11 L k = 1#1 := (cond11_iff L k).mpr (by omega)
  have hT2 : k3_cond12 k = 1#1 := (cond12_iff k).mpr (by omega)
  have hB2 : k3_cond23 L k = 1#1 := (cond23_iff L k).mpr (by omega)
  have hN2 : ¬ k3_cond24 L k = 1#1 := fun h => absurd ((cond24_iff L k).mp h) (by omega)
  have hA3 : k3_cond13 L k = 1#1 := (cond13_iff L k).mpr (by omega)
  have hT3 : k3_cond14 k = 1#1 := (cond14_iff k).mpr (by omega)
  have hB3 : k3_cond25 L k = 1#1 := (cond25_iff L k).mpr (by omega)
  have hN3 : ¬ k3_cond26 L k = 1#1 := fun h => absurd ((cond26_iff L k).mp h) (by omega)
  have hA4 : k3_cond15 L k = 1#1 := (cond15_iff L k).mpr (by omega)
  have hT4 : k3_cond16 k = 1#1 := (cond16_iff k).mpr (by omega)
  have hB4 : k3_cond27 L k = 1#1 := (cond27_iff L k).mpr (by omega)
  have hN4 : ¬ k3_cond28 L k = 1#1 := fun h => absurd ((cond28_iff L k).mp h) (by omega)
  have hA5 : k3_cond17 L k = 1#1 := (cond17_iff L k).mpr (by omega)
  have hT5 : k3_cond18 k = 1#1 := (cond18_iff k).mpr (by omega)
  have hB5 : k3_cond29 L k = 1#1 := (cond29_iff L k).mpr (by omega)
  have hN5 : ¬ k3_cond30 L k = 1#1 := fun h => absurd ((cond30_iff L k).mp h) (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

set_option maxHeartbeats 8000000 in
theorem trip_12b (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 25) (h79 : nW L = 157) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hn := nW_ge L
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : k3_cond20 L k = 1#1 := (cond20_iff L k).mpr (by omega)
  have hA1 : k3_cond9 L k = 1#1 := (cond9_iff L k).mpr (by omega)
  have hT1 : k3_cond10 k = 1#1 := (cond10_iff k).mpr (by omega)
  have hB1 : k3_cond21 L k = 1#1 := (cond21_iff L k).mpr (by omega)
  have hN1 : ¬ k3_cond22 L k = 1#1 := fun h => absurd ((cond22_iff L k).mp h) (by omega)
  have hA2 : k3_cond11 L k = 1#1 := (cond11_iff L k).mpr (by omega)
  have hT2 : k3_cond12 k = 1#1 := (cond12_iff k).mpr (by omega)
  have hB2 : k3_cond23 L k = 1#1 := (cond23_iff L k).mpr (by omega)
  have hN2 : ¬ k3_cond24 L k = 1#1 := fun h => absurd ((cond24_iff L k).mp h) (by omega)
  have hA3 : k3_cond13 L k = 1#1 := (cond13_iff L k).mpr (by omega)
  have hT3 : k3_cond14 k = 1#1 := (cond14_iff k).mpr (by omega)
  have hB3 : k3_cond25 L k = 1#1 := (cond25_iff L k).mpr (by omega)
  have hN3 : ¬ k3_cond26 L k = 1#1 := fun h => absurd ((cond26_iff L k).mp h) (by omega)
  have hA4 : k3_cond15 L k = 1#1 := (cond15_iff L k).mpr (by omega)
  have hT4 : k3_cond16 k = 1#1 := (cond16_iff k).mpr (by omega)
  have hB4 : k3_cond27 L k = 1#1 := (cond27_iff L k).mpr (by omega)
  have hN4 : ¬ k3_cond28 L k = 1#1 := fun h => absurd ((cond28_iff L k).mp h) (by omega)
  have hA5 : k3_cond17 L k = 1#1 := (cond17_iff L k).mpr (by omega)
  have hT5 : k3_cond18 k = 1#1 := (cond18_iff k).mpr (by omega)
  have hB5 : k3_cond29 L k = 1#1 := (cond29_iff L k).mpr (by omega)
  have hN5 : ¬ k3_cond30 L k = 1#1 := fun h => absurd ((cond30_iff L k).mp h) (by omega)
  unfold k3_t1_body
  rw [k3_part1_eq_skeleton, k3_part2_eq_skeleton]; unfold k3_part1_skel k3_part2_skel
  delta inv
  rw [idxSide0_pos d L qi ix k.val (by omega), idxSide1_pos d L qi ix k.val (by omega), idxSide2_pos d L qi ix k.val (by omega), idxSide3_pos d L qi ix k.val (by omega), idxSide4_pos d L qi ix k.val (by omega), idxSide5_pos d L qi ix k.val (by omega),
    rowSide0_pos d L tb ix k.val (by omega), rowSide1_pos d L tb ix k.val (by omega), rowSide2_pos d L tb ix k.val (by omega), rowSide3_pos d L tb ix k.val (by omega), rowSide4_pos d L tb ix k.val (by omega), rowSide5_pos d L tb ix k.val (by omega),
    wpos_mid L 0 k.val (by omega), wpos_mid L 1 k.val (by omega), wpos_mid L 2 k.val (by omega), wpos_mid L 3 k.val (by omega), wpos_mid L 4 k.val (by omega), wpos_mid L 5 k.val (by omega),
    todo_take d L f0 k hB0 hB1 hB2 hB3 hB4 hB5]
  delta idxFly0 idxFly1 idxFly2 idxFly3 idxFly4 idxFly5 rowFly0 rowFly1 rowFly2 rowFly3 rowFly4 rowFly5
  iintro ⟨#Hmw, Ht0, Ht1, Ht2, Ht3, Ht4, Ht5, Hg0, Hg1, Hg2, Hg3, Hg4, Hg5, ⟨%ci0, %I0, %hci0, Hfi0, Hri0⟩, ⟨%ci1, %I1, %hci1, Hfi1, Hri1⟩, ⟨%ci2, %I2, %hci2, Hfi2, Hri2⟩, ⟨%ci3, %I3, %hci3, Hfi3, Hri3⟩, ⟨%ci4, %I4, %hci4, Hfi4, Hri4⟩, ⟨%ci5, %I5, %hci5, Hfi5, Hri5⟩, ⟨%gr0, %fo0, %hfo0, Hfw0⟩, ⟨%gr1, %fo1, %hfo1, Hfw1⟩, ⟨%gr2, %fo2, %hfo2, Hfw2⟩, ⟨%gr3, %fo3, %hfo3, Hfw3⟩, ⟨%gr4, %fo4, %hfo4, Hfw4⟩, ⟨%gr5, %fo5, %hfo5, Hfw5⟩, ⟨Ho0, Ho1, Ho2, Ho3, Ho4, Ho5, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  have hin1 : ∀ x, ((((Memref.whole cc3_scratch0 : Memref sig .scVector .vmem S6x128 .i32).slice (Rect.unit (s := S6x128) ![1, 0] S1x128.size inb_S6x128_S1x128_1_0) (fun _ => rfl)).squeeze S128 squeezes_S1x128_S128).view.read (Elt F) ci1 x).toNat < 20000 := fun x => by rw [hci1 x]; exact hin _
  have hin2 : ∀ x, ((((Memref.whole cc3_scratch0 : Memref sig .scVector .vmem S6x128 .i32).slice (Rect.unit (s := S6x128) ![2, 0] S1x128.size inb_S6x128_S1x128_2_0) (fun _ => rfl)).squeeze S128 squeezes_S1x128_S128).view.read (Elt F) ci2 x).toNat < 20000 := fun x => by rw [hci2 x]; exact hin _
  have hin3 : ∀ x, ((((Memref.whole cc3_scratch0 : Memref sig .scVector .vmem S6x128 .i32).slice (Rect.unit (s := S6x128) ![3, 0] S1x128.size inb_S6x128_S1x128_3_0) (fun _ => rfl)).squeeze S128 squeezes_S1x128_S128).view.read (Elt F) ci3 x).toNat < 20000 := fun x => by rw [hci3 x]; exact hin _
  have hin4 : ∀ x, ((((Memref.whole cc3_scratch0 : Memref sig .scVector .vmem S6x128 .i32).slice (Rect.unit (s := S6x128) ![4, 0] S1x128.size inb_S6x128_S1x128_4_0) (fun _ => rfl)).squeeze S128 squeezes_S1x128_S128).view.read (Elt F) ci4 x).toNat < 20000 := fun x => by rw [hci4 x]; exact hin _
  have hin5 : ∀ x, ((((Memref.whole cc3_scratch0 : Memref sig .scVector .vmem S6x128 .i32).slice (Rect.unit (s := S6x128) ![5, 0] S1x128.size inb_S6x128_S1x128_5_0) (fun _ => rfl)).squeeze S128 squeezes_S1x128_S128).view.read (Elt F) ci5 x).toNat < 20000 := fun x => by rw [hci5 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hri0]
  · rw [idxSide0_pos d L qi ix (k.val + 1) (by omega)]; delta idxFly0
    iexists _, _; isplitr; rotate_left
    · isplitl [Hfi0]; · iexact Hfi0
      iexact Hri0
    · ipureintro; exact idxval0 d L ix ci0 _ _ (loL L + 6 * (k.val + 1) + 0) (offNI0_eq L k)
  isplitl [Hfi1 Hfi1_dst Hri1]
  · rw [idxSide1_neg d L qi ix (k.val + 1) (by omega)]; delta idxIdle1
    isplitl [Hfi1]; · iexact Hfi1
    isplitl [Hfi1_dst]; · iexists _; iexact Hfi1_dst
    iexact Hri1
  isplitl [Hfi2 Hfi2_dst Hri2]
  · rw [idxSide2_neg d L qi ix (k.val + 1) (by omega)]; delta idxIdle2
    isplitl [Hfi2]; · iexact Hfi2
    isplitl [Hfi2_dst]; · iexists _; iexact Hfi2_dst
    iexact Hri2
  isplitl [Hfi3 Hfi3_dst Hri3]
  · rw [idxSide3_neg d L qi ix (k.val + 1) (by omega)]; delta idxIdle3
    isplitl [Hfi3]; · iexact Hfi3
    isplitl [Hfi3_dst]; · iexists _; iexact Hfi3_dst
    iexact Hri3
  isplitl [Hfi4 Hfi4_dst Hri4]
  · rw [idxSide4_neg d L qi ix (k.val + 1) (by omega)]; delta idxIdle4
    isplitl [Hfi4]; · iexact Hfi4
    isplitl [Hfi4_dst]; · iexists _; iexact Hfi4_dst
    iexact Hri4
  isplitl [Hfi5 Hfi5_dst Hri5]
  · rw [idxSide5_neg d L qi ix (k.val + 1) (by omega)]; delta idxIdle5
    isplitl [Hfi5]; · iexact Hfi5
    isplitl [Hfi5_dst]; · iexists _; iexact Hfi5_dst
    iexact Hri5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hfw1]
  · rw [rowSide1_pos d L tb ix (k.val + 1) (by omega), wpos_succ L 1 k.val (by omega), opiece1_eq d L k hB1]; delta rowFly1
    iexists _, _; isplitr; rotate_left
    · iexact Hfw1
    · ipureintro; exact outval1 d L tb ix f0 ci1 gr1 (loL L + 6 * k.val + 1) (by have := loL_hi L; omega) hci1 hin1 _ _ (offWO1_eq L k)
  isplitl [Hfw2]
  · rw [rowSide2_pos d L tb ix (k.val + 1) (by omega), wpos_succ L 2 k.val (by omega), opiece2_eq d L k hB2]; delta rowFly2
    iexists _, _; isplitr; rotate_left
    · iexact Hfw2
    · ipureintro; exact outval2 d L tb ix f0 ci2 gr2 (loL L + 6 * k.val + 2) (by have := loL_hi L; omega) hci2 hin2 _ _ (offWO2_eq L k)
  isplitl [Hfw3]
  · rw [rowSide3_pos d L tb ix (k.val + 1) (by omega), wpos_succ L 3 k.val (by omega), opiece3_eq d L k hB3]; delta rowFly3
    iexists _, _; isplitr; rotate_left
    · iexact Hfw3
    · ipureintro; exact outval3 d L tb ix f0 ci3 gr3 (loL L + 6 * k.val + 3) (by have := loL_hi L; omega) hci3 hin3 _ _ (offWO3_eq L k)
  isplitl [Hfw4]
  · rw [rowSide4_pos d L tb ix (k.val + 1) (by omega), wpos_succ L 4 k.val (by omega), opiece4_eq d L k hB4]; delta rowFly4
    iexists _, _; isplitr; rotate_left
    · iexact Hfw4
    · ipureintro; exact outval4 d L tb ix f0 ci4 gr4 (loL L + 6 * k.val + 4) (by have := loL_hi L; omega) hci4 hin4 _ _ (offWO4_eq L k)
  isplitl [Hfw5]
  · rw [rowSide5_pos d L tb ix (k.val + 1) (by omega), wpos_succ L 5 k.val (by omega), opiece5_eq d L k hB5]; delta rowFly5
    iexists _, _; isplitr; rotate_left
    · iexact Hfw5
    · ipureintro; exact outval5 d L tb ix f0 ci5 gr5 (loL L + 6 * k.val + 5) (by have := loL_hi L; omega) hci5 hin5 _ _ (offWO5_eq L k)
  isplitl [Htodo]; · iexact Htodo
  isplitl [Hdone Hfw0_dst Hfw1_dst Hfw2_dst Hfw3_dst Hfw4_dst Hfw5_dst]
  · rw [done_step d L tb ix k.val (by omega) (by omega)]
    isplitl [Hfw5_dst]; · iapply (Entails.of_eq (pointsTo_congr hfo5)); iexact Hfw5_dst
    isplitl [Hfw4_dst]; · iapply (Entails.of_eq (pointsTo_congr hfo4)); iexact Hfw4_dst
    isplitl [Hfw3_dst]; · iapply (Entails.of_eq (pointsTo_congr hfo3)); iexact Hfw3_dst
    isplitl [Hfw2_dst]; · iapply (Entails.of_eq (pointsTo_congr hfo2)); iexact Hfw2_dst
    isplitl [Hfw1_dst]; · iapply (Entails.of_eq (pointsTo_congr hfo1)); iexact Hfw1_dst
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h | h | h | h | h | h | h | h | h | h | h | h | h | h | h | h
    all_goals first | exact .inr (h ▸ rfl) | exact hW' p h

end Tile
end Cert.Kernel.Hand.C1
end
-- ==== Proof.Bits.ScTile1TripsB.lean ====
/-
  The last trip of the second gather call's loop on a tile. A tile owns 156 or 157 windows and the loop makes 27 trips of
  six slots: in trip 26 a tile of 156 windows has none left and the body runs nothing, a tile of 157 has one, on slot 0.
  Then every trip, by cases on the trip number and on the tile's number of windows.
-/
import proofs.«208461_g52518860095779_cont_9to1_m_1075_29_alg».proof.Proof.Bits.ScTile1Inv
import proofs.«208461_g52518860095779_cont_9to1_m_1075_29_alg».proof.Proof.Bits.ScTile1Vals
import proofs.«208461_g52518860095779_cont_9to1_m_1075_29_alg».proof.Proof.Bits.ScTile1TripMid
import proofs.«208461_g52518860095779_cont_9to1_m_1075_29_alg».proof.Proof.Bits.ScTile1TripsA

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Tile
variable (d : Dev nD) (L : grid3.Coords)

/-! ## Trip 26 of a tile of 156 windows: nothing runs -/

theorem idxSide0_13a (qi : PosShare TreeShare) (ix : Ix1 (F := F)) (t : ℕ) (h1 : t = 26) (h78 : nW L = 156) :
    idxSide0 d L qi ix (t + 1) = idxSide0 d L qi ix t :=
  (idxSide0_neg d L qi ix (t + 1) (by omega)).trans (idxSide0_neg d L qi ix t (by omega)).symm

theorem rowSide0_13a (tb : Tab (F := F)) (ix : Ix1 (F := F)) (t : ℕ) (h1 : t = 26) (h78 : nW L = 156) :
    rowSide0 d L tb ix (t + 1) = rowSide0 d L tb ix t := by
  have w : wOut (nW L) 0 (t + 1) = wOut (nW L) 0 t := by subst h1; rw [h78]; decide
  rw [rowSide0_pos d L tb ix (t + 1) (by omega), rowSide0_pos d L tb ix t (by omega), w]

theorem idxSide1_13a (qi : PosShare TreeShare) (ix : Ix1 (F := F)) (t : ℕ) (h1 : t = 26) (h78 : nW L = 156) :
    idxSide1 d L qi ix (t + 1) = idxSide1 d L qi ix t :=
  (idxSide1_neg d L qi ix (t + 1) (by omega)).trans (idxSide1_neg d L qi ix t (by omega)).symm

theorem rowSide1_13a (tb : Tab (F := F)) (ix : Ix1 (F := F)) (t : ℕ) (h1 : t = 26) (h78 : nW L = 156) :
    rowSide1 d L tb ix (t + 1) = rowSide1 d L tb ix t := by
  have w : wOut (nW L) 1 (t + 1) = wOut (nW L) 1 t := by subst h1; rw [h78]; decide
  rw [rowSide1_pos d L tb ix (t + 1) (by omega), rowSide1_pos d L tb ix t (by omega), w]

theorem idxSide2_13a (qi : PosShare TreeShare) (ix : Ix1 (F := F)) (t : ℕ) (h1 : t = 26) (h78 : nW L = 156) :
    idxSide2 d L qi ix (t + 1) = idxSide2 d L qi ix t :=
  (idxSide2_neg d L qi ix (t + 1) (by omega)).trans (idxSide2_neg d L qi ix t (by omega)).symm

theorem rowSide2_13a (tb : Tab (F := F)) (ix : Ix1 (F := F)) (t : ℕ) (h1 : t = 26) (h78 : nW L = 156) :
    rowSide2 d L tb ix (t + 1) = rowSide2 d L tb ix t := by
  have w : wOut (nW L) 2 (t + 1) = wOut (nW L) 2 t := by subst h1; rw [h78]; decide
  rw [rowSide2_pos d L tb ix (t + 1) (by omega), rowSide2_pos d L tb ix t (by omega), w]

theorem idxSide3_13a (qi : PosShare TreeShare) (ix : Ix1 (F := F)) (t : ℕ) (h1 : t = 26) (h78 : nW L = 156) :
    idxSide3 d L qi ix (t + 1) = idxSide3 d L qi ix t :=
  (idxSide3_neg d L qi ix (t + 1) (by omega)).trans (idxSide3_neg d L qi ix t (by omega)).symm

theorem rowSide3_13a (tb : Tab (F := F)) (ix : Ix1 (F := F)) (t : ℕ) (h1 : t = 26) (h78 : nW L = 156) :
    rowSide3 d L tb ix (t + 1) = rowSide3 d L tb ix t := by
  have w : wOut (nW L) 3 (t + 1) = wOut (nW L) 3 t := by subst h1; rw [h78]; decide
  rw [rowSide3_pos d L tb ix (t + 1) (by omega), rowSide3_pos d L tb ix t (by omega), w]

theorem idxSide4_13a (qi : PosShare TreeShare) (ix : Ix1 (F := F)) (t : ℕ) (h1 : t = 26) (h78 : nW L = 156) :
    idxSide4 d L qi ix (t + 1) = idxSide4 d L qi ix t :=
  (idxSide4_neg d L qi ix (t + 1) (by omega)).trans (idxSide4_neg d L qi ix t (by omega)).symm

theorem rowSide4_13a (tb : Tab (F := F)) (ix : Ix1 (F := F)) (t : ℕ) (h1 : t = 26) (h78 : nW L = 156) :
    rowSide4 d L tb ix (t + 1) = rowSide4 d L tb ix t := by
  have w : wOut (nW L) 4 (t + 1) = wOut (nW L) 4 t := by subst h1; rw [h78]; decide
  rw [rowSide4_pos d L tb ix (t + 1) (by omega), rowSide4_pos d L tb ix t (by omega), w]

theorem idxSide5_13a (qi : PosShare TreeShare) (ix : Ix1 (F := F)) (t : ℕ) (h1 : t = 26) (h78 : nW L = 156) :
    idxSide5 d L qi ix (t + 1) = idxSide5 d L qi ix t :=
  (idxSide5_neg d L qi ix (t + 1) (by omega)).trans (idxSide5_neg d L qi ix t (by omega)).symm

theorem rowSide5_13a (tb : Tab (F := F)) (ix : Ix1 (F := F)) (t : ℕ) (h1 : t = 26) (h78 : nW L = 156) :
    rowSide5 d L tb ix (t + 1) = rowSide5 d L tb ix t := by
  have w : wOut (nW L) 5 (t + 1) = wOut (nW L) 5 t := by subst h1; rw [h78]; decide
  rw [rowSide5_pos d L tb ix (t + 1) (by omega), rowSide5_pos d L tb ix t (by omega), w]

omit [FloatOps F] in
theorem todoP_13a (f0 : Out1 (F := F)) (t : ℕ) (h1 : t = 26) (h78 : nW L = 156) : todoP d L f0 (t + 1) = todoP d L f0 t := by
  delta todoP
  rw [Ring.bigSep_rangeSet_empty (show loL L + nW L ≤ loL L + 6 * (t + 1) by omega),
    Ring.bigSep_rangeSet_empty (show loL L + nW L ≤ loL L + 6 * t by omega)]

theorem doneP_13a (tb : Tab (F := F)) (ix : Ix1 (F := F)) (t : ℕ) (h1 : t = 26) (h78 : nW L = 156) :
    doneP d L tb ix (t + 1) = doneP d L tb ix t := by
  have hd : dn (nW L) (t + 1) = dn (nW L) t := by subst h1; rw [h78]; decide
  delta doneP
  rw [hd]

set_option maxHeartbeats 4000000 in
/-- No slot has a window left, so the invariant at 27 is the invariant at 26. -/
theorem inv_14_eq_13 (qi qt : PosShare TreeShare) (tb : Tab (F := F)) (ix : Ix1 (F := F)) (f0 : Out1 (F := F))
    (O : CellTallies nD τ sig (HIx 2)) (W : Waits sig (HIx 2)) (t : ℕ) (h1 : t = 26) (h78 : nW L = 156) :
    inv d L qi qt tb ix f0 O W (t + 1) = inv d L qi qt tb ix f0 O W t := by
  funext u
  delta inv
  rw [idxSide0_13a d L qi ix t h1 h78, idxSide1_13a d L qi ix t h1 h78, idxSide2_13a d L qi ix t h1 h78,
    idxSide3_13a d L qi ix t h1 h78, idxSide4_13a d L qi ix t h1 h78, idxSide5_13a d L qi ix t h1 h78,
    rowSide0_13a d L tb ix t h1 h78, rowSide1_13a d L tb ix t h1 h78, rowSide2_13a d L tb ix t h1 h78,
    rowSide3_13a d L tb ix t h1 h78, rowSide4_13a d L tb ix t h1 h78, rowSide5_13a d L tb ix t h1 h78,
    todoP_13a d L f0 t h1 h78, doneP_13a d L tb ix t h1 h78]

set_option maxHeartbeats 8000000 in
theorem trip_13a (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 26) (h78 : nW L = 156) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hA0 : ¬ k3_cond7 L k = 1#1 := fun h => absurd ((cond7_iff L k).mp h) (by omega)
  have hA1 : ¬ k3_cond9 L k = 1#1 := fun h => absurd ((cond9_iff L k).mp h) (by omega)
  have hA2 : ¬ k3_cond11 L k = 1#1 := fun h => absurd ((cond11_iff L k).mp h) (by omega)
  have hA3 : ¬ k3_cond13 L k = 1#1 := fun h => absurd ((cond13_iff L k).mp h) (by omega)
  have hA4 : ¬ k3_cond15 L k = 1#1 := fun h => absurd ((cond15_iff L k).mp h) (by omega)
  have hA5 : ¬ k3_cond17 L k = 1#1 := fun h => absurd ((cond17_iff L k).mp h) (by omega)
  have hB0 : ¬ k3_cond19 L k = 1#1 := fun h => absurd ((cond19_iff L k).mp h) (by omega)
  have hB1 : ¬ k3_cond21 L k = 1#1 := fun h => absurd ((cond21_iff L k).mp h) (by omega)
  have hB2 : ¬ k3_cond23 L k = 1#1 := fun h => absurd ((cond23_iff L k).mp h) (by omega)
  have hB3 : ¬ k3_cond25 L k = 1#1 := fun h => absurd ((cond25_iff L k).mp h) (by omega)
  have hB4 : ¬ k3_cond27 L k = 1#1 := fun h => absurd ((cond27_iff L k).mp h) (by omega)
  have hB5 : ¬ k3_cond29 L k = 1#1 := fun h => absurd ((cond29_iff L k).mp h) (by omega)
  unfold k3_t1_body
  rw [k3_part1_eq_skeleton, k3_part2_eq_skeleton]; unfold k3_part1_skel k3_part2_skel
  rw [inv_14_eq_13 d L qi qt tb ix f0 O W k.val h1 h78]
  iintro H
  sl_exec
  sl_step
  iexact H

/-! ## Trip 26 of a tile of 157 windows: slot 0 alone runs -/

theorem idxSide1_13b (qi : PosShare TreeShare) (ix : Ix1 (F := F)) (t : ℕ) (h1 : t = 26) (h79 : nW L = 157) :
    idxSide1 d L qi ix (t + 1) = idxSide1 d L qi ix t :=
  (idxSide1_neg d L qi ix (t + 1) (by omega)).trans (idxSide1_neg d L qi ix t (by omega)).symm

theorem rowSide1_13b (tb : Tab (F := F)) (ix : Ix1 (F := F)) (t : ℕ) (h1 : t = 26) (h79 : nW L = 157) :
    rowSide1 d L tb ix (t + 1) = rowSide1 d L tb ix t := by
  have w : wOut (nW L) 1 (t + 1) = wOut (nW L) 1 t := by subst h1; rw [h79]; decide
  rw [rowSide1_pos d L tb ix (t + 1) (by omega), rowSide1_pos d L tb ix t (by omega), w]

theorem idxSide2_13b (qi : PosShare TreeShare) (ix : Ix1 (F := F)) (t : ℕ) (h1 : t = 26) (h79 : nW L = 157) :
    idxSide2 d L qi ix (t + 1) = idxSide2 d L qi ix t :=
  (idxSide2_neg d L qi ix (t + 1) (by omega)).trans (idxSide2_neg d L qi ix t (by omega)).symm

theorem rowSide2_13b (tb : Tab (F := F)) (ix : Ix1 (F := F)) (t : ℕ) (h1 : t = 26) (h79 : nW L = 157) :
    rowSide2 d L tb ix (t + 1) = rowSide2 d L tb ix t := by
  have w : wOut (nW L) 2 (t + 1) = wOut (nW L) 2 t := by subst h1; rw [h79]; decide
  rw [rowSide2_pos d L tb ix (t + 1) (by omega), rowSide2_pos d L tb ix t (by omega), w]

theorem idxSide3_13b (qi : PosShare TreeShare) (ix : Ix1 (F := F)) (t : ℕ) (h1 : t = 26) (h79 : nW L = 157) :
    idxSide3 d L qi ix (t + 1) = idxSide3 d L qi ix t :=
  (idxSide3_neg d L qi ix (t + 1) (by omega)).trans (idxSide3_neg d L qi ix t (by omega)).symm

theorem rowSide3_13b (tb : Tab (F := F)) (ix : Ix1 (F := F)) (t : ℕ) (h1 : t = 26) (h79 : nW L = 157) :
    rowSide3 d L tb ix (t + 1) = rowSide3 d L tb ix t := by
  have w : wOut (nW L) 3 (t + 1) = wOut (nW L) 3 t := by subst h1; rw [h79]; decide
  rw [rowSide3_pos d L tb ix (t + 1) (by omega), rowSide3_pos d L tb ix t (by omega), w]

theorem idxSide4_13b (qi : PosShare TreeShare) (ix : Ix1 (F := F)) (t : ℕ) (h1 : t = 26) (h79 : nW L = 157) :
    idxSide4 d L qi ix (t + 1) = idxSide4 d L qi ix t :=
  (idxSide4_neg d L qi ix (t + 1) (by omega)).trans (idxSide4_neg d L qi ix t (by omega)).symm

theorem rowSide4_13b (tb : Tab (F := F)) (ix : Ix1 (F := F)) (t : ℕ) (h1 : t = 26) (h79 : nW L = 157) :
    rowSide4 d L tb ix (t + 1) = rowSide4 d L tb ix t := by
  have w : wOut (nW L) 4 (t + 1) = wOut (nW L) 4 t := by subst h1; rw [h79]; decide
  rw [rowSide4_pos d L tb ix (t + 1) (by omega), rowSide4_pos d L tb ix t (by omega), w]

theorem idxSide5_13b (qi : PosShare TreeShare) (ix : Ix1 (F := F)) (t : ℕ) (h1 : t = 26) (h79 : nW L = 157) :
    idxSide5 d L qi ix (t + 1) = idxSide5 d L qi ix t :=
  (idxSide5_neg d L qi ix (t + 1) (by omega)).trans (idxSide5_neg d L qi ix t (by omega)).symm

theorem rowSide5_13b (tb : Tab (F := F)) (ix : Ix1 (F := F)) (t : ℕ) (h1 : t = 26) (h79 : nW L = 157) :
    rowSide5 d L tb ix (t + 1) = rowSide5 d L tb ix t := by
  have w : wOut (nW L) 5 (t + 1) = wOut (nW L) 5 t := by subst h1; rw [h79]; decide
  rw [rowSide5_pos d L tb ix (t + 1) (by omega), rowSide5_pos d L tb ix t (by omega), w]

/-- The one window left is set apart from those still to write, in the program's spelling; none is left after it. -/
theorem todo_take1 (f0 : Out1 (F := F)) (t : Fin k3_t1_loop.trips) (h1 : t.val = 26) (h79 : nW L = 157) (hB0 : k3_cond19 L t = 1#1) :
    todoP d L f0 t.val = iprop(((oW.slice (Rect.unit (s := S640000x128) (k3_off20 L t) S128x128.size (k3_off20_inb L t hB0)) (fun _ => rfl)).view.loc (V d (cV L) (jV L)) ↦[(oW.slice (Rect.unit (s := S640000x128) (k3_off20 L t) S128x128.size (k3_off20_inb L t hB0)) (fun _ => rfl)).view.set]{fullShare} f0)
      ∗ todoP d L f0 (t.val + 1)) := by
  have hh := loL_hi L
  delta todoP
  rw [head_fw _ (loL L + 6 * t.val) (loL L + nW L) (by omega) (by omega), opiece0_eq d L t hB0 f0,
    Ring.bigSep_rangeSet_empty (show loL L + nW L ≤ loL L + 6 * t.val + 1 by omega),
    Ring.bigSep_rangeSet_empty (show loL L + nW L ≤ loL L + 6 * (t.val + 1) by omega)]

/-- The window waited for in the last trip joins those done. -/
theorem done_step1 (tb : Tab (F := F)) (ix : Ix1 (F := F)) (t : ℕ) (h1 : t = 26) (h79 : nW L = 157) :
    doneP d L tb ix (t + 1) = iprop((oLoc1 d ↦[oSet1 (fw (loL L + 6 * (t - 1)))]{fullShare} gath1 tb ix) ∗ doneP d L tb ix t) := by
  have hh := loL_hi L
  have hd14 : dn (nW L) (t + 1) = 150 + 1 := by subst h1; rw [h79]; decide
  have hd13 : dn (nW L) t = 150 := by subst h1; rw [h79]; decide
  have e : 6 * (t - 1) = 150 := by omega
  delta doneP
  rw [hd14, hd13, e, show loL L + (150 + 1) = (loL L + 150) + 1 by omega, last_fw _ (loL L) (loL L + 150) (by omega) (by omega)]

set_option maxHeartbeats 8000000 in
theorem trip_13b (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) (h1 : k.val = 26) (h79 : nW L = 157) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hA0 : k3_cond7 L k = 1#1 := (cond7_iff L k).mpr (by omega)
  have hT0 : k3_cond8 k = 1#1 := (cond8_iff k).mpr (by omega)
  have hB0 : k3_cond19 L k = 1#1 := (cond19_iff L k).mpr (by omega)
  have hN0 : ¬ k3_cond20 L k = 1#1 := fun h => absurd ((cond20_iff L k).mp h) (by omega)
  have hA1 : ¬ k3_cond9 L k = 1#1 := fun h => absurd ((cond9_iff L k).mp h) (by omega)
  have hA2 : ¬ k3_cond11 L k = 1#1 := fun h => absurd ((cond11_iff L k).mp h) (by omega)
  have hA3 : ¬ k3_cond13 L k = 1#1 := fun h => absurd ((cond13_iff L k).mp h) (by omega)
  have hA4 : ¬ k3_cond15 L k = 1#1 := fun h => absurd ((cond15_iff L k).mp h) (by omega)
  have hA5 : ¬ k3_cond17 L k = 1#1 := fun h => absurd ((cond17_iff L k).mp h) (by omega)
  have hB1 : ¬ k3_cond21 L k = 1#1 := fun h => absurd ((cond21_iff L k).mp h) (by omega)
  have hB2 : ¬ k3_cond23 L k = 1#1 := fun h => absurd ((cond23_iff L k).mp h) (by omega)
  have hB3 : ¬ k3_cond25 L k = 1#1 := fun h => absurd ((cond25_iff L k).mp h) (by omega)
  have hB4 : ¬ k3_cond27 L k = 1#1 := fun h => absurd ((cond27_iff L k).mp h) (by omega)
  have hB5 : ¬ k3_cond29 L k = 1#1 := fun h => absurd ((cond29_iff L k).mp h) (by omega)
  unfold k3_t1_body
  rw [k3_part1_eq_skeleton, k3_part2_eq_skeleton]; unfold k3_part1_skel k3_part2_skel
  delta inv
  rw [idxSide0_pos d L qi ix k.val (by omega), rowSide0_pos d L tb ix k.val (by omega), wpos_mid L 0 k.val (by omega),
    todo_take1 d L f0 k h1 h79 hB0]
  delta idxFly0 rowFly0
  iintro ⟨#Hmw, Ht0, Ht1, Ht2, Ht3, Ht4, Ht5, Hg0, Hg1, Hg2, Hg3, Hg4, Hg5, ⟨%ci0, %I0, %hci0, Hfi0, Hri0⟩, Hi1, Hi2, Hi3, Hi4, Hi5, ⟨%gr0, %fo0, %hfo0, Hfw0⟩, Hr1, Hr2, Hr3, Hr4, Hr5, ⟨Ho0, Htodo⟩, Hdone, %W', %hW', HO⟩
  have hin0 : ∀ x, ((((Memref.whole cc3_scratch0 : Memref sig .scVector .vmem S6x128 .i32).slice (Rect.unit (s := S6x128) ![0, 0] S1x128.size inb_S6x128_S1x128_0_0) (fun _ => rfl)).squeeze S128 squeezes_S1x128_S128).view.read (Elt F) ci0 x).toNat < 20000 := fun x => by rw [hci0 x]; exact hin _
  sl_exec
  sl_step
  isplitr; · iexact Hmw
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfi0 Hfi0_dst Hri0]
  · rw [idxSide0_neg d L qi ix (k.val + 1) (by omega)]; delta idxIdle0
    isplitl [Hfi0]; · iexact Hfi0
    isplitl [Hfi0_dst]; · iexists _; iexact Hfi0_dst
    iexact Hri0
  isplitl [Hi1]; · rw [idxSide1_13b d L qi ix k.val h1 h79]; iexact Hi1
  isplitl [Hi2]; · rw [idxSide2_13b d L qi ix k.val h1 h79]; iexact Hi2
  isplitl [Hi3]; · rw [idxSide3_13b d L qi ix k.val h1 h79]; iexact Hi3
  isplitl [Hi4]; · rw [idxSide4_13b d L qi ix k.val h1 h79]; iexact Hi4
  isplitl [Hi5]; · rw [idxSide5_13b d L qi ix k.val h1 h79]; iexact Hi5
  isplitl [Hfw0]
  · rw [rowSide0_pos d L tb ix (k.val + 1) (by omega), wpos_succ L 0 k.val (by omega), opiece0_eq d L k hB0]; delta rowFly0
    iexists _, _; isplitr; rotate_left
    · iexact Hfw0
    · ipureintro; exact outval0 d L tb ix f0 ci0 gr0 (loL L + 6 * k.val + 0) (by have := loL_hi L; omega) hci0 hin0 _ _ (offWO0_eq L k)
  isplitl [Hr1]; · rw [rowSide1_13b d L tb ix k.val h1 h79]; iexact Hr1
  isplitl [Hr2]; · rw [rowSide2_13b d L tb ix k.val h1 h79]; iexact Hr2
  isplitl [Hr3]; · rw [rowSide3_13b d L tb ix k.val h1 h79]; iexact Hr3
  isplitl [Hr4]; · rw [rowSide4_13b d L tb ix k.val h1 h79]; iexact Hr4
  isplitl [Hr5]; · rw [rowSide5_13b d L tb ix k.val h1 h79]; iexact Hr5
  isplitl [Htodo]; · iexact Htodo
  isplitl [Hdone Hfw0_dst]
  · rw [done_step1 d L tb ix k.val h1 h79]
    isplitl [Hfw0_dst]; · iapply (Entails.of_eq (pointsTo_congr hfo0)); iexact Hfw0_dst
    iexact Hdone
  iexists _; isplitr; rotate_left
  · iexact HO
  · ipureintro; intro p hp
    simp only [Finset.mem_insert] at hp
    rcases hp with h | h | h | h
    all_goals first | exact .inr (h ▸ rfl) | exact hW' p h

/-! ## Every trip -/

attribute [local irreducible] inv k3_t1_body in
/-- Every trip of the loop keeps the invariant: the first trip, the trips 1 to 24, and the trips 25 and 26 by the
    tile's number of windows, 156 or 157. -/
theorem region (v4 v8 : BitVec 32) (qi qt : PosShare TreeShare) (tb : Tab (F := F)) (ix : Ix1 (F := F)) (f0 : Out1 (F := F))
    (O : CellTallies nD τ sig (HIx 2)) (W : Waits sig (HIx 2)) (hin : ∀ j, (ix j).toNat < 20000)
    (k : Fin k3_t1_loop.trips) :
    inv d L qi qt tb ix f0 O W k.val ()
      ⊢ wp frame (wpE (defs₀ (F := F)) 𝒱₀ (V d (cV L) (jV L)) none) Set.univ (k3_t1_body L tW (Memref.isWhole_whole _) iW (Memref.isWhole_whole _) oW (Memref.isWhole_whole _) sI (Memref.isWhole_whole _) sR (Memref.isWhole_whole _) cc3_scratch2 cc3_scratch3 cc3_scratch4 v4 v8 k ())
          (inv d L qi qt tb ix f0 O W (k.val + 1)) := by
  have hk : k.val < 27 := lt_of_lt_of_eq k.isLt trips_eq
  have hn : nW L = 156 ∨ nW L = 157 := by have := nW_ge L; have := nW_le L; omega
  by_cases h0 : k.val = 0
  · exact trip_first d L v4 v8 qi qt tb ix f0 O W hin k h0
  by_cases hm : k.val ≤ 24
  · exact trip_mid d L v4 v8 qi qt tb ix f0 O W hin k (by omega) hm
  by_cases h12 : k.val = 25
  · rcases hn with h | h
    · exact trip_12a d L v4 v8 qi qt tb ix f0 O W hin k h12 h
    · exact trip_12b d L v4 v8 qi qt tb ix f0 O W hin k h12 h
  have h13 : k.val = 26 := by omega
  rcases hn with h | h
  · exact trip_13a d L v4 v8 qi qt tb ix f0 O W hin k h13 h
  · exact trip_13b d L v4 v8 qi qt tb ix f0 O W hin k h13 h

end Tile
end Cert.Kernel.Hand.C1
end
-- ==== Proof.Bits.ScTile1Run.lean ====
/-
  One tile's run of gather call 1. The tile's read share of the table and of the index list is cut into read
  tokens, one per semaphore a transfer reading the array completes on. The kernel starts the first six index
  copies, which makes the loop's invariant at trip 0; every trip keeps it (the region's obligation); at the loop's
  exit the six slots' last write-outs are outstanding, the six closing waits deliver their windows, and the
  windows done with those six are all the tile's windows, at the gathered rows. The tokens join back to the shares.
-/
import proofs.«208461_g52518860095779_cont_9to1_m_1075_29_alg».proof.Proof.Bits.ScTile1Inv
import proofs.«208461_g52518860095779_cont_9to1_m_1075_29_alg».proof.Proof.Bits.ScTile1Vals
import proofs.«208461_g52518860095779_cont_9to1_m_1075_29_alg».proof.Proof.Bits.ScTile1RunDefs
import proofs.«208461_g52518860095779_cont_9to1_m_1075_29_alg».proof.Proof.Bits.ScTile1TripsB

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section Tile
variable (d : Dev nD) (L : grid3.Coords)

/-! ## The twelve read tokens in use (numbers 15 … 4) of sixteen cut off a share, the low four kept together -/

omit [FloatOps F] in
theorem toks16 (ℓ : Loc nD τ sig) (q : PosShare TreeShare) (f : Buf (Elt F) ℓ) :
    (ℓ ↦{q} f : sProp 𝕄) ⊣⊢ iprop((ℓ ↦{Transfers.shareDrop q 44} f)
      ∗ (ℓ ↦{Transfers.shareTokN q 43} f) ∗ (ℓ ↦{Transfers.shareTokN q 42} f) ∗ (ℓ ↦{Transfers.shareTokN q 41} f) ∗ (ℓ ↦{Transfers.shareTokN q 40} f) ∗ (ℓ ↦{Transfers.shareTokN q 39} f) ∗ (ℓ ↦{Transfers.shareTokN q 38} f) ∗ (ℓ ↦{Transfers.shareTokN q 37} f) ∗ (ℓ ↦{Transfers.shareTokN q 36} f) ∗ (ℓ ↦{Transfers.shareTokN q 35} f) ∗ (ℓ ↦{Transfers.shareTokN q 34} f) ∗ (ℓ ↦{Transfers.shareTokN q 33} f) ∗ (ℓ ↦{Transfers.shareTokN q 32} f)
      ∗ bigSep (Finset.range 32) fun i => ℓ ↦{Transfers.shareTokN q i} f) := by
  have h := Transfers.pointsTo_toks_range (Ix := HIx 2) (Name := ℕ) (U := UU) (Lvl := ℕ) (ℓ := ℓ) (S := Finset.univ) (f := f) q 44
  rw [show (44 : ℕ) = 43 + 1 from rfl, Ring.bigSep_range_succ,
    show (43 : ℕ) = 42 + 1 from rfl, Ring.bigSep_range_succ,
    show (42 : ℕ) = 41 + 1 from rfl, Ring.bigSep_range_succ,
    show (41 : ℕ) = 40 + 1 from rfl, Ring.bigSep_range_succ,
    show (40 : ℕ) = 39 + 1 from rfl, Ring.bigSep_range_succ,
    show (39 : ℕ) = 38 + 1 from rfl, Ring.bigSep_range_succ,
    show (38 : ℕ) = 37 + 1 from rfl, Ring.bigSep_range_succ,
    show (37 : ℕ) = 36 + 1 from rfl, Ring.bigSep_range_succ,
    show (36 : ℕ) = 35 + 1 from rfl, Ring.bigSep_range_succ,
    show (35 : ℕ) = 34 + 1 from rfl, Ring.bigSep_range_succ,
    show (34 : ℕ) = 33 + 1 from rfl, Ring.bigSep_range_succ,
    show (33 : ℕ) = 32 + 1 from rfl, Ring.bigSep_range_succ] at h
  exact h

/-! ## The prologue's six index copies -/
theorem offP0_eq : k3_off1 L = ![128 * (loL L + 6 * 0 + 0)] := by
  rw [k3_off1_eq]; unfold loL lo1; congr 1; omega
theorem offP1_eq : k3_off2 L = ![128 * (loL L + 6 * 0 + 1)] := by
  rw [k3_off2_eq]; unfold loL lo1; congr 1; omega
theorem offP2_eq : k3_off3 L = ![128 * (loL L + 6 * 0 + 2)] := by
  rw [k3_off3_eq]; unfold loL lo1; congr 1; omega
theorem offP3_eq : k3_off4 L = ![128 * (loL L + 6 * 0 + 3)] := by
  rw [k3_off4_eq]; unfold loL lo1; congr 1; omega
theorem offP4_eq : k3_off5 L = ![128 * (loL L + 6 * 0 + 4)] := by
  rw [k3_off5_eq]; unfold loL lo1; congr 1; omega
theorem offP5_eq : k3_off6 L = ![128 * (loL L + 6 * 0 + 5)] := by
  rw [k3_off6_eq]; unfold loL lo1; congr 1; omega

/-! ## The pools at the two ends of the loop -/

theorem done0 (tb : Tab (F := F)) (ix : Ix1 (F := F)) : doneP d L tb ix 0 = (iprop(emp) : sProp 𝕄) := by
  delta doneP; rw [dn_mid _ _ (by omega)]; exact Ring.bigSep_rangeSet_empty (by omega)
theorem todo14 (f0 : Out1 (F := F)) : todoP d L f0 27 = (iprop(emp) : sProp 𝕄) := by
  have := nW_le L
  delta todoP; exact Ring.bigSep_rangeSet_empty (by omega)
theorem wpos14_hi (b : ℕ) (h : ¬ 156 + b < nW L) : loL L + wOut (nW L) b 27 = loL L + 150 + b := by
  unfold wOut; rw [if_neg (by omega)]; omega
theorem wpos14_last (h : nW L = 157) : loL L + wOut (nW L) 0 27 = loL L + 156 := by
  unfold wOut; rw [if_pos (by omega)]

/-- All the tile's windows at the gathered rows: those done and the six the closing waits deliver (156 windows). -/
theorem fin78 (tb : Tab (F := F)) (ix : Ix1 (F := F)) (h : nW L = 156) :
    (bigSep (Ring.rangeSet 5000 (loL L) (loL L + nW L)) fun w => oLoc1 d ↦[oSet1 w]{fullShare} gath1 tb ix : sProp 𝕄)
      = iprop((oLoc1 d ↦[oSet1 (fw (loL L + 150 + 5))]{fullShare} gath1 tb ix) ∗ (oLoc1 d ↦[oSet1 (fw (loL L + 150 + 4))]{fullShare} gath1 tb ix) ∗ (oLoc1 d ↦[oSet1 (fw (loL L + 150 + 3))]{fullShare} gath1 tb ix) ∗ (oLoc1 d ↦[oSet1 (fw (loL L + 150 + 2))]{fullShare} gath1 tb ix) ∗ (oLoc1 d ↦[oSet1 (fw (loL L + 150 + 1))]{fullShare} gath1 tb ix) ∗ (oLoc1 d ↦[oSet1 (fw (loL L + 150 + 0))]{fullShare} gath1 tb ix) ∗ doneP d L tb ix 27) := by
  have hh := loL_hi L
  delta doneP
  rw [h, show dn 156 27 = 150 from rfl, show loL L + 156 = (loL L + 150) + 6 from rfl, put6 _ (loL L) (loL L + 150) (by omega) (by omega)]
/-- The same for a tile of 157 windows: slot 0's last window is the 79th. -/
theorem fin79 (tb : Tab (F := F)) (ix : Ix1 (F := F)) (h : nW L = 157) :
    (bigSep (Ring.rangeSet 5000 (loL L) (loL L + nW L)) fun w => oLoc1 d ↦[oSet1 w]{fullShare} gath1 tb ix : sProp 𝕄)
      = iprop((oLoc1 d ↦[oSet1 (fw (loL L + 156))]{fullShare} gath1 tb ix) ∗ (oLoc1 d ↦[oSet1 (fw (loL L + 150 + 5))]{fullShare} gath1 tb ix) ∗ (oLoc1 d ↦[oSet1 (fw (loL L + 150 + 4))]{fullShare} gath1 tb ix) ∗ (oLoc1 d ↦[oSet1 (fw (loL L + 150 + 3))]{fullShare} gath1 tb ix) ∗ (oLoc1 d ↦[oSet1 (fw (loL L + 150 + 2))]{fullShare} gath1 tb ix) ∗ (oLoc1 d ↦[oSet1 (fw (loL L + 150 + 1))]{fullShare} gath1 tb ix) ∗ doneP d L tb ix 27) := by
  have hh := loL_hi L
  delta doneP
  rw [h, show dn 157 27 = 151 from rfl, show loL L + 157 = (loL L + 156) + 1 from rfl, last_fw _ (loL L) (loL L + 156) (by omega) (by omega),
    show loL L + 156 = (loL L + 155) + 1 from rfl, last_fw _ (loL L) (loL L + 155) (by omega) (by omega),
    show loL L + 155 = (loL L + 154) + 1 from rfl, last_fw _ (loL L) (loL L + 154) (by omega) (by omega),
    show loL L + 154 = (loL L + 153) + 1 from rfl, last_fw _ (loL L) (loL L + 153) (by omega) (by omega),
    show loL L + 153 = (loL L + 152) + 1 from rfl, last_fw _ (loL L) (loL L + 152) (by omega) (by omega),
    show loL L + 152 = (loL L + 151) + 1 from rfl, last_fw _ (loL L) (loL L + 151) (by omega) (by omega)]

/-! ## The run -/

set_option maxHeartbeats 8000000 in
theorem tile_run (q : PosShare TreeShare) (tb : Tab (F := F)) (ix : Ix1 (F := F)) (f0 : Out1 (F := F))
    (O : CellTallies nD τ sig (HIx 2)) (W : Waits sig (HIx 2)) (hin : ∀ j, (ix j).toNat < 20000) :
    preRun d L q tb ix f0 O W
      ⊢ wp frame (wpE (defs₀ (F := F)) 𝒱₀ (V d (cV L) (jV L)) none) Set.univ (cc3_k L tW (Memref.isWhole_whole _) iW (Memref.isWhole_whole _) oW (Memref.isWhole_whole _) sI (Memref.isWhole_whole _) sR (Memref.isWhole_whole _) cc3_scratch2 cc3_scratch3 cc3_scratch4)
          fun _ => postRun d L q tb ix O W := by
  have hn := nW_ge L
  have hn' := nW_le L
  have k3_h1 := cond1_true L
  have k3_h2 := cond2_true L
  have k3_h3 := cond3_true L
  have k3_h4 := cond4_true L
  have k3_h5 := cond5_true L
  have k3_h6 := cond6_true L
  rw [cc3_k_eq_skeleton]; unfold cc3_k_skel
  rw [k3_part3_eq_skeleton, k3_part4_eq_skeleton, k3_part5_eq_skeleton]; unfold k3_part3_skel k3_part4_skel k3_part5_skel
  delta preRun
  iintro ⟨Hmw, Ht, Hi, Htodo, ⟨%ci0, Hsi0⟩, ⟨%ci1, Hsi1⟩, ⟨%ci2, Hsi2⟩, ⟨%ci3, Hsi3⟩, ⟨%ci4, Hsi4⟩, ⟨%ci5, Hsi5⟩, ⟨%gr0, Hsr0⟩, ⟨%gr1, Hsr1⟩, ⟨%gr2, Hsr2⟩, ⟨%gr3, Hsr3⟩, ⟨%gr4, Hsr4⟩, ⟨%gr5, Hsr5⟩, Hfi0, Hfi1, Hfi2, Hfi3, Hfi4, Hfi5, Hg0, Hg1, Hg2, Hg3, Hg4, Hg5, Hfw0, Hfw1, Hfw2, Hfw3, Hfw4, Hfw5, HO⟩
  ihave Ht' := (toks16 _ q tb).1 $$ Ht
  icases Ht' with ⟨HtD, Ht5, Ht4, Ht3, Ht2, Ht1, Ht0, HtX9, HtX8, HtX7, HtX6, HtX5, HtX4, HtLow⟩
  ihave Hi' := (toks16 _ q ix).1 $$ Hi
  icases Hi' with ⟨HiD, HiX15, HiX14, HiX13, HiX12, HiX11, HiX10, Hri5, Hri4, Hri3, Hri2, Hri1, Hri0, HiLow⟩
  sl_exec
  rw [Prog.bind_assoc]
  sl_for (inv d L q q tb ix f0 O W) $$ [Hmw Ht0 Ht1 Ht2 Ht3 Ht4 Ht5 Hg0 Hg1 Hg2 Hg3 Hg4 Hg5 Hfi0 Hri0 Hfi1 Hri1 Hfi2 Hri2 Hfi3 Hri3 Hfi4 Hri4 Hfi5 Hri5 Hfw0 Hsr0 Hfw1 Hsr1 Hfw2 Hsr2 Hfw3 Hsr3 Hfw4 Hsr4 Hfw5 Hsr5 Htodo HO]
  case region =>
    intro k acc
    first
      | exact region d L _ _ q q tb ix f0 O W hin k acc
      | (cases acc; exact region d L _ _ q q tb ix f0 O W hin k)
  · delta inv
    rw [idxSide0_pos d L q ix 0 (by omega), idxSide1_pos d L q ix 0 (by omega), idxSide2_pos d L q ix 0 (by omega), idxSide3_pos d L q ix 0 (by omega), idxSide4_pos d L q ix 0 (by omega), idxSide5_pos d L q ix 0 (by omega),
      rowSide0_zero d L tb ix 0 rfl, rowSide1_zero d L tb ix 0 rfl, rowSide2_zero d L tb ix 0 rfl, rowSide3_zero d L tb ix 0 rfl, rowSide4_zero d L tb ix 0 rfl, rowSide5_zero d L tb ix 0 rfl, done0]
    delta idxFly0 idxFly1 idxFly2 idxFly3 idxFly4 idxFly5 rowIdle0 rowIdle1 rowIdle2 rowIdle3 rowIdle4 rowIdle5
    isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hfi0 Hri0]
    · iexists _, _; isplitr; rotate_left
      · isplitl [Hfi0]; · iexact Hfi0
        iexact Hri0
      · ipureintro; exact idxval0 d L ix ci0 _ _ (loL L + 6 * 0 + 0) (offP0_eq L)
    isplitl [Hfi1 Hri1]
    · iexists _, _; isplitr; rotate_left
      · isplitl [Hfi1]; · iexact Hfi1
        iexact Hri1
      · ipureintro; exact idxval1 d L ix ci1 _ _ (loL L + 6 * 0 + 1) (offP1_eq L)
    isplitl [Hfi2 Hri2]
    · iexists _, _; isplitr; rotate_left
      · isplitl [Hfi2]; · iexact Hfi2
        iexact Hri2
      · ipureintro; exact idxval2 d L ix ci2 _ _ (loL L + 6 * 0 + 2) (offP2_eq L)
    isplitl [Hfi3 Hri3]
    · iexists _, _; isplitr; rotate_left
      · isplitl [Hfi3]; · iexact Hfi3
        iexact Hri3
      · ipureintro; exact idxval3 d L ix ci3 _ _ (loL L + 6 * 0 + 3) (offP3_eq L)
    isplitl [Hfi4 Hri4]
    · iexists _, _; isplitr; rotate_left
      · isplitl [Hfi4]; · iexact Hfi4
        iexact Hri4
      · ipureintro; exact idxval4 d L ix ci4 _ _ (loL L + 6 * 0 + 4) (offP4_eq L)
    isplitl [Hfi5 Hri5]
    · iexists _, _; isplitr; rotate_left
      · isplitl [Hfi5]; · iexact Hfi5
        iexact Hri5
      · ipureintro; exact idxval5 d L ix ci5 _ _ (loL L + 6 * 0 + 5) (offP5_eq L)
    isplitl [Hfw0 Hsr0]
    · isplitl [Hfw0]; · iexact Hfw0
      iexists _; iexact Hsr0
    isplitl [Hfw1 Hsr1]
    · isplitl [Hfw1]; · iexact Hfw1
      iexists _; iexact Hsr1
    isplitl [Hfw2 Hsr2]
    · isplitl [Hfw2]; · iexact Hfw2
      iexists _; iexact Hsr2
    isplitl [Hfw3 Hsr3]
    · isplitl [Hfw3]; · iexact Hfw3
      iexists _; iexact Hsr3
    isplitl [Hfw4 Hsr4]
    · isplitl [Hfw4]; · iexact Hfw4
      iexists _; iexact Hsr4
    isplitl [Hfw5 Hsr5]
    · isplitl [Hfw5]; · iexact Hfw5
      iexists _; iexact Hsr5
    isplitl [Htodo]; · iexact Htodo
    isplitr; · iempintro
    iexists W; isplitr
    · ipureintro; exact fun p hp => .inl hp
    · iexact HO
  iintro %_ HI
  have ht : Scf.trips k3_t1_loop.lb k3_t1_loop.ub k3_t1_loop.st = 27 := trips_eq
  rw [ht]
  delta inv
  rw [idxSide0_neg d L q ix 27 (by omega), idxSide1_neg d L q ix 27 (by omega), idxSide2_neg d L q ix 27 (by omega), idxSide3_neg d L q ix 27 (by omega), idxSide4_neg d L q ix 27 (by omega), idxSide5_neg d L q ix 27 (by omega),
    rowSide0_pos d L tb ix 27 (by omega), rowSide1_pos d L tb ix 27 (by omega), rowSide2_pos d L tb ix 27 (by omega), rowSide3_pos d L tb ix 27 (by omega), rowSide4_pos d L tb ix 27 (by omega), rowSide5_pos d L tb ix 27 (by omega), todo14]
  delta idxIdle0 idxIdle1 idxIdle2 idxIdle3 idxIdle4 idxIdle5 rowFly0 rowFly1 rowFly2 rowFly3 rowFly4 rowFly5
  icases HI with ⟨Hmw, Ht0, Ht1, Ht2, Ht3, Ht4, Ht5, Hg0, Hg1, Hg2, Hg3, Hg4, Hg5, ⟨Hfi0, ⟨%cj0, Hsi0⟩, Hri0⟩, ⟨Hfi1, ⟨%cj1, Hsi1⟩, Hri1⟩, ⟨Hfi2, ⟨%cj2, Hsi2⟩, Hri2⟩, ⟨Hfi3, ⟨%cj3, Hsi3⟩, Hri3⟩, ⟨Hfi4, ⟨%cj4, Hsi4⟩, Hri4⟩, ⟨Hfi5, ⟨%cj5, Hsi5⟩, Hri5⟩, ⟨%gs0, %fo0, %hfo0, Hfw0⟩, ⟨%gs1, %fo1, %hfo1, Hfw1⟩, ⟨%gs2, %fo2, %hfo2, Hfw2⟩, ⟨%gs3, %fo3, %hfo3, Hfw3⟩, ⟨%gs4, %fo4, %hfo4, Hfw4⟩, ⟨%gs5, %fo5, %hfo5, Hfw5⟩, -, Hdone, %W', %hW', HO⟩
  sl_exec
  sl_step
  delta postRun
  isplitl [HtD Ht5 Ht4 Ht3 Ht2 Ht1 Ht0 HtX9 HtX8 HtX7 HtX6 HtX5 HtX4 HtLow]
  · iapply (toks16 _ q tb).2
    isplitl [HtD]; · iexact HtD
    isplitl [Ht5]; · iexact Ht5
    isplitl [Ht4]; · iexact Ht4
    isplitl [Ht3]; · iexact Ht3
    isplitl [Ht2]; · iexact Ht2
    isplitl [Ht1]; · iexact Ht1
    isplitl [Ht0]; · iexact Ht0
    isplitl [HtX9]; · iexact HtX9
    isplitl [HtX8]; · iexact HtX8
    isplitl [HtX7]; · iexact HtX7
    isplitl [HtX6]; · iexact HtX6
    isplitl [HtX5]; · iexact HtX5
    isplitl [HtX4]; · iexact HtX4
    iexact HtLow
  isplitl [HiD HiX15 HiX14 HiX13 HiX12 HiX11 HiX10 Hri5 Hri4 Hri3 Hri2 Hri1 Hri0 HiLow]
  · iapply (toks16 _ q ix).2
    isplitl [HiD]; · iexact HiD
    isplitl [HiX15]; · iexact HiX15
    isplitl [HiX14]; · iexact HiX14
    isplitl [HiX13]; · iexact HiX13
    isplitl [HiX12]; · iexact HiX12
    isplitl [HiX11]; · iexact HiX11
    isplitl [HiX10]; · iexact HiX10
    isplitl [Hri5]; · iexact Hri5
    isplitl [Hri4]; · iexact Hri4
    isplitl [Hri3]; · iexact Hri3
    isplitl [Hri2]; · iexact Hri2
    isplitl [Hri1]; · iexact Hri1
    isplitl [Hri0]; · iexact Hri0
    iexact HiLow
  isplitl [Hdone Hfw0_dst Hfw1_dst Hfw2_dst Hfw3_dst Hfw4_dst Hfw5_dst]
  · rcases (show nW L = 156 ∨ nW L = 157 by omega) with h78 | h79
    · rw [fin78 d L tb ix h78]
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      isplitl [Hfw0_dst]
      · rw [← wpos14_hi L 0 (by omega)]; iapply (Entails.of_eq (pointsTo_congr hfo0)); iexact Hfw0_dst
      iexact Hdone
    · rw [fin79 d L tb ix h79]
      isplitl [Hfw0_dst]
      · rw [← wpos14_last L h79]; iapply (Entails.of_eq (pointsTo_congr hfo0)); iexact Hfw0_dst
      isplitl [Hfw5_dst]
      · rw [← wpos14_hi L 5 (by omega)]; iapply (Entails.of_eq (pointsTo_congr hfo5)); iexact Hfw5_dst
      isplitl [Hfw4_dst]
      · rw [← wpos14_hi L 4 (by omega)]; iapply (Entails.of_eq (pointsTo_congr hfo4)); iexact Hfw4_dst
      isplitl [Hfw3_dst]
      · rw [← wpos14_hi L 3 (by omega)]; iapply (Entails.of_eq (pointsTo_congr hfo3)); iexact Hfw3_dst
      isplitl [Hfw2_dst]
      · rw [← wpos14_hi L 2 (by omega)]; iapply (Entails.of_eq (pointsTo_congr hfo2)); iexact Hfw2_dst
      isplitl [Hfw1_dst]
      · rw [← wpos14_hi L 1 (by omega)]; iapply (Entails.of_eq (pointsTo_congr hfo1)); iexact Hfw1_dst
      iexact Hdone
  isplitl [Hsi0]; · iexists _; iexact Hsi0
  isplitl [Hsi1]; · iexists _; iexact Hsi1
  isplitl [Hsi2]; · iexists _; iexact Hsi2
  isplitl [Hsi3]; · iexists _; iexact Hsi3
  isplitl [Hsi4]; · iexists _; iexact Hsi4
  isplitl [Hsi5]; · iexists _; iexact Hsi5
  isplitl [Hfw0_src]; · iexists _; iexact Hfw0_src
  isplitl [Hfw1_src]; · iexists _; iexact Hfw1_src
  isplitl [Hfw2_src]; · iexists _; iexact Hfw2_src
  isplitl [Hfw3_src]; · iexists _; iexact Hfw3_src
  isplitl [Hfw4_src]; · iexists _; iexact Hfw4_src
  isplitl [Hfw5_src]; · iexists _; iexact Hfw5_src
  isplitl [Hfi0]; · iexact Hfi0
  isplitl [Hfi1]; · iexact Hfi1
  isplitl [Hfi2]; · iexact Hfi2
  isplitl [Hfi3]; · iexact Hfi3
  isplitl [Hfi4]; · iexact Hfi4
  isplitl [Hfi5]; · iexact Hfi5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hfw0]; · iexact Hfw0
  isplitl [Hfw1]; · iexact Hfw1
  isplitl [Hfw2]; · iexact Hfw2
  isplitl [Hfw3]; · iexact Hfw3
  isplitl [Hfw4]; · iexact Hfw4
  isplitl [Hfw5]; · iexact Hfw5
  iexists _; isplitr; rotate_left
  · iexact HO
  · ipureintro; intro p hp
    simp only [Finset.mem_insert] at hp
    rcases hp with h | h | h | h | h | h | h
    all_goals first | exact .inr (h ▸ rfl) | exact hW' p h

end Tile

end Cert.Kernel.Hand.C1

end
-- ==== Proof.Bits.ScTile1Setup.lean ====
/-
  One tile of gather call 1, before its body runs: what the launch deals it, opened up. Its own semaphore cells
  are the eighteen copy semaphores of the six-slot ring (three per slot: index copy, gather, write-out) and the
  rest; its own buffers are the two scratch buffers (six index slots of 128 words, six row slots of 128 rows of 128
  words) and the rest; and each scratch buffer held whole is its six slots held, each slot spelt as the kernel's
  body slices it out, in both directions (back: six slots at whatever contents are the buffer at some contents).
-/
import proofs.«208461_g52518860095779_cont_9to1_m_1075_29_alg».proof.Proof.Bits.ScTile1Inv

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Taking listed members out of a family -/

/-- A family over a finite set with some members listed (without repetition) is those members one by one, in the
    list's order, and the family over the rest. -/
theorem bigSep_take_list {I : Type} [DecidableEq I] (Φ : I → sProp 𝕄) :
    ∀ (l : List I) (s : Finset I), l.Nodup → (∀ i ∈ l, i ∈ s) →
      bigSep s Φ = l.foldr (fun i R => iprop(Φ i ∗ R)) (bigSep (s \ l.toFinset) Φ)
  | [], s, _, _ => by rw [List.toFinset_nil, Finset.sdiff_empty]; rfl
  | a :: l, s, hnd, hmem => by
    obtain ⟨ha, hl⟩ := List.nodup_cons.mp hnd
    have hrest : ∀ i ∈ l, i ∈ s.erase a := fun i hi =>
      Finset.mem_erase.mpr ⟨fun e => ha (e ▸ hi), hmem i (List.mem_cons_of_mem a hi)⟩
    have hset : s.erase a \ l.toFinset = s \ (a :: l).toFinset := by
      ext x
      simp only [Finset.mem_sdiff, Finset.mem_erase, List.toFinset_cons, Finset.mem_insert, List.mem_toFinset, not_or]
      tauto
    rw [SparseCore.bigSep_erase' (hmem a (List.mem_cons_self ..)), bigSep_take_list Φ l (s.erase a) hl hrest, hset]
    rfl

/-! ## The tile's own semaphore cells: the three copy semaphores of each of the six slots, and the rest -/

/-- The eighteen cells of the three six-slot DMA semaphore arrays, array by array, slot by slot. -/
def slotSems : List (SemLoc sig) :=
  [SemLoc.dma ((cc3_scratch2.slice (Rect.unit (s := S6) ![0] S1.size inb_S6_S1_0)).squeeze S_ squeezes_S1_S_).sem,
   SemLoc.dma ((cc3_scratch2.slice (Rect.unit (s := S6) ![1] S1.size inb_S6_S1_1)).squeeze S_ squeezes_S1_S_).sem,
   SemLoc.dma ((cc3_scratch2.slice (Rect.unit (s := S6) ![2] S1.size inb_S6_S1_2)).squeeze S_ squeezes_S1_S_).sem,
   SemLoc.dma ((cc3_scratch2.slice (Rect.unit (s := S6) ![3] S1.size inb_S6_S1_3)).squeeze S_ squeezes_S1_S_).sem,
   SemLoc.dma ((cc3_scratch2.slice (Rect.unit (s := S6) ![4] S1.size inb_S6_S1_4)).squeeze S_ squeezes_S1_S_).sem,
   SemLoc.dma ((cc3_scratch2.slice (Rect.unit (s := S6) ![5] S1.size inb_S6_S1_5)).squeeze S_ squeezes_S1_S_).sem,
   SemLoc.dma ((cc3_scratch3.slice (Rect.unit (s := S6) ![0] S1.size inb_S6_S1_0)).squeeze S_ squeezes_S1_S_).sem,
   SemLoc.dma ((cc3_scratch3.slice (Rect.unit (s := S6) ![1] S1.size inb_S6_S1_1)).squeeze S_ squeezes_S1_S_).sem,
   SemLoc.dma ((cc3_scratch3.slice (Rect.unit (s := S6) ![2] S1.size inb_S6_S1_2)).squeeze S_ squeezes_S1_S_).sem,
   SemLoc.dma ((cc3_scratch3.slice (Rect.unit (s := S6) ![3] S1.size inb_S6_S1_3)).squeeze S_ squeezes_S1_S_).sem,
   SemLoc.dma ((cc3_scratch3.slice (Rect.unit (s := S6) ![4] S1.size inb_S6_S1_4)).squeeze S_ squeezes_S1_S_).sem,
   SemLoc.dma ((cc3_scratch3.slice (Rect.unit (s := S6) ![5] S1.size inb_S6_S1_5)).squeeze S_ squeezes_S1_S_).sem,
   SemLoc.dma ((cc3_scratch4.slice (Rect.unit (s := S6) ![0] S1.size inb_S6_S1_0)).squeeze S_ squeezes_S1_S_).sem,
   SemLoc.dma ((cc3_scratch4.slice (Rect.unit (s := S6) ![1] S1.size inb_S6_S1_1)).squeeze S_ squeezes_S1_S_).sem,
   SemLoc.dma ((cc3_scratch4.slice (Rect.unit (s := S6) ![2] S1.size inb_S6_S1_2)).squeeze S_ squeezes_S1_S_).sem,
   SemLoc.dma ((cc3_scratch4.slice (Rect.unit (s := S6) ![3] S1.size inb_S6_S1_3)).squeeze S_ squeezes_S1_S_).sem,
   SemLoc.dma ((cc3_scratch4.slice (Rect.unit (s := S6) ![4] S1.size inb_S6_S1_4)).squeeze S_ squeezes_S1_S_).sem,
   SemLoc.dma ((cc3_scratch4.slice (Rect.unit (s := S6) ![5] S1.size inb_S6_S1_5)).squeeze S_ squeezes_S1_S_).sem]

theorem slotSems_nodup : (slotSems).Nodup := by decide
theorem slotSems_scoped : ∀ a ∈ slotSems, SemLoc.isScoped .scVector a = true := by decide

/-- The tile's other own cells, at zero. -/
def semRest (d : Dev nD) (L : grid3.Coords) : sProp 𝕄 :=
  bigSep (ownCells (V d (cV L) (jV L)) \ (slotSems.map fun a => (((V d (cV L) (jV L)), a) : GSem nD τ sig)).toFinset) fun g => semVal g 0

/-- The tile's own cells at zero are the eighteen slot semaphores at zero and the rest. -/
theorem ownSems0_V (d : Dev nD) (L : grid3.Coords) :
    (ownSems0 (V d (cV L) (jV L)) : sProp 𝕄)
      = iprop(semVal ((V d (cV L) (jV L)), SemLoc.dma ((cc3_scratch2.slice (Rect.unit (s := S6) ![0] S1.size inb_S6_S1_0)).squeeze S_ squeezes_S1_S_).sem) 0
          ∗ semVal ((V d (cV L) (jV L)), SemLoc.dma ((cc3_scratch2.slice (Rect.unit (s := S6) ![1] S1.size inb_S6_S1_1)).squeeze S_ squeezes_S1_S_).sem) 0
          ∗ semVal ((V d (cV L) (jV L)), SemLoc.dma ((cc3_scratch2.slice (Rect.unit (s := S6) ![2] S1.size inb_S6_S1_2)).squeeze S_ squeezes_S1_S_).sem) 0
          ∗ semVal ((V d (cV L) (jV L)), SemLoc.dma ((cc3_scratch2.slice (Rect.unit (s := S6) ![3] S1.size inb_S6_S1_3)).squeeze S_ squeezes_S1_S_).sem) 0
          ∗ semVal ((V d (cV L) (jV L)), SemLoc.dma ((cc3_scratch2.slice (Rect.unit (s := S6) ![4] S1.size inb_S6_S1_4)).squeeze S_ squeezes_S1_S_).sem) 0
          ∗ semVal ((V d (cV L) (jV L)), SemLoc.dma ((cc3_scratch2.slice (Rect.unit (s := S6) ![5] S1.size inb_S6_S1_5)).squeeze S_ squeezes_S1_S_).sem) 0
          ∗ semVal ((V d (cV L) (jV L)), SemLoc.dma ((cc3_scratch3.slice (Rect.unit (s := S6) ![0] S1.size inb_S6_S1_0)).squeeze S_ squeezes_S1_S_).sem) 0
          ∗ semVal ((V d (cV L) (jV L)), SemLoc.dma ((cc3_scratch3.slice (Rect.unit (s := S6) ![1] S1.size inb_S6_S1_1)).squeeze S_ squeezes_S1_S_).sem) 0
          ∗ semVal ((V d (cV L) (jV L)), SemLoc.dma ((cc3_scratch3.slice (Rect.unit (s := S6) ![2] S1.size inb_S6_S1_2)).squeeze S_ squeezes_S1_S_).sem) 0
          ∗ semVal ((V d (cV L) (jV L)), SemLoc.dma ((cc3_scratch3.slice (Rect.unit (s := S6) ![3] S1.size inb_S6_S1_3)).squeeze S_ squeezes_S1_S_).sem) 0
          ∗ semVal ((V d (cV L) (jV L)), SemLoc.dma ((cc3_scratch3.slice (Rect.unit (s := S6) ![4] S1.size inb_S6_S1_4)).squeeze S_ squeezes_S1_S_).sem) 0
          ∗ semVal ((V d (cV L) (jV L)), SemLoc.dma ((cc3_scratch3.slice (Rect.unit (s := S6) ![5] S1.size inb_S6_S1_5)).squeeze S_ squeezes_S1_S_).sem) 0
          ∗ semVal ((V d (cV L) (jV L)), SemLoc.dma ((cc3_scratch4.slice (Rect.unit (s := S6) ![0] S1.size inb_S6_S1_0)).squeeze S_ squeezes_S1_S_).sem) 0
          ∗ semVal ((V d (cV L) (jV L)), SemLoc.dma ((cc3_scratch4.slice (Rect.unit (s := S6) ![1] S1.size inb_S6_S1_1)).squeeze S_ squeezes_S1_S_).sem) 0
          ∗ semVal ((V d (cV L) (jV L)), SemLoc.dma ((cc3_scratch4.slice (Rect.unit (s := S6) ![2] S1.size inb_S6_S1_2)).squeeze S_ squeezes_S1_S_).sem) 0
          ∗ semVal ((V d (cV L) (jV L)), SemLoc.dma ((cc3_scratch4.slice (Rect.unit (s := S6) ![3] S1.size inb_S6_S1_3)).squeeze S_ squeezes_S1_S_).sem) 0
          ∗ semVal ((V d (cV L) (jV L)), SemLoc.dma ((cc3_scratch4.slice (Rect.unit (s := S6) ![4] S1.size inb_S6_S1_4)).squeeze S_ squeezes_S1_S_).sem) 0
          ∗ semVal ((V d (cV L) (jV L)), SemLoc.dma ((cc3_scratch4.slice (Rect.unit (s := S6) ![5] S1.size inb_S6_S1_5)).squeeze S_ squeezes_S1_S_).sem) 0
          ∗ semRest d L) := by
  unfold SparseCore.Cfg.ownSems0
  have hmem : ∀ g ∈ slotSems.map (fun a => (((V d (cV L) (jV L)), a) : GSem nD τ sig)), g ∈ ownCells (V d (cV L) (jV L)) := by
    intro g hg
    obtain ⟨a, ha, rfl⟩ := List.mem_map.mp hg
    exact mem_ownCells.mpr ⟨rfl, slotSems_scoped a ha⟩
  rw [bigSep_take_list (fun g => semVal g 0) (slotSems.map fun a => (((V d (cV L) (jV L)), a) : GSem nD τ sig)) _
    (slotSems_nodup.map fun x y h => (Prod.mk.inj h).2) hmem]
  unfold semRest
  simp only [slotSems, List.map_cons, List.map_nil, List.foldr_cons, List.foldr_nil]

/-! ## The tile's own buffers: the two scratch buffers and the rest -/

/-- The tile's other own buffers, each whole at some contents. -/
def bufRest (d : Dev nD) (L : grid3.Coords) : sProp 𝕄 :=
  bigSep (ownRefs (τ := τ) (.scVector (cV L) (jV L))
      \ [(Proc.scVector (cV L) (jV L)).devRef cc3_scratch0, (Proc.scVector (cV L) (jV L)).devRef cc3_scratch1].toFinset)
    fun b => iprop(∃ f, ((d, b) : Loc nD τ sig) ↦{fullShare} f)

/-- The tile's own buffers are its two scratch buffers, each whole at some contents, and the rest. -/
theorem ownBufs_V (d : Dev nD) (L : grid3.Coords) :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ bufRest d L) := by
  unfold SparseCore.Cfg.ownBufs
  refine (bigSep_take_list (fun b => iprop(∃ f, ((d, b) : Loc nD τ sig) ↦{fullShare} f))
    [(Proc.scVector (cV L) (jV L)).devRef cc3_scratch0, (Proc.scVector (cV L) (jV L)).devRef cc3_scratch1] _ ?_ ?_).trans rfl
  · refine List.nodup_cons.mpr ⟨?_, List.nodup_singleton _⟩
    rw [List.mem_singleton]
    exact fun e => absurd (Proc.devRef_injective _ e) (show (cc3_scratch0 : Ref sig .scVector) ≠ cc3_scratch1 by decide)
  · intro b hb
    rcases List.mem_cons.mp hb with rfl | hb
    · exact SparseCore.Cfg.mem_ownRefs_of_owner (p := Proc.scVector (cV L) (jV L)) rfl
    · rw [List.mem_singleton] at hb; subst hb
      exact SparseCore.Cfg.mem_ownRefs_of_owner (p := Proc.scVector (cV L) (jV L)) rfl

/-! ## A family over six slots, slot by slot -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A buffer held at contents of which something is known is held at some contents. -/
theorem ex_forget {ℓ : Loc nD τ sig} (φ : Buf (Elt F) ℓ → Prop) :
    (iprop(∃ g, ⌜φ g⌝ ∗ ℓ ↦{fullShare} g) : sProp 𝕄) ⊢ iprop(∃ f, ℓ ↦{fullShare} f) := by
  iintro ⟨%g, -, Hg⟩
  iexists g; iexact Hg

/-! ## The index scratch is its six slots -/

/-- Slot b of the index scratch: row b of its six rows of 128 words. -/
abbrev iSlot (b : Fin 6) : Rect S6x128 :=
  Rect.unit (s := S6x128) ![b.val, 0] S1x128.size (fun a => match a with
    | ⟨0, _⟩ => (by show b.val + 1 ≤ 6; omega)
    | ⟨1, _⟩ => (by show 0 + 128 ≤ 128; omega))

/-- Its elements, as the slot's memref (sliced out, then squeezed to 128 words) has them. -/
abbrev iSet (b : Fin 6) : Finset S6x128.Idx := ((sI.slice (iSlot b) (fun _ => rfl)).squeeze S128 squeezes_S1x128_S128).view.set

theorem iSet_eq (b : Fin 6) : iSet b = (iSlot b).set := by
  show (((View.whole (cc3_scratch0 : Ref sig .scVector)).slice (iSlot b)).reshape S128 _).set = _
  rw [View.set_reshape, View.set_slice]; exact Finset.map_refl

/-- Two slots share no word: they lie in different rows. -/
theorem iSet_disjoint : ∀ b ∈ (Finset.univ : Finset (Fin 6)), ∀ b' ∈ (Finset.univ : Finset (Fin 6)), b ≠ b' → Disjoint (iSet b) (iSet b') :=
  fun b _ b' _ h => by
    rw [iSet_eq, iSet_eq]
    refine Rect.unit_disjoint (0 : Fin 2) ?_
    have hv : b.val ≠ b'.val := fun e => h (Fin.ext e)
    show b.val + 1 ≤ b'.val ∨ b'.val + 1 ≤ b.val
    omega

/-- Every word lies in the slot its row names. -/
theorem iSet_cover : (Finset.univ : Finset (Fin 6)).biUnion iSet = Finset.univ := by
  ext i
  simp only [Finset.mem_biUnion, Finset.mem_univ, true_and, iff_true]
  refine ⟨⟨(i 0).val, (i 0).isLt⟩, ?_⟩
  rw [iSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩

theorem sI_pts_slots (d : Dev nD) (L : grid3.Coords) (f : Buf (Elt F) ((V d (cV L) (jV L)).loc cc3_scratch0)) :
    ((V d (cV L) (jV L)).loc cc3_scratch0 ↦{fullShare} f : sProp 𝕄)
      = bigSep Finset.univ fun b : Fin 6 => (V d (cV L) (jV L)).loc cc3_scratch0 ↦[iSet b]{fullShare} f := by
  rw [← pointsTo_biUnion Finset.univ (ℓ := (V d (cV L) (jV L)).loc cc3_scratch0) iSet iSet_disjoint, iSet_cover]; try rfl

/-- The index scratch held whole is its six slots held, each as the program spells the slot. -/
theorem sI_slots (d : Dev nD) (L : grid3.Coords) (f : Buf (Elt F) (sI.view.loc (V d (cV L) (jV L)))) :
    (sI.view.loc (V d (cV L) (jV L)) ↦{fullShare} f : sProp 𝕄)
      ⊢ iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} f)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} f)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} f)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} f)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} f)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} f)) :=
  Entails.of_eq ((sI_pts_slots d L f).trans (bigSep_fin6 _))

/-- Six slots held, at whatever contents each, are the index scratch held whole at some contents. -/
theorem sI_join (d : Dev nD) (L : grid3.Coords) (g0 g1 g2 g3 g4 g5 : Buf (Elt F) (sI.view.loc (V d (cV L) (jV L)))) :
    (iprop((((sI.slice (Rect.unit (s := S6x128) ![0, 0] S1x128.size inb_S6x128_S1x128_0_0) (fun _ => rfl)).squeeze S128 squeezes_S1x128_S128).view.loc (V d (cV L) (jV L)) ↦[((sI.slice (Rect.unit (s := S6x128) ![0, 0] S1x128.size inb_S6x128_S1x128_0_0) (fun _ => rfl)).squeeze S128 squeezes_S1x128_S128).view.set]{fullShare} g0)
          ∗ (((sI.slice (Rect.unit (s := S6x128) ![1, 0] S1x128.size inb_S6x128_S1x128_1_0) (fun _ => rfl)).squeeze S128 squeezes_S1x128_S128).view.loc (V d (cV L) (jV L)) ↦[((sI.slice (Rect.unit (s := S6x128) ![1, 0] S1x128.size inb_S6x128_S1x128_1_0) (fun _ => rfl)).squeeze S128 squeezes_S1x128_S128).view.set]{fullShare} g1)
          ∗ (((sI.slice (Rect.unit (s := S6x128) ![2, 0] S1x128.size inb_S6x128_S1x128_2_0) (fun _ => rfl)).squeeze S128 squeezes_S1x128_S128).view.loc (V d (cV L) (jV L)) ↦[((sI.slice (Rect.unit (s := S6x128) ![2, 0] S1x128.size inb_S6x128_S1x128_2_0) (fun _ => rfl)).squeeze S128 squeezes_S1x128_S128).view.set]{fullShare} g2)
          ∗ (((sI.slice (Rect.unit (s := S6x128) ![3, 0] S1x128.size inb_S6x128_S1x128_3_0) (fun _ => rfl)).squeeze S128 squeezes_S1x128_S128).view.loc (V d (cV L) (jV L)) ↦[((sI.slice (Rect.unit (s := S6x128) ![3, 0] S1x128.size inb_S6x128_S1x128_3_0) (fun _ => rfl)).squeeze S128 squeezes_S1x128_S128).view.set]{fullShare} g3)
          ∗ (((sI.slice (Rect.unit (s := S6x128) ![4, 0] S1x128.size inb_S6x128_S1x128_4_0) (fun _ => rfl)).squeeze S128 squeezes_S1x128_S128).view.loc (V d (cV L) (jV L)) ↦[((sI.slice (Rect.unit (s := S6x128) ![4, 0] S1x128.size inb_S6x128_S1x128_4_0) (fun _ => rfl)).squeeze S128 squeezes_S1x128_S128).view.set]{fullShare} g4)
          ∗ (((sI.slice (Rect.unit (s := S6x128) ![5, 0] S1x128.size inb_S6x128_S1x128_5_0) (fun _ => rfl)).squeeze S128 squeezes_S1x128_S128).view.loc (V d (cV L) (jV L)) ↦[((sI.slice (Rect.unit (s := S6x128) ![5, 0] S1x128.size inb_S6x128_S1x128_5_0) (fun _ => rfl)).squeeze S128 squeezes_S1x128_S128).view.set]{fullShare} g5)) : sProp 𝕄)
      ⊢ iprop(∃ f, sI.view.loc (V d (cV L) (jV L)) ↦{fullShare} f) := by
  have h := pointsTo_biUnion_join (Ix := HIx 2) (Val := Elt F) (Name := ℕ) (U := UU) (Lvl := ℕ) (ℓ := (V d (cV L) (jV L)).loc cc3_scratch0) (q := fullShare)
    (Finset.univ : Finset (Fin 6)) iSet ![g0, g1, g2, g3, g4, g5] g0 iSet_disjoint
  rw [bigSep_fin6, iSet_cover] at h
  exact BI.Entails.trans h (ex_forget _)

/-! ## The row scratch is its six slots -/

/-- Slot b of the row scratch: block b of its six blocks of 128 rows of 128 words. -/
abbrev rSlot (b : Fin 6) : Rect S6x128x128 :=
  Rect.unit (s := S6x128x128) ![b.val, 0, 0] S1x128x128.size (fun a => match a with
    | ⟨0, _⟩ => (by show b.val + 1 ≤ 6; omega)
    | ⟨1, _⟩ => (by show 0 + 128 ≤ 128; omega)
    | ⟨2, _⟩ => (by show 0 + 128 ≤ 128; omega))

/-- Its elements, as the slot's memref (sliced out, then squeezed to 128 rows of 128 words) has them. -/
abbrev rSet (b : Fin 6) : Finset S6x128x128.Idx :=
  ((sR.slice (rSlot b) (fun _ => rfl)).squeeze S128x128 squeezes_S1x128x128_S128x128).view.set

theorem rSet_eq (b : Fin 6) : rSet b = (rSlot b).set := by
  show (((View.whole (cc3_scratch1 : Ref sig .scVector)).slice (rSlot b)).reshape S128x128 _).set = _
  rw [View.set_reshape, View.set_slice]; exact Finset.map_refl

/-- Two slots share no word: they lie in different blocks. -/
theorem rSet_disjoint : ∀ b ∈ (Finset.univ : Finset (Fin 6)), ∀ b' ∈ (Finset.univ : Finset (Fin 6)), b ≠ b' → Disjoint (rSet b) (rSet b') :=
  fun b _ b' _ h => by
    rw [rSet_eq, rSet_eq]
    refine Rect.unit_disjoint (0 : Fin 3) ?_
    have hv : b.val ≠ b'.val := fun e => h (Fin.ext e)
    show b.val + 1 ≤ b'.val ∨ b'.val + 1 ≤ b.val
    omega

/-- Every word lies in the slot its block names. -/
theorem rSet_cover : (Finset.univ : Finset (Fin 6)).biUnion rSet = Finset.univ := by
  ext i
  simp only [Finset.mem_biUnion, Finset.mem_univ, true_and, iff_true]
  refine ⟨⟨(i 0).val, (i 0).isLt⟩, ?_⟩
  rw [rSet_eq, Rect.mem_set_unit]
  intro a
  match a with
  | ⟨0, _⟩ => exact ⟨Nat.le_refl _, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩

theorem sR_pts_slots (d : Dev nD) (L : grid3.Coords) (f : Buf (Elt F) ((V d (cV L) (jV L)).loc cc3_scratch1)) :
    ((V d (cV L) (jV L)).loc cc3_scratch1 ↦{fullShare} f : sProp 𝕄)
      = bigSep Finset.univ fun b : Fin 6 => (V d (cV L) (jV L)).loc cc3_scratch1 ↦[rSet b]{fullShare} f := by
  rw [← pointsTo_biUnion Finset.univ (ℓ := (V d (cV L) (jV L)).loc cc3_scratch1) rSet rSet_disjoint, rSet_cover]; try rfl

/-- The row scratch held whole is its six slots held, each as the program spells the slot. -/
theorem sR_slots (d : Dev nD) (L : grid3.Coords) (f : Buf (Elt F) (sR.view.loc (V d (cV L) (jV L)))) :
    (sR.view.loc (V d (cV L) (jV L)) ↦{fullShare} f : sProp 𝕄)
      ⊢ iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} f)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} f)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} f)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} f)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} f)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} f)) :=
  Entails.of_eq ((sR_pts_slots d L f).trans (bigSep_fin6 _))

/-- Six slots held, at whatever contents each, are the row scratch held whole at some contents. -/
theorem sR_join (d : Dev nD) (L : grid3.Coords) (g0 g1 g2 g3 g4 g5 : Buf (Elt F) (sR.view.loc (V d (cV L) (jV L)))) :
    (iprop((((sR.slice (Rect.unit (s := S6x128x128) ![0, 0, 0] S1x128x128.size inb_S6x128x128_S1x128x128_0_0_0) (fun _ => rfl)).squeeze S128x128 squeezes_S1x128x128_S128x128).view.loc (V d (cV L) (jV L)) ↦[((sR.slice (Rect.unit (s := S6x128x128) ![0, 0, 0] S1x128x128.size inb_S6x128x128_S1x128x128_0_0_0) (fun _ => rfl)).squeeze S128x128 squeezes_S1x128x128_S128x128).view.set]{fullShare} g0)
          ∗ (((sR.slice (Rect.unit (s := S6x128x128) ![1, 0, 0] S1x128x128.size inb_S6x128x128_S1x128x128_1_0_0) (fun _ => rfl)).squeeze S128x128 squeezes_S1x128x128_S128x128).view.loc (V d (cV L) (jV L)) ↦[((sR.slice (Rect.unit (s := S6x128x128) ![1, 0, 0] S1x128x128.size inb_S6x128x128_S1x128x128_1_0_0) (fun _ => rfl)).squeeze S128x128 squeezes_S1x128x128_S128x128).view.set]{fullShare} g1)
          ∗ (((sR.slice (Rect.unit (s := S6x128x128) ![2, 0, 0] S1x128x128.size inb_S6x128x128_S1x128x128_2_0_0) (fun _ => rfl)).squeeze S128x128 squeezes_S1x128x128_S128x128).view.loc (V d (cV L) (jV L)) ↦[((sR.slice (Rect.unit (s := S6x128x128) ![2, 0, 0] S1x128x128.size inb_S6x128x128_S1x128x128_2_0_0) (fun _ => rfl)).squeeze S128x128 squeezes_S1x128x128_S128x128).view.set]{fullShare} g2)
          ∗ (((sR.slice (Rect.unit (s := S6x128x128) ![3, 0, 0] S1x128x128.size inb_S6x128x128_S1x128x128_3_0_0) (fun _ => rfl)).squeeze S128x128 squeezes_S1x128x128_S128x128).view.loc (V d (cV L) (jV L)) ↦[((sR.slice (Rect.unit (s := S6x128x128) ![3, 0, 0] S1x128x128.size inb_S6x128x128_S1x128x128_3_0_0) (fun _ => rfl)).squeeze S128x128 squeezes_S1x128x128_S128x128).view.set]{fullShare} g3)
          ∗ (((sR.slice (Rect.unit (s := S6x128x128) ![4, 0, 0] S1x128x128.size inb_S6x128x128_S1x128x128_4_0_0) (fun _ => rfl)).squeeze S128x128 squeezes_S1x128x128_S128x128).view.loc (V d (cV L) (jV L)) ↦[((sR.slice (Rect.unit (s := S6x128x128) ![4, 0, 0] S1x128x128.size inb_S6x128x128_S1x128x128_4_0_0) (fun _ => rfl)).squeeze S128x128 squeezes_S1x128x128_S128x128).view.set]{fullShare} g4)
          ∗ (((sR.slice (Rect.unit (s := S6x128x128) ![5, 0, 0] S1x128x128.size inb_S6x128x128_S1x128x128_5_0_0) (fun _ => rfl)).squeeze S128x128 squeezes_S1x128x128_S128x128).view.loc (V d (cV L) (jV L)) ↦[((sR.slice (Rect.unit (s := S6x128x128) ![5, 0, 0] S1x128x128.size inb_S6x128x128_S1x128x128_5_0_0) (fun _ => rfl)).squeeze S128x128 squeezes_S1x128x128_S128x128).view.set]{fullShare} g5)) : sProp 𝕄)
      ⊢ iprop(∃ f, sR.view.loc (V d (cV L) (jV L)) ↦{fullShare} f) := by
  have h := pointsTo_biUnion_join (Ix := HIx 2) (Val := Elt F) (Name := ℕ) (U := UU) (Lvl := ℕ) (ℓ := (V d (cV L) (jV L)).loc cc3_scratch1) (q := fullShare)
    (Finset.univ : Finset (Fin 6)) rSet ![g0, g1, g2, g3, g4, g5] g0 rSet_disjoint
  rw [bigSep_fin6, rSet_cover] at h
  exact BI.Entails.trans h (ex_forget _)

end Cert.Kernel.Hand.C1
end
-- ==== Proof.Bits.ScTile1.lean ====
/-
  The obligation of one vector subcore's task of gather call 1, as the SparseCore launch asks it: from the level facts, the
  task's operands (its read shares of table and index list, its result windows at what the result held), the subcore's scoped
  buffers and semaphores and what it owes, the kernel's body runs to the result windows at the gathered rows, the scoped
  storage back, and what it owes unchanged. The subcore's own semaphores are the ring's eighteen and the rest, its own
  buffers the two scratch buffers — each its six slots — and the rest; the rest rides along the run.
-/
import proofs.«208461_g52518860095779_cont_9to1_m_1075_29_alg».proof.Proof.Bits.ScTile1Run
import proofs.«208461_g52518860095779_cont_9to1_m_1075_29_alg».proof.Proof.Bits.ScTile1Setup

noncomputable section

namespace Cert.Kernel.Hand.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The tile's coordinates and its windows -/

/-- The grid coordinates of tile (c, s). -/
def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_k (coordsV c s)
          tW (Memref.isWhole_whole _) iW (Memref.isWhole_whole _) oW (Memref.isWhole_whole _)
          sI (Memref.isWhole_whole _) sR (Memref.isWhole_whole _) cc3_scratch2 cc3_scratch3 cc3_scratch4) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Wrap
variable (d : Dev nD) (L : grid3.Coords)

/-- The tile's SparseCore and subcore, as the call's payload counts them. -/
abbrev cL : Fin 2 := Fin.cast (by rfl) (L 0)
abbrev sL : Fin 16 := Fin.cast (by rfl) (L 1)

theorem wid_L : wid (cL L) (sL L) = 2 * (L 1).val + (L 0).val := by
  show (L 1).val * 2 + (L 0).val = _; omega
/-- The tile's first window, -/
theorem lo_L : lo1 (wid (cL L) (sL L)) = loL L := by rw [wid_L]; rfl
/-- and the end of its windows. -/
theorem hi_L : hi1 (wid (cL L) (sL L)) = loL L + nW L := by
  rw [wid_L]; unfold hi1 nW loL
  by_cases h : 2 * (L 1).val + (L 0).val < 8 <;> simp only [h, if_true, if_false] <;> omega

/-- What the call hands the tile, in the spelling of the tile's run. -/
theorem tile0_eq (tb : Dev nD → Tab (F := F)) (ix : Dev nD → Ix1 (F := F)) (g : Dev nD → Out1 (F := F)) :
    (tile1 tb ix g d (cL L) (sL L) : sProp 𝕄)
      = iprop(((tW).view.loc (V d (cV L) (jV L)) ↦{qTile (cL L) (sL L)} tb d) ∗ ((iW).view.loc (V d (cV L) (jV L)) ↦{qTile (cL L) (sL L)} ix d)
          ∗ bigSep (Ring.rangeSet 5000 (loL L) (loL L + nW L)) fun w => oLoc1 d ↦[oSet1 w]{fullShare} g d) := by
  unfold tile1; rw [lo_L, hi_L]

theorem todoP_zero (g : Out1 (F := F)) :
    (todoP d L g 0 : sProp 𝕄) = bigSep (Ring.rangeSet 5000 (loL L) (loL L + nW L)) fun w => oLoc1 d ↦[oSet1 w]{fullShare} g := by
  unfold todoP; rw [Nat.mul_zero, Nat.add_zero]

set_option maxHeartbeats 4000000 in
/-- The task of tile L of device d: its own cells and buffers opened, the run, and everything handed back. -/
theorem tile_wrap (tb : Dev nD → Tab (F := F)) (ix : Dev nD → Ix1 (F := F)) (f1 : Dev nD → Out1 (F := F))
    (hin : ∀ j, (ix d j).toNat < 20000) (O : CellTallies nD τ sig (HIx 2)) (W : Waits sig (HIx 2)) (hO : ∀ g, O g none = 0) :
    iprop(levAts (K (F := F)).L (K (F := F)).lev ∗ emp ∗ tile1 tb ix f1 d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L tW (Memref.isWhole_whole _) iW (Memref.isWhole_whole _) oW (Memref.isWhole_whole _)
            sI (Memref.isWhole_whole _) sR (Memref.isWhole_whole _) cc3_scratch2 cc3_scratch3 cc3_scratch4)
          fun _ => iprop(tile1 tb ix (fun d => gath1 (tb d) (ix d)) d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V,
    tile0_eq, tile0_eq]
  iintro ⟨#Hlv, -, ⟨Ht, Hi, Hw⟩, ⟨⟨%fi, HsI⟩, ⟨%fr, HsR⟩, Hbr⟩, ⟨S20, S21, S22, S23, S24, S25, S30, S31, S32, S33, S34, S35, S40, S41, S42, S43, S44, S45, Hsr⟩, HO⟩
  ihave HMW := ((K (F := F)).mayWaits_none (thr := (V d (cV L) (jV L))) hO) $$ Hlv
  icases (sI_slots d L fi) $$ HsI with ⟨I0, I1, I2, I3, I4, I5⟩
  icases (sR_slots d L fr) $$ HsR with ⟨R0, R1, R2, R3, R4, R5⟩
  iapply (wp_wand_r frame _ Set.univ)
  isplitl [HMW Ht Hi Hw I0 I1 I2 I3 I4 I5 R0 R1 R2 R3 R4 R5 S20 S21 S22 S23 S24 S25 S30 S31 S32 S33 S34 S35 S40 S41 S42 S43 S44 S45 HO]
  · iapply (tile_run d L (qTile (cL L) (sL L)) (tb d) (ix d) (f1 d) O W hin)
    unfold preRun
    rw [todoP_zero]
    isplitl [HMW]; · iexact HMW
    isplitl [Ht]; · iexact Ht
    isplitl [Hi]; · iexact Hi
    isplitl [Hw]; · iexact Hw
    isplitl [I0]; · iexists fi; iexact I0
    isplitl [I1]; · iexists fi; iexact I1
    isplitl [I2]; · iexists fi; iexact I2
    isplitl [I3]; · iexists fi; iexact I3
    isplitl [I4]; · iexists fi; iexact I4
    isplitl [I5]; · iexists fi; iexact I5
    isplitl [R0]; · iexists fr; iexact R0
    isplitl [R1]; · iexists fr; iexact R1
    isplitl [R2]; · iexists fr; iexact R2
    isplitl [R3]; · iexists fr; iexact R3
    isplitl [R4]; · iexists fr; iexact R4
    isplitl [R5]; · iexists fr; iexact R5
    isplitl [S20]; · iexact S20
    isplitl [S21]; · iexact S21
    isplitl [S22]; · iexact S22
    isplitl [S23]; · iexact S23
    isplitl [S24]; · iexact S24
    isplitl [S25]; · iexact S25
    isplitl [S30]; · iexact S30
    isplitl [S31]; · iexact S31
    isplitl [S32]; · iexact S32
    isplitl [S33]; · iexact S33
    isplitl [S34]; · iexact S34
    isplitl [S35]; · iexact S35
    isplitl [S40]; · iexact S40
    isplitl [S41]; · iexact S41
    isplitl [S42]; · iexact S42
    isplitl [S43]; · iexact S43
    isplitl [S44]; · iexact S44
    isplitl [S45]; · iexact S45
    iexact HO
  · iintro %_ Hpost
    unfold postRun
    icases Hpost with ⟨Ht, Hi, Hw, ⟨%gi0, I0⟩, ⟨%gi1, I1⟩, ⟨%gi2, I2⟩, ⟨%gi3, I3⟩, ⟨%gi4, I4⟩, ⟨%gi5, I5⟩, ⟨%gr0, R0⟩, ⟨%gr1, R1⟩, ⟨%gr2, R2⟩, ⟨%gr3, R3⟩, ⟨%gr4, R4⟩, ⟨%gr5, R5⟩, S20, S21, S22, S23, S24, S25, S30, S31, S32, S33, S34, S35, S40, S41, S42, S43, S44, S45, HO⟩
    isplitl [Ht Hi Hw]
    · isplitl [Ht]; · iexact Ht
      isplitl [Hi]; · iexact Hi
      iexact Hw
    isplitl [I0 I1 I2 I3 I4 I5 R0 R1 R2 R3 R4 R5 Hbr]
    · isplitl [I0 I1 I2 I3 I4 I5]
      · iapply (sI_join d L gi0 gi1 gi2 gi3 gi4 gi5)
        isplitl [I0]; · iexact I0
        isplitl [I1]; · iexact I1
        isplitl [I2]; · iexact I2
        isplitl [I3]; · iexact I3
        isplitl [I4]; · iexact I4
        iexact I5
      isplitl [R0 R1 R2 R3 R4 R5]
      · iapply (sR_join d L gr0 gr1 gr2 gr3 gr4 gr5)
        isplitl [R0]; · iexact R0
        isplitl [R1]; · iexact R1
        isplitl [R2]; · iexact R2
        isplitl [R3]; · iexact R3
        isplitl [R4]; · iexact R4
        iexact R5
      iexact Hbr
    isplitl [S20 S21 S22 S23 S24 S25 S30 S31 S32 S33 S34 S35 S40 S41 S42 S43 S44 S45 Hsr]
    ·
      isplitl [S20]; · iexact S20
      isplitl [S21]; · iexact S21
      isplitl [S22]; · iexact S22
      isplitl [S23]; · iexact S23
      isplitl [S24]; · iexact S24
      isplitl [S25]; · iexact S25
      isplitl [S30]; · iexact S30
      isplitl [S31]; · iexact S31
      isplitl [S32]; · iexact S32
      isplitl [S33]; · iexact S33
      isplitl [S34]; · iexact S34
      isplitl [S35]; · iexact S35
      isplitl [S40]; · iexact S40
      isplitl [S41]; · iexact S41
      isplitl [S42]; · iexact S42
      isplitl [S43]; · iexact S43
      isplitl [S44]; · iexact S44
      isplitl [S45]; · iexact S45
      iexact Hsr
    iexact HO

end Wrap

/-! ## The launch theorem's obligation -/

section Obl
variable (tb0 : Dev nD → Tab (F := F)) (ix0 : Dev nD → Ix0 (F := F)) (f0 : Dev nD → Out0 (F := F))
variable (tb1 : Dev nD → Tab (F := F)) (ix1 : Dev nD → Ix1 (F := F)) (f1 : Dev nD → Out1 (F := F))

set_option maxHeartbeats 4000000 in
/-- Gather call 1, as one vector subcore's task: the launch theorem's obligation for it. -/
theorem tileObl1 (hin1 : ∀ d j, (ix1 d j).toNat < 20000) :
    (K (F := F)).TileObl (D (F := F)) 𝒱 (P tb0 ix0 f0 tb1 ix1 f1) v₀ 1 := by
  intro d c i O W hO _ _
  simp only [P_ox, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector]; simp only [SparseCore.onTile, hc, and_self, ↓reduceDIte]
  exact (tile_wrap d (coordsV ⟨_, hc.1⟩ ⟨_, hc.2⟩) tb1 ix1 f1 (hin1 d) O W hO).trans (wp_mono frame _ _ fun _ => obl_post)

end Obl

end Cert.Kernel.Hand.C1

end
-- ==== Proof.lean ====
/-
  The five claims of this certificate. The kernel is a SparseCore program: two gather calls on the vector subcores
  between three TensorCore pipelines (square roots of the atom features; the neighbour-weighted node update; the
  edge update with its batch-wide column normalisation). Its frames, at the word-level and at the ideal instance, are
  the SparseCore launch theorem applied to the tiles' gather rings and to @main on the TensorCore, each pipeline
  entered by the region rule inside it; the reference's frame is its run as a straight line of host operations; the
  idealization rewrote nothing; and the value claim compares, index by index, what the kernel's pipelines leave with
  what the reference computes: (x^2)^(1/4) is the square root of |x|, (s^(1/2))^(-2) is 1/s for a positive sum of
  squares (the precondition's last conjunct), a product with a reciprocal of a positive real is the quotient, a rectified
  value is its own absolute value, and a contraction over 256 columns is the sum of its two halves.
-/
import proofs.«208461_g52518860095779_cont_9to1_m_1075_29_alg».proof.Defs
import proofs.«208461_g52518860095779_cont_9to1_m_1075_29_alg».proof.Proof.Algebraic
import proofs.«208461_g52518860095779_cont_9to1_m_1075_29_alg».proof.Proof.RefFrame
import proofs.«208461_g52518860095779_cont_9to1_m_1075_29_alg».proof.Proof.Bits.Frames
import proofs.«208461_g52518860095779_cont_9to1_m_1075_29_alg».proof.Proof.Bits.Region2
import proofs.«208461_g52518860095779_cont_9to1_m_1075_29_alg».proof.Proof.Bits.ScTile0
import proofs.«208461_g52518860095779_cont_9to1_m_1075_29_alg».proof.Proof.Bits.ScTile1
import Idealize.ShloMosaic.Adequacy
import Idealize.ShloMosaic.Init

noncomputable section

namespace Cert.Proof

open Idealize.ShloMosaic Idealize.SL.Sem

/-- The edge-update pipeline of the word-level program changes its result array only. -/
theorem upd2_keptB (X : Valuation Cert.Kernel.τ Cert.Kernel.sig (Elt Bits)) (b : DevRef Cert.Kernel.τ Cert.Kernel.sig)
    (hb : b ≠ Cert.Kernel.Hand.rf Cert.Kernel.main_v31) : Cert.Kernel.Hand.upd2 X b = X b := by
  unfold Cert.Kernel.Hand.upd2; exact Function.update_of_ne hb _ _

/-- The kernel program's frame at the word-level instance. -/
theorem frame_Kernel : Cert.frame_Kernel := fun m ρ hpre =>
  Cert.Kernel.Hand.frame_gen (F := Bits) Cert.Kernel.Hand.upd2 upd2_keptB
    (fun d X O W hO _ k Q => Cert.Kernel.Hand.region2 d X O W hO k Q)
    (fun m hin => Cert.Kernel.Hand.tileObl0 _ _ _ _ _ _ hin) (fun m hin => Cert.Kernel.Hand.C1.tileObl1 _ _ _ _ _ _ hin) m ρ
    (fun d j => Cert.PreFacts.adj_range (hpre d) j) (fun d j => Cert.PreFacts.tup_range (hpre d) j)

theorem claim : Cert.Claim :=
  ⟨Cert.Kernel.Gen.facts, Cert.KernelIdeal.Gen.facts, Cert.ReferenceIdeal.Gen.facts, Cert.Pre_input_domain.Gen.facts,
    frame_Kernel, frame_KernelIdeal, Cert.ReferenceIdeal.RefRun.frame, trivial, algebraic⟩

end Cert.Proof

end
